-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 256]⟩ ⟨2, ![4096, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S256x512 : Shape := ⟨2, ![256, 512]⟩
abbrev S512x256 : Shape := ⟨2, ![512, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg4 : FVec F S512x256 .f32) (main_arg5 : FVec F S256x512 .f32) (main_arg6 : FVec F S512x256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256x512 .f32 := Host.absf main_arg5
  let main_cst_8 : FVec F S_ .f32 := constant S_ .f32 0x7F800000#32
  let main_v25 : FVec F S256x512 .f32 := broadcastInDim S256x512 ![] bcast_S_S256x512 main_cst_8
  let main_v26 : IVec S256x512 1 := cmpf .olt main_v24 main_v25
  let main_c_9 : IVec S_ 1 := constantI S_ 1 1#1
  let main_v27 : IVec S_ 1 := (fun x v => Host.reduce IntOp.andi x v reducesTo_S256x512_S_d0_1 h_S_) main_v26 main_c_9
  let main_v28 : IVec S_ 1 := andi main_v23 main_v27
  let main_v29 : FVec F S512x256 .f32 := Host.absf main_arg6
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  main_v33

def fn {F : FTy → Type} [FloatOps F] (main_arg0 : FVec F S256x256 .f32) (main_arg1 : FVec F S256x512 .f32) (main_arg2 : FVec F S512x256 .f32) (main_arg3 : FVec F S256x512 .f32) (main_arg4 : FVec F S512x256 .f32) (main_arg5 : FVec F S256x512 .f32) (main_arg6 : FVec F S512x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_v13 main_v16
-- ==== Pre_finite_inputs_ReferenceIdeal.lean ====
abbrev S4096x256 : Shape := ⟨2, ![4096, 256]⟩
abbrev S256x8192 : Shape := ⟨2, ![256, 8192]⟩
abbrev S8192x256 : Shape := ⟨2, ![8192, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x8192 : S_.BroadcastsInDim S256x8192 (![] : Fin 0 → Fin S256x8192.rank)
  reducesTo_S256x8192_S_d0_1 : S256x8192.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn_part1 {F : FTy → Type} [FloatOps F] (main_arg4 : FVec F S8192x256 .f32) (main_arg5 : FVec F S256x8192 .f32) (main_arg6 : FVec F S8192x256 .f32) (main_v13 : IVec S_ 1) (main_v16 : IVec S256x8192 1) : IVec S_ 1 :=
  let main_c_5 : IVec S_ 1 := constantI S_ 1 1#1
  let main_v17 : IVec S_ 1 := (fun x v => Host.reduce IntOp.andi x v reducesTo_S256x8192_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  let main_v24 : FVec F S256x8192 .f32 := Host.absf main_arg5
  let main_cst_8 : FVec F S_ .f32 := constant S_ .f32 0x7F800000#32
  let main_v25 : FVec F S256x8192 .f32 := broadcastInDim S256x8192 ![] bcast_S_S256x8192 main_cst_8
  let main_v26 : IVec S256x8192 1 := cmpf .olt main_v24 main_v25
  let main_c_9 : IVec S_ 1 := constantI S_ 1 1#1
  let main_v27 : IVec S_ 1 := (fun x v => Host.reduce IntOp.andi x v reducesTo_S256x8192_S_d0_1 h_S_) main_v26 main_c_9
  let main_v28 : IVec S_ 1 := andi main_v23 main_v27
  let main_v29 : FVec F S8192x256 .f32 := Host.absf main_arg6
  let main_cst_10 : FVec F S_ .f32 := constant S_ .f32 0x7F800000#32
  let main_v30 : FVec F S8192x256 .f32 := broadcastInDim S8192x256 ![] bcast_S_S8192x256 main_cst_10
  let main_v31 : IVec S8192x256 1 := cmpf .olt main_v29 main_v30
  let main_c_11 : IVec S_ 1 := constantI S_ 1 1#1
  let main_v32 : IVec S_ 1 := (fun x v => Host.reduce IntOp.andi x v reducesTo_S8192x256_S_d0_1 h_S_) main_v31 main_c_11
  let main_v33 : IVec S_ 1 := andi main_v28 main_v32
  main_v33

def fn {F : FTy → Type} [FloatOps F] (main_arg0 : FVec F S4096x256 .f32) (main_arg1 : FVec F S256x8192 .f32) (main_arg2 : FVec F S8192x256 .f32) (main_arg3 : FVec F S256x8192 .f32) (main_arg4 : FVec F S8192x256 .f32) (main_arg5 : FVec F S256x8192 .f32) (main_arg6 : FVec F S8192x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x8192 .f32 := Host.absf main_arg1
  let main_cst_0 : FVec F S_ .f32 := constant S_ .f32 0x7F800000#32
  let main_v5 : FVec F S256x8192 .f32 := broadcastInDim S256x8192 ![] bcast_S_S256x8192 main_cst_0
  let main_v6 : IVec S256x8192 1 := cmpf .olt main_v4 main_v5
  let main_c_1 : IVec S_ 1 := constantI S_ 1 1#1
  let main_v7 : IVec S_ 1 := (fun x v => Host.reduce IntOp.andi x v reducesTo_S256x8192_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S256x8192 .f32 := Host.absf main_arg3
  let main_cst_4 : FVec F S_ .f32 := constant S_ .f32 0x7F800000#32
  let main_v15 : FVec F S256x8192 .f32 := broadcastInDim S256x8192 ![] bcast_S_S256x8192 main_cst_4
  let main_v16 : IVec S256x8192 1 := cmpf .olt main_v14 main_v15
  fn_part1 (F := F) main_arg4 main_arg5 main_arg6 main_v13 main_v16
-- ==== Kernel.lean ====
abbrev S256x256 : Shape := ⟨2, ![256, 256]⟩
abbrev S256x512 : Shape := ⟨2, ![256, 512]⟩
abbrev S512x256 : Shape := ⟨2, ![512, 256]⟩
abbrev S4096x256 : Shape := ⟨2, ![4096, 256]⟩
abbrev S15x256x256 : Shape := ⟨3, ![15, 256, 256]⟩
abbrev S15 : Shape := ⟨1, ![15]⟩
abbrev S_ : Shape := ⟨0, ![]⟩
abbrev S1 : Shape := ⟨1, ![1]⟩
abbrev S512x512 : Shape := ⟨2, ![512, 512]⟩
abbrev S1x256x256 : Shape := ⟨3, ![1, 256, 256]⟩

abbrev nBuf : Space → Nat
  | .hbm => 8
  | .vmem => 11
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x512, .f32⟩
  | .hbm, ⟨4, _⟩ => ⟨S512x256, .f32⟩
  | .hbm, ⟨5, _⟩ => ⟨S256x512, .f32⟩
  | .hbm, ⟨6, _⟩ => ⟨S512x256, .f32⟩
  | .hbm, ⟨7, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S256x256, .f32⟩
  | .local _ .vmem, ⟨8, _⟩ => ⟨S4096x256, .bf16⟩
  | .local _ .vmem, ⟨9, _⟩ => ⟨S4096x256, .bf16⟩
  | .local _ .vmem, ⟨10, _⟩ => ⟨S15x256x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v205 : BitVec 32 := Scalar.addi v2 c1_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c1_i32_148 : BitVec 32 := 1#32
  let v216 : BitVec 32 := Scalar.muli v215 c1_i32_148
  let v217 : BitVec 32 := Scalar.addi c0_i32_149 v216
  v217.toNat
def k0_dev17 (d0 : Dev nD) : Nat :=
  let c0_i32_163 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_153 : BitVec 32 := 2#32
  let v224 : BitVec 32 := Scalar.addi v2 c2_i32_153
  let c16_i32_154 : BitVec 32 := 16#32
  let c0_i32_155 : BitVec 32 := 0#32
  let v225 : BitVec 1 := Scalar.cmpi .eq c16_i32_154 c0_i32_155
  let c1_i32_156 : BitVec 32 := 1#32
  let v226 : BitVec 32 := Scalar.select v225 c1_i32_156 c16_i32_154
  let v227 : BitVec 32 := Scalar.remsi v224 v226
  let c0_i32_158 : BitVec 32 := 0#32
  let v229 : BitVec 1 := Scalar.cmpi .slt v227 c0_i32_158
  let c0_i32_159 : BitVec 32 := 0#32
  let v230 : BitVec 1 := Scalar.cmpi .slt v226 c0_i32_159
  let v231 : BitVec 1 := Scalar.xori v229 v230
  let c0_i32_157 : BitVec 32 := 0#32
  let v228 : BitVec 1 := Scalar.cmpi .ne v227 c0_i32_157
  let v232 : BitVec 1 := Scalar.andi v231 v228
  let v233 : BitVec 32 := Scalar.addi v227 v226
  let v234 : BitVec 32 := Scalar.select v232 v233 v227
  let c1_i32_162 : BitVec 32 := 1#32
  let v235 : BitVec 32 := Scalar.muli v234 c1_i32_162
  let v236 : BitVec 32 := Scalar.addi c0_i32_163 v235
  v236.toNat
def k0_dev18 (d0 : Dev nD) : Nat :=
  let c0_i32_177 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_167 : BitVec 32 := 3#32
  let v243 : BitVec 32 := Scalar.addi v2 c3_i32_167
  let c16_i32_168 : BitVec 32 := 16#32
  let c0_i32_169 : BitVec 32 := 0#32
  let v244 : BitVec 1 := Scalar.cmpi .eq c16_i32_168 c0_i32_169
  let c1_i32_170 : BitVec 32 := 1#32
  let v245 : BitVec 32 := Scalar.select v244 c1_i32_170 c16_i32_168
  let v246 : BitVec 32 := Scalar.remsi v243 v245
  let c0_i32_172 : BitVec 32 := 0#32
  let v248 : BitVec 1 := Scalar.cmpi .slt v246 c0_i32_172
  let c0_i32_173 : BitVec 32 := 0#32
  let v249 : BitVec 1 := Scalar.cmpi .slt v245 c0_i32_173
  let v250 : BitVec 1 := Scalar.xori v248 v249
  let c0_i32_171 : BitVec 32 := 0#32
  let v247 : BitVec 1 := Scalar.cmpi .ne v246 c0_i32_171
  let v251 : BitVec 1 := Scalar.andi v250 v247
  let v252 : BitVec 32 := Scalar.addi v246 v245
  let v253 : BitVec 32 := Scalar.select v251 v252 v246
  let c1_i32_176 : BitVec 32 := 1#32
  let v254 : BitVec 32 := Scalar.muli v253 c1_i32_176
  let v255 : BitVec 32 := Scalar.addi c0_i32_177 v254
  v255.toNat
def k0_dev19 (d0 : Dev nD) : Nat :=
  let c0_i32_191 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_181 : BitVec 32 := 4#32
  let v262 : BitVec 32 := Scalar.addi v2 c4_i32_181
  let c16_i32_182 : BitVec 32 := 16#32
  let c0_i32_183 : BitVec 32 := 0#32
  let v263 : BitVec 1 := Scalar.cmpi .eq c16_i32_182 c0_i32_183
  let c1_i32_184 : BitVec 32 := 1#32
  let v264 : BitVec 32 := Scalar.select v263 c1_i32_184 c16_i32_182
  let v265 : BitVec 32 := Scalar.remsi v262 v264
  let c0_i32_186 : BitVec 32 := 0#32
  let v267 : BitVec 1 := Scalar.cmpi .slt v265 c0_i32_186
  let c0_i32_187 : BitVec 32 := 0#32
  let v268 : BitVec 1 := Scalar.cmpi .slt v264 c0_i32_187
  let v269 : BitVec 1 := Scalar.xori v267 v268
  let c0_i32_185 : BitVec 32 := 0#32
  let v266 : BitVec 1 := Scalar.cmpi .ne v265 c0_i32_185
  let v270 : BitVec 1 := Scalar.andi v269 v266
  let v271 : BitVec 32 := Scalar.addi v265 v264
  let v272 : BitVec 32 := Scalar.select v270 v271 v265
  let c1_i32_190 : BitVec 32 := 1#32
  let v273 : BitVec 32 := Scalar.muli v272 c1_i32_190
  let v274 : BitVec 32 := Scalar.addi c0_i32_191 v273
  v274.toNat
def k0_dev20 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_195 : BitVec 32 := 5#32
  let v281 : BitVec 32 := Scalar.addi v2 c5_i32_195
  let c16_i32_196 : BitVec 32 := 16#32
  let c0_i32_197 : BitVec 32 := 0#32
  let v282 : BitVec 1 := Scalar.cmpi .eq c16_i32_196 c0_i32_197
  let c1_i32_198 : BitVec 32 := 1#32
  let v283 : BitVec 32 := Scalar.select v282 c1_i32_198 c16_i32_196
  let v284 : BitVec 32 := Scalar.remsi v281 v283
  let c0_i32_200 : BitVec 32 := 0#32
  let v286 : BitVec 1 := Scalar.cmpi .slt v284 c0_i32_200
  let c0_i32_201 : BitVec 32 := 0#32
  let v287 : BitVec 1 := Scalar.cmpi .slt v283 c0_i32_201
  let v288 : BitVec 1 := Scalar.xori v286 v287
  let c0_i32_199 : BitVec 32 := 0#32
  let v285 : BitVec 1 := Scalar.cmpi .ne v284 c0_i32_199
  let v289 : BitVec 1 := Scalar.andi v288 v285
  let v290 : BitVec 32 := Scalar.addi v284 v283
  let v291 : BitVec 32 := Scalar.select v289 v290 v284
  let c1_i32_204 : BitVec 32 := 1#32
  let v292 : BitVec 32 := Scalar.muli v291 c1_i32_204
  let v293 : BitVec 32 := Scalar.addi c0_i32_205 v292
  v293.toNat
def k0_dev21 (d0 : Dev nD) : Nat :=
  let c0_i32_219 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_209 : BitVec 32 := 6#32
  let v300 : BitVec 32 := Scalar.addi v2 c6_i32_209
  let c16_i32_210 : BitVec 32 := 16#32
  let c0_i32_211 : BitVec 32 := 0#32
  let v301 : BitVec 1 := Scalar.cmpi .eq c16_i32_210 c0_i32_211
  let c1_i32_212 : BitVec 32 := 1#32
  let v302 : BitVec 32 := Scalar.select v301 c1_i32_212 c16_i32_210
  let v303 : BitVec 32 := Scalar.remsi v300 v302
  let c0_i32_214 : BitVec 32 := 0#32
  let v305 : BitVec 1 := Scalar.cmpi .slt v303 c0_i32_214
  let c0_i32_215 : BitVec 32 := 0#32
  let v306 : BitVec 1 := Scalar.cmpi .slt v302 c0_i32_215
  let v307 : BitVec 1 := Scalar.xori v305 v306
  let c0_i32_213 : BitVec 32 := 0#32
  let v304 : BitVec 1 := Scalar.cmpi .ne v303 c0_i32_213
  let v308 : BitVec 1 := Scalar.andi v307 v304
  let v309 : BitVec 32 := Scalar.addi v303 v302
  let v310 : BitVec 32 := Scalar.select v308 v309 v303
  let c1_i32_218 : BitVec 32 := 1#32
  let v311 : BitVec 32 := Scalar.muli v310 c1_i32_218
  let v312 : BitVec 32 := Scalar.addi c0_i32_219 v311
  v312.toNat
def k0_dev22 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_223 : BitVec 32 := 7#32
  let v319 : BitVec 32 := Scalar.addi v2 c7_i32_223
  let c16_i32_224 : BitVec 32 := 16#32
  let c0_i32_225 : BitVec 32 := 0#32
  let v320 : BitVec 1 := Scalar.cmpi .eq c16_i32_224 c0_i32_225
  let c1_i32_226 : BitVec 32 := 1#32
  let v321 : BitVec 32 := Scalar.select v320 c1_i32_226 c16_i32_224
  let v322 : BitVec 32 := Scalar.remsi v319 v321
  let c0_i32_228 : BitVec 32 := 0#32
  let v324 : BitVec 1 := Scalar.cmpi .slt v322 c0_i32_228
  let c0_i32_229 : BitVec 32 := 0#32
  let v325 : BitVec 1 := Scalar.cmpi .slt v321 c0_i32_229
  let v326 : BitVec 1 := Scalar.xori v324 v325
  let c0_i32_227 : BitVec 32 := 0#32
  let v323 : BitVec 1 := Scalar.cmpi .ne v322 c0_i32_227
  let v327 : BitVec 1 := Scalar.andi v326 v323
  let v328 : BitVec 32 := Scalar.addi v322 v321
  let v329 : BitVec 32 := Scalar.select v327 v328 v322
  let c1_i32_232 : BitVec 32 := 1#32
  let v330 : BitVec 32 := Scalar.muli v329 c1_i32_232
  let v331 : BitVec 32 := Scalar.addi c0_i32_233 v330
  v331.toNat
def k0_dev23 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_237 : BitVec 32 := 8#32
  let v338 : BitVec 32 := Scalar.addi v2 c8_i32_237
  let c16_i32_238 : BitVec 32 := 16#32
  let c0_i32_239 : BitVec 32 := 0#32
  let v339 : BitVec 1 := Scalar.cmpi .eq c16_i32_238 c0_i32_239
  let c1_i32_240 : BitVec 32 := 1#32
  let v340 : BitVec 32 := Scalar.select v339 c1_i32_240 c16_i32_238
  let v341 : BitVec 32 := Scalar.remsi v338 v340
  let c0_i32_242 : BitVec 32 := 0#32
  let v343 : BitVec 1 := Scalar.cmpi .slt v341 c0_i32_242
  let c0_i32_243 : BitVec 32 := 0#32
  let v344 : BitVec 1 := Scalar.cmpi .slt v340 c0_i32_243
  let v345 : BitVec 1 := Scalar.xori v343 v344
  let c0_i32_241 : BitVec 32 := 0#32
  let v342 : BitVec 1 := Scalar.cmpi .ne v341 c0_i32_241
  let v346 : BitVec 1 := Scalar.andi v345 v342
  let v347 : BitVec 32 := Scalar.addi v341 v340
  let v348 : BitVec 32 := Scalar.select v346 v347 v341
  let c1_i32_246 : BitVec 32 := 1#32
  let v349 : BitVec 32 := Scalar.muli v348 c1_i32_246
  let v350 : BitVec 32 := Scalar.addi c0_i32_247 v349
  v350.toNat
def k0_dev24 (d0 : Dev nD) : Nat :=
  let c0_i32_261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_251 : BitVec 32 := 9#32
  let v357 : BitVec 32 := Scalar.addi v2 c9_i32_251
  let c16_i32_252 : BitVec 32 := 16#32
  let c0_i32_253 : BitVec 32 := 0#32
  let v358 : BitVec 1 := Scalar.cmpi .eq c16_i32_252 c0_i32_253
  let c1_i32_254 : BitVec 32 := 1#32
  let v359 : BitVec 32 := Scalar.select v358 c1_i32_254 c16_i32_252
  let v360 : BitVec 32 := Scalar.remsi v357 v359
  let c0_i32_256 : BitVec 32 := 0#32
  let v362 : BitVec 1 := Scalar.cmpi .slt v360 c0_i32_256
  let c0_i32_257 : BitVec 32 := 0#32
  let v363 : BitVec 1 := Scalar.cmpi .slt v359 c0_i32_257
  let v364 : BitVec 1 := Scalar.xori v362 v363
  let c0_i32_255 : BitVec 32 := 0#32
  let v361 : BitVec 1 := Scalar.cmpi .ne v360 c0_i32_255
  let v365 : BitVec 1 := Scalar.andi v364 v361
  let v366 : BitVec 32 := Scalar.addi v360 v359
  let v367 : BitVec 32 := Scalar.select v365 v366 v360
  let c1_i32_260 : BitVec 32 := 1#32
  let v368 : BitVec 32 := Scalar.muli v367 c1_i32_260
  let v369 : BitVec 32 := Scalar.addi c0_i32_261 v368
  v369.toNat
def k0_dev25 (d0 : Dev nD) : Nat :=
  let c0_i32_275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_265 : BitVec 32 := 10#32
  let v376 : BitVec 32 := Scalar.addi v2 c10_i32_265
  let c16_i32_266 : BitVec 32 := 16#32
  let c0_i32_267 : BitVec 32 := 0#32
  let v377 : BitVec 1 := Scalar.cmpi .eq c16_i32_266 c0_i32_267
  let c1_i32_268 : BitVec 32 := 1#32
  let v378 : BitVec 32 := Scalar.select v377 c1_i32_268 c16_i32_266
  let v379 : BitVec 32 := Scalar.remsi v376 v378
  let c0_i32_270 : BitVec 32 := 0#32
  let v381 : BitVec 1 := Scalar.cmpi .slt v379 c0_i32_270
  let c0_i32_271 : BitVec 32 := 0#32
  let v382 : BitVec 1 := Scalar.cmpi .slt v378 c0_i32_271
  let v383 : BitVec 1 := Scalar.xori v381 v382
  let c0_i32_269 : BitVec 32 := 0#32
  let v380 : BitVec 1 := Scalar.cmpi .ne v379 c0_i32_269
  let v384 : BitVec 1 := Scalar.andi v383 v380
  let v385 : BitVec 32 := Scalar.addi v379 v378
  let v386 : BitVec 32 := Scalar.select v384 v385 v379
  let c1_i32_274 : BitVec 32 := 1#32
  let v387 : BitVec 32 := Scalar.muli v386 c1_i32_274
  let v388 : BitVec 32 := Scalar.addi c0_i32_275 v387
  v388.toNat
def k0_dev26 (d0 : Dev nD) : Nat :=
  let c0_i32_289 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_279 : BitVec 32 := 11#32
  let v395 : BitVec 32 := Scalar.addi v2 c11_i32_279
  let c16_i32_280 : BitVec 32 := 16#32
  let c0_i32_281 : BitVec 32 := 0#32
  let v396 : BitVec 1 := Scalar.cmpi .eq c16_i32_280 c0_i32_281
  let c1_i32_282 : BitVec 32 := 1#32
  let v397 : BitVec 32 := Scalar.select v396 c1_i32_282 c16_i32_280
  let v398 : BitVec 32 := Scalar.remsi v395 v397
  let c0_i32_284 : BitVec 32 := 0#32
  let v400 : BitVec 1 := Scalar.cmpi .slt v398 c0_i32_284
  let c0_i32_285 : BitVec 32 := 0#32
  let v401 : BitVec 1 := Scalar.cmpi .slt v397 c0_i32_285
  let v402 : BitVec 1 := Scalar.xori v400 v401
  let c0_i32_283 : BitVec 32 := 0#32
  let v399 : BitVec 1 := Scalar.cmpi .ne v398 c0_i32_283
  let v403 : BitVec 1 := Scalar.andi v402 v399
  let v404 : BitVec 32 := Scalar.addi v398 v397
  let v405 : BitVec 32 := Scalar.select v403 v404 v398
  let c1_i32_288 : BitVec 32 := 1#32
  let v406 : BitVec 32 := Scalar.muli v405 c1_i32_288
  let v407 : BitVec 32 := Scalar.addi c0_i32_289 v406
  v407.toNat
def k0_dev27 (d0 : Dev nD) : Nat :=
  let c0_i32_303 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_293 : BitVec 32 := 12#32
  let v414 : BitVec 32 := Scalar.addi v2 c12_i32_293
  let c16_i32_294 : BitVec 32 := 16#32
  let c0_i32_295 : BitVec 32 := 0#32
  let v415 : BitVec 1 := Scalar.cmpi .eq c16_i32_294 c0_i32_295
  let c1_i32_296 : BitVec 32 := 1#32
  let v416 : BitVec 32 := Scalar.select v415 c1_i32_296 c16_i32_294
  let v417 : BitVec 32 := Scalar.remsi v414 v416
  let c0_i32_298 : BitVec 32 := 0#32
  let v419 : BitVec 1 := Scalar.cmpi .slt v417 c0_i32_298
  let c0_i32_299 : BitVec 32 := 0#32
  let v420 : BitVec 1 := Scalar.cmpi .slt v416 c0_i32_299
  let v421 : BitVec 1 := Scalar.xori v419 v420
  let c0_i32_297 : BitVec 32 := 0#32
  let v418 : BitVec 1 := Scalar.cmpi .ne v417 c0_i32_297
  let v422 : BitVec 1 := Scalar.andi v421 v418
  let v423 : BitVec 32 := Scalar.addi v417 v416
  let v424 : BitVec 32 := Scalar.select v422 v423 v417
  let c1_i32_302 : BitVec 32 := 1#32
  let v425 : BitVec 32 := Scalar.muli v424 c1_i32_302
  let v426 : BitVec 32 := Scalar.addi c0_i32_303 v425
  v426.toNat
def k0_dev28 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_307 : BitVec 32 := 13#32
  let v433 : BitVec 32 := Scalar.addi v2 c13_i32_307
  let c16_i32_308 : BitVec 32 := 16#32
  let c0_i32_309 : BitVec 32 := 0#32
  let v434 : BitVec 1 := Scalar.cmpi .eq c16_i32_308 c0_i32_309
  let c1_i32_310 : BitVec 32 := 1#32
  let v435 : BitVec 32 := Scalar.select v434 c1_i32_310 c16_i32_308
  let v436 : BitVec 32 := Scalar.remsi v433 v435
  let c0_i32_312 : BitVec 32 := 0#32
  let v438 : BitVec 1 := Scalar.cmpi .slt v436 c0_i32_312
  let c0_i32_313 : BitVec 32 := 0#32
  let v439 : BitVec 1 := Scalar.cmpi .slt v435 c0_i32_313
  let v440 : BitVec 1 := Scalar.xori v438 v439
  let c0_i32_311 : BitVec 32 := 0#32
  let v437 : BitVec 1 := Scalar.cmpi .ne v436 c0_i32_311
  let v441 : BitVec 1 := Scalar.andi v440 v437
  let v442 : BitVec 32 := Scalar.addi v436 v435
  let v443 : BitVec 32 := Scalar.select v441 v442 v436
  let c1_i32_316 : BitVec 32 := 1#32
  let v444 : BitVec 32 := Scalar.muli v443 c1_i32_316
  let v445 : BitVec 32 := Scalar.addi c0_i32_317 v444
  v445.toNat
def k0_dev29 (d0 : Dev nD) : Nat :=
  let c0_i32_331 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_321 : BitVec 32 := 14#32
  let v452 : BitVec 32 := Scalar.addi v2 c14_i32_321
  let c16_i32_322 : BitVec 32 := 16#32
  let c0_i32_323 : BitVec 32 := 0#32
  let v453 : BitVec 1 := Scalar.cmpi .eq c16_i32_322 c0_i32_323
  let c1_i32_324 : BitVec 32 := 1#32
  let v454 : BitVec 32 := Scalar.select v453 c1_i32_324 c16_i32_322
  let v455 : BitVec 32 := Scalar.remsi v452 v454
  let c0_i32_326 : BitVec 32 := 0#32
  let v457 : BitVec 1 := Scalar.cmpi .slt v455 c0_i32_326
  let c0_i32_327 : BitVec 32 := 0#32
  let v458 : BitVec 1 := Scalar.cmpi .slt v454 c0_i32_327
  let v459 : BitVec 1 := Scalar.xori v457 v458
  let c0_i32_325 : BitVec 32 := 0#32
  let v456 : BitVec 1 := Scalar.cmpi .ne v455 c0_i32_325
  let v460 : BitVec 1 := Scalar.andi v459 v456
  let v461 : BitVec 32 := Scalar.addi v455 v454
  let v462 : BitVec 32 := Scalar.select v460 v461 v455
  let c1_i32_330 : BitVec 32 := 1#32
  let v463 : BitVec 32 := Scalar.muli v462 c1_i32_330
  let v464 : BitVec 32 := Scalar.addi c0_i32_331 v463
  v464.toNat
def k0_dev30 (d0 : Dev nD) : Nat :=
  let c0_i32_345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_335 : BitVec 32 := 15#32
  let v471 : BitVec 32 := Scalar.addi v2 c15_i32_335
  let c16_i32_336 : BitVec 32 := 16#32
  let c0_i32_337 : BitVec 32 := 0#32
  let v472 : BitVec 1 := Scalar.cmpi .eq c16_i32_336 c0_i32_337
  let c1_i32_338 : BitVec 32 := 1#32
  let v473 : BitVec 32 := Scalar.select v472 c1_i32_338 c16_i32_336
  let v474 : BitVec 32 := Scalar.remsi v471 v473
  let c0_i32_340 : BitVec 32 := 0#32
  let v476 : BitVec 1 := Scalar.cmpi .slt v474 c0_i32_340
  let c0_i32_341 : BitVec 32 := 0#32
  let v477 : BitVec 1 := Scalar.cmpi .slt v473 c0_i32_341
  let v478 : BitVec 1 := Scalar.xori v476 v477
  let c0_i32_339 : BitVec 32 := 0#32
  let v475 : BitVec 1 := Scalar.cmpi .ne v474 c0_i32_339
  let v479 : BitVec 1 := Scalar.andi v478 v475
  let v480 : BitVec 32 := Scalar.addi v474 v473
  let v481 : BitVec 32 := Scalar.select v479 v480 v474
  let c1_i32_344 : BitVec 32 := 1#32
  let v482 : BitVec 32 := Scalar.muli v481 c1_i32_344
  let v483 : BitVec 32 := Scalar.addi c0_i32_345 v482
  v483.toNat
def k0_dev31 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_373 : BitVec 32 := 1#32
  let v525 : BitVec 32 := Scalar.subi v2 c1_i32_373
  let c16_i32_374 : BitVec 32 := 16#32
  let c0_i32_375 : BitVec 32 := 0#32
  let v526 : BitVec 1 := Scalar.cmpi .eq c16_i32_374 c0_i32_375
  let c1_i32_376 : BitVec 32 := 1#32
  let v527 : BitVec 32 := Scalar.select v526 c1_i32_376 c16_i32_374
  let v528 : BitVec 32 := Scalar.remsi v525 v527
  let c0_i32_378 : BitVec 32 := 0#32
  let v530 : BitVec 1 := Scalar.cmpi .slt v528 c0_i32_378
  let c0_i32_379 : BitVec 32 := 0#32
  let v531 : BitVec 1 := Scalar.cmpi .slt v527 c0_i32_379
  let v532 : BitVec 1 := Scalar.xori v530 v531
  let c0_i32_377 : BitVec 32 := 0#32
  let v529 : BitVec 1 := Scalar.cmpi .ne v528 c0_i32_377
  let v533 : BitVec 1 := Scalar.andi v532 v529
  let v534 : BitVec 32 := Scalar.addi v528 v527
  let v535 : BitVec 32 := Scalar.select v533 v534 v528
  let c1_i32_383 : BitVec 32 := 1#32
  let v536 : BitVec 32 := Scalar.muli v535 c1_i32_383
  let v537 : BitVec 32 := Scalar.addi c0_i32_384 v536
  v537.toNat
def k0_dev32 (d0 : Dev nD) : Nat :=
  let c0_i32_436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_425 : BitVec 32 := 2#32
  let v590 : BitVec 32 := Scalar.subi v2 c2_i32_425
  let c16_i32_426 : BitVec 32 := 16#32
  let c0_i32_427 : BitVec 32 := 0#32
  let v591 : BitVec 1 := Scalar.cmpi .eq c16_i32_426 c0_i32_427
  let c1_i32_428 : BitVec 32 := 1#32
  let v592 : BitVec 32 := Scalar.select v591 c1_i32_428 c16_i32_426
  let v593 : BitVec 32 := Scalar.remsi v590 v592
  let c0_i32_430 : BitVec 32 := 0#32
  let v595 : BitVec 1 := Scalar.cmpi .slt v593 c0_i32_430
  let c0_i32_431 : BitVec 32 := 0#32
  let v596 : BitVec 1 := Scalar.cmpi .slt v592 c0_i32_431
  let v597 : BitVec 1 := Scalar.xori v595 v596
  let c0_i32_429 : BitVec 32 := 0#32
  let v594 : BitVec 1 := Scalar.cmpi .ne v593 c0_i32_429
  let v598 : BitVec 1 := Scalar.andi v597 v594
  let v599 : BitVec 32 := Scalar.addi v593 v592
  let v600 : BitVec 32 := Scalar.select v598 v599 v593
  let c1_i32_435 : BitVec 32 := 1#32
  let v601 : BitVec 32 := Scalar.muli v600 c1_i32_435
  let v602 : BitVec 32 := Scalar.addi c0_i32_436 v601
  v602.toNat
def k0_dev33 (d0 : Dev nD) : Nat :=
  let c0_i32_453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_442 : BitVec 32 := 3#32
  let v615 : BitVec 32 := Scalar.subi v2 c3_i32_442
  let c16_i32_443 : BitVec 32 := 16#32
  let c0_i32_444 : BitVec 32 := 0#32
  let v616 : BitVec 1 := Scalar.cmpi .eq c16_i32_443 c0_i32_444
  let c1_i32_445 : BitVec 32 := 1#32
  let v617 : BitVec 32 := Scalar.select v616 c1_i32_445 c16_i32_443
  let v618 : BitVec 32 := Scalar.remsi v615 v617
  let c0_i32_447 : BitVec 32 := 0#32
  let v620 : BitVec 1 := Scalar.cmpi .slt v618 c0_i32_447
  let c0_i32_448 : BitVec 32 := 0#32
  let v621 : BitVec 1 := Scalar.cmpi .slt v617 c0_i32_448
  let v622 : BitVec 1 := Scalar.xori v620 v621
  let c0_i32_446 : BitVec 32 := 0#32
  let v619 : BitVec 1 := Scalar.cmpi .ne v618 c0_i32_446
  let v623 : BitVec 1 := Scalar.andi v622 v619
  let v624 : BitVec 32 := Scalar.addi v618 v617
  let v625 : BitVec 32 := Scalar.select v623 v624 v618
  let c1_i32_452 : BitVec 32 := 1#32
  let v626 : BitVec 32 := Scalar.muli v625 c1_i32_452
  let v627 : BitVec 32 := Scalar.addi c0_i32_453 v626
  v627.toNat
def k0_dev34 (d0 : Dev nD) : Nat :=
  let c0_i32_505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_494 : BitVec 32 := 4#32
  let v680 : BitVec 32 := Scalar.subi v2 c4_i32_494
  let c16_i32_495 : BitVec 32 := 16#32
  let c0_i32_496 : BitVec 32 := 0#32
  let v681 : BitVec 1 := Scalar.cmpi .eq c16_i32_495 c0_i32_496
  let c1_i32_497 : BitVec 32 := 1#32
  let v682 : BitVec 32 := Scalar.select v681 c1_i32_497 c16_i32_495
  let v683 : BitVec 32 := Scalar.remsi v680 v682
  let c0_i32_499 : BitVec 32 := 0#32
  let v685 : BitVec 1 := Scalar.cmpi .slt v683 c0_i32_499
  let c0_i32_500 : BitVec 32 := 0#32
  let v686 : BitVec 1 := Scalar.cmpi .slt v682 c0_i32_500
  let v687 : BitVec 1 := Scalar.xori v685 v686
  let c0_i32_498 : BitVec 32 := 0#32
  let v684 : BitVec 1 := Scalar.cmpi .ne v683 c0_i32_498
  let v688 : BitVec 1 := Scalar.andi v687 v684
  let v689 : BitVec 32 := Scalar.addi v683 v682
  let v690 : BitVec 32 := Scalar.select v688 v689 v683
  let c1_i32_504 : BitVec 32 := 1#32
  let v691 : BitVec 32 := Scalar.muli v690 c1_i32_504
  let v692 : BitVec 32 := Scalar.addi c0_i32_505 v691
  v692.toNat
def k0_dev35 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_511 : BitVec 32 := 5#32
  let v705 : BitVec 32 := Scalar.subi v2 c5_i32_511
  let c16_i32_512 : BitVec 32 := 16#32
  let c0_i32_513 : BitVec 32 := 0#32
  let v706 : BitVec 1 := Scalar.cmpi .eq c16_i32_512 c0_i32_513
  let c1_i32_514 : BitVec 32 := 1#32
  let v707 : BitVec 32 := Scalar.select v706 c1_i32_514 c16_i32_512
  let v708 : BitVec 32 := Scalar.remsi v705 v707
  let c0_i32_516 : BitVec 32 := 0#32
  let v710 : BitVec 1 := Scalar.cmpi .slt v708 c0_i32_516
  let c0_i32_517 : BitVec 32 := 0#32
  let v711 : BitVec 1 := Scalar.cmpi .slt v707 c0_i32_517
  let v712 : BitVec 1 := Scalar.xori v710 v711
  let c0_i32_515 : BitVec 32 := 0#32
  let v709 : BitVec 1 := Scalar.cmpi .ne v708 c0_i32_515
  let v713 : BitVec 1 := Scalar.andi v712 v709
  let v714 : BitVec 32 := Scalar.addi v708 v707
  let v715 : BitVec 32 := Scalar.select v713 v714 v708
  let c1_i32_521 : BitVec 32 := 1#32
  let v716 : BitVec 32 := Scalar.muli v715 c1_i32_521
  let v717 : BitVec 32 := Scalar.addi c0_i32_522 v716
  v717.toNat
def k0_dev36 (d0 : Dev nD) : Nat :=
  let c0_i32_574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_563 : BitVec 32 := 6#32
  let v770 : BitVec 32 := Scalar.subi v2 c6_i32_563
  let c16_i32_564 : BitVec 32 := 16#32
  let c0_i32_565 : BitVec 32 := 0#32
  let v771 : BitVec 1 := Scalar.cmpi .eq c16_i32_564 c0_i32_565
  let c1_i32_566 : BitVec 32 := 1#32
  let v772 : BitVec 32 := Scalar.select v771 c1_i32_566 c16_i32_564
  let v773 : BitVec 32 := Scalar.remsi v770 v772
  let c0_i32_568 : BitVec 32 := 0#32
  let v775 : BitVec 1 := Scalar.cmpi .slt v773 c0_i32_568
  let c0_i32_569 : BitVec 32 := 0#32
  let v776 : BitVec 1 := Scalar.cmpi .slt v772 c0_i32_569
  let v777 : BitVec 1 := Scalar.xori v775 v776
  let c0_i32_567 : BitVec 32 := 0#32
  let v774 : BitVec 1 := Scalar.cmpi .ne v773 c0_i32_567
  let v778 : BitVec 1 := Scalar.andi v777 v774
  let v779 : BitVec 32 := Scalar.addi v773 v772
  let v780 : BitVec 32 := Scalar.select v778 v779 v773
  let c1_i32_573 : BitVec 32 := 1#32
  let v781 : BitVec 32 := Scalar.muli v780 c1_i32_573
  let v782 : BitVec 32 := Scalar.addi c0_i32_574 v781
  v782.toNat
def k0_dev37 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_580 : BitVec 32 := 7#32
  let v795 : BitVec 32 := Scalar.subi v2 c7_i32_580
  let c16_i32_581 : BitVec 32 := 16#32
  let c0_i32_582 : BitVec 32 := 0#32
  let v796 : BitVec 1 := Scalar.cmpi .eq c16_i32_581 c0_i32_582
  let c1_i32_583 : BitVec 32 := 1#32
  let v797 : BitVec 32 := Scalar.select v796 c1_i32_583 c16_i32_581
  let v798 : BitVec 32 := Scalar.remsi v795 v797
  let c0_i32_585 : BitVec 32 := 0#32
  let v800 : BitVec 1 := Scalar.cmpi .slt v798 c0_i32_585
  let c0_i32_586 : BitVec 32 := 0#32
  let v801 : BitVec 1 := Scalar.cmpi .slt v797 c0_i32_586
  let v802 : BitVec 1 := Scalar.xori v800 v801
  let c0_i32_584 : BitVec 32 := 0#32
  let v799 : BitVec 1 := Scalar.cmpi .ne v798 c0_i32_584
  let v803 : BitVec 1 := Scalar.andi v802 v799
  let v804 : BitVec 32 := Scalar.addi v798 v797
  let v805 : BitVec 32 := Scalar.select v803 v804 v798
  let c1_i32_590 : BitVec 32 := 1#32
  let v806 : BitVec 32 := Scalar.muli v805 c1_i32_590
  let v807 : BitVec 32 := Scalar.addi c0_i32_591 v806
  v807.toNat
def k0_dev38 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_632 : BitVec 32 := 8#32
  let v860 : BitVec 32 := Scalar.subi v2 c8_i32_632
  let c16_i32_633 : BitVec 32 := 16#32
  let c0_i32_634 : BitVec 32 := 0#32
  let v861 : BitVec 1 := Scalar.cmpi .eq c16_i32_633 c0_i32_634
  let c1_i32_635 : BitVec 32 := 1#32
  let v862 : BitVec 32 := Scalar.select v861 c1_i32_635 c16_i32_633
  let v863 : BitVec 32 := Scalar.remsi v860 v862
  let c0_i32_637 : BitVec 32 := 0#32
  let v865 : BitVec 1 := Scalar.cmpi .slt v863 c0_i32_637
  let c0_i32_638 : BitVec 32 := 0#32
  let v866 : BitVec 1 := Scalar.cmpi .slt v862 c0_i32_638
  let v867 : BitVec 1 := Scalar.xori v865 v866
  let c0_i32_636 : BitVec 32 := 0#32
  let v864 : BitVec 1 := Scalar.cmpi .ne v863 c0_i32_636
  let v868 : BitVec 1 := Scalar.andi v867 v864
  let v869 : BitVec 32 := Scalar.addi v863 v862
  let v870 : BitVec 32 := Scalar.select v868 v869 v863
  let c1_i32_642 : BitVec 32 := 1#32
  let v871 : BitVec 32 := Scalar.muli v870 c1_i32_642
  let v872 : BitVec 32 := Scalar.addi c0_i32_643 v871
  v872.toNat
def k0_dev39 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_649 : BitVec 32 := 9#32
  let v885 : BitVec 32 := Scalar.subi v2 c9_i32_649
  let c16_i32_650 : BitVec 32 := 16#32
  let c0_i32_651 : BitVec 32 := 0#32
  let v886 : BitVec 1 := Scalar.cmpi .eq c16_i32_650 c0_i32_651
  let c1_i32_652 : BitVec 32 := 1#32
  let v887 : BitVec 32 := Scalar.select v886 c1_i32_652 c16_i32_650
  let v888 : BitVec 32 := Scalar.remsi v885 v887
  let c0_i32_654 : BitVec 32 := 0#32
  let v890 : BitVec 1 := Scalar.cmpi .slt v888 c0_i32_654
  let c0_i32_655 : BitVec 32 := 0#32
  let v891 : BitVec 1 := Scalar.cmpi .slt v887 c0_i32_655
  let v892 : BitVec 1 := Scalar.xori v890 v891
  let c0_i32_653 : BitVec 32 := 0#32
  let v889 : BitVec 1 := Scalar.cmpi .ne v888 c0_i32_653
  let v893 : BitVec 1 := Scalar.andi v892 v889
  let v894 : BitVec 32 := Scalar.addi v888 v887
  let v895 : BitVec 32 := Scalar.select v893 v894 v888
  let c1_i32_659 : BitVec 32 := 1#32
  let v896 : BitVec 32 := Scalar.muli v895 c1_i32_659
  let v897 : BitVec 32 := Scalar.addi c0_i32_660 v896
  v897.toNat
def k0_dev40 (d0 : Dev nD) : Nat :=
  let c0_i32_712 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_701 : BitVec 32 := 10#32
  let v950 : BitVec 32 := Scalar.subi v2 c10_i32_701
  let c16_i32_702 : BitVec 32 := 16#32
  let c0_i32_703 : BitVec 32 := 0#32
  let v951 : BitVec 1 := Scalar.cmpi .eq c16_i32_702 c0_i32_703
  let c1_i32_704 : BitVec 32 := 1#32
  let v952 : BitVec 32 := Scalar.select v951 c1_i32_704 c16_i32_702
  let v953 : BitVec 32 := Scalar.remsi v950 v952
  let c0_i32_706 : BitVec 32 := 0#32
  let v955 : BitVec 1 := Scalar.cmpi .slt v953 c0_i32_706
  let c0_i32_707 : BitVec 32 := 0#32
  let v956 : BitVec 1 := Scalar.cmpi .slt v952 c0_i32_707
  let v957 : BitVec 1 := Scalar.xori v955 v956
  let c0_i32_705 : BitVec 32 := 0#32
  let v954 : BitVec 1 := Scalar.cmpi .ne v953 c0_i32_705
  let v958 : BitVec 1 := Scalar.andi v957 v954
  let v959 : BitVec 32 := Scalar.addi v953 v952
  let v960 : BitVec 32 := Scalar.select v958 v959 v953
  let c1_i32_711 : BitVec 32 := 1#32
  let v961 : BitVec 32 := Scalar.muli v960 c1_i32_711
  let v962 : BitVec 32 := Scalar.addi c0_i32_712 v961
  v962.toNat
def k0_dev41 (d0 : Dev nD) : Nat :=
  let c0_i32_729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_718 : BitVec 32 := 11#32
  let v975 : BitVec 32 := Scalar.subi v2 c11_i32_718
  let c16_i32_719 : BitVec 32 := 16#32
  let c0_i32_720 : BitVec 32 := 0#32
  let v976 : BitVec 1 := Scalar.cmpi .eq c16_i32_719 c0_i32_720
  let c1_i32_721 : BitVec 32 := 1#32
  let v977 : BitVec 32 := Scalar.select v976 c1_i32_721 c16_i32_719
  let v978 : BitVec 32 := Scalar.remsi v975 v977
  let c0_i32_723 : BitVec 32 := 0#32
  let v980 : BitVec 1 := Scalar.cmpi .slt v978 c0_i32_723
  let c0_i32_724 : BitVec 32 := 0#32
  let v981 : BitVec 1 := Scalar.cmpi .slt v977 c0_i32_724
  let v982 : BitVec 1 := Scalar.xori v980 v981
  let c0_i32_722 : BitVec 32 := 0#32
  let v979 : BitVec 1 := Scalar.cmpi .ne v978 c0_i32_722
  let v983 : BitVec 1 := Scalar.andi v982 v979
  let v984 : BitVec 32 := Scalar.addi v978 v977
  let v985 : BitVec 32 := Scalar.select v983 v984 v978
  let c1_i32_728 : BitVec 32 := 1#32
  let v986 : BitVec 32 := Scalar.muli v985 c1_i32_728
  let v987 : BitVec 32 := Scalar.addi c0_i32_729 v986
  v987.toNat
def k0_dev42 (d0 : Dev nD) : Nat :=
  let c0_i32_781 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_770 : BitVec 32 := 12#32
  let v1040 : BitVec 32 := Scalar.subi v2 c12_i32_770
  let c16_i32_771 : BitVec 32 := 16#32
  let c0_i32_772 : BitVec 32 := 0#32
  let v1041 : BitVec 1 := Scalar.cmpi .eq c16_i32_771 c0_i32_772
  let c1_i32_773 : BitVec 32 := 1#32
  let v1042 : BitVec 32 := Scalar.select v1041 c1_i32_773 c16_i32_771
  let v1043 : BitVec 32 := Scalar.remsi v1040 v1042
  let c0_i32_775 : BitVec 32 := 0#32
  let v1045 : BitVec 1 := Scalar.cmpi .slt v1043 c0_i32_775
  let c0_i32_776 : BitVec 32 := 0#32
  let v1046 : BitVec 1 := Scalar.cmpi .slt v1042 c0_i32_776
  let v1047 : BitVec 1 := Scalar.xori v1045 v1046
  let c0_i32_774 : BitVec 32 := 0#32
  let v1044 : BitVec 1 := Scalar.cmpi .ne v1043 c0_i32_774
  let v1048 : BitVec 1 := Scalar.andi v1047 v1044
  let v1049 : BitVec 32 := Scalar.addi v1043 v1042
  let v1050 : BitVec 32 := Scalar.select v1048 v1049 v1043
  let c1_i32_780 : BitVec 32 := 1#32
  let v1051 : BitVec 32 := Scalar.muli v1050 c1_i32_780
  let v1052 : BitVec 32 := Scalar.addi c0_i32_781 v1051
  v1052.toNat
def k0_dev43 (d0 : Dev nD) : Nat :=
  let c0_i32_798 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_787 : BitVec 32 := 13#32
  let v1065 : BitVec 32 := Scalar.subi v2 c13_i32_787
  let c16_i32_788 : BitVec 32 := 16#32
  let c0_i32_789 : BitVec 32 := 0#32
  let v1066 : BitVec 1 := Scalar.cmpi .eq c16_i32_788 c0_i32_789
  let c1_i32_790 : BitVec 32 := 1#32
  let v1067 : BitVec 32 := Scalar.select v1066 c1_i32_790 c16_i32_788
  let v1068 : BitVec 32 := Scalar.remsi v1065 v1067
  let c0_i32_792 : BitVec 32 := 0#32
  let v1070 : BitVec 1 := Scalar.cmpi .slt v1068 c0_i32_792
  let c0_i32_793 : BitVec 32 := 0#32
  let v1071 : BitVec 1 := Scalar.cmpi .slt v1067 c0_i32_793
  let v1072 : BitVec 1 := Scalar.xori v1070 v1071
  let c0_i32_791 : BitVec 32 := 0#32
  let v1069 : BitVec 1 := Scalar.cmpi .ne v1068 c0_i32_791
  let v1073 : BitVec 1 := Scalar.andi v1072 v1069
  let v1074 : BitVec 32 := Scalar.addi v1068 v1067
  let v1075 : BitVec 32 := Scalar.select v1073 v1074 v1068
  let c1_i32_797 : BitVec 32 := 1#32
  let v1076 : BitVec 32 := Scalar.muli v1075 c1_i32_797
  let v1077 : BitVec 32 := Scalar.addi c0_i32_798 v1076
  v1077.toNat
def k0_dev44 (d0 : Dev nD) : Nat :=
  let c0_i32_850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_839 : BitVec 32 := 14#32
  let v1130 : BitVec 32 := Scalar.subi v2 c14_i32_839
  let c16_i32_840 : BitVec 32 := 16#32
  let c0_i32_841 : BitVec 32 := 0#32
  let v1131 : BitVec 1 := Scalar.cmpi .eq c16_i32_840 c0_i32_841
  let c1_i32_842 : BitVec 32 := 1#32
  let v1132 : BitVec 32 := Scalar.select v1131 c1_i32_842 c16_i32_840
  let v1133 : BitVec 32 := Scalar.remsi v1130 v1132
  let c0_i32_844 : BitVec 32 := 0#32
  let v1135 : BitVec 1 := Scalar.cmpi .slt v1133 c0_i32_844
  let c0_i32_845 : BitVec 32 := 0#32
  let v1136 : BitVec 1 := Scalar.cmpi .slt v1132 c0_i32_845
  let v1137 : BitVec 1 := Scalar.xori v1135 v1136
  let c0_i32_843 : BitVec 32 := 0#32
  let v1134 : BitVec 1 := Scalar.cmpi .ne v1133 c0_i32_843
  let v1138 : BitVec 1 := Scalar.andi v1137 v1134
  let v1139 : BitVec 32 := Scalar.addi v1133 v1132
  let v1140 : BitVec 32 := Scalar.select v1138 v1139 v1133
  let c1_i32_849 : BitVec 32 := 1#32
  let v1141 : BitVec 32 := Scalar.muli v1140 c1_i32_849
  let v1142 : BitVec 32 := Scalar.addi c0_i32_850 v1141
  v1142.toNat
def k0_dev45 (d0 : Dev nD) : Nat :=
  let c0_i32_867 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_856 : BitVec 32 := 15#32
  let v1155 : BitVec 32 := Scalar.subi v2 c15_i32_856
  let c16_i32_857 : BitVec 32 := 16#32
  let c0_i32_858 : BitVec 32 := 0#32
  let v1156 : BitVec 1 := Scalar.cmpi .eq c16_i32_857 c0_i32_858
  let c1_i32_859 : BitVec 32 := 1#32
  let v1157 : BitVec 32 := Scalar.select v1156 c1_i32_859 c16_i32_857
  let v1158 : BitVec 32 := Scalar.remsi v1155 v1157
  let c0_i32_861 : BitVec 32 := 0#32
  let v1160 : BitVec 1 := Scalar.cmpi .slt v1158 c0_i32_861
  let c0_i32_862 : BitVec 32 := 0#32
  let v1161 : BitVec 1 := Scalar.cmpi .slt v1157 c0_i32_862
  let v1162 : BitVec 1 := Scalar.xori v1160 v1161
  let c0_i32_860 : BitVec 32 := 0#32
  let v1159 : BitVec 1 := Scalar.cmpi .ne v1158 c0_i32_860
  let v1163 : BitVec 1 := Scalar.andi v1162 v1159
  let v1164 : BitVec 32 := Scalar.addi v1158 v1157
  let v1165 : BitVec 32 := Scalar.select v1163 v1164 v1158
  let c1_i32_866 : BitVec 32 := 1#32
  let v1166 : BitVec 32 := Scalar.muli v1165 c1_i32_866
  let v1167 : BitVec 32 := Scalar.addi c0_i32_867 v1166
  v1167.toNat
def k0_dev46 (d0 : Dev nD) : Nat :=
  let c0_i32_1275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1265 : BitVec 32 := 1#32
  let v1584 : BitVec 32 := Scalar.addi v2 c1_i32_1265
  let c16_i32_1266 : BitVec 32 := 16#32
  let c0_i32_1267 : BitVec 32 := 0#32
  let v1585 : BitVec 1 := Scalar.cmpi .eq c16_i32_1266 c0_i32_1267
  let c1_i32_1268 : BitVec 32 := 1#32
  let v1586 : BitVec 32 := Scalar.select v1585 c1_i32_1268 c16_i32_1266
  let v1587 : BitVec 32 := Scalar.remsi v1584 v1586
  let c0_i32_1270 : BitVec 32 := 0#32
  let v1589 : BitVec 1 := Scalar.cmpi .slt v1587 c0_i32_1270
  let c0_i32_1271 : BitVec 32 := 0#32
  let v1590 : BitVec 1 := Scalar.cmpi .slt v1586 c0_i32_1271
  let v1591 : BitVec 1 := Scalar.xori v1589 v1590
  let c0_i32_1269 : BitVec 32 := 0#32
  let v1588 : BitVec 1 := Scalar.cmpi .ne v1587 c0_i32_1269
  let v1592 : BitVec 1 := Scalar.andi v1591 v1588
  let v1593 : BitVec 32 := Scalar.addi v1587 v1586
  let v1594 : BitVec 32 := Scalar.select v1592 v1593 v1587
  let c1_i32_1274 : BitVec 32 := 1#32
  let v1595 : BitVec 32 := Scalar.muli v1594 c1_i32_1274
  let v1596 : BitVec 32 := Scalar.addi c0_i32_1275 v1595
  v1596.toNat
def k0_dev47 (d0 : Dev nD) : Nat :=
  let c0_i32_1290 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1280 : BitVec 32 := 2#32
  let v1603 : BitVec 32 := Scalar.addi v2 c2_i32_1280
  let c16_i32_1281 : BitVec 32 := 16#32
  let c0_i32_1282 : BitVec 32 := 0#32
  let v1604 : BitVec 1 := Scalar.cmpi .eq c16_i32_1281 c0_i32_1282
  let c1_i32_1283 : BitVec 32 := 1#32
  let v1605 : BitVec 32 := Scalar.select v1604 c1_i32_1283 c16_i32_1281
  let v1606 : BitVec 32 := Scalar.remsi v1603 v1605
  let c0_i32_1285 : BitVec 32 := 0#32
  let v1608 : BitVec 1 := Scalar.cmpi .slt v1606 c0_i32_1285
  let c0_i32_1286 : BitVec 32 := 0#32
  let v1609 : BitVec 1 := Scalar.cmpi .slt v1605 c0_i32_1286
  let v1610 : BitVec 1 := Scalar.xori v1608 v1609
  let c0_i32_1284 : BitVec 32 := 0#32
  let v1607 : BitVec 1 := Scalar.cmpi .ne v1606 c0_i32_1284
  let v1611 : BitVec 1 := Scalar.andi v1610 v1607
  let v1612 : BitVec 32 := Scalar.addi v1606 v1605
  let v1613 : BitVec 32 := Scalar.select v1611 v1612 v1606
  let c1_i32_1289 : BitVec 32 := 1#32
  let v1614 : BitVec 32 := Scalar.muli v1613 c1_i32_1289
  let v1615 : BitVec 32 := Scalar.addi c0_i32_1290 v1614
  v1615.toNat
def k0_dev48 (d0 : Dev nD) : Nat :=
  let c0_i32_1305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1295 : BitVec 32 := 3#32
  let v1622 : BitVec 32 := Scalar.addi v2 c3_i32_1295
  let c16_i32_1296 : BitVec 32 := 16#32
  let c0_i32_1297 : BitVec 32 := 0#32
  let v1623 : BitVec 1 := Scalar.cmpi .eq c16_i32_1296 c0_i32_1297
  let c1_i32_1298 : BitVec 32 := 1#32
  let v1624 : BitVec 32 := Scalar.select v1623 c1_i32_1298 c16_i32_1296
  let v1625 : BitVec 32 := Scalar.remsi v1622 v1624
  let c0_i32_1300 : BitVec 32 := 0#32
  let v1627 : BitVec 1 := Scalar.cmpi .slt v1625 c0_i32_1300
  let c0_i32_1301 : BitVec 32 := 0#32
  let v1628 : BitVec 1 := Scalar.cmpi .slt v1624 c0_i32_1301
  let v1629 : BitVec 1 := Scalar.xori v1627 v1628
  let c0_i32_1299 : BitVec 32 := 0#32
  let v1626 : BitVec 1 := Scalar.cmpi .ne v1625 c0_i32_1299
  let v1630 : BitVec 1 := Scalar.andi v1629 v1626
  let v1631 : BitVec 32 := Scalar.addi v1625 v1624
  let v1632 : BitVec 32 := Scalar.select v1630 v1631 v1625
  let c1_i32_1304 : BitVec 32 := 1#32
  let v1633 : BitVec 32 := Scalar.muli v1632 c1_i32_1304
  let v1634 : BitVec 32 := Scalar.addi c0_i32_1305 v1633
  v1634.toNat
def k0_dev49 (d0 : Dev nD) : Nat :=
  let c0_i32_1320 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1310 : BitVec 32 := 4#32
  let v1641 : BitVec 32 := Scalar.addi v2 c4_i32_1310
  let c16_i32_1311 : BitVec 32 := 16#32
  let c0_i32_1312 : BitVec 32 := 0#32
  let v1642 : BitVec 1 := Scalar.cmpi .eq c16_i32_1311 c0_i32_1312
  let c1_i32_1313 : BitVec 32 := 1#32
  let v1643 : BitVec 32 := Scalar.select v1642 c1_i32_1313 c16_i32_1311
  let v1644 : BitVec 32 := Scalar.remsi v1641 v1643
  let c0_i32_1315 : BitVec 32 := 0#32
  let v1646 : BitVec 1 := Scalar.cmpi .slt v1644 c0_i32_1315
  let c0_i32_1316 : BitVec 32 := 0#32
  let v1647 : BitVec 1 := Scalar.cmpi .slt v1643 c0_i32_1316
  let v1648 : BitVec 1 := Scalar.xori v1646 v1647
  let c0_i32_1314 : BitVec 32 := 0#32
  let v1645 : BitVec 1 := Scalar.cmpi .ne v1644 c0_i32_1314
  let v1649 : BitVec 1 := Scalar.andi v1648 v1645
  let v1650 : BitVec 32 := Scalar.addi v1644 v1643
  let v1651 : BitVec 32 := Scalar.select v1649 v1650 v1644
  let c1_i32_1319 : BitVec 32 := 1#32
  let v1652 : BitVec 32 := Scalar.muli v1651 c1_i32_1319
  let v1653 : BitVec 32 := Scalar.addi c0_i32_1320 v1652
  v1653.toNat
def k0_dev50 (d0 : Dev nD) : Nat :=
  let c0_i32_1335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1325 : BitVec 32 := 5#32
  let v1660 : BitVec 32 := Scalar.addi v2 c5_i32_1325
  let c16_i32_1326 : BitVec 32 := 16#32
  let c0_i32_1327 : BitVec 32 := 0#32
  let v1661 : BitVec 1 := Scalar.cmpi .eq c16_i32_1326 c0_i32_1327
  let c1_i32_1328 : BitVec 32 := 1#32
  let v1662 : BitVec 32 := Scalar.select v1661 c1_i32_1328 c16_i32_1326
  let v1663 : BitVec 32 := Scalar.remsi v1660 v1662
  let c0_i32_1330 : BitVec 32 := 0#32
  let v1665 : BitVec 1 := Scalar.cmpi .slt v1663 c0_i32_1330
  let c0_i32_1331 : BitVec 32 := 0#32
  let v1666 : BitVec 1 := Scalar.cmpi .slt v1662 c0_i32_1331
  let v1667 : BitVec 1 := Scalar.xori v1665 v1666
  let c0_i32_1329 : BitVec 32 := 0#32
  let v1664 : BitVec 1 := Scalar.cmpi .ne v1663 c0_i32_1329
  let v1668 : BitVec 1 := Scalar.andi v1667 v1664
  let v1669 : BitVec 32 := Scalar.addi v1663 v1662
  let v1670 : BitVec 32 := Scalar.select v1668 v1669 v1663
  let c1_i32_1334 : BitVec 32 := 1#32
  let v1671 : BitVec 32 := Scalar.muli v1670 c1_i32_1334
  let v1672 : BitVec 32 := Scalar.addi c0_i32_1335 v1671
  v1672.toNat
def k0_dev51 (d0 : Dev nD) : Nat :=
  let c0_i32_1350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1340 : BitVec 32 := 6#32
  let v1679 : BitVec 32 := Scalar.addi v2 c6_i32_1340
  let c16_i32_1341 : BitVec 32 := 16#32
  let c0_i32_1342 : BitVec 32 := 0#32
  let v1680 : BitVec 1 := Scalar.cmpi .eq c16_i32_1341 c0_i32_1342
  let c1_i32_1343 : BitVec 32 := 1#32
  let v1681 : BitVec 32 := Scalar.select v1680 c1_i32_1343 c16_i32_1341
  let v1682 : BitVec 32 := Scalar.remsi v1679 v1681
  let c0_i32_1345 : BitVec 32 := 0#32
  let v1684 : BitVec 1 := Scalar.cmpi .slt v1682 c0_i32_1345
  let c0_i32_1346 : BitVec 32 := 0#32
  let v1685 : BitVec 1 := Scalar.cmpi .slt v1681 c0_i32_1346
  let v1686 : BitVec 1 := Scalar.xori v1684 v1685
  let c0_i32_1344 : BitVec 32 := 0#32
  let v1683 : BitVec 1 := Scalar.cmpi .ne v1682 c0_i32_1344
  let v1687 : BitVec 1 := Scalar.andi v1686 v1683
  let v1688 : BitVec 32 := Scalar.addi v1682 v1681
  let v1689 : BitVec 32 := Scalar.select v1687 v1688 v1682
  let c1_i32_1349 : BitVec 32 := 1#32
  let v1690 : BitVec 32 := Scalar.muli v1689 c1_i32_1349
  let v1691 : BitVec 32 := Scalar.addi c0_i32_1350 v1690
  v1691.toNat
def k0_dev52 (d0 : Dev nD) : Nat :=
  let c0_i32_1365 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1355 : BitVec 32 := 7#32
  let v1698 : BitVec 32 := Scalar.addi v2 c7_i32_1355
  let c16_i32_1356 : BitVec 32 := 16#32
  let c0_i32_1357 : BitVec 32 := 0#32
  let v1699 : BitVec 1 := Scalar.cmpi .eq c16_i32_1356 c0_i32_1357
  let c1_i32_1358 : BitVec 32 := 1#32
  let v1700 : BitVec 32 := Scalar.select v1699 c1_i32_1358 c16_i32_1356
  let v1701 : BitVec 32 := Scalar.remsi v1698 v1700
  let c0_i32_1360 : BitVec 32 := 0#32
  let v1703 : BitVec 1 := Scalar.cmpi .slt v1701 c0_i32_1360
  let c0_i32_1361 : BitVec 32 := 0#32
  let v1704 : BitVec 1 := Scalar.cmpi .slt v1700 c0_i32_1361
  let v1705 : BitVec 1 := Scalar.xori v1703 v1704
  let c0_i32_1359 : BitVec 32 := 0#32
  let v1702 : BitVec 1 := Scalar.cmpi .ne v1701 c0_i32_1359
  let v1706 : BitVec 1 := Scalar.andi v1705 v1702
  let v1707 : BitVec 32 := Scalar.addi v1701 v1700
  let v1708 : BitVec 32 := Scalar.select v1706 v1707 v1701
  let c1_i32_1364 : BitVec 32 := 1#32
  let v1709 : BitVec 32 := Scalar.muli v1708 c1_i32_1364
  let v1710 : BitVec 32 := Scalar.addi c0_i32_1365 v1709
  v1710.toNat
def k0_dev53 (d0 : Dev nD) : Nat :=
  let c0_i32_1380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1370 : BitVec 32 := 8#32
  let v1717 : BitVec 32 := Scalar.addi v2 c8_i32_1370
  let c16_i32_1371 : BitVec 32 := 16#32
  let c0_i32_1372 : BitVec 32 := 0#32
  let v1718 : BitVec 1 := Scalar.cmpi .eq c16_i32_1371 c0_i32_1372
  let c1_i32_1373 : BitVec 32 := 1#32
  let v1719 : BitVec 32 := Scalar.select v1718 c1_i32_1373 c16_i32_1371
  let v1720 : BitVec 32 := Scalar.remsi v1717 v1719
  let c0_i32_1375 : BitVec 32 := 0#32
  let v1722 : BitVec 1 := Scalar.cmpi .slt v1720 c0_i32_1375
  let c0_i32_1376 : BitVec 32 := 0#32
  let v1723 : BitVec 1 := Scalar.cmpi .slt v1719 c0_i32_1376
  let v1724 : BitVec 1 := Scalar.xori v1722 v1723
  let c0_i32_1374 : BitVec 32 := 0#32
  let v1721 : BitVec 1 := Scalar.cmpi .ne v1720 c0_i32_1374
  let v1725 : BitVec 1 := Scalar.andi v1724 v1721
  let v1726 : BitVec 32 := Scalar.addi v1720 v1719
  let v1727 : BitVec 32 := Scalar.select v1725 v1726 v1720
  let c1_i32_1379 : BitVec 32 := 1#32
  let v1728 : BitVec 32 := Scalar.muli v1727 c1_i32_1379
  let v1729 : BitVec 32 := Scalar.addi c0_i32_1380 v1728
  v1729.toNat
def k0_dev54 (d0 : Dev nD) : Nat :=
  let c0_i32_1395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1385 : BitVec 32 := 9#32
  let v1736 : BitVec 32 := Scalar.addi v2 c9_i32_1385
  let c16_i32_1386 : BitVec 32 := 16#32
  let c0_i32_1387 : BitVec 32 := 0#32
  let v1737 : BitVec 1 := Scalar.cmpi .eq c16_i32_1386 c0_i32_1387
  let c1_i32_1388 : BitVec 32 := 1#32
  let v1738 : BitVec 32 := Scalar.select v1737 c1_i32_1388 c16_i32_1386
  let v1739 : BitVec 32 := Scalar.remsi v1736 v1738
  let c0_i32_1390 : BitVec 32 := 0#32
  let v1741 : BitVec 1 := Scalar.cmpi .slt v1739 c0_i32_1390
  let c0_i32_1391 : BitVec 32 := 0#32
  let v1742 : BitVec 1 := Scalar.cmpi .slt v1738 c0_i32_1391
  let v1743 : BitVec 1 := Scalar.xori v1741 v1742
  let c0_i32_1389 : BitVec 32 := 0#32
  let v1740 : BitVec 1 := Scalar.cmpi .ne v1739 c0_i32_1389
  let v1744 : BitVec 1 := Scalar.andi v1743 v1740
  let v1745 : BitVec 32 := Scalar.addi v1739 v1738
  let v1746 : BitVec 32 := Scalar.select v1744 v1745 v1739
  let c1_i32_1394 : BitVec 32 := 1#32
  let v1747 : BitVec 32 := Scalar.muli v1746 c1_i32_1394
  let v1748 : BitVec 32 := Scalar.addi c0_i32_1395 v1747
  v1748.toNat
def k0_dev55 (d0 : Dev nD) : Nat :=
  let c0_i32_1410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1400 : BitVec 32 := 10#32
  let v1755 : BitVec 32 := Scalar.addi v2 c10_i32_1400
  let c16_i32_1401 : BitVec 32 := 16#32
  let c0_i32_1402 : BitVec 32 := 0#32
  let v1756 : BitVec 1 := Scalar.cmpi .eq c16_i32_1401 c0_i32_1402
  let c1_i32_1403 : BitVec 32 := 1#32
  let v1757 : BitVec 32 := Scalar.select v1756 c1_i32_1403 c16_i32_1401
  let v1758 : BitVec 32 := Scalar.remsi v1755 v1757
  let c0_i32_1405 : BitVec 32 := 0#32
  let v1760 : BitVec 1 := Scalar.cmpi .slt v1758 c0_i32_1405
  let c0_i32_1406 : BitVec 32 := 0#32
  let v1761 : BitVec 1 := Scalar.cmpi .slt v1757 c0_i32_1406
  let v1762 : BitVec 1 := Scalar.xori v1760 v1761
  let c0_i32_1404 : BitVec 32 := 0#32
  let v1759 : BitVec 1 := Scalar.cmpi .ne v1758 c0_i32_1404
  let v1763 : BitVec 1 := Scalar.andi v1762 v1759
  let v1764 : BitVec 32 := Scalar.addi v1758 v1757
  let v1765 : BitVec 32 := Scalar.select v1763 v1764 v1758
  let c1_i32_1409 : BitVec 32 := 1#32
  let v1766 : BitVec 32 := Scalar.muli v1765 c1_i32_1409
  let v1767 : BitVec 32 := Scalar.addi c0_i32_1410 v1766
  v1767.toNat
def k0_dev56 (d0 : Dev nD) : Nat :=
  let c0_i32_1425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1415 : BitVec 32 := 11#32
  let v1774 : BitVec 32 := Scalar.addi v2 c11_i32_1415
  let c16_i32_1416 : BitVec 32 := 16#32
  let c0_i32_1417 : BitVec 32 := 0#32
  let v1775 : BitVec 1 := Scalar.cmpi .eq c16_i32_1416 c0_i32_1417
  let c1_i32_1418 : BitVec 32 := 1#32
  let v1776 : BitVec 32 := Scalar.select v1775 c1_i32_1418 c16_i32_1416
  let v1777 : BitVec 32 := Scalar.remsi v1774 v1776
  let c0_i32_1420 : BitVec 32 := 0#32
  let v1779 : BitVec 1 := Scalar.cmpi .slt v1777 c0_i32_1420
  let c0_i32_1421 : BitVec 32 := 0#32
  let v1780 : BitVec 1 := Scalar.cmpi .slt v1776 c0_i32_1421
  let v1781 : BitVec 1 := Scalar.xori v1779 v1780
  let c0_i32_1419 : BitVec 32 := 0#32
  let v1778 : BitVec 1 := Scalar.cmpi .ne v1777 c0_i32_1419
  let v1782 : BitVec 1 := Scalar.andi v1781 v1778
  let v1783 : BitVec 32 := Scalar.addi v1777 v1776
  let v1784 : BitVec 32 := Scalar.select v1782 v1783 v1777
  let c1_i32_1424 : BitVec 32 := 1#32
  let v1785 : BitVec 32 := Scalar.muli v1784 c1_i32_1424
  let v1786 : BitVec 32 := Scalar.addi c0_i32_1425 v1785
  v1786.toNat
def k0_dev57 (d0 : Dev nD) : Nat :=
  let c0_i32_1440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1430 : BitVec 32 := 12#32
  let v1793 : BitVec 32 := Scalar.addi v2 c12_i32_1430
  let c16_i32_1431 : BitVec 32 := 16#32
  let c0_i32_1432 : BitVec 32 := 0#32
  let v1794 : BitVec 1 := Scalar.cmpi .eq c16_i32_1431 c0_i32_1432
  let c1_i32_1433 : BitVec 32 := 1#32
  let v1795 : BitVec 32 := Scalar.select v1794 c1_i32_1433 c16_i32_1431
  let v1796 : BitVec 32 := Scalar.remsi v1793 v1795
  let c0_i32_1435 : BitVec 32 := 0#32
  let v1798 : BitVec 1 := Scalar.cmpi .slt v1796 c0_i32_1435
  let c0_i32_1436 : BitVec 32 := 0#32
  let v1799 : BitVec 1 := Scalar.cmpi .slt v1795 c0_i32_1436
  let v1800 : BitVec 1 := Scalar.xori v1798 v1799
  let c0_i32_1434 : BitVec 32 := 0#32
  let v1797 : BitVec 1 := Scalar.cmpi .ne v1796 c0_i32_1434
  let v1801 : BitVec 1 := Scalar.andi v1800 v1797
  let v1802 : BitVec 32 := Scalar.addi v1796 v1795
  let v1803 : BitVec 32 := Scalar.select v1801 v1802 v1796
  let c1_i32_1439 : BitVec 32 := 1#32
  let v1804 : BitVec 32 := Scalar.muli v1803 c1_i32_1439
  let v1805 : BitVec 32 := Scalar.addi c0_i32_1440 v1804
  v1805.toNat
def k0_dev58 (d0 : Dev nD) : Nat :=
  let c0_i32_1455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1445 : BitVec 32 := 13#32
  let v1812 : BitVec 32 := Scalar.addi v2 c13_i32_1445
  let c16_i32_1446 : BitVec 32 := 16#32
  let c0_i32_1447 : BitVec 32 := 0#32
  let v1813 : BitVec 1 := Scalar.cmpi .eq c16_i32_1446 c0_i32_1447
  let c1_i32_1448 : BitVec 32 := 1#32
  let v1814 : BitVec 32 := Scalar.select v1813 c1_i32_1448 c16_i32_1446
  let v1815 : BitVec 32 := Scalar.remsi v1812 v1814
  let c0_i32_1450 : BitVec 32 := 0#32
  let v1817 : BitVec 1 := Scalar.cmpi .slt v1815 c0_i32_1450
  let c0_i32_1451 : BitVec 32 := 0#32
  let v1818 : BitVec 1 := Scalar.cmpi .slt v1814 c0_i32_1451
  let v1819 : BitVec 1 := Scalar.xori v1817 v1818
  let c0_i32_1449 : BitVec 32 := 0#32
  let v1816 : BitVec 1 := Scalar.cmpi .ne v1815 c0_i32_1449
  let v1820 : BitVec 1 := Scalar.andi v1819 v1816
  let v1821 : BitVec 32 := Scalar.addi v1815 v1814
  let v1822 : BitVec 32 := Scalar.select v1820 v1821 v1815
  let c1_i32_1454 : BitVec 32 := 1#32
  let v1823 : BitVec 32 := Scalar.muli v1822 c1_i32_1454
  let v1824 : BitVec 32 := Scalar.addi c0_i32_1455 v1823
  v1824.toNat
def k0_dev59 (d0 : Dev nD) : Nat :=
  let c0_i32_1470 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1460 : BitVec 32 := 14#32
  let v1831 : BitVec 32 := Scalar.addi v2 c14_i32_1460
  let c16_i32_1461 : BitVec 32 := 16#32
  let c0_i32_1462 : BitVec 32 := 0#32
  let v1832 : BitVec 1 := Scalar.cmpi .eq c16_i32_1461 c0_i32_1462
  let c1_i32_1463 : BitVec 32 := 1#32
  let v1833 : BitVec 32 := Scalar.select v1832 c1_i32_1463 c16_i32_1461
  let v1834 : BitVec 32 := Scalar.remsi v1831 v1833
  let c0_i32_1465 : BitVec 32 := 0#32
  let v1836 : BitVec 1 := Scalar.cmpi .slt v1834 c0_i32_1465
  let c0_i32_1466 : BitVec 32 := 0#32
  let v1837 : BitVec 1 := Scalar.cmpi .slt v1833 c0_i32_1466
  let v1838 : BitVec 1 := Scalar.xori v1836 v1837
  let c0_i32_1464 : BitVec 32 := 0#32
  let v1835 : BitVec 1 := Scalar.cmpi .ne v1834 c0_i32_1464
  let v1839 : BitVec 1 := Scalar.andi v1838 v1835
  let v1840 : BitVec 32 := Scalar.addi v1834 v1833
  let v1841 : BitVec 32 := Scalar.select v1839 v1840 v1834
  let c1_i32_1469 : BitVec 32 := 1#32
  let v1842 : BitVec 32 := Scalar.muli v1841 c1_i32_1469
  let v1843 : BitVec 32 := Scalar.addi c0_i32_1470 v1842
  v1843.toNat
def k0_dev60 (d0 : Dev nD) : Nat :=
  let c0_i32_1485 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1475 : BitVec 32 := 15#32
  let v1850 : BitVec 32 := Scalar.addi v2 c15_i32_1475
  let c16_i32_1476 : BitVec 32 := 16#32
  let c0_i32_1477 : BitVec 32 := 0#32
  let v1851 : BitVec 1 := Scalar.cmpi .eq c16_i32_1476 c0_i32_1477
  let c1_i32_1478 : BitVec 32 := 1#32
  let v1852 : BitVec 32 := Scalar.select v1851 c1_i32_1478 c16_i32_1476
  let v1853 : BitVec 32 := Scalar.remsi v1850 v1852
  let c0_i32_1480 : BitVec 32 := 0#32
  let v1855 : BitVec 1 := Scalar.cmpi .slt v1853 c0_i32_1480
  let c0_i32_1481 : BitVec 32 := 0#32
  let v1856 : BitVec 1 := Scalar.cmpi .slt v1852 c0_i32_1481
  let v1857 : BitVec 1 := Scalar.xori v1855 v1856
  let c0_i32_1479 : BitVec 32 := 0#32
  let v1854 : BitVec 1 := Scalar.cmpi .ne v1853 c0_i32_1479
  let v1858 : BitVec 1 := Scalar.andi v1857 v1854
  let v1859 : BitVec 32 := Scalar.addi v1853 v1852
  let v1860 : BitVec 32 := Scalar.select v1858 v1859 v1853
  let c1_i32_1484 : BitVec 32 := 1#32
  let v1861 : BitVec 32 := Scalar.muli v1860 c1_i32_1484
  let v1862 : BitVec 32 := Scalar.addi c0_i32_1485 v1861
  v1862.toNat
def k0_dev61 (d0 : Dev nD) : Nat :=
  let c0_i32_1647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1636 : BitVec 32 := 1#32
  let v1979 : BitVec 32 := Scalar.subi v2 c1_i32_1636
  let c16_i32_1637 : BitVec 32 := 16#32
  let c0_i32_1638 : BitVec 32 := 0#32
  let v1980 : BitVec 1 := Scalar.cmpi .eq c16_i32_1637 c0_i32_1638
  let c1_i32_1639 : BitVec 32 := 1#32
  let v1981 : BitVec 32 := Scalar.select v1980 c1_i32_1639 c16_i32_1637
  let v1982 : BitVec 32 := Scalar.remsi v1979 v1981
  let c0_i32_1641 : BitVec 32 := 0#32
  let v1984 : BitVec 1 := Scalar.cmpi .slt v1982 c0_i32_1641
  let c0_i32_1642 : BitVec 32 := 0#32
  let v1985 : BitVec 1 := Scalar.cmpi .slt v1981 c0_i32_1642
  let v1986 : BitVec 1 := Scalar.xori v1984 v1985
  let c0_i32_1640 : BitVec 32 := 0#32
  let v1983 : BitVec 1 := Scalar.cmpi .ne v1982 c0_i32_1640
  let v1987 : BitVec 1 := Scalar.andi v1986 v1983
  let v1988 : BitVec 32 := Scalar.addi v1982 v1981
  let v1989 : BitVec 32 := Scalar.select v1987 v1988 v1982
  let c1_i32_1646 : BitVec 32 := 1#32
  let v1990 : BitVec 32 := Scalar.muli v1989 c1_i32_1646
  let v1991 : BitVec 32 := Scalar.addi c0_i32_1647 v1990
  v1991.toNat
def k0_dev62 (d0 : Dev nD) : Nat :=
  let c0_i32_1700 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1689 : BitVec 32 := 2#32
  let v2044 : BitVec 32 := Scalar.subi v2 c2_i32_1689
  let c16_i32_1690 : BitVec 32 := 16#32
  let c0_i32_1691 : BitVec 32 := 0#32
  let v2045 : BitVec 1 := Scalar.cmpi .eq c16_i32_1690 c0_i32_1691
  let c1_i32_1692 : BitVec 32 := 1#32
  let v2046 : BitVec 32 := Scalar.select v2045 c1_i32_1692 c16_i32_1690
  let v2047 : BitVec 32 := Scalar.remsi v2044 v2046
  let c0_i32_1694 : BitVec 32 := 0#32
  let v2049 : BitVec 1 := Scalar.cmpi .slt v2047 c0_i32_1694
  let c0_i32_1695 : BitVec 32 := 0#32
  let v2050 : BitVec 1 := Scalar.cmpi .slt v2046 c0_i32_1695
  let v2051 : BitVec 1 := Scalar.xori v2049 v2050
  let c0_i32_1693 : BitVec 32 := 0#32
  let v2048 : BitVec 1 := Scalar.cmpi .ne v2047 c0_i32_1693
  let v2052 : BitVec 1 := Scalar.andi v2051 v2048
  let v2053 : BitVec 32 := Scalar.addi v2047 v2046
  let v2054 : BitVec 32 := Scalar.select v2052 v2053 v2047
  let c1_i32_1699 : BitVec 32 := 1#32
  let v2055 : BitVec 32 := Scalar.muli v2054 c1_i32_1699
  let v2056 : BitVec 32 := Scalar.addi c0_i32_1700 v2055
  v2056.toNat
def k0_dev63 (d0 : Dev nD) : Nat :=
  let c0_i32_1718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1707 : BitVec 32 := 3#32
  let v2069 : BitVec 32 := Scalar.subi v2 c3_i32_1707
  let c16_i32_1708 : BitVec 32 := 16#32
  let c0_i32_1709 : BitVec 32 := 0#32
  let v2070 : BitVec 1 := Scalar.cmpi .eq c16_i32_1708 c0_i32_1709
  let c1_i32_1710 : BitVec 32 := 1#32
  let v2071 : BitVec 32 := Scalar.select v2070 c1_i32_1710 c16_i32_1708
  let v2072 : BitVec 32 := Scalar.remsi v2069 v2071
  let c0_i32_1712 : BitVec 32 := 0#32
  let v2074 : BitVec 1 := Scalar.cmpi .slt v2072 c0_i32_1712
  let c0_i32_1713 : BitVec 32 := 0#32
  let v2075 : BitVec 1 := Scalar.cmpi .slt v2071 c0_i32_1713
  let v2076 : BitVec 1 := Scalar.xori v2074 v2075
  let c0_i32_1711 : BitVec 32 := 0#32
  let v2073 : BitVec 1 := Scalar.cmpi .ne v2072 c0_i32_1711
  let v2077 : BitVec 1 := Scalar.andi v2076 v2073
  let v2078 : BitVec 32 := Scalar.addi v2072 v2071
  let v2079 : BitVec 32 := Scalar.select v2077 v2078 v2072
  let c1_i32_1717 : BitVec 32 := 1#32
  let v2080 : BitVec 32 := Scalar.muli v2079 c1_i32_1717
  let v2081 : BitVec 32 := Scalar.addi c0_i32_1718 v2080
  v2081.toNat
def k0_dev64 (d0 : Dev nD) : Nat :=
  let c0_i32_1771 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1760 : BitVec 32 := 4#32
  let v2134 : BitVec 32 := Scalar.subi v2 c4_i32_1760
  let c16_i32_1761 : BitVec 32 := 16#32
  let c0_i32_1762 : BitVec 32 := 0#32
  let v2135 : BitVec 1 := Scalar.cmpi .eq c16_i32_1761 c0_i32_1762
  let c1_i32_1763 : BitVec 32 := 1#32
  let v2136 : BitVec 32 := Scalar.select v2135 c1_i32_1763 c16_i32_1761
  let v2137 : BitVec 32 := Scalar.remsi v2134 v2136
  let c0_i32_1765 : BitVec 32 := 0#32
  let v2139 : BitVec 1 := Scalar.cmpi .slt v2137 c0_i32_1765
  let c0_i32_1766 : BitVec 32 := 0#32
  let v2140 : BitVec 1 := Scalar.cmpi .slt v2136 c0_i32_1766
  let v2141 : BitVec 1 := Scalar.xori v2139 v2140
  let c0_i32_1764 : BitVec 32 := 0#32
  let v2138 : BitVec 1 := Scalar.cmpi .ne v2137 c0_i32_1764
  let v2142 : BitVec 1 := Scalar.andi v2141 v2138
  let v2143 : BitVec 32 := Scalar.addi v2137 v2136
  let v2144 : BitVec 32 := Scalar.select v2142 v2143 v2137
  let c1_i32_1770 : BitVec 32 := 1#32
  let v2145 : BitVec 32 := Scalar.muli v2144 c1_i32_1770
  let v2146 : BitVec 32 := Scalar.addi c0_i32_1771 v2145
  v2146.toNat
def k0_dev65 (d0 : Dev nD) : Nat :=
  let c0_i32_1789 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1778 : BitVec 32 := 5#32
  let v2159 : BitVec 32 := Scalar.subi v2 c5_i32_1778
  let c16_i32_1779 : BitVec 32 := 16#32
  let c0_i32_1780 : BitVec 32 := 0#32
  let v2160 : BitVec 1 := Scalar.cmpi .eq c16_i32_1779 c0_i32_1780
  let c1_i32_1781 : BitVec 32 := 1#32
  let v2161 : BitVec 32 := Scalar.select v2160 c1_i32_1781 c16_i32_1779
  let v2162 : BitVec 32 := Scalar.remsi v2159 v2161
  let c0_i32_1783 : BitVec 32 := 0#32
  let v2164 : BitVec 1 := Scalar.cmpi .slt v2162 c0_i32_1783
  let c0_i32_1784 : BitVec 32 := 0#32
  let v2165 : BitVec 1 := Scalar.cmpi .slt v2161 c0_i32_1784
  let v2166 : BitVec 1 := Scalar.xori v2164 v2165
  let c0_i32_1782 : BitVec 32 := 0#32
  let v2163 : BitVec 1 := Scalar.cmpi .ne v2162 c0_i32_1782
  let v2167 : BitVec 1 := Scalar.andi v2166 v2163
  let v2168 : BitVec 32 := Scalar.addi v2162 v2161
  let v2169 : BitVec 32 := Scalar.select v2167 v2168 v2162
  let c1_i32_1788 : BitVec 32 := 1#32
  let v2170 : BitVec 32 := Scalar.muli v2169 c1_i32_1788
  let v2171 : BitVec 32 := Scalar.addi c0_i32_1789 v2170
  v2171.toNat
def k0_dev66 (d0 : Dev nD) : Nat :=
  let c0_i32_1842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1831 : BitVec 32 := 6#32
  let v2224 : BitVec 32 := Scalar.subi v2 c6_i32_1831
  let c16_i32_1832 : BitVec 32 := 16#32
  let c0_i32_1833 : BitVec 32 := 0#32
  let v2225 : BitVec 1 := Scalar.cmpi .eq c16_i32_1832 c0_i32_1833
  let c1_i32_1834 : BitVec 32 := 1#32
  let v2226 : BitVec 32 := Scalar.select v2225 c1_i32_1834 c16_i32_1832
  let v2227 : BitVec 32 := Scalar.remsi v2224 v2226
  let c0_i32_1836 : BitVec 32 := 0#32
  let v2229 : BitVec 1 := Scalar.cmpi .slt v2227 c0_i32_1836
  let c0_i32_1837 : BitVec 32 := 0#32
  let v2230 : BitVec 1 := Scalar.cmpi .slt v2226 c0_i32_1837
  let v2231 : BitVec 1 := Scalar.xori v2229 v2230
  let c0_i32_1835 : BitVec 32 := 0#32
  let v2228 : BitVec 1 := Scalar.cmpi .ne v2227 c0_i32_1835
  let v2232 : BitVec 1 := Scalar.andi v2231 v2228
  let v2233 : BitVec 32 := Scalar.addi v2227 v2226
  let v2234 : BitVec 32 := Scalar.select v2232 v2233 v2227
  let c1_i32_1841 : BitVec 32 := 1#32
  let v2235 : BitVec 32 := Scalar.muli v2234 c1_i32_1841
  let v2236 : BitVec 32 := Scalar.addi c0_i32_1842 v2235
  v2236.toNat
def k0_dev67 (d0 : Dev nD) : Nat :=
  let c0_i32_1860 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1849 : BitVec 32 := 7#32
  let v2249 : BitVec 32 := Scalar.subi v2 c7_i32_1849
  let c16_i32_1850 : BitVec 32 := 16#32
  let c0_i32_1851 : BitVec 32 := 0#32
  let v2250 : BitVec 1 := Scalar.cmpi .eq c16_i32_1850 c0_i32_1851
  let c1_i32_1852 : BitVec 32 := 1#32
  let v2251 : BitVec 32 := Scalar.select v2250 c1_i32_1852 c16_i32_1850
  let v2252 : BitVec 32 := Scalar.remsi v2249 v2251
  let c0_i32_1854 : BitVec 32 := 0#32
  let v2254 : BitVec 1 := Scalar.cmpi .slt v2252 c0_i32_1854
  let c0_i32_1855 : BitVec 32 := 0#32
  let v2255 : BitVec 1 := Scalar.cmpi .slt v2251 c0_i32_1855
  let v2256 : BitVec 1 := Scalar.xori v2254 v2255
  let c0_i32_1853 : BitVec 32 := 0#32
  let v2253 : BitVec 1 := Scalar.cmpi .ne v2252 c0_i32_1853
  let v2257 : BitVec 1 := Scalar.andi v2256 v2253
  let v2258 : BitVec 32 := Scalar.addi v2252 v2251
  let v2259 : BitVec 32 := Scalar.select v2257 v2258 v2252
  let c1_i32_1859 : BitVec 32 := 1#32
  let v2260 : BitVec 32 := Scalar.muli v2259 c1_i32_1859
  let v2261 : BitVec 32 := Scalar.addi c0_i32_1860 v2260
  v2261.toNat
def k0_dev68 (d0 : Dev nD) : Nat :=
  let c0_i32_1913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1902 : BitVec 32 := 8#32
  let v2314 : BitVec 32 := Scalar.subi v2 c8_i32_1902
  let c16_i32_1903 : BitVec 32 := 16#32
  let c0_i32_1904 : BitVec 32 := 0#32
  let v2315 : BitVec 1 := Scalar.cmpi .eq c16_i32_1903 c0_i32_1904
  let c1_i32_1905 : BitVec 32 := 1#32
  let v2316 : BitVec 32 := Scalar.select v2315 c1_i32_1905 c16_i32_1903
  let v2317 : BitVec 32 := Scalar.remsi v2314 v2316
  let c0_i32_1907 : BitVec 32 := 0#32
  let v2319 : BitVec 1 := Scalar.cmpi .slt v2317 c0_i32_1907
  let c0_i32_1908 : BitVec 32 := 0#32
  let v2320 : BitVec 1 := Scalar.cmpi .slt v2316 c0_i32_1908
  let v2321 : BitVec 1 := Scalar.xori v2319 v2320
  let c0_i32_1906 : BitVec 32 := 0#32
  let v2318 : BitVec 1 := Scalar.cmpi .ne v2317 c0_i32_1906
  let v2322 : BitVec 1 := Scalar.andi v2321 v2318
  let v2323 : BitVec 32 := Scalar.addi v2317 v2316
  let v2324 : BitVec 32 := Scalar.select v2322 v2323 v2317
  let c1_i32_1912 : BitVec 32 := 1#32
  let v2325 : BitVec 32 := Scalar.muli v2324 c1_i32_1912
  let v2326 : BitVec 32 := Scalar.addi c0_i32_1913 v2325
  v2326.toNat
def k0_dev69 (d0 : Dev nD) : Nat :=
  let c0_i32_1931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1920 : BitVec 32 := 9#32
  let v2339 : BitVec 32 := Scalar.subi v2 c9_i32_1920
  let c16_i32_1921 : BitVec 32 := 16#32
  let c0_i32_1922 : BitVec 32 := 0#32
  let v2340 : BitVec 1 := Scalar.cmpi .eq c16_i32_1921 c0_i32_1922
  let c1_i32_1923 : BitVec 32 := 1#32
  let v2341 : BitVec 32 := Scalar.select v2340 c1_i32_1923 c16_i32_1921
  let v2342 : BitVec 32 := Scalar.remsi v2339 v2341
  let c0_i32_1925 : BitVec 32 := 0#32
  let v2344 : BitVec 1 := Scalar.cmpi .slt v2342 c0_i32_1925
  let c0_i32_1926 : BitVec 32 := 0#32
  let v2345 : BitVec 1 := Scalar.cmpi .slt v2341 c0_i32_1926
  let v2346 : BitVec 1 := Scalar.xori v2344 v2345
  let c0_i32_1924 : BitVec 32 := 0#32
  let v2343 : BitVec 1 := Scalar.cmpi .ne v2342 c0_i32_1924
  let v2347 : BitVec 1 := Scalar.andi v2346 v2343
  let v2348 : BitVec 32 := Scalar.addi v2342 v2341
  let v2349 : BitVec 32 := Scalar.select v2347 v2348 v2342
  let c1_i32_1930 : BitVec 32 := 1#32
  let v2350 : BitVec 32 := Scalar.muli v2349 c1_i32_1930
  let v2351 : BitVec 32 := Scalar.addi c0_i32_1931 v2350
  v2351.toNat
def k0_dev70 (d0 : Dev nD) : Nat :=
  let c0_i32_1984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1973 : BitVec 32 := 10#32
  let v2404 : BitVec 32 := Scalar.subi v2 c10_i32_1973
  let c16_i32_1974 : BitVec 32 := 16#32
  let c0_i32_1975 : BitVec 32 := 0#32
  let v2405 : BitVec 1 := Scalar.cmpi .eq c16_i32_1974 c0_i32_1975
  let c1_i32_1976 : BitVec 32 := 1#32
  let v2406 : BitVec 32 := Scalar.select v2405 c1_i32_1976 c16_i32_1974
  let v2407 : BitVec 32 := Scalar.remsi v2404 v2406
  let c0_i32_1978 : BitVec 32 := 0#32
  let v2409 : BitVec 1 := Scalar.cmpi .slt v2407 c0_i32_1978
  let c0_i32_1979 : BitVec 32 := 0#32
  let v2410 : BitVec 1 := Scalar.cmpi .slt v2406 c0_i32_1979
  let v2411 : BitVec 1 := Scalar.xori v2409 v2410
  let c0_i32_1977 : BitVec 32 := 0#32
  let v2408 : BitVec 1 := Scalar.cmpi .ne v2407 c0_i32_1977
  let v2412 : BitVec 1 := Scalar.andi v2411 v2408
  let v2413 : BitVec 32 := Scalar.addi v2407 v2406
  let v2414 : BitVec 32 := Scalar.select v2412 v2413 v2407
  let c1_i32_1983 : BitVec 32 := 1#32
  let v2415 : BitVec 32 := Scalar.muli v2414 c1_i32_1983
  let v2416 : BitVec 32 := Scalar.addi c0_i32_1984 v2415
  v2416.toNat
def k0_dev71 (d0 : Dev nD) : Nat :=
  let c0_i32_2002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1991 : BitVec 32 := 11#32
  let v2429 : BitVec 32 := Scalar.subi v2 c11_i32_1991
  let c16_i32_1992 : BitVec 32 := 16#32
  let c0_i32_1993 : BitVec 32 := 0#32
  let v2430 : BitVec 1 := Scalar.cmpi .eq c16_i32_1992 c0_i32_1993
  let c1_i32_1994 : BitVec 32 := 1#32
  let v2431 : BitVec 32 := Scalar.select v2430 c1_i32_1994 c16_i32_1992
  let v2432 : BitVec 32 := Scalar.remsi v2429 v2431
  let c0_i32_1996 : BitVec 32 := 0#32
  let v2434 : BitVec 1 := Scalar.cmpi .slt v2432 c0_i32_1996
  let c0_i32_1997 : BitVec 32 := 0#32
  let v2435 : BitVec 1 := Scalar.cmpi .slt v2431 c0_i32_1997
  let v2436 : BitVec 1 := Scalar.xori v2434 v2435
  let c0_i32_1995 : BitVec 32 := 0#32
  let v2433 : BitVec 1 := Scalar.cmpi .ne v2432 c0_i32_1995
  let v2437 : BitVec 1 := Scalar.andi v2436 v2433
  let v2438 : BitVec 32 := Scalar.addi v2432 v2431
  let v2439 : BitVec 32 := Scalar.select v2437 v2438 v2432
  let c1_i32_2001 : BitVec 32 := 1#32
  let v2440 : BitVec 32 := Scalar.muli v2439 c1_i32_2001
  let v2441 : BitVec 32 := Scalar.addi c0_i32_2002 v2440
  v2441.toNat
def k0_dev72 (d0 : Dev nD) : Nat :=
  let c0_i32_2055 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2044 : BitVec 32 := 12#32
  let v2494 : BitVec 32 := Scalar.subi v2 c12_i32_2044
  let c16_i32_2045 : BitVec 32 := 16#32
  let c0_i32_2046 : BitVec 32 := 0#32
  let v2495 : BitVec 1 := Scalar.cmpi .eq c16_i32_2045 c0_i32_2046
  let c1_i32_2047 : BitVec 32 := 1#32
  let v2496 : BitVec 32 := Scalar.select v2495 c1_i32_2047 c16_i32_2045
  let v2497 : BitVec 32 := Scalar.remsi v2494 v2496
  let c0_i32_2049 : BitVec 32 := 0#32
  let v2499 : BitVec 1 := Scalar.cmpi .slt v2497 c0_i32_2049
  let c0_i32_2050 : BitVec 32 := 0#32
  let v2500 : BitVec 1 := Scalar.cmpi .slt v2496 c0_i32_2050
  let v2501 : BitVec 1 := Scalar.xori v2499 v2500
  let c0_i32_2048 : BitVec 32 := 0#32
  let v2498 : BitVec 1 := Scalar.cmpi .ne v2497 c0_i32_2048
  let v2502 : BitVec 1 := Scalar.andi v2501 v2498
  let v2503 : BitVec 32 := Scalar.addi v2497 v2496
  let v2504 : BitVec 32 := Scalar.select v2502 v2503 v2497
  let c1_i32_2054 : BitVec 32 := 1#32
  let v2505 : BitVec 32 := Scalar.muli v2504 c1_i32_2054
  let v2506 : BitVec 32 := Scalar.addi c0_i32_2055 v2505
  v2506.toNat
def k0_dev73 (d0 : Dev nD) : Nat :=
  let c0_i32_2073 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2062 : BitVec 32 := 13#32
  let v2519 : BitVec 32 := Scalar.subi v2 c13_i32_2062
  let c16_i32_2063 : BitVec 32 := 16#32
  let c0_i32_2064 : BitVec 32 := 0#32
  let v2520 : BitVec 1 := Scalar.cmpi .eq c16_i32_2063 c0_i32_2064
  let c1_i32_2065 : BitVec 32 := 1#32
  let v2521 : BitVec 32 := Scalar.select v2520 c1_i32_2065 c16_i32_2063
  let v2522 : BitVec 32 := Scalar.remsi v2519 v2521
  let c0_i32_2067 : BitVec 32 := 0#32
  let v2524 : BitVec 1 := Scalar.cmpi .slt v2522 c0_i32_2067
  let c0_i32_2068 : BitVec 32 := 0#32
  let v2525 : BitVec 1 := Scalar.cmpi .slt v2521 c0_i32_2068
  let v2526 : BitVec 1 := Scalar.xori v2524 v2525
  let c0_i32_2066 : BitVec 32 := 0#32
  let v2523 : BitVec 1 := Scalar.cmpi .ne v2522 c0_i32_2066
  let v2527 : BitVec 1 := Scalar.andi v2526 v2523
  let v2528 : BitVec 32 := Scalar.addi v2522 v2521
  let v2529 : BitVec 32 := Scalar.select v2527 v2528 v2522
  let c1_i32_2072 : BitVec 32 := 1#32
  let v2530 : BitVec 32 := Scalar.muli v2529 c1_i32_2072
  let v2531 : BitVec 32 := Scalar.addi c0_i32_2073 v2530
  v2531.toNat
def k0_dev74 (d0 : Dev nD) : Nat :=
  let c0_i32_2126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2115 : BitVec 32 := 14#32
  let v2584 : BitVec 32 := Scalar.subi v2 c14_i32_2115
  let c16_i32_2116 : BitVec 32 := 16#32
  let c0_i32_2117 : BitVec 32 := 0#32
  let v2585 : BitVec 1 := Scalar.cmpi .eq c16_i32_2116 c0_i32_2117
  let c1_i32_2118 : BitVec 32 := 1#32
  let v2586 : BitVec 32 := Scalar.select v2585 c1_i32_2118 c16_i32_2116
  let v2587 : BitVec 32 := Scalar.remsi v2584 v2586
  let c0_i32_2120 : BitVec 32 := 0#32
  let v2589 : BitVec 1 := Scalar.cmpi .slt v2587 c0_i32_2120
  let c0_i32_2121 : BitVec 32 := 0#32
  let v2590 : BitVec 1 := Scalar.cmpi .slt v2586 c0_i32_2121
  let v2591 : BitVec 1 := Scalar.xori v2589 v2590
  let c0_i32_2119 : BitVec 32 := 0#32
  let v2588 : BitVec 1 := Scalar.cmpi .ne v2587 c0_i32_2119
  let v2592 : BitVec 1 := Scalar.andi v2591 v2588
  let v2593 : BitVec 32 := Scalar.addi v2587 v2586
  let v2594 : BitVec 32 := Scalar.select v2592 v2593 v2587
  let c1_i32_2125 : BitVec 32 := 1#32
  let v2595 : BitVec 32 := Scalar.muli v2594 c1_i32_2125
  let v2596 : BitVec 32 := Scalar.addi c0_i32_2126 v2595
  v2596.toNat
def k0_dev75 (d0 : Dev nD) : Nat :=
  let c0_i32_2144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2133 : BitVec 32 := 15#32
  let v2609 : BitVec 32 := Scalar.subi v2 c15_i32_2133
  let c16_i32_2134 : BitVec 32 := 16#32
  let c0_i32_2135 : BitVec 32 := 0#32
  let v2610 : BitVec 1 := Scalar.cmpi .eq c16_i32_2134 c0_i32_2135
  let c1_i32_2136 : BitVec 32 := 1#32
  let v2611 : BitVec 32 := Scalar.select v2610 c1_i32_2136 c16_i32_2134
  let v2612 : BitVec 32 := Scalar.remsi v2609 v2611
  let c0_i32_2138 : BitVec 32 := 0#32
  let v2614 : BitVec 1 := Scalar.cmpi .slt v2612 c0_i32_2138
  let c0_i32_2139 : BitVec 32 := 0#32
  let v2615 : BitVec 1 := Scalar.cmpi .slt v2611 c0_i32_2139
  let v2616 : BitVec 1 := Scalar.xori v2614 v2615
  let c0_i32_2137 : BitVec 32 := 0#32
  let v2613 : BitVec 1 := Scalar.cmpi .ne v2612 c0_i32_2137
  let v2617 : BitVec 1 := Scalar.andi v2616 v2613
  let v2618 : BitVec 32 := Scalar.addi v2612 v2611
  let v2619 : BitVec 32 := Scalar.select v2617 v2618 v2612
  let c1_i32_2143 : BitVec 32 := 1#32
  let v2620 : BitVec 32 := Scalar.muli v2619 c1_i32_2143
  let v2621 : BitVec 32 := Scalar.addi c0_i32_2144 v2620
  v2621.toNat
def k0_dev76 (d0 : Dev nD) : Nat :=
  let c0_i32_2566 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2556 : BitVec 32 := 1#32
  let v3038 : BitVec 32 := Scalar.addi v2 c1_i32_2556
  let c16_i32_2557 : BitVec 32 := 16#32
  let c0_i32_2558 : BitVec 32 := 0#32
  let v3039 : BitVec 1 := Scalar.cmpi .eq c16_i32_2557 c0_i32_2558
  let c1_i32_2559 : BitVec 32 := 1#32
  let v3040 : BitVec 32 := Scalar.select v3039 c1_i32_2559 c16_i32_2557
  let v3041 : BitVec 32 := Scalar.remsi v3038 v3040
  let c0_i32_2561 : BitVec 32 := 0#32
  let v3043 : BitVec 1 := Scalar.cmpi .slt v3041 c0_i32_2561
  let c0_i32_2562 : BitVec 32 := 0#32
  let v3044 : BitVec 1 := Scalar.cmpi .slt v3040 c0_i32_2562
  let v3045 : BitVec 1 := Scalar.xori v3043 v3044
  let c0_i32_2560 : BitVec 32 := 0#32
  let v3042 : BitVec 1 := Scalar.cmpi .ne v3041 c0_i32_2560
  let v3046 : BitVec 1 := Scalar.andi v3045 v3042
  let v3047 : BitVec 32 := Scalar.addi v3041 v3040
  let v3048 : BitVec 32 := Scalar.select v3046 v3047 v3041
  let c1_i32_2565 : BitVec 32 := 1#32
  let v3049 : BitVec 32 := Scalar.muli v3048 c1_i32_2565
  let v3050 : BitVec 32 := Scalar.addi c0_i32_2566 v3049
  v3050.toNat
def k0_dev77 (d0 : Dev nD) : Nat :=
  let c0_i32_2581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2571 : BitVec 32 := 2#32
  let v3057 : BitVec 32 := Scalar.addi v2 c2_i32_2571
  let c16_i32_2572 : BitVec 32 := 16#32
  let c0_i32_2573 : BitVec 32 := 0#32
  let v3058 : BitVec 1 := Scalar.cmpi .eq c16_i32_2572 c0_i32_2573
  let c1_i32_2574 : BitVec 32 := 1#32
  let v3059 : BitVec 32 := Scalar.select v3058 c1_i32_2574 c16_i32_2572
  let v3060 : BitVec 32 := Scalar.remsi v3057 v3059
  let c0_i32_2576 : BitVec 32 := 0#32
  let v3062 : BitVec 1 := Scalar.cmpi .slt v3060 c0_i32_2576
  let c0_i32_2577 : BitVec 32 := 0#32
  let v3063 : BitVec 1 := Scalar.cmpi .slt v3059 c0_i32_2577
  let v3064 : BitVec 1 := Scalar.xori v3062 v3063
  let c0_i32_2575 : BitVec 32 := 0#32
  let v3061 : BitVec 1 := Scalar.cmpi .ne v3060 c0_i32_2575
  let v3065 : BitVec 1 := Scalar.andi v3064 v3061
  let v3066 : BitVec 32 := Scalar.addi v3060 v3059
  let v3067 : BitVec 32 := Scalar.select v3065 v3066 v3060
  let c1_i32_2580 : BitVec 32 := 1#32
  let v3068 : BitVec 32 := Scalar.muli v3067 c1_i32_2580
  let v3069 : BitVec 32 := Scalar.addi c0_i32_2581 v3068
  v3069.toNat
def k0_dev78 (d0 : Dev nD) : Nat :=
  let c0_i32_2596 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2586 : BitVec 32 := 3#32
  let v3076 : BitVec 32 := Scalar.addi v2 c3_i32_2586
  let c16_i32_2587 : BitVec 32 := 16#32
  let c0_i32_2588 : BitVec 32 := 0#32
  let v3077 : BitVec 1 := Scalar.cmpi .eq c16_i32_2587 c0_i32_2588
  let c1_i32_2589 : BitVec 32 := 1#32
  let v3078 : BitVec 32 := Scalar.select v3077 c1_i32_2589 c16_i32_2587
  let v3079 : BitVec 32 := Scalar.remsi v3076 v3078
  let c0_i32_2591 : BitVec 32 := 0#32
  let v3081 : BitVec 1 := Scalar.cmpi .slt v3079 c0_i32_2591
  let c0_i32_2592 : BitVec 32 := 0#32
  let v3082 : BitVec 1 := Scalar.cmpi .slt v3078 c0_i32_2592
  let v3083 : BitVec 1 := Scalar.xori v3081 v3082
  let c0_i32_2590 : BitVec 32 := 0#32
  let v3080 : BitVec 1 := Scalar.cmpi .ne v3079 c0_i32_2590
  let v3084 : BitVec 1 := Scalar.andi v3083 v3080
  let v3085 : BitVec 32 := Scalar.addi v3079 v3078
  let v3086 : BitVec 32 := Scalar.select v3084 v3085 v3079
  let c1_i32_2595 : BitVec 32 := 1#32
  let v3087 : BitVec 32 := Scalar.muli v3086 c1_i32_2595
  let v3088 : BitVec 32 := Scalar.addi c0_i32_2596 v3087
  v3088.toNat
def k0_dev79 (d0 : Dev nD) : Nat :=
  let c0_i32_2611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2601 : BitVec 32 := 4#32
  let v3095 : BitVec 32 := Scalar.addi v2 c4_i32_2601
  let c16_i32_2602 : BitVec 32 := 16#32
  let c0_i32_2603 : BitVec 32 := 0#32
  let v3096 : BitVec 1 := Scalar.cmpi .eq c16_i32_2602 c0_i32_2603
  let c1_i32_2604 : BitVec 32 := 1#32
  let v3097 : BitVec 32 := Scalar.select v3096 c1_i32_2604 c16_i32_2602
  let v3098 : BitVec 32 := Scalar.remsi v3095 v3097
  let c0_i32_2606 : BitVec 32 := 0#32
  let v3100 : BitVec 1 := Scalar.cmpi .slt v3098 c0_i32_2606
  let c0_i32_2607 : BitVec 32 := 0#32
  let v3101 : BitVec 1 := Scalar.cmpi .slt v3097 c0_i32_2607
  let v3102 : BitVec 1 := Scalar.xori v3100 v3101
  let c0_i32_2605 : BitVec 32 := 0#32
  let v3099 : BitVec 1 := Scalar.cmpi .ne v3098 c0_i32_2605
  let v3103 : BitVec 1 := Scalar.andi v3102 v3099
  let v3104 : BitVec 32 := Scalar.addi v3098 v3097
  let v3105 : BitVec 32 := Scalar.select v3103 v3104 v3098
  let c1_i32_2610 : BitVec 32 := 1#32
  let v3106 : BitVec 32 := Scalar.muli v3105 c1_i32_2610
  let v3107 : BitVec 32 := Scalar.addi c0_i32_2611 v3106
  v3107.toNat
def k0_dev80 (d0 : Dev nD) : Nat :=
  let c0_i32_2626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2616 : BitVec 32 := 5#32
  let v3114 : BitVec 32 := Scalar.addi v2 c5_i32_2616
  let c16_i32_2617 : BitVec 32 := 16#32
  let c0_i32_2618 : BitVec 32 := 0#32
  let v3115 : BitVec 1 := Scalar.cmpi .eq c16_i32_2617 c0_i32_2618
  let c1_i32_2619 : BitVec 32 := 1#32
  let v3116 : BitVec 32 := Scalar.select v3115 c1_i32_2619 c16_i32_2617
  let v3117 : BitVec 32 := Scalar.remsi v3114 v3116
  let c0_i32_2621 : BitVec 32 := 0#32
  let v3119 : BitVec 1 := Scalar.cmpi .slt v3117 c0_i32_2621
  let c0_i32_2622 : BitVec 32 := 0#32
  let v3120 : BitVec 1 := Scalar.cmpi .slt v3116 c0_i32_2622
  let v3121 : BitVec 1 := Scalar.xori v3119 v3120
  let c0_i32_2620 : BitVec 32 := 0#32
  let v3118 : BitVec 1 := Scalar.cmpi .ne v3117 c0_i32_2620
  let v3122 : BitVec 1 := Scalar.andi v3121 v3118
  let v3123 : BitVec 32 := Scalar.addi v3117 v3116
  let v3124 : BitVec 32 := Scalar.select v3122 v3123 v3117
  let c1_i32_2625 : BitVec 32 := 1#32
  let v3125 : BitVec 32 := Scalar.muli v3124 c1_i32_2625
  let v3126 : BitVec 32 := Scalar.addi c0_i32_2626 v3125
  v3126.toNat
def k0_dev81 (d0 : Dev nD) : Nat :=
  let c0_i32_2641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2631 : BitVec 32 := 6#32
  let v3133 : BitVec 32 := Scalar.addi v2 c6_i32_2631
  let c16_i32_2632 : BitVec 32 := 16#32
  let c0_i32_2633 : BitVec 32 := 0#32
  let v3134 : BitVec 1 := Scalar.cmpi .eq c16_i32_2632 c0_i32_2633
  let c1_i32_2634 : BitVec 32 := 1#32
  let v3135 : BitVec 32 := Scalar.select v3134 c1_i32_2634 c16_i32_2632
  let v3136 : BitVec 32 := Scalar.remsi v3133 v3135
  let c0_i32_2636 : BitVec 32 := 0#32
  let v3138 : BitVec 1 := Scalar.cmpi .slt v3136 c0_i32_2636
  let c0_i32_2637 : BitVec 32 := 0#32
  let v3139 : BitVec 1 := Scalar.cmpi .slt v3135 c0_i32_2637
  let v3140 : BitVec 1 := Scalar.xori v3138 v3139
  let c0_i32_2635 : BitVec 32 := 0#32
  let v3137 : BitVec 1 := Scalar.cmpi .ne v3136 c0_i32_2635
  let v3141 : BitVec 1 := Scalar.andi v3140 v3137
  let v3142 : BitVec 32 := Scalar.addi v3136 v3135
  let v3143 : BitVec 32 := Scalar.select v3141 v3142 v3136
  let c1_i32_2640 : BitVec 32 := 1#32
  let v3144 : BitVec 32 := Scalar.muli v3143 c1_i32_2640
  let v3145 : BitVec 32 := Scalar.addi c0_i32_2641 v3144
  v3145.toNat
def k0_dev82 (d0 : Dev nD) : Nat :=
  let c0_i32_2656 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2646 : BitVec 32 := 7#32
  let v3152 : BitVec 32 := Scalar.addi v2 c7_i32_2646
  let c16_i32_2647 : BitVec 32 := 16#32
  let c0_i32_2648 : BitVec 32 := 0#32
  let v3153 : BitVec 1 := Scalar.cmpi .eq c16_i32_2647 c0_i32_2648
  let c1_i32_2649 : BitVec 32 := 1#32
  let v3154 : BitVec 32 := Scalar.select v3153 c1_i32_2649 c16_i32_2647
  let v3155 : BitVec 32 := Scalar.remsi v3152 v3154
  let c0_i32_2651 : BitVec 32 := 0#32
  let v3157 : BitVec 1 := Scalar.cmpi .slt v3155 c0_i32_2651
  let c0_i32_2652 : BitVec 32 := 0#32
  let v3158 : BitVec 1 := Scalar.cmpi .slt v3154 c0_i32_2652
  let v3159 : BitVec 1 := Scalar.xori v3157 v3158
  let c0_i32_2650 : BitVec 32 := 0#32
  let v3156 : BitVec 1 := Scalar.cmpi .ne v3155 c0_i32_2650
  let v3160 : BitVec 1 := Scalar.andi v3159 v3156
  let v3161 : BitVec 32 := Scalar.addi v3155 v3154
  let v3162 : BitVec 32 := Scalar.select v3160 v3161 v3155
  let c1_i32_2655 : BitVec 32 := 1#32
  let v3163 : BitVec 32 := Scalar.muli v3162 c1_i32_2655
  let v3164 : BitVec 32 := Scalar.addi c0_i32_2656 v3163
  v3164.toNat
def k0_dev83 (d0 : Dev nD) : Nat :=
  let c0_i32_2671 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2661 : BitVec 32 := 8#32
  let v3171 : BitVec 32 := Scalar.addi v2 c8_i32_2661
  let c16_i32_2662 : BitVec 32 := 16#32
  let c0_i32_2663 : BitVec 32 := 0#32
  let v3172 : BitVec 1 := Scalar.cmpi .eq c16_i32_2662 c0_i32_2663
  let c1_i32_2664 : BitVec 32 := 1#32
  let v3173 : BitVec 32 := Scalar.select v3172 c1_i32_2664 c16_i32_2662
  let v3174 : BitVec 32 := Scalar.remsi v3171 v3173
  let c0_i32_2666 : BitVec 32 := 0#32
  let v3176 : BitVec 1 := Scalar.cmpi .slt v3174 c0_i32_2666
  let c0_i32_2667 : BitVec 32 := 0#32
  let v3177 : BitVec 1 := Scalar.cmpi .slt v3173 c0_i32_2667
  let v3178 : BitVec 1 := Scalar.xori v3176 v3177
  let c0_i32_2665 : BitVec 32 := 0#32
  let v3175 : BitVec 1 := Scalar.cmpi .ne v3174 c0_i32_2665
  let v3179 : BitVec 1 := Scalar.andi v3178 v3175
  let v3180 : BitVec 32 := Scalar.addi v3174 v3173
  let v3181 : BitVec 32 := Scalar.select v3179 v3180 v3174
  let c1_i32_2670 : BitVec 32 := 1#32
  let v3182 : BitVec 32 := Scalar.muli v3181 c1_i32_2670
  let v3183 : BitVec 32 := Scalar.addi c0_i32_2671 v3182
  v3183.toNat
def k0_dev84 (d0 : Dev nD) : Nat :=
  let c0_i32_2686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2676 : BitVec 32 := 9#32
  let v3190 : BitVec 32 := Scalar.addi v2 c9_i32_2676
  let c16_i32_2677 : BitVec 32 := 16#32
  let c0_i32_2678 : BitVec 32 := 0#32
  let v3191 : BitVec 1 := Scalar.cmpi .eq c16_i32_2677 c0_i32_2678
  let c1_i32_2679 : BitVec 32 := 1#32
  let v3192 : BitVec 32 := Scalar.select v3191 c1_i32_2679 c16_i32_2677
  let v3193 : BitVec 32 := Scalar.remsi v3190 v3192
  let c0_i32_2681 : BitVec 32 := 0#32
  let v3195 : BitVec 1 := Scalar.cmpi .slt v3193 c0_i32_2681
  let c0_i32_2682 : BitVec 32 := 0#32
  let v3196 : BitVec 1 := Scalar.cmpi .slt v3192 c0_i32_2682
  let v3197 : BitVec 1 := Scalar.xori v3195 v3196
  let c0_i32_2680 : BitVec 32 := 0#32
  let v3194 : BitVec 1 := Scalar.cmpi .ne v3193 c0_i32_2680
  let v3198 : BitVec 1 := Scalar.andi v3197 v3194
  let v3199 : BitVec 32 := Scalar.addi v3193 v3192
  let v3200 : BitVec 32 := Scalar.select v3198 v3199 v3193
  let c1_i32_2685 : BitVec 32 := 1#32
  let v3201 : BitVec 32 := Scalar.muli v3200 c1_i32_2685
  let v3202 : BitVec 32 := Scalar.addi c0_i32_2686 v3201
  v3202.toNat
def k0_dev85 (d0 : Dev nD) : Nat :=
  let c0_i32_2701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2691 : BitVec 32 := 10#32
  let v3209 : BitVec 32 := Scalar.addi v2 c10_i32_2691
  let c16_i32_2692 : BitVec 32 := 16#32
  let c0_i32_2693 : BitVec 32 := 0#32
  let v3210 : BitVec 1 := Scalar.cmpi .eq c16_i32_2692 c0_i32_2693
  let c1_i32_2694 : BitVec 32 := 1#32
  let v3211 : BitVec 32 := Scalar.select v3210 c1_i32_2694 c16_i32_2692
  let v3212 : BitVec 32 := Scalar.remsi v3209 v3211
  let c0_i32_2696 : BitVec 32 := 0#32
  let v3214 : BitVec 1 := Scalar.cmpi .slt v3212 c0_i32_2696
  let c0_i32_2697 : BitVec 32 := 0#32
  let v3215 : BitVec 1 := Scalar.cmpi .slt v3211 c0_i32_2697
  let v3216 : BitVec 1 := Scalar.xori v3214 v3215
  let c0_i32_2695 : BitVec 32 := 0#32
  let v3213 : BitVec 1 := Scalar.cmpi .ne v3212 c0_i32_2695
  let v3217 : BitVec 1 := Scalar.andi v3216 v3213
  let v3218 : BitVec 32 := Scalar.addi v3212 v3211
  let v3219 : BitVec 32 := Scalar.select v3217 v3218 v3212
  let c1_i32_2700 : BitVec 32 := 1#32
  let v3220 : BitVec 32 := Scalar.muli v3219 c1_i32_2700
  let v3221 : BitVec 32 := Scalar.addi c0_i32_2701 v3220
  v3221.toNat
def k0_dev86 (d0 : Dev nD) : Nat :=
  let c0_i32_2716 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2706 : BitVec 32 := 11#32
  let v3228 : BitVec 32 := Scalar.addi v2 c11_i32_2706
  let c16_i32_2707 : BitVec 32 := 16#32
  let c0_i32_2708 : BitVec 32 := 0#32
  let v3229 : BitVec 1 := Scalar.cmpi .eq c16_i32_2707 c0_i32_2708
  let c1_i32_2709 : BitVec 32 := 1#32
  let v3230 : BitVec 32 := Scalar.select v3229 c1_i32_2709 c16_i32_2707
  let v3231 : BitVec 32 := Scalar.remsi v3228 v3230
  let c0_i32_2711 : BitVec 32 := 0#32
  let v3233 : BitVec 1 := Scalar.cmpi .slt v3231 c0_i32_2711
  let c0_i32_2712 : BitVec 32 := 0#32
  let v3234 : BitVec 1 := Scalar.cmpi .slt v3230 c0_i32_2712
  let v3235 : BitVec 1 := Scalar.xori v3233 v3234
  let c0_i32_2710 : BitVec 32 := 0#32
  let v3232 : BitVec 1 := Scalar.cmpi .ne v3231 c0_i32_2710
  let v3236 : BitVec 1 := Scalar.andi v3235 v3232
  let v3237 : BitVec 32 := Scalar.addi v3231 v3230
  let v3238 : BitVec 32 := Scalar.select v3236 v3237 v3231
  let c1_i32_2715 : BitVec 32 := 1#32
  let v3239 : BitVec 32 := Scalar.muli v3238 c1_i32_2715
  let v3240 : BitVec 32 := Scalar.addi c0_i32_2716 v3239
  v3240.toNat
def k0_dev87 (d0 : Dev nD) : Nat :=
  let c0_i32_2731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2721 : BitVec 32 := 12#32
  let v3247 : BitVec 32 := Scalar.addi v2 c12_i32_2721
  let c16_i32_2722 : BitVec 32 := 16#32
  let c0_i32_2723 : BitVec 32 := 0#32
  let v3248 : BitVec 1 := Scalar.cmpi .eq c16_i32_2722 c0_i32_2723
  let c1_i32_2724 : BitVec 32 := 1#32
  let v3249 : BitVec 32 := Scalar.select v3248 c1_i32_2724 c16_i32_2722
  let v3250 : BitVec 32 := Scalar.remsi v3247 v3249
  let c0_i32_2726 : BitVec 32 := 0#32
  let v3252 : BitVec 1 := Scalar.cmpi .slt v3250 c0_i32_2726
  let c0_i32_2727 : BitVec 32 := 0#32
  let v3253 : BitVec 1 := Scalar.cmpi .slt v3249 c0_i32_2727
  let v3254 : BitVec 1 := Scalar.xori v3252 v3253
  let c0_i32_2725 : BitVec 32 := 0#32
  let v3251 : BitVec 1 := Scalar.cmpi .ne v3250 c0_i32_2725
  let v3255 : BitVec 1 := Scalar.andi v3254 v3251
  let v3256 : BitVec 32 := Scalar.addi v3250 v3249
  let v3257 : BitVec 32 := Scalar.select v3255 v3256 v3250
  let c1_i32_2730 : BitVec 32 := 1#32
  let v3258 : BitVec 32 := Scalar.muli v3257 c1_i32_2730
  let v3259 : BitVec 32 := Scalar.addi c0_i32_2731 v3258
  v3259.toNat
def k0_dev88 (d0 : Dev nD) : Nat :=
  let c0_i32_2746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2736 : BitVec 32 := 13#32
  let v3266 : BitVec 32 := Scalar.addi v2 c13_i32_2736
  let c16_i32_2737 : BitVec 32 := 16#32
  let c0_i32_2738 : BitVec 32 := 0#32
  let v3267 : BitVec 1 := Scalar.cmpi .eq c16_i32_2737 c0_i32_2738
  let c1_i32_2739 : BitVec 32 := 1#32
  let v3268 : BitVec 32 := Scalar.select v3267 c1_i32_2739 c16_i32_2737
  let v3269 : BitVec 32 := Scalar.remsi v3266 v3268
  let c0_i32_2741 : BitVec 32 := 0#32
  let v3271 : BitVec 1 := Scalar.cmpi .slt v3269 c0_i32_2741
  let c0_i32_2742 : BitVec 32 := 0#32
  let v3272 : BitVec 1 := Scalar.cmpi .slt v3268 c0_i32_2742
  let v3273 : BitVec 1 := Scalar.xori v3271 v3272
  let c0_i32_2740 : BitVec 32 := 0#32
  let v3270 : BitVec 1 := Scalar.cmpi .ne v3269 c0_i32_2740
  let v3274 : BitVec 1 := Scalar.andi v3273 v3270
  let v3275 : BitVec 32 := Scalar.addi v3269 v3268
  let v3276 : BitVec 32 := Scalar.select v3274 v3275 v3269
  let c1_i32_2745 : BitVec 32 := 1#32
  let v3277 : BitVec 32 := Scalar.muli v3276 c1_i32_2745
  let v3278 : BitVec 32 := Scalar.addi c0_i32_2746 v3277
  v3278.toNat
def k0_dev89 (d0 : Dev nD) : Nat :=
  let c0_i32_2761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2751 : BitVec 32 := 14#32
  let v3285 : BitVec 32 := Scalar.addi v2 c14_i32_2751
  let c16_i32_2752 : BitVec 32 := 16#32
  let c0_i32_2753 : BitVec 32 := 0#32
  let v3286 : BitVec 1 := Scalar.cmpi .eq c16_i32_2752 c0_i32_2753
  let c1_i32_2754 : BitVec 32 := 1#32
  let v3287 : BitVec 32 := Scalar.select v3286 c1_i32_2754 c16_i32_2752
  let v3288 : BitVec 32 := Scalar.remsi v3285 v3287
  let c0_i32_2756 : BitVec 32 := 0#32
  let v3290 : BitVec 1 := Scalar.cmpi .slt v3288 c0_i32_2756
  let c0_i32_2757 : BitVec 32 := 0#32
  let v3291 : BitVec 1 := Scalar.cmpi .slt v3287 c0_i32_2757
  let v3292 : BitVec 1 := Scalar.xori v3290 v3291
  let c0_i32_2755 : BitVec 32 := 0#32
  let v3289 : BitVec 1 := Scalar.cmpi .ne v3288 c0_i32_2755
  let v3293 : BitVec 1 := Scalar.andi v3292 v3289
  let v3294 : BitVec 32 := Scalar.addi v3288 v3287
  let v3295 : BitVec 32 := Scalar.select v3293 v3294 v3288
  let c1_i32_2760 : BitVec 32 := 1#32
  let v3296 : BitVec 32 := Scalar.muli v3295 c1_i32_2760
  let v3297 : BitVec 32 := Scalar.addi c0_i32_2761 v3296
  v3297.toNat
def k0_dev90 (d0 : Dev nD) : Nat :=
  let c0_i32_2776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2766 : BitVec 32 := 15#32
  let v3304 : BitVec 32 := Scalar.addi v2 c15_i32_2766
  let c16_i32_2767 : BitVec 32 := 16#32
  let c0_i32_2768 : BitVec 32 := 0#32
  let v3305 : BitVec 1 := Scalar.cmpi .eq c16_i32_2767 c0_i32_2768
  let c1_i32_2769 : BitVec 32 := 1#32
  let v3306 : BitVec 32 := Scalar.select v3305 c1_i32_2769 c16_i32_2767
  let v3307 : BitVec 32 := Scalar.remsi v3304 v3306
  let c0_i32_2771 : BitVec 32 := 0#32
  let v3309 : BitVec 1 := Scalar.cmpi .slt v3307 c0_i32_2771
  let c0_i32_2772 : BitVec 32 := 0#32
  let v3310 : BitVec 1 := Scalar.cmpi .slt v3306 c0_i32_2772
  let v3311 : BitVec 1 := Scalar.xori v3309 v3310
  let c0_i32_2770 : BitVec 32 := 0#32
  let v3308 : BitVec 1 := Scalar.cmpi .ne v3307 c0_i32_2770
  let v3312 : BitVec 1 := Scalar.andi v3311 v3308
  let v3313 : BitVec 32 := Scalar.addi v3307 v3306
  let v3314 : BitVec 32 := Scalar.select v3312 v3313 v3307
  let c1_i32_2775 : BitVec 32 := 1#32
  let v3315 : BitVec 32 := Scalar.muli v3314 c1_i32_2775
  let v3316 : BitVec 32 := Scalar.addi c0_i32_2776 v3315
  v3316.toNat
def k0_dev91 (d0 : Dev nD) : Nat :=
  let c0_i32_2938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2927 : BitVec 32 := 1#32
  let v3433 : BitVec 32 := Scalar.subi v2 c1_i32_2927
  let c16_i32_2928 : BitVec 32 := 16#32
  let c0_i32_2929 : BitVec 32 := 0#32
  let v3434 : BitVec 1 := Scalar.cmpi .eq c16_i32_2928 c0_i32_2929
  let c1_i32_2930 : BitVec 32 := 1#32
  let v3435 : BitVec 32 := Scalar.select v3434 c1_i32_2930 c16_i32_2928
  let v3436 : BitVec 32 := Scalar.remsi v3433 v3435
  let c0_i32_2932 : BitVec 32 := 0#32
  let v3438 : BitVec 1 := Scalar.cmpi .slt v3436 c0_i32_2932
  let c0_i32_2933 : BitVec 32 := 0#32
  let v3439 : BitVec 1 := Scalar.cmpi .slt v3435 c0_i32_2933
  let v3440 : BitVec 1 := Scalar.xori v3438 v3439
  let c0_i32_2931 : BitVec 32 := 0#32
  let v3437 : BitVec 1 := Scalar.cmpi .ne v3436 c0_i32_2931
  let v3441 : BitVec 1 := Scalar.andi v3440 v3437
  let v3442 : BitVec 32 := Scalar.addi v3436 v3435
  let v3443 : BitVec 32 := Scalar.select v3441 v3442 v3436
  let c1_i32_2937 : BitVec 32 := 1#32
  let v3444 : BitVec 32 := Scalar.muli v3443 c1_i32_2937
  let v3445 : BitVec 32 := Scalar.addi c0_i32_2938 v3444
  v3445.toNat
def k0_dev92 (d0 : Dev nD) : Nat :=
  let c0_i32_2991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2980 : BitVec 32 := 2#32
  let v3498 : BitVec 32 := Scalar.subi v2 c2_i32_2980
  let c16_i32_2981 : BitVec 32 := 16#32
  let c0_i32_2982 : BitVec 32 := 0#32
  let v3499 : BitVec 1 := Scalar.cmpi .eq c16_i32_2981 c0_i32_2982
  let c1_i32_2983 : BitVec 32 := 1#32
  let v3500 : BitVec 32 := Scalar.select v3499 c1_i32_2983 c16_i32_2981
  let v3501 : BitVec 32 := Scalar.remsi v3498 v3500
  let c0_i32_2985 : BitVec 32 := 0#32
  let v3503 : BitVec 1 := Scalar.cmpi .slt v3501 c0_i32_2985
  let c0_i32_2986 : BitVec 32 := 0#32
  let v3504 : BitVec 1 := Scalar.cmpi .slt v3500 c0_i32_2986
  let v3505 : BitVec 1 := Scalar.xori v3503 v3504
  let c0_i32_2984 : BitVec 32 := 0#32
  let v3502 : BitVec 1 := Scalar.cmpi .ne v3501 c0_i32_2984
  let v3506 : BitVec 1 := Scalar.andi v3505 v3502
  let v3507 : BitVec 32 := Scalar.addi v3501 v3500
  let v3508 : BitVec 32 := Scalar.select v3506 v3507 v3501
  let c1_i32_2990 : BitVec 32 := 1#32
  let v3509 : BitVec 32 := Scalar.muli v3508 c1_i32_2990
  let v3510 : BitVec 32 := Scalar.addi c0_i32_2991 v3509
  v3510.toNat
def k0_dev93 (d0 : Dev nD) : Nat :=
  let c0_i32_3009 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2998 : BitVec 32 := 3#32
  let v3523 : BitVec 32 := Scalar.subi v2 c3_i32_2998
  let c16_i32_2999 : BitVec 32 := 16#32
  let c0_i32_3000 : BitVec 32 := 0#32
  let v3524 : BitVec 1 := Scalar.cmpi .eq c16_i32_2999 c0_i32_3000
  let c1_i32_3001 : BitVec 32 := 1#32
  let v3525 : BitVec 32 := Scalar.select v3524 c1_i32_3001 c16_i32_2999
  let v3526 : BitVec 32 := Scalar.remsi v3523 v3525
  let c0_i32_3003 : BitVec 32 := 0#32
  let v3528 : BitVec 1 := Scalar.cmpi .slt v3526 c0_i32_3003
  let c0_i32_3004 : BitVec 32 := 0#32
  let v3529 : BitVec 1 := Scalar.cmpi .slt v3525 c0_i32_3004
  let v3530 : BitVec 1 := Scalar.xori v3528 v3529
  let c0_i32_3002 : BitVec 32 := 0#32
  let v3527 : BitVec 1 := Scalar.cmpi .ne v3526 c0_i32_3002
  let v3531 : BitVec 1 := Scalar.andi v3530 v3527
  let v3532 : BitVec 32 := Scalar.addi v3526 v3525
  let v3533 : BitVec 32 := Scalar.select v3531 v3532 v3526
  let c1_i32_3008 : BitVec 32 := 1#32
  let v3534 : BitVec 32 := Scalar.muli v3533 c1_i32_3008
  let v3535 : BitVec 32 := Scalar.addi c0_i32_3009 v3534
  v3535.toNat
def k0_dev94 (d0 : Dev nD) : Nat :=
  let c0_i32_3062 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_3051 : BitVec 32 := 4#32
  let v3588 : BitVec 32 := Scalar.subi v2 c4_i32_3051
  let c16_i32_3052 : BitVec 32 := 16#32
  let c0_i32_3053 : BitVec 32 := 0#32
  let v3589 : BitVec 1 := Scalar.cmpi .eq c16_i32_3052 c0_i32_3053
  let c1_i32_3054 : BitVec 32 := 1#32
  let v3590 : BitVec 32 := Scalar.select v3589 c1_i32_3054 c16_i32_3052
  let v3591 : BitVec 32 := Scalar.remsi v3588 v3590
  let c0_i32_3056 : BitVec 32 := 0#32
  let v3593 : BitVec 1 := Scalar.cmpi .slt v3591 c0_i32_3056
  let c0_i32_3057 : BitVec 32 := 0#32
  let v3594 : BitVec 1 := Scalar.cmpi .slt v3590 c0_i32_3057
  let v3595 : BitVec 1 := Scalar.xori v3593 v3594
  let c0_i32_3055 : BitVec 32 := 0#32
  let v3592 : BitVec 1 := Scalar.cmpi .ne v3591 c0_i32_3055
  let v3596 : BitVec 1 := Scalar.andi v3595 v3592
  let v3597 : BitVec 32 := Scalar.addi v3591 v3590
  let v3598 : BitVec 32 := Scalar.select v3596 v3597 v3591
  let c1_i32_3061 : BitVec 32 := 1#32
  let v3599 : BitVec 32 := Scalar.muli v3598 c1_i32_3061
  let v3600 : BitVec 32 := Scalar.addi c0_i32_3062 v3599
  v3600.toNat
def k0_dev95 (d0 : Dev nD) : Nat :=
  let c0_i32_3080 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_3069 : BitVec 32 := 5#32
  let v3613 : BitVec 32 := Scalar.subi v2 c5_i32_3069
  let c16_i32_3070 : BitVec 32 := 16#32
  let c0_i32_3071 : BitVec 32 := 0#32
  let v3614 : BitVec 1 := Scalar.cmpi .eq c16_i32_3070 c0_i32_3071
  let c1_i32_3072 : BitVec 32 := 1#32
  let v3615 : BitVec 32 := Scalar.select v3614 c1_i32_3072 c16_i32_3070
  let v3616 : BitVec 32 := Scalar.remsi v3613 v3615
  let c0_i32_3074 : BitVec 32 := 0#32
  let v3618 : BitVec 1 := Scalar.cmpi .slt v3616 c0_i32_3074
  let c0_i32_3075 : BitVec 32 := 0#32
  let v3619 : BitVec 1 := Scalar.cmpi .slt v3615 c0_i32_3075
  let v3620 : BitVec 1 := Scalar.xori v3618 v3619
  let c0_i32_3073 : BitVec 32 := 0#32
  let v3617 : BitVec 1 := Scalar.cmpi .ne v3616 c0_i32_3073
  let v3621 : BitVec 1 := Scalar.andi v3620 v3617
  let v3622 : BitVec 32 := Scalar.addi v3616 v3615
  let v3623 : BitVec 32 := Scalar.select v3621 v3622 v3616
  let c1_i32_3079 : BitVec 32 := 1#32
  let v3624 : BitVec 32 := Scalar.muli v3623 c1_i32_3079
  let v3625 : BitVec 32 := Scalar.addi c0_i32_3080 v3624
  v3625.toNat
def k0_dev96 (d0 : Dev nD) : Nat :=
  let c0_i32_3133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_3122 : BitVec 32 := 6#32
  let v3678 : BitVec 32 := Scalar.subi v2 c6_i32_3122
  let c16_i32_3123 : BitVec 32 := 16#32
  let c0_i32_3124 : BitVec 32 := 0#32
  let v3679 : BitVec 1 := Scalar.cmpi .eq c16_i32_3123 c0_i32_3124
  let c1_i32_3125 : BitVec 32 := 1#32
  let v3680 : BitVec 32 := Scalar.select v3679 c1_i32_3125 c16_i32_3123
  let v3681 : BitVec 32 := Scalar.remsi v3678 v3680
  let c0_i32_3127 : BitVec 32 := 0#32
  let v3683 : BitVec 1 := Scalar.cmpi .slt v3681 c0_i32_3127
  let c0_i32_3128 : BitVec 32 := 0#32
  let v3684 : BitVec 1 := Scalar.cmpi .slt v3680 c0_i32_3128
  let v3685 : BitVec 1 := Scalar.xori v3683 v3684
  let c0_i32_3126 : BitVec 32 := 0#32
  let v3682 : BitVec 1 := Scalar.cmpi .ne v3681 c0_i32_3126
  let v3686 : BitVec 1 := Scalar.andi v3685 v3682
  let v3687 : BitVec 32 := Scalar.addi v3681 v3680
  let v3688 : BitVec 32 := Scalar.select v3686 v3687 v3681
  let c1_i32_3132 : BitVec 32 := 1#32
  let v3689 : BitVec 32 := Scalar.muli v3688 c1_i32_3132
  let v3690 : BitVec 32 := Scalar.addi c0_i32_3133 v3689
  v3690.toNat
def k0_dev97 (d0 : Dev nD) : Nat :=
  let c0_i32_3151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_3140 : BitVec 32 := 7#32
  let v3703 : BitVec 32 := Scalar.subi v2 c7_i32_3140
  let c16_i32_3141 : BitVec 32 := 16#32
  let c0_i32_3142 : BitVec 32 := 0#32
  let v3704 : BitVec 1 := Scalar.cmpi .eq c16_i32_3141 c0_i32_3142
  let c1_i32_3143 : BitVec 32 := 1#32
  let v3705 : BitVec 32 := Scalar.select v3704 c1_i32_3143 c16_i32_3141
  let v3706 : BitVec 32 := Scalar.remsi v3703 v3705
  let c0_i32_3145 : BitVec 32 := 0#32
  let v3708 : BitVec 1 := Scalar.cmpi .slt v3706 c0_i32_3145
  let c0_i32_3146 : BitVec 32 := 0#32
  let v3709 : BitVec 1 := Scalar.cmpi .slt v3705 c0_i32_3146
  let v3710 : BitVec 1 := Scalar.xori v3708 v3709
  let c0_i32_3144 : BitVec 32 := 0#32
  let v3707 : BitVec 1 := Scalar.cmpi .ne v3706 c0_i32_3144
  let v3711 : BitVec 1 := Scalar.andi v3710 v3707
  let v3712 : BitVec 32 := Scalar.addi v3706 v3705
  let v3713 : BitVec 32 := Scalar.select v3711 v3712 v3706
  let c1_i32_3150 : BitVec 32 := 1#32
  let v3714 : BitVec 32 := Scalar.muli v3713 c1_i32_3150
  let v3715 : BitVec 32 := Scalar.addi c0_i32_3151 v3714
  v3715.toNat
def k0_dev98 (d0 : Dev nD) : Nat :=
  let c0_i32_3204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_3193 : BitVec 32 := 8#32
  let v3768 : BitVec 32 := Scalar.subi v2 c8_i32_3193
  let c16_i32_3194 : BitVec 32 := 16#32
  let c0_i32_3195 : BitVec 32 := 0#32
  let v3769 : BitVec 1 := Scalar.cmpi .eq c16_i32_3194 c0_i32_3195
  let c1_i32_3196 : BitVec 32 := 1#32
  let v3770 : BitVec 32 := Scalar.select v3769 c1_i32_3196 c16_i32_3194
  let v3771 : BitVec 32 := Scalar.remsi v3768 v3770
  let c0_i32_3198 : BitVec 32 := 0#32
  let v3773 : BitVec 1 := Scalar.cmpi .slt v3771 c0_i32_3198
  let c0_i32_3199 : BitVec 32 := 0#32
  let v3774 : BitVec 1 := Scalar.cmpi .slt v3770 c0_i32_3199
  let v3775 : BitVec 1 := Scalar.xori v3773 v3774
  let c0_i32_3197 : BitVec 32 := 0#32
  let v3772 : BitVec 1 := Scalar.cmpi .ne v3771 c0_i32_3197
  let v3776 : BitVec 1 := Scalar.andi v3775 v3772
  let v3777 : BitVec 32 := Scalar.addi v3771 v3770
  let v3778 : BitVec 32 := Scalar.select v3776 v3777 v3771
  let c1_i32_3203 : BitVec 32 := 1#32
  let v3779 : BitVec 32 := Scalar.muli v3778 c1_i32_3203
  let v3780 : BitVec 32 := Scalar.addi c0_i32_3204 v3779
  v3780.toNat
def k0_dev99 (d0 : Dev nD) : Nat :=
  let c0_i32_3222 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_3211 : BitVec 32 := 9#32
  let v3793 : BitVec 32 := Scalar.subi v2 c9_i32_3211
  let c16_i32_3212 : BitVec 32 := 16#32
  let c0_i32_3213 : BitVec 32 := 0#32
  let v3794 : BitVec 1 := Scalar.cmpi .eq c16_i32_3212 c0_i32_3213
  let c1_i32_3214 : BitVec 32 := 1#32
  let v3795 : BitVec 32 := Scalar.select v3794 c1_i32_3214 c16_i32_3212
  let v3796 : BitVec 32 := Scalar.remsi v3793 v3795
  let c0_i32_3216 : BitVec 32 := 0#32
  let v3798 : BitVec 1 := Scalar.cmpi .slt v3796 c0_i32_3216
  let c0_i32_3217 : BitVec 32 := 0#32
  let v3799 : BitVec 1 := Scalar.cmpi .slt v3795 c0_i32_3217
  let v3800 : BitVec 1 := Scalar.xori v3798 v3799
  let c0_i32_3215 : BitVec 32 := 0#32
  let v3797 : BitVec 1 := Scalar.cmpi .ne v3796 c0_i32_3215
  let v3801 : BitVec 1 := Scalar.andi v3800 v3797
  let v3802 : BitVec 32 := Scalar.addi v3796 v3795
  let v3803 : BitVec 32 := Scalar.select v3801 v3802 v3796
  let c1_i32_3221 : BitVec 32 := 1#32
  let v3804 : BitVec 32 := Scalar.muli v3803 c1_i32_3221
  let v3805 : BitVec 32 := Scalar.addi c0_i32_3222 v3804
  v3805.toNat
def k0_dev100 (d0 : Dev nD) : Nat :=
  let c0_i32_3275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_3264 : BitVec 32 := 10#32
  let v3858 : BitVec 32 := Scalar.subi v2 c10_i32_3264
  let c16_i32_3265 : BitVec 32 := 16#32
  let c0_i32_3266 : BitVec 32 := 0#32
  let v3859 : BitVec 1 := Scalar.cmpi .eq c16_i32_3265 c0_i32_3266
  let c1_i32_3267 : BitVec 32 := 1#32
  let v3860 : BitVec 32 := Scalar.select v3859 c1_i32_3267 c16_i32_3265
  let v3861 : BitVec 32 := Scalar.remsi v3858 v3860
  let c0_i32_3269 : BitVec 32 := 0#32
  let v3863 : BitVec 1 := Scalar.cmpi .slt v3861 c0_i32_3269
  let c0_i32_3270 : BitVec 32 := 0#32
  let v3864 : BitVec 1 := Scalar.cmpi .slt v3860 c0_i32_3270
  let v3865 : BitVec 1 := Scalar.xori v3863 v3864
  let c0_i32_3268 : BitVec 32 := 0#32
  let v3862 : BitVec 1 := Scalar.cmpi .ne v3861 c0_i32_3268
  let v3866 : BitVec 1 := Scalar.andi v3865 v3862
  let v3867 : BitVec 32 := Scalar.addi v3861 v3860
  let v3868 : BitVec 32 := Scalar.select v3866 v3867 v3861
  let c1_i32_3274 : BitVec 32 := 1#32
  let v3869 : BitVec 32 := Scalar.muli v3868 c1_i32_3274
  let v3870 : BitVec 32 := Scalar.addi c0_i32_3275 v3869
  v3870.toNat
def k0_dev101 (d0 : Dev nD) : Nat :=
  let c0_i32_3293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_3282 : BitVec 32 := 11#32
  let v3883 : BitVec 32 := Scalar.subi v2 c11_i32_3282
  let c16_i32_3283 : BitVec 32 := 16#32
  let c0_i32_3284 : BitVec 32 := 0#32
  let v3884 : BitVec 1 := Scalar.cmpi .eq c16_i32_3283 c0_i32_3284
  let c1_i32_3285 : BitVec 32 := 1#32
  let v3885 : BitVec 32 := Scalar.select v3884 c1_i32_3285 c16_i32_3283
  let v3886 : BitVec 32 := Scalar.remsi v3883 v3885
  let c0_i32_3287 : BitVec 32 := 0#32
  let v3888 : BitVec 1 := Scalar.cmpi .slt v3886 c0_i32_3287
  let c0_i32_3288 : BitVec 32 := 0#32
  let v3889 : BitVec 1 := Scalar.cmpi .slt v3885 c0_i32_3288
  let v3890 : BitVec 1 := Scalar.xori v3888 v3889
  let c0_i32_3286 : BitVec 32 := 0#32
  let v3887 : BitVec 1 := Scalar.cmpi .ne v3886 c0_i32_3286
  let v3891 : BitVec 1 := Scalar.andi v3890 v3887
  let v3892 : BitVec 32 := Scalar.addi v3886 v3885
  let v3893 : BitVec 32 := Scalar.select v3891 v3892 v3886
  let c1_i32_3292 : BitVec 32 := 1#32
  let v3894 : BitVec 32 := Scalar.muli v3893 c1_i32_3292
  let v3895 : BitVec 32 := Scalar.addi c0_i32_3293 v3894
  v3895.toNat
def k0_dev102 (d0 : Dev nD) : Nat :=
  let c0_i32_3346 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_3335 : BitVec 32 := 12#32
  let v3948 : BitVec 32 := Scalar.subi v2 c12_i32_3335
  let c16_i32_3336 : BitVec 32 := 16#32
  let c0_i32_3337 : BitVec 32 := 0#32
  let v3949 : BitVec 1 := Scalar.cmpi .eq c16_i32_3336 c0_i32_3337
  let c1_i32_3338 : BitVec 32 := 1#32
  let v3950 : BitVec 32 := Scalar.select v3949 c1_i32_3338 c16_i32_3336
  let v3951 : BitVec 32 := Scalar.remsi v3948 v3950
  let c0_i32_3340 : BitVec 32 := 0#32
  let v3953 : BitVec 1 := Scalar.cmpi .slt v3951 c0_i32_3340
  let c0_i32_3341 : BitVec 32 := 0#32
  let v3954 : BitVec 1 := Scalar.cmpi .slt v3950 c0_i32_3341
  let v3955 : BitVec 1 := Scalar.xori v3953 v3954
  let c0_i32_3339 : BitVec 32 := 0#32
  let v3952 : BitVec 1 := Scalar.cmpi .ne v3951 c0_i32_3339
  let v3956 : BitVec 1 := Scalar.andi v3955 v3952
  let v3957 : BitVec 32 := Scalar.addi v3951 v3950
  let v3958 : BitVec 32 := Scalar.select v3956 v3957 v3951
  let c1_i32_3345 : BitVec 32 := 1#32
  let v3959 : BitVec 32 := Scalar.muli v3958 c1_i32_3345
  let v3960 : BitVec 32 := Scalar.addi c0_i32_3346 v3959
  v3960.toNat
def k0_dev103 (d0 : Dev nD) : Nat :=
  let c0_i32_3364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3353 : BitVec 32 := 13#32
  let v3973 : BitVec 32 := Scalar.subi v2 c13_i32_3353
  let c16_i32_3354 : BitVec 32 := 16#32
  let c0_i32_3355 : BitVec 32 := 0#32
  let v3974 : BitVec 1 := Scalar.cmpi .eq c16_i32_3354 c0_i32_3355
  let c1_i32_3356 : BitVec 32 := 1#32
  let v3975 : BitVec 32 := Scalar.select v3974 c1_i32_3356 c16_i32_3354
  let v3976 : BitVec 32 := Scalar.remsi v3973 v3975
  let c0_i32_3358 : BitVec 32 := 0#32
  let v3978 : BitVec 1 := Scalar.cmpi .slt v3976 c0_i32_3358
  let c0_i32_3359 : BitVec 32 := 0#32
  let v3979 : BitVec 1 := Scalar.cmpi .slt v3975 c0_i32_3359
  let v3980 : BitVec 1 := Scalar.xori v3978 v3979
  let c0_i32_3357 : BitVec 32 := 0#32
  let v3977 : BitVec 1 := Scalar.cmpi .ne v3976 c0_i32_3357
  let v3981 : BitVec 1 := Scalar.andi v3980 v3977
  let v3982 : BitVec 32 := Scalar.addi v3976 v3975
  let v3983 : BitVec 32 := Scalar.select v3981 v3982 v3976
  let c1_i32_3363 : BitVec 32 := 1#32
  let v3984 : BitVec 32 := Scalar.muli v3983 c1_i32_3363
  let v3985 : BitVec 32 := Scalar.addi c0_i32_3364 v3984
  v3985.toNat
def k0_dev104 (d0 : Dev nD) : Nat :=
  let c0_i32_3417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3406 : BitVec 32 := 14#32
  let v4038 : BitVec 32 := Scalar.subi v2 c14_i32_3406
  let c16_i32_3407 : BitVec 32 := 16#32
  let c0_i32_3408 : BitVec 32 := 0#32
  let v4039 : BitVec 1 := Scalar.cmpi .eq c16_i32_3407 c0_i32_3408
  let c1_i32_3409 : BitVec 32 := 1#32
  let v4040 : BitVec 32 := Scalar.select v4039 c1_i32_3409 c16_i32_3407
  let v4041 : BitVec 32 := Scalar.remsi v4038 v4040
  let c0_i32_3411 : BitVec 32 := 0#32
  let v4043 : BitVec 1 := Scalar.cmpi .slt v4041 c0_i32_3411
  let c0_i32_3412 : BitVec 32 := 0#32
  let v4044 : BitVec 1 := Scalar.cmpi .slt v4040 c0_i32_3412
  let v4045 : BitVec 1 := Scalar.xori v4043 v4044
  let c0_i32_3410 : BitVec 32 := 0#32
  let v4042 : BitVec 1 := Scalar.cmpi .ne v4041 c0_i32_3410
  let v4046 : BitVec 1 := Scalar.andi v4045 v4042
  let v4047 : BitVec 32 := Scalar.addi v4041 v4040
  let v4048 : BitVec 32 := Scalar.select v4046 v4047 v4041
  let c1_i32_3416 : BitVec 32 := 1#32
  let v4049 : BitVec 32 := Scalar.muli v4048 c1_i32_3416
  let v4050 : BitVec 32 := Scalar.addi c0_i32_3417 v4049
  v4050.toNat
def k0_dev105 (d0 : Dev nD) : Nat :=
  let c0_i32_3435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_3424 : BitVec 32 := 15#32
  let v4063 : BitVec 32 := Scalar.subi v2 c15_i32_3424
  let c16_i32_3425 : BitVec 32 := 16#32
  let c0_i32_3426 : BitVec 32 := 0#32
  let v4064 : BitVec 1 := Scalar.cmpi .eq c16_i32_3425 c0_i32_3426
  let c1_i32_3427 : BitVec 32 := 1#32
  let v4065 : BitVec 32 := Scalar.select v4064 c1_i32_3427 c16_i32_3425
  let v4066 : BitVec 32 := Scalar.remsi v4063 v4065
  let c0_i32_3429 : BitVec 32 := 0#32
  let v4068 : BitVec 1 := Scalar.cmpi .slt v4066 c0_i32_3429
  let c0_i32_3430 : BitVec 32 := 0#32
  let v4069 : BitVec 1 := Scalar.cmpi .slt v4065 c0_i32_3430
  let v4070 : BitVec 1 := Scalar.xori v4068 v4069
  let c0_i32_3428 : BitVec 32 := 0#32
  let v4067 : BitVec 1 := Scalar.cmpi .ne v4066 c0_i32_3428
  let v4071 : BitVec 1 := Scalar.andi v4070 v4067
  let v4072 : BitVec 32 := Scalar.addi v4066 v4065
  let v4073 : BitVec 32 := Scalar.select v4071 v4072 v4066
  let c1_i32_3434 : BitVec 32 := 1#32
  let v4074 : BitVec 32 := Scalar.muli v4073 c1_i32_3434
  let v4075 : BitVec 32 := Scalar.addi c0_i32_3435 v4074
  v4075.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

class Facts₀ : Prop where
  hamt_1 : (1#32 : BitVec 32).msb = false
  hamt_15 : (15#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S4096x256_S256x256_0_0 : ∀ a, (![0, 0] : Fin 2 → Nat) a + S256x256.size a ≤ S4096x256.size a
  packedbf16_S4096x256_S256x256_0_0 : (Rect.unit (s := S4096x256) ![0, 0] S256x256.size inb_S4096x256_S256x256_0_0).PackedRows (EltTy.packing .bf16)
  inb_S15_S1_0 : ∀ a, (![0] : Fin 1 → Nat) a + S1.size a ≤ S15.size a
  squeezes_S1_S_ : S1.Squeezes S_
  inb_S4096x256_S256x256_256_0 : ∀ a, (![256, 0] : Fin 2 → Nat) a + S256x256.size a ≤ S4096x256.size a
  wordsbf16_S4096x256_S256x256_0_0 : (Rect.unit (s := S4096x256) ![0, 0] S256x256.size inb_S4096x256_S256x256_0_0).WholeWords (EltTy.packing .bf16)
  wordsbf16_S4096x256_S256x256_256_0 : (Rect.unit (s := S4096x256) ![256, 0] S256x256.size inb_S4096x256_S256x256_256_0).WholeWords (EltTy.packing .bf16)
  inb_S15_S1_1 : ∀ a, (![1] : Fin 1 → Nat) a + S1.size a ≤ S15.size a
  inb_S4096x256_S256x256_512_0 : ∀ a, (![512, 0] : Fin 2 → Nat) a + S256x256.size a ≤ S4096x256.size a
  wordsbf16_S4096x256_S256x256_512_0 : (Rect.unit (s := S4096x256) ![512, 0] S256x256.size inb_S4096x256_S256x256_512_0).WholeWords (EltTy.packing .bf16)
  inb_S15_S1_2 : ∀ a, (![2] : Fin 1 → Nat) a + S1.size a ≤ S15.size a
  inb_S4096x256_S256x256_768_0 : ∀ a, (![768, 0] : Fin 2 → Nat) a + S256x256.size a ≤ S4096x256.size a
  wordsbf16_S4096x256_S256x256_768_0 : (Rect.unit (s := S4096x256) ![768, 0] S256x256.size inb_S4096x256_S256x256_768_0).WholeWords (EltTy.packing .bf16)
  inb_S15_S1_3 : ∀ a, (![3] : Fin 1 → Nat) a + S1.size a ≤ S15.size a
  inb_S4096x256_S256x256_1024_0 : ∀ a, (![1024, 0] : Fin 2 → Nat) a + S256x256.size a ≤ S4096x256.size a
  wordsbf16_S4096x256_S256x256_1024_0 : (Rect.unit (s := S4096x256) ![1024, 0] S256x256.size inb_S4096x256_S256x256_1024_0).WholeWords (EltTy.packing .bf16)
  inb_S15_S1_4 : ∀ a, (![4] : Fin 1 → Nat) a + S1.size a ≤ S15.size a
  inb_S4096x256_S256x256_1280_0 : ∀ a, (![1280, 0] : Fin 2 → Nat) a + S256x256.size a ≤ S4096x256.size a
  wordsbf16_S4096x256_S256x256_1280_0 : (Rect.unit (s := S4096x256) ![1280, 0] S256x256.size inb_S4096x256_S256x256_1280_0).WholeWords (EltTy.packing .bf16)
  inb_S15_S1_5 : ∀ a, (![5] : Fin 1 → Nat) a + S1.size a ≤ S15.size a
  inb_S4096x256_S256x256_1536_0 : ∀ a, (![1536, 0] : Fin 2 → Nat) a + S256x256.size a ≤ S4096x256.size a
  wordsbf16_S4096x256_S256x256_1536_0 : (Rect.unit (s := S4096x256) ![1536, 0] S256x256.size inb_S4096x256_S256x256_1536_0).WholeWords (EltTy.packing .bf16)
  inb_S15_S1_6 : ∀ a, (![6] : Fin 1 → Nat) a + S1.size a ≤ S15.size a
  inb_S4096x256_S256x256_1792_0 : ∀ a, (![1792, 0] : Fin 2 → Nat) a + S256x256.size a ≤ S4096x256.size a
  wordsbf16_S4096x256_S256x256_1792_0 : (Rect.unit (s := S4096x256) ![1792, 0] S256x256.size inb_S4096x256_S256x256_1792_0).WholeWords (EltTy.packing .bf16)
  inb_S15_S1_7 : ∀ a, (![7] : Fin 1 → Nat) a + S1.size a ≤ S15.size a
  inb_S4096x256_S256x256_2048_0 : ∀ a, (![2048, 0] : Fin 2 → Nat) a + S256x256.size a ≤ S4096x256.size a
  wordsbf16_S4096x256_S256x256_2048_0 : (Rect.unit (s := S4096x256) ![2048, 0] S256x256.size inb_S4096x256_S256x256_2048_0).WholeWords (EltTy.packing .bf16)
  inb_S15_S1_8 : ∀ a, (![8] : Fin 1 → Nat) a + S1.size a ≤ S15.size a
  inb_S4096x256_S256x256_2304_0 : ∀ a, (![2304, 0] : Fin 2 → Nat) a + S256x256.size a ≤ S4096x256.size a
  wordsbf16_S4096x256_S256x256_2304_0 : (Rect.unit (s := S4096x256) ![2304, 0] S256x256.size inb_S4096x256_S256x256_2304_0).WholeWords (EltTy.packing .bf16)
  inb_S15_S1_9 : ∀ a, (![9] : Fin 1 → Nat) a + S1.size a ≤ S15.size a
  inb_S4096x256_S256x256_2560_0 : ∀ a, (![2560, 0] : Fin 2 → Nat) a + S256x256.size a ≤ S4096x256.size a
  wordsbf16_S4096x256_S256x256_2560_0 : (Rect.unit (s := S4096x256) ![2560, 0] S256x256.size inb_S4096x256_S256x256_2560_0).WholeWords (EltTy.packing .bf16)
  inb_S15_S1_10 : ∀ a, (![10] : Fin 1 → Nat) a + S1.size a ≤ S15.size a
  inb_S4096x256_S256x256_2816_0 : ∀ a, (![2816, 0] : Fin 2 → Nat) a + S256x256.size a ≤ S4096x256.size a
  wordsbf16_S4096x256_S256x256_2816_0 : (Rect.unit (s := S4096x256) ![2816, 0] S256x256.size inb_S4096x256_S256x256_2816_0).WholeWords (EltTy.packing .bf16)
  inb_S15_S1_11 : ∀ a, (![11] : Fin 1 → Nat) a + S1.size a ≤ S15.size a
  inb_S4096x256_S256x256_3072_0 : ∀ a, (![3072, 0] : Fin 2 → Nat) a + S256x256.size a ≤ S4096x256.size a
  wordsbf16_S4096x256_S256x256_3072_0 : (Rect.unit (s := S4096x256) ![3072, 0] S256x256.size inb_S4096x256_S256x256_3072_0).WholeWords (EltTy.packing .bf16)
  inb_S15_S1_12 : ∀ a, (![12] : Fin 1 → Nat) a + S1.size a ≤ S15.size a
  inb_S4096x256_S256x256_3328_0 : ∀ a, (![3328, 0] : Fin 2 → Nat) a + S256x256.size a ≤ S4096x256.size a
  wordsbf16_S4096x256_S256x256_3328_0 : (Rect.unit (s := S4096x256) ![3328, 0] S256x256.size inb_S4096x256_S256x256_3328_0).WholeWords (EltTy.packing .bf16)
  inb_S15_S1_13 : ∀ a, (![13] : Fin 1 → Nat) a + S1.size a ≤ S15.size a
  inb_S4096x256_S256x256_3584_0 : ∀ a, (![3584, 0] : Fin 2 → Nat) a + S256x256.size a ≤ S4096x256.size a
  wordsbf16_S4096x256_S256x256_3584_0 : (Rect.unit (s := S4096x256) ![3584, 0] S256x256.size inb_S4096x256_S256x256_3584_0).WholeWords (EltTy.packing .bf16)
  inb_S15_S1_14 : ∀ a, (![14] : Fin 1 → Nat) a + S1.size a ≤ S15.size a
  inb_S4096x256_S256x256_3840_0 : ∀ a, (![3840, 0] : Fin 2 → Nat) a + S256x256.size a ≤ S4096x256.size a
  wordsbf16_S4096x256_S256x256_3840_0 : (Rect.unit (s := S4096x256) ![3840, 0] S256x256.size inb_S4096x256_S256x256_3840_0).WholeWords (EltTy.packing .bf16)
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S4096x256_S512x256_0_0 : ∀ a, (![0, 0] : Fin 2 → Nat) a + S512x256.size a ≤ S4096x256.size a
  slices_S512x256_o0_0_S256x256 : S512x256.Slices ![0, 0] S256x256
  slices_S512x256_o256_0_S256x256 : S512x256.Slices ![256, 0] S256x256
  packedbf16_S4096x256_S256x256_256_0 : (Rect.unit (s := S4096x256) ![256, 0] S256x256.size inb_S4096x256_S256x256_256_0).PackedRows (EltTy.packing .bf16)
  inb_S15x256x256_S1x256x256_14_0_0 : ∀ a, (![14, 0, 0] : Fin 3 → Nat) a + S1x256x256.size a ≤ S15x256x256.size a
  squeezes_S1x256x256_S256x256 : S1x256x256.Squeezes S256x256
  wordsbf16_S15x256x256_S1x256x256_14_0_0 : (Rect.unit (s := S15x256x256) ![14, 0, 0] S1x256x256.size inb_S15x256x256_S1x256x256_14_0_0).WholeWords (EltTy.packing .bf16)
  inb_S4096x256_S512x256_512_0 : ∀ a, (![512, 0] : Fin 2 → Nat) a + S512x256.size a ≤ S4096x256.size a
  packedbf16_S4096x256_S256x256_512_0 : (Rect.unit (s := S4096x256) ![512, 0] S256x256.size inb_S4096x256_S256x256_512_0).PackedRows (EltTy.packing .bf16)
  inb_S15x256x256_S1x256x256_13_0_0 : ∀ a, (![13, 0, 0] : Fin 3 → Nat) a + S1x256x256.size a ≤ S15x256x256.size a
  wordsbf16_S15x256x256_S1x256x256_13_0_0 : (Rect.unit (s := S15x256x256) ![13, 0, 0] S1x256x256.size inb_S15x256x256_S1x256x256_13_0_0).WholeWords (EltTy.packing .bf16)
  packedbf16_S4096x256_S256x256_768_0 : (Rect.unit (s := S4096x256) ![768, 0] S256x256.size inb_S4096x256_S256x256_768_0).PackedRows (EltTy.packing .bf16)
  inb_S15x256x256_S1x256x256_12_0_0 : ∀ a, (![12, 0, 0] : Fin 3 → Nat) a + S1x256x256.size a ≤ S15x256x256.size a
  wordsbf16_S15x256x256_S1x256x256_12_0_0 : (Rect.unit (s := S15x256x256) ![12, 0, 0] S1x256x256.size inb_S15x256x256_S1x256x256_12_0_0).WholeWords (EltTy.packing .bf16)
  inb_S4096x256_S512x256_1024_0 : ∀ a, (![1024, 0] : Fin 2 → Nat) a + S512x256.size a ≤ S4096x256.size a
  packedbf16_S4096x256_S256x256_1024_0 : (Rect.unit (s := S4096x256) ![1024, 0] S256x256.size inb_S4096x256_S256x256_1024_0).PackedRows (EltTy.packing .bf16)
  inb_S15x256x256_S1x256x256_11_0_0 : ∀ a, (![11, 0, 0] : Fin 3 → Nat) a + S1x256x256.size a ≤ S15x256x256.size a
  wordsbf16_S15x256x256_S1x256x256_11_0_0 : (Rect.unit (s := S15x256x256) ![11, 0, 0] S1x256x256.size inb_S15x256x256_S1x256x256_11_0_0).WholeWords (EltTy.packing .bf16)
  packedbf16_S4096x256_S256x256_1280_0 : (Rect.unit (s := S4096x256) ![1280, 0] S256x256.size inb_S4096x256_S256x256_1280_0).PackedRows (EltTy.packing .bf16)
  inb_S15x256x256_S1x256x256_10_0_0 : ∀ a, (![10, 0, 0] : Fin 3 → Nat) a + S1x256x256.size a ≤ S15x256x256.size a
  wordsbf16_S15x256x256_S1x256x256_10_0_0 : (Rect.unit (s := S15x256x256) ![10, 0, 0] S1x256x256.size inb_S15x256x256_S1x256x256_10_0_0).WholeWords (EltTy.packing .bf16)
  inb_S4096x256_S512x256_1536_0 : ∀ a, (![1536, 0] : Fin 2 → Nat) a + S512x256.size a ≤ S4096x256.size a
  packedbf16_S4096x256_S256x256_1536_0 : (Rect.unit (s := S4096x256) ![1536, 0] S256x256.size inb_S4096x256_S256x256_1536_0).PackedRows (EltTy.packing .bf16)
  inb_S15x256x256_S1x256x256_9_0_0 : ∀ a, (![9, 0, 0] : Fin 3 → Nat) a + S1x256x256.size a ≤ S15x256x256.size a
  wordsbf16_S15x256x256_S1x256x256_9_0_0 : (Rect.unit (s := S15x256x256) ![9, 0, 0] S1x256x256.size inb_S15x256x256_S1x256x256_9_0_0).WholeWords (EltTy.packing .bf16)
  packedbf16_S4096x256_S256x256_1792_0 : (Rect.unit (s := S4096x256) ![1792, 0] S256x256.size inb_S4096x256_S256x256_1792_0).PackedRows (EltTy.packing .bf16)
  inb_S15x256x256_S1x256x256_8_0_0 : ∀ a, (![8, 0, 0] : Fin 3 → Nat) a + S1x256x256.size a ≤ S15x256x256.size a
  wordsbf16_S15x256x256_S1x256x256_8_0_0 : (Rect.unit (s := S15x256x256) ![8, 0, 0] S1x256x256.size inb_S15x256x256_S1x256x256_8_0_0).WholeWords (EltTy.packing .bf16)
  inb_S4096x256_S512x256_2048_0 : ∀ a, (![2048, 0] : Fin 2 → Nat) a + S512x256.size a ≤ S4096x256.size a
  packedbf16_S4096x256_S256x256_2048_0 : (Rect.unit (s := S4096x256) ![2048, 0] S256x256.size inb_S4096x256_S256x256_2048_0).PackedRows (EltTy.packing .bf16)
  inb_S15x256x256_S1x256x256_7_0_0 : ∀ a, (![7, 0, 0] : Fin 3 → Nat) a + S1x256x256.size a ≤ S15x256x256.size a
  wordsbf16_S15x256x256_S1x256x256_7_0_0 : (Rect.unit (s := S15x256x256) ![7, 0, 0] S1x256x256.size inb_S15x256x256_S1x256x256_7_0_0).WholeWords (EltTy.packing .bf16)
  packedbf16_S4096x256_S256x256_2304_0 : (Rect.unit (s := S4096x256) ![2304, 0] S256x256.size inb_S4096x256_S256x256_2304_0).PackedRows (EltTy.packing .bf16)
  inb_S15x256x256_S1x256x256_6_0_0 : ∀ a, (![6, 0, 0] : Fin 3 → Nat) a + S1x256x256.size a ≤ S15x256x256.size a
  wordsbf16_S15x256x256_S1x256x256_6_0_0 : (Rect.unit (s := S15x256x256) ![6, 0, 0] S1x256x256.size inb_S15x256x256_S1x256x256_6_0_0).WholeWords (EltTy.packing .bf16)
  inb_S4096x256_S512x256_2560_0 : ∀ a, (![2560, 0] : Fin 2 → Nat) a + S512x256.size a ≤ S4096x256.size a
  packedbf16_S4096x256_S256x256_2560_0 : (Rect.unit (s := S4096x256) ![2560, 0] S256x256.size inb_S4096x256_S256x256_2560_0).PackedRows (EltTy.packing .bf16)
  inb_S15x256x256_S1x256x256_5_0_0 : ∀ a, (![5, 0, 0] : Fin 3 → Nat) a + S1x256x256.size a ≤ S15x256x256.size a
  wordsbf16_S15x256x256_S1x256x256_5_0_0 : (Rect.unit (s := S15x256x256) ![5, 0, 0] S1x256x256.size inb_S15x256x256_S1x256x256_5_0_0).WholeWords (EltTy.packing .bf16)
  packedbf16_S4096x256_S256x256_2816_0 : (Rect.unit (s := S4096x256) ![2816, 0] S256x256.size inb_S4096x256_S256x256_2816_0).PackedRows (EltTy.packing .bf16)
  inb_S15x256x256_S1x256x256_4_0_0 : ∀ a, (![4, 0, 0] : Fin 3 → Nat) a + S1x256x256.size a ≤ S15x256x256.size a
  wordsbf16_S15x256x256_S1x256x256_4_0_0 : (Rect.unit (s := S15x256x256) ![4, 0, 0] S1x256x256.size inb_S15x256x256_S1x256x256_4_0_0).WholeWords (EltTy.packing .bf16)
  inb_S4096x256_S512x256_3072_0 : ∀ a, (![3072, 0] : Fin 2 → Nat) a + S512x256.size a ≤ S4096x256.size a
  packedbf16_S4096x256_S256x256_3072_0 : (Rect.unit (s := S4096x256) ![3072, 0] S256x256.size inb_S4096x256_S256x256_3072_0).PackedRows (EltTy.packing .bf16)
  inb_S15x256x256_S1x256x256_3_0_0 : ∀ a, (![3, 0, 0] : Fin 3 → Nat) a + S1x256x256.size a ≤ S15x256x256.size a
  wordsbf16_S15x256x256_S1x256x256_3_0_0 : (Rect.unit (s := S15x256x256) ![3, 0, 0] S1x256x256.size inb_S15x256x256_S1x256x256_3_0_0).WholeWords (EltTy.packing .bf16)
  packedbf16_S4096x256_S256x256_3328_0 : (Rect.unit (s := S4096x256) ![3328, 0] S256x256.size inb_S4096x256_S256x256_3328_0).PackedRows (EltTy.packing .bf16)
  inb_S15x256x256_S1x256x256_2_0_0 : ∀ a, (![2, 0, 0] : Fin 3 → Nat) a + S1x256x256.size a ≤ S15x256x256.size a
  wordsbf16_S15x256x256_S1x256x256_2_0_0 : (Rect.unit (s := S15x256x256) ![2, 0, 0] S1x256x256.size inb_S15x256x256_S1x256x256_2_0_0).WholeWords (EltTy.packing .bf16)
  inb_S4096x256_S512x256_3584_0 : ∀ a, (![3584, 0] : Fin 2 → Nat) a + S512x256.size a ≤ S4096x256.size a
  packedbf16_S4096x256_S256x256_3584_0 : (Rect.unit (s := S4096x256) ![3584, 0] S256x256.size inb_S4096x256_S256x256_3584_0).PackedRows (EltTy.packing .bf16)
  inb_S15x256x256_S1x256x256_1_0_0 : ∀ a, (![1, 0, 0] : Fin 3 → Nat) a + S1x256x256.size a ≤ S15x256x256.size a
  wordsbf16_S15x256x256_S1x256x256_1_0_0 : (Rect.unit (s := S15x256x256) ![1, 0, 0] S1x256x256.size inb_S15x256x256_S1x256x256_1_0_0).WholeWords (EltTy.packing .bf16)
  packedbf16_S4096x256_S256x256_3840_0 : (Rect.unit (s := S4096x256) ![3840, 0] S256x256.size inb_S4096x256_S256x256_3840_0).PackedRows (EltTy.packing .bf16)
  inb_S15x256x256_S1x256x256_0_0_0 : ∀ a, (![0, 0, 0] : Fin 3 → Nat) a + S1x256x256.size a ≤ S15x256x256.size a
  wordsbf16_S15x256x256_S1x256x256_0_0_0 : (Rect.unit (s := S15x256x256) ![0, 0, 0] S1x256x256.size inb_S15x256x256_S1x256x256_0_0_0).WholeWords (EltTy.packing .bf16)
  h_S1x256x256 : 0 < S1x256x256.numel
  shapeCasts_S1x256x256_S256x256 : S1x256x256.ShapeCasts S256x256
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  hcc0_scratch3 : 8 + S15.numel ≤ 68
  hcc0_scratch4 : 23 + S15.numel ≤ 68
  hcc0_scratch5 : 38 + S15.numel ≤ 68
  hcc0_scratch6 : 53 + S15.numel ≤ 68
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_dev99_lt : ∀ d0 : Dev nD, (k0_dev99 d0) < nD
  k0_dev100_lt : ∀ d0 : Dev nD, (k0_dev100 d0) < nD
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_dev104_lt : ∀ d0 : Dev nD, (k0_dev104 d0) < nD
  k0_dev105_lt : ∀ d0 : Dev nD, (k0_dev105 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole

variable [Facts₀]

abbrev cc0_scratch3 : DmaSems sig S15 := SemArray.consecutive 8 S15 hcc0_scratch3
abbrev cc0_scratch4 : DmaSems sig S15 := SemArray.consecutive 23 S15 hcc0_scratch4
abbrev cc0_scratch5 : DmaSems sig S15 := SemArray.consecutive 38 S15 hcc0_scratch5
abbrev cc0_scratch6 : DmaSems sig S15 := SemArray.consecutive 53 S15 hcc0_scratch6
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_arg5) false false (stage0_5 0) (sem0_5 0) (Memref.isWhole_whole _) (hstage0_5 0)

abbrev win0_6 : Pipeline.Window sig grid0 :=
  Pipeline.Window.whole (Memref.whole main_arg6) false false (stage0_6 0) (sem0_6 0) (Memref.isWhole_whole _) (hstage0_6 0)

abbrev win0_7 : Pipeline.Window sig grid0 :=
  Pipeline.Window.whole (Memref.whole main_v1) true false (stage0_7 0) (sem0_7 0) (Memref.isWhole_whole _) (hstage0_7 0)

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4096x256 : Shape := ⟨2, ![4096, 256]⟩
abbrev S256x8192 : Shape := ⟨2, ![256, 8192]⟩
abbrev S8192x256 : Shape := ⟨2, ![8192, 256]⟩
abbrev S4096x8192 : Shape := ⟨2, ![4096, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x8192, .f32⟩
  | .hbm, ⟨2, _⟩ => ⟨S8192x256, .f32⟩
  | .hbm, ⟨3, _⟩ => ⟨S256x8192, .f32⟩
  | .hbm, ⟨4, _⟩ => ⟨S8192x256, .f32⟩
  | .hbm, ⟨5, _⟩ => ⟨S256x8192, .f32⟩
  | .hbm, ⟨6, _⟩ => ⟨S8192x256, .f32⟩
  | .hbm, ⟨7, _⟩ => ⟨S4096x8192, .f32⟩
  | .hbm, ⟨8, _⟩ => ⟨S_, .f32⟩
  | .hbm, ⟨9, _⟩ => ⟨S4096x8192, .f32⟩
  | .hbm, ⟨10, _⟩ => ⟨S4096x8192, .f32⟩
  | .hbm, ⟨11, _⟩ => ⟨S4096x256, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S4096x256, .f32⟩
  | .hbm, ⟨17, _⟩ => ⟨S4096x8192, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]

class Facts₀ : Prop where
  bcast_S_S4096x8192 : S_.BroadcastsInDim S4096x8192 (![] : Fin 0 → Fin S4096x8192.rank)
  dot_S4096x256_S256x8192_S4096x8192_1_0_0_1_n_n_wf : DotDims.WF S4096x256 S256x8192 S4096x8192 [1] [0] [0] [1] [] []
  dot_S4096x8192_S8192x256_S4096x256_1_0_0_1_n_n_wf : DotDims.WF S4096x8192 S8192x256 S4096x256 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf
def dot_S4096x8192_S8192x256_S4096x256_1_0_0_1_n_n : DotDims S4096x8192 S8192x256 S4096x256 where
  lhsContracting := [1]
  rhsContracting := [0]
  lhsNonContracting := [0]
  rhsNonContracting := [1]
  lhsBatch := []
  rhsBatch := []
  wf := dot_S4096x8192_S8192x256_S4096x256_1_0_0_1_n_n_wf

class Facts : Prop extends Facts₀ where

variable [Facts]
-- ==== Proof.Vals.lean ====
/-
  What each device computes, as pure functions of the devices' argument blocks.

  One layer of the network on sixteen devices: device e holds a column block of the first weight
  matrix and the matching row block of the second. Every device's current chunk of activations
  (256 rows) is sent to all others; device e multiplies two chunks at a time by its weight blocks,
  `max(X · Win_e, 0) · Wout_e`, a partial product over its share of the hidden units, and returns
  each 256-row piece to the chunk's owner, who adds the sixteen pieces up. Casts between the two
  float formats are kept as the program writes them (they are the identity over the reals).
-/
import proofs.«900978_g7700000000000979_dist_mlpseq_tp1d_bs_bs_b256_d256_h512_v7x_i16_bf16_1_alg».proof.Proof.Gen.KernelIdeal
import proofs.«900978_g7700000000000979_dist_mlpseq_tp1d_bs_bs_b256_d256_h512_v7x_i16_bf16_1_alg».proof.Proof.Gen.KernelIdeal.Skeleton

noncomputable section

namespace Cert.KernelIdeal.Vals

open Idealize.ShloMosaic Cert.KernelIdeal Cert.KernelIdeal.Gen

variable {F : FTy → Type} [FloatOps F]

/-! ## The ring of devices -/

/-- The device k places after c on the ring of sixteen. -/
def fwd (c : Dev nD) (k : ℕ) : Dev nD := ⟨(c.val + k) % 16, Nat.mod_lt _ (by decide)⟩
/-- The device k places before c. -/
def bwd (c : Dev nD) (k : ℕ) : Dev nD := ⟨(c.val + (16 - k % 16)) % 16, Nat.mod_lt _ (by decide)⟩

/-! ## One device's arithmetic -/

/-- A chunk of activations rounded to the narrow format. -/
def toB (x : Vec F S256x256 .f32) : FVec F S256x256 .bf16 := k0_pay1 x
/-- The two weight blocks rounded to the narrow format. -/
def wiB (w : Vec F S256x512 .f32) : FVec F S256x512 .bf16 := k0_pay2 w
def woB (w : Vec F S512x256 .f32) : FVec F S512x256 .bf16 := k0_pay3 w
/-- The hidden layer of two stacked chunks: max(xg · wi, 0). -/
def hid (wi : FVec F S256x512 .bf16) (xg : Vec F S512x256 .bf16) : FVec F S512x512 .f32 := k0_pay7 wi xg
/-- The partial product of two stacked chunks over this device's hidden units. -/
def pg (wi : FVec F S256x512 .bf16) (wo : FVec F S512x256 .bf16) (xg : Vec F S512x256 .bf16) : FVec F S512x256 .f32 :=
  k0_pay8 wo (hid wi xg)
/-- Rows 0..255 of a partial product, kept wide (the device's own piece). -/
def loF (p : FVec F S512x256 .f32) : FVec F S256x256 .f32 := k0_pay5 p
/-- Rows 0..255 of a partial product, narrow. -/
def loB (p : FVec F S512x256 .f32) : FVec F S256x256 .bf16 :=
  shapeCast S256x256 (truncf .bf16 (extractStridedSlice S256x256 ![0, 0] p slices_S512x256_o0_0_S256x256) bitsLt_bf16_f32) shapeCasts_S256x256_S256x256
/-- Rows 256..511 of a partial product, narrow. -/
def hiB (p : FVec F S512x256 .f32) : FVec F S256x256 .bf16 := k0_pay13 p
/-- One more received piece added to the running sum. -/
def accS (a : FVec F S256x256 .f32) (r : Vec F S1x256x256 .bf16) : FVec F S256x256 .f32 := k0_pay31 a r
/-- The last piece added and the sum rounded: the next layer's chunk. -/
def accB (a : FVec F S256x256 .f32) (r : Vec F S1x256x256 .bf16) : FVec F S256x256 .bf16 := k0_pay42 a r

/-- Two chunks stacked: rows 0..255 from a, rows 256..511 from b. -/
def cat (a b : Vec F S256x256 .bf16) : Vec F S512x256 .bf16 := fun i =>
  if h : (i 0).val < 256 then a (fun d => match d with | 0 => ⟨(i 0).val, h⟩ | 1 => i 1)
  else b (fun d => match d with | 0 => ⟨(i 0).val - 256, by have h2 : (i 0).val < 512 := (i 0).isLt; show (i 0).val - 256 < 256; omega⟩ | 1 => i 1)

/-- A received piece as the three-axis vector the program loads it as. -/
def lift3 (p : Vec F S256x256 .bf16) : Vec F S1x256x256 .bf16 := fun i => p (fun d => match d with | 0 => i 1 | 1 => i 2)

/-! ## The devices' argument blocks, read off a memory -/

section Args
variable (m : (ℓ : Loc nD τ sig) → Buf (Elt F) ℓ)

/-- Device c's block of the input activations. -/
def argX (c : Dev nD) : Vec F S256x256 .f32 := m ((c.tc : Thread nD τ).loc main_arg0)
/-- Device c's column block of layer r's first weight matrix (r = 0, 1, 2). -/
def argWi (r : ℕ) (c : Dev nD) : Vec F S256x512 .f32 :=
  match r with
  | 0 => m ((c.tc : Thread nD τ).loc main_arg1)
  | 1 => m ((c.tc : Thread nD τ).loc main_arg3)
  | _ => m ((c.tc : Thread nD τ).loc main_arg5)
/-- Device c's row block of layer r's second weight matrix. -/
def argWo (r : ℕ) (c : Dev nD) : Vec F S512x256 .f32 :=
  match r with
  | 0 => m ((c.tc : Thread nD τ).loc main_arg2)
  | 1 => m ((c.tc : Thread nD τ).loc main_arg4)
  | _ => m ((c.tc : Thread nD τ).loc main_arg6)

end Args

/-! ## All devices, layer by layer -/

section Global

variable (xin : Dev nD → Vec F S256x256 .f32) (wi : ℕ → Dev nD → Vec F S256x512 .f32) (wo : ℕ → Dev nD → Vec F S512x256 .f32)

/-- Device e's partial product, at layer r over the chunks `X`, of the chunks of the two devices 2g and 2g+1 places before it. -/
def prodOf (X : Dev nD → Vec F S256x256 .bf16) (r : ℕ) (e : Dev nD) (g : ℕ) : FVec F S512x256 .f32 :=
  pg (wiB (wi r e)) (woB (wo r e)) (cat (X (bwd e (2 * g))) (X (bwd e (2 * g + 1))))

/-- The piece device e returns to the device k places before it (1 ≤ k ≤ 15). -/
def pieceOf (X : Dev nD → Vec F S256x256 .bf16) (r : ℕ) (e : Dev nD) (k : ℕ) : Vec F S256x256 .bf16 :=
  if k % 2 = 0 then loB (prodOf wi wo X r e (k / 2)) else hiB (prodOf wi wo X r e (k / 2))

/-- Device c's running sum after the pieces of the devices 1..n places after it (n ≤ 14). -/
def accOf (X : Dev nD → Vec F S256x256 .bf16) (r : ℕ) (c : Dev nD) : ℕ → FVec F S256x256 .f32
  | 0 => loF (prodOf wi wo X r c 0)
  | n + 1 => accS (accOf X r c n) (lift3 (pieceOf wi wo X r (fwd c (n + 1)) (n + 1)))

/-- Every device's chunk at the start of layer r. -/
def chunk : ℕ → Dev nD → Vec F S256x256 .bf16
  | 0 => fun c => toB (xin c)
  | r + 1 => fun c => accB (accOf wi wo (chunk r) r c 14) (lift3 (pieceOf wi wo (chunk r) r (fwd c 15) 15))

/-- Device e's partial product at layer r. -/
def prod (r : ℕ) (e : Dev nD) (g : ℕ) : FVec F S512x256 .f32 := prodOf wi wo (chunk xin wi wo r) r e g
/-- The piece device e returns at layer r to the device k places before it. -/
def piece (r : ℕ) (e : Dev nD) (k : ℕ) : Vec F S256x256 .bf16 := pieceOf wi wo (chunk xin wi wo r) r e k
/-- Device c's running sum at layer r after n received pieces. -/
def accTo (r : ℕ) (c : Dev nD) (n : ℕ) : FVec F S256x256 .f32 := accOf wi wo (chunk xin wi wo r) r c n
/-- Device c's result: the last layer's sum of all sixteen pieces, kept wide. -/
def result (c : Dev nD) : FVec F S256x256 .f32 := accS (accTo xin wi wo 2 c 14) (lift3 (piece xin wi wo 2 (fwd c 15) 15))

end Global

end Cert.KernelIdeal.Vals

end
-- ==== Proof.Cells.lean ====
/-
  The kernel's buffers, their sixteen row slots, and its semaphores, named once for every index.

  Each device has three scratch buffers: X (sixteen slots of 256 rows: slot 0 its own chunk of
  activations, slot k the chunk of the device k places before it), P (sixteen slots: slot k the piece
  it returns to the device k places before it) and R (fifteen slots: slot 15 - k the piece it receives
  from the device k places after it); four rows of fifteen transfer semaphores (send and receive sides
  of the chunk copies and of the piece copies), and the barrier semaphore.
-/
import proofs.«900978_g7700000000000979_dist_mlpseq_tp1d_bs_bs_b256_d256_h512_v7x_i16_bf16_1_alg».proof.Proof.Vals
import proofs.«900978_g7700000000000979_dist_mlpseq_tp1d_bs_bs_b256_d256_h512_v7x_i16_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Cells

open Cert.KernelIdeal Cert.KernelIdeal.Gen Cert.KernelIdeal.Vals
open Idealize.ShloMosaic
open Idealize.ShloMosaic.TcCoe

/-! ## Buffers and slots -/

abbrev XM : Memref sig .tc .vmem S4096x256 .bf16 := Memref.whole cc0_scratch0
abbrev PM : Memref sig .tc .vmem S4096x256 .bf16 := Memref.whole cc0_scratch1
abbrev RM : Memref sig .tc .vmem S15x256x256 .bf16 := Memref.whole cc0_scratch2

theorem inbRow (k : Fin 16) : ∀ a, (![256 * k.val, 0] : Fin 2 → Nat) a + S256x256.size a ≤ S4096x256.size a := by
  revert k; decide
theorem inbR (j : Fin 15) : ∀ a, (![j.val, 0, 0] : Fin 3 → Nat) a + S1x256x256.size a ≤ S15x256x256.size a := by
  revert j; decide
theorem inbS (j : Fin 15) : ∀ a, (![j.val] : Fin 1 → Nat) a + S1.size a ≤ S15.size a := by
  revert j; decide

/-- Slot k of X: rows 256k .. 256k+255. -/
def xslot (k : Fin 16) : Memref sig .tc .vmem S256x256 .bf16 :=
  XM.slice (Rect.unit (s := S4096x256) ![256 * k.val, 0] S256x256.size (inbRow k)) (fun _ => rfl)
/-- Slot k of P. -/
def pslot (k : Fin 16) : Memref sig .tc .vmem S256x256 .bf16 :=
  PM.slice (Rect.unit (s := S4096x256) ![256 * k.val, 0] S256x256.size (inbRow k)) (fun _ => rfl)
/-- Slot j of R, as the three-axis window the program loads through. -/
def rslot3 (j : Fin 15) : Memref sig .tc .vmem S1x256x256 .bf16 :=
  RM.slice (Rect.unit (s := S15x256x256) ![j.val, 0, 0] S1x256x256.size (inbR j)) (fun _ => rfl)
/-- Slot j of R, as the two-axis window the copies address. -/
def rslot (j : Fin 15) : Memref sig .tc .vmem S256x256 .bf16 := (rslot3 j).squeeze S256x256 squeezes_S1x256x256_S256x256

/-! ## Semaphores -/

/-- The barrier semaphore. -/
abbrev barS : Sem sig := (SemArray.scalar (sig.barrier 0 rfl) : Sems sig S_).sem
def semOf (A : DmaSems sig S15) (j : Fin 15) : DmaSem sig :=
  ((A.slice (Rect.unit (s := S15) ![j.val] S1.size (inbS j))).squeeze S_ squeezes_S1_S_).sem
/-- Send side of chunk copy j+1; send side of the piece copy landing in R slot j; and the two receive sides. -/
def sAg (j : Fin 15) : DmaSem sig := semOf cc0_scratch3 j
def sRs (j : Fin 15) : DmaSem sig := semOf cc0_scratch4 j
def rAg (j : Fin 15) : DmaSem sig := semOf cc0_scratch5 j
def rRs (j : Fin 15) : DmaSem sig := semOf cc0_scratch6 j

theorem sAg_val (j : Fin 15) : (sAg j).val = 8 + j.val := by revert j; decide
theorem sRs_val (j : Fin 15) : (sRs j).val = 23 + j.val := by revert j; decide
theorem rAg_val (j : Fin 15) : (rAg j).val = 38 + j.val := by revert j; decide
theorem rRs_val (j : Fin 15) : (rRs j).val = 53 + j.val := by revert j; decide

/-- A device's semaphore as a cell. -/
abbrev cell (c : Dev nD) (s : SemLoc sig) : GSem nD τ sig := ((c : Thread nD τ), s)
abbrev barCell (c : Dev nD) : GSem nD τ sig := cell c (.reg barS)

/-- The credit of one 256-row slot copy. -/
def NX : ℕ := (xslot 1).view.dmaCredit
theorem NX_pos : 0 < NX := by unfold NX; exact View.dmaCredit_pos _ (by decide)

end Cert.KernelIdeal.Cells

end
-- ==== Proof.Sched.lean ====
/-
  The protocol as a schedule of rounds.

  Every transfer semaphore is used once per layer: round r of a cell is layer r, with one duty, paid
  by the one copy that credits it. The barrier semaphore has one round of fifteen unit duties, duty l
  paid by the device l places before the owner. What each landing hands the waiting device:
   * a chunk copy landing in slot k of X on device e (sent by the device k places before e) hands e that
     slot holding the sender's chunk of the layer, and the sender's slot of R in which e will return its
     piece, with the fact that the sender has consumed the earlier rounds of that slot's semaphore;
   * a piece copy landing in slot 15-k of R on device c (sent by the device k places after c) hands c the
     slot holding the piece, and, while another layer follows, the sender's slot k of X again, in which c
     will place its next chunk;
   * the send side of a chunk copy returns the lent share of the sender's slot 0, the send side of a
     piece copy the sender's slot of P;
   * barrier duty l hands over the payer's slot 16-l of X, where the owner's first chunk copy lands.
-/
import proofs.«900978_g7700000000000979_dist_mlpseq_tp1d_bs_bs_b256_d256_h512_v7x_i16_bf16_1_alg».proof.Proof.Cells

noncomputable section

namespace Cert.KernelIdeal.Sched

open Cert.KernelIdeal Cert.KernelIdeal.Gen Cert.KernelIdeal.Vals Cert.KernelIdeal.Cells
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duty names: a barrier cell's fifteen duties are 1..15 (how many places back the payer sits); every other cell's one duty is 0. -/
abbrev D : Type := Fin 16
abbrev UB : Type := URounds (GSem nD τ sig) D
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Contents -/

/-- Device c's chunk at the start of layer r; the piece device e returns at layer r to the device k places before it. -/
abbrev chunkAt (r : ℕ) (c : Dev nD) : Vec F S256x256 .bf16 := Vals.chunk (argX m) (argWi m) (argWo m) r c
abbrev pieceAt (r : ℕ) (e : Dev nD) (k : ℕ) : Vec F S256x256 .bf16 := Vals.piece (argX m) (argWi m) (argWo m) r e k

/-- The first entry's index. -/
def idx00 : S256x256.Idx := fun a => ⟨0, by revert a; decide⟩

/-- A slot's window of a buffer holding v: the buffer's other entries are of no account (a fixed entry of v). -/
def xfill (c : Dev nD) (k : Fin 16) (v : Vec F S256x256 .bf16) : Buf (Elt F) ((xslot k).view.loc (c : Thread nD τ)) :=
  (xslot k).view.write (Elt F) (fun _ => v idx00) v Finset.univ
def pfill (c : Dev nD) (k : Fin 16) (v : Vec F S256x256 .bf16) : Buf (Elt F) ((pslot k).view.loc (c : Thread nD τ)) :=
  (pslot k).view.write (Elt F) (fun _ => v idx00) v Finset.univ
def rfill (c : Dev nD) (j : Fin 15) (v : Vec F S256x256 .bf16) : Buf (Elt F) ((rslot j).view.loc (c : Thread nD τ)) :=
  (rslot j).view.write (Elt F) (fun _ => v idx00) v Finset.univ

/-- A device holding slot k of X on device c, at share q, with contents f. -/
def xPts (c : Dev nD) (k : Fin 16) (q : PosShare TreeShare) (f : Buf (Elt F) ((xslot k).view.loc (c : Thread nD τ))) : sProp 𝕄 :=
  (xslot k).view.loc (c : Thread nD τ) ↦[(xslot k).view.set]{q} f
def pPts (c : Dev nD) (k : Fin 16) (f : Buf (Elt F) ((pslot k).view.loc (c : Thread nD τ))) : sProp 𝕄 :=
  (pslot k).view.loc (c : Thread nD τ) ↦[(pslot k).view.set]{fullShare} f
def rPts (c : Dev nD) (j : Fin 15) (f : Buf (Elt F) ((rslot j).view.loc (c : Thread nD τ))) : sProp 𝕄 :=
  (rslot j).view.loc (c : Thread nD τ) ↦[(rslot j).view.set]{fullShare} f

/-! ## Shares of slot 0: each chunk copy borrows half of what is left -/

def keepSh : ℕ → PosShare TreeShare
  | 0 => fullShare
  | n + 1 => (keepSh n).left
/-- The share chunk copy j+1 borrows. -/
def lentSh (j : ℕ) : PosShare TreeShare := (keepSh j).right

/-! ## Index arithmetic -/

/-- Copy index k = j + 1 of semaphore index j. -/
def kOf (j : Fin 15) : Fin 16 := ⟨j.val + 1, by omega⟩
/-- Barrier duty l: the payer's slot 16 - l of X and semaphore index 15 - l. -/
def kBar (l : D) : Fin 16 := ⟨(16 - l.val) % 16, Nat.mod_lt _ (by decide)⟩
def jBar (l : D) : Fin 15 := ⟨(15 - l.val) % 15, Nat.mod_lt _ (by decide)⟩

/-! ## Which semaphore a cell is -/

inductive Cls
  | bar | agS (j : Fin 15) | rsS (j : Fin 15) | agR (j : Fin 15) | rsR (j : Fin 15) | other

def classify : SemLoc sig → Cls
  | .reg q => if q = barS then .bar else .other
  | .dma q =>
    if h : 8 ≤ q.val ∧ q.val < 23 then .agS ⟨q.val - 8, by omega⟩
    else if h : 23 ≤ q.val ∧ q.val < 38 then .rsS ⟨q.val - 23, by omega⟩
    else if h : 38 ≤ q.val ∧ q.val < 53 then .agR ⟨q.val - 38, by omega⟩
    else if h : 53 ≤ q.val ∧ q.val < 68 then .rsR ⟨q.val - 53, by omega⟩
    else .other

/-! ## Payloads -/

/-- Barrier duty l of device e, paid by p = the device l places before e. -/
def barPay (e : Dev nD) (l : D) : sProp 𝕄 :=
  iprop((∃ f, xPts (bwd e l.val) (kBar l) fullShare f) ∗ reached ER (cell (bwd e l.val) (.dma (rAg (jBar l)))) 0)
/-- Receive side of chunk copy j+1 on device e, round r; the sender is the device j+1 places before e. -/
def agRPay (e : Dev nD) (j : Fin 15) (r : ℕ) : sProp 𝕄 :=
  iprop(xPts e (kOf j) fullShare (xfill e (kOf j) (chunkAt m r (bwd e (j.val + 1))))
    ∗ (∃ f, rPts (bwd e (j.val + 1)) (Fin.rev j) f) ∗ reached ER (cell (bwd e (j.val + 1)) (.dma (rRs (Fin.rev j)))) r)
/-- Send side of chunk copy j+1 on device c: the lent share of its slot 0 back. -/
def agSPay (c : Dev nD) (j : Fin 15) (r : ℕ) : sProp 𝕄 :=
  xPts c 0 (lentSh j.val) (xfill c 0 (chunkAt m r c))
/-- Receive side of the piece copy landing in R slot j of device c, round r: copy index k = 15 - j, sent by the device k places after c. -/
def rsRPay (c : Dev nD) (j : Fin 15) (r : ℕ) : sProp 𝕄 :=
  iprop(rPts c j (rfill c j (pieceAt m r (fwd c (15 - j.val)) (15 - j.val)))
    ∗ (if r < 2 then iprop((∃ f, xPts (fwd c (15 - j.val)) (kOf (Fin.rev j)) fullShare f) ∗ reached ER (cell (fwd c (15 - j.val)) (.dma (rAg (Fin.rev j)))) (r + 1)) else iprop(emp)))
/-- Send side of the piece copy out of P slot k = 15 - j of device c: the slot back. -/
def rsSPay (c : Dev nD) (j : Fin 15) (r : ℕ) : sProp 𝕄 :=
  pPts c (kOf (Fin.rev j)) (pfill c (kOf (Fin.rev j)) (pieceAt m r c (15 - j.val)))

/-! ## The schedule -/

def sched : Rounds.Schedule (GSem nD τ sig) D 𝕄 where
  duties g r :=
    if g.1.2 = .tc then
      match classify g.2 with
      | .bar => if r = 0 then Finset.univ.erase 0 else ∅
      | .other => ∅
      | _ => if r < 3 then {0} else ∅
    else ∅
  amount g _ _ := match classify g.2 with
    | .bar => 1
    | _ => NX
  payload g r d := match classify g.2 with
    | .bar => barPay g.1.1 d
    | .agS j => agSPay m g.1.1 j r
    | .rsS j => rsSPay m g.1.1 j r
    | .agR j => agRPay m g.1.1 j r
    | .rsR j => rsRPay m g.1.1 j r
    | .other => iprop(emp)
  amount_pos g _ _ _ := by
    cases classify g.2 <;> first | exact Nat.one_pos | exact NX_pos

end Cert.KernelIdeal.Sched

end
-- ==== Proof.State.lean ====
/-
  A device's share of the protocol, between two of its steps.

  For each copy index k = j + 1 the device plays two parts. As SENDER of chunk copy k it addresses the
  device k places after it and later receives that device's piece; as RECEIVER of chunk copy k it hears
  from the device k places before it and returns a piece to it. What it still owes other devices'
  cells is counted by how many chunk copies (a j) and piece copies (b j) of each index it has issued and
  how many barrier signals (s). Levels order the waits: barrier, then per layer r the chunk receive
  (4r+2), chunk send (4r+3), piece receive (4r+4), piece send (4r+5) sides; a wait is allowed when
  everything still owed lies above it.
-/
import proofs.«900978_g7700000000000979_dist_mlpseq_tp1d_bs_bs_b256_d256_h512_v7x_i16_bf16_1_alg».proof.Proof.Sched

noncomputable section

namespace Cert.KernelIdeal.State

open Cert.KernelIdeal Cert.KernelIdeal.Gen Cert.KernelIdeal.Vals Cert.KernelIdeal.Cells Cert.KernelIdeal.Sched
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Levels -/

/-- The tally indices in use on a TensorCore's cells: the three layers. -/
def L (g : GSem nD τ sig) : Finset ℕ := if g.1.2 = .tc then {0, 1, 2} else ∅
/-- A cell's level at layer r. -/
def lv (g : GSem nD τ sig) (r : ℕ) : ℕ :=
  match classify g.2 with
  | .bar => 1
  | .agR _ => 4 * r + 2
  | .agS _ => 4 * r + 3
  | .rsR _ => 4 * r + 4
  | .rsS _ => 4 * r + 5
  | .other => 0

theorem L_of_ne (g : GSem nD τ sig) (h : g.1.2 ≠ .tc) : L g = ∅ := if_neg h
theorem L_tc (c : Dev nD) (sm : SemLoc sig) : L ((c : Thread nD τ), sm) = {0, 1, 2} := if_pos rfl

/-! ## What a device still owes -/

/-- Peers: the device copy j+1 is sent to, and the one it comes from. -/
abbrev nxt (c : Dev nD) (j : Fin 15) : Dev nD := fwd c (j.val + 1)
abbrev prv (c : Dev nD) (j : Fin 15) : Dev nD := bwd c (j.val + 1)

/-- Chunk copies j+1 of layers n, n+1, …, 2 still to issue: their credit on the next device's receive cell. -/
def owedA (c : Dev nD) (j : Fin 15) (n : ℕ) : CellTallies nD τ sig ℕ :=
  ∑ r ∈ Finset.Ico n 3, tallyAt (cell (nxt c j) (.dma (rAg j))) r NX
/-- Piece copies j+1 of layers n, … still to issue: their credit on the previous device's receive cell of R slot 14 - j. -/
def owedB (c : Dev nD) (j : Fin 15) (n : ℕ) : CellTallies nD τ sig ℕ :=
  ∑ r ∈ Finset.Ico n 3, tallyAt (cell (prv c j) (.dma (rRs (Fin.rev j)))) r NX
/-- Barrier signals s+1, …, 15 still to send. -/
def owedS (c : Dev nD) (s : ℕ) : CellTallies nD τ sig ℕ :=
  ∑ l ∈ Finset.Ioc s 15, tallyAt (barCell (fwd c l)) 0 1
/-- Everything device c owes after a j chunk copies and b j piece copies of each index and s signals. -/
def Otot (c : Dev nD) (a b : Fin 15 → ℕ) (s : ℕ) : CellTallies nD τ sig ℕ :=
  (∑ j, owedA c j (a j)) + (∑ j, owedB c j (b j)) + owedS c s

/-- The layers from r on are layer r and the layers from r + 1 on. -/
theorem Ico_layers (r : ℕ) (hr : r < 3) : Finset.Ico r 3 = insert r (Finset.Ico (r + 1) 3) := by
  ext x; simp only [Finset.mem_Ico, Finset.mem_insert]; omega
theorem Ioc_signals (s : ℕ) (hs : s < 15) : Finset.Ioc s 15 = insert (s + 1) (Finset.Ioc (s + 1) 15) := by
  ext x; simp only [Finset.mem_Ioc, Finset.mem_insert]; omega

theorem owedA_step (c : Dev nD) (j : Fin 15) (r : ℕ) (hr : r < 3) :
    owedA c j r = owedA c j (r + 1) + tallyAt (cell (nxt c j) (.dma (rAg j))) r NX := by
  unfold owedA
  rw [Ico_layers r hr, Finset.sum_insert (by simp only [Finset.mem_Ico]; omega), add_comm]
theorem owedB_step (c : Dev nD) (j : Fin 15) (r : ℕ) (hr : r < 3) :
    owedB c j r = owedB c j (r + 1) + tallyAt (cell (prv c j) (.dma (rRs (Fin.rev j)))) r NX := by
  unfold owedB
  rw [Ico_layers r hr, Finset.sum_insert (by simp only [Finset.mem_Ico]; omega), add_comm]
theorem owedS_step (c : Dev nD) (s : ℕ) (hs : s < 15) :
    owedS c s = owedS c (s + 1) + tallyAt (barCell (fwd c (s + 1))) 0 1 := by
  unfold owedS
  rw [Ioc_signals s hs, Finset.sum_insert (by simp only [Finset.mem_Ioc]; omega), add_comm]

/-- Advancing one index's count changes that index's summand only. -/
theorem sum_update_step {M : Type} [AddCommMonoid M] (f : Fin 15 → ℕ → M) (a : Fin 15 → ℕ) (j : Fin 15) (n : ℕ) (t : M)
    (h : f j (a j) = f j n + t) :
    (∑ i, f i (a i)) = (∑ i, f i (Function.update a j n i)) + t := by
  rw [← Finset.add_sum_erase Finset.univ (fun i => f i (a i)) (Finset.mem_univ j),
    ← Finset.add_sum_erase Finset.univ (fun i => f i (Function.update a j n i)) (Finset.mem_univ j),
    Finset.sum_congr rfl fun i hi => show f i (Function.update a j n i) = f i (a i) by
      rw [Function.update_of_ne (Finset.ne_of_mem_erase hi)]]
  rw [Function.update_self, h, add_assoc, add_assoc, add_comm t]

/-! ## The cells' invariants, all of them, under names K -/

/-- Every device's sixty-one cells. -/
def allSems : Finset (SemLoc sig) :=
  insert (.reg barS) ((Finset.univ.image fun j : Fin 15 => SemLoc.dma (sAg j)) ∪ (Finset.univ.image fun j : Fin 15 => SemLoc.dma (sRs j))
    ∪ (Finset.univ.image fun j : Fin 15 => SemLoc.dma (rAg j)) ∪ (Finset.univ.image fun j : Fin 15 => SemLoc.dma (rRs j)))

def Invs (K : GSem nD τ sig → ℕ) : sProp 𝕄 :=
  bigSep (Finset.univ (α := Dev nD)) fun c => bigSep allSems fun s => cellInv ER (sched m) (K (cell c s)) (cell c s)

instance Invs_persistent (K : GSem nD τ sig → ℕ) : BI.Persistent (Invs m K) := by unfold Invs; infer_instance

theorem Invs_at (K : GSem nD τ sig → ℕ) (c : Dev nD) (s : SemLoc sig) (hs : s ∈ allSems) :
    Invs m K ⊢ cellInv ER (sched m) (K (cell c s)) (cell c s) := by
  unfold Invs
  exact (BI.bigSep_elim (Finset.mem_univ c)).trans (BI.bigSep_elim hs)

theorem mem_allSems_bar : SemLoc.reg barS ∈ (allSems : Finset (SemLoc sig)) := by
  unfold allSems; exact Finset.mem_insert_self _ _
theorem mem_allSems_sAg (j : Fin 15) : SemLoc.dma (sAg j) ∈ allSems := by
  unfold allSems
  refine Finset.mem_insert_of_mem (Finset.mem_union_left _ (Finset.mem_union_left _ (Finset.mem_union_left _ ?_)))
  exact Finset.mem_image_of_mem _ (Finset.mem_univ j)
theorem mem_allSems_sRs (j : Fin 15) : SemLoc.dma (sRs j) ∈ allSems := by
  unfold allSems
  refine Finset.mem_insert_of_mem (Finset.mem_union_left _ (Finset.mem_union_left _ (Finset.mem_union_right _ ?_)))
  exact Finset.mem_image_of_mem _ (Finset.mem_univ j)
theorem mem_allSems_rAg (j : Fin 15) : SemLoc.dma (rAg j) ∈ allSems := by
  unfold allSems
  refine Finset.mem_insert_of_mem (Finset.mem_union_left _ (Finset.mem_union_right _ ?_))
  exact Finset.mem_image_of_mem _ (Finset.mem_univ j)
theorem mem_allSems_rRs (j : Fin 15) : SemLoc.dma (rRs j) ∈ allSems := by
  unfold allSems
  refine Finset.mem_insert_of_mem (Finset.mem_union_right _ ?_)
  exact Finset.mem_image_of_mem _ (Finset.mem_univ j)

/-! ## A sender's and a receiver's ghost state -/

/-- Sender of chunk copy j+1, before issuing layer r's (r ≤ 3): the tokens of the copies to come (the next device's
    receive duty, its own send duty), the credit for the pieces to come, its positions, and that the next device
    has consumed the earlier rounds of its receive cell. -/
def sndr (c : Dev nD) (j : Fin 15) (r : ℕ) : sProp 𝕄 :=
  iprop((bigSep (Finset.Ico r 3) fun r' => iprop(dutyTok ER (cell (nxt c j) (.dma (rAg j))) r' 0 ∗ dutyTok ER (cell c (.dma (sAg j))) r' 0
        ∗ cred (tallyAt (cell c (.dma (rRs (Fin.rev j)))) r' NX)))
    ∗ atPos ER (cell c (.dma (sAg j))) r ∅ 0 ∗ atPos ER (cell c (.dma (rRs (Fin.rev j)))) r ∅ 0
    ∗ reached ER (cell (nxt c j) (.dma (rAg j))) r ∗ reached ER (cell c (.dma (sAg j))) r ∗ reached ER (cell c (.dma (rRs (Fin.rev j)))) r)

/-- Receiver of chunk copy j+1, before waiting for layer r's (r ≤ 3). -/
def rcvr (c : Dev nD) (j : Fin 15) (r : ℕ) : sProp 𝕄 :=
  iprop((bigSep (Finset.Ico r 3) fun r' => iprop(dutyTok ER (cell (prv c j) (.dma (rRs (Fin.rev j)))) r' 0 ∗ dutyTok ER (cell c (.dma (sRs (Fin.rev j)))) r' 0
        ∗ cred (tallyAt (cell c (.dma (rAg j))) r' NX)))
    ∗ atPos ER (cell c (.dma (rAg j))) r ∅ 0 ∗ atPos ER (cell c (.dma (sRs (Fin.rev j)))) r ∅ 0
    ∗ reached ER (cell c (.dma (rAg j))) r ∗ reached ER (cell c (.dma (sRs (Fin.rev j)))) r)

end Cert.KernelIdeal.State

end
-- ==== Proof.Dats.lean ====
/-
  The proof data of the one grid point, per device: what a device starts its body from, what it ends
  with, and what it owes at either end.

  It starts with every cell's invariant, its sender's and receiver's ghost state of every copy index at
  layer 0, its barrier position and the tokens of the fifteen signals it sends, the credit for its own
  barrier's fifteen units, the levels, and its three scratch buffers with whatever they hold; it owes
  every copy and signal it will issue. It ends owing nothing, with the scratch buffers again and its
  sixty transfer semaphores closed at zero. The seven argument blocks end as they were; the result
  block ends holding the last layer's sum of the sixteen pieces.
-/
import proofs.«900978_g7700000000000979_dist_mlpseq_tp1d_bs_bs_b256_d256_h512_v7x_i16_bf16_1_alg».proof.Proof.State
import proofs.«900978_g7700000000000979_dist_mlpseq_tp1d_bs_bs_b256_d256_h512_v7x_i16_bf16_1_alg».proof.Proof.Gen.KernelIdeal.Frame

noncomputable section

namespace Cert.KernelIdeal.Dats

open Cert.KernelIdeal Cert.KernelIdeal.Gen Cert.KernelIdeal.Vals Cert.KernelIdeal.Cells Cert.KernelIdeal.Sched Cert.KernelIdeal.State
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-- What device c owes when its body starts: everything. -/
def O₀ (c : Dev nD) : CellTallies nD τ sig ℕ := Otot c (fun _ => 0) (fun _ => 0) 0

/-- The ghost state device c starts from, under the invariants' names K. -/
def ghost (K : GSem nD τ sig → ℕ) (c : Dev nD) : sProp 𝕄 :=
  iprop(Invs m K
    ∗ (bigSep Finset.univ fun j : Fin 15 => sndr (F := F) c j 0) ∗ (bigSep Finset.univ fun j : Fin 15 => rcvr (F := F) c j 0)
    ∗ atPos ER (barCell c) 0 ∅ 0
    ∗ (bigSep (Finset.univ.erase (0 : D)) fun l => iprop(dutyTok ER (barCell (fwd c l.val)) 0 l ∗ reached ER (barCell (fwd c l.val)) 0)))

/-- With the credit for its own barrier's fifteen units and the levels. -/
def start (c : Dev nD) : sProp 𝕄 :=
  iprop((∃ K, ghost m K c) ∗ cred (tallyAt (barCell c) 0 15) ∗ levAts L lv)

/-- A whole scratch buffer with some contents. -/
def scr (c : Dev nD) (b : Ref sig .tc) : sProp 𝕄 := iprop(∃ f : Buf (Elt F) ((c : Thread nD τ).loc b), ((c : Thread nD τ).loc b) ↦{fullShare} f)

/-- The device's own sixty transfer semaphores, at zero. -/
def ownZero (c : Dev nD) : sProp 𝕄 :=
  bigSep Finset.univ fun j : Fin 15 => iprop(semVal (cell c (.dma (sAg j))) 0 ∗ semVal (cell c (.dma (sRs j))) 0 ∗ semVal (cell c (.dma (rAg j))) 0 ∗ semVal (cell c (.dma (rRs j))) 0)

def Φ₀ (c : Dev nD) : sProp 𝕄 := iprop(start m c ∗ scr (F := F) c cc0_scratch0 ∗ scr (F := F) c cc0_scratch1 ∗ scr (F := F) c cc0_scratch2)
def Φ₁ (c : Dev nD) : sProp 𝕄 := iprop(scr (F := F) c cc0_scratch0 ∗ scr (F := F) c cc0_scratch1 ∗ scr (F := F) c cc0_scratch2 ∗ ownZero (F := F) c)

/-- The result block of device c. -/
def outAt (c : Dev nD) : Vec F S256x256 .f32 := Vals.result (argX m) (argWi m) (argWo m) c

def dats (_ : Fin 1) (c : Dev nD) : Dat τ (Elt F) ℕ ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.KernelIdeal.Dats

end
-- ==== Proof.SchedTables.lean ====
/-
  The schedule's tables, cell by cell: the duties, the amounts, the units a round expects and the
  payloads of a device's barrier cell and of its sixty transfer cells.
-/
import proofs.«900978_g7700000000000979_dist_mlpseq_tp1d_bs_bs_b256_d256_h512_v7x_i16_bf16_1_alg».proof.Proof.Sched

noncomputable section

namespace Cert.KernelIdeal.SchedTables

open Cert.KernelIdeal Cert.KernelIdeal.Gen Cert.KernelIdeal.Vals Cert.KernelIdeal.Cells Cert.KernelIdeal.Sched
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Which semaphore each named cell is -/

theorem classify_bar : classify (.reg barS : SemLoc sig) = .bar := by
  show (if barS = barS then Cls.bar else Cls.other) = Cls.bar
  exact if_pos rfl
theorem classify_sAg (j : Fin 15) : classify (.dma (sAg j) : SemLoc sig) = .agS j := by
  have hv := sAg_val j
  have hj := j.isLt
  unfold classify
  simp only []
  rw [dif_pos (by omega)]
  exact congrArg Cls.agS (Fin.ext (by show (sAg j).val - 8 = j.val; omega))
theorem classify_sRs (j : Fin 15) : classify (.dma (sRs j) : SemLoc sig) = .rsS j := by
  have hv := sRs_val j
  have hj := j.isLt
  unfold classify
  simp only []
  rw [dif_neg (by omega), dif_pos (by omega)]
  exact congrArg Cls.rsS (Fin.ext (by show (sRs j).val - 23 = j.val; omega))
theorem classify_rAg (j : Fin 15) : classify (.dma (rAg j) : SemLoc sig) = .agR j := by
  have hv := rAg_val j
  have hj := j.isLt
  unfold classify
  simp only []
  rw [dif_neg (by omega), dif_neg (by omega), dif_pos (by omega)]
  exact congrArg Cls.agR (Fin.ext (by show (rAg j).val - 38 = j.val; omega))
theorem classify_rRs (j : Fin 15) : classify (.dma (rRs j) : SemLoc sig) = .rsR j := by
  have hv := rRs_val j
  have hj := j.isLt
  unfold classify
  simp only []
  rw [dif_neg (by omega), dif_neg (by omega), dif_neg (by omega), dif_pos (by omega)]
  exact congrArg Cls.rsR (Fin.ext (by show (rRs j).val - 53 = j.val; omega))

/-! ## Duties -/

theorem duties_bar (c : Dev nD) : (sched (F := F) m).duties (barCell c) 0 = Finset.univ.erase 0 := by
  dsimp only [sched]
  rw [if_pos rfl, classify_bar]
  exact if_pos rfl
theorem duties_bar_later (c : Dev nD) (r : ℕ) (h : 1 ≤ r) : (sched (F := F) m).duties (barCell c) r = ∅ := by
  dsimp only [sched]
  rw [if_pos rfl, classify_bar]
  exact if_neg (by omega)
theorem duties_sAg (c : Dev nD) (j : Fin 15) (r : ℕ) (h : r < 3) : (sched (F := F) m).duties (cell c (.dma (sAg j))) r = {0} := by
  dsimp only [sched]
  rw [if_pos rfl, classify_sAg]
  exact if_pos h
theorem duties_sAg_later (c : Dev nD) (j : Fin 15) (r : ℕ) (h : 3 ≤ r) : (sched (F := F) m).duties (cell c (.dma (sAg j))) r = ∅ := by
  dsimp only [sched]
  rw [if_pos rfl, classify_sAg]
  exact if_neg (by omega)
theorem duties_sRs (c : Dev nD) (j : Fin 15) (r : ℕ) (h : r < 3) : (sched (F := F) m).duties (cell c (.dma (sRs j))) r = {0} := by
  dsimp only [sched]
  rw [if_pos rfl, classify_sRs]
  exact if_pos h
theorem duties_sRs_later (c : Dev nD) (j : Fin 15) (r : ℕ) (h : 3 ≤ r) : (sched (F := F) m).duties (cell c (.dma (sRs j))) r = ∅ := by
  dsimp only [sched]
  rw [if_pos rfl, classify_sRs]
  exact if_neg (by omega)
theorem duties_rAg (c : Dev nD) (j : Fin 15) (r : ℕ) (h : r < 3) : (sched (F := F) m).duties (cell c (.dma (rAg j))) r = {0} := by
  dsimp only [sched]
  rw [if_pos rfl, classify_rAg]
  exact if_pos h
theorem duties_rAg_later (c : Dev nD) (j : Fin 15) (r : ℕ) (h : 3 ≤ r) : (sched (F := F) m).duties (cell c (.dma (rAg j))) r = ∅ := by
  dsimp only [sched]
  rw [if_pos rfl, classify_rAg]
  exact if_neg (by omega)
theorem duties_rRs (c : Dev nD) (j : Fin 15) (r : ℕ) (h : r < 3) : (sched (F := F) m).duties (cell c (.dma (rRs j))) r = {0} := by
  dsimp only [sched]
  rw [if_pos rfl, classify_rRs]
  exact if_pos h
theorem duties_rRs_later (c : Dev nD) (j : Fin 15) (r : ℕ) (h : 3 ≤ r) : (sched (F := F) m).duties (cell c (.dma (rRs j))) r = ∅ := by
  dsimp only [sched]
  rw [if_pos rfl, classify_rRs]
  exact if_neg (by omega)

theorem mem_duties_bar (c : Dev nD) (l : D) (h : l ≠ 0) : l ∈ (sched (F := F) m).duties (barCell c) 0 := by
  rw [duties_bar]; exact Finset.mem_erase.mpr ⟨h, Finset.mem_univ _⟩
theorem zero_mem_sAg (c : Dev nD) (j : Fin 15) (r : ℕ) (h : r < 3) : (0 : D) ∈ (sched (F := F) m).duties (cell c (.dma (sAg j))) r := by
  rw [duties_sAg m c j r h]; exact Finset.mem_singleton_self _
theorem zero_mem_sRs (c : Dev nD) (j : Fin 15) (r : ℕ) (h : r < 3) : (0 : D) ∈ (sched (F := F) m).duties (cell c (.dma (sRs j))) r := by
  rw [duties_sRs m c j r h]; exact Finset.mem_singleton_self _
theorem zero_mem_rAg (c : Dev nD) (j : Fin 15) (r : ℕ) (h : r < 3) : (0 : D) ∈ (sched (F := F) m).duties (cell c (.dma (rAg j))) r := by
  rw [duties_rAg m c j r h]; exact Finset.mem_singleton_self _
theorem zero_mem_rRs (c : Dev nD) (j : Fin 15) (r : ℕ) (h : r < 3) : (0 : D) ∈ (sched (F := F) m).duties (cell c (.dma (rRs j))) r := by
  rw [duties_rRs m c j r h]; exact Finset.mem_singleton_self _

/-! ## Amounts and the units a round expects -/

theorem amount_bar (c : Dev nD) (r : ℕ) (d : D) : (sched (F := F) m).amount (barCell c) r d = 1 := by
  dsimp only [sched]
  rw [classify_bar]
theorem amount_sAg (c : Dev nD) (j : Fin 15) (r : ℕ) (d : D) : (sched (F := F) m).amount (cell c (.dma (sAg j))) r d = NX := by
  dsimp only [sched]
  rw [classify_sAg]
theorem amount_sRs (c : Dev nD) (j : Fin 15) (r : ℕ) (d : D) : (sched (F := F) m).amount (cell c (.dma (sRs j))) r d = NX := by
  dsimp only [sched]
  rw [classify_sRs]
theorem amount_rAg (c : Dev nD) (j : Fin 15) (r : ℕ) (d : D) : (sched (F := F) m).amount (cell c (.dma (rAg j))) r d = NX := by
  dsimp only [sched]
  rw [classify_rAg]
theorem amount_rRs (c : Dev nD) (j : Fin 15) (r : ℕ) (d : D) : (sched (F := F) m).amount (cell c (.dma (rRs j))) r d = NX := by
  dsimp only [sched]
  rw [classify_rRs]

theorem expect_bar (c : Dev nD) : (sched (F := F) m).expect (barCell c) 0 = 15 := by
  unfold Schedule.expect Schedule.amountOf
  rw [duties_bar, Finset.sum_congr rfl fun d _ => amount_bar m c 0 d, Finset.sum_const, smul_eq_mul, mul_one]
  rfl
theorem expect_sAg (c : Dev nD) (j : Fin 15) (r : ℕ) (h : r < 3) : (sched (F := F) m).expect (cell c (.dma (sAg j))) r = NX := by
  unfold Schedule.expect Schedule.amountOf
  rw [duties_sAg m c j r h, Finset.sum_singleton, amount_sAg]
theorem expect_sRs (c : Dev nD) (j : Fin 15) (r : ℕ) (h : r < 3) : (sched (F := F) m).expect (cell c (.dma (sRs j))) r = NX := by
  unfold Schedule.expect Schedule.amountOf
  rw [duties_sRs m c j r h, Finset.sum_singleton, amount_sRs]
theorem expect_rAg (c : Dev nD) (j : Fin 15) (r : ℕ) (h : r < 3) : (sched (F := F) m).expect (cell c (.dma (rAg j))) r = NX := by
  unfold Schedule.expect Schedule.amountOf
  rw [duties_rAg m c j r h, Finset.sum_singleton, amount_rAg]
theorem expect_rRs (c : Dev nD) (j : Fin 15) (r : ℕ) (h : r < 3) : (sched (F := F) m).expect (cell c (.dma (rRs j))) r = NX := by
  unfold Schedule.expect Schedule.amountOf
  rw [duties_rRs m c j r h, Finset.sum_singleton, amount_rRs]

/-! ## Payloads -/

theorem payload_bar (c : Dev nD) (l : D) : (sched (F := F) m).payload (barCell c) 0 l = barPay c l := by
  dsimp only [sched]
  rw [classify_bar]
theorem payload_sAg (c : Dev nD) (j : Fin 15) (r : ℕ) (d : D) : (sched (F := F) m).payload (cell c (.dma (sAg j))) r d = agSPay m c j r := by
  dsimp only [sched]
  rw [classify_sAg]
theorem payload_sRs (c : Dev nD) (j : Fin 15) (r : ℕ) (d : D) : (sched (F := F) m).payload (cell c (.dma (sRs j))) r d = rsSPay m c j r := by
  dsimp only [sched]
  rw [classify_sRs]
theorem payload_rAg (c : Dev nD) (j : Fin 15) (r : ℕ) (d : D) : (sched (F := F) m).payload (cell c (.dma (rAg j))) r d = agRPay m c j r := by
  dsimp only [sched]
  rw [classify_rAg]
theorem payload_rRs (c : Dev nD) (j : Fin 15) (r : ℕ) (d : D) : (sched (F := F) m).payload (cell c (.dma (rRs j))) r d = rsRPay m c j r := by
  dsimp only [sched]
  rw [classify_rRs]

/-! ## A round's payloads, no duty taken -/

theorem rest_sAg (c : Dev nD) (j : Fin 15) (r : ℕ) (h : r < 3) :
    bigSep ((sched (F := F) m).duties (cell c (.dma (sAg j))) r \ ∅) (fun d => (sched (F := F) m).payload (cell c (.dma (sAg j))) r d) = agSPay m c j r := by
  rw [Finset.sdiff_empty, duties_sAg m c j r h, bigSep_singleton, payload_sAg]
theorem rest_sRs (c : Dev nD) (j : Fin 15) (r : ℕ) (h : r < 3) :
    bigSep ((sched (F := F) m).duties (cell c (.dma (sRs j))) r \ ∅) (fun d => (sched (F := F) m).payload (cell c (.dma (sRs j))) r d) = rsSPay m c j r := by
  rw [Finset.sdiff_empty, duties_sRs m c j r h, bigSep_singleton, payload_sRs]
theorem rest_rAg (c : Dev nD) (j : Fin 15) (r : ℕ) (h : r < 3) :
    bigSep ((sched (F := F) m).duties (cell c (.dma (rAg j))) r \ ∅) (fun d => (sched (F := F) m).payload (cell c (.dma (rAg j))) r d) = agRPay m c j r := by
  rw [Finset.sdiff_empty, duties_rAg m c j r h, bigSep_singleton, payload_rAg]
theorem rest_rRs (c : Dev nD) (j : Fin 15) (r : ℕ) (h : r < 3) :
    bigSep ((sched (F := F) m).duties (cell c (.dma (rRs j))) r \ ∅) (fun d => (sched (F := F) m).payload (cell c (.dma (rRs j))) r d) = rsRPay m c j r := by
  rw [Finset.sdiff_empty, duties_rRs m c j r h, bigSep_singleton, payload_rRs]
theorem rest_bar (c : Dev nD) :
    bigSep ((sched (F := F) m).duties (barCell c) 0 \ ∅) (fun d => (sched (F := F) m).payload (barCell c) 0 d)
      = bigSep (Finset.univ.erase (0 : D)) (fun l => barPay (F := F) c l) := by
  rw [Finset.sdiff_empty, duties_bar]
  exact congrArg (bigSep _) (funext fun l => payload_bar m c l)

/-! ## Every payload can be stored in a cell -/

instance xPts_storable (c : Dev nD) (k : Fin 16) (q : PosShare TreeShare) (f) : BI.Storable (upEmb : UEmb _ 𝕄) (xPts (F := F) c k q f) := by
  unfold xPts; infer_instance
instance pPts_storable (c : Dev nD) (k : Fin 16) (f) : BI.Storable (upEmb : UEmb _ 𝕄) (pPts (F := F) c k f) := by
  unfold pPts; infer_instance
instance rPts_storable (c : Dev nD) (j : Fin 15) (f) : BI.Storable (upEmb : UEmb _ 𝕄) (rPts (F := F) c j f) := by
  unfold rPts; infer_instance

instance sched_payload_storable (g : GSem nD τ sig) (r : ℕ) (d : D) :
    BI.Storable (upEmb : UEmb _ 𝕄) ((sched (F := F) m).payload g r d) := by
  dsimp only [sched]
  unfold barPay agSPay rsSPay agRPay rsRPay
  (repeat' split) <;> infer_instance

end Cert.KernelIdeal.SchedTables

/-- info: 'Cert.KernelIdeal.SchedTables.sched_payload_storable' depends on axioms: [propext, Classical.choice, Quot.sound] -/
#guard_msgs in #print axioms Cert.KernelIdeal.SchedTables.sched_payload_storable
/-- info: 'Cert.KernelIdeal.SchedTables.rest_bar' depends on axioms: [propext, Classical.choice, Quot.sound] -/
#guard_msgs in #print axioms Cert.KernelIdeal.SchedTables.rest_bar

end
-- ==== Proof.RingLaws.lean ====
/-
  The ring of sixteen devices: going k places forward and k places back are inverse, and going
  back k places is going forward 16 - k.
-/
import proofs.«900978_g7700000000000979_dist_mlpseq_tp1d_bs_bs_b256_d256_h512_v7x_i16_bf16_1_alg».proof.Proof.Vals

namespace Cert.KernelIdeal.RingLaws

open Cert.KernelIdeal Cert.KernelIdeal.Vals Idealize.ShloMosaic

theorem fwd_lt (c : Dev nD) (k : ℕ) : fwd c k = fwd c (k % 16) := by
  apply Fin.ext; show (c.val + k) % 16 = (c.val + k % 16) % 16; omega
theorem bwd_fwd (c : Dev nD) (k : ℕ) : bwd (fwd c k) k = c := by
  apply Fin.ext; show ((c.val + k) % 16 + (16 - k % 16)) % 16 = c.val; have hc : c.val < 16 := c.isLt; omega
theorem fwd_bwd (c : Dev nD) (k : ℕ) : fwd (bwd c k) k = c := by
  apply Fin.ext; show ((c.val + (16 - k % 16)) % 16 + k) % 16 = c.val; have hc : c.val < 16 := c.isLt; omega
theorem bwd_eq_fwd (c : Dev nD) (k : ℕ) : bwd c k = fwd c (16 - k % 16) := rfl
theorem fwd_zero (c : Dev nD) : fwd c 0 = c := by
  apply Fin.ext; show (c.val + 0) % 16 = c.val; have hc : c.val < 16 := c.isLt; omega
theorem fwd_ne (c : Dev nD) (k : ℕ) (h1 : 1 ≤ k) (h2 : k ≤ 15) : fwd c k ≠ c := by
  intro h; have := congrArg Fin.val h; have hc : c.val < 16 := c.isLt
  change (c.val + k) % 16 = c.val at this; omega
theorem bwd_ne (c : Dev nD) (k : ℕ) (h1 : 1 ≤ k) (h2 : k ≤ 15) : bwd c k ≠ c := by
  intro h; have := congrArg Fin.val h; have hc : c.val < 16 := c.isLt
  change (c.val + (16 - k % 16)) % 16 = c.val at this; omega
theorem fwd_inj (k : ℕ) : Function.Injective (fun c : Dev nD => fwd c k) := by
  intro a b h; have := congrArg Fin.val h; have ha : a.val < 16 := a.isLt; have hb : b.val < 16 := b.isLt
  apply Fin.ext; change (a.val + k) % 16 = (b.val + k) % 16 at this; omega
/-- Going k places forward, as a permutation of the devices. -/
def ringE (k : ℕ) : Dev nD ≃ Dev nD := ⟨fun c => fwd c k, fun c => bwd c k, fun c => bwd_fwd c k, fun c => fwd_bwd c k⟩

end Cert.KernelIdeal.RingLaws
-- ==== Proof.StateLemmas.lean ====
/-
  The algebra of what a device still owes, where its cells sit in the order of levels, and the evidence for a wait.

  What device c owes is a sum, over the copy indices, of the credits of the chunk copies and piece copies of the layers
  still to come, and of the barrier signals still to send. Issuing one copy or one signal peels exactly its summand.
  A positive entry of the sum therefore sits on a receive cell of a chunk copy (level 4u+2 at layer u), on a receive
  cell of a piece copy (level 4u+4) or on a barrier cell (level 1), and a wait on an own cell is allowed as soon as its
  level lies below all of these.
-/
import proofs.«900978_g7700000000000979_dist_mlpseq_tp1d_bs_bs_b256_d256_h512_v7x_i16_bf16_1_alg».proof.Proof.State
import proofs.«900978_g7700000000000979_dist_mlpseq_tp1d_bs_bs_b256_d256_h512_v7x_i16_bf16_1_alg».proof.Proof.SchedTables

noncomputable section

namespace Cert.KernelIdeal.State

open Cert.KernelIdeal Cert.KernelIdeal.Gen Cert.KernelIdeal.Vals Cert.KernelIdeal.Cells Cert.KernelIdeal.Sched
open Cert.KernelIdeal.SchedTables
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Peeling one summand -/

/-- The layers from r on are layer r and the layers from r + 1 on. -/
private theorem layers_split (r : ℕ) (hr : r < 3) : Finset.Ico r 3 = insert r (Finset.Ico (r + 1) 3) := by
  ext x; simp only [Finset.mem_Ico, Finset.mem_insert]; omega
private theorem signals_split (s : ℕ) (hs : s < 15) : Finset.Ioc s 15 = insert (s + 1) (Finset.Ioc (s + 1) 15) := by
  ext x; simp only [Finset.mem_Ioc, Finset.mem_insert]; omega

private theorem owedA_succ (c : Dev nD) (j : Fin 15) (r : ℕ) (hr : r < 3) :
    owedA c j r = owedA c j (r + 1) + tallyAt (cell (nxt c j) (.dma (rAg j))) r NX := by
  unfold owedA
  rw [layers_split r hr, Finset.sum_insert (by simp only [Finset.mem_Ico]; omega), add_comm]
private theorem owedB_succ (c : Dev nD) (j : Fin 15) (r : ℕ) (hr : r < 3) :
    owedB c j r = owedB c j (r + 1) + tallyAt (cell (prv c j) (.dma (rRs (Fin.rev j)))) r NX := by
  unfold owedB
  rw [layers_split r hr, Finset.sum_insert (by simp only [Finset.mem_Ico]; omega), add_comm]
private theorem owedS_succ (c : Dev nD) (s : ℕ) (hs : s < 15) :
    owedS c s = owedS c (s + 1) + tallyAt (barCell (fwd c (s + 1))) 0 1 := by
  unfold owedS
  rw [signals_split s hs, Finset.sum_insert (by simp only [Finset.mem_Ioc]; omega), add_comm]

/-- Advancing one index's count changes that index's summand only. -/
private theorem sum_update_succ {M : Type} [AddCommMonoid M] (f : Fin 15 → ℕ → M) (a : Fin 15 → ℕ) (j : Fin 15) (n : ℕ) (t : M)
    (h : f j (a j) = f j n + t) :
    (∑ i, f i (a i)) = (∑ i, f i (Function.update a j n i)) + t := by
  rw [← Finset.add_sum_erase Finset.univ (fun i => f i (a i)) (Finset.mem_univ j),
    ← Finset.add_sum_erase Finset.univ (fun i => f i (Function.update a j n i)) (Finset.mem_univ j),
    Finset.sum_congr rfl fun i hi => show f i (Function.update a j n i) = f i (a i) by
      rw [Function.update_of_ne (Finset.ne_of_mem_erase hi)]]
  rw [Function.update_self, h, add_assoc, add_assoc, add_comm t]

/-- Issuing chunk copy j+1 of layer r pays its credit off what is owed. -/
theorem Otot_stepA (c : Dev nD) (a b : Fin 15 → ℕ) (s : ℕ) (j : Fin 15) (r : ℕ) (ha : a j = r) (hr : r < 3) :
    Otot c a b s = Otot c (Function.update a j (r + 1)) b s + tallyAt (cell (nxt c j) (.dma (rAg j))) r NX := by
  unfold Otot
  rw [sum_update_succ (fun i n => owedA c i n) a j (r + 1) _ (by rw [ha]; exact owedA_succ c j r hr)]
  rw [add_right_comm _ (tallyAt (cell (nxt c j) (.dma (rAg j))) r NX) _, add_right_comm _ (tallyAt (cell (nxt c j) (.dma (rAg j))) r NX) _]
theorem Otot_stepB (c : Dev nD) (a b : Fin 15 → ℕ) (s : ℕ) (j : Fin 15) (r : ℕ) (hb : b j = r) (hr : r < 3) :
    Otot c a b s = Otot c a (Function.update b j (r + 1)) s + tallyAt (cell (prv c j) (.dma (rRs (Fin.rev j)))) r NX := by
  unfold Otot
  rw [sum_update_succ (fun i n => owedB c i n) b j (r + 1) _ (by rw [hb]; exact owedB_succ c j r hr)]
  rw [← add_assoc, add_right_comm _ (tallyAt (cell (prv c j) (.dma (rRs (Fin.rev j)))) r NX) _]
theorem Otot_stepS (c : Dev nD) (a b : Fin 15 → ℕ) (s : ℕ) (hs : s < 15) :
    Otot c a b s = Otot c a b (s + 1) + tallyAt (barCell (fwd c (s + 1))) 0 1 := by
  unfold Otot
  rw [owedS_succ c s hs, ← add_assoc]
theorem Otot_done (c : Dev nD) : Otot c (fun _ => 3) (fun _ => 3) 15 = 0 := by
  unfold Otot owedA owedB owedS
  simp only [Finset.Ico_self, Finset.Ioc_self, Finset.sum_empty, Finset.sum_const_zero, add_zero]

/-! ## Where the cells sit -/

theorem lv_bar (e : Dev nD) (u : ℕ) : lv (barCell e) u = 1 := by
  unfold lv; rw [show classify (barCell e).2 = .bar from classify_bar]
theorem lv_sAg (e : Dev nD) (j : Fin 15) (u : ℕ) : lv (cell e (.dma (sAg j))) u = 4 * u + 3 := by
  unfold lv; rw [show classify (cell e (.dma (sAg j))).2 = .agS j from classify_sAg j]
theorem lv_sRs (e : Dev nD) (j : Fin 15) (u : ℕ) : lv (cell e (.dma (sRs j))) u = 4 * u + 5 := by
  unfold lv; rw [show classify (cell e (.dma (sRs j))).2 = .rsS j from classify_sRs j]
theorem lv_rAg (e : Dev nD) (j : Fin 15) (u : ℕ) : lv (cell e (.dma (rAg j))) u = 4 * u + 2 := by
  unfold lv; rw [show classify (cell e (.dma (rAg j))).2 = .agR j from classify_rAg j]
theorem lv_rRs (e : Dev nD) (j : Fin 15) (u : ℕ) : lv (cell e (.dma (rRs j))) u = 4 * u + 4 := by
  unfold lv; rw [show classify (cell e (.dma (rRs j))).2 = .rsR j from classify_rRs j]

/-- What is still owed sits on a receive cell of a chunk copy or of a piece copy at a layer still to come, or on the
    barrier cell of a device still to be signalled. -/
theorem Otot_pos {c : Dev nD} {a b : Fin 15 → ℕ} {s : ℕ} {g : GSem nD τ sig} {u : ℕ} (h : 0 < Otot c a b s g u) :
    (∃ j, g = cell (nxt c j) (.dma (rAg j)) ∧ a j ≤ u ∧ u < 3)
    ∨ (∃ j, g = cell (prv c j) (.dma (rRs (Fin.rev j))) ∧ b j ≤ u ∧ u < 3)
    ∨ (∃ l, s < l ∧ l ≤ 15 ∧ g = barCell (fwd c l) ∧ u = 0) := by
  unfold Otot at h
  rcases Pipeline.add_pos_cases h with h | h
  · rcases Pipeline.add_pos_cases h with h | h
    · obtain ⟨j, -, hj⟩ := Pipeline.sum_pos_exists h
      unfold owedA at hj
      obtain ⟨r', hr', hj⟩ := Pipeline.sum_pos_exists hj
      obtain ⟨hg, hu⟩ := Pipeline.tallyAt_pos hj
      rw [Finset.mem_Ico] at hr'
      exact Or.inl ⟨j, hg, by omega, by omega⟩
    · obtain ⟨j, -, hj⟩ := Pipeline.sum_pos_exists h
      unfold owedB at hj
      obtain ⟨r', hr', hj⟩ := Pipeline.sum_pos_exists hj
      obtain ⟨hg, hu⟩ := Pipeline.tallyAt_pos hj
      rw [Finset.mem_Ico] at hr'
      exact Or.inr (Or.inl ⟨j, hg, by omega, by omega⟩)
  · unfold owedS at h
    obtain ⟨l, hl, hj⟩ := Pipeline.sum_pos_exists h
    obtain ⟨hg, hu⟩ := Pipeline.tallyAt_pos hj
    rw [Finset.mem_Ioc] at hl
    exact Or.inr (Or.inr ⟨l, hl.1, hl.2, hg, hu⟩)

/-- A wait on one of the device's own cells, at layer r, is allowed when every copy still to issue lies above it. -/
theorem mayWait_of (c : Dev nD) (a b : Fin 15 → ℕ) (s : ℕ) (sm : SemLoc sig) (r : ℕ) (hr : r < 3)
    (hS : s = 15 ∨ lv (cell c sm) r < 1)
    (hA : ∀ j, a j < 3 → lv (cell c sm) r < 4 * a j + 2)
    (hB : ∀ j, b j < 3 → lv (cell c sm) r < 4 * b j + 4) :
    (levAts L lv : sProp 𝕄) ⊢ MayWait (c : Thread nD τ) sm r (Otot c a b s) := by
  have h3 : ∀ u : ℕ, u < 3 → u ∈ ({0, 1, 2} : Finset ℕ) := fun u hu => by
    simp only [Finset.mem_insert, Finset.mem_singleton]; omega
  refine MayOwe.of_cut (L := L) (lev := lv) (lv (cell c sm) r)
    (fun p hp => by rw [Finset.mem_singleton.mp hp, L_tc]; exact h3 r hr)
    (fun g u hg => ?_)
    (fun p hp => by rw [Finset.mem_singleton.mp hp])
    (fun g u hg => ?_)
  · rcases Otot_pos hg with ⟨j, rfl, -, hu⟩ | ⟨j, rfl, -, hu⟩ | ⟨l, -, -, rfl, rfl⟩
    · rw [L_tc]; exact h3 u hu
    · rw [L_tc]; exact h3 u hu
    · rw [L_tc]; exact h3 0 (by omega)
  · rcases Otot_pos hg with ⟨j, rfl, hau, hu⟩ | ⟨j, rfl, hbu, hu⟩ | ⟨l, hsl, hl, rfl, rfl⟩
    · rw [lv_rAg]; have := hA j (by omega); omega
    · rw [lv_rRs]; have := hB j (by omega); omega
    · rw [lv_bar]; rcases hS with hS | hS
      · omega
      · exact hS

/-- info: 'Cert.KernelIdeal.State.mayWait_of' depends on axioms: [propext, Classical.choice, Quot.sound] -/
#guard_msgs in #print axioms mayWait_of
/-- info: 'Cert.KernelIdeal.State.Otot_stepA' depends on axioms: [propext, Classical.choice, Quot.sound] -/
#guard_msgs in #print axioms Otot_stepA
/-- info: 'Cert.KernelIdeal.State.Otot_stepB' depends on axioms: [propext, Classical.choice, Quot.sound] -/
#guard_msgs in #print axioms Otot_stepB
/-- info: 'Cert.KernelIdeal.State.Otot_stepS' depends on axioms: [propext, Classical.choice, Quot.sound] -/
#guard_msgs in #print axioms Otot_stepS
/-- info: 'Cert.KernelIdeal.State.Otot_done' depends on axioms: [propext, Classical.choice, Quot.sound] -/
#guard_msgs in #print axioms Otot_done

end Cert.KernelIdeal.State

end
-- ==== Proof.Launch.lean ====
/-
  The launch of the sixteen devices' kernels, and the run.

  The ring's ghost state is allocated for all devices at once: every device's sixty-one cells (its barrier
  cell and its four rows of fifteen transfer cells) start at round 0 with their counters at zero, the duty
  tokens are dealt to the devices that pay them (a barrier's duty l to the device l places before, a chunk
  copy's receive duty to the sender, a piece copy's receive duty to the returning device, the send duties to
  the owner), and the credit a device's own waits consume is what the other devices owe its cells at launch.
-/
import proofs.«900978_g7700000000000979_dist_mlpseq_tp1d_bs_bs_b256_d256_h512_v7x_i16_bf16_1_alg».proof.Proof.Dats
import proofs.«900978_g7700000000000979_dist_mlpseq_tp1d_bs_bs_b256_d256_h512_v7x_i16_bf16_1_alg».proof.Proof.SchedTables
import proofs.«900978_g7700000000000979_dist_mlpseq_tp1d_bs_bs_b256_d256_h512_v7x_i16_bf16_1_alg».proof.Proof.RingLaws
import proofs.«900978_g7700000000000979_dist_mlpseq_tp1d_bs_bs_b256_d256_h512_v7x_i16_bf16_1_alg».proof.Proof.StateLemmas
import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells, indexed -/

/-- A device's own sixty transfer semaphores: copy index and row (send chunk, send piece, receive chunk, receive piece). -/
abbrev KI : Type := Fin 15 × Fin 4
def rowSem : Fin 4 → Fin 15 → DmaSem sig
  | 0, j => sAg j
  | 1, j => sRs j
  | 2, j => rAg j
  | 3, j => rRs j
abbrev osem : KI → SemLoc sig := fun k => .dma (rowSem k.2 k.1)
/-- All sixty-one: the barrier semaphore and the sixty. -/
abbrev CI : Type := Option KI
abbrev csem : CI → SemLoc sig
  | none => .reg barS
  | some k => osem k
abbrev kcell (ck : Dev nD × CI) : GSem nD τ sig := cell ck.1 (csem ck.2)

theorem rowSem_val (a : Fin 4) (j : Fin 15) : (rowSem a j).val = 8 + 15 * a.val + j.val := by
  fin_cases a
  · show (sAg j).val = 8 + 15 * 0 + j.val; rw [sAg_val]
  · show (sRs j).val = 8 + 15 * 1 + j.val; rw [sRs_val]
  · show (rAg j).val = 8 + 15 * 2 + j.val; rw [rAg_val]
  · show (rRs j).val = 8 + 15 * 3 + j.val; rw [rRs_val]

theorem osem_injective : Function.Injective osem := by
  rintro ⟨j, a⟩ ⟨j', a'⟩ h
  have hv : (rowSem a j).val = (rowSem a' j').val := by
    have h' : rowSem a j = rowSem a' j' := by injection h
    rw [h']
  rw [rowSem_val, rowSem_val] at hv
  have hj := j.isLt; have hj' := j'.isLt
  have h1 : a = a' := Fin.ext (by omega)
  have h2 : j = j' := Fin.ext (by omega)
  subst h1; subst h2; rfl

theorem csem_injective : Function.Injective csem := by
  rintro (_ | k) (_ | k') h
  · rfl
  · exact absurd h (fun h' => by cases h')
  · exact absurd h (fun h' => by cases h')
  · exact congrArg some (osem_injective h)

theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem stage_sem_lt : ∀ (w : Fin cfg0.W) (s : Fin (cfg0.spec w).nbuf), ((cfg0.spec w).sem s).val < 8 := by decide

theorem osem_scoped : ∀ k : KI, (osem k).isScoped .tc = true := by decide

theorem ownSemFacts : Pipeline.OwnSemFacts cfg0.spec osem :=
  ⟨osem_scoped, osem_injective, fun k w s h => by
    have h' : rowSem k.2 k.1 = (cfg0.spec w).sem s := by injection h
    have hv := rowSem_val k.2 k.1
    have hs := stage_sem_lt w s
    rw [h'] at hv; omega⟩

theorem mem_allSems_iff (s : SemLoc sig) : s ∈ (allSems : Finset (SemLoc sig)) ↔ ∃ k : CI, csem k = s := by
  constructor
  · intro h
    unfold allSems at h
    simp only [Finset.mem_insert, Finset.mem_union, Finset.mem_image, Finset.mem_univ, true_and] at h
    rcases h with rfl | (((⟨j, rfl⟩ | ⟨j, rfl⟩) | ⟨j, rfl⟩) | ⟨j, rfl⟩)
    · exact ⟨none, rfl⟩
    · exact ⟨some (j, 0), rfl⟩
    · exact ⟨some (j, 1), rfl⟩
    · exact ⟨some (j, 2), rfl⟩
    · exact ⟨some (j, 3), rfl⟩
  · rintro ⟨k, rfl⟩
    rcases k with _ | ⟨j, a⟩
    · exact mem_allSems_bar
    · fin_cases a
      · exact mem_allSems_sAg j
      · exact mem_allSems_sRs j
      · exact mem_allSems_rAg j
      · exact mem_allSems_rRs j

theorem allSems_eq : (allSems : Finset (SemLoc sig)) = Finset.univ.map ⟨csem, csem_injective⟩ := by
  ext s
  rw [mem_allSems_iff, Finset.mem_map]
  constructor
  · rintro ⟨k, hk⟩; exact ⟨k, Finset.mem_univ _, hk⟩
  · rintro ⟨k, -, hk⟩; exact ⟨k, hk⟩

/-! ## The launch element of the ring's ghost state -/

def ringCells : Finset (GSem nD τ sig) := Finset.univ.map ⟨kcell, kcell_injective⟩

/-- The barrier duties' tokens: (device, duty l ≠ 0). -/
def barTok (x : (_ : Dev nD) × D) : GSem nD τ sig × ℕ × D := (barCell x.1, 0, x.2)
theorem barTok_injective : Function.Injective barTok := by
  rintro ⟨c, l⟩ ⟨c', l'⟩ h
  have h1 : c = c' := congrArg (fun x : GSem nD τ sig × ℕ × D => x.1.1.1) h
  have h2 : l = l' := congrArg (fun x : GSem nD τ sig × ℕ × D => x.2.2) h
  subst h1; subst h2; rfl
/-- The transfer cells' tokens: (device, cell, layer). -/
def xferTok (x : (_ : Dev nD × KI) × ℕ) : GSem nD τ sig × ℕ × D := (cell x.1.1 (osem x.1.2), x.2, 0)
theorem xferTok_injective : Function.Injective xferTok := by
  rintro ⟨⟨c, k⟩, r⟩ ⟨⟨c', k'⟩, r'⟩ h
  have h1 : c = c' := congrArg (fun x : GSem nD τ sig × ℕ × D => x.1.1.1) h
  have h2 : osem k = osem k' := congrArg (fun x : GSem nD τ sig × ℕ × D => x.1.2) h
  have h3 : r = r' := congrArg (fun x : GSem nD τ sig × ℕ × D => x.2.1) h
  have h4 := osem_injective h2
  subst h1; subst h3; subst h4; rfl

def barToks : Finset (GSem nD τ sig × ℕ × D) :=
  (Finset.univ.sigma fun _ : Dev nD => Finset.univ.erase (0 : D)).map ⟨barTok, barTok_injective⟩
def xferToks : Finset (GSem nD τ sig × ℕ × D) :=
  (Finset.univ.sigma fun _ : Dev nD × KI => Finset.Ico 0 3).map ⟨xferTok, xferTok_injective⟩
theorem toks_disjoint : Disjoint barToks xferToks := by
  rw [Finset.disjoint_left]
  intro x hb hx
  unfold barToks at hb; unfold xferToks at hx
  rw [Finset.mem_map] at hb hx
  obtain ⟨y, -, rfl⟩ := hb
  obtain ⟨z, -, hz⟩ := hx
  have : (SemLoc.dma (rowSem z.1.2.2 z.1.2.1) : SemLoc sig) = .reg barS := congrArg (fun x : GSem nD τ sig × ℕ × D => x.1.2) hz
  cases this
def ringToks : Finset (GSem nD τ sig × ℕ × D) := barToks ∪ xferToks

def u₀ : UU :=
  (initOf (Pipeline.cells cfgs cellOf_inj) (Pipeline.launchToks cfgs cellOf_inj), initOf ringCells ringToks)

/-- The duty tokens of device c's own cells. -/
def toks (c : Dev nD) : sProp 𝕄 :=
  iprop((bigSep (Finset.univ.erase (0 : D)) fun l => dutyTok ER (barCell c) 0 l)
    ∗ bigSep Finset.univ fun k : KI => bigSep (Finset.Ico 0 3) fun r => dutyTok ER (cell c (osem k)) r 0)

/-- What the launch element deals device c. -/
def G (c : Dev nD) : sProp 𝕄 :=
  iprop((bigSep Finset.univ fun k : CI => roundState ER (sched m) (kcell (c, k)) 0)
    ∗ (bigSep Finset.univ fun k : CI => iprop(atPos ER (kcell (c, k)) 0 ∅ 0 ∗ reached ER (kcell (c, k)) 0)) ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks
    rw [bigSep_union toks_disjoint, bigSep_sep']
    unfold barToks xferToks
    rw [bigSep_map, bigSep_map, Pipeline.bigSep_sigma, Pipeline.bigSep_sigma, bigSep_univ_prod]
    rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant, from its counter at zero -/

theorem bigSep_option {α : Type} [Fintype α] [DecidableEq α] (Φ : Option α → sProp 𝕄) :
    bigSep Finset.univ Φ = iprop(Φ none ∗ bigSep Finset.univ fun a => Φ (some a)) := by
  rw [show (Finset.univ : Finset (Option α)) = insert none (Finset.univ.map Function.Embedding.some) from by
    ext x; cases x <;> simp, bigSep_insert (by simp), bigSep_map]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_option]
  iintro ⟨HS, HB⟩
  isplitl [HB]; · iexact HB
  iapply (Entails.of_eq (show (Pipeline.ownSems0 (Ix := ℕ) (Name := ℕ) (U := UU) (Lvl := ℕ) (Val := Elt F) (τ := τ) osem c : sProp 𝕄)
    = bigSep Finset.univ fun a : KI => semVal (kcell (c, some a)) 0 from rfl))
  iexact HS

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (sched m) κ (kcell (c, k))))
          ∗ (bigSep Finset.univ fun k : CI => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched m) (kcell (c, k)) 0)
      ⊢ (|={Set.univ}=> bigSep Finset.univ fun k : CI => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Regrouping: every device gets the records and the tokens of the duties it pays -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Two nested conjunctions over finite sets, in either order. -/
theorem bigSep_swap {M : Type} [URA M] {A B : Type} [DecidableEq A] (s : Finset A) (t : Finset B) (Φ : A → B → sProp M) :
    bigSep s (fun a => bigSep t (fun b => Φ a b)) = bigSep t (fun b => bigSep s (fun a => Φ a b)) := by
  induction s using Finset.induction_on with
  | empty => simp only [BI.bigSep_empty]; exact (BI.bigSep_emp_const _).symm
  | insert a s ha ih =>
    rw [BI.bigSep_insert ha, ih]
    exact (BI.bigSep_sep t _ _).symm.trans (bigSep_congr fun b _ => (BI.bigSep_insert (Φ := fun a => Φ a b) ha).symm)

/-- Every device's family over J, each member j sent along its own permutation of the devices. -/
theorem route {J : Type} [DecidableEq J] (s : Finset J) (e : J → Dev nD ≃ Dev nD) (Φ : Dev nD → J → sProp 𝕄) :
    bigSep Finset.univ (fun c => bigSep s fun j => Φ c j) = bigSep Finset.univ (fun c => bigSep s fun j => Φ (e j c) j) := by
  rw [bigSep_swap, bigSep_congr (fun j _ => bigSep_univ_equiv (e j) (fun c => Φ c j)), ← bigSep_swap]

theorem revRow (Φ : Fin 15 → sProp 𝕄) : bigSep Finset.univ Φ = bigSep Finset.univ fun j => Φ (Fin.rev j) :=
  bigSep_univ_equiv Fin.revPerm Φ

/-- The sixty transfer semaphores row by row. -/
theorem rowsK (Ψ : DmaSem sig → sProp 𝕄) :
    bigSep Finset.univ (fun k : KI => Ψ (rowSem k.2 k.1))
      = iprop((bigSep Finset.univ fun j => Ψ (sAg j)) ∗ (bigSep Finset.univ fun j => Ψ (sRs j)) ∗ (bigSep Finset.univ fun j => Ψ (rAg j)) ∗ (bigSep Finset.univ fun j => Ψ (rRs j))) := by
  rw [bigSep_univ_prod, bigSep_congr (fun j _ => bigSep_fin4 _), bigSep_sep', bigSep_sep', bigSep_sep']
  rfl

def reachedAll : sProp 𝕄 := bigSep Finset.univ fun ck : Dev nD × CI => reached ER (kcell ck) 0
instance reachedAll_persistent : BI.Persistent (reachedAll (F := F)) := by unfold reachedAll; infer_instance
theorem reachedAll_at (c : Dev nD) (k : CI) : (reachedAll : sProp 𝕄) ⊢ reached ER (cell c (csem k)) 0 :=
  bigSep_elim (Finset.mem_univ ((c, k) : Dev nD × CI))

/-- The three layers' duty tokens of one transfer cell. -/
def tokRow (c : Dev nD) (q : DmaSem sig) : sProp 𝕄 := bigSep (Finset.Ico 0 3) fun r => dutyTok ER (cell c (.dma q)) r 0

/-- A device's own cells' positions and tokens, row by row. -/
def ownRows (c : Dev nD) : sProp 𝕄 :=
  iprop((atPos ER (barCell c) 0 ∅ 0 ∗ (bigSep Finset.univ fun j => atPos ER (cell c (.dma (sAg j))) 0 ∅ 0) ∗ (bigSep Finset.univ fun j => atPos ER (cell c (.dma (sRs j))) 0 ∅ 0)
      ∗ (bigSep Finset.univ fun j => atPos ER (cell c (.dma (rAg j))) 0 ∅ 0) ∗ (bigSep Finset.univ fun j => atPos ER (cell c (.dma (rRs j))) 0 ∅ 0))
    ∗ (bigSep (Finset.univ.erase (0 : D)) fun l => dutyTok ER (barCell c) 0 l)
    ∗ (bigSep Finset.univ fun j => tokRow (F := F) c (sAg j)) ∗ (bigSep Finset.univ fun j => tokRow (F := F) c (sRs j))
    ∗ (bigSep Finset.univ fun j => tokRow (F := F) c (rAg j)) ∗ (bigSep Finset.univ fun j => tokRow (F := F) c (rRs j)))

theorem own_rows (c : Dev nD) :
    iprop((bigSep Finset.univ fun k : CI => atPos ER (kcell (c, k)) 0 ∅ 0) ∗ toks (F := F) c) = ownRows c := by
  have h1 : (bigSep Finset.univ fun k : CI => (atPos ER (kcell (c, k)) 0 ∅ 0 : sProp 𝕄))
      = iprop(atPos ER (barCell c) 0 ∅ 0 ∗ (bigSep Finset.univ fun j => atPos ER (cell c (.dma (sAg j))) 0 ∅ 0) ∗ (bigSep Finset.univ fun j => atPos ER (cell c (.dma (sRs j))) 0 ∅ 0)
        ∗ (bigSep Finset.univ fun j => atPos ER (cell c (.dma (rAg j))) 0 ∅ 0) ∗ (bigSep Finset.univ fun j => atPos ER (cell c (.dma (rRs j))) 0 ∅ 0)) :=
    (bigSep_option _).trans (congrArg (fun X : sProp 𝕄 => iprop(atPos ER (barCell c) 0 ∅ 0 ∗ X)) (rowsK (fun q => atPos ER (cell c (.dma q)) 0 ∅ 0)))
  have h2 : (bigSep Finset.univ fun k : KI => bigSep (Finset.Ico 0 3) fun r => (dutyTok ER (cell c (osem k)) r 0 : sProp 𝕄))
      = iprop((bigSep Finset.univ fun j => tokRow (F := F) c (sAg j)) ∗ (bigSep Finset.univ fun j => tokRow (F := F) c (sRs j))
        ∗ (bigSep Finset.univ fun j => tokRow (F := F) c (rAg j)) ∗ (bigSep Finset.univ fun j => tokRow (F := F) c (rRs j))) :=
    rowsK (fun q => tokRow (F := F) c q)
  unfold toks ownRows
  rw [h1, h2]

/-- What stays with device c or comes to it: its positions, and the tokens of the duties it pays. -/
def linear (c : Dev nD) : sProp 𝕄 :=
  iprop((bigSep Finset.univ fun j : Fin 15 => tokRow (F := F) (nxt c j) (rAg j)) ∗ (bigSep Finset.univ fun j : Fin 15 => tokRow (F := F) c (sAg j))
    ∗ (bigSep Finset.univ fun j : Fin 15 => tokRow (F := F) (prv c j) (rRs (Fin.rev j))) ∗ (bigSep Finset.univ fun j : Fin 15 => tokRow (F := F) c (sRs (Fin.rev j)))
    ∗ (bigSep Finset.univ fun j : Fin 15 => atPos ER (cell c (.dma (sAg j))) 0 ∅ 0) ∗ (bigSep Finset.univ fun j : Fin 15 => atPos ER (cell c (.dma (rRs (Fin.rev j)))) 0 ∅ 0)
    ∗ (bigSep Finset.univ fun j : Fin 15 => atPos ER (cell c (.dma (rAg j))) 0 ∅ 0) ∗ (bigSep Finset.univ fun j : Fin 15 => atPos ER (cell c (.dma (sRs (Fin.rev j)))) 0 ∅ 0)
    ∗ atPos ER (barCell c) 0 ∅ 0
    ∗ bigSep (Finset.univ.erase (0 : D)) fun l => dutyTok ER (barCell (fwd c l.val)) 0 l)

theorem deal :
    (bigSep Finset.univ fun c : Dev nD => iprop((bigSep Finset.univ fun k : CI => atPos ER (kcell (c, k)) 0 ∅ 0) ∗ toks (F := F) c))
      ⊢ bigSep Finset.univ fun c : Dev nD => linear (F := F) c := by
  rw [show (fun c : Dev nD => iprop((bigSep Finset.univ fun k : CI => atPos ER (kcell (c, k)) 0 ∅ 0) ∗ toks (F := F) c)) = fun c => ownRows c
    from funext fun c => own_rows c]
  unfold ownRows linear
  simp only [bigSep_sep']
  iintro ⟨⟨HaB, Ha0, Ha1, Ha2, Ha3⟩, HtB, Ht0, Ht1, Ht2, Ht3⟩
  isplitl [Ht2]
  · iapply (Entails.of_eq (route Finset.univ (fun j : Fin 15 => ringE (j.val + 1)) (fun c j => tokRow (F := F) c (rAg j))))
    iexact Ht2
  isplitl [Ht0]; · iexact Ht0
  isplitl [Ht3]
  · iapply (Entails.of_eq (route Finset.univ (fun j : Fin 15 => (ringE (j.val + 1)).symm) (fun c j => tokRow (F := F) c (rRs (Fin.rev j)))))
    iapply (Entails.of_eq (bigSep_congr fun (c : Dev nD) _ => revRow (fun j => tokRow (F := F) c (rRs j))))
    iexact Ht3
  isplitl [Ht1]
  · iapply (Entails.of_eq (bigSep_congr fun (c : Dev nD) _ => revRow (fun j => tokRow (F := F) c (sRs j))))
    iexact Ht1
  isplitl [Ha0]; · iexact Ha0
  isplitl [Ha3]
  · iapply (Entails.of_eq (bigSep_congr fun (c : Dev nD) _ => revRow (fun j => (atPos ER (cell c (.dma (rRs j))) 0 ∅ 0 : sProp 𝕄))))
    iexact Ha3
  isplitl [Ha2]; · iexact Ha2
  isplitl [Ha1]
  · iapply (Entails.of_eq (bigSep_congr fun (c : Dev nD) _ => revRow (fun j => (atPos ER (cell c (.dma (sRs j))) 0 ∅ 0 : sProp 𝕄))))
    iexact Ha1
  isplitl [HaB]; · iexact HaB
  iapply (Entails.of_eq (route (Finset.univ.erase (0 : D)) (fun l : D => ringE l.val) (fun c l => (dutyTok ER (barCell c) 0 l : sProp 𝕄))))
  iexact HtB

/-- The records every device reads: every cell's invariant under the names K, and that round 0 of every cell is reached. -/
def records (K : GSem nD τ sig → ℕ) : sProp 𝕄 := iprop(Invs m K ∗ reachedAll)
instance records_persistent (K : GSem nD τ sig → ℕ) : BI.Persistent (records m K) := by unfold records; infer_instance

/-- What the global step makes of the launch element, per device. -/
def G' (c : Dev nD) : sProp 𝕄 := iprop(∃ K, records m K ∗ linear (F := F) c)

theorem Invs_eq (K : GSem nD τ sig → ℕ) : Invs m K = bigSep ringCells fun g => cellInv ER (sched m) (K g) g := by
  unfold Invs ringCells
  rw [bigSep_map, bigSep_univ_prod]
  exact bigSep_congr fun c _ => by rw [allSems_eq, bigSep_map]; rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (sched m) κ (kcell (c, k))))
          ∗ (bigSep Finset.univ fun k : CI => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CI => iprop(∃ κ : ℕ, cellInv ER (sched m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HI' := (Entails.of_eq (show (bigSep Finset.univ fun ck : Dev nD × CI => iprop(∃ κ : ℕ, cellInv ER (sched m) κ (kcell ck)) : sProp 𝕄)
      = bigSep ringCells fun g => iprop(∃ κ : ℕ, cellInv ER (sched m) κ g) from by unfold ringCells; rw [bigSep_map]; rfl)) $$ HI
  ihave HK := (BI.bigSep_exists_pi ringCells (fun (g : GSem nD τ sig) (κ : ℕ) => (cellInv ER (sched m) κ g : sProp 𝕄))) $$ HI'
  icases HK with ⟨%K, #HI⟩
  ihave Hlin := (deal (F := F)) $$ [Hat Htok]
  · iapply (Entails.of_eq (bigSep_sep' Finset.univ (fun c : Dev nD => bigSep Finset.univ fun k : CI => (atPos ER (kcell (c, k)) 0 ∅ 0 : sProp 𝕄)) (fun c => toks (F := F) c)).symm)
    isplitl [Hat]; · iexact Hat
    iexact Htok
  iapply (bigSep_with_persistent (R := records m K) fun c _ => show iprop(records m K ∗ linear (F := F) c) ⊢ G' m c from by
    unfold G'; iintro ⟨#H1, H3⟩; iexists K; isplitr; · iexact H1
    iexact H3)
  isplitr
  · unfold records
    isplitr
    · rw [Invs_eq]; iexact HI
    · unfold reachedAll; iexact HR
  · iexact Hlin

/-- The global step: own and unscoped semaphores of every device at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the other devices owe a device's cells -/

theorem bigSep_mono' {I : Type} {s : Finset I} {Φ Ψ : I → sProp 𝕄} (h : ∀ i ∈ s, Φ i ⊢ Ψ i) : bigSep s Φ ⊢ bigSep s Ψ :=
  bigSep_mono h

theorem sum_tallyAt_const {α : Type} [DecidableEq α] (s : Finset α) (g : GSem nD τ sig) (ι : ℕ) :
    (∑ _l ∈ s, (tallyAt g ι 1 : CellTallies nD τ sig ℕ)) = tallyAt g ι s.card := by
  induction s using Finset.induction_on with
  | empty => rw [Finset.sum_empty, Finset.card_empty, tallyAt_zero]
  | insert a s ha ih => rw [Finset.sum_insert ha, ih, Finset.card_insert_of_notMem ha, tallyAt_add, Nat.add_comm]

/-- The chunk copies' dues: every device owes the device j+1 places after it, so each is owed by the one j+1 places before. -/
theorem credA (c : Dev nD) (j : Fin 15) :
    (Pipeline.launchCred (fun d => owedA d j 0) c : sProp 𝕄) ⊢ bigSep (Finset.Ico 0 3) fun r => cred (tallyAt (cell c (.dma (rAg j))) r NX) := by
  have h : (fun d : Dev nD => owedA d j 0)
      = fun d => ∑ r ∈ Finset.Ico 0 3, (tallyAt ((((fwd d (j.val + 1) : Dev nD).tc : Thread nD τ)), SemLoc.dma (rAg j)) r NX : CellTallies nD τ sig ℕ) := rfl
  rw [h, Pipeline.launchCred_sum (Finset.Ico 0 3) (fun r d => (tallyAt ((((fwd d (j.val + 1) : Dev nD).tc : Thread nD τ)), SemLoc.dma (rAg j)) r NX : CellTallies nD τ sig ℕ)) c]
  exact bigSep_mono fun r _ => Pipeline.launchCred_tallyAt (.dma (rAg j)) (fun d => fwd d (j.val + 1)) (fun d => bwd d (j.val + 1))
    (fun c => fwd_bwd c _) (fun d => bwd_fwd d _) r NX c

/-- The piece copies' dues: every device owes the device j+1 places before it. -/
theorem credB (c : Dev nD) (j : Fin 15) :
    (Pipeline.launchCred (fun d => owedB d j 0) c : sProp 𝕄) ⊢ bigSep (Finset.Ico 0 3) fun r => cred (tallyAt (cell c (.dma (rRs (Fin.rev j)))) r NX) := by
  have h : (fun d : Dev nD => owedB d j 0)
      = fun d => ∑ r ∈ Finset.Ico 0 3, (tallyAt ((((bwd d (j.val + 1) : Dev nD).tc : Thread nD τ)), SemLoc.dma (rRs (Fin.rev j))) r NX : CellTallies nD τ sig ℕ) := rfl
  rw [h, Pipeline.launchCred_sum (Finset.Ico 0 3) (fun r d => (tallyAt ((((bwd d (j.val + 1) : Dev nD).tc : Thread nD τ)), SemLoc.dma (rRs (Fin.rev j))) r NX : CellTallies nD τ sig ℕ)) c]
  exact bigSep_mono fun r _ => Pipeline.launchCred_tallyAt (.dma (rRs (Fin.rev j))) (fun d => bwd d (j.val + 1)) (fun d => fwd d (j.val + 1))
    (fun c => bwd_fwd c _) (fun d => fwd_bwd d _) r NX c

/-- The barrier signals' dues: fifteen units on every device's barrier cell. -/
theorem credS (c : Dev nD) :
    (Pipeline.launchCred (fun d => owedS d 0) c : sProp 𝕄) ⊢ cred (tallyAt (barCell c) 0 15) := by
  have h : (fun d : Dev nD => owedS d 0)
      = fun d => ∑ l ∈ Finset.Ioc 0 15, (tallyAt ((((fwd d l : Dev nD).tc : Thread nD τ)), SemLoc.reg barS) 0 1 : CellTallies nD τ sig ℕ) := rfl
  rw [h, Pipeline.launchCred_sum (Finset.Ioc 0 15) (fun l d => (tallyAt ((((fwd d l : Dev nD).tc : Thread nD τ)), SemLoc.reg barS) 0 1 : CellTallies nD τ sig ℕ)) c]
  refine (bigSep_mono fun l _ => Pipeline.launchCred_tallyAt (.reg barS) (fun d => fwd d l) (fun d => bwd d l)
    (fun c => fwd_bwd c _) (fun d => bwd_fwd d _) 0 1 c).trans ?_
  rw [← Pipeline.cred_finsetSum, sum_tallyAt_const, show (Finset.Ioc 0 15).card = 15 from by decide]
  exact BI.Entails.refl _

theorem creds (c : Dev nD) :
    (Pipeline.launchCred O₀ c : sProp 𝕄) ⊢ iprop(cred (tallyAt (barCell c) 0 15)
      ∗ (bigSep Finset.univ fun j : Fin 15 => bigSep (Finset.Ico 0 3) fun r => cred (tallyAt (cell c (.dma (rAg j))) r NX))
      ∗ (bigSep Finset.univ fun j : Fin 15 => bigSep (Finset.Ico 0 3) fun r => cred (tallyAt (cell c (.dma (rRs (Fin.rev j)))) r NX))) := by
  have hO : (O₀ : Dev nD → CellTallies nD τ sig ℕ) = fun d => ((∑ j : Fin 15, owedA d j 0) + (∑ j : Fin 15, owedB d j 0)) + owedS d 0 := rfl
  rw [hO, Pipeline.launchCred_add, Pipeline.launchCred_add,
    Pipeline.launchCred_sum Finset.univ (fun (j : Fin 15) d => owedA d j 0) c, Pipeline.launchCred_sum Finset.univ (fun (j : Fin 15) d => owedB d j 0) c]
  iintro ⟨⟨HA, HB⟩, HS⟩
  isplitl [HS]; · iapply (credS (F := F) c); iexact HS
  isplitl [HA]
  · iapply (bigSep_mono' (s := Finset.univ) fun j _ => credA (F := F) c j); iexact HA
  · iapply (bigSep_mono' (s := Finset.univ) fun j _ => credB (F := F) c j); iexact HB

/-! ## The launch theorem's side conditions -/

theorem pers_family {I : Type} [DecidableEq I] (S : Finset I) {R : sProp 𝕄} [BI.Persistent R] {Ψ : I → sProp 𝕄} (h : ∀ i, R ⊢ Ψ i) :
    R ⊢ bigSep S Ψ :=
  (BI.bigSep_of_persistent S R).trans (bigSep_mono fun i _ => h i)

theorem reached_bar (c : Dev nD) : (reachedAll : sProp 𝕄) ⊢ reached ER (barCell c) 0 := reachedAll_at c none
theorem reached_sAg (c : Dev nD) (j : Fin 15) : (reachedAll : sProp 𝕄) ⊢ reached ER (cell c (.dma (sAg j))) 0 := reachedAll_at c (some (j, 0))
theorem reached_sRs (c : Dev nD) (j : Fin 15) : (reachedAll : sProp 𝕄) ⊢ reached ER (cell c (.dma (sRs j))) 0 := reachedAll_at c (some (j, 1))
theorem reached_rAg (c : Dev nD) (j : Fin 15) : (reachedAll : sProp 𝕄) ⊢ reached ER (cell c (.dma (rAg j))) 0 := reachedAll_at c (some (j, 2))
theorem reached_rRs (c : Dev nD) (j : Fin 15) : (reachedAll : sProp 𝕄) ⊢ reached ER (cell c (.dma (rRs j))) 0 := reachedAll_at c (some (j, 3))

/-- A device's ghost state from the records, what was dealt to it, and its launch credit. -/
theorem ghost_intro (K : GSem nD τ sig → ℕ) (c : Dev nD) :
    iprop(records m K ∗ linear (F := F) c
      ∗ (bigSep Finset.univ fun j : Fin 15 => bigSep (Finset.Ico 0 3) fun r => cred (tallyAt (cell c (.dma (rAg j))) r NX))
      ∗ (bigSep Finset.univ fun j : Fin 15 => bigSep (Finset.Ico 0 3) fun r => cred (tallyAt (cell c (.dma (rRs (Fin.rev j)))) r NX)))
      ⊢ ghost m K c := by
  unfold records linear tokRow ghost sndr rcvr
  simp only [bigSep_sep']
  iintro ⟨⟨#HI, #HR⟩, ⟨Ht1, Ht2, Ht3, Ht4, Ha1, Ha2, Ha3, Ha4, HaB, HtB⟩, HcA, HcB⟩
  isplitr; · iexact HI
  isplitl [Ht1 Ht2 HcB Ha1 Ha2]
  · isplitl [Ht1 Ht2 HcB]
    · isplitl [Ht1]; · iexact Ht1
      isplitl [Ht2]; · iexact Ht2
      iexact HcB
    isplitl [Ha1]; · iexact Ha1
    isplitl [Ha2]; · iexact Ha2
    isplitr; · iapply (pers_family Finset.univ fun j : Fin 15 => reached_rAg (F := F) (nxt c j) j); iexact HR
    isplitr; · iapply (pers_family Finset.univ fun j : Fin 15 => reached_sAg (F := F) c j); iexact HR
    iapply (pers_family Finset.univ fun j : Fin 15 => reached_rRs (F := F) c (Fin.rev j)); iexact HR
  isplitl [Ht3 Ht4 HcA Ha3 Ha4]
  · isplitl [Ht3 Ht4 HcA]
    · isplitl [Ht3]; · iexact Ht3
      isplitl [Ht4]; · iexact Ht4
      iexact HcA
    isplitl [Ha3]; · iexact Ha3
    isplitl [Ha4]; · iexact Ha4
    isplitr; · iapply (pers_family Finset.univ fun j : Fin 15 => reached_rAg (F := F) c j); iexact HR
    iapply (pers_family Finset.univ fun j : Fin 15 => reached_sRs (F := F) c (Fin.rev j)); iexact HR
  isplitl [HaB]; · iexact HaB
  isplitl [HtB]; · iexact HtB
  iapply (pers_family (Finset.univ.erase (0 : D)) fun l : D => reached_bar (F := F) (fwd c l.val)); iexact HR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H15, HcA, HcB⟩
  unfold G'
  icases HG with ⟨%K, HR, Hlin⟩
  imodintro
  unfold start
  isplitl
  · isplitl [HR Hlin HcA HcB]
    · iexists K
      iapply (ghost_intro m K c)
      isplitl [HR]; · iexact HR
      isplitl [Hlin]; · iexact Hlin
      isplitl [HcA]; · iexact HcA
      iexact HcB
    isplitl [H15]; · iexact H15
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, H0, H1, H2⟩
  isplitl [Hs]; · iexact Hs
  isplitl [H0]; · iexact H0
  isplitl [H1]; · iexact H1
  iexact H2

theorem ownZero_rows (c : Dev nD) :
    (ownZero (F := F) c : sProp 𝕄) = Pipeline.ownSems0 (Ix := ℕ) (Name := ℕ) (U := UU) (Lvl := ℕ) (Val := Elt F) (τ := τ) osem c := by
  unfold ownZero
  rw [bigSep_sep', bigSep_sep', bigSep_sep']
  exact (rowsK (fun q => (semVal (cell c (.dma q)) 0 : sProp 𝕄))).symm

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq]
  unfold Φ₁ scr
  rw [ownZero_rows]
  iintro ⟨H0, H1, H2, Hz⟩
  isplitr; · iempintro
  isplitl [Hz]; · iexact Hz
  isplitl [H0]; · iexact H0
  isplitl [H1]; · iexact H1
  iexact H2

theorem lv_stage (c : Dev nD) (q : DmaSem sig) (hq : q.val < 8) (r : ℕ) : lv (cell c (.dma q)) r = 0 := by
  have h : classify (.dma q : SemLoc sig) = .other := by
    unfold classify
    simp only []
    rw [dif_neg (by omega), dif_neg (by omega), dif_neg (by omega), dif_neg (by omega)]
  unfold lv
  rw [show (cell c (.dma q)).2 = .dma q from rfl, h]

theorem waits (c : Dev nD) : (levAts L lv : sProp 𝕄) ⊢ Pipeline.cellsWaits cfgs (dats m) (0 : ℕ) 0 c :=
  Pipeline.cellsWaits_intro cfgs (dats m) (0 : ℕ) 0 c fun w s t => by
    have hl : lv (cell c (.dma ((cfg0.win w).sem s))) 0 = 0 := lv_stage c _ (stage_sem_lt w s) 0
    rcases t with ⟨_ | _, ht⟩
    · exact mayWait_of c (fun _ => 0) (fun _ => 0) 0 _ 0 (by omega) (Or.inr (by rw [hl]; omega)) (fun j _ => by rw [hl]; omega) (fun j _ => by rw [hl]; omega)
    · show _ ⊢ MayWait (c : Thread nD τ) _ 0 0
      rw [MayWait_zero]; iintro -; iempintro

theorem share_eq (c : Dev nD) (w : Fin cfg0.W) : (dats m 0 c).share w = fullShare := by unfold Dat.share; split <;> rfl

/-- The result block's array after the one point: what the body left in the staging buffer. -/
theorem arrAt_out (c : Dev nD) : (dats m 0 c).arrAt (7 : Fin 8) cfg0.N = outAt m c := by
  rw [show cfg0.N = (t0_0 : Fin cfg0.N).val + 1 from rfl, (dats m 0 c).arrAt_succ (7 : Fin 8) t0_0, if_pos (flush0_7 t0_0)]
  exact Memref.write_access_unit_zero_univ (Elt F) main_v1 (off := fun a => (cfg0.win 7).index t0_0 a * (cfg0.win 7).size a)
    (by funext a; revert a; decide) _ _ _

/-! ## The run -/

set_option maxRecDepth 8000 in
/-- At the compiled mesh of sixteen devices, for any float values, from any memory with zero counters: given the body's
    obligation on every device, every weakly fair execution of @main terminates, every device's result block ends holding
    the last layer's sum of the sixteen pieces, and its seven argument blocks end as they were. -/
theorem run_main (m : (ℓ : Loc nD τ sig) → Buf (Elt F) ℓ) (ρ : Dev nD → PrngReg)
    (hbody : ∀ c : Dev nD, Pipeline.BodyObligation (dat := dats m 0 c) (defs₀ (F := F)) 𝒱₀ (0 : ℕ) Set.univ) :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun c => (main_chain c).trans rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 7).trans (arrAt_out m c),
      ((h c).1 0).trans ((dats m 0 c).arrAt_in 0 rfl _),
      ((h c).1 1).trans ((dats m 0 c).arrAt_in 1 rfl _),
      ((h c).1 2).trans ((dats m 0 c).arrAt_in 2 rfl _),
      ((h c).1 3).trans ((dats m 0 c).arrAt_in 3 rfl _),
      ((h c).1 4).trans ((dats m 0 c).arrAt_in 4 rfl _),
      ((h c).1 5).trans ((dats m 0 c).arrAt_in 5 rfl _),
      ((h c).1 6).trans ((dats m 0 c).arrAt_in 6 rfl _)⟩)

end Cert.KernelIdeal.Launch

/-- info: 'Cert.KernelIdeal.Launch.run_main' depends on axioms: [propext, Classical.choice, Quot.sound] -/
#guard_msgs in #print axioms Cert.KernelIdeal.Launch.run_main

end
-- ==== Proof.Bits.Vals.lean ====
/-
  What each device computes, as pure functions of the devices' argument blocks.

  One layer of the network on sixteen devices: device e holds a column block of the first weight
  matrix and the matching row block of the second. Every device's current chunk of activations
  (256 rows) is sent to all others; device e multiplies two chunks at a time by its weight blocks,
  `max(X · Win_e, 0) · Wout_e`, a partial product over its share of the hidden units, and returns
  each 256-row piece to the chunk's owner, who adds the sixteen pieces up. Casts between the two
  float formats are kept as the program writes them (they are the identity over the reals).
-/
import proofs.«900978_g7700000000000979_dist_mlpseq_tp1d_bs_bs_b256_d256_h512_v7x_i16_bf16_1_alg».proof.Proof.Gen.Kernel
import proofs.«900978_g7700000000000979_dist_mlpseq_tp1d_bs_bs_b256_d256_h512_v7x_i16_bf16_1_alg».proof.Proof.Gen.Kernel.Skeleton

noncomputable section

namespace Cert.Kernel.Vals

open Idealize.ShloMosaic Cert.Kernel Cert.Kernel.Gen

variable {F : FTy → Type} [FloatOps F]

/-! ## The ring of devices -/

/-- The device k places after c on the ring of sixteen. -/
def fwd (c : Dev nD) (k : ℕ) : Dev nD := ⟨(c.val + k) % 16, Nat.mod_lt _ (by decide)⟩
/-- The device k places before c. -/
def bwd (c : Dev nD) (k : ℕ) : Dev nD := ⟨(c.val + (16 - k % 16)) % 16, Nat.mod_lt _ (by decide)⟩

/-! ## One device's arithmetic -/

/-- A chunk of activations rounded to the narrow format. -/
def toB (x : Vec F S256x256 .f32) : FVec F S256x256 .bf16 := k0_pay1 x
/-- The two weight blocks rounded to the narrow format. -/
def wiB (w : Vec F S256x512 .f32) : FVec F S256x512 .bf16 := k0_pay2 w
def woB (w : Vec F S512x256 .f32) : FVec F S512x256 .bf16 := k0_pay3 w
/-- The hidden layer of two stacked chunks: max(xg · wi, 0). -/
def hid (wi : FVec F S256x512 .bf16) (xg : Vec F S512x256 .bf16) : FVec F S512x512 .f32 := k0_pay7 wi xg
/-- The partial product of two stacked chunks over this device's hidden units. -/
def pg (wi : FVec F S256x512 .bf16) (wo : FVec F S512x256 .bf16) (xg : Vec F S512x256 .bf16) : FVec F S512x256 .f32 :=
  k0_pay8 wo (hid wi xg)
/-- Rows 0..255 of a partial product, kept wide (the device's own piece). -/
def loF (p : FVec F S512x256 .f32) : FVec F S256x256 .f32 := k0_pay5 p
/-- Rows 0..255 of a partial product, narrow. -/
def loB (p : FVec F S512x256 .f32) : FVec F S256x256 .bf16 :=
  shapeCast S256x256 (truncf .bf16 (extractStridedSlice S256x256 ![0, 0] p slices_S512x256_o0_0_S256x256) bitsLt_bf16_f32) shapeCasts_S256x256_S256x256
/-- Rows 256..511 of a partial product, narrow. -/
def hiB (p : FVec F S512x256 .f32) : FVec F S256x256 .bf16 := k0_pay13 p
/-- One more received piece added to the running sum. -/
def accS (a : FVec F S256x256 .f32) (r : Vec F S1x256x256 .bf16) : FVec F S256x256 .f32 := k0_pay31 a r
/-- The last piece added and the sum rounded: the next layer's chunk. -/
def accB (a : FVec F S256x256 .f32) (r : Vec F S1x256x256 .bf16) : FVec F S256x256 .bf16 := k0_pay42 a r

/-- Two chunks stacked: rows 0..255 from a, rows 256..511 from b. -/
def cat (a b : Vec F S256x256 .bf16) : Vec F S512x256 .bf16 := fun i =>
  if h : (i 0).val < 256 then a (fun d => match d with | 0 => ⟨(i 0).val, h⟩ | 1 => i 1)
  else b (fun d => match d with | 0 => ⟨(i 0).val - 256, by have h2 : (i 0).val < 512 := (i 0).isLt; show (i 0).val - 256 < 256; omega⟩ | 1 => i 1)

/-- A received piece as the three-axis vector the program loads it as. -/
def lift3 (p : Vec F S256x256 .bf16) : Vec F S1x256x256 .bf16 := fun i => p (fun d => match d with | 0 => i 1 | 1 => i 2)

/-! ## The devices' argument blocks, read off a memory -/

section Args
variable (m : (ℓ : Loc nD τ sig) → Buf (Elt F) ℓ)

/-- Device c's block of the input activations. -/
def argX (c : Dev nD) : Vec F S256x256 .f32 := m ((c.tc : Thread nD τ).loc main_arg0)
/-- Device c's column block of layer r's first weight matrix (r = 0, 1, 2). -/
def argWi (r : ℕ) (c : Dev nD) : Vec F S256x512 .f32 :=
  match r with
  | 0 => m ((c.tc : Thread nD τ).loc main_arg1)
  | 1 => m ((c.tc : Thread nD τ).loc main_arg3)
  | _ => m ((c.tc : Thread nD τ).loc main_arg5)
/-- Device c's row block of layer r's second weight matrix. -/
def argWo (r : ℕ) (c : Dev nD) : Vec F S512x256 .f32 :=
  match r with
  | 0 => m ((c.tc : Thread nD τ).loc main_arg2)
  | 1 => m ((c.tc : Thread nD τ).loc main_arg4)
  | _ => m ((c.tc : Thread nD τ).loc main_arg6)

end Args

/-! ## All devices, layer by layer -/

section Global

variable (xin : Dev nD → Vec F S256x256 .f32) (wi : ℕ → Dev nD → Vec F S256x512 .f32) (wo : ℕ → Dev nD → Vec F S512x256 .f32)

/-- Device e's partial product, at layer r over the chunks `X`, of the chunks of the two devices 2g and 2g+1 places before it. -/
def prodOf (X : Dev nD → Vec F S256x256 .bf16) (r : ℕ) (e : Dev nD) (g : ℕ) : FVec F S512x256 .f32 :=
  pg (wiB (wi r e)) (woB (wo r e)) (cat (X (bwd e (2 * g))) (X (bwd e (2 * g + 1))))

/-- The piece device e returns to the device k places before it (1 ≤ k ≤ 15). -/
def pieceOf (X : Dev nD → Vec F S256x256 .bf16) (r : ℕ) (e : Dev nD) (k : ℕ) : Vec F S256x256 .bf16 :=
  if k % 2 = 0 then loB (prodOf wi wo X r e (k / 2)) else hiB (prodOf wi wo X r e (k / 2))

/-- Device c's running sum after the pieces of the devices 1..n places after it (n ≤ 14). -/
def accOf (X : Dev nD → Vec F S256x256 .bf16) (r : ℕ) (c : Dev nD) : ℕ → FVec F S256x256 .f32
  | 0 => loF (prodOf wi wo X r c 0)
  | n + 1 => accS (accOf X r c n) (lift3 (pieceOf wi wo X r (fwd c (n + 1)) (n + 1)))

/-- Every device's chunk at the start of layer r. -/
def chunk : ℕ → Dev nD → Vec F S256x256 .bf16
  | 0 => fun c => toB (xin c)
  | r + 1 => fun c => accB (accOf wi wo (chunk r) r c 14) (lift3 (pieceOf wi wo (chunk r) r (fwd c 15) 15))

/-- Device e's partial product at layer r. -/
def prod (r : ℕ) (e : Dev nD) (g : ℕ) : FVec F S512x256 .f32 := prodOf wi wo (chunk xin wi wo r) r e g
/-- The piece device e returns at layer r to the device k places before it. -/
def piece (r : ℕ) (e : Dev nD) (k : ℕ) : Vec F S256x256 .bf16 := pieceOf wi wo (chunk xin wi wo r) r e k
/-- Device c's running sum at layer r after n received pieces. -/
def accTo (r : ℕ) (c : Dev nD) (n : ℕ) : FVec F S256x256 .f32 := accOf wi wo (chunk xin wi wo r) r c n
/-- Device c's result: the last layer's sum of all sixteen pieces, kept wide. -/
def result (c : Dev nD) : FVec F S256x256 .f32 := accS (accTo xin wi wo 2 c 14) (lift3 (piece xin wi wo 2 (fwd c 15) 15))

end Global

end Cert.Kernel.Vals

end
-- ==== Proof.Bits.Cells.lean ====
/-
  The kernel's buffers, their sixteen row slots, and its semaphores, named once for every index.

  Each device has three scratch buffers: X (sixteen slots of 256 rows: slot 0 its own chunk of
  activations, slot k the chunk of the device k places before it), P (sixteen slots: slot k the piece
  it returns to the device k places before it) and R (fifteen slots: slot 15 - k the piece it receives
  from the device k places after it); four rows of fifteen transfer semaphores (send and receive sides
  of the chunk copies and of the piece copies), and the barrier semaphore.
-/
import proofs.«900978_g7700000000000979_dist_mlpseq_tp1d_bs_bs_b256_d256_h512_v7x_i16_bf16_1_alg».proof.Proof.Bits.Vals
import proofs.«900978_g7700000000000979_dist_mlpseq_tp1d_bs_bs_b256_d256_h512_v7x_i16_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Cells

open Cert.Kernel Cert.Kernel.Gen Cert.Kernel.Vals
open Idealize.ShloMosaic
open Idealize.ShloMosaic.TcCoe

/-! ## Buffers and slots -/

abbrev XM : Memref sig .tc .vmem S4096x256 .bf16 := Memref.whole cc0_scratch0
abbrev PM : Memref sig .tc .vmem S4096x256 .bf16 := Memref.whole cc0_scratch1
abbrev RM : Memref sig .tc .vmem S15x256x256 .bf16 := Memref.whole cc0_scratch2

theorem inbRow (k : Fin 16) : ∀ a, (![256 * k.val, 0] : Fin 2 → Nat) a + S256x256.size a ≤ S4096x256.size a := by
  revert k; decide
theorem inbR (j : Fin 15) : ∀ a, (![j.val, 0, 0] : Fin 3 → Nat) a + S1x256x256.size a ≤ S15x256x256.size a := by
  revert j; decide
theorem inbS (j : Fin 15) : ∀ a, (![j.val] : Fin 1 → Nat) a + S1.size a ≤ S15.size a := by
  revert j; decide

/-- Slot k of X: rows 256k .. 256k+255. -/
def xslot (k : Fin 16) : Memref sig .tc .vmem S256x256 .bf16 :=
  XM.slice (Rect.unit (s := S4096x256) ![256 * k.val, 0] S256x256.size (inbRow k)) (fun _ => rfl)
/-- Slot k of P. -/
def pslot (k : Fin 16) : Memref sig .tc .vmem S256x256 .bf16 :=
  PM.slice (Rect.unit (s := S4096x256) ![256 * k.val, 0] S256x256.size (inbRow k)) (fun _ => rfl)
/-- Slot j of R, as the three-axis window the program loads through. -/
def rslot3 (j : Fin 15) : Memref sig .tc .vmem S1x256x256 .bf16 :=
  RM.slice (Rect.unit (s := S15x256x256) ![j.val, 0, 0] S1x256x256.size (inbR j)) (fun _ => rfl)
/-- Slot j of R, as the two-axis window the copies address. -/
def rslot (j : Fin 15) : Memref sig .tc .vmem S256x256 .bf16 := (rslot3 j).squeeze S256x256 squeezes_S1x256x256_S256x256

/-! ## Semaphores -/

/-- The barrier semaphore. -/
abbrev barS : Sem sig := (SemArray.scalar (sig.barrier 0 rfl) : Sems sig S_).sem
def semOf (A : DmaSems sig S15) (j : Fin 15) : DmaSem sig :=
  ((A.slice (Rect.unit (s := S15) ![j.val] S1.size (inbS j))).squeeze S_ squeezes_S1_S_).sem
/-- Send side of chunk copy j+1; send side of the piece copy landing in R slot j; and the two receive sides. -/
def sAg (j : Fin 15) : DmaSem sig := semOf cc0_scratch3 j
def sRs (j : Fin 15) : DmaSem sig := semOf cc0_scratch4 j
def rAg (j : Fin 15) : DmaSem sig := semOf cc0_scratch5 j
def rRs (j : Fin 15) : DmaSem sig := semOf cc0_scratch6 j

theorem sAg_val (j : Fin 15) : (sAg j).val = 8 + j.val := by revert j; decide
theorem sRs_val (j : Fin 15) : (sRs j).val = 23 + j.val := by revert j; decide
theorem rAg_val (j : Fin 15) : (rAg j).val = 38 + j.val := by revert j; decide
theorem rRs_val (j : Fin 15) : (rRs j).val = 53 + j.val := by revert j; decide

/-- A device's semaphore as a cell. -/
abbrev cell (c : Dev nD) (s : SemLoc sig) : GSem nD τ sig := ((c : Thread nD τ), s)
abbrev barCell (c : Dev nD) : GSem nD τ sig := cell c (.reg barS)

/-- The credit of one 256-row slot copy. -/
def NX : ℕ := (xslot 1).view.dmaCredit
theorem NX_pos : 0 < NX := by unfold NX; exact View.dmaCredit_pos _ (by decide)

end Cert.Kernel.Cells

end
-- ==== Proof.Bits.Sched.lean ====
/-
  The protocol as a schedule of rounds.

  Every transfer semaphore is used once per layer: round r of a cell is layer r, with one duty, paid
  by the one copy that credits it. The barrier semaphore has one round of fifteen unit duties, duty l
  paid by the device l places before the owner. What each landing hands the waiting device:
   * a chunk copy landing in slot k of X on device e (sent by the device k places before e) hands e that
     slot holding the sender's chunk of the layer, and the sender's slot of R in which e will return its
     piece, with the fact that the sender has consumed the earlier rounds of that slot's semaphore;
   * a piece copy landing in slot 15-k of R on device c (sent by the device k places after c) hands c the
     slot holding the piece, and, while another layer follows, the sender's slot k of X again, in which c
     will place its next chunk;
   * the send side of a chunk copy returns the lent share of the sender's slot 0, the send side of a
     piece copy the sender's slot of P;
   * barrier duty l hands over the payer's slot 16-l of X, where the owner's first chunk copy lands.
-/
import proofs.«900978_g7700000000000979_dist_mlpseq_tp1d_bs_bs_b256_d256_h512_v7x_i16_bf16_1_alg».proof.Proof.Bits.Cells

noncomputable section

namespace Cert.Kernel.Sched

open Cert.Kernel Cert.Kernel.Gen Cert.Kernel.Vals Cert.Kernel.Cells
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Duty names: a barrier cell's fifteen duties are 1..15 (how many places back the payer sits); every other cell's one duty is 0. -/
abbrev D : Type := Fin 16
abbrev UB : Type := URounds (GSem nD τ sig) D
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ)

/-! ## Contents -/

/-- Device c's chunk at the start of layer r; the piece device e returns at layer r to the device k places before it. -/
abbrev chunkAt (r : ℕ) (c : Dev nD) : Vec F S256x256 .bf16 := Vals.chunk (argX m) (argWi m) (argWo m) r c
abbrev pieceAt (r : ℕ) (e : Dev nD) (k : ℕ) : Vec F S256x256 .bf16 := Vals.piece (argX m) (argWi m) (argWo m) r e k

/-- The first entry's index. -/
def idx00 : S256x256.Idx := fun a => ⟨0, by revert a; decide⟩

/-- A slot's window of a buffer holding v: the buffer's other entries are of no account (a fixed entry of v). -/
def xfill (c : Dev nD) (k : Fin 16) (v : Vec F S256x256 .bf16) : Buf (Elt F) ((xslot k).view.loc (c : Thread nD τ)) :=
  (xslot k).view.write (Elt F) (fun _ => v idx00) v Finset.univ
def pfill (c : Dev nD) (k : Fin 16) (v : Vec F S256x256 .bf16) : Buf (Elt F) ((pslot k).view.loc (c : Thread nD τ)) :=
  (pslot k).view.write (Elt F) (fun _ => v idx00) v Finset.univ
def rfill (c : Dev nD) (j : Fin 15) (v : Vec F S256x256 .bf16) : Buf (Elt F) ((rslot j).view.loc (c : Thread nD τ)) :=
  (rslot j).view.write (Elt F) (fun _ => v idx00) v Finset.univ

/-- A device holding slot k of X on device c, at share q, with contents f. -/
def xPts (c : Dev nD) (k : Fin 16) (q : PosShare TreeShare) (f : Buf (Elt F) ((xslot k).view.loc (c : Thread nD τ))) : sProp 𝕄 :=
  (xslot k).view.loc (c : Thread nD τ) ↦[(xslot k).view.set]{q} f
def pPts (c : Dev nD) (k : Fin 16) (f : Buf (Elt F) ((pslot k).view.loc (c : Thread nD τ))) : sProp 𝕄 :=
  (pslot k).view.loc (c : Thread nD τ) ↦[(pslot k).view.set]{fullShare} f
def rPts (c : Dev nD) (j : Fin 15) (f : Buf (Elt F) ((rslot j).view.loc (c : Thread nD τ))) : sProp 𝕄 :=
  (rslot j).view.loc (c : Thread nD τ) ↦[(rslot j).view.set]{fullShare} f

/-! ## Shares of slot 0: each chunk copy borrows half of what is left -/

def keepSh : ℕ → PosShare TreeShare
  | 0 => fullShare
  | n + 1 => (keepSh n).left
/-- The share chunk copy j+1 borrows. -/
def lentSh (j : ℕ) : PosShare TreeShare := (keepSh j).right

/-! ## Index arithmetic -/

/-- Copy index k = j + 1 of semaphore index j. -/
def kOf (j : Fin 15) : Fin 16 := ⟨j.val + 1, by omega⟩
/-- Barrier duty l: the payer's slot 16 - l of X and semaphore index 15 - l. -/
def kBar (l : D) : Fin 16 := ⟨(16 - l.val) % 16, Nat.mod_lt _ (by decide)⟩
def jBar (l : D) : Fin 15 := ⟨(15 - l.val) % 15, Nat.mod_lt _ (by decide)⟩

/-! ## Which semaphore a cell is -/

inductive Cls
  | bar | agS (j : Fin 15) | rsS (j : Fin 15) | agR (j : Fin 15) | rsR (j : Fin 15) | other

def classify : SemLoc sig → Cls
  | .reg q => if q = barS then .bar else .other
  | .dma q =>
    if h : 8 ≤ q.val ∧ q.val < 23 then .agS ⟨q.val - 8, by omega⟩
    else if h : 23 ≤ q.val ∧ q.val < 38 then .rsS ⟨q.val - 23, by omega⟩
    else if h : 38 ≤ q.val ∧ q.val < 53 then .agR ⟨q.val - 38, by omega⟩
    else if h : 53 ≤ q.val ∧ q.val < 68 then .rsR ⟨q.val - 53, by omega⟩
    else .other

/-! ## Payloads -/

/-- Barrier duty l of device e, paid by p = the device l places before e. -/
def barPay (e : Dev nD) (l : D) : sProp 𝕄 :=
  iprop((∃ f, xPts (bwd e l.val) (kBar l) fullShare f) ∗ reached ER (cell (bwd e l.val) (.dma (rAg (jBar l)))) 0)
/-- Receive side of chunk copy j+1 on device e, round r; the sender is the device j+1 places before e. -/
def agRPay (e : Dev nD) (j : Fin 15) (r : ℕ) : sProp 𝕄 :=
  iprop(xPts e (kOf j) fullShare (xfill e (kOf j) (chunkAt m r (bwd e (j.val + 1))))
    ∗ (∃ f, rPts (bwd e (j.val + 1)) (Fin.rev j) f) ∗ reached ER (cell (bwd e (j.val + 1)) (.dma (rRs (Fin.rev j)))) r)
/-- Send side of chunk copy j+1 on device c: the lent share of its slot 0 back. -/
def agSPay (c : Dev nD) (j : Fin 15) (r : ℕ) : sProp 𝕄 :=
  xPts c 0 (lentSh j.val) (xfill c 0 (chunkAt m r c))
/-- Receive side of the piece copy landing in R slot j of device c, round r: copy index k = 15 - j, sent by the device k places after c. -/
def rsRPay (c : Dev nD) (j : Fin 15) (r : ℕ) : sProp 𝕄 :=
  iprop(rPts c j (rfill c j (pieceAt m r (fwd c (15 - j.val)) (15 - j.val)))
    ∗ (if r < 2 then iprop((∃ f, xPts (fwd c (15 - j.val)) (kOf (Fin.rev j)) fullShare f) ∗ reached ER (cell (fwd c (15 - j.val)) (.dma (rAg (Fin.rev j)))) (r + 1)) else iprop(emp)))
/-- Send side of the piece copy out of P slot k = 15 - j of device c: the slot back. -/
def rsSPay (c : Dev nD) (j : Fin 15) (r : ℕ) : sProp 𝕄 :=
  pPts c (kOf (Fin.rev j)) (pfill c (kOf (Fin.rev j)) (pieceAt m r c (15 - j.val)))

/-! ## The schedule -/

def sched : Rounds.Schedule (GSem nD τ sig) D 𝕄 where
  duties g r :=
    if g.1.2 = .tc then
      match classify g.2 with
      | .bar => if r = 0 then Finset.univ.erase 0 else ∅
      | .other => ∅
      | _ => if r < 3 then {0} else ∅
    else ∅
  amount g _ _ := match classify g.2 with
    | .bar => 1
    | _ => NX
  payload g r d := match classify g.2 with
    | .bar => barPay g.1.1 d
    | .agS j => agSPay m g.1.1 j r
    | .rsS j => rsSPay m g.1.1 j r
    | .agR j => agRPay m g.1.1 j r
    | .rsR j => rsRPay m g.1.1 j r
    | .other => iprop(emp)
  amount_pos g _ _ _ := by
    cases classify g.2 <;> first | exact Nat.one_pos | exact NX_pos

end Cert.Kernel.Sched

end
-- ==== Proof.Bits.State.lean ====
/-
  A device's share of the protocol, between two of its steps.

  For each copy index k = j + 1 the device plays two parts. As SENDER of chunk copy k it addresses the
  device k places after it and later receives that device's piece; as RECEIVER of chunk copy k it hears
  from the device k places before it and returns a piece to it. What it still owes other devices'
  cells is counted by how many chunk copies (a j) and piece copies (b j) of each index it has issued and
  how many barrier signals (s). Levels order the waits: barrier, then per layer r the chunk receive
  (4r+2), chunk send (4r+3), piece receive (4r+4), piece send (4r+5) sides; a wait is allowed when
  everything still owed lies above it.
-/
import proofs.«900978_g7700000000000979_dist_mlpseq_tp1d_bs_bs_b256_d256_h512_v7x_i16_bf16_1_alg».proof.Proof.Bits.Sched

noncomputable section

namespace Cert.Kernel.State

open Cert.Kernel Cert.Kernel.Gen Cert.Kernel.Vals Cert.Kernel.Cells Cert.Kernel.Sched
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Levels -/

/-- The tally indices in use on a TensorCore's cells: the three layers. -/
def L (g : GSem nD τ sig) : Finset ℕ := if g.1.2 = .tc then {0, 1, 2} else ∅
/-- A cell's level at layer r. -/
def lv (g : GSem nD τ sig) (r : ℕ) : ℕ :=
  match classify g.2 with
  | .bar => 1
  | .agR _ => 4 * r + 2
  | .agS _ => 4 * r + 3
  | .rsR _ => 4 * r + 4
  | .rsS _ => 4 * r + 5
  | .other => 0

theorem L_of_ne (g : GSem nD τ sig) (h : g.1.2 ≠ .tc) : L g = ∅ := if_neg h
theorem L_tc (c : Dev nD) (sm : SemLoc sig) : L ((c : Thread nD τ), sm) = {0, 1, 2} := if_pos rfl

/-! ## What a device still owes -/

/-- Peers: the device copy j+1 is sent to, and the one it comes from. -/
abbrev nxt (c : Dev nD) (j : Fin 15) : Dev nD := fwd c (j.val + 1)
abbrev prv (c : Dev nD) (j : Fin 15) : Dev nD := bwd c (j.val + 1)

/-- Chunk copies j+1 of layers n, n+1, …, 2 still to issue: their credit on the next device's receive cell. -/
def owedA (c : Dev nD) (j : Fin 15) (n : ℕ) : CellTallies nD τ sig ℕ :=
  ∑ r ∈ Finset.Ico n 3, tallyAt (cell (nxt c j) (.dma (rAg j))) r NX
/-- Piece copies j+1 of layers n, … still to issue: their credit on the previous device's receive cell of R slot 14 - j. -/
def owedB (c : Dev nD) (j : Fin 15) (n : ℕ) : CellTallies nD τ sig ℕ :=
  ∑ r ∈ Finset.Ico n 3, tallyAt (cell (prv c j) (.dma (rRs (Fin.rev j)))) r NX
/-- Barrier signals s+1, …, 15 still to send. -/
def owedS (c : Dev nD) (s : ℕ) : CellTallies nD τ sig ℕ :=
  ∑ l ∈ Finset.Ioc s 15, tallyAt (barCell (fwd c l)) 0 1
/-- Everything device c owes after a j chunk copies and b j piece copies of each index and s signals. -/
def Otot (c : Dev nD) (a b : Fin 15 → ℕ) (s : ℕ) : CellTallies nD τ sig ℕ :=
  (∑ j, owedA c j (a j)) + (∑ j, owedB c j (b j)) + owedS c s

/-- The layers from r on are layer r and the layers from r + 1 on. -/
theorem Ico_layers (r : ℕ) (hr : r < 3) : Finset.Ico r 3 = insert r (Finset.Ico (r + 1) 3) := by
  ext x; simp only [Finset.mem_Ico, Finset.mem_insert]; omega
theorem Ioc_signals (s : ℕ) (hs : s < 15) : Finset.Ioc s 15 = insert (s + 1) (Finset.Ioc (s + 1) 15) := by
  ext x; simp only [Finset.mem_Ioc, Finset.mem_insert]; omega

theorem owedA_step (c : Dev nD) (j : Fin 15) (r : ℕ) (hr : r < 3) :
    owedA c j r = owedA c j (r + 1) + tallyAt (cell (nxt c j) (.dma (rAg j))) r NX := by
  unfold owedA
  rw [Ico_layers r hr, Finset.sum_insert (by simp only [Finset.mem_Ico]; omega), add_comm]
theorem owedB_step (c : Dev nD) (j : Fin 15) (r : ℕ) (hr : r < 3) :
    owedB c j r = owedB c j (r + 1) + tallyAt (cell (prv c j) (.dma (rRs (Fin.rev j)))) r NX := by
  unfold owedB
  rw [Ico_layers r hr, Finset.sum_insert (by simp only [Finset.mem_Ico]; omega), add_comm]
theorem owedS_step (c : Dev nD) (s : ℕ) (hs : s < 15) :
    owedS c s = owedS c (s + 1) + tallyAt (barCell (fwd c (s + 1))) 0 1 := by
  unfold owedS
  rw [Ioc_signals s hs, Finset.sum_insert (by simp only [Finset.mem_Ioc]; omega), add_comm]

/-- Advancing one index's count changes that index's summand only. -/
theorem sum_update_step {M : Type} [AddCommMonoid M] (f : Fin 15 → ℕ → M) (a : Fin 15 → ℕ) (j : Fin 15) (n : ℕ) (t : M)
    (h : f j (a j) = f j n + t) :
    (∑ i, f i (a i)) = (∑ i, f i (Function.update a j n i)) + t := by
  rw [← Finset.add_sum_erase Finset.univ (fun i => f i (a i)) (Finset.mem_univ j),
    ← Finset.add_sum_erase Finset.univ (fun i => f i (Function.update a j n i)) (Finset.mem_univ j),
    Finset.sum_congr rfl fun i hi => show f i (Function.update a j n i) = f i (a i) by
      rw [Function.update_of_ne (Finset.ne_of_mem_erase hi)]]
  rw [Function.update_self, h, add_assoc, add_assoc, add_comm t]

/-! ## The cells' invariants, all of them, under names K -/

/-- Every device's sixty-one cells. -/
def allSems : Finset (SemLoc sig) :=
  insert (.reg barS) ((Finset.univ.image fun j : Fin 15 => SemLoc.dma (sAg j)) ∪ (Finset.univ.image fun j : Fin 15 => SemLoc.dma (sRs j))
    ∪ (Finset.univ.image fun j : Fin 15 => SemLoc.dma (rAg j)) ∪ (Finset.univ.image fun j : Fin 15 => SemLoc.dma (rRs j)))

def Invs (K : GSem nD τ sig → ℕ) : sProp 𝕄 :=
  bigSep (Finset.univ (α := Dev nD)) fun c => bigSep allSems fun s => cellInv ER (sched m) (K (cell c s)) (cell c s)

instance Invs_persistent (K : GSem nD τ sig → ℕ) : BI.Persistent (Invs m K) := by unfold Invs; infer_instance

theorem Invs_at (K : GSem nD τ sig → ℕ) (c : Dev nD) (s : SemLoc sig) (hs : s ∈ allSems) :
    Invs m K ⊢ cellInv ER (sched m) (K (cell c s)) (cell c s) := by
  unfold Invs
  exact (BI.bigSep_elim (Finset.mem_univ c)).trans (BI.bigSep_elim hs)

theorem mem_allSems_bar : SemLoc.reg barS ∈ (allSems : Finset (SemLoc sig)) := by
  unfold allSems; exact Finset.mem_insert_self _ _
theorem mem_allSems_sAg (j : Fin 15) : SemLoc.dma (sAg j) ∈ allSems := by
  unfold allSems
  refine Finset.mem_insert_of_mem (Finset.mem_union_left _ (Finset.mem_union_left _ (Finset.mem_union_left _ ?_)))
  exact Finset.mem_image_of_mem _ (Finset.mem_univ j)
theorem mem_allSems_sRs (j : Fin 15) : SemLoc.dma (sRs j) ∈ allSems := by
  unfold allSems
  refine Finset.mem_insert_of_mem (Finset.mem_union_left _ (Finset.mem_union_left _ (Finset.mem_union_right _ ?_)))
  exact Finset.mem_image_of_mem _ (Finset.mem_univ j)
theorem mem_allSems_rAg (j : Fin 15) : SemLoc.dma (rAg j) ∈ allSems := by
  unfold allSems
  refine Finset.mem_insert_of_mem (Finset.mem_union_left _ (Finset.mem_union_right _ ?_))
  exact Finset.mem_image_of_mem _ (Finset.mem_univ j)
theorem mem_allSems_rRs (j : Fin 15) : SemLoc.dma (rRs j) ∈ allSems := by
  unfold allSems
  refine Finset.mem_insert_of_mem (Finset.mem_union_right _ ?_)
  exact Finset.mem_image_of_mem _ (Finset.mem_univ j)

/-! ## A sender's and a receiver's ghost state -/

/-- Sender of chunk copy j+1, before issuing layer r's (r ≤ 3): the tokens of the copies to come (the next device's
    receive duty, its own send duty), the credit for the pieces to come, its positions, and that the next device
    has consumed the earlier rounds of its receive cell. -/
def sndr (c : Dev nD) (j : Fin 15) (r : ℕ) : sProp 𝕄 :=
  iprop((bigSep (Finset.Ico r 3) fun r' => iprop(dutyTok ER (cell (nxt c j) (.dma (rAg j))) r' 0 ∗ dutyTok ER (cell c (.dma (sAg j))) r' 0
        ∗ cred (tallyAt (cell c (.dma (rRs (Fin.rev j)))) r' NX)))
    ∗ atPos ER (cell c (.dma (sAg j))) r ∅ 0 ∗ atPos ER (cell c (.dma (rRs (Fin.rev j)))) r ∅ 0
    ∗ reached ER (cell (nxt c j) (.dma (rAg j))) r ∗ reached ER (cell c (.dma (sAg j))) r ∗ reached ER (cell c (.dma (rRs (Fin.rev j)))) r)

/-- Receiver of chunk copy j+1, before waiting for layer r's (r ≤ 3). -/
def rcvr (c : Dev nD) (j : Fin 15) (r : ℕ) : sProp 𝕄 :=
  iprop((bigSep (Finset.Ico r 3) fun r' => iprop(dutyTok ER (cell (prv c j) (.dma (rRs (Fin.rev j)))) r' 0 ∗ dutyTok ER (cell c (.dma (sRs (Fin.rev j)))) r' 0
        ∗ cred (tallyAt (cell c (.dma (rAg j))) r' NX)))
    ∗ atPos ER (cell c (.dma (rAg j))) r ∅ 0 ∗ atPos ER (cell c (.dma (sRs (Fin.rev j)))) r ∅ 0
    ∗ reached ER (cell c (.dma (rAg j))) r ∗ reached ER (cell c (.dma (sRs (Fin.rev j)))) r)

end Cert.Kernel.State

end
-- ==== Proof.Bits.Dats.lean ====
/-
  The proof data of the one grid point, per device: what a device starts its body from, what it ends
  with, and what it owes at either end.

  It starts with every cell's invariant, its sender's and receiver's ghost state of every copy index at
  layer 0, its barrier position and the tokens of the fifteen signals it sends, the credit for its own
  barrier's fifteen units, the levels, and its three scratch buffers with whatever they hold; it owes
  every copy and signal it will issue. It ends owing nothing, with the scratch buffers again and its
  sixty transfer semaphores closed at zero. The seven argument blocks end as they were; the result
  block ends holding the last layer's sum of the sixteen pieces.
-/
import proofs.«900978_g7700000000000979_dist_mlpseq_tp1d_bs_bs_b256_d256_h512_v7x_i16_bf16_1_alg».proof.Proof.Bits.State
import proofs.«900978_g7700000000000979_dist_mlpseq_tp1d_bs_bs_b256_d256_h512_v7x_i16_bf16_1_alg».proof.Proof.Gen.Kernel.Frame

noncomputable section

namespace Cert.Kernel.Dats

open Cert.Kernel Cert.Kernel.Gen Cert.Kernel.Vals Cert.Kernel.Cells Cert.Kernel.Sched Cert.Kernel.State
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-- What device c owes when its body starts: everything. -/
def O₀ (c : Dev nD) : CellTallies nD τ sig ℕ := Otot c (fun _ => 0) (fun _ => 0) 0

/-- The ghost state device c starts from, under the invariants' names K. -/
def ghost (K : GSem nD τ sig → ℕ) (c : Dev nD) : sProp 𝕄 :=
  iprop(Invs m K
    ∗ (bigSep Finset.univ fun j : Fin 15 => sndr (F := F) c j 0) ∗ (bigSep Finset.univ fun j : Fin 15 => rcvr (F := F) c j 0)
    ∗ atPos ER (barCell c) 0 ∅ 0
    ∗ (bigSep (Finset.univ.erase (0 : D)) fun l => iprop(dutyTok ER (barCell (fwd c l.val)) 0 l ∗ reached ER (barCell (fwd c l.val)) 0)))

/-- With the credit for its own barrier's fifteen units and the levels. -/
def start (c : Dev nD) : sProp 𝕄 :=
  iprop((∃ K, ghost m K c) ∗ cred (tallyAt (barCell c) 0 15) ∗ levAts L lv)

/-- A whole scratch buffer with some contents. -/
def scr (c : Dev nD) (b : Ref sig .tc) : sProp 𝕄 := iprop(∃ f : Buf (Elt F) ((c : Thread nD τ).loc b), ((c : Thread nD τ).loc b) ↦{fullShare} f)

/-- The device's own sixty transfer semaphores, at zero. -/
def ownZero (c : Dev nD) : sProp 𝕄 :=
  bigSep Finset.univ fun j : Fin 15 => iprop(semVal (cell c (.dma (sAg j))) 0 ∗ semVal (cell c (.dma (sRs j))) 0 ∗ semVal (cell c (.dma (rAg j))) 0 ∗ semVal (cell c (.dma (rRs j))) 0)

def Φ₀ (c : Dev nD) : sProp 𝕄 := iprop(start m c ∗ scr (F := F) c cc0_scratch0 ∗ scr (F := F) c cc0_scratch1 ∗ scr (F := F) c cc0_scratch2)
def Φ₁ (c : Dev nD) : sProp 𝕄 := iprop(scr (F := F) c cc0_scratch0 ∗ scr (F := F) c cc0_scratch1 ∗ scr (F := F) c cc0_scratch2 ∗ ownZero (F := F) c)

/-- The result block of device c. -/
def outAt (c : Dev nD) : Vec F S256x256 .f32 := Vals.result (argX m) (argWi m) (argWo m) c

def dats (_ : Fin 1) (c : Dev nD) : Dat τ (Elt F) ℕ ℕ UU ℕ cfg0 c where
  A w := m ((cfg0.win w).arr.view.loc (c : Thread nD τ))
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

end Cert.Kernel.Dats

end
-- ==== Proof.Bits.SchedTables.lean ====
/-
  The schedule's tables, cell by cell: the duties, the amounts, the units a round expects and the
  payloads of a device's barrier cell and of its sixty transfer cells.
-/
import proofs.«900978_g7700000000000979_dist_mlpseq_tp1d_bs_bs_b256_d256_h512_v7x_i16_bf16_1_alg».proof.Proof.Bits.Sched

noncomputable section

namespace Cert.Kernel.SchedTables

open Cert.Kernel Cert.Kernel.Gen Cert.Kernel.Vals Cert.Kernel.Cells Cert.Kernel.Sched
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Which semaphore each named cell is -/

theorem classify_bar : classify (.reg barS : SemLoc sig) = .bar := by
  show (if barS = barS then Cls.bar else Cls.other) = Cls.bar
  exact if_pos rfl
theorem classify_sAg (j : Fin 15) : classify (.dma (sAg j) : SemLoc sig) = .agS j := by
  have hv := sAg_val j
  have hj := j.isLt
  unfold classify
  simp only []
  rw [dif_pos (by omega)]
  exact congrArg Cls.agS (Fin.ext (by show (sAg j).val - 8 = j.val; omega))
theorem classify_sRs (j : Fin 15) : classify (.dma (sRs j) : SemLoc sig) = .rsS j := by
  have hv := sRs_val j
  have hj := j.isLt
  unfold classify
  simp only []
  rw [dif_neg (by omega), dif_pos (by omega)]
  exact congrArg Cls.rsS (Fin.ext (by show (sRs j).val - 23 = j.val; omega))
theorem classify_rAg (j : Fin 15) : classify (.dma (rAg j) : SemLoc sig) = .agR j := by
  have hv := rAg_val j
  have hj := j.isLt
  unfold classify
  simp only []
  rw [dif_neg (by omega), dif_neg (by omega), dif_pos (by omega)]
  exact congrArg Cls.agR (Fin.ext (by show (rAg j).val - 38 = j.val; omega))
theorem classify_rRs (j : Fin 15) : classify (.dma (rRs j) : SemLoc sig) = .rsR j := by
  have hv := rRs_val j
  have hj := j.isLt
  unfold classify
  simp only []
  rw [dif_neg (by omega), dif_neg (by omega), dif_neg (by omega), dif_pos (by omega)]
  exact congrArg Cls.rsR (Fin.ext (by show (rRs j).val - 53 = j.val; omega))

/-! ## Duties -/

theorem duties_bar (c : Dev nD) : (sched (F := F) m).duties (barCell c) 0 = Finset.univ.erase 0 := by
  dsimp only [sched]
  rw [if_pos rfl, classify_bar]
  exact if_pos rfl
theorem duties_bar_later (c : Dev nD) (r : ℕ) (h : 1 ≤ r) : (sched (F := F) m).duties (barCell c) r = ∅ := by
  dsimp only [sched]
  rw [if_pos rfl, classify_bar]
  exact if_neg (by omega)
theorem duties_sAg (c : Dev nD) (j : Fin 15) (r : ℕ) (h : r < 3) : (sched (F := F) m).duties (cell c (.dma (sAg j))) r = {0} := by
  dsimp only [sched]
  rw [if_pos rfl, classify_sAg]
  exact if_pos h
theorem duties_sAg_later (c : Dev nD) (j : Fin 15) (r : ℕ) (h : 3 ≤ r) : (sched (F := F) m).duties (cell c (.dma (sAg j))) r = ∅ := by
  dsimp only [sched]
  rw [if_pos rfl, classify_sAg]
  exact if_neg (by omega)
theorem duties_sRs (c : Dev nD) (j : Fin 15) (r : ℕ) (h : r < 3) : (sched (F := F) m).duties (cell c (.dma (sRs j))) r = {0} := by
  dsimp only [sched]
  rw [if_pos rfl, classify_sRs]
  exact if_pos h
theorem duties_sRs_later (c : Dev nD) (j : Fin 15) (r : ℕ) (h : 3 ≤ r) : (sched (F := F) m).duties (cell c (.dma (sRs j))) r = ∅ := by
  dsimp only [sched]
  rw [if_pos rfl, classify_sRs]
  exact if_neg (by omega)
theorem duties_rAg (c : Dev nD) (j : Fin 15) (r : ℕ) (h : r < 3) : (sched (F := F) m).duties (cell c (.dma (rAg j))) r = {0} := by
  dsimp only [sched]
  rw [if_pos rfl, classify_rAg]
  exact if_pos h
theorem duties_rAg_later (c : Dev nD) (j : Fin 15) (r : ℕ) (h : 3 ≤ r) : (sched (F := F) m).duties (cell c (.dma (rAg j))) r = ∅ := by
  dsimp only [sched]
  rw [if_pos rfl, classify_rAg]
  exact if_neg (by omega)
theorem duties_rRs (c : Dev nD) (j : Fin 15) (r : ℕ) (h : r < 3) : (sched (F := F) m).duties (cell c (.dma (rRs j))) r = {0} := by
  dsimp only [sched]
  rw [if_pos rfl, classify_rRs]
  exact if_pos h
theorem duties_rRs_later (c : Dev nD) (j : Fin 15) (r : ℕ) (h : 3 ≤ r) : (sched (F := F) m).duties (cell c (.dma (rRs j))) r = ∅ := by
  dsimp only [sched]
  rw [if_pos rfl, classify_rRs]
  exact if_neg (by omega)

theorem mem_duties_bar (c : Dev nD) (l : D) (h : l ≠ 0) : l ∈ (sched (F := F) m).duties (barCell c) 0 := by
  rw [duties_bar]; exact Finset.mem_erase.mpr ⟨h, Finset.mem_univ _⟩
theorem zero_mem_sAg (c : Dev nD) (j : Fin 15) (r : ℕ) (h : r < 3) : (0 : D) ∈ (sched (F := F) m).duties (cell c (.dma (sAg j))) r := by
  rw [duties_sAg m c j r h]; exact Finset.mem_singleton_self _
theorem zero_mem_sRs (c : Dev nD) (j : Fin 15) (r : ℕ) (h : r < 3) : (0 : D) ∈ (sched (F := F) m).duties (cell c (.dma (sRs j))) r := by
  rw [duties_sRs m c j r h]; exact Finset.mem_singleton_self _
theorem zero_mem_rAg (c : Dev nD) (j : Fin 15) (r : ℕ) (h : r < 3) : (0 : D) ∈ (sched (F := F) m).duties (cell c (.dma (rAg j))) r := by
  rw [duties_rAg m c j r h]; exact Finset.mem_singleton_self _
theorem zero_mem_rRs (c : Dev nD) (j : Fin 15) (r : ℕ) (h : r < 3) : (0 : D) ∈ (sched (F := F) m).duties (cell c (.dma (rRs j))) r := by
  rw [duties_rRs m c j r h]; exact Finset.mem_singleton_self _

/-! ## Amounts and the units a round expects -/

theorem amount_bar (c : Dev nD) (r : ℕ) (d : D) : (sched (F := F) m).amount (barCell c) r d = 1 := by
  dsimp only [sched]
  rw [classify_bar]
theorem amount_sAg (c : Dev nD) (j : Fin 15) (r : ℕ) (d : D) : (sched (F := F) m).amount (cell c (.dma (sAg j))) r d = NX := by
  dsimp only [sched]
  rw [classify_sAg]
theorem amount_sRs (c : Dev nD) (j : Fin 15) (r : ℕ) (d : D) : (sched (F := F) m).amount (cell c (.dma (sRs j))) r d = NX := by
  dsimp only [sched]
  rw [classify_sRs]
theorem amount_rAg (c : Dev nD) (j : Fin 15) (r : ℕ) (d : D) : (sched (F := F) m).amount (cell c (.dma (rAg j))) r d = NX := by
  dsimp only [sched]
  rw [classify_rAg]
theorem amount_rRs (c : Dev nD) (j : Fin 15) (r : ℕ) (d : D) : (sched (F := F) m).amount (cell c (.dma (rRs j))) r d = NX := by
  dsimp only [sched]
  rw [classify_rRs]

theorem expect_bar (c : Dev nD) : (sched (F := F) m).expect (barCell c) 0 = 15 := by
  unfold Schedule.expect Schedule.amountOf
  rw [duties_bar, Finset.sum_congr rfl fun d _ => amount_bar m c 0 d, Finset.sum_const, smul_eq_mul, mul_one]
  rfl
theorem expect_sAg (c : Dev nD) (j : Fin 15) (r : ℕ) (h : r < 3) : (sched (F := F) m).expect (cell c (.dma (sAg j))) r = NX := by
  unfold Schedule.expect Schedule.amountOf
  rw [duties_sAg m c j r h, Finset.sum_singleton, amount_sAg]
theorem expect_sRs (c : Dev nD) (j : Fin 15) (r : ℕ) (h : r < 3) : (sched (F := F) m).expect (cell c (.dma (sRs j))) r = NX := by
  unfold Schedule.expect Schedule.amountOf
  rw [duties_sRs m c j r h, Finset.sum_singleton, amount_sRs]
theorem expect_rAg (c : Dev nD) (j : Fin 15) (r : ℕ) (h : r < 3) : (sched (F := F) m).expect (cell c (.dma (rAg j))) r = NX := by
  unfold Schedule.expect Schedule.amountOf
  rw [duties_rAg m c j r h, Finset.sum_singleton, amount_rAg]
theorem expect_rRs (c : Dev nD) (j : Fin 15) (r : ℕ) (h : r < 3) : (sched (F := F) m).expect (cell c (.dma (rRs j))) r = NX := by
  unfold Schedule.expect Schedule.amountOf
  rw [duties_rRs m c j r h, Finset.sum_singleton, amount_rRs]

/-! ## Payloads -/

theorem payload_bar (c : Dev nD) (l : D) : (sched (F := F) m).payload (barCell c) 0 l = barPay c l := by
  dsimp only [sched]
  rw [classify_bar]
theorem payload_sAg (c : Dev nD) (j : Fin 15) (r : ℕ) (d : D) : (sched (F := F) m).payload (cell c (.dma (sAg j))) r d = agSPay m c j r := by
  dsimp only [sched]
  rw [classify_sAg]
theorem payload_sRs (c : Dev nD) (j : Fin 15) (r : ℕ) (d : D) : (sched (F := F) m).payload (cell c (.dma (sRs j))) r d = rsSPay m c j r := by
  dsimp only [sched]
  rw [classify_sRs]
theorem payload_rAg (c : Dev nD) (j : Fin 15) (r : ℕ) (d : D) : (sched (F := F) m).payload (cell c (.dma (rAg j))) r d = agRPay m c j r := by
  dsimp only [sched]
  rw [classify_rAg]
theorem payload_rRs (c : Dev nD) (j : Fin 15) (r : ℕ) (d : D) : (sched (F := F) m).payload (cell c (.dma (rRs j))) r d = rsRPay m c j r := by
  dsimp only [sched]
  rw [classify_rRs]

/-! ## A round's payloads, no duty taken -/

theorem rest_sAg (c : Dev nD) (j : Fin 15) (r : ℕ) (h : r < 3) :
    bigSep ((sched (F := F) m).duties (cell c (.dma (sAg j))) r \ ∅) (fun d => (sched (F := F) m).payload (cell c (.dma (sAg j))) r d) = agSPay m c j r := by
  rw [Finset.sdiff_empty, duties_sAg m c j r h, bigSep_singleton, payload_sAg]
theorem rest_sRs (c : Dev nD) (j : Fin 15) (r : ℕ) (h : r < 3) :
    bigSep ((sched (F := F) m).duties (cell c (.dma (sRs j))) r \ ∅) (fun d => (sched (F := F) m).payload (cell c (.dma (sRs j))) r d) = rsSPay m c j r := by
  rw [Finset.sdiff_empty, duties_sRs m c j r h, bigSep_singleton, payload_sRs]
theorem rest_rAg (c : Dev nD) (j : Fin 15) (r : ℕ) (h : r < 3) :
    bigSep ((sched (F := F) m).duties (cell c (.dma (rAg j))) r \ ∅) (fun d => (sched (F := F) m).payload (cell c (.dma (rAg j))) r d) = agRPay m c j r := by
  rw [Finset.sdiff_empty, duties_rAg m c j r h, bigSep_singleton, payload_rAg]
theorem rest_rRs (c : Dev nD) (j : Fin 15) (r : ℕ) (h : r < 3) :
    bigSep ((sched (F := F) m).duties (cell c (.dma (rRs j))) r \ ∅) (fun d => (sched (F := F) m).payload (cell c (.dma (rRs j))) r d) = rsRPay m c j r := by
  rw [Finset.sdiff_empty, duties_rRs m c j r h, bigSep_singleton, payload_rRs]
theorem rest_bar (c : Dev nD) :
    bigSep ((sched (F := F) m).duties (barCell c) 0 \ ∅) (fun d => (sched (F := F) m).payload (barCell c) 0 d)
      = bigSep (Finset.univ.erase (0 : D)) (fun l => barPay (F := F) c l) := by
  rw [Finset.sdiff_empty, duties_bar]
  exact congrArg (bigSep _) (funext fun l => payload_bar m c l)

/-! ## Every payload can be stored in a cell -/

instance xPts_storable (c : Dev nD) (k : Fin 16) (q : PosShare TreeShare) (f) : BI.Storable (upEmb : UEmb _ 𝕄) (xPts (F := F) c k q f) := by
  unfold xPts; infer_instance
instance pPts_storable (c : Dev nD) (k : Fin 16) (f) : BI.Storable (upEmb : UEmb _ 𝕄) (pPts (F := F) c k f) := by
  unfold pPts; infer_instance
instance rPts_storable (c : Dev nD) (j : Fin 15) (f) : BI.Storable (upEmb : UEmb _ 𝕄) (rPts (F := F) c j f) := by
  unfold rPts; infer_instance

instance sched_payload_storable (g : GSem nD τ sig) (r : ℕ) (d : D) :
    BI.Storable (upEmb : UEmb _ 𝕄) ((sched (F := F) m).payload g r d) := by
  dsimp only [sched]
  unfold barPay agSPay rsSPay agRPay rsRPay
  (repeat' split) <;> infer_instance

end Cert.Kernel.SchedTables

/-- info: 'Cert.Kernel.SchedTables.sched_payload_storable' depends on axioms: [propext, Classical.choice, Quot.sound] -/
#guard_msgs in #print axioms Cert.Kernel.SchedTables.sched_payload_storable
/-- info: 'Cert.Kernel.SchedTables.rest_bar' depends on axioms: [propext, Classical.choice, Quot.sound] -/
#guard_msgs in #print axioms Cert.Kernel.SchedTables.rest_bar

end
-- ==== Proof.Bits.RingLaws.lean ====
/-
  The ring of sixteen devices: going k places forward and k places back are inverse, and going
  back k places is going forward 16 - k.
-/
import proofs.«900978_g7700000000000979_dist_mlpseq_tp1d_bs_bs_b256_d256_h512_v7x_i16_bf16_1_alg».proof.Proof.Bits.Vals

namespace Cert.Kernel.RingLaws

open Cert.Kernel Cert.Kernel.Vals Idealize.ShloMosaic

theorem fwd_lt (c : Dev nD) (k : ℕ) : fwd c k = fwd c (k % 16) := by
  apply Fin.ext; show (c.val + k) % 16 = (c.val + k % 16) % 16; omega
theorem bwd_fwd (c : Dev nD) (k : ℕ) : bwd (fwd c k) k = c := by
  apply Fin.ext; show ((c.val + k) % 16 + (16 - k % 16)) % 16 = c.val; have hc : c.val < 16 := c.isLt; omega
theorem fwd_bwd (c : Dev nD) (k : ℕ) : fwd (bwd c k) k = c := by
  apply Fin.ext; show ((c.val + (16 - k % 16)) % 16 + k) % 16 = c.val; have hc : c.val < 16 := c.isLt; omega
theorem bwd_eq_fwd (c : Dev nD) (k : ℕ) : bwd c k = fwd c (16 - k % 16) := rfl
theorem fwd_zero (c : Dev nD) : fwd c 0 = c := by
  apply Fin.ext; show (c.val + 0) % 16 = c.val; have hc : c.val < 16 := c.isLt; omega
theorem fwd_ne (c : Dev nD) (k : ℕ) (h1 : 1 ≤ k) (h2 : k ≤ 15) : fwd c k ≠ c := by
  intro h; have := congrArg Fin.val h; have hc : c.val < 16 := c.isLt
  change (c.val + k) % 16 = c.val at this; omega
theorem bwd_ne (c : Dev nD) (k : ℕ) (h1 : 1 ≤ k) (h2 : k ≤ 15) : bwd c k ≠ c := by
  intro h; have := congrArg Fin.val h; have hc : c.val < 16 := c.isLt
  change (c.val + (16 - k % 16)) % 16 = c.val at this; omega
theorem fwd_inj (k : ℕ) : Function.Injective (fun c : Dev nD => fwd c k) := by
  intro a b h; have := congrArg Fin.val h; have ha : a.val < 16 := a.isLt; have hb : b.val < 16 := b.isLt
  apply Fin.ext; change (a.val + k) % 16 = (b.val + k) % 16 at this; omega
/-- Going k places forward, as a permutation of the devices. -/
def ringE (k : ℕ) : Dev nD ≃ Dev nD := ⟨fun c => fwd c k, fun c => bwd c k, fun c => bwd_fwd c k, fun c => fwd_bwd c k⟩

end Cert.Kernel.RingLaws
-- ==== Proof.Bits.StateLemmas.lean ====
/-
  The algebra of what a device still owes, where its cells sit in the order of levels, and the evidence for a wait.

  What device c owes is a sum, over the copy indices, of the credits of the chunk copies and piece copies of the layers
  still to come, and of the barrier signals still to send. Issuing one copy or one signal peels exactly its summand.
  A positive entry of the sum therefore sits on a receive cell of a chunk copy (level 4u+2 at layer u), on a receive
  cell of a piece copy (level 4u+4) or on a barrier cell (level 1), and a wait on an own cell is allowed as soon as its
  level lies below all of these.
-/
import proofs.«900978_g7700000000000979_dist_mlpseq_tp1d_bs_bs_b256_d256_h512_v7x_i16_bf16_1_alg».proof.Proof.Bits.State
import proofs.«900978_g7700000000000979_dist_mlpseq_tp1d_bs_bs_b256_d256_h512_v7x_i16_bf16_1_alg».proof.Proof.Bits.SchedTables

noncomputable section

namespace Cert.Kernel.State

open Cert.Kernel Cert.Kernel.Gen Cert.Kernel.Vals Cert.Kernel.Cells Cert.Kernel.Sched
open Cert.Kernel.SchedTables
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ)

/-! ## Peeling one summand -/

/-- The layers from r on are layer r and the layers from r + 1 on. -/
private theorem layers_split (r : ℕ) (hr : r < 3) : Finset.Ico r 3 = insert r (Finset.Ico (r + 1) 3) := by
  ext x; simp only [Finset.mem_Ico, Finset.mem_insert]; omega
private theorem signals_split (s : ℕ) (hs : s < 15) : Finset.Ioc s 15 = insert (s + 1) (Finset.Ioc (s + 1) 15) := by
  ext x; simp only [Finset.mem_Ioc, Finset.mem_insert]; omega

private theorem owedA_succ (c : Dev nD) (j : Fin 15) (r : ℕ) (hr : r < 3) :
    owedA c j r = owedA c j (r + 1) + tallyAt (cell (nxt c j) (.dma (rAg j))) r NX := by
  unfold owedA
  rw [layers_split r hr, Finset.sum_insert (by simp only [Finset.mem_Ico]; omega), add_comm]
private theorem owedB_succ (c : Dev nD) (j : Fin 15) (r : ℕ) (hr : r < 3) :
    owedB c j r = owedB c j (r + 1) + tallyAt (cell (prv c j) (.dma (rRs (Fin.rev j)))) r NX := by
  unfold owedB
  rw [layers_split r hr, Finset.sum_insert (by simp only [Finset.mem_Ico]; omega), add_comm]
private theorem owedS_succ (c : Dev nD) (s : ℕ) (hs : s < 15) :
    owedS c s = owedS c (s + 1) + tallyAt (barCell (fwd c (s + 1))) 0 1 := by
  unfold owedS
  rw [signals_split s hs, Finset.sum_insert (by simp only [Finset.mem_Ioc]; omega), add_comm]

/-- Advancing one index's count changes that index's summand only. -/
private theorem sum_update_succ {M : Type} [AddCommMonoid M] (f : Fin 15 → ℕ → M) (a : Fin 15 → ℕ) (j : Fin 15) (n : ℕ) (t : M)
    (h : f j (a j) = f j n + t) :
    (∑ i, f i (a i)) = (∑ i, f i (Function.update a j n i)) + t := by
  rw [← Finset.add_sum_erase Finset.univ (fun i => f i (a i)) (Finset.mem_univ j),
    ← Finset.add_sum_erase Finset.univ (fun i => f i (Function.update a j n i)) (Finset.mem_univ j),
    Finset.sum_congr rfl fun i hi => show f i (Function.update a j n i) = f i (a i) by
      rw [Function.update_of_ne (Finset.ne_of_mem_erase hi)]]
  rw [Function.update_self, h, add_assoc, add_assoc, add_comm t]

/-- Issuing chunk copy j+1 of layer r pays its credit off what is owed. -/
theorem Otot_stepA (c : Dev nD) (a b : Fin 15 → ℕ) (s : ℕ) (j : Fin 15) (r : ℕ) (ha : a j = r) (hr : r < 3) :
    Otot c a b s = Otot c (Function.update a j (r + 1)) b s + tallyAt (cell (nxt c j) (.dma (rAg j))) r NX := by
  unfold Otot
  rw [sum_update_succ (fun i n => owedA c i n) a j (r + 1) _ (by rw [ha]; exact owedA_succ c j r hr)]
  rw [add_right_comm _ (tallyAt (cell (nxt c j) (.dma (rAg j))) r NX) _, add_right_comm _ (tallyAt (cell (nxt c j) (.dma (rAg j))) r NX) _]
theorem Otot_stepB (c : Dev nD) (a b : Fin 15 → ℕ) (s : ℕ) (j : Fin 15) (r : ℕ) (hb : b j = r) (hr : r < 3) :
    Otot c a b s = Otot c a (Function.update b j (r + 1)) s + tallyAt (cell (prv c j) (.dma (rRs (Fin.rev j)))) r NX := by
  unfold Otot
  rw [sum_update_succ (fun i n => owedB c i n) b j (r + 1) _ (by rw [hb]; exact owedB_succ c j r hr)]
  rw [← add_assoc, add_right_comm _ (tallyAt (cell (prv c j) (.dma (rRs (Fin.rev j)))) r NX) _]
theorem Otot_stepS (c : Dev nD) (a b : Fin 15 → ℕ) (s : ℕ) (hs : s < 15) :
    Otot c a b s = Otot c a b (s + 1) + tallyAt (barCell (fwd c (s + 1))) 0 1 := by
  unfold Otot
  rw [owedS_succ c s hs, ← add_assoc]
theorem Otot_done (c : Dev nD) : Otot c (fun _ => 3) (fun _ => 3) 15 = 0 := by
  unfold Otot owedA owedB owedS
  simp only [Finset.Ico_self, Finset.Ioc_self, Finset.sum_empty, Finset.sum_const_zero, add_zero]

/-! ## Where the cells sit -/

theorem lv_bar (e : Dev nD) (u : ℕ) : lv (barCell e) u = 1 := by
  unfold lv; rw [show classify (barCell e).2 = .bar from classify_bar]
theorem lv_sAg (e : Dev nD) (j : Fin 15) (u : ℕ) : lv (cell e (.dma (sAg j))) u = 4 * u + 3 := by
  unfold lv; rw [show classify (cell e (.dma (sAg j))).2 = .agS j from classify_sAg j]
theorem lv_sRs (e : Dev nD) (j : Fin 15) (u : ℕ) : lv (cell e (.dma (sRs j))) u = 4 * u + 5 := by
  unfold lv; rw [show classify (cell e (.dma (sRs j))).2 = .rsS j from classify_sRs j]
theorem lv_rAg (e : Dev nD) (j : Fin 15) (u : ℕ) : lv (cell e (.dma (rAg j))) u = 4 * u + 2 := by
  unfold lv; rw [show classify (cell e (.dma (rAg j))).2 = .agR j from classify_rAg j]
theorem lv_rRs (e : Dev nD) (j : Fin 15) (u : ℕ) : lv (cell e (.dma (rRs j))) u = 4 * u + 4 := by
  unfold lv; rw [show classify (cell e (.dma (rRs j))).2 = .rsR j from classify_rRs j]

/-- What is still owed sits on a receive cell of a chunk copy or of a piece copy at a layer still to come, or on the
    barrier cell of a device still to be signalled. -/
theorem Otot_pos {c : Dev nD} {a b : Fin 15 → ℕ} {s : ℕ} {g : GSem nD τ sig} {u : ℕ} (h : 0 < Otot c a b s g u) :
    (∃ j, g = cell (nxt c j) (.dma (rAg j)) ∧ a j ≤ u ∧ u < 3)
    ∨ (∃ j, g = cell (prv c j) (.dma (rRs (Fin.rev j))) ∧ b j ≤ u ∧ u < 3)
    ∨ (∃ l, s < l ∧ l ≤ 15 ∧ g = barCell (fwd c l) ∧ u = 0) := by
  unfold Otot at h
  rcases Pipeline.add_pos_cases h with h | h
  · rcases Pipeline.add_pos_cases h with h | h
    · obtain ⟨j, -, hj⟩ := Pipeline.sum_pos_exists h
      unfold owedA at hj
      obtain ⟨r', hr', hj⟩ := Pipeline.sum_pos_exists hj
      obtain ⟨hg, hu⟩ := Pipeline.tallyAt_pos hj
      rw [Finset.mem_Ico] at hr'
      exact Or.inl ⟨j, hg, by omega, by omega⟩
    · obtain ⟨j, -, hj⟩ := Pipeline.sum_pos_exists h
      unfold owedB at hj
      obtain ⟨r', hr', hj⟩ := Pipeline.sum_pos_exists hj
      obtain ⟨hg, hu⟩ := Pipeline.tallyAt_pos hj
      rw [Finset.mem_Ico] at hr'
      exact Or.inr (Or.inl ⟨j, hg, by omega, by omega⟩)
  · unfold owedS at h
    obtain ⟨l, hl, hj⟩ := Pipeline.sum_pos_exists h
    obtain ⟨hg, hu⟩ := Pipeline.tallyAt_pos hj
    rw [Finset.mem_Ioc] at hl
    exact Or.inr (Or.inr ⟨l, hl.1, hl.2, hg, hu⟩)

/-- A wait on one of the device's own cells, at layer r, is allowed when every copy still to issue lies above it. -/
theorem mayWait_of (c : Dev nD) (a b : Fin 15 → ℕ) (s : ℕ) (sm : SemLoc sig) (r : ℕ) (hr : r < 3)
    (hS : s = 15 ∨ lv (cell c sm) r < 1)
    (hA : ∀ j, a j < 3 → lv (cell c sm) r < 4 * a j + 2)
    (hB : ∀ j, b j < 3 → lv (cell c sm) r < 4 * b j + 4) :
    (levAts L lv : sProp 𝕄) ⊢ MayWait (c : Thread nD τ) sm r (Otot c a b s) := by
  have h3 : ∀ u : ℕ, u < 3 → u ∈ ({0, 1, 2} : Finset ℕ) := fun u hu => by
    simp only [Finset.mem_insert, Finset.mem_singleton]; omega
  refine MayOwe.of_cut (L := L) (lev := lv) (lv (cell c sm) r)
    (fun p hp => by rw [Finset.mem_singleton.mp hp, L_tc]; exact h3 r hr)
    (fun g u hg => ?_)
    (fun p hp => by rw [Finset.mem_singleton.mp hp])
    (fun g u hg => ?_)
  · rcases Otot_pos hg with ⟨j, rfl, -, hu⟩ | ⟨j, rfl, -, hu⟩ | ⟨l, -, -, rfl, rfl⟩
    · rw [L_tc]; exact h3 u hu
    · rw [L_tc]; exact h3 u hu
    · rw [L_tc]; exact h3 0 (by omega)
  · rcases Otot_pos hg with ⟨j, rfl, hau, hu⟩ | ⟨j, rfl, hbu, hu⟩ | ⟨l, hsl, hl, rfl, rfl⟩
    · rw [lv_rAg]; have := hA j (by omega); omega
    · rw [lv_rRs]; have := hB j (by omega); omega
    · rw [lv_bar]; rcases hS with hS | hS
      · omega
      · exact hS

/-- info: 'Cert.Kernel.State.mayWait_of' depends on axioms: [propext, Classical.choice, Quot.sound] -/
#guard_msgs in #print axioms mayWait_of
/-- info: 'Cert.Kernel.State.Otot_stepA' depends on axioms: [propext, Classical.choice, Quot.sound] -/
#guard_msgs in #print axioms Otot_stepA
/-- info: 'Cert.Kernel.State.Otot_stepB' depends on axioms: [propext, Classical.choice, Quot.sound] -/
#guard_msgs in #print axioms Otot_stepB
/-- info: 'Cert.Kernel.State.Otot_stepS' depends on axioms: [propext, Classical.choice, Quot.sound] -/
#guard_msgs in #print axioms Otot_stepS
/-- info: 'Cert.Kernel.State.Otot_done' depends on axioms: [propext, Classical.choice, Quot.sound] -/
#guard_msgs in #print axioms Otot_done

end Cert.Kernel.State

end
-- ==== Proof.Bits.Launch.lean ====
/-
  The launch of the sixteen devices' kernels, and the run.

  The ring's ghost state is allocated for all devices at once: every device's sixty-one cells (its barrier
  cell and its four rows of fifteen transfer cells) start at round 0 with their counters at zero, the duty
  tokens are dealt to the devices that pay them (a barrier's duty l to the device l places before, a chunk
  copy's receive duty to the sender, a piece copy's receive duty to the returning device, the send duties to
  the owner), and the credit a device's own waits consume is what the other devices owe its cells at launch.
-/
import proofs.«900978_g7700000000000979_dist_mlpseq_tp1d_bs_bs_b256_d256_h512_v7x_i16_bf16_1_alg».proof.Proof.Bits.Dats
import proofs.«900978_g7700000000000979_dist_mlpseq_tp1d_bs_bs_b256_d256_h512_v7x_i16_bf16_1_alg».proof.Proof.Bits.SchedTables
import proofs.«900978_g7700000000000979_dist_mlpseq_tp1d_bs_bs_b256_d256_h512_v7x_i16_bf16_1_alg».proof.Proof.Bits.RingLaws
import proofs.«900978_g7700000000000979_dist_mlpseq_tp1d_bs_bs_b256_d256_h512_v7x_i16_bf16_1_alg».proof.Proof.Bits.StateLemmas
import Idealize.ShloMosaic.Lib.Pipeline.Launch
import Idealize.ShloMosaic.Lib.Pipeline.Kit
import Idealize.ShloMosaic.Lib.Tactic

noncomputable section

namespace Cert.Kernel.Launch

open Cert.Kernel Cert.Kernel.Gen Cert.Kernel.Vals Cert.Kernel.Cells Cert.Kernel.Sched Cert.Kernel.State Cert.Kernel.Dats Cert.Kernel.SchedTables Cert.Kernel.RingLaws
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The cells, indexed -/

/-- A device's own sixty transfer semaphores: copy index and row (send chunk, send piece, receive chunk, receive piece). -/
abbrev KI : Type := Fin 15 × Fin 4
def rowSem : Fin 4 → Fin 15 → DmaSem sig
  | 0, j => sAg j
  | 1, j => sRs j
  | 2, j => rAg j
  | 3, j => rRs j
abbrev osem : KI → SemLoc sig := fun k => .dma (rowSem k.2 k.1)
/-- All sixty-one: the barrier semaphore and the sixty. -/
abbrev CI : Type := Option KI
abbrev csem : CI → SemLoc sig
  | none => .reg barS
  | some k => osem k
abbrev kcell (ck : Dev nD × CI) : GSem nD τ sig := cell ck.1 (csem ck.2)

theorem rowSem_val (a : Fin 4) (j : Fin 15) : (rowSem a j).val = 8 + 15 * a.val + j.val := by
  fin_cases a
  · show (sAg j).val = 8 + 15 * 0 + j.val; rw [sAg_val]
  · show (sRs j).val = 8 + 15 * 1 + j.val; rw [sRs_val]
  · show (rAg j).val = 8 + 15 * 2 + j.val; rw [rAg_val]
  · show (rRs j).val = 8 + 15 * 3 + j.val; rw [rRs_val]

theorem osem_injective : Function.Injective osem := by
  rintro ⟨j, a⟩ ⟨j', a'⟩ h
  have hv : (rowSem a j).val = (rowSem a' j').val := by
    have h' : rowSem a j = rowSem a' j' := by injection h
    rw [h']
  rw [rowSem_val, rowSem_val] at hv
  have hj := j.isLt; have hj' := j'.isLt
  have h1 : a = a' := Fin.ext (by omega)
  have h2 : j = j' := Fin.ext (by omega)
  subst h1; subst h2; rfl

theorem csem_injective : Function.Injective csem := by
  rintro (_ | k) (_ | k') h
  · rfl
  · exact absurd h (fun h' => by cases h')
  · exact absurd h (fun h' => by cases h')
  · exact congrArg some (osem_injective h)

theorem kcell_injective : Function.Injective (kcell : Dev nD × CI → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

theorem stage_sem_lt : ∀ (w : Fin cfg0.W) (s : Fin (cfg0.spec w).nbuf), ((cfg0.spec w).sem s).val < 8 := by decide

theorem osem_scoped : ∀ k : KI, (osem k).isScoped .tc = true := by decide

theorem ownSemFacts : Pipeline.OwnSemFacts cfg0.spec osem :=
  ⟨osem_scoped, osem_injective, fun k w s h => by
    have h' : rowSem k.2 k.1 = (cfg0.spec w).sem s := by injection h
    have hv := rowSem_val k.2 k.1
    have hs := stage_sem_lt w s
    rw [h'] at hv; omega⟩

theorem mem_allSems_iff (s : SemLoc sig) : s ∈ (allSems : Finset (SemLoc sig)) ↔ ∃ k : CI, csem k = s := by
  constructor
  · intro h
    unfold allSems at h
    simp only [Finset.mem_insert, Finset.mem_union, Finset.mem_image, Finset.mem_univ, true_and] at h
    rcases h with rfl | (((⟨j, rfl⟩ | ⟨j, rfl⟩) | ⟨j, rfl⟩) | ⟨j, rfl⟩)
    · exact ⟨none, rfl⟩
    · exact ⟨some (j, 0), rfl⟩
    · exact ⟨some (j, 1), rfl⟩
    · exact ⟨some (j, 2), rfl⟩
    · exact ⟨some (j, 3), rfl⟩
  · rintro ⟨k, rfl⟩
    rcases k with _ | ⟨j, a⟩
    · exact mem_allSems_bar
    · fin_cases a
      · exact mem_allSems_sAg j
      · exact mem_allSems_sRs j
      · exact mem_allSems_rAg j
      · exact mem_allSems_rRs j

theorem allSems_eq : (allSems : Finset (SemLoc sig)) = Finset.univ.map ⟨csem, csem_injective⟩ := by
  ext s
  rw [mem_allSems_iff, Finset.mem_map]
  constructor
  · rintro ⟨k, hk⟩; exact ⟨k, Finset.mem_univ _, hk⟩
  · rintro ⟨k, -, hk⟩; exact ⟨k, hk⟩

/-! ## The launch element of the ring's ghost state -/

def ringCells : Finset (GSem nD τ sig) := Finset.univ.map ⟨kcell, kcell_injective⟩

/-- The barrier duties' tokens: (device, duty l ≠ 0). -/
def barTok (x : (_ : Dev nD) × D) : GSem nD τ sig × ℕ × D := (barCell x.1, 0, x.2)
theorem barTok_injective : Function.Injective barTok := by
  rintro ⟨c, l⟩ ⟨c', l'⟩ h
  have h1 : c = c' := congrArg (fun x : GSem nD τ sig × ℕ × D => x.1.1.1) h
  have h2 : l = l' := congrArg (fun x : GSem nD τ sig × ℕ × D => x.2.2) h
  subst h1; subst h2; rfl
/-- The transfer cells' tokens: (device, cell, layer). -/
def xferTok (x : (_ : Dev nD × KI) × ℕ) : GSem nD τ sig × ℕ × D := (cell x.1.1 (osem x.1.2), x.2, 0)
theorem xferTok_injective : Function.Injective xferTok := by
  rintro ⟨⟨c, k⟩, r⟩ ⟨⟨c', k'⟩, r'⟩ h
  have h1 : c = c' := congrArg (fun x : GSem nD τ sig × ℕ × D => x.1.1.1) h
  have h2 : osem k = osem k' := congrArg (fun x : GSem nD τ sig × ℕ × D => x.1.2) h
  have h3 : r = r' := congrArg (fun x : GSem nD τ sig × ℕ × D => x.2.1) h
  have h4 := osem_injective h2
  subst h1; subst h3; subst h4; rfl

def barToks : Finset (GSem nD τ sig × ℕ × D) :=
  (Finset.univ.sigma fun _ : Dev nD => Finset.univ.erase (0 : D)).map ⟨barTok, barTok_injective⟩
def xferToks : Finset (GSem nD τ sig × ℕ × D) :=
  (Finset.univ.sigma fun _ : Dev nD × KI => Finset.Ico 0 3).map ⟨xferTok, xferTok_injective⟩
theorem toks_disjoint : Disjoint barToks xferToks := by
  rw [Finset.disjoint_left]
  intro x hb hx
  unfold barToks at hb; unfold xferToks at hx
  rw [Finset.mem_map] at hb hx
  obtain ⟨y, -, rfl⟩ := hb
  obtain ⟨z, -, hz⟩ := hx
  have : (SemLoc.dma (rowSem z.1.2.2 z.1.2.1) : SemLoc sig) = .reg barS := congrArg (fun x : GSem nD τ sig × ℕ × D => x.1.2) hz
  cases this
def ringToks : Finset (GSem nD τ sig × ℕ × D) := barToks ∪ xferToks

def u₀ : UU :=
  (initOf (Pipeline.cells cfgs cellOf_inj) (Pipeline.launchToks cfgs cellOf_inj), initOf ringCells ringToks)

/-- The duty tokens of device c's own cells. -/
def toks (c : Dev nD) : sProp 𝕄 :=
  iprop((bigSep (Finset.univ.erase (0 : D)) fun l => dutyTok ER (barCell c) 0 l)
    ∗ bigSep Finset.univ fun k : KI => bigSep (Finset.Ico 0 3) fun r => dutyTok ER (cell c (osem k)) r 0)

/-- What the launch element deals device c. -/
def G (c : Dev nD) : sProp 𝕄 :=
  iprop((bigSep Finset.univ fun k : CI => roundState ER (sched m) (kcell (c, k)) 0)
    ∗ (bigSep Finset.univ fun k : CI => iprop(atPos ER (kcell (c, k)) 0 ∅ 0 ∗ reached ER (kcell (c, k)) 0)) ∗ toks (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks
    rw [bigSep_union toks_disjoint, bigSep_sep']
    unfold barToks xferToks
    rw [bigSep_map, bigSep_map, Pipeline.bigSep_sigma, Pipeline.bigSep_sigma, bigSep_univ_prod]
    rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Every cell's invariant, from its counter at zero -/

theorem bigSep_option {α : Type} [Fintype α] [DecidableEq α] (Φ : Option α → sProp 𝕄) :
    bigSep Finset.univ Φ = iprop(Φ none ∗ bigSep Finset.univ fun a => Φ (some a)) := by
  rw [show (Finset.univ : Finset (Option α)) = insert none (Finset.univ.map Function.Embedding.some) from by
    ext x; cases x <;> simp, bigSep_insert (by simp), bigSep_map]
  rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, bigSep_option]
  iintro ⟨HS, HB⟩
  isplitl [HB]; · iexact HB
  iapply (Entails.of_eq (show (Pipeline.ownSems0 (Ix := ℕ) (Name := ℕ) (U := UU) (Lvl := ℕ) (Val := Elt F) (τ := τ) osem c : sProp 𝕄)
    = bigSep Finset.univ fun a : KI => semVal (kcell (c, some a)) 0 from rfl))
  iexact HS

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (sched m) κ (kcell (c, k))))
          ∗ (bigSep Finset.univ fun k : CI => iprop(atPos ER (kcell (c, k)) 0 ∅ 0 ∗ reached ER (kcell (c, k)) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (sched m) (kcell (c, k)) 0)
      ⊢ (|={Set.univ}=> bigSep Finset.univ fun k : CI => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Regrouping: every device gets the records and the tokens of the duties it pays -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Two nested conjunctions over finite sets, in either order. -/
theorem bigSep_swap {M : Type} [URA M] {A B : Type} [DecidableEq A] (s : Finset A) (t : Finset B) (Φ : A → B → sProp M) :
    bigSep s (fun a => bigSep t (fun b => Φ a b)) = bigSep t (fun b => bigSep s (fun a => Φ a b)) := by
  induction s using Finset.induction_on with
  | empty => simp only [BI.bigSep_empty]; exact (BI.bigSep_emp_const _).symm
  | insert a s ha ih =>
    rw [BI.bigSep_insert ha, ih]
    exact (BI.bigSep_sep t _ _).symm.trans (bigSep_congr fun b _ => (BI.bigSep_insert (Φ := fun a => Φ a b) ha).symm)

/-- Every device's family over J, each member j sent along its own permutation of the devices. -/
theorem route {J : Type} [DecidableEq J] (s : Finset J) (e : J → Dev nD ≃ Dev nD) (Φ : Dev nD → J → sProp 𝕄) :
    bigSep Finset.univ (fun c => bigSep s fun j => Φ c j) = bigSep Finset.univ (fun c => bigSep s fun j => Φ (e j c) j) := by
  rw [bigSep_swap, bigSep_congr (fun j _ => bigSep_univ_equiv (e j) (fun c => Φ c j)), ← bigSep_swap]

theorem revRow (Φ : Fin 15 → sProp 𝕄) : bigSep Finset.univ Φ = bigSep Finset.univ fun j => Φ (Fin.rev j) :=
  bigSep_univ_equiv Fin.revPerm Φ

/-- The sixty transfer semaphores row by row. -/
theorem rowsK (Ψ : DmaSem sig → sProp 𝕄) :
    bigSep Finset.univ (fun k : KI => Ψ (rowSem k.2 k.1))
      = iprop((bigSep Finset.univ fun j => Ψ (sAg j)) ∗ (bigSep Finset.univ fun j => Ψ (sRs j)) ∗ (bigSep Finset.univ fun j => Ψ (rAg j)) ∗ (bigSep Finset.univ fun j => Ψ (rRs j))) := by
  rw [bigSep_univ_prod, bigSep_congr (fun j _ => bigSep_fin4 _), bigSep_sep', bigSep_sep', bigSep_sep']
  rfl

def reachedAll : sProp 𝕄 := bigSep Finset.univ fun ck : Dev nD × CI => reached ER (kcell ck) 0
instance reachedAll_persistent : BI.Persistent (reachedAll (F := F)) := by unfold reachedAll; infer_instance
theorem reachedAll_at (c : Dev nD) (k : CI) : (reachedAll : sProp 𝕄) ⊢ reached ER (cell c (csem k)) 0 :=
  bigSep_elim (Finset.mem_univ ((c, k) : Dev nD × CI))

/-- The three layers' duty tokens of one transfer cell. -/
def tokRow (c : Dev nD) (q : DmaSem sig) : sProp 𝕄 := bigSep (Finset.Ico 0 3) fun r => dutyTok ER (cell c (.dma q)) r 0

/-- A device's own cells' positions and tokens, row by row. -/
def ownRows (c : Dev nD) : sProp 𝕄 :=
  iprop((atPos ER (barCell c) 0 ∅ 0 ∗ (bigSep Finset.univ fun j => atPos ER (cell c (.dma (sAg j))) 0 ∅ 0) ∗ (bigSep Finset.univ fun j => atPos ER (cell c (.dma (sRs j))) 0 ∅ 0)
      ∗ (bigSep Finset.univ fun j => atPos ER (cell c (.dma (rAg j))) 0 ∅ 0) ∗ (bigSep Finset.univ fun j => atPos ER (cell c (.dma (rRs j))) 0 ∅ 0))
    ∗ (bigSep (Finset.univ.erase (0 : D)) fun l => dutyTok ER (barCell c) 0 l)
    ∗ (bigSep Finset.univ fun j => tokRow (F := F) c (sAg j)) ∗ (bigSep Finset.univ fun j => tokRow (F := F) c (sRs j))
    ∗ (bigSep Finset.univ fun j => tokRow (F := F) c (rAg j)) ∗ (bigSep Finset.univ fun j => tokRow (F := F) c (rRs j)))

theorem own_rows (c : Dev nD) :
    iprop((bigSep Finset.univ fun k : CI => atPos ER (kcell (c, k)) 0 ∅ 0) ∗ toks (F := F) c) = ownRows c := by
  have h1 : (bigSep Finset.univ fun k : CI => (atPos ER (kcell (c, k)) 0 ∅ 0 : sProp 𝕄))
      = iprop(atPos ER (barCell c) 0 ∅ 0 ∗ (bigSep Finset.univ fun j => atPos ER (cell c (.dma (sAg j))) 0 ∅ 0) ∗ (bigSep Finset.univ fun j => atPos ER (cell c (.dma (sRs j))) 0 ∅ 0)
        ∗ (bigSep Finset.univ fun j => atPos ER (cell c (.dma (rAg j))) 0 ∅ 0) ∗ (bigSep Finset.univ fun j => atPos ER (cell c (.dma (rRs j))) 0 ∅ 0)) :=
    (bigSep_option _).trans (congrArg (fun X : sProp 𝕄 => iprop(atPos ER (barCell c) 0 ∅ 0 ∗ X)) (rowsK (fun q => atPos ER (cell c (.dma q)) 0 ∅ 0)))
  have h2 : (bigSep Finset.univ fun k : KI => bigSep (Finset.Ico 0 3) fun r => (dutyTok ER (cell c (osem k)) r 0 : sProp 𝕄))
      = iprop((bigSep Finset.univ fun j => tokRow (F := F) c (sAg j)) ∗ (bigSep Finset.univ fun j => tokRow (F := F) c (sRs j))
        ∗ (bigSep Finset.univ fun j => tokRow (F := F) c (rAg j)) ∗ (bigSep Finset.univ fun j => tokRow (F := F) c (rRs j))) :=
    rowsK (fun q => tokRow (F := F) c q)
  unfold toks ownRows
  rw [h1, h2]

/-- What stays with device c or comes to it: its positions, and the tokens of the duties it pays. -/
def linear (c : Dev nD) : sProp 𝕄 :=
  iprop((bigSep Finset.univ fun j : Fin 15 => tokRow (F := F) (nxt c j) (rAg j)) ∗ (bigSep Finset.univ fun j : Fin 15 => tokRow (F := F) c (sAg j))
    ∗ (bigSep Finset.univ fun j : Fin 15 => tokRow (F := F) (prv c j) (rRs (Fin.rev j))) ∗ (bigSep Finset.univ fun j : Fin 15 => tokRow (F := F) c (sRs (Fin.rev j)))
    ∗ (bigSep Finset.univ fun j : Fin 15 => atPos ER (cell c (.dma (sAg j))) 0 ∅ 0) ∗ (bigSep Finset.univ fun j : Fin 15 => atPos ER (cell c (.dma (rRs (Fin.rev j)))) 0 ∅ 0)
    ∗ (bigSep Finset.univ fun j : Fin 15 => atPos ER (cell c (.dma (rAg j))) 0 ∅ 0) ∗ (bigSep Finset.univ fun j : Fin 15 => atPos ER (cell c (.dma (sRs (Fin.rev j)))) 0 ∅ 0)
    ∗ atPos ER (barCell c) 0 ∅ 0
    ∗ bigSep (Finset.univ.erase (0 : D)) fun l => dutyTok ER (barCell (fwd c l.val)) 0 l)

theorem deal :
    (bigSep Finset.univ fun c : Dev nD => iprop((bigSep Finset.univ fun k : CI => atPos ER (kcell (c, k)) 0 ∅ 0) ∗ toks (F := F) c))
      ⊢ bigSep Finset.univ fun c : Dev nD => linear (F := F) c := by
  rw [show (fun c : Dev nD => iprop((bigSep Finset.univ fun k : CI => atPos ER (kcell (c, k)) 0 ∅ 0) ∗ toks (F := F) c)) = fun c => ownRows c
    from funext fun c => own_rows c]
  unfold ownRows linear
  simp only [bigSep_sep']
  iintro ⟨⟨HaB, Ha0, Ha1, Ha2, Ha3⟩, HtB, Ht0, Ht1, Ht2, Ht3⟩
  isplitl [Ht2]
  · iapply (Entails.of_eq (route Finset.univ (fun j : Fin 15 => ringE (j.val + 1)) (fun c j => tokRow (F := F) c (rAg j))))
    iexact Ht2
  isplitl [Ht0]; · iexact Ht0
  isplitl [Ht3]
  · iapply (Entails.of_eq (route Finset.univ (fun j : Fin 15 => (ringE (j.val + 1)).symm) (fun c j => tokRow (F := F) c (rRs (Fin.rev j)))))
    iapply (Entails.of_eq (bigSep_congr fun (c : Dev nD) _ => revRow (fun j => tokRow (F := F) c (rRs j))))
    iexact Ht3
  isplitl [Ht1]
  · iapply (Entails.of_eq (bigSep_congr fun (c : Dev nD) _ => revRow (fun j => tokRow (F := F) c (sRs j))))
    iexact Ht1
  isplitl [Ha0]; · iexact Ha0
  isplitl [Ha3]
  · iapply (Entails.of_eq (bigSep_congr fun (c : Dev nD) _ => revRow (fun j => (atPos ER (cell c (.dma (rRs j))) 0 ∅ 0 : sProp 𝕄))))
    iexact Ha3
  isplitl [Ha2]; · iexact Ha2
  isplitl [Ha1]
  · iapply (Entails.of_eq (bigSep_congr fun (c : Dev nD) _ => revRow (fun j => (atPos ER (cell c (.dma (sRs j))) 0 ∅ 0 : sProp 𝕄))))
    iexact Ha1
  isplitl [HaB]; · iexact HaB
  iapply (Entails.of_eq (route (Finset.univ.erase (0 : D)) (fun l : D => ringE l.val) (fun c l => (dutyTok ER (barCell c) 0 l : sProp 𝕄))))
  iexact HtB

/-- The records every device reads: every cell's invariant under the names K, and that round 0 of every cell is reached. -/
def records (K : GSem nD τ sig → ℕ) : sProp 𝕄 := iprop(Invs m K ∗ reachedAll)
instance records_persistent (K : GSem nD τ sig → ℕ) : BI.Persistent (records m K) := by unfold records; infer_instance

/-- What the global step makes of the launch element, per device. -/
def G' (c : Dev nD) : sProp 𝕄 := iprop(∃ K, records m K ∗ linear (F := F) c)

theorem Invs_eq (K : GSem nD τ sig → ℕ) : Invs m K = bigSep ringCells fun g => cellInv ER (sched m) (K g) g := by
  unfold Invs ringCells
  rw [bigSep_map, bigSep_univ_prod]
  exact bigSep_congr fun c _ => by rw [allSems_eq, bigSep_map]; rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CI => iprop(∃ κ : ℕ, cellInv ER (sched m) κ (kcell (c, k))))
          ∗ (bigSep Finset.univ fun k : CI => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × CI => iprop(∃ κ : ℕ, cellInv ER (sched m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄))]
  iintro ⟨HI, ⟨Hat, #HR⟩, Htok⟩
  ihave HI' := (Entails.of_eq (show (bigSep Finset.univ fun ck : Dev nD × CI => iprop(∃ κ : ℕ, cellInv ER (sched m) κ (kcell ck)) : sProp 𝕄)
      = bigSep ringCells fun g => iprop(∃ κ : ℕ, cellInv ER (sched m) κ g) from by unfold ringCells; rw [bigSep_map]; rfl)) $$ HI
  ihave HK := (BI.bigSep_exists_pi ringCells (fun (g : GSem nD τ sig) (κ : ℕ) => (cellInv ER (sched m) κ g : sProp 𝕄))) $$ HI'
  icases HK with ⟨%K, #HI⟩
  ihave Hlin := (deal (F := F)) $$ [Hat Htok]
  · iapply (Entails.of_eq (bigSep_sep' Finset.univ (fun c : Dev nD => bigSep Finset.univ fun k : CI => (atPos ER (kcell (c, k)) 0 ∅ 0 : sProp 𝕄)) (fun c => toks (F := F) c)).symm)
    isplitl [Hat]; · iexact Hat
    iexact Htok
  iapply (bigSep_with_persistent (R := records m K) fun c _ => show iprop(records m K ∗ linear (F := F) c) ⊢ G' m c from by
    unfold G'; iintro ⟨#H1, H3⟩; iexists K; isplitr; · iexact H1
    iexact H3)
  isplitr
  · unfold records
    isplitr
    · rw [Invs_eq]; iexact HI
    · unfold reachedAll; iexact HR
  · iexact Hlin

/-- The global step: own and unscoped semaphores of every device at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the other devices owe a device's cells -/

theorem bigSep_mono' {I : Type} {s : Finset I} {Φ Ψ : I → sProp 𝕄} (h : ∀ i ∈ s, Φ i ⊢ Ψ i) : bigSep s Φ ⊢ bigSep s Ψ :=
  bigSep_mono h

theorem sum_tallyAt_const {α : Type} [DecidableEq α] (s : Finset α) (g : GSem nD τ sig) (ι : ℕ) :
    (∑ _l ∈ s, (tallyAt g ι 1 : CellTallies nD τ sig ℕ)) = tallyAt g ι s.card := by
  induction s using Finset.induction_on with
  | empty => rw [Finset.sum_empty, Finset.card_empty, tallyAt_zero]
  | insert a s ha ih => rw [Finset.sum_insert ha, ih, Finset.card_insert_of_notMem ha, tallyAt_add, Nat.add_comm]

/-- The chunk copies' dues: every device owes the device j+1 places after it, so each is owed by the one j+1 places before. -/
theorem credA (c : Dev nD) (j : Fin 15) :
    (Pipeline.launchCred (fun d => owedA d j 0) c : sProp 𝕄) ⊢ bigSep (Finset.Ico 0 3) fun r => cred (tallyAt (cell c (.dma (rAg j))) r NX) := by
  have h : (fun d : Dev nD => owedA d j 0)
      = fun d => ∑ r ∈ Finset.Ico 0 3, (tallyAt ((((fwd d (j.val + 1) : Dev nD).tc : Thread nD τ)), SemLoc.dma (rAg j)) r NX : CellTallies nD τ sig ℕ) := rfl
  rw [h, Pipeline.launchCred_sum (Finset.Ico 0 3) (fun r d => (tallyAt ((((fwd d (j.val + 1) : Dev nD).tc : Thread nD τ)), SemLoc.dma (rAg j)) r NX : CellTallies nD τ sig ℕ)) c]
  exact bigSep_mono fun r _ => Pipeline.launchCred_tallyAt (.dma (rAg j)) (fun d => fwd d (j.val + 1)) (fun d => bwd d (j.val + 1))
    (fun c => fwd_bwd c _) (fun d => bwd_fwd d _) r NX c

/-- The piece copies' dues: every device owes the device j+1 places before it. -/
theorem credB (c : Dev nD) (j : Fin 15) :
    (Pipeline.launchCred (fun d => owedB d j 0) c : sProp 𝕄) ⊢ bigSep (Finset.Ico 0 3) fun r => cred (tallyAt (cell c (.dma (rRs (Fin.rev j)))) r NX) := by
  have h : (fun d : Dev nD => owedB d j 0)
      = fun d => ∑ r ∈ Finset.Ico 0 3, (tallyAt ((((bwd d (j.val + 1) : Dev nD).tc : Thread nD τ)), SemLoc.dma (rRs (Fin.rev j))) r NX : CellTallies nD τ sig ℕ) := rfl
  rw [h, Pipeline.launchCred_sum (Finset.Ico 0 3) (fun r d => (tallyAt ((((bwd d (j.val + 1) : Dev nD).tc : Thread nD τ)), SemLoc.dma (rRs (Fin.rev j))) r NX : CellTallies nD τ sig ℕ)) c]
  exact bigSep_mono fun r _ => Pipeline.launchCred_tallyAt (.dma (rRs (Fin.rev j))) (fun d => bwd d (j.val + 1)) (fun d => fwd d (j.val + 1))
    (fun c => bwd_fwd c _) (fun d => fwd_bwd d _) r NX c

/-- The barrier signals' dues: fifteen units on every device's barrier cell. -/
theorem credS (c : Dev nD) :
    (Pipeline.launchCred (fun d => owedS d 0) c : sProp 𝕄) ⊢ cred (tallyAt (barCell c) 0 15) := by
  have h : (fun d : Dev nD => owedS d 0)
      = fun d => ∑ l ∈ Finset.Ioc 0 15, (tallyAt ((((fwd d l : Dev nD).tc : Thread nD τ)), SemLoc.reg barS) 0 1 : CellTallies nD τ sig ℕ) := rfl
  rw [h, Pipeline.launchCred_sum (Finset.Ioc 0 15) (fun l d => (tallyAt ((((fwd d l : Dev nD).tc : Thread nD τ)), SemLoc.reg barS) 0 1 : CellTallies nD τ sig ℕ)) c]
  refine (bigSep_mono fun l _ => Pipeline.launchCred_tallyAt (.reg barS) (fun d => fwd d l) (fun d => bwd d l)
    (fun c => fwd_bwd c _) (fun d => bwd_fwd d _) 0 1 c).trans ?_
  rw [← Pipeline.cred_finsetSum, sum_tallyAt_const, show (Finset.Ioc 0 15).card = 15 from by decide]
  exact BI.Entails.refl _

theorem creds (c : Dev nD) :
    (Pipeline.launchCred O₀ c : sProp 𝕄) ⊢ iprop(cred (tallyAt (barCell c) 0 15)
      ∗ (bigSep Finset.univ fun j : Fin 15 => bigSep (Finset.Ico 0 3) fun r => cred (tallyAt (cell c (.dma (rAg j))) r NX))
      ∗ (bigSep Finset.univ fun j : Fin 15 => bigSep (Finset.Ico 0 3) fun r => cred (tallyAt (cell c (.dma (rRs (Fin.rev j)))) r NX))) := by
  have hO : (O₀ : Dev nD → CellTallies nD τ sig ℕ) = fun d => ((∑ j : Fin 15, owedA d j 0) + (∑ j : Fin 15, owedB d j 0)) + owedS d 0 := rfl
  rw [hO, Pipeline.launchCred_add, Pipeline.launchCred_add,
    Pipeline.launchCred_sum Finset.univ (fun (j : Fin 15) d => owedA d j 0) c, Pipeline.launchCred_sum Finset.univ (fun (j : Fin 15) d => owedB d j 0) c]
  iintro ⟨⟨HA, HB⟩, HS⟩
  isplitl [HS]; · iapply (credS (F := F) c); iexact HS
  isplitl [HA]
  · iapply (bigSep_mono' (s := Finset.univ) fun j _ => credA (F := F) c j); iexact HA
  · iapply (bigSep_mono' (s := Finset.univ) fun j _ => credB (F := F) c j); iexact HB

/-! ## The launch theorem's side conditions -/

theorem pers_family {I : Type} [DecidableEq I] (S : Finset I) {R : sProp 𝕄} [BI.Persistent R] {Ψ : I → sProp 𝕄} (h : ∀ i, R ⊢ Ψ i) :
    R ⊢ bigSep S Ψ :=
  (BI.bigSep_of_persistent S R).trans (bigSep_mono fun i _ => h i)

theorem reached_bar (c : Dev nD) : (reachedAll : sProp 𝕄) ⊢ reached ER (barCell c) 0 := reachedAll_at c none
theorem reached_sAg (c : Dev nD) (j : Fin 15) : (reachedAll : sProp 𝕄) ⊢ reached ER (cell c (.dma (sAg j))) 0 := reachedAll_at c (some (j, 0))
theorem reached_sRs (c : Dev nD) (j : Fin 15) : (reachedAll : sProp 𝕄) ⊢ reached ER (cell c (.dma (sRs j))) 0 := reachedAll_at c (some (j, 1))
theorem reached_rAg (c : Dev nD) (j : Fin 15) : (reachedAll : sProp 𝕄) ⊢ reached ER (cell c (.dma (rAg j))) 0 := reachedAll_at c (some (j, 2))
theorem reached_rRs (c : Dev nD) (j : Fin 15) : (reachedAll : sProp 𝕄) ⊢ reached ER (cell c (.dma (rRs j))) 0 := reachedAll_at c (some (j, 3))

/-- A device's ghost state from the records, what was dealt to it, and its launch credit. -/
theorem ghost_intro (K : GSem nD τ sig → ℕ) (c : Dev nD) :
    iprop(records m K ∗ linear (F := F) c
      ∗ (bigSep Finset.univ fun j : Fin 15 => bigSep (Finset.Ico 0 3) fun r => cred (tallyAt (cell c (.dma (rAg j))) r NX))
      ∗ (bigSep Finset.univ fun j : Fin 15 => bigSep (Finset.Ico 0 3) fun r => cred (tallyAt (cell c (.dma (rRs (Fin.rev j)))) r NX)))
      ⊢ ghost m K c := by
  unfold records linear tokRow ghost sndr rcvr
  simp only [bigSep_sep']
  iintro ⟨⟨#HI, #HR⟩, ⟨Ht1, Ht2, Ht3, Ht4, Ha1, Ha2, Ha3, Ha4, HaB, HtB⟩, HcA, HcB⟩
  isplitr; · iexact HI
  isplitl [Ht1 Ht2 HcB Ha1 Ha2]
  · isplitl [Ht1 Ht2 HcB]
    · isplitl [Ht1]; · iexact Ht1
      isplitl [Ht2]; · iexact Ht2
      iexact HcB
    isplitl [Ha1]; · iexact Ha1
    isplitl [Ha2]; · iexact Ha2
    isplitr; · iapply (pers_family Finset.univ fun j : Fin 15 => reached_rAg (F := F) (nxt c j) j); iexact HR
    isplitr; · iapply (pers_family Finset.univ fun j : Fin 15 => reached_sAg (F := F) c j); iexact HR
    iapply (pers_family Finset.univ fun j : Fin 15 => reached_rRs (F := F) c (Fin.rev j)); iexact HR
  isplitl [Ht3 Ht4 HcA Ha3 Ha4]
  · isplitl [Ht3 Ht4 HcA]
    · isplitl [Ht3]; · iexact Ht3
      isplitl [Ht4]; · iexact Ht4
      iexact HcA
    isplitl [Ha3]; · iexact Ha3
    isplitl [Ha4]; · iexact Ha4
    isplitr; · iapply (pers_family Finset.univ fun j : Fin 15 => reached_rAg (F := F) c j); iexact HR
    iapply (pers_family Finset.univ fun j : Fin 15 => reached_sRs (F := F) c (Fin.rev j)); iexact HR
  isplitl [HaB]; · iexact HaB
  isplitl [HtB]; · iexact HtB
  iapply (pers_family (Finset.univ.erase (0 : D)) fun l : D => reached_bar (F := F) (fwd c l.val)); iexact HR

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H15, HcA, HcB⟩
  unfold G'
  icases HG with ⟨%K, HR, Hlin⟩
  imodintro
  unfold start
  isplitl
  · isplitl [HR Hlin HcA HcB]
    · iexists K
      iapply (ghost_intro m K c)
      isplitl [HR]; · iexact HR
      isplitl [Hlin]; · iexact Hlin
      isplitl [HcA]; · iexact HcA
      iexact HcB
    isplitl [H15]; · iexact H15
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr
  iintro ⟨Hs, -, H0, H1, H2⟩
  isplitl [Hs]; · iexact Hs
  isplitl [H0]; · iexact H0
  isplitl [H1]; · iexact H1
  iexact H2

theorem ownZero_rows (c : Dev nD) :
    (ownZero (F := F) c : sProp 𝕄) = Pipeline.ownSems0 (Ix := ℕ) (Name := ℕ) (U := UU) (Lvl := ℕ) (Val := Elt F) (τ := τ) osem c := by
  unfold ownZero
  rw [bigSep_sep', bigSep_sep', bigSep_sep']
  exact (rowsK (fun q => (semVal (cell c (.dma q)) 0 : sProp 𝕄))).symm

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ (F := F) c from rfl, scopedRest0_eq]
  unfold Φ₁ scr
  rw [ownZero_rows]
  iintro ⟨H0, H1, H2, Hz⟩
  isplitr; · iempintro
  isplitl [Hz]; · iexact Hz
  isplitl [H0]; · iexact H0
  isplitl [H1]; · iexact H1
  iexact H2

theorem lv_stage (c : Dev nD) (q : DmaSem sig) (hq : q.val < 8) (r : ℕ) : lv (cell c (.dma q)) r = 0 := by
  have h : classify (.dma q : SemLoc sig) = .other := by
    unfold classify
    simp only []
    rw [dif_neg (by omega), dif_neg (by omega), dif_neg (by omega), dif_neg (by omega)]
  unfold lv
  rw [show (cell c (.dma q)).2 = .dma q from rfl, h]

theorem waits (c : Dev nD) : (levAts L lv : sProp 𝕄) ⊢ Pipeline.cellsWaits cfgs (dats m) (0 : ℕ) 0 c :=
  Pipeline.cellsWaits_intro cfgs (dats m) (0 : ℕ) 0 c fun w s t => by
    have hl : lv (cell c (.dma ((cfg0.win w).sem s))) 0 = 0 := lv_stage c _ (stage_sem_lt w s) 0
    rcases t with ⟨_ | _, ht⟩
    · exact mayWait_of c (fun _ => 0) (fun _ => 0) 0 _ 0 (by omega) (Or.inr (by rw [hl]; omega)) (fun j _ => by rw [hl]; omega) (fun j _ => by rw [hl]; omega)
    · show _ ⊢ MayWait (c : Thread nD τ) _ 0 0
      rw [MayWait_zero]; iintro -; iempintro

theorem share_eq (c : Dev nD) (w : Fin cfg0.W) : (dats m 0 c).share w = fullShare := by unfold Dat.share; split <;> rfl

/-- The result block's array after the one point: what the body left in the staging buffer. -/
theorem arrAt_out (c : Dev nD) : (dats m 0 c).arrAt (7 : Fin 8) cfg0.N = outAt m c := by
  rw [show cfg0.N = (t0_0 : Fin cfg0.N).val + 1 from rfl, (dats m 0 c).arrAt_succ (7 : Fin 8) t0_0, if_pos (flush0_7 t0_0)]
  exact Memref.write_access_unit_zero_univ (Elt F) main_v1 (off := fun a => (cfg0.win 7).index t0_0 a * (cfg0.win 7).size a)
    (by funext a; revert a; decide) _ _ _

/-! ## The run -/

set_option maxRecDepth 8000 in
/-- At the compiled mesh of sixteen devices, for any float values, from any memory with zero counters: given the body's
    obligation on every device, every weakly fair execution of @main terminates, every device's result block ends holding
    the last layer's sum of the sixteen pieces, and its seven argument blocks end as they were. -/
theorem run_main (m : (ℓ : Loc nD τ sig) → Buf (Elt F) ℓ) (ρ : Dev nD → PrngReg)
    (hbody : ∀ c : Dev nD, Pipeline.BodyObligation (dat := dats m 0 c) (defs₀ (F := F)) 𝒱₀ (0 : ℕ) Set.univ) :
    θ_run (defs (F := F)) (onTc (τ := τ) (main (F := F))) ⟨m, fun _ => 0, ρ⟩ (fun r => ∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_region_owing_glob_pf (fun p => (cfgs p).toPCfg) (fun p => (cfgs p).toPCfg_adm) (dats m) (0 : ℕ) cellOf_inj (0 : Fin 1)
    winFacts0.to₀ ownSemFacts (Pipeline.PreFacts.none _) EP defs₀ 𝒱₀ m ρ main
    (hmain := fun c => (main_chain c).trans rfl)
    (hbody := fun c => (hbody c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun s h c => ⟨((h c).1 7).trans (arrAt_out m c),
      ((h c).1 0).trans ((dats m 0 c).arrAt_in 0 rfl _),
      ((h c).1 1).trans ((dats m 0 c).arrAt_in 1 rfl _),
      ((h c).1 2).trans ((dats m 0 c).arrAt_in 2 rfl _),
      ((h c).1 3).trans ((dats m 0 c).arrAt_in 3 rfl _),
      ((h c).1 4).trans ((dats m 0 c).arrAt_in 4 rfl _),
      ((h c).1 5).trans ((dats m 0 c).arrAt_in 5 rfl _),
      ((h c).1 6).trans ((dats m 0 c).arrAt_in 6 rfl _)⟩)

end Cert.Kernel.Launch

/-- info: 'Cert.Kernel.Launch.run_main' depends on axioms: [propext, Classical.choice, Quot.sound] -/
#guard_msgs in #print axioms Cert.Kernel.Launch.run_main

end
-- ==== Proof.Steps.lean ====
import proofs.«900978_g7700000000000979_dist_mlpseq_tp1d_bs_bs_b256_d256_h512_v7x_i16_bf16_1_alg».proof.Proof.Dats
import proofs.«900978_g7700000000000979_dist_mlpseq_tp1d_bs_bs_b256_d256_h512_v7x_i16_bf16_1_alg».proof.Proof.SchedTables
import proofs.«900978_g7700000000000979_dist_mlpseq_tp1d_bs_bs_b256_d256_h512_v7x_i16_bf16_1_alg».proof.Proof.RingLaws
import proofs.«900978_g7700000000000979_dist_mlpseq_tp1d_bs_bs_b256_d256_h512_v7x_i16_bf16_1_alg».proof.Proof.Gen.KernelIdeal.Skeleton
import proofs.«900978_g7700000000000979_dist_mlpseq_tp1d_bs_bs_b256_d256_h512_v7x_i16_bf16_1_alg».proof.Proof.StateLemmas
noncomputable section
namespace Cert.KernelIdeal.Steps
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## The entry handshake

  Device c signals the device l places after it, l = 1..15, paying duty l of that device's barrier cell
  with its own slot 16 - l of X (the slot that device's first chunk copy lands in); then waits for the
  fifteen units of its own barrier cell, which bring it the fifteen slots its own first copies land in. -/

/-- The l-th barrier signal (the s-th issued, s + 1 = l). -/
theorem step_sig (K : GSem nD τ sig → ℕ) (c : Dev nD) (l : D) (hl : l ≠ 0) (a b : Fin 15 → ℕ) (s : ℕ) (hs : s + 1 = l.val)
    {W : Waits sig ℕ} {α : Type} {Q : α → sProp 𝕄} {k : PUnit → Prog (TpuEff nD τ sig (Elt F) Λ₀ .tc) α}
    (f : Buf (Elt F) ((xslot (kBar l)).view.loc (c : Thread nD τ))) :
    iprop(Invs m K ∗ owes (c : Thread nD τ) (Otot c a b s) W ∗ dutyTok ER (barCell (fwd c l.val)) 0 l
        ∗ xPts c (kBar l) fullShare f ∗ reached ER (cell c (.dma (rAg (jBar l)))) 0 ∗ reached ER (barCell (fwd c l.val)) 0)
      ⊢ iprop((owes (c : Thread nD τ) (Otot c a b (s + 1)) W -∗ wp frame (wpE (defs₀ (F := F)) 𝒱₀ c none) Set.univ (k ⟨⟩) Q)
          -∗ wp frame (wpE (defs₀ (F := F)) 𝒱₀ c none) Set.univ (.op (.semSignal (fwd c l.val : Thread nD τ) barS 1) k) Q) := by
  iintro ⟨#HI, HO, Htok, Hx, #Hr1, #Hr2⟩
  have hs15 : s < 15 := by have := l.isLt; omega
  iapply (Rounds.wp_signal 𝒱₀ ER (sched m) (c : Thread nD τ) none (dst := (fwd c l.val : Thread nD τ)) (κ := K (barCell (fwd c l.val)))
      (d := l) (mem_duties_bar m (fwd c l.val) l hl) (amount_bar m (fwd c l.val) 0 l) 0 (Otot c a b (s + 1))
      (O₀ := Otot c a b s) ((Otot_stepS c a b s hs15).trans (by rw [hs]))) $$ [HO Htok Hx]
  · isplitr; · iapply (Invs_at m K (fwd c l.val) (.reg barS) mem_allSems_bar); iexact HI
    isplitl [HO]; · iexact HO
    isplitl [Htok]; · iexact Htok
    isplitl [Hx]
    · rw [payload_bar]; unfold barPay; rw [bwd_fwd]
      isplitl [Hx]; · iexists f; iexact Hx
      iexact Hr1
    · iexact Hr2

/-- The wait for the barrier's fifteen units: every signal sent, every copy still owed lies above the barrier. -/
theorem step_bar (K : GSem nD τ sig → ℕ) (c : Dev nD) (a b : Fin 15 → ℕ)
    {W : Waits sig ℕ} {α : Type} {Q : α → sProp 𝕄} {k : PUnit → Prog (TpuEff nD τ sig (Elt F) Λ₀ .tc) α} :
    iprop(Invs m K ∗ cred (tallyAt (barCell c) 0 15) ∗ owes (c : Thread nD τ) (Otot c a b 15) W ∗ levAts L lv ∗ atPos ER (barCell c) 0 ∅ 0)
      ⊢ iprop(((owes (c : Thread nD τ) (Otot c a b 15) (insert (SemLoc.reg barS, 0) W) ∗ atPos ER (barCell c) 1 ∅ 0 ∗ reached ER (barCell c) 1
              ∗ bigSep (Finset.univ.erase (0 : D)) (fun l => barPay (F := F) c l))
            -∗ wp frame (wpE (defs₀ (F := F)) 𝒱₀ c none) Set.univ (k ⟨⟩) Q)
          -∗ wp frame (wpE (defs₀ (F := F)) 𝒱₀ c none) Set.univ (.op (.semWait barS 15) k) Q) := by
  iintro ⟨#HI, Hc, HO, #Hlev, Hat⟩ Hk
  iapply (Rounds.wp_wait_rest_token 𝒱₀ ER (sched m) (c : Thread nD τ) none (κ := K (barCell c))
      (wpE_semWait_eq 𝒱₀ (c : Thread nD τ) none Set.univ) (Set.mem_univ _) 0 (O := Otot c a b 15) (W := W) (R := 0) (m := 0) (T := ∅)
      (by rw [expect_bar])) $$ [Hc HO Hat]
  · isplitr; · iapply (Invs_at m K c (.reg barS) mem_allSems_bar); iexact HI
    isplitl [Hc]; · iexact Hc
    isplitl [HO]; · iexact HO
    isplitr
    · iapply (mayWait_of c a b 15 (.reg barS) 0 (by decide) (Or.inl rfl)
        (fun j _ => by rw [show cell c (.reg barS) = barCell c from rfl, lv_bar]; omega)
        (fun j _ => by rw [show cell c (.reg barS) = barCell c from rfl, lv_bar]; omega))
      iexact Hlev
    iexact Hat
  iintro ⟨HO, Hat, Hr, Hpay⟩
  iapply Hk
  isplitl [HO]; · iexact HO
  isplitl [Hat]; · iexact Hat
  isplitl [Hr]; · iexact Hr
  iapply (Entails.of_eq (rest_bar m c)); iexact Hpay

end Cert.KernelIdeal.Steps
end
-- ==== Proof.Phases.lean ====
import proofs.«900978_g7700000000000979_dist_mlpseq_tp1d_bs_bs_b256_d256_h512_v7x_i16_bf16_1_alg».proof.Proof.Dats
import proofs.«900978_g7700000000000979_dist_mlpseq_tp1d_bs_bs_b256_d256_h512_v7x_i16_bf16_1_alg».proof.Proof.SchedTables
import proofs.«900978_g7700000000000979_dist_mlpseq_tp1d_bs_bs_b256_d256_h512_v7x_i16_bf16_1_alg».proof.Proof.RingLaws
import proofs.«900978_g7700000000000979_dist_mlpseq_tp1d_bs_bs_b256_d256_h512_v7x_i16_bf16_1_alg».proof.Proof.Gen.KernelIdeal.Skeleton
import proofs.«900978_g7700000000000979_dist_mlpseq_tp1d_bs_bs_b256_d256_h512_v7x_i16_bf16_1_alg».proof.Proof.StateLemmas
noncomputable section
namespace Cert.KernelIdeal.Phases
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## A copy index's two parts, phase by phase

  SENDER of chunk copy j+1 (to the device j+1 places after it), per layer r:
    `sn r`  →(issue the chunk copy)→  `snSent r`  →(wait its send side)→  `snWaited r`  →(wait the piece it gets back)→  `sn (r+1)`.
  RECEIVER of chunk copy j+1 (from the device j+1 places before it), per layer r:
    `rc r`  →(wait the chunk)→  `rcGot r`  →(issue the piece copy)→  `rcSent r`  →(wait its send side)→  `rc (r+1)`.
  The buffers travel beside these bundles: the landing slot on the peer with the fact that the peer has consumed the
  earlier rounds of its receive cell (`dstX`, `dstR`), the slots' contents as separate hypotheses. -/

/-- The tokens and credit of the sender's layers r, r+1, …: the next device's receive duty, its own send duty, the credit for the piece it will wait for. -/
def snToks (c : Dev nD) (j : Fin 15) (r : ℕ) : sProp 𝕄 :=
  bigSep (Finset.Ico r 3) fun r' => iprop(dutyTok ER (cell (nxt c j) (.dma (rAg j))) r' 0 ∗ dutyTok ER (cell c (.dma (sAg j))) r' 0
        ∗ cred (tallyAt (cell c (.dma (rRs (Fin.rev j)))) r' NX))
/-- Likewise the receiver's: the previous device's receive duty of the piece, its own send duty, the credit for the chunk it will wait for. -/
def rcToks (c : Dev nD) (j : Fin 15) (r : ℕ) : sProp 𝕄 :=
  bigSep (Finset.Ico r 3) fun r' => iprop(dutyTok ER (cell (prv c j) (.dma (rRs (Fin.rev j)))) r' 0 ∗ dutyTok ER (cell c (.dma (sRs (Fin.rev j)))) r' 0
        ∗ cred (tallyAt (cell c (.dma (rAg j))) r' NX))

def sn (c : Dev nD) (j : Fin 15) (r : ℕ) : sProp 𝕄 :=
  iprop(snToks (F := F) c j r ∗ atPos ER (cell c (.dma (sAg j))) r ∅ 0 ∗ atPos ER (cell c (.dma (rRs (Fin.rev j)))) r ∅ 0
    ∗ reached ER (cell c (.dma (sAg j))) r ∗ reached ER (cell c (.dma (rRs (Fin.rev j)))) r)
def snSent (c : Dev nD) (j : Fin 15) (r : ℕ) : sProp 𝕄 :=
  iprop(snToks (F := F) c j (r + 1) ∗ cred (tallyAt (cell c (.dma (rRs (Fin.rev j)))) r NX) ∗ cred (tallyAt (cell c (.dma (sAg j))) r NX)
    ∗ atPos ER (cell c (.dma (sAg j))) r ∅ 0 ∗ atPos ER (cell c (.dma (rRs (Fin.rev j)))) r ∅ 0)
def snWaited (c : Dev nD) (j : Fin 15) (r : ℕ) : sProp 𝕄 :=
  iprop(snToks (F := F) c j (r + 1) ∗ cred (tallyAt (cell c (.dma (rRs (Fin.rev j)))) r NX)
    ∗ atPos ER (cell c (.dma (sAg j))) (r + 1) ∅ 0 ∗ atPos ER (cell c (.dma (rRs (Fin.rev j)))) r ∅ 0
    ∗ reached ER (cell c (.dma (sAg j))) (r + 1))

def rc (c : Dev nD) (j : Fin 15) (r : ℕ) : sProp 𝕄 :=
  iprop(rcToks (F := F) c j r ∗ atPos ER (cell c (.dma (rAg j))) r ∅ 0 ∗ atPos ER (cell c (.dma (sRs (Fin.rev j)))) r ∅ 0
    ∗ reached ER (cell c (.dma (rAg j))) r ∗ reached ER (cell c (.dma (sRs (Fin.rev j)))) r)
def rcGot (c : Dev nD) (j : Fin 15) (r : ℕ) : sProp 𝕄 :=
  iprop(rcToks (F := F) c j (r + 1) ∗ dutyTok ER (cell (prv c j) (.dma (rRs (Fin.rev j)))) r 0 ∗ dutyTok ER (cell c (.dma (sRs (Fin.rev j)))) r 0
    ∗ atPos ER (cell c (.dma (rAg j))) (r + 1) ∅ 0 ∗ atPos ER (cell c (.dma (sRs (Fin.rev j)))) r ∅ 0
    ∗ reached ER (cell c (.dma (rAg j))) (r + 1) ∗ reached ER (cell c (.dma (sRs (Fin.rev j)))) r)
def rcSent (c : Dev nD) (j : Fin 15) (r : ℕ) : sProp 𝕄 :=
  iprop(rcToks (F := F) c j (r + 1) ∗ cred (tallyAt (cell c (.dma (sRs (Fin.rev j)))) r NX)
    ∗ atPos ER (cell c (.dma (rAg j))) (r + 1) ∅ 0 ∗ atPos ER (cell c (.dma (sRs (Fin.rev j)))) r ∅ 0
    ∗ reached ER (cell c (.dma (rAg j))) (r + 1))

/-- The slot of X on the next device in which chunk copy j+1 lands, with that device at round r of its receive cell. -/
def dstX (c : Dev nD) (j : Fin 15) (r : ℕ) : sProp 𝕄 :=
  iprop((∃ f, xPts (F := F) (nxt c j) (kOf j) fullShare f) ∗ reached ER (cell (nxt c j) (.dma (rAg j))) r)
/-- The slot of R on the previous device in which the piece of copy index j+1 lands, with that device at round r of its receive cell. -/
def dstR (c : Dev nD) (j : Fin 15) (r : ℕ) : sProp 𝕄 :=
  iprop((∃ f, rPts (F := F) (prv c j) (Fin.rev j) f) ∗ reached ER (cell (prv c j) (.dma (rRs (Fin.rev j)))) r)

/-- The launch's bundles open into the phase bundles at layer 0. -/
theorem sndr_open (c : Dev nD) (j : Fin 15) : sndr (F := F) c j 0 ⊢ iprop(sn (F := F) c j 0 ∗ reached ER (cell (nxt c j) (.dma (rAg j))) 0) := by
  unfold sndr sn snToks
  iintro ⟨Ht, Ha1, Ha2, #Hr1, #Hr2, #Hr3⟩
  isplitl [Ht Ha1 Ha2]
  · isplitl [Ht]; · iexact Ht
    isplitl [Ha1]; · iexact Ha1
    isplitl [Ha2]; · iexact Ha2
    isplitr; · iexact Hr2
    iexact Hr3
  · iexact Hr1
theorem rcvr_open (c : Dev nD) (j : Fin 15) : rcvr (F := F) c j 0 ⊢ rc (F := F) c j 0 := by
  unfold rcvr rc rcToks; exact BI.Entails.refl _

end Cert.KernelIdeal.Phases
end
-- ==== Proof.Ring.lean ====
/-
  The ring of sixteen devices.

  Every device the program addresses is computed from the device's own number by a chain of word
  arithmetic, (me + k) mod 16 or (me - k) mod 16 with the sign corrected. Over the sixteen values of
  the device's number each chain is evaluated and found to be the device k places after, or k places
  before, on the ring. The second part states the ring's laws: stepping forward and back by the same
  amount cancel, a step of 1..15 places never returns to its start, a step forward is a bijection
  of the devices, and k places back is 16 - k places forward.
-/
import proofs.«900978_g7700000000000979_dist_mlpseq_tp1d_bs_bs_b256_d256_h512_v7x_i16_bf16_1_alg».proof.Proof.Vals
import proofs.«900978_g7700000000000979_dist_mlpseq_tp1d_bs_bs_b256_d256_h512_v7x_i16_bf16_1_alg».proof.Proof.Gen.KernelIdeal

set_option Elab.async false

namespace Cert.KernelIdeal.Ring

open Idealize.ShloMosaic Cert.KernelIdeal Cert.KernelIdeal.Gen

/-! ## The addressed devices in closed form

  1..15: the barrier's signals, k places after. 16..30, 46..60, 76..90: each layer's broadcast of the
  device's chunk, k places after. 31..45, 61..75, 91..105: each layer's returned pieces, k places
  before. -/

@[sl_canon] theorem dev1_eq (c : Dev nD) : (⟨k0_dev1 c, Gen.k0_dev1_lt c⟩ : Dev nD) = Vals.fwd c 1 :=
  Fin.ext (by revert c; decide +kernel)
@[sl_canon] theorem dev2_eq (c : Dev nD) : (⟨k0_dev2 c, Gen.k0_dev2_lt c⟩ : Dev nD) = Vals.fwd c 2 :=
  Fin.ext (by revert c; decide +kernel)
@[sl_canon] theorem dev3_eq (c : Dev nD) : (⟨k0_dev3 c, Gen.k0_dev3_lt c⟩ : Dev nD) = Vals.fwd c 3 :=
  Fin.ext (by revert c; decide +kernel)
@[sl_canon] theorem dev4_eq (c : Dev nD) : (⟨k0_dev4 c, Gen.k0_dev4_lt c⟩ : Dev nD) = Vals.fwd c 4 :=
  Fin.ext (by revert c; decide +kernel)
@[sl_canon] theorem dev5_eq (c : Dev nD) : (⟨k0_dev5 c, Gen.k0_dev5_lt c⟩ : Dev nD) = Vals.fwd c 5 :=
  Fin.ext (by revert c; decide +kernel)
@[sl_canon] theorem dev6_eq (c : Dev nD) : (⟨k0_dev6 c, Gen.k0_dev6_lt c⟩ : Dev nD) = Vals.fwd c 6 :=
  Fin.ext (by revert c; decide +kernel)
@[sl_canon] theorem dev7_eq (c : Dev nD) : (⟨k0_dev7 c, Gen.k0_dev7_lt c⟩ : Dev nD) = Vals.fwd c 7 :=
  Fin.ext (by revert c; decide +kernel)
@[sl_canon] theorem dev8_eq (c : Dev nD) : (⟨k0_dev8 c, Gen.k0_dev8_lt c⟩ : Dev nD) = Vals.fwd c 8 :=
  Fin.ext (by revert c; decide +kernel)
@[sl_canon] theorem dev9_eq (c : Dev nD) : (⟨k0_dev9 c, Gen.k0_dev9_lt c⟩ : Dev nD) = Vals.fwd c 9 :=
  Fin.ext (by revert c; decide +kernel)
@[sl_canon] theorem dev10_eq (c : Dev nD) : (⟨k0_dev10 c, Gen.k0_dev10_lt c⟩ : Dev nD) = Vals.fwd c 10 :=
  Fin.ext (by revert c; decide +kernel)
@[sl_canon] theorem dev11_eq (c : Dev nD) : (⟨k0_dev11 c, Gen.k0_dev11_lt c⟩ : Dev nD) = Vals.fwd c 11 :=
  Fin.ext (by revert c; decide +kernel)
@[sl_canon] theorem dev12_eq (c : Dev nD) : (⟨k0_dev12 c, Gen.k0_dev12_lt c⟩ : Dev nD) = Vals.fwd c 12 :=
  Fin.ext (by revert c; decide +kernel)
@[sl_canon] theorem dev13_eq (c : Dev nD) : (⟨k0_dev13 c, Gen.k0_dev13_lt c⟩ : Dev nD) = Vals.fwd c 13 :=
  Fin.ext (by revert c; decide +kernel)
@[sl_canon] theorem dev14_eq (c : Dev nD) : (⟨k0_dev14 c, Gen.k0_dev14_lt c⟩ : Dev nD) = Vals.fwd c 14 :=
  Fin.ext (by revert c; decide +kernel)
@[sl_canon] theorem dev15_eq (c : Dev nD) : (⟨k0_dev15 c, Gen.k0_dev15_lt c⟩ : Dev nD) = Vals.fwd c 15 :=
  Fin.ext (by revert c; decide +kernel)
@[sl_canon] theorem dev16_eq (c : Dev nD) : (⟨k0_dev16 c, Gen.k0_dev16_lt c⟩ : Dev nD) = Vals.fwd c 1 :=
  Fin.ext (by revert c; decide +kernel)
@[sl_canon] theorem dev17_eq (c : Dev nD) : (⟨k0_dev17 c, Gen.k0_dev17_lt c⟩ : Dev nD) = Vals.fwd c 2 :=
  Fin.ext (by revert c; decide +kernel)
@[sl_canon] theorem dev18_eq (c : Dev nD) : (⟨k0_dev18 c, Gen.k0_dev18_lt c⟩ : Dev nD) = Vals.fwd c 3 :=
  Fin.ext (by revert c; decide +kernel)
@[sl_canon] theorem dev19_eq (c : Dev nD) : (⟨k0_dev19 c, Gen.k0_dev19_lt c⟩ : Dev nD) = Vals.fwd c 4 :=
  Fin.ext (by revert c; decide +kernel)
@[sl_canon] theorem dev20_eq (c : Dev nD) : (⟨k0_dev20 c, Gen.k0_dev20_lt c⟩ : Dev nD) = Vals.fwd c 5 :=
  Fin.ext (by revert c; decide +kernel)
@[sl_canon] theorem dev21_eq (c : Dev nD) : (⟨k0_dev21 c, Gen.k0_dev21_lt c⟩ : Dev nD) = Vals.fwd c 6 :=
  Fin.ext (by revert c; decide +kernel)
@[sl_canon] theorem dev22_eq (c : Dev nD) : (⟨k0_dev22 c, Gen.k0_dev22_lt c⟩ : Dev nD) = Vals.fwd c 7 :=
  Fin.ext (by revert c; decide +kernel)
@[sl_canon] theorem dev23_eq (c : Dev nD) : (⟨k0_dev23 c, Gen.k0_dev23_lt c⟩ : Dev nD) = Vals.fwd c 8 :=
  Fin.ext (by revert c; decide +kernel)
@[sl_canon] theorem dev24_eq (c : Dev nD) : (⟨k0_dev24 c, Gen.k0_dev24_lt c⟩ : Dev nD) = Vals.fwd c 9 :=
  Fin.ext (by revert c; decide +kernel)
@[sl_canon] theorem dev25_eq (c : Dev nD) : (⟨k0_dev25 c, Gen.k0_dev25_lt c⟩ : Dev nD) = Vals.fwd c 10 :=
  Fin.ext (by revert c; decide +kernel)
@[sl_canon] theorem dev26_eq (c : Dev nD) : (⟨k0_dev26 c, Gen.k0_dev26_lt c⟩ : Dev nD) = Vals.fwd c 11 :=
  Fin.ext (by revert c; decide +kernel)
@[sl_canon] theorem dev27_eq (c : Dev nD) : (⟨k0_dev27 c, Gen.k0_dev27_lt c⟩ : Dev nD) = Vals.fwd c 12 :=
  Fin.ext (by revert c; decide +kernel)
@[sl_canon] theorem dev28_eq (c : Dev nD) : (⟨k0_dev28 c, Gen.k0_dev28_lt c⟩ : Dev nD) = Vals.fwd c 13 :=
  Fin.ext (by revert c; decide +kernel)
@[sl_canon] theorem dev29_eq (c : Dev nD) : (⟨k0_dev29 c, Gen.k0_dev29_lt c⟩ : Dev nD) = Vals.fwd c 14 :=
  Fin.ext (by revert c; decide +kernel)
@[sl_canon] theorem dev30_eq (c : Dev nD) : (⟨k0_dev30 c, Gen.k0_dev30_lt c⟩ : Dev nD) = Vals.fwd c 15 :=
  Fin.ext (by revert c; decide +kernel)
@[sl_canon] theorem dev31_eq (c : Dev nD) : (⟨k0_dev31 c, Gen.k0_dev31_lt c⟩ : Dev nD) = Vals.bwd c 1 :=
  Fin.ext (by revert c; decide +kernel)
@[sl_canon] theorem dev32_eq (c : Dev nD) : (⟨k0_dev32 c, Gen.k0_dev32_lt c⟩ : Dev nD) = Vals.bwd c 2 :=
  Fin.ext (by revert c; decide +kernel)
@[sl_canon] theorem dev33_eq (c : Dev nD) : (⟨k0_dev33 c, Gen.k0_dev33_lt c⟩ : Dev nD) = Vals.bwd c 3 :=
  Fin.ext (by revert c; decide +kernel)
@[sl_canon] theorem dev34_eq (c : Dev nD) : (⟨k0_dev34 c, Gen.k0_dev34_lt c⟩ : Dev nD) = Vals.bwd c 4 :=
  Fin.ext (by revert c; decide +kernel)
@[sl_canon] theorem dev35_eq (c : Dev nD) : (⟨k0_dev35 c, Gen.k0_dev35_lt c⟩ : Dev nD) = Vals.bwd c 5 :=
  Fin.ext (by revert c; decide +kernel)
@[sl_canon] theorem dev36_eq (c : Dev nD) : (⟨k0_dev36 c, Gen.k0_dev36_lt c⟩ : Dev nD) = Vals.bwd c 6 :=
  Fin.ext (by revert c; decide +kernel)
@[sl_canon] theorem dev37_eq (c : Dev nD) : (⟨k0_dev37 c, Gen.k0_dev37_lt c⟩ : Dev nD) = Vals.bwd c 7 :=
  Fin.ext (by revert c; decide +kernel)
@[sl_canon] theorem dev38_eq (c : Dev nD) : (⟨k0_dev38 c, Gen.k0_dev38_lt c⟩ : Dev nD) = Vals.bwd c 8 :=
  Fin.ext (by revert c; decide +kernel)
@[sl_canon] theorem dev39_eq (c : Dev nD) : (⟨k0_dev39 c, Gen.k0_dev39_lt c⟩ : Dev nD) = Vals.bwd c 9 :=
  Fin.ext (by revert c; decide +kernel)
@[sl_canon] theorem dev40_eq (c : Dev nD) : (⟨k0_dev40 c, Gen.k0_dev40_lt c⟩ : Dev nD) = Vals.bwd c 10 :=
  Fin.ext (by revert c; decide +kernel)
@[sl_canon] theorem dev41_eq (c : Dev nD) : (⟨k0_dev41 c, Gen.k0_dev41_lt c⟩ : Dev nD) = Vals.bwd c 11 :=
  Fin.ext (by revert c; decide +kernel)
@[sl_canon] theorem dev42_eq (c : Dev nD) : (⟨k0_dev42 c, Gen.k0_dev42_lt c⟩ : Dev nD) = Vals.bwd c 12 :=
  Fin.ext (by revert c; decide +kernel)
@[sl_canon] theorem dev43_eq (c : Dev nD) : (⟨k0_dev43 c, Gen.k0_dev43_lt c⟩ : Dev nD) = Vals.bwd c 13 :=
  Fin.ext (by revert c; decide +kernel)
@[sl_canon] theorem dev44_eq (c : Dev nD) : (⟨k0_dev44 c, Gen.k0_dev44_lt c⟩ : Dev nD) = Vals.bwd c 14 :=
  Fin.ext (by revert c; decide +kernel)
@[sl_canon] theorem dev45_eq (c : Dev nD) : (⟨k0_dev45 c, Gen.k0_dev45_lt c⟩ : Dev nD) = Vals.bwd c 15 :=
  Fin.ext (by revert c; decide +kernel)
@[sl_canon] theorem dev46_eq (c : Dev nD) : (⟨k0_dev46 c, Gen.k0_dev46_lt c⟩ : Dev nD) = Vals.fwd c 1 :=
  Fin.ext (by revert c; decide +kernel)
@[sl_canon] theorem dev47_eq (c : Dev nD) : (⟨k0_dev47 c, Gen.k0_dev47_lt c⟩ : Dev nD) = Vals.fwd c 2 :=
  Fin.ext (by revert c; decide +kernel)
@[sl_canon] theorem dev48_eq (c : Dev nD) : (⟨k0_dev48 c, Gen.k0_dev48_lt c⟩ : Dev nD) = Vals.fwd c 3 :=
  Fin.ext (by revert c; decide +kernel)
@[sl_canon] theorem dev49_eq (c : Dev nD) : (⟨k0_dev49 c, Gen.k0_dev49_lt c⟩ : Dev nD) = Vals.fwd c 4 :=
  Fin.ext (by revert c; decide +kernel)
@[sl_canon] theorem dev50_eq (c : Dev nD) : (⟨k0_dev50 c, Gen.k0_dev50_lt c⟩ : Dev nD) = Vals.fwd c 5 :=
  Fin.ext (by revert c; decide +kernel)
@[sl_canon] theorem dev51_eq (c : Dev nD) : (⟨k0_dev51 c, Gen.k0_dev51_lt c⟩ : Dev nD) = Vals.fwd c 6 :=
  Fin.ext (by revert c; decide +kernel)
@[sl_canon] theorem dev52_eq (c : Dev nD) : (⟨k0_dev52 c, Gen.k0_dev52_lt c⟩ : Dev nD) = Vals.fwd c 7 :=
  Fin.ext (by revert c; decide +kernel)
@[sl_canon] theorem dev53_eq (c : Dev nD) : (⟨k0_dev53 c, Gen.k0_dev53_lt c⟩ : Dev nD) = Vals.fwd c 8 :=
  Fin.ext (by revert c; decide +kernel)
@[sl_canon] theorem dev54_eq (c : Dev nD) : (⟨k0_dev54 c, Gen.k0_dev54_lt c⟩ : Dev nD) = Vals.fwd c 9 :=
  Fin.ext (by revert c; decide +kernel)
@[sl_canon] theorem dev55_eq (c : Dev nD) : (⟨k0_dev55 c, Gen.k0_dev55_lt c⟩ : Dev nD) = Vals.fwd c 10 :=
  Fin.ext (by revert c; decide +kernel)
@[sl_canon] theorem dev56_eq (c : Dev nD) : (⟨k0_dev56 c, Gen.k0_dev56_lt c⟩ : Dev nD) = Vals.fwd c 11 :=
  Fin.ext (by revert c; decide +kernel)
@[sl_canon] theorem dev57_eq (c : Dev nD) : (⟨k0_dev57 c, Gen.k0_dev57_lt c⟩ : Dev nD) = Vals.fwd c 12 :=
  Fin.ext (by revert c; decide +kernel)
@[sl_canon] theorem dev58_eq (c : Dev nD) : (⟨k0_dev58 c, Gen.k0_dev58_lt c⟩ : Dev nD) = Vals.fwd c 13 :=
  Fin.ext (by revert c; decide +kernel)
@[sl_canon] theorem dev59_eq (c : Dev nD) : (⟨k0_dev59 c, Gen.k0_dev59_lt c⟩ : Dev nD) = Vals.fwd c 14 :=
  Fin.ext (by revert c; decide +kernel)
@[sl_canon] theorem dev60_eq (c : Dev nD) : (⟨k0_dev60 c, Gen.k0_dev60_lt c⟩ : Dev nD) = Vals.fwd c 15 :=
  Fin.ext (by revert c; decide +kernel)
@[sl_canon] theorem dev61_eq (c : Dev nD) : (⟨k0_dev61 c, Gen.k0_dev61_lt c⟩ : Dev nD) = Vals.bwd c 1 :=
  Fin.ext (by revert c; decide +kernel)
@[sl_canon] theorem dev62_eq (c : Dev nD) : (⟨k0_dev62 c, Gen.k0_dev62_lt c⟩ : Dev nD) = Vals.bwd c 2 :=
  Fin.ext (by revert c; decide +kernel)
@[sl_canon] theorem dev63_eq (c : Dev nD) : (⟨k0_dev63 c, Gen.k0_dev63_lt c⟩ : Dev nD) = Vals.bwd c 3 :=
  Fin.ext (by revert c; decide +kernel)
@[sl_canon] theorem dev64_eq (c : Dev nD) : (⟨k0_dev64 c, Gen.k0_dev64_lt c⟩ : Dev nD) = Vals.bwd c 4 :=
  Fin.ext (by revert c; decide +kernel)
@[sl_canon] theorem dev65_eq (c : Dev nD) : (⟨k0_dev65 c, Gen.k0_dev65_lt c⟩ : Dev nD) = Vals.bwd c 5 :=
  Fin.ext (by revert c; decide +kernel)
@[sl_canon] theorem dev66_eq (c : Dev nD) : (⟨k0_dev66 c, Gen.k0_dev66_lt c⟩ : Dev nD) = Vals.bwd c 6 :=
  Fin.ext (by revert c; decide +kernel)
@[sl_canon] theorem dev67_eq (c : Dev nD) : (⟨k0_dev67 c, Gen.k0_dev67_lt c⟩ : Dev nD) = Vals.bwd c 7 :=
  Fin.ext (by revert c; decide +kernel)
@[sl_canon] theorem dev68_eq (c : Dev nD) : (⟨k0_dev68 c, Gen.k0_dev68_lt c⟩ : Dev nD) = Vals.bwd c 8 :=
  Fin.ext (by revert c; decide +kernel)
@[sl_canon] theorem dev69_eq (c : Dev nD) : (⟨k0_dev69 c, Gen.k0_dev69_lt c⟩ : Dev nD) = Vals.bwd c 9 :=
  Fin.ext (by revert c; decide +kernel)
@[sl_canon] theorem dev70_eq (c : Dev nD) : (⟨k0_dev70 c, Gen.k0_dev70_lt c⟩ : Dev nD) = Vals.bwd c 10 :=
  Fin.ext (by revert c; decide +kernel)
@[sl_canon] theorem dev71_eq (c : Dev nD) : (⟨k0_dev71 c, Gen.k0_dev71_lt c⟩ : Dev nD) = Vals.bwd c 11 :=
  Fin.ext (by revert c; decide +kernel)
@[sl_canon] theorem dev72_eq (c : Dev nD) : (⟨k0_dev72 c, Gen.k0_dev72_lt c⟩ : Dev nD) = Vals.bwd c 12 :=
  Fin.ext (by revert c; decide +kernel)
@[sl_canon] theorem dev73_eq (c : Dev nD) : (⟨k0_dev73 c, Gen.k0_dev73_lt c⟩ : Dev nD) = Vals.bwd c 13 :=
  Fin.ext (by revert c; decide +kernel)
@[sl_canon] theorem dev74_eq (c : Dev nD) : (⟨k0_dev74 c, Gen.k0_dev74_lt c⟩ : Dev nD) = Vals.bwd c 14 :=
  Fin.ext (by revert c; decide +kernel)
@[sl_canon] theorem dev75_eq (c : Dev nD) : (⟨k0_dev75 c, Gen.k0_dev75_lt c⟩ : Dev nD) = Vals.bwd c 15 :=
  Fin.ext (by revert c; decide +kernel)
@[sl_canon] theorem dev76_eq (c : Dev nD) : (⟨k0_dev76 c, Gen.k0_dev76_lt c⟩ : Dev nD) = Vals.fwd c 1 :=
  Fin.ext (by revert c; decide +kernel)
@[sl_canon] theorem dev77_eq (c : Dev nD) : (⟨k0_dev77 c, Gen.k0_dev77_lt c⟩ : Dev nD) = Vals.fwd c 2 :=
  Fin.ext (by revert c; decide +kernel)
@[sl_canon] theorem dev78_eq (c : Dev nD) : (⟨k0_dev78 c, Gen.k0_dev78_lt c⟩ : Dev nD) = Vals.fwd c 3 :=
  Fin.ext (by revert c; decide +kernel)
@[sl_canon] theorem dev79_eq (c : Dev nD) : (⟨k0_dev79 c, Gen.k0_dev79_lt c⟩ : Dev nD) = Vals.fwd c 4 :=
  Fin.ext (by revert c; decide +kernel)
@[sl_canon] theorem dev80_eq (c : Dev nD) : (⟨k0_dev80 c, Gen.k0_dev80_lt c⟩ : Dev nD) = Vals.fwd c 5 :=
  Fin.ext (by revert c; decide +kernel)
@[sl_canon] theorem dev81_eq (c : Dev nD) : (⟨k0_dev81 c, Gen.k0_dev81_lt c⟩ : Dev nD) = Vals.fwd c 6 :=
  Fin.ext (by revert c; decide +kernel)
@[sl_canon] theorem dev82_eq (c : Dev nD) : (⟨k0_dev82 c, Gen.k0_dev82_lt c⟩ : Dev nD) = Vals.fwd c 7 :=
  Fin.ext (by revert c; decide +kernel)
@[sl_canon] theorem dev83_eq (c : Dev nD) : (⟨k0_dev83 c, Gen.k0_dev83_lt c⟩ : Dev nD) = Vals.fwd c 8 :=
  Fin.ext (by revert c; decide +kernel)
@[sl_canon] theorem dev84_eq (c : Dev nD) : (⟨k0_dev84 c, Gen.k0_dev84_lt c⟩ : Dev nD) = Vals.fwd c 9 :=
  Fin.ext (by revert c; decide +kernel)
@[sl_canon] theorem dev85_eq (c : Dev nD) : (⟨k0_dev85 c, Gen.k0_dev85_lt c⟩ : Dev nD) = Vals.fwd c 10 :=
  Fin.ext (by revert c; decide +kernel)
@[sl_canon] theorem dev86_eq (c : Dev nD) : (⟨k0_dev86 c, Gen.k0_dev86_lt c⟩ : Dev nD) = Vals.fwd c 11 :=
  Fin.ext (by revert c; decide +kernel)
@[sl_canon] theorem dev87_eq (c : Dev nD) : (⟨k0_dev87 c, Gen.k0_dev87_lt c⟩ : Dev nD) = Vals.fwd c 12 :=
  Fin.ext (by revert c; decide +kernel)
@[sl_canon] theorem dev88_eq (c : Dev nD) : (⟨k0_dev88 c, Gen.k0_dev88_lt c⟩ : Dev nD) = Vals.fwd c 13 :=
  Fin.ext (by revert c; decide +kernel)
@[sl_canon] theorem dev89_eq (c : Dev nD) : (⟨k0_dev89 c, Gen.k0_dev89_lt c⟩ : Dev nD) = Vals.fwd c 14 :=
  Fin.ext (by revert c; decide +kernel)
@[sl_canon] theorem dev90_eq (c : Dev nD) : (⟨k0_dev90 c, Gen.k0_dev90_lt c⟩ : Dev nD) = Vals.fwd c 15 :=
  Fin.ext (by revert c; decide +kernel)
@[sl_canon] theorem dev91_eq (c : Dev nD) : (⟨k0_dev91 c, Gen.k0_dev91_lt c⟩ : Dev nD) = Vals.bwd c 1 :=
  Fin.ext (by revert c; decide +kernel)
@[sl_canon] theorem dev92_eq (c : Dev nD) : (⟨k0_dev92 c, Gen.k0_dev92_lt c⟩ : Dev nD) = Vals.bwd c 2 :=
  Fin.ext (by revert c; decide +kernel)
@[sl_canon] theorem dev93_eq (c : Dev nD) : (⟨k0_dev93 c, Gen.k0_dev93_lt c⟩ : Dev nD) = Vals.bwd c 3 :=
  Fin.ext (by revert c; decide +kernel)
@[sl_canon] theorem dev94_eq (c : Dev nD) : (⟨k0_dev94 c, Gen.k0_dev94_lt c⟩ : Dev nD) = Vals.bwd c 4 :=
  Fin.ext (by revert c; decide +kernel)
@[sl_canon] theorem dev95_eq (c : Dev nD) : (⟨k0_dev95 c, Gen.k0_dev95_lt c⟩ : Dev nD) = Vals.bwd c 5 :=
  Fin.ext (by revert c; decide +kernel)
@[sl_canon] theorem dev96_eq (c : Dev nD) : (⟨k0_dev96 c, Gen.k0_dev96_lt c⟩ : Dev nD) = Vals.bwd c 6 :=
  Fin.ext (by revert c; decide +kernel)
@[sl_canon] theorem dev97_eq (c : Dev nD) : (⟨k0_dev97 c, Gen.k0_dev97_lt c⟩ : Dev nD) = Vals.bwd c 7 :=
  Fin.ext (by revert c; decide +kernel)
@[sl_canon] theorem dev98_eq (c : Dev nD) : (⟨k0_dev98 c, Gen.k0_dev98_lt c⟩ : Dev nD) = Vals.bwd c 8 :=
  Fin.ext (by revert c; decide +kernel)
@[sl_canon] theorem dev99_eq (c : Dev nD) : (⟨k0_dev99 c, Gen.k0_dev99_lt c⟩ : Dev nD) = Vals.bwd c 9 :=
  Fin.ext (by revert c; decide +kernel)
@[sl_canon] theorem dev100_eq (c : Dev nD) : (⟨k0_dev100 c, Gen.k0_dev100_lt c⟩ : Dev nD) = Vals.bwd c 10 :=
  Fin.ext (by revert c; decide +kernel)
@[sl_canon] theorem dev101_eq (c : Dev nD) : (⟨k0_dev101 c, Gen.k0_dev101_lt c⟩ : Dev nD) = Vals.bwd c 11 :=
  Fin.ext (by revert c; decide +kernel)
@[sl_canon] theorem dev102_eq (c : Dev nD) : (⟨k0_dev102 c, Gen.k0_dev102_lt c⟩ : Dev nD) = Vals.bwd c 12 :=
  Fin.ext (by revert c; decide +kernel)
@[sl_canon] theorem dev103_eq (c : Dev nD) : (⟨k0_dev103 c, Gen.k0_dev103_lt c⟩ : Dev nD) = Vals.bwd c 13 :=
  Fin.ext (by revert c; decide +kernel)
@[sl_canon] theorem dev104_eq (c : Dev nD) : (⟨k0_dev104 c, Gen.k0_dev104_lt c⟩ : Dev nD) = Vals.bwd c 14 :=
  Fin.ext (by revert c; decide +kernel)
@[sl_canon] theorem dev105_eq (c : Dev nD) : (⟨k0_dev105 c, Gen.k0_dev105_lt c⟩ : Dev nD) = Vals.bwd c 15 :=
  Fin.ext (by revert c; decide +kernel)

/-! ## The ring's laws -/

theorem fwd_val (c : Dev nD) (k : ℕ) : (Vals.fwd c k).val = (c.val + k) % 16 := rfl
theorem bwd_val (c : Dev nD) (k : ℕ) : (Vals.bwd c k).val = (c.val + (16 - k % 16)) % 16 := rfl

/-- No step at all. -/
theorem fwd_zero (c : Dev nD) : Vals.fwd c 0 = c := by
  apply Fin.ext; have hc : c.val < 16 := c.isLt; simp only [fwd_val]; omega

theorem bwd_zero (c : Dev nD) : Vals.bwd c 0 = c := by
  apply Fin.ext; have hc : c.val < 16 := c.isLt; simp only [bwd_val]; omega

/-- k places forward then k places back. -/
theorem bwd_fwd (c : Dev nD) (k : ℕ) (hk : k < 16) : Vals.bwd (Vals.fwd c k) k = c := by
  apply Fin.ext; have hc : c.val < 16 := c.isLt; simp only [fwd_val, bwd_val]; omega

/-- k places back then k places forward. -/
theorem fwd_bwd (c : Dev nD) (k : ℕ) (hk : k < 16) : Vals.fwd (Vals.bwd c k) k = c := by
  apply Fin.ext; have hc : c.val < 16 := c.isLt; simp only [fwd_val, bwd_val]; omega

/-- A step of 1..15 places forward leaves the device. -/
theorem fwd_ne (c : Dev nD) (k : ℕ) (h1 : 1 ≤ k) (h15 : k ≤ 15) : Vals.fwd c k ≠ c := by
  intro h; have h' := congrArg Fin.val h; have hc : c.val < 16 := c.isLt; simp only [fwd_val] at h'; omega

/-- A step of 1..15 places back leaves the device. -/
theorem bwd_ne (c : Dev nD) (k : ℕ) (h1 : 1 ≤ k) (h15 : k ≤ 15) : Vals.bwd c k ≠ c := by
  intro h; have h' := congrArg Fin.val h; have hc : c.val < 16 := c.isLt; simp only [bwd_val] at h'; omega

theorem ne_fwd (c : Dev nD) (k : ℕ) (h1 : 1 ≤ k) (h15 : k ≤ 15) : c ≠ Vals.fwd c k :=
  fun h => fwd_ne c k h1 h15 h.symm

theorem ne_bwd (c : Dev nD) (k : ℕ) (h1 : 1 ≤ k) (h15 : k ≤ 15) : c ≠ Vals.bwd c k :=
  fun h => bwd_ne c k h1 h15 h.symm

/-- k places back is 16 - k places forward. -/
theorem bwd_eq_fwd (c : Dev nD) (k : ℕ) (h1 : 1 ≤ k) (h15 : k ≤ 15) : Vals.bwd c k = Vals.fwd c (16 - k) := by
  apply Fin.ext; have hc : c.val < 16 := c.isLt; simp only [fwd_val, bwd_val]; omega

/-- k places forward is 16 - k places back. -/
theorem fwd_eq_bwd (c : Dev nD) (k : ℕ) (h1 : 1 ≤ k) (h15 : k ≤ 15) : Vals.fwd c k = Vals.bwd c (16 - k) := by
  apply Fin.ext; have hc : c.val < 16 := c.isLt; simp only [fwd_val, bwd_val]; omega

/-- Two devices with the same device k places after them are one device. -/
theorem fwd_injective (k : ℕ) : Function.Injective (fun c : Dev nD => Vals.fwd c k) := by
  intro a b h
  have h' := congrArg Fin.val h
  apply Fin.ext; have ha : a.val < 16 := a.isLt; have hb : b.val < 16 := b.isLt; simp only [fwd_val] at h'; omega

theorem bwd_injective (k : ℕ) : Function.Injective (fun c : Dev nD => Vals.bwd c k) := by
  intro a b h
  have h' := congrArg Fin.val h
  apply Fin.ext; have ha : a.val < 16 := a.isLt; have hb : b.val < 16 := b.isLt; simp only [bwd_val] at h'; omega

theorem fwd_inj (a b : Dev nD) (k : ℕ) : Vals.fwd a k = Vals.fwd b k ↔ a = b :=
  ⟨fun h => fwd_injective k h, fun h => h ▸ rfl⟩

theorem bwd_inj (a b : Dev nD) (k : ℕ) : Vals.bwd a k = Vals.bwd b k ↔ a = b :=
  ⟨fun h => bwd_injective k h, fun h => h ▸ rfl⟩

/-- The device k places after c is e exactly when c is k places before e. -/
theorem fwd_eq_iff (c e : Dev nD) (k : ℕ) (hk : k < 16) : Vals.fwd c k = e ↔ c = Vals.bwd e k :=
  ⟨fun h => by rw [← h, bwd_fwd c k hk], fun h => by rw [h, fwd_bwd e k hk]⟩

theorem bwd_eq_iff (c e : Dev nD) (k : ℕ) (hk : k < 16) : Vals.bwd c k = e ↔ c = Vals.fwd e k :=
  ⟨fun h => by rw [← h, fwd_bwd c k hk], fun h => by rw [h, bwd_fwd e k hk]⟩

/-- Steps forward add up. -/
theorem fwd_fwd (c : Dev nD) (j k : ℕ) : Vals.fwd (Vals.fwd c j) k = Vals.fwd c (j + k) := by
  apply Fin.ext; have hc : c.val < 16 := c.isLt; simp only [fwd_val]; omega

/-- Different steps of fewer than sixteen places reach different devices. -/
theorem fwd_ne_fwd (c : Dev nD) (j k : ℕ) (hj : j < 16) (hk : k < 16) (hjk : j ≠ k) : Vals.fwd c j ≠ Vals.fwd c k := by
  intro h; have h' := congrArg Fin.val h; have hc : c.val < 16 := c.isLt; simp only [fwd_val] at h'; omega

theorem bwd_ne_bwd (c : Dev nD) (j k : ℕ) (hj : j < 16) (hk : k < 16) (hjk : j ≠ k) : Vals.bwd c j ≠ Vals.bwd c k := by
  intro h; have h' := congrArg Fin.val h; have hc : c.val < 16 := c.isLt; simp only [bwd_val] at h'; omega

/-- Stepping k places forward, as a bijection of the devices; its inverse steps k places back. -/
def ringE (k : ℕ) (hk : k < 16) : Dev nD ≃ Dev nD where
  toFun := (Vals.fwd · k)
  invFun := (Vals.bwd · k)
  left_inv := fun c => bwd_fwd c k hk
  right_inv := fun c => fwd_bwd c k hk

@[simp] theorem ringE_apply (k : ℕ) (hk : k < 16) (c : Dev nD) : ringE k hk c = Vals.fwd c k := rfl
@[simp] theorem ringE_symm_apply (k : ℕ) (hk : k < 16) (c : Dev nD) : (ringE k hk).symm c = Vals.bwd c k := rfl

end Cert.KernelIdeal.Ring

/-- info: 'Cert.KernelIdeal.Ring.dev105_eq' depends on axioms: [propext, Quot.sound] -/
#guard_msgs in #print axioms Cert.KernelIdeal.Ring.dev105_eq

/-- info: 'Cert.KernelIdeal.Ring.ringE' depends on axioms: [propext, Quot.sound] -/
#guard_msgs in #print axioms Cert.KernelIdeal.Ring.ringE
-- ==== Proof.Open.lean ====
import Idealize.ShloMosaic.Lib.Pipeline.Kit
noncomputable section
namespace Cert.KernelIdeal.Open
open Idealize.SL Idealize.SL.RA Idealize.SL.BI
open scoped Idealize.SL.BI
open Idealize.SL.BI.BIBase Idealize.SL.BI.Laws Idealize.SL.ProofMode

/-- A separating conjunction over the fifteen copy indices, written out. -/
theorem bigSep_F15 {M : Type} [URA M] (Φ : Fin 15 → sProp M) :
    bigSep Finset.univ Φ = iprop(Φ (0 : Fin 15) ∗ Φ (1 : Fin 15) ∗ Φ (2 : Fin 15) ∗ Φ (3 : Fin 15) ∗ Φ (4 : Fin 15) ∗ Φ (5 : Fin 15) ∗ Φ (6 : Fin 15) ∗ Φ (7 : Fin 15) ∗ Φ (8 : Fin 15) ∗ Φ (9 : Fin 15) ∗ Φ (10 : Fin 15) ∗ Φ (11 : Fin 15) ∗ Φ (12 : Fin 15) ∗ Φ (13 : Fin 15) ∗ Φ (14 : Fin 15)) :=
  bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) Φ

/-- Over the sixteen slots. -/
theorem bigSep_F16 {M : Type} [URA M] (Φ : Fin 16 → sProp M) :
    bigSep Finset.univ Φ = iprop(Φ (0 : Fin 16) ∗ Φ (1 : Fin 16) ∗ Φ (2 : Fin 16) ∗ Φ (3 : Fin 16) ∗ Φ (4 : Fin 16) ∗ Φ (5 : Fin 16) ∗ Φ (6 : Fin 16) ∗ Φ (7 : Fin 16) ∗ Φ (8 : Fin 16) ∗ Φ (9 : Fin 16) ∗ Φ (10 : Fin 16) ∗ Φ (11 : Fin 16) ∗ Φ (12 : Fin 16) ∗ Φ (13 : Fin 16) ∗ Φ (14 : Fin 16) ∗ Φ (15 : Fin 16)) :=
  bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) Φ

/-- Over the fifteen nonzero duty names. -/
theorem bigSep_D1 {M : Type} [URA M] (Φ : Fin 16 → sProp M) :
    bigSep (Finset.univ.erase (0 : Fin 16)) Φ = iprop(Φ (1 : Fin 16) ∗ Φ (2 : Fin 16) ∗ Φ (3 : Fin 16) ∗ Φ (4 : Fin 16) ∗ Φ (5 : Fin 16) ∗ Φ (6 : Fin 16) ∗ Φ (7 : Fin 16) ∗ Φ (8 : Fin 16) ∗ Φ (9 : Fin 16) ∗ Φ (10 : Fin 16) ∗ Φ (11 : Fin 16) ∗ Φ (12 : Fin 16) ∗ Φ (13 : Fin 16) ∗ Φ (14 : Fin 16) ∗ Φ (15 : Fin 16)) :=
  bigSep_eq_bigSepL_of_eq [(1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) Φ

end Cert.KernelIdeal.Open
end
-- ==== Proof.StepsSend.lean ====
import proofs.«900978_g7700000000000979_dist_mlpseq_tp1d_bs_bs_b256_d256_h512_v7x_i16_bf16_1_alg».proof.Proof.Dats
import proofs.«900978_g7700000000000979_dist_mlpseq_tp1d_bs_bs_b256_d256_h512_v7x_i16_bf16_1_alg».proof.Proof.SchedTables
import proofs.«900978_g7700000000000979_dist_mlpseq_tp1d_bs_bs_b256_d256_h512_v7x_i16_bf16_1_alg».proof.Proof.RingLaws
import proofs.«900978_g7700000000000979_dist_mlpseq_tp1d_bs_bs_b256_d256_h512_v7x_i16_bf16_1_alg».proof.Proof.Gen.KernelIdeal.Skeleton
import proofs.«900978_g7700000000000979_dist_mlpseq_tp1d_bs_bs_b256_d256_h512_v7x_i16_bf16_1_alg».proof.Proof.StateLemmas
import proofs.«900978_g7700000000000979_dist_mlpseq_tp1d_bs_bs_b256_d256_h512_v7x_i16_bf16_1_alg».proof.Proof.Phases
import Idealize.ShloMosaic.Lib.Pipeline.Value
noncomputable section
namespace Cert.KernelIdeal.StepsSend
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws Cert.KernelIdeal.Phases
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## The copies a device issues

  Chunk copy j+1 of layer r leaves slot 0 of X at a borrowed half of what the device still keeps of it and lands in
  slot j+1 of the device j+1 places after; the piece of copy index j+1 leaves slot j+1 of P and lands in slot 14-j of R
  on the device j+1 places before. Each landing writes one slot of the destination's buffer: on that slot's own
  elements the buffer then holds the copied rows whatever it held elsewhere. -/

/-- Every slot copy credits the same amount. -/
theorem NX_x (k : Fin 16) : (xslot k).view.dmaCredit = NX := rfl
theorem NX_r (j : Fin 15) : (rslot j).view.dmaCredit = NX := rfl

/-- The sender's tokens of layer r and those of the later layers. -/
theorem snToks_step (c : Dev nD) (j : Fin 15) (r : ℕ) (hr : r < 3) :
    snToks (F := F) c j r = iprop((dutyTok ER (cell (nxt c j) (.dma (rAg j))) r 0 ∗ dutyTok ER (cell c (.dma (sAg j))) r 0
        ∗ cred (tallyAt (cell c (.dma (rRs (Fin.rev j)))) r NX)) ∗ snToks (F := F) c j (r + 1)) := by
  unfold snToks
  rw [Ico_layers r hr, bigSep_insert (by simp only [Finset.mem_Ico]; omega)]
  rfl

/-- A chunk landed in slot k of X on device e: on the slot's own elements the buffer holds the chunk. -/
theorem land_x (e c : Dev nD) (k : Fin 16) (v : Vec F S256x256 .bf16) (fd : Buf (Elt F) ((xslot k).view.loc (e : Thread nD τ))) :
    ((xslot k).view.loc (e : Thread nD τ) ↦[(xslot k).view.set]{fullShare}
        ((xslot k).view.write (Elt F) fd ((xslot 0).view.read (Elt F) (xfill c 0 v)) Finset.univ) : sProp 𝕄)
      = xPts e k fullShare (xfill e k v) := by
  have hread : (xslot 0).view.read (Elt F) (xfill c 0 v) = v := View.read_write_univ _ _
  rw [hread]
  unfold xPts xfill
  refine pointsTo_congr fun i hi => ?_
  obtain ⟨y, rfl⟩ := View.exists_emb_of_mem_set _ hi
  exact (View.write_emb_of_mem _ _ (Finset.mem_univ y)).trans (View.write_emb_of_mem _ _ (Finset.mem_univ y)).symm

/-- A piece landed in slot i of R on device e: on the slot's own elements the buffer holds the piece. -/
theorem land_r (e c : Dev nD) (i : Fin 15) (k : Fin 16) (v : Vec F S256x256 .bf16) (fd : Buf (Elt F) ((rslot i).view.loc (e : Thread nD τ))) :
    ((rslot i).view.loc (e : Thread nD τ) ↦[(rslot i).view.set]{fullShare}
        ((rslot i).view.write (Elt F) fd ((pslot k).view.read (Elt F) (pfill c k v)) Finset.univ) : sProp 𝕄)
      = rPts e i (rfill e i v) := by
  have hread : (pslot k).view.read (Elt F) (pfill c k v) = v := View.read_write_univ _ _
  rw [hread]
  unfold rPts rfill
  refine pointsTo_congr fun x hx => ?_
  obtain ⟨y, rfl⟩ := View.exists_emb_of_mem_set _ hx
  exact (View.write_emb_of_mem _ _ (Finset.mem_univ y)).trans (View.write_emb_of_mem _ _ (Finset.mem_univ y)).symm

/-- Slot 14 - j of R belongs to copy index j + 1. -/
theorem rev_index (j : Fin 15) : 15 - (Fin.rev j).val = j.val + 1 := by
  rw [Fin.val_rev]; have := j.isLt; omega

/-- Device c issues chunk copy j+1 of layer r: out of slot 0 of X, at the half it lends of the share it still keeps, into
    slot j+1 of X on the device j+1 places after it. The landing hands that device the slot holding c's chunk of the
    layer, together with c's slot 14-j of R, in which the piece will come back, and the fact that c has consumed the
    earlier rounds of that slot's receive cell; the send side will return the lent half. -/
theorem step_AS (K : GSem nD τ sig → ℕ) (c : Dev nD) (j : Fin 15) (r : ℕ) (hr : r < 3) (a b : Fin 15 → ℕ) (ha : a j = r)
    {W : Waits sig ℕ} {α : Type} {Q : α → sProp 𝕄} {k : PUnit → Prog (TpuEff nD τ sig (Elt F) Λ₀ .tc) α}
    {hsc : (xslot (kOf j)).view.ref.isScScratch = false}
    {hsrc : (xslot 0).view.WordExact} {hdst : (xslot (kOf j)).view.WordExact}
    {hsem : DmaTarget.Typed (nD := nD) (τ := τ) (p := .tc) .vmem (.dma (rAg j)) (.remote (nxt c j : Thread nD τ) (xslot (kOf j)) (.dma (sAg j)) hsc)} :
    iprop(Invs m K ∗ owes (c : Thread nD τ) (Otot c a b 15) W ∗ sn (F := F) c j r ∗ dstX (F := F) c j r
        ∗ xPts c 0 (keepSh j.val) (xfill c 0 (chunkAt m r c)) ∗ (∃ f, rPts (F := F) c (Fin.rev j) f))
      ⊢ iprop(((owes (c : Thread nD τ) (Otot c (Function.update a j (r + 1)) b 15) W ∗ snSent (F := F) c j r
                ∗ xPts c 0 (keepSh (j.val + 1)) (xfill c 0 (chunkAt m r c)))
              -∗ wp frame (wpE (defs₀ (F := F)) 𝒱₀ c none) Set.univ (k ⟨⟩) Q)
          -∗ wp frame (wpE (defs₀ (F := F)) 𝒱₀ c none) Set.univ
              (.op (.enqueueDma (xslot 0) (.remote (nxt c j : Thread nD τ) (xslot (kOf j)) (.dma (sAg j)) hsc) (.dma (rAg j)) hsrc hdst hsem) k) Q) := by
  unfold sn dstX snSent xPts
  rw [snToks_step c j r hr]
  iintro ⟨#HI, HO, ⟨⟨⟨Ht1, Ht2, Hc⟩, Hts⟩, Ha1, Ha2, #Hr1, #Hr2⟩, ⟨⟨%fd, Hd⟩, #Hr3⟩, Hx, Hrr⟩ Hk
  ihave ⟨Hkeep, Hlent⟩ := (pointsTo_share (PosShare.mem_left_op_right (keepSh j.val))).1 $$ Hx
  iapply (Rounds.wp_send_pointsTo_with 𝒱₀ ER (sched m) (c : Thread nD τ) none
      (c' := (nxt c j : Thread nD τ)) (src := xslot 0) (dst := xslot (kOf j)) (q := lentSh j.val)
      (fs := xfill c 0 (chunkAt m r c)) (fd := fd)
      (F := iprop((∃ f, rPts (F := F) c (Fin.rev j) f) ∗ reached ER (cell c (.dma (rRs (Fin.rev j)))) r))
      (κ₁ := K (cell c (.dma (sAg j)))) (κ₂ := K (cell (nxt c j) (.dma (rAg j))))
      (zero_mem_sAg m c j r hr) (zero_mem_rAg m (nxt c j) j r hr) r r NX (NX_x (kOf j))
      (amount_sAg m c j r 0) (amount_rAg m (nxt c j) j r 0)
      (Otot c (Function.update a j (r + 1)) b 15) (Otot_stepA c a b 15 j r ha hr)
      (Entails.of_eq (by rw [payload_sAg]; rfl))
      (Entails.of_eq (by rw [payload_rAg]; unfold agRPay; rw [bwd_fwd, land_x]))) $$ [HO Ht1 Ht2 Hd Hlent Hrr]
  · isplitr; · iapply (Invs_at m K c (.dma (sAg j)) (mem_allSems_sAg j)); iexact HI
    isplitr; · iapply (Invs_at m K (nxt c j) (.dma (rAg j)) (mem_allSems_rAg j)); iexact HI
    isplitl [Hlent]; · iexact Hlent
    isplitl [Hd Hrr]
    · isplitl [Hd]; · iexact Hd
      isplitl [Hrr]; · iexact Hrr
      iexact Hr2
    isplitl [HO]; · iexact HO
    isplitl [Ht2]; · iexact Ht2
    isplitr; · iexact Hr1
    isplitl [Ht1]; · iexact Ht1
    iexact Hr3
  iintro ⟨Hcs, HO⟩
  iapply Hk
  isplitl [HO]; · iexact HO
  isplitr [Hkeep]
  · isplitl [Hts]; · iexact Hts
    isplitl [Hc]; · iexact Hc
    isplitl [Hcs]; · iexact Hcs
    isplitl [Ha1]; · iexact Ha1
    iexact Ha2
  · iexact Hkeep

/-- Device c returns the piece of copy index j+1 at a layer r followed by another: out of slot j+1 of P into slot 14-j of R
    on the device j+1 places before it. The landing hands that device the slot holding the piece, together with c's
    slot j+1 of X, in which that device's next chunk will land, and the fact that c has consumed this layer's round of
    the slot's receive cell; the send side will return the slot of P. -/
theorem step_RS (K : GSem nD τ sig → ℕ) (c : Dev nD) (j : Fin 15) (r : ℕ) (hr : r < 2) (a b : Fin 15 → ℕ) (hb : b j = r)
    {W : Waits sig ℕ} {α : Type} {Q : α → sProp 𝕄} {k : PUnit → Prog (TpuEff nD τ sig (Elt F) Λ₀ .tc) α}
    {hsc : (rslot (Fin.rev j)).view.ref.isScScratch = false}
    {hsrc : (pslot (kOf j)).view.WordExact} {hdst : (rslot (Fin.rev j)).view.WordExact}
    {hsem : DmaTarget.Typed (nD := nD) (τ := τ) (p := .tc) .vmem (.dma (rRs (Fin.rev j))) (.remote (prv c j : Thread nD τ) (rslot (Fin.rev j)) (.dma (sRs (Fin.rev j))) hsc)} :
    iprop(Invs m K ∗ owes (c : Thread nD τ) (Otot c a b 15) W ∗ rcGot (F := F) c j r ∗ dstR (F := F) c j r
        ∗ pPts c (kOf j) (pfill c (kOf j) (pieceAt m r c (j.val + 1)))
        ∗ (∃ f, xPts (F := F) c (kOf j) fullShare f))
      ⊢ iprop(((owes (c : Thread nD τ) (Otot c a (Function.update b j (r + 1)) 15) W ∗ rcSent (F := F) c j r)
              -∗ wp frame (wpE (defs₀ (F := F)) 𝒱₀ c none) Set.univ (k ⟨⟩) Q)
          -∗ wp frame (wpE (defs₀ (F := F)) 𝒱₀ c none) Set.univ
              (.op (.enqueueDma (pslot (kOf j)) (.remote (prv c j : Thread nD τ) (rslot (Fin.rev j)) (.dma (sRs (Fin.rev j))) hsc) (.dma (rRs (Fin.rev j))) hsrc hdst hsem) k) Q) := by
  have hr3 : r < 3 := by omega
  unfold rcGot dstR rcSent pPts rPts
  iintro ⟨#HI, HO, ⟨Hts, Ht1, Ht2, Ha1, Ha2, #Hr1, #Hr2⟩, ⟨⟨%fd, Hd⟩, #Hr3⟩, Hp, Hx⟩ Hk
  iapply (Rounds.wp_send_pointsTo_with 𝒱₀ ER (sched m) (c : Thread nD τ) none
      (c' := (prv c j : Thread nD τ)) (src := pslot (kOf j)) (dst := rslot (Fin.rev j)) (q := fullShare)
      (fs := pfill c (kOf j) (pieceAt m r c (j.val + 1))) (fd := fd)
      (F := iprop((∃ f, xPts (F := F) c (kOf j) fullShare f) ∗ reached ER (cell c (.dma (rAg j))) (r + 1)))
      (κ₁ := K (cell c (.dma (sRs (Fin.rev j))))) (κ₂ := K (cell (prv c j) (.dma (rRs (Fin.rev j)))))
      (zero_mem_sRs m c (Fin.rev j) r hr3) (zero_mem_rRs m (prv c j) (Fin.rev j) r hr3) r r NX (NX_r (Fin.rev j))
      (amount_sRs m c (Fin.rev j) r 0) (amount_rRs m (prv c j) (Fin.rev j) r 0)
      (Otot c a (Function.update b j (r + 1)) 15) (Otot_stepB c a b 15 j r hb hr3)
      (Entails.of_eq (by rw [payload_sRs]; unfold rsSPay pPts; rw [rev_index, Fin.rev_rev]))
      (Entails.of_eq (by rw [payload_rRs]; unfold rsRPay; rw [rev_index, Fin.rev_rev, fwd_bwd, land_r, if_pos hr]))) $$ [HO Ht1 Ht2 Hd Hp Hx]
  · isplitr; · iapply (Invs_at m K c (.dma (sRs (Fin.rev j))) (mem_allSems_sRs (Fin.rev j))); iexact HI
    isplitr; · iapply (Invs_at m K (prv c j) (.dma (rRs (Fin.rev j))) (mem_allSems_rRs (Fin.rev j))); iexact HI
    isplitl [Hp]; · iexact Hp
    isplitl [Hd Hx]
    · isplitl [Hd]; · iexact Hd
      isplitl [Hx]; · iexact Hx
      iexact Hr1
    isplitl [HO]; · iexact HO
    isplitl [Ht2]; · iexact Ht2
    isplitr; · iexact Hr2
    isplitl [Ht1]; · iexact Ht1
    iexact Hr3
  iintro ⟨Hcs, HO⟩
  iapply Hk
  isplitl [HO]; · iexact HO
  isplitl [Hts]; · iexact Hts
  isplitl [Hcs]; · iexact Hcs
  isplitl [Ha1]; · iexact Ha1
  isplitl [Ha2]; · iexact Ha2
  iexact Hr1

/-- The same at the last layer: nothing follows, so the landing hands over the slot holding the piece only. -/
theorem step_RS_last (K : GSem nD τ sig → ℕ) (c : Dev nD) (j : Fin 15) (r : ℕ) (hr : r = 2) (a b : Fin 15 → ℕ) (hb : b j = r)
    {W : Waits sig ℕ} {α : Type} {Q : α → sProp 𝕄} {k : PUnit → Prog (TpuEff nD τ sig (Elt F) Λ₀ .tc) α}
    {hsc : (rslot (Fin.rev j)).view.ref.isScScratch = false}
    {hsrc : (pslot (kOf j)).view.WordExact} {hdst : (rslot (Fin.rev j)).view.WordExact}
    {hsem : DmaTarget.Typed (nD := nD) (τ := τ) (p := .tc) .vmem (.dma (rRs (Fin.rev j))) (.remote (prv c j : Thread nD τ) (rslot (Fin.rev j)) (.dma (sRs (Fin.rev j))) hsc)} :
    iprop(Invs m K ∗ owes (c : Thread nD τ) (Otot c a b 15) W ∗ rcGot (F := F) c j r ∗ dstR (F := F) c j r
        ∗ pPts c (kOf j) (pfill c (kOf j) (pieceAt m r c (j.val + 1))))
      ⊢ iprop(((owes (c : Thread nD τ) (Otot c a (Function.update b j (r + 1)) 15) W ∗ rcSent (F := F) c j r)
              -∗ wp frame (wpE (defs₀ (F := F)) 𝒱₀ c none) Set.univ (k ⟨⟩) Q)
          -∗ wp frame (wpE (defs₀ (F := F)) 𝒱₀ c none) Set.univ
              (.op (.enqueueDma (pslot (kOf j)) (.remote (prv c j : Thread nD τ) (rslot (Fin.rev j)) (.dma (sRs (Fin.rev j))) hsc) (.dma (rRs (Fin.rev j))) hsrc hdst hsem) k) Q) := by
  have hr3 : r < 3 := by omega
  unfold rcGot dstR rcSent pPts rPts
  iintro ⟨#HI, HO, ⟨Hts, Ht1, Ht2, Ha1, Ha2, #Hr1, #Hr2⟩, ⟨⟨%fd, Hd⟩, #Hr3⟩, Hp⟩ Hk
  iapply (Rounds.wp_send_pointsTo_with 𝒱₀ ER (sched m) (c : Thread nD τ) none
      (c' := (prv c j : Thread nD τ)) (src := pslot (kOf j)) (dst := rslot (Fin.rev j)) (q := fullShare)
      (fs := pfill c (kOf j) (pieceAt m r c (j.val + 1))) (fd := fd)
      (F := iprop(emp))
      (κ₁ := K (cell c (.dma (sRs (Fin.rev j))))) (κ₂ := K (cell (prv c j) (.dma (rRs (Fin.rev j)))))
      (zero_mem_sRs m c (Fin.rev j) r hr3) (zero_mem_rRs m (prv c j) (Fin.rev j) r hr3) r r NX (NX_r (Fin.rev j))
      (amount_sRs m c (Fin.rev j) r 0) (amount_rRs m (prv c j) (Fin.rev j) r 0)
      (Otot c a (Function.update b j (r + 1)) 15) (Otot_stepB c a b 15 j r hb hr3)
      (Entails.of_eq (by rw [payload_sRs]; unfold rsSPay pPts; rw [rev_index, Fin.rev_rev]))
      (Entails.of_eq (by rw [payload_rRs]; unfold rsRPay; rw [rev_index, Fin.rev_rev, fwd_bwd, land_r, if_neg (by omega)]))) $$ [HO Ht1 Ht2 Hd Hp]
  · isplitr; · iapply (Invs_at m K c (.dma (sRs (Fin.rev j))) (mem_allSems_sRs (Fin.rev j))); iexact HI
    isplitr; · iapply (Invs_at m K (prv c j) (.dma (rRs (Fin.rev j))) (mem_allSems_rRs (Fin.rev j))); iexact HI
    isplitl [Hp]; · iexact Hp
    isplitl [Hd]
    · isplitl [Hd]; · iexact Hd
      iempintro
    isplitl [HO]; · iexact HO
    isplitl [Ht2]; · iexact Ht2
    isplitr; · iexact Hr2
    isplitl [Ht1]; · iexact Ht1
    iexact Hr3
  iintro ⟨Hcs, HO⟩
  iapply Hk
  isplitl [HO]; · iexact HO
  isplitl [Hts]; · iexact Hts
  isplitl [Hcs]; · iexact Hcs
  isplitl [Ha1]; · iexact Ha1
  isplitl [Ha2]; · iexact Ha2
  iexact Hr1

/-- info: 'Cert.KernelIdeal.StepsSend.step_AS' depends on axioms: [propext, Classical.choice, Quot.sound] -/
#guard_msgs in #print axioms step_AS
/-- info: 'Cert.KernelIdeal.StepsSend.step_RS' depends on axioms: [propext, Classical.choice, Quot.sound] -/
#guard_msgs in #print axioms step_RS
/-- info: 'Cert.KernelIdeal.StepsSend.step_RS_last' depends on axioms: [propext, Classical.choice, Quot.sound] -/
#guard_msgs in #print axioms step_RS_last

end Cert.KernelIdeal.StepsSend
end
-- ==== Proof.StepsWait.lean ====
/-
  The four waits of a layer, as steps on a copy index's phase bundles.

  Every transfer semaphore is waited once per layer, for the whole credit NX of one slot copy, by the device
  that owns it: the wait of layer r is round r of its cell and is tallied at index r. A wait is allowed when
  every copy the device has still to issue credits a cell above the waited one. The chunk copies of index i
  still to issue are those of the layers from a i on, at levels 4 (a i) + 2 and up; the piece copies still to
  issue are those of the layers from b i on, at levels 4 (b i) + 4 and up. So the receive and the send side
  of the chunk copies of layer r (levels 4 r + 2 and 4 r + 3) want r < a i and r ≤ b i for every copy index
  i, and the two sides of the piece copies (levels 4 r + 4 and 4 r + 5) want r < a i and r < b i. What the
  device owes is unchanged by a wait; the waited semaphore and layer join the record of its waits.

  Each step is stated over the wait as the program prints it: the semaphore is a one-entry window of its
  array, the two buffers are the slots the copy names, and the amount waited for is the credit of the
  destination slot, which is NX for every slot of X, of P and of R. The wait of a given copy index is then
  an instance of the step as it stands.
-/
import proofs.«900978_g7700000000000979_dist_mlpseq_tp1d_bs_bs_b256_d256_h512_v7x_i16_bf16_1_alg».proof.Proof.Dats
import proofs.«900978_g7700000000000979_dist_mlpseq_tp1d_bs_bs_b256_d256_h512_v7x_i16_bf16_1_alg».proof.Proof.SchedTables
import proofs.«900978_g7700000000000979_dist_mlpseq_tp1d_bs_bs_b256_d256_h512_v7x_i16_bf16_1_alg».proof.Proof.RingLaws
import proofs.«900978_g7700000000000979_dist_mlpseq_tp1d_bs_bs_b256_d256_h512_v7x_i16_bf16_1_alg».proof.Proof.Gen.KernelIdeal.Skeleton
import proofs.«900978_g7700000000000979_dist_mlpseq_tp1d_bs_bs_b256_d256_h512_v7x_i16_bf16_1_alg».proof.Proof.StateLemmas
import proofs.«900978_g7700000000000979_dist_mlpseq_tp1d_bs_bs_b256_d256_h512_v7x_i16_bf16_1_alg».proof.Proof.Phases
noncomputable section
namespace Cert.KernelIdeal.StepsWait
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws Cert.KernelIdeal.Phases
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## One slot copy's credit, whichever buffer the slot lies in -/

theorem credit_xslot (k : Fin 16) : (xslot k).view.dmaCredit = NX := rfl
theorem credit_pslot (k : Fin 16) : (pslot k).view.dmaCredit = NX := rfl
theorem credit_rslot (j : Fin 15) : (rslot j).view.dmaCredit = NX := rfl

/-! ## The printed waits are instances

  For copy index 1 (semaphore index 0; for the piece copies the slot of R is 14 and the slot of P is 1, and for
  semaphore index 0 of the piece copies' send side the slot of P is 15): the windows the program takes of the
  semaphore arrays and of the buffers are the named semaphores and slots. -/

example : rAg 0 = ((cc0_scratch5.slice (Rect.unit (s := S15) ![0] S1.size inb_S15_S1_0)).squeeze S_ squeezes_S1_S_).sem := rfl
example : sAg 0 = ((cc0_scratch3.slice (Rect.unit (s := S15) ![0] S1.size inb_S15_S1_0)).squeeze S_ squeezes_S1_S_).sem := rfl
example : rRs (Fin.rev 0) = ((cc0_scratch6.slice (Rect.unit (s := S15) ![14] S1.size inb_S15_S1_14)).squeeze S_ squeezes_S1_S_).sem := rfl
example : sRs (Fin.rev 14) = ((cc0_scratch4.slice (Rect.unit (s := S15) ![0] S1.size inb_S15_S1_0)).squeeze S_ squeezes_S1_S_).sem := rfl
example : xslot (kOf 0) = XM.slice (Rect.unit (s := S4096x256) ![256, 0] S256x256.size inb_S4096x256_S256x256_256_0) (fun _ => rfl) := rfl
example : xslot 0 = XM.slice (Rect.unit (s := S4096x256) ![0, 0] S256x256.size inb_S4096x256_S256x256_0_0) (fun _ => rfl) := rfl
example : rslot (Fin.rev 0) = (RM.slice (Rect.unit (s := S15x256x256) ![14, 0, 0] S1x256x256.size inb_S15x256x256_S1x256x256_14_0_0) (fun _ => rfl)).squeeze S256x256 squeezes_S1x256x256_S256x256 := rfl
example : pslot (kOf 14) = PM.slice (Rect.unit (s := S4096x256) ![3840, 0] S256x256.size inb_S4096x256_S256x256_3840_0) (fun _ => rfl) := rfl

/-! ## A bundle of tokens, one layer peeled off -/

/-- The receiver's tokens of the layers from r on: those of layer r, and those of the layers after it. -/
theorem rcToks_split (c : Dev nD) (j : Fin 15) (r : ℕ) (hr : r < 3) :
    rcToks (F := F) c j r = iprop((dutyTok ER (cell (prv c j) (.dma (rRs (Fin.rev j)))) r 0 ∗ dutyTok ER (cell c (.dma (sRs (Fin.rev j)))) r 0
        ∗ cred (tallyAt (cell c (.dma (rAg j))) r NX)) ∗ rcToks (F := F) c j (r + 1)) := by
  unfold rcToks
  rw [Ico_layers r hr, bigSep_insert (by simp only [Finset.mem_Ico]; omega)]
  rfl

/-! ## The waits

  Each goes by the rule for a wait that collects the rest of a round with one credit token, at round r and tally
  index r, with no duty of the round taken before: the cell's invariant, the token, what is owed, the level
  evidence and the owner's position go in; the owner comes back one round on with the round's one payload. -/

/-- Layer r's wait for chunk copy j+1: the receiver takes the slot holding the sender's chunk and the sender's slot of R. -/
theorem step_AR (K : GSem nD τ sig → ℕ) (c : Dev nD) (j : Fin 15) (r : ℕ) (hr : r < 3) (a b : Fin 15 → ℕ)
    (hA : ∀ i, r < a i) (hB : ∀ i, r ≤ b i)
    {W : Waits sig ℕ} {α : Type} {Q : α → sProp 𝕄} {k : PUnit → Prog (TpuEff nD τ sig (Elt F) Λ₀ .tc) α}
    {hsrc : (xslot (kOf j)).view.WordExact} {hdst : (xslot (kOf j)).view.WordExact} :
    iprop(Invs m K ∗ owes (c : Thread nD τ) (Otot c a b 15) W ∗ levAts L lv ∗ rc (F := F) c j r)
      ⊢ iprop(((owes (c : Thread nD τ) (Otot c a b 15) (insert (SemLoc.dma (rAg j), r) W) ∗ rcGot (F := F) c j r ∗ agRPay m c j r)
            -∗ wp frame (wpE (defs₀ (F := F)) 𝒱₀ c none) Set.univ (k ⟨⟩) Q)
          -∗ wp frame (wpE (defs₀ (F := F)) 𝒱₀ c none) Set.univ (.op (.waitDma2 (rAg j) (xslot (kOf j)) (xslot (kOf j)) hsrc hdst) k) Q) := by
  unfold rc rcGot
  rw [rcToks_split c j r hr]
  iintro ⟨#HI, HO, #Hlev, ⟨⟨Hd1, Hd2, Hc⟩, Ht⟩, Hat1, Hat2, #Hr1, #Hr2⟩ Hk
  iapply (Rounds.wp_wait_rest_token 𝒱₀ ER (sched m) (c : Thread nD τ) none
      (w := .waitDma2 (rAg j) (xslot (kOf j)) (xslot (kOf j)) hsrc hdst) (sm := .dma (rAg j)) (k' := NX) (κ := K (cell c (.dma (rAg j))))
      (fun Kc => wpE_waitDma2_eq 𝒱₀ (c : Thread nD τ) none Set.univ Kc) (Set.mem_univ _) r (O := Otot c a b 15) (W := W) (R := r) (m := 0) (T := ∅)
      ((Nat.zero_add NX).trans (expect_rAg m c j r hr).symm)) $$ [Hc HO Hat1]
  · isplitr; · iapply (Invs_at m K c (.dma (rAg j)) (mem_allSems_rAg j)); iexact HI
    isplitl [Hc]; · iexact Hc
    isplitl [HO]; · iexact HO
    isplitr
    · iapply (mayWait_of c a b 15 (.dma (rAg j)) r hr (Or.inl rfl)
        (fun i _ => by rw [lv_rAg]; have := hA i; omega)
        (fun i _ => by rw [lv_rAg]; have := hB i; omega))
      iexact Hlev
    iexact Hat1
  iintro ⟨HO, Hat, #Hr, Hpay⟩
  iapply Hk
  isplitl [HO]; · iexact HO
  isplitr [Hpay]
  · isplitl [Ht]; · iexact Ht
    isplitl [Hd1]; · iexact Hd1
    isplitl [Hd2]; · iexact Hd2
    isplitl [Hat]; · iexact Hat
    isplitl [Hat2]; · iexact Hat2
    isplitr; · iexact Hr
    iexact Hr2
  · iapply (Entails.of_eq (rest_rAg m c j r hr)); iexact Hpay

/-- Layer r's wait for the send side of chunk copy j+1: the lent share of slot 0 of X comes back. -/
theorem step_AW (K : GSem nD τ sig → ℕ) (c : Dev nD) (j : Fin 15) (r : ℕ) (hr : r < 3) (a b : Fin 15 → ℕ)
    (hA : ∀ i, r < a i) (hB : ∀ i, r ≤ b i)
    {W : Waits sig ℕ} {α : Type} {Q : α → sProp 𝕄} {k : PUnit → Prog (TpuEff nD τ sig (Elt F) Λ₀ .tc) α}
    {hsrc : (xslot (kOf j)).view.WordExact} {hdst : (xslot 0).view.WordExact} :
    iprop(Invs m K ∗ owes (c : Thread nD τ) (Otot c a b 15) W ∗ levAts L lv ∗ snSent (F := F) c j r)
      ⊢ iprop(((owes (c : Thread nD τ) (Otot c a b 15) (insert (SemLoc.dma (sAg j), r) W) ∗ snWaited (F := F) c j r ∗ agSPay m c j r)
            -∗ wp frame (wpE (defs₀ (F := F)) 𝒱₀ c none) Set.univ (k ⟨⟩) Q)
          -∗ wp frame (wpE (defs₀ (F := F)) 𝒱₀ c none) Set.univ (.op (.waitDma2 (sAg j) (xslot (kOf j)) (xslot 0) hsrc hdst) k) Q) := by
  unfold snSent snWaited
  iintro ⟨#HI, HO, #Hlev, Ht, Hc1, Hc2, Hat1, Hat2⟩ Hk
  iapply (Rounds.wp_wait_rest_token 𝒱₀ ER (sched m) (c : Thread nD τ) none
      (w := .waitDma2 (sAg j) (xslot (kOf j)) (xslot 0) hsrc hdst) (sm := .dma (sAg j)) (k' := NX) (κ := K (cell c (.dma (sAg j))))
      (fun Kc => wpE_waitDma2_eq 𝒱₀ (c : Thread nD τ) none Set.univ Kc) (Set.mem_univ _) r (O := Otot c a b 15) (W := W) (R := r) (m := 0) (T := ∅)
      ((Nat.zero_add NX).trans (expect_sAg m c j r hr).symm)) $$ [Hc2 HO Hat1]
  · isplitr; · iapply (Invs_at m K c (.dma (sAg j)) (mem_allSems_sAg j)); iexact HI
    isplitl [Hc2]; · iexact Hc2
    isplitl [HO]; · iexact HO
    isplitr
    · iapply (mayWait_of c a b 15 (.dma (sAg j)) r hr (Or.inl rfl)
        (fun i _ => by rw [lv_sAg]; have := hA i; omega)
        (fun i _ => by rw [lv_sAg]; have := hB i; omega))
      iexact Hlev
    iexact Hat1
  iintro ⟨HO, Hat, #Hr, Hpay⟩
  iapply Hk
  isplitl [HO]; · iexact HO
  isplitr [Hpay]
  · isplitl [Ht]; · iexact Ht
    isplitl [Hc1]; · iexact Hc1
    isplitl [Hat]; · iexact Hat
    isplitl [Hat2]; · iexact Hat2
    iexact Hr
  · iapply (Entails.of_eq (rest_sAg m c j r hr)); iexact Hpay

/-- Layer r's wait for the piece of copy index j+1: the sender of the chunk takes the slot of R holding the piece and is at layer r + 1. -/
theorem step_RR (K : GSem nD τ sig → ℕ) (c : Dev nD) (j : Fin 15) (r : ℕ) (hr : r < 3) (a b : Fin 15 → ℕ)
    (hA : ∀ i, r < a i) (hB : ∀ i, r < b i)
    {W : Waits sig ℕ} {α : Type} {Q : α → sProp 𝕄} {k : PUnit → Prog (TpuEff nD τ sig (Elt F) Λ₀ .tc) α}
    {hsrc : (rslot (Fin.rev j)).view.WordExact} {hdst : (rslot (Fin.rev j)).view.WordExact} :
    iprop(Invs m K ∗ owes (c : Thread nD τ) (Otot c a b 15) W ∗ levAts L lv ∗ snWaited (F := F) c j r)
      ⊢ iprop(((owes (c : Thread nD τ) (Otot c a b 15) (insert (SemLoc.dma (rRs (Fin.rev j)), r) W) ∗ sn (F := F) c j (r + 1) ∗ rsRPay m c (Fin.rev j) r)
            -∗ wp frame (wpE (defs₀ (F := F)) 𝒱₀ c none) Set.univ (k ⟨⟩) Q)
          -∗ wp frame (wpE (defs₀ (F := F)) 𝒱₀ c none) Set.univ (.op (.waitDma2 (rRs (Fin.rev j)) (rslot (Fin.rev j)) (rslot (Fin.rev j)) hsrc hdst) k) Q) := by
  unfold snWaited sn
  iintro ⟨#HI, HO, #Hlev, Ht, Hc, Hat1, Hat2, #Hr1⟩ Hk
  iapply (Rounds.wp_wait_rest_token 𝒱₀ ER (sched m) (c : Thread nD τ) none
      (w := .waitDma2 (rRs (Fin.rev j)) (rslot (Fin.rev j)) (rslot (Fin.rev j)) hsrc hdst) (sm := .dma (rRs (Fin.rev j))) (k' := NX) (κ := K (cell c (.dma (rRs (Fin.rev j)))))
      (fun Kc => wpE_waitDma2_eq 𝒱₀ (c : Thread nD τ) none Set.univ Kc) (Set.mem_univ _) r (O := Otot c a b 15) (W := W) (R := r) (m := 0) (T := ∅)
      ((Nat.zero_add NX).trans (expect_rRs m c (Fin.rev j) r hr).symm)) $$ [Hc HO Hat2]
  · isplitr; · iapply (Invs_at m K c (.dma (rRs (Fin.rev j))) (mem_allSems_rRs (Fin.rev j))); iexact HI
    isplitl [Hc]; · iexact Hc
    isplitl [HO]; · iexact HO
    isplitr
    · iapply (mayWait_of c a b 15 (.dma (rRs (Fin.rev j))) r hr (Or.inl rfl)
        (fun i _ => by rw [lv_rRs]; have := hA i; omega)
        (fun i _ => by rw [lv_rRs]; have := hB i; omega))
      iexact Hlev
    iexact Hat2
  iintro ⟨HO, Hat, #Hr, Hpay⟩
  iapply Hk
  isplitl [HO]; · iexact HO
  isplitr [Hpay]
  · isplitl [Ht]; · iexact Ht
    isplitl [Hat1]; · iexact Hat1
    isplitl [Hat]; · iexact Hat
    isplitr; · iexact Hr1
    iexact Hr
  · iapply (Entails.of_eq (rest_rRs m c (Fin.rev j) r hr)); iexact Hpay

/-- Layer r's wait for the send side of the piece copy of index j+1: the slot of P comes back and the receiver is at layer r + 1. -/
theorem step_RW (K : GSem nD τ sig → ℕ) (c : Dev nD) (j : Fin 15) (r : ℕ) (hr : r < 3) (a b : Fin 15 → ℕ)
    (hA : ∀ i, r < a i) (hB : ∀ i, r < b i)
    {W : Waits sig ℕ} {α : Type} {Q : α → sProp 𝕄} {k : PUnit → Prog (TpuEff nD τ sig (Elt F) Λ₀ .tc) α}
    {hsrc : (rslot (Fin.rev j)).view.WordExact} {hdst : (pslot (kOf j)).view.WordExact} :
    iprop(Invs m K ∗ owes (c : Thread nD τ) (Otot c a b 15) W ∗ levAts L lv ∗ rcSent (F := F) c j r)
      ⊢ iprop(((owes (c : Thread nD τ) (Otot c a b 15) (insert (SemLoc.dma (sRs (Fin.rev j)), r) W) ∗ rc (F := F) c j (r + 1) ∗ rsSPay m c (Fin.rev j) r)
            -∗ wp frame (wpE (defs₀ (F := F)) 𝒱₀ c none) Set.univ (k ⟨⟩) Q)
          -∗ wp frame (wpE (defs₀ (F := F)) 𝒱₀ c none) Set.univ (.op (.waitDma2 (sRs (Fin.rev j)) (rslot (Fin.rev j)) (pslot (kOf j)) hsrc hdst) k) Q) := by
  unfold rcSent rc
  iintro ⟨#HI, HO, #Hlev, Ht, Hc, Hat1, Hat2, #Hr1⟩ Hk
  iapply (Rounds.wp_wait_rest_token 𝒱₀ ER (sched m) (c : Thread nD τ) none
      (w := .waitDma2 (sRs (Fin.rev j)) (rslot (Fin.rev j)) (pslot (kOf j)) hsrc hdst) (sm := .dma (sRs (Fin.rev j))) (k' := NX) (κ := K (cell c (.dma (sRs (Fin.rev j)))))
      (fun Kc => wpE_waitDma2_eq 𝒱₀ (c : Thread nD τ) none Set.univ Kc) (Set.mem_univ _) r (O := Otot c a b 15) (W := W) (R := r) (m := 0) (T := ∅)
      ((Nat.zero_add NX).trans (expect_sRs m c (Fin.rev j) r hr).symm)) $$ [Hc HO Hat2]
  · isplitr; · iapply (Invs_at m K c (.dma (sRs (Fin.rev j))) (mem_allSems_sRs (Fin.rev j))); iexact HI
    isplitl [Hc]; · iexact Hc
    isplitl [HO]; · iexact HO
    isplitr
    · iapply (mayWait_of c a b 15 (.dma (sRs (Fin.rev j))) r hr (Or.inl rfl)
        (fun i _ => by rw [lv_sRs]; have := hA i; omega)
        (fun i _ => by rw [lv_sRs]; have := hB i; omega))
      iexact Hlev
    iexact Hat2
  iintro ⟨HO, Hat, #Hr, Hpay⟩
  iapply Hk
  isplitl [HO]; · iexact HO
  isplitr [Hpay]
  · isplitl [Ht]; · iexact Ht
    isplitl [Hat1]; · iexact Hat1
    isplitl [Hat]; · iexact Hat
    isplitr; · iexact Hr1
    iexact Hr
  · iapply (Entails.of_eq (rest_sRs m c (Fin.rev j) r hr)); iexact Hpay

/-! ## The barrier's payloads are the first landing slots -/

/-- What barrier duty l hands over is the landing slot of the first chunk copy of index 16 - l, on the device l places back,
    which is the device 16 - l places on; that device is at round 0 of the slot's receive cell. -/
theorem barPay_dstX (c : Dev nD) (l : D) (hl : l ≠ 0) : barPay (F := F) c l ⊢ dstX (F := F) c (jBar l) 0 := by
  have hl' : l.val ≠ 0 := fun h => hl (Fin.ext h)
  have hlt := l.isLt
  have h1 : bwd c l.val = nxt c (jBar l) := by
    apply Fin.ext; show (c.val + (16 - l.val % 16)) % 16 = (c.val + ((15 - l.val) % 15 + 1)) % 16; omega
  have h2 : kBar l = kOf (jBar l) := by
    apply Fin.ext; show (16 - l.val) % 16 = (15 - l.val) % 15 + 1; omega
  unfold barPay dstX
  rw [h1, h2]

/-- The fifteen barrier payloads are the fifteen first landing slots, one for each copy index. -/
theorem barPays_dstX (c : Dev nD) :
    bigSep (Finset.univ.erase (0 : D)) (fun l => barPay (F := F) c l) ⊢ bigSep Finset.univ fun j : Fin 15 => dstX (F := F) c j 0 := by
  have himg : (Finset.univ : Finset (Fin 15)) = (Finset.univ.erase (0 : D)).image jBar := by
    refine (Finset.eq_univ_iff_forall.mpr fun j => Finset.mem_image.mpr
      ⟨⟨15 - j.val, by have := j.isLt; omega⟩, Finset.mem_erase.mpr ⟨?_, Finset.mem_univ _⟩, ?_⟩).symm
    · intro h
      have h0 : 15 - j.val = 0 := congrArg Fin.val h
      have := j.isLt; omega
    · apply Fin.ext; show (15 - (15 - j.val)) % 15 = j.val; have := j.isLt; omega
  have hinj : Set.InjOn jBar ((Finset.univ.erase (0 : D) : Finset D) : Set D) := by
    intro x hx y hy h
    have hxv : x.val ≠ 0 := fun h0 => Finset.ne_of_mem_erase (Finset.mem_coe.mp hx) (Fin.ext h0)
    have hyv : y.val ≠ 0 := fun h0 => Finset.ne_of_mem_erase (Finset.mem_coe.mp hy) (Fin.ext h0)
    have hv : (15 - x.val) % 15 = (15 - y.val) % 15 := congrArg Fin.val h
    have := x.isLt; have := y.isLt
    apply Fin.ext; omega
  rw [himg, BI.bigSep_image_of_injOn hinj]
  exact BI.bigSep_mono fun l hl => barPay_dstX c l (Finset.ne_of_mem_erase hl)

end Cert.KernelIdeal.StepsWait

/-- info: 'Cert.KernelIdeal.StepsWait.step_AR' depends on axioms: [propext, Classical.choice, Quot.sound] -/
#guard_msgs in #print axioms Cert.KernelIdeal.StepsWait.step_AR
/-- info: 'Cert.KernelIdeal.StepsWait.step_AW' depends on axioms: [propext, Classical.choice, Quot.sound] -/
#guard_msgs in #print axioms Cert.KernelIdeal.StepsWait.step_AW
/-- info: 'Cert.KernelIdeal.StepsWait.step_RR' depends on axioms: [propext, Classical.choice, Quot.sound] -/
#guard_msgs in #print axioms Cert.KernelIdeal.StepsWait.step_RR
/-- info: 'Cert.KernelIdeal.StepsWait.step_RW' depends on axioms: [propext, Classical.choice, Quot.sound] -/
#guard_msgs in #print axioms Cert.KernelIdeal.StepsWait.step_RW
/-- info: 'Cert.KernelIdeal.StepsWait.barPay_dstX' depends on axioms: [propext, Classical.choice, Quot.sound] -/
#guard_msgs in #print axioms Cert.KernelIdeal.StepsWait.barPay_dstX
/-- info: 'Cert.KernelIdeal.StepsWait.barPays_dstX' depends on axioms: [propext, Classical.choice, Quot.sound] -/
#guard_msgs in #print axioms Cert.KernelIdeal.StepsWait.barPays_dstX
end
-- ==== Proof.Slots.lean ====
/-
  A device's scratch buffers cut into their row slots and joined again; the shares of a slot lent to
  the copies that read it; what a slot, and the two-slot window a matrix product loads, read; and the
  transfer semaphores back at zero once their rounds are all consumed.
-/
import proofs.«900978_g7700000000000979_dist_mlpseq_tp1d_bs_bs_b256_d256_h512_v7x_i16_bf16_1_alg».proof.Proof.Dats
import proofs.«900978_g7700000000000979_dist_mlpseq_tp1d_bs_bs_b256_d256_h512_v7x_i16_bf16_1_alg».proof.Proof.SchedTables
import proofs.«900978_g7700000000000979_dist_mlpseq_tp1d_bs_bs_b256_d256_h512_v7x_i16_bf16_1_alg».proof.Proof.RingLaws
import proofs.«900978_g7700000000000979_dist_mlpseq_tp1d_bs_bs_b256_d256_h512_v7x_i16_bf16_1_alg».proof.Proof.Gen.KernelIdeal.Skeleton
import proofs.«900978_g7700000000000979_dist_mlpseq_tp1d_bs_bs_b256_d256_h512_v7x_i16_bf16_1_alg».proof.Proof.StateLemmas
import proofs.«900978_g7700000000000979_dist_mlpseq_tp1d_bs_bs_b256_d256_h512_v7x_i16_bf16_1_alg».proof.Proof.Phases
import proofs.«900978_g7700000000000979_dist_mlpseq_tp1d_bs_bs_b256_d256_h512_v7x_i16_bf16_1_alg».proof.Proof.Open
noncomputable section
namespace Cert.KernelIdeal.Slots
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws Cert.KernelIdeal.Phases
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)
/-! ## Cutting a buffer along a finite family of disjoint element sets that cover it -/

section Generic
variable {ℓ : Loc nD τ sig} {T : Type} [DecidableEq T]

/-- Pieces with contents of their own join into the union of their element sets, with some contents. -/
theorem join_ex (S : Finset T) (K : T → Finset (Idx ℓ)) (q : PosShare TreeShare) (f₀ : Buf (Elt F) ℓ)
    (hd : ∀ t ∈ S, ∀ t' ∈ S, t ≠ t' → Disjoint (K t) (K t')) :
    bigSep S (fun t => iprop(∃ f : Buf (Elt F) ℓ, ℓ ↦[K t]{q} f)) ⊢ (iprop(∃ g : Buf (Elt F) ℓ, ℓ ↦[S.biUnion K]{q} g) : sProp 𝕄) := by
  haveI : ∀ _ : T, Nonempty (Buf (Elt F) ℓ) := fun _ => ⟨f₀⟩
  iintro H
  ihave H' := (BI.bigSep_exists_pi S (fun (t : T) (f : Buf (Elt F) ℓ) => (ℓ ↦[K t]{q} f : sProp 𝕄))) $$ H
  icases H' with ⟨%fs, H'⟩
  ihave H'' := (pointsTo_biUnion_join S K fs f₀ hd) $$ H'
  icases H'' with ⟨%g, %hg, H''⟩
  iexists g
  iexact H''

end Generic

/-- The whole of a buffer is the pieces of a finite cover by pairwise disjoint element sets, each with contents of its own. -/
theorem cut_cover {ℓ : Loc nD τ sig} {T : Type} [DecidableEq T] [Fintype T] (K : T → Finset (Idx ℓ)) (q : PosShare TreeShare) (t₀ : T)
    (hd : ∀ t t', t ≠ t' → Disjoint (K t) (K t')) (hc : ∀ i, ∃ t, i ∈ K t) :
    (iprop(∃ f : Buf (Elt F) ℓ, ℓ ↦{q} f) : sProp 𝕄) ⊣⊢ bigSep Finset.univ fun t => iprop(∃ f : Buf (Elt F) ℓ, ℓ ↦[K t]{q} f) := by
  have hU : (Finset.univ : Finset (Idx ℓ)) = Finset.univ.biUnion K := by
    ext i; simp only [Finset.mem_univ, Finset.mem_biUnion, true_and, true_iff]; exact hc i
  constructor
  · iintro ⟨%f, H⟩
    have hone : ∀ t : T, (ℓ ↦[K t]{q} f : sProp 𝕄) ⊢ iprop(∃ f : Buf (Elt F) ℓ, ℓ ↦[K t]{q} f) := fun t => by
      iintro H; iexists f; iexact H
    have hall : bigSep Finset.univ (fun t => (ℓ ↦[K t]{q} f : sProp 𝕄)) ⊢ bigSep Finset.univ fun t => iprop(∃ f : Buf (Elt F) ℓ, ℓ ↦[K t]{q} f) :=
      bigSep_mono fun t _ => hone t
    iapply hall
    rw [← pointsTo_biUnion Finset.univ K (fun t _ t' _ h => hd t t' h), ← hU]
    iexact H
  · rw [BI.bigSep_univ_at _ t₀]
    iintro ⟨⟨%f₀, H0⟩, Hr⟩
    rw [hU]
    iapply (join_ex Finset.univ K q f₀ (fun t _ t' _ h => hd t t' h))
    rw [BI.bigSep_univ_at _ t₀]
    isplitl [H0]; · iexists f₀; iexact H0
    iexact Hr

/-! ## The slots of X, P and R -/

theorem xslot_set (k : Fin 16) : (xslot k).view.set = (Rect.unit (s := S4096x256) ![256 * k.val, 0] S256x256.size (inbRow k)).set :=
  View.set_slice_whole _ _
theorem pslot_set (k : Fin 16) : (pslot k).view.set = (Rect.unit (s := S4096x256) ![256 * k.val, 0] S256x256.size (inbRow k)).set :=
  View.set_slice_whole _ _

theorem rows_disjoint (k k' : Fin 16) (h : k ≠ k') :
    Disjoint (Rect.unit (s := S4096x256) ![256 * k.val, 0] S256x256.size (inbRow k)).set (Rect.unit (s := S4096x256) ![256 * k'.val, 0] S256x256.size (inbRow k')).set := by
  refine Rect.unit_disjoint 0 ?_
  have : k.val ≠ k'.val := fun e => h (Fin.ext e)
  show 256 * k.val + 256 ≤ 256 * k'.val ∨ 256 * k'.val + 256 ≤ 256 * k.val
  omega

theorem rows_cover (i : S4096x256.Idx) : ∃ k : Fin 16, i ∈ (Rect.unit (s := S4096x256) ![256 * k.val, 0] S256x256.size (inbRow k)).set := by
  have h0 : (i 0).val < 4096 := (i 0).isLt
  have h1 : (i 1).val < 256 := (i 1).isLt
  refine ⟨⟨(i 0).val / 256, by omega⟩, Rect.mem_set_unit.mpr ?_⟩
  intro a
  fin_cases a
  · show 256 * ((i 0).val / 256) ≤ (i 0).val ∧ (i 0).val < 256 * ((i 0).val / 256) + 256
    omega
  · show 0 ≤ (i 1).val ∧ (i 1).val < 0 + 256
    omega

/-- X whole is its sixteen slots. -/
theorem x_cut (c : Dev nD) :
    (scr (F := F) c cc0_scratch0 : sProp 𝕄) ⊣⊢ bigSep Finset.univ fun k : Fin 16 => iprop(∃ f, xPts (F := F) c k fullShare f) := by
  unfold scr xPts
  exact cut_cover (ℓ := (c : Thread nD τ).loc cc0_scratch0) (fun k : Fin 16 => (xslot k).view.set) fullShare 0
    (fun k k' h => by rw [xslot_set, xslot_set]; exact rows_disjoint k k' h)
    (fun i => by obtain ⟨k, hk⟩ := rows_cover i; exact ⟨k, by rw [xslot_set]; exact hk⟩)

theorem rslot_set (j : Fin 15) : (rslot j).view.set = (Rect.unit (s := S15x256x256) ![j.val, 0, 0] S1x256x256.size (inbR j)).set := by
  exact (View.set_reshape _ _).trans (View.set_slice_whole _ _)

theorem planes_disjoint (j j' : Fin 15) (h : j ≠ j') :
    Disjoint (Rect.unit (s := S15x256x256) ![j.val, 0, 0] S1x256x256.size (inbR j)).set (Rect.unit (s := S15x256x256) ![j'.val, 0, 0] S1x256x256.size (inbR j')).set := by
  refine Rect.unit_disjoint 0 ?_
  have : j.val ≠ j'.val := fun e => h (Fin.ext e)
  show j.val + 1 ≤ j'.val ∨ j'.val + 1 ≤ j.val
  omega

theorem planes_cover (i : S15x256x256.Idx) : ∃ j : Fin 15, i ∈ (Rect.unit (s := S15x256x256) ![j.val, 0, 0] S1x256x256.size (inbR j)).set := by
  have h0 : (i 0).val < 15 := (i 0).isLt
  have h1 : (i 1).val < 256 := (i 1).isLt
  have h2 : (i 2).val < 256 := (i 2).isLt
  refine ⟨⟨(i 0).val, h0⟩, Rect.mem_set_unit.mpr ?_⟩
  intro a
  fin_cases a
  · show (i 0).val ≤ (i 0).val ∧ (i 0).val < (i 0).val + 1
    omega
  · show 0 ≤ (i 1).val ∧ (i 1).val < 0 + 256
    omega
  · show 0 ≤ (i 2).val ∧ (i 2).val < 0 + 256
    omega

/-- P whole is its sixteen slots. -/
theorem p_cut (c : Dev nD) :
    (scr (F := F) c cc0_scratch1 : sProp 𝕄) ⊣⊢ bigSep Finset.univ fun k : Fin 16 => iprop(∃ f, pPts (F := F) c k f) := by
  unfold scr pPts
  exact cut_cover (ℓ := (c : Thread nD τ).loc cc0_scratch1) (fun k : Fin 16 => (pslot k).view.set) fullShare 0
    (fun k k' h => by rw [pslot_set, pslot_set]; exact rows_disjoint k k' h)
    (fun i => by obtain ⟨k, hk⟩ := rows_cover i; exact ⟨k, by rw [pslot_set]; exact hk⟩)

/-- R whole is its fifteen slots. -/
theorem r_cut (c : Dev nD) :
    (scr (F := F) c cc0_scratch2 : sProp 𝕄) ⊣⊢ bigSep Finset.univ fun j : Fin 15 => iprop(∃ f, rPts (F := F) c j f) := by
  unfold scr rPts
  exact cut_cover (ℓ := (c : Thread nD τ).loc cc0_scratch2) (fun j : Fin 15 => (rslot j).view.set) fullShare 0
    (fun j j' h => by rw [rslot_set, rslot_set]; exact planes_disjoint j j' h)
    (fun i => by obtain ⟨j, hj⟩ := planes_cover i; exact ⟨j, by rw [rslot_set]; exact hj⟩)

/-! ## Shares of a slot: lending halves and taking them back -/

/-- What is kept after n halvings is what is kept after one more, and the half then lent. -/
theorem x_lend (c : Dev nD) (k : Fin 16) (n : ℕ) (f : Buf (Elt F) ((xslot k).view.loc (c : Thread nD τ))) :
    (xPts (F := F) c k (keepSh n) f : sProp 𝕄) ⊣⊢ iprop(xPts (F := F) c k (keepSh (n + 1)) f ∗ xPts (F := F) c k (lentSh n) f) := by
  unfold xPts lentSh
  exact pointsTo_share (PosShare.mem_left_op_right (keepSh n))

/-- A slot at the share kept after n halvings, with the n halves lent. -/
theorem x_shares (c : Dev nD) (k : Fin 16) (n : ℕ) (f : Buf (Elt F) ((xslot k).view.loc (c : Thread nD τ))) :
    (xPts (F := F) c k fullShare f : sProp 𝕄) ⊣⊢ iprop(xPts (F := F) c k (keepSh n) f ∗ bigSep (Finset.range n) fun j => xPts (F := F) c k (lentSh j) f) := by
  induction n with
  | zero =>
    rw [Finset.range_zero, bigSep_empty]
    exact ⟨by iintro H; isplitl [H]; · iexact H
              iempintro, by iintro ⟨H, -⟩; iexact H⟩
  | succ n ih =>
    have e : (bigSep (Finset.range (n + 1)) fun j => xPts (F := F) c k (lentSh j) f)
        = iprop(xPts (F := F) c k (lentSh n) f ∗ bigSep (Finset.range n) fun j => xPts (F := F) c k (lentSh j) f) := by
      rw [Finset.range_add_one]; exact bigSep_insert Finset.notMem_range_self
    rw [e]
    constructor
    · iintro H
      ihave ⟨Hk, Hl⟩ := ih.1 $$ H
      ihave ⟨Hk', Hn⟩ := (x_lend c k n f).1 $$ Hk
      isplitl [Hk']; · iexact Hk'
      isplitl [Hn]; · iexact Hn
      iexact Hl
    · iintro ⟨Hk', Hn, Hl⟩
      iapply ih.2
      isplitl [Hk' Hn]
      · iapply (x_lend c k n f).2
        isplitl [Hk']; · iexact Hk'
        iexact Hn
      · iexact Hl

/-- All fifteen lent halves of slot 0 back: the whole slot again. -/
theorem bigSep_fin_val (n : ℕ) (Φ : ℕ → sProp 𝕄) : bigSep (Finset.univ : Finset (Fin n)) (fun i => Φ i.val) = bigSep (Finset.range n) Φ := by
  have e : Finset.range n = (Finset.univ : Finset (Fin n)).map Fin.valEmbedding := by
    ext i
    simp only [Finset.mem_range, Finset.mem_map, Finset.mem_univ, true_and, Fin.valEmbedding_apply]
    exact ⟨fun h => ⟨⟨i, h⟩, rfl⟩, fun ⟨j, hj⟩ => hj ▸ j.isLt⟩
  rw [e, BI.bigSep_map]; rfl

/-- The whole slot is the share kept after fifteen halvings and the fifteen halves lent: taking them all back, or lending them all at once. -/
theorem x_fifteen (c : Dev nD) (k : Fin 16) (f : Buf (Elt F) ((xslot k).view.loc (c : Thread nD τ))) :
    (xPts (F := F) c k fullShare f : sProp 𝕄) ⊣⊢ iprop(xPts (F := F) c k (keepSh 15) f ∗ bigSep Finset.univ fun j : Fin 15 => xPts (F := F) c k (lentSh j.val) f) := by
  rw [bigSep_fin_val 15 (fun j => xPts (F := F) c k (lentSh j) f)]
  exact x_shares c k 15 f

/-! ## Reading a slot, and the two-slot group the matrix product loads -/

theorem xfill_read (c : Dev nD) (k : Fin 16) (v : Vec F S256x256 .bf16) : (xslot k).view.read (Elt F) (xfill c k v) = v :=
  View.read_write_univ _ _
theorem pfill_read (c : Dev nD) (k : Fin 16) (v : Vec F S256x256 .bf16) : (pslot k).view.read (Elt F) (pfill c k v) = v :=
  View.read_write_univ _ _
theorem rfill_read (c : Dev nD) (j : Fin 15) (v : Vec F S256x256 .bf16) : (rslot j).view.read (Elt F) (rfill c j v) = v :=
  View.read_write_univ _ _

theorem inbGrp (g : Fin 8) : ∀ a, (![512 * g.val, 0] : Fin 2 → Nat) a + S512x256.size a ≤ S4096x256.size a := by
  revert g; decide

/-- Rows 512g .. 512g+511 of X, the window one matrix product loads. -/
def xgrp (g : Fin 8) : View sig .tc .vmem S512x256 .bf16 := XM.access (Rect.unit (s := S4096x256) ![512 * g.val, 0] S512x256.size (inbGrp g))
/-- Its two slots. -/
def lo (g : Fin 8) : Fin 16 := ⟨2 * g.val, by omega⟩
def hi (g : Fin 8) : Fin 16 := ⟨2 * g.val + 1, by omega⟩

theorem mem_rows {o h : ℕ} {sz : Fin 2 → ℕ} (h0 : sz 0 = h) (h1 : sz 1 = 256) (inb : ∀ a, (![o, 0] : Fin 2 → ℕ) a + sz a ≤ S4096x256.size a) (i : S4096x256.Idx) :
    i ∈ (Rect.unit (s := S4096x256) ![o, 0] sz inb).set ↔ o ≤ (i 0).val ∧ (i 0).val < o + h := by
  rw [Rect.mem_set_unit, Fin.forall_fin_two]
  have h1' : (i 1).val < 256 := (i 1).isLt
  show (o ≤ (i 0).val ∧ (i 0).val < o + sz 0) ∧ (0 ≤ (i 1).val ∧ (i 1).val < 0 + sz 1) ↔ _
  rw [h0, h1]; omega

theorem xgrp_set (g : Fin 8) : (xgrp g).set = (xslot (lo g)).view.set ∪ (xslot (hi g)).view.set := by
  have e : (xgrp g).set = (Rect.unit (s := S4096x256) ![512 * g.val, 0] S512x256.size (inbGrp g)).set := View.set_slice_whole _ _
  refine Finset.ext fun (i : S4096x256.Idx) => ?_
  have hg : i ∈ (xgrp g).set ↔ 512 * g.val ≤ (i 0).val ∧ (i 0).val < 512 * g.val + 512 := by
    rw [e]; exact mem_rows rfl rfl _ i
  have hl : i ∈ (xslot (lo g)).view.set ↔ 256 * (2 * g.val) ≤ (i 0).val ∧ (i 0).val < 256 * (2 * g.val) + 256 := by
    rw [xslot_set]; exact mem_rows rfl rfl _ i
  have hh : i ∈ (xslot (hi g)).view.set ↔ 256 * (2 * g.val + 1) ≤ (i 0).val ∧ (i 0).val < 256 * (2 * g.val + 1) + 256 := by
    rw [xslot_set]; exact mem_rows rfl rfl _ i
  refine hg.trans (Iff.trans ?_ ((or_congr hl hh).symm.trans Finset.mem_union.symm))
  omega

theorem xgrp_disjoint (g : Fin 8) : Disjoint (xslot (lo g)).view.set (xslot (hi g)).view.set := by
  rw [xslot_set, xslot_set]
  exact rows_disjoint _ _ (fun e => by have := congrArg Fin.val e; simp only [lo, hi] at this; omega)

/-- A window of a whole buffer reads the contents at the window's indices. -/
theorem read_slice_whole {κ : Kind} (b : Ref sig κ) (r : Rect b.ty.shape) (f : b.ty.Contents (Elt F)) (x : r.shape.Idx) :
    ((View.whole b).slice r).read (Elt F) f x = f (r.emb x) := by
  rw [View.read_apply]; exact cast_eq _ _

/-- What the group's window reads off any contents: the two slots' readings stacked. -/
theorem xgrp_read (g : Fin 8) (c : Dev nD) (f : Buf (Elt F) ((c : Thread nD τ).loc cc0_scratch0)) :
    (xgrp g).read (Elt F) f = Vals.cat ((xslot (lo g)).view.read (Elt F) f) ((xslot (hi g)).view.read (Elt F) f) := by
  funext i
  unfold Vals.cat
  split
  · rename_i h
    refine (read_slice_whole cc0_scratch0 (Rect.unit (s := S4096x256) ![512 * g.val, 0] S512x256.size (inbGrp g)) f i).trans
      (Eq.trans ?_ (read_slice_whole cc0_scratch0 (Rect.unit (s := S4096x256) ![256 * (lo g).val, 0] S256x256.size (inbRow (lo g))) f _).symm)
    refine congrArg f (funext fun a => Fin.ext ?_)
    rw [Rect.emb_apply, Rect.emb_apply]
    fin_cases a
    · show 512 * g.val + 1 * (i 0).val = 256 * (2 * g.val) + 1 * (i 0).val
      omega
    · show 0 + 1 * (i 1).val = 0 + 1 * (i 1).val
      rfl
  · rename_i h
    have h2 : (i 0).val < 512 := (i 0).isLt
    refine (read_slice_whole cc0_scratch0 (Rect.unit (s := S4096x256) ![512 * g.val, 0] S512x256.size (inbGrp g)) f i).trans
      (Eq.trans ?_ (read_slice_whole cc0_scratch0 (Rect.unit (s := S4096x256) ![256 * (hi g).val, 0] S256x256.size (inbRow (hi g))) f _).symm)
    refine congrArg f (funext fun a => Fin.ext ?_)
    rw [Rect.emb_apply, Rect.emb_apply]
    fin_cases a
    · show 512 * g.val + 1 * (i 0).val = 256 * (2 * g.val + 1) + 1 * ((i 0).val - 256)
      omega
    · show 0 + 1 * (i 1).val = 0 + 1 * (i 1).val
      rfl

/-! ## The same, the slots written out in a chain -/

theorem x_cut16 (c : Dev nD) :
    (scr (F := F) c cc0_scratch0 : sProp 𝕄) ⊣⊢ iprop((∃ f, xPts (F := F) c (0 : Fin 16) fullShare f) ∗ (∃ f, xPts (F := F) c (1 : Fin 16) fullShare f) ∗ (∃ f, xPts (F := F) c (2 : Fin 16) fullShare f) ∗ (∃ f, xPts (F := F) c (3 : Fin 16) fullShare f) ∗ (∃ f, xPts (F := F) c (4 : Fin 16) fullShare f) ∗ (∃ f, xPts (F := F) c (5 : Fin 16) fullShare f) ∗ (∃ f, xPts (F := F) c (6 : Fin 16) fullShare f) ∗ (∃ f, xPts (F := F) c (7 : Fin 16) fullShare f) ∗ (∃ f, xPts (F := F) c (8 : Fin 16) fullShare f) ∗ (∃ f, xPts (F := F) c (9 : Fin 16) fullShare f) ∗ (∃ f, xPts (F := F) c (10 : Fin 16) fullShare f) ∗ (∃ f, xPts (F := F) c (11 : Fin 16) fullShare f) ∗ (∃ f, xPts (F := F) c (12 : Fin 16) fullShare f) ∗ (∃ f, xPts (F := F) c (13 : Fin 16) fullShare f) ∗ (∃ f, xPts (F := F) c (14 : Fin 16) fullShare f) ∗ (∃ f, xPts (F := F) c (15 : Fin 16) fullShare f)) := by
  have h := x_cut (F := F) c
  rw [Open.bigSep_F16] at h
  exact h

theorem p_cut16 (c : Dev nD) :
    (scr (F := F) c cc0_scratch1 : sProp 𝕄) ⊣⊢ iprop((∃ f, pPts (F := F) c (0 : Fin 16) f) ∗ (∃ f, pPts (F := F) c (1 : Fin 16) f) ∗ (∃ f, pPts (F := F) c (2 : Fin 16) f) ∗ (∃ f, pPts (F := F) c (3 : Fin 16) f) ∗ (∃ f, pPts (F := F) c (4 : Fin 16) f) ∗ (∃ f, pPts (F := F) c (5 : Fin 16) f) ∗ (∃ f, pPts (F := F) c (6 : Fin 16) f) ∗ (∃ f, pPts (F := F) c (7 : Fin 16) f) ∗ (∃ f, pPts (F := F) c (8 : Fin 16) f) ∗ (∃ f, pPts (F := F) c (9 : Fin 16) f) ∗ (∃ f, pPts (F := F) c (10 : Fin 16) f) ∗ (∃ f, pPts (F := F) c (11 : Fin 16) f) ∗ (∃ f, pPts (F := F) c (12 : Fin 16) f) ∗ (∃ f, pPts (F := F) c (13 : Fin 16) f) ∗ (∃ f, pPts (F := F) c (14 : Fin 16) f) ∗ (∃ f, pPts (F := F) c (15 : Fin 16) f)) := by
  have h := p_cut (F := F) c
  rw [Open.bigSep_F16] at h
  exact h

theorem r_cut15 (c : Dev nD) :
    (scr (F := F) c cc0_scratch2 : sProp 𝕄) ⊣⊢ iprop((∃ f, rPts (F := F) c (0 : Fin 15) f) ∗ (∃ f, rPts (F := F) c (1 : Fin 15) f) ∗ (∃ f, rPts (F := F) c (2 : Fin 15) f) ∗ (∃ f, rPts (F := F) c (3 : Fin 15) f) ∗ (∃ f, rPts (F := F) c (4 : Fin 15) f) ∗ (∃ f, rPts (F := F) c (5 : Fin 15) f) ∗ (∃ f, rPts (F := F) c (6 : Fin 15) f) ∗ (∃ f, rPts (F := F) c (7 : Fin 15) f) ∗ (∃ f, rPts (F := F) c (8 : Fin 15) f) ∗ (∃ f, rPts (F := F) c (9 : Fin 15) f) ∗ (∃ f, rPts (F := F) c (10 : Fin 15) f) ∗ (∃ f, rPts (F := F) c (11 : Fin 15) f) ∗ (∃ f, rPts (F := F) c (12 : Fin 15) f) ∗ (∃ f, rPts (F := F) c (13 : Fin 15) f) ∗ (∃ f, rPts (F := F) c (14 : Fin 15) f)) := by
  have h := r_cut (F := F) c
  rw [Open.bigSep_F15] at h
  exact h

/-! ## The exit: a device's transfer semaphores back at zero

  Every transfer cell has three rounds. Its owner, at round three with nothing taken, closes the cell:
  no later round has a duty, so the counter reads zero and nothing lands on it again. -/

theorem zero_sAg (K : GSem nD τ sig → ℕ) (c : Dev nD) (j : Fin 15) :
    iprop(Invs m K ∗ atPos ER (cell c (.dma (sAg j))) 3 ∅ 0) ⊢ (iprop(|={Set.univ}=> semVal (cell c (.dma (sAg j))) 0) : sProp 𝕄) := by
  iintro ⟨#HI, Hat⟩
  iapply (Rounds.cell_close ER (sched m) (g := cell c (.dma (sAg j))) (κ := K (cell c (.dma (sAg j)))) (Set.mem_univ _) (fun h => h) (R := 3)
    (fun r hr => duties_sAg_later m c j r hr))
  isplitr
  · iapply (Invs_at m K c (.dma (sAg j)) (mem_allSems_sAg j)); iexact HI
  · iexact Hat
theorem zero_sRs (K : GSem nD τ sig → ℕ) (c : Dev nD) (j : Fin 15) :
    iprop(Invs m K ∗ atPos ER (cell c (.dma (sRs j))) 3 ∅ 0) ⊢ (iprop(|={Set.univ}=> semVal (cell c (.dma (sRs j))) 0) : sProp 𝕄) := by
  iintro ⟨#HI, Hat⟩
  iapply (Rounds.cell_close ER (sched m) (g := cell c (.dma (sRs j))) (κ := K (cell c (.dma (sRs j)))) (Set.mem_univ _) (fun h => h) (R := 3)
    (fun r hr => duties_sRs_later m c j r hr))
  isplitr
  · iapply (Invs_at m K c (.dma (sRs j)) (mem_allSems_sRs j)); iexact HI
  · iexact Hat
theorem zero_rAg (K : GSem nD τ sig → ℕ) (c : Dev nD) (j : Fin 15) :
    iprop(Invs m K ∗ atPos ER (cell c (.dma (rAg j))) 3 ∅ 0) ⊢ (iprop(|={Set.univ}=> semVal (cell c (.dma (rAg j))) 0) : sProp 𝕄) := by
  iintro ⟨#HI, Hat⟩
  iapply (Rounds.cell_close ER (sched m) (g := cell c (.dma (rAg j))) (κ := K (cell c (.dma (rAg j)))) (Set.mem_univ _) (fun h => h) (R := 3)
    (fun r hr => duties_rAg_later m c j r hr))
  isplitr
  · iapply (Invs_at m K c (.dma (rAg j)) (mem_allSems_rAg j)); iexact HI
  · iexact Hat
theorem zero_rRs (K : GSem nD τ sig → ℕ) (c : Dev nD) (j : Fin 15) :
    iprop(Invs m K ∗ atPos ER (cell c (.dma (rRs j))) 3 ∅ 0) ⊢ (iprop(|={Set.univ}=> semVal (cell c (.dma (rRs j))) 0) : sProp 𝕄) := by
  iintro ⟨#HI, Hat⟩
  iapply (Rounds.cell_close ER (sched m) (g := cell c (.dma (rRs j))) (κ := K (cell c (.dma (rRs j)))) (Set.mem_univ _) (fun h => h) (R := 3)
    (fun r hr => duties_rRs_later m c j r hr))
  isplitr
  · iapply (Invs_at m K c (.dma (rRs j)) (mem_allSems_rRs j)); iexact HI
  · iexact Hat

/-- A device at round three of all its sixty transfer cells. -/
def exitAts (c : Dev nD) : sProp 𝕄 :=
  bigSep Finset.univ fun j : Fin 15 => iprop(atPos ER (cell c (.dma (sAg j))) 3 ∅ 0 ∗ atPos ER (cell c (.dma (sRs j))) 3 ∅ 0
    ∗ atPos ER (cell c (.dma (rAg j))) 3 ∅ 0 ∗ atPos ER (cell c (.dma (rRs j))) 3 ∅ 0)

theorem own_zero_of_ats (K : GSem nD τ sig → ℕ) (c : Dev nD) :
    iprop(Invs m K ∗ exitAts (F := F) c) ⊢ (iprop(|={Set.univ}=> ownZero (F := F) c) : sProp 𝕄) := by
  unfold exitAts ownZero
  have hj : ∀ j : Fin 15, iprop(Invs m K ∗ (atPos ER (cell c (.dma (sAg j))) 3 ∅ 0 ∗ atPos ER (cell c (.dma (sRs j))) 3 ∅ 0
        ∗ atPos ER (cell c (.dma (rAg j))) 3 ∅ 0 ∗ atPos ER (cell c (.dma (rRs j))) 3 ∅ 0))
      ⊢ (iprop(|={Set.univ}=> (semVal (cell c (.dma (sAg j))) 0 ∗ semVal (cell c (.dma (sRs j))) 0
        ∗ semVal (cell c (.dma (rAg j))) 0 ∗ semVal (cell c (.dma (rRs j))) 0)) : sProp 𝕄) := fun j => by
    iintro ⟨#HI, H1, H2, H3, H4⟩
    imod (zero_sAg m K c j) $$ [H1] with H1
    · isplitr; · iexact HI
      iexact H1
    imod (zero_sRs m K c j) $$ [H2] with H2
    · isplitr; · iexact HI
      iexact H2
    imod (zero_rAg m K c j) $$ [H3] with H3
    · isplitr; · iexact HI
      iexact H3
    imod (zero_rRs m K c j) $$ [H4] with H4
    · isplitr; · iexact HI
      iexact H4
    imodintro
    isplitl [H1]; · iexact H1
    isplitl [H2]; · iexact H2
    isplitl [H3]; · iexact H3
    iexact H4
  exact BIBase.Entails.trans (BI.bigSep_with_persistent fun j _ => hj j) (BI.bigSep_fupd _ _)

/-- The phase bundles of the last layer's end hold those positions. -/
theorem exitAts_of_phases (c : Dev nD) :
    iprop((bigSep Finset.univ fun j : Fin 15 => sn (F := F) c j 3) ∗ (bigSep Finset.univ fun j : Fin 15 => rc (F := F) c j 3)) ⊢ exitAts (F := F) c := by
  have e : exitAts (F := F) c = iprop((bigSep Finset.univ fun j : Fin 15 => (atPos ER (cell c (.dma (sAg j))) 3 ∅ 0 : sProp 𝕄))
      ∗ (bigSep Finset.univ fun j : Fin 15 => (atPos ER (cell c (.dma (sRs j))) 3 ∅ 0 : sProp 𝕄))
      ∗ (bigSep Finset.univ fun j : Fin 15 => (atPos ER (cell c (.dma (rAg j))) 3 ∅ 0 : sProp 𝕄))
      ∗ (bigSep Finset.univ fun j : Fin 15 => (atPos ER (cell c (.dma (rRs j))) 3 ∅ 0 : sProp 𝕄))) := by
    unfold exitAts; rw [bigSep_sep', bigSep_sep', bigSep_sep']
  have h1 : ∀ j : Fin 15, sn (F := F) c j 3 ⊢ iprop(atPos ER (cell c (.dma (sAg j))) 3 ∅ 0 ∗ atPos ER (cell c (.dma (rRs (Fin.rev j)))) 3 ∅ 0) := fun j => by
    unfold sn; iintro ⟨-, H1, H2, -, -⟩
    isplitl [H1]; · iexact H1
    iexact H2
  have h2 : ∀ j : Fin 15, rc (F := F) c j 3 ⊢ iprop(atPos ER (cell c (.dma (rAg j))) 3 ∅ 0 ∗ atPos ER (cell c (.dma (sRs (Fin.rev j)))) 3 ∅ 0) := fun j => by
    unfold rc; iintro ⟨-, H1, H2, -, -⟩
    isplitl [H1]; · iexact H1
    iexact H2
  have hs : (bigSep Finset.univ fun j : Fin 15 => sn (F := F) c j 3)
      ⊢ iprop((bigSep Finset.univ fun j : Fin 15 => (atPos ER (cell c (.dma (sAg j))) 3 ∅ 0 : sProp 𝕄))
        ∗ (bigSep Finset.univ fun j : Fin 15 => (atPos ER (cell c (.dma (rRs j))) 3 ∅ 0 : sProp 𝕄))) := by
    rw [bigSep_univ_equiv Fin.revPerm (fun j : Fin 15 => (atPos ER (cell c (.dma (rRs j))) 3 ∅ 0 : sProp 𝕄)), ← bigSep_sep']
    exact bigSep_mono fun j _ => h1 j
  have hr : (bigSep Finset.univ fun j : Fin 15 => rc (F := F) c j 3)
      ⊢ iprop((bigSep Finset.univ fun j : Fin 15 => (atPos ER (cell c (.dma (rAg j))) 3 ∅ 0 : sProp 𝕄))
        ∗ (bigSep Finset.univ fun j : Fin 15 => (atPos ER (cell c (.dma (sRs j))) 3 ∅ 0 : sProp 𝕄))) := by
    rw [bigSep_univ_equiv Fin.revPerm (fun j : Fin 15 => (atPos ER (cell c (.dma (sRs j))) 3 ∅ 0 : sProp 𝕄)), ← bigSep_sep']
    exact bigSep_mono fun j _ => h2 j
  rw [e]
  iintro ⟨Hs, Hr⟩
  ihave ⟨A1, A4⟩ := hs $$ Hs
  ihave ⟨A3, A2⟩ := hr $$ Hr
  isplitl [A1]; · iexact A1
  isplitl [A2]; · iexact A2
  isplitl [A3]; · iexact A3
  iexact A4

/-- At the body's end: the sixty transfer semaphores of the device at zero, for the rest of the program. -/
theorem own_zero_wp (K : GSem nD τ sig → ℕ) (c : Dev nD) {α : Type} {Q : α → sProp 𝕄} (e : Prog (TpuEff nD τ sig (Elt F) Λ₀ .tc) α) :
    iprop(Invs m K ∗ (bigSep Finset.univ fun j : Fin 15 => sn (F := F) c j 3) ∗ (bigSep Finset.univ fun j : Fin 15 => rc (F := F) c j 3))
      ⊢ iprop((ownZero (F := F) c -∗ wp frame (wpE (defs₀ (F := F)) 𝒱₀ c none) Set.univ e Q)
          -∗ wp frame (wpE (defs₀ (F := F)) 𝒱₀ c none) Set.univ e Q) := by
  iintro ⟨#HI, Hs, Hr⟩ Hk
  ihave Hat := (exitAts_of_phases (F := F) c) $$ [Hs Hr]
  · isplitl [Hs]; · iexact Hs
    iexact Hr
  imod (own_zero_of_ats m K c) $$ [Hat] with Hz
  · isplitr; · iexact HI
    iexact Hat
  iapply Hk
  iexact Hz

end Cert.KernelIdeal.Slots

/-- info: 'Cert.KernelIdeal.Slots.x_cut16' depends on axioms: [propext, Classical.choice, Quot.sound] -/
#guard_msgs in #print axioms Cert.KernelIdeal.Slots.x_cut16
/-- info: 'Cert.KernelIdeal.Slots.p_cut16' depends on axioms: [propext, Classical.choice, Quot.sound] -/
#guard_msgs in #print axioms Cert.KernelIdeal.Slots.p_cut16
/-- info: 'Cert.KernelIdeal.Slots.r_cut15' depends on axioms: [propext, Classical.choice, Quot.sound] -/
#guard_msgs in #print axioms Cert.KernelIdeal.Slots.r_cut15
/-- info: 'Cert.KernelIdeal.Slots.x_fifteen' depends on axioms: [propext, Classical.choice, Quot.sound] -/
#guard_msgs in #print axioms Cert.KernelIdeal.Slots.x_fifteen
/-- info: 'Cert.KernelIdeal.Slots.xgrp_read' depends on axioms: [propext, Classical.choice, Quot.sound] -/
#guard_msgs in #print axioms Cert.KernelIdeal.Slots.xgrp_read
/-- info: 'Cert.KernelIdeal.Slots.own_zero_wp' depends on axioms: [propext, Classical.choice, Quot.sound] -/
#guard_msgs in #print axioms Cert.KernelIdeal.Slots.own_zero_wp

end
-- ==== Proof.BodyPre.lean ====
import proofs.«900978_g7700000000000979_dist_mlpseq_tp1d_bs_bs_b256_d256_h512_v7x_i16_bf16_1_alg».proof.Proof.Steps
import proofs.«900978_g7700000000000979_dist_mlpseq_tp1d_bs_bs_b256_d256_h512_v7x_i16_bf16_1_alg».proof.Proof.Phases
import proofs.«900978_g7700000000000979_dist_mlpseq_tp1d_bs_bs_b256_d256_h512_v7x_i16_bf16_1_alg».proof.Proof.Ring
import proofs.«900978_g7700000000000979_dist_mlpseq_tp1d_bs_bs_b256_d256_h512_v7x_i16_bf16_1_alg».proof.Proof.Open
import proofs.«900978_g7700000000000979_dist_mlpseq_tp1d_bs_bs_b256_d256_h512_v7x_i16_bf16_1_alg».proof.Proof.StepsSend
import proofs.«900978_g7700000000000979_dist_mlpseq_tp1d_bs_bs_b256_d256_h512_v7x_i16_bf16_1_alg».proof.Proof.StepsWait
import proofs.«900978_g7700000000000979_dist_mlpseq_tp1d_bs_bs_b256_d256_h512_v7x_i16_bf16_1_alg».proof.Proof.Slots
noncomputable section
namespace Cert.KernelIdeal.BodyPre
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws Cert.KernelIdeal.Phases Cert.KernelIdeal.Steps Cert.KernelIdeal.Ring Cert.KernelIdeal.Open Cert.KernelIdeal.StepsSend Cert.KernelIdeal.StepsWait Cert.KernelIdeal.Slots
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)
variable (ρ : Dev nD → PrngReg)

/-- A staging buffer, whole, read as X. -/
def stg (c : Dev nD) (b : Ref sig .tc) (X : b.ty.Contents (Elt F)) : sProp 𝕄 :=
  owns (c : Thread nD τ) (Memref.whole b) fullShare X

theorem cfg0_N : cfg0.N = 1 := by decide
def t₀ : Fin cfg0.N := ⟨0, by rw [cfg0_N]; decide⟩

def bodyPre (K : GSem nD τ sig → ℕ) (c : Dev nD) : sProp 𝕄 :=
  iprop((ghost m K c ∗ cred (tallyAt (barCell c) 0 15) ∗ levAts L lv
      ∗ scr (F := F) c cc0_scratch0 ∗ scr (F := F) c cc0_scratch1 ∗ scr (F := F) c cc0_scratch2)
    ∗ (dats m 0 c).owesAt 0 t₀.castSucc
    ∗ (∃ d, stg c cc0_stg0_0 ((dats m 0 c).before (0 : Fin 8) t₀ d))
    ∗ (∃ d, stg c cc0_stg1_0 ((dats m 0 c).before (1 : Fin 8) t₀ d))
    ∗ (∃ d, stg c cc0_stg2_0 ((dats m 0 c).before (2 : Fin 8) t₀ d))
    ∗ (∃ d, stg c cc0_stg3_0 ((dats m 0 c).before (3 : Fin 8) t₀ d))
    ∗ (∃ d, stg c cc0_stg4_0 ((dats m 0 c).before (4 : Fin 8) t₀ d))
    ∗ (∃ d, stg c cc0_stg5_0 ((dats m 0 c).before (5 : Fin 8) t₀ d))
    ∗ (∃ d, stg c cc0_stg6_0 ((dats m 0 c).before (6 : Fin 8) t₀ d))
    ∗ (∃ d, stg c cc0_stg7_0 ((dats m 0 c).before (7 : Fin 8) t₀ d)))

/-- A receiver's bundle carries, persistently, that the device stands at that round of its chunk-receive cell. -/
theorem rc_dup (c : Dev nD) (j : Fin 15) (r : ℕ) :
    rc (F := F) c j r ⊢ iprop(rc (F := F) c j r ∗ reached ER (cell c (.dma (rAg j))) r) := by
  unfold rc
  iintro ⟨Ht, Ha1, Ha2, #Hr1, #Hr2⟩
  isplitl [Ht Ha1 Ha2]
  · isplitl [Ht]; · iexact Ht
    isplitl [Ha1]; · iexact Ha1
    isplitl [Ha2]; · iexact Ha2
    isplitr; · iexact Hr1
    iexact Hr2
  · iexact Hr1

/-- The ghost state a device starts from, opened copy index by copy index. -/
theorem ghost_open (K : GSem nD τ sig → ℕ) (c : Dev nD) :
    ghost m K c ⊢ iprop(Invs m K
      ∗ (sn (F := F) c (0 : Fin 15) 0 ∗ sn (F := F) c (1 : Fin 15) 0 ∗ sn (F := F) c (2 : Fin 15) 0 ∗ sn (F := F) c (3 : Fin 15) 0 ∗ sn (F := F) c (4 : Fin 15) 0 ∗ sn (F := F) c (5 : Fin 15) 0 ∗ sn (F := F) c (6 : Fin 15) 0 ∗ sn (F := F) c (7 : Fin 15) 0 ∗ sn (F := F) c (8 : Fin 15) 0 ∗ sn (F := F) c (9 : Fin 15) 0 ∗ sn (F := F) c (10 : Fin 15) 0 ∗ sn (F := F) c (11 : Fin 15) 0 ∗ sn (F := F) c (12 : Fin 15) 0 ∗ sn (F := F) c (13 : Fin 15) 0 ∗ sn (F := F) c (14 : Fin 15) 0)
      ∗ ((rc (F := F) c (0 : Fin 15) 0 ∗ reached ER (cell c (.dma (rAg (0 : Fin 15)))) 0) ∗ (rc (F := F) c (1 : Fin 15) 0 ∗ reached ER (cell c (.dma (rAg (1 : Fin 15)))) 0) ∗ (rc (F := F) c (2 : Fin 15) 0 ∗ reached ER (cell c (.dma (rAg (2 : Fin 15)))) 0) ∗ (rc (F := F) c (3 : Fin 15) 0 ∗ reached ER (cell c (.dma (rAg (3 : Fin 15)))) 0) ∗ (rc (F := F) c (4 : Fin 15) 0 ∗ reached ER (cell c (.dma (rAg (4 : Fin 15)))) 0) ∗ (rc (F := F) c (5 : Fin 15) 0 ∗ reached ER (cell c (.dma (rAg (5 : Fin 15)))) 0) ∗ (rc (F := F) c (6 : Fin 15) 0 ∗ reached ER (cell c (.dma (rAg (6 : Fin 15)))) 0) ∗ (rc (F := F) c (7 : Fin 15) 0 ∗ reached ER (cell c (.dma (rAg (7 : Fin 15)))) 0) ∗ (rc (F := F) c (8 : Fin 15) 0 ∗ reached ER (cell c (.dma (rAg (8 : Fin 15)))) 0) ∗ (rc (F := F) c (9 : Fin 15) 0 ∗ reached ER (cell c (.dma (rAg (9 : Fin 15)))) 0) ∗ (rc (F := F) c (10 : Fin 15) 0 ∗ reached ER (cell c (.dma (rAg (10 : Fin 15)))) 0) ∗ (rc (F := F) c (11 : Fin 15) 0 ∗ reached ER (cell c (.dma (rAg (11 : Fin 15)))) 0) ∗ (rc (F := F) c (12 : Fin 15) 0 ∗ reached ER (cell c (.dma (rAg (12 : Fin 15)))) 0) ∗ (rc (F := F) c (13 : Fin 15) 0 ∗ reached ER (cell c (.dma (rAg (13 : Fin 15)))) 0) ∗ (rc (F := F) c (14 : Fin 15) 0 ∗ reached ER (cell c (.dma (rAg (14 : Fin 15)))) 0))
      ∗ atPos ER (barCell c) 0 ∅ 0
      ∗ ((dutyTok ER (barCell (fwd c 1)) 0 (1 : D) ∗ reached ER (barCell (fwd c 1)) 0) ∗ (dutyTok ER (barCell (fwd c 2)) 0 (2 : D) ∗ reached ER (barCell (fwd c 2)) 0) ∗ (dutyTok ER (barCell (fwd c 3)) 0 (3 : D) ∗ reached ER (barCell (fwd c 3)) 0) ∗ (dutyTok ER (barCell (fwd c 4)) 0 (4 : D) ∗ reached ER (barCell (fwd c 4)) 0) ∗ (dutyTok ER (barCell (fwd c 5)) 0 (5 : D) ∗ reached ER (barCell (fwd c 5)) 0) ∗ (dutyTok ER (barCell (fwd c 6)) 0 (6 : D) ∗ reached ER (barCell (fwd c 6)) 0) ∗ (dutyTok ER (barCell (fwd c 7)) 0 (7 : D) ∗ reached ER (barCell (fwd c 7)) 0) ∗ (dutyTok ER (barCell (fwd c 8)) 0 (8 : D) ∗ reached ER (barCell (fwd c 8)) 0) ∗ (dutyTok ER (barCell (fwd c 9)) 0 (9 : D) ∗ reached ER (barCell (fwd c 9)) 0) ∗ (dutyTok ER (barCell (fwd c 10)) 0 (10 : D) ∗ reached ER (barCell (fwd c 10)) 0) ∗ (dutyTok ER (barCell (fwd c 11)) 0 (11 : D) ∗ reached ER (barCell (fwd c 11)) 0) ∗ (dutyTok ER (barCell (fwd c 12)) 0 (12 : D) ∗ reached ER (barCell (fwd c 12)) 0) ∗ (dutyTok ER (barCell (fwd c 13)) 0 (13 : D) ∗ reached ER (barCell (fwd c 13)) 0) ∗ (dutyTok ER (barCell (fwd c 14)) 0 (14 : D) ∗ reached ER (barCell (fwd c 14)) 0) ∗ (dutyTok ER (barCell (fwd c 15)) 0 (15 : D) ∗ reached ER (barCell (fwd c 15)) 0))) := by
  unfold ghost
  rw [bigSep_D1, bigSep_F15, bigSep_F15]
  iintro ⟨#HI, ⟨Hs0, Hs1, Hs2, Hs3, Hs4, Hs5, Hs6, Hs7, Hs8, Hs9, Hs10, Hs11, Hs12, Hs13, Hs14⟩, ⟨Hr0, Hr1, Hr2, Hr3, Hr4, Hr5, Hr6, Hr7, Hr8, Hr9, Hr10, Hr11, Hr12, Hr13, Hr14⟩, HatB, Htoks⟩
  isplitr; · iexact HI
  isplitl [Hs0 Hs1 Hs2 Hs3 Hs4 Hs5 Hs6 Hs7 Hs8 Hs9 Hs10 Hs11 Hs12 Hs13 Hs14]
  · isplitl [Hs0]; · (ihave H := (sndr_open c (0 : Fin 15)) $$ Hs0; icases H with ⟨H, #Hd⟩; iexact H)
    isplitl [Hs1]; · (ihave H := (sndr_open c (1 : Fin 15)) $$ Hs1; icases H with ⟨H, #Hd⟩; iexact H)
    isplitl [Hs2]; · (ihave H := (sndr_open c (2 : Fin 15)) $$ Hs2; icases H with ⟨H, #Hd⟩; iexact H)
    isplitl [Hs3]; · (ihave H := (sndr_open c (3 : Fin 15)) $$ Hs3; icases H with ⟨H, #Hd⟩; iexact H)
    isplitl [Hs4]; · (ihave H := (sndr_open c (4 : Fin 15)) $$ Hs4; icases H with ⟨H, #Hd⟩; iexact H)
    isplitl [Hs5]; · (ihave H := (sndr_open c (5 : Fin 15)) $$ Hs5; icases H with ⟨H, #Hd⟩; iexact H)
    isplitl [Hs6]; · (ihave H := (sndr_open c (6 : Fin 15)) $$ Hs6; icases H with ⟨H, #Hd⟩; iexact H)
    isplitl [Hs7]; · (ihave H := (sndr_open c (7 : Fin 15)) $$ Hs7; icases H with ⟨H, #Hd⟩; iexact H)
    isplitl [Hs8]; · (ihave H := (sndr_open c (8 : Fin 15)) $$ Hs8; icases H with ⟨H, #Hd⟩; iexact H)
    isplitl [Hs9]; · (ihave H := (sndr_open c (9 : Fin 15)) $$ Hs9; icases H with ⟨H, #Hd⟩; iexact H)
    isplitl [Hs10]; · (ihave H := (sndr_open c (10 : Fin 15)) $$ Hs10; icases H with ⟨H, #Hd⟩; iexact H)
    isplitl [Hs11]; · (ihave H := (sndr_open c (11 : Fin 15)) $$ Hs11; icases H with ⟨H, #Hd⟩; iexact H)
    isplitl [Hs12]; · (ihave H := (sndr_open c (12 : Fin 15)) $$ Hs12; icases H with ⟨H, #Hd⟩; iexact H)
    isplitl [Hs13]; · (ihave H := (sndr_open c (13 : Fin 15)) $$ Hs13; icases H with ⟨H, #Hd⟩; iexact H)
    ihave H := (sndr_open c (14 : Fin 15)) $$ Hs14; icases H with ⟨H, #Hd⟩; iexact H
  isplitl [Hr0 Hr1 Hr2 Hr3 Hr4 Hr5 Hr6 Hr7 Hr8 Hr9 Hr10 Hr11 Hr12 Hr13 Hr14]
  · isplitl [Hr0]; · (iapply (rc_dup c (0 : Fin 15) 0); iapply (rcvr_open c (0 : Fin 15)); iexact Hr0)
    isplitl [Hr1]; · (iapply (rc_dup c (1 : Fin 15) 0); iapply (rcvr_open c (1 : Fin 15)); iexact Hr1)
    isplitl [Hr2]; · (iapply (rc_dup c (2 : Fin 15) 0); iapply (rcvr_open c (2 : Fin 15)); iexact Hr2)
    isplitl [Hr3]; · (iapply (rc_dup c (3 : Fin 15) 0); iapply (rcvr_open c (3 : Fin 15)); iexact Hr3)
    isplitl [Hr4]; · (iapply (rc_dup c (4 : Fin 15) 0); iapply (rcvr_open c (4 : Fin 15)); iexact Hr4)
    isplitl [Hr5]; · (iapply (rc_dup c (5 : Fin 15) 0); iapply (rcvr_open c (5 : Fin 15)); iexact Hr5)
    isplitl [Hr6]; · (iapply (rc_dup c (6 : Fin 15) 0); iapply (rcvr_open c (6 : Fin 15)); iexact Hr6)
    isplitl [Hr7]; · (iapply (rc_dup c (7 : Fin 15) 0); iapply (rcvr_open c (7 : Fin 15)); iexact Hr7)
    isplitl [Hr8]; · (iapply (rc_dup c (8 : Fin 15) 0); iapply (rcvr_open c (8 : Fin 15)); iexact Hr8)
    isplitl [Hr9]; · (iapply (rc_dup c (9 : Fin 15) 0); iapply (rcvr_open c (9 : Fin 15)); iexact Hr9)
    isplitl [Hr10]; · (iapply (rc_dup c (10 : Fin 15) 0); iapply (rcvr_open c (10 : Fin 15)); iexact Hr10)
    isplitl [Hr11]; · (iapply (rc_dup c (11 : Fin 15) 0); iapply (rcvr_open c (11 : Fin 15)); iexact Hr11)
    isplitl [Hr12]; · (iapply (rc_dup c (12 : Fin 15) 0); iapply (rcvr_open c (12 : Fin 15)); iexact Hr12)
    isplitl [Hr13]; · (iapply (rc_dup c (13 : Fin 15) 0); iapply (rcvr_open c (13 : Fin 15)); iexact Hr13)
    iapply (rc_dup c (14 : Fin 15) 0); iapply (rcvr_open c (14 : Fin 15)); iexact Hr14
  isplitl [HatB]; · iexact HatB
  iexact Htoks

/-! ## Counting the copies issued

  Copies of one kind are issued in the order of their index: after t of them at layer r the first t
  indices stand at r + 1 and the others at r. -/

def cnt (t r : ℕ) : Fin 15 → ℕ := fun i => if i.val < t then r + 1 else r

theorem cnt_step (t r : ℕ) (ht : t < 15) : Function.update (cnt t r) (⟨t, ht⟩ : Fin 15) (r + 1) = cnt (t + 1) r := by
  funext i
  unfold cnt
  by_cases h : i = ⟨t, ht⟩
  · subst h; simp
  · rw [Function.update_of_ne h]
    have : i.val ≠ t := fun e => h (Fin.ext e)
    by_cases h2 : i.val < t
    · rw [if_pos h2, if_pos (by omega)]
    · rw [if_neg h2, if_neg (by omega)]
theorem cnt_at (t r : ℕ) (ht : t < 15) : cnt t r (⟨t, ht⟩ : Fin 15) = r := by unfold cnt; simp
theorem cnt_full (r : ℕ) : cnt 15 r = cnt 0 (r + 1) := by
  funext i; unfold cnt; have := i.isLt; rw [if_pos this, if_neg (by omega)]
theorem cnt_zero (r : ℕ) : cnt 0 r = fun _ => r := by funext i; unfold cnt; simp
theorem lt_cnt (t r : ℕ) (i : Fin 15) : r ≤ cnt t r i := by unfold cnt; split <;> omega
theorem lt_cnt_full (r : ℕ) (i : Fin 15) : r < cnt 15 r i := by unfold cnt; have := i.isLt; rw [if_pos this]; omega
theorem lt_cnt_next (t r : ℕ) (i : Fin 15) : r < cnt t (r + 1) i := by unfold cnt; split <;> omega

/-- Chunk copy t+1 of layer r, the t-th issued. -/
theorem step_AS_t (K : GSem nD τ sig → ℕ) (c : Dev nD) (t : ℕ) (ht : t < 15) (r : ℕ) (hr : r < 3) (b : Fin 15 → ℕ)
    {W : Waits sig ℕ} {α : Type} {Q : α → sProp 𝕄} {k : PUnit → Prog (TpuEff nD τ sig (Elt F) Λ₀ .tc) α}
    {hsc : (xslot (kOf ⟨t, ht⟩)).view.ref.isScScratch = false}
    {hsrc : (xslot 0).view.WordExact} {hdst : (xslot (kOf ⟨t, ht⟩)).view.WordExact}
    {hsem : DmaTarget.Typed (nD := nD) (τ := τ) (p := .tc) .vmem (.dma (rAg ⟨t, ht⟩)) (.remote (nxt c ⟨t, ht⟩ : Thread nD τ) (xslot (kOf ⟨t, ht⟩)) (.dma (sAg ⟨t, ht⟩)) hsc)} :
    iprop(Invs m K ∗ owes (c : Thread nD τ) (Otot c (cnt t r) b 15) W ∗ sn (F := F) c ⟨t, ht⟩ r ∗ dstX (F := F) c ⟨t, ht⟩ r
        ∗ xPts c 0 (keepSh t) (xfill c 0 (chunkAt m r c)) ∗ (∃ f, rPts (F := F) c (Fin.rev ⟨t, ht⟩) f))
      ⊢ iprop(((owes (c : Thread nD τ) (Otot c (cnt (t + 1) r) b 15) W ∗ snSent (F := F) c ⟨t, ht⟩ r
                ∗ xPts c 0 (keepSh (t + 1)) (xfill c 0 (chunkAt m r c)))
              -∗ wp frame (wpE (defs₀ (F := F)) 𝒱₀ c none) Set.univ (k ⟨⟩) Q)
          -∗ wp frame (wpE (defs₀ (F := F)) 𝒱₀ c none) Set.univ
              (.op (.enqueueDma (xslot 0) (.remote (nxt c ⟨t, ht⟩ : Thread nD τ) (xslot (kOf ⟨t, ht⟩)) (.dma (sAg ⟨t, ht⟩)) hsc) (.dma (rAg ⟨t, ht⟩)) hsrc hdst hsem) k) Q) := by
  have h := step_AS m K c ⟨t, ht⟩ r hr (cnt t r) b (cnt_at t r ht) (W := W) (Q := Q) (k := k) (hsc := hsc) (hsrc := hsrc) (hdst := hdst) (hsem := hsem)
  rw [cnt_step t r ht] at h
  exact h

/-- The piece of copy index t+1 at layer r < 2, the t-th issued. -/
theorem step_RS_t (K : GSem nD τ sig → ℕ) (c : Dev nD) (t : ℕ) (ht : t < 15) (r : ℕ) (hr : r < 2) (a : Fin 15 → ℕ)
    {W : Waits sig ℕ} {α : Type} {Q : α → sProp 𝕄} {k : PUnit → Prog (TpuEff nD τ sig (Elt F) Λ₀ .tc) α}
    {hsc : (rslot (Fin.rev ⟨t, ht⟩)).view.ref.isScScratch = false}
    {hsrc : (pslot (kOf ⟨t, ht⟩)).view.WordExact} {hdst : (rslot (Fin.rev ⟨t, ht⟩)).view.WordExact}
    {hsem : DmaTarget.Typed (nD := nD) (τ := τ) (p := .tc) .vmem (.dma (rRs (Fin.rev ⟨t, ht⟩))) (.remote (prv c ⟨t, ht⟩ : Thread nD τ) (rslot (Fin.rev ⟨t, ht⟩)) (.dma (sRs (Fin.rev ⟨t, ht⟩))) hsc)} :
    iprop(Invs m K ∗ owes (c : Thread nD τ) (Otot c a (cnt t r) 15) W ∗ rcGot (F := F) c ⟨t, ht⟩ r ∗ dstR (F := F) c ⟨t, ht⟩ r
        ∗ pPts c (kOf ⟨t, ht⟩) (pfill c (kOf ⟨t, ht⟩) (pieceAt m r c (t + 1)))
        ∗ (∃ f, xPts (F := F) c (kOf ⟨t, ht⟩) fullShare f))
      ⊢ iprop(((owes (c : Thread nD τ) (Otot c a (cnt (t + 1) r) 15) W ∗ rcSent (F := F) c ⟨t, ht⟩ r)
              -∗ wp frame (wpE (defs₀ (F := F)) 𝒱₀ c none) Set.univ (k ⟨⟩) Q)
          -∗ wp frame (wpE (defs₀ (F := F)) 𝒱₀ c none) Set.univ
              (.op (.enqueueDma (pslot (kOf ⟨t, ht⟩)) (.remote (prv c ⟨t, ht⟩ : Thread nD τ) (rslot (Fin.rev ⟨t, ht⟩)) (.dma (sRs (Fin.rev ⟨t, ht⟩))) hsc) (.dma (rRs (Fin.rev ⟨t, ht⟩))) hsrc hdst hsem) k) Q) := by
  have h := step_RS m K c ⟨t, ht⟩ r hr a (cnt t r) (cnt_at t r ht) (W := W) (Q := Q) (k := k) (hsc := hsc) (hsrc := hsrc) (hdst := hdst) (hsem := hsem)
  rw [cnt_step t r ht] at h
  exact h

/-- The same at the last layer, where no slot of X goes back. -/
theorem step_RS_last_t (K : GSem nD τ sig → ℕ) (c : Dev nD) (t : ℕ) (ht : t < 15) (a : Fin 15 → ℕ)
    {W : Waits sig ℕ} {α : Type} {Q : α → sProp 𝕄} {k : PUnit → Prog (TpuEff nD τ sig (Elt F) Λ₀ .tc) α}
    {hsc : (rslot (Fin.rev ⟨t, ht⟩)).view.ref.isScScratch = false}
    {hsrc : (pslot (kOf ⟨t, ht⟩)).view.WordExact} {hdst : (rslot (Fin.rev ⟨t, ht⟩)).view.WordExact}
    {hsem : DmaTarget.Typed (nD := nD) (τ := τ) (p := .tc) .vmem (.dma (rRs (Fin.rev ⟨t, ht⟩))) (.remote (prv c ⟨t, ht⟩ : Thread nD τ) (rslot (Fin.rev ⟨t, ht⟩)) (.dma (sRs (Fin.rev ⟨t, ht⟩))) hsc)} :
    iprop(Invs m K ∗ owes (c : Thread nD τ) (Otot c a (cnt t 2) 15) W ∗ rcGot (F := F) c ⟨t, ht⟩ 2 ∗ dstR (F := F) c ⟨t, ht⟩ 2
        ∗ pPts c (kOf ⟨t, ht⟩) (pfill c (kOf ⟨t, ht⟩) (pieceAt m 2 c (t + 1))))
      ⊢ iprop(((owes (c : Thread nD τ) (Otot c a (cnt (t + 1) 2) 15) W ∗ rcSent (F := F) c ⟨t, ht⟩ 2)
              -∗ wp frame (wpE (defs₀ (F := F)) 𝒱₀ c none) Set.univ (k ⟨⟩) Q)
          -∗ wp frame (wpE (defs₀ (F := F)) 𝒱₀ c none) Set.univ
              (.op (.enqueueDma (pslot (kOf ⟨t, ht⟩)) (.remote (prv c ⟨t, ht⟩ : Thread nD τ) (rslot (Fin.rev ⟨t, ht⟩)) (.dma (sRs (Fin.rev ⟨t, ht⟩))) hsc) (.dma (rRs (Fin.rev ⟨t, ht⟩))) hsrc hdst hsem) k) Q) := by
  have h := step_RS_last m K c ⟨t, ht⟩ 2 rfl a (cnt t 2) (cnt_at t 2 ht) (W := W) (Q := Q) (k := k) (hsc := hsc) (hsrc := hsrc) (hdst := hdst) (hsem := hsem)
  rw [cnt_step t 2 ht] at h
  exact h

/-! ## The same three steps with the peer written as the program prints it

  The printed program addresses a peer through its own arithmetic on the device's position; these
  forms take the peer as a variable with the equation that identifies it. -/

theorem step_AS_d (K : GSem nD τ sig → ℕ) (c : Dev nD) (t : ℕ) (ht : t < 15) (r : ℕ) (hr : r < 3) (b : Fin 15 → ℕ)
    (d : Dev nD) (hd : d = nxt c ⟨t, ht⟩)
    {W : Waits sig ℕ} {α : Type} {Q : α → sProp 𝕄} {k : PUnit → Prog (TpuEff nD τ sig (Elt F) Λ₀ .tc) α}
    {hsc : (xslot (kOf ⟨t, ht⟩)).view.ref.isScScratch = false}
    {hsrc : (xslot 0).view.WordExact} {hdst : (xslot (kOf ⟨t, ht⟩)).view.WordExact}
    {hsem : DmaTarget.Typed (nD := nD) (τ := τ) (p := .tc) .vmem (.dma (rAg ⟨t, ht⟩)) (.remote (d : Thread nD τ) (xslot (kOf ⟨t, ht⟩)) (.dma (sAg ⟨t, ht⟩)) hsc)} :
    iprop(Invs m K ∗ owes (c : Thread nD τ) (Otot c (cnt t r) b 15) W ∗ sn (F := F) c ⟨t, ht⟩ r ∗ dstX (F := F) c ⟨t, ht⟩ r
        ∗ xPts c 0 (keepSh t) (xfill c 0 (chunkAt m r c)) ∗ (∃ f, rPts (F := F) c (Fin.rev ⟨t, ht⟩) f))
      ⊢ iprop(((owes (c : Thread nD τ) (Otot c (cnt (t + 1) r) b 15) W ∗ snSent (F := F) c ⟨t, ht⟩ r
                ∗ xPts c 0 (keepSh (t + 1)) (xfill c 0 (chunkAt m r c)))
              -∗ wp frame (wpE (defs₀ (F := F)) 𝒱₀ c none) Set.univ (k ⟨⟩) Q)
          -∗ wp frame (wpE (defs₀ (F := F)) 𝒱₀ c none) Set.univ
              (.op (.enqueueDma (xslot 0) (.remote (d : Thread nD τ) (xslot (kOf ⟨t, ht⟩)) (.dma (sAg ⟨t, ht⟩)) hsc) (.dma (rAg ⟨t, ht⟩)) hsrc hdst hsem) k) Q) := by
  subst hd
  exact step_AS_t m K c t ht r hr b

theorem step_RS_d (K : GSem nD τ sig → ℕ) (c : Dev nD) (t : ℕ) (ht : t < 15) (r : ℕ) (hr : r < 2) (a : Fin 15 → ℕ)
    (d : Dev nD) (hd : d = prv c ⟨t, ht⟩)
    {W : Waits sig ℕ} {α : Type} {Q : α → sProp 𝕄} {k : PUnit → Prog (TpuEff nD τ sig (Elt F) Λ₀ .tc) α}
    {hsc : (rslot (Fin.rev ⟨t, ht⟩)).view.ref.isScScratch = false}
    {hsrc : (pslot (kOf ⟨t, ht⟩)).view.WordExact} {hdst : (rslot (Fin.rev ⟨t, ht⟩)).view.WordExact}
    {hsem : DmaTarget.Typed (nD := nD) (τ := τ) (p := .tc) .vmem (.dma (rRs (Fin.rev ⟨t, ht⟩))) (.remote (d : Thread nD τ) (rslot (Fin.rev ⟨t, ht⟩)) (.dma (sRs (Fin.rev ⟨t, ht⟩))) hsc)} :
    iprop(Invs m K ∗ owes (c : Thread nD τ) (Otot c a (cnt t r) 15) W ∗ rcGot (F := F) c ⟨t, ht⟩ r ∗ dstR (F := F) c ⟨t, ht⟩ r
        ∗ pPts c (kOf ⟨t, ht⟩) (pfill c (kOf ⟨t, ht⟩) (pieceAt m r c (t + 1)))
        ∗ (∃ f, xPts (F := F) c (kOf ⟨t, ht⟩) fullShare f))
      ⊢ iprop(((owes (c : Thread nD τ) (Otot c a (cnt (t + 1) r) 15) W ∗ rcSent (F := F) c ⟨t, ht⟩ r)
              -∗ wp frame (wpE (defs₀ (F := F)) 𝒱₀ c none) Set.univ (k ⟨⟩) Q)
          -∗ wp frame (wpE (defs₀ (F := F)) 𝒱₀ c none) Set.univ
              (.op (.enqueueDma (pslot (kOf ⟨t, ht⟩)) (.remote (d : Thread nD τ) (rslot (Fin.rev ⟨t, ht⟩)) (.dma (sRs (Fin.rev ⟨t, ht⟩))) hsc) (.dma (rRs (Fin.rev ⟨t, ht⟩))) hsrc hdst hsem) k) Q) := by
  subst hd
  exact step_RS_t m K c t ht r hr a

theorem step_RS_last_d (K : GSem nD τ sig → ℕ) (c : Dev nD) (t : ℕ) (ht : t < 15) (a : Fin 15 → ℕ)
    (d : Dev nD) (hd : d = prv c ⟨t, ht⟩)
    {W : Waits sig ℕ} {α : Type} {Q : α → sProp 𝕄} {k : PUnit → Prog (TpuEff nD τ sig (Elt F) Λ₀ .tc) α}
    {hsc : (rslot (Fin.rev ⟨t, ht⟩)).view.ref.isScScratch = false}
    {hsrc : (pslot (kOf ⟨t, ht⟩)).view.WordExact} {hdst : (rslot (Fin.rev ⟨t, ht⟩)).view.WordExact}
    {hsem : DmaTarget.Typed (nD := nD) (τ := τ) (p := .tc) .vmem (.dma (rRs (Fin.rev ⟨t, ht⟩))) (.remote (d : Thread nD τ) (rslot (Fin.rev ⟨t, ht⟩)) (.dma (sRs (Fin.rev ⟨t, ht⟩))) hsc)} :
    iprop(Invs m K ∗ owes (c : Thread nD τ) (Otot c a (cnt t 2) 15) W ∗ rcGot (F := F) c ⟨t, ht⟩ 2 ∗ dstR (F := F) c ⟨t, ht⟩ 2
        ∗ pPts c (kOf ⟨t, ht⟩) (pfill c (kOf ⟨t, ht⟩) (pieceAt m 2 c (t + 1))))
      ⊢ iprop(((owes (c : Thread nD τ) (Otot c a (cnt (t + 1) 2) 15) W ∗ rcSent (F := F) c ⟨t, ht⟩ 2)
              -∗ wp frame (wpE (defs₀ (F := F)) 𝒱₀ c none) Set.univ (k ⟨⟩) Q)
          -∗ wp frame (wpE (defs₀ (F := F)) 𝒱₀ c none) Set.univ
              (.op (.enqueueDma (pslot (kOf ⟨t, ht⟩)) (.remote (d : Thread nD τ) (rslot (Fin.rev ⟨t, ht⟩)) (.dma (sRs (Fin.rev ⟨t, ht⟩))) hsc) (.dma (rRs (Fin.rev ⟨t, ht⟩))) hsrc hdst hsem) k) Q) := by
  subst hd
  exact step_RS_last_t m K c t ht a

/-- The owed sum after all fifteen copies of one layer, restated for the next layer's count. -/
theorem owes_next (c : Dev nD) (r : ℕ) (W : Waits sig ℕ) :
    (owes (c : Thread nD τ) (Otot c (cnt 15 r) (cnt 15 r) 15) W : sProp 𝕄) ⊢ owes (c : Thread nD τ) (Otot c (cnt 0 (r + 1)) (cnt 0 (r + 1)) 15) W := by
  rw [cnt_full r]

/-- A return bound to a continuation is the continuation at the returned value. -/
theorem wp_ret_bind {α β : Type} (c : Dev nD) (a : α) (k : α → Prog (TpuEff nD τ sig (Elt F) Λ₀ .tc) β) (Q : β → sProp 𝕄) :
    (wp frame (wpE (defs₀ (F := F)) 𝒱₀ c none) Set.univ (k a) Q : sProp 𝕄)
      ⊢ wp frame (wpE (defs₀ (F := F)) 𝒱₀ c none) Set.univ ((Prog.ret a).bind k) Q := by
  have h : (Prog.ret a).bind k = k a := rfl
  rw [h]

end Cert.KernelIdeal.BodyPre
end
-- ==== Proof.BodyPost.lean ====
import proofs.«900978_g7700000000000979_dist_mlpseq_tp1d_bs_bs_b256_d256_h512_v7x_i16_bf16_1_alg».proof.Proof.BodyPre
noncomputable section
namespace Cert.KernelIdeal.BodyPre
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws Cert.KernelIdeal.Phases Cert.KernelIdeal.Steps Cert.KernelIdeal.Ring Cert.KernelIdeal.Open Cert.KernelIdeal.StepsSend Cert.KernelIdeal.StepsWait Cert.KernelIdeal.Slots
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-- What a device's body leaves: its three scratch buffers again with its sixty transfer semaphores closed at zero,
    nothing owed, the seven argument blocks as they were and the result block holding the last layer's sum. -/
def bodyPost (c : Dev nD) : sProp 𝕄 :=
  iprop(Φ₁ (F := F) c ∗ (dats m 0 c).owesAt 0 t₀.succ
    ∗ stg c cc0_stg0_0 ((dats m 0 c).after (0 : Fin 8) t₀)
    ∗ stg c cc0_stg1_0 ((dats m 0 c).after (1 : Fin 8) t₀)
    ∗ stg c cc0_stg2_0 ((dats m 0 c).after (2 : Fin 8) t₀)
    ∗ stg c cc0_stg3_0 ((dats m 0 c).after (3 : Fin 8) t₀)
    ∗ stg c cc0_stg4_0 ((dats m 0 c).after (4 : Fin 8) t₀)
    ∗ stg c cc0_stg5_0 ((dats m 0 c).after (5 : Fin 8) t₀)
    ∗ stg c cc0_stg6_0 ((dats m 0 c).after (6 : Fin 8) t₀)
    ∗ stg c cc0_stg7_0 ((dats m 0 c).after (7 : Fin 8) t₀))

end Cert.KernelIdeal.BodyPre
end
-- ==== Proof.StepsMem.lean ====
/-
  The body's loads and stores on the three scratch buffers, slot by slot.

  The proof holds X, P and R by their slots: the points-to of a slot's own elements (for slot 0 of X at a
  fraction while its copies are in flight), never a whole buffer. Each lemma here takes one load or store of
  the program through the whole buffer's memref at a slot's rectangle and reads or rewrites the slot held.
-/
import proofs.«900978_g7700000000000979_dist_mlpseq_tp1d_bs_bs_b256_d256_h512_v7x_i16_bf16_1_alg».proof.Proof.Dats
import proofs.«900978_g7700000000000979_dist_mlpseq_tp1d_bs_bs_b256_d256_h512_v7x_i16_bf16_1_alg».proof.Proof.SchedTables
import proofs.«900978_g7700000000000979_dist_mlpseq_tp1d_bs_bs_b256_d256_h512_v7x_i16_bf16_1_alg».proof.Proof.RingLaws
import proofs.«900978_g7700000000000979_dist_mlpseq_tp1d_bs_bs_b256_d256_h512_v7x_i16_bf16_1_alg».proof.Proof.Gen.KernelIdeal.Skeleton
import proofs.«900978_g7700000000000979_dist_mlpseq_tp1d_bs_bs_b256_d256_h512_v7x_i16_bf16_1_alg».proof.Proof.StateLemmas
noncomputable section
namespace Cert.KernelIdeal.StepsMem
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-- Contents written through a view on every index agree on the view's elements, whatever was there before. -/
theorem write_univ_agree {sig' : RefSig} {κ : Kind} {sp : Space} {s : Shape} {e : EltTy} {Val : EltTy → Type}
    (v : View sig' κ sp s e) (f g : v.ty.Contents Val) (w : s.Idx → Val e) :
    ∀ i ∈ v.set, v.write Val f w Finset.univ i = v.write Val g w Finset.univ i := by
  intro i hi
  obtain ⟨x, -, rfl⟩ := Finset.mem_map.mp hi
  rw [View.write_emb_of_mem _ _ (Finset.mem_univ x), View.write_emb_of_mem _ _ (Finset.mem_univ x)]

/-! ## Stores of a whole slot -/

/-- The store of a chunk into slot k of X. -/
theorem storeX (c : Dev nD) (k : Fin 16) (v : Vec F S256x256 .bf16)
    {hx : (XM.access (Rect.unit (s := S4096x256) ![256 * k.val, 0] S256x256.size (inbRow k))).Stores Finset.univ}
    {hm : (Finset.univ : Finset (Rect.unit (s := S4096x256) ![256 * k.val, 0] S256x256.size (inbRow k)).shape.Idx) = Finset.univ ∨ ∀ a, (Rect.unit (s := S4096x256) ![256 * k.val, 0] S256x256.size (inbRow k)).stride a = 1}
    {α : Type} {Q : α → sProp 𝕄} {kk : PUnit → Prog (TpuEff nD τ sig (Elt F) Λ₀ .tc) α} :
    iprop(∃ f, xPts (F := F) c k fullShare f)
      ⊢ iprop((xPts c k fullShare (xfill c k v) -∗ wp frame (wpE (defs₀ (F := F)) 𝒱₀ c none) Set.univ (kk ⟨⟩) Q)
          -∗ wp frame (wpE (defs₀ (F := F)) 𝒱₀ c none) Set.univ (.op (.store XM (Rect.unit (s := S4096x256) ![256 * k.val, 0] S256x256.size (inbRow k)) v Finset.univ hx hm) kk) Q) := by
  unfold xPts xfill
  iintro ⟨%f, H⟩ Hk
  iapply (wp_store (defs := defs₀ (F := F)) 𝒱₀ (c : Thread nD τ) none Set.univ (m := XM)
      (r := (Rect.unit (s := S4096x256) ![256 * k.val, 0] S256x256.size (inbRow k))) (w := v) (Mk := Finset.univ) (f := f)
      (S := (xslot k).view.set) (Finset.Subset.refl _)) $$ [H]
  · iexact H
  iintro H'
  iapply Hk
  rw [pointsTo_congr (write_univ_agree (xslot k).view _ f v)]
  iexact H'

/-- The store of a piece into slot k of P. -/
theorem storeP (c : Dev nD) (k : Fin 16) (v : Vec F S256x256 .bf16)
    {hx : (PM.access (Rect.unit (s := S4096x256) ![256 * k.val, 0] S256x256.size (inbRow k))).Stores Finset.univ}
    {hm : (Finset.univ : Finset (Rect.unit (s := S4096x256) ![256 * k.val, 0] S256x256.size (inbRow k)).shape.Idx) = Finset.univ ∨ ∀ a, (Rect.unit (s := S4096x256) ![256 * k.val, 0] S256x256.size (inbRow k)).stride a = 1}
    {α : Type} {Q : α → sProp 𝕄} {kk : PUnit → Prog (TpuEff nD τ sig (Elt F) Λ₀ .tc) α} :
    iprop(∃ f, pPts (F := F) c k f)
      ⊢ iprop((pPts c k (pfill c k v) -∗ wp frame (wpE (defs₀ (F := F)) 𝒱₀ c none) Set.univ (kk ⟨⟩) Q)
          -∗ wp frame (wpE (defs₀ (F := F)) 𝒱₀ c none) Set.univ (.op (.store PM (Rect.unit (s := S4096x256) ![256 * k.val, 0] S256x256.size (inbRow k)) v Finset.univ hx hm) kk) Q) := by
  unfold pPts pfill
  iintro ⟨%f, H⟩ Hk
  iapply (wp_store (defs := defs₀ (F := F)) 𝒱₀ (c : Thread nD τ) none Set.univ (m := PM)
      (r := (Rect.unit (s := S4096x256) ![256 * k.val, 0] S256x256.size (inbRow k))) (w := v) (Mk := Finset.univ) (f := f)
      (S := (pslot k).view.set) (Finset.Subset.refl _)) $$ [H]
  · iexact H
  iintro H'
  iapply Hk
  rw [pointsTo_congr (write_univ_agree (pslot k).view _ f v)]
  iexact H'

/-! ## Loads of one slot, whatever it holds -/

theorem loadXany (c : Dev nD) (k : Fin 16) (q : PosShare TreeShare) (f : Buf (Elt F) ((xslot k).view.loc (c : Thread nD τ)))
    {hl : XM.view.LoadsAt (Rect.unit (s := S4096x256) ![256 * k.val, 0] S256x256.size (inbRow k)).toLoadRect}
    {α : Type} {Q : α → sProp 𝕄} {kk : Vec F S256x256 .bf16 → Prog (TpuEff nD τ sig (Elt F) Λ₀ .tc) α} :
    xPts c k q f
      ⊢ iprop((xPts c k q f -∗ wp frame (wpE (defs₀ (F := F)) 𝒱₀ c none) Set.univ (kk ((xslot k).view.read (Elt F) f)) Q)
          -∗ wp frame (wpE (defs₀ (F := F)) 𝒱₀ c none) Set.univ (.op (.load XM (Rect.unit (s := S4096x256) ![256 * k.val, 0] S256x256.size (inbRow k)).toLoadRect hl) kk) Q) := by
  unfold xPts
  exact wp_load_rect (defs := defs₀ (F := F)) 𝒱₀ (c : Thread nD τ) none Set.univ (m := XM) (r := (Rect.unit (s := S4096x256) ![256 * k.val, 0] S256x256.size (inbRow k)))
    (S := (xslot k).view.set) (q := q) (f := f) (Finset.Subset.refl _)

theorem loadPany (c : Dev nD) (k : Fin 16) (f : Buf (Elt F) ((pslot k).view.loc (c : Thread nD τ)))
    {hl : PM.view.LoadsAt (Rect.unit (s := S4096x256) ![256 * k.val, 0] S256x256.size (inbRow k)).toLoadRect}
    {α : Type} {Q : α → sProp 𝕄} {kk : Vec F S256x256 .bf16 → Prog (TpuEff nD τ sig (Elt F) Λ₀ .tc) α} :
    pPts c k f
      ⊢ iprop((pPts c k f -∗ wp frame (wpE (defs₀ (F := F)) 𝒱₀ c none) Set.univ (kk ((pslot k).view.read (Elt F) f)) Q)
          -∗ wp frame (wpE (defs₀ (F := F)) 𝒱₀ c none) Set.univ (.op (.load PM (Rect.unit (s := S4096x256) ![256 * k.val, 0] S256x256.size (inbRow k)).toLoadRect hl) kk) Q) := by
  unfold pPts
  exact wp_load_rect (defs := defs₀ (F := F)) 𝒱₀ (c : Thread nD τ) none Set.univ (m := PM) (r := (Rect.unit (s := S4096x256) ![256 * k.val, 0] S256x256.size (inbRow k)))
    (S := (pslot k).view.set) (q := fullShare) (f := f) (Finset.Subset.refl _)

/-! ## The load of a received piece -/

/-- Slot j of R read through its three-axis window, the slot holding v through its two-axis window. -/
theorem read_rslot3_rfill (c : Dev nD) (j : Fin 15) (v : Vec F S256x256 .bf16) :
    (rslot3 j).view.read (Elt F) (rfill c j v) = Vals.lift3 v := by
  funext i
  obtain ⟨y, rfl⟩ := (Shape.reshapeEquiv (squeezes_S1x256x256_S256x256.numel_eq)).surjective i
  have hy := Shape.reshapeEquiv_cons_one (n := 2) (d := ![256, 256]) squeezes_S1x256x256_S256x256.numel_eq y
  have hl : Vals.lift3 v (Shape.reshapeEquiv (squeezes_S1x256x256_S256x256.numel_eq) y) = v y := by
    unfold Vals.lift3
    rw [hy]
    congr 1
    funext d
    match d with
    | ⟨0, _⟩ => rfl
    | ⟨1, _⟩ => rfl
  rw [hl]
  exact View.read_write_of_mem (v := (rslot j).view) (fun _ => v idx00) v (Finset.mem_univ y)

theorem loadR (c : Dev nD) (j : Fin 15) (v : Vec F S256x256 .bf16)
    {hl : RM.view.LoadsAt (Rect.unit (s := S15x256x256) ![j.val, 0, 0] S1x256x256.size (inbR j)).toLoadRect}
    {α : Type} {Q : α → sProp 𝕄} {kk : Vec F S1x256x256 .bf16 → Prog (TpuEff nD τ sig (Elt F) Λ₀ .tc) α} :
    rPts c j (rfill c j v)
      ⊢ iprop((rPts c j (rfill c j v) -∗ wp frame (wpE (defs₀ (F := F)) 𝒱₀ c none) Set.univ (kk (Vals.lift3 v)) Q)
          -∗ wp frame (wpE (defs₀ (F := F)) 𝒱₀ c none) Set.univ (.op (.load RM (Rect.unit (s := S15x256x256) ![j.val, 0, 0] S1x256x256.size (inbR j)).toLoadRect hl) kk) Q) := by
  unfold rPts
  have hset : (rslot j).view.set = (rslot3 j).view.set := View.set_reshape _ _
  rw [hset, ← read_rslot3_rfill c j v]
  exact wp_load_rect (defs := defs₀ (F := F)) 𝒱₀ (c : Thread nD τ) none Set.univ (m := RM) (r := (Rect.unit (s := S15x256x256) ![j.val, 0, 0] S1x256x256.size (inbR j)))
    (S := (rslot3 j).view.set) (q := fullShare) (f := rfill c j v) (Finset.Subset.refl _)

/-! ## The load of two neighbouring slots of X -/

/-- The two slots a group's load reads. -/
def lo (g : Fin 8) : Fin 16 := ⟨2 * g.val, by omega⟩
def hi (g : Fin 8) : Fin 16 := ⟨2 * g.val + 1, by omega⟩

theorem lo_ne_hi (g : Fin 8) : lo g ≠ hi g := by
  intro h
  have := congrArg Fin.val h
  simp only [lo, hi] at this
  omega

theorem inbRow2 (g : Fin 8) : ∀ a, (![512 * g.val, 0] : Fin 2 → Nat) a + S512x256.size a ≤ S4096x256.size a := by
  revert g; decide

theorem xslot_set (k : Fin 16) : (xslot k).view.set = (Rect.unit (s := S4096x256) ![256 * k.val, 0] S256x256.size (inbRow k)).set.map XM.view.emb := View.set_slice _ _

/-- Different slots of X share no element. -/
theorem xslot_disjoint {k k' : Fin 16} (h : k ≠ k') : Disjoint (xslot k).view.set (xslot k').view.set := by
  have hne : k.val ≠ k'.val := Fin.val_ne_of_ne h
  rw [xslot_set, xslot_set]
  exact (Finset.disjoint_map XM.view.emb).mpr (Rect.unit_disjoint (0 : Fin 2)
    (show 256 * k.val + 256 ≤ 256 * k'.val ∨ 256 * k'.val + 256 ≤ 256 * k.val by omega))

/-- What is left of a full share of elements once the part `keepSh n` is taken: the n lent parts. -/
def lentAll {ℓ : Loc nD τ sig} (I : Finset (Idx ℓ)) (f : Buf (Elt F) ℓ) : ℕ → sProp 𝕄
  | 0 => iprop(emp)
  | n + 1 => iprop((ℓ ↦[I]{lentSh n} f) ∗ lentAll I f n)

theorem lentAll_zero {ℓ : Loc nD τ sig} (I : Finset (Idx ℓ)) (f : Buf (Elt F) ℓ) : lentAll I f 0 = iprop(emp) := rfl
theorem lentAll_succ {ℓ : Loc nD τ sig} (I : Finset (Idx ℓ)) (f : Buf (Elt F) ℓ) (n : ℕ) :
    lentAll I f (n + 1) = iprop((ℓ ↦[I]{lentSh n} f) ∗ lentAll I f n) := rfl

theorem full_to_keep {ℓ : Loc nD τ sig} (I : Finset (Idx ℓ)) (f : Buf (Elt F) ℓ) (n : ℕ) :
    (ℓ ↦[I]{fullShare} f : sProp 𝕄) ⊢ iprop((ℓ ↦[I]{keepSh n} f) ∗ lentAll I f n) := by
  induction n with
  | zero =>
    rw [lentAll_zero]
    iintro H
    isplitl [H]
    · iexact H
    · iempintro
  | succ n ih =>
    rw [lentAll_succ]
    iintro H
    ihave H' := ih $$ H
    icases H' with ⟨Hk, Hl⟩
    ihave Hs := (pointsTo_share (PosShare.mem_left_op_right (keepSh n))).1 $$ Hk
    icases Hs with ⟨Hk1, Hk2⟩
    isplitl [Hk1]
    · iexact Hk1
    isplitl [Hk2]
    · iexact Hk2
    · iexact Hl

theorem keep_to_full {ℓ : Loc nD τ sig} (I : Finset (Idx ℓ)) (f : Buf (Elt F) ℓ) (n : ℕ) :
    iprop((ℓ ↦[I]{keepSh n} f) ∗ lentAll I f n) ⊢ (ℓ ↦[I]{fullShare} f : sProp 𝕄) := by
  induction n with
  | zero =>
    iintro ⟨H, -⟩
    iexact H
  | succ n ih =>
    rw [lentAll_succ]
    iintro ⟨Hk1, Hk2, Hl⟩
    iapply ih
    isplitl [Hk1 Hk2]
    · iapply (pointsTo_share (PosShare.mem_left_op_right (keepSh n))).2
      isplitl [Hk1]
      · iexact Hk1
      · iexact Hk2
    · iexact Hl

/-- The rows a group's load reads are those of its two slots. -/
theorem setOn_two (g : Fin 8) :
    XM.view.setOn (Rect.unit (s := S4096x256) ![512 * g.val, 0] S512x256.size (inbRow2 g)).toLoadRect.set ⊆ (xslot (lo g)).view.set ∪ (xslot (hi g)).view.set := by
  intro i hi'
  obtain ⟨y, hy, rfl⟩ := Finset.mem_map.mp hi'
  have hy' := Rect.mem_set_unit.mp hy
  have h0 : 512 * g.val ≤ (y 0).val ∧ (y 0).val < 512 * g.val + 512 := hy' 0
  rw [xslot_set, xslot_set, ← Finset.map_union]
  refine Finset.mem_map_of_mem _ ?_
  rw [Finset.mem_union, Rect.mem_set_unit, Rect.mem_set_unit]
  by_cases h : (y 0).val < 512 * g.val + 256
  · left
    intro a
    match a with
    | ⟨0, _⟩ =>
      show 256 * (2 * g.val) ≤ (y 0).val ∧ (y 0).val < 256 * (2 * g.val) + 256
      omega
    | ⟨1, h1⟩ => exact hy' ⟨1, h1⟩
  · right
    intro a
    match a with
    | ⟨0, _⟩ =>
      show 256 * (2 * g.val + 1) ≤ (y 0).val ∧ (y 0).val < 256 * (2 * g.val + 1) + 256
      omega
    | ⟨1, h1⟩ => exact hy' ⟨1, h1⟩

/-- An element of a slot holding v, read back. -/
theorem xfill_emb (c : Dev nD) (k : Fin 16) (v : Vec F S256x256 .bf16) (x : S256x256.Idx) :
    (xslot k).view.read (Elt F) (xfill c k v) x = v x :=
  View.read_write_of_mem (v := (xslot k).view) (fun _ => v idx00) v (Finset.mem_univ x)

/-- The group's load off contents that agree with the two slots' reads the two chunks stacked. -/
theorem read_two (c : Dev nD) (g : Fin 8) (v0 v1 : Vec F S256x256 .bf16) (h : Buf (Elt F) (XM.view.loc (c : Thread nD τ)))
    (h0 : ∀ i ∈ (xslot (lo g)).view.set, h i = xfill c (lo g) v0 i)
    (h1 : ∀ i ∈ (xslot (hi g)).view.set, h i = xfill c (hi g) v1 i) :
    XM.view.readAt (Elt F) (Rect.unit (s := S4096x256) ![512 * g.val, 0] S512x256.size (inbRow2 g)).toLoadRect h = Vals.cat v0 v1 := by
  funext i
  by_cases hlt : (i 0).val < 256
  · have he : XM.view.emb ((Rect.unit (s := S4096x256) ![512 * g.val, 0] S512x256.size (inbRow2 g)).toLoadRect.idx i)
        = (xslot (lo g)).view.emb (fun d => match d with | 0 => ⟨(i 0).val, hlt⟩ | 1 => i 1) := by
      refine funext fun a => Fin.ext ?_
      match a with
      | ⟨0, _⟩ =>
        show 512 * g.val + 1 * (i 0).val = 256 * (2 * g.val) + 1 * (i 0).val
        omega
      | ⟨1, _⟩ => rfl
    have e1 : h (XM.view.emb ((Rect.unit (s := S4096x256) ![512 * g.val, 0] S512x256.size (inbRow2 g)).toLoadRect.idx i)) = xfill c (lo g) v0 (XM.view.emb ((Rect.unit (s := S4096x256) ![512 * g.val, 0] S512x256.size (inbRow2 g)).toLoadRect.idx i)) :=
      h0 _ (he ▸ (xslot (lo g)).view.emb_mem_set _)
    refine ((congrArg (_root_.cast _) (e1.trans (congrArg (xfill c (lo g) v0) he))).trans (xfill_emb c (lo g) v0 _)).trans ?_
    unfold Vals.cat
    rw [dif_pos hlt]
    rfl
  · have hlt2 : (i 0).val - 256 < 256 := by have h512 : (i 0).val < 512 := (i 0).isLt; omega
    have he : XM.view.emb ((Rect.unit (s := S4096x256) ![512 * g.val, 0] S512x256.size (inbRow2 g)).toLoadRect.idx i)
        = (xslot (hi g)).view.emb (fun d => match d with | 0 => ⟨(i 0).val - 256, hlt2⟩ | 1 => i 1) := by
      refine funext fun a => Fin.ext ?_
      match a with
      | ⟨0, _⟩ =>
        show 512 * g.val + 1 * (i 0).val = 256 * (2 * g.val + 1) + 1 * ((i 0).val - 256)
        omega
      | ⟨1, _⟩ => rfl
    have e1 : h (XM.view.emb ((Rect.unit (s := S4096x256) ![512 * g.val, 0] S512x256.size (inbRow2 g)).toLoadRect.idx i)) = xfill c (hi g) v1 (XM.view.emb ((Rect.unit (s := S4096x256) ![512 * g.val, 0] S512x256.size (inbRow2 g)).toLoadRect.idx i)) :=
      h1 _ (he ▸ (xslot (hi g)).view.emb_mem_set _)
    refine ((congrArg (_root_.cast _) (e1.trans (congrArg (xfill c (hi g) v1) he))).trans (xfill_emb c (hi g) v1 _)).trans ?_
    unfold Vals.cat
    rw [dif_neg hlt]
    rfl

/-- The two slots' contents as one: the second slot's chunk written over the first slot's contents. -/
def both (c : Dev nD) (g : Fin 8) (v0 v1 : Vec F S256x256 .bf16) : Buf (Elt F) (XM.view.loc (c : Thread nD τ)) :=
  (xslot (hi g)).view.write (Elt F) (xfill c (lo g) v0) v1 Finset.univ

theorem both_lo (c : Dev nD) (g : Fin 8) (v0 v1 : Vec F S256x256 .bf16) :
    ∀ i ∈ (xslot (lo g)).view.set, both c g v0 v1 i = xfill c (lo g) v0 i := fun i hi' =>
  View.write_of_not_mem (v := (xslot (hi g)).view) _ _ _ (Finset.disjoint_left.mp (xslot_disjoint (k := lo g) (k' := hi g) (lo_ne_hi g)) hi')

theorem both_hi (c : Dev nD) (g : Fin 8) (v0 v1 : Vec F S256x256 .bf16) :
    ∀ i ∈ (xslot (hi g)).view.set, both c g v0 v1 i = xfill c (hi g) v1 i :=
  write_univ_agree (xslot (hi g)).view _ _ v1

/-- The load of a group's two slots: the first held at a part `keepSh n` of its share (n copies of it in flight;
    n = 0 is the whole), the second whole. -/
theorem loadX (c : Dev nD) (g : Fin 8) (n : ℕ) (v0 v1 : Vec F S256x256 .bf16)
    {hl : XM.view.LoadsAt (Rect.unit (s := S4096x256) ![512 * g.val, 0] S512x256.size (inbRow2 g)).toLoadRect}
    {α : Type} {Q : α → sProp 𝕄} {kk : Vec F S512x256 .bf16 → Prog (TpuEff nD τ sig (Elt F) Λ₀ .tc) α} :
    iprop(xPts c (lo g) (keepSh n) (xfill c (lo g) v0) ∗ xPts c (hi g) fullShare (xfill c (hi g) v1))
      ⊢ iprop(((xPts c (lo g) (keepSh n) (xfill c (lo g) v0) ∗ xPts c (hi g) fullShare (xfill c (hi g) v1))
            -∗ wp frame (wpE (defs₀ (F := F)) 𝒱₀ c none) Set.univ (kk (Vals.cat v0 v1)) Q)
          -∗ wp frame (wpE (defs₀ (F := F)) 𝒱₀ c none) Set.univ (.op (.load XM (Rect.unit (s := S4096x256) ![512 * g.val, 0] S512x256.size (inbRow2 g)).toLoadRect hl) kk) Q) := by
  unfold xPts
  show iprop((XM.view.loc (c : Thread nD τ) ↦[(xslot (lo g)).view.set]{keepSh n} xfill c (lo g) v0)
        ∗ (XM.view.loc (c : Thread nD τ) ↦[(xslot (hi g)).view.set]{fullShare} xfill c (hi g) v1))
      ⊢ iprop((((XM.view.loc (c : Thread nD τ) ↦[(xslot (lo g)).view.set]{keepSh n} xfill c (lo g) v0)
        ∗ (XM.view.loc (c : Thread nD τ) ↦[(xslot (hi g)).view.set]{fullShare} xfill c (hi g) v1)) -∗ _) -∗ _)
  rw [← pointsTo_congr (ℓ := XM.view.loc (c : Thread nD τ)) (q := keepSh n) (both_lo c g v0 v1),
    ← pointsTo_congr (ℓ := XM.view.loc (c : Thread nD τ)) (q := fullShare) (both_hi c g v0 v1),
    ← read_two c g v0 v1 (both c g v0 v1) (both_lo c g v0 v1) (both_hi c g v0 v1)]
  iintro ⟨H0, H1⟩ Hk
  ihave H1' := (full_to_keep (ℓ := XM.view.loc (c : Thread nD τ)) (xslot (hi g)).view.set (both c g v0 v1) n) $$ H1
  icases H1' with ⟨H1k, H1l⟩
  ihave HJ := (pointsTo_union (ℓ := XM.view.loc (c : Thread nD τ)) (q := keepSh n) (f := both c g v0 v1)
      (xslot_disjoint (lo_ne_hi g))).2 $$ [H0 H1k]
  · isplitl [H0]
    · iexact H0
    · iexact H1k
  iapply (wp_load (defs := defs₀ (F := F)) 𝒱₀ (c : Thread nD τ) none Set.univ (m := XM) (r := (Rect.unit (s := S4096x256) ![512 * g.val, 0] S512x256.size (inbRow2 g)).toLoadRect)
      (setOn_two g)) $$ [HJ]
  · iexact HJ
  iintro HJ
  ihave HS := (pointsTo_union (ℓ := XM.view.loc (c : Thread nD τ)) (q := keepSh n) (f := both c g v0 v1)
      (xslot_disjoint (lo_ne_hi g))).1 $$ HJ
  icases HS with ⟨H0, H1k⟩
  iapply Hk
  isplitl [H0]
  · iexact H0
  · iapply (keep_to_full (ℓ := XM.view.loc (c : Thread nD τ)) (xslot (hi g)).view.set (both c g v0 v1) n)
    isplitl [H1k]
    · iexact H1k
    · iexact H1l

/-- info: 'Cert.KernelIdeal.StepsMem.storeX' depends on axioms: [propext, Classical.choice, Quot.sound] -/
#guard_msgs in #print axioms storeX
/-- info: 'Cert.KernelIdeal.StepsMem.storeP' depends on axioms: [propext, Classical.choice, Quot.sound] -/
#guard_msgs in #print axioms storeP
/-- info: 'Cert.KernelIdeal.StepsMem.loadXany' depends on axioms: [propext, Classical.choice, Quot.sound] -/
#guard_msgs in #print axioms loadXany
/-- info: 'Cert.KernelIdeal.StepsMem.loadPany' depends on axioms: [propext, Classical.choice, Quot.sound] -/
#guard_msgs in #print axioms loadPany
/-- info: 'Cert.KernelIdeal.StepsMem.loadR' depends on axioms: [propext, Classical.choice, Quot.sound] -/
#guard_msgs in #print axioms loadR
/-- info: 'Cert.KernelIdeal.StepsMem.loadX' depends on axioms: [propext, Classical.choice, Quot.sound] -/
#guard_msgs in #print axioms loadX

end Cert.KernelIdeal.StepsMem
end
-- ==== Proof.PayForms.lean ====
/-
  What each landed payload is, in the terms the next step consumes, and what the staging buffers hold when the body starts.

  A chunk copy's landing hands the receiver the slot with the sender's chunk and the sender's slot of R, which is the
  landing slot of the piece the receiver returns (the sender sits j + 1 places back). A piece copy landing in slot
  Fin.rev j of R is the piece of copy index j + 1, sent by the device j + 1 places on; while another layer follows it
  also hands back that device's slot of X, the landing slot of the next chunk copy of index j + 1. The send side of the
  piece copy on semaphore Fin.rev j returns slot j + 1 of P. The index arithmetic is 15 - (14 - j) = j + 1 and that
  reversing an index twice gives it back.

  The grid has one point, at which every input window is fetched: its staging buffer then holds the window's block of
  its array, and the block is the whole array (all offsets are zero), so the buffer holds the device's argument block.
-/
import proofs.«900978_g7700000000000979_dist_mlpseq_tp1d_bs_bs_b256_d256_h512_v7x_i16_bf16_1_alg».proof.Proof.Dats
import proofs.«900978_g7700000000000979_dist_mlpseq_tp1d_bs_bs_b256_d256_h512_v7x_i16_bf16_1_alg».proof.Proof.SchedTables
import proofs.«900978_g7700000000000979_dist_mlpseq_tp1d_bs_bs_b256_d256_h512_v7x_i16_bf16_1_alg».proof.Proof.RingLaws
import proofs.«900978_g7700000000000979_dist_mlpseq_tp1d_bs_bs_b256_d256_h512_v7x_i16_bf16_1_alg».proof.Proof.Gen.KernelIdeal.Skeleton
import proofs.«900978_g7700000000000979_dist_mlpseq_tp1d_bs_bs_b256_d256_h512_v7x_i16_bf16_1_alg».proof.Proof.StateLemmas
import proofs.«900978_g7700000000000979_dist_mlpseq_tp1d_bs_bs_b256_d256_h512_v7x_i16_bf16_1_alg».proof.Proof.Phases
import proofs.«900978_g7700000000000979_dist_mlpseq_tp1d_bs_bs_b256_d256_h512_v7x_i16_bf16_1_alg».proof.Proof.StepsWait
import proofs.«900978_g7700000000000979_dist_mlpseq_tp1d_bs_bs_b256_d256_h512_v7x_i16_bf16_1_alg».proof.Proof.BodyPre
noncomputable section
namespace Cert.KernelIdeal.PayForms
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws Cert.KernelIdeal.Phases Cert.KernelIdeal.StepsWait Cert.KernelIdeal.BodyPre
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## Index arithmetic -/

/-- Slot Fin.rev j of R holds the piece of copy index j + 1; reversing twice is the identity. -/
theorem rev_val (j : Fin 15) : 15 - (Fin.rev j).val = j.val + 1 := by
  have := j.isLt; rw [Fin.val_rev]; omega

/-! ## Chunk copies -/

/-- The receive side's payload: the slot holding the sender's chunk, and the landing slot of the piece to return. -/
theorem agRPay_eq (c : Dev nD) (j : Fin 15) (r : ℕ) :
    agRPay m c j r = iprop(xPts c (kOf j) fullShare (xfill c (kOf j) (chunkAt m r (prv c j))) ∗ dstR (F := F) c j r) := rfl
theorem agRPay_open (c : Dev nD) (j : Fin 15) (r : ℕ) :
    agRPay m c j r ⊢ iprop(xPts c (kOf j) fullShare (xfill c (kOf j) (chunkAt m r (prv c j))) ∗ dstR (F := F) c j r) :=
  Entails.of_eq (agRPay_eq m c j r)

/-- The send side's payload: the lent share of slot 0 of X. -/
theorem agSPay_eq (c : Dev nD) (j : Fin 15) (r : ℕ) :
    agSPay m c j r = xPts c 0 (lentSh j.val) (xfill c 0 (chunkAt m r c)) := rfl

/-! ## Piece copies -/

/-- The receive side's payload while another layer follows: the slot holding the piece, and the landing slot of the next chunk copy. -/
theorem rsRPay_eq (c : Dev nD) (j : Fin 15) (r : ℕ) (hr : r < 2) :
    rsRPay m c (Fin.rev j) r = iprop(rPts c (Fin.rev j) (rfill c (Fin.rev j) (pieceAt m r (nxt c j) (j.val + 1))) ∗ dstX (F := F) c j (r + 1)) := by
  unfold rsRPay dstX
  rw [rev_val, Fin.rev_rev, if_pos hr]
theorem rsRPay_open (c : Dev nD) (j : Fin 15) (r : ℕ) (hr : r < 2) :
    rsRPay m c (Fin.rev j) r ⊢ iprop(rPts c (Fin.rev j) (rfill c (Fin.rev j) (pieceAt m r (nxt c j) (j.val + 1))) ∗ dstX (F := F) c j (r + 1)) :=
  Entails.of_eq (rsRPay_eq m c j r hr)
theorem rsRPay_eq_last (c : Dev nD) (j : Fin 15) (r : ℕ) (hr : ¬ r < 2) :
    rsRPay m c (Fin.rev j) r = rPts c (Fin.rev j) (rfill c (Fin.rev j) (pieceAt m r (nxt c j) (j.val + 1))) := by
  unfold rsRPay
  rw [rev_val, if_neg hr]
  exact equiv_iff.mp sep_emp
theorem rsRPay_open_last (c : Dev nD) (j : Fin 15) (r : ℕ) (hr : ¬ r < 2) :
    rsRPay m c (Fin.rev j) r ⊢ rPts c (Fin.rev j) (rfill c (Fin.rev j) (pieceAt m r (nxt c j) (j.val + 1))) :=
  Entails.of_eq (rsRPay_eq_last m c j r hr)

/-- The send side's payload: slot j + 1 of P, holding the piece just sent. -/
theorem rsSPay_eq (c : Dev nD) (j : Fin 15) (r : ℕ) :
    rsSPay m c (Fin.rev j) r = pPts c (kOf j) (pfill c (kOf j) (pieceAt m r c (j.val + 1))) := by
  unfold rsSPay
  rw [rev_val, Fin.rev_rev]
theorem rsSPay_open (c : Dev nD) (j : Fin 15) (r : ℕ) :
    rsSPay m c (Fin.rev j) r ⊢ pPts c (kOf j) (pfill c (kOf j) (pieceAt m r c (j.val + 1))) :=
  Entails.of_eq (rsSPay_eq m c j r)

/-! ## The staging buffers at the one grid point -/

theorem before_0 (c : Dev nD) (d) : (dats m 0 c).before (0 : Fin 8) t₀ d = argX m c := by
  unfold Dat.before; rw [if_pos (show (cfg0.win 0).fetch t₀ = true from rfl)]
  show ((cfg0.win 0).blk t₀).view.read (Elt F) (m ((cfg0.win 0).arr.view.loc (c : Thread nD τ))) = m ((c.tc : Thread nD τ).loc main_arg0)
  exact Memref.read_access_unit_zero (Elt F) main_arg0 (off := fun a => (cfg0.win 0).index t₀ a * (cfg0.win 0).size a)
    (by funext a; revert a; decide) _ (m ((c.tc : Thread nD τ).loc main_arg0))
theorem before_1 (c : Dev nD) (d) : (dats m 0 c).before (1 : Fin 8) t₀ d = argWi m 0 c := by
  unfold Dat.before; rw [if_pos (show (cfg0.win 1).fetch t₀ = true from rfl)]
  show ((cfg0.win 1).blk t₀).view.read (Elt F) (m ((cfg0.win 1).arr.view.loc (c : Thread nD τ))) = m ((c.tc : Thread nD τ).loc main_arg1)
  exact Memref.read_access_unit_zero (Elt F) main_arg1 (off := fun a => (cfg0.win 1).index t₀ a * (cfg0.win 1).size a)
    (by funext a; revert a; decide) _ (m ((c.tc : Thread nD τ).loc main_arg1))
theorem before_2 (c : Dev nD) (d) : (dats m 0 c).before (2 : Fin 8) t₀ d = argWo m 0 c := by
  unfold Dat.before; rw [if_pos (show (cfg0.win 2).fetch t₀ = true from rfl)]
  show ((cfg0.win 2).blk t₀).view.read (Elt F) (m ((cfg0.win 2).arr.view.loc (c : Thread nD τ))) = m ((c.tc : Thread nD τ).loc main_arg2)
  exact Memref.read_access_unit_zero (Elt F) main_arg2 (off := fun a => (cfg0.win 2).index t₀ a * (cfg0.win 2).size a)
    (by funext a; revert a; decide) _ (m ((c.tc : Thread nD τ).loc main_arg2))
theorem before_3 (c : Dev nD) (d) : (dats m 0 c).before (3 : Fin 8) t₀ d = argWi m 1 c := by
  unfold Dat.before; rw [if_pos (show (cfg0.win 3).fetch t₀ = true from rfl)]
  show ((cfg0.win 3).blk t₀).view.read (Elt F) (m ((cfg0.win 3).arr.view.loc (c : Thread nD τ))) = m ((c.tc : Thread nD τ).loc main_arg3)
  exact Memref.read_access_unit_zero (Elt F) main_arg3 (off := fun a => (cfg0.win 3).index t₀ a * (cfg0.win 3).size a)
    (by funext a; revert a; decide) _ (m ((c.tc : Thread nD τ).loc main_arg3))
theorem before_4 (c : Dev nD) (d) : (dats m 0 c).before (4 : Fin 8) t₀ d = argWo m 1 c := by
  unfold Dat.before; rw [if_pos (show (cfg0.win 4).fetch t₀ = true from rfl)]
  show ((cfg0.win 4).blk t₀).view.read (Elt F) (m ((cfg0.win 4).arr.view.loc (c : Thread nD τ))) = m ((c.tc : Thread nD τ).loc main_arg4)
  exact Memref.read_access_unit_zero (Elt F) main_arg4 (off := fun a => (cfg0.win 4).index t₀ a * (cfg0.win 4).size a)
    (by funext a; revert a; decide) _ (m ((c.tc : Thread nD τ).loc main_arg4))
theorem before_5 (c : Dev nD) (d) : (dats m 0 c).before (5 : Fin 8) t₀ d = argWi m 2 c := by
  unfold Dat.before; rw [if_pos (show (cfg0.win 5).fetch t₀ = true from rfl)]
  show ((cfg0.win 5).blk t₀).view.read (Elt F) (m ((cfg0.win 5).arr.view.loc (c : Thread nD τ))) = m ((c.tc : Thread nD τ).loc main_arg5)
  exact Memref.read_access_unit_zero (Elt F) main_arg5 (off := fun a => (cfg0.win 5).index t₀ a * (cfg0.win 5).size a)
    (by funext a; revert a; decide) _ (m ((c.tc : Thread nD τ).loc main_arg5))
theorem before_6 (c : Dev nD) (d) : (dats m 0 c).before (6 : Fin 8) t₀ d = argWo m 2 c := by
  unfold Dat.before; rw [if_pos (show (cfg0.win 6).fetch t₀ = true from rfl)]
  show ((cfg0.win 6).blk t₀).view.read (Elt F) (m ((cfg0.win 6).arr.view.loc (c : Thread nD τ))) = m ((c.tc : Thread nD τ).loc main_arg6)
  exact Memref.read_access_unit_zero (Elt F) main_arg6 (off := fun a => (cfg0.win 6).index t₀ a * (cfg0.win 6).size a)
    (by funext a; revert a; decide) _ (m ((c.tc : Thread nD τ).loc main_arg6))
theorem after_7 (c : Dev nD) : (dats m 0 c).after (7 : Fin 8) t₀ = outAt m c := rfl

end Cert.KernelIdeal.PayForms

/-- info: 'Cert.KernelIdeal.PayForms.agRPay_open' depends on axioms: [propext, Classical.choice, Quot.sound] -/
#guard_msgs in #print axioms Cert.KernelIdeal.PayForms.agRPay_open
/-- info: 'Cert.KernelIdeal.PayForms.rsRPay_open' depends on axioms: [propext, Classical.choice, Quot.sound] -/
#guard_msgs in #print axioms Cert.KernelIdeal.PayForms.rsRPay_open
/-- info: 'Cert.KernelIdeal.PayForms.rsRPay_open_last' depends on axioms: [propext, Classical.choice, Quot.sound] -/
#guard_msgs in #print axioms Cert.KernelIdeal.PayForms.rsRPay_open_last
/-- info: 'Cert.KernelIdeal.PayForms.rsSPay_open' depends on axioms: [propext, Classical.choice, Quot.sound] -/
#guard_msgs in #print axioms Cert.KernelIdeal.PayForms.rsSPay_open
/-- info: 'Cert.KernelIdeal.PayForms.agSPay_eq' depends on axioms: [propext, Classical.choice, Quot.sound] -/
#guard_msgs in #print axioms Cert.KernelIdeal.PayForms.agSPay_eq
/-- info: 'Cert.KernelIdeal.PayForms.before_0' depends on axioms: [propext, Classical.choice, Quot.sound] -/
#guard_msgs in #print axioms Cert.KernelIdeal.PayForms.before_0
/-- info: 'Cert.KernelIdeal.PayForms.before_1' depends on axioms: [propext, Classical.choice, Quot.sound] -/
#guard_msgs in #print axioms Cert.KernelIdeal.PayForms.before_1
/-- info: 'Cert.KernelIdeal.PayForms.before_2' depends on axioms: [propext, Classical.choice, Quot.sound] -/
#guard_msgs in #print axioms Cert.KernelIdeal.PayForms.before_2
/-- info: 'Cert.KernelIdeal.PayForms.before_3' depends on axioms: [propext, Classical.choice, Quot.sound] -/
#guard_msgs in #print axioms Cert.KernelIdeal.PayForms.before_3
/-- info: 'Cert.KernelIdeal.PayForms.before_4' depends on axioms: [propext, Classical.choice, Quot.sound] -/
#guard_msgs in #print axioms Cert.KernelIdeal.PayForms.before_4
/-- info: 'Cert.KernelIdeal.PayForms.before_5' depends on axioms: [propext, Classical.choice, Quot.sound] -/
#guard_msgs in #print axioms Cert.KernelIdeal.PayForms.before_5
/-- info: 'Cert.KernelIdeal.PayForms.before_6' depends on axioms: [propext, Classical.choice, Quot.sound] -/
#guard_msgs in #print axioms Cert.KernelIdeal.PayForms.before_6
/-- info: 'Cert.KernelIdeal.PayForms.after_7' depends on axioms: [propext, Classical.choice, Quot.sound] -/
#guard_msgs in #print axioms Cert.KernelIdeal.PayForms.after_7
end
-- ==== Proof.Exit.lean ====
/-
  The end of a device's body in one step: the slots of its three scratch buffers joined into the whole
  buffers, and its sixty transfer cells, all rounds consumed, closed with their counters at zero.
-/
import proofs.«900978_g7700000000000979_dist_mlpseq_tp1d_bs_bs_b256_d256_h512_v7x_i16_bf16_1_alg».proof.Proof.Dats
import proofs.«900978_g7700000000000979_dist_mlpseq_tp1d_bs_bs_b256_d256_h512_v7x_i16_bf16_1_alg».proof.Proof.SchedTables
import proofs.«900978_g7700000000000979_dist_mlpseq_tp1d_bs_bs_b256_d256_h512_v7x_i16_bf16_1_alg».proof.Proof.RingLaws
import proofs.«900978_g7700000000000979_dist_mlpseq_tp1d_bs_bs_b256_d256_h512_v7x_i16_bf16_1_alg».proof.Proof.Gen.KernelIdeal.Skeleton
import proofs.«900978_g7700000000000979_dist_mlpseq_tp1d_bs_bs_b256_d256_h512_v7x_i16_bf16_1_alg».proof.Proof.StateLemmas
import proofs.«900978_g7700000000000979_dist_mlpseq_tp1d_bs_bs_b256_d256_h512_v7x_i16_bf16_1_alg».proof.Proof.Phases
import proofs.«900978_g7700000000000979_dist_mlpseq_tp1d_bs_bs_b256_d256_h512_v7x_i16_bf16_1_alg».proof.Proof.Open
import proofs.«900978_g7700000000000979_dist_mlpseq_tp1d_bs_bs_b256_d256_h512_v7x_i16_bf16_1_alg».proof.Proof.Slots
noncomputable section
namespace Cert.KernelIdeal.Exit
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws Cert.KernelIdeal.Phases Cert.KernelIdeal.Slots
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)
/-! ## The whole exit -/

/-- At the body's end, holding every slot of the three scratch buffers again and every copy index's bundles past the last
    layer: the buffers whole and the sixty transfer semaphores at zero, for the rest of the program. -/
theorem phi1_wp (K : GSem nD τ sig → ℕ) (c : Dev nD) {α : Type} {Q : α → sProp 𝕄} (e : Prog (TpuEff nD τ sig (Elt F) Λ₀ .tc) α) :
    iprop(Invs m K
        ∗ ((∃ f, xPts (F := F) c (0 : Fin 16) fullShare f) ∗ (∃ f, xPts (F := F) c (1 : Fin 16) fullShare f) ∗ (∃ f, xPts (F := F) c (2 : Fin 16) fullShare f) ∗ (∃ f, xPts (F := F) c (3 : Fin 16) fullShare f) ∗ (∃ f, xPts (F := F) c (4 : Fin 16) fullShare f) ∗ (∃ f, xPts (F := F) c (5 : Fin 16) fullShare f) ∗ (∃ f, xPts (F := F) c (6 : Fin 16) fullShare f) ∗ (∃ f, xPts (F := F) c (7 : Fin 16) fullShare f) ∗ (∃ f, xPts (F := F) c (8 : Fin 16) fullShare f) ∗ (∃ f, xPts (F := F) c (9 : Fin 16) fullShare f) ∗ (∃ f, xPts (F := F) c (10 : Fin 16) fullShare f) ∗ (∃ f, xPts (F := F) c (11 : Fin 16) fullShare f) ∗ (∃ f, xPts (F := F) c (12 : Fin 16) fullShare f) ∗ (∃ f, xPts (F := F) c (13 : Fin 16) fullShare f) ∗ (∃ f, xPts (F := F) c (14 : Fin 16) fullShare f) ∗ (∃ f, xPts (F := F) c (15 : Fin 16) fullShare f))
        ∗ ((∃ f, pPts (F := F) c (0 : Fin 16) f) ∗ (∃ f, pPts (F := F) c (1 : Fin 16) f) ∗ (∃ f, pPts (F := F) c (2 : Fin 16) f) ∗ (∃ f, pPts (F := F) c (3 : Fin 16) f) ∗ (∃ f, pPts (F := F) c (4 : Fin 16) f) ∗ (∃ f, pPts (F := F) c (5 : Fin 16) f) ∗ (∃ f, pPts (F := F) c (6 : Fin 16) f) ∗ (∃ f, pPts (F := F) c (7 : Fin 16) f) ∗ (∃ f, pPts (F := F) c (8 : Fin 16) f) ∗ (∃ f, pPts (F := F) c (9 : Fin 16) f) ∗ (∃ f, pPts (F := F) c (10 : Fin 16) f) ∗ (∃ f, pPts (F := F) c (11 : Fin 16) f) ∗ (∃ f, pPts (F := F) c (12 : Fin 16) f) ∗ (∃ f, pPts (F := F) c (13 : Fin 16) f) ∗ (∃ f, pPts (F := F) c (14 : Fin 16) f) ∗ (∃ f, pPts (F := F) c (15 : Fin 16) f))
        ∗ ((∃ f, rPts (F := F) c (0 : Fin 15) f) ∗ (∃ f, rPts (F := F) c (1 : Fin 15) f) ∗ (∃ f, rPts (F := F) c (2 : Fin 15) f) ∗ (∃ f, rPts (F := F) c (3 : Fin 15) f) ∗ (∃ f, rPts (F := F) c (4 : Fin 15) f) ∗ (∃ f, rPts (F := F) c (5 : Fin 15) f) ∗ (∃ f, rPts (F := F) c (6 : Fin 15) f) ∗ (∃ f, rPts (F := F) c (7 : Fin 15) f) ∗ (∃ f, rPts (F := F) c (8 : Fin 15) f) ∗ (∃ f, rPts (F := F) c (9 : Fin 15) f) ∗ (∃ f, rPts (F := F) c (10 : Fin 15) f) ∗ (∃ f, rPts (F := F) c (11 : Fin 15) f) ∗ (∃ f, rPts (F := F) c (12 : Fin 15) f) ∗ (∃ f, rPts (F := F) c (13 : Fin 15) f) ∗ (∃ f, rPts (F := F) c (14 : Fin 15) f))
        ∗ (sn (F := F) c (0 : Fin 15) 3 ∗ sn (F := F) c (1 : Fin 15) 3 ∗ sn (F := F) c (2 : Fin 15) 3 ∗ sn (F := F) c (3 : Fin 15) 3 ∗ sn (F := F) c (4 : Fin 15) 3 ∗ sn (F := F) c (5 : Fin 15) 3 ∗ sn (F := F) c (6 : Fin 15) 3 ∗ sn (F := F) c (7 : Fin 15) 3 ∗ sn (F := F) c (8 : Fin 15) 3 ∗ sn (F := F) c (9 : Fin 15) 3 ∗ sn (F := F) c (10 : Fin 15) 3 ∗ sn (F := F) c (11 : Fin 15) 3 ∗ sn (F := F) c (12 : Fin 15) 3 ∗ sn (F := F) c (13 : Fin 15) 3 ∗ sn (F := F) c (14 : Fin 15) 3)
        ∗ (rc (F := F) c (0 : Fin 15) 3 ∗ rc (F := F) c (1 : Fin 15) 3 ∗ rc (F := F) c (2 : Fin 15) 3 ∗ rc (F := F) c (3 : Fin 15) 3 ∗ rc (F := F) c (4 : Fin 15) 3 ∗ rc (F := F) c (5 : Fin 15) 3 ∗ rc (F := F) c (6 : Fin 15) 3 ∗ rc (F := F) c (7 : Fin 15) 3 ∗ rc (F := F) c (8 : Fin 15) 3 ∗ rc (F := F) c (9 : Fin 15) 3 ∗ rc (F := F) c (10 : Fin 15) 3 ∗ rc (F := F) c (11 : Fin 15) 3 ∗ rc (F := F) c (12 : Fin 15) 3 ∗ rc (F := F) c (13 : Fin 15) 3 ∗ rc (F := F) c (14 : Fin 15) 3))
      ⊢ iprop((Dats.Φ₁ (F := F) c -∗ wp frame (wpE (defs₀ (F := F)) 𝒱₀ c none) Set.univ e Q)
          -∗ wp frame (wpE (defs₀ (F := F)) 𝒱₀ c none) Set.univ e Q) := by
  iintro ⟨#HI, HX, HP, HR, Hs, Hr⟩ Hk
  ihave HX := (x_cut16 (F := F) c).2 $$ HX
  ihave HP := (p_cut16 (F := F) c).2 $$ HP
  ihave HR := (r_cut15 (F := F) c).2 $$ HR
  iapply (own_zero_wp m K c e) $$ [Hs Hr]
  · isplitr; · iexact HI
    isplitl [Hs]
    · rw [Open.bigSep_F15]; iexact Hs
    · rw [Open.bigSep_F15]; iexact Hr
  iintro Hz
  iapply Hk
  unfold Dats.Φ₁
  isplitl [HX]; · iexact HX
  isplitl [HP]; · iexact HP
  isplitl [HR]; · iexact HR
  iexact Hz

/-- Slot 0 of X whole again, the fifteen lent halves back. -/
theorem x_back15 (c : Dev nD) (f : Buf (Elt F) ((xslot 0).view.loc (c : Thread nD τ))) :
    iprop(xPts (F := F) c 0 (keepSh 15) f ∗ (xPts (F := F) c 0 (lentSh 0) f ∗ xPts (F := F) c 0 (lentSh 1) f ∗ xPts (F := F) c 0 (lentSh 2) f ∗ xPts (F := F) c 0 (lentSh 3) f ∗ xPts (F := F) c 0 (lentSh 4) f ∗ xPts (F := F) c 0 (lentSh 5) f ∗ xPts (F := F) c 0 (lentSh 6) f ∗ xPts (F := F) c 0 (lentSh 7) f ∗ xPts (F := F) c 0 (lentSh 8) f ∗ xPts (F := F) c 0 (lentSh 9) f ∗ xPts (F := F) c 0 (lentSh 10) f ∗ xPts (F := F) c 0 (lentSh 11) f ∗ xPts (F := F) c 0 (lentSh 12) f ∗ xPts (F := F) c 0 (lentSh 13) f ∗ xPts (F := F) c 0 (lentSh 14) f))
      ⊢ (xPts (F := F) c 0 fullShare f : sProp 𝕄) := by
  have h := (x_fifteen (F := F) c 0 f).2
  rw [Open.bigSep_F15] at h
  exact h

end Cert.KernelIdeal.Exit

/-- info: 'Cert.KernelIdeal.Exit.phi1_wp' depends on axioms: [propext, Classical.choice, Quot.sound] -/
#guard_msgs in #print axioms Cert.KernelIdeal.Exit.phi1_wp
/-- info: 'Cert.KernelIdeal.Exit.x_back15' depends on axioms: [propext, Classical.choice, Quot.sound] -/
#guard_msgs in #print axioms Cert.KernelIdeal.Exit.x_back15

end
-- ==== Proof.Wins.lean ====
/-
  What the eight windows hold when the body of the one grid point ends.

  The grid has one point and every window's block is its whole array (all offsets are zero). The body leaves the
  seven argument blocks as it found them, so each input window ends holding the device's argument block, read
  through the whole array's view; the result window ends holding the last layer's sum of the sixteen pieces.
-/
import proofs.«900978_g7700000000000979_dist_mlpseq_tp1d_bs_bs_b256_d256_h512_v7x_i16_bf16_1_alg».proof.Proof.BodyPre
noncomputable section
namespace Cert.KernelIdeal.Wins
open Cert.KernelIdeal Cert.KernelIdeal.Gen Cert.KernelIdeal.Vals Cert.KernelIdeal.Cells Cert.KernelIdeal.Sched Cert.KernelIdeal.State Cert.KernelIdeal.Dats Cert.KernelIdeal.BodyPre
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## The argument windows: the block is the whole array, untouched -/

theorem after_0 (c : Dev nD) : (dats m 0 c).after (0 : Fin 8) t₀ = argX m c := by
  show ((cfg0.win 0).blk t₀).view.read (Elt F) (m ((cfg0.win 0).arr.view.loc (c : Thread nD τ))) = m ((c.tc : Thread nD τ).loc main_arg0)
  exact Memref.read_access_unit_zero (Elt F) main_arg0 (off := fun a => (cfg0.win 0).index t₀ a * (cfg0.win 0).size a)
    (by funext a; revert a; decide) _ (m ((c.tc : Thread nD τ).loc main_arg0))
theorem after_1 (c : Dev nD) : (dats m 0 c).after (1 : Fin 8) t₀ = argWi m 0 c := by
  show ((cfg0.win 1).blk t₀).view.read (Elt F) (m ((cfg0.win 1).arr.view.loc (c : Thread nD τ))) = m ((c.tc : Thread nD τ).loc main_arg1)
  exact Memref.read_access_unit_zero (Elt F) main_arg1 (off := fun a => (cfg0.win 1).index t₀ a * (cfg0.win 1).size a)
    (by funext a; revert a; decide) _ (m ((c.tc : Thread nD τ).loc main_arg1))
theorem after_2 (c : Dev nD) : (dats m 0 c).after (2 : Fin 8) t₀ = argWo m 0 c := by
  show ((cfg0.win 2).blk t₀).view.read (Elt F) (m ((cfg0.win 2).arr.view.loc (c : Thread nD τ))) = m ((c.tc : Thread nD τ).loc main_arg2)
  exact Memref.read_access_unit_zero (Elt F) main_arg2 (off := fun a => (cfg0.win 2).index t₀ a * (cfg0.win 2).size a)
    (by funext a; revert a; decide) _ (m ((c.tc : Thread nD τ).loc main_arg2))
theorem after_3 (c : Dev nD) : (dats m 0 c).after (3 : Fin 8) t₀ = argWi m 1 c := by
  show ((cfg0.win 3).blk t₀).view.read (Elt F) (m ((cfg0.win 3).arr.view.loc (c : Thread nD τ))) = m ((c.tc : Thread nD τ).loc main_arg3)
  exact Memref.read_access_unit_zero (Elt F) main_arg3 (off := fun a => (cfg0.win 3).index t₀ a * (cfg0.win 3).size a)
    (by funext a; revert a; decide) _ (m ((c.tc : Thread nD τ).loc main_arg3))
theorem after_4 (c : Dev nD) : (dats m 0 c).after (4 : Fin 8) t₀ = argWo m 1 c := by
  show ((cfg0.win 4).blk t₀).view.read (Elt F) (m ((cfg0.win 4).arr.view.loc (c : Thread nD τ))) = m ((c.tc : Thread nD τ).loc main_arg4)
  exact Memref.read_access_unit_zero (Elt F) main_arg4 (off := fun a => (cfg0.win 4).index t₀ a * (cfg0.win 4).size a)
    (by funext a; revert a; decide) _ (m ((c.tc : Thread nD τ).loc main_arg4))
theorem after_5 (c : Dev nD) : (dats m 0 c).after (5 : Fin 8) t₀ = argWi m 2 c := by
  show ((cfg0.win 5).blk t₀).view.read (Elt F) (m ((cfg0.win 5).arr.view.loc (c : Thread nD τ))) = m ((c.tc : Thread nD τ).loc main_arg5)
  exact Memref.read_access_unit_zero (Elt F) main_arg5 (off := fun a => (cfg0.win 5).index t₀ a * (cfg0.win 5).size a)
    (by funext a; revert a; decide) _ (m ((c.tc : Thread nD τ).loc main_arg5))
theorem after_6 (c : Dev nD) : (dats m 0 c).after (6 : Fin 8) t₀ = argWo m 2 c := by
  show ((cfg0.win 6).blk t₀).view.read (Elt F) (m ((cfg0.win 6).arr.view.loc (c : Thread nD τ))) = m ((c.tc : Thread nD τ).loc main_arg6)
  exact Memref.read_access_unit_zero (Elt F) main_arg6 (off := fun a => (cfg0.win 6).index t₀ a * (cfg0.win 6).size a)
    (by funext a; revert a; decide) _ (m ((c.tc : Thread nD τ).loc main_arg6))

/-! ## The result window -/

theorem after_7 (c : Dev nD) : (dats m 0 c).after (7 : Fin 8) t₀ = outAt m c := rfl

/-- info: 'Cert.KernelIdeal.Wins.after_0' depends on axioms: [propext, Classical.choice, Quot.sound] -/
#guard_msgs in #print axioms after_0
/-- info: 'Cert.KernelIdeal.Wins.after_1' depends on axioms: [propext, Classical.choice, Quot.sound] -/
#guard_msgs in #print axioms after_1
/-- info: 'Cert.KernelIdeal.Wins.after_2' depends on axioms: [propext, Classical.choice, Quot.sound] -/
#guard_msgs in #print axioms after_2
/-- info: 'Cert.KernelIdeal.Wins.after_3' depends on axioms: [propext, Classical.choice, Quot.sound] -/
#guard_msgs in #print axioms after_3
/-- info: 'Cert.KernelIdeal.Wins.after_4' depends on axioms: [propext, Classical.choice, Quot.sound] -/
#guard_msgs in #print axioms after_4
/-- info: 'Cert.KernelIdeal.Wins.after_5' depends on axioms: [propext, Classical.choice, Quot.sound] -/
#guard_msgs in #print axioms after_5
/-- info: 'Cert.KernelIdeal.Wins.after_6' depends on axioms: [propext, Classical.choice, Quot.sound] -/
#guard_msgs in #print axioms after_6
/-- info: 'Cert.KernelIdeal.Wins.after_7' depends on axioms: [propext, Classical.choice, Quot.sound] -/
#guard_msgs in #print axioms after_7

end Cert.KernelIdeal.Wins
end
-- ==== Proof.Pays.lean ====
/-
  The arithmetic between two memory operations of the program, group by group, is one of a few
  functions of the network.

  The program's text fuses the operations between memory operations into 122 payload functions, cut
  differently from group to group: in one group the two matrix products are one payload, in another the
  hidden layer is computed by one and multiplied by the next; a piece is rounded by one payload and its
  (same-shape) shape cast applied by the next. Every payload is named here through the functions of the
  value model: the rounding of a chunk and of the weight blocks, the hidden layer max(X·Wi, 0), the
  partial product of a group, its two halves, and the running sum of received pieces. A payload that is
  only an intermediate of one of these (the hidden layer already rounded, the first product before the
  maximum, a received piece already widened) is named through the payload that consumes it, at the
  argument the program feeds it.
-/
import proofs.«900978_g7700000000000979_dist_mlpseq_tp1d_bs_bs_b256_d256_h512_v7x_i16_bf16_1_alg».proof.Proof.Vals
import proofs.«900978_g7700000000000979_dist_mlpseq_tp1d_bs_bs_b256_d256_h512_v7x_i16_bf16_1_alg».proof.Proof.Gen.KernelIdeal.Skeleton

noncomputable section

namespace Cert.KernelIdeal.Pays

open Idealize.ShloMosaic Cert.KernelIdeal Cert.KernelIdeal.Gen Cert.KernelIdeal.Vals

variable {F : FTy → Type} [FloatOps F]

/-! ## Rounding of the arguments -/

theorem pay1 (x : Vec F S256x256 .f32) :
    k0_pay1 x = toB x := rfl
theorem pay2 (w : Vec F S256x512 .f32) :
    k0_pay2 w = wiB w := rfl
theorem pay43 (w : Vec F S256x512 .f32) :
    k0_pay43 w = wiB w := rfl
theorem pay82 (w : Vec F S256x512 .f32) :
    k0_pay82 w = wiB w := rfl
theorem pay3 (w : Vec F S512x256 .f32) :
    k0_pay3 w = woB w := rfl
theorem pay44 (w : Vec F S512x256 .f32) :
    k0_pay44 w = woB w := rfl
theorem pay83 (w : Vec F S512x256 .f32) :
    k0_pay83 w = woB w := rfl

/-! ## The hidden layer and the partial product of a group -/

theorem pay7 (wi : FVec F S256x512 .bf16) (xg : Vec F S512x256 .bf16) :
    k0_pay7 wi xg = hid wi xg := rfl
/-- The second product applied to the hidden layer is the group's partial product. -/
theorem pay8_hid (wi : FVec F S256x512 .bf16) (wo : FVec F S512x256 .bf16) (xg : Vec F S512x256 .bf16) :
    k0_pay8 wo (hid wi xg) = pg wi wo xg := rfl
theorem pay4 (wi : Vec F S256x512 .f32) (wo : Vec F S512x256 .f32) (xg : Vec F S512x256 .bf16) :
    k0_pay4 wi wo xg = pg (wiB wi) (woB wo) xg := rfl
theorem pay11 (wi : FVec F S256x512 .bf16) (wo : FVec F S512x256 .bf16) (xg : Vec F S512x256 .bf16) :
    k0_pay11 wi wo xg = pg wi wo xg := rfl
theorem pay14 (wi : FVec F S256x512 .bf16) (wo : FVec F S512x256 .bf16) (xg : Vec F S512x256 .bf16) :
    k0_pay14 wi wo xg = pg wi wo xg := rfl
theorem pay17 (wi : FVec F S256x512 .bf16) (wo : FVec F S512x256 .bf16) (xg : Vec F S512x256 .bf16) :
    k0_pay17 wi wo xg = pg wi wo xg := rfl
theorem pay20 (wi : FVec F S256x512 .bf16) (wo : FVec F S512x256 .bf16) (xg : Vec F S512x256 .bf16) :
    k0_pay20 wi wo xg = pg wi wo xg := rfl
theorem pay24 (wi : FVec F S256x512 .bf16) (wo : FVec F S512x256 .bf16) (xg : Vec F S512x256 .bf16) :
    k0_pay24 wi wo xg = pg wi wo xg := rfl
theorem pay28 (wi : FVec F S256x512 .bf16) (wo : FVec F S512x256 .bf16) (xg : Vec F S512x256 .bf16) :
    k0_pay28 wi wo xg = pg wi wo xg := rfl
theorem pay45 (wi : FVec F S256x512 .bf16) (wo : FVec F S512x256 .bf16) (xg : Vec F S512x256 .bf16) :
    k0_pay45 wi wo xg = pg wi wo xg := rfl
theorem pay48 (wi : FVec F S256x512 .bf16) (wo : FVec F S512x256 .bf16) (xg : Vec F S512x256 .bf16) :
    k0_pay48 wi wo xg = pg wi wo xg := rfl
theorem pay51 (wi : FVec F S256x512 .bf16) (wo : FVec F S512x256 .bf16) (xg : Vec F S512x256 .bf16) :
    k0_pay51 wi wo xg = pg wi wo xg := rfl
theorem pay54 (wi : FVec F S256x512 .bf16) (wo : FVec F S512x256 .bf16) (xg : Vec F S512x256 .bf16) :
    k0_pay54 wi wo xg = pg wi wo xg := rfl
theorem pay57 (wi : FVec F S256x512 .bf16) (wo : FVec F S512x256 .bf16) (xg : Vec F S512x256 .bf16) :
    k0_pay57 wi wo xg = pg wi wo xg := rfl
theorem pay61 (wi : FVec F S256x512 .bf16) (wo : FVec F S512x256 .bf16) (xg : Vec F S512x256 .bf16) :
    k0_pay61 wi wo xg = pg wi wo xg := rfl
theorem pay64 (wi : FVec F S256x512 .bf16) (wo : FVec F S512x256 .bf16) (xg : Vec F S512x256 .bf16) :
    k0_pay64 wi wo xg = pg wi wo xg := rfl
theorem pay67 (wi : FVec F S256x512 .bf16) (wo : FVec F S512x256 .bf16) (xg : Vec F S512x256 .bf16) :
    k0_pay67 wi wo xg = pg wi wo xg := rfl
theorem pay92 (wi : FVec F S256x512 .bf16) (wo : FVec F S512x256 .bf16) (xg : Vec F S512x256 .bf16) :
    k0_pay92 wi wo xg = pg wi wo xg := rfl
theorem pay95 (wi : FVec F S256x512 .bf16) (wo : FVec F S512x256 .bf16) (xg : Vec F S512x256 .bf16) :
    k0_pay95 wi wo xg = pg wi wo xg := rfl
theorem pay98 (wi : FVec F S256x512 .bf16) (wo : FVec F S512x256 .bf16) (xg : Vec F S512x256 .bf16) :
    k0_pay98 wi wo xg = pg wi wo xg := rfl
theorem pay101 (wi : FVec F S256x512 .bf16) (wo : FVec F S512x256 .bf16) (xg : Vec F S512x256 .bf16) :
    k0_pay101 wi wo xg = pg wi wo xg := rfl
theorem pay105 (wi : FVec F S256x512 .bf16) (wo : FVec F S512x256 .bf16) (xg : Vec F S512x256 .bf16) :
    k0_pay105 wi wo xg = pg wi wo xg := rfl
theorem pay108 (wi : FVec F S256x512 .bf16) (wo : FVec F S512x256 .bf16) (xg : Vec F S512x256 .bf16) :
    k0_pay108 wi wo xg = pg wi wo xg := rfl
/-- The hidden layer, rounded by one payload, multiplied by the next. -/
theorem pay85_84 (w : Vec F S256x512 .f32) (wo : FVec F S512x256 .bf16) (xg : Vec F S512x256 .bf16) :
    k0_pay85 wo (k0_pay84 w xg) = pg (wiB w) wo xg := rfl
/-- The first product by one payload; the maximum with zero, the rounding and the second product by the next. -/
theorem pay89_88 (wi : FVec F S256x512 .bf16) (wo : FVec F S512x256 .bf16) (xg : Vec F S512x256 .bf16) :
    k0_pay89 wo (k0_pay88 wi xg) (Scalar.ofBits .f32 0x00000000#32) = pg wi wo xg := rfl

/-! ## The halves of a partial product -/

theorem pay5 (p : FVec F S512x256 .f32) :
    k0_pay5 p = loF p := rfl
theorem pay106 (p : FVec F S512x256 .f32) :
    k0_pay106 p = loB p := rfl
theorem pay6 (p : FVec F S512x256 .f32) :
    k0_pay6 p = hiB p := rfl
theorem pay13 (p : FVec F S512x256 .f32) :
    k0_pay13 p = hiB p := rfl
theorem pay16 (p : FVec F S512x256 .f32) :
    k0_pay16 p = hiB p := rfl
theorem pay19 (p : FVec F S512x256 .f32) :
    k0_pay19 p = hiB p := rfl
theorem pay27 (p : FVec F S512x256 .f32) :
    k0_pay27 p = hiB p := rfl
theorem pay30 (p : FVec F S512x256 .f32) :
    k0_pay30 p = hiB p := rfl
theorem pay50 (p : FVec F S512x256 .f32) :
    k0_pay50 p = hiB p := rfl
theorem pay53 (p : FVec F S512x256 .f32) :
    k0_pay53 p = hiB p := rfl
theorem pay60 (p : FVec F S512x256 .f32) :
    k0_pay60 p = hiB p := rfl
theorem pay63 (p : FVec F S512x256 .f32) :
    k0_pay63 p = hiB p := rfl
theorem pay66 (p : FVec F S512x256 .f32) :
    k0_pay66 p = hiB p := rfl
theorem pay69 (p : FVec F S512x256 .f32) :
    k0_pay69 p = hiB p := rfl
theorem pay94 (p : FVec F S512x256 .f32) :
    k0_pay94 p = hiB p := rfl
theorem pay97 (p : FVec F S512x256 .f32) :
    k0_pay97 p = hiB p := rfl
theorem pay100 (p : FVec F S512x256 .f32) :
    k0_pay100 p = hiB p := rfl
theorem pay107 (p : FVec F S512x256 .f32) :
    k0_pay107 p = hiB p := rfl
theorem pay110 (p : FVec F S512x256 .f32) :
    k0_pay110 p = hiB p := rfl

/-! ## The halves of a group's partial product, in one payload -/

theorem pay46 (wi : FVec F S256x512 .bf16) (wo : FVec F S512x256 .bf16) (xg : Vec F S512x256 .bf16) :
    k0_pay46 wi wo xg = loF (pg wi wo xg) := rfl
theorem pay12 (wi : FVec F S256x512 .bf16) (wo : FVec F S512x256 .bf16) (xg : Vec F S512x256 .bf16) :
    k0_pay12 wi wo xg = loB (pg wi wo xg) := rfl
theorem pay15 (wi : FVec F S256x512 .bf16) (wo : FVec F S512x256 .bf16) (xg : Vec F S512x256 .bf16) :
    k0_pay15 wi wo xg = loB (pg wi wo xg) := rfl
theorem pay18 (wi : FVec F S256x512 .bf16) (wo : FVec F S512x256 .bf16) (xg : Vec F S512x256 .bf16) :
    k0_pay18 wi wo xg = loB (pg wi wo xg) := rfl
theorem pay21 (wi : FVec F S256x512 .bf16) (wo : FVec F S512x256 .bf16) (xg : Vec F S512x256 .bf16) :
    k0_pay21 wi wo xg = loB (pg wi wo xg) := rfl
theorem pay29 (wi : FVec F S256x512 .bf16) (wo : FVec F S512x256 .bf16) (xg : Vec F S512x256 .bf16) :
    k0_pay29 wi wo xg = loB (pg wi wo xg) := rfl
theorem pay49 (wi : FVec F S256x512 .bf16) (wo : FVec F S512x256 .bf16) (xg : Vec F S512x256 .bf16) :
    k0_pay49 wi wo xg = loB (pg wi wo xg) := rfl
theorem pay52 (wi : FVec F S256x512 .bf16) (wo : FVec F S512x256 .bf16) (xg : Vec F S512x256 .bf16) :
    k0_pay52 wi wo xg = loB (pg wi wo xg) := rfl
theorem pay55 (wi : FVec F S256x512 .bf16) (wo : FVec F S512x256 .bf16) (xg : Vec F S512x256 .bf16) :
    k0_pay55 wi wo xg = loB (pg wi wo xg) := rfl
theorem pay62 (wi : FVec F S256x512 .bf16) (wo : FVec F S512x256 .bf16) (xg : Vec F S512x256 .bf16) :
    k0_pay62 wi wo xg = loB (pg wi wo xg) := rfl
theorem pay65 (wi : FVec F S256x512 .bf16) (wo : FVec F S512x256 .bf16) (xg : Vec F S512x256 .bf16) :
    k0_pay65 wi wo xg = loB (pg wi wo xg) := rfl
theorem pay68 (wi : FVec F S256x512 .bf16) (wo : FVec F S512x256 .bf16) (xg : Vec F S512x256 .bf16) :
    k0_pay68 wi wo xg = loB (pg wi wo xg) := rfl
theorem pay93 (wi : FVec F S256x512 .bf16) (wo : FVec F S512x256 .bf16) (xg : Vec F S512x256 .bf16) :
    k0_pay93 wi wo xg = loB (pg wi wo xg) := rfl
theorem pay96 (wi : FVec F S256x512 .bf16) (wo : FVec F S512x256 .bf16) (xg : Vec F S512x256 .bf16) :
    k0_pay96 wi wo xg = loB (pg wi wo xg) := rfl
theorem pay99 (wi : FVec F S256x512 .bf16) (wo : FVec F S512x256 .bf16) (xg : Vec F S512x256 .bf16) :
    k0_pay99 wi wo xg = loB (pg wi wo xg) := rfl
theorem pay102 (wi : FVec F S256x512 .bf16) (wo : FVec F S512x256 .bf16) (xg : Vec F S512x256 .bf16) :
    k0_pay102 wi wo xg = loB (pg wi wo xg) := rfl
theorem pay109 (wi : FVec F S256x512 .bf16) (wo : FVec F S512x256 .bf16) (xg : Vec F S512x256 .bf16) :
    k0_pay109 wi wo xg = loB (pg wi wo xg) := rfl
theorem pay47 (wi : FVec F S256x512 .bf16) (wo : FVec F S512x256 .bf16) (xg : Vec F S512x256 .bf16) :
    k0_pay47 wi wo xg = hiB (pg wi wo xg) := rfl
theorem pay56 (wi : FVec F S256x512 .bf16) (wo : FVec F S512x256 .bf16) (xg : Vec F S512x256 .bf16) :
    k0_pay56 wi wo xg = hiB (pg wi wo xg) := rfl
theorem pay9_hid (wi : FVec F S256x512 .bf16) (wo : FVec F S512x256 .bf16) (xg : Vec F S512x256 .bf16) :
    k0_pay9 wo (hid wi xg) = loB (pg wi wo xg) := rfl
theorem pay10_hid (wi : FVec F S256x512 .bf16) (wo : FVec F S512x256 .bf16) (xg : Vec F S512x256 .bf16) :
    k0_pay10 wo (hid wi xg) = hiB (pg wi wo xg) := rfl
theorem pay86_84 (w : Vec F S256x512 .f32) (wo : FVec F S512x256 .bf16) (xg : Vec F S512x256 .bf16) :
    k0_pay86 wo (k0_pay84 w xg) = loF (pg (wiB w) wo xg) := rfl
theorem pay87_84 (w : Vec F S256x512 .f32) (wo : FVec F S512x256 .bf16) (xg : Vec F S512x256 .bf16) :
    k0_pay87 wo (k0_pay84 w xg) = hiB (pg (wiB w) wo xg) := rfl
theorem pay90_88 (wi : FVec F S256x512 .bf16) (wo : FVec F S512x256 .bf16) (xg : Vec F S512x256 .bf16) :
    k0_pay90 wo (k0_pay88 wi xg) (Scalar.ofBits .f32 0x00000000#32) = loB (pg wi wo xg) := rfl
theorem pay91_88 (wi : FVec F S256x512 .bf16) (wo : FVec F S512x256 .bf16) (xg : Vec F S512x256 .bf16) :
    k0_pay91 wo (k0_pay88 wi xg) (Scalar.ofBits .f32 0x00000000#32) = hiB (pg wi wo xg) := rfl

/-! ## A half rounded by one payload, its same-shape cast applied by the next -/

/-- A shape cast to the same shape is the identity. -/
theorem cast_same (v : FVec F S256x256 .bf16) :
    shapeCast S256x256 v shapeCasts_S256x256_S256x256 = v :=
  funext fun i => congrArg v (Shape.reshapeEquiv_self _ i)
theorem pay23 (v : FVec F S256x256 .bf16) :
    k0_pay23 v = v := cast_same v
theorem pay26 (v : FVec F S256x256 .bf16) :
    k0_pay26 v = v := cast_same v
theorem pay59 (v : FVec F S256x256 .bf16) :
    k0_pay59 v = v := cast_same v
theorem pay104 (v : FVec F S256x256 .bf16) :
    k0_pay104 v = v := cast_same v
theorem pay23_22 (wi : FVec F S256x512 .bf16) (wo : FVec F S512x256 .bf16) (xg : Vec F S512x256 .bf16) :
    k0_pay23 (k0_pay22 wi wo xg) = hiB (pg wi wo xg) := rfl
theorem pay22 (wi : FVec F S256x512 .bf16) (wo : FVec F S512x256 .bf16) (xg : Vec F S512x256 .bf16) :
    k0_pay22 wi wo xg = hiB (pg wi wo xg) := (pay23 _).symm.trans (pay23_22 wi wo xg)
theorem pay104_103 (wi : FVec F S256x512 .bf16) (wo : FVec F S512x256 .bf16) (xg : Vec F S512x256 .bf16) :
    k0_pay104 (k0_pay103 wi wo xg) = hiB (pg wi wo xg) := rfl
theorem pay103 (wi : FVec F S256x512 .bf16) (wo : FVec F S512x256 .bf16) (xg : Vec F S512x256 .bf16) :
    k0_pay103 wi wo xg = hiB (pg wi wo xg) := (pay104 _).symm.trans (pay104_103 wi wo xg)
theorem pay26_25 (wi : FVec F S256x512 .bf16) (wo : FVec F S512x256 .bf16) (xg : Vec F S512x256 .bf16) :
    k0_pay26 (k0_pay25 wi wo xg) = loB (pg wi wo xg) := rfl
theorem pay25 (wi : FVec F S256x512 .bf16) (wo : FVec F S512x256 .bf16) (xg : Vec F S512x256 .bf16) :
    k0_pay25 wi wo xg = loB (pg wi wo xg) := (pay26 _).symm.trans (pay26_25 wi wo xg)
theorem pay59_58 (wi : FVec F S256x512 .bf16) (wo : FVec F S512x256 .bf16) (xg : Vec F S512x256 .bf16) :
    k0_pay59 (k0_pay58 wi wo xg) = loB (pg wi wo xg) := rfl
theorem pay58 (wi : FVec F S256x512 .bf16) (wo : FVec F S512x256 .bf16) (xg : Vec F S512x256 .bf16) :
    k0_pay58 wi wo xg = loB (pg wi wo xg) := (pay59 _).symm.trans (pay59_58 wi wo xg)

/-! ## The running sum of received pieces -/

theorem pay31 (a : FVec F S256x256 .f32) (r : Vec F S1x256x256 .bf16) :
    k0_pay31 a r = accS a r := rfl
theorem pay32 (a : FVec F S256x256 .f32) (r : Vec F S1x256x256 .bf16) :
    k0_pay32 a r = accS a r := rfl
theorem pay33 (a : FVec F S256x256 .f32) (r : Vec F S1x256x256 .bf16) :
    k0_pay33 a r = accS a r := rfl
theorem pay35 (a : FVec F S256x256 .f32) (r : Vec F S1x256x256 .bf16) :
    k0_pay35 a r = accS a r := rfl
theorem pay36 (a : FVec F S256x256 .f32) (r : Vec F S1x256x256 .bf16) :
    k0_pay36 a r = accS a r := rfl
theorem pay38 (a : FVec F S256x256 .f32) (r : Vec F S1x256x256 .bf16) :
    k0_pay38 a r = accS a r := rfl
theorem pay39 (a : FVec F S256x256 .f32) (r : Vec F S1x256x256 .bf16) :
    k0_pay39 a r = accS a r := rfl
theorem pay41 (a : FVec F S256x256 .f32) (r : Vec F S1x256x256 .bf16) :
    k0_pay41 a r = accS a r := rfl
theorem pay70 (a : FVec F S256x256 .f32) (r : Vec F S1x256x256 .bf16) :
    k0_pay70 a r = accS a r := rfl
theorem pay72 (a : FVec F S256x256 .f32) (r : Vec F S1x256x256 .bf16) :
    k0_pay72 a r = accS a r := rfl
theorem pay73 (a : FVec F S256x256 .f32) (r : Vec F S1x256x256 .bf16) :
    k0_pay73 a r = accS a r := rfl
theorem pay75 (a : FVec F S256x256 .f32) (r : Vec F S1x256x256 .bf16) :
    k0_pay75 a r = accS a r := rfl
theorem pay76 (a : FVec F S256x256 .f32) (r : Vec F S1x256x256 .bf16) :
    k0_pay76 a r = accS a r := rfl
theorem pay78 (a : FVec F S256x256 .f32) (r : Vec F S1x256x256 .bf16) :
    k0_pay78 a r = accS a r := rfl
theorem pay79 (a : FVec F S256x256 .f32) (r : Vec F S1x256x256 .bf16) :
    k0_pay79 a r = accS a r := rfl
theorem pay113 (a : FVec F S256x256 .f32) (r : Vec F S1x256x256 .bf16) :
    k0_pay113 a r = accS a r := rfl
theorem pay115 (a : FVec F S256x256 .f32) (r : Vec F S1x256x256 .bf16) :
    k0_pay115 a r = accS a r := rfl
theorem pay116 (a : FVec F S256x256 .f32) (r : Vec F S1x256x256 .bf16) :
    k0_pay116 a r = accS a r := rfl
theorem pay118 (a : FVec F S256x256 .f32) (r : Vec F S1x256x256 .bf16) :
    k0_pay118 a r = accS a r := rfl
theorem pay119 (a : FVec F S256x256 .f32) (r : Vec F S1x256x256 .bf16) :
    k0_pay119 a r = accS a r := rfl
theorem pay121 (a : FVec F S256x256 .f32) (r : Vec F S1x256x256 .bf16) :
    k0_pay121 a r = accS a r := rfl
theorem pay122 (a : FVec F S256x256 .f32) (r : Vec F S1x256x256 .bf16) :
    k0_pay122 a r = accS a r := rfl
theorem pay34 (a : FVec F S256x256 .f32) (r1 : Vec F S1x256x256 .bf16) (r2 : Vec F S1x256x256 .bf16) :
    k0_pay34 a r1 r2 = accS (accS a r1) r2 := rfl
theorem pay37 (a : FVec F S256x256 .f32) (r1 : Vec F S1x256x256 .bf16) (r2 : Vec F S1x256x256 .bf16) :
    k0_pay37 a r1 r2 = accS (accS a r1) r2 := rfl
theorem pay40 (a : FVec F S256x256 .f32) (r1 : Vec F S1x256x256 .bf16) (r2 : Vec F S1x256x256 .bf16) :
    k0_pay40 a r1 r2 = accS (accS a r1) r2 := rfl
theorem pay71 (a : FVec F S256x256 .f32) (r1 : Vec F S1x256x256 .bf16) (r2 : Vec F S1x256x256 .bf16) :
    k0_pay71 a r1 r2 = accS (accS a r1) r2 := rfl
theorem pay74 (a : FVec F S256x256 .f32) (r1 : Vec F S1x256x256 .bf16) (r2 : Vec F S1x256x256 .bf16) :
    k0_pay74 a r1 r2 = accS (accS a r1) r2 := rfl
theorem pay77 (a : FVec F S256x256 .f32) (r1 : Vec F S1x256x256 .bf16) (r2 : Vec F S1x256x256 .bf16) :
    k0_pay77 a r1 r2 = accS (accS a r1) r2 := rfl
theorem pay114 (a : FVec F S256x256 .f32) (r1 : Vec F S1x256x256 .bf16) (r2 : Vec F S1x256x256 .bf16) :
    k0_pay114 a r1 r2 = accS (accS a r1) r2 := rfl
theorem pay117 (a : FVec F S256x256 .f32) (r1 : Vec F S1x256x256 .bf16) (r2 : Vec F S1x256x256 .bf16) :
    k0_pay117 a r1 r2 = accS (accS a r1) r2 := rfl
theorem pay120 (a : FVec F S256x256 .f32) (r1 : Vec F S1x256x256 .bf16) (r2 : Vec F S1x256x256 .bf16) :
    k0_pay120 a r1 r2 = accS (accS a r1) r2 := rfl
theorem pay42 (a : FVec F S256x256 .f32) (r : Vec F S1x256x256 .bf16) :
    k0_pay42 a r = accB a r := rfl
/-- A received piece read as a two-axis vector by one payload, added by the next. -/
theorem pay81_80 (a : FVec F S256x256 .f32) (r1 r2 : Vec F S1x256x256 .bf16) :
    k0_pay81 a (k0_pay80 r1) r2 = accB (accS a r1) r2 := rfl
/-- A received piece widened by one payload, added by the next. -/
theorem pay112_111 (a : FVec F S256x256 .f32) (r1 r2 : Vec F S1x256x256 .bf16) :
    k0_pay112 a (k0_pay111 r1) r2 = accS (accS a r1) r2 := rfl

/-- info: 'Cert.KernelIdeal.Pays.pay4' depends on axioms: [propext, Classical.choice, Quot.sound] -/
#guard_msgs in #print axioms pay4

/-- info: 'Cert.KernelIdeal.Pays.pay22' depends on axioms: [propext, Classical.choice, Quot.sound] -/
#guard_msgs in #print axioms pay22

/-- info: 'Cert.KernelIdeal.Pays.pay81_80' depends on axioms: [propext, Classical.choice, Quot.sound] -/
#guard_msgs in #print axioms pay81_80

/-- info: 'Cert.KernelIdeal.Pays.pay112_111' depends on axioms: [propext, Classical.choice, Quot.sound] -/
#guard_msgs in #print axioms pay112_111

end Cert.KernelIdeal.Pays

end
-- ==== Proof.ValForms.lean ====
/-
  The value model's recursion in the terms the program's loads and stores produce.

  The chunk a device holds at the start of a layer, the piece it returns for another device's chunk
  and its running sum of received pieces are defined by recursion over the layers. Here the
  recursion is unfolded once, at the places the program reads and writes: the partial product of a
  group is the two matrix products applied to the two stacked chunks of the devices 2g and 2g+1
  places before; a piece is the low or high half of that product, rounded; the running sum starts
  with the device's own low half kept wide and adds one received piece at a time; the next layer's
  chunk is the sum with the last piece, rounded; the result is that sum at the last layer, kept wide.
  Then, store by store, the value the program writes, as it nests its payloads over what its loads
  deliver, is one of these.
-/
import proofs.«900978_g7700000000000979_dist_mlpseq_tp1d_bs_bs_b256_d256_h512_v7x_i16_bf16_1_alg».proof.Proof.Vals
import proofs.«900978_g7700000000000979_dist_mlpseq_tp1d_bs_bs_b256_d256_h512_v7x_i16_bf16_1_alg».proof.Proof.Sched
import proofs.«900978_g7700000000000979_dist_mlpseq_tp1d_bs_bs_b256_d256_h512_v7x_i16_bf16_1_alg».proof.Proof.Dats
import proofs.«900978_g7700000000000979_dist_mlpseq_tp1d_bs_bs_b256_d256_h512_v7x_i16_bf16_1_alg».proof.Proof.Pays

noncomputable section

namespace Cert.KernelIdeal.ValForms

open Idealize.ShloMosaic Cert.KernelIdeal Cert.KernelIdeal.Gen Cert.KernelIdeal.Vals Cert.KernelIdeal.Sched Cert.KernelIdeal.Dats Cert.KernelIdeal.Pays

variable {F : FTy → Type} [FloatOps F]
variable (m : (ℓ : Loc nD τ sig) → Buf (Elt F) ℓ)

/-! ## The recursion, unfolded once -/

/-- No step back on the ring is the device itself. -/
theorem bwd_zero (c : Dev nD) : bwd c 0 = c :=
  Fin.ext (by show (c.val + (16 - 0 % 16)) % 16 = c.val; have : c.val < 16 := c.isLt; omega)

/-- Device c's running sum at layer r after n received pieces. -/
abbrev accAt (r : ℕ) (c : Dev nD) (n : ℕ) : FVec F S256x256 .f32 := Vals.accTo (argX m) (argWi m) (argWo m) r c n

/-- Device c's partial product at layer r over the chunks of the devices 2g and 2g+1 places before it. -/
abbrev prodAt (r : ℕ) (c : Dev nD) (g : ℕ) : FVec F S512x256 .f32 :=
  Vals.pg (Vals.wiB (Vals.argWi m r c)) (Vals.woB (Vals.argWo m r c)) (Vals.cat (chunkAt m r (bwd c (2 * g))) (chunkAt m r (bwd c (2 * g + 1))))

/-- The partial product is the value model's. -/
theorem prodAt_eq (r : ℕ) (c : Dev nD) (g : ℕ) : prodAt m r c g = Vals.prod (argX m) (argWi m) (argWo m) r c g := rfl

/-- Group 0 stacks the device's own chunk on the chunk of the device one place before. -/
theorem prodAt_zero (r : ℕ) (c : Dev nD) :
    prodAt m r c 0 = Vals.pg (Vals.wiB (Vals.argWi m r c)) (Vals.woB (Vals.argWo m r c)) (Vals.cat (chunkAt m r c) (chunkAt m r (bwd c 1))) := by
  show Vals.pg _ _ (Vals.cat (chunkAt m r (bwd c (2 * 0))) (chunkAt m r (bwd c (2 * 0 + 1)))) = _
  rw [show 2 * 0 = 0 from rfl, bwd_zero]

/-- The first chunk is the device's block of the input, rounded. -/
theorem chunk0 (c : Dev nD) : chunkAt m 0 c = Vals.toB (Vals.argX m c) := rfl

/-- An odd piece is the high half of its group's product. -/
theorem piece_hi (r : ℕ) (c : Dev nD) (g : ℕ) : pieceAt m r c (2 * g + 1) = Vals.hiB (prodAt m r c g) := by
  show Vals.pieceOf (argWi m) (argWo m) (Vals.chunk (argX m) (argWi m) (argWo m) r) r c (2 * g + 1) = _
  unfold Vals.pieceOf
  rw [if_neg (by omega), show (2 * g + 1) / 2 = g by omega]
  rfl

/-- An even piece is the low half of its group's product. -/
theorem piece_lo (r : ℕ) (c : Dev nD) (g : ℕ) : pieceAt m r c (2 * g) = Vals.loB (prodAt m r c g) := by
  show Vals.pieceOf (argWi m) (argWo m) (Vals.chunk (argX m) (argWi m) (argWo m) r) r c (2 * g) = _
  unfold Vals.pieceOf
  rw [if_pos (by omega), show (2 * g) / 2 = g by omega]
  rfl

/-- The running sum starts with the device's own low half, kept wide. -/
theorem acc0 (r : ℕ) (c : Dev nD) : accAt m r c 0 = Vals.loF (prodAt m r c 0) := rfl

/-- One more received piece: after n + 1 pieces the sum holds the piece of the device n + 1 places after. -/
theorem acc_succ (r : ℕ) (c : Dev nD) (n : ℕ) :
    accAt m r c (n + 1) = Vals.accS (accAt m r c n) (Vals.lift3 (pieceAt m r (fwd c (n + 1)) (n + 1))) := rfl

/-- The next layer's chunk: the sum of fourteen pieces with the fifteenth added, rounded. -/
theorem chunk_succ (r : ℕ) (c : Dev nD) :
    chunkAt m (r + 1) c = Vals.accB (accAt m r c 14) (Vals.lift3 (pieceAt m r (fwd c 15) 15)) := rfl

/-- The result: the last layer's sum of fourteen pieces with the fifteenth added, kept wide. -/
theorem out_eq (c : Dev nD) :
    Dats.outAt m c = Vals.accS (accAt m 2 c 14) (Vals.lift3 (pieceAt m 2 (fwd c 15) 15)) := rfl

/-! ## Store by store

  The value each store of the program writes, nested over what the loads before it deliver: a weight block
  as the device's argument block, two stacked chunks of the chunk buffer, a received piece in its three-axis form. -/

/-- The first store into the chunk buffer: the device's block of the input, rounded. -/
theorem store_X_init (c : Dev nD) :
    k0_pay1 (Vals.argX m c) = chunkAt m 0 c := rfl

theorem store_P_0_1 (c : Dev nD) :
    k0_pay6 (k0_pay4 (Vals.argWi m 0 c) (Vals.argWo m 0 c) (Vals.cat (chunkAt m 0 c) (chunkAt m 0 (bwd c 1)))) = pieceAt m 0 c 1 := by
  rw [show pieceAt m 0 c 1 = Vals.hiB (prodAt m 0 c 0) from piece_hi m 0 c 0, prodAt_zero]; rfl

theorem store_P_0_2 (c : Dev nD) :
    k0_pay9 (k0_pay3 (Vals.argWo m 0 c)) (k0_pay7 (k0_pay2 (Vals.argWi m 0 c)) (Vals.cat (chunkAt m 0 (bwd c 2)) (chunkAt m 0 (bwd c 3)))) = pieceAt m 0 c 2 := (piece_lo m 0 c 1).symm

theorem store_P_0_3 (c : Dev nD) :
    k0_pay10 (k0_pay3 (Vals.argWo m 0 c)) (k0_pay7 (k0_pay2 (Vals.argWi m 0 c)) (Vals.cat (chunkAt m 0 (bwd c 2)) (chunkAt m 0 (bwd c 3)))) = pieceAt m 0 c 3 := (piece_hi m 0 c 1).symm

theorem store_P_0_4 (c : Dev nD) :
    k0_pay12 (k0_pay2 (Vals.argWi m 0 c)) (k0_pay3 (Vals.argWo m 0 c)) (Vals.cat (chunkAt m 0 (bwd c 4)) (chunkAt m 0 (bwd c 5))) = pieceAt m 0 c 4 := (piece_lo m 0 c 2).symm

theorem store_P_0_5 (c : Dev nD) :
    k0_pay13 (k0_pay11 (k0_pay2 (Vals.argWi m 0 c)) (k0_pay3 (Vals.argWo m 0 c)) (Vals.cat (chunkAt m 0 (bwd c 4)) (chunkAt m 0 (bwd c 5)))) = pieceAt m 0 c 5 := (piece_hi m 0 c 2).symm

theorem store_P_0_6 (c : Dev nD) :
    k0_pay15 (k0_pay2 (Vals.argWi m 0 c)) (k0_pay3 (Vals.argWo m 0 c)) (Vals.cat (chunkAt m 0 (bwd c 6)) (chunkAt m 0 (bwd c 7))) = pieceAt m 0 c 6 := (piece_lo m 0 c 3).symm

theorem store_P_0_7 (c : Dev nD) :
    k0_pay16 (k0_pay14 (k0_pay2 (Vals.argWi m 0 c)) (k0_pay3 (Vals.argWo m 0 c)) (Vals.cat (chunkAt m 0 (bwd c 6)) (chunkAt m 0 (bwd c 7)))) = pieceAt m 0 c 7 := (piece_hi m 0 c 3).symm

theorem store_P_0_8 (c : Dev nD) :
    k0_pay18 (k0_pay2 (Vals.argWi m 0 c)) (k0_pay3 (Vals.argWo m 0 c)) (Vals.cat (chunkAt m 0 (bwd c 8)) (chunkAt m 0 (bwd c 9))) = pieceAt m 0 c 8 := (piece_lo m 0 c 4).symm

theorem store_P_0_9 (c : Dev nD) :
    k0_pay19 (k0_pay17 (k0_pay2 (Vals.argWi m 0 c)) (k0_pay3 (Vals.argWo m 0 c)) (Vals.cat (chunkAt m 0 (bwd c 8)) (chunkAt m 0 (bwd c 9)))) = pieceAt m 0 c 9 := (piece_hi m 0 c 4).symm

theorem store_P_0_10 (c : Dev nD) :
    k0_pay21 (k0_pay2 (Vals.argWi m 0 c)) (k0_pay3 (Vals.argWo m 0 c)) (Vals.cat (chunkAt m 0 (bwd c 10)) (chunkAt m 0 (bwd c 11))) = pieceAt m 0 c 10 := (piece_lo m 0 c 5).symm

theorem store_P_0_11 (c : Dev nD) :
    k0_pay23 (k0_pay22 (k0_pay2 (Vals.argWi m 0 c)) (k0_pay3 (Vals.argWo m 0 c)) (Vals.cat (chunkAt m 0 (bwd c 10)) (chunkAt m 0 (bwd c 11)))) = pieceAt m 0 c 11 := (piece_hi m 0 c 5).symm

/-- The same store with its last payload, a same-shape cast, written out. -/
theorem store_P_0_11' (c : Dev nD) :
    shapeCast S256x256 (k0_pay22 (k0_pay2 (Vals.argWi m 0 c)) (k0_pay3 (Vals.argWo m 0 c)) (Vals.cat (chunkAt m 0 (bwd c 10)) (chunkAt m 0 (bwd c 11)))) shapeCasts_S256x256_S256x256 = pieceAt m 0 c 11 := store_P_0_11 m c

theorem store_P_0_12 (c : Dev nD) :
    k0_pay26 (k0_pay25 (k0_pay2 (Vals.argWi m 0 c)) (k0_pay3 (Vals.argWo m 0 c)) (Vals.cat (chunkAt m 0 (bwd c 12)) (chunkAt m 0 (bwd c 13)))) = pieceAt m 0 c 12 := (piece_lo m 0 c 6).symm

/-- The same store with its last payload, a same-shape cast, written out. -/
theorem store_P_0_12' (c : Dev nD) :
    shapeCast S256x256 (k0_pay25 (k0_pay2 (Vals.argWi m 0 c)) (k0_pay3 (Vals.argWo m 0 c)) (Vals.cat (chunkAt m 0 (bwd c 12)) (chunkAt m 0 (bwd c 13)))) shapeCasts_S256x256_S256x256 = pieceAt m 0 c 12 := store_P_0_12 m c

theorem store_P_0_13 (c : Dev nD) :
    k0_pay27 (k0_pay24 (k0_pay2 (Vals.argWi m 0 c)) (k0_pay3 (Vals.argWo m 0 c)) (Vals.cat (chunkAt m 0 (bwd c 12)) (chunkAt m 0 (bwd c 13)))) = pieceAt m 0 c 13 := (piece_hi m 0 c 6).symm

theorem store_P_0_14 (c : Dev nD) :
    k0_pay29 (k0_pay2 (Vals.argWi m 0 c)) (k0_pay3 (Vals.argWo m 0 c)) (Vals.cat (chunkAt m 0 (bwd c 14)) (chunkAt m 0 (bwd c 15))) = pieceAt m 0 c 14 := (piece_lo m 0 c 7).symm

theorem store_P_0_15 (c : Dev nD) :
    k0_pay30 (k0_pay28 (k0_pay2 (Vals.argWi m 0 c)) (k0_pay3 (Vals.argWo m 0 c)) (Vals.cat (chunkAt m 0 (bwd c 14)) (chunkAt m 0 (bwd c 15)))) = pieceAt m 0 c 15 := (piece_hi m 0 c 7).symm

/-- The store into the chunk buffer at the end of layer 0: the sum of the sixteen pieces, rounded. -/
theorem store_X_0 (c : Dev nD) :
    k0_pay42 (k0_pay41 (k0_pay40 (k0_pay39 (k0_pay38 (k0_pay37 (k0_pay36 (k0_pay35 (k0_pay34 (k0_pay33 (k0_pay32 (k0_pay31 (k0_pay5 (k0_pay4 (Vals.argWi m 0 c) (Vals.argWo m 0 c) (Vals.cat (chunkAt m 0 c) (chunkAt m 0 (bwd c 1))))) (Vals.lift3 (pieceAt m 0 (fwd c 1) 1))) (Vals.lift3 (pieceAt m 0 (fwd c 2) 2))) (Vals.lift3 (pieceAt m 0 (fwd c 3) 3))) (Vals.lift3 (pieceAt m 0 (fwd c 4) 4)) (Vals.lift3 (pieceAt m 0 (fwd c 5) 5))) (Vals.lift3 (pieceAt m 0 (fwd c 6) 6))) (Vals.lift3 (pieceAt m 0 (fwd c 7) 7))) (Vals.lift3 (pieceAt m 0 (fwd c 8) 8)) (Vals.lift3 (pieceAt m 0 (fwd c 9) 9))) (Vals.lift3 (pieceAt m 0 (fwd c 10) 10))) (Vals.lift3 (pieceAt m 0 (fwd c 11) 11))) (Vals.lift3 (pieceAt m 0 (fwd c 12) 12)) (Vals.lift3 (pieceAt m 0 (fwd c 13) 13))) (Vals.lift3 (pieceAt m 0 (fwd c 14) 14))) (Vals.lift3 (pieceAt m 0 (fwd c 15) 15)) = chunkAt m 1 c :=
  (show _ = (fun a : FVec F S256x256 .f32 => k0_pay42 (k0_pay41 (k0_pay40 (k0_pay39 (k0_pay38 (k0_pay37 (k0_pay36 (k0_pay35 (k0_pay34 (k0_pay33 (k0_pay32 (k0_pay31 a (Vals.lift3 (pieceAt m 0 (fwd c 1) 1))) (Vals.lift3 (pieceAt m 0 (fwd c 2) 2))) (Vals.lift3 (pieceAt m 0 (fwd c 3) 3))) (Vals.lift3 (pieceAt m 0 (fwd c 4) 4)) (Vals.lift3 (pieceAt m 0 (fwd c 5) 5))) (Vals.lift3 (pieceAt m 0 (fwd c 6) 6))) (Vals.lift3 (pieceAt m 0 (fwd c 7) 7))) (Vals.lift3 (pieceAt m 0 (fwd c 8) 8)) (Vals.lift3 (pieceAt m 0 (fwd c 9) 9))) (Vals.lift3 (pieceAt m 0 (fwd c 10) 10))) (Vals.lift3 (pieceAt m 0 (fwd c 11) 11))) (Vals.lift3 (pieceAt m 0 (fwd c 12) 12)) (Vals.lift3 (pieceAt m 0 (fwd c 13) 13))) (Vals.lift3 (pieceAt m 0 (fwd c 14) 14))) (Vals.lift3 (pieceAt m 0 (fwd c 15) 15))) (Vals.loF (Vals.pg (Vals.wiB (Vals.argWi m 0 c)) (Vals.woB (Vals.argWo m 0 c)) (Vals.cat (chunkAt m 0 c) (chunkAt m 0 (bwd c 1))))) from rfl).trans
    ((congrArg (fun a : FVec F S256x256 .f32 => k0_pay42 (k0_pay41 (k0_pay40 (k0_pay39 (k0_pay38 (k0_pay37 (k0_pay36 (k0_pay35 (k0_pay34 (k0_pay33 (k0_pay32 (k0_pay31 a (Vals.lift3 (pieceAt m 0 (fwd c 1) 1))) (Vals.lift3 (pieceAt m 0 (fwd c 2) 2))) (Vals.lift3 (pieceAt m 0 (fwd c 3) 3))) (Vals.lift3 (pieceAt m 0 (fwd c 4) 4)) (Vals.lift3 (pieceAt m 0 (fwd c 5) 5))) (Vals.lift3 (pieceAt m 0 (fwd c 6) 6))) (Vals.lift3 (pieceAt m 0 (fwd c 7) 7))) (Vals.lift3 (pieceAt m 0 (fwd c 8) 8)) (Vals.lift3 (pieceAt m 0 (fwd c 9) 9))) (Vals.lift3 (pieceAt m 0 (fwd c 10) 10))) (Vals.lift3 (pieceAt m 0 (fwd c 11) 11))) (Vals.lift3 (pieceAt m 0 (fwd c 12) 12)) (Vals.lift3 (pieceAt m 0 (fwd c 13) 13))) (Vals.lift3 (pieceAt m 0 (fwd c 14) 14))) (Vals.lift3 (pieceAt m 0 (fwd c 15) 15))) ((acc0 m 0 c).trans (congrArg Vals.loF (prodAt_zero m 0 c)))).symm.trans rfl)

theorem store_P_1_1 (c : Dev nD) :
    k0_pay47 (k0_pay43 (Vals.argWi m 1 c)) (k0_pay44 (Vals.argWo m 1 c)) (Vals.cat (chunkAt m 1 c) (chunkAt m 1 (bwd c 1))) = pieceAt m 1 c 1 := by
  rw [show pieceAt m 1 c 1 = Vals.hiB (prodAt m 1 c 0) from piece_hi m 1 c 0, prodAt_zero]; rfl

theorem store_P_1_2 (c : Dev nD) :
    k0_pay49 (k0_pay43 (Vals.argWi m 1 c)) (k0_pay44 (Vals.argWo m 1 c)) (Vals.cat (chunkAt m 1 (bwd c 2)) (chunkAt m 1 (bwd c 3))) = pieceAt m 1 c 2 := (piece_lo m 1 c 1).symm

theorem store_P_1_3 (c : Dev nD) :
    k0_pay50 (k0_pay48 (k0_pay43 (Vals.argWi m 1 c)) (k0_pay44 (Vals.argWo m 1 c)) (Vals.cat (chunkAt m 1 (bwd c 2)) (chunkAt m 1 (bwd c 3)))) = pieceAt m 1 c 3 := (piece_hi m 1 c 1).symm

theorem store_P_1_4 (c : Dev nD) :
    k0_pay52 (k0_pay43 (Vals.argWi m 1 c)) (k0_pay44 (Vals.argWo m 1 c)) (Vals.cat (chunkAt m 1 (bwd c 4)) (chunkAt m 1 (bwd c 5))) = pieceAt m 1 c 4 := (piece_lo m 1 c 2).symm

theorem store_P_1_5 (c : Dev nD) :
    k0_pay53 (k0_pay51 (k0_pay43 (Vals.argWi m 1 c)) (k0_pay44 (Vals.argWo m 1 c)) (Vals.cat (chunkAt m 1 (bwd c 4)) (chunkAt m 1 (bwd c 5)))) = pieceAt m 1 c 5 := (piece_hi m 1 c 2).symm

theorem store_P_1_6 (c : Dev nD) :
    k0_pay55 (k0_pay43 (Vals.argWi m 1 c)) (k0_pay44 (Vals.argWo m 1 c)) (Vals.cat (chunkAt m 1 (bwd c 6)) (chunkAt m 1 (bwd c 7))) = pieceAt m 1 c 6 := (piece_lo m 1 c 3).symm

theorem store_P_1_7 (c : Dev nD) :
    k0_pay56 (k0_pay43 (Vals.argWi m 1 c)) (k0_pay44 (Vals.argWo m 1 c)) (Vals.cat (chunkAt m 1 (bwd c 6)) (chunkAt m 1 (bwd c 7))) = pieceAt m 1 c 7 := (piece_hi m 1 c 3).symm

theorem store_P_1_8 (c : Dev nD) :
    k0_pay59 (k0_pay58 (k0_pay43 (Vals.argWi m 1 c)) (k0_pay44 (Vals.argWo m 1 c)) (Vals.cat (chunkAt m 1 (bwd c 8)) (chunkAt m 1 (bwd c 9)))) = pieceAt m 1 c 8 := (piece_lo m 1 c 4).symm

/-- The same store with its last payload, a same-shape cast, written out. -/
theorem store_P_1_8' (c : Dev nD) :
    shapeCast S256x256 (k0_pay58 (k0_pay43 (Vals.argWi m 1 c)) (k0_pay44 (Vals.argWo m 1 c)) (Vals.cat (chunkAt m 1 (bwd c 8)) (chunkAt m 1 (bwd c 9)))) shapeCasts_S256x256_S256x256 = pieceAt m 1 c 8 := store_P_1_8 m c

theorem store_P_1_9 (c : Dev nD) :
    k0_pay60 (k0_pay57 (k0_pay43 (Vals.argWi m 1 c)) (k0_pay44 (Vals.argWo m 1 c)) (Vals.cat (chunkAt m 1 (bwd c 8)) (chunkAt m 1 (bwd c 9)))) = pieceAt m 1 c 9 := (piece_hi m 1 c 4).symm

theorem store_P_1_10 (c : Dev nD) :
    k0_pay62 (k0_pay43 (Vals.argWi m 1 c)) (k0_pay44 (Vals.argWo m 1 c)) (Vals.cat (chunkAt m 1 (bwd c 10)) (chunkAt m 1 (bwd c 11))) = pieceAt m 1 c 10 := (piece_lo m 1 c 5).symm

theorem store_P_1_11 (c : Dev nD) :
    k0_pay63 (k0_pay61 (k0_pay43 (Vals.argWi m 1 c)) (k0_pay44 (Vals.argWo m 1 c)) (Vals.cat (chunkAt m 1 (bwd c 10)) (chunkAt m 1 (bwd c 11)))) = pieceAt m 1 c 11 := (piece_hi m 1 c 5).symm

theorem store_P_1_12 (c : Dev nD) :
    k0_pay65 (k0_pay43 (Vals.argWi m 1 c)) (k0_pay44 (Vals.argWo m 1 c)) (Vals.cat (chunkAt m 1 (bwd c 12)) (chunkAt m 1 (bwd c 13))) = pieceAt m 1 c 12 := (piece_lo m 1 c 6).symm

theorem store_P_1_13 (c : Dev nD) :
    k0_pay66 (k0_pay64 (k0_pay43 (Vals.argWi m 1 c)) (k0_pay44 (Vals.argWo m 1 c)) (Vals.cat (chunkAt m 1 (bwd c 12)) (chunkAt m 1 (bwd c 13)))) = pieceAt m 1 c 13 := (piece_hi m 1 c 6).symm

theorem store_P_1_14 (c : Dev nD) :
    k0_pay68 (k0_pay43 (Vals.argWi m 1 c)) (k0_pay44 (Vals.argWo m 1 c)) (Vals.cat (chunkAt m 1 (bwd c 14)) (chunkAt m 1 (bwd c 15))) = pieceAt m 1 c 14 := (piece_lo m 1 c 7).symm

theorem store_P_1_15 (c : Dev nD) :
    k0_pay69 (k0_pay67 (k0_pay43 (Vals.argWi m 1 c)) (k0_pay44 (Vals.argWo m 1 c)) (Vals.cat (chunkAt m 1 (bwd c 14)) (chunkAt m 1 (bwd c 15)))) = pieceAt m 1 c 15 := (piece_hi m 1 c 7).symm

/-- The store into the chunk buffer at the end of layer 1: the sum of the sixteen pieces, rounded. -/
theorem store_X_1 (c : Dev nD) :
    k0_pay81 (k0_pay79 (k0_pay78 (k0_pay77 (k0_pay76 (k0_pay75 (k0_pay74 (k0_pay73 (k0_pay72 (k0_pay71 (k0_pay70 (k0_pay46 (k0_pay43 (Vals.argWi m 1 c)) (k0_pay44 (Vals.argWo m 1 c)) (Vals.cat (chunkAt m 1 c) (chunkAt m 1 (bwd c 1)))) (Vals.lift3 (pieceAt m 1 (fwd c 1) 1))) (Vals.lift3 (pieceAt m 1 (fwd c 2) 2)) (Vals.lift3 (pieceAt m 1 (fwd c 3) 3))) (Vals.lift3 (pieceAt m 1 (fwd c 4) 4))) (Vals.lift3 (pieceAt m 1 (fwd c 5) 5))) (Vals.lift3 (pieceAt m 1 (fwd c 6) 6)) (Vals.lift3 (pieceAt m 1 (fwd c 7) 7))) (Vals.lift3 (pieceAt m 1 (fwd c 8) 8))) (Vals.lift3 (pieceAt m 1 (fwd c 9) 9))) (Vals.lift3 (pieceAt m 1 (fwd c 10) 10)) (Vals.lift3 (pieceAt m 1 (fwd c 11) 11))) (Vals.lift3 (pieceAt m 1 (fwd c 12) 12))) (Vals.lift3 (pieceAt m 1 (fwd c 13) 13))) (k0_pay80 (Vals.lift3 (pieceAt m 1 (fwd c 14) 14))) (Vals.lift3 (pieceAt m 1 (fwd c 15) 15)) = chunkAt m 2 c :=
  (show _ = (fun a : FVec F S256x256 .f32 => k0_pay81 (k0_pay79 (k0_pay78 (k0_pay77 (k0_pay76 (k0_pay75 (k0_pay74 (k0_pay73 (k0_pay72 (k0_pay71 (k0_pay70 a (Vals.lift3 (pieceAt m 1 (fwd c 1) 1))) (Vals.lift3 (pieceAt m 1 (fwd c 2) 2)) (Vals.lift3 (pieceAt m 1 (fwd c 3) 3))) (Vals.lift3 (pieceAt m 1 (fwd c 4) 4))) (Vals.lift3 (pieceAt m 1 (fwd c 5) 5))) (Vals.lift3 (pieceAt m 1 (fwd c 6) 6)) (Vals.lift3 (pieceAt m 1 (fwd c 7) 7))) (Vals.lift3 (pieceAt m 1 (fwd c 8) 8))) (Vals.lift3 (pieceAt m 1 (fwd c 9) 9))) (Vals.lift3 (pieceAt m 1 (fwd c 10) 10)) (Vals.lift3 (pieceAt m 1 (fwd c 11) 11))) (Vals.lift3 (pieceAt m 1 (fwd c 12) 12))) (Vals.lift3 (pieceAt m 1 (fwd c 13) 13))) (k0_pay80 (Vals.lift3 (pieceAt m 1 (fwd c 14) 14))) (Vals.lift3 (pieceAt m 1 (fwd c 15) 15))) (Vals.loF (Vals.pg (Vals.wiB (Vals.argWi m 1 c)) (Vals.woB (Vals.argWo m 1 c)) (Vals.cat (chunkAt m 1 c) (chunkAt m 1 (bwd c 1))))) from rfl).trans
    ((congrArg (fun a : FVec F S256x256 .f32 => k0_pay81 (k0_pay79 (k0_pay78 (k0_pay77 (k0_pay76 (k0_pay75 (k0_pay74 (k0_pay73 (k0_pay72 (k0_pay71 (k0_pay70 a (Vals.lift3 (pieceAt m 1 (fwd c 1) 1))) (Vals.lift3 (pieceAt m 1 (fwd c 2) 2)) (Vals.lift3 (pieceAt m 1 (fwd c 3) 3))) (Vals.lift3 (pieceAt m 1 (fwd c 4) 4))) (Vals.lift3 (pieceAt m 1 (fwd c 5) 5))) (Vals.lift3 (pieceAt m 1 (fwd c 6) 6)) (Vals.lift3 (pieceAt m 1 (fwd c 7) 7))) (Vals.lift3 (pieceAt m 1 (fwd c 8) 8))) (Vals.lift3 (pieceAt m 1 (fwd c 9) 9))) (Vals.lift3 (pieceAt m 1 (fwd c 10) 10)) (Vals.lift3 (pieceAt m 1 (fwd c 11) 11))) (Vals.lift3 (pieceAt m 1 (fwd c 12) 12))) (Vals.lift3 (pieceAt m 1 (fwd c 13) 13))) (k0_pay80 (Vals.lift3 (pieceAt m 1 (fwd c 14) 14))) (Vals.lift3 (pieceAt m 1 (fwd c 15) 15))) ((acc0 m 1 c).trans (congrArg Vals.loF (prodAt_zero m 1 c)))).symm.trans rfl)

theorem store_P_2_1 (c : Dev nD) :
    k0_pay87 (k0_pay83 (Vals.argWo m 2 c)) (k0_pay84 (Vals.argWi m 2 c) (Vals.cat (chunkAt m 2 c) (chunkAt m 2 (bwd c 1)))) = pieceAt m 2 c 1 := by
  rw [show pieceAt m 2 c 1 = Vals.hiB (prodAt m 2 c 0) from piece_hi m 2 c 0, prodAt_zero]; rfl

theorem store_P_2_2 (c : Dev nD) :
    k0_pay90 (k0_pay83 (Vals.argWo m 2 c)) (k0_pay88 (k0_pay82 (Vals.argWi m 2 c)) (Vals.cat (chunkAt m 2 (bwd c 2)) (chunkAt m 2 (bwd c 3)))) (Scalar.ofBits .f32 0x00000000#32) = pieceAt m 2 c 2 := (piece_lo m 2 c 1).symm

theorem store_P_2_3 (c : Dev nD) :
    k0_pay91 (k0_pay83 (Vals.argWo m 2 c)) (k0_pay88 (k0_pay82 (Vals.argWi m 2 c)) (Vals.cat (chunkAt m 2 (bwd c 2)) (chunkAt m 2 (bwd c 3)))) (Scalar.ofBits .f32 0x00000000#32) = pieceAt m 2 c 3 := (piece_hi m 2 c 1).symm

theorem store_P_2_4 (c : Dev nD) :
    k0_pay93 (k0_pay82 (Vals.argWi m 2 c)) (k0_pay83 (Vals.argWo m 2 c)) (Vals.cat (chunkAt m 2 (bwd c 4)) (chunkAt m 2 (bwd c 5))) = pieceAt m 2 c 4 := (piece_lo m 2 c 2).symm

theorem store_P_2_5 (c : Dev nD) :
    k0_pay94 (k0_pay92 (k0_pay82 (Vals.argWi m 2 c)) (k0_pay83 (Vals.argWo m 2 c)) (Vals.cat (chunkAt m 2 (bwd c 4)) (chunkAt m 2 (bwd c 5)))) = pieceAt m 2 c 5 := (piece_hi m 2 c 2).symm

theorem store_P_2_6 (c : Dev nD) :
    k0_pay96 (k0_pay82 (Vals.argWi m 2 c)) (k0_pay83 (Vals.argWo m 2 c)) (Vals.cat (chunkAt m 2 (bwd c 6)) (chunkAt m 2 (bwd c 7))) = pieceAt m 2 c 6 := (piece_lo m 2 c 3).symm

theorem store_P_2_7 (c : Dev nD) :
    k0_pay97 (k0_pay95 (k0_pay82 (Vals.argWi m 2 c)) (k0_pay83 (Vals.argWo m 2 c)) (Vals.cat (chunkAt m 2 (bwd c 6)) (chunkAt m 2 (bwd c 7)))) = pieceAt m 2 c 7 := (piece_hi m 2 c 3).symm

theorem store_P_2_8 (c : Dev nD) :
    k0_pay99 (k0_pay82 (Vals.argWi m 2 c)) (k0_pay83 (Vals.argWo m 2 c)) (Vals.cat (chunkAt m 2 (bwd c 8)) (chunkAt m 2 (bwd c 9))) = pieceAt m 2 c 8 := (piece_lo m 2 c 4).symm

theorem store_P_2_9 (c : Dev nD) :
    k0_pay100 (k0_pay98 (k0_pay82 (Vals.argWi m 2 c)) (k0_pay83 (Vals.argWo m 2 c)) (Vals.cat (chunkAt m 2 (bwd c 8)) (chunkAt m 2 (bwd c 9)))) = pieceAt m 2 c 9 := (piece_hi m 2 c 4).symm

theorem store_P_2_10 (c : Dev nD) :
    k0_pay102 (k0_pay82 (Vals.argWi m 2 c)) (k0_pay83 (Vals.argWo m 2 c)) (Vals.cat (chunkAt m 2 (bwd c 10)) (chunkAt m 2 (bwd c 11))) = pieceAt m 2 c 10 := (piece_lo m 2 c 5).symm

theorem store_P_2_11 (c : Dev nD) :
    k0_pay104 (k0_pay103 (k0_pay82 (Vals.argWi m 2 c)) (k0_pay83 (Vals.argWo m 2 c)) (Vals.cat (chunkAt m 2 (bwd c 10)) (chunkAt m 2 (bwd c 11)))) = pieceAt m 2 c 11 := (piece_hi m 2 c 5).symm

/-- The same store with its last payload, a same-shape cast, written out. -/
theorem store_P_2_11' (c : Dev nD) :
    shapeCast S256x256 (k0_pay103 (k0_pay82 (Vals.argWi m 2 c)) (k0_pay83 (Vals.argWo m 2 c)) (Vals.cat (chunkAt m 2 (bwd c 10)) (chunkAt m 2 (bwd c 11)))) shapeCasts_S256x256_S256x256 = pieceAt m 2 c 11 := store_P_2_11 m c

theorem store_P_2_12 (c : Dev nD) :
    k0_pay106 (k0_pay105 (k0_pay82 (Vals.argWi m 2 c)) (k0_pay83 (Vals.argWo m 2 c)) (Vals.cat (chunkAt m 2 (bwd c 12)) (chunkAt m 2 (bwd c 13)))) = pieceAt m 2 c 12 := (piece_lo m 2 c 6).symm

theorem store_P_2_13 (c : Dev nD) :
    k0_pay107 (k0_pay105 (k0_pay82 (Vals.argWi m 2 c)) (k0_pay83 (Vals.argWo m 2 c)) (Vals.cat (chunkAt m 2 (bwd c 12)) (chunkAt m 2 (bwd c 13)))) = pieceAt m 2 c 13 := (piece_hi m 2 c 6).symm

theorem store_P_2_14 (c : Dev nD) :
    k0_pay109 (k0_pay82 (Vals.argWi m 2 c)) (k0_pay83 (Vals.argWo m 2 c)) (Vals.cat (chunkAt m 2 (bwd c 14)) (chunkAt m 2 (bwd c 15))) = pieceAt m 2 c 14 := (piece_lo m 2 c 7).symm

theorem store_P_2_15 (c : Dev nD) :
    k0_pay110 (k0_pay108 (k0_pay82 (Vals.argWi m 2 c)) (k0_pay83 (Vals.argWo m 2 c)) (Vals.cat (chunkAt m 2 (bwd c 14)) (chunkAt m 2 (bwd c 15)))) = pieceAt m 2 c 15 := (piece_hi m 2 c 7).symm

/-- The store into the result: the last layer's sum of the sixteen pieces, kept wide. -/
theorem store_out (c : Dev nD) :
    k0_pay122 (k0_pay121 (k0_pay120 (k0_pay119 (k0_pay118 (k0_pay117 (k0_pay116 (k0_pay115 (k0_pay114 (k0_pay113 (k0_pay112 (k0_pay86 (k0_pay83 (Vals.argWo m 2 c)) (k0_pay84 (Vals.argWi m 2 c) (Vals.cat (chunkAt m 2 c) (chunkAt m 2 (bwd c 1))))) (k0_pay111 (Vals.lift3 (pieceAt m 2 (fwd c 1) 1))) (Vals.lift3 (pieceAt m 2 (fwd c 2) 2))) (Vals.lift3 (pieceAt m 2 (fwd c 3) 3))) (Vals.lift3 (pieceAt m 2 (fwd c 4) 4)) (Vals.lift3 (pieceAt m 2 (fwd c 5) 5))) (Vals.lift3 (pieceAt m 2 (fwd c 6) 6))) (Vals.lift3 (pieceAt m 2 (fwd c 7) 7))) (Vals.lift3 (pieceAt m 2 (fwd c 8) 8)) (Vals.lift3 (pieceAt m 2 (fwd c 9) 9))) (Vals.lift3 (pieceAt m 2 (fwd c 10) 10))) (Vals.lift3 (pieceAt m 2 (fwd c 11) 11))) (Vals.lift3 (pieceAt m 2 (fwd c 12) 12)) (Vals.lift3 (pieceAt m 2 (fwd c 13) 13))) (Vals.lift3 (pieceAt m 2 (fwd c 14) 14))) (Vals.lift3 (pieceAt m 2 (fwd c 15) 15)) = Dats.outAt m c :=
  (show _ = (fun a : FVec F S256x256 .f32 => k0_pay122 (k0_pay121 (k0_pay120 (k0_pay119 (k0_pay118 (k0_pay117 (k0_pay116 (k0_pay115 (k0_pay114 (k0_pay113 (k0_pay112 a (k0_pay111 (Vals.lift3 (pieceAt m 2 (fwd c 1) 1))) (Vals.lift3 (pieceAt m 2 (fwd c 2) 2))) (Vals.lift3 (pieceAt m 2 (fwd c 3) 3))) (Vals.lift3 (pieceAt m 2 (fwd c 4) 4)) (Vals.lift3 (pieceAt m 2 (fwd c 5) 5))) (Vals.lift3 (pieceAt m 2 (fwd c 6) 6))) (Vals.lift3 (pieceAt m 2 (fwd c 7) 7))) (Vals.lift3 (pieceAt m 2 (fwd c 8) 8)) (Vals.lift3 (pieceAt m 2 (fwd c 9) 9))) (Vals.lift3 (pieceAt m 2 (fwd c 10) 10))) (Vals.lift3 (pieceAt m 2 (fwd c 11) 11))) (Vals.lift3 (pieceAt m 2 (fwd c 12) 12)) (Vals.lift3 (pieceAt m 2 (fwd c 13) 13))) (Vals.lift3 (pieceAt m 2 (fwd c 14) 14))) (Vals.lift3 (pieceAt m 2 (fwd c 15) 15))) (Vals.loF (Vals.pg (Vals.wiB (Vals.argWi m 2 c)) (Vals.woB (Vals.argWo m 2 c)) (Vals.cat (chunkAt m 2 c) (chunkAt m 2 (bwd c 1))))) from rfl).trans
    ((congrArg (fun a : FVec F S256x256 .f32 => k0_pay122 (k0_pay121 (k0_pay120 (k0_pay119 (k0_pay118 (k0_pay117 (k0_pay116 (k0_pay115 (k0_pay114 (k0_pay113 (k0_pay112 a (k0_pay111 (Vals.lift3 (pieceAt m 2 (fwd c 1) 1))) (Vals.lift3 (pieceAt m 2 (fwd c 2) 2))) (Vals.lift3 (pieceAt m 2 (fwd c 3) 3))) (Vals.lift3 (pieceAt m 2 (fwd c 4) 4)) (Vals.lift3 (pieceAt m 2 (fwd c 5) 5))) (Vals.lift3 (pieceAt m 2 (fwd c 6) 6))) (Vals.lift3 (pieceAt m 2 (fwd c 7) 7))) (Vals.lift3 (pieceAt m 2 (fwd c 8) 8)) (Vals.lift3 (pieceAt m 2 (fwd c 9) 9))) (Vals.lift3 (pieceAt m 2 (fwd c 10) 10))) (Vals.lift3 (pieceAt m 2 (fwd c 11) 11))) (Vals.lift3 (pieceAt m 2 (fwd c 12) 12)) (Vals.lift3 (pieceAt m 2 (fwd c 13) 13))) (Vals.lift3 (pieceAt m 2 (fwd c 14) 14))) (Vals.lift3 (pieceAt m 2 (fwd c 15) 15))) ((acc0 m 2 c).trans (congrArg Vals.loF (prodAt_zero m 2 c)))).symm.trans rfl)

/-- info: 'Cert.KernelIdeal.ValForms.store_P_0_1' depends on axioms: [propext, Classical.choice, Quot.sound] -/
#guard_msgs in #print axioms store_P_0_1

/-- info: 'Cert.KernelIdeal.ValForms.store_X_1' depends on axioms: [propext, Classical.choice, Quot.sound] -/
#guard_msgs in #print axioms store_X_1

/-- info: 'Cert.KernelIdeal.ValForms.store_out' depends on axioms: [propext, Classical.choice, Quot.sound] -/
#guard_msgs in #print axioms store_out

end Cert.KernelIdeal.ValForms

end
-- ==== Proof.ReadWhole.lean ====
/-
  A load of a whole staging buffer reads the buffer's contents.

  Each of the eight staging buffers is loaded once, whole: through the rectangle of the buffer's own sizes at
  zero offsets. What such a load reads off contents f is f itself.
-/
import proofs.«900978_g7700000000000979_dist_mlpseq_tp1d_bs_bs_b256_d256_h512_v7x_i16_bf16_1_alg».proof.Proof.Cells
noncomputable section
namespace Cert.KernelIdeal.ReadWhole
open Cert.KernelIdeal Cert.KernelIdeal.Gen Cert.KernelIdeal.Vals Cert.KernelIdeal.Cells
open Idealize.ShloMosaic
open Idealize.ShloMosaic.TcCoe
variable {F : FTy → Type} [FloatOps F]

theorem readAt_stg0 (f : (cc0_stg0_0 : Ref sig .tc).ty.Contents (Elt F)) :
    View.readAt (Elt F) (Memref.whole cc0_stg0_0).view (Rect.unit (s := S256x256) ![0, 0] S256x256.size inb_S256x256_S256x256_0_0).toLoadRect f = f :=
  Memref.readAt_unit_zero (Elt F) cc0_stg0_0 (by funext a; revert a; decide) _ f
theorem readAt_stg1 (f : (cc0_stg1_0 : Ref sig .tc).ty.Contents (Elt F)) :
    View.readAt (Elt F) (Memref.whole cc0_stg1_0).view (Rect.unit (s := S256x512) ![0, 0] S256x512.size inb_S256x512_S256x512_0_0).toLoadRect f = f :=
  Memref.readAt_unit_zero (Elt F) cc0_stg1_0 (by funext a; revert a; decide) _ f
theorem readAt_stg2 (f : (cc0_stg2_0 : Ref sig .tc).ty.Contents (Elt F)) :
    View.readAt (Elt F) (Memref.whole cc0_stg2_0).view (Rect.unit (s := S512x256) ![0, 0] S512x256.size inb_S512x256_S512x256_0_0).toLoadRect f = f :=
  Memref.readAt_unit_zero (Elt F) cc0_stg2_0 (by funext a; revert a; decide) _ f
theorem readAt_stg3 (f : (cc0_stg3_0 : Ref sig .tc).ty.Contents (Elt F)) :
    View.readAt (Elt F) (Memref.whole cc0_stg3_0).view (Rect.unit (s := S256x512) ![0, 0] S256x512.size inb_S256x512_S256x512_0_0).toLoadRect f = f :=
  Memref.readAt_unit_zero (Elt F) cc0_stg3_0 (by funext a; revert a; decide) _ f
theorem readAt_stg4 (f : (cc0_stg4_0 : Ref sig .tc).ty.Contents (Elt F)) :
    View.readAt (Elt F) (Memref.whole cc0_stg4_0).view (Rect.unit (s := S512x256) ![0, 0] S512x256.size inb_S512x256_S512x256_0_0).toLoadRect f = f :=
  Memref.readAt_unit_zero (Elt F) cc0_stg4_0 (by funext a; revert a; decide) _ f
theorem readAt_stg5 (f : (cc0_stg5_0 : Ref sig .tc).ty.Contents (Elt F)) :
    View.readAt (Elt F) (Memref.whole cc0_stg5_0).view (Rect.unit (s := S256x512) ![0, 0] S256x512.size inb_S256x512_S256x512_0_0).toLoadRect f = f :=
  Memref.readAt_unit_zero (Elt F) cc0_stg5_0 (by funext a; revert a; decide) _ f
theorem readAt_stg6 (f : (cc0_stg6_0 : Ref sig .tc).ty.Contents (Elt F)) :
    View.readAt (Elt F) (Memref.whole cc0_stg6_0).view (Rect.unit (s := S512x256) ![0, 0] S512x256.size inb_S512x256_S512x256_0_0).toLoadRect f = f :=
  Memref.readAt_unit_zero (Elt F) cc0_stg6_0 (by funext a; revert a; decide) _ f
theorem readAt_stg7 (f : (cc0_stg7_0 : Ref sig .tc).ty.Contents (Elt F)) :
    View.readAt (Elt F) (Memref.whole cc0_stg7_0).view (Rect.unit (s := S256x256) ![0, 0] S256x256.size inb_S256x256_S256x256_0_0).toLoadRect f = f :=
  Memref.readAt_unit_zero (Elt F) cc0_stg7_0 (by funext a; revert a; decide) _ f

/-! The same with the buffer's view and the sizes written out, the form a simplifier leaves the load in. -/

theorem readAt_stg0' (f : (cc0_stg0_0 : Ref sig .tc).ty.Contents (Elt F)) :
    View.readAt (Elt F) (View.whole cc0_stg0_0) (Rect.unit (s := S256x256) ![0, 0] ![256, 256] inb_S256x256_S256x256_0_0).toLoadRect f = f :=
  readAt_stg0 f
theorem readAt_stg1' (f : (cc0_stg1_0 : Ref sig .tc).ty.Contents (Elt F)) :
    View.readAt (Elt F) (View.whole cc0_stg1_0) (Rect.unit (s := S256x512) ![0, 0] ![256, 512] inb_S256x512_S256x512_0_0).toLoadRect f = f :=
  readAt_stg1 f
theorem readAt_stg2' (f : (cc0_stg2_0 : Ref sig .tc).ty.Contents (Elt F)) :
    View.readAt (Elt F) (View.whole cc0_stg2_0) (Rect.unit (s := S512x256) ![0, 0] ![512, 256] inb_S512x256_S512x256_0_0).toLoadRect f = f :=
  readAt_stg2 f
theorem readAt_stg3' (f : (cc0_stg3_0 : Ref sig .tc).ty.Contents (Elt F)) :
    View.readAt (Elt F) (View.whole cc0_stg3_0) (Rect.unit (s := S256x512) ![0, 0] ![256, 512] inb_S256x512_S256x512_0_0).toLoadRect f = f :=
  readAt_stg3 f
theorem readAt_stg4' (f : (cc0_stg4_0 : Ref sig .tc).ty.Contents (Elt F)) :
    View.readAt (Elt F) (View.whole cc0_stg4_0) (Rect.unit (s := S512x256) ![0, 0] ![512, 256] inb_S512x256_S512x256_0_0).toLoadRect f = f :=
  readAt_stg4 f
theorem readAt_stg5' (f : (cc0_stg5_0 : Ref sig .tc).ty.Contents (Elt F)) :
    View.readAt (Elt F) (View.whole cc0_stg5_0) (Rect.unit (s := S256x512) ![0, 0] ![256, 512] inb_S256x512_S256x512_0_0).toLoadRect f = f :=
  readAt_stg5 f
theorem readAt_stg6' (f : (cc0_stg6_0 : Ref sig .tc).ty.Contents (Elt F)) :
    View.readAt (Elt F) (View.whole cc0_stg6_0) (Rect.unit (s := S512x256) ![0, 0] ![512, 256] inb_S512x256_S512x256_0_0).toLoadRect f = f :=
  readAt_stg6 f
theorem readAt_stg7' (f : (cc0_stg7_0 : Ref sig .tc).ty.Contents (Elt F)) :
    View.readAt (Elt F) (View.whole cc0_stg7_0) (Rect.unit (s := S256x256) ![0, 0] ![256, 256] inb_S256x256_S256x256_0_0).toLoadRect f = f :=
  readAt_stg7 f

/-- info: 'Cert.KernelIdeal.ReadWhole.readAt_stg0' depends on axioms: [propext, Classical.choice, Quot.sound] -/
#guard_msgs in #print axioms readAt_stg0
/-- info: 'Cert.KernelIdeal.ReadWhole.readAt_stg1' depends on axioms: [propext, Classical.choice, Quot.sound] -/
#guard_msgs in #print axioms readAt_stg1
/-- info: 'Cert.KernelIdeal.ReadWhole.readAt_stg2' depends on axioms: [propext, Classical.choice, Quot.sound] -/
#guard_msgs in #print axioms readAt_stg2
/-- info: 'Cert.KernelIdeal.ReadWhole.readAt_stg3' depends on axioms: [propext, Classical.choice, Quot.sound] -/
#guard_msgs in #print axioms readAt_stg3
/-- info: 'Cert.KernelIdeal.ReadWhole.readAt_stg4' depends on axioms: [propext, Classical.choice, Quot.sound] -/
#guard_msgs in #print axioms readAt_stg4
/-- info: 'Cert.KernelIdeal.ReadWhole.readAt_stg5' depends on axioms: [propext, Classical.choice, Quot.sound] -/
#guard_msgs in #print axioms readAt_stg5
/-- info: 'Cert.KernelIdeal.ReadWhole.readAt_stg6' depends on axioms: [propext, Classical.choice, Quot.sound] -/
#guard_msgs in #print axioms readAt_stg6
/-- info: 'Cert.KernelIdeal.ReadWhole.readAt_stg7' depends on axioms: [propext, Classical.choice, Quot.sound] -/
#guard_msgs in #print axioms readAt_stg7

end Cert.KernelIdeal.ReadWhole
end
-- ==== Proof.LoadStg.lean ====
/-
  The loads of the argument staging buffers, delivering the contents held.

  A staging buffer is held whole under a name of its own; a load of it through the rectangle of its own sizes at
  zero offsets continues at the contents themselves.
-/
import proofs.«900978_g7700000000000979_dist_mlpseq_tp1d_bs_bs_b256_d256_h512_v7x_i16_bf16_1_alg».proof.Proof.ReadWhole
import proofs.«900978_g7700000000000979_dist_mlpseq_tp1d_bs_bs_b256_d256_h512_v7x_i16_bf16_1_alg».proof.Proof.Dats
noncomputable section
namespace Cert.KernelIdeal.LoadStg
open Cert.KernelIdeal Cert.KernelIdeal.Gen Cert.KernelIdeal.Vals Cert.KernelIdeal.Cells Cert.KernelIdeal.Sched Cert.KernelIdeal.State Cert.KernelIdeal.Dats Cert.KernelIdeal.ReadWhole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ

/-- A whole buffer of device c held at contents X. -/
def held (c : Dev nD) (b : Ref sig .tc) (X : Buf (Elt F) ((Memref.whole b).view.loc (c : Thread nD τ))) : sProp 𝕄 :=
  ((Memref.whole b).view.loc (c : Thread nD τ) ↦[(Memref.whole b).view.set]{fullShare} X)

theorem held_eq (c : Dev nD) (b : Ref sig .tc) (X : Buf (Elt F) ((Memref.whole b).view.loc (c : Thread nD τ))) :
    held c b X = ((Memref.whole b).view.loc (c : Thread nD τ) ↦[(Memref.whole b).view.set]{fullShare} X : sProp 𝕄) := rfl

theorem loadStg0 (c : Dev nD) (X : Buf (Elt F) ((Memref.whole cc0_stg0_0).view.loc (c : Thread nD τ)))
    {hl : (Memref.whole cc0_stg0_0 : Memref sig .tc _ _ _).view.LoadsAt (Rect.unit (s := S256x256) ![0, 0] S256x256.size inb_S256x256_S256x256_0_0).toLoadRect}
    {α : Type} {Q : α → sProp 𝕄} {kk : Vec F S256x256 .f32 → Prog (TpuEff nD τ sig (Elt F) Λ₀ .tc) α} :
    held c cc0_stg0_0 X
      ⊢ iprop((held c cc0_stg0_0 X -∗ wp frame (wpE (defs₀ (F := F)) 𝒱₀ c none) Set.univ (kk X) Q)
          -∗ wp frame (wpE (defs₀ (F := F)) 𝒱₀ c none) Set.univ (.op (.load (Memref.whole cc0_stg0_0) (Rect.unit (s := S256x256) ![0, 0] S256x256.size inb_S256x256_S256x256_0_0).toLoadRect hl) kk) Q) := by
  unfold held
  have h := wp_load (defs := defs₀ (F := F)) 𝒱₀ (c : Thread nD τ) none (Γ := .empty) Set.univ (m := Memref.whole cc0_stg0_0)
    (r := (Rect.unit (s := S256x256) ![0, 0] S256x256.size inb_S256x256_S256x256_0_0).toLoadRect) (hl := hl) (k := kk) (Q := Q) (S := (Memref.whole cc0_stg0_0).view.set) (q := fullShare) (f := X)
    (View.setOn_subset_set _ _)
  rw [readAt_stg0] at h
  exact h
theorem loadStg1 (c : Dev nD) (X : Buf (Elt F) ((Memref.whole cc0_stg1_0).view.loc (c : Thread nD τ)))
    {hl : (Memref.whole cc0_stg1_0 : Memref sig .tc _ _ _).view.LoadsAt (Rect.unit (s := S256x512) ![0, 0] S256x512.size inb_S256x512_S256x512_0_0).toLoadRect}
    {α : Type} {Q : α → sProp 𝕄} {kk : Vec F S256x512 .f32 → Prog (TpuEff nD τ sig (Elt F) Λ₀ .tc) α} :
    held c cc0_stg1_0 X
      ⊢ iprop((held c cc0_stg1_0 X -∗ wp frame (wpE (defs₀ (F := F)) 𝒱₀ c none) Set.univ (kk X) Q)
          -∗ wp frame (wpE (defs₀ (F := F)) 𝒱₀ c none) Set.univ (.op (.load (Memref.whole cc0_stg1_0) (Rect.unit (s := S256x512) ![0, 0] S256x512.size inb_S256x512_S256x512_0_0).toLoadRect hl) kk) Q) := by
  unfold held
  have h := wp_load (defs := defs₀ (F := F)) 𝒱₀ (c : Thread nD τ) none (Γ := .empty) Set.univ (m := Memref.whole cc0_stg1_0)
    (r := (Rect.unit (s := S256x512) ![0, 0] S256x512.size inb_S256x512_S256x512_0_0).toLoadRect) (hl := hl) (k := kk) (Q := Q) (S := (Memref.whole cc0_stg1_0).view.set) (q := fullShare) (f := X)
    (View.setOn_subset_set _ _)
  rw [readAt_stg1] at h
  exact h
theorem loadStg2 (c : Dev nD) (X : Buf (Elt F) ((Memref.whole cc0_stg2_0).view.loc (c : Thread nD τ)))
    {hl : (Memref.whole cc0_stg2_0 : Memref sig .tc _ _ _).view.LoadsAt (Rect.unit (s := S512x256) ![0, 0] S512x256.size inb_S512x256_S512x256_0_0).toLoadRect}
    {α : Type} {Q : α → sProp 𝕄} {kk : Vec F S512x256 .f32 → Prog (TpuEff nD τ sig (Elt F) Λ₀ .tc) α} :
    held c cc0_stg2_0 X
      ⊢ iprop((held c cc0_stg2_0 X -∗ wp frame (wpE (defs₀ (F := F)) 𝒱₀ c none) Set.univ (kk X) Q)
          -∗ wp frame (wpE (defs₀ (F := F)) 𝒱₀ c none) Set.univ (.op (.load (Memref.whole cc0_stg2_0) (Rect.unit (s := S512x256) ![0, 0] S512x256.size inb_S512x256_S512x256_0_0).toLoadRect hl) kk) Q) := by
  unfold held
  have h := wp_load (defs := defs₀ (F := F)) 𝒱₀ (c : Thread nD τ) none (Γ := .empty) Set.univ (m := Memref.whole cc0_stg2_0)
    (r := (Rect.unit (s := S512x256) ![0, 0] S512x256.size inb_S512x256_S512x256_0_0).toLoadRect) (hl := hl) (k := kk) (Q := Q) (S := (Memref.whole cc0_stg2_0).view.set) (q := fullShare) (f := X)
    (View.setOn_subset_set _ _)
  rw [readAt_stg2] at h
  exact h
theorem loadStg3 (c : Dev nD) (X : Buf (Elt F) ((Memref.whole cc0_stg3_0).view.loc (c : Thread nD τ)))
    {hl : (Memref.whole cc0_stg3_0 : Memref sig .tc _ _ _).view.LoadsAt (Rect.unit (s := S256x512) ![0, 0] S256x512.size inb_S256x512_S256x512_0_0).toLoadRect}
    {α : Type} {Q : α → sProp 𝕄} {kk : Vec F S256x512 .f32 → Prog (TpuEff nD τ sig (Elt F) Λ₀ .tc) α} :
    held c cc0_stg3_0 X
      ⊢ iprop((held c cc0_stg3_0 X -∗ wp frame (wpE (defs₀ (F := F)) 𝒱₀ c none) Set.univ (kk X) Q)
          -∗ wp frame (wpE (defs₀ (F := F)) 𝒱₀ c none) Set.univ (.op (.load (Memref.whole cc0_stg3_0) (Rect.unit (s := S256x512) ![0, 0] S256x512.size inb_S256x512_S256x512_0_0).toLoadRect hl) kk) Q) := by
  unfold held
  have h := wp_load (defs := defs₀ (F := F)) 𝒱₀ (c : Thread nD τ) none (Γ := .empty) Set.univ (m := Memref.whole cc0_stg3_0)
    (r := (Rect.unit (s := S256x512) ![0, 0] S256x512.size inb_S256x512_S256x512_0_0).toLoadRect) (hl := hl) (k := kk) (Q := Q) (S := (Memref.whole cc0_stg3_0).view.set) (q := fullShare) (f := X)
    (View.setOn_subset_set _ _)
  rw [readAt_stg3] at h
  exact h
theorem loadStg4 (c : Dev nD) (X : Buf (Elt F) ((Memref.whole cc0_stg4_0).view.loc (c : Thread nD τ)))
    {hl : (Memref.whole cc0_stg4_0 : Memref sig .tc _ _ _).view.LoadsAt (Rect.unit (s := S512x256) ![0, 0] S512x256.size inb_S512x256_S512x256_0_0).toLoadRect}
    {α : Type} {Q : α → sProp 𝕄} {kk : Vec F S512x256 .f32 → Prog (TpuEff nD τ sig (Elt F) Λ₀ .tc) α} :
    held c cc0_stg4_0 X
      ⊢ iprop((held c cc0_stg4_0 X -∗ wp frame (wpE (defs₀ (F := F)) 𝒱₀ c none) Set.univ (kk X) Q)
          -∗ wp frame (wpE (defs₀ (F := F)) 𝒱₀ c none) Set.univ (.op (.load (Memref.whole cc0_stg4_0) (Rect.unit (s := S512x256) ![0, 0] S512x256.size inb_S512x256_S512x256_0_0).toLoadRect hl) kk) Q) := by
  unfold held
  have h := wp_load (defs := defs₀ (F := F)) 𝒱₀ (c : Thread nD τ) none (Γ := .empty) Set.univ (m := Memref.whole cc0_stg4_0)
    (r := (Rect.unit (s := S512x256) ![0, 0] S512x256.size inb_S512x256_S512x256_0_0).toLoadRect) (hl := hl) (k := kk) (Q := Q) (S := (Memref.whole cc0_stg4_0).view.set) (q := fullShare) (f := X)
    (View.setOn_subset_set _ _)
  rw [readAt_stg4] at h
  exact h
theorem loadStg5 (c : Dev nD) (X : Buf (Elt F) ((Memref.whole cc0_stg5_0).view.loc (c : Thread nD τ)))
    {hl : (Memref.whole cc0_stg5_0 : Memref sig .tc _ _ _).view.LoadsAt (Rect.unit (s := S256x512) ![0, 0] S256x512.size inb_S256x512_S256x512_0_0).toLoadRect}
    {α : Type} {Q : α → sProp 𝕄} {kk : Vec F S256x512 .f32 → Prog (TpuEff nD τ sig (Elt F) Λ₀ .tc) α} :
    held c cc0_stg5_0 X
      ⊢ iprop((held c cc0_stg5_0 X -∗ wp frame (wpE (defs₀ (F := F)) 𝒱₀ c none) Set.univ (kk X) Q)
          -∗ wp frame (wpE (defs₀ (F := F)) 𝒱₀ c none) Set.univ (.op (.load (Memref.whole cc0_stg5_0) (Rect.unit (s := S256x512) ![0, 0] S256x512.size inb_S256x512_S256x512_0_0).toLoadRect hl) kk) Q) := by
  unfold held
  have h := wp_load (defs := defs₀ (F := F)) 𝒱₀ (c : Thread nD τ) none (Γ := .empty) Set.univ (m := Memref.whole cc0_stg5_0)
    (r := (Rect.unit (s := S256x512) ![0, 0] S256x512.size inb_S256x512_S256x512_0_0).toLoadRect) (hl := hl) (k := kk) (Q := Q) (S := (Memref.whole cc0_stg5_0).view.set) (q := fullShare) (f := X)
    (View.setOn_subset_set _ _)
  rw [readAt_stg5] at h
  exact h
theorem loadStg6 (c : Dev nD) (X : Buf (Elt F) ((Memref.whole cc0_stg6_0).view.loc (c : Thread nD τ)))
    {hl : (Memref.whole cc0_stg6_0 : Memref sig .tc _ _ _).view.LoadsAt (Rect.unit (s := S512x256) ![0, 0] S512x256.size inb_S512x256_S512x256_0_0).toLoadRect}
    {α : Type} {Q : α → sProp 𝕄} {kk : Vec F S512x256 .f32 → Prog (TpuEff nD τ sig (Elt F) Λ₀ .tc) α} :
    held c cc0_stg6_0 X
      ⊢ iprop((held c cc0_stg6_0 X -∗ wp frame (wpE (defs₀ (F := F)) 𝒱₀ c none) Set.univ (kk X) Q)
          -∗ wp frame (wpE (defs₀ (F := F)) 𝒱₀ c none) Set.univ (.op (.load (Memref.whole cc0_stg6_0) (Rect.unit (s := S512x256) ![0, 0] S512x256.size inb_S512x256_S512x256_0_0).toLoadRect hl) kk) Q) := by
  unfold held
  have h := wp_load (defs := defs₀ (F := F)) 𝒱₀ (c : Thread nD τ) none (Γ := .empty) Set.univ (m := Memref.whole cc0_stg6_0)
    (r := (Rect.unit (s := S512x256) ![0, 0] S512x256.size inb_S512x256_S512x256_0_0).toLoadRect) (hl := hl) (k := kk) (Q := Q) (S := (Memref.whole cc0_stg6_0).view.set) (q := fullShare) (f := X)
    (View.setOn_subset_set _ _)
  rw [readAt_stg6] at h
  exact h
theorem loadStg7 (c : Dev nD) (X : Buf (Elt F) ((Memref.whole cc0_stg7_0).view.loc (c : Thread nD τ)))
    {hl : (Memref.whole cc0_stg7_0 : Memref sig .tc _ _ _).view.LoadsAt (Rect.unit (s := S256x256) ![0, 0] S256x256.size inb_S256x256_S256x256_0_0).toLoadRect}
    {α : Type} {Q : α → sProp 𝕄} {kk : Vec F S256x256 .f32 → Prog (TpuEff nD τ sig (Elt F) Λ₀ .tc) α} :
    held c cc0_stg7_0 X
      ⊢ iprop((held c cc0_stg7_0 X -∗ wp frame (wpE (defs₀ (F := F)) 𝒱₀ c none) Set.univ (kk X) Q)
          -∗ wp frame (wpE (defs₀ (F := F)) 𝒱₀ c none) Set.univ (.op (.load (Memref.whole cc0_stg7_0) (Rect.unit (s := S256x256) ![0, 0] S256x256.size inb_S256x256_S256x256_0_0).toLoadRect hl) kk) Q) := by
  unfold held
  have h := wp_load (defs := defs₀ (F := F)) 𝒱₀ (c : Thread nD τ) none (Γ := .empty) Set.univ (m := Memref.whole cc0_stg7_0)
    (r := (Rect.unit (s := S256x256) ![0, 0] S256x256.size inb_S256x256_S256x256_0_0).toLoadRect) (hl := hl) (k := kk) (Q := Q) (S := (Memref.whole cc0_stg7_0).view.set) (q := fullShare) (f := X)
    (View.setOn_subset_set _ _)
  rw [readAt_stg7] at h
  exact h

/-- The store of the result into its staging buffer: the buffer then holds the stored value. -/
theorem storeStg7 (c : Dev nD) (X : Buf (Elt F) ((Memref.whole cc0_stg7_0).view.loc (c : Thread nD τ))) (v : Vec F S256x256 .f32)
    {hx : ((Memref.whole cc0_stg7_0 : Memref sig .tc _ _ _).access (Rect.unit (s := S256x256) ![0, 0] S256x256.size inb_S256x256_S256x256_0_0)).Stores Finset.univ}
    {hm : (Finset.univ : Finset (Rect.unit (s := S256x256) ![0, 0] S256x256.size inb_S256x256_S256x256_0_0).shape.Idx) = Finset.univ ∨ ∀ a, (Rect.unit (s := S256x256) ![0, 0] S256x256.size inb_S256x256_S256x256_0_0).stride a = 1}
    {α : Type} {Q : α → sProp 𝕄} {kk : PUnit → Prog (TpuEff nD τ sig (Elt F) Λ₀ .tc) α} :
    held c cc0_stg7_0 X
      ⊢ iprop((held c cc0_stg7_0 v -∗ wp frame (wpE (defs₀ (F := F)) 𝒱₀ c none) Set.univ (kk ⟨⟩) Q)
          -∗ wp frame (wpE (defs₀ (F := F)) 𝒱₀ c none) Set.univ (.op (.store (Memref.whole cc0_stg7_0) (Rect.unit (s := S256x256) ![0, 0] S256x256.size inb_S256x256_S256x256_0_0) v Finset.univ hx hm) kk) Q) := by
  unfold held
  have h := wp_store (defs := defs₀ (F := F)) 𝒱₀ (c : Thread nD τ) none (Γ := .empty) Set.univ (m := Memref.whole cc0_stg7_0)
    (r := (Rect.unit (s := S256x256) ![0, 0] S256x256.size inb_S256x256_S256x256_0_0)) (w := v) (Mk := Finset.univ) (hx := hx) (hm := hm) (k := kk) (Q := Q)
    (S := (Memref.whole cc0_stg7_0).view.set) (f := X) (View.set_slice_subset _ _)
  have e : ((Memref.whole cc0_stg7_0 : Memref sig .tc _ _ _).access (Rect.unit (s := S256x256) ![0, 0] S256x256.size inb_S256x256_S256x256_0_0)).write (Elt F) X v Finset.univ = v :=
    Memref.write_access_unit_zero_univ (Elt F) cc0_stg7_0 (by funext a; revert a; decide) _ X v
  rw [e] at h
  exact h

/-- info: 'Cert.KernelIdeal.LoadStg.loadStg0' depends on axioms: [propext, Classical.choice, Quot.sound] -/
#guard_msgs in #print axioms loadStg0
/-- info: 'Cert.KernelIdeal.LoadStg.loadStg1' depends on axioms: [propext, Classical.choice, Quot.sound] -/
#guard_msgs in #print axioms loadStg1
/-- info: 'Cert.KernelIdeal.LoadStg.loadStg2' depends on axioms: [propext, Classical.choice, Quot.sound] -/
#guard_msgs in #print axioms loadStg2
/-- info: 'Cert.KernelIdeal.LoadStg.loadStg3' depends on axioms: [propext, Classical.choice, Quot.sound] -/
#guard_msgs in #print axioms loadStg3
/-- info: 'Cert.KernelIdeal.LoadStg.loadStg4' depends on axioms: [propext, Classical.choice, Quot.sound] -/
#guard_msgs in #print axioms loadStg4
/-- info: 'Cert.KernelIdeal.LoadStg.loadStg5' depends on axioms: [propext, Classical.choice, Quot.sound] -/
#guard_msgs in #print axioms loadStg5
/-- info: 'Cert.KernelIdeal.LoadStg.loadStg6' depends on axioms: [propext, Classical.choice, Quot.sound] -/
#guard_msgs in #print axioms loadStg6
/-- info: 'Cert.KernelIdeal.LoadStg.loadStg7' depends on axioms: [propext, Classical.choice, Quot.sound] -/
#guard_msgs in #print axioms loadStg7
/-- info: 'Cert.KernelIdeal.LoadStg.storeStg7' depends on axioms: [propext, Classical.choice, Quot.sound] -/
#guard_msgs in #print axioms storeStg7

end Cert.KernelIdeal.LoadStg
end
-- ==== Proof.Finish.lean ====
import proofs.«900978_g7700000000000979_dist_mlpseq_tp1d_bs_bs_b256_d256_h512_v7x_i16_bf16_1_alg».proof.Proof.BodyPost
import proofs.«900978_g7700000000000979_dist_mlpseq_tp1d_bs_bs_b256_d256_h512_v7x_i16_bf16_1_alg».proof.Proof.Exit
import proofs.«900978_g7700000000000979_dist_mlpseq_tp1d_bs_bs_b256_d256_h512_v7x_i16_bf16_1_alg».proof.Proof.Wins
import proofs.«900978_g7700000000000979_dist_mlpseq_tp1d_bs_bs_b256_d256_h512_v7x_i16_bf16_1_alg».proof.Proof.StateLemmas
noncomputable section
namespace Cert.KernelIdeal.Finish
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws Cert.KernelIdeal.Phases Cert.KernelIdeal.BodyPre
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## The end of the body

  The proof data record no restriction on the pairs a device may have waited on: every set of pairs lies within
  the bound of every point. After the last wait the device owes nothing; its slots join into the three scratch
  buffers and its sixty transfer cells close at zero; the seven argument blocks are as they were and the result
  block holds the last layer's sum: that is what the body leaves. -/

/-- The bound on a device's recorded pairs is everything, at every point. -/
theorem bound_univ (c : Dev nD) (t : Fin (cfg0.N + 1)) : (dats m 0 c).bound 0 t = Set.univ :=
  Set.eq_univ_of_forall fun _ => Or.inl trivial

/-- So every set of waited pairs lies within it. -/
theorem wend_sub (c : Dev nD) (t : Fin (cfg0.N + 1)) (W' : Waits sig ℕ) : (↑W' : Set (SemLoc sig × ℕ)) ⊆ (dats m 0 c).bound 0 t :=
  fun _ _ => Or.inl trivial

/-- Every copy of every layer issued, nothing is owed. -/
theorem owed_end (c : Dev nD) : Otot c (cnt 15 2) (cnt 15 2) 15 = 0 := by
  rw [cnt_full, cnt_zero]; exact Otot_done c

/-- The body's end: from every slot of the scratch buffers, every copy index's bundles past the last layer, nothing
    owed, and the eight staging buffers holding the argument blocks and the result, to what the body leaves. -/
theorem finish_wp (K : GSem nD τ sig → ℕ) (c : Dev nD) (W' : Waits sig ℕ) {α : Type} {Q : α → sProp 𝕄}
    (e : Prog (TpuEff nD τ sig (Elt F) Λ₀ .tc) α) :
    iprop(Invs m K
        ∗ ((∃ f, xPts (F := F) c (0 : Fin 16) fullShare f) ∗ (∃ f, xPts (F := F) c (1 : Fin 16) fullShare f) ∗ (∃ f, xPts (F := F) c (2 : Fin 16) fullShare f) ∗ (∃ f, xPts (F := F) c (3 : Fin 16) fullShare f) ∗ (∃ f, xPts (F := F) c (4 : Fin 16) fullShare f) ∗ (∃ f, xPts (F := F) c (5 : Fin 16) fullShare f) ∗ (∃ f, xPts (F := F) c (6 : Fin 16) fullShare f) ∗ (∃ f, xPts (F := F) c (7 : Fin 16) fullShare f) ∗ (∃ f, xPts (F := F) c (8 : Fin 16) fullShare f) ∗ (∃ f, xPts (F := F) c (9 : Fin 16) fullShare f) ∗ (∃ f, xPts (F := F) c (10 : Fin 16) fullShare f) ∗ (∃ f, xPts (F := F) c (11 : Fin 16) fullShare f) ∗ (∃ f, xPts (F := F) c (12 : Fin 16) fullShare f) ∗ (∃ f, xPts (F := F) c (13 : Fin 16) fullShare f) ∗ (∃ f, xPts (F := F) c (14 : Fin 16) fullShare f) ∗ (∃ f, xPts (F := F) c (15 : Fin 16) fullShare f))
        ∗ ((∃ f, pPts (F := F) c (0 : Fin 16) f) ∗ (∃ f, pPts (F := F) c (1 : Fin 16) f) ∗ (∃ f, pPts (F := F) c (2 : Fin 16) f) ∗ (∃ f, pPts (F := F) c (3 : Fin 16) f) ∗ (∃ f, pPts (F := F) c (4 : Fin 16) f) ∗ (∃ f, pPts (F := F) c (5 : Fin 16) f) ∗ (∃ f, pPts (F := F) c (6 : Fin 16) f) ∗ (∃ f, pPts (F := F) c (7 : Fin 16) f) ∗ (∃ f, pPts (F := F) c (8 : Fin 16) f) ∗ (∃ f, pPts (F := F) c (9 : Fin 16) f) ∗ (∃ f, pPts (F := F) c (10 : Fin 16) f) ∗ (∃ f, pPts (F := F) c (11 : Fin 16) f) ∗ (∃ f, pPts (F := F) c (12 : Fin 16) f) ∗ (∃ f, pPts (F := F) c (13 : Fin 16) f) ∗ (∃ f, pPts (F := F) c (14 : Fin 16) f) ∗ (∃ f, pPts (F := F) c (15 : Fin 16) f))
        ∗ ((∃ f, rPts (F := F) c (0 : Fin 15) f) ∗ (∃ f, rPts (F := F) c (1 : Fin 15) f) ∗ (∃ f, rPts (F := F) c (2 : Fin 15) f) ∗ (∃ f, rPts (F := F) c (3 : Fin 15) f) ∗ (∃ f, rPts (F := F) c (4 : Fin 15) f) ∗ (∃ f, rPts (F := F) c (5 : Fin 15) f) ∗ (∃ f, rPts (F := F) c (6 : Fin 15) f) ∗ (∃ f, rPts (F := F) c (7 : Fin 15) f) ∗ (∃ f, rPts (F := F) c (8 : Fin 15) f) ∗ (∃ f, rPts (F := F) c (9 : Fin 15) f) ∗ (∃ f, rPts (F := F) c (10 : Fin 15) f) ∗ (∃ f, rPts (F := F) c (11 : Fin 15) f) ∗ (∃ f, rPts (F := F) c (12 : Fin 15) f) ∗ (∃ f, rPts (F := F) c (13 : Fin 15) f) ∗ (∃ f, rPts (F := F) c (14 : Fin 15) f))
        ∗ (sn (F := F) c (0 : Fin 15) 3 ∗ sn (F := F) c (1 : Fin 15) 3 ∗ sn (F := F) c (2 : Fin 15) 3 ∗ sn (F := F) c (3 : Fin 15) 3 ∗ sn (F := F) c (4 : Fin 15) 3 ∗ sn (F := F) c (5 : Fin 15) 3 ∗ sn (F := F) c (6 : Fin 15) 3 ∗ sn (F := F) c (7 : Fin 15) 3 ∗ sn (F := F) c (8 : Fin 15) 3 ∗ sn (F := F) c (9 : Fin 15) 3 ∗ sn (F := F) c (10 : Fin 15) 3 ∗ sn (F := F) c (11 : Fin 15) 3 ∗ sn (F := F) c (12 : Fin 15) 3 ∗ sn (F := F) c (13 : Fin 15) 3 ∗ sn (F := F) c (14 : Fin 15) 3)
        ∗ (rc (F := F) c (0 : Fin 15) 3 ∗ rc (F := F) c (1 : Fin 15) 3 ∗ rc (F := F) c (2 : Fin 15) 3 ∗ rc (F := F) c (3 : Fin 15) 3 ∗ rc (F := F) c (4 : Fin 15) 3 ∗ rc (F := F) c (5 : Fin 15) 3 ∗ rc (F := F) c (6 : Fin 15) 3 ∗ rc (F := F) c (7 : Fin 15) 3 ∗ rc (F := F) c (8 : Fin 15) 3 ∗ rc (F := F) c (9 : Fin 15) 3 ∗ rc (F := F) c (10 : Fin 15) 3 ∗ rc (F := F) c (11 : Fin 15) 3 ∗ rc (F := F) c (12 : Fin 15) 3 ∗ rc (F := F) c (13 : Fin 15) 3 ∗ rc (F := F) c (14 : Fin 15) 3)
        ∗ owes (c : Thread nD τ) (Otot c (cnt 15 2) (cnt 15 2) 15) W'
        ∗ ((Memref.whole cc0_stg0_0).view.loc (c : Thread nD τ) ↦[(Memref.whole cc0_stg0_0).view.set]{fullShare} (argX m c))
        ∗ ((Memref.whole cc0_stg1_0).view.loc (c : Thread nD τ) ↦[(Memref.whole cc0_stg1_0).view.set]{fullShare} (argWi m 0 c))
        ∗ ((Memref.whole cc0_stg2_0).view.loc (c : Thread nD τ) ↦[(Memref.whole cc0_stg2_0).view.set]{fullShare} (argWo m 0 c))
        ∗ ((Memref.whole cc0_stg3_0).view.loc (c : Thread nD τ) ↦[(Memref.whole cc0_stg3_0).view.set]{fullShare} (argWi m 1 c))
        ∗ ((Memref.whole cc0_stg4_0).view.loc (c : Thread nD τ) ↦[(Memref.whole cc0_stg4_0).view.set]{fullShare} (argWo m 1 c))
        ∗ ((Memref.whole cc0_stg5_0).view.loc (c : Thread nD τ) ↦[(Memref.whole cc0_stg5_0).view.set]{fullShare} (argWi m 2 c))
        ∗ ((Memref.whole cc0_stg6_0).view.loc (c : Thread nD τ) ↦[(Memref.whole cc0_stg6_0).view.set]{fullShare} (argWo m 2 c))
        ∗ ((Memref.whole cc0_stg7_0).view.loc (c : Thread nD τ) ↦[(Memref.whole cc0_stg7_0).view.set]{fullShare} (outAt m c)))
      ⊢ iprop((bodyPost m c -∗ wp frame (wpE (defs₀ (F := F)) 𝒱₀ c none) Set.univ e Q)
          -∗ wp frame (wpE (defs₀ (F := F)) 𝒱₀ c none) Set.univ e Q) := by
  rw [owed_end]
  iintro ⟨#HI, HX, HP, HR, Hs, Hr, HO, Hw0, Hw1, Hw2, Hw3, Hw4, Hw5, Hw6, Hw7⟩ Hk
  iapply (Exit.phi1_wp m K c e) $$ [HX HP HR Hs Hr]
  · isplitr; · iexact HI
    isplitl [HX]; · iexact HX
    isplitl [HP]; · iexact HP
    isplitl [HR]; · iexact HR
    isplitl [Hs]; · iexact Hs
    iexact Hr
  iintro HΦ
  iapply Hk
  unfold bodyPost stg owns Dat.owesAt Pipeline.owesWithin
  rw [show (dats m 0 c).owed t₀.succ = 0 from rfl]
  isplitl [HΦ]; · iexact HΦ
  isplitl [HO]
  · iexists W'; isplitr; · (ipureintro; exact wend_sub m c t₀.succ W')
    iexact HO
  isplitl [Hw0]
  · iexists _; isplitr; · (ipureintro; exact (Wins.after_0 m c).symm)
    iexact Hw0
  isplitl [Hw1]
  · iexists _; isplitr; · (ipureintro; exact (Wins.after_1 m c).symm)
    iexact Hw1
  isplitl [Hw2]
  · iexists _; isplitr; · (ipureintro; exact (Wins.after_2 m c).symm)
    iexact Hw2
  isplitl [Hw3]
  · iexists _; isplitr; · (ipureintro; exact (Wins.after_3 m c).symm)
    iexact Hw3
  isplitl [Hw4]
  · iexists _; isplitr; · (ipureintro; exact (Wins.after_4 m c).symm)
    iexact Hw4
  isplitl [Hw5]
  · iexists _; isplitr; · (ipureintro; exact (Wins.after_5 m c).symm)
    iexact Hw5
  isplitl [Hw6]
  · iexists _; isplitr; · (ipureintro; exact (Wins.after_6 m c).symm)
    iexact Hw6
  iexists _; isplitr; · (ipureintro; exact (Wins.after_7 m c).symm)
  iexact Hw7

/-- info: 'Cert.KernelIdeal.Finish.finish_wp' depends on axioms: [propext, Classical.choice, Quot.sound] -/
#guard_msgs in #print axioms finish_wp
/-- info: 'Cert.KernelIdeal.Finish.wend_sub' depends on axioms: [propext, Classical.choice, Quot.sound] -/
#guard_msgs in #print axioms wend_sub

end Cert.KernelIdeal.Finish
end
-- ==== Proof.Body.lean ====
import proofs.«900978_g7700000000000979_dist_mlpseq_tp1d_bs_bs_b256_d256_h512_v7x_i16_bf16_1_alg».proof.Proof.Steps
import proofs.«900978_g7700000000000979_dist_mlpseq_tp1d_bs_bs_b256_d256_h512_v7x_i16_bf16_1_alg».proof.Proof.Phases
import proofs.«900978_g7700000000000979_dist_mlpseq_tp1d_bs_bs_b256_d256_h512_v7x_i16_bf16_1_alg».proof.Proof.Ring
import proofs.«900978_g7700000000000979_dist_mlpseq_tp1d_bs_bs_b256_d256_h512_v7x_i16_bf16_1_alg».proof.Proof.Open
import proofs.«900978_g7700000000000979_dist_mlpseq_tp1d_bs_bs_b256_d256_h512_v7x_i16_bf16_1_alg».proof.Proof.BodyPre
import proofs.«900978_g7700000000000979_dist_mlpseq_tp1d_bs_bs_b256_d256_h512_v7x_i16_bf16_1_alg».proof.Proof.BodyPost
import proofs.«900978_g7700000000000979_dist_mlpseq_tp1d_bs_bs_b256_d256_h512_v7x_i16_bf16_1_alg».proof.Proof.StepsMem
import proofs.«900978_g7700000000000979_dist_mlpseq_tp1d_bs_bs_b256_d256_h512_v7x_i16_bf16_1_alg».proof.Proof.PayForms
import proofs.«900978_g7700000000000979_dist_mlpseq_tp1d_bs_bs_b256_d256_h512_v7x_i16_bf16_1_alg».proof.Proof.Exit
import proofs.«900978_g7700000000000979_dist_mlpseq_tp1d_bs_bs_b256_d256_h512_v7x_i16_bf16_1_alg».proof.Proof.Wins
import proofs.«900978_g7700000000000979_dist_mlpseq_tp1d_bs_bs_b256_d256_h512_v7x_i16_bf16_1_alg».proof.Proof.ValForms
import proofs.«900978_g7700000000000979_dist_mlpseq_tp1d_bs_bs_b256_d256_h512_v7x_i16_bf16_1_alg».proof.Proof.ReadWhole
import proofs.«900978_g7700000000000979_dist_mlpseq_tp1d_bs_bs_b256_d256_h512_v7x_i16_bf16_1_alg».proof.Proof.LoadStg
import proofs.«900978_g7700000000000979_dist_mlpseq_tp1d_bs_bs_b256_d256_h512_v7x_i16_bf16_1_alg».proof.Proof.Finish
noncomputable section
namespace Cert.KernelIdeal.Body
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws Cert.KernelIdeal.Phases Cert.KernelIdeal.Steps Cert.KernelIdeal.Ring Cert.KernelIdeal.Open Cert.KernelIdeal.BodyPre Cert.KernelIdeal.StepsSend Cert.KernelIdeal.StepsWait Cert.KernelIdeal.StepsMem Cert.KernelIdeal.PayForms Cert.KernelIdeal.LoadStg Cert.KernelIdeal.ValForms
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

theorem xsplit16 (c : Dev nD) : scr (F := F) c cc0_scratch0 ⊢ (iprop((∃ f, xPts (F := F) c (0 : Fin 16) fullShare f) ∗ (∃ f, xPts (F := F) c (1 : Fin 16) fullShare f) ∗ (∃ f, xPts (F := F) c (2 : Fin 16) fullShare f) ∗ (∃ f, xPts (F := F) c (3 : Fin 16) fullShare f) ∗ (∃ f, xPts (F := F) c (4 : Fin 16) fullShare f) ∗ (∃ f, xPts (F := F) c (5 : Fin 16) fullShare f) ∗ (∃ f, xPts (F := F) c (6 : Fin 16) fullShare f) ∗ (∃ f, xPts (F := F) c (7 : Fin 16) fullShare f) ∗ (∃ f, xPts (F := F) c (8 : Fin 16) fullShare f) ∗ (∃ f, xPts (F := F) c (9 : Fin 16) fullShare f) ∗ (∃ f, xPts (F := F) c (10 : Fin 16) fullShare f) ∗ (∃ f, xPts (F := F) c (11 : Fin 16) fullShare f) ∗ (∃ f, xPts (F := F) c (12 : Fin 16) fullShare f) ∗ (∃ f, xPts (F := F) c (13 : Fin 16) fullShare f) ∗ (∃ f, xPts (F := F) c (14 : Fin 16) fullShare f) ∗ (∃ f, xPts (F := F) c (15 : Fin 16) fullShare f)) : sProp 𝕄) := by
  rw [← bigSep_F16 (fun k : Fin 16 => iprop(∃ f, xPts (F := F) c k fullShare f))]; exact (Slots.x_cut c).1
theorem psplit16 (c : Dev nD) : scr (F := F) c cc0_scratch1 ⊢ (iprop((∃ f, pPts (F := F) c (0 : Fin 16) f) ∗ (∃ f, pPts (F := F) c (1 : Fin 16) f) ∗ (∃ f, pPts (F := F) c (2 : Fin 16) f) ∗ (∃ f, pPts (F := F) c (3 : Fin 16) f) ∗ (∃ f, pPts (F := F) c (4 : Fin 16) f) ∗ (∃ f, pPts (F := F) c (5 : Fin 16) f) ∗ (∃ f, pPts (F := F) c (6 : Fin 16) f) ∗ (∃ f, pPts (F := F) c (7 : Fin 16) f) ∗ (∃ f, pPts (F := F) c (8 : Fin 16) f) ∗ (∃ f, pPts (F := F) c (9 : Fin 16) f) ∗ (∃ f, pPts (F := F) c (10 : Fin 16) f) ∗ (∃ f, pPts (F := F) c (11 : Fin 16) f) ∗ (∃ f, pPts (F := F) c (12 : Fin 16) f) ∗ (∃ f, pPts (F := F) c (13 : Fin 16) f) ∗ (∃ f, pPts (F := F) c (14 : Fin 16) f) ∗ (∃ f, pPts (F := F) c (15 : Fin 16) f)) : sProp 𝕄) := by
  rw [← bigSep_F16 (fun k : Fin 16 => iprop(∃ f, pPts (F := F) c k f))]; exact (Slots.p_cut c).1
theorem rsplit15 (c : Dev nD) : scr (F := F) c cc0_scratch2 ⊢ (iprop((∃ f, rPts (F := F) c (0 : Fin 15) f) ∗ (∃ f, rPts (F := F) c (1 : Fin 15) f) ∗ (∃ f, rPts (F := F) c (2 : Fin 15) f) ∗ (∃ f, rPts (F := F) c (3 : Fin 15) f) ∗ (∃ f, rPts (F := F) c (4 : Fin 15) f) ∗ (∃ f, rPts (F := F) c (5 : Fin 15) f) ∗ (∃ f, rPts (F := F) c (6 : Fin 15) f) ∗ (∃ f, rPts (F := F) c (7 : Fin 15) f) ∗ (∃ f, rPts (F := F) c (8 : Fin 15) f) ∗ (∃ f, rPts (F := F) c (9 : Fin 15) f) ∗ (∃ f, rPts (F := F) c (10 : Fin 15) f) ∗ (∃ f, rPts (F := F) c (11 : Fin 15) f) ∗ (∃ f, rPts (F := F) c (12 : Fin 15) f) ∗ (∃ f, rPts (F := F) c (13 : Fin 15) f) ∗ (∃ f, rPts (F := F) c (14 : Fin 15) f)) : sProp 𝕄) := by
  rw [← bigSep_F15 (fun j : Fin 15 => iprop(∃ f, rPts (F := F) c j f))]; exact (Slots.r_cut c).1
theorem barPays_dstX15 (c : Dev nD) :
    bigSep (Finset.univ.erase (0 : D)) (fun l => barPay (F := F) c l) ⊢ (iprop(dstX (F := F) c (0 : Fin 15) 0 ∗ dstX (F := F) c (1 : Fin 15) 0 ∗ dstX (F := F) c (2 : Fin 15) 0 ∗ dstX (F := F) c (3 : Fin 15) 0 ∗ dstX (F := F) c (4 : Fin 15) 0 ∗ dstX (F := F) c (5 : Fin 15) 0 ∗ dstX (F := F) c (6 : Fin 15) 0 ∗ dstX (F := F) c (7 : Fin 15) 0 ∗ dstX (F := F) c (8 : Fin 15) 0 ∗ dstX (F := F) c (9 : Fin 15) 0 ∗ dstX (F := F) c (10 : Fin 15) 0 ∗ dstX (F := F) c (11 : Fin 15) 0 ∗ dstX (F := F) c (12 : Fin 15) 0 ∗ dstX (F := F) c (13 : Fin 15) 0 ∗ dstX (F := F) c (14 : Fin 15) 0) : sProp 𝕄) := by
  rw [← bigSep_F15 (fun j : Fin 15 => dstX (F := F) c j 0)]; exact StepsWait.barPays_dstX c

set_option maxHeartbeats 3200000 in
/-- One device's body, stepped from its start to its end: the entry handshake; the own chunk stored and sent to
    the fifteen peers; per layer the chunks awaited two at a time, their products' halves stored and sent back,
    the send sides awaited, the fifteen returned pieces awaited and summed onto the own piece, the sum stored
    as the next chunk (or as the result) and the pieces' send sides awaited; then every slot is home. -/
theorem sound_body (K : GSem nD τ sig → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]; unfold cc0_body_skel
  unfold bodyPre stg owns
  iintro ⟨⟨⟨Hg, HcB, #Hlev, Hs0, Hs1, Hs2⟩, Ho, Hw0, Hw1, Hw2, Hw3, Hw4, Hw5, Hw6, Hw7⟩, Hk⟩
  ihave Hg' := (ghost_open m K c) $$ Hg
  icases Hg' with ⟨#HI, ⟨Hsn0, Hsn1, Hsn2, Hsn3, Hsn4, Hsn5, Hsn6, Hsn7, Hsn8, Hsn9, Hsn10, Hsn11, Hsn12, Hsn13, Hsn14⟩, ⟨⟨Hrc0, #Hra0⟩, ⟨Hrc1, #Hra1⟩, ⟨Hrc2, #Hra2⟩, ⟨Hrc3, #Hra3⟩, ⟨Hrc4, #Hra4⟩, ⟨Hrc5, #Hra5⟩, ⟨Hrc6, #Hra6⟩, ⟨Hrc7, #Hra7⟩, ⟨Hrc8, #Hra8⟩, ⟨Hrc9, #Hra9⟩, ⟨Hrc10, #Hra10⟩, ⟨Hrc11, #Hra11⟩, ⟨Hrc12, #Hra12⟩, ⟨Hrc13, #Hra13⟩, ⟨Hrc14, #Hra14⟩⟩, HatB, ⟨⟨Ht1, #Hb1⟩, ⟨Ht2, #Hb2⟩, ⟨Ht3, #Hb3⟩, ⟨Ht4, #Hb4⟩, ⟨Ht5, #Hb5⟩, ⟨Ht6, #Hb6⟩, ⟨Ht7, #Hb7⟩, ⟨Ht8, #Hb8⟩, ⟨Ht9, #Hb9⟩, ⟨Ht10, #Hb10⟩, ⟨Ht11, #Hb11⟩, ⟨Ht12, #Hb12⟩, ⟨Ht13, #Hb13⟩, ⟨Ht14, #Hb14⟩, ⟨Ht15, #Hb15⟩⟩⟩
  unfold Dat.owesAt Pipeline.owesWithin
  icases Ho with ⟨%W, %hW, HO⟩
  rw [show (dats m 0 c).owed t₀.castSucc = Otot c (cnt 0 0) (cnt 0 0) 0 from by rw [cnt_zero]; rfl]
  ihave Hxs := (xsplit16 c) $$ Hs0
  icases Hxs with ⟨Hx0, Hx1, Hx2, Hx3, Hx4, Hx5, Hx6, Hx7, Hx8, Hx9, Hx10, Hx11, Hx12, Hx13, Hx14, Hx15⟩
  ihave Hps := (psplit16 c) $$ Hs1
  icases Hps with ⟨Hp0, Hp1, Hp2, Hp3, Hp4, Hp5, Hp6, Hp7, Hp8, Hp9, Hp10, Hp11, Hp12, Hp13, Hp14, Hp15⟩
  ihave Hrs := (rsplit15 c) $$ Hs2
  icases Hrs with ⟨Hr0, Hr1, Hr2, Hr3, Hr4, Hr5, Hr6, Hr7, Hr8, Hr9, Hr10, Hr11, Hr12, Hr13, Hr14⟩
  icases Hw0 with ⟨%d0, %f0, %hf0, Hw0⟩
  have e0 : f0 = argX m c := by
    have h := hf0; simp only [Memref.view_whole, View.read_whole] at h; exact h.trans (before_0 m c d0)
  subst e0
  icases Hw1 with ⟨%d1, %f1, %hf1, Hw1⟩
  have e1 : f1 = argWi m 0 c := by
    have h := hf1; simp only [Memref.view_whole, View.read_whole] at h; exact h.trans (before_1 m c d1)
  subst e1
  icases Hw2 with ⟨%d2, %f2, %hf2, Hw2⟩
  have e2 : f2 = argWo m 0 c := by
    have h := hf2; simp only [Memref.view_whole, View.read_whole] at h; exact h.trans (before_2 m c d2)
  subst e2
  icases Hw3 with ⟨%d3, %f3, %hf3, Hw3⟩
  have e3 : f3 = argWi m 1 c := by
    have h := hf3; simp only [Memref.view_whole, View.read_whole] at h; exact h.trans (before_3 m c d3)
  subst e3
  icases Hw4 with ⟨%d4, %f4, %hf4, Hw4⟩
  have e4 : f4 = argWo m 1 c := by
    have h := hf4; simp only [Memref.view_whole, View.read_whole] at h; exact h.trans (before_4 m c d4)
  subst e4
  icases Hw5 with ⟨%d5, %f5, %hf5, Hw5⟩
  have e5 : f5 = argWi m 2 c := by
    have h := hf5; simp only [Memref.view_whole, View.read_whole] at h; exact h.trans (before_5 m c d5)
  subst e5
  icases Hw6 with ⟨%d6, %f6, %hf6, Hw6⟩
  have e6 : f6 = argWo m 2 c := by
    have h := hf6; simp only [Memref.view_whole, View.read_whole] at h; exact h.trans (before_6 m c d6)
  subst e6
  icases Hw7 with ⟨%d7, %f7, %hf7, Hw7⟩
  ihave Hw0' : held (F := F) c cc0_stg0_0 (argX m c) $$ [Hw0]
  · unfold held; iexact Hw0
  ihave Hw1' : held (F := F) c cc0_stg1_0 (argWi m 0 c) $$ [Hw1]
  · unfold held; iexact Hw1
  ihave Hw2' : held (F := F) c cc0_stg2_0 (argWo m 0 c) $$ [Hw2]
  · unfold held; iexact Hw2
  ihave Hw3' : held (F := F) c cc0_stg3_0 (argWi m 1 c) $$ [Hw3]
  · unfold held; iexact Hw3
  ihave Hw4' : held (F := F) c cc0_stg4_0 (argWo m 1 c) $$ [Hw4]
  · unfold held; iexact Hw4
  ihave Hw5' : held (F := F) c cc0_stg5_0 (argWi m 2 c) $$ [Hw5]
  · unfold held; iexact Hw5
  ihave Hw6' : held (F := F) c cc0_stg6_0 (argWo m 2 c) $$ [Hw6]
  · unfold held; iexact Hw6
  ihave Hw7' : held (F := F) c cc0_stg7_0 f7 $$ [Hw7]
  · unfold held; iexact Hw7
  -- signal 1: to the device 1 places after, handing it own slot 15 of X
  sl_exec
  icases Hx15 with ⟨%fx15, Hx15⟩
  iapply (step_sig m K c (1 : D) (by decide) _ _ 0 rfl fx15 (k := Prog.ret)) $$ [HO Ht1 Hx15]
  · isplitr; · iexact HI
    isplitl [HO]; · iexact HO
    isplitl [Ht1]; · iexact Ht1
    isplitl [Hx15]; · iexact Hx15
    isplitr; · iexact Hra14
    iexact Hb1
  iintro HO
  first | iapply (wp_ret_bind c _ _ _) | skip
  -- signal 2: to the device 2 places after, handing it own slot 14 of X
  sl_exec
  icases Hx14 with ⟨%fx14, Hx14⟩
  iapply (step_sig m K c (2 : D) (by decide) _ _ 1 rfl fx14 (k := Prog.ret)) $$ [HO Ht2 Hx14]
  · isplitr; · iexact HI
    isplitl [HO]; · iexact HO
    isplitl [Ht2]; · iexact Ht2
    isplitl [Hx14]; · iexact Hx14
    isplitr; · iexact Hra13
    iexact Hb2
  iintro HO
  first | iapply (wp_ret_bind c _ _ _) | skip
  -- signal 3: to the device 3 places after, handing it own slot 13 of X
  sl_exec
  icases Hx13 with ⟨%fx13, Hx13⟩
  iapply (step_sig m K c (3 : D) (by decide) _ _ 2 rfl fx13 (k := Prog.ret)) $$ [HO Ht3 Hx13]
  · isplitr; · iexact HI
    isplitl [HO]; · iexact HO
    isplitl [Ht3]; · iexact Ht3
    isplitl [Hx13]; · iexact Hx13
    isplitr; · iexact Hra12
    iexact Hb3
  iintro HO
  first | iapply (wp_ret_bind c _ _ _) | skip
  -- signal 4: to the device 4 places after, handing it own slot 12 of X
  sl_exec
  icases Hx12 with ⟨%fx12, Hx12⟩
  iapply (step_sig m K c (4 : D) (by decide) _ _ 3 rfl fx12 (k := Prog.ret)) $$ [HO Ht4 Hx12]
  · isplitr; · iexact HI
    isplitl [HO]; · iexact HO
    isplitl [Ht4]; · iexact Ht4
    isplitl [Hx12]; · iexact Hx12
    isplitr; · iexact Hra11
    iexact Hb4
  iintro HO
  first | iapply (wp_ret_bind c _ _ _) | skip
  -- signal 5: to the device 5 places after, handing it own slot 11 of X
  sl_exec
  icases Hx11 with ⟨%fx11, Hx11⟩
  iapply (step_sig m K c (5 : D) (by decide) _ _ 4 rfl fx11 (k := Prog.ret)) $$ [HO Ht5 Hx11]
  · isplitr; · iexact HI
    isplitl [HO]; · iexact HO
    isplitl [Ht5]; · iexact Ht5
    isplitl [Hx11]; · iexact Hx11
    isplitr; · iexact Hra10
    iexact Hb5
  iintro HO
  first | iapply (wp_ret_bind c _ _ _) | skip
  -- signal 6: to the device 6 places after, handing it own slot 10 of X
  sl_exec
  icases Hx10 with ⟨%fx10, Hx10⟩
  iapply (step_sig m K c (6 : D) (by decide) _ _ 5 rfl fx10 (k := Prog.ret)) $$ [HO Ht6 Hx10]
  · isplitr; · iexact HI
    isplitl [HO]; · iexact HO
    isplitl [Ht6]; · iexact Ht6
    isplitl [Hx10]; · iexact Hx10
    isplitr; · iexact Hra9
    iexact Hb6
  iintro HO
  first | iapply (wp_ret_bind c _ _ _) | skip
  -- signal 7: to the device 7 places after, handing it own slot 9 of X
  sl_exec
  icases Hx9 with ⟨%fx9, Hx9⟩
  iapply (step_sig m K c (7 : D) (by decide) _ _ 6 rfl fx9 (k := Prog.ret)) $$ [HO Ht7 Hx9]
  · isplitr; · iexact HI
    isplitl [HO]; · iexact HO
    isplitl [Ht7]; · iexact Ht7
    isplitl [Hx9]; · iexact Hx9
    isplitr; · iexact Hra8
    iexact Hb7
  iintro HO
  first | iapply (wp_ret_bind c _ _ _) | skip
  -- signal 8: to the device 8 places after, handing it own slot 8 of X
  sl_exec
  icases Hx8 with ⟨%fx8, Hx8⟩
  iapply (step_sig m K c (8 : D) (by decide) _ _ 7 rfl fx8 (k := Prog.ret)) $$ [HO Ht8 Hx8]
  · isplitr; · iexact HI
    isplitl [HO]; · iexact HO
    isplitl [Ht8]; · iexact Ht8
    isplitl [Hx8]; · iexact Hx8
    isplitr; · iexact Hra7
    iexact Hb8
  iintro HO
  first | iapply (wp_ret_bind c _ _ _) | skip
  -- signal 9: to the device 9 places after, handing it own slot 7 of X
  sl_exec
  icases Hx7 with ⟨%fx7, Hx7⟩
  iapply (step_sig m K c (9 : D) (by decide) _ _ 8 rfl fx7 (k := Prog.ret)) $$ [HO Ht9 Hx7]
  · isplitr; · iexact HI
    isplitl [HO]; · iexact HO
    isplitl [Ht9]; · iexact Ht9
    isplitl [Hx7]; · iexact Hx7
    isplitr; · iexact Hra6
    iexact Hb9
  iintro HO
  first | iapply (wp_ret_bind c _ _ _) | skip
  -- signal 10: to the device 10 places after, handing it own slot 6 of X
  sl_exec
  icases Hx6 with ⟨%fx6, Hx6⟩
  iapply (step_sig m K c (10 : D) (by decide) _ _ 9 rfl fx6 (k := Prog.ret)) $$ [HO Ht10 Hx6]
  · isplitr; · iexact HI
    isplitl [HO]; · iexact HO
    isplitl [Ht10]; · iexact Ht10
    isplitl [Hx6]; · iexact Hx6
    isplitr; · iexact Hra5
    iexact Hb10
  iintro HO
  first | iapply (wp_ret_bind c _ _ _) | skip
  -- signal 11: to the device 11 places after, handing it own slot 5 of X
  sl_exec
  icases Hx5 with ⟨%fx5, Hx5⟩
  iapply (step_sig m K c (11 : D) (by decide) _ _ 10 rfl fx5 (k := Prog.ret)) $$ [HO Ht11 Hx5]
  · isplitr; · iexact HI
    isplitl [HO]; · iexact HO
    isplitl [Ht11]; · iexact Ht11
    isplitl [Hx5]; · iexact Hx5
    isplitr; · iexact Hra4
    iexact Hb11
  iintro HO
  first | iapply (wp_ret_bind c _ _ _) | skip
  -- signal 12: to the device 12 places after, handing it own slot 4 of X
  sl_exec
  icases Hx4 with ⟨%fx4, Hx4⟩
  iapply (step_sig m K c (12 : D) (by decide) _ _ 11 rfl fx4 (k := Prog.ret)) $$ [HO Ht12 Hx4]
  · isplitr; · iexact HI
    isplitl [HO]; · iexact HO
    isplitl [Ht12]; · iexact Ht12
    isplitl [Hx4]; · iexact Hx4
    isplitr; · iexact Hra3
    iexact Hb12
  iintro HO
  first | iapply (wp_ret_bind c _ _ _) | skip
  -- signal 13: to the device 13 places after, handing it own slot 3 of X
  sl_exec
  icases Hx3 with ⟨%fx3, Hx3⟩
  iapply (step_sig m K c (13 : D) (by decide) _ _ 12 rfl fx3 (k := Prog.ret)) $$ [HO Ht13 Hx3]
  · isplitr; · iexact HI
    isplitl [HO]; · iexact HO
    isplitl [Ht13]; · iexact Ht13
    isplitl [Hx3]; · iexact Hx3
    isplitr; · iexact Hra2
    iexact Hb13
  iintro HO
  first | iapply (wp_ret_bind c _ _ _) | skip
  -- signal 14: to the device 14 places after, handing it own slot 2 of X
  sl_exec
  icases Hx2 with ⟨%fx2, Hx2⟩
  iapply (step_sig m K c (14 : D) (by decide) _ _ 13 rfl fx2 (k := Prog.ret)) $$ [HO Ht14 Hx2]
  · isplitr; · iexact HI
    isplitl [HO]; · iexact HO
    isplitl [Ht14]; · iexact Ht14
    isplitl [Hx2]; · iexact Hx2
    isplitr; · iexact Hra1
    iexact Hb14
  iintro HO
  first | iapply (wp_ret_bind c _ _ _) | skip
  -- signal 15: to the device 15 places after, handing it own slot 1 of X
  sl_exec
  icases Hx1 with ⟨%fx1, Hx1⟩
  iapply (step_sig m K c (15 : D) (by decide) _ _ 14 rfl fx1 (k := Prog.ret)) $$ [HO Ht15 Hx1]
  · isplitr; · iexact HI
    isplitl [HO]; · iexact HO
    isplitl [Ht15]; · iexact Ht15
    isplitl [Hx1]; · iexact Hx1
    isplitr; · iexact Hra0
    iexact Hb15
  iintro HO
  first | iapply (wp_ret_bind c _ _ _) | skip
  -- the wait for the fifteen units of the device's own barrier cell
  sl_exec
  iapply (step_bar m K c _ _ (k := Prog.ret)) $$ [HcB HO HatB]
  · isplitr; · iexact HI
    isplitl [HcB]; · iexact HcB
    isplitl [HO]; · iexact HO
    isplitr; · iexact Hlev
    iexact HatB
  iintro ⟨HO, HatB, #HrB, Hpays⟩
  first | iapply (wp_ret_bind c _ _ _) | skip
  ihave Hdx := (barPays_dstX15 c) $$ Hpays
  icases Hdx with ⟨Hdx0, Hdx1, Hdx2, Hdx3, Hdx4, Hdx5, Hdx6, Hdx7, Hdx8, Hdx9, Hdx10, Hdx11, Hdx12, Hdx13, Hdx14⟩
  -- the device's own chunk, cast and stored into slot 0 of X
  first | sl_exec | skip
  iapply (loadStg0 c (argX m c)) $$ [Hw0']
  · iexact Hw0'
  iintro Hw0'
  first | iapply (wp_ret_bind c _ _ _) | skip
  first | sl_exec | skip
  icases Hx0 with ⟨%fx0, Hx0⟩
  iapply (loadXany c 0 fullShare fx0) $$ [Hx0]
  · iexact Hx0
  iintro Hx0
  first | iapply (wp_ret_bind c _ _ _) | skip
  first | sl_exec | skip
  iapply (storeX c 0 (chunkAt m 0 c)) $$ [Hx0]
  · iexists fx0; iexact Hx0
  iintro Hx0
  first | iapply (wp_ret_bind c _ _ _) | skip
  -- chunk copy 1 of layer 0
  first | sl_exec | skip
  iapply (step_AS_d m K c 0 (by decide) 0 (by decide) _ _ (dev16_eq c)) $$ [HO Hsn0 Hdx0 Hx0 Hr14]
  · isplitr; · iexact HI
    isplitl [HO]; · iexact HO
    isplitl [Hsn0]; · iexact Hsn0
    isplitl [Hdx0]; · iexact Hdx0
    isplitl [Hx0]; · iexact Hx0
    iexact Hr14
  iintro ⟨HO, Hss0, Hx0⟩
  first | iapply (wp_ret_bind c _ _ _) | skip
  -- chunk copy 2 of layer 0
  first | sl_exec | skip
  iapply (step_AS_d m K c 1 (by decide) 0 (by decide) _ _ (dev17_eq c)) $$ [HO Hsn1 Hdx1 Hx0 Hr13]
  · isplitr; · iexact HI
    isplitl [HO]; · iexact HO
    isplitl [Hsn1]; · iexact Hsn1
    isplitl [Hdx1]; · iexact Hdx1
    isplitl [Hx0]; · iexact Hx0
    iexact Hr13
  iintro ⟨HO, Hss1, Hx0⟩
  first | iapply (wp_ret_bind c _ _ _) | skip
  -- chunk copy 3 of layer 0
  first | sl_exec | skip
  iapply (step_AS_d m K c 2 (by decide) 0 (by decide) _ _ (dev18_eq c)) $$ [HO Hsn2 Hdx2 Hx0 Hr12]
  · isplitr; · iexact HI
    isplitl [HO]; · iexact HO
    isplitl [Hsn2]; · iexact Hsn2
    isplitl [Hdx2]; · iexact Hdx2
    isplitl [Hx0]; · iexact Hx0
    iexact Hr12
  iintro ⟨HO, Hss2, Hx0⟩
  first | iapply (wp_ret_bind c _ _ _) | skip
  -- chunk copy 4 of layer 0
  first | sl_exec | skip
  iapply (step_AS_d m K c 3 (by decide) 0 (by decide) _ _ (dev19_eq c)) $$ [HO Hsn3 Hdx3 Hx0 Hr11]
  · isplitr; · iexact HI
    isplitl [HO]; · iexact HO
    isplitl [Hsn3]; · iexact Hsn3
    isplitl [Hdx3]; · iexact Hdx3
    isplitl [Hx0]; · iexact Hx0
    iexact Hr11
  iintro ⟨HO, Hss3, Hx0⟩
  first | iapply (wp_ret_bind c _ _ _) | skip
  -- chunk copy 5 of layer 0
  first | sl_exec | skip
  iapply (step_AS_d m K c 4 (by decide) 0 (by decide) _ _ (dev20_eq c)) $$ [HO Hsn4 Hdx4 Hx0 Hr10]
  · isplitr; · iexact HI
    isplitl [HO]; · iexact HO
    isplitl [Hsn4]; · iexact Hsn4
    isplitl [Hdx4]; · iexact Hdx4
    isplitl [Hx0]; · iexact Hx0
    iexact Hr10
  iintro ⟨HO, Hss4, Hx0⟩
  first | iapply (wp_ret_bind c _ _ _) | skip
  -- chunk copy 6 of layer 0
  first | sl_exec | skip
  iapply (step_AS_d m K c 5 (by decide) 0 (by decide) _ _ (dev21_eq c)) $$ [HO Hsn5 Hdx5 Hx0 Hr9]
  · isplitr; · iexact HI
    isplitl [HO]; · iexact HO
    isplitl [Hsn5]; · iexact Hsn5
    isplitl [Hdx5]; · iexact Hdx5
    isplitl [Hx0]; · iexact Hx0
    iexact Hr9
  iintro ⟨HO, Hss5, Hx0⟩
  first | iapply (wp_ret_bind c _ _ _) | skip
  -- chunk copy 7 of layer 0
  first | sl_exec | skip
  iapply (step_AS_d m K c 6 (by decide) 0 (by decide) _ _ (dev22_eq c)) $$ [HO Hsn6 Hdx6 Hx0 Hr8]
  · isplitr; · iexact HI
    isplitl [HO]; · iexact HO
    isplitl [Hsn6]; · iexact Hsn6
    isplitl [Hdx6]; · iexact Hdx6
    isplitl [Hx0]; · iexact Hx0
    iexact Hr8
  iintro ⟨HO, Hss6, Hx0⟩
  first | iapply (wp_ret_bind c _ _ _) | skip
  -- chunk copy 8 of layer 0
  first | sl_exec | skip
  iapply (step_AS_d m K c 7 (by decide) 0 (by decide) _ _ (dev23_eq c)) $$ [HO Hsn7 Hdx7 Hx0 Hr7]
  · isplitr; · iexact HI
    isplitl [HO]; · iexact HO
    isplitl [Hsn7]; · iexact Hsn7
    isplitl [Hdx7]; · iexact Hdx7
    isplitl [Hx0]; · iexact Hx0
    iexact Hr7
  iintro ⟨HO, Hss7, Hx0⟩
  first | iapply (wp_ret_bind c _ _ _) | skip
  -- chunk copy 9 of layer 0
  first | sl_exec | skip
  iapply (step_AS_d m K c 8 (by decide) 0 (by decide) _ _ (dev24_eq c)) $$ [HO Hsn8 Hdx8 Hx0 Hr6]
  · isplitr; · iexact HI
    isplitl [HO]; · iexact HO
    isplitl [Hsn8]; · iexact Hsn8
    isplitl [Hdx8]; · iexact Hdx8
    isplitl [Hx0]; · iexact Hx0
    iexact Hr6
  iintro ⟨HO, Hss8, Hx0⟩
  first | iapply (wp_ret_bind c _ _ _) | skip
  -- chunk copy 10 of layer 0
  first | sl_exec | skip
  iapply (step_AS_d m K c 9 (by decide) 0 (by decide) _ _ (dev25_eq c)) $$ [HO Hsn9 Hdx9 Hx0 Hr5]
  · isplitr; · iexact HI
    isplitl [HO]; · iexact HO
    isplitl [Hsn9]; · iexact Hsn9
    isplitl [Hdx9]; · iexact Hdx9
    isplitl [Hx0]; · iexact Hx0
    iexact Hr5
  iintro ⟨HO, Hss9, Hx0⟩
  first | iapply (wp_ret_bind c _ _ _) | skip
  -- chunk copy 11 of layer 0
  first | sl_exec | skip
  iapply (step_AS_d m K c 10 (by decide) 0 (by decide) _ _ (dev26_eq c)) $$ [HO Hsn10 Hdx10 Hx0 Hr4]
  · isplitr; · iexact HI
    isplitl [HO]; · iexact HO
    isplitl [Hsn10]; · iexact Hsn10
    isplitl [Hdx10]; · iexact Hdx10
    isplitl [Hx0]; · iexact Hx0
    iexact Hr4
  iintro ⟨HO, Hss10, Hx0⟩
  first | iapply (wp_ret_bind c _ _ _) | skip
  -- chunk copy 12 of layer 0
  first | sl_exec | skip
  iapply (step_AS_d m K c 11 (by decide) 0 (by decide) _ _ (dev27_eq c)) $$ [HO Hsn11 Hdx11 Hx0 Hr3]
  · isplitr; · iexact HI
    isplitl [HO]; · iexact HO
    isplitl [Hsn11]; · iexact Hsn11
    isplitl [Hdx11]; · iexact Hdx11
    isplitl [Hx0]; · iexact Hx0
    iexact Hr3
  iintro ⟨HO, Hss11, Hx0⟩
  first | iapply (wp_ret_bind c _ _ _) | skip
  -- chunk copy 13 of layer 0
  first | sl_exec | skip
  iapply (step_AS_d m K c 12 (by decide) 0 (by decide) _ _ (dev28_eq c)) $$ [HO Hsn12 Hdx12 Hx0 Hr2]
  · isplitr; · iexact HI
    isplitl [HO]; · iexact HO
    isplitl [Hsn12]; · iexact Hsn12
    isplitl [Hdx12]; · iexact Hdx12
    isplitl [Hx0]; · iexact Hx0
    iexact Hr2
  iintro ⟨HO, Hss12, Hx0⟩
  first | iapply (wp_ret_bind c _ _ _) | skip
  -- chunk copy 14 of layer 0
  first | sl_exec | skip
  iapply (step_AS_d m K c 13 (by decide) 0 (by decide) _ _ (dev29_eq c)) $$ [HO Hsn13 Hdx13 Hx0 Hr1]
  · isplitr; · iexact HI
    isplitl [HO]; · iexact HO
    isplitl [Hsn13]; · iexact Hsn13
    isplitl [Hdx13]; · iexact Hdx13
    isplitl [Hx0]; · iexact Hx0
    iexact Hr1
  iintro ⟨HO, Hss13, Hx0⟩
  first | iapply (wp_ret_bind c _ _ _) | skip
  -- chunk copy 15 of layer 0
  first | sl_exec | skip
  iapply (step_AS_d m K c 14 (by decide) 0 (by decide) _ _ (dev30_eq c)) $$ [HO Hsn14 Hdx14 Hx0 Hr0]
  · isplitr; · iexact HI
    isplitl [HO]; · iexact HO
    isplitl [Hsn14]; · iexact Hsn14
    isplitl [Hdx14]; · iexact Hdx14
    isplitl [Hx0]; · iexact Hx0
    iexact Hr0
  iintro ⟨HO, Hss14, Hx0⟩
  first | iapply (wp_ret_bind c _ _ _) | skip
  -- layer 0: the device's weight blocks
  first | sl_exec | skip
  iapply (loadStg1 c (argWi m 0 c)) $$ [Hw1']
  · iexact Hw1'
  iintro Hw1'
  first | iapply (wp_ret_bind c _ _ _) | skip
  first | sl_exec | skip
  iapply (loadStg2 c (argWo m 0 c)) $$ [Hw2']
  · iexact Hw2'
  iintro Hw2'
  first | iapply (wp_ret_bind c _ _ _) | skip
  -- layer 0: wait for chunk 1 (from the device 1 places before)
  first | sl_exec | skip
  iapply (step_AR m K c (0 : Fin 15) 0 (by decide) (cnt 15 0) (cnt 0 0) (lt_cnt_full 0) (lt_cnt 0 0)) $$ [HO Hrc0]
  · isplitr; · iexact HI
    isplitl [HO]; · iexact HO
    isplitr; · iexact Hlev
    iexact Hrc0
  iintro ⟨HO, Hrg0, Hpay⟩
  first | iapply (wp_ret_bind c _ _ _) | skip
  ihave Hpay' := (agRPay_open m c (0 : Fin 15) 0) $$ Hpay
  icases Hpay' with ⟨Hx1, Hdr0⟩
  -- layer 0, group 0: the two chunks read as one block of 512 rows
  first | sl_exec | skip
  iapply (loadX c (0 : Fin 8) 15 (chunkAt m 0 c) (chunkAt m 0 (bwd c 1))) $$ [Hx0 Hx1]
  · isplitl [Hx0]; · iexact Hx0
    iexact Hx1
  iintro ⟨Hx0, Hx1⟩
  first | iapply (wp_ret_bind c _ _ _) | skip
  -- layer 0: the piece for chunk 1, stored into slot 1 of P and sent back
  first | sl_exec | skip
  icases Hp1 with ⟨%fp1, Hp1⟩
  iapply (loadPany c (1 : Fin 16) fp1) $$ [Hp1]
  · iexact Hp1
  iintro Hp1
  first | iapply (wp_ret_bind c _ _ _) | skip
  first | sl_exec | skip
  iapply (storeP c (1 : Fin 16) _) $$ [Hp1]
  · iexists _; iexact Hp1
  iintro Hq1
  first | iapply (wp_ret_bind c _ _ _) | skip
  ihave Hp1 : pPts (F := F) c (1 : Fin 16) (pfill c (1 : Fin 16) (pieceAt m 0 c 1)) $$ [Hq1]
  · sl_unfold_run_names
    rw [store_P_0_1 m c]
    iexact Hq1
  first | sl_exec | skip
  iapply (step_RS_d m K c 0 (by decide) 0 (by decide) (cnt 15 0) _ (dev31_eq c)) $$ [HO Hrg0 Hdr0 Hp1 Hx1]
  · isplitr; · iexact HI
    isplitl [HO]; · iexact HO
    isplitl [Hrg0]; · iexact Hrg0
    isplitl [Hdr0]; · iexact Hdr0
    isplitl [Hp1]; · iexact Hp1
    (iexists _; iexact Hx1)
  iintro ⟨HO, Hrs0⟩
  first | iapply (wp_ret_bind c _ _ _) | skip
  -- layer 0: wait for chunk 2 (from the device 2 places before)
  first | sl_exec | skip
  iapply (step_AR m K c (1 : Fin 15) 0 (by decide) (cnt 15 0) (cnt 1 0) (lt_cnt_full 0) (lt_cnt 1 0)) $$ [HO Hrc1]
  · isplitr; · iexact HI
    isplitl [HO]; · iexact HO
    isplitr; · iexact Hlev
    iexact Hrc1
  iintro ⟨HO, Hrg1, Hpay⟩
  first | iapply (wp_ret_bind c _ _ _) | skip
  ihave Hpay' := (agRPay_open m c (1 : Fin 15) 0) $$ Hpay
  icases Hpay' with ⟨Hx2, Hdr1⟩
  -- layer 0: wait for chunk 3 (from the device 3 places before)
  first | sl_exec | skip
  iapply (step_AR m K c (2 : Fin 15) 0 (by decide) (cnt 15 0) (cnt 1 0) (lt_cnt_full 0) (lt_cnt 1 0)) $$ [HO Hrc2]
  · isplitr; · iexact HI
    isplitl [HO]; · iexact HO
    isplitr; · iexact Hlev
    iexact Hrc2
  iintro ⟨HO, Hrg2, Hpay⟩
  first | iapply (wp_ret_bind c _ _ _) | skip
  ihave Hpay' := (agRPay_open m c (2 : Fin 15) 0) $$ Hpay
  icases Hpay' with ⟨Hx3, Hdr2⟩
  -- layer 0, group 1: the two chunks read as one block of 512 rows
  first | sl_exec | skip
  iapply (loadX c (1 : Fin 8) 0 (chunkAt m 0 (bwd c 2)) (chunkAt m 0 (bwd c 3))) $$ [Hx2 Hx3]
  · isplitl [Hx2]; · iexact Hx2
    iexact Hx3
  iintro ⟨Hx2, Hx3⟩
  first | iapply (wp_ret_bind c _ _ _) | skip
  -- layer 0: the piece for chunk 2, stored into slot 2 of P and sent back
  first | sl_exec | skip
  icases Hp2 with ⟨%fp2, Hp2⟩
  iapply (loadPany c (2 : Fin 16) fp2) $$ [Hp2]
  · iexact Hp2
  iintro Hp2
  first | iapply (wp_ret_bind c _ _ _) | skip
  first | sl_exec | skip
  iapply (storeP c (2 : Fin 16) _) $$ [Hp2]
  · iexists _; iexact Hp2
  iintro Hq2
  first | iapply (wp_ret_bind c _ _ _) | skip
  ihave Hp2 : pPts (F := F) c (2 : Fin 16) (pfill c (2 : Fin 16) (pieceAt m 0 c 2)) $$ [Hq2]
  · sl_unfold_run_names
    rw [store_P_0_2 m c]
    iexact Hq2
  first | sl_exec | skip
  iapply (step_RS_d m K c 1 (by decide) 0 (by decide) (cnt 15 0) _ (dev32_eq c)) $$ [HO Hrg1 Hdr1 Hp2 Hx2]
  · isplitr; · iexact HI
    isplitl [HO]; · iexact HO
    isplitl [Hrg1]; · iexact Hrg1
    isplitl [Hdr1]; · iexact Hdr1
    isplitl [Hp2]; · iexact Hp2
    (iexists _; iexact Hx2)
  iintro ⟨HO, Hrs1⟩
  first | iapply (wp_ret_bind c _ _ _) | skip
  -- layer 0: the piece for chunk 3, stored into slot 3 of P and sent back
  first | sl_exec | skip
  icases Hp3 with ⟨%fp3, Hp3⟩
  iapply (loadPany c (3 : Fin 16) fp3) $$ [Hp3]
  · iexact Hp3
  iintro Hp3
  first | iapply (wp_ret_bind c _ _ _) | skip
  first | sl_exec | skip
  iapply (storeP c (3 : Fin 16) _) $$ [Hp3]
  · iexists _; iexact Hp3
  iintro Hq3
  first | iapply (wp_ret_bind c _ _ _) | skip
  ihave Hp3 : pPts (F := F) c (3 : Fin 16) (pfill c (3 : Fin 16) (pieceAt m 0 c 3)) $$ [Hq3]
  · sl_unfold_run_names
    rw [store_P_0_3 m c]
    iexact Hq3
  first | sl_exec | skip
  iapply (step_RS_d m K c 2 (by decide) 0 (by decide) (cnt 15 0) _ (dev33_eq c)) $$ [HO Hrg2 Hdr2 Hp3 Hx3]
  · isplitr; · iexact HI
    isplitl [HO]; · iexact HO
    isplitl [Hrg2]; · iexact Hrg2
    isplitl [Hdr2]; · iexact Hdr2
    isplitl [Hp3]; · iexact Hp3
    (iexists _; iexact Hx3)
  iintro ⟨HO, Hrs2⟩
  first | iapply (wp_ret_bind c _ _ _) | skip
  -- layer 0: wait for chunk 4 (from the device 4 places before)
  first | sl_exec | skip
  iapply (step_AR m K c (3 : Fin 15) 0 (by decide) (cnt 15 0) (cnt 3 0) (lt_cnt_full 0) (lt_cnt 3 0)) $$ [HO Hrc3]
  · isplitr; · iexact HI
    isplitl [HO]; · iexact HO
    isplitr; · iexact Hlev
    iexact Hrc3
  iintro ⟨HO, Hrg3, Hpay⟩
  first | iapply (wp_ret_bind c _ _ _) | skip
  ihave Hpay' := (agRPay_open m c (3 : Fin 15) 0) $$ Hpay
  icases Hpay' with ⟨Hx4, Hdr3⟩
  -- layer 0: wait for chunk 5 (from the device 5 places before)
  first | sl_exec | skip
  iapply (step_AR m K c (4 : Fin 15) 0 (by decide) (cnt 15 0) (cnt 3 0) (lt_cnt_full 0) (lt_cnt 3 0)) $$ [HO Hrc4]
  · isplitr; · iexact HI
    isplitl [HO]; · iexact HO
    isplitr; · iexact Hlev
    iexact Hrc4
  iintro ⟨HO, Hrg4, Hpay⟩
  first | iapply (wp_ret_bind c _ _ _) | skip
  ihave Hpay' := (agRPay_open m c (4 : Fin 15) 0) $$ Hpay
  icases Hpay' with ⟨Hx5, Hdr4⟩
  -- layer 0, group 2: the two chunks read as one block of 512 rows
  first | sl_exec | skip
  iapply (loadX c (2 : Fin 8) 0 (chunkAt m 0 (bwd c 4)) (chunkAt m 0 (bwd c 5))) $$ [Hx4 Hx5]
  · isplitl [Hx4]; · iexact Hx4
    iexact Hx5
  iintro ⟨Hx4, Hx5⟩
  first | iapply (wp_ret_bind c _ _ _) | skip
  -- layer 0: the piece for chunk 4, stored into slot 4 of P and sent back
  first | sl_exec | skip
  icases Hp4 with ⟨%fp4, Hp4⟩
  iapply (loadPany c (4 : Fin 16) fp4) $$ [Hp4]
  · iexact Hp4
  iintro Hp4
  first | iapply (wp_ret_bind c _ _ _) | skip
  first | sl_exec | skip
  iapply (storeP c (4 : Fin 16) _) $$ [Hp4]
  · iexists _; iexact Hp4
  iintro Hq4
  first | iapply (wp_ret_bind c _ _ _) | skip
  ihave Hp4 : pPts (F := F) c (4 : Fin 16) (pfill c (4 : Fin 16) (pieceAt m 0 c 4)) $$ [Hq4]
  · sl_unfold_run_names
    rw [store_P_0_4 m c]
    iexact Hq4
  first | sl_exec | skip
  iapply (step_RS_d m K c 3 (by decide) 0 (by decide) (cnt 15 0) _ (dev34_eq c)) $$ [HO Hrg3 Hdr3 Hp4 Hx4]
  · isplitr; · iexact HI
    isplitl [HO]; · iexact HO
    isplitl [Hrg3]; · iexact Hrg3
    isplitl [Hdr3]; · iexact Hdr3
    isplitl [Hp4]; · iexact Hp4
    (iexists _; iexact Hx4)
  iintro ⟨HO, Hrs3⟩
  first | iapply (wp_ret_bind c _ _ _) | skip
  -- layer 0: the piece for chunk 5, stored into slot 5 of P and sent back
  first | sl_exec | skip
  icases Hp5 with ⟨%fp5, Hp5⟩
  iapply (loadPany c (5 : Fin 16) fp5) $$ [Hp5]
  · iexact Hp5
  iintro Hp5
  first | iapply (wp_ret_bind c _ _ _) | skip
  first | sl_exec | skip
  iapply (storeP c (5 : Fin 16) _) $$ [Hp5]
  · iexists _; iexact Hp5
  iintro Hq5
  first | iapply (wp_ret_bind c _ _ _) | skip
  ihave Hp5 : pPts (F := F) c (5 : Fin 16) (pfill c (5 : Fin 16) (pieceAt m 0 c 5)) $$ [Hq5]
  · sl_unfold_run_names
    rw [store_P_0_5 m c]
    iexact Hq5
  first | sl_exec | skip
  iapply (step_RS_d m K c 4 (by decide) 0 (by decide) (cnt 15 0) _ (dev35_eq c)) $$ [HO Hrg4 Hdr4 Hp5 Hx5]
  · isplitr; · iexact HI
    isplitl [HO]; · iexact HO
    isplitl [Hrg4]; · iexact Hrg4
    isplitl [Hdr4]; · iexact Hdr4
    isplitl [Hp5]; · iexact Hp5
    (iexists _; iexact Hx5)
  iintro ⟨HO, Hrs4⟩
  first | iapply (wp_ret_bind c _ _ _) | skip
  -- layer 0: wait for chunk 6 (from the device 6 places before)
  first | sl_exec | skip
  iapply (step_AR m K c (5 : Fin 15) 0 (by decide) (cnt 15 0) (cnt 5 0) (lt_cnt_full 0) (lt_cnt 5 0)) $$ [HO Hrc5]
  · isplitr; · iexact HI
    isplitl [HO]; · iexact HO
    isplitr; · iexact Hlev
    iexact Hrc5
  iintro ⟨HO, Hrg5, Hpay⟩
  first | iapply (wp_ret_bind c _ _ _) | skip
  ihave Hpay' := (agRPay_open m c (5 : Fin 15) 0) $$ Hpay
  icases Hpay' with ⟨Hx6, Hdr5⟩
  -- layer 0: wait for chunk 7 (from the device 7 places before)
  first | sl_exec | skip
  iapply (step_AR m K c (6 : Fin 15) 0 (by decide) (cnt 15 0) (cnt 5 0) (lt_cnt_full 0) (lt_cnt 5 0)) $$ [HO Hrc6]
  · isplitr; · iexact HI
    isplitl [HO]; · iexact HO
    isplitr; · iexact Hlev
    iexact Hrc6
  iintro ⟨HO, Hrg6, Hpay⟩
  first | iapply (wp_ret_bind c _ _ _) | skip
  ihave Hpay' := (agRPay_open m c (6 : Fin 15) 0) $$ Hpay
  icases Hpay' with ⟨Hx7, Hdr6⟩
  -- layer 0, group 3: the two chunks read as one block of 512 rows
  first | sl_exec | skip
  iapply (loadX c (3 : Fin 8) 0 (chunkAt m 0 (bwd c 6)) (chunkAt m 0 (bwd c 7))) $$ [Hx6 Hx7]
  · isplitl [Hx6]; · iexact Hx6
    iexact Hx7
  iintro ⟨Hx6, Hx7⟩
  first | iapply (wp_ret_bind c _ _ _) | skip
  -- layer 0: the piece for chunk 6, stored into slot 6 of P and sent back
  first | sl_exec | skip
  icases Hp6 with ⟨%fp6, Hp6⟩
  iapply (loadPany c (6 : Fin 16) fp6) $$ [Hp6]
  · iexact Hp6
  iintro Hp6
  first | iapply (wp_ret_bind c _ _ _) | skip
  first | sl_exec | skip
  iapply (storeP c (6 : Fin 16) _) $$ [Hp6]
  · iexists _; iexact Hp6
  iintro Hq6
  first | iapply (wp_ret_bind c _ _ _) | skip
  ihave Hp6 : pPts (F := F) c (6 : Fin 16) (pfill c (6 : Fin 16) (pieceAt m 0 c 6)) $$ [Hq6]
  · sl_unfold_run_names
    rw [store_P_0_6 m c]
    iexact Hq6
  first | sl_exec | skip
  iapply (step_RS_d m K c 5 (by decide) 0 (by decide) (cnt 15 0) _ (dev36_eq c)) $$ [HO Hrg5 Hdr5 Hp6 Hx6]
  · isplitr; · iexact HI
    isplitl [HO]; · iexact HO
    isplitl [Hrg5]; · iexact Hrg5
    isplitl [Hdr5]; · iexact Hdr5
    isplitl [Hp6]; · iexact Hp6
    (iexists _; iexact Hx6)
  iintro ⟨HO, Hrs5⟩
  first | iapply (wp_ret_bind c _ _ _) | skip
  -- layer 0: the piece for chunk 7, stored into slot 7 of P and sent back
  first | sl_exec | skip
  icases Hp7 with ⟨%fp7, Hp7⟩
  iapply (loadPany c (7 : Fin 16) fp7) $$ [Hp7]
  · iexact Hp7
  iintro Hp7
  first | iapply (wp_ret_bind c _ _ _) | skip
  first | sl_exec | skip
  iapply (storeP c (7 : Fin 16) _) $$ [Hp7]
  · iexists _; iexact Hp7
  iintro Hq7
  first | iapply (wp_ret_bind c _ _ _) | skip
  ihave Hp7 : pPts (F := F) c (7 : Fin 16) (pfill c (7 : Fin 16) (pieceAt m 0 c 7)) $$ [Hq7]
  · sl_unfold_run_names
    rw [store_P_0_7 m c]
    iexact Hq7
  first | sl_exec | skip
  iapply (step_RS_d m K c 6 (by decide) 0 (by decide) (cnt 15 0) _ (dev37_eq c)) $$ [HO Hrg6 Hdr6 Hp7 Hx7]
  · isplitr; · iexact HI
    isplitl [HO]; · iexact HO
    isplitl [Hrg6]; · iexact Hrg6
    isplitl [Hdr6]; · iexact Hdr6
    isplitl [Hp7]; · iexact Hp7
    (iexists _; iexact Hx7)
  iintro ⟨HO, Hrs6⟩
  first | iapply (wp_ret_bind c _ _ _) | skip
  -- layer 0: wait for chunk 8 (from the device 8 places before)
  first | sl_exec | skip
  iapply (step_AR m K c (7 : Fin 15) 0 (by decide) (cnt 15 0) (cnt 7 0) (lt_cnt_full 0) (lt_cnt 7 0)) $$ [HO Hrc7]
  · isplitr; · iexact HI
    isplitl [HO]; · iexact HO
    isplitr; · iexact Hlev
    iexact Hrc7
  iintro ⟨HO, Hrg7, Hpay⟩
  first | iapply (wp_ret_bind c _ _ _) | skip
  ihave Hpay' := (agRPay_open m c (7 : Fin 15) 0) $$ Hpay
  icases Hpay' with ⟨Hx8, Hdr7⟩
  -- layer 0: wait for chunk 9 (from the device 9 places before)
  first | sl_exec | skip
  iapply (step_AR m K c (8 : Fin 15) 0 (by decide) (cnt 15 0) (cnt 7 0) (lt_cnt_full 0) (lt_cnt 7 0)) $$ [HO Hrc8]
  · isplitr; · iexact HI
    isplitl [HO]; · iexact HO
    isplitr; · iexact Hlev
    iexact Hrc8
  iintro ⟨HO, Hrg8, Hpay⟩
  first | iapply (wp_ret_bind c _ _ _) | skip
  ihave Hpay' := (agRPay_open m c (8 : Fin 15) 0) $$ Hpay
  icases Hpay' with ⟨Hx9, Hdr8⟩
  -- layer 0, group 4: the two chunks read as one block of 512 rows
  first | sl_exec | skip
  iapply (loadX c (4 : Fin 8) 0 (chunkAt m 0 (bwd c 8)) (chunkAt m 0 (bwd c 9))) $$ [Hx8 Hx9]
  · isplitl [Hx8]; · iexact Hx8
    iexact Hx9
  iintro ⟨Hx8, Hx9⟩
  first | iapply (wp_ret_bind c _ _ _) | skip
  -- layer 0: the piece for chunk 8, stored into slot 8 of P and sent back
  first | sl_exec | skip
  icases Hp8 with ⟨%fp8, Hp8⟩
  iapply (loadPany c (8 : Fin 16) fp8) $$ [Hp8]
  · iexact Hp8
  iintro Hp8
  first | iapply (wp_ret_bind c _ _ _) | skip
  first | sl_exec | skip
  iapply (storeP c (8 : Fin 16) _) $$ [Hp8]
  · iexists _; iexact Hp8
  iintro Hq8
  first | iapply (wp_ret_bind c _ _ _) | skip
  ihave Hp8 : pPts (F := F) c (8 : Fin 16) (pfill c (8 : Fin 16) (pieceAt m 0 c 8)) $$ [Hq8]
  · sl_unfold_run_names
    rw [store_P_0_8 m c]
    iexact Hq8
  first | sl_exec | skip
  iapply (step_RS_d m K c 7 (by decide) 0 (by decide) (cnt 15 0) _ (dev38_eq c)) $$ [HO Hrg7 Hdr7 Hp8 Hx8]
  · isplitr; · iexact HI
    isplitl [HO]; · iexact HO
    isplitl [Hrg7]; · iexact Hrg7
    isplitl [Hdr7]; · iexact Hdr7
    isplitl [Hp8]; · iexact Hp8
    (iexists _; iexact Hx8)
  iintro ⟨HO, Hrs7⟩
  first | iapply (wp_ret_bind c _ _ _) | skip
  -- layer 0: the piece for chunk 9, stored into slot 9 of P and sent back
  first | sl_exec | skip
  icases Hp9 with ⟨%fp9, Hp9⟩
  iapply (loadPany c (9 : Fin 16) fp9) $$ [Hp9]
  · iexact Hp9
  iintro Hp9
  first | iapply (wp_ret_bind c _ _ _) | skip
  first | sl_exec | skip
  iapply (storeP c (9 : Fin 16) _) $$ [Hp9]
  · iexists _; iexact Hp9
  iintro Hq9
  first | iapply (wp_ret_bind c _ _ _) | skip
  ihave Hp9 : pPts (F := F) c (9 : Fin 16) (pfill c (9 : Fin 16) (pieceAt m 0 c 9)) $$ [Hq9]
  · sl_unfold_run_names
    rw [store_P_0_9 m c]
    iexact Hq9
  first | sl_exec | skip
  iapply (step_RS_d m K c 8 (by decide) 0 (by decide) (cnt 15 0) _ (dev39_eq c)) $$ [HO Hrg8 Hdr8 Hp9 Hx9]
  · isplitr; · iexact HI
    isplitl [HO]; · iexact HO
    isplitl [Hrg8]; · iexact Hrg8
    isplitl [Hdr8]; · iexact Hdr8
    isplitl [Hp9]; · iexact Hp9
    (iexists _; iexact Hx9)
  iintro ⟨HO, Hrs8⟩
  first | iapply (wp_ret_bind c _ _ _) | skip
  -- layer 0: wait for chunk 10 (from the device 10 places before)
  first | sl_exec | skip
  iapply (step_AR m K c (9 : Fin 15) 0 (by decide) (cnt 15 0) (cnt 9 0) (lt_cnt_full 0) (lt_cnt 9 0)) $$ [HO Hrc9]
  · isplitr; · iexact HI
    isplitl [HO]; · iexact HO
    isplitr; · iexact Hlev
    iexact Hrc9
  iintro ⟨HO, Hrg9, Hpay⟩
  first | iapply (wp_ret_bind c _ _ _) | skip
  ihave Hpay' := (agRPay_open m c (9 : Fin 15) 0) $$ Hpay
  icases Hpay' with ⟨Hx10, Hdr9⟩
  -- layer 0: wait for chunk 11 (from the device 11 places before)
  first | sl_exec | skip
  iapply (step_AR m K c (10 : Fin 15) 0 (by decide) (cnt 15 0) (cnt 9 0) (lt_cnt_full 0) (lt_cnt 9 0)) $$ [HO Hrc10]
  · isplitr; · iexact HI
    isplitl [HO]; · iexact HO
    isplitr; · iexact Hlev
    iexact Hrc10
  iintro ⟨HO, Hrg10, Hpay⟩
  first | iapply (wp_ret_bind c _ _ _) | skip
  ihave Hpay' := (agRPay_open m c (10 : Fin 15) 0) $$ Hpay
  icases Hpay' with ⟨Hx11, Hdr10⟩
  -- layer 0, group 5: the two chunks read as one block of 512 rows
  first | sl_exec | skip
  iapply (loadX c (5 : Fin 8) 0 (chunkAt m 0 (bwd c 10)) (chunkAt m 0 (bwd c 11))) $$ [Hx10 Hx11]
  · isplitl [Hx10]; · iexact Hx10
    iexact Hx11
  iintro ⟨Hx10, Hx11⟩
  first | iapply (wp_ret_bind c _ _ _) | skip
  -- layer 0: the piece for chunk 10, stored into slot 10 of P and sent back
  first | sl_exec | skip
  icases Hp10 with ⟨%fp10, Hp10⟩
  iapply (loadPany c (10 : Fin 16) fp10) $$ [Hp10]
  · iexact Hp10
  iintro Hp10
  first | iapply (wp_ret_bind c _ _ _) | skip
  first | sl_exec | skip
  iapply (storeP c (10 : Fin 16) _) $$ [Hp10]
  · iexists _; iexact Hp10
  iintro Hq10
  first | iapply (wp_ret_bind c _ _ _) | skip
  ihave Hp10 : pPts (F := F) c (10 : Fin 16) (pfill c (10 : Fin 16) (pieceAt m 0 c 10)) $$ [Hq10]
  · sl_unfold_run_names
    rw [store_P_0_10 m c]
    iexact Hq10
  first | sl_exec | skip
  iapply (step_RS_d m K c 9 (by decide) 0 (by decide) (cnt 15 0) _ (dev40_eq c)) $$ [HO Hrg9 Hdr9 Hp10 Hx10]
  · isplitr; · iexact HI
    isplitl [HO]; · iexact HO
    isplitl [Hrg9]; · iexact Hrg9
    isplitl [Hdr9]; · iexact Hdr9
    isplitl [Hp10]; · iexact Hp10
    (iexists _; iexact Hx10)
  iintro ⟨HO, Hrs9⟩
  first | iapply (wp_ret_bind c _ _ _) | skip
  -- layer 0: the piece for chunk 11, stored into slot 11 of P and sent back
  first | sl_exec | skip
  icases Hp11 with ⟨%fp11, Hp11⟩
  iapply (loadPany c (11 : Fin 16) fp11) $$ [Hp11]
  · iexact Hp11
  iintro Hp11
  first | iapply (wp_ret_bind c _ _ _) | skip
  first | sl_exec | skip
  iapply (storeP c (11 : Fin 16) _) $$ [Hp11]
  · iexists _; iexact Hp11
  iintro Hq11
  first | iapply (wp_ret_bind c _ _ _) | skip
  ihave Hp11 : pPts (F := F) c (11 : Fin 16) (pfill c (11 : Fin 16) (pieceAt m 0 c 11)) $$ [Hq11]
  · sl_unfold_run_names
    first | rw [store_P_0_11' m c] | rw [store_P_0_11 m c]
    iexact Hq11
  first | sl_exec | skip
  iapply (step_RS_d m K c 10 (by decide) 0 (by decide) (cnt 15 0) _ (dev41_eq c)) $$ [HO Hrg10 Hdr10 Hp11 Hx11]
  · isplitr; · iexact HI
    isplitl [HO]; · iexact HO
    isplitl [Hrg10]; · iexact Hrg10
    isplitl [Hdr10]; · iexact Hdr10
    isplitl [Hp11]; · iexact Hp11
    (iexists _; iexact Hx11)
  iintro ⟨HO, Hrs10⟩
  first | iapply (wp_ret_bind c _ _ _) | skip
  -- layer 0: wait for chunk 12 (from the device 12 places before)
  first | sl_exec | skip
  iapply (step_AR m K c (11 : Fin 15) 0 (by decide) (cnt 15 0) (cnt 11 0) (lt_cnt_full 0) (lt_cnt 11 0)) $$ [HO Hrc11]
  · isplitr; · iexact HI
    isplitl [HO]; · iexact HO
    isplitr; · iexact Hlev
    iexact Hrc11
  iintro ⟨HO, Hrg11, Hpay⟩
  first | iapply (wp_ret_bind c _ _ _) | skip
  ihave Hpay' := (agRPay_open m c (11 : Fin 15) 0) $$ Hpay
  icases Hpay' with ⟨Hx12, Hdr11⟩
  -- layer 0: wait for chunk 13 (from the device 13 places before)
  first | sl_exec | skip
  iapply (step_AR m K c (12 : Fin 15) 0 (by decide) (cnt 15 0) (cnt 11 0) (lt_cnt_full 0) (lt_cnt 11 0)) $$ [HO Hrc12]
  · isplitr; · iexact HI
    isplitl [HO]; · iexact HO
    isplitr; · iexact Hlev
    iexact Hrc12
  iintro ⟨HO, Hrg12, Hpay⟩
  first | iapply (wp_ret_bind c _ _ _) | skip
  ihave Hpay' := (agRPay_open m c (12 : Fin 15) 0) $$ Hpay
  icases Hpay' with ⟨Hx13, Hdr12⟩
  -- layer 0, group 6: the two chunks read as one block of 512 rows
  first | sl_exec | skip
  iapply (loadX c (6 : Fin 8) 0 (chunkAt m 0 (bwd c 12)) (chunkAt m 0 (bwd c 13))) $$ [Hx12 Hx13]
  · isplitl [Hx12]; · iexact Hx12
    iexact Hx13
  iintro ⟨Hx12, Hx13⟩
  first | iapply (wp_ret_bind c _ _ _) | skip
  -- layer 0: the piece for chunk 12, stored into slot 12 of P and sent back
  first | sl_exec | skip
  icases Hp12 with ⟨%fp12, Hp12⟩
  iapply (loadPany c (12 : Fin 16) fp12) $$ [Hp12]
  · iexact Hp12
  iintro Hp12
  first | iapply (wp_ret_bind c _ _ _) | skip
  first | sl_exec | skip
  iapply (storeP c (12 : Fin 16) _) $$ [Hp12]
  · iexists _; iexact Hp12
  iintro Hq12
  first | iapply (wp_ret_bind c _ _ _) | skip
  ihave Hp12 : pPts (F := F) c (12 : Fin 16) (pfill c (12 : Fin 16) (pieceAt m 0 c 12)) $$ [Hq12]
  · sl_unfold_run_names
    first | rw [store_P_0_12' m c] | rw [store_P_0_12 m c]
    iexact Hq12
  first | sl_exec | skip
  iapply (step_RS_d m K c 11 (by decide) 0 (by decide) (cnt 15 0) _ (dev42_eq c)) $$ [HO Hrg11 Hdr11 Hp12 Hx12]
  · isplitr; · iexact HI
    isplitl [HO]; · iexact HO
    isplitl [Hrg11]; · iexact Hrg11
    isplitl [Hdr11]; · iexact Hdr11
    isplitl [Hp12]; · iexact Hp12
    (iexists _; iexact Hx12)
  iintro ⟨HO, Hrs11⟩
  first | iapply (wp_ret_bind c _ _ _) | skip
  -- layer 0: the piece for chunk 13, stored into slot 13 of P and sent back
  first | sl_exec | skip
  icases Hp13 with ⟨%fp13, Hp13⟩
  iapply (loadPany c (13 : Fin 16) fp13) $$ [Hp13]
  · iexact Hp13
  iintro Hp13
  first | iapply (wp_ret_bind c _ _ _) | skip
  first | sl_exec | skip
  iapply (storeP c (13 : Fin 16) _) $$ [Hp13]
  · iexists _; iexact Hp13
  iintro Hq13
  first | iapply (wp_ret_bind c _ _ _) | skip
  ihave Hp13 : pPts (F := F) c (13 : Fin 16) (pfill c (13 : Fin 16) (pieceAt m 0 c 13)) $$ [Hq13]
  · sl_unfold_run_names
    rw [store_P_0_13 m c]
    iexact Hq13
  first | sl_exec | skip
  iapply (step_RS_d m K c 12 (by decide) 0 (by decide) (cnt 15 0) _ (dev43_eq c)) $$ [HO Hrg12 Hdr12 Hp13 Hx13]
  · isplitr; · iexact HI
    isplitl [HO]; · iexact HO
    isplitl [Hrg12]; · iexact Hrg12
    isplitl [Hdr12]; · iexact Hdr12
    isplitl [Hp13]; · iexact Hp13
    (iexists _; iexact Hx13)
  iintro ⟨HO, Hrs12⟩
  first | iapply (wp_ret_bind c _ _ _) | skip
  -- layer 0: wait for chunk 14 (from the device 14 places before)
  first | sl_exec | skip
  iapply (step_AR m K c (13 : Fin 15) 0 (by decide) (cnt 15 0) (cnt 13 0) (lt_cnt_full 0) (lt_cnt 13 0)) $$ [HO Hrc13]
  · isplitr; · iexact HI
    isplitl [HO]; · iexact HO
    isplitr; · iexact Hlev
    iexact Hrc13
  iintro ⟨HO, Hrg13, Hpay⟩
  first | iapply (wp_ret_bind c _ _ _) | skip
  ihave Hpay' := (agRPay_open m c (13 : Fin 15) 0) $$ Hpay
  icases Hpay' with ⟨Hx14, Hdr13⟩
  -- layer 0: wait for chunk 15 (from the device 15 places before)
  first | sl_exec | skip
  iapply (step_AR m K c (14 : Fin 15) 0 (by decide) (cnt 15 0) (cnt 13 0) (lt_cnt_full 0) (lt_cnt 13 0)) $$ [HO Hrc14]
  · isplitr; · iexact HI
    isplitl [HO]; · iexact HO
    isplitr; · iexact Hlev
    iexact Hrc14
  iintro ⟨HO, Hrg14, Hpay⟩
  first | iapply (wp_ret_bind c _ _ _) | skip
  ihave Hpay' := (agRPay_open m c (14 : Fin 15) 0) $$ Hpay
  icases Hpay' with ⟨Hx15, Hdr14⟩
  -- layer 0, group 7: the two chunks read as one block of 512 rows
  first | sl_exec | skip
  iapply (loadX c (7 : Fin 8) 0 (chunkAt m 0 (bwd c 14)) (chunkAt m 0 (bwd c 15))) $$ [Hx14 Hx15]
  · isplitl [Hx14]; · iexact Hx14
    iexact Hx15
  iintro ⟨Hx14, Hx15⟩
  first | iapply (wp_ret_bind c _ _ _) | skip
  -- layer 0: the piece for chunk 14, stored into slot 14 of P and sent back
  first | sl_exec | skip
  icases Hp14 with ⟨%fp14, Hp14⟩
  iapply (loadPany c (14 : Fin 16) fp14) $$ [Hp14]
  · iexact Hp14
  iintro Hp14
  first | iapply (wp_ret_bind c _ _ _) | skip
  first | sl_exec | skip
  iapply (storeP c (14 : Fin 16) _) $$ [Hp14]
  · iexists _; iexact Hp14
  iintro Hq14
  first | iapply (wp_ret_bind c _ _ _) | skip
  ihave Hp14 : pPts (F := F) c (14 : Fin 16) (pfill c (14 : Fin 16) (pieceAt m 0 c 14)) $$ [Hq14]
  · sl_unfold_run_names
    rw [store_P_0_14 m c]
    iexact Hq14
  first | sl_exec | skip
  iapply (step_RS_d m K c 13 (by decide) 0 (by decide) (cnt 15 0) _ (dev44_eq c)) $$ [HO Hrg13 Hdr13 Hp14 Hx14]
  · isplitr; · iexact HI
    isplitl [HO]; · iexact HO
    isplitl [Hrg13]; · iexact Hrg13
    isplitl [Hdr13]; · iexact Hdr13
    isplitl [Hp14]; · iexact Hp14
    (iexists _; iexact Hx14)
  iintro ⟨HO, Hrs13⟩
  first | iapply (wp_ret_bind c _ _ _) | skip
  -- layer 0: the piece for chunk 15, stored into slot 15 of P and sent back
  first | sl_exec | skip
  icases Hp15 with ⟨%fp15, Hp15⟩
  iapply (loadPany c (15 : Fin 16) fp15) $$ [Hp15]
  · iexact Hp15
  iintro Hp15
  first | iapply (wp_ret_bind c _ _ _) | skip
  first | sl_exec | skip
  iapply (storeP c (15 : Fin 16) _) $$ [Hp15]
  · iexists _; iexact Hp15
  iintro Hq15
  first | iapply (wp_ret_bind c _ _ _) | skip
  ihave Hp15 : pPts (F := F) c (15 : Fin 16) (pfill c (15 : Fin 16) (pieceAt m 0 c 15)) $$ [Hq15]
  · sl_unfold_run_names
    rw [store_P_0_15 m c]
    iexact Hq15
  first | sl_exec | skip
  iapply (step_RS_d m K c 14 (by decide) 0 (by decide) (cnt 15 0) _ (dev45_eq c)) $$ [HO Hrg14 Hdr14 Hp15 Hx15]
  · isplitr; · iexact HI
    isplitl [HO]; · iexact HO
    isplitl [Hrg14]; · iexact Hrg14
    isplitl [Hdr14]; · iexact Hdr14
    isplitl [Hp15]; · iexact Hp15
    (iexists _; iexact Hx15)
  iintro ⟨HO, Hrs14⟩
  first | iapply (wp_ret_bind c _ _ _) | skip
  -- layer 0: the send side of chunk copy 1
  first | sl_exec | skip
  iapply (step_AW m K c (0 : Fin 15) 0 (by decide) (cnt 15 0) (cnt 15 0) (lt_cnt_full 0) (fun i => (lt_cnt_full 0 i).le)) $$ [HO Hss0]
  · isplitr; · iexact HI
    isplitl [HO]; · iexact HO
    isplitr; · iexact Hlev
    iexact Hss0
  iintro ⟨HO, Hsw0, Hl0⟩
  first | iapply (wp_ret_bind c _ _ _) | skip
  -- layer 0: the send side of chunk copy 2
  first | sl_exec | skip
  iapply (step_AW m K c (1 : Fin 15) 0 (by decide) (cnt 15 0) (cnt 15 0) (lt_cnt_full 0) (fun i => (lt_cnt_full 0 i).le)) $$ [HO Hss1]
  · isplitr; · iexact HI
    isplitl [HO]; · iexact HO
    isplitr; · iexact Hlev
    iexact Hss1
  iintro ⟨HO, Hsw1, Hl1⟩
  first | iapply (wp_ret_bind c _ _ _) | skip
  -- layer 0: the send side of chunk copy 3
  first | sl_exec | skip
  iapply (step_AW m K c (2 : Fin 15) 0 (by decide) (cnt 15 0) (cnt 15 0) (lt_cnt_full 0) (fun i => (lt_cnt_full 0 i).le)) $$ [HO Hss2]
  · isplitr; · iexact HI
    isplitl [HO]; · iexact HO
    isplitr; · iexact Hlev
    iexact Hss2
  iintro ⟨HO, Hsw2, Hl2⟩
  first | iapply (wp_ret_bind c _ _ _) | skip
  -- layer 0: the send side of chunk copy 4
  first | sl_exec | skip
  iapply (step_AW m K c (3 : Fin 15) 0 (by decide) (cnt 15 0) (cnt 15 0) (lt_cnt_full 0) (fun i => (lt_cnt_full 0 i).le)) $$ [HO Hss3]
  · isplitr; · iexact HI
    isplitl [HO]; · iexact HO
    isplitr; · iexact Hlev
    iexact Hss3
  iintro ⟨HO, Hsw3, Hl3⟩
  first | iapply (wp_ret_bind c _ _ _) | skip
  -- layer 0: the send side of chunk copy 5
  first | sl_exec | skip
  iapply (step_AW m K c (4 : Fin 15) 0 (by decide) (cnt 15 0) (cnt 15 0) (lt_cnt_full 0) (fun i => (lt_cnt_full 0 i).le)) $$ [HO Hss4]
  · isplitr; · iexact HI
    isplitl [HO]; · iexact HO
    isplitr; · iexact Hlev
    iexact Hss4
  iintro ⟨HO, Hsw4, Hl4⟩
  first | iapply (wp_ret_bind c _ _ _) | skip
  -- layer 0: the send side of chunk copy 6
  first | sl_exec | skip
  iapply (step_AW m K c (5 : Fin 15) 0 (by decide) (cnt 15 0) (cnt 15 0) (lt_cnt_full 0) (fun i => (lt_cnt_full 0 i).le)) $$ [HO Hss5]
  · isplitr; · iexact HI
    isplitl [HO]; · iexact HO
    isplitr; · iexact Hlev
    iexact Hss5
  iintro ⟨HO, Hsw5, Hl5⟩
  first | iapply (wp_ret_bind c _ _ _) | skip
  -- layer 0: the send side of chunk copy 7
  first | sl_exec | skip
  iapply (step_AW m K c (6 : Fin 15) 0 (by decide) (cnt 15 0) (cnt 15 0) (lt_cnt_full 0) (fun i => (lt_cnt_full 0 i).le)) $$ [HO Hss6]
  · isplitr; · iexact HI
    isplitl [HO]; · iexact HO
    isplitr; · iexact Hlev
    iexact Hss6
  iintro ⟨HO, Hsw6, Hl6⟩
  first | iapply (wp_ret_bind c _ _ _) | skip
  -- layer 0: the send side of chunk copy 8
  first | sl_exec | skip
  iapply (step_AW m K c (7 : Fin 15) 0 (by decide) (cnt 15 0) (cnt 15 0) (lt_cnt_full 0) (fun i => (lt_cnt_full 0 i).le)) $$ [HO Hss7]
  · isplitr; · iexact HI
    isplitl [HO]; · iexact HO
    isplitr; · iexact Hlev
    iexact Hss7
  iintro ⟨HO, Hsw7, Hl7⟩
  first | iapply (wp_ret_bind c _ _ _) | skip
  -- layer 0: the send side of chunk copy 9
  first | sl_exec | skip
  iapply (step_AW m K c (8 : Fin 15) 0 (by decide) (cnt 15 0) (cnt 15 0) (lt_cnt_full 0) (fun i => (lt_cnt_full 0 i).le)) $$ [HO Hss8]
  · isplitr; · iexact HI
    isplitl [HO]; · iexact HO
    isplitr; · iexact Hlev
    iexact Hss8
  iintro ⟨HO, Hsw8, Hl8⟩
  first | iapply (wp_ret_bind c _ _ _) | skip
  -- layer 0: the send side of chunk copy 10
  first | sl_exec | skip
  iapply (step_AW m K c (9 : Fin 15) 0 (by decide) (cnt 15 0) (cnt 15 0) (lt_cnt_full 0) (fun i => (lt_cnt_full 0 i).le)) $$ [HO Hss9]
  · isplitr; · iexact HI
    isplitl [HO]; · iexact HO
    isplitr; · iexact Hlev
    iexact Hss9
  iintro ⟨HO, Hsw9, Hl9⟩
  first | iapply (wp_ret_bind c _ _ _) | skip
  -- layer 0: the send side of chunk copy 11
  first | sl_exec | skip
  iapply (step_AW m K c (10 : Fin 15) 0 (by decide) (cnt 15 0) (cnt 15 0) (lt_cnt_full 0) (fun i => (lt_cnt_full 0 i).le)) $$ [HO Hss10]
  · isplitr; · iexact HI
    isplitl [HO]; · iexact HO
    isplitr; · iexact Hlev
    iexact Hss10
  iintro ⟨HO, Hsw10, Hl10⟩
  first | iapply (wp_ret_bind c _ _ _) | skip
  -- layer 0: the send side of chunk copy 12
  first | sl_exec | skip
  iapply (step_AW m K c (11 : Fin 15) 0 (by decide) (cnt 15 0) (cnt 15 0) (lt_cnt_full 0) (fun i => (lt_cnt_full 0 i).le)) $$ [HO Hss11]
  · isplitr; · iexact HI
    isplitl [HO]; · iexact HO
    isplitr; · iexact Hlev
    iexact Hss11
  iintro ⟨HO, Hsw11, Hl11⟩
  first | iapply (wp_ret_bind c _ _ _) | skip
  -- layer 0: the send side of chunk copy 13
  first | sl_exec | skip
  iapply (step_AW m K c (12 : Fin 15) 0 (by decide) (cnt 15 0) (cnt 15 0) (lt_cnt_full 0) (fun i => (lt_cnt_full 0 i).le)) $$ [HO Hss12]
  · isplitr; · iexact HI
    isplitl [HO]; · iexact HO
    isplitr; · iexact Hlev
    iexact Hss12
  iintro ⟨HO, Hsw12, Hl12⟩
  first | iapply (wp_ret_bind c _ _ _) | skip
  -- layer 0: the send side of chunk copy 14
  first | sl_exec | skip
  iapply (step_AW m K c (13 : Fin 15) 0 (by decide) (cnt 15 0) (cnt 15 0) (lt_cnt_full 0) (fun i => (lt_cnt_full 0 i).le)) $$ [HO Hss13]
  · isplitr; · iexact HI
    isplitl [HO]; · iexact HO
    isplitr; · iexact Hlev
    iexact Hss13
  iintro ⟨HO, Hsw13, Hl13⟩
  first | iapply (wp_ret_bind c _ _ _) | skip
  -- layer 0: the send side of chunk copy 15
  first | sl_exec | skip
  iapply (step_AW m K c (14 : Fin 15) 0 (by decide) (cnt 15 0) (cnt 15 0) (lt_cnt_full 0) (fun i => (lt_cnt_full 0 i).le)) $$ [HO Hss14]
  · isplitr; · iexact HI
    isplitl [HO]; · iexact HO
    isplitr; · iexact Hlev
    iexact Hss14
  iintro ⟨HO, Hsw14, Hl14⟩
  first | iapply (wp_ret_bind c _ _ _) | skip
  -- layer 0: wait for the piece of copy index 1 and read it
  first | sl_exec | skip
  iapply (step_RR m K c (0 : Fin 15) 0 (by decide) (cnt 15 0) (cnt 15 0) (lt_cnt_full 0) (lt_cnt_full 0)) $$ [HO Hsw0]
  · isplitr; · iexact HI
    isplitl [HO]; · iexact HO
    isplitr; · iexact Hlev
    iexact Hsw0
  iintro ⟨HO, Hsn0, Hpay⟩
  first | iapply (wp_ret_bind c _ _ _) | skip
  ihave Hpay' := (rsRPay_open m c (0 : Fin 15) 0 (by decide)) $$ Hpay
  icases Hpay' with ⟨Hr14, Hdx0⟩
  first | sl_exec | skip
  iapply (loadR c (14 : Fin 15) (pieceAt m 0 (fwd c 1) 1)) $$ [Hr14]
  · iexact Hr14
  iintro Hr14
  first | iapply (wp_ret_bind c _ _ _) | skip
  -- layer 0: wait for the piece of copy index 2 and read it
  first | sl_exec | skip
  iapply (step_RR m K c (1 : Fin 15) 0 (by decide) (cnt 15 0) (cnt 15 0) (lt_cnt_full 0) (lt_cnt_full 0)) $$ [HO Hsw1]
  · isplitr; · iexact HI
    isplitl [HO]; · iexact HO
    isplitr; · iexact Hlev
    iexact Hsw1
  iintro ⟨HO, Hsn1, Hpay⟩
  first | iapply (wp_ret_bind c _ _ _) | skip
  ihave Hpay' := (rsRPay_open m c (1 : Fin 15) 0 (by decide)) $$ Hpay
  icases Hpay' with ⟨Hr13, Hdx1⟩
  first | sl_exec | skip
  iapply (loadR c (13 : Fin 15) (pieceAt m 0 (fwd c 2) 2)) $$ [Hr13]
  · iexact Hr13
  iintro Hr13
  first | iapply (wp_ret_bind c _ _ _) | skip
  -- layer 0: wait for the piece of copy index 3 and read it
  first | sl_exec | skip
  iapply (step_RR m K c (2 : Fin 15) 0 (by decide) (cnt 15 0) (cnt 15 0) (lt_cnt_full 0) (lt_cnt_full 0)) $$ [HO Hsw2]
  · isplitr; · iexact HI
    isplitl [HO]; · iexact HO
    isplitr; · iexact Hlev
    iexact Hsw2
  iintro ⟨HO, Hsn2, Hpay⟩
  first | iapply (wp_ret_bind c _ _ _) | skip
  ihave Hpay' := (rsRPay_open m c (2 : Fin 15) 0 (by decide)) $$ Hpay
  icases Hpay' with ⟨Hr12, Hdx2⟩
  first | sl_exec | skip
  iapply (loadR c (12 : Fin 15) (pieceAt m 0 (fwd c 3) 3)) $$ [Hr12]
  · iexact Hr12
  iintro Hr12
  first | iapply (wp_ret_bind c _ _ _) | skip
  -- layer 0: wait for the piece of copy index 4 and read it
  first | sl_exec | skip
  iapply (step_RR m K c (3 : Fin 15) 0 (by decide) (cnt 15 0) (cnt 15 0) (lt_cnt_full 0) (lt_cnt_full 0)) $$ [HO Hsw3]
  · isplitr; · iexact HI
    isplitl [HO]; · iexact HO
    isplitr; · iexact Hlev
    iexact Hsw3
  iintro ⟨HO, Hsn3, Hpay⟩
  first | iapply (wp_ret_bind c _ _ _) | skip
  ihave Hpay' := (rsRPay_open m c (3 : Fin 15) 0 (by decide)) $$ Hpay
  icases Hpay' with ⟨Hr11, Hdx3⟩
  first | sl_exec | skip
  iapply (loadR c (11 : Fin 15) (pieceAt m 0 (fwd c 4) 4)) $$ [Hr11]
  · iexact Hr11
  iintro Hr11
  first | iapply (wp_ret_bind c _ _ _) | skip
  -- layer 0: wait for the piece of copy index 5 and read it
  first | sl_exec | skip
  iapply (step_RR m K c (4 : Fin 15) 0 (by decide) (cnt 15 0) (cnt 15 0) (lt_cnt_full 0) (lt_cnt_full 0)) $$ [HO Hsw4]
  · isplitr; · iexact HI
    isplitl [HO]; · iexact HO
    isplitr; · iexact Hlev
    iexact Hsw4
  iintro ⟨HO, Hsn4, Hpay⟩
  first | iapply (wp_ret_bind c _ _ _) | skip
  ihave Hpay' := (rsRPay_open m c (4 : Fin 15) 0 (by decide)) $$ Hpay
  icases Hpay' with ⟨Hr10, Hdx4⟩
  first | sl_exec | skip
  iapply (loadR c (10 : Fin 15) (pieceAt m 0 (fwd c 5) 5)) $$ [Hr10]
  · iexact Hr10
  iintro Hr10
  first | iapply (wp_ret_bind c _ _ _) | skip
  -- layer 0: wait for the piece of copy index 6 and read it
  first | sl_exec | skip
  iapply (step_RR m K c (5 : Fin 15) 0 (by decide) (cnt 15 0) (cnt 15 0) (lt_cnt_full 0) (lt_cnt_full 0)) $$ [HO Hsw5]
  · isplitr; · iexact HI
    isplitl [HO]; · iexact HO
    isplitr; · iexact Hlev
    iexact Hsw5
  iintro ⟨HO, Hsn5, Hpay⟩
  first | iapply (wp_ret_bind c _ _ _) | skip
  ihave Hpay' := (rsRPay_open m c (5 : Fin 15) 0 (by decide)) $$ Hpay
  icases Hpay' with ⟨Hr9, Hdx5⟩
  first | sl_exec | skip
  iapply (loadR c (9 : Fin 15) (pieceAt m 0 (fwd c 6) 6)) $$ [Hr9]
  · iexact Hr9
  iintro Hr9
  first | iapply (wp_ret_bind c _ _ _) | skip
  -- layer 0: wait for the piece of copy index 7 and read it
  first | sl_exec | skip
  iapply (step_RR m K c (6 : Fin 15) 0 (by decide) (cnt 15 0) (cnt 15 0) (lt_cnt_full 0) (lt_cnt_full 0)) $$ [HO Hsw6]
  · isplitr; · iexact HI
    isplitl [HO]; · iexact HO
    isplitr; · iexact Hlev
    iexact Hsw6
  iintro ⟨HO, Hsn6, Hpay⟩
  first | iapply (wp_ret_bind c _ _ _) | skip
  ihave Hpay' := (rsRPay_open m c (6 : Fin 15) 0 (by decide)) $$ Hpay
  icases Hpay' with ⟨Hr8, Hdx6⟩
  first | sl_exec | skip
  iapply (loadR c (8 : Fin 15) (pieceAt m 0 (fwd c 7) 7)) $$ [Hr8]
  · iexact Hr8
  iintro Hr8
  first | iapply (wp_ret_bind c _ _ _) | skip
  -- layer 0: wait for the piece of copy index 8 and read it
  first | sl_exec | skip
  iapply (step_RR m K c (7 : Fin 15) 0 (by decide) (cnt 15 0) (cnt 15 0) (lt_cnt_full 0) (lt_cnt_full 0)) $$ [HO Hsw7]
  · isplitr; · iexact HI
    isplitl [HO]; · iexact HO
    isplitr; · iexact Hlev
    iexact Hsw7
  iintro ⟨HO, Hsn7, Hpay⟩
  first | iapply (wp_ret_bind c _ _ _) | skip
  ihave Hpay' := (rsRPay_open m c (7 : Fin 15) 0 (by decide)) $$ Hpay
  icases Hpay' with ⟨Hr7, Hdx7⟩
  first | sl_exec | skip
  iapply (loadR c (7 : Fin 15) (pieceAt m 0 (fwd c 8) 8)) $$ [Hr7]
  · iexact Hr7
  iintro Hr7
  first | iapply (wp_ret_bind c _ _ _) | skip
  -- layer 0: wait for the piece of copy index 9 and read it
  first | sl_exec | skip
  iapply (step_RR m K c (8 : Fin 15) 0 (by decide) (cnt 15 0) (cnt 15 0) (lt_cnt_full 0) (lt_cnt_full 0)) $$ [HO Hsw8]
  · isplitr; · iexact HI
    isplitl [HO]; · iexact HO
    isplitr; · iexact Hlev
    iexact Hsw8
  iintro ⟨HO, Hsn8, Hpay⟩
  first | iapply (wp_ret_bind c _ _ _) | skip
  ihave Hpay' := (rsRPay_open m c (8 : Fin 15) 0 (by decide)) $$ Hpay
  icases Hpay' with ⟨Hr6, Hdx8⟩
  first | sl_exec | skip
  iapply (loadR c (6 : Fin 15) (pieceAt m 0 (fwd c 9) 9)) $$ [Hr6]
  · iexact Hr6
  iintro Hr6
  first | iapply (wp_ret_bind c _ _ _) | skip
  -- layer 0: wait for the piece of copy index 10 and read it
  first | sl_exec | skip
  iapply (step_RR m K c (9 : Fin 15) 0 (by decide) (cnt 15 0) (cnt 15 0) (lt_cnt_full 0) (lt_cnt_full 0)) $$ [HO Hsw9]
  · isplitr; · iexact HI
    isplitl [HO]; · iexact HO
    isplitr; · iexact Hlev
    iexact Hsw9
  iintro ⟨HO, Hsn9, Hpay⟩
  first | iapply (wp_ret_bind c _ _ _) | skip
  ihave Hpay' := (rsRPay_open m c (9 : Fin 15) 0 (by decide)) $$ Hpay
  icases Hpay' with ⟨Hr5, Hdx9⟩
  first | sl_exec | skip
  iapply (loadR c (5 : Fin 15) (pieceAt m 0 (fwd c 10) 10)) $$ [Hr5]
  · iexact Hr5
  iintro Hr5
  first | iapply (wp_ret_bind c _ _ _) | skip
  -- layer 0: wait for the piece of copy index 11 and read it
  first | sl_exec | skip
  iapply (step_RR m K c (10 : Fin 15) 0 (by decide) (cnt 15 0) (cnt 15 0) (lt_cnt_full 0) (lt_cnt_full 0)) $$ [HO Hsw10]
  · isplitr; · iexact HI
    isplitl [HO]; · iexact HO
    isplitr; · iexact Hlev
    iexact Hsw10
  iintro ⟨HO, Hsn10, Hpay⟩
  first | iapply (wp_ret_bind c _ _ _) | skip
  ihave Hpay' := (rsRPay_open m c (10 : Fin 15) 0 (by decide)) $$ Hpay
  icases Hpay' with ⟨Hr4, Hdx10⟩
  first | sl_exec | skip
  iapply (loadR c (4 : Fin 15) (pieceAt m 0 (fwd c 11) 11)) $$ [Hr4]
  · iexact Hr4
  iintro Hr4
  first | iapply (wp_ret_bind c _ _ _) | skip
  -- layer 0: wait for the piece of copy index 12 and read it
  first | sl_exec | skip
  iapply (step_RR m K c (11 : Fin 15) 0 (by decide) (cnt 15 0) (cnt 15 0) (lt_cnt_full 0) (lt_cnt_full 0)) $$ [HO Hsw11]
  · isplitr; · iexact HI
    isplitl [HO]; · iexact HO
    isplitr; · iexact Hlev
    iexact Hsw11
  iintro ⟨HO, Hsn11, Hpay⟩
  first | iapply (wp_ret_bind c _ _ _) | skip
  ihave Hpay' := (rsRPay_open m c (11 : Fin 15) 0 (by decide)) $$ Hpay
  icases Hpay' with ⟨Hr3, Hdx11⟩
  first | sl_exec | skip
  iapply (loadR c (3 : Fin 15) (pieceAt m 0 (fwd c 12) 12)) $$ [Hr3]
  · iexact Hr3
  iintro Hr3
  first | iapply (wp_ret_bind c _ _ _) | skip
  -- layer 0: wait for the piece of copy index 13 and read it
  first | sl_exec | skip
  iapply (step_RR m K c (12 : Fin 15) 0 (by decide) (cnt 15 0) (cnt 15 0) (lt_cnt_full 0) (lt_cnt_full 0)) $$ [HO Hsw12]
  · isplitr; · iexact HI
    isplitl [HO]; · iexact HO
    isplitr; · iexact Hlev
    iexact Hsw12
  iintro ⟨HO, Hsn12, Hpay⟩
  first | iapply (wp_ret_bind c _ _ _) | skip
  ihave Hpay' := (rsRPay_open m c (12 : Fin 15) 0 (by decide)) $$ Hpay
  icases Hpay' with ⟨Hr2, Hdx12⟩
  first | sl_exec | skip
  iapply (loadR c (2 : Fin 15) (pieceAt m 0 (fwd c 13) 13)) $$ [Hr2]
  · iexact Hr2
  iintro Hr2
  first | iapply (wp_ret_bind c _ _ _) | skip
  -- layer 0: wait for the piece of copy index 14 and read it
  first | sl_exec | skip
  iapply (step_RR m K c (13 : Fin 15) 0 (by decide) (cnt 15 0) (cnt 15 0) (lt_cnt_full 0) (lt_cnt_full 0)) $$ [HO Hsw13]
  · isplitr; · iexact HI
    isplitl [HO]; · iexact HO
    isplitr; · iexact Hlev
    iexact Hsw13
  iintro ⟨HO, Hsn13, Hpay⟩
  first | iapply (wp_ret_bind c _ _ _) | skip
  ihave Hpay' := (rsRPay_open m c (13 : Fin 15) 0 (by decide)) $$ Hpay
  icases Hpay' with ⟨Hr1, Hdx13⟩
  first | sl_exec | skip
  iapply (loadR c (1 : Fin 15) (pieceAt m 0 (fwd c 14) 14)) $$ [Hr1]
  · iexact Hr1
  iintro Hr1
  first | iapply (wp_ret_bind c _ _ _) | skip
  -- layer 0: wait for the piece of copy index 15 and read it
  first | sl_exec | skip
  iapply (step_RR m K c (14 : Fin 15) 0 (by decide) (cnt 15 0) (cnt 15 0) (lt_cnt_full 0) (lt_cnt_full 0)) $$ [HO Hsw14]
  · isplitr; · iexact HI
    isplitl [HO]; · iexact HO
    isplitr; · iexact Hlev
    iexact Hsw14
  iintro ⟨HO, Hsn14, Hpay⟩
  first | iapply (wp_ret_bind c _ _ _) | skip
  ihave Hpay' := (rsRPay_open m c (14 : Fin 15) 0 (by decide)) $$ Hpay
  icases Hpay' with ⟨Hr0, Hdx14⟩
  first | sl_exec | skip
  iapply (loadR c (0 : Fin 15) (pieceAt m 0 (fwd c 15) 15)) $$ [Hr0]
  · iexact Hr0
  iintro Hr0
  first | iapply (wp_ret_bind c _ _ _) | skip
  -- layer 0: the fifteen lent shares of slot 0 are back
  ihave Hx0' : xPts (F := F) c 0 fullShare (xfill c 0 (chunkAt m 0 c)) $$ [Hx0 Hl0 Hl1 Hl2 Hl3 Hl4 Hl5 Hl6 Hl7 Hl8 Hl9 Hl10 Hl11 Hl12 Hl13 Hl14]
  · unfold agSPay
    iapply (Exit.x_back15 c _)
    isplitl [Hx0]; · iexact Hx0
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    isplitl [Hl9]; · iexact Hl9
    isplitl [Hl10]; · iexact Hl10
    isplitl [Hl11]; · iexact Hl11
    isplitl [Hl12]; · iexact Hl12
    isplitl [Hl13]; · iexact Hl13
    iexact Hl14
  -- layer 0: the sum, cast, becomes the device's chunk of layer 1
  first | sl_exec | skip
  iapply (loadXany c 0 fullShare (xfill c 0 (chunkAt m 0 c))) $$ [Hx0']
  · iexact Hx0'
  iintro Hx0
  first | iapply (wp_ret_bind c _ _ _) | skip
  first | sl_exec | skip
  iapply (storeX c 0 _) $$ [Hx0]
  · iexists _; iexact Hx0
  iintro Hy0
  first | iapply (wp_ret_bind c _ _ _) | skip
  ihave Hx0 : xPts (F := F) c 0 fullShare (xfill c 0 (chunkAt m 1 c)) $$ [Hy0]
  · sl_unfold_run_names
    rw [store_X_0 m c]
    iexact Hy0
  ihave HO := (owes_next c 0 _) $$ HO
  -- chunk copy 1 of layer 1
  first | sl_exec | skip
  iapply (step_AS_d m K c 0 (by decide) 1 (by decide) _ _ (dev46_eq c)) $$ [HO Hsn0 Hdx0 Hx0 Hr14]
  · isplitr; · iexact HI
    isplitl [HO]; · iexact HO
    isplitl [Hsn0]; · iexact Hsn0
    isplitl [Hdx0]; · iexact Hdx0
    isplitl [Hx0]; · iexact Hx0
    (iexists _; iexact Hr14)
  iintro ⟨HO, Hss0, Hx0⟩
  first | iapply (wp_ret_bind c _ _ _) | skip
  -- chunk copy 2 of layer 1
  first | sl_exec | skip
  iapply (step_AS_d m K c 1 (by decide) 1 (by decide) _ _ (dev47_eq c)) $$ [HO Hsn1 Hdx1 Hx0 Hr13]
  · isplitr; · iexact HI
    isplitl [HO]; · iexact HO
    isplitl [Hsn1]; · iexact Hsn1
    isplitl [Hdx1]; · iexact Hdx1
    isplitl [Hx0]; · iexact Hx0
    (iexists _; iexact Hr13)
  iintro ⟨HO, Hss1, Hx0⟩
  first | iapply (wp_ret_bind c _ _ _) | skip
  -- chunk copy 3 of layer 1
  first | sl_exec | skip
  iapply (step_AS_d m K c 2 (by decide) 1 (by decide) _ _ (dev48_eq c)) $$ [HO Hsn2 Hdx2 Hx0 Hr12]
  · isplitr; · iexact HI
    isplitl [HO]; · iexact HO
    isplitl [Hsn2]; · iexact Hsn2
    isplitl [Hdx2]; · iexact Hdx2
    isplitl [Hx0]; · iexact Hx0
    (iexists _; iexact Hr12)
  iintro ⟨HO, Hss2, Hx0⟩
  first | iapply (wp_ret_bind c _ _ _) | skip
  -- chunk copy 4 of layer 1
  first | sl_exec | skip
  iapply (step_AS_d m K c 3 (by decide) 1 (by decide) _ _ (dev49_eq c)) $$ [HO Hsn3 Hdx3 Hx0 Hr11]
  · isplitr; · iexact HI
    isplitl [HO]; · iexact HO
    isplitl [Hsn3]; · iexact Hsn3
    isplitl [Hdx3]; · iexact Hdx3
    isplitl [Hx0]; · iexact Hx0
    (iexists _; iexact Hr11)
  iintro ⟨HO, Hss3, Hx0⟩
  first | iapply (wp_ret_bind c _ _ _) | skip
  -- chunk copy 5 of layer 1
  first | sl_exec | skip
  iapply (step_AS_d m K c 4 (by decide) 1 (by decide) _ _ (dev50_eq c)) $$ [HO Hsn4 Hdx4 Hx0 Hr10]
  · isplitr; · iexact HI
    isplitl [HO]; · iexact HO
    isplitl [Hsn4]; · iexact Hsn4
    isplitl [Hdx4]; · iexact Hdx4
    isplitl [Hx0]; · iexact Hx0
    (iexists _; iexact Hr10)
  iintro ⟨HO, Hss4, Hx0⟩
  first | iapply (wp_ret_bind c _ _ _) | skip
  -- chunk copy 6 of layer 1
  first | sl_exec | skip
  iapply (step_AS_d m K c 5 (by decide) 1 (by decide) _ _ (dev51_eq c)) $$ [HO Hsn5 Hdx5 Hx0 Hr9]
  · isplitr; · iexact HI
    isplitl [HO]; · iexact HO
    isplitl [Hsn5]; · iexact Hsn5
    isplitl [Hdx5]; · iexact Hdx5
    isplitl [Hx0]; · iexact Hx0
    (iexists _; iexact Hr9)
  iintro ⟨HO, Hss5, Hx0⟩
  first | iapply (wp_ret_bind c _ _ _) | skip
  -- chunk copy 7 of layer 1
  first | sl_exec | skip
  iapply (step_AS_d m K c 6 (by decide) 1 (by decide) _ _ (dev52_eq c)) $$ [HO Hsn6 Hdx6 Hx0 Hr8]
  · isplitr; · iexact HI
    isplitl [HO]; · iexact HO
    isplitl [Hsn6]; · iexact Hsn6
    isplitl [Hdx6]; · iexact Hdx6
    isplitl [Hx0]; · iexact Hx0
    (iexists _; iexact Hr8)
  iintro ⟨HO, Hss6, Hx0⟩
  first | iapply (wp_ret_bind c _ _ _) | skip
  -- chunk copy 8 of layer 1
  first | sl_exec | skip
  iapply (step_AS_d m K c 7 (by decide) 1 (by decide) _ _ (dev53_eq c)) $$ [HO Hsn7 Hdx7 Hx0 Hr7]
  · isplitr; · iexact HI
    isplitl [HO]; · iexact HO
    isplitl [Hsn7]; · iexact Hsn7
    isplitl [Hdx7]; · iexact Hdx7
    isplitl [Hx0]; · iexact Hx0
    (iexists _; iexact Hr7)
  iintro ⟨HO, Hss7, Hx0⟩
  first | iapply (wp_ret_bind c _ _ _) | skip
  -- chunk copy 9 of layer 1
  first | sl_exec | skip
  iapply (step_AS_d m K c 8 (by decide) 1 (by decide) _ _ (dev54_eq c)) $$ [HO Hsn8 Hdx8 Hx0 Hr6]
  · isplitr; · iexact HI
    isplitl [HO]; · iexact HO
    isplitl [Hsn8]; · iexact Hsn8
    isplitl [Hdx8]; · iexact Hdx8
    isplitl [Hx0]; · iexact Hx0
    (iexists _; iexact Hr6)
  iintro ⟨HO, Hss8, Hx0⟩
  first | iapply (wp_ret_bind c _ _ _) | skip
  -- chunk copy 10 of layer 1
  first | sl_exec | skip
  iapply (step_AS_d m K c 9 (by decide) 1 (by decide) _ _ (dev55_eq c)) $$ [HO Hsn9 Hdx9 Hx0 Hr5]
  · isplitr; · iexact HI
    isplitl [HO]; · iexact HO
    isplitl [Hsn9]; · iexact Hsn9
    isplitl [Hdx9]; · iexact Hdx9
    isplitl [Hx0]; · iexact Hx0
    (iexists _; iexact Hr5)
  iintro ⟨HO, Hss9, Hx0⟩
  first | iapply (wp_ret_bind c _ _ _) | skip
  -- chunk copy 11 of layer 1
  first | sl_exec | skip
  iapply (step_AS_d m K c 10 (by decide) 1 (by decide) _ _ (dev56_eq c)) $$ [HO Hsn10 Hdx10 Hx0 Hr4]
  · isplitr; · iexact HI
    isplitl [HO]; · iexact HO
    isplitl [Hsn10]; · iexact Hsn10
    isplitl [Hdx10]; · iexact Hdx10
    isplitl [Hx0]; · iexact Hx0
    (iexists _; iexact Hr4)
  iintro ⟨HO, Hss10, Hx0⟩
  first | iapply (wp_ret_bind c _ _ _) | skip
  -- chunk copy 12 of layer 1
  first | sl_exec | skip
  iapply (step_AS_d m K c 11 (by decide) 1 (by decide) _ _ (dev57_eq c)) $$ [HO Hsn11 Hdx11 Hx0 Hr3]
  · isplitr; · iexact HI
    isplitl [HO]; · iexact HO
    isplitl [Hsn11]; · iexact Hsn11
    isplitl [Hdx11]; · iexact Hdx11
    isplitl [Hx0]; · iexact Hx0
    (iexists _; iexact Hr3)
  iintro ⟨HO, Hss11, Hx0⟩
  first | iapply (wp_ret_bind c _ _ _) | skip
  -- chunk copy 13 of layer 1
  first | sl_exec | skip
  iapply (step_AS_d m K c 12 (by decide) 1 (by decide) _ _ (dev58_eq c)) $$ [HO Hsn12 Hdx12 Hx0 Hr2]
  · isplitr; · iexact HI
    isplitl [HO]; · iexact HO
    isplitl [Hsn12]; · iexact Hsn12
    isplitl [Hdx12]; · iexact Hdx12
    isplitl [Hx0]; · iexact Hx0
    (iexists _; iexact Hr2)
  iintro ⟨HO, Hss12, Hx0⟩
  first | iapply (wp_ret_bind c _ _ _) | skip
  -- chunk copy 14 of layer 1
  first | sl_exec | skip
  iapply (step_AS_d m K c 13 (by decide) 1 (by decide) _ _ (dev59_eq c)) $$ [HO Hsn13 Hdx13 Hx0 Hr1]
  · isplitr; · iexact HI
    isplitl [HO]; · iexact HO
    isplitl [Hsn13]; · iexact Hsn13
    isplitl [Hdx13]; · iexact Hdx13
    isplitl [Hx0]; · iexact Hx0
    (iexists _; iexact Hr1)
  iintro ⟨HO, Hss13, Hx0⟩
  first | iapply (wp_ret_bind c _ _ _) | skip
  -- chunk copy 15 of layer 1
  first | sl_exec | skip
  iapply (step_AS_d m K c 14 (by decide) 1 (by decide) _ _ (dev60_eq c)) $$ [HO Hsn14 Hdx14 Hx0 Hr0]
  · isplitr; · iexact HI
    isplitl [HO]; · iexact HO
    isplitl [Hsn14]; · iexact Hsn14
    isplitl [Hdx14]; · iexact Hdx14
    isplitl [Hx0]; · iexact Hx0
    (iexists _; iexact Hr0)
  iintro ⟨HO, Hss14, Hx0⟩
  first | iapply (wp_ret_bind c _ _ _) | skip
  -- layer 0: the send side of the piece copy for chunk 1
  first | sl_exec | skip
  iapply (step_RW m K c (0 : Fin 15) 0 (by decide) (cnt 15 1) (cnt 0 1) (fun i => Nat.lt_of_lt_of_le (Nat.lt_succ_self 0) (lt_cnt 15 1 i)) (lt_cnt_next 0 0)) $$ [HO Hrs0]
  · isplitr; · iexact HI
    isplitl [HO]; · iexact HO
    isplitr; · iexact Hlev
    iexact Hrs0
  iintro ⟨HO, Hrc0, Hpay⟩
  first | iapply (wp_ret_bind c _ _ _) | skip
  ihave Hp1 := (rsSPay_open m c (0 : Fin 15) 0) $$ Hpay
  -- layer 0: the send side of the piece copy for chunk 2
  first | sl_exec | skip
  iapply (step_RW m K c (1 : Fin 15) 0 (by decide) (cnt 15 1) (cnt 0 1) (fun i => Nat.lt_of_lt_of_le (Nat.lt_succ_self 0) (lt_cnt 15 1 i)) (lt_cnt_next 0 0)) $$ [HO Hrs1]
  · isplitr; · iexact HI
    isplitl [HO]; · iexact HO
    isplitr; · iexact Hlev
    iexact Hrs1
  iintro ⟨HO, Hrc1, Hpay⟩
  first | iapply (wp_ret_bind c _ _ _) | skip
  ihave Hp2 := (rsSPay_open m c (1 : Fin 15) 0) $$ Hpay
  -- layer 0: the send side of the piece copy for chunk 3
  first | sl_exec | skip
  iapply (step_RW m K c (2 : Fin 15) 0 (by decide) (cnt 15 1) (cnt 0 1) (fun i => Nat.lt_of_lt_of_le (Nat.lt_succ_self 0) (lt_cnt 15 1 i)) (lt_cnt_next 0 0)) $$ [HO Hrs2]
  · isplitr; · iexact HI
    isplitl [HO]; · iexact HO
    isplitr; · iexact Hlev
    iexact Hrs2
  iintro ⟨HO, Hrc2, Hpay⟩
  first | iapply (wp_ret_bind c _ _ _) | skip
  ihave Hp3 := (rsSPay_open m c (2 : Fin 15) 0) $$ Hpay
  -- layer 0: the send side of the piece copy for chunk 4
  first | sl_exec | skip
  iapply (step_RW m K c (3 : Fin 15) 0 (by decide) (cnt 15 1) (cnt 0 1) (fun i => Nat.lt_of_lt_of_le (Nat.lt_succ_self 0) (lt_cnt 15 1 i)) (lt_cnt_next 0 0)) $$ [HO Hrs3]
  · isplitr; · iexact HI
    isplitl [HO]; · iexact HO
    isplitr; · iexact Hlev
    iexact Hrs3
  iintro ⟨HO, Hrc3, Hpay⟩
  first | iapply (wp_ret_bind c _ _ _) | skip
  ihave Hp4 := (rsSPay_open m c (3 : Fin 15) 0) $$ Hpay
  -- layer 0: the send side of the piece copy for chunk 5
  first | sl_exec | skip
  iapply (step_RW m K c (4 : Fin 15) 0 (by decide) (cnt 15 1) (cnt 0 1) (fun i => Nat.lt_of_lt_of_le (Nat.lt_succ_self 0) (lt_cnt 15 1 i)) (lt_cnt_next 0 0)) $$ [HO Hrs4]
  · isplitr; · iexact HI
    isplitl [HO]; · iexact HO
    isplitr; · iexact Hlev
    iexact Hrs4
  iintro ⟨HO, Hrc4, Hpay⟩
  first | iapply (wp_ret_bind c _ _ _) | skip
  ihave Hp5 := (rsSPay_open m c (4 : Fin 15) 0) $$ Hpay
  -- layer 0: the send side of the piece copy for chunk 6
  first | sl_exec | skip
  iapply (step_RW m K c (5 : Fin 15) 0 (by decide) (cnt 15 1) (cnt 0 1) (fun i => Nat.lt_of_lt_of_le (Nat.lt_succ_self 0) (lt_cnt 15 1 i)) (lt_cnt_next 0 0)) $$ [HO Hrs5]
  · isplitr; · iexact HI
    isplitl [HO]; · iexact HO
    isplitr; · iexact Hlev
    iexact Hrs5
  iintro ⟨HO, Hrc5, Hpay⟩
  first | iapply (wp_ret_bind c _ _ _) | skip
  ihave Hp6 := (rsSPay_open m c (5 : Fin 15) 0) $$ Hpay
  -- layer 0: the send side of the piece copy for chunk 7
  first | sl_exec | skip
  iapply (step_RW m K c (6 : Fin 15) 0 (by decide) (cnt 15 1) (cnt 0 1) (fun i => Nat.lt_of_lt_of_le (Nat.lt_succ_self 0) (lt_cnt 15 1 i)) (lt_cnt_next 0 0)) $$ [HO Hrs6]
  · isplitr; · iexact HI
    isplitl [HO]; · iexact HO
    isplitr; · iexact Hlev
    iexact Hrs6
  iintro ⟨HO, Hrc6, Hpay⟩
  first | iapply (wp_ret_bind c _ _ _) | skip
  ihave Hp7 := (rsSPay_open m c (6 : Fin 15) 0) $$ Hpay
  -- layer 0: the send side of the piece copy for chunk 8
  first | sl_exec | skip
  iapply (step_RW m K c (7 : Fin 15) 0 (by decide) (cnt 15 1) (cnt 0 1) (fun i => Nat.lt_of_lt_of_le (Nat.lt_succ_self 0) (lt_cnt 15 1 i)) (lt_cnt_next 0 0)) $$ [HO Hrs7]
  · isplitr; · iexact HI
    isplitl [HO]; · iexact HO
    isplitr; · iexact Hlev
    iexact Hrs7
  iintro ⟨HO, Hrc7, Hpay⟩
  first | iapply (wp_ret_bind c _ _ _) | skip
  ihave Hp8 := (rsSPay_open m c (7 : Fin 15) 0) $$ Hpay
  -- layer 0: the send side of the piece copy for chunk 9
  first | sl_exec | skip
  iapply (step_RW m K c (8 : Fin 15) 0 (by decide) (cnt 15 1) (cnt 0 1) (fun i => Nat.lt_of_lt_of_le (Nat.lt_succ_self 0) (lt_cnt 15 1 i)) (lt_cnt_next 0 0)) $$ [HO Hrs8]
  · isplitr; · iexact HI
    isplitl [HO]; · iexact HO
    isplitr; · iexact Hlev
    iexact Hrs8
  iintro ⟨HO, Hrc8, Hpay⟩
  first | iapply (wp_ret_bind c _ _ _) | skip
  ihave Hp9 := (rsSPay_open m c (8 : Fin 15) 0) $$ Hpay
  -- layer 0: the send side of the piece copy for chunk 10
  first | sl_exec | skip
  iapply (step_RW m K c (9 : Fin 15) 0 (by decide) (cnt 15 1) (cnt 0 1) (fun i => Nat.lt_of_lt_of_le (Nat.lt_succ_self 0) (lt_cnt 15 1 i)) (lt_cnt_next 0 0)) $$ [HO Hrs9]
  · isplitr; · iexact HI
    isplitl [HO]; · iexact HO
    isplitr; · iexact Hlev
    iexact Hrs9
  iintro ⟨HO, Hrc9, Hpay⟩
  first | iapply (wp_ret_bind c _ _ _) | skip
  ihave Hp10 := (rsSPay_open m c (9 : Fin 15) 0) $$ Hpay
  -- layer 0: the send side of the piece copy for chunk 11
  first | sl_exec | skip
  iapply (step_RW m K c (10 : Fin 15) 0 (by decide) (cnt 15 1) (cnt 0 1) (fun i => Nat.lt_of_lt_of_le (Nat.lt_succ_self 0) (lt_cnt 15 1 i)) (lt_cnt_next 0 0)) $$ [HO Hrs10]
  · isplitr; · iexact HI
    isplitl [HO]; · iexact HO
    isplitr; · iexact Hlev
    iexact Hrs10
  iintro ⟨HO, Hrc10, Hpay⟩
  first | iapply (wp_ret_bind c _ _ _) | skip
  ihave Hp11 := (rsSPay_open m c (10 : Fin 15) 0) $$ Hpay
  -- layer 0: the send side of the piece copy for chunk 12
  first | sl_exec | skip
  iapply (step_RW m K c (11 : Fin 15) 0 (by decide) (cnt 15 1) (cnt 0 1) (fun i => Nat.lt_of_lt_of_le (Nat.lt_succ_self 0) (lt_cnt 15 1 i)) (lt_cnt_next 0 0)) $$ [HO Hrs11]
  · isplitr; · iexact HI
    isplitl [HO]; · iexact HO
    isplitr; · iexact Hlev
    iexact Hrs11
  iintro ⟨HO, Hrc11, Hpay⟩
  first | iapply (wp_ret_bind c _ _ _) | skip
  ihave Hp12 := (rsSPay_open m c (11 : Fin 15) 0) $$ Hpay
  -- layer 0: the send side of the piece copy for chunk 13
  first | sl_exec | skip
  iapply (step_RW m K c (12 : Fin 15) 0 (by decide) (cnt 15 1) (cnt 0 1) (fun i => Nat.lt_of_lt_of_le (Nat.lt_succ_self 0) (lt_cnt 15 1 i)) (lt_cnt_next 0 0)) $$ [HO Hrs12]
  · isplitr; · iexact HI
    isplitl [HO]; · iexact HO
    isplitr; · iexact Hlev
    iexact Hrs12
  iintro ⟨HO, Hrc12, Hpay⟩
  first | iapply (wp_ret_bind c _ _ _) | skip
  ihave Hp13 := (rsSPay_open m c (12 : Fin 15) 0) $$ Hpay
  -- layer 0: the send side of the piece copy for chunk 14
  first | sl_exec | skip
  iapply (step_RW m K c (13 : Fin 15) 0 (by decide) (cnt 15 1) (cnt 0 1) (fun i => Nat.lt_of_lt_of_le (Nat.lt_succ_self 0) (lt_cnt 15 1 i)) (lt_cnt_next 0 0)) $$ [HO Hrs13]
  · isplitr; · iexact HI
    isplitl [HO]; · iexact HO
    isplitr; · iexact Hlev
    iexact Hrs13
  iintro ⟨HO, Hrc13, Hpay⟩
  first | iapply (wp_ret_bind c _ _ _) | skip
  ihave Hp14 := (rsSPay_open m c (13 : Fin 15) 0) $$ Hpay
  -- layer 0: the send side of the piece copy for chunk 15
  first | sl_exec | skip
  iapply (step_RW m K c (14 : Fin 15) 0 (by decide) (cnt 15 1) (cnt 0 1) (fun i => Nat.lt_of_lt_of_le (Nat.lt_succ_self 0) (lt_cnt 15 1 i)) (lt_cnt_next 0 0)) $$ [HO Hrs14]
  · isplitr; · iexact HI
    isplitl [HO]; · iexact HO
    isplitr; · iexact Hlev
    iexact Hrs14
  iintro ⟨HO, Hrc14, Hpay⟩
  first | iapply (wp_ret_bind c _ _ _) | skip
  ihave Hp15 := (rsSPay_open m c (14 : Fin 15) 0) $$ Hpay
  -- layer 1: the device's weight blocks
  first | sl_exec | skip
  iapply (loadStg3 c (argWi m 1 c)) $$ [Hw3']
  · iexact Hw3'
  iintro Hw3'
  first | iapply (wp_ret_bind c _ _ _) | skip
  first | sl_exec | skip
  iapply (loadStg4 c (argWo m 1 c)) $$ [Hw4']
  · iexact Hw4'
  iintro Hw4'
  first | iapply (wp_ret_bind c _ _ _) | skip
  -- layer 1: wait for chunk 1 (from the device 1 places before)
  first | sl_exec | skip
  iapply (step_AR m K c (0 : Fin 15) 1 (by decide) (cnt 15 1) (cnt 0 1) (lt_cnt_full 1) (lt_cnt 0 1)) $$ [HO Hrc0]
  · isplitr; · iexact HI
    isplitl [HO]; · iexact HO
    isplitr; · iexact Hlev
    iexact Hrc0
  iintro ⟨HO, Hrg0, Hpay⟩
  first | iapply (wp_ret_bind c _ _ _) | skip
  ihave Hpay' := (agRPay_open m c (0 : Fin 15) 1) $$ Hpay
  icases Hpay' with ⟨Hx1, Hdr0⟩
  -- layer 1, group 0: the two chunks read as one block of 512 rows
  first | sl_exec | skip
  iapply (loadX c (0 : Fin 8) 15 (chunkAt m 1 c) (chunkAt m 1 (bwd c 1))) $$ [Hx0 Hx1]
  · isplitl [Hx0]; · iexact Hx0
    iexact Hx1
  iintro ⟨Hx0, Hx1⟩
  first | iapply (wp_ret_bind c _ _ _) | skip
  -- layer 1: the piece for chunk 1, stored into slot 1 of P and sent back
  first | sl_exec | skip
  iapply (loadPany c (1 : Fin 16) (pfill c (1 : Fin 16) (pieceAt m 0 c 1))) $$ [Hp1]
  · iexact Hp1
  iintro Hp1
  first | iapply (wp_ret_bind c _ _ _) | skip
  first | sl_exec | skip
  iapply (storeP c (1 : Fin 16) _) $$ [Hp1]
  · iexists _; iexact Hp1
  iintro Hq1
  first | iapply (wp_ret_bind c _ _ _) | skip
  ihave Hp1 : pPts (F := F) c (1 : Fin 16) (pfill c (1 : Fin 16) (pieceAt m 1 c 1)) $$ [Hq1]
  · sl_unfold_run_names
    rw [store_P_1_1 m c]
    iexact Hq1
  first | sl_exec | skip
  iapply (step_RS_d m K c 0 (by decide) 1 (by decide) (cnt 15 1) _ (dev61_eq c)) $$ [HO Hrg0 Hdr0 Hp1 Hx1]
  · isplitr; · iexact HI
    isplitl [HO]; · iexact HO
    isplitl [Hrg0]; · iexact Hrg0
    isplitl [Hdr0]; · iexact Hdr0
    isplitl [Hp1]; · iexact Hp1
    (iexists _; iexact Hx1)
  iintro ⟨HO, Hrs0⟩
  first | iapply (wp_ret_bind c _ _ _) | skip
  -- layer 1: wait for chunk 2 (from the device 2 places before)
  first | sl_exec | skip
  iapply (step_AR m K c (1 : Fin 15) 1 (by decide) (cnt 15 1) (cnt 1 1) (lt_cnt_full 1) (lt_cnt 1 1)) $$ [HO Hrc1]
  · isplitr; · iexact HI
    isplitl [HO]; · iexact HO
    isplitr; · iexact Hlev
    iexact Hrc1
  iintro ⟨HO, Hrg1, Hpay⟩
  first | iapply (wp_ret_bind c _ _ _) | skip
  ihave Hpay' := (agRPay_open m c (1 : Fin 15) 1) $$ Hpay
  icases Hpay' with ⟨Hx2, Hdr1⟩
  -- layer 1: wait for chunk 3 (from the device 3 places before)
  first | sl_exec | skip
  iapply (step_AR m K c (2 : Fin 15) 1 (by decide) (cnt 15 1) (cnt 1 1) (lt_cnt_full 1) (lt_cnt 1 1)) $$ [HO Hrc2]
  · isplitr; · iexact HI
    isplitl [HO]; · iexact HO
    isplitr; · iexact Hlev
    iexact Hrc2
  iintro ⟨HO, Hrg2, Hpay⟩
  first | iapply (wp_ret_bind c _ _ _) | skip
  ihave Hpay' := (agRPay_open m c (2 : Fin 15) 1) $$ Hpay
  icases Hpay' with ⟨Hx3, Hdr2⟩
  -- layer 1, group 1: the two chunks read as one block of 512 rows
  first | sl_exec | skip
  iapply (loadX c (1 : Fin 8) 0 (chunkAt m 1 (bwd c 2)) (chunkAt m 1 (bwd c 3))) $$ [Hx2 Hx3]
  · isplitl [Hx2]; · iexact Hx2
    iexact Hx3
  iintro ⟨Hx2, Hx3⟩
  first | iapply (wp_ret_bind c _ _ _) | skip
  -- layer 1: the piece for chunk 2, stored into slot 2 of P and sent back
  first | sl_exec | skip
  iapply (loadPany c (2 : Fin 16) (pfill c (2 : Fin 16) (pieceAt m 0 c 2))) $$ [Hp2]
  · iexact Hp2
  iintro Hp2
  first | iapply (wp_ret_bind c _ _ _) | skip
  first | sl_exec | skip
  iapply (storeP c (2 : Fin 16) _) $$ [Hp2]
  · iexists _; iexact Hp2
  iintro Hq2
  first | iapply (wp_ret_bind c _ _ _) | skip
  ihave Hp2 : pPts (F := F) c (2 : Fin 16) (pfill c (2 : Fin 16) (pieceAt m 1 c 2)) $$ [Hq2]
  · sl_unfold_run_names
    rw [store_P_1_2 m c]
    iexact Hq2
  first | sl_exec | skip
  iapply (step_RS_d m K c 1 (by decide) 1 (by decide) (cnt 15 1) _ (dev62_eq c)) $$ [HO Hrg1 Hdr1 Hp2 Hx2]
  · isplitr; · iexact HI
    isplitl [HO]; · iexact HO
    isplitl [Hrg1]; · iexact Hrg1
    isplitl [Hdr1]; · iexact Hdr1
    isplitl [Hp2]; · iexact Hp2
    (iexists _; iexact Hx2)
  iintro ⟨HO, Hrs1⟩
  first | iapply (wp_ret_bind c _ _ _) | skip
  -- layer 1: the piece for chunk 3, stored into slot 3 of P and sent back
  first | sl_exec | skip
  iapply (loadPany c (3 : Fin 16) (pfill c (3 : Fin 16) (pieceAt m 0 c 3))) $$ [Hp3]
  · iexact Hp3
  iintro Hp3
  first | iapply (wp_ret_bind c _ _ _) | skip
  first | sl_exec | skip
  iapply (storeP c (3 : Fin 16) _) $$ [Hp3]
  · iexists _; iexact Hp3
  iintro Hq3
  first | iapply (wp_ret_bind c _ _ _) | skip
  ihave Hp3 : pPts (F := F) c (3 : Fin 16) (pfill c (3 : Fin 16) (pieceAt m 1 c 3)) $$ [Hq3]
  · sl_unfold_run_names
    rw [store_P_1_3 m c]
    iexact Hq3
  first | sl_exec | skip
  iapply (step_RS_d m K c 2 (by decide) 1 (by decide) (cnt 15 1) _ (dev63_eq c)) $$ [HO Hrg2 Hdr2 Hp3 Hx3]
  · isplitr; · iexact HI
    isplitl [HO]; · iexact HO
    isplitl [Hrg2]; · iexact Hrg2
    isplitl [Hdr2]; · iexact Hdr2
    isplitl [Hp3]; · iexact Hp3
    (iexists _; iexact Hx3)
  iintro ⟨HO, Hrs2⟩
  first | iapply (wp_ret_bind c _ _ _) | skip
  -- layer 1: wait for chunk 4 (from the device 4 places before)
  first | sl_exec | skip
  iapply (step_AR m K c (3 : Fin 15) 1 (by decide) (cnt 15 1) (cnt 3 1) (lt_cnt_full 1) (lt_cnt 3 1)) $$ [HO Hrc3]
  · isplitr; · iexact HI
    isplitl [HO]; · iexact HO
    isplitr; · iexact Hlev
    iexact Hrc3
  iintro ⟨HO, Hrg3, Hpay⟩
  first | iapply (wp_ret_bind c _ _ _) | skip
  ihave Hpay' := (agRPay_open m c (3 : Fin 15) 1) $$ Hpay
  icases Hpay' with ⟨Hx4, Hdr3⟩
  -- layer 1: wait for chunk 5 (from the device 5 places before)
  first | sl_exec | skip
  iapply (step_AR m K c (4 : Fin 15) 1 (by decide) (cnt 15 1) (cnt 3 1) (lt_cnt_full 1) (lt_cnt 3 1)) $$ [HO Hrc4]
  · isplitr; · iexact HI
    isplitl [HO]; · iexact HO
    isplitr; · iexact Hlev
    iexact Hrc4
  iintro ⟨HO, Hrg4, Hpay⟩
  first | iapply (wp_ret_bind c _ _ _) | skip
  ihave Hpay' := (agRPay_open m c (4 : Fin 15) 1) $$ Hpay
  icases Hpay' with ⟨Hx5, Hdr4⟩
  -- layer 1, group 2: the two chunks read as one block of 512 rows
  first | sl_exec | skip
  iapply (loadX c (2 : Fin 8) 0 (chunkAt m 1 (bwd c 4)) (chunkAt m 1 (bwd c 5))) $$ [Hx4 Hx5]
  · isplitl [Hx4]; · iexact Hx4
    iexact Hx5
  iintro ⟨Hx4, Hx5⟩
  first | iapply (wp_ret_bind c _ _ _) | skip
  -- layer 1: the piece for chunk 4, stored into slot 4 of P and sent back
  first | sl_exec | skip
  iapply (loadPany c (4 : Fin 16) (pfill c (4 : Fin 16) (pieceAt m 0 c 4))) $$ [Hp4]
  · iexact Hp4
  iintro Hp4
  first | iapply (wp_ret_bind c _ _ _) | skip
  first | sl_exec | skip
  iapply (storeP c (4 : Fin 16) _) $$ [Hp4]
  · iexists _; iexact Hp4
  iintro Hq4
  first | iapply (wp_ret_bind c _ _ _) | skip
  ihave Hp4 : pPts (F := F) c (4 : Fin 16) (pfill c (4 : Fin 16) (pieceAt m 1 c 4)) $$ [Hq4]
  · sl_unfold_run_names
    rw [store_P_1_4 m c]
    iexact Hq4
  first | sl_exec | skip
  iapply (step_RS_d m K c 3 (by decide) 1 (by decide) (cnt 15 1) _ (dev64_eq c)) $$ [HO Hrg3 Hdr3 Hp4 Hx4]
  · isplitr; · iexact HI
    isplitl [HO]; · iexact HO
    isplitl [Hrg3]; · iexact Hrg3
    isplitl [Hdr3]; · iexact Hdr3
    isplitl [Hp4]; · iexact Hp4
    (iexists _; iexact Hx4)
  iintro ⟨HO, Hrs3⟩
  first | iapply (wp_ret_bind c _ _ _) | skip
  -- layer 1: the piece for chunk 5, stored into slot 5 of P and sent back
  first | sl_exec | skip
  iapply (loadPany c (5 : Fin 16) (pfill c (5 : Fin 16) (pieceAt m 0 c 5))) $$ [Hp5]
  · iexact Hp5
  iintro Hp5
  first | iapply (wp_ret_bind c _ _ _) | skip
  first | sl_exec | skip
  iapply (storeP c (5 : Fin 16) _) $$ [Hp5]
  · iexists _; iexact Hp5
  iintro Hq5
  first | iapply (wp_ret_bind c _ _ _) | skip
  ihave Hp5 : pPts (F := F) c (5 : Fin 16) (pfill c (5 : Fin 16) (pieceAt m 1 c 5)) $$ [Hq5]
  · sl_unfold_run_names
    rw [store_P_1_5 m c]
    iexact Hq5
  first | sl_exec | skip
  iapply (step_RS_d m K c 4 (by decide) 1 (by decide) (cnt 15 1) _ (dev65_eq c)) $$ [HO Hrg4 Hdr4 Hp5 Hx5]
  · isplitr; · iexact HI
    isplitl [HO]; · iexact HO
    isplitl [Hrg4]; · iexact Hrg4
    isplitl [Hdr4]; · iexact Hdr4
    isplitl [Hp5]; · iexact Hp5
    (iexists _; iexact Hx5)
  iintro ⟨HO, Hrs4⟩
  first | iapply (wp_ret_bind c _ _ _) | skip
  -- layer 1: wait for chunk 6 (from the device 6 places before)
  first | sl_exec | skip
  iapply (step_AR m K c (5 : Fin 15) 1 (by decide) (cnt 15 1) (cnt 5 1) (lt_cnt_full 1) (lt_cnt 5 1)) $$ [HO Hrc5]
  · isplitr; · iexact HI
    isplitl [HO]; · iexact HO
    isplitr; · iexact Hlev
    iexact Hrc5
  iintro ⟨HO, Hrg5, Hpay⟩
  first | iapply (wp_ret_bind c _ _ _) | skip
  ihave Hpay' := (agRPay_open m c (5 : Fin 15) 1) $$ Hpay
  icases Hpay' with ⟨Hx6, Hdr5⟩
  -- layer 1: wait for chunk 7 (from the device 7 places before)
  first | sl_exec | skip
  iapply (step_AR m K c (6 : Fin 15) 1 (by decide) (cnt 15 1) (cnt 5 1) (lt_cnt_full 1) (lt_cnt 5 1)) $$ [HO Hrc6]
  · isplitr; · iexact HI
    isplitl [HO]; · iexact HO
    isplitr; · iexact Hlev
    iexact Hrc6
  iintro ⟨HO, Hrg6, Hpay⟩
  first | iapply (wp_ret_bind c _ _ _) | skip
  ihave Hpay' := (agRPay_open m c (6 : Fin 15) 1) $$ Hpay
  icases Hpay' with ⟨Hx7, Hdr6⟩
  -- layer 1, group 3: the two chunks read as one block of 512 rows
  first | sl_exec | skip
  iapply (loadX c (3 : Fin 8) 0 (chunkAt m 1 (bwd c 6)) (chunkAt m 1 (bwd c 7))) $$ [Hx6 Hx7]
  · isplitl [Hx6]; · iexact Hx6
    iexact Hx7
  iintro ⟨Hx6, Hx7⟩
  first | iapply (wp_ret_bind c _ _ _) | skip
  -- layer 1: the piece for chunk 6, stored into slot 6 of P and sent back
  first | sl_exec | skip
  iapply (loadPany c (6 : Fin 16) (pfill c (6 : Fin 16) (pieceAt m 0 c 6))) $$ [Hp6]
  · iexact Hp6
  iintro Hp6
  first | iapply (wp_ret_bind c _ _ _) | skip
  first | sl_exec | skip
  iapply (storeP c (6 : Fin 16) _) $$ [Hp6]
  · iexists _; iexact Hp6
  iintro Hq6
  first | iapply (wp_ret_bind c _ _ _) | skip
  ihave Hp6 : pPts (F := F) c (6 : Fin 16) (pfill c (6 : Fin 16) (pieceAt m 1 c 6)) $$ [Hq6]
  · sl_unfold_run_names
    rw [store_P_1_6 m c]
    iexact Hq6
  first | sl_exec | skip
  iapply (step_RS_d m K c 5 (by decide) 1 (by decide) (cnt 15 1) _ (dev66_eq c)) $$ [HO Hrg5 Hdr5 Hp6 Hx6]
  · isplitr; · iexact HI
    isplitl [HO]; · iexact HO
    isplitl [Hrg5]; · iexact Hrg5
    isplitl [Hdr5]; · iexact Hdr5
    isplitl [Hp6]; · iexact Hp6
    (iexists _; iexact Hx6)
  iintro ⟨HO, Hrs5⟩
  first | iapply (wp_ret_bind c _ _ _) | skip
  -- layer 1: the piece for chunk 7, stored into slot 7 of P and sent back
  first | sl_exec | skip
  iapply (loadPany c (7 : Fin 16) (pfill c (7 : Fin 16) (pieceAt m 0 c 7))) $$ [Hp7]
  · iexact Hp7
  iintro Hp7
  first | iapply (wp_ret_bind c _ _ _) | skip
  first | sl_exec | skip
  iapply (storeP c (7 : Fin 16) _) $$ [Hp7]
  · iexists _; iexact Hp7
  iintro Hq7
  first | iapply (wp_ret_bind c _ _ _) | skip
  ihave Hp7 : pPts (F := F) c (7 : Fin 16) (pfill c (7 : Fin 16) (pieceAt m 1 c 7)) $$ [Hq7]
  · sl_unfold_run_names
    rw [store_P_1_7 m c]
    iexact Hq7
  first | sl_exec | skip
  iapply (step_RS_d m K c 6 (by decide) 1 (by decide) (cnt 15 1) _ (dev67_eq c)) $$ [HO Hrg6 Hdr6 Hp7 Hx7]
  · isplitr; · iexact HI
    isplitl [HO]; · iexact HO
    isplitl [Hrg6]; · iexact Hrg6
    isplitl [Hdr6]; · iexact Hdr6
    isplitl [Hp7]; · iexact Hp7
    (iexists _; iexact Hx7)
  iintro ⟨HO, Hrs6⟩
  first | iapply (wp_ret_bind c _ _ _) | skip
  -- layer 1: wait for chunk 8 (from the device 8 places before)
  first | sl_exec | skip
  iapply (step_AR m K c (7 : Fin 15) 1 (by decide) (cnt 15 1) (cnt 7 1) (lt_cnt_full 1) (lt_cnt 7 1)) $$ [HO Hrc7]
  · isplitr; · iexact HI
    isplitl [HO]; · iexact HO
    isplitr; · iexact Hlev
    iexact Hrc7
  iintro ⟨HO, Hrg7, Hpay⟩
  first | iapply (wp_ret_bind c _ _ _) | skip
  ihave Hpay' := (agRPay_open m c (7 : Fin 15) 1) $$ Hpay
  icases Hpay' with ⟨Hx8, Hdr7⟩
  -- layer 1: wait for chunk 9 (from the device 9 places before)
  first | sl_exec | skip
  iapply (step_AR m K c (8 : Fin 15) 1 (by decide) (cnt 15 1) (cnt 7 1) (lt_cnt_full 1) (lt_cnt 7 1)) $$ [HO Hrc8]
  · isplitr; · iexact HI
    isplitl [HO]; · iexact HO
    isplitr; · iexact Hlev
    iexact Hrc8
  iintro ⟨HO, Hrg8, Hpay⟩
  first | iapply (wp_ret_bind c _ _ _) | skip
  ihave Hpay' := (agRPay_open m c (8 : Fin 15) 1) $$ Hpay
  icases Hpay' with ⟨Hx9, Hdr8⟩
  -- layer 1, group 4: the two chunks read as one block of 512 rows
  first | sl_exec | skip
  iapply (loadX c (4 : Fin 8) 0 (chunkAt m 1 (bwd c 8)) (chunkAt m 1 (bwd c 9))) $$ [Hx8 Hx9]
  · isplitl [Hx8]; · iexact Hx8
    iexact Hx9
  iintro ⟨Hx8, Hx9⟩
  first | iapply (wp_ret_bind c _ _ _) | skip
  -- layer 1: the piece for chunk 8, stored into slot 8 of P and sent back
  first | sl_exec | skip
  iapply (loadPany c (8 : Fin 16) (pfill c (8 : Fin 16) (pieceAt m 0 c 8))) $$ [Hp8]
  · iexact Hp8
  iintro Hp8
  first | iapply (wp_ret_bind c _ _ _) | skip
  first | sl_exec | skip
  iapply (storeP c (8 : Fin 16) _) $$ [Hp8]
  · iexists _; iexact Hp8
  iintro Hq8
  first | iapply (wp_ret_bind c _ _ _) | skip
  ihave Hp8 : pPts (F := F) c (8 : Fin 16) (pfill c (8 : Fin 16) (pieceAt m 1 c 8)) $$ [Hq8]
  · sl_unfold_run_names
    first | rw [store_P_1_8' m c] | rw [store_P_1_8 m c]
    iexact Hq8
  first | sl_exec | skip
  iapply (step_RS_d m K c 7 (by decide) 1 (by decide) (cnt 15 1) _ (dev68_eq c)) $$ [HO Hrg7 Hdr7 Hp8 Hx8]
  · isplitr; · iexact HI
    isplitl [HO]; · iexact HO
    isplitl [Hrg7]; · iexact Hrg7
    isplitl [Hdr7]; · iexact Hdr7
    isplitl [Hp8]; · iexact Hp8
    (iexists _; iexact Hx8)
  iintro ⟨HO, Hrs7⟩
  first | iapply (wp_ret_bind c _ _ _) | skip
  -- layer 1: the piece for chunk 9, stored into slot 9 of P and sent back
  first | sl_exec | skip
  iapply (loadPany c (9 : Fin 16) (pfill c (9 : Fin 16) (pieceAt m 0 c 9))) $$ [Hp9]
  · iexact Hp9
  iintro Hp9
  first | iapply (wp_ret_bind c _ _ _) | skip
  first | sl_exec | skip
  iapply (storeP c (9 : Fin 16) _) $$ [Hp9]
  · iexists _; iexact Hp9
  iintro Hq9
  first | iapply (wp_ret_bind c _ _ _) | skip
  ihave Hp9 : pPts (F := F) c (9 : Fin 16) (pfill c (9 : Fin 16) (pieceAt m 1 c 9)) $$ [Hq9]
  · sl_unfold_run_names
    rw [store_P_1_9 m c]
    iexact Hq9
  first | sl_exec | skip
  iapply (step_RS_d m K c 8 (by decide) 1 (by decide) (cnt 15 1) _ (dev69_eq c)) $$ [HO Hrg8 Hdr8 Hp9 Hx9]
  · isplitr; · iexact HI
    isplitl [HO]; · iexact HO
    isplitl [Hrg8]; · iexact Hrg8
    isplitl [Hdr8]; · iexact Hdr8
    isplitl [Hp9]; · iexact Hp9
    (iexists _; iexact Hx9)
  iintro ⟨HO, Hrs8⟩
  first | iapply (wp_ret_bind c _ _ _) | skip
  -- layer 1: wait for chunk 10 (from the device 10 places before)
  first | sl_exec | skip
  iapply (step_AR m K c (9 : Fin 15) 1 (by decide) (cnt 15 1) (cnt 9 1) (lt_cnt_full 1) (lt_cnt 9 1)) $$ [HO Hrc9]
  · isplitr; · iexact HI
    isplitl [HO]; · iexact HO
    isplitr; · iexact Hlev
    iexact Hrc9
  iintro ⟨HO, Hrg9, Hpay⟩
  first | iapply (wp_ret_bind c _ _ _) | skip
  ihave Hpay' := (agRPay_open m c (9 : Fin 15) 1) $$ Hpay
  icases Hpay' with ⟨Hx10, Hdr9⟩
  -- layer 1: wait for chunk 11 (from the device 11 places before)
  first | sl_exec | skip
  iapply (step_AR m K c (10 : Fin 15) 1 (by decide) (cnt 15 1) (cnt 9 1) (lt_cnt_full 1) (lt_cnt 9 1)) $$ [HO Hrc10]
  · isplitr; · iexact HI
    isplitl [HO]; · iexact HO
    isplitr; · iexact Hlev
    iexact Hrc10
  iintro ⟨HO, Hrg10, Hpay⟩
  first | iapply (wp_ret_bind c _ _ _) | skip
  ihave Hpay' := (agRPay_open m c (10 : Fin 15) 1) $$ Hpay
  icases Hpay' with ⟨Hx11, Hdr10⟩
  -- layer 1, group 5: the two chunks read as one block of 512 rows
  first | sl_exec | skip
  iapply (loadX c (5 : Fin 8) 0 (chunkAt m 1 (bwd c 10)) (chunkAt m 1 (bwd c 11))) $$ [Hx10 Hx11]
  · isplitl [Hx10]; · iexact Hx10
    iexact Hx11
  iintro ⟨Hx10, Hx11⟩
  first | iapply (wp_ret_bind c _ _ _) | skip
  -- layer 1: the piece for chunk 10, stored into slot 10 of P and sent back
  first | sl_exec | skip
  iapply (loadPany c (10 : Fin 16) (pfill c (10 : Fin 16) (pieceAt m 0 c 10))) $$ [Hp10]
  · iexact Hp10
  iintro Hp10
  first | iapply (wp_ret_bind c _ _ _) | skip
  first | sl_exec | skip
  iapply (storeP c (10 : Fin 16) _) $$ [Hp10]
  · iexists _; iexact Hp10
  iintro Hq10
  first | iapply (wp_ret_bind c _ _ _) | skip
  ihave Hp10 : pPts (F := F) c (10 : Fin 16) (pfill c (10 : Fin 16) (pieceAt m 1 c 10)) $$ [Hq10]
  · sl_unfold_run_names
    rw [store_P_1_10 m c]
    iexact Hq10
  first | sl_exec | skip
  iapply (step_RS_d m K c 9 (by decide) 1 (by decide) (cnt 15 1) _ (dev70_eq c)) $$ [HO Hrg9 Hdr9 Hp10 Hx10]
  · isplitr; · iexact HI
    isplitl [HO]; · iexact HO
    isplitl [Hrg9]; · iexact Hrg9
    isplitl [Hdr9]; · iexact Hdr9
    isplitl [Hp10]; · iexact Hp10
    (iexists _; iexact Hx10)
  iintro ⟨HO, Hrs9⟩
  first | iapply (wp_ret_bind c _ _ _) | skip
  -- layer 1: the piece for chunk 11, stored into slot 11 of P and sent back
  first | sl_exec | skip
  iapply (loadPany c (11 : Fin 16) (pfill c (11 : Fin 16) (pieceAt m 0 c 11))) $$ [Hp11]
  · iexact Hp11
  iintro Hp11
  first | iapply (wp_ret_bind c _ _ _) | skip
  first | sl_exec | skip
  iapply (storeP c (11 : Fin 16) _) $$ [Hp11]
  · iexists _; iexact Hp11
  iintro Hq11
  first | iapply (wp_ret_bind c _ _ _) | skip
  ihave Hp11 : pPts (F := F) c (11 : Fin 16) (pfill c (11 : Fin 16) (pieceAt m 1 c 11)) $$ [Hq11]
  · sl_unfold_run_names
    rw [store_P_1_11 m c]
    iexact Hq11
  first | sl_exec | skip
  iapply (step_RS_d m K c 10 (by decide) 1 (by decide) (cnt 15 1) _ (dev71_eq c)) $$ [HO Hrg10 Hdr10 Hp11 Hx11]
  · isplitr; · iexact HI
    isplitl [HO]; · iexact HO
    isplitl [Hrg10]; · iexact Hrg10
    isplitl [Hdr10]; · iexact Hdr10
    isplitl [Hp11]; · iexact Hp11
    (iexists _; iexact Hx11)
  iintro ⟨HO, Hrs10⟩
  first | iapply (wp_ret_bind c _ _ _) | skip
  -- layer 1: wait for chunk 12 (from the device 12 places before)
  first | sl_exec | skip
  iapply (step_AR m K c (11 : Fin 15) 1 (by decide) (cnt 15 1) (cnt 11 1) (lt_cnt_full 1) (lt_cnt 11 1)) $$ [HO Hrc11]
  · isplitr; · iexact HI
    isplitl [HO]; · iexact HO
    isplitr; · iexact Hlev
    iexact Hrc11
  iintro ⟨HO, Hrg11, Hpay⟩
  first | iapply (wp_ret_bind c _ _ _) | skip
  ihave Hpay' := (agRPay_open m c (11 : Fin 15) 1) $$ Hpay
  icases Hpay' with ⟨Hx12, Hdr11⟩
  -- layer 1: wait for chunk 13 (from the device 13 places before)
  first | sl_exec | skip
  iapply (step_AR m K c (12 : Fin 15) 1 (by decide) (cnt 15 1) (cnt 11 1) (lt_cnt_full 1) (lt_cnt 11 1)) $$ [HO Hrc12]
  · isplitr; · iexact HI
    isplitl [HO]; · iexact HO
    isplitr; · iexact Hlev
    iexact Hrc12
  iintro ⟨HO, Hrg12, Hpay⟩
  first | iapply (wp_ret_bind c _ _ _) | skip
  ihave Hpay' := (agRPay_open m c (12 : Fin 15) 1) $$ Hpay
  icases Hpay' with ⟨Hx13, Hdr12⟩
  -- layer 1, group 6: the two chunks read as one block of 512 rows
  first | sl_exec | skip
  iapply (loadX c (6 : Fin 8) 0 (chunkAt m 1 (bwd c 12)) (chunkAt m 1 (bwd c 13))) $$ [Hx12 Hx13]
  · isplitl [Hx12]; · iexact Hx12
    iexact Hx13
  iintro ⟨Hx12, Hx13⟩
  first | iapply (wp_ret_bind c _ _ _) | skip
  -- layer 1: the piece for chunk 12, stored into slot 12 of P and sent back
  first | sl_exec | skip
  iapply (loadPany c (12 : Fin 16) (pfill c (12 : Fin 16) (pieceAt m 0 c 12))) $$ [Hp12]
  · iexact Hp12
  iintro Hp12
  first | iapply (wp_ret_bind c _ _ _) | skip
  first | sl_exec | skip
  iapply (storeP c (12 : Fin 16) _) $$ [Hp12]
  · iexists _; iexact Hp12
  iintro Hq12
  first | iapply (wp_ret_bind c _ _ _) | skip
  ihave Hp12 : pPts (F := F) c (12 : Fin 16) (pfill c (12 : Fin 16) (pieceAt m 1 c 12)) $$ [Hq12]
  · sl_unfold_run_names
    rw [store_P_1_12 m c]
    iexact Hq12
  first | sl_exec | skip
  iapply (step_RS_d m K c 11 (by decide) 1 (by decide) (cnt 15 1) _ (dev72_eq c)) $$ [HO Hrg11 Hdr11 Hp12 Hx12]
  · isplitr; · iexact HI
    isplitl [HO]; · iexact HO
    isplitl [Hrg11]; · iexact Hrg11
    isplitl [Hdr11]; · iexact Hdr11
    isplitl [Hp12]; · iexact Hp12
    (iexists _; iexact Hx12)
  iintro ⟨HO, Hrs11⟩
  first | iapply (wp_ret_bind c _ _ _) | skip
  -- layer 1: the piece for chunk 13, stored into slot 13 of P and sent back
  first | sl_exec | skip
  iapply (loadPany c (13 : Fin 16) (pfill c (13 : Fin 16) (pieceAt m 0 c 13))) $$ [Hp13]
  · iexact Hp13
  iintro Hp13
  first | iapply (wp_ret_bind c _ _ _) | skip
  first | sl_exec | skip
  iapply (storeP c (13 : Fin 16) _) $$ [Hp13]
  · iexists _; iexact Hp13
  iintro Hq13
  first | iapply (wp_ret_bind c _ _ _) | skip
  ihave Hp13 : pPts (F := F) c (13 : Fin 16) (pfill c (13 : Fin 16) (pieceAt m 1 c 13)) $$ [Hq13]
  · sl_unfold_run_names
    rw [store_P_1_13 m c]
    iexact Hq13
  first | sl_exec | skip
  iapply (step_RS_d m K c 12 (by decide) 1 (by decide) (cnt 15 1) _ (dev73_eq c)) $$ [HO Hrg12 Hdr12 Hp13 Hx13]
  · isplitr; · iexact HI
    isplitl [HO]; · iexact HO
    isplitl [Hrg12]; · iexact Hrg12
    isplitl [Hdr12]; · iexact Hdr12
    isplitl [Hp13]; · iexact Hp13
    (iexists _; iexact Hx13)
  iintro ⟨HO, Hrs12⟩
  first | iapply (wp_ret_bind c _ _ _) | skip
  -- layer 1: wait for chunk 14 (from the device 14 places before)
  first | sl_exec | skip
  iapply (step_AR m K c (13 : Fin 15) 1 (by decide) (cnt 15 1) (cnt 13 1) (lt_cnt_full 1) (lt_cnt 13 1)) $$ [HO Hrc13]
  · isplitr; · iexact HI
    isplitl [HO]; · iexact HO
    isplitr; · iexact Hlev
    iexact Hrc13
  iintro ⟨HO, Hrg13, Hpay⟩
  first | iapply (wp_ret_bind c _ _ _) | skip
  ihave Hpay' := (agRPay_open m c (13 : Fin 15) 1) $$ Hpay
  icases Hpay' with ⟨Hx14, Hdr13⟩
  -- layer 1: wait for chunk 15 (from the device 15 places before)
  first | sl_exec | skip
  iapply (step_AR m K c (14 : Fin 15) 1 (by decide) (cnt 15 1) (cnt 13 1) (lt_cnt_full 1) (lt_cnt 13 1)) $$ [HO Hrc14]
  · isplitr; · iexact HI
    isplitl [HO]; · iexact HO
    isplitr; · iexact Hlev
    iexact Hrc14
  iintro ⟨HO, Hrg14, Hpay⟩
  first | iapply (wp_ret_bind c _ _ _) | skip
  ihave Hpay' := (agRPay_open m c (14 : Fin 15) 1) $$ Hpay
  icases Hpay' with ⟨Hx15, Hdr14⟩
  -- layer 1, group 7: the two chunks read as one block of 512 rows
  first | sl_exec | skip
  iapply (loadX c (7 : Fin 8) 0 (chunkAt m 1 (bwd c 14)) (chunkAt m 1 (bwd c 15))) $$ [Hx14 Hx15]
  · isplitl [Hx14]; · iexact Hx14
    iexact Hx15
  iintro ⟨Hx14, Hx15⟩
  first | iapply (wp_ret_bind c _ _ _) | skip
  -- layer 1: the piece for chunk 14, stored into slot 14 of P and sent back
  first | sl_exec | skip
  iapply (loadPany c (14 : Fin 16) (pfill c (14 : Fin 16) (pieceAt m 0 c 14))) $$ [Hp14]
  · iexact Hp14
  iintro Hp14
  first | iapply (wp_ret_bind c _ _ _) | skip
  first | sl_exec | skip
  iapply (storeP c (14 : Fin 16) _) $$ [Hp14]
  · iexists _; iexact Hp14
  iintro Hq14
  first | iapply (wp_ret_bind c _ _ _) | skip
  ihave Hp14 : pPts (F := F) c (14 : Fin 16) (pfill c (14 : Fin 16) (pieceAt m 1 c 14)) $$ [Hq14]
  · sl_unfold_run_names
    rw [store_P_1_14 m c]
    iexact Hq14
  first | sl_exec | skip
  iapply (step_RS_d m K c 13 (by decide) 1 (by decide) (cnt 15 1) _ (dev74_eq c)) $$ [HO Hrg13 Hdr13 Hp14 Hx14]
  · isplitr; · iexact HI
    isplitl [HO]; · iexact HO
    isplitl [Hrg13]; · iexact Hrg13
    isplitl [Hdr13]; · iexact Hdr13
    isplitl [Hp14]; · iexact Hp14
    (iexists _; iexact Hx14)
  iintro ⟨HO, Hrs13⟩
  first | iapply (wp_ret_bind c _ _ _) | skip
  -- layer 1: the piece for chunk 15, stored into slot 15 of P and sent back
  first | sl_exec | skip
  iapply (loadPany c (15 : Fin 16) (pfill c (15 : Fin 16) (pieceAt m 0 c 15))) $$ [Hp15]
  · iexact Hp15
  iintro Hp15
  first | iapply (wp_ret_bind c _ _ _) | skip
  first | sl_exec | skip
  iapply (storeP c (15 : Fin 16) _) $$ [Hp15]
  · iexists _; iexact Hp15
  iintro Hq15
  first | iapply (wp_ret_bind c _ _ _) | skip
  ihave Hp15 : pPts (F := F) c (15 : Fin 16) (pfill c (15 : Fin 16) (pieceAt m 1 c 15)) $$ [Hq15]
  · sl_unfold_run_names
    rw [store_P_1_15 m c]
    iexact Hq15
  first | sl_exec | skip
  iapply (step_RS_d m K c 14 (by decide) 1 (by decide) (cnt 15 1) _ (dev75_eq c)) $$ [HO Hrg14 Hdr14 Hp15 Hx15]
  · isplitr; · iexact HI
    isplitl [HO]; · iexact HO
    isplitl [Hrg14]; · iexact Hrg14
    isplitl [Hdr14]; · iexact Hdr14
    isplitl [Hp15]; · iexact Hp15
    (iexists _; iexact Hx15)
  iintro ⟨HO, Hrs14⟩
  first | iapply (wp_ret_bind c _ _ _) | skip
  -- layer 1: the send side of chunk copy 1
  first | sl_exec | skip
  iapply (step_AW m K c (0 : Fin 15) 1 (by decide) (cnt 15 1) (cnt 15 1) (lt_cnt_full 1) (fun i => (lt_cnt_full 1 i).le)) $$ [HO Hss0]
  · isplitr; · iexact HI
    isplitl [HO]; · iexact HO
    isplitr; · iexact Hlev
    iexact Hss0
  iintro ⟨HO, Hsw0, Hl0⟩
  first | iapply (wp_ret_bind c _ _ _) | skip
  -- layer 1: the send side of chunk copy 2
  first | sl_exec | skip
  iapply (step_AW m K c (1 : Fin 15) 1 (by decide) (cnt 15 1) (cnt 15 1) (lt_cnt_full 1) (fun i => (lt_cnt_full 1 i).le)) $$ [HO Hss1]
  · isplitr; · iexact HI
    isplitl [HO]; · iexact HO
    isplitr; · iexact Hlev
    iexact Hss1
  iintro ⟨HO, Hsw1, Hl1⟩
  first | iapply (wp_ret_bind c _ _ _) | skip
  -- layer 1: the send side of chunk copy 3
  first | sl_exec | skip
  iapply (step_AW m K c (2 : Fin 15) 1 (by decide) (cnt 15 1) (cnt 15 1) (lt_cnt_full 1) (fun i => (lt_cnt_full 1 i).le)) $$ [HO Hss2]
  · isplitr; · iexact HI
    isplitl [HO]; · iexact HO
    isplitr; · iexact Hlev
    iexact Hss2
  iintro ⟨HO, Hsw2, Hl2⟩
  first | iapply (wp_ret_bind c _ _ _) | skip
  -- layer 1: the send side of chunk copy 4
  first | sl_exec | skip
  iapply (step_AW m K c (3 : Fin 15) 1 (by decide) (cnt 15 1) (cnt 15 1) (lt_cnt_full 1) (fun i => (lt_cnt_full 1 i).le)) $$ [HO Hss3]
  · isplitr; · iexact HI
    isplitl [HO]; · iexact HO
    isplitr; · iexact Hlev
    iexact Hss3
  iintro ⟨HO, Hsw3, Hl3⟩
  first | iapply (wp_ret_bind c _ _ _) | skip
  -- layer 1: the send side of chunk copy 5
  first | sl_exec | skip
  iapply (step_AW m K c (4 : Fin 15) 1 (by decide) (cnt 15 1) (cnt 15 1) (lt_cnt_full 1) (fun i => (lt_cnt_full 1 i).le)) $$ [HO Hss4]
  · isplitr; · iexact HI
    isplitl [HO]; · iexact HO
    isplitr; · iexact Hlev
    iexact Hss4
  iintro ⟨HO, Hsw4, Hl4⟩
  first | iapply (wp_ret_bind c _ _ _) | skip
  -- layer 1: the send side of chunk copy 6
  first | sl_exec | skip
  iapply (step_AW m K c (5 : Fin 15) 1 (by decide) (cnt 15 1) (cnt 15 1) (lt_cnt_full 1) (fun i => (lt_cnt_full 1 i).le)) $$ [HO Hss5]
  · isplitr; · iexact HI
    isplitl [HO]; · iexact HO
    isplitr; · iexact Hlev
    iexact Hss5
  iintro ⟨HO, Hsw5, Hl5⟩
  first | iapply (wp_ret_bind c _ _ _) | skip
  -- layer 1: the send side of chunk copy 7
  first | sl_exec | skip
  iapply (step_AW m K c (6 : Fin 15) 1 (by decide) (cnt 15 1) (cnt 15 1) (lt_cnt_full 1) (fun i => (lt_cnt_full 1 i).le)) $$ [HO Hss6]
  · isplitr; · iexact HI
    isplitl [HO]; · iexact HO
    isplitr; · iexact Hlev
    iexact Hss6
  iintro ⟨HO, Hsw6, Hl6⟩
  first | iapply (wp_ret_bind c _ _ _) | skip
  -- layer 1: the send side of chunk copy 8
  first | sl_exec | skip
  iapply (step_AW m K c (7 : Fin 15) 1 (by decide) (cnt 15 1) (cnt 15 1) (lt_cnt_full 1) (fun i => (lt_cnt_full 1 i).le)) $$ [HO Hss7]
  · isplitr; · iexact HI
    isplitl [HO]; · iexact HO
    isplitr; · iexact Hlev
    iexact Hss7
  iintro ⟨HO, Hsw7, Hl7⟩
  first | iapply (wp_ret_bind c _ _ _) | skip
  -- layer 1: the send side of chunk copy 9
  first | sl_exec | skip
  iapply (step_AW m K c (8 : Fin 15) 1 (by decide) (cnt 15 1) (cnt 15 1) (lt_cnt_full 1) (fun i => (lt_cnt_full 1 i).le)) $$ [HO Hss8]
  · isplitr; · iexact HI
    isplitl [HO]; · iexact HO
    isplitr; · iexact Hlev
    iexact Hss8
  iintro ⟨HO, Hsw8, Hl8⟩
  first | iapply (wp_ret_bind c _ _ _) | skip
  -- layer 1: the send side of chunk copy 10
  first | sl_exec | skip
  iapply (step_AW m K c (9 : Fin 15) 1 (by decide) (cnt 15 1) (cnt 15 1) (lt_cnt_full 1) (fun i => (lt_cnt_full 1 i).le)) $$ [HO Hss9]
  · isplitr; · iexact HI
    isplitl [HO]; · iexact HO
    isplitr; · iexact Hlev
    iexact Hss9
  iintro ⟨HO, Hsw9, Hl9⟩
  first | iapply (wp_ret_bind c _ _ _) | skip
  -- layer 1: the send side of chunk copy 11
  first | sl_exec | skip
  iapply (step_AW m K c (10 : Fin 15) 1 (by decide) (cnt 15 1) (cnt 15 1) (lt_cnt_full 1) (fun i => (lt_cnt_full 1 i).le)) $$ [HO Hss10]
  · isplitr; · iexact HI
    isplitl [HO]; · iexact HO
    isplitr; · iexact Hlev
    iexact Hss10
  iintro ⟨HO, Hsw10, Hl10⟩
  first | iapply (wp_ret_bind c _ _ _) | skip
  -- layer 1: the send side of chunk copy 12
  first | sl_exec | skip
  iapply (step_AW m K c (11 : Fin 15) 1 (by decide) (cnt 15 1) (cnt 15 1) (lt_cnt_full 1) (fun i => (lt_cnt_full 1 i).le)) $$ [HO Hss11]
  · isplitr; · iexact HI
    isplitl [HO]; · iexact HO
    isplitr; · iexact Hlev
    iexact Hss11
  iintro ⟨HO, Hsw11, Hl11⟩
  first | iapply (wp_ret_bind c _ _ _) | skip
  -- layer 1: the send side of chunk copy 13
  first | sl_exec | skip
  iapply (step_AW m K c (12 : Fin 15) 1 (by decide) (cnt 15 1) (cnt 15 1) (lt_cnt_full 1) (fun i => (lt_cnt_full 1 i).le)) $$ [HO Hss12]
  · isplitr; · iexact HI
    isplitl [HO]; · iexact HO
    isplitr; · iexact Hlev
    iexact Hss12
  iintro ⟨HO, Hsw12, Hl12⟩
  first | iapply (wp_ret_bind c _ _ _) | skip
  -- layer 1: the send side of chunk copy 14
  first | sl_exec | skip
  iapply (step_AW m K c (13 : Fin 15) 1 (by decide) (cnt 15 1) (cnt 15 1) (lt_cnt_full 1) (fun i => (lt_cnt_full 1 i).le)) $$ [HO Hss13]
  · isplitr; · iexact HI
    isplitl [HO]; · iexact HO
    isplitr; · iexact Hlev
    iexact Hss13
  iintro ⟨HO, Hsw13, Hl13⟩
  first | iapply (wp_ret_bind c _ _ _) | skip
  -- layer 1: the send side of chunk copy 15
  first | sl_exec | skip
  iapply (step_AW m K c (14 : Fin 15) 1 (by decide) (cnt 15 1) (cnt 15 1) (lt_cnt_full 1) (fun i => (lt_cnt_full 1 i).le)) $$ [HO Hss14]
  · isplitr; · iexact HI
    isplitl [HO]; · iexact HO
    isplitr; · iexact Hlev
    iexact Hss14
  iintro ⟨HO, Hsw14, Hl14⟩
  first | iapply (wp_ret_bind c _ _ _) | skip
  -- layer 1: wait for the piece of copy index 1 and read it
  first | sl_exec | skip
  iapply (step_RR m K c (0 : Fin 15) 1 (by decide) (cnt 15 1) (cnt 15 1) (lt_cnt_full 1) (lt_cnt_full 1)) $$ [HO Hsw0]
  · isplitr; · iexact HI
    isplitl [HO]; · iexact HO
    isplitr; · iexact Hlev
    iexact Hsw0
  iintro ⟨HO, Hsn0, Hpay⟩
  first | iapply (wp_ret_bind c _ _ _) | skip
  ihave Hpay' := (rsRPay_open m c (0 : Fin 15) 1 (by decide)) $$ Hpay
  icases Hpay' with ⟨Hr14, Hdx0⟩
  first | sl_exec | skip
  iapply (loadR c (14 : Fin 15) (pieceAt m 1 (fwd c 1) 1)) $$ [Hr14]
  · iexact Hr14
  iintro Hr14
  first | iapply (wp_ret_bind c _ _ _) | skip
  -- layer 1: wait for the piece of copy index 2 and read it
  first | sl_exec | skip
  iapply (step_RR m K c (1 : Fin 15) 1 (by decide) (cnt 15 1) (cnt 15 1) (lt_cnt_full 1) (lt_cnt_full 1)) $$ [HO Hsw1]
  · isplitr; · iexact HI
    isplitl [HO]; · iexact HO
    isplitr; · iexact Hlev
    iexact Hsw1
  iintro ⟨HO, Hsn1, Hpay⟩
  first | iapply (wp_ret_bind c _ _ _) | skip
  ihave Hpay' := (rsRPay_open m c (1 : Fin 15) 1 (by decide)) $$ Hpay
  icases Hpay' with ⟨Hr13, Hdx1⟩
  first | sl_exec | skip
  iapply (loadR c (13 : Fin 15) (pieceAt m 1 (fwd c 2) 2)) $$ [Hr13]
  · iexact Hr13
  iintro Hr13
  first | iapply (wp_ret_bind c _ _ _) | skip
  -- layer 1: wait for the piece of copy index 3 and read it
  first | sl_exec | skip
  iapply (step_RR m K c (2 : Fin 15) 1 (by decide) (cnt 15 1) (cnt 15 1) (lt_cnt_full 1) (lt_cnt_full 1)) $$ [HO Hsw2]
  · isplitr; · iexact HI
    isplitl [HO]; · iexact HO
    isplitr; · iexact Hlev
    iexact Hsw2
  iintro ⟨HO, Hsn2, Hpay⟩
  first | iapply (wp_ret_bind c _ _ _) | skip
  ihave Hpay' := (rsRPay_open m c (2 : Fin 15) 1 (by decide)) $$ Hpay
  icases Hpay' with ⟨Hr12, Hdx2⟩
  first | sl_exec | skip
  iapply (loadR c (12 : Fin 15) (pieceAt m 1 (fwd c 3) 3)) $$ [Hr12]
  · iexact Hr12
  iintro Hr12
  first | iapply (wp_ret_bind c _ _ _) | skip
  -- layer 1: wait for the piece of copy index 4 and read it
  first | sl_exec | skip
  iapply (step_RR m K c (3 : Fin 15) 1 (by decide) (cnt 15 1) (cnt 15 1) (lt_cnt_full 1) (lt_cnt_full 1)) $$ [HO Hsw3]
  · isplitr; · iexact HI
    isplitl [HO]; · iexact HO
    isplitr; · iexact Hlev
    iexact Hsw3
  iintro ⟨HO, Hsn3, Hpay⟩
  first | iapply (wp_ret_bind c _ _ _) | skip
  ihave Hpay' := (rsRPay_open m c (3 : Fin 15) 1 (by decide)) $$ Hpay
  icases Hpay' with ⟨Hr11, Hdx3⟩
  first | sl_exec | skip
  iapply (loadR c (11 : Fin 15) (pieceAt m 1 (fwd c 4) 4)) $$ [Hr11]
  · iexact Hr11
  iintro Hr11
  first | iapply (wp_ret_bind c _ _ _) | skip
  -- layer 1: wait for the piece of copy index 5 and read it
  first | sl_exec | skip
  iapply (step_RR m K c (4 : Fin 15) 1 (by decide) (cnt 15 1) (cnt 15 1) (lt_cnt_full 1) (lt_cnt_full 1)) $$ [HO Hsw4]
  · isplitr; · iexact HI
    isplitl [HO]; · iexact HO
    isplitr; · iexact Hlev
    iexact Hsw4
  iintro ⟨HO, Hsn4, Hpay⟩
  first | iapply (wp_ret_bind c _ _ _) | skip
  ihave Hpay' := (rsRPay_open m c (4 : Fin 15) 1 (by decide)) $$ Hpay
  icases Hpay' with ⟨Hr10, Hdx4⟩
  first | sl_exec | skip
  iapply (loadR c (10 : Fin 15) (pieceAt m 1 (fwd c 5) 5)) $$ [Hr10]
  · iexact Hr10
  iintro Hr10
  first | iapply (wp_ret_bind c _ _ _) | skip
  -- layer 1: wait for the piece of copy index 6 and read it
  first | sl_exec | skip
  iapply (step_RR m K c (5 : Fin 15) 1 (by decide) (cnt 15 1) (cnt 15 1) (lt_cnt_full 1) (lt_cnt_full 1)) $$ [HO Hsw5]
  · isplitr; · iexact HI
    isplitl [HO]; · iexact HO
    isplitr; · iexact Hlev
    iexact Hsw5
  iintro ⟨HO, Hsn5, Hpay⟩
  first | iapply (wp_ret_bind c _ _ _) | skip
  ihave Hpay' := (rsRPay_open m c (5 : Fin 15) 1 (by decide)) $$ Hpay
  icases Hpay' with ⟨Hr9, Hdx5⟩
  first | sl_exec | skip
  iapply (loadR c (9 : Fin 15) (pieceAt m 1 (fwd c 6) 6)) $$ [Hr9]
  · iexact Hr9
  iintro Hr9
  first | iapply (wp_ret_bind c _ _ _) | skip
  -- layer 1: wait for the piece of copy index 7 and read it
  first | sl_exec | skip
  iapply (step_RR m K c (6 : Fin 15) 1 (by decide) (cnt 15 1) (cnt 15 1) (lt_cnt_full 1) (lt_cnt_full 1)) $$ [HO Hsw6]
  · isplitr; · iexact HI
    isplitl [HO]; · iexact HO
    isplitr; · iexact Hlev
    iexact Hsw6
  iintro ⟨HO, Hsn6, Hpay⟩
  first | iapply (wp_ret_bind c _ _ _) | skip
  ihave Hpay' := (rsRPay_open m c (6 : Fin 15) 1 (by decide)) $$ Hpay
  icases Hpay' with ⟨Hr8, Hdx6⟩
  first | sl_exec | skip
  iapply (loadR c (8 : Fin 15) (pieceAt m 1 (fwd c 7) 7)) $$ [Hr8]
  · iexact Hr8
  iintro Hr8
  first | iapply (wp_ret_bind c _ _ _) | skip
  -- layer 1: wait for the piece of copy index 8 and read it
  first | sl_exec | skip
  iapply (step_RR m K c (7 : Fin 15) 1 (by decide) (cnt 15 1) (cnt 15 1) (lt_cnt_full 1) (lt_cnt_full 1)) $$ [HO Hsw7]
  · isplitr; · iexact HI
    isplitl [HO]; · iexact HO
    isplitr; · iexact Hlev
    iexact Hsw7
  iintro ⟨HO, Hsn7, Hpay⟩
  first | iapply (wp_ret_bind c _ _ _) | skip
  ihave Hpay' := (rsRPay_open m c (7 : Fin 15) 1 (by decide)) $$ Hpay
  icases Hpay' with ⟨Hr7, Hdx7⟩
  first | sl_exec | skip
  iapply (loadR c (7 : Fin 15) (pieceAt m 1 (fwd c 8) 8)) $$ [Hr7]
  · iexact Hr7
  iintro Hr7
  first | iapply (wp_ret_bind c _ _ _) | skip
  -- layer 1: wait for the piece of copy index 9 and read it
  first | sl_exec | skip
  iapply (step_RR m K c (8 : Fin 15) 1 (by decide) (cnt 15 1) (cnt 15 1) (lt_cnt_full 1) (lt_cnt_full 1)) $$ [HO Hsw8]
  · isplitr; · iexact HI
    isplitl [HO]; · iexact HO
    isplitr; · iexact Hlev
    iexact Hsw8
  iintro ⟨HO, Hsn8, Hpay⟩
  first | iapply (wp_ret_bind c _ _ _) | skip
  ihave Hpay' := (rsRPay_open m c (8 : Fin 15) 1 (by decide)) $$ Hpay
  icases Hpay' with ⟨Hr6, Hdx8⟩
  first | sl_exec | skip
  iapply (loadR c (6 : Fin 15) (pieceAt m 1 (fwd c 9) 9)) $$ [Hr6]
  · iexact Hr6
  iintro Hr6
  first | iapply (wp_ret_bind c _ _ _) | skip
  -- layer 1: wait for the piece of copy index 10 and read it
  first | sl_exec | skip
  iapply (step_RR m K c (9 : Fin 15) 1 (by decide) (cnt 15 1) (cnt 15 1) (lt_cnt_full 1) (lt_cnt_full 1)) $$ [HO Hsw9]
  · isplitr; · iexact HI
    isplitl [HO]; · iexact HO
    isplitr; · iexact Hlev
    iexact Hsw9
  iintro ⟨HO, Hsn9, Hpay⟩
  first | iapply (wp_ret_bind c _ _ _) | skip
  ihave Hpay' := (rsRPay_open m c (9 : Fin 15) 1 (by decide)) $$ Hpay
  icases Hpay' with ⟨Hr5, Hdx9⟩
  first | sl_exec | skip
  iapply (loadR c (5 : Fin 15) (pieceAt m 1 (fwd c 10) 10)) $$ [Hr5]
  · iexact Hr5
  iintro Hr5
  first | iapply (wp_ret_bind c _ _ _) | skip
  -- layer 1: wait for the piece of copy index 11 and read it
  first | sl_exec | skip
  iapply (step_RR m K c (10 : Fin 15) 1 (by decide) (cnt 15 1) (cnt 15 1) (lt_cnt_full 1) (lt_cnt_full 1)) $$ [HO Hsw10]
  · isplitr; · iexact HI
    isplitl [HO]; · iexact HO
    isplitr; · iexact Hlev
    iexact Hsw10
  iintro ⟨HO, Hsn10, Hpay⟩
  first | iapply (wp_ret_bind c _ _ _) | skip
  ihave Hpay' := (rsRPay_open m c (10 : Fin 15) 1 (by decide)) $$ Hpay
  icases Hpay' with ⟨Hr4, Hdx10⟩
  first | sl_exec | skip
  iapply (loadR c (4 : Fin 15) (pieceAt m 1 (fwd c 11) 11)) $$ [Hr4]
  · iexact Hr4
  iintro Hr4
  first | iapply (wp_ret_bind c _ _ _) | skip
  -- layer 1: wait for the piece of copy index 12 and read it
  first | sl_exec | skip
  iapply (step_RR m K c (11 : Fin 15) 1 (by decide) (cnt 15 1) (cnt 15 1) (lt_cnt_full 1) (lt_cnt_full 1)) $$ [HO Hsw11]
  · isplitr; · iexact HI
    isplitl [HO]; · iexact HO
    isplitr; · iexact Hlev
    iexact Hsw11
  iintro ⟨HO, Hsn11, Hpay⟩
  first | iapply (wp_ret_bind c _ _ _) | skip
  ihave Hpay' := (rsRPay_open m c (11 : Fin 15) 1 (by decide)) $$ Hpay
  icases Hpay' with ⟨Hr3, Hdx11⟩
  first | sl_exec | skip
  iapply (loadR c (3 : Fin 15) (pieceAt m 1 (fwd c 12) 12)) $$ [Hr3]
  · iexact Hr3
  iintro Hr3
  first | iapply (wp_ret_bind c _ _ _) | skip
  -- layer 1: wait for the piece of copy index 13 and read it
  first | sl_exec | skip
  iapply (step_RR m K c (12 : Fin 15) 1 (by decide) (cnt 15 1) (cnt 15 1) (lt_cnt_full 1) (lt_cnt_full 1)) $$ [HO Hsw12]
  · isplitr; · iexact HI
    isplitl [HO]; · iexact HO
    isplitr; · iexact Hlev
    iexact Hsw12
  iintro ⟨HO, Hsn12, Hpay⟩
  first | iapply (wp_ret_bind c _ _ _) | skip
  ihave Hpay' := (rsRPay_open m c (12 : Fin 15) 1 (by decide)) $$ Hpay
  icases Hpay' with ⟨Hr2, Hdx12⟩
  first | sl_exec | skip
  iapply (loadR c (2 : Fin 15) (pieceAt m 1 (fwd c 13) 13)) $$ [Hr2]
  · iexact Hr2
  iintro Hr2
  first | iapply (wp_ret_bind c _ _ _) | skip
  -- layer 1: wait for the piece of copy index 14 and read it
  first | sl_exec | skip
  iapply (step_RR m K c (13 : Fin 15) 1 (by decide) (cnt 15 1) (cnt 15 1) (lt_cnt_full 1) (lt_cnt_full 1)) $$ [HO Hsw13]
  · isplitr; · iexact HI
    isplitl [HO]; · iexact HO
    isplitr; · iexact Hlev
    iexact Hsw13
  iintro ⟨HO, Hsn13, Hpay⟩
  first | iapply (wp_ret_bind c _ _ _) | skip
  ihave Hpay' := (rsRPay_open m c (13 : Fin 15) 1 (by decide)) $$ Hpay
  icases Hpay' with ⟨Hr1, Hdx13⟩
  first | sl_exec | skip
  iapply (loadR c (1 : Fin 15) (pieceAt m 1 (fwd c 14) 14)) $$ [Hr1]
  · iexact Hr1
  iintro Hr1
  first | iapply (wp_ret_bind c _ _ _) | skip
  -- layer 1: wait for the piece of copy index 15 and read it
  first | sl_exec | skip
  iapply (step_RR m K c (14 : Fin 15) 1 (by decide) (cnt 15 1) (cnt 15 1) (lt_cnt_full 1) (lt_cnt_full 1)) $$ [HO Hsw14]
  · isplitr; · iexact HI
    isplitl [HO]; · iexact HO
    isplitr; · iexact Hlev
    iexact Hsw14
  iintro ⟨HO, Hsn14, Hpay⟩
  first | iapply (wp_ret_bind c _ _ _) | skip
  ihave Hpay' := (rsRPay_open m c (14 : Fin 15) 1 (by decide)) $$ Hpay
  icases Hpay' with ⟨Hr0, Hdx14⟩
  first | sl_exec | skip
  iapply (loadR c (0 : Fin 15) (pieceAt m 1 (fwd c 15) 15)) $$ [Hr0]
  · iexact Hr0
  iintro Hr0
  first | iapply (wp_ret_bind c _ _ _) | skip
  -- layer 1: the fifteen lent shares of slot 0 are back
  ihave Hx0' : xPts (F := F) c 0 fullShare (xfill c 0 (chunkAt m 1 c)) $$ [Hx0 Hl0 Hl1 Hl2 Hl3 Hl4 Hl5 Hl6 Hl7 Hl8 Hl9 Hl10 Hl11 Hl12 Hl13 Hl14]
  · unfold agSPay
    iapply (Exit.x_back15 c _)
    isplitl [Hx0]; · iexact Hx0
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    isplitl [Hl9]; · iexact Hl9
    isplitl [Hl10]; · iexact Hl10
    isplitl [Hl11]; · iexact Hl11
    isplitl [Hl12]; · iexact Hl12
    isplitl [Hl13]; · iexact Hl13
    iexact Hl14
  -- layer 1: the sum, cast, becomes the device's chunk of layer 2
  first | sl_exec | skip
  iapply (loadXany c 0 fullShare (xfill c 0 (chunkAt m 1 c))) $$ [Hx0']
  · iexact Hx0'
  iintro Hx0
  first | iapply (wp_ret_bind c _ _ _) | skip
  first | sl_exec | skip
  iapply (storeX c 0 _) $$ [Hx0]
  · iexists _; iexact Hx0
  iintro Hy0
  first | iapply (wp_ret_bind c _ _ _) | skip
  ihave Hx0 : xPts (F := F) c 0 fullShare (xfill c 0 (chunkAt m 2 c)) $$ [Hy0]
  · sl_unfold_run_names
    rw [store_X_1 m c]
    iexact Hy0
  ihave HO := (owes_next c 1 _) $$ HO
  -- chunk copy 1 of layer 2
  first | sl_exec | skip
  iapply (step_AS_d m K c 0 (by decide) 2 (by decide) _ _ (dev76_eq c)) $$ [HO Hsn0 Hdx0 Hx0 Hr14]
  · isplitr; · iexact HI
    isplitl [HO]; · iexact HO
    isplitl [Hsn0]; · iexact Hsn0
    isplitl [Hdx0]; · iexact Hdx0
    isplitl [Hx0]; · iexact Hx0
    (iexists _; iexact Hr14)
  iintro ⟨HO, Hss0, Hx0⟩
  first | iapply (wp_ret_bind c _ _ _) | skip
  -- chunk copy 2 of layer 2
  first | sl_exec | skip
  iapply (step_AS_d m K c 1 (by decide) 2 (by decide) _ _ (dev77_eq c)) $$ [HO Hsn1 Hdx1 Hx0 Hr13]
  · isplitr; · iexact HI
    isplitl [HO]; · iexact HO
    isplitl [Hsn1]; · iexact Hsn1
    isplitl [Hdx1]; · iexact Hdx1
    isplitl [Hx0]; · iexact Hx0
    (iexists _; iexact Hr13)
  iintro ⟨HO, Hss1, Hx0⟩
  first | iapply (wp_ret_bind c _ _ _) | skip
  -- chunk copy 3 of layer 2
  first | sl_exec | skip
  iapply (step_AS_d m K c 2 (by decide) 2 (by decide) _ _ (dev78_eq c)) $$ [HO Hsn2 Hdx2 Hx0 Hr12]
  · isplitr; · iexact HI
    isplitl [HO]; · iexact HO
    isplitl [Hsn2]; · iexact Hsn2
    isplitl [Hdx2]; · iexact Hdx2
    isplitl [Hx0]; · iexact Hx0
    (iexists _; iexact Hr12)
  iintro ⟨HO, Hss2, Hx0⟩
  first | iapply (wp_ret_bind c _ _ _) | skip
  -- chunk copy 4 of layer 2
  first | sl_exec | skip
  iapply (step_AS_d m K c 3 (by decide) 2 (by decide) _ _ (dev79_eq c)) $$ [HO Hsn3 Hdx3 Hx0 Hr11]
  · isplitr; · iexact HI
    isplitl [HO]; · iexact HO
    isplitl [Hsn3]; · iexact Hsn3
    isplitl [Hdx3]; · iexact Hdx3
    isplitl [Hx0]; · iexact Hx0
    (iexists _; iexact Hr11)
  iintro ⟨HO, Hss3, Hx0⟩
  first | iapply (wp_ret_bind c _ _ _) | skip
  -- chunk copy 5 of layer 2
  first | sl_exec | skip
  iapply (step_AS_d m K c 4 (by decide) 2 (by decide) _ _ (dev80_eq c)) $$ [HO Hsn4 Hdx4 Hx0 Hr10]
  · isplitr; · iexact HI
    isplitl [HO]; · iexact HO
    isplitl [Hsn4]; · iexact Hsn4
    isplitl [Hdx4]; · iexact Hdx4
    isplitl [Hx0]; · iexact Hx0
    (iexists _; iexact Hr10)
  iintro ⟨HO, Hss4, Hx0⟩
  first | iapply (wp_ret_bind c _ _ _) | skip
  -- chunk copy 6 of layer 2
  first | sl_exec | skip
  iapply (step_AS_d m K c 5 (by decide) 2 (by decide) _ _ (dev81_eq c)) $$ [HO Hsn5 Hdx5 Hx0 Hr9]
  · isplitr; · iexact HI
    isplitl [HO]; · iexact HO
    isplitl [Hsn5]; · iexact Hsn5
    isplitl [Hdx5]; · iexact Hdx5
    isplitl [Hx0]; · iexact Hx0
    (iexists _; iexact Hr9)
  iintro ⟨HO, Hss5, Hx0⟩
  first | iapply (wp_ret_bind c _ _ _) | skip
  -- chunk copy 7 of layer 2
  first | sl_exec | skip
  iapply (step_AS_d m K c 6 (by decide) 2 (by decide) _ _ (dev82_eq c)) $$ [HO Hsn6 Hdx6 Hx0 Hr8]
  · isplitr; · iexact HI
    isplitl [HO]; · iexact HO
    isplitl [Hsn6]; · iexact Hsn6
    isplitl [Hdx6]; · iexact Hdx6
    isplitl [Hx0]; · iexact Hx0
    (iexists _; iexact Hr8)
  iintro ⟨HO, Hss6, Hx0⟩
  first | iapply (wp_ret_bind c _ _ _) | skip
  -- chunk copy 8 of layer 2
  first | sl_exec | skip
  iapply (step_AS_d m K c 7 (by decide) 2 (by decide) _ _ (dev83_eq c)) $$ [HO Hsn7 Hdx7 Hx0 Hr7]
  · isplitr; · iexact HI
    isplitl [HO]; · iexact HO
    isplitl [Hsn7]; · iexact Hsn7
    isplitl [Hdx7]; · iexact Hdx7
    isplitl [Hx0]; · iexact Hx0
    (iexists _; iexact Hr7)
  iintro ⟨HO, Hss7, Hx0⟩
  first | iapply (wp_ret_bind c _ _ _) | skip
  -- chunk copy 9 of layer 2
  first | sl_exec | skip
  iapply (step_AS_d m K c 8 (by decide) 2 (by decide) _ _ (dev84_eq c)) $$ [HO Hsn8 Hdx8 Hx0 Hr6]
  · isplitr; · iexact HI
    isplitl [HO]; · iexact HO
    isplitl [Hsn8]; · iexact Hsn8
    isplitl [Hdx8]; · iexact Hdx8
    isplitl [Hx0]; · iexact Hx0
    (iexists _; iexact Hr6)
  iintro ⟨HO, Hss8, Hx0⟩
  first | iapply (wp_ret_bind c _ _ _) | skip
  -- chunk copy 10 of layer 2
  first | sl_exec | skip
  iapply (step_AS_d m K c 9 (by decide) 2 (by decide) _ _ (dev85_eq c)) $$ [HO Hsn9 Hdx9 Hx0 Hr5]
  · isplitr; · iexact HI
    isplitl [HO]; · iexact HO
    isplitl [Hsn9]; · iexact Hsn9
    isplitl [Hdx9]; · iexact Hdx9
    isplitl [Hx0]; · iexact Hx0
    (iexists _; iexact Hr5)
  iintro ⟨HO, Hss9, Hx0⟩
  first | iapply (wp_ret_bind c _ _ _) | skip
  -- chunk copy 11 of layer 2
  first | sl_exec | skip
  iapply (step_AS_d m K c 10 (by decide) 2 (by decide) _ _ (dev86_eq c)) $$ [HO Hsn10 Hdx10 Hx0 Hr4]
  · isplitr; · iexact HI
    isplitl [HO]; · iexact HO
    isplitl [Hsn10]; · iexact Hsn10
    isplitl [Hdx10]; · iexact Hdx10
    isplitl [Hx0]; · iexact Hx0
    (iexists _; iexact Hr4)
  iintro ⟨HO, Hss10, Hx0⟩
  first | iapply (wp_ret_bind c _ _ _) | skip
  -- chunk copy 12 of layer 2
  first | sl_exec | skip
  iapply (step_AS_d m K c 11 (by decide) 2 (by decide) _ _ (dev87_eq c)) $$ [HO Hsn11 Hdx11 Hx0 Hr3]
  · isplitr; · iexact HI
    isplitl [HO]; · iexact HO
    isplitl [Hsn11]; · iexact Hsn11
    isplitl [Hdx11]; · iexact Hdx11
    isplitl [Hx0]; · iexact Hx0
    (iexists _; iexact Hr3)
  iintro ⟨HO, Hss11, Hx0⟩
  first | iapply (wp_ret_bind c _ _ _) | skip
  -- chunk copy 13 of layer 2
  first | sl_exec | skip
  iapply (step_AS_d m K c 12 (by decide) 2 (by decide) _ _ (dev88_eq c)) $$ [HO Hsn12 Hdx12 Hx0 Hr2]
  · isplitr; · iexact HI
    isplitl [HO]; · iexact HO
    isplitl [Hsn12]; · iexact Hsn12
    isplitl [Hdx12]; · iexact Hdx12
    isplitl [Hx0]; · iexact Hx0
    (iexists _; iexact Hr2)
  iintro ⟨HO, Hss12, Hx0⟩
  first | iapply (wp_ret_bind c _ _ _) | skip
  -- chunk copy 14 of layer 2
  first | sl_exec | skip
  iapply (step_AS_d m K c 13 (by decide) 2 (by decide) _ _ (dev89_eq c)) $$ [HO Hsn13 Hdx13 Hx0 Hr1]
  · isplitr; · iexact HI
    isplitl [HO]; · iexact HO
    isplitl [Hsn13]; · iexact Hsn13
    isplitl [Hdx13]; · iexact Hdx13
    isplitl [Hx0]; · iexact Hx0
    (iexists _; iexact Hr1)
  iintro ⟨HO, Hss13, Hx0⟩
  first | iapply (wp_ret_bind c _ _ _) | skip
  -- chunk copy 15 of layer 2
  first | sl_exec | skip
  iapply (step_AS_d m K c 14 (by decide) 2 (by decide) _ _ (dev90_eq c)) $$ [HO Hsn14 Hdx14 Hx0 Hr0]
  · isplitr; · iexact HI
    isplitl [HO]; · iexact HO
    isplitl [Hsn14]; · iexact Hsn14
    isplitl [Hdx14]; · iexact Hdx14
    isplitl [Hx0]; · iexact Hx0
    (iexists _; iexact Hr0)
  iintro ⟨HO, Hss14, Hx0⟩
  first | iapply (wp_ret_bind c _ _ _) | skip
  -- layer 1: the send side of the piece copy for chunk 1
  first | sl_exec | skip
  iapply (step_RW m K c (0 : Fin 15) 1 (by decide) (cnt 15 2) (cnt 0 2) (fun i => Nat.lt_of_lt_of_le (Nat.lt_succ_self 1) (lt_cnt 15 2 i)) (lt_cnt_next 0 1)) $$ [HO Hrs0]
  · isplitr; · iexact HI
    isplitl [HO]; · iexact HO
    isplitr; · iexact Hlev
    iexact Hrs0
  iintro ⟨HO, Hrc0, Hpay⟩
  first | iapply (wp_ret_bind c _ _ _) | skip
  ihave Hp1 := (rsSPay_open m c (0 : Fin 15) 1) $$ Hpay
  -- layer 1: the send side of the piece copy for chunk 2
  first | sl_exec | skip
  iapply (step_RW m K c (1 : Fin 15) 1 (by decide) (cnt 15 2) (cnt 0 2) (fun i => Nat.lt_of_lt_of_le (Nat.lt_succ_self 1) (lt_cnt 15 2 i)) (lt_cnt_next 0 1)) $$ [HO Hrs1]
  · isplitr; · iexact HI
    isplitl [HO]; · iexact HO
    isplitr; · iexact Hlev
    iexact Hrs1
  iintro ⟨HO, Hrc1, Hpay⟩
  first | iapply (wp_ret_bind c _ _ _) | skip
  ihave Hp2 := (rsSPay_open m c (1 : Fin 15) 1) $$ Hpay
  -- layer 1: the send side of the piece copy for chunk 3
  first | sl_exec | skip
  iapply (step_RW m K c (2 : Fin 15) 1 (by decide) (cnt 15 2) (cnt 0 2) (fun i => Nat.lt_of_lt_of_le (Nat.lt_succ_self 1) (lt_cnt 15 2 i)) (lt_cnt_next 0 1)) $$ [HO Hrs2]
  · isplitr; · iexact HI
    isplitl [HO]; · iexact HO
    isplitr; · iexact Hlev
    iexact Hrs2
  iintro ⟨HO, Hrc2, Hpay⟩
  first | iapply (wp_ret_bind c _ _ _) | skip
  ihave Hp3 := (rsSPay_open m c (2 : Fin 15) 1) $$ Hpay
  -- layer 1: the send side of the piece copy for chunk 4
  first | sl_exec | skip
  iapply (step_RW m K c (3 : Fin 15) 1 (by decide) (cnt 15 2) (cnt 0 2) (fun i => Nat.lt_of_lt_of_le (Nat.lt_succ_self 1) (lt_cnt 15 2 i)) (lt_cnt_next 0 1)) $$ [HO Hrs3]
  · isplitr; · iexact HI
    isplitl [HO]; · iexact HO
    isplitr; · iexact Hlev
    iexact Hrs3
  iintro ⟨HO, Hrc3, Hpay⟩
  first | iapply (wp_ret_bind c _ _ _) | skip
  ihave Hp4 := (rsSPay_open m c (3 : Fin 15) 1) $$ Hpay
  -- layer 1: the send side of the piece copy for chunk 5
  first | sl_exec | skip
  iapply (step_RW m K c (4 : Fin 15) 1 (by decide) (cnt 15 2) (cnt 0 2) (fun i => Nat.lt_of_lt_of_le (Nat.lt_succ_self 1) (lt_cnt 15 2 i)) (lt_cnt_next 0 1)) $$ [HO Hrs4]
  · isplitr; · iexact HI
    isplitl [HO]; · iexact HO
    isplitr; · iexact Hlev
    iexact Hrs4
  iintro ⟨HO, Hrc4, Hpay⟩
  first | iapply (wp_ret_bind c _ _ _) | skip
  ihave Hp5 := (rsSPay_open m c (4 : Fin 15) 1) $$ Hpay
  -- layer 1: the send side of the piece copy for chunk 6
  first | sl_exec | skip
  iapply (step_RW m K c (5 : Fin 15) 1 (by decide) (cnt 15 2) (cnt 0 2) (fun i => Nat.lt_of_lt_of_le (Nat.lt_succ_self 1) (lt_cnt 15 2 i)) (lt_cnt_next 0 1)) $$ [HO Hrs5]
  · isplitr; · iexact HI
    isplitl [HO]; · iexact HO
    isplitr; · iexact Hlev
    iexact Hrs5
  iintro ⟨HO, Hrc5, Hpay⟩
  first | iapply (wp_ret_bind c _ _ _) | skip
  ihave Hp6 := (rsSPay_open m c (5 : Fin 15) 1) $$ Hpay
  -- layer 1: the send side of the piece copy for chunk 7
  first | sl_exec | skip
  iapply (step_RW m K c (6 : Fin 15) 1 (by decide) (cnt 15 2) (cnt 0 2) (fun i => Nat.lt_of_lt_of_le (Nat.lt_succ_self 1) (lt_cnt 15 2 i)) (lt_cnt_next 0 1)) $$ [HO Hrs6]
  · isplitr; · iexact HI
    isplitl [HO]; · iexact HO
    isplitr; · iexact Hlev
    iexact Hrs6
  iintro ⟨HO, Hrc6, Hpay⟩
  first | iapply (wp_ret_bind c _ _ _) | skip
  ihave Hp7 := (rsSPay_open m c (6 : Fin 15) 1) $$ Hpay
  -- layer 1: the send side of the piece copy for chunk 8
  first | sl_exec | skip
  iapply (step_RW m K c (7 : Fin 15) 1 (by decide) (cnt 15 2) (cnt 0 2) (fun i => Nat.lt_of_lt_of_le (Nat.lt_succ_self 1) (lt_cnt 15 2 i)) (lt_cnt_next 0 1)) $$ [HO Hrs7]
  · isplitr; · iexact HI
    isplitl [HO]; · iexact HO
    isplitr; · iexact Hlev
    iexact Hrs7
  iintro ⟨HO, Hrc7, Hpay⟩
  first | iapply (wp_ret_bind c _ _ _) | skip
  ihave Hp8 := (rsSPay_open m c (7 : Fin 15) 1) $$ Hpay
  -- layer 1: the send side of the piece copy for chunk 9
  first | sl_exec | skip
  iapply (step_RW m K c (8 : Fin 15) 1 (by decide) (cnt 15 2) (cnt 0 2) (fun i => Nat.lt_of_lt_of_le (Nat.lt_succ_self 1) (lt_cnt 15 2 i)) (lt_cnt_next 0 1)) $$ [HO Hrs8]
  · isplitr; · iexact HI
    isplitl [HO]; · iexact HO
    isplitr; · iexact Hlev
    iexact Hrs8
  iintro ⟨HO, Hrc8, Hpay⟩
  first | iapply (wp_ret_bind c _ _ _) | skip
  ihave Hp9 := (rsSPay_open m c (8 : Fin 15) 1) $$ Hpay
  -- layer 1: the send side of the piece copy for chunk 10
  first | sl_exec | skip
  iapply (step_RW m K c (9 : Fin 15) 1 (by decide) (cnt 15 2) (cnt 0 2) (fun i => Nat.lt_of_lt_of_le (Nat.lt_succ_self 1) (lt_cnt 15 2 i)) (lt_cnt_next 0 1)) $$ [HO Hrs9]
  · isplitr; · iexact HI
    isplitl [HO]; · iexact HO
    isplitr; · iexact Hlev
    iexact Hrs9
  iintro ⟨HO, Hrc9, Hpay⟩
  first | iapply (wp_ret_bind c _ _ _) | skip
  ihave Hp10 := (rsSPay_open m c (9 : Fin 15) 1) $$ Hpay
  -- layer 1: the send side of the piece copy for chunk 11
  first | sl_exec | skip
  iapply (step_RW m K c (10 : Fin 15) 1 (by decide) (cnt 15 2) (cnt 0 2) (fun i => Nat.lt_of_lt_of_le (Nat.lt_succ_self 1) (lt_cnt 15 2 i)) (lt_cnt_next 0 1)) $$ [HO Hrs10]
  · isplitr; · iexact HI
    isplitl [HO]; · iexact HO
    isplitr; · iexact Hlev
    iexact Hrs10
  iintro ⟨HO, Hrc10, Hpay⟩
  first | iapply (wp_ret_bind c _ _ _) | skip
  ihave Hp11 := (rsSPay_open m c (10 : Fin 15) 1) $$ Hpay
  -- layer 1: the send side of the piece copy for chunk 12
  first | sl_exec | skip
  iapply (step_RW m K c (11 : Fin 15) 1 (by decide) (cnt 15 2) (cnt 0 2) (fun i => Nat.lt_of_lt_of_le (Nat.lt_succ_self 1) (lt_cnt 15 2 i)) (lt_cnt_next 0 1)) $$ [HO Hrs11]
  · isplitr; · iexact HI
    isplitl [HO]; · iexact HO
    isplitr; · iexact Hlev
    iexact Hrs11
  iintro ⟨HO, Hrc11, Hpay⟩
  first | iapply (wp_ret_bind c _ _ _) | skip
  ihave Hp12 := (rsSPay_open m c (11 : Fin 15) 1) $$ Hpay
  -- layer 1: the send side of the piece copy for chunk 13
  first | sl_exec | skip
  iapply (step_RW m K c (12 : Fin 15) 1 (by decide) (cnt 15 2) (cnt 0 2) (fun i => Nat.lt_of_lt_of_le (Nat.lt_succ_self 1) (lt_cnt 15 2 i)) (lt_cnt_next 0 1)) $$ [HO Hrs12]
  · isplitr; · iexact HI
    isplitl [HO]; · iexact HO
    isplitr; · iexact Hlev
    iexact Hrs12
  iintro ⟨HO, Hrc12, Hpay⟩
  first | iapply (wp_ret_bind c _ _ _) | skip
  ihave Hp13 := (rsSPay_open m c (12 : Fin 15) 1) $$ Hpay
  -- layer 1: the send side of the piece copy for chunk 14
  first | sl_exec | skip
  iapply (step_RW m K c (13 : Fin 15) 1 (by decide) (cnt 15 2) (cnt 0 2) (fun i => Nat.lt_of_lt_of_le (Nat.lt_succ_self 1) (lt_cnt 15 2 i)) (lt_cnt_next 0 1)) $$ [HO Hrs13]
  · isplitr; · iexact HI
    isplitl [HO]; · iexact HO
    isplitr; · iexact Hlev
    iexact Hrs13
  iintro ⟨HO, Hrc13, Hpay⟩
  first | iapply (wp_ret_bind c _ _ _) | skip
  ihave Hp14 := (rsSPay_open m c (13 : Fin 15) 1) $$ Hpay
  -- layer 1: the send side of the piece copy for chunk 15
  first | sl_exec | skip
  iapply (step_RW m K c (14 : Fin 15) 1 (by decide) (cnt 15 2) (cnt 0 2) (fun i => Nat.lt_of_lt_of_le (Nat.lt_succ_self 1) (lt_cnt 15 2 i)) (lt_cnt_next 0 1)) $$ [HO Hrs14]
  · isplitr; · iexact HI
    isplitl [HO]; · iexact HO
    isplitr; · iexact Hlev
    iexact Hrs14
  iintro ⟨HO, Hrc14, Hpay⟩
  first | iapply (wp_ret_bind c _ _ _) | skip
  ihave Hp15 := (rsSPay_open m c (14 : Fin 15) 1) $$ Hpay
  -- layer 2: the device's weight blocks
  first | sl_exec | skip
  iapply (loadStg5 c (argWi m 2 c)) $$ [Hw5']
  · iexact Hw5'
  iintro Hw5'
  first | iapply (wp_ret_bind c _ _ _) | skip
  first | sl_exec | skip
  iapply (loadStg6 c (argWo m 2 c)) $$ [Hw6']
  · iexact Hw6'
  iintro Hw6'
  first | iapply (wp_ret_bind c _ _ _) | skip
  -- layer 2: wait for chunk 1 (from the device 1 places before)
  first | sl_exec | skip
  iapply (step_AR m K c (0 : Fin 15) 2 (by decide) (cnt 15 2) (cnt 0 2) (lt_cnt_full 2) (lt_cnt 0 2)) $$ [HO Hrc0]
  · isplitr; · iexact HI
    isplitl [HO]; · iexact HO
    isplitr; · iexact Hlev
    iexact Hrc0
  iintro ⟨HO, Hrg0, Hpay⟩
  first | iapply (wp_ret_bind c _ _ _) | skip
  ihave Hpay' := (agRPay_open m c (0 : Fin 15) 2) $$ Hpay
  icases Hpay' with ⟨Hx1, Hdr0⟩
  -- layer 2, group 0: the two chunks read as one block of 512 rows
  first | sl_exec | skip
  iapply (loadX c (0 : Fin 8) 15 (chunkAt m 2 c) (chunkAt m 2 (bwd c 1))) $$ [Hx0 Hx1]
  · isplitl [Hx0]; · iexact Hx0
    iexact Hx1
  iintro ⟨Hx0, Hx1⟩
  first | iapply (wp_ret_bind c _ _ _) | skip
  -- layer 2: the piece for chunk 1, stored into slot 1 of P and sent back
  first | sl_exec | skip
  iapply (loadPany c (1 : Fin 16) (pfill c (1 : Fin 16) (pieceAt m 1 c 1))) $$ [Hp1]
  · iexact Hp1
  iintro Hp1
  first | iapply (wp_ret_bind c _ _ _) | skip
  first | sl_exec | skip
  iapply (storeP c (1 : Fin 16) _) $$ [Hp1]
  · iexists _; iexact Hp1
  iintro Hq1
  first | iapply (wp_ret_bind c _ _ _) | skip
  ihave Hp1 : pPts (F := F) c (1 : Fin 16) (pfill c (1 : Fin 16) (pieceAt m 2 c 1)) $$ [Hq1]
  · sl_unfold_run_names
    rw [store_P_2_1 m c]
    iexact Hq1
  first | sl_exec | skip
  iapply (step_RS_last_d m K c 0 (by decide) (cnt 15 2) _ (dev91_eq c)) $$ [HO Hrg0 Hdr0 Hp1]
  · isplitr; · iexact HI
    isplitl [HO]; · iexact HO
    isplitl [Hrg0]; · iexact Hrg0
    isplitl [Hdr0]; · iexact Hdr0
    iexact Hp1
  iintro ⟨HO, Hrs0⟩
  first | iapply (wp_ret_bind c _ _ _) | skip
  -- layer 2: wait for chunk 2 (from the device 2 places before)
  first | sl_exec | skip
  iapply (step_AR m K c (1 : Fin 15) 2 (by decide) (cnt 15 2) (cnt 1 2) (lt_cnt_full 2) (lt_cnt 1 2)) $$ [HO Hrc1]
  · isplitr; · iexact HI
    isplitl [HO]; · iexact HO
    isplitr; · iexact Hlev
    iexact Hrc1
  iintro ⟨HO, Hrg1, Hpay⟩
  first | iapply (wp_ret_bind c _ _ _) | skip
  ihave Hpay' := (agRPay_open m c (1 : Fin 15) 2) $$ Hpay
  icases Hpay' with ⟨Hx2, Hdr1⟩
  -- layer 2: wait for chunk 3 (from the device 3 places before)
  first | sl_exec | skip
  iapply (step_AR m K c (2 : Fin 15) 2 (by decide) (cnt 15 2) (cnt 1 2) (lt_cnt_full 2) (lt_cnt 1 2)) $$ [HO Hrc2]
  · isplitr; · iexact HI
    isplitl [HO]; · iexact HO
    isplitr; · iexact Hlev
    iexact Hrc2
  iintro ⟨HO, Hrg2, Hpay⟩
  first | iapply (wp_ret_bind c _ _ _) | skip
  ihave Hpay' := (agRPay_open m c (2 : Fin 15) 2) $$ Hpay
  icases Hpay' with ⟨Hx3, Hdr2⟩
  -- layer 2, group 1: the two chunks read as one block of 512 rows
  first | sl_exec | skip
  iapply (loadX c (1 : Fin 8) 0 (chunkAt m 2 (bwd c 2)) (chunkAt m 2 (bwd c 3))) $$ [Hx2 Hx3]
  · isplitl [Hx2]; · iexact Hx2
    iexact Hx3
  iintro ⟨Hx2, Hx3⟩
  first | iapply (wp_ret_bind c _ _ _) | skip
  -- layer 2: the piece for chunk 2, stored into slot 2 of P and sent back
  first | sl_exec | skip
  iapply (loadPany c (2 : Fin 16) (pfill c (2 : Fin 16) (pieceAt m 1 c 2))) $$ [Hp2]
  · iexact Hp2
  iintro Hp2
  first | iapply (wp_ret_bind c _ _ _) | skip
  first | sl_exec | skip
  iapply (storeP c (2 : Fin 16) _) $$ [Hp2]
  · iexists _; iexact Hp2
  iintro Hq2
  first | iapply (wp_ret_bind c _ _ _) | skip
  ihave Hp2 : pPts (F := F) c (2 : Fin 16) (pfill c (2 : Fin 16) (pieceAt m 2 c 2)) $$ [Hq2]
  · sl_unfold_run_names
    rw [store_P_2_2 m c]
    iexact Hq2
  first | sl_exec | skip
  iapply (step_RS_last_d m K c 1 (by decide) (cnt 15 2) _ (dev92_eq c)) $$ [HO Hrg1 Hdr1 Hp2]
  · isplitr; · iexact HI
    isplitl [HO]; · iexact HO
    isplitl [Hrg1]; · iexact Hrg1
    isplitl [Hdr1]; · iexact Hdr1
    iexact Hp2
  iintro ⟨HO, Hrs1⟩
  first | iapply (wp_ret_bind c _ _ _) | skip
  -- layer 2: the piece for chunk 3, stored into slot 3 of P and sent back
  first | sl_exec | skip
  iapply (loadPany c (3 : Fin 16) (pfill c (3 : Fin 16) (pieceAt m 1 c 3))) $$ [Hp3]
  · iexact Hp3
  iintro Hp3
  first | iapply (wp_ret_bind c _ _ _) | skip
  first | sl_exec | skip
  iapply (storeP c (3 : Fin 16) _) $$ [Hp3]
  · iexists _; iexact Hp3
  iintro Hq3
  first | iapply (wp_ret_bind c _ _ _) | skip
  ihave Hp3 : pPts (F := F) c (3 : Fin 16) (pfill c (3 : Fin 16) (pieceAt m 2 c 3)) $$ [Hq3]
  · sl_unfold_run_names
    rw [store_P_2_3 m c]
    iexact Hq3
  first | sl_exec | skip
  iapply (step_RS_last_d m K c 2 (by decide) (cnt 15 2) _ (dev93_eq c)) $$ [HO Hrg2 Hdr2 Hp3]
  · isplitr; · iexact HI
    isplitl [HO]; · iexact HO
    isplitl [Hrg2]; · iexact Hrg2
    isplitl [Hdr2]; · iexact Hdr2
    iexact Hp3
  iintro ⟨HO, Hrs2⟩
  first | iapply (wp_ret_bind c _ _ _) | skip
  -- layer 2: wait for chunk 4 (from the device 4 places before)
  first | sl_exec | skip
  iapply (step_AR m K c (3 : Fin 15) 2 (by decide) (cnt 15 2) (cnt 3 2) (lt_cnt_full 2) (lt_cnt 3 2)) $$ [HO Hrc3]
  · isplitr; · iexact HI
    isplitl [HO]; · iexact HO
    isplitr; · iexact Hlev
    iexact Hrc3
  iintro ⟨HO, Hrg3, Hpay⟩
  first | iapply (wp_ret_bind c _ _ _) | skip
  ihave Hpay' := (agRPay_open m c (3 : Fin 15) 2) $$ Hpay
  icases Hpay' with ⟨Hx4, Hdr3⟩
  -- layer 2: wait for chunk 5 (from the device 5 places before)
  first | sl_exec | skip
  iapply (step_AR m K c (4 : Fin 15) 2 (by decide) (cnt 15 2) (cnt 3 2) (lt_cnt_full 2) (lt_cnt 3 2)) $$ [HO Hrc4]
  · isplitr; · iexact HI
    isplitl [HO]; · iexact HO
    isplitr; · iexact Hlev
    iexact Hrc4
  iintro ⟨HO, Hrg4, Hpay⟩
  first | iapply (wp_ret_bind c _ _ _) | skip
  ihave Hpay' := (agRPay_open m c (4 : Fin 15) 2) $$ Hpay
  icases Hpay' with ⟨Hx5, Hdr4⟩
  -- layer 2, group 2: the two chunks read as one block of 512 rows
  first | sl_exec | skip
  iapply (loadX c (2 : Fin 8) 0 (chunkAt m 2 (bwd c 4)) (chunkAt m 2 (bwd c 5))) $$ [Hx4 Hx5]
  · isplitl [Hx4]; · iexact Hx4
    iexact Hx5
  iintro ⟨Hx4, Hx5⟩
  first | iapply (wp_ret_bind c _ _ _) | skip
  -- layer 2: the piece for chunk 4, stored into slot 4 of P and sent back
  first | sl_exec | skip
  iapply (loadPany c (4 : Fin 16) (pfill c (4 : Fin 16) (pieceAt m 1 c 4))) $$ [Hp4]
  · iexact Hp4
  iintro Hp4
  first | iapply (wp_ret_bind c _ _ _) | skip
  first | sl_exec | skip
  iapply (storeP c (4 : Fin 16) _) $$ [Hp4]
  · iexists _; iexact Hp4
  iintro Hq4
  first | iapply (wp_ret_bind c _ _ _) | skip
  ihave Hp4 : pPts (F := F) c (4 : Fin 16) (pfill c (4 : Fin 16) (pieceAt m 2 c 4)) $$ [Hq4]
  · sl_unfold_run_names
    rw [store_P_2_4 m c]
    iexact Hq4
  first | sl_exec | skip
  iapply (step_RS_last_d m K c 3 (by decide) (cnt 15 2) _ (dev94_eq c)) $$ [HO Hrg3 Hdr3 Hp4]
  · isplitr; · iexact HI
    isplitl [HO]; · iexact HO
    isplitl [Hrg3]; · iexact Hrg3
    isplitl [Hdr3]; · iexact Hdr3
    iexact Hp4
  iintro ⟨HO, Hrs3⟩
  first | iapply (wp_ret_bind c _ _ _) | skip
  -- layer 2: the piece for chunk 5, stored into slot 5 of P and sent back
  first | sl_exec | skip
  iapply (loadPany c (5 : Fin 16) (pfill c (5 : Fin 16) (pieceAt m 1 c 5))) $$ [Hp5]
  · iexact Hp5
  iintro Hp5
  first | iapply (wp_ret_bind c _ _ _) | skip
  first | sl_exec | skip
  iapply (storeP c (5 : Fin 16) _) $$ [Hp5]
  · iexists _; iexact Hp5
  iintro Hq5
  first | iapply (wp_ret_bind c _ _ _) | skip
  ihave Hp5 : pPts (F := F) c (5 : Fin 16) (pfill c (5 : Fin 16) (pieceAt m 2 c 5)) $$ [Hq5]
  · sl_unfold_run_names
    rw [store_P_2_5 m c]
    iexact Hq5
  first | sl_exec | skip
  iapply (step_RS_last_d m K c 4 (by decide) (cnt 15 2) _ (dev95_eq c)) $$ [HO Hrg4 Hdr4 Hp5]
  · isplitr; · iexact HI
    isplitl [HO]; · iexact HO
    isplitl [Hrg4]; · iexact Hrg4
    isplitl [Hdr4]; · iexact Hdr4
    iexact Hp5
  iintro ⟨HO, Hrs4⟩
  first | iapply (wp_ret_bind c _ _ _) | skip
  -- layer 2: wait for chunk 6 (from the device 6 places before)
  first | sl_exec | skip
  iapply (step_AR m K c (5 : Fin 15) 2 (by decide) (cnt 15 2) (cnt 5 2) (lt_cnt_full 2) (lt_cnt 5 2)) $$ [HO Hrc5]
  · isplitr; · iexact HI
    isplitl [HO]; · iexact HO
    isplitr; · iexact Hlev
    iexact Hrc5
  iintro ⟨HO, Hrg5, Hpay⟩
  first | iapply (wp_ret_bind c _ _ _) | skip
  ihave Hpay' := (agRPay_open m c (5 : Fin 15) 2) $$ Hpay
  icases Hpay' with ⟨Hx6, Hdr5⟩
  -- layer 2: wait for chunk 7 (from the device 7 places before)
  first | sl_exec | skip
  iapply (step_AR m K c (6 : Fin 15) 2 (by decide) (cnt 15 2) (cnt 5 2) (lt_cnt_full 2) (lt_cnt 5 2)) $$ [HO Hrc6]
  · isplitr; · iexact HI
    isplitl [HO]; · iexact HO
    isplitr; · iexact Hlev
    iexact Hrc6
  iintro ⟨HO, Hrg6, Hpay⟩
  first | iapply (wp_ret_bind c _ _ _) | skip
  ihave Hpay' := (agRPay_open m c (6 : Fin 15) 2) $$ Hpay
  icases Hpay' with ⟨Hx7, Hdr6⟩
  -- layer 2, group 3: the two chunks read as one block of 512 rows
  first | sl_exec | skip
  iapply (loadX c (3 : Fin 8) 0 (chunkAt m 2 (bwd c 6)) (chunkAt m 2 (bwd c 7))) $$ [Hx6 Hx7]
  · isplitl [Hx6]; · iexact Hx6
    iexact Hx7
  iintro ⟨Hx6, Hx7⟩
  first | iapply (wp_ret_bind c _ _ _) | skip
  -- layer 2: the piece for chunk 6, stored into slot 6 of P and sent back
  first | sl_exec | skip
  iapply (loadPany c (6 : Fin 16) (pfill c (6 : Fin 16) (pieceAt m 1 c 6))) $$ [Hp6]
  · iexact Hp6
  iintro Hp6
  first | iapply (wp_ret_bind c _ _ _) | skip
  first | sl_exec | skip
  iapply (storeP c (6 : Fin 16) _) $$ [Hp6]
  · iexists _; iexact Hp6
  iintro Hq6
  first | iapply (wp_ret_bind c _ _ _) | skip
  ihave Hp6 : pPts (F := F) c (6 : Fin 16) (pfill c (6 : Fin 16) (pieceAt m 2 c 6)) $$ [Hq6]
  · sl_unfold_run_names
    rw [store_P_2_6 m c]
    iexact Hq6
  first | sl_exec | skip
  iapply (step_RS_last_d m K c 5 (by decide) (cnt 15 2) _ (dev96_eq c)) $$ [HO Hrg5 Hdr5 Hp6]
  · isplitr; · iexact HI
    isplitl [HO]; · iexact HO
    isplitl [Hrg5]; · iexact Hrg5
    isplitl [Hdr5]; · iexact Hdr5
    iexact Hp6
  iintro ⟨HO, Hrs5⟩
  first | iapply (wp_ret_bind c _ _ _) | skip
  -- layer 2: the piece for chunk 7, stored into slot 7 of P and sent back
  first | sl_exec | skip
  iapply (loadPany c (7 : Fin 16) (pfill c (7 : Fin 16) (pieceAt m 1 c 7))) $$ [Hp7]
  · iexact Hp7
  iintro Hp7
  first | iapply (wp_ret_bind c _ _ _) | skip
  first | sl_exec | skip
  iapply (storeP c (7 : Fin 16) _) $$ [Hp7]
  · iexists _; iexact Hp7
  iintro Hq7
  first | iapply (wp_ret_bind c _ _ _) | skip
  ihave Hp7 : pPts (F := F) c (7 : Fin 16) (pfill c (7 : Fin 16) (pieceAt m 2 c 7)) $$ [Hq7]
  · sl_unfold_run_names
    rw [store_P_2_7 m c]
    iexact Hq7
  first | sl_exec | skip
  iapply (step_RS_last_d m K c 6 (by decide) (cnt 15 2) _ (dev97_eq c)) $$ [HO Hrg6 Hdr6 Hp7]
  · isplitr; · iexact HI
    isplitl [HO]; · iexact HO
    isplitl [Hrg6]; · iexact Hrg6
    isplitl [Hdr6]; · iexact Hdr6
    iexact Hp7
  iintro ⟨HO, Hrs6⟩
  first | iapply (wp_ret_bind c _ _ _) | skip
  -- layer 2: wait for chunk 8 (from the device 8 places before)
  first | sl_exec | skip
  iapply (step_AR m K c (7 : Fin 15) 2 (by decide) (cnt 15 2) (cnt 7 2) (lt_cnt_full 2) (lt_cnt 7 2)) $$ [HO Hrc7]
  · isplitr; · iexact HI
    isplitl [HO]; · iexact HO
    isplitr; · iexact Hlev
    iexact Hrc7
  iintro ⟨HO, Hrg7, Hpay⟩
  first | iapply (wp_ret_bind c _ _ _) | skip
  ihave Hpay' := (agRPay_open m c (7 : Fin 15) 2) $$ Hpay
  icases Hpay' with ⟨Hx8, Hdr7⟩
  -- layer 2: wait for chunk 9 (from the device 9 places before)
  first | sl_exec | skip
  iapply (step_AR m K c (8 : Fin 15) 2 (by decide) (cnt 15 2) (cnt 7 2) (lt_cnt_full 2) (lt_cnt 7 2)) $$ [HO Hrc8]
  · isplitr; · iexact HI
    isplitl [HO]; · iexact HO
    isplitr; · iexact Hlev
    iexact Hrc8
  iintro ⟨HO, Hrg8, Hpay⟩
  first | iapply (wp_ret_bind c _ _ _) | skip
  ihave Hpay' := (agRPay_open m c (8 : Fin 15) 2) $$ Hpay
  icases Hpay' with ⟨Hx9, Hdr8⟩
  -- layer 2, group 4: the two chunks read as one block of 512 rows
  first | sl_exec | skip
  iapply (loadX c (4 : Fin 8) 0 (chunkAt m 2 (bwd c 8)) (chunkAt m 2 (bwd c 9))) $$ [Hx8 Hx9]
  · isplitl [Hx8]; · iexact Hx8
    iexact Hx9
  iintro ⟨Hx8, Hx9⟩
  first | iapply (wp_ret_bind c _ _ _) | skip
  -- layer 2: the piece for chunk 8, stored into slot 8 of P and sent back
  first | sl_exec | skip
  iapply (loadPany c (8 : Fin 16) (pfill c (8 : Fin 16) (pieceAt m 1 c 8))) $$ [Hp8]
  · iexact Hp8
  iintro Hp8
  first | iapply (wp_ret_bind c _ _ _) | skip
  first | sl_exec | skip
  iapply (storeP c (8 : Fin 16) _) $$ [Hp8]
  · iexists _; iexact Hp8
  iintro Hq8
  first | iapply (wp_ret_bind c _ _ _) | skip
  ihave Hp8 : pPts (F := F) c (8 : Fin 16) (pfill c (8 : Fin 16) (pieceAt m 2 c 8)) $$ [Hq8]
  · sl_unfold_run_names
    rw [store_P_2_8 m c]
    iexact Hq8
  first | sl_exec | skip
  iapply (step_RS_last_d m K c 7 (by decide) (cnt 15 2) _ (dev98_eq c)) $$ [HO Hrg7 Hdr7 Hp8]
  · isplitr; · iexact HI
    isplitl [HO]; · iexact HO
    isplitl [Hrg7]; · iexact Hrg7
    isplitl [Hdr7]; · iexact Hdr7
    iexact Hp8
  iintro ⟨HO, Hrs7⟩
  first | iapply (wp_ret_bind c _ _ _) | skip
  -- layer 2: the piece for chunk 9, stored into slot 9 of P and sent back
  first | sl_exec | skip
  iapply (loadPany c (9 : Fin 16) (pfill c (9 : Fin 16) (pieceAt m 1 c 9))) $$ [Hp9]
  · iexact Hp9
  iintro Hp9
  first | iapply (wp_ret_bind c _ _ _) | skip
  first | sl_exec | skip
  iapply (storeP c (9 : Fin 16) _) $$ [Hp9]
  · iexists _; iexact Hp9
  iintro Hq9
  first | iapply (wp_ret_bind c _ _ _) | skip
  ihave Hp9 : pPts (F := F) c (9 : Fin 16) (pfill c (9 : Fin 16) (pieceAt m 2 c 9)) $$ [Hq9]
  · sl_unfold_run_names
    rw [store_P_2_9 m c]
    iexact Hq9
  first | sl_exec | skip
  iapply (step_RS_last_d m K c 8 (by decide) (cnt 15 2) _ (dev99_eq c)) $$ [HO Hrg8 Hdr8 Hp9]
  · isplitr; · iexact HI
    isplitl [HO]; · iexact HO
    isplitl [Hrg8]; · iexact Hrg8
    isplitl [Hdr8]; · iexact Hdr8
    iexact Hp9
  iintro ⟨HO, Hrs8⟩
  first | iapply (wp_ret_bind c _ _ _) | skip
  -- layer 2: wait for chunk 10 (from the device 10 places before)
  first | sl_exec | skip
  iapply (step_AR m K c (9 : Fin 15) 2 (by decide) (cnt 15 2) (cnt 9 2) (lt_cnt_full 2) (lt_cnt 9 2)) $$ [HO Hrc9]
  · isplitr; · iexact HI
    isplitl [HO]; · iexact HO
    isplitr; · iexact Hlev
    iexact Hrc9
  iintro ⟨HO, Hrg9, Hpay⟩
  first | iapply (wp_ret_bind c _ _ _) | skip
  ihave Hpay' := (agRPay_open m c (9 : Fin 15) 2) $$ Hpay
  icases Hpay' with ⟨Hx10, Hdr9⟩
  -- layer 2: wait for chunk 11 (from the device 11 places before)
  first | sl_exec | skip
  iapply (step_AR m K c (10 : Fin 15) 2 (by decide) (cnt 15 2) (cnt 9 2) (lt_cnt_full 2) (lt_cnt 9 2)) $$ [HO Hrc10]
  · isplitr; · iexact HI
    isplitl [HO]; · iexact HO
    isplitr; · iexact Hlev
    iexact Hrc10
  iintro ⟨HO, Hrg10, Hpay⟩
  first | iapply (wp_ret_bind c _ _ _) | skip
  ihave Hpay' := (agRPay_open m c (10 : Fin 15) 2) $$ Hpay
  icases Hpay' with ⟨Hx11, Hdr10⟩
  -- layer 2, group 5: the two chunks read as one block of 512 rows
  first | sl_exec | skip
  iapply (loadX c (5 : Fin 8) 0 (chunkAt m 2 (bwd c 10)) (chunkAt m 2 (bwd c 11))) $$ [Hx10 Hx11]
  · isplitl [Hx10]; · iexact Hx10
    iexact Hx11
  iintro ⟨Hx10, Hx11⟩
  first | iapply (wp_ret_bind c _ _ _) | skip
  -- layer 2: the piece for chunk 10, stored into slot 10 of P and sent back
  first | sl_exec | skip
  iapply (loadPany c (10 : Fin 16) (pfill c (10 : Fin 16) (pieceAt m 1 c 10))) $$ [Hp10]
  · iexact Hp10
  iintro Hp10
  first | iapply (wp_ret_bind c _ _ _) | skip
  first | sl_exec | skip
  iapply (storeP c (10 : Fin 16) _) $$ [Hp10]
  · iexists _; iexact Hp10
  iintro Hq10
  first | iapply (wp_ret_bind c _ _ _) | skip
  ihave Hp10 : pPts (F := F) c (10 : Fin 16) (pfill c (10 : Fin 16) (pieceAt m 2 c 10)) $$ [Hq10]
  · sl_unfold_run_names
    rw [store_P_2_10 m c]
    iexact Hq10
  first | sl_exec | skip
  iapply (step_RS_last_d m K c 9 (by decide) (cnt 15 2) _ (dev100_eq c)) $$ [HO Hrg9 Hdr9 Hp10]
  · isplitr; · iexact HI
    isplitl [HO]; · iexact HO
    isplitl [Hrg9]; · iexact Hrg9
    isplitl [Hdr9]; · iexact Hdr9
    iexact Hp10
  iintro ⟨HO, Hrs9⟩
  first | iapply (wp_ret_bind c _ _ _) | skip
  -- layer 2: the piece for chunk 11, stored into slot 11 of P and sent back
  first | sl_exec | skip
  iapply (loadPany c (11 : Fin 16) (pfill c (11 : Fin 16) (pieceAt m 1 c 11))) $$ [Hp11]
  · iexact Hp11
  iintro Hp11
  first | iapply (wp_ret_bind c _ _ _) | skip
  first | sl_exec | skip
  iapply (storeP c (11 : Fin 16) _) $$ [Hp11]
  · iexists _; iexact Hp11
  iintro Hq11
  first | iapply (wp_ret_bind c _ _ _) | skip
  ihave Hp11 : pPts (F := F) c (11 : Fin 16) (pfill c (11 : Fin 16) (pieceAt m 2 c 11)) $$ [Hq11]
  · sl_unfold_run_names
    first | rw [store_P_2_11' m c] | rw [store_P_2_11 m c]
    iexact Hq11
  first | sl_exec | skip
  iapply (step_RS_last_d m K c 10 (by decide) (cnt 15 2) _ (dev101_eq c)) $$ [HO Hrg10 Hdr10 Hp11]
  · isplitr; · iexact HI
    isplitl [HO]; · iexact HO
    isplitl [Hrg10]; · iexact Hrg10
    isplitl [Hdr10]; · iexact Hdr10
    iexact Hp11
  iintro ⟨HO, Hrs10⟩
  first | iapply (wp_ret_bind c _ _ _) | skip
  -- layer 2: wait for chunk 12 (from the device 12 places before)
  first | sl_exec | skip
  iapply (step_AR m K c (11 : Fin 15) 2 (by decide) (cnt 15 2) (cnt 11 2) (lt_cnt_full 2) (lt_cnt 11 2)) $$ [HO Hrc11]
  · isplitr; · iexact HI
    isplitl [HO]; · iexact HO
    isplitr; · iexact Hlev
    iexact Hrc11
  iintro ⟨HO, Hrg11, Hpay⟩
  first | iapply (wp_ret_bind c _ _ _) | skip
  ihave Hpay' := (agRPay_open m c (11 : Fin 15) 2) $$ Hpay
  icases Hpay' with ⟨Hx12, Hdr11⟩
  -- layer 2: wait for chunk 13 (from the device 13 places before)
  first | sl_exec | skip
  iapply (step_AR m K c (12 : Fin 15) 2 (by decide) (cnt 15 2) (cnt 11 2) (lt_cnt_full 2) (lt_cnt 11 2)) $$ [HO Hrc12]
  · isplitr; · iexact HI
    isplitl [HO]; · iexact HO
    isplitr; · iexact Hlev
    iexact Hrc12
  iintro ⟨HO, Hrg12, Hpay⟩
  first | iapply (wp_ret_bind c _ _ _) | skip
  ihave Hpay' := (agRPay_open m c (12 : Fin 15) 2) $$ Hpay
  icases Hpay' with ⟨Hx13, Hdr12⟩
  -- layer 2, group 6: the two chunks read as one block of 512 rows
  first | sl_exec | skip
  iapply (loadX c (6 : Fin 8) 0 (chunkAt m 2 (bwd c 12)) (chunkAt m 2 (bwd c 13))) $$ [Hx12 Hx13]
  · isplitl [Hx12]; · iexact Hx12
    iexact Hx13
  iintro ⟨Hx12, Hx13⟩
  first | iapply (wp_ret_bind c _ _ _) | skip
  -- layer 2: the piece for chunk 12, stored into slot 12 of P and sent back
  first | sl_exec | skip
  iapply (loadPany c (12 : Fin 16) (pfill c (12 : Fin 16) (pieceAt m 1 c 12))) $$ [Hp12]
  · iexact Hp12
  iintro Hp12
  first | iapply (wp_ret_bind c _ _ _) | skip
  first | sl_exec | skip
  iapply (storeP c (12 : Fin 16) _) $$ [Hp12]
  · iexists _; iexact Hp12
  iintro Hq12
  first | iapply (wp_ret_bind c _ _ _) | skip
  ihave Hp12 : pPts (F := F) c (12 : Fin 16) (pfill c (12 : Fin 16) (pieceAt m 2 c 12)) $$ [Hq12]
  · sl_unfold_run_names
    rw [store_P_2_12 m c]
    iexact Hq12
  first | sl_exec | skip
  iapply (step_RS_last_d m K c 11 (by decide) (cnt 15 2) _ (dev102_eq c)) $$ [HO Hrg11 Hdr11 Hp12]
  · isplitr; · iexact HI
    isplitl [HO]; · iexact HO
    isplitl [Hrg11]; · iexact Hrg11
    isplitl [Hdr11]; · iexact Hdr11
    iexact Hp12
  iintro ⟨HO, Hrs11⟩
  first | iapply (wp_ret_bind c _ _ _) | skip
  -- layer 2: the piece for chunk 13, stored into slot 13 of P and sent back
  first | sl_exec | skip
  iapply (loadPany c (13 : Fin 16) (pfill c (13 : Fin 16) (pieceAt m 1 c 13))) $$ [Hp13]
  · iexact Hp13
  iintro Hp13
  first | iapply (wp_ret_bind c _ _ _) | skip
  first | sl_exec | skip
  iapply (storeP c (13 : Fin 16) _) $$ [Hp13]
  · iexists _; iexact Hp13
  iintro Hq13
  first | iapply (wp_ret_bind c _ _ _) | skip
  ihave Hp13 : pPts (F := F) c (13 : Fin 16) (pfill c (13 : Fin 16) (pieceAt m 2 c 13)) $$ [Hq13]
  · sl_unfold_run_names
    rw [store_P_2_13 m c]
    iexact Hq13
  first | sl_exec | skip
  iapply (step_RS_last_d m K c 12 (by decide) (cnt 15 2) _ (dev103_eq c)) $$ [HO Hrg12 Hdr12 Hp13]
  · isplitr; · iexact HI
    isplitl [HO]; · iexact HO
    isplitl [Hrg12]; · iexact Hrg12
    isplitl [Hdr12]; · iexact Hdr12
    iexact Hp13
  iintro ⟨HO, Hrs12⟩
  first | iapply (wp_ret_bind c _ _ _) | skip
  -- layer 2: wait for chunk 14 (from the device 14 places before)
  first | sl_exec | skip
  iapply (step_AR m K c (13 : Fin 15) 2 (by decide) (cnt 15 2) (cnt 13 2) (lt_cnt_full 2) (lt_cnt 13 2)) $$ [HO Hrc13]
  · isplitr; · iexact HI
    isplitl [HO]; · iexact HO
    isplitr; · iexact Hlev
    iexact Hrc13
  iintro ⟨HO, Hrg13, Hpay⟩
  first | iapply (wp_ret_bind c _ _ _) | skip
  ihave Hpay' := (agRPay_open m c (13 : Fin 15) 2) $$ Hpay
  icases Hpay' with ⟨Hx14, Hdr13⟩
  -- layer 2: wait for chunk 15 (from the device 15 places before)
  first | sl_exec | skip
  iapply (step_AR m K c (14 : Fin 15) 2 (by decide) (cnt 15 2) (cnt 13 2) (lt_cnt_full 2) (lt_cnt 13 2)) $$ [HO Hrc14]
  · isplitr; · iexact HI
    isplitl [HO]; · iexact HO
    isplitr; · iexact Hlev
    iexact Hrc14
  iintro ⟨HO, Hrg14, Hpay⟩
  first | iapply (wp_ret_bind c _ _ _) | skip
  ihave Hpay' := (agRPay_open m c (14 : Fin 15) 2) $$ Hpay
  icases Hpay' with ⟨Hx15, Hdr14⟩
  -- layer 2, group 7: the two chunks read as one block of 512 rows
  first | sl_exec | skip
  iapply (loadX c (7 : Fin 8) 0 (chunkAt m 2 (bwd c 14)) (chunkAt m 2 (bwd c 15))) $$ [Hx14 Hx15]
  · isplitl [Hx14]; · iexact Hx14
    iexact Hx15
  iintro ⟨Hx14, Hx15⟩
  first | iapply (wp_ret_bind c _ _ _) | skip
  -- layer 2: the piece for chunk 14, stored into slot 14 of P and sent back
  first | sl_exec | skip
  iapply (loadPany c (14 : Fin 16) (pfill c (14 : Fin 16) (pieceAt m 1 c 14))) $$ [Hp14]
  · iexact Hp14
  iintro Hp14
  first | iapply (wp_ret_bind c _ _ _) | skip
  first | sl_exec | skip
  iapply (storeP c (14 : Fin 16) _) $$ [Hp14]
  · iexists _; iexact Hp14
  iintro Hq14
  first | iapply (wp_ret_bind c _ _ _) | skip
  ihave Hp14 : pPts (F := F) c (14 : Fin 16) (pfill c (14 : Fin 16) (pieceAt m 2 c 14)) $$ [Hq14]
  · sl_unfold_run_names
    rw [store_P_2_14 m c]
    iexact Hq14
  first | sl_exec | skip
  iapply (step_RS_last_d m K c 13 (by decide) (cnt 15 2) _ (dev104_eq c)) $$ [HO Hrg13 Hdr13 Hp14]
  · isplitr; · iexact HI
    isplitl [HO]; · iexact HO
    isplitl [Hrg13]; · iexact Hrg13
    isplitl [Hdr13]; · iexact Hdr13
    iexact Hp14
  iintro ⟨HO, Hrs13⟩
  first | iapply (wp_ret_bind c _ _ _) | skip
  -- layer 2: the piece for chunk 15, stored into slot 15 of P and sent back
  first | sl_exec | skip
  iapply (loadPany c (15 : Fin 16) (pfill c (15 : Fin 16) (pieceAt m 1 c 15))) $$ [Hp15]
  · iexact Hp15
  iintro Hp15
  first | iapply (wp_ret_bind c _ _ _) | skip
  first | sl_exec | skip
  iapply (storeP c (15 : Fin 16) _) $$ [Hp15]
  · iexists _; iexact Hp15
  iintro Hq15
  first | iapply (wp_ret_bind c _ _ _) | skip
  ihave Hp15 : pPts (F := F) c (15 : Fin 16) (pfill c (15 : Fin 16) (pieceAt m 2 c 15)) $$ [Hq15]
  · sl_unfold_run_names
    rw [store_P_2_15 m c]
    iexact Hq15
  first | sl_exec | skip
  iapply (step_RS_last_d m K c 14 (by decide) (cnt 15 2) _ (dev105_eq c)) $$ [HO Hrg14 Hdr14 Hp15]
  · isplitr; · iexact HI
    isplitl [HO]; · iexact HO
    isplitl [Hrg14]; · iexact Hrg14
    isplitl [Hdr14]; · iexact Hdr14
    iexact Hp15
  iintro ⟨HO, Hrs14⟩
  first | iapply (wp_ret_bind c _ _ _) | skip
  -- layer 2: the send side of chunk copy 1
  first | sl_exec | skip
  iapply (step_AW m K c (0 : Fin 15) 2 (by decide) (cnt 15 2) (cnt 15 2) (lt_cnt_full 2) (fun i => (lt_cnt_full 2 i).le)) $$ [HO Hss0]
  · isplitr; · iexact HI
    isplitl [HO]; · iexact HO
    isplitr; · iexact Hlev
    iexact Hss0
  iintro ⟨HO, Hsw0, Hl0⟩
  first | iapply (wp_ret_bind c _ _ _) | skip
  -- layer 2: the send side of chunk copy 2
  first | sl_exec | skip
  iapply (step_AW m K c (1 : Fin 15) 2 (by decide) (cnt 15 2) (cnt 15 2) (lt_cnt_full 2) (fun i => (lt_cnt_full 2 i).le)) $$ [HO Hss1]
  · isplitr; · iexact HI
    isplitl [HO]; · iexact HO
    isplitr; · iexact Hlev
    iexact Hss1
  iintro ⟨HO, Hsw1, Hl1⟩
  first | iapply (wp_ret_bind c _ _ _) | skip
  -- layer 2: the send side of chunk copy 3
  first | sl_exec | skip
  iapply (step_AW m K c (2 : Fin 15) 2 (by decide) (cnt 15 2) (cnt 15 2) (lt_cnt_full 2) (fun i => (lt_cnt_full 2 i).le)) $$ [HO Hss2]
  · isplitr; · iexact HI
    isplitl [HO]; · iexact HO
    isplitr; · iexact Hlev
    iexact Hss2
  iintro ⟨HO, Hsw2, Hl2⟩
  first | iapply (wp_ret_bind c _ _ _) | skip
  -- layer 2: the send side of chunk copy 4
  first | sl_exec | skip
  iapply (step_AW m K c (3 : Fin 15) 2 (by decide) (cnt 15 2) (cnt 15 2) (lt_cnt_full 2) (fun i => (lt_cnt_full 2 i).le)) $$ [HO Hss3]
  · isplitr; · iexact HI
    isplitl [HO]; · iexact HO
    isplitr; · iexact Hlev
    iexact Hss3
  iintro ⟨HO, Hsw3, Hl3⟩
  first | iapply (wp_ret_bind c _ _ _) | skip
  -- layer 2: the send side of chunk copy 5
  first | sl_exec | skip
  iapply (step_AW m K c (4 : Fin 15) 2 (by decide) (cnt 15 2) (cnt 15 2) (lt_cnt_full 2) (fun i => (lt_cnt_full 2 i).le)) $$ [HO Hss4]
  · isplitr; · iexact HI
    isplitl [HO]; · iexact HO
    isplitr; · iexact Hlev
    iexact Hss4
  iintro ⟨HO, Hsw4, Hl4⟩
  first | iapply (wp_ret_bind c _ _ _) | skip
  -- layer 2: the send side of chunk copy 6
  first | sl_exec | skip
  iapply (step_AW m K c (5 : Fin 15) 2 (by decide) (cnt 15 2) (cnt 15 2) (lt_cnt_full 2) (fun i => (lt_cnt_full 2 i).le)) $$ [HO Hss5]
  · isplitr; · iexact HI
    isplitl [HO]; · iexact HO
    isplitr; · iexact Hlev
    iexact Hss5
  iintro ⟨HO, Hsw5, Hl5⟩
  first | iapply (wp_ret_bind c _ _ _) | skip
  -- layer 2: the send side of chunk copy 7
  first | sl_exec | skip
  iapply (step_AW m K c (6 : Fin 15) 2 (by decide) (cnt 15 2) (cnt 15 2) (lt_cnt_full 2) (fun i => (lt_cnt_full 2 i).le)) $$ [HO Hss6]
  · isplitr; · iexact HI
    isplitl [HO]; · iexact HO
    isplitr; · iexact Hlev
    iexact Hss6
  iintro ⟨HO, Hsw6, Hl6⟩
  first | iapply (wp_ret_bind c _ _ _) | skip
  -- layer 2: the send side of chunk copy 8
  first | sl_exec | skip
  iapply (step_AW m K c (7 : Fin 15) 2 (by decide) (cnt 15 2) (cnt 15 2) (lt_cnt_full 2) (fun i => (lt_cnt_full 2 i).le)) $$ [HO Hss7]
  · isplitr; · iexact HI
    isplitl [HO]; · iexact HO
    isplitr; · iexact Hlev
    iexact Hss7
  iintro ⟨HO, Hsw7, Hl7⟩
  first | iapply (wp_ret_bind c _ _ _) | skip
  -- layer 2: the send side of chunk copy 9
  first | sl_exec | skip
  iapply (step_AW m K c (8 : Fin 15) 2 (by decide) (cnt 15 2) (cnt 15 2) (lt_cnt_full 2) (fun i => (lt_cnt_full 2 i).le)) $$ [HO Hss8]
  · isplitr; · iexact HI
    isplitl [HO]; · iexact HO
    isplitr; · iexact Hlev
    iexact Hss8
  iintro ⟨HO, Hsw8, Hl8⟩
  first | iapply (wp_ret_bind c _ _ _) | skip
  -- layer 2: the send side of chunk copy 10
  first | sl_exec | skip
  iapply (step_AW m K c (9 : Fin 15) 2 (by decide) (cnt 15 2) (cnt 15 2) (lt_cnt_full 2) (fun i => (lt_cnt_full 2 i).le)) $$ [HO Hss9]
  · isplitr; · iexact HI
    isplitl [HO]; · iexact HO
    isplitr; · iexact Hlev
    iexact Hss9
  iintro ⟨HO, Hsw9, Hl9⟩
  first | iapply (wp_ret_bind c _ _ _) | skip
  -- layer 2: the send side of chunk copy 11
  first | sl_exec | skip
  iapply (step_AW m K c (10 : Fin 15) 2 (by decide) (cnt 15 2) (cnt 15 2) (lt_cnt_full 2) (fun i => (lt_cnt_full 2 i).le)) $$ [HO Hss10]
  · isplitr; · iexact HI
    isplitl [HO]; · iexact HO
    isplitr; · iexact Hlev
    iexact Hss10
  iintro ⟨HO, Hsw10, Hl10⟩
  first | iapply (wp_ret_bind c _ _ _) | skip
  -- layer 2: the send side of chunk copy 12
  first | sl_exec | skip
  iapply (step_AW m K c (11 : Fin 15) 2 (by decide) (cnt 15 2) (cnt 15 2) (lt_cnt_full 2) (fun i => (lt_cnt_full 2 i).le)) $$ [HO Hss11]
  · isplitr; · iexact HI
    isplitl [HO]; · iexact HO
    isplitr; · iexact Hlev
    iexact Hss11
  iintro ⟨HO, Hsw11, Hl11⟩
  first | iapply (wp_ret_bind c _ _ _) | skip
  -- layer 2: the send side of chunk copy 13
  first | sl_exec | skip
  iapply (step_AW m K c (12 : Fin 15) 2 (by decide) (cnt 15 2) (cnt 15 2) (lt_cnt_full 2) (fun i => (lt_cnt_full 2 i).le)) $$ [HO Hss12]
  · isplitr; · iexact HI
    isplitl [HO]; · iexact HO
    isplitr; · iexact Hlev
    iexact Hss12
  iintro ⟨HO, Hsw12, Hl12⟩
  first | iapply (wp_ret_bind c _ _ _) | skip
  -- layer 2: the send side of chunk copy 14
  first | sl_exec | skip
  iapply (step_AW m K c (13 : Fin 15) 2 (by decide) (cnt 15 2) (cnt 15 2) (lt_cnt_full 2) (fun i => (lt_cnt_full 2 i).le)) $$ [HO Hss13]
  · isplitr; · iexact HI
    isplitl [HO]; · iexact HO
    isplitr; · iexact Hlev
    iexact Hss13
  iintro ⟨HO, Hsw13, Hl13⟩
  first | iapply (wp_ret_bind c _ _ _) | skip
  -- layer 2: the send side of chunk copy 15
  first | sl_exec | skip
  iapply (step_AW m K c (14 : Fin 15) 2 (by decide) (cnt 15 2) (cnt 15 2) (lt_cnt_full 2) (fun i => (lt_cnt_full 2 i).le)) $$ [HO Hss14]
  · isplitr; · iexact HI
    isplitl [HO]; · iexact HO
    isplitr; · iexact Hlev
    iexact Hss14
  iintro ⟨HO, Hsw14, Hl14⟩
  first | iapply (wp_ret_bind c _ _ _) | skip
  -- layer 2: wait for the piece of copy index 1 and read it
  first | sl_exec | skip
  iapply (step_RR m K c (0 : Fin 15) 2 (by decide) (cnt 15 2) (cnt 15 2) (lt_cnt_full 2) (lt_cnt_full 2)) $$ [HO Hsw0]
  · isplitr; · iexact HI
    isplitl [HO]; · iexact HO
    isplitr; · iexact Hlev
    iexact Hsw0
  iintro ⟨HO, Hsn0, Hpay⟩
  first | iapply (wp_ret_bind c _ _ _) | skip
  ihave Hr14 := (rsRPay_open_last m c (0 : Fin 15) 2 (by decide)) $$ Hpay
  first | sl_exec | skip
  iapply (loadR c (14 : Fin 15) (pieceAt m 2 (fwd c 1) 1)) $$ [Hr14]
  · iexact Hr14
  iintro Hr14
  first | iapply (wp_ret_bind c _ _ _) | skip
  -- layer 2: wait for the piece of copy index 2 and read it
  first | sl_exec | skip
  iapply (step_RR m K c (1 : Fin 15) 2 (by decide) (cnt 15 2) (cnt 15 2) (lt_cnt_full 2) (lt_cnt_full 2)) $$ [HO Hsw1]
  · isplitr; · iexact HI
    isplitl [HO]; · iexact HO
    isplitr; · iexact Hlev
    iexact Hsw1
  iintro ⟨HO, Hsn1, Hpay⟩
  first | iapply (wp_ret_bind c _ _ _) | skip
  ihave Hr13 := (rsRPay_open_last m c (1 : Fin 15) 2 (by decide)) $$ Hpay
  first | sl_exec | skip
  iapply (loadR c (13 : Fin 15) (pieceAt m 2 (fwd c 2) 2)) $$ [Hr13]
  · iexact Hr13
  iintro Hr13
  first | iapply (wp_ret_bind c _ _ _) | skip
  -- layer 2: wait for the piece of copy index 3 and read it
  first | sl_exec | skip
  iapply (step_RR m K c (2 : Fin 15) 2 (by decide) (cnt 15 2) (cnt 15 2) (lt_cnt_full 2) (lt_cnt_full 2)) $$ [HO Hsw2]
  · isplitr; · iexact HI
    isplitl [HO]; · iexact HO
    isplitr; · iexact Hlev
    iexact Hsw2
  iintro ⟨HO, Hsn2, Hpay⟩
  first | iapply (wp_ret_bind c _ _ _) | skip
  ihave Hr12 := (rsRPay_open_last m c (2 : Fin 15) 2 (by decide)) $$ Hpay
  first | sl_exec | skip
  iapply (loadR c (12 : Fin 15) (pieceAt m 2 (fwd c 3) 3)) $$ [Hr12]
  · iexact Hr12
  iintro Hr12
  first | iapply (wp_ret_bind c _ _ _) | skip
  -- layer 2: wait for the piece of copy index 4 and read it
  first | sl_exec | skip
  iapply (step_RR m K c (3 : Fin 15) 2 (by decide) (cnt 15 2) (cnt 15 2) (lt_cnt_full 2) (lt_cnt_full 2)) $$ [HO Hsw3]
  · isplitr; · iexact HI
    isplitl [HO]; · iexact HO
    isplitr; · iexact Hlev
    iexact Hsw3
  iintro ⟨HO, Hsn3, Hpay⟩
  first | iapply (wp_ret_bind c _ _ _) | skip
  ihave Hr11 := (rsRPay_open_last m c (3 : Fin 15) 2 (by decide)) $$ Hpay
  first | sl_exec | skip
  iapply (loadR c (11 : Fin 15) (pieceAt m 2 (fwd c 4) 4)) $$ [Hr11]
  · iexact Hr11
  iintro Hr11
  first | iapply (wp_ret_bind c _ _ _) | skip
  -- layer 2: wait for the piece of copy index 5 and read it
  first | sl_exec | skip
  iapply (step_RR m K c (4 : Fin 15) 2 (by decide) (cnt 15 2) (cnt 15 2) (lt_cnt_full 2) (lt_cnt_full 2)) $$ [HO Hsw4]
  · isplitr; · iexact HI
    isplitl [HO]; · iexact HO
    isplitr; · iexact Hlev
    iexact Hsw4
  iintro ⟨HO, Hsn4, Hpay⟩
  first | iapply (wp_ret_bind c _ _ _) | skip
  ihave Hr10 := (rsRPay_open_last m c (4 : Fin 15) 2 (by decide)) $$ Hpay
  first | sl_exec | skip
  iapply (loadR c (10 : Fin 15) (pieceAt m 2 (fwd c 5) 5)) $$ [Hr10]
  · iexact Hr10
  iintro Hr10
  first | iapply (wp_ret_bind c _ _ _) | skip
  -- layer 2: wait for the piece of copy index 6 and read it
  first | sl_exec | skip
  iapply (step_RR m K c (5 : Fin 15) 2 (by decide) (cnt 15 2) (cnt 15 2) (lt_cnt_full 2) (lt_cnt_full 2)) $$ [HO Hsw5]
  · isplitr; · iexact HI
    isplitl [HO]; · iexact HO
    isplitr; · iexact Hlev
    iexact Hsw5
  iintro ⟨HO, Hsn5, Hpay⟩
  first | iapply (wp_ret_bind c _ _ _) | skip
  ihave Hr9 := (rsRPay_open_last m c (5 : Fin 15) 2 (by decide)) $$ Hpay
  first | sl_exec | skip
  iapply (loadR c (9 : Fin 15) (pieceAt m 2 (fwd c 6) 6)) $$ [Hr9]
  · iexact Hr9
  iintro Hr9
  first | iapply (wp_ret_bind c _ _ _) | skip
  -- layer 2: wait for the piece of copy index 7 and read it
  first | sl_exec | skip
  iapply (step_RR m K c (6 : Fin 15) 2 (by decide) (cnt 15 2) (cnt 15 2) (lt_cnt_full 2) (lt_cnt_full 2)) $$ [HO Hsw6]
  · isplitr; · iexact HI
    isplitl [HO]; · iexact HO
    isplitr; · iexact Hlev
    iexact Hsw6
  iintro ⟨HO, Hsn6, Hpay⟩
  first | iapply (wp_ret_bind c _ _ _) | skip
  ihave Hr8 := (rsRPay_open_last m c (6 : Fin 15) 2 (by decide)) $$ Hpay
  first | sl_exec | skip
  iapply (loadR c (8 : Fin 15) (pieceAt m 2 (fwd c 7) 7)) $$ [Hr8]
  · iexact Hr8
  iintro Hr8
  first | iapply (wp_ret_bind c _ _ _) | skip
  -- layer 2: wait for the piece of copy index 8 and read it
  first | sl_exec | skip
  iapply (step_RR m K c (7 : Fin 15) 2 (by decide) (cnt 15 2) (cnt 15 2) (lt_cnt_full 2) (lt_cnt_full 2)) $$ [HO Hsw7]
  · isplitr; · iexact HI
    isplitl [HO]; · iexact HO
    isplitr; · iexact Hlev
    iexact Hsw7
  iintro ⟨HO, Hsn7, Hpay⟩
  first | iapply (wp_ret_bind c _ _ _) | skip
  ihave Hr7 := (rsRPay_open_last m c (7 : Fin 15) 2 (by decide)) $$ Hpay
  first | sl_exec | skip
  iapply (loadR c (7 : Fin 15) (pieceAt m 2 (fwd c 8) 8)) $$ [Hr7]
  · iexact Hr7
  iintro Hr7
  first | iapply (wp_ret_bind c _ _ _) | skip
  -- layer 2: wait for the piece of copy index 9 and read it
  first | sl_exec | skip
  iapply (step_RR m K c (8 : Fin 15) 2 (by decide) (cnt 15 2) (cnt 15 2) (lt_cnt_full 2) (lt_cnt_full 2)) $$ [HO Hsw8]
  · isplitr; · iexact HI
    isplitl [HO]; · iexact HO
    isplitr; · iexact Hlev
    iexact Hsw8
  iintro ⟨HO, Hsn8, Hpay⟩
  first | iapply (wp_ret_bind c _ _ _) | skip
  ihave Hr6 := (rsRPay_open_last m c (8 : Fin 15) 2 (by decide)) $$ Hpay
  first | sl_exec | skip
  iapply (loadR c (6 : Fin 15) (pieceAt m 2 (fwd c 9) 9)) $$ [Hr6]
  · iexact Hr6
  iintro Hr6
  first | iapply (wp_ret_bind c _ _ _) | skip
  -- layer 2: wait for the piece of copy index 10 and read it
  first | sl_exec | skip
  iapply (step_RR m K c (9 : Fin 15) 2 (by decide) (cnt 15 2) (cnt 15 2) (lt_cnt_full 2) (lt_cnt_full 2)) $$ [HO Hsw9]
  · isplitr; · iexact HI
    isplitl [HO]; · iexact HO
    isplitr; · iexact Hlev
    iexact Hsw9
  iintro ⟨HO, Hsn9, Hpay⟩
  first | iapply (wp_ret_bind c _ _ _) | skip
  ihave Hr5 := (rsRPay_open_last m c (9 : Fin 15) 2 (by decide)) $$ Hpay
  first | sl_exec | skip
  iapply (loadR c (5 : Fin 15) (pieceAt m 2 (fwd c 10) 10)) $$ [Hr5]
  · iexact Hr5
  iintro Hr5
  first | iapply (wp_ret_bind c _ _ _) | skip
  -- layer 2: wait for the piece of copy index 11 and read it
  first | sl_exec | skip
  iapply (step_RR m K c (10 : Fin 15) 2 (by decide) (cnt 15 2) (cnt 15 2) (lt_cnt_full 2) (lt_cnt_full 2)) $$ [HO Hsw10]
  · isplitr; · iexact HI
    isplitl [HO]; · iexact HO
    isplitr; · iexact Hlev
    iexact Hsw10
  iintro ⟨HO, Hsn10, Hpay⟩
  first | iapply (wp_ret_bind c _ _ _) | skip
  ihave Hr4 := (rsRPay_open_last m c (10 : Fin 15) 2 (by decide)) $$ Hpay
  first | sl_exec | skip
  iapply (loadR c (4 : Fin 15) (pieceAt m 2 (fwd c 11) 11)) $$ [Hr4]
  · iexact Hr4
  iintro Hr4
  first | iapply (wp_ret_bind c _ _ _) | skip
  -- layer 2: wait for the piece of copy index 12 and read it
  first | sl_exec | skip
  iapply (step_RR m K c (11 : Fin 15) 2 (by decide) (cnt 15 2) (cnt 15 2) (lt_cnt_full 2) (lt_cnt_full 2)) $$ [HO Hsw11]
  · isplitr; · iexact HI
    isplitl [HO]; · iexact HO
    isplitr; · iexact Hlev
    iexact Hsw11
  iintro ⟨HO, Hsn11, Hpay⟩
  first | iapply (wp_ret_bind c _ _ _) | skip
  ihave Hr3 := (rsRPay_open_last m c (11 : Fin 15) 2 (by decide)) $$ Hpay
  first | sl_exec | skip
  iapply (loadR c (3 : Fin 15) (pieceAt m 2 (fwd c 12) 12)) $$ [Hr3]
  · iexact Hr3
  iintro Hr3
  first | iapply (wp_ret_bind c _ _ _) | skip
  -- layer 2: wait for the piece of copy index 13 and read it
  first | sl_exec | skip
  iapply (step_RR m K c (12 : Fin 15) 2 (by decide) (cnt 15 2) (cnt 15 2) (lt_cnt_full 2) (lt_cnt_full 2)) $$ [HO Hsw12]
  · isplitr; · iexact HI
    isplitl [HO]; · iexact HO
    isplitr; · iexact Hlev
    iexact Hsw12
  iintro ⟨HO, Hsn12, Hpay⟩
  first | iapply (wp_ret_bind c _ _ _) | skip
  ihave Hr2 := (rsRPay_open_last m c (12 : Fin 15) 2 (by decide)) $$ Hpay
  first | sl_exec | skip
  iapply (loadR c (2 : Fin 15) (pieceAt m 2 (fwd c 13) 13)) $$ [Hr2]
  · iexact Hr2
  iintro Hr2
  first | iapply (wp_ret_bind c _ _ _) | skip
  -- layer 2: wait for the piece of copy index 14 and read it
  first | sl_exec | skip
  iapply (step_RR m K c (13 : Fin 15) 2 (by decide) (cnt 15 2) (cnt 15 2) (lt_cnt_full 2) (lt_cnt_full 2)) $$ [HO Hsw13]
  · isplitr; · iexact HI
    isplitl [HO]; · iexact HO
    isplitr; · iexact Hlev
    iexact Hsw13
  iintro ⟨HO, Hsn13, Hpay⟩
  first | iapply (wp_ret_bind c _ _ _) | skip
  ihave Hr1 := (rsRPay_open_last m c (13 : Fin 15) 2 (by decide)) $$ Hpay
  first | sl_exec | skip
  iapply (loadR c (1 : Fin 15) (pieceAt m 2 (fwd c 14) 14)) $$ [Hr1]
  · iexact Hr1
  iintro Hr1
  first | iapply (wp_ret_bind c _ _ _) | skip
  -- layer 2: wait for the piece of copy index 15 and read it
  first | sl_exec | skip
  iapply (step_RR m K c (14 : Fin 15) 2 (by decide) (cnt 15 2) (cnt 15 2) (lt_cnt_full 2) (lt_cnt_full 2)) $$ [HO Hsw14]
  · isplitr; · iexact HI
    isplitl [HO]; · iexact HO
    isplitr; · iexact Hlev
    iexact Hsw14
  iintro ⟨HO, Hsn14, Hpay⟩
  first | iapply (wp_ret_bind c _ _ _) | skip
  ihave Hr0 := (rsRPay_open_last m c (14 : Fin 15) 2 (by decide)) $$ Hpay
  first | sl_exec | skip
  iapply (loadR c (0 : Fin 15) (pieceAt m 2 (fwd c 15) 15)) $$ [Hr0]
  · iexact Hr0
  iintro Hr0
  first | iapply (wp_ret_bind c _ _ _) | skip
  -- layer 2: the fifteen lent shares of slot 0 are back
  ihave Hx0' : xPts (F := F) c 0 fullShare (xfill c 0 (chunkAt m 2 c)) $$ [Hx0 Hl0 Hl1 Hl2 Hl3 Hl4 Hl5 Hl6 Hl7 Hl8 Hl9 Hl10 Hl11 Hl12 Hl13 Hl14]
  · unfold agSPay
    iapply (Exit.x_back15 c _)
    isplitl [Hx0]; · iexact Hx0
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    isplitl [Hl9]; · iexact Hl9
    isplitl [Hl10]; · iexact Hl10
    isplitl [Hl11]; · iexact Hl11
    isplitl [Hl12]; · iexact Hl12
    isplitl [Hl13]; · iexact Hl13
    iexact Hl14
  -- the last layer's sum is the result
  first | sl_exec | skip
  iapply (loadStg7 c f7) $$ [Hw7']
  · iexact Hw7'
  iintro Hw7'
  first | iapply (wp_ret_bind c _ _ _) | skip
  first | sl_exec | skip
  iapply (storeStg7 c f7 _) $$ [Hw7']
  · iexact Hw7'
  iintro Hv7
  first | iapply (wp_ret_bind c _ _ _) | skip
  ihave Hw7' : held (F := F) c cc0_stg7_0 (outAt m c) $$ [Hv7]
  · sl_unfold_run_names
    rw [store_out m c]
    iexact Hv7
  -- layer 2: the send side of the piece copy for chunk 1
  first | sl_exec | skip
  iapply (step_RW m K c (0 : Fin 15) 2 (by decide) (cnt 15 2) (cnt 15 2) (lt_cnt_full 2) (lt_cnt_full 2)) $$ [HO Hrs0]
  · isplitr; · iexact HI
    isplitl [HO]; · iexact HO
    isplitr; · iexact Hlev
    iexact Hrs0
  iintro ⟨HO, Hrc0, Hpay⟩
  first | iapply (wp_ret_bind c _ _ _) | skip
  ihave Hp1 := (rsSPay_open m c (0 : Fin 15) 2) $$ Hpay
  -- layer 2: the send side of the piece copy for chunk 2
  first | sl_exec | skip
  iapply (step_RW m K c (1 : Fin 15) 2 (by decide) (cnt 15 2) (cnt 15 2) (lt_cnt_full 2) (lt_cnt_full 2)) $$ [HO Hrs1]
  · isplitr; · iexact HI
    isplitl [HO]; · iexact HO
    isplitr; · iexact Hlev
    iexact Hrs1
  iintro ⟨HO, Hrc1, Hpay⟩
  first | iapply (wp_ret_bind c _ _ _) | skip
  ihave Hp2 := (rsSPay_open m c (1 : Fin 15) 2) $$ Hpay
  -- layer 2: the send side of the piece copy for chunk 3
  first | sl_exec | skip
  iapply (step_RW m K c (2 : Fin 15) 2 (by decide) (cnt 15 2) (cnt 15 2) (lt_cnt_full 2) (lt_cnt_full 2)) $$ [HO Hrs2]
  · isplitr; · iexact HI
    isplitl [HO]; · iexact HO
    isplitr; · iexact Hlev
    iexact Hrs2
  iintro ⟨HO, Hrc2, Hpay⟩
  first | iapply (wp_ret_bind c _ _ _) | skip
  ihave Hp3 := (rsSPay_open m c (2 : Fin 15) 2) $$ Hpay
  -- layer 2: the send side of the piece copy for chunk 4
  first | sl_exec | skip
  iapply (step_RW m K c (3 : Fin 15) 2 (by decide) (cnt 15 2) (cnt 15 2) (lt_cnt_full 2) (lt_cnt_full 2)) $$ [HO Hrs3]
  · isplitr; · iexact HI
    isplitl [HO]; · iexact HO
    isplitr; · iexact Hlev
    iexact Hrs3
  iintro ⟨HO, Hrc3, Hpay⟩
  first | iapply (wp_ret_bind c _ _ _) | skip
  ihave Hp4 := (rsSPay_open m c (3 : Fin 15) 2) $$ Hpay
  -- layer 2: the send side of the piece copy for chunk 5
  first | sl_exec | skip
  iapply (step_RW m K c (4 : Fin 15) 2 (by decide) (cnt 15 2) (cnt 15 2) (lt_cnt_full 2) (lt_cnt_full 2)) $$ [HO Hrs4]
  · isplitr; · iexact HI
    isplitl [HO]; · iexact HO
    isplitr; · iexact Hlev
    iexact Hrs4
  iintro ⟨HO, Hrc4, Hpay⟩
  first | iapply (wp_ret_bind c _ _ _) | skip
  ihave Hp5 := (rsSPay_open m c (4 : Fin 15) 2) $$ Hpay
  -- layer 2: the send side of the piece copy for chunk 6
  first | sl_exec | skip
  iapply (step_RW m K c (5 : Fin 15) 2 (by decide) (cnt 15 2) (cnt 15 2) (lt_cnt_full 2) (lt_cnt_full 2)) $$ [HO Hrs5]
  · isplitr; · iexact HI
    isplitl [HO]; · iexact HO
    isplitr; · iexact Hlev
    iexact Hrs5
  iintro ⟨HO, Hrc5, Hpay⟩
  first | iapply (wp_ret_bind c _ _ _) | skip
  ihave Hp6 := (rsSPay_open m c (5 : Fin 15) 2) $$ Hpay
  -- layer 2: the send side of the piece copy for chunk 7
  first | sl_exec | skip
  iapply (step_RW m K c (6 : Fin 15) 2 (by decide) (cnt 15 2) (cnt 15 2) (lt_cnt_full 2) (lt_cnt_full 2)) $$ [HO Hrs6]
  · isplitr; · iexact HI
    isplitl [HO]; · iexact HO
    isplitr; · iexact Hlev
    iexact Hrs6
  iintro ⟨HO, Hrc6, Hpay⟩
  first | iapply (wp_ret_bind c _ _ _) | skip
  ihave Hp7 := (rsSPay_open m c (6 : Fin 15) 2) $$ Hpay
  -- layer 2: the send side of the piece copy for chunk 8
  first | sl_exec | skip
  iapply (step_RW m K c (7 : Fin 15) 2 (by decide) (cnt 15 2) (cnt 15 2) (lt_cnt_full 2) (lt_cnt_full 2)) $$ [HO Hrs7]
  · isplitr; · iexact HI
    isplitl [HO]; · iexact HO
    isplitr; · iexact Hlev
    iexact Hrs7
  iintro ⟨HO, Hrc7, Hpay⟩
  first | iapply (wp_ret_bind c _ _ _) | skip
  ihave Hp8 := (rsSPay_open m c (7 : Fin 15) 2) $$ Hpay
  -- layer 2: the send side of the piece copy for chunk 9
  first | sl_exec | skip
  iapply (step_RW m K c (8 : Fin 15) 2 (by decide) (cnt 15 2) (cnt 15 2) (lt_cnt_full 2) (lt_cnt_full 2)) $$ [HO Hrs8]
  · isplitr; · iexact HI
    isplitl [HO]; · iexact HO
    isplitr; · iexact Hlev
    iexact Hrs8
  iintro ⟨HO, Hrc8, Hpay⟩
  first | iapply (wp_ret_bind c _ _ _) | skip
  ihave Hp9 := (rsSPay_open m c (8 : Fin 15) 2) $$ Hpay
  -- layer 2: the send side of the piece copy for chunk 10
  first | sl_exec | skip
  iapply (step_RW m K c (9 : Fin 15) 2 (by decide) (cnt 15 2) (cnt 15 2) (lt_cnt_full 2) (lt_cnt_full 2)) $$ [HO Hrs9]
  · isplitr; · iexact HI
    isplitl [HO]; · iexact HO
    isplitr; · iexact Hlev
    iexact Hrs9
  iintro ⟨HO, Hrc9, Hpay⟩
  first | iapply (wp_ret_bind c _ _ _) | skip
  ihave Hp10 := (rsSPay_open m c (9 : Fin 15) 2) $$ Hpay
  -- layer 2: the send side of the piece copy for chunk 11
  first | sl_exec | skip
  iapply (step_RW m K c (10 : Fin 15) 2 (by decide) (cnt 15 2) (cnt 15 2) (lt_cnt_full 2) (lt_cnt_full 2)) $$ [HO Hrs10]
  · isplitr; · iexact HI
    isplitl [HO]; · iexact HO
    isplitr; · iexact Hlev
    iexact Hrs10
  iintro ⟨HO, Hrc10, Hpay⟩
  first | iapply (wp_ret_bind c _ _ _) | skip
  ihave Hp11 := (rsSPay_open m c (10 : Fin 15) 2) $$ Hpay
  -- layer 2: the send side of the piece copy for chunk 12
  first | sl_exec | skip
  iapply (step_RW m K c (11 : Fin 15) 2 (by decide) (cnt 15 2) (cnt 15 2) (lt_cnt_full 2) (lt_cnt_full 2)) $$ [HO Hrs11]
  · isplitr; · iexact HI
    isplitl [HO]; · iexact HO
    isplitr; · iexact Hlev
    iexact Hrs11
  iintro ⟨HO, Hrc11, Hpay⟩
  first | iapply (wp_ret_bind c _ _ _) | skip
  ihave Hp12 := (rsSPay_open m c (11 : Fin 15) 2) $$ Hpay
  -- layer 2: the send side of the piece copy for chunk 13
  first | sl_exec | skip
  iapply (step_RW m K c (12 : Fin 15) 2 (by decide) (cnt 15 2) (cnt 15 2) (lt_cnt_full 2) (lt_cnt_full 2)) $$ [HO Hrs12]
  · isplitr; · iexact HI
    isplitl [HO]; · iexact HO
    isplitr; · iexact Hlev
    iexact Hrs12
  iintro ⟨HO, Hrc12, Hpay⟩
  first | iapply (wp_ret_bind c _ _ _) | skip
  ihave Hp13 := (rsSPay_open m c (12 : Fin 15) 2) $$ Hpay
  -- layer 2: the send side of the piece copy for chunk 14
  first | sl_exec | skip
  iapply (step_RW m K c (13 : Fin 15) 2 (by decide) (cnt 15 2) (cnt 15 2) (lt_cnt_full 2) (lt_cnt_full 2)) $$ [HO Hrs13]
  · isplitr; · iexact HI
    isplitl [HO]; · iexact HO
    isplitr; · iexact Hlev
    iexact Hrs13
  iintro ⟨HO, Hrc13, Hpay⟩
  first | iapply (wp_ret_bind c _ _ _) | skip
  ihave Hp14 := (rsSPay_open m c (13 : Fin 15) 2) $$ Hpay
  -- layer 2: the send side of the piece copy for chunk 15
  first | sl_exec | skip
  iapply (step_RW m K c (14 : Fin 15) 2 (by decide) (cnt 15 2) (cnt 15 2) (lt_cnt_full 2) (lt_cnt_full 2)) $$ [HO Hrs14]
  · isplitr; · iexact HI
    isplitl [HO]; · iexact HO
    isplitr; · iexact Hlev
    iexact Hrs14
  iintro ⟨HO, Hrc14, Hpay⟩
  first | iapply (wp_ret_bind c _ _ _) | skip
  ihave Hp15 := (rsSPay_open m c (14 : Fin 15) 2) $$ Hpay
  -- the exit: every slot is home, every cell consumed, nothing owed
  iapply (Finish.finish_wp m K c _ _) $$ [Hx0' Hx1 Hx2 Hx3 Hx4 Hx5 Hx6 Hx7 Hx8 Hx9 Hx10 Hx11 Hx12 Hx13 Hx14 Hx15 Hp0 Hp1 Hp2 Hp3 Hp4 Hp5 Hp6 Hp7 Hp8 Hp9 Hp10 Hp11 Hp12 Hp13 Hp14 Hp15 Hr0 Hr1 Hr2 Hr3 Hr4 Hr5 Hr6 Hr7 Hr8 Hr9 Hr10 Hr11 Hr12 Hr13 Hr14 Hsn0 Hsn1 Hsn2 Hsn3 Hsn4 Hsn5 Hsn6 Hsn7 Hsn8 Hsn9 Hsn10 Hsn11 Hsn12 Hsn13 Hsn14 Hrc0 Hrc1 Hrc2 Hrc3 Hrc4 Hrc5 Hrc6 Hrc7 Hrc8 Hrc9 Hrc10 Hrc11 Hrc12 Hrc13 Hrc14 HO Hw0' Hw1' Hw2' Hw3' Hw4' Hw5' Hw6' Hw7']
  · unfold held
    isplitr; · iexact HI
    isplitl [Hx0' Hx1 Hx2 Hx3 Hx4 Hx5 Hx6 Hx7 Hx8 Hx9 Hx10 Hx11 Hx12 Hx13 Hx14 Hx15]
    · isplitl [Hx0']; · (iexists _; iexact Hx0')
      isplitl [Hx1]; · (iexists _; iexact Hx1)
      isplitl [Hx2]; · (iexists _; iexact Hx2)
      isplitl [Hx3]; · (iexists _; iexact Hx3)
      isplitl [Hx4]; · (iexists _; iexact Hx4)
      isplitl [Hx5]; · (iexists _; iexact Hx5)
      isplitl [Hx6]; · (iexists _; iexact Hx6)
      isplitl [Hx7]; · (iexists _; iexact Hx7)
      isplitl [Hx8]; · (iexists _; iexact Hx8)
      isplitl [Hx9]; · (iexists _; iexact Hx9)
      isplitl [Hx10]; · (iexists _; iexact Hx10)
      isplitl [Hx11]; · (iexists _; iexact Hx11)
      isplitl [Hx12]; · (iexists _; iexact Hx12)
      isplitl [Hx13]; · (iexists _; iexact Hx13)
      isplitl [Hx14]; · (iexists _; iexact Hx14)
      (iexists _; iexact Hx15)
    isplitl [Hp0 Hp1 Hp2 Hp3 Hp4 Hp5 Hp6 Hp7 Hp8 Hp9 Hp10 Hp11 Hp12 Hp13 Hp14 Hp15]
    · isplitl [Hp0]; · iexact Hp0
      isplitl [Hp1]; · (iexists _; iexact Hp1)
      isplitl [Hp2]; · (iexists _; iexact Hp2)
      isplitl [Hp3]; · (iexists _; iexact Hp3)
      isplitl [Hp4]; · (iexists _; iexact Hp4)
      isplitl [Hp5]; · (iexists _; iexact Hp5)
      isplitl [Hp6]; · (iexists _; iexact Hp6)
      isplitl [Hp7]; · (iexists _; iexact Hp7)
      isplitl [Hp8]; · (iexists _; iexact Hp8)
      isplitl [Hp9]; · (iexists _; iexact Hp9)
      isplitl [Hp10]; · (iexists _; iexact Hp10)
      isplitl [Hp11]; · (iexists _; iexact Hp11)
      isplitl [Hp12]; · (iexists _; iexact Hp12)
      isplitl [Hp13]; · (iexists _; iexact Hp13)
      isplitl [Hp14]; · (iexists _; iexact Hp14)
      (iexists _; iexact Hp15)
    isplitl [Hr0 Hr1 Hr2 Hr3 Hr4 Hr5 Hr6 Hr7 Hr8 Hr9 Hr10 Hr11 Hr12 Hr13 Hr14]
    · isplitl [Hr0]; · (iexists _; iexact Hr0)
      isplitl [Hr1]; · (iexists _; iexact Hr1)
      isplitl [Hr2]; · (iexists _; iexact Hr2)
      isplitl [Hr3]; · (iexists _; iexact Hr3)
      isplitl [Hr4]; · (iexists _; iexact Hr4)
      isplitl [Hr5]; · (iexists _; iexact Hr5)
      isplitl [Hr6]; · (iexists _; iexact Hr6)
      isplitl [Hr7]; · (iexists _; iexact Hr7)
      isplitl [Hr8]; · (iexists _; iexact Hr8)
      isplitl [Hr9]; · (iexists _; iexact Hr9)
      isplitl [Hr10]; · (iexists _; iexact Hr10)
      isplitl [Hr11]; · (iexists _; iexact Hr11)
      isplitl [Hr12]; · (iexists _; iexact Hr12)
      isplitl [Hr13]; · (iexists _; iexact Hr13)
      (iexists _; iexact Hr14)
    isplitl [Hsn0 Hsn1 Hsn2 Hsn3 Hsn4 Hsn5 Hsn6 Hsn7 Hsn8 Hsn9 Hsn10 Hsn11 Hsn12 Hsn13 Hsn14]
    · isplitl [Hsn0]; · iexact Hsn0
      isplitl [Hsn1]; · iexact Hsn1
      isplitl [Hsn2]; · iexact Hsn2
      isplitl [Hsn3]; · iexact Hsn3
      isplitl [Hsn4]; · iexact Hsn4
      isplitl [Hsn5]; · iexact Hsn5
      isplitl [Hsn6]; · iexact Hsn6
      isplitl [Hsn7]; · iexact Hsn7
      isplitl [Hsn8]; · iexact Hsn8
      isplitl [Hsn9]; · iexact Hsn9
      isplitl [Hsn10]; · iexact Hsn10
      isplitl [Hsn11]; · iexact Hsn11
      isplitl [Hsn12]; · iexact Hsn12
      isplitl [Hsn13]; · iexact Hsn13
      iexact Hsn14
    isplitl [Hrc0 Hrc1 Hrc2 Hrc3 Hrc4 Hrc5 Hrc6 Hrc7 Hrc8 Hrc9 Hrc10 Hrc11 Hrc12 Hrc13 Hrc14]
    · isplitl [Hrc0]; · iexact Hrc0
      isplitl [Hrc1]; · iexact Hrc1
      isplitl [Hrc2]; · iexact Hrc2
      isplitl [Hrc3]; · iexact Hrc3
      isplitl [Hrc4]; · iexact Hrc4
      isplitl [Hrc5]; · iexact Hrc5
      isplitl [Hrc6]; · iexact Hrc6
      isplitl [Hrc7]; · iexact Hrc7
      isplitl [Hrc8]; · iexact Hrc8
      isplitl [Hrc9]; · iexact Hrc9
      isplitl [Hrc10]; · iexact Hrc10
      isplitl [Hrc11]; · iexact Hrc11
      isplitl [Hrc12]; · iexact Hrc12
      isplitl [Hrc13]; · iexact Hrc13
      iexact Hrc14
    isplitl [HO]; · iexact HO
    isplitl [Hw0']; · iexact Hw0'
    isplitl [Hw1']; · iexact Hw1'
    isplitl [Hw2']; · iexact Hw2'
    isplitl [Hw3']; · iexact Hw3'
    isplitl [Hw4']; · iexact Hw4'
    isplitl [Hw5']; · iexact Hw5'
    isplitl [Hw6']; · iexact Hw6'
    iexact Hw7'
  iintro Hpost
  first | sl_step | sl_exec | skip
  first | (iapply Hk; iexact Hpost) | (sl_step; iapply Hk; iexact Hpost) | (trace_state; fail)

end Cert.KernelIdeal.Body
end
-- ==== Proof.BodyOb.lean ====
import proofs.«900978_g7700000000000979_dist_mlpseq_tp1d_bs_bs_b256_d256_h512_v7x_i16_bf16_1_alg».proof.Proof.BodyPost
import proofs.«900978_g7700000000000979_dist_mlpseq_tp1d_bs_bs_b256_d256_h512_v7x_i16_bf16_1_alg».proof.Proof.Body
noncomputable section
namespace Cert.KernelIdeal.Body
open Cert.KernelIdeal Cert.KernelIdeal.Gen Cert.KernelIdeal.Vals Cert.KernelIdeal.Cells Cert.KernelIdeal.Sched Cert.KernelIdeal.State Cert.KernelIdeal.Dats Cert.KernelIdeal.SchedTables Cert.KernelIdeal.RingLaws Cert.KernelIdeal.Phases Cert.KernelIdeal.Steps Cert.KernelIdeal.BodyPre
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## The body's lemma as the launch asks for it

  The launch hands a device's body, at the grid's one point, what the device starts from with the names of the
  cells' invariants hidden, what it owes, and each of the eight staging buffers owned whole at what it then
  holds; it takes back the same at the next point: this is the body's lemma once the names are opened. -/

/-- Every point of the one-point grid is its only point. -/
theorem point_eq (t : Fin cfg0.N) : t = t₀ := by
  obtain ⟨t, ht⟩ := t; have := cfg0_N; exact Fin.ext (by simp only [t₀]; omega)

/-- What the launch hands the body at the grid's one point, the names of the cells' invariants still hidden. -/
def launchPre (c : Dev nD) : sProp 𝕄 :=
  iprop(Φ₀ m c ∗ (dats m 0 c).owesAt 0 t₀.castSucc
    ∗ (∃ d, stg c cc0_stg0_0 ((dats m 0 c).before (0 : Fin 8) t₀ d))
    ∗ (∃ d, stg c cc0_stg1_0 ((dats m 0 c).before (1 : Fin 8) t₀ d))
    ∗ (∃ d, stg c cc0_stg2_0 ((dats m 0 c).before (2 : Fin 8) t₀ d))
    ∗ (∃ d, stg c cc0_stg3_0 ((dats m 0 c).before (3 : Fin 8) t₀ d))
    ∗ (∃ d, stg c cc0_stg4_0 ((dats m 0 c).before (4 : Fin 8) t₀ d))
    ∗ (∃ d, stg c cc0_stg5_0 ((dats m 0 c).before (5 : Fin 8) t₀ d))
    ∗ (∃ d, stg c cc0_stg6_0 ((dats m 0 c).before (6 : Fin 8) t₀ d))
    ∗ (∃ d, stg c cc0_stg7_0 ((dats m 0 c).before (7 : Fin 8) t₀ d)))

set_option maxRecDepth 65536 in
/-- The body obligation of device c: the body's lemma, under the launch's own spelling of what it hands over and takes back. -/
theorem body_obligation (c : Dev nD) : BodyObligation (dats (F := F) m 0 c) (defs₀ (F := F)) 𝒱₀ 0 Set.univ := fun t => by
  rw [point_eq t]
  rw [Gen.bigSep_W0, Gen.bigSep_W0]
  show launchPre m c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) (fun _ => bodyPost m c)
  unfold launchPre Φ₀ start
  iintro ⟨⟨⟨⟨%K, Hg⟩, Hc, Hlev⟩, Hs0, Hs1, Hs2⟩, Ho, Hw0, Hw1, Hw2, Hw3, Hw4, Hw5, Hw6, Hw7⟩
  iapply (sound_body m K c fun _ => bodyPost m c)
  unfold bodyPre
  isplitr []
  · isplitl [Hg Hc Hlev Hs0 Hs1 Hs2]
    · isplitl [Hg]; · iexact Hg
      isplitl [Hc]; · iexact Hc
      isplitl [Hlev]; · iexact Hlev
      isplitl [Hs0]; · iexact Hs0
      isplitl [Hs1]; · iexact Hs1
      iexact Hs2
    isplitl [Ho]; · iexact Ho
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  · iintro H; iexact H

/-- info: 'Cert.KernelIdeal.Body.body_obligation' depends on axioms: [propext, Classical.choice, Quot.sound] -/
#guard_msgs in #print axioms body_obligation

end Cert.KernelIdeal.Body
end
-- ==== Proof.Bits.Steps.lean ====
import proofs.«900978_g7700000000000979_dist_mlpseq_tp1d_bs_bs_b256_d256_h512_v7x_i16_bf16_1_alg».proof.Proof.Bits.Dats
import proofs.«900978_g7700000000000979_dist_mlpseq_tp1d_bs_bs_b256_d256_h512_v7x_i16_bf16_1_alg».proof.Proof.Bits.SchedTables
import proofs.«900978_g7700000000000979_dist_mlpseq_tp1d_bs_bs_b256_d256_h512_v7x_i16_bf16_1_alg».proof.Proof.Bits.RingLaws
import proofs.«900978_g7700000000000979_dist_mlpseq_tp1d_bs_bs_b256_d256_h512_v7x_i16_bf16_1_alg».proof.Proof.Gen.Kernel.Skeleton
import proofs.«900978_g7700000000000979_dist_mlpseq_tp1d_bs_bs_b256_d256_h512_v7x_i16_bf16_1_alg».proof.Proof.Bits.StateLemmas
noncomputable section
namespace Cert.Kernel.Steps
open Cert.Kernel Cert.Kernel.Gen Cert.Kernel.Vals Cert.Kernel.Cells Cert.Kernel.Sched Cert.Kernel.State Cert.Kernel.Dats Cert.Kernel.SchedTables Cert.Kernel.RingLaws
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## The entry handshake

  Device c signals the device l places after it, l = 1..15, paying duty l of that device's barrier cell
  with its own slot 16 - l of X (the slot that device's first chunk copy lands in); then waits for the
  fifteen units of its own barrier cell, which bring it the fifteen slots its own first copies land in. -/

/-- The l-th barrier signal (the s-th issued, s + 1 = l). -/
theorem step_sig (K : GSem nD τ sig → ℕ) (c : Dev nD) (l : D) (hl : l ≠ 0) (a b : Fin 15 → ℕ) (s : ℕ) (hs : s + 1 = l.val)
    {W : Waits sig ℕ} {α : Type} {Q : α → sProp 𝕄} {k : PUnit → Prog (TpuEff nD τ sig (Elt F) Λ₀ .tc) α}
    (f : Buf (Elt F) ((xslot (kBar l)).view.loc (c : Thread nD τ))) :
    iprop(Invs m K ∗ owes (c : Thread nD τ) (Otot c a b s) W ∗ dutyTok ER (barCell (fwd c l.val)) 0 l
        ∗ xPts c (kBar l) fullShare f ∗ reached ER (cell c (.dma (rAg (jBar l)))) 0 ∗ reached ER (barCell (fwd c l.val)) 0)
      ⊢ iprop((owes (c : Thread nD τ) (Otot c a b (s + 1)) W -∗ wp frame (wpE (defs₀ (F := F)) 𝒱₀ c none) Set.univ (k ⟨⟩) Q)
          -∗ wp frame (wpE (defs₀ (F := F)) 𝒱₀ c none) Set.univ (.op (.semSignal (fwd c l.val : Thread nD τ) barS 1) k) Q) := by
  iintro ⟨#HI, HO, Htok, Hx, #Hr1, #Hr2⟩
  have hs15 : s < 15 := by have := l.isLt; omega
  iapply (Rounds.wp_signal 𝒱₀ ER (sched m) (c : Thread nD τ) none (dst := (fwd c l.val : Thread nD τ)) (κ := K (barCell (fwd c l.val)))
      (d := l) (mem_duties_bar m (fwd c l.val) l hl) (amount_bar m (fwd c l.val) 0 l) 0 (Otot c a b (s + 1))
      (O₀ := Otot c a b s) ((Otot_stepS c a b s hs15).trans (by rw [hs]))) $$ [HO Htok Hx]
  · isplitr; · iapply (Invs_at m K (fwd c l.val) (.reg barS) mem_allSems_bar); iexact HI
    isplitl [HO]; · iexact HO
    isplitl [Htok]; · iexact Htok
    isplitl [Hx]
    · rw [payload_bar]; unfold barPay; rw [bwd_fwd]
      isplitl [Hx]; · iexists f; iexact Hx
      iexact Hr1
    · iexact Hr2

/-- The wait for the barrier's fifteen units: every signal sent, every copy still owed lies above the barrier. -/
theorem step_bar (K : GSem nD τ sig → ℕ) (c : Dev nD) (a b : Fin 15 → ℕ)
    {W : Waits sig ℕ} {α : Type} {Q : α → sProp 𝕄} {k : PUnit → Prog (TpuEff nD τ sig (Elt F) Λ₀ .tc) α} :
    iprop(Invs m K ∗ cred (tallyAt (barCell c) 0 15) ∗ owes (c : Thread nD τ) (Otot c a b 15) W ∗ levAts L lv ∗ atPos ER (barCell c) 0 ∅ 0)
      ⊢ iprop(((owes (c : Thread nD τ) (Otot c a b 15) (insert (SemLoc.reg barS, 0) W) ∗ atPos ER (barCell c) 1 ∅ 0 ∗ reached ER (barCell c) 1
              ∗ bigSep (Finset.univ.erase (0 : D)) (fun l => barPay (F := F) c l))
            -∗ wp frame (wpE (defs₀ (F := F)) 𝒱₀ c none) Set.univ (k ⟨⟩) Q)
          -∗ wp frame (wpE (defs₀ (F := F)) 𝒱₀ c none) Set.univ (.op (.semWait barS 15) k) Q) := by
  iintro ⟨#HI, Hc, HO, #Hlev, Hat⟩ Hk
  iapply (Rounds.wp_wait_rest_token 𝒱₀ ER (sched m) (c : Thread nD τ) none (κ := K (barCell c))
      (wpE_semWait_eq 𝒱₀ (c : Thread nD τ) none Set.univ) (Set.mem_univ _) 0 (O := Otot c a b 15) (W := W) (R := 0) (m := 0) (T := ∅)
      (by rw [expect_bar])) $$ [Hc HO Hat]
  · isplitr; · iapply (Invs_at m K c (.reg barS) mem_allSems_bar); iexact HI
    isplitl [Hc]; · iexact Hc
    isplitl [HO]; · iexact HO
    isplitr
    · iapply (mayWait_of c a b 15 (.reg barS) 0 (by decide) (Or.inl rfl)
        (fun j _ => by rw [show cell c (.reg barS) = barCell c from rfl, lv_bar]; omega)
        (fun j _ => by rw [show cell c (.reg barS) = barCell c from rfl, lv_bar]; omega))
      iexact Hlev
    iexact Hat
  iintro ⟨HO, Hat, Hr, Hpay⟩
  iapply Hk
  isplitl [HO]; · iexact HO
  isplitl [Hat]; · iexact Hat
  isplitl [Hr]; · iexact Hr
  iapply (Entails.of_eq (rest_bar m c)); iexact Hpay

end Cert.Kernel.Steps
end
-- ==== Proof.Bits.Phases.lean ====
import proofs.«900978_g7700000000000979_dist_mlpseq_tp1d_bs_bs_b256_d256_h512_v7x_i16_bf16_1_alg».proof.Proof.Bits.Dats
import proofs.«900978_g7700000000000979_dist_mlpseq_tp1d_bs_bs_b256_d256_h512_v7x_i16_bf16_1_alg».proof.Proof.Bits.SchedTables
import proofs.«900978_g7700000000000979_dist_mlpseq_tp1d_bs_bs_b256_d256_h512_v7x_i16_bf16_1_alg».proof.Proof.Bits.RingLaws
import proofs.«900978_g7700000000000979_dist_mlpseq_tp1d_bs_bs_b256_d256_h512_v7x_i16_bf16_1_alg».proof.Proof.Gen.Kernel.Skeleton
import proofs.«900978_g7700000000000979_dist_mlpseq_tp1d_bs_bs_b256_d256_h512_v7x_i16_bf16_1_alg».proof.Proof.Bits.StateLemmas
noncomputable section
namespace Cert.Kernel.Phases
open Cert.Kernel Cert.Kernel.Gen Cert.Kernel.Vals Cert.Kernel.Cells Cert.Kernel.Sched Cert.Kernel.State Cert.Kernel.Dats Cert.Kernel.SchedTables Cert.Kernel.RingLaws
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## A copy index's two parts, phase by phase

  SENDER of chunk copy j+1 (to the device j+1 places after it), per layer r:
    `sn r`  →(issue the chunk copy)→  `snSent r`  →(wait its send side)→  `snWaited r`  →(wait the piece it gets back)→  `sn (r+1)`.
  RECEIVER of chunk copy j+1 (from the device j+1 places before it), per layer r:
    `rc r`  →(wait the chunk)→  `rcGot r`  →(issue the piece copy)→  `rcSent r`  →(wait its send side)→  `rc (r+1)`.
  The buffers travel beside these bundles: the landing slot on the peer with the fact that the peer has consumed the
  earlier rounds of its receive cell (`dstX`, `dstR`), the slots' contents as separate hypotheses. -/

/-- The tokens and credit of the sender's layers r, r+1, …: the next device's receive duty, its own send duty, the credit for the piece it will wait for. -/
def snToks (c : Dev nD) (j : Fin 15) (r : ℕ) : sProp 𝕄 :=
  bigSep (Finset.Ico r 3) fun r' => iprop(dutyTok ER (cell (nxt c j) (.dma (rAg j))) r' 0 ∗ dutyTok ER (cell c (.dma (sAg j))) r' 0
        ∗ cred (tallyAt (cell c (.dma (rRs (Fin.rev j)))) r' NX))
/-- Likewise the receiver's: the previous device's receive duty of the piece, its own send duty, the credit for the chunk it will wait for. -/
def rcToks (c : Dev nD) (j : Fin 15) (r : ℕ) : sProp 𝕄 :=
  bigSep (Finset.Ico r 3) fun r' => iprop(dutyTok ER (cell (prv c j) (.dma (rRs (Fin.rev j)))) r' 0 ∗ dutyTok ER (cell c (.dma (sRs (Fin.rev j)))) r' 0
        ∗ cred (tallyAt (cell c (.dma (rAg j))) r' NX))

def sn (c : Dev nD) (j : Fin 15) (r : ℕ) : sProp 𝕄 :=
  iprop(snToks (F := F) c j r ∗ atPos ER (cell c (.dma (sAg j))) r ∅ 0 ∗ atPos ER (cell c (.dma (rRs (Fin.rev j)))) r ∅ 0
    ∗ reached ER (cell c (.dma (sAg j))) r ∗ reached ER (cell c (.dma (rRs (Fin.rev j)))) r)
def snSent (c : Dev nD) (j : Fin 15) (r : ℕ) : sProp 𝕄 :=
  iprop(snToks (F := F) c j (r + 1) ∗ cred (tallyAt (cell c (.dma (rRs (Fin.rev j)))) r NX) ∗ cred (tallyAt (cell c (.dma (sAg j))) r NX)
    ∗ atPos ER (cell c (.dma (sAg j))) r ∅ 0 ∗ atPos ER (cell c (.dma (rRs (Fin.rev j)))) r ∅ 0)
def snWaited (c : Dev nD) (j : Fin 15) (r : ℕ) : sProp 𝕄 :=
  iprop(snToks (F := F) c j (r + 1) ∗ cred (tallyAt (cell c (.dma (rRs (Fin.rev j)))) r NX)
    ∗ atPos ER (cell c (.dma (sAg j))) (r + 1) ∅ 0 ∗ atPos ER (cell c (.dma (rRs (Fin.rev j)))) r ∅ 0
    ∗ reached ER (cell c (.dma (sAg j))) (r + 1))

def rc (c : Dev nD) (j : Fin 15) (r : ℕ) : sProp 𝕄 :=
  iprop(rcToks (F := F) c j r ∗ atPos ER (cell c (.dma (rAg j))) r ∅ 0 ∗ atPos ER (cell c (.dma (sRs (Fin.rev j)))) r ∅ 0
    ∗ reached ER (cell c (.dma (rAg j))) r ∗ reached ER (cell c (.dma (sRs (Fin.rev j)))) r)
def rcGot (c : Dev nD) (j : Fin 15) (r : ℕ) : sProp 𝕄 :=
  iprop(rcToks (F := F) c j (r + 1) ∗ dutyTok ER (cell (prv c j) (.dma (rRs (Fin.rev j)))) r 0 ∗ dutyTok ER (cell c (.dma (sRs (Fin.rev j)))) r 0
    ∗ atPos ER (cell c (.dma (rAg j))) (r + 1) ∅ 0 ∗ atPos ER (cell c (.dma (sRs (Fin.rev j)))) r ∅ 0
    ∗ reached ER (cell c (.dma (rAg j))) (r + 1) ∗ reached ER (cell c (.dma (sRs (Fin.rev j)))) r)
def rcSent (c : Dev nD) (j : Fin 15) (r : ℕ) : sProp 𝕄 :=
  iprop(rcToks (F := F) c j (r + 1) ∗ cred (tallyAt (cell c (.dma (sRs (Fin.rev j)))) r NX)
    ∗ atPos ER (cell c (.dma (rAg j))) (r + 1) ∅ 0 ∗ atPos ER (cell c (.dma (sRs (Fin.rev j)))) r ∅ 0
    ∗ reached ER (cell c (.dma (rAg j))) (r + 1))

/-- The slot of X on the next device in which chunk copy j+1 lands, with that device at round r of its receive cell. -/
def dstX (c : Dev nD) (j : Fin 15) (r : ℕ) : sProp 𝕄 :=
  iprop((∃ f, xPts (F := F) (nxt c j) (kOf j) fullShare f) ∗ reached ER (cell (nxt c j) (.dma (rAg j))) r)
/-- The slot of R on the previous device in which the piece of copy index j+1 lands, with that device at round r of its receive cell. -/
def dstR (c : Dev nD) (j : Fin 15) (r : ℕ) : sProp 𝕄 :=
  iprop((∃ f, rPts (F := F) (prv c j) (Fin.rev j) f) ∗ reached ER (cell (prv c j) (.dma (rRs (Fin.rev j)))) r)

/-- The launch's bundles open into the phase bundles at layer 0. -/
theorem sndr_open (c : Dev nD) (j : Fin 15) : sndr (F := F) c j 0 ⊢ iprop(sn (F := F) c j 0 ∗ reached ER (cell (nxt c j) (.dma (rAg j))) 0) := by
  unfold sndr sn snToks
  iintro ⟨Ht, Ha1, Ha2, #Hr1, #Hr2, #Hr3⟩
  isplitl [Ht Ha1 Ha2]
  · isplitl [Ht]; · iexact Ht
    isplitl [Ha1]; · iexact Ha1
    isplitl [Ha2]; · iexact Ha2
    isplitr; · iexact Hr2
    iexact Hr3
  · iexact Hr1
theorem rcvr_open (c : Dev nD) (j : Fin 15) : rcvr (F := F) c j 0 ⊢ rc (F := F) c j 0 := by
  unfold rcvr rc rcToks; exact BI.Entails.refl _

end Cert.Kernel.Phases
end
-- ==== Proof.Bits.Ring.lean ====
/-
  The ring of sixteen devices.

  Every device the program addresses is computed from the device's own number by a chain of word
  arithmetic, (me + k) mod 16 or (me - k) mod 16 with the sign corrected. Over the sixteen values of
  the device's number each chain is evaluated and found to be the device k places after, or k places
  before, on the ring. The second part states the ring's laws: stepping forward and back by the same
  amount cancel, a step of 1..15 places never returns to its start, a step forward is a bijection
  of the devices, and k places back is 16 - k places forward.
-/
import proofs.«900978_g7700000000000979_dist_mlpseq_tp1d_bs_bs_b256_d256_h512_v7x_i16_bf16_1_alg».proof.Proof.Bits.Vals
import proofs.«900978_g7700000000000979_dist_mlpseq_tp1d_bs_bs_b256_d256_h512_v7x_i16_bf16_1_alg».proof.Proof.Gen.Kernel

set_option Elab.async false

namespace Cert.Kernel.Ring

open Idealize.ShloMosaic Cert.Kernel Cert.Kernel.Gen

/-! ## The addressed devices in closed form

  1..15: the barrier's signals, k places after. 16..30, 46..60, 76..90: each layer's broadcast of the
  device's chunk, k places after. 31..45, 61..75, 91..105: each layer's returned pieces, k places
  before. -/

@[sl_canon] theorem dev1_eq (c : Dev nD) : (⟨k0_dev1 c, Gen.k0_dev1_lt c⟩ : Dev nD) = Vals.fwd c 1 :=
  Fin.ext (by revert c; decide +kernel)
@[sl_canon] theorem dev2_eq (c : Dev nD) : (⟨k0_dev2 c, Gen.k0_dev2_lt c⟩ : Dev nD) = Vals.fwd c 2 :=
  Fin.ext (by revert c; decide +kernel)
@[sl_canon] theorem dev3_eq (c : Dev nD) : (⟨k0_dev3 c, Gen.k0_dev3_lt c⟩ : Dev nD) = Vals.fwd c 3 :=
  Fin.ext (by revert c; decide +kernel)
@[sl_canon] theorem dev4_eq (c : Dev nD) : (⟨k0_dev4 c, Gen.k0_dev4_lt c⟩ : Dev nD) = Vals.fwd c 4 :=
  Fin.ext (by revert c; decide +kernel)
@[sl_canon] theorem dev5_eq (c : Dev nD) : (⟨k0_dev5 c, Gen.k0_dev5_lt c⟩ : Dev nD) = Vals.fwd c 5 :=
  Fin.ext (by revert c; decide +kernel)
@[sl_canon] theorem dev6_eq (c : Dev nD) : (⟨k0_dev6 c, Gen.k0_dev6_lt c⟩ : Dev nD) = Vals.fwd c 6 :=
  Fin.ext (by revert c; decide +kernel)
@[sl_canon] theorem dev7_eq (c : Dev nD) : (⟨k0_dev7 c, Gen.k0_dev7_lt c⟩ : Dev nD) = Vals.fwd c 7 :=
  Fin.ext (by revert c; decide +kernel)
@[sl_canon] theorem dev8_eq (c : Dev nD) : (⟨k0_dev8 c, Gen.k0_dev8_lt c⟩ : Dev nD) = Vals.fwd c 8 :=
  Fin.ext (by revert c; decide +kernel)
@[sl_canon] theorem dev9_eq (c : Dev nD) : (⟨k0_dev9 c, Gen.k0_dev9_lt c⟩ : Dev nD) = Vals.fwd c 9 :=
  Fin.ext (by revert c; decide +kernel)
@[sl_canon] theorem dev10_eq (c : Dev nD) : (⟨k0_dev10 c, Gen.k0_dev10_lt c⟩ : Dev nD) = Vals.fwd c 10 :=
  Fin.ext (by revert c; decide +kernel)
@[sl_canon] theorem dev11_eq (c : Dev nD) : (⟨k0_dev11 c, Gen.k0_dev11_lt c⟩ : Dev nD) = Vals.fwd c 11 :=
  Fin.ext (by revert c; decide +kernel)
@[sl_canon] theorem dev12_eq (c : Dev nD) : (⟨k0_dev12 c, Gen.k0_dev12_lt c⟩ : Dev nD) = Vals.fwd c 12 :=
  Fin.ext (by revert c; decide +kernel)
@[sl_canon] theorem dev13_eq (c : Dev nD) : (⟨k0_dev13 c, Gen.k0_dev13_lt c⟩ : Dev nD) = Vals.fwd c 13 :=
  Fin.ext (by revert c; decide +kernel)
@[sl_canon] theorem dev14_eq (c : Dev nD) : (⟨k0_dev14 c, Gen.k0_dev14_lt c⟩ : Dev nD) = Vals.fwd c 14 :=
  Fin.ext (by revert c; decide +kernel)
@[sl_canon] theorem dev15_eq (c : Dev nD) : (⟨k0_dev15 c, Gen.k0_dev15_lt c⟩ : Dev nD) = Vals.fwd c 15 :=
  Fin.ext (by revert c; decide +kernel)
@[sl_canon] theorem dev16_eq (c : Dev nD) : (⟨k0_dev16 c, Gen.k0_dev16_lt c⟩ : Dev nD) = Vals.fwd c 1 :=
  Fin.ext (by revert c; decide +kernel)
@[sl_canon] theorem dev17_eq (c : Dev nD) : (⟨k0_dev17 c, Gen.k0_dev17_lt c⟩ : Dev nD) = Vals.fwd c 2 :=
  Fin.ext (by revert c; decide +kernel)
@[sl_canon] theorem dev18_eq (c : Dev nD) : (⟨k0_dev18 c, Gen.k0_dev18_lt c⟩ : Dev nD) = Vals.fwd c 3 :=
  Fin.ext (by revert c; decide +kernel)
@[sl_canon] theorem dev19_eq (c : Dev nD) : (⟨k0_dev19 c, Gen.k0_dev19_lt c⟩ : Dev nD) = Vals.fwd c 4 :=
  Fin.ext (by revert c; decide +kernel)
@[sl_canon] theorem dev20_eq (c : Dev nD) : (⟨k0_dev20 c, Gen.k0_dev20_lt c⟩ : Dev nD) = Vals.fwd c 5 :=
  Fin.ext (by revert c; decide +kernel)
@[sl_canon] theorem dev21_eq (c : Dev nD) : (⟨k0_dev21 c, Gen.k0_dev21_lt c⟩ : Dev nD) = Vals.fwd c 6 :=
  Fin.ext (by revert c; decide +kernel)
@[sl_canon] theorem dev22_eq (c : Dev nD) : (⟨k0_dev22 c, Gen.k0_dev22_lt c⟩ : Dev nD) = Vals.fwd c 7 :=
  Fin.ext (by revert c; decide +kernel)
@[sl_canon] theorem dev23_eq (c : Dev nD) : (⟨k0_dev23 c, Gen.k0_dev23_lt c⟩ : Dev nD) = Vals.fwd c 8 :=
  Fin.ext (by revert c; decide +kernel)
@[sl_canon] theorem dev24_eq (c : Dev nD) : (⟨k0_dev24 c, Gen.k0_dev24_lt c⟩ : Dev nD) = Vals.fwd c 9 :=
  Fin.ext (by revert c; decide +kernel)
@[sl_canon] theorem dev25_eq (c : Dev nD) : (⟨k0_dev25 c, Gen.k0_dev25_lt c⟩ : Dev nD) = Vals.fwd c 10 :=
  Fin.ext (by revert c; decide +kernel)
@[sl_canon] theorem dev26_eq (c : Dev nD) : (⟨k0_dev26 c, Gen.k0_dev26_lt c⟩ : Dev nD) = Vals.fwd c 11 :=
  Fin.ext (by revert c; decide +kernel)
@[sl_canon] theorem dev27_eq (c : Dev nD) : (⟨k0_dev27 c, Gen.k0_dev27_lt c⟩ : Dev nD) = Vals.fwd c 12 :=
  Fin.ext (by revert c; decide +kernel)
@[sl_canon] theorem dev28_eq (c : Dev nD) : (⟨k0_dev28 c, Gen.k0_dev28_lt c⟩ : Dev nD) = Vals.fwd c 13 :=
  Fin.ext (by revert c; decide +kernel)
@[sl_canon] theorem dev29_eq (c : Dev nD) : (⟨k0_dev29 c, Gen.k0_dev29_lt c⟩ : Dev nD) = Vals.fwd c 14 :=
  Fin.ext (by revert c; decide +kernel)
@[sl_canon] theorem dev30_eq (c : Dev nD) : (⟨k0_dev30 c, Gen.k0_dev30_lt c⟩ : Dev nD) = Vals.fwd c 15 :=
  Fin.ext (by revert c; decide +kernel)
@[sl_canon] theorem dev31_eq (c : Dev nD) : (⟨k0_dev31 c, Gen.k0_dev31_lt c⟩ : Dev nD) = Vals.bwd c 1 :=
  Fin.ext (by revert c; decide +kernel)
@[sl_canon] theorem dev32_eq (c : Dev nD) : (⟨k0_dev32 c, Gen.k0_dev32_lt c⟩ : Dev nD) = Vals.bwd c 2 :=
  Fin.ext (by revert c; decide +kernel)
@[sl_canon] theorem dev33_eq (c : Dev nD) : (⟨k0_dev33 c, Gen.k0_dev33_lt c⟩ : Dev nD) = Vals.bwd c 3 :=
  Fin.ext (by revert c; decide +kernel)
@[sl_canon] theorem dev34_eq (c : Dev nD) : (⟨k0_dev34 c, Gen.k0_dev34_lt c⟩ : Dev nD) = Vals.bwd c 4 :=
  Fin.ext (by revert c; decide +kernel)
@[sl_canon] theorem dev35_eq (c : Dev nD) : (⟨k0_dev35 c, Gen.k0_dev35_lt c⟩ : Dev nD) = Vals.bwd c 5 :=
  Fin.ext (by revert c; decide +kernel)
@[sl_canon] theorem dev36_eq (c : Dev nD) : (⟨k0_dev36 c, Gen.k0_dev36_lt c⟩ : Dev nD) = Vals.bwd c 6 :=
  Fin.ext (by revert c; decide +kernel)
@[sl_canon] theorem dev37_eq (c : Dev nD) : (⟨k0_dev37 c, Gen.k0_dev37_lt c⟩ : Dev nD) = Vals.bwd c 7 :=
  Fin.ext (by revert c; decide +kernel)
@[sl_canon] theorem dev38_eq (c : Dev nD) : (⟨k0_dev38 c, Gen.k0_dev38_lt c⟩ : Dev nD) = Vals.bwd c 8 :=
  Fin.ext (by revert c; decide +kernel)
@[sl_canon] theorem dev39_eq (c : Dev nD) : (⟨k0_dev39 c, Gen.k0_dev39_lt c⟩ : Dev nD) = Vals.bwd c 9 :=
  Fin.ext (by revert c; decide +kernel)
@[sl_canon] theorem dev40_eq (c : Dev nD) : (⟨k0_dev40 c, Gen.k0_dev40_lt c⟩ : Dev nD) = Vals.bwd c 10 :=
  Fin.ext (by revert c; decide +kernel)
@[sl_canon] theorem dev41_eq (c : Dev nD) : (⟨k0_dev41 c, Gen.k0_dev41_lt c⟩ : Dev nD) = Vals.bwd c 11 :=
  Fin.ext (by revert c; decide +kernel)
@[sl_canon] theorem dev42_eq (c : Dev nD) : (⟨k0_dev42 c, Gen.k0_dev42_lt c⟩ : Dev nD) = Vals.bwd c 12 :=
  Fin.ext (by revert c; decide +kernel)
@[sl_canon] theorem dev43_eq (c : Dev nD) : (⟨k0_dev43 c, Gen.k0_dev43_lt c⟩ : Dev nD) = Vals.bwd c 13 :=
  Fin.ext (by revert c; decide +kernel)
@[sl_canon] theorem dev44_eq (c : Dev nD) : (⟨k0_dev44 c, Gen.k0_dev44_lt c⟩ : Dev nD) = Vals.bwd c 14 :=
  Fin.ext (by revert c; decide +kernel)
@[sl_canon] theorem dev45_eq (c : Dev nD) : (⟨k0_dev45 c, Gen.k0_dev45_lt c⟩ : Dev nD) = Vals.bwd c 15 :=
  Fin.ext (by revert c; decide +kernel)
@[sl_canon] theorem dev46_eq (c : Dev nD) : (⟨k0_dev46 c, Gen.k0_dev46_lt c⟩ : Dev nD) = Vals.fwd c 1 :=
  Fin.ext (by revert c; decide +kernel)
@[sl_canon] theorem dev47_eq (c : Dev nD) : (⟨k0_dev47 c, Gen.k0_dev47_lt c⟩ : Dev nD) = Vals.fwd c 2 :=
  Fin.ext (by revert c; decide +kernel)
@[sl_canon] theorem dev48_eq (c : Dev nD) : (⟨k0_dev48 c, Gen.k0_dev48_lt c⟩ : Dev nD) = Vals.fwd c 3 :=
  Fin.ext (by revert c; decide +kernel)
@[sl_canon] theorem dev49_eq (c : Dev nD) : (⟨k0_dev49 c, Gen.k0_dev49_lt c⟩ : Dev nD) = Vals.fwd c 4 :=
  Fin.ext (by revert c; decide +kernel)
@[sl_canon] theorem dev50_eq (c : Dev nD) : (⟨k0_dev50 c, Gen.k0_dev50_lt c⟩ : Dev nD) = Vals.fwd c 5 :=
  Fin.ext (by revert c; decide +kernel)
@[sl_canon] theorem dev51_eq (c : Dev nD) : (⟨k0_dev51 c, Gen.k0_dev51_lt c⟩ : Dev nD) = Vals.fwd c 6 :=
  Fin.ext (by revert c; decide +kernel)
@[sl_canon] theorem dev52_eq (c : Dev nD) : (⟨k0_dev52 c, Gen.k0_dev52_lt c⟩ : Dev nD) = Vals.fwd c 7 :=
  Fin.ext (by revert c; decide +kernel)
@[sl_canon] theorem dev53_eq (c : Dev nD) : (⟨k0_dev53 c, Gen.k0_dev53_lt c⟩ : Dev nD) = Vals.fwd c 8 :=
  Fin.ext (by revert c; decide +kernel)
@[sl_canon] theorem dev54_eq (c : Dev nD) : (⟨k0_dev54 c, Gen.k0_dev54_lt c⟩ : Dev nD) = Vals.fwd c 9 :=
  Fin.ext (by revert c; decide +kernel)
@[sl_canon] theorem dev55_eq (c : Dev nD) : (⟨k0_dev55 c, Gen.k0_dev55_lt c⟩ : Dev nD) = Vals.fwd c 10 :=
  Fin.ext (by revert c; decide +kernel)
@[sl_canon] theorem dev56_eq (c : Dev nD) : (⟨k0_dev56 c, Gen.k0_dev56_lt c⟩ : Dev nD) = Vals.fwd c 11 :=
  Fin.ext (by revert c; decide +kernel)
@[sl_canon] theorem dev57_eq (c : Dev nD) : (⟨k0_dev57 c, Gen.k0_dev57_lt c⟩ : Dev nD) = Vals.fwd c 12 :=
  Fin.ext (by revert c; decide +kernel)
@[sl_canon] theorem dev58_eq (c : Dev nD) : (⟨k0_dev58 c, Gen.k0_dev58_lt c⟩ : Dev nD) = Vals.fwd c 13 :=
  Fin.ext (by revert c; decide +kernel)
@[sl_canon] theorem dev59_eq (c : Dev nD) : (⟨k0_dev59 c, Gen.k0_dev59_lt c⟩ : Dev nD) = Vals.fwd c 14 :=
  Fin.ext (by revert c; decide +kernel)
@[sl_canon] theorem dev60_eq (c : Dev nD) : (⟨k0_dev60 c, Gen.k0_dev60_lt c⟩ : Dev nD) = Vals.fwd c 15 :=
  Fin.ext (by revert c; decide +kernel)
@[sl_canon] theorem dev61_eq (c : Dev nD) : (⟨k0_dev61 c, Gen.k0_dev61_lt c⟩ : Dev nD) = Vals.bwd c 1 :=
  Fin.ext (by revert c; decide +kernel)
@[sl_canon] theorem dev62_eq (c : Dev nD) : (⟨k0_dev62 c, Gen.k0_dev62_lt c⟩ : Dev nD) = Vals.bwd c 2 :=
  Fin.ext (by revert c; decide +kernel)
@[sl_canon] theorem dev63_eq (c : Dev nD) : (⟨k0_dev63 c, Gen.k0_dev63_lt c⟩ : Dev nD) = Vals.bwd c 3 :=
  Fin.ext (by revert c; decide +kernel)
@[sl_canon] theorem dev64_eq (c : Dev nD) : (⟨k0_dev64 c, Gen.k0_dev64_lt c⟩ : Dev nD) = Vals.bwd c 4 :=
  Fin.ext (by revert c; decide +kernel)
@[sl_canon] theorem dev65_eq (c : Dev nD) : (⟨k0_dev65 c, Gen.k0_dev65_lt c⟩ : Dev nD) = Vals.bwd c 5 :=
  Fin.ext (by revert c; decide +kernel)
@[sl_canon] theorem dev66_eq (c : Dev nD) : (⟨k0_dev66 c, Gen.k0_dev66_lt c⟩ : Dev nD) = Vals.bwd c 6 :=
  Fin.ext (by revert c; decide +kernel)
@[sl_canon] theorem dev67_eq (c : Dev nD) : (⟨k0_dev67 c, Gen.k0_dev67_lt c⟩ : Dev nD) = Vals.bwd c 7 :=
  Fin.ext (by revert c; decide +kernel)
@[sl_canon] theorem dev68_eq (c : Dev nD) : (⟨k0_dev68 c, Gen.k0_dev68_lt c⟩ : Dev nD) = Vals.bwd c 8 :=
  Fin.ext (by revert c; decide +kernel)
@[sl_canon] theorem dev69_eq (c : Dev nD) : (⟨k0_dev69 c, Gen.k0_dev69_lt c⟩ : Dev nD) = Vals.bwd c 9 :=
  Fin.ext (by revert c; decide +kernel)
@[sl_canon] theorem dev70_eq (c : Dev nD) : (⟨k0_dev70 c, Gen.k0_dev70_lt c⟩ : Dev nD) = Vals.bwd c 10 :=
  Fin.ext (by revert c; decide +kernel)
@[sl_canon] theorem dev71_eq (c : Dev nD) : (⟨k0_dev71 c, Gen.k0_dev71_lt c⟩ : Dev nD) = Vals.bwd c 11 :=
  Fin.ext (by revert c; decide +kernel)
@[sl_canon] theorem dev72_eq (c : Dev nD) : (⟨k0_dev72 c, Gen.k0_dev72_lt c⟩ : Dev nD) = Vals.bwd c 12 :=
  Fin.ext (by revert c; decide +kernel)
@[sl_canon] theorem dev73_eq (c : Dev nD) : (⟨k0_dev73 c, Gen.k0_dev73_lt c⟩ : Dev nD) = Vals.bwd c 13 :=
  Fin.ext (by revert c; decide +kernel)
@[sl_canon] theorem dev74_eq (c : Dev nD) : (⟨k0_dev74 c, Gen.k0_dev74_lt c⟩ : Dev nD) = Vals.bwd c 14 :=
  Fin.ext (by revert c; decide +kernel)
@[sl_canon] theorem dev75_eq (c : Dev nD) : (⟨k0_dev75 c, Gen.k0_dev75_lt c⟩ : Dev nD) = Vals.bwd c 15 :=
  Fin.ext (by revert c; decide +kernel)
@[sl_canon] theorem dev76_eq (c : Dev nD) : (⟨k0_dev76 c, Gen.k0_dev76_lt c⟩ : Dev nD) = Vals.fwd c 1 :=
  Fin.ext (by revert c; decide +kernel)
@[sl_canon] theorem dev77_eq (c : Dev nD) : (⟨k0_dev77 c, Gen.k0_dev77_lt c⟩ : Dev nD) = Vals.fwd c 2 :=
  Fin.ext (by revert c; decide +kernel)
@[sl_canon] theorem dev78_eq (c : Dev nD) : (⟨k0_dev78 c, Gen.k0_dev78_lt c⟩ : Dev nD) = Vals.fwd c 3 :=
  Fin.ext (by revert c; decide +kernel)
@[sl_canon] theorem dev79_eq (c : Dev nD) : (⟨k0_dev79 c, Gen.k0_dev79_lt c⟩ : Dev nD) = Vals.fwd c 4 :=
  Fin.ext (by revert c; decide +kernel)
@[sl_canon] theorem dev80_eq (c : Dev nD) : (⟨k0_dev80 c, Gen.k0_dev80_lt c⟩ : Dev nD) = Vals.fwd c 5 :=
  Fin.ext (by revert c; decide +kernel)
@[sl_canon] theorem dev81_eq (c : Dev nD) : (⟨k0_dev81 c, Gen.k0_dev81_lt c⟩ : Dev nD) = Vals.fwd c 6 :=
  Fin.ext (by revert c; decide +kernel)
@[sl_canon] theorem dev82_eq (c : Dev nD) : (⟨k0_dev82 c, Gen.k0_dev82_lt c⟩ : Dev nD) = Vals.fwd c 7 :=
  Fin.ext (by revert c; decide +kernel)
@[sl_canon] theorem dev83_eq (c : Dev nD) : (⟨k0_dev83 c, Gen.k0_dev83_lt c⟩ : Dev nD) = Vals.fwd c 8 :=
  Fin.ext (by revert c; decide +kernel)
@[sl_canon] theorem dev84_eq (c : Dev nD) : (⟨k0_dev84 c, Gen.k0_dev84_lt c⟩ : Dev nD) = Vals.fwd c 9 :=
  Fin.ext (by revert c; decide +kernel)
@[sl_canon] theorem dev85_eq (c : Dev nD) : (⟨k0_dev85 c, Gen.k0_dev85_lt c⟩ : Dev nD) = Vals.fwd c 10 :=
  Fin.ext (by revert c; decide +kernel)
@[sl_canon] theorem dev86_eq (c : Dev nD) : (⟨k0_dev86 c, Gen.k0_dev86_lt c⟩ : Dev nD) = Vals.fwd c 11 :=
  Fin.ext (by revert c; decide +kernel)
@[sl_canon] theorem dev87_eq (c : Dev nD) : (⟨k0_dev87 c, Gen.k0_dev87_lt c⟩ : Dev nD) = Vals.fwd c 12 :=
  Fin.ext (by revert c; decide +kernel)
@[sl_canon] theorem dev88_eq (c : Dev nD) : (⟨k0_dev88 c, Gen.k0_dev88_lt c⟩ : Dev nD) = Vals.fwd c 13 :=
  Fin.ext (by revert c; decide +kernel)
@[sl_canon] theorem dev89_eq (c : Dev nD) : (⟨k0_dev89 c, Gen.k0_dev89_lt c⟩ : Dev nD) = Vals.fwd c 14 :=
  Fin.ext (by revert c; decide +kernel)
@[sl_canon] theorem dev90_eq (c : Dev nD) : (⟨k0_dev90 c, Gen.k0_dev90_lt c⟩ : Dev nD) = Vals.fwd c 15 :=
  Fin.ext (by revert c; decide +kernel)
@[sl_canon] theorem dev91_eq (c : Dev nD) : (⟨k0_dev91 c, Gen.k0_dev91_lt c⟩ : Dev nD) = Vals.bwd c 1 :=
  Fin.ext (by revert c; decide +kernel)
@[sl_canon] theorem dev92_eq (c : Dev nD) : (⟨k0_dev92 c, Gen.k0_dev92_lt c⟩ : Dev nD) = Vals.bwd c 2 :=
  Fin.ext (by revert c; decide +kernel)
@[sl_canon] theorem dev93_eq (c : Dev nD) : (⟨k0_dev93 c, Gen.k0_dev93_lt c⟩ : Dev nD) = Vals.bwd c 3 :=
  Fin.ext (by revert c; decide +kernel)
@[sl_canon] theorem dev94_eq (c : Dev nD) : (⟨k0_dev94 c, Gen.k0_dev94_lt c⟩ : Dev nD) = Vals.bwd c 4 :=
  Fin.ext (by revert c; decide +kernel)
@[sl_canon] theorem dev95_eq (c : Dev nD) : (⟨k0_dev95 c, Gen.k0_dev95_lt c⟩ : Dev nD) = Vals.bwd c 5 :=
  Fin.ext (by revert c; decide +kernel)
@[sl_canon] theorem dev96_eq (c : Dev nD) : (⟨k0_dev96 c, Gen.k0_dev96_lt c⟩ : Dev nD) = Vals.bwd c 6 :=
  Fin.ext (by revert c; decide +kernel)
@[sl_canon] theorem dev97_eq (c : Dev nD) : (⟨k0_dev97 c, Gen.k0_dev97_lt c⟩ : Dev nD) = Vals.bwd c 7 :=
  Fin.ext (by revert c; decide +kernel)
@[sl_canon] theorem dev98_eq (c : Dev nD) : (⟨k0_dev98 c, Gen.k0_dev98_lt c⟩ : Dev nD) = Vals.bwd c 8 :=
  Fin.ext (by revert c; decide +kernel)
@[sl_canon] theorem dev99_eq (c : Dev nD) : (⟨k0_dev99 c, Gen.k0_dev99_lt c⟩ : Dev nD) = Vals.bwd c 9 :=
  Fin.ext (by revert c; decide +kernel)
@[sl_canon] theorem dev100_eq (c : Dev nD) : (⟨k0_dev100 c, Gen.k0_dev100_lt c⟩ : Dev nD) = Vals.bwd c 10 :=
  Fin.ext (by revert c; decide +kernel)
@[sl_canon] theorem dev101_eq (c : Dev nD) : (⟨k0_dev101 c, Gen.k0_dev101_lt c⟩ : Dev nD) = Vals.bwd c 11 :=
  Fin.ext (by revert c; decide +kernel)
@[sl_canon] theorem dev102_eq (c : Dev nD) : (⟨k0_dev102 c, Gen.k0_dev102_lt c⟩ : Dev nD) = Vals.bwd c 12 :=
  Fin.ext (by revert c; decide +kernel)
@[sl_canon] theorem dev103_eq (c : Dev nD) : (⟨k0_dev103 c, Gen.k0_dev103_lt c⟩ : Dev nD) = Vals.bwd c 13 :=
  Fin.ext (by revert c; decide +kernel)
@[sl_canon] theorem dev104_eq (c : Dev nD) : (⟨k0_dev104 c, Gen.k0_dev104_lt c⟩ : Dev nD) = Vals.bwd c 14 :=
  Fin.ext (by revert c; decide +kernel)
@[sl_canon] theorem dev105_eq (c : Dev nD) : (⟨k0_dev105 c, Gen.k0_dev105_lt c⟩ : Dev nD) = Vals.bwd c 15 :=
  Fin.ext (by revert c; decide +kernel)

/-! ## The ring's laws -/

theorem fwd_val (c : Dev nD) (k : ℕ) : (Vals.fwd c k).val = (c.val + k) % 16 := rfl
theorem bwd_val (c : Dev nD) (k : ℕ) : (Vals.bwd c k).val = (c.val + (16 - k % 16)) % 16 := rfl

/-- No step at all. -/
theorem fwd_zero (c : Dev nD) : Vals.fwd c 0 = c := by
  apply Fin.ext; have hc : c.val < 16 := c.isLt; simp only [fwd_val]; omega

theorem bwd_zero (c : Dev nD) : Vals.bwd c 0 = c := by
  apply Fin.ext; have hc : c.val < 16 := c.isLt; simp only [bwd_val]; omega

/-- k places forward then k places back. -/
theorem bwd_fwd (c : Dev nD) (k : ℕ) (hk : k < 16) : Vals.bwd (Vals.fwd c k) k = c := by
  apply Fin.ext; have hc : c.val < 16 := c.isLt; simp only [fwd_val, bwd_val]; omega

/-- k places back then k places forward. -/
theorem fwd_bwd (c : Dev nD) (k : ℕ) (hk : k < 16) : Vals.fwd (Vals.bwd c k) k = c := by
  apply Fin.ext; have hc : c.val < 16 := c.isLt; simp only [fwd_val, bwd_val]; omega

/-- A step of 1..15 places forward leaves the device. -/
theorem fwd_ne (c : Dev nD) (k : ℕ) (h1 : 1 ≤ k) (h15 : k ≤ 15) : Vals.fwd c k ≠ c := by
  intro h; have h' := congrArg Fin.val h; have hc : c.val < 16 := c.isLt; simp only [fwd_val] at h'; omega

/-- A step of 1..15 places back leaves the device. -/
theorem bwd_ne (c : Dev nD) (k : ℕ) (h1 : 1 ≤ k) (h15 : k ≤ 15) : Vals.bwd c k ≠ c := by
  intro h; have h' := congrArg Fin.val h; have hc : c.val < 16 := c.isLt; simp only [bwd_val] at h'; omega

theorem ne_fwd (c : Dev nD) (k : ℕ) (h1 : 1 ≤ k) (h15 : k ≤ 15) : c ≠ Vals.fwd c k :=
  fun h => fwd_ne c k h1 h15 h.symm

theorem ne_bwd (c : Dev nD) (k : ℕ) (h1 : 1 ≤ k) (h15 : k ≤ 15) : c ≠ Vals.bwd c k :=
  fun h => bwd_ne c k h1 h15 h.symm

/-- k places back is 16 - k places forward. -/
theorem bwd_eq_fwd (c : Dev nD) (k : ℕ) (h1 : 1 ≤ k) (h15 : k ≤ 15) : Vals.bwd c k = Vals.fwd c (16 - k) := by
  apply Fin.ext; have hc : c.val < 16 := c.isLt; simp only [fwd_val, bwd_val]; omega

/-- k places forward is 16 - k places back. -/
theorem fwd_eq_bwd (c : Dev nD) (k : ℕ) (h1 : 1 ≤ k) (h15 : k ≤ 15) : Vals.fwd c k = Vals.bwd c (16 - k) := by
  apply Fin.ext; have hc : c.val < 16 := c.isLt; simp only [fwd_val, bwd_val]; omega

/-- Two devices with the same device k places after them are one device. -/
theorem fwd_injective (k : ℕ) : Function.Injective (fun c : Dev nD => Vals.fwd c k) := by
  intro a b h
  have h' := congrArg Fin.val h
  apply Fin.ext; have ha : a.val < 16 := a.isLt; have hb : b.val < 16 := b.isLt; simp only [fwd_val] at h'; omega

theorem bwd_injective (k : ℕ) : Function.Injective (fun c : Dev nD => Vals.bwd c k) := by
  intro a b h
  have h' := congrArg Fin.val h
  apply Fin.ext; have ha : a.val < 16 := a.isLt; have hb : b.val < 16 := b.isLt; simp only [bwd_val] at h'; omega

theorem fwd_inj (a b : Dev nD) (k : ℕ) : Vals.fwd a k = Vals.fwd b k ↔ a = b :=
  ⟨fun h => fwd_injective k h, fun h => h ▸ rfl⟩

theorem bwd_inj (a b : Dev nD) (k : ℕ) : Vals.bwd a k = Vals.bwd b k ↔ a = b :=
  ⟨fun h => bwd_injective k h, fun h => h ▸ rfl⟩

/-- The device k places after c is e exactly when c is k places before e. -/
theorem fwd_eq_iff (c e : Dev nD) (k : ℕ) (hk : k < 16) : Vals.fwd c k = e ↔ c = Vals.bwd e k :=
  ⟨fun h => by rw [← h, bwd_fwd c k hk], fun h => by rw [h, fwd_bwd e k hk]⟩

theorem bwd_eq_iff (c e : Dev nD) (k : ℕ) (hk : k < 16) : Vals.bwd c k = e ↔ c = Vals.fwd e k :=
  ⟨fun h => by rw [← h, fwd_bwd c k hk], fun h => by rw [h, bwd_fwd e k hk]⟩

/-- Steps forward add up. -/
theorem fwd_fwd (c : Dev nD) (j k : ℕ) : Vals.fwd (Vals.fwd c j) k = Vals.fwd c (j + k) := by
  apply Fin.ext; have hc : c.val < 16 := c.isLt; simp only [fwd_val]; omega

/-- Different steps of fewer than sixteen places reach different devices. -/
theorem fwd_ne_fwd (c : Dev nD) (j k : ℕ) (hj : j < 16) (hk : k < 16) (hjk : j ≠ k) : Vals.fwd c j ≠ Vals.fwd c k := by
  intro h; have h' := congrArg Fin.val h; have hc : c.val < 16 := c.isLt; simp only [fwd_val] at h'; omega

theorem bwd_ne_bwd (c : Dev nD) (j k : ℕ) (hj : j < 16) (hk : k < 16) (hjk : j ≠ k) : Vals.bwd c j ≠ Vals.bwd c k := by
  intro h; have h' := congrArg Fin.val h; have hc : c.val < 16 := c.isLt; simp only [bwd_val] at h'; omega

/-- Stepping k places forward, as a bijection of the devices; its inverse steps k places back. -/
def ringE (k : ℕ) (hk : k < 16) : Dev nD ≃ Dev nD where
  toFun := (Vals.fwd · k)
  invFun := (Vals.bwd · k)
  left_inv := fun c => bwd_fwd c k hk
  right_inv := fun c => fwd_bwd c k hk

@[simp] theorem ringE_apply (k : ℕ) (hk : k < 16) (c : Dev nD) : ringE k hk c = Vals.fwd c k := rfl
@[simp] theorem ringE_symm_apply (k : ℕ) (hk : k < 16) (c : Dev nD) : (ringE k hk).symm c = Vals.bwd c k := rfl

end Cert.Kernel.Ring

/-- info: 'Cert.Kernel.Ring.dev105_eq' depends on axioms: [propext, Quot.sound] -/
#guard_msgs in #print axioms Cert.Kernel.Ring.dev105_eq

/-- info: 'Cert.Kernel.Ring.ringE' depends on axioms: [propext, Quot.sound] -/
#guard_msgs in #print axioms Cert.Kernel.Ring.ringE
-- ==== Proof.Bits.Open.lean ====
import Idealize.ShloMosaic.Lib.Pipeline.Kit
noncomputable section
namespace Cert.Kernel.Open
open Idealize.SL Idealize.SL.RA Idealize.SL.BI
open scoped Idealize.SL.BI
open Idealize.SL.BI.BIBase Idealize.SL.BI.Laws Idealize.SL.ProofMode

/-- A separating conjunction over the fifteen copy indices, written out. -/
theorem bigSep_F15 {M : Type} [URA M] (Φ : Fin 15 → sProp M) :
    bigSep Finset.univ Φ = iprop(Φ (0 : Fin 15) ∗ Φ (1 : Fin 15) ∗ Φ (2 : Fin 15) ∗ Φ (3 : Fin 15) ∗ Φ (4 : Fin 15) ∗ Φ (5 : Fin 15) ∗ Φ (6 : Fin 15) ∗ Φ (7 : Fin 15) ∗ Φ (8 : Fin 15) ∗ Φ (9 : Fin 15) ∗ Φ (10 : Fin 15) ∗ Φ (11 : Fin 15) ∗ Φ (12 : Fin 15) ∗ Φ (13 : Fin 15) ∗ Φ (14 : Fin 15)) :=
  bigSep_univ_eq_bigSepL [(0 : Fin 15), (1 : Fin 15), (2 : Fin 15), (3 : Fin 15), (4 : Fin 15), (5 : Fin 15), (6 : Fin 15), (7 : Fin 15), (8 : Fin 15), (9 : Fin 15), (10 : Fin 15), (11 : Fin 15), (12 : Fin 15), (13 : Fin 15), (14 : Fin 15)] (by decide) (by decide) Φ

/-- Over the sixteen slots. -/
theorem bigSep_F16 {M : Type} [URA M] (Φ : Fin 16 → sProp M) :
    bigSep Finset.univ Φ = iprop(Φ (0 : Fin 16) ∗ Φ (1 : Fin 16) ∗ Φ (2 : Fin 16) ∗ Φ (3 : Fin 16) ∗ Φ (4 : Fin 16) ∗ Φ (5 : Fin 16) ∗ Φ (6 : Fin 16) ∗ Φ (7 : Fin 16) ∗ Φ (8 : Fin 16) ∗ Φ (9 : Fin 16) ∗ Φ (10 : Fin 16) ∗ Φ (11 : Fin 16) ∗ Φ (12 : Fin 16) ∗ Φ (13 : Fin 16) ∗ Φ (14 : Fin 16) ∗ Φ (15 : Fin 16)) :=
  bigSep_univ_eq_bigSepL [(0 : Fin 16), (1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) Φ

/-- Over the fifteen nonzero duty names. -/
theorem bigSep_D1 {M : Type} [URA M] (Φ : Fin 16 → sProp M) :
    bigSep (Finset.univ.erase (0 : Fin 16)) Φ = iprop(Φ (1 : Fin 16) ∗ Φ (2 : Fin 16) ∗ Φ (3 : Fin 16) ∗ Φ (4 : Fin 16) ∗ Φ (5 : Fin 16) ∗ Φ (6 : Fin 16) ∗ Φ (7 : Fin 16) ∗ Φ (8 : Fin 16) ∗ Φ (9 : Fin 16) ∗ Φ (10 : Fin 16) ∗ Φ (11 : Fin 16) ∗ Φ (12 : Fin 16) ∗ Φ (13 : Fin 16) ∗ Φ (14 : Fin 16) ∗ Φ (15 : Fin 16)) :=
  bigSep_eq_bigSepL_of_eq [(1 : Fin 16), (2 : Fin 16), (3 : Fin 16), (4 : Fin 16), (5 : Fin 16), (6 : Fin 16), (7 : Fin 16), (8 : Fin 16), (9 : Fin 16), (10 : Fin 16), (11 : Fin 16), (12 : Fin 16), (13 : Fin 16), (14 : Fin 16), (15 : Fin 16)] (by decide) (by decide) Φ

end Cert.Kernel.Open
end
-- ==== Proof.Bits.StepsSend.lean ====
import proofs.«900978_g7700000000000979_dist_mlpseq_tp1d_bs_bs_b256_d256_h512_v7x_i16_bf16_1_alg».proof.Proof.Bits.Dats
import proofs.«900978_g7700000000000979_dist_mlpseq_tp1d_bs_bs_b256_d256_h512_v7x_i16_bf16_1_alg».proof.Proof.Bits.SchedTables
import proofs.«900978_g7700000000000979_dist_mlpseq_tp1d_bs_bs_b256_d256_h512_v7x_i16_bf16_1_alg».proof.Proof.Bits.RingLaws
import proofs.«900978_g7700000000000979_dist_mlpseq_tp1d_bs_bs_b256_d256_h512_v7x_i16_bf16_1_alg».proof.Proof.Gen.Kernel.Skeleton
import proofs.«900978_g7700000000000979_dist_mlpseq_tp1d_bs_bs_b256_d256_h512_v7x_i16_bf16_1_alg».proof.Proof.Bits.StateLemmas
import proofs.«900978_g7700000000000979_dist_mlpseq_tp1d_bs_bs_b256_d256_h512_v7x_i16_bf16_1_alg».proof.Proof.Bits.Phases
import Idealize.ShloMosaic.Lib.Pipeline.Value
noncomputable section
namespace Cert.Kernel.StepsSend
open Cert.Kernel Cert.Kernel.Gen Cert.Kernel.Vals Cert.Kernel.Cells Cert.Kernel.Sched Cert.Kernel.State Cert.Kernel.Dats Cert.Kernel.SchedTables Cert.Kernel.RingLaws Cert.Kernel.Phases
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## The copies a device issues

  Chunk copy j+1 of layer r leaves slot 0 of X at a borrowed half of what the device still keeps of it and lands in
  slot j+1 of the device j+1 places after; the piece of copy index j+1 leaves slot j+1 of P and lands in slot 14-j of R
  on the device j+1 places before. Each landing writes one slot of the destination's buffer: on that slot's own
  elements the buffer then holds the copied rows whatever it held elsewhere. -/

/-- Every slot copy credits the same amount. -/
theorem NX_x (k : Fin 16) : (xslot k).view.dmaCredit = NX := rfl
theorem NX_r (j : Fin 15) : (rslot j).view.dmaCredit = NX := rfl

/-- The sender's tokens of layer r and those of the later layers. -/
theorem snToks_step (c : Dev nD) (j : Fin 15) (r : ℕ) (hr : r < 3) :
    snToks (F := F) c j r = iprop((dutyTok ER (cell (nxt c j) (.dma (rAg j))) r 0 ∗ dutyTok ER (cell c (.dma (sAg j))) r 0
        ∗ cred (tallyAt (cell c (.dma (rRs (Fin.rev j)))) r NX)) ∗ snToks (F := F) c j (r + 1)) := by
  unfold snToks
  rw [Ico_layers r hr, bigSep_insert (by simp only [Finset.mem_Ico]; omega)]
  rfl

/-- A chunk landed in slot k of X on device e: on the slot's own elements the buffer holds the chunk. -/
theorem land_x (e c : Dev nD) (k : Fin 16) (v : Vec F S256x256 .bf16) (fd : Buf (Elt F) ((xslot k).view.loc (e : Thread nD τ))) :
    ((xslot k).view.loc (e : Thread nD τ) ↦[(xslot k).view.set]{fullShare}
        ((xslot k).view.write (Elt F) fd ((xslot 0).view.read (Elt F) (xfill c 0 v)) Finset.univ) : sProp 𝕄)
      = xPts e k fullShare (xfill e k v) := by
  have hread : (xslot 0).view.read (Elt F) (xfill c 0 v) = v := View.read_write_univ _ _
  rw [hread]
  unfold xPts xfill
  refine pointsTo_congr fun i hi => ?_
  obtain ⟨y, rfl⟩ := View.exists_emb_of_mem_set _ hi
  exact (View.write_emb_of_mem _ _ (Finset.mem_univ y)).trans (View.write_emb_of_mem _ _ (Finset.mem_univ y)).symm

/-- A piece landed in slot i of R on device e: on the slot's own elements the buffer holds the piece. -/
theorem land_r (e c : Dev nD) (i : Fin 15) (k : Fin 16) (v : Vec F S256x256 .bf16) (fd : Buf (Elt F) ((rslot i).view.loc (e : Thread nD τ))) :
    ((rslot i).view.loc (e : Thread nD τ) ↦[(rslot i).view.set]{fullShare}
        ((rslot i).view.write (Elt F) fd ((pslot k).view.read (Elt F) (pfill c k v)) Finset.univ) : sProp 𝕄)
      = rPts e i (rfill e i v) := by
  have hread : (pslot k).view.read (Elt F) (pfill c k v) = v := View.read_write_univ _ _
  rw [hread]
  unfold rPts rfill
  refine pointsTo_congr fun x hx => ?_
  obtain ⟨y, rfl⟩ := View.exists_emb_of_mem_set _ hx
  exact (View.write_emb_of_mem _ _ (Finset.mem_univ y)).trans (View.write_emb_of_mem _ _ (Finset.mem_univ y)).symm

/-- Slot 14 - j of R belongs to copy index j + 1. -/
theorem rev_index (j : Fin 15) : 15 - (Fin.rev j).val = j.val + 1 := by
  rw [Fin.val_rev]; have := j.isLt; omega

/-- Device c issues chunk copy j+1 of layer r: out of slot 0 of X, at the half it lends of the share it still keeps, into
    slot j+1 of X on the device j+1 places after it. The landing hands that device the slot holding c's chunk of the
    layer, together with c's slot 14-j of R, in which the piece will come back, and the fact that c has consumed the
    earlier rounds of that slot's receive cell; the send side will return the lent half. -/
theorem step_AS (K : GSem nD τ sig → ℕ) (c : Dev nD) (j : Fin 15) (r : ℕ) (hr : r < 3) (a b : Fin 15 → ℕ) (ha : a j = r)
    {W : Waits sig ℕ} {α : Type} {Q : α → sProp 𝕄} {k : PUnit → Prog (TpuEff nD τ sig (Elt F) Λ₀ .tc) α}
    {hsc : (xslot (kOf j)).view.ref.isScScratch = false}
    {hsrc : (xslot 0).view.WordExact} {hdst : (xslot (kOf j)).view.WordExact}
    {hsem : DmaTarget.Typed (nD := nD) (τ := τ) (p := .tc) .vmem (.dma (rAg j)) (.remote (nxt c j : Thread nD τ) (xslot (kOf j)) (.dma (sAg j)) hsc)} :
    iprop(Invs m K ∗ owes (c : Thread nD τ) (Otot c a b 15) W ∗ sn (F := F) c j r ∗ dstX (F := F) c j r
        ∗ xPts c 0 (keepSh j.val) (xfill c 0 (chunkAt m r c)) ∗ (∃ f, rPts (F := F) c (Fin.rev j) f))
      ⊢ iprop(((owes (c : Thread nD τ) (Otot c (Function.update a j (r + 1)) b 15) W ∗ snSent (F := F) c j r
                ∗ xPts c 0 (keepSh (j.val + 1)) (xfill c 0 (chunkAt m r c)))
              -∗ wp frame (wpE (defs₀ (F := F)) 𝒱₀ c none) Set.univ (k ⟨⟩) Q)
          -∗ wp frame (wpE (defs₀ (F := F)) 𝒱₀ c none) Set.univ
              (.op (.enqueueDma (xslot 0) (.remote (nxt c j : Thread nD τ) (xslot (kOf j)) (.dma (sAg j)) hsc) (.dma (rAg j)) hsrc hdst hsem) k) Q) := by
  unfold sn dstX snSent xPts
  rw [snToks_step c j r hr]
  iintro ⟨#HI, HO, ⟨⟨⟨Ht1, Ht2, Hc⟩, Hts⟩, Ha1, Ha2, #Hr1, #Hr2⟩, ⟨⟨%fd, Hd⟩, #Hr3⟩, Hx, Hrr⟩ Hk
  ihave ⟨Hkeep, Hlent⟩ := (pointsTo_share (PosShare.mem_left_op_right (keepSh j.val))).1 $$ Hx
  iapply (Rounds.wp_send_pointsTo_with 𝒱₀ ER (sched m) (c : Thread nD τ) none
      (c' := (nxt c j : Thread nD τ)) (src := xslot 0) (dst := xslot (kOf j)) (q := lentSh j.val)
      (fs := xfill c 0 (chunkAt m r c)) (fd := fd)
      (F := iprop((∃ f, rPts (F := F) c (Fin.rev j) f) ∗ reached ER (cell c (.dma (rRs (Fin.rev j)))) r))
      (κ₁ := K (cell c (.dma (sAg j)))) (κ₂ := K (cell (nxt c j) (.dma (rAg j))))
      (zero_mem_sAg m c j r hr) (zero_mem_rAg m (nxt c j) j r hr) r r NX (NX_x (kOf j))
      (amount_sAg m c j r 0) (amount_rAg m (nxt c j) j r 0)
      (Otot c (Function.update a j (r + 1)) b 15) (Otot_stepA c a b 15 j r ha hr)
      (Entails.of_eq (by rw [payload_sAg]; rfl))
      (Entails.of_eq (by rw [payload_rAg]; unfold agRPay; rw [bwd_fwd, land_x]))) $$ [HO Ht1 Ht2 Hd Hlent Hrr]
  · isplitr; · iapply (Invs_at m K c (.dma (sAg j)) (mem_allSems_sAg j)); iexact HI
    isplitr; · iapply (Invs_at m K (nxt c j) (.dma (rAg j)) (mem_allSems_rAg j)); iexact HI
    isplitl [Hlent]; · iexact Hlent
    isplitl [Hd Hrr]
    · isplitl [Hd]; · iexact Hd
      isplitl [Hrr]; · iexact Hrr
      iexact Hr2
    isplitl [HO]; · iexact HO
    isplitl [Ht2]; · iexact Ht2
    isplitr; · iexact Hr1
    isplitl [Ht1]; · iexact Ht1
    iexact Hr3
  iintro ⟨Hcs, HO⟩
  iapply Hk
  isplitl [HO]; · iexact HO
  isplitr [Hkeep]
  · isplitl [Hts]; · iexact Hts
    isplitl [Hc]; · iexact Hc
    isplitl [Hcs]; · iexact Hcs
    isplitl [Ha1]; · iexact Ha1
    iexact Ha2
  · iexact Hkeep

/-- Device c returns the piece of copy index j+1 at a layer r followed by another: out of slot j+1 of P into slot 14-j of R
    on the device j+1 places before it. The landing hands that device the slot holding the piece, together with c's
    slot j+1 of X, in which that device's next chunk will land, and the fact that c has consumed this layer's round of
    the slot's receive cell; the send side will return the slot of P. -/
theorem step_RS (K : GSem nD τ sig → ℕ) (c : Dev nD) (j : Fin 15) (r : ℕ) (hr : r < 2) (a b : Fin 15 → ℕ) (hb : b j = r)
    {W : Waits sig ℕ} {α : Type} {Q : α → sProp 𝕄} {k : PUnit → Prog (TpuEff nD τ sig (Elt F) Λ₀ .tc) α}
    {hsc : (rslot (Fin.rev j)).view.ref.isScScratch = false}
    {hsrc : (pslot (kOf j)).view.WordExact} {hdst : (rslot (Fin.rev j)).view.WordExact}
    {hsem : DmaTarget.Typed (nD := nD) (τ := τ) (p := .tc) .vmem (.dma (rRs (Fin.rev j))) (.remote (prv c j : Thread nD τ) (rslot (Fin.rev j)) (.dma (sRs (Fin.rev j))) hsc)} :
    iprop(Invs m K ∗ owes (c : Thread nD τ) (Otot c a b 15) W ∗ rcGot (F := F) c j r ∗ dstR (F := F) c j r
        ∗ pPts c (kOf j) (pfill c (kOf j) (pieceAt m r c (j.val + 1)))
        ∗ (∃ f, xPts (F := F) c (kOf j) fullShare f))
      ⊢ iprop(((owes (c : Thread nD τ) (Otot c a (Function.update b j (r + 1)) 15) W ∗ rcSent (F := F) c j r)
              -∗ wp frame (wpE (defs₀ (F := F)) 𝒱₀ c none) Set.univ (k ⟨⟩) Q)
          -∗ wp frame (wpE (defs₀ (F := F)) 𝒱₀ c none) Set.univ
              (.op (.enqueueDma (pslot (kOf j)) (.remote (prv c j : Thread nD τ) (rslot (Fin.rev j)) (.dma (sRs (Fin.rev j))) hsc) (.dma (rRs (Fin.rev j))) hsrc hdst hsem) k) Q) := by
  have hr3 : r < 3 := by omega
  unfold rcGot dstR rcSent pPts rPts
  iintro ⟨#HI, HO, ⟨Hts, Ht1, Ht2, Ha1, Ha2, #Hr1, #Hr2⟩, ⟨⟨%fd, Hd⟩, #Hr3⟩, Hp, Hx⟩ Hk
  iapply (Rounds.wp_send_pointsTo_with 𝒱₀ ER (sched m) (c : Thread nD τ) none
      (c' := (prv c j : Thread nD τ)) (src := pslot (kOf j)) (dst := rslot (Fin.rev j)) (q := fullShare)
      (fs := pfill c (kOf j) (pieceAt m r c (j.val + 1))) (fd := fd)
      (F := iprop((∃ f, xPts (F := F) c (kOf j) fullShare f) ∗ reached ER (cell c (.dma (rAg j))) (r + 1)))
      (κ₁ := K (cell c (.dma (sRs (Fin.rev j))))) (κ₂ := K (cell (prv c j) (.dma (rRs (Fin.rev j)))))
      (zero_mem_sRs m c (Fin.rev j) r hr3) (zero_mem_rRs m (prv c j) (Fin.rev j) r hr3) r r NX (NX_r (Fin.rev j))
      (amount_sRs m c (Fin.rev j) r 0) (amount_rRs m (prv c j) (Fin.rev j) r 0)
      (Otot c a (Function.update b j (r + 1)) 15) (Otot_stepB c a b 15 j r hb hr3)
      (Entails.of_eq (by rw [payload_sRs]; unfold rsSPay pPts; rw [rev_index, Fin.rev_rev]))
      (Entails.of_eq (by rw [payload_rRs]; unfold rsRPay; rw [rev_index, Fin.rev_rev, fwd_bwd, land_r, if_pos hr]))) $$ [HO Ht1 Ht2 Hd Hp Hx]
  · isplitr; · iapply (Invs_at m K c (.dma (sRs (Fin.rev j))) (mem_allSems_sRs (Fin.rev j))); iexact HI
    isplitr; · iapply (Invs_at m K (prv c j) (.dma (rRs (Fin.rev j))) (mem_allSems_rRs (Fin.rev j))); iexact HI
    isplitl [Hp]; · iexact Hp
    isplitl [Hd Hx]
    · isplitl [Hd]; · iexact Hd
      isplitl [Hx]; · iexact Hx
      iexact Hr1
    isplitl [HO]; · iexact HO
    isplitl [Ht2]; · iexact Ht2
    isplitr; · iexact Hr2
    isplitl [Ht1]; · iexact Ht1
    iexact Hr3
  iintro ⟨Hcs, HO⟩
  iapply Hk
  isplitl [HO]; · iexact HO
  isplitl [Hts]; · iexact Hts
  isplitl [Hcs]; · iexact Hcs
  isplitl [Ha1]; · iexact Ha1
  isplitl [Ha2]; · iexact Ha2
  iexact Hr1

/-- The same at the last layer: nothing follows, so the landing hands over the slot holding the piece only. -/
theorem step_RS_last (K : GSem nD τ sig → ℕ) (c : Dev nD) (j : Fin 15) (r : ℕ) (hr : r = 2) (a b : Fin 15 → ℕ) (hb : b j = r)
    {W : Waits sig ℕ} {α : Type} {Q : α → sProp 𝕄} {k : PUnit → Prog (TpuEff nD τ sig (Elt F) Λ₀ .tc) α}
    {hsc : (rslot (Fin.rev j)).view.ref.isScScratch = false}
    {hsrc : (pslot (kOf j)).view.WordExact} {hdst : (rslot (Fin.rev j)).view.WordExact}
    {hsem : DmaTarget.Typed (nD := nD) (τ := τ) (p := .tc) .vmem (.dma (rRs (Fin.rev j))) (.remote (prv c j : Thread nD τ) (rslot (Fin.rev j)) (.dma (sRs (Fin.rev j))) hsc)} :
    iprop(Invs m K ∗ owes (c : Thread nD τ) (Otot c a b 15) W ∗ rcGot (F := F) c j r ∗ dstR (F := F) c j r
        ∗ pPts c (kOf j) (pfill c (kOf j) (pieceAt m r c (j.val + 1))))
      ⊢ iprop(((owes (c : Thread nD τ) (Otot c a (Function.update b j (r + 1)) 15) W ∗ rcSent (F := F) c j r)
              -∗ wp frame (wpE (defs₀ (F := F)) 𝒱₀ c none) Set.univ (k ⟨⟩) Q)
          -∗ wp frame (wpE (defs₀ (F := F)) 𝒱₀ c none) Set.univ
              (.op (.enqueueDma (pslot (kOf j)) (.remote (prv c j : Thread nD τ) (rslot (Fin.rev j)) (.dma (sRs (Fin.rev j))) hsc) (.dma (rRs (Fin.rev j))) hsrc hdst hsem) k) Q) := by
  have hr3 : r < 3 := by omega
  unfold rcGot dstR rcSent pPts rPts
  iintro ⟨#HI, HO, ⟨Hts, Ht1, Ht2, Ha1, Ha2, #Hr1, #Hr2⟩, ⟨⟨%fd, Hd⟩, #Hr3⟩, Hp⟩ Hk
  iapply (Rounds.wp_send_pointsTo_with 𝒱₀ ER (sched m) (c : Thread nD τ) none
      (c' := (prv c j : Thread nD τ)) (src := pslot (kOf j)) (dst := rslot (Fin.rev j)) (q := fullShare)
      (fs := pfill c (kOf j) (pieceAt m r c (j.val + 1))) (fd := fd)
      (F := iprop(emp))
      (κ₁ := K (cell c (.dma (sRs (Fin.rev j))))) (κ₂ := K (cell (prv c j) (.dma (rRs (Fin.rev j)))))
      (zero_mem_sRs m c (Fin.rev j) r hr3) (zero_mem_rRs m (prv c j) (Fin.rev j) r hr3) r r NX (NX_r (Fin.rev j))
      (amount_sRs m c (Fin.rev j) r 0) (amount_rRs m (prv c j) (Fin.rev j) r 0)
      (Otot c a (Function.update b j (r + 1)) 15) (Otot_stepB c a b 15 j r hb hr3)
      (Entails.of_eq (by rw [payload_sRs]; unfold rsSPay pPts; rw [rev_index, Fin.rev_rev]))
      (Entails.of_eq (by rw [payload_rRs]; unfold rsRPay; rw [rev_index, Fin.rev_rev, fwd_bwd, land_r, if_neg (by omega)]))) $$ [HO Ht1 Ht2 Hd Hp]
  · isplitr; · iapply (Invs_at m K c (.dma (sRs (Fin.rev j))) (mem_allSems_sRs (Fin.rev j))); iexact HI
    isplitr; · iapply (Invs_at m K (prv c j) (.dma (rRs (Fin.rev j))) (mem_allSems_rRs (Fin.rev j))); iexact HI
    isplitl [Hp]; · iexact Hp
    isplitl [Hd]
    · isplitl [Hd]; · iexact Hd
      iempintro
    isplitl [HO]; · iexact HO
    isplitl [Ht2]; · iexact Ht2
    isplitr; · iexact Hr2
    isplitl [Ht1]; · iexact Ht1
    iexact Hr3
  iintro ⟨Hcs, HO⟩
  iapply Hk
  isplitl [HO]; · iexact HO
  isplitl [Hts]; · iexact Hts
  isplitl [Hcs]; · iexact Hcs
  isplitl [Ha1]; · iexact Ha1
  isplitl [Ha2]; · iexact Ha2
  iexact Hr1

/-- info: 'Cert.Kernel.StepsSend.step_AS' depends on axioms: [propext, Classical.choice, Quot.sound] -/
#guard_msgs in #print axioms step_AS
/-- info: 'Cert.Kernel.StepsSend.step_RS' depends on axioms: [propext, Classical.choice, Quot.sound] -/
#guard_msgs in #print axioms step_RS
/-- info: 'Cert.Kernel.StepsSend.step_RS_last' depends on axioms: [propext, Classical.choice, Quot.sound] -/
#guard_msgs in #print axioms step_RS_last

end Cert.Kernel.StepsSend
end
-- ==== Proof.Bits.StepsWait.lean ====
/-
  The four waits of a layer, as steps on a copy index's phase bundles.

  Every transfer semaphore is waited once per layer, for the whole credit NX of one slot copy, by the device
  that owns it: the wait of layer r is round r of its cell and is tallied at index r. A wait is allowed when
  every copy the device has still to issue credits a cell above the waited one. The chunk copies of index i
  still to issue are those of the layers from a i on, at levels 4 (a i) + 2 and up; the piece copies still to
  issue are those of the layers from b i on, at levels 4 (b i) + 4 and up. So the receive and the send side
  of the chunk copies of layer r (levels 4 r + 2 and 4 r + 3) want r < a i and r ≤ b i for every copy index
  i, and the two sides of the piece copies (levels 4 r + 4 and 4 r + 5) want r < a i and r < b i. What the
  device owes is unchanged by a wait; the waited semaphore and layer join the record of its waits.

  Each step is stated over the wait as the program prints it: the semaphore is a one-entry window of its
  array, the two buffers are the slots the copy names, and the amount waited for is the credit of the
  destination slot, which is NX for every slot of X, of P and of R. The wait of a given copy index is then
  an instance of the step as it stands.
-/
import proofs.«900978_g7700000000000979_dist_mlpseq_tp1d_bs_bs_b256_d256_h512_v7x_i16_bf16_1_alg».proof.Proof.Bits.Dats
import proofs.«900978_g7700000000000979_dist_mlpseq_tp1d_bs_bs_b256_d256_h512_v7x_i16_bf16_1_alg».proof.Proof.Bits.SchedTables
import proofs.«900978_g7700000000000979_dist_mlpseq_tp1d_bs_bs_b256_d256_h512_v7x_i16_bf16_1_alg».proof.Proof.Bits.RingLaws
import proofs.«900978_g7700000000000979_dist_mlpseq_tp1d_bs_bs_b256_d256_h512_v7x_i16_bf16_1_alg».proof.Proof.Gen.Kernel.Skeleton
import proofs.«900978_g7700000000000979_dist_mlpseq_tp1d_bs_bs_b256_d256_h512_v7x_i16_bf16_1_alg».proof.Proof.Bits.StateLemmas
import proofs.«900978_g7700000000000979_dist_mlpseq_tp1d_bs_bs_b256_d256_h512_v7x_i16_bf16_1_alg».proof.Proof.Bits.Phases
noncomputable section
namespace Cert.Kernel.StepsWait
open Cert.Kernel Cert.Kernel.Gen Cert.Kernel.Vals Cert.Kernel.Cells Cert.Kernel.Sched Cert.Kernel.State Cert.Kernel.Dats Cert.Kernel.SchedTables Cert.Kernel.RingLaws Cert.Kernel.Phases
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## One slot copy's credit, whichever buffer the slot lies in -/

theorem credit_xslot (k : Fin 16) : (xslot k).view.dmaCredit = NX := rfl
theorem credit_pslot (k : Fin 16) : (pslot k).view.dmaCredit = NX := rfl
theorem credit_rslot (j : Fin 15) : (rslot j).view.dmaCredit = NX := rfl

/-! ## The printed waits are instances

  For copy index 1 (semaphore index 0; for the piece copies the slot of R is 14 and the slot of P is 1, and for
  semaphore index 0 of the piece copies' send side the slot of P is 15): the windows the program takes of the
  semaphore arrays and of the buffers are the named semaphores and slots. -/

example : rAg 0 = ((cc0_scratch5.slice (Rect.unit (s := S15) ![0] S1.size inb_S15_S1_0)).squeeze S_ squeezes_S1_S_).sem := rfl
example : sAg 0 = ((cc0_scratch3.slice (Rect.unit (s := S15) ![0] S1.size inb_S15_S1_0)).squeeze S_ squeezes_S1_S_).sem := rfl
example : rRs (Fin.rev 0) = ((cc0_scratch6.slice (Rect.unit (s := S15) ![14] S1.size inb_S15_S1_14)).squeeze S_ squeezes_S1_S_).sem := rfl
example : sRs (Fin.rev 14) = ((cc0_scratch4.slice (Rect.unit (s := S15) ![0] S1.size inb_S15_S1_0)).squeeze S_ squeezes_S1_S_).sem := rfl
example : xslot (kOf 0) = XM.slice (Rect.unit (s := S4096x256) ![256, 0] S256x256.size inb_S4096x256_S256x256_256_0) (fun _ => rfl) := rfl
example : xslot 0 = XM.slice (Rect.unit (s := S4096x256) ![0, 0] S256x256.size inb_S4096x256_S256x256_0_0) (fun _ => rfl) := rfl
example : rslot (Fin.rev 0) = (RM.slice (Rect.unit (s := S15x256x256) ![14, 0, 0] S1x256x256.size inb_S15x256x256_S1x256x256_14_0_0) (fun _ => rfl)).squeeze S256x256 squeezes_S1x256x256_S256x256 := rfl
example : pslot (kOf 14) = PM.slice (Rect.unit (s := S4096x256) ![3840, 0] S256x256.size inb_S4096x256_S256x256_3840_0) (fun _ => rfl) := rfl

/-! ## A bundle of tokens, one layer peeled off -/

/-- The receiver's tokens of the layers from r on: those of layer r, and those of the layers after it. -/
theorem rcToks_split (c : Dev nD) (j : Fin 15) (r : ℕ) (hr : r < 3) :
    rcToks (F := F) c j r = iprop((dutyTok ER (cell (prv c j) (.dma (rRs (Fin.rev j)))) r 0 ∗ dutyTok ER (cell c (.dma (sRs (Fin.rev j)))) r 0
        ∗ cred (tallyAt (cell c (.dma (rAg j))) r NX)) ∗ rcToks (F := F) c j (r + 1)) := by
  unfold rcToks
  rw [Ico_layers r hr, bigSep_insert (by simp only [Finset.mem_Ico]; omega)]
  rfl

/-! ## The waits

  Each goes by the rule for a wait that collects the rest of a round with one credit token, at round r and tally
  index r, with no duty of the round taken before: the cell's invariant, the token, what is owed, the level
  evidence and the owner's position go in; the owner comes back one round on with the round's one payload. -/

/-- Layer r's wait for chunk copy j+1: the receiver takes the slot holding the sender's chunk and the sender's slot of R. -/
theorem step_AR (K : GSem nD τ sig → ℕ) (c : Dev nD) (j : Fin 15) (r : ℕ) (hr : r < 3) (a b : Fin 15 → ℕ)
    (hA : ∀ i, r < a i) (hB : ∀ i, r ≤ b i)
    {W : Waits sig ℕ} {α : Type} {Q : α → sProp 𝕄} {k : PUnit → Prog (TpuEff nD τ sig (Elt F) Λ₀ .tc) α}
    {hsrc : (xslot (kOf j)).view.WordExact} {hdst : (xslot (kOf j)).view.WordExact} :
    iprop(Invs m K ∗ owes (c : Thread nD τ) (Otot c a b 15) W ∗ levAts L lv ∗ rc (F := F) c j r)
      ⊢ iprop(((owes (c : Thread nD τ) (Otot c a b 15) (insert (SemLoc.dma (rAg j), r) W) ∗ rcGot (F := F) c j r ∗ agRPay m c j r)
            -∗ wp frame (wpE (defs₀ (F := F)) 𝒱₀ c none) Set.univ (k ⟨⟩) Q)
          -∗ wp frame (wpE (defs₀ (F := F)) 𝒱₀ c none) Set.univ (.op (.waitDma2 (rAg j) (xslot (kOf j)) (xslot (kOf j)) hsrc hdst) k) Q) := by
  unfold rc rcGot
  rw [rcToks_split c j r hr]
  iintro ⟨#HI, HO, #Hlev, ⟨⟨Hd1, Hd2, Hc⟩, Ht⟩, Hat1, Hat2, #Hr1, #Hr2⟩ Hk
  iapply (Rounds.wp_wait_rest_token 𝒱₀ ER (sched m) (c : Thread nD τ) none
      (w := .waitDma2 (rAg j) (xslot (kOf j)) (xslot (kOf j)) hsrc hdst) (sm := .dma (rAg j)) (k' := NX) (κ := K (cell c (.dma (rAg j))))
      (fun Kc => wpE_waitDma2_eq 𝒱₀ (c : Thread nD τ) none Set.univ Kc) (Set.mem_univ _) r (O := Otot c a b 15) (W := W) (R := r) (m := 0) (T := ∅)
      ((Nat.zero_add NX).trans (expect_rAg m c j r hr).symm)) $$ [Hc HO Hat1]
  · isplitr; · iapply (Invs_at m K c (.dma (rAg j)) (mem_allSems_rAg j)); iexact HI
    isplitl [Hc]; · iexact Hc
    isplitl [HO]; · iexact HO
    isplitr
    · iapply (mayWait_of c a b 15 (.dma (rAg j)) r hr (Or.inl rfl)
        (fun i _ => by rw [lv_rAg]; have := hA i; omega)
        (fun i _ => by rw [lv_rAg]; have := hB i; omega))
      iexact Hlev
    iexact Hat1
  iintro ⟨HO, Hat, #Hr, Hpay⟩
  iapply Hk
  isplitl [HO]; · iexact HO
  isplitr [Hpay]
  · isplitl [Ht]; · iexact Ht
    isplitl [Hd1]; · iexact Hd1
    isplitl [Hd2]; · iexact Hd2
    isplitl [Hat]; · iexact Hat
    isplitl [Hat2]; · iexact Hat2
    isplitr; · iexact Hr
    iexact Hr2
  · iapply (Entails.of_eq (rest_rAg m c j r hr)); iexact Hpay

/-- Layer r's wait for the send side of chunk copy j+1: the lent share of slot 0 of X comes back. -/
theorem step_AW (K : GSem nD τ sig → ℕ) (c : Dev nD) (j : Fin 15) (r : ℕ) (hr : r < 3) (a b : Fin 15 → ℕ)
    (hA : ∀ i, r < a i) (hB : ∀ i, r ≤ b i)
    {W : Waits sig ℕ} {α : Type} {Q : α → sProp 𝕄} {k : PUnit → Prog (TpuEff nD τ sig (Elt F) Λ₀ .tc) α}
    {hsrc : (xslot (kOf j)).view.WordExact} {hdst : (xslot 0).view.WordExact} :
    iprop(Invs m K ∗ owes (c : Thread nD τ) (Otot c a b 15) W ∗ levAts L lv ∗ snSent (F := F) c j r)
      ⊢ iprop(((owes (c : Thread nD τ) (Otot c a b 15) (insert (SemLoc.dma (sAg j), r) W) ∗ snWaited (F := F) c j r ∗ agSPay m c j r)
            -∗ wp frame (wpE (defs₀ (F := F)) 𝒱₀ c none) Set.univ (k ⟨⟩) Q)
          -∗ wp frame (wpE (defs₀ (F := F)) 𝒱₀ c none) Set.univ (.op (.waitDma2 (sAg j) (xslot (kOf j)) (xslot 0) hsrc hdst) k) Q) := by
  unfold snSent snWaited
  iintro ⟨#HI, HO, #Hlev, Ht, Hc1, Hc2, Hat1, Hat2⟩ Hk
  iapply (Rounds.wp_wait_rest_token 𝒱₀ ER (sched m) (c : Thread nD τ) none
      (w := .waitDma2 (sAg j) (xslot (kOf j)) (xslot 0) hsrc hdst) (sm := .dma (sAg j)) (k' := NX) (κ := K (cell c (.dma (sAg j))))
      (fun Kc => wpE_waitDma2_eq 𝒱₀ (c : Thread nD τ) none Set.univ Kc) (Set.mem_univ _) r (O := Otot c a b 15) (W := W) (R := r) (m := 0) (T := ∅)
      ((Nat.zero_add NX).trans (expect_sAg m c j r hr).symm)) $$ [Hc2 HO Hat1]
  · isplitr; · iapply (Invs_at m K c (.dma (sAg j)) (mem_allSems_sAg j)); iexact HI
    isplitl [Hc2]; · iexact Hc2
    isplitl [HO]; · iexact HO
    isplitr
    · iapply (mayWait_of c a b 15 (.dma (sAg j)) r hr (Or.inl rfl)
        (fun i _ => by rw [lv_sAg]; have := hA i; omega)
        (fun i _ => by rw [lv_sAg]; have := hB i; omega))
      iexact Hlev
    iexact Hat1
  iintro ⟨HO, Hat, #Hr, Hpay⟩
  iapply Hk
  isplitl [HO]; · iexact HO
  isplitr [Hpay]
  · isplitl [Ht]; · iexact Ht
    isplitl [Hc1]; · iexact Hc1
    isplitl [Hat]; · iexact Hat
    isplitl [Hat2]; · iexact Hat2
    iexact Hr
  · iapply (Entails.of_eq (rest_sAg m c j r hr)); iexact Hpay

/-- Layer r's wait for the piece of copy index j+1: the sender of the chunk takes the slot of R holding the piece and is at layer r + 1. -/
theorem step_RR (K : GSem nD τ sig → ℕ) (c : Dev nD) (j : Fin 15) (r : ℕ) (hr : r < 3) (a b : Fin 15 → ℕ)
    (hA : ∀ i, r < a i) (hB : ∀ i, r < b i)
    {W : Waits sig ℕ} {α : Type} {Q : α → sProp 𝕄} {k : PUnit → Prog (TpuEff nD τ sig (Elt F) Λ₀ .tc) α}
    {hsrc : (rslot (Fin.rev j)).view.WordExact} {hdst : (rslot (Fin.rev j)).view.WordExact} :
    iprop(Invs m K ∗ owes (c : Thread nD τ) (Otot c a b 15) W ∗ levAts L lv ∗ snWaited (F := F) c j r)
      ⊢ iprop(((owes (c : Thread nD τ) (Otot c a b 15) (insert (SemLoc.dma (rRs (Fin.rev j)), r) W) ∗ sn (F := F) c j (r + 1) ∗ rsRPay m c (Fin.rev j) r)
            -∗ wp frame (wpE (defs₀ (F := F)) 𝒱₀ c none) Set.univ (k ⟨⟩) Q)
          -∗ wp frame (wpE (defs₀ (F := F)) 𝒱₀ c none) Set.univ (.op (.waitDma2 (rRs (Fin.rev j)) (rslot (Fin.rev j)) (rslot (Fin.rev j)) hsrc hdst) k) Q) := by
  unfold snWaited sn
  iintro ⟨#HI, HO, #Hlev, Ht, Hc, Hat1, Hat2, #Hr1⟩ Hk
  iapply (Rounds.wp_wait_rest_token 𝒱₀ ER (sched m) (c : Thread nD τ) none
      (w := .waitDma2 (rRs (Fin.rev j)) (rslot (Fin.rev j)) (rslot (Fin.rev j)) hsrc hdst) (sm := .dma (rRs (Fin.rev j))) (k' := NX) (κ := K (cell c (.dma (rRs (Fin.rev j)))))
      (fun Kc => wpE_waitDma2_eq 𝒱₀ (c : Thread nD τ) none Set.univ Kc) (Set.mem_univ _) r (O := Otot c a b 15) (W := W) (R := r) (m := 0) (T := ∅)
      ((Nat.zero_add NX).trans (expect_rRs m c (Fin.rev j) r hr).symm)) $$ [Hc HO Hat2]
  · isplitr; · iapply (Invs_at m K c (.dma (rRs (Fin.rev j))) (mem_allSems_rRs (Fin.rev j))); iexact HI
    isplitl [Hc]; · iexact Hc
    isplitl [HO]; · iexact HO
    isplitr
    · iapply (mayWait_of c a b 15 (.dma (rRs (Fin.rev j))) r hr (Or.inl rfl)
        (fun i _ => by rw [lv_rRs]; have := hA i; omega)
        (fun i _ => by rw [lv_rRs]; have := hB i; omega))
      iexact Hlev
    iexact Hat2
  iintro ⟨HO, Hat, #Hr, Hpay⟩
  iapply Hk
  isplitl [HO]; · iexact HO
  isplitr [Hpay]
  · isplitl [Ht]; · iexact Ht
    isplitl [Hat1]; · iexact Hat1
    isplitl [Hat]; · iexact Hat
    isplitr; · iexact Hr1
    iexact Hr
  · iapply (Entails.of_eq (rest_rRs m c (Fin.rev j) r hr)); iexact Hpay

/-- Layer r's wait for the send side of the piece copy of index j+1: the slot of P comes back and the receiver is at layer r + 1. -/
theorem step_RW (K : GSem nD τ sig → ℕ) (c : Dev nD) (j : Fin 15) (r : ℕ) (hr : r < 3) (a b : Fin 15 → ℕ)
    (hA : ∀ i, r < a i) (hB : ∀ i, r < b i)
    {W : Waits sig ℕ} {α : Type} {Q : α → sProp 𝕄} {k : PUnit → Prog (TpuEff nD τ sig (Elt F) Λ₀ .tc) α}
    {hsrc : (rslot (Fin.rev j)).view.WordExact} {hdst : (pslot (kOf j)).view.WordExact} :
    iprop(Invs m K ∗ owes (c : Thread nD τ) (Otot c a b 15) W ∗ levAts L lv ∗ rcSent (F := F) c j r)
      ⊢ iprop(((owes (c : Thread nD τ) (Otot c a b 15) (insert (SemLoc.dma (sRs (Fin.rev j)), r) W) ∗ rc (F := F) c j (r + 1) ∗ rsSPay m c (Fin.rev j) r)
            -∗ wp frame (wpE (defs₀ (F := F)) 𝒱₀ c none) Set.univ (k ⟨⟩) Q)
          -∗ wp frame (wpE (defs₀ (F := F)) 𝒱₀ c none) Set.univ (.op (.waitDma2 (sRs (Fin.rev j)) (rslot (Fin.rev j)) (pslot (kOf j)) hsrc hdst) k) Q) := by
  unfold rcSent rc
  iintro ⟨#HI, HO, #Hlev, Ht, Hc, Hat1, Hat2, #Hr1⟩ Hk
  iapply (Rounds.wp_wait_rest_token 𝒱₀ ER (sched m) (c : Thread nD τ) none
      (w := .waitDma2 (sRs (Fin.rev j)) (rslot (Fin.rev j)) (pslot (kOf j)) hsrc hdst) (sm := .dma (sRs (Fin.rev j))) (k' := NX) (κ := K (cell c (.dma (sRs (Fin.rev j)))))
      (fun Kc => wpE_waitDma2_eq 𝒱₀ (c : Thread nD τ) none Set.univ Kc) (Set.mem_univ _) r (O := Otot c a b 15) (W := W) (R := r) (m := 0) (T := ∅)
      ((Nat.zero_add NX).trans (expect_sRs m c (Fin.rev j) r hr).symm)) $$ [Hc HO Hat2]
  · isplitr; · iapply (Invs_at m K c (.dma (sRs (Fin.rev j))) (mem_allSems_sRs (Fin.rev j))); iexact HI
    isplitl [Hc]; · iexact Hc
    isplitl [HO]; · iexact HO
    isplitr
    · iapply (mayWait_of c a b 15 (.dma (sRs (Fin.rev j))) r hr (Or.inl rfl)
        (fun i _ => by rw [lv_sRs]; have := hA i; omega)
        (fun i _ => by rw [lv_sRs]; have := hB i; omega))
      iexact Hlev
    iexact Hat2
  iintro ⟨HO, Hat, #Hr, Hpay⟩
  iapply Hk
  isplitl [HO]; · iexact HO
  isplitr [Hpay]
  · isplitl [Ht]; · iexact Ht
    isplitl [Hat1]; · iexact Hat1
    isplitl [Hat]; · iexact Hat
    isplitr; · iexact Hr1
    iexact Hr
  · iapply (Entails.of_eq (rest_sRs m c (Fin.rev j) r hr)); iexact Hpay

/-! ## The barrier's payloads are the first landing slots -/

/-- What barrier duty l hands over is the landing slot of the first chunk copy of index 16 - l, on the device l places back,
    which is the device 16 - l places on; that device is at round 0 of the slot's receive cell. -/
theorem barPay_dstX (c : Dev nD) (l : D) (hl : l ≠ 0) : barPay (F := F) c l ⊢ dstX (F := F) c (jBar l) 0 := by
  have hl' : l.val ≠ 0 := fun h => hl (Fin.ext h)
  have hlt := l.isLt
  have h1 : bwd c l.val = nxt c (jBar l) := by
    apply Fin.ext; show (c.val + (16 - l.val % 16)) % 16 = (c.val + ((15 - l.val) % 15 + 1)) % 16; omega
  have h2 : kBar l = kOf (jBar l) := by
    apply Fin.ext; show (16 - l.val) % 16 = (15 - l.val) % 15 + 1; omega
  unfold barPay dstX
  rw [h1, h2]

/-- The fifteen barrier payloads are the fifteen first landing slots, one for each copy index. -/
theorem barPays_dstX (c : Dev nD) :
    bigSep (Finset.univ.erase (0 : D)) (fun l => barPay (F := F) c l) ⊢ bigSep Finset.univ fun j : Fin 15 => dstX (F := F) c j 0 := by
  have himg : (Finset.univ : Finset (Fin 15)) = (Finset.univ.erase (0 : D)).image jBar := by
    refine (Finset.eq_univ_iff_forall.mpr fun j => Finset.mem_image.mpr
      ⟨⟨15 - j.val, by have := j.isLt; omega⟩, Finset.mem_erase.mpr ⟨?_, Finset.mem_univ _⟩, ?_⟩).symm
    · intro h
      have h0 : 15 - j.val = 0 := congrArg Fin.val h
      have := j.isLt; omega
    · apply Fin.ext; show (15 - (15 - j.val)) % 15 = j.val; have := j.isLt; omega
  have hinj : Set.InjOn jBar ((Finset.univ.erase (0 : D) : Finset D) : Set D) := by
    intro x hx y hy h
    have hxv : x.val ≠ 0 := fun h0 => Finset.ne_of_mem_erase (Finset.mem_coe.mp hx) (Fin.ext h0)
    have hyv : y.val ≠ 0 := fun h0 => Finset.ne_of_mem_erase (Finset.mem_coe.mp hy) (Fin.ext h0)
    have hv : (15 - x.val) % 15 = (15 - y.val) % 15 := congrArg Fin.val h
    have := x.isLt; have := y.isLt
    apply Fin.ext; omega
  rw [himg, BI.bigSep_image_of_injOn hinj]
  exact BI.bigSep_mono fun l hl => barPay_dstX c l (Finset.ne_of_mem_erase hl)

end Cert.Kernel.StepsWait

/-- info: 'Cert.Kernel.StepsWait.step_AR' depends on axioms: [propext, Classical.choice, Quot.sound] -/
#guard_msgs in #print axioms Cert.Kernel.StepsWait.step_AR
/-- info: 'Cert.Kernel.StepsWait.step_AW' depends on axioms: [propext, Classical.choice, Quot.sound] -/
#guard_msgs in #print axioms Cert.Kernel.StepsWait.step_AW
/-- info: 'Cert.Kernel.StepsWait.step_RR' depends on axioms: [propext, Classical.choice, Quot.sound] -/
#guard_msgs in #print axioms Cert.Kernel.StepsWait.step_RR
/-- info: 'Cert.Kernel.StepsWait.step_RW' depends on axioms: [propext, Classical.choice, Quot.sound] -/
#guard_msgs in #print axioms Cert.Kernel.StepsWait.step_RW
/-- info: 'Cert.Kernel.StepsWait.barPay_dstX' depends on axioms: [propext, Classical.choice, Quot.sound] -/
#guard_msgs in #print axioms Cert.Kernel.StepsWait.barPay_dstX
/-- info: 'Cert.Kernel.StepsWait.barPays_dstX' depends on axioms: [propext, Classical.choice, Quot.sound] -/
#guard_msgs in #print axioms Cert.Kernel.StepsWait.barPays_dstX
end
-- ==== Proof.Bits.Slots.lean ====
/-
  A device's scratch buffers cut into their row slots and joined again; the shares of a slot lent to
  the copies that read it; what a slot, and the two-slot window a matrix product loads, read; and the
  transfer semaphores back at zero once their rounds are all consumed.
-/
import proofs.«900978_g7700000000000979_dist_mlpseq_tp1d_bs_bs_b256_d256_h512_v7x_i16_bf16_1_alg».proof.Proof.Bits.Dats
import proofs.«900978_g7700000000000979_dist_mlpseq_tp1d_bs_bs_b256_d256_h512_v7x_i16_bf16_1_alg».proof.Proof.Bits.SchedTables
import proofs.«900978_g7700000000000979_dist_mlpseq_tp1d_bs_bs_b256_d256_h512_v7x_i16_bf16_1_alg».proof.Proof.Bits.RingLaws
import proofs.«900978_g7700000000000979_dist_mlpseq_tp1d_bs_bs_b256_d256_h512_v7x_i16_bf16_1_alg».proof.Proof.Gen.Kernel.Skeleton
import proofs.«900978_g7700000000000979_dist_mlpseq_tp1d_bs_bs_b256_d256_h512_v7x_i16_bf16_1_alg».proof.Proof.Bits.StateLemmas
import proofs.«900978_g7700000000000979_dist_mlpseq_tp1d_bs_bs_b256_d256_h512_v7x_i16_bf16_1_alg».proof.Proof.Bits.Phases
import proofs.«900978_g7700000000000979_dist_mlpseq_tp1d_bs_bs_b256_d256_h512_v7x_i16_bf16_1_alg».proof.Proof.Bits.Open
noncomputable section
namespace Cert.Kernel.Slots
open Cert.Kernel Cert.Kernel.Gen Cert.Kernel.Vals Cert.Kernel.Cells Cert.Kernel.Sched Cert.Kernel.State Cert.Kernel.Dats Cert.Kernel.SchedTables Cert.Kernel.RingLaws Cert.Kernel.Phases
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)
/-! ## Cutting a buffer along a finite family of disjoint element sets that cover it -/

section Generic
variable {ℓ : Loc nD τ sig} {T : Type} [DecidableEq T]

/-- Pieces with contents of their own join into the union of their element sets, with some contents. -/
theorem join_ex (S : Finset T) (K : T → Finset (Idx ℓ)) (q : PosShare TreeShare) (f₀ : Buf (Elt F) ℓ)
    (hd : ∀ t ∈ S, ∀ t' ∈ S, t ≠ t' → Disjoint (K t) (K t')) :
    bigSep S (fun t => iprop(∃ f : Buf (Elt F) ℓ, ℓ ↦[K t]{q} f)) ⊢ (iprop(∃ g : Buf (Elt F) ℓ, ℓ ↦[S.biUnion K]{q} g) : sProp 𝕄) := by
  haveI : ∀ _ : T, Nonempty (Buf (Elt F) ℓ) := fun _ => ⟨f₀⟩
  iintro H
  ihave H' := (BI.bigSep_exists_pi S (fun (t : T) (f : Buf (Elt F) ℓ) => (ℓ ↦[K t]{q} f : sProp 𝕄))) $$ H
  icases H' with ⟨%fs, H'⟩
  ihave H'' := (pointsTo_biUnion_join S K fs f₀ hd) $$ H'
  icases H'' with ⟨%g, %hg, H''⟩
  iexists g
  iexact H''

end Generic

/-- The whole of a buffer is the pieces of a finite cover by pairwise disjoint element sets, each with contents of its own. -/
theorem cut_cover {ℓ : Loc nD τ sig} {T : Type} [DecidableEq T] [Fintype T] (K : T → Finset (Idx ℓ)) (q : PosShare TreeShare) (t₀ : T)
    (hd : ∀ t t', t ≠ t' → Disjoint (K t) (K t')) (hc : ∀ i, ∃ t, i ∈ K t) :
    (iprop(∃ f : Buf (Elt F) ℓ, ℓ ↦{q} f) : sProp 𝕄) ⊣⊢ bigSep Finset.univ fun t => iprop(∃ f : Buf (Elt F) ℓ, ℓ ↦[K t]{q} f) := by
  have hU : (Finset.univ : Finset (Idx ℓ)) = Finset.univ.biUnion K := by
    ext i; simp only [Finset.mem_univ, Finset.mem_biUnion, true_and, true_iff]; exact hc i
  constructor
  · iintro ⟨%f, H⟩
    have hone : ∀ t : T, (ℓ ↦[K t]{q} f : sProp 𝕄) ⊢ iprop(∃ f : Buf (Elt F) ℓ, ℓ ↦[K t]{q} f) := fun t => by
      iintro H; iexists f; iexact H
    have hall : bigSep Finset.univ (fun t => (ℓ ↦[K t]{q} f : sProp 𝕄)) ⊢ bigSep Finset.univ fun t => iprop(∃ f : Buf (Elt F) ℓ, ℓ ↦[K t]{q} f) :=
      bigSep_mono fun t _ => hone t
    iapply hall
    rw [← pointsTo_biUnion Finset.univ K (fun t _ t' _ h => hd t t' h), ← hU]
    iexact H
  · rw [BI.bigSep_univ_at _ t₀]
    iintro ⟨⟨%f₀, H0⟩, Hr⟩
    rw [hU]
    iapply (join_ex Finset.univ K q f₀ (fun t _ t' _ h => hd t t' h))
    rw [BI.bigSep_univ_at _ t₀]
    isplitl [H0]; · iexists f₀; iexact H0
    iexact Hr

/-! ## The slots of X, P and R -/

theorem xslot_set (k : Fin 16) : (xslot k).view.set = (Rect.unit (s := S4096x256) ![256 * k.val, 0] S256x256.size (inbRow k)).set :=
  View.set_slice_whole _ _
theorem pslot_set (k : Fin 16) : (pslot k).view.set = (Rect.unit (s := S4096x256) ![256 * k.val, 0] S256x256.size (inbRow k)).set :=
  View.set_slice_whole _ _

theorem rows_disjoint (k k' : Fin 16) (h : k ≠ k') :
    Disjoint (Rect.unit (s := S4096x256) ![256 * k.val, 0] S256x256.size (inbRow k)).set (Rect.unit (s := S4096x256) ![256 * k'.val, 0] S256x256.size (inbRow k')).set := by
  refine Rect.unit_disjoint 0 ?_
  have : k.val ≠ k'.val := fun e => h (Fin.ext e)
  show 256 * k.val + 256 ≤ 256 * k'.val ∨ 256 * k'.val + 256 ≤ 256 * k.val
  omega

theorem rows_cover (i : S4096x256.Idx) : ∃ k : Fin 16, i ∈ (Rect.unit (s := S4096x256) ![256 * k.val, 0] S256x256.size (inbRow k)).set := by
  have h0 : (i 0).val < 4096 := (i 0).isLt
  have h1 : (i 1).val < 256 := (i 1).isLt
  refine ⟨⟨(i 0).val / 256, by omega⟩, Rect.mem_set_unit.mpr ?_⟩
  intro a
  fin_cases a
  · show 256 * ((i 0).val / 256) ≤ (i 0).val ∧ (i 0).val < 256 * ((i 0).val / 256) + 256
    omega
  · show 0 ≤ (i 1).val ∧ (i 1).val < 0 + 256
    omega

/-- X whole is its sixteen slots. -/
theorem x_cut (c : Dev nD) :
    (scr (F := F) c cc0_scratch0 : sProp 𝕄) ⊣⊢ bigSep Finset.univ fun k : Fin 16 => iprop(∃ f, xPts (F := F) c k fullShare f) := by
  unfold scr xPts
  exact cut_cover (ℓ := (c : Thread nD τ).loc cc0_scratch0) (fun k : Fin 16 => (xslot k).view.set) fullShare 0
    (fun k k' h => by rw [xslot_set, xslot_set]; exact rows_disjoint k k' h)
    (fun i => by obtain ⟨k, hk⟩ := rows_cover i; exact ⟨k, by rw [xslot_set]; exact hk⟩)

theorem rslot_set (j : Fin 15) : (rslot j).view.set = (Rect.unit (s := S15x256x256) ![j.val, 0, 0] S1x256x256.size (inbR j)).set := by
  exact (View.set_reshape _ _).trans (View.set_slice_whole _ _)

theorem planes_disjoint (j j' : Fin 15) (h : j ≠ j') :
    Disjoint (Rect.unit (s := S15x256x256) ![j.val, 0, 0] S1x256x256.size (inbR j)).set (Rect.unit (s := S15x256x256) ![j'.val, 0, 0] S1x256x256.size (inbR j')).set := by
  refine Rect.unit_disjoint 0 ?_
  have : j.val ≠ j'.val := fun e => h (Fin.ext e)
  show j.val + 1 ≤ j'.val ∨ j'.val + 1 ≤ j.val
  omega

theorem planes_cover (i : S15x256x256.Idx) : ∃ j : Fin 15, i ∈ (Rect.unit (s := S15x256x256) ![j.val, 0, 0] S1x256x256.size (inbR j)).set := by
  have h0 : (i 0).val < 15 := (i 0).isLt
  have h1 : (i 1).val < 256 := (i 1).isLt
  have h2 : (i 2).val < 256 := (i 2).isLt
  refine ⟨⟨(i 0).val, h0⟩, Rect.mem_set_unit.mpr ?_⟩
  intro a
  fin_cases a
  · show (i 0).val ≤ (i 0).val ∧ (i 0).val < (i 0).val + 1
    omega
  · show 0 ≤ (i 1).val ∧ (i 1).val < 0 + 256
    omega
  · show 0 ≤ (i 2).val ∧ (i 2).val < 0 + 256
    omega

/-- P whole is its sixteen slots. -/
theorem p_cut (c : Dev nD) :
    (scr (F := F) c cc0_scratch1 : sProp 𝕄) ⊣⊢ bigSep Finset.univ fun k : Fin 16 => iprop(∃ f, pPts (F := F) c k f) := by
  unfold scr pPts
  exact cut_cover (ℓ := (c : Thread nD τ).loc cc0_scratch1) (fun k : Fin 16 => (pslot k).view.set) fullShare 0
    (fun k k' h => by rw [pslot_set, pslot_set]; exact rows_disjoint k k' h)
    (fun i => by obtain ⟨k, hk⟩ := rows_cover i; exact ⟨k, by rw [pslot_set]; exact hk⟩)

/-- R whole is its fifteen slots. -/
theorem r_cut (c : Dev nD) :
    (scr (F := F) c cc0_scratch2 : sProp 𝕄) ⊣⊢ bigSep Finset.univ fun j : Fin 15 => iprop(∃ f, rPts (F := F) c j f) := by
  unfold scr rPts
  exact cut_cover (ℓ := (c : Thread nD τ).loc cc0_scratch2) (fun j : Fin 15 => (rslot j).view.set) fullShare 0
    (fun j j' h => by rw [rslot_set, rslot_set]; exact planes_disjoint j j' h)
    (fun i => by obtain ⟨j, hj⟩ := planes_cover i; exact ⟨j, by rw [rslot_set]; exact hj⟩)

/-! ## Shares of a slot: lending halves and taking them back -/

/-- What is kept after n halvings is what is kept after one more, and the half then lent. -/
theorem x_lend (c : Dev nD) (k : Fin 16) (n : ℕ) (f : Buf (Elt F) ((xslot k).view.loc (c : Thread nD τ))) :
    (xPts (F := F) c k (keepSh n) f : sProp 𝕄) ⊣⊢ iprop(xPts (F := F) c k (keepSh (n + 1)) f ∗ xPts (F := F) c k (lentSh n) f) := by
  unfold xPts lentSh
  exact pointsTo_share (PosShare.mem_left_op_right (keepSh n))

/-- A slot at the share kept after n halvings, with the n halves lent. -/
theorem x_shares (c : Dev nD) (k : Fin 16) (n : ℕ) (f : Buf (Elt F) ((xslot k).view.loc (c : Thread nD τ))) :
    (xPts (F := F) c k fullShare f : sProp 𝕄) ⊣⊢ iprop(xPts (F := F) c k (keepSh n) f ∗ bigSep (Finset.range n) fun j => xPts (F := F) c k (lentSh j) f) := by
  induction n with
  | zero =>
    rw [Finset.range_zero, bigSep_empty]
    exact ⟨by iintro H; isplitl [H]; · iexact H
              iempintro, by iintro ⟨H, -⟩; iexact H⟩
  | succ n ih =>
    have e : (bigSep (Finset.range (n + 1)) fun j => xPts (F := F) c k (lentSh j) f)
        = iprop(xPts (F := F) c k (lentSh n) f ∗ bigSep (Finset.range n) fun j => xPts (F := F) c k (lentSh j) f) := by
      rw [Finset.range_add_one]; exact bigSep_insert Finset.notMem_range_self
    rw [e]
    constructor
    · iintro H
      ihave ⟨Hk, Hl⟩ := ih.1 $$ H
      ihave ⟨Hk', Hn⟩ := (x_lend c k n f).1 $$ Hk
      isplitl [Hk']; · iexact Hk'
      isplitl [Hn]; · iexact Hn
      iexact Hl
    · iintro ⟨Hk', Hn, Hl⟩
      iapply ih.2
      isplitl [Hk' Hn]
      · iapply (x_lend c k n f).2
        isplitl [Hk']; · iexact Hk'
        iexact Hn
      · iexact Hl

/-- All fifteen lent halves of slot 0 back: the whole slot again. -/
theorem bigSep_fin_val (n : ℕ) (Φ : ℕ → sProp 𝕄) : bigSep (Finset.univ : Finset (Fin n)) (fun i => Φ i.val) = bigSep (Finset.range n) Φ := by
  have e : Finset.range n = (Finset.univ : Finset (Fin n)).map Fin.valEmbedding := by
    ext i
    simp only [Finset.mem_range, Finset.mem_map, Finset.mem_univ, true_and, Fin.valEmbedding_apply]
    exact ⟨fun h => ⟨⟨i, h⟩, rfl⟩, fun ⟨j, hj⟩ => hj ▸ j.isLt⟩
  rw [e, BI.bigSep_map]; rfl

/-- The whole slot is the share kept after fifteen halvings and the fifteen halves lent: taking them all back, or lending them all at once. -/
theorem x_fifteen (c : Dev nD) (k : Fin 16) (f : Buf (Elt F) ((xslot k).view.loc (c : Thread nD τ))) :
    (xPts (F := F) c k fullShare f : sProp 𝕄) ⊣⊢ iprop(xPts (F := F) c k (keepSh 15) f ∗ bigSep Finset.univ fun j : Fin 15 => xPts (F := F) c k (lentSh j.val) f) := by
  rw [bigSep_fin_val 15 (fun j => xPts (F := F) c k (lentSh j) f)]
  exact x_shares c k 15 f

/-! ## Reading a slot, and the two-slot group the matrix product loads -/

theorem xfill_read (c : Dev nD) (k : Fin 16) (v : Vec F S256x256 .bf16) : (xslot k).view.read (Elt F) (xfill c k v) = v :=
  View.read_write_univ _ _
theorem pfill_read (c : Dev nD) (k : Fin 16) (v : Vec F S256x256 .bf16) : (pslot k).view.read (Elt F) (pfill c k v) = v :=
  View.read_write_univ _ _
theorem rfill_read (c : Dev nD) (j : Fin 15) (v : Vec F S256x256 .bf16) : (rslot j).view.read (Elt F) (rfill c j v) = v :=
  View.read_write_univ _ _

theorem inbGrp (g : Fin 8) : ∀ a, (![512 * g.val, 0] : Fin 2 → Nat) a + S512x256.size a ≤ S4096x256.size a := by
  revert g; decide

/-- Rows 512g .. 512g+511 of X, the window one matrix product loads. -/
def xgrp (g : Fin 8) : View sig .tc .vmem S512x256 .bf16 := XM.access (Rect.unit (s := S4096x256) ![512 * g.val, 0] S512x256.size (inbGrp g))
/-- Its two slots. -/
def lo (g : Fin 8) : Fin 16 := ⟨2 * g.val, by omega⟩
def hi (g : Fin 8) : Fin 16 := ⟨2 * g.val + 1, by omega⟩

theorem mem_rows {o h : ℕ} {sz : Fin 2 → ℕ} (h0 : sz 0 = h) (h1 : sz 1 = 256) (inb : ∀ a, (![o, 0] : Fin 2 → ℕ) a + sz a ≤ S4096x256.size a) (i : S4096x256.Idx) :
    i ∈ (Rect.unit (s := S4096x256) ![o, 0] sz inb).set ↔ o ≤ (i 0).val ∧ (i 0).val < o + h := by
  rw [Rect.mem_set_unit, Fin.forall_fin_two]
  have h1' : (i 1).val < 256 := (i 1).isLt
  show (o ≤ (i 0).val ∧ (i 0).val < o + sz 0) ∧ (0 ≤ (i 1).val ∧ (i 1).val < 0 + sz 1) ↔ _
  rw [h0, h1]; omega

theorem xgrp_set (g : Fin 8) : (xgrp g).set = (xslot (lo g)).view.set ∪ (xslot (hi g)).view.set := by
  have e : (xgrp g).set = (Rect.unit (s := S4096x256) ![512 * g.val, 0] S512x256.size (inbGrp g)).set := View.set_slice_whole _ _
  refine Finset.ext fun (i : S4096x256.Idx) => ?_
  have hg : i ∈ (xgrp g).set ↔ 512 * g.val ≤ (i 0).val ∧ (i 0).val < 512 * g.val + 512 := by
    rw [e]; exact mem_rows rfl rfl _ i
  have hl : i ∈ (xslot (lo g)).view.set ↔ 256 * (2 * g.val) ≤ (i 0).val ∧ (i 0).val < 256 * (2 * g.val) + 256 := by
    rw [xslot_set]; exact mem_rows rfl rfl _ i
  have hh : i ∈ (xslot (hi g)).view.set ↔ 256 * (2 * g.val + 1) ≤ (i 0).val ∧ (i 0).val < 256 * (2 * g.val + 1) + 256 := by
    rw [xslot_set]; exact mem_rows rfl rfl _ i
  refine hg.trans (Iff.trans ?_ ((or_congr hl hh).symm.trans Finset.mem_union.symm))
  omega

theorem xgrp_disjoint (g : Fin 8) : Disjoint (xslot (lo g)).view.set (xslot (hi g)).view.set := by
  rw [xslot_set, xslot_set]
  exact rows_disjoint _ _ (fun e => by have := congrArg Fin.val e; simp only [lo, hi] at this; omega)

/-- A window of a whole buffer reads the contents at the window's indices. -/
theorem read_slice_whole {κ : Kind} (b : Ref sig κ) (r : Rect b.ty.shape) (f : b.ty.Contents (Elt F)) (x : r.shape.Idx) :
    ((View.whole b).slice r).read (Elt F) f x = f (r.emb x) := by
  rw [View.read_apply]; exact cast_eq _ _

/-- What the group's window reads off any contents: the two slots' readings stacked. -/
theorem xgrp_read (g : Fin 8) (c : Dev nD) (f : Buf (Elt F) ((c : Thread nD τ).loc cc0_scratch0)) :
    (xgrp g).read (Elt F) f = Vals.cat ((xslot (lo g)).view.read (Elt F) f) ((xslot (hi g)).view.read (Elt F) f) := by
  funext i
  unfold Vals.cat
  split
  · rename_i h
    refine (read_slice_whole cc0_scratch0 (Rect.unit (s := S4096x256) ![512 * g.val, 0] S512x256.size (inbGrp g)) f i).trans
      (Eq.trans ?_ (read_slice_whole cc0_scratch0 (Rect.unit (s := S4096x256) ![256 * (lo g).val, 0] S256x256.size (inbRow (lo g))) f _).symm)
    refine congrArg f (funext fun a => Fin.ext ?_)
    rw [Rect.emb_apply, Rect.emb_apply]
    fin_cases a
    · show 512 * g.val + 1 * (i 0).val = 256 * (2 * g.val) + 1 * (i 0).val
      omega
    · show 0 + 1 * (i 1).val = 0 + 1 * (i 1).val
      rfl
  · rename_i h
    have h2 : (i 0).val < 512 := (i 0).isLt
    refine (read_slice_whole cc0_scratch0 (Rect.unit (s := S4096x256) ![512 * g.val, 0] S512x256.size (inbGrp g)) f i).trans
      (Eq.trans ?_ (read_slice_whole cc0_scratch0 (Rect.unit (s := S4096x256) ![256 * (hi g).val, 0] S256x256.size (inbRow (hi g))) f _).symm)
    refine congrArg f (funext fun a => Fin.ext ?_)
    rw [Rect.emb_apply, Rect.emb_apply]
    fin_cases a
    · show 512 * g.val + 1 * (i 0).val = 256 * (2 * g.val + 1) + 1 * ((i 0).val - 256)
      omega
    · show 0 + 1 * (i 1).val = 0 + 1 * (i 1).val
      rfl

/-! ## The same, the slots written out in a chain -/

theorem x_cut16 (c : Dev nD) :
    (scr (F := F) c cc0_scratch0 : sProp 𝕄) ⊣⊢ iprop((∃ f, xPts (F := F) c (0 : Fin 16) fullShare f) ∗ (∃ f, xPts (F := F) c (1 : Fin 16) fullShare f) ∗ (∃ f, xPts (F := F) c (2 : Fin 16) fullShare f) ∗ (∃ f, xPts (F := F) c (3 : Fin 16) fullShare f) ∗ (∃ f, xPts (F := F) c (4 : Fin 16) fullShare f) ∗ (∃ f, xPts (F := F) c (5 : Fin 16) fullShare f) ∗ (∃ f, xPts (F := F) c (6 : Fin 16) fullShare f) ∗ (∃ f, xPts (F := F) c (7 : Fin 16) fullShare f) ∗ (∃ f, xPts (F := F) c (8 : Fin 16) fullShare f) ∗ (∃ f, xPts (F := F) c (9 : Fin 16) fullShare f) ∗ (∃ f, xPts (F := F) c (10 : Fin 16) fullShare f) ∗ (∃ f, xPts (F := F) c (11 : Fin 16) fullShare f) ∗ (∃ f, xPts (F := F) c (12 : Fin 16) fullShare f) ∗ (∃ f, xPts (F := F) c (13 : Fin 16) fullShare f) ∗ (∃ f, xPts (F := F) c (14 : Fin 16) fullShare f) ∗ (∃ f, xPts (F := F) c (15 : Fin 16) fullShare f)) := by
  have h := x_cut (F := F) c
  rw [Open.bigSep_F16] at h
  exact h

theorem p_cut16 (c : Dev nD) :
    (scr (F := F) c cc0_scratch1 : sProp 𝕄) ⊣⊢ iprop((∃ f, pPts (F := F) c (0 : Fin 16) f) ∗ (∃ f, pPts (F := F) c (1 : Fin 16) f) ∗ (∃ f, pPts (F := F) c (2 : Fin 16) f) ∗ (∃ f, pPts (F := F) c (3 : Fin 16) f) ∗ (∃ f, pPts (F := F) c (4 : Fin 16) f) ∗ (∃ f, pPts (F := F) c (5 : Fin 16) f) ∗ (∃ f, pPts (F := F) c (6 : Fin 16) f) ∗ (∃ f, pPts (F := F) c (7 : Fin 16) f) ∗ (∃ f, pPts (F := F) c (8 : Fin 16) f) ∗ (∃ f, pPts (F := F) c (9 : Fin 16) f) ∗ (∃ f, pPts (F := F) c (10 : Fin 16) f) ∗ (∃ f, pPts (F := F) c (11 : Fin 16) f) ∗ (∃ f, pPts (F := F) c (12 : Fin 16) f) ∗ (∃ f, pPts (F := F) c (13 : Fin 16) f) ∗ (∃ f, pPts (F := F) c (14 : Fin 16) f) ∗ (∃ f, pPts (F := F) c (15 : Fin 16) f)) := by
  have h := p_cut (F := F) c
  rw [Open.bigSep_F16] at h
  exact h

theorem r_cut15 (c : Dev nD) :
    (scr (F := F) c cc0_scratch2 : sProp 𝕄) ⊣⊢ iprop((∃ f, rPts (F := F) c (0 : Fin 15) f) ∗ (∃ f, rPts (F := F) c (1 : Fin 15) f) ∗ (∃ f, rPts (F := F) c (2 : Fin 15) f) ∗ (∃ f, rPts (F := F) c (3 : Fin 15) f) ∗ (∃ f, rPts (F := F) c (4 : Fin 15) f) ∗ (∃ f, rPts (F := F) c (5 : Fin 15) f) ∗ (∃ f, rPts (F := F) c (6 : Fin 15) f) ∗ (∃ f, rPts (F := F) c (7 : Fin 15) f) ∗ (∃ f, rPts (F := F) c (8 : Fin 15) f) ∗ (∃ f, rPts (F := F) c (9 : Fin 15) f) ∗ (∃ f, rPts (F := F) c (10 : Fin 15) f) ∗ (∃ f, rPts (F := F) c (11 : Fin 15) f) ∗ (∃ f, rPts (F := F) c (12 : Fin 15) f) ∗ (∃ f, rPts (F := F) c (13 : Fin 15) f) ∗ (∃ f, rPts (F := F) c (14 : Fin 15) f)) := by
  have h := r_cut (F := F) c
  rw [Open.bigSep_F15] at h
  exact h

/-! ## The exit: a device's transfer semaphores back at zero

  Every transfer cell has three rounds. Its owner, at round three with nothing taken, closes the cell:
  no later round has a duty, so the counter reads zero and nothing lands on it again. -/

theorem zero_sAg (K : GSem nD τ sig → ℕ) (c : Dev nD) (j : Fin 15) :
    iprop(Invs m K ∗ atPos ER (cell c (.dma (sAg j))) 3 ∅ 0) ⊢ (iprop(|={Set.univ}=> semVal (cell c (.dma (sAg j))) 0) : sProp 𝕄) := by
  iintro ⟨#HI, Hat⟩
  iapply (Rounds.cell_close ER (sched m) (g := cell c (.dma (sAg j))) (κ := K (cell c (.dma (sAg j)))) (Set.mem_univ _) (fun h => h) (R := 3)
    (fun r hr => duties_sAg_later m c j r hr))
  isplitr
  · iapply (Invs_at m K c (.dma (sAg j)) (mem_allSems_sAg j)); iexact HI
  · iexact Hat
theorem zero_sRs (K : GSem nD τ sig → ℕ) (c : Dev nD) (j : Fin 15) :
    iprop(Invs m K ∗ atPos ER (cell c (.dma (sRs j))) 3 ∅ 0) ⊢ (iprop(|={Set.univ}=> semVal (cell c (.dma (sRs j))) 0) : sProp 𝕄) := by
  iintro ⟨#HI, Hat⟩
  iapply (Rounds.cell_close ER (sched m) (g := cell c (.dma (sRs j))) (κ := K (cell c (.dma (sRs j)))) (Set.mem_univ _) (fun h => h) (R := 3)
    (fun r hr => duties_sRs_later m c j r hr))
  isplitr
  · iapply (Invs_at m K c (.dma (sRs j)) (mem_allSems_sRs j)); iexact HI
  · iexact Hat
theorem zero_rAg (K : GSem nD τ sig → ℕ) (c : Dev nD) (j : Fin 15) :
    iprop(Invs m K ∗ atPos ER (cell c (.dma (rAg j))) 3 ∅ 0) ⊢ (iprop(|={Set.univ}=> semVal (cell c (.dma (rAg j))) 0) : sProp 𝕄) := by
  iintro ⟨#HI, Hat⟩
  iapply (Rounds.cell_close ER (sched m) (g := cell c (.dma (rAg j))) (κ := K (cell c (.dma (rAg j)))) (Set.mem_univ _) (fun h => h) (R := 3)
    (fun r hr => duties_rAg_later m c j r hr))
  isplitr
  · iapply (Invs_at m K c (.dma (rAg j)) (mem_allSems_rAg j)); iexact HI
  · iexact Hat
theorem zero_rRs (K : GSem nD τ sig → ℕ) (c : Dev nD) (j : Fin 15) :
    iprop(Invs m K ∗ atPos ER (cell c (.dma (rRs j))) 3 ∅ 0) ⊢ (iprop(|={Set.univ}=> semVal (cell c (.dma (rRs j))) 0) : sProp 𝕄) := by
  iintro ⟨#HI, Hat⟩
  iapply (Rounds.cell_close ER (sched m) (g := cell c (.dma (rRs j))) (κ := K (cell c (.dma (rRs j)))) (Set.mem_univ _) (fun h => h) (R := 3)
    (fun r hr => duties_rRs_later m c j r hr))
  isplitr
  · iapply (Invs_at m K c (.dma (rRs j)) (mem_allSems_rRs j)); iexact HI
  · iexact Hat

/-- A device at round three of all its sixty transfer cells. -/
def exitAts (c : Dev nD) : sProp 𝕄 :=
  bigSep Finset.univ fun j : Fin 15 => iprop(atPos ER (cell c (.dma (sAg j))) 3 ∅ 0 ∗ atPos ER (cell c (.dma (sRs j))) 3 ∅ 0
    ∗ atPos ER (cell c (.dma (rAg j))) 3 ∅ 0 ∗ atPos ER (cell c (.dma (rRs j))) 3 ∅ 0)

theorem own_zero_of_ats (K : GSem nD τ sig → ℕ) (c : Dev nD) :
    iprop(Invs m K ∗ exitAts (F := F) c) ⊢ (iprop(|={Set.univ}=> ownZero (F := F) c) : sProp 𝕄) := by
  unfold exitAts ownZero
  have hj : ∀ j : Fin 15, iprop(Invs m K ∗ (atPos ER (cell c (.dma (sAg j))) 3 ∅ 0 ∗ atPos ER (cell c (.dma (sRs j))) 3 ∅ 0
        ∗ atPos ER (cell c (.dma (rAg j))) 3 ∅ 0 ∗ atPos ER (cell c (.dma (rRs j))) 3 ∅ 0))
      ⊢ (iprop(|={Set.univ}=> (semVal (cell c (.dma (sAg j))) 0 ∗ semVal (cell c (.dma (sRs j))) 0
        ∗ semVal (cell c (.dma (rAg j))) 0 ∗ semVal (cell c (.dma (rRs j))) 0)) : sProp 𝕄) := fun j => by
    iintro ⟨#HI, H1, H2, H3, H4⟩
    imod (zero_sAg m K c j) $$ [H1] with H1
    · isplitr; · iexact HI
      iexact H1
    imod (zero_sRs m K c j) $$ [H2] with H2
    · isplitr; · iexact HI
      iexact H2
    imod (zero_rAg m K c j) $$ [H3] with H3
    · isplitr; · iexact HI
      iexact H3
    imod (zero_rRs m K c j) $$ [H4] with H4
    · isplitr; · iexact HI
      iexact H4
    imodintro
    isplitl [H1]; · iexact H1
    isplitl [H2]; · iexact H2
    isplitl [H3]; · iexact H3
    iexact H4
  exact BIBase.Entails.trans (BI.bigSep_with_persistent fun j _ => hj j) (BI.bigSep_fupd _ _)

/-- The phase bundles of the last layer's end hold those positions. -/
theorem exitAts_of_phases (c : Dev nD) :
    iprop((bigSep Finset.univ fun j : Fin 15 => sn (F := F) c j 3) ∗ (bigSep Finset.univ fun j : Fin 15 => rc (F := F) c j 3)) ⊢ exitAts (F := F) c := by
  have e : exitAts (F := F) c = iprop((bigSep Finset.univ fun j : Fin 15 => (atPos ER (cell c (.dma (sAg j))) 3 ∅ 0 : sProp 𝕄))
      ∗ (bigSep Finset.univ fun j : Fin 15 => (atPos ER (cell c (.dma (sRs j))) 3 ∅ 0 : sProp 𝕄))
      ∗ (bigSep Finset.univ fun j : Fin 15 => (atPos ER (cell c (.dma (rAg j))) 3 ∅ 0 : sProp 𝕄))
      ∗ (bigSep Finset.univ fun j : Fin 15 => (atPos ER (cell c (.dma (rRs j))) 3 ∅ 0 : sProp 𝕄))) := by
    unfold exitAts; rw [bigSep_sep', bigSep_sep', bigSep_sep']
  have h1 : ∀ j : Fin 15, sn (F := F) c j 3 ⊢ iprop(atPos ER (cell c (.dma (sAg j))) 3 ∅ 0 ∗ atPos ER (cell c (.dma (rRs (Fin.rev j)))) 3 ∅ 0) := fun j => by
    unfold sn; iintro ⟨-, H1, H2, -, -⟩
    isplitl [H1]; · iexact H1
    iexact H2
  have h2 : ∀ j : Fin 15, rc (F := F) c j 3 ⊢ iprop(atPos ER (cell c (.dma (rAg j))) 3 ∅ 0 ∗ atPos ER (cell c (.dma (sRs (Fin.rev j)))) 3 ∅ 0) := fun j => by
    unfold rc; iintro ⟨-, H1, H2, -, -⟩
    isplitl [H1]; · iexact H1
    iexact H2
  have hs : (bigSep Finset.univ fun j : Fin 15 => sn (F := F) c j 3)
      ⊢ iprop((bigSep Finset.univ fun j : Fin 15 => (atPos ER (cell c (.dma (sAg j))) 3 ∅ 0 : sProp 𝕄))
        ∗ (bigSep Finset.univ fun j : Fin 15 => (atPos ER (cell c (.dma (rRs j))) 3 ∅ 0 : sProp 𝕄))) := by
    rw [bigSep_univ_equiv Fin.revPerm (fun j : Fin 15 => (atPos ER (cell c (.dma (rRs j))) 3 ∅ 0 : sProp 𝕄)), ← bigSep_sep']
    exact bigSep_mono fun j _ => h1 j
  have hr : (bigSep Finset.univ fun j : Fin 15 => rc (F := F) c j 3)
      ⊢ iprop((bigSep Finset.univ fun j : Fin 15 => (atPos ER (cell c (.dma (rAg j))) 3 ∅ 0 : sProp 𝕄))
        ∗ (bigSep Finset.univ fun j : Fin 15 => (atPos ER (cell c (.dma (sRs j))) 3 ∅ 0 : sProp 𝕄))) := by
    rw [bigSep_univ_equiv Fin.revPerm (fun j : Fin 15 => (atPos ER (cell c (.dma (sRs j))) 3 ∅ 0 : sProp 𝕄)), ← bigSep_sep']
    exact bigSep_mono fun j _ => h2 j
  rw [e]
  iintro ⟨Hs, Hr⟩
  ihave ⟨A1, A4⟩ := hs $$ Hs
  ihave ⟨A3, A2⟩ := hr $$ Hr
  isplitl [A1]; · iexact A1
  isplitl [A2]; · iexact A2
  isplitl [A3]; · iexact A3
  iexact A4

/-- At the body's end: the sixty transfer semaphores of the device at zero, for the rest of the program. -/
theorem own_zero_wp (K : GSem nD τ sig → ℕ) (c : Dev nD) {α : Type} {Q : α → sProp 𝕄} (e : Prog (TpuEff nD τ sig (Elt F) Λ₀ .tc) α) :
    iprop(Invs m K ∗ (bigSep Finset.univ fun j : Fin 15 => sn (F := F) c j 3) ∗ (bigSep Finset.univ fun j : Fin 15 => rc (F := F) c j 3))
      ⊢ iprop((ownZero (F := F) c -∗ wp frame (wpE (defs₀ (F := F)) 𝒱₀ c none) Set.univ e Q)
          -∗ wp frame (wpE (defs₀ (F := F)) 𝒱₀ c none) Set.univ e Q) := by
  iintro ⟨#HI, Hs, Hr⟩ Hk
  ihave Hat := (exitAts_of_phases (F := F) c) $$ [Hs Hr]
  · isplitl [Hs]; · iexact Hs
    iexact Hr
  imod (own_zero_of_ats m K c) $$ [Hat] with Hz
  · isplitr; · iexact HI
    iexact Hat
  iapply Hk
  iexact Hz

end Cert.Kernel.Slots

/-- info: 'Cert.Kernel.Slots.x_cut16' depends on axioms: [propext, Classical.choice, Quot.sound] -/
#guard_msgs in #print axioms Cert.Kernel.Slots.x_cut16
/-- info: 'Cert.Kernel.Slots.p_cut16' depends on axioms: [propext, Classical.choice, Quot.sound] -/
#guard_msgs in #print axioms Cert.Kernel.Slots.p_cut16
/-- info: 'Cert.Kernel.Slots.r_cut15' depends on axioms: [propext, Classical.choice, Quot.sound] -/
#guard_msgs in #print axioms Cert.Kernel.Slots.r_cut15
/-- info: 'Cert.Kernel.Slots.x_fifteen' depends on axioms: [propext, Classical.choice, Quot.sound] -/
#guard_msgs in #print axioms Cert.Kernel.Slots.x_fifteen
/-- info: 'Cert.Kernel.Slots.xgrp_read' depends on axioms: [propext, Classical.choice, Quot.sound] -/
#guard_msgs in #print axioms Cert.Kernel.Slots.xgrp_read
/-- info: 'Cert.Kernel.Slots.own_zero_wp' depends on axioms: [propext, Classical.choice, Quot.sound] -/
#guard_msgs in #print axioms Cert.Kernel.Slots.own_zero_wp

end
-- ==== Proof.Bits.BodyPre.lean ====
import proofs.«900978_g7700000000000979_dist_mlpseq_tp1d_bs_bs_b256_d256_h512_v7x_i16_bf16_1_alg».proof.Proof.Bits.Steps
import proofs.«900978_g7700000000000979_dist_mlpseq_tp1d_bs_bs_b256_d256_h512_v7x_i16_bf16_1_alg».proof.Proof.Bits.Phases
import proofs.«900978_g7700000000000979_dist_mlpseq_tp1d_bs_bs_b256_d256_h512_v7x_i16_bf16_1_alg».proof.Proof.Bits.Ring
import proofs.«900978_g7700000000000979_dist_mlpseq_tp1d_bs_bs_b256_d256_h512_v7x_i16_bf16_1_alg».proof.Proof.Bits.Open
import proofs.«900978_g7700000000000979_dist_mlpseq_tp1d_bs_bs_b256_d256_h512_v7x_i16_bf16_1_alg».proof.Proof.Bits.StepsSend
import proofs.«900978_g7700000000000979_dist_mlpseq_tp1d_bs_bs_b256_d256_h512_v7x_i16_bf16_1_alg».proof.Proof.Bits.StepsWait
import proofs.«900978_g7700000000000979_dist_mlpseq_tp1d_bs_bs_b256_d256_h512_v7x_i16_bf16_1_alg».proof.Proof.Bits.Slots
noncomputable section
namespace Cert.Kernel.BodyPre
open Cert.Kernel Cert.Kernel.Gen Cert.Kernel.Vals Cert.Kernel.Cells Cert.Kernel.Sched Cert.Kernel.State Cert.Kernel.Dats Cert.Kernel.SchedTables Cert.Kernel.RingLaws Cert.Kernel.Phases Cert.Kernel.Steps Cert.Kernel.Ring Cert.Kernel.Open Cert.Kernel.StepsSend Cert.Kernel.StepsWait Cert.Kernel.Slots
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)
variable (ρ : Dev nD → PrngReg)

/-- A staging buffer, whole, read as X. -/
def stg (c : Dev nD) (b : Ref sig .tc) (X : b.ty.Contents (Elt F)) : sProp 𝕄 :=
  owns (c : Thread nD τ) (Memref.whole b) fullShare X

theorem cfg0_N : cfg0.N = 1 := by decide
def t₀ : Fin cfg0.N := ⟨0, by rw [cfg0_N]; decide⟩

def bodyPre (K : GSem nD τ sig → ℕ) (c : Dev nD) : sProp 𝕄 :=
  iprop((ghost m K c ∗ cred (tallyAt (barCell c) 0 15) ∗ levAts L lv
      ∗ scr (F := F) c cc0_scratch0 ∗ scr (F := F) c cc0_scratch1 ∗ scr (F := F) c cc0_scratch2)
    ∗ (dats m 0 c).owesAt 0 t₀.castSucc
    ∗ (∃ d, stg c cc0_stg0_0 ((dats m 0 c).before (0 : Fin 8) t₀ d))
    ∗ (∃ d, stg c cc0_stg1_0 ((dats m 0 c).before (1 : Fin 8) t₀ d))
    ∗ (∃ d, stg c cc0_stg2_0 ((dats m 0 c).before (2 : Fin 8) t₀ d))
    ∗ (∃ d, stg c cc0_stg3_0 ((dats m 0 c).before (3 : Fin 8) t₀ d))
    ∗ (∃ d, stg c cc0_stg4_0 ((dats m 0 c).before (4 : Fin 8) t₀ d))
    ∗ (∃ d, stg c cc0_stg5_0 ((dats m 0 c).before (5 : Fin 8) t₀ d))
    ∗ (∃ d, stg c cc0_stg6_0 ((dats m 0 c).before (6 : Fin 8) t₀ d))
    ∗ (∃ d, stg c cc0_stg7_0 ((dats m 0 c).before (7 : Fin 8) t₀ d)))

/-- A receiver's bundle carries, persistently, that the device stands at that round of its chunk-receive cell. -/
theorem rc_dup (c : Dev nD) (j : Fin 15) (r : ℕ) :
    rc (F := F) c j r ⊢ iprop(rc (F := F) c j r ∗ reached ER (cell c (.dma (rAg j))) r) := by
  unfold rc
  iintro ⟨Ht, Ha1, Ha2, #Hr1, #Hr2⟩
  isplitl [Ht Ha1 Ha2]
  · isplitl [Ht]; · iexact Ht
    isplitl [Ha1]; · iexact Ha1
    isplitl [Ha2]; · iexact Ha2
    isplitr; · iexact Hr1
    iexact Hr2
  · iexact Hr1

/-- The ghost state a device starts from, opened copy index by copy index. -/
theorem ghost_open (K : GSem nD τ sig → ℕ) (c : Dev nD) :
    ghost m K c ⊢ iprop(Invs m K
      ∗ (sn (F := F) c (0 : Fin 15) 0 ∗ sn (F := F) c (1 : Fin 15) 0 ∗ sn (F := F) c (2 : Fin 15) 0 ∗ sn (F := F) c (3 : Fin 15) 0 ∗ sn (F := F) c (4 : Fin 15) 0 ∗ sn (F := F) c (5 : Fin 15) 0 ∗ sn (F := F) c (6 : Fin 15) 0 ∗ sn (F := F) c (7 : Fin 15) 0 ∗ sn (F := F) c (8 : Fin 15) 0 ∗ sn (F := F) c (9 : Fin 15) 0 ∗ sn (F := F) c (10 : Fin 15) 0 ∗ sn (F := F) c (11 : Fin 15) 0 ∗ sn (F := F) c (12 : Fin 15) 0 ∗ sn (F := F) c (13 : Fin 15) 0 ∗ sn (F := F) c (14 : Fin 15) 0)
      ∗ ((rc (F := F) c (0 : Fin 15) 0 ∗ reached ER (cell c (.dma (rAg (0 : Fin 15)))) 0) ∗ (rc (F := F) c (1 : Fin 15) 0 ∗ reached ER (cell c (.dma (rAg (1 : Fin 15)))) 0) ∗ (rc (F := F) c (2 : Fin 15) 0 ∗ reached ER (cell c (.dma (rAg (2 : Fin 15)))) 0) ∗ (rc (F := F) c (3 : Fin 15) 0 ∗ reached ER (cell c (.dma (rAg (3 : Fin 15)))) 0) ∗ (rc (F := F) c (4 : Fin 15) 0 ∗ reached ER (cell c (.dma (rAg (4 : Fin 15)))) 0) ∗ (rc (F := F) c (5 : Fin 15) 0 ∗ reached ER (cell c (.dma (rAg (5 : Fin 15)))) 0) ∗ (rc (F := F) c (6 : Fin 15) 0 ∗ reached ER (cell c (.dma (rAg (6 : Fin 15)))) 0) ∗ (rc (F := F) c (7 : Fin 15) 0 ∗ reached ER (cell c (.dma (rAg (7 : Fin 15)))) 0) ∗ (rc (F := F) c (8 : Fin 15) 0 ∗ reached ER (cell c (.dma (rAg (8 : Fin 15)))) 0) ∗ (rc (F := F) c (9 : Fin 15) 0 ∗ reached ER (cell c (.dma (rAg (9 : Fin 15)))) 0) ∗ (rc (F := F) c (10 : Fin 15) 0 ∗ reached ER (cell c (.dma (rAg (10 : Fin 15)))) 0) ∗ (rc (F := F) c (11 : Fin 15) 0 ∗ reached ER (cell c (.dma (rAg (11 : Fin 15)))) 0) ∗ (rc (F := F) c (12 : Fin 15) 0 ∗ reached ER (cell c (.dma (rAg (12 : Fin 15)))) 0) ∗ (rc (F := F) c (13 : Fin 15) 0 ∗ reached ER (cell c (.dma (rAg (13 : Fin 15)))) 0) ∗ (rc (F := F) c (14 : Fin 15) 0 ∗ reached ER (cell c (.dma (rAg (14 : Fin 15)))) 0))
      ∗ atPos ER (barCell c) 0 ∅ 0
      ∗ ((dutyTok ER (barCell (fwd c 1)) 0 (1 : D) ∗ reached ER (barCell (fwd c 1)) 0) ∗ (dutyTok ER (barCell (fwd c 2)) 0 (2 : D) ∗ reached ER (barCell (fwd c 2)) 0) ∗ (dutyTok ER (barCell (fwd c 3)) 0 (3 : D) ∗ reached ER (barCell (fwd c 3)) 0) ∗ (dutyTok ER (barCell (fwd c 4)) 0 (4 : D) ∗ reached ER (barCell (fwd c 4)) 0) ∗ (dutyTok ER (barCell (fwd c 5)) 0 (5 : D) ∗ reached ER (barCell (fwd c 5)) 0) ∗ (dutyTok ER (barCell (fwd c 6)) 0 (6 : D) ∗ reached ER (barCell (fwd c 6)) 0) ∗ (dutyTok ER (barCell (fwd c 7)) 0 (7 : D) ∗ reached ER (barCell (fwd c 7)) 0) ∗ (dutyTok ER (barCell (fwd c 8)) 0 (8 : D) ∗ reached ER (barCell (fwd c 8)) 0) ∗ (dutyTok ER (barCell (fwd c 9)) 0 (9 : D) ∗ reached ER (barCell (fwd c 9)) 0) ∗ (dutyTok ER (barCell (fwd c 10)) 0 (10 : D) ∗ reached ER (barCell (fwd c 10)) 0) ∗ (dutyTok ER (barCell (fwd c 11)) 0 (11 : D) ∗ reached ER (barCell (fwd c 11)) 0) ∗ (dutyTok ER (barCell (fwd c 12)) 0 (12 : D) ∗ reached ER (barCell (fwd c 12)) 0) ∗ (dutyTok ER (barCell (fwd c 13)) 0 (13 : D) ∗ reached ER (barCell (fwd c 13)) 0) ∗ (dutyTok ER (barCell (fwd c 14)) 0 (14 : D) ∗ reached ER (barCell (fwd c 14)) 0) ∗ (dutyTok ER (barCell (fwd c 15)) 0 (15 : D) ∗ reached ER (barCell (fwd c 15)) 0))) := by
  unfold ghost
  rw [bigSep_D1, bigSep_F15, bigSep_F15]
  iintro ⟨#HI, ⟨Hs0, Hs1, Hs2, Hs3, Hs4, Hs5, Hs6, Hs7, Hs8, Hs9, Hs10, Hs11, Hs12, Hs13, Hs14⟩, ⟨Hr0, Hr1, Hr2, Hr3, Hr4, Hr5, Hr6, Hr7, Hr8, Hr9, Hr10, Hr11, Hr12, Hr13, Hr14⟩, HatB, Htoks⟩
  isplitr; · iexact HI
  isplitl [Hs0 Hs1 Hs2 Hs3 Hs4 Hs5 Hs6 Hs7 Hs8 Hs9 Hs10 Hs11 Hs12 Hs13 Hs14]
  · isplitl [Hs0]; · (ihave H := (sndr_open c (0 : Fin 15)) $$ Hs0; icases H with ⟨H, #Hd⟩; iexact H)
    isplitl [Hs1]; · (ihave H := (sndr_open c (1 : Fin 15)) $$ Hs1; icases H with ⟨H, #Hd⟩; iexact H)
    isplitl [Hs2]; · (ihave H := (sndr_open c (2 : Fin 15)) $$ Hs2; icases H with ⟨H, #Hd⟩; iexact H)
    isplitl [Hs3]; · (ihave H := (sndr_open c (3 : Fin 15)) $$ Hs3; icases H with ⟨H, #Hd⟩; iexact H)
    isplitl [Hs4]; · (ihave H := (sndr_open c (4 : Fin 15)) $$ Hs4; icases H with ⟨H, #Hd⟩; iexact H)
    isplitl [Hs5]; · (ihave H := (sndr_open c (5 : Fin 15)) $$ Hs5; icases H with ⟨H, #Hd⟩; iexact H)
    isplitl [Hs6]; · (ihave H := (sndr_open c (6 : Fin 15)) $$ Hs6; icases H with ⟨H, #Hd⟩; iexact H)
    isplitl [Hs7]; · (ihave H := (sndr_open c (7 : Fin 15)) $$ Hs7; icases H with ⟨H, #Hd⟩; iexact H)
    isplitl [Hs8]; · (ihave H := (sndr_open c (8 : Fin 15)) $$ Hs8; icases H with ⟨H, #Hd⟩; iexact H)
    isplitl [Hs9]; · (ihave H := (sndr_open c (9 : Fin 15)) $$ Hs9; icases H with ⟨H, #Hd⟩; iexact H)
    isplitl [Hs10]; · (ihave H := (sndr_open c (10 : Fin 15)) $$ Hs10; icases H with ⟨H, #Hd⟩; iexact H)
    isplitl [Hs11]; · (ihave H := (sndr_open c (11 : Fin 15)) $$ Hs11; icases H with ⟨H, #Hd⟩; iexact H)
    isplitl [Hs12]; · (ihave H := (sndr_open c (12 : Fin 15)) $$ Hs12; icases H with ⟨H, #Hd⟩; iexact H)
    isplitl [Hs13]; · (ihave H := (sndr_open c (13 : Fin 15)) $$ Hs13; icases H with ⟨H, #Hd⟩; iexact H)
    ihave H := (sndr_open c (14 : Fin 15)) $$ Hs14; icases H with ⟨H, #Hd⟩; iexact H
  isplitl [Hr0 Hr1 Hr2 Hr3 Hr4 Hr5 Hr6 Hr7 Hr8 Hr9 Hr10 Hr11 Hr12 Hr13 Hr14]
  · isplitl [Hr0]; · (iapply (rc_dup c (0 : Fin 15) 0); iapply (rcvr_open c (0 : Fin 15)); iexact Hr0)
    isplitl [Hr1]; · (iapply (rc_dup c (1 : Fin 15) 0); iapply (rcvr_open c (1 : Fin 15)); iexact Hr1)
    isplitl [Hr2]; · (iapply (rc_dup c (2 : Fin 15) 0); iapply (rcvr_open c (2 : Fin 15)); iexact Hr2)
    isplitl [Hr3]; · (iapply (rc_dup c (3 : Fin 15) 0); iapply (rcvr_open c (3 : Fin 15)); iexact Hr3)
    isplitl [Hr4]; · (iapply (rc_dup c (4 : Fin 15) 0); iapply (rcvr_open c (4 : Fin 15)); iexact Hr4)
    isplitl [Hr5]; · (iapply (rc_dup c (5 : Fin 15) 0); iapply (rcvr_open c (5 : Fin 15)); iexact Hr5)
    isplitl [Hr6]; · (iapply (rc_dup c (6 : Fin 15) 0); iapply (rcvr_open c (6 : Fin 15)); iexact Hr6)
    isplitl [Hr7]; · (iapply (rc_dup c (7 : Fin 15) 0); iapply (rcvr_open c (7 : Fin 15)); iexact Hr7)
    isplitl [Hr8]; · (iapply (rc_dup c (8 : Fin 15) 0); iapply (rcvr_open c (8 : Fin 15)); iexact Hr8)
    isplitl [Hr9]; · (iapply (rc_dup c (9 : Fin 15) 0); iapply (rcvr_open c (9 : Fin 15)); iexact Hr9)
    isplitl [Hr10]; · (iapply (rc_dup c (10 : Fin 15) 0); iapply (rcvr_open c (10 : Fin 15)); iexact Hr10)
    isplitl [Hr11]; · (iapply (rc_dup c (11 : Fin 15) 0); iapply (rcvr_open c (11 : Fin 15)); iexact Hr11)
    isplitl [Hr12]; · (iapply (rc_dup c (12 : Fin 15) 0); iapply (rcvr_open c (12 : Fin 15)); iexact Hr12)
    isplitl [Hr13]; · (iapply (rc_dup c (13 : Fin 15) 0); iapply (rcvr_open c (13 : Fin 15)); iexact Hr13)
    iapply (rc_dup c (14 : Fin 15) 0); iapply (rcvr_open c (14 : Fin 15)); iexact Hr14
  isplitl [HatB]; · iexact HatB
  iexact Htoks

/-! ## Counting the copies issued

  Copies of one kind are issued in the order of their index: after t of them at layer r the first t
  indices stand at r + 1 and the others at r. -/

def cnt (t r : ℕ) : Fin 15 → ℕ := fun i => if i.val < t then r + 1 else r

theorem cnt_step (t r : ℕ) (ht : t < 15) : Function.update (cnt t r) (⟨t, ht⟩ : Fin 15) (r + 1) = cnt (t + 1) r := by
  funext i
  unfold cnt
  by_cases h : i = ⟨t, ht⟩
  · subst h; simp
  · rw [Function.update_of_ne h]
    have : i.val ≠ t := fun e => h (Fin.ext e)
    by_cases h2 : i.val < t
    · rw [if_pos h2, if_pos (by omega)]
    · rw [if_neg h2, if_neg (by omega)]
theorem cnt_at (t r : ℕ) (ht : t < 15) : cnt t r (⟨t, ht⟩ : Fin 15) = r := by unfold cnt; simp
theorem cnt_full (r : ℕ) : cnt 15 r = cnt 0 (r + 1) := by
  funext i; unfold cnt; have := i.isLt; rw [if_pos this, if_neg (by omega)]
theorem cnt_zero (r : ℕ) : cnt 0 r = fun _ => r := by funext i; unfold cnt; simp
theorem lt_cnt (t r : ℕ) (i : Fin 15) : r ≤ cnt t r i := by unfold cnt; split <;> omega
theorem lt_cnt_full (r : ℕ) (i : Fin 15) : r < cnt 15 r i := by unfold cnt; have := i.isLt; rw [if_pos this]; omega
theorem lt_cnt_next (t r : ℕ) (i : Fin 15) : r < cnt t (r + 1) i := by unfold cnt; split <;> omega

/-- Chunk copy t+1 of layer r, the t-th issued. -/
theorem step_AS_t (K : GSem nD τ sig → ℕ) (c : Dev nD) (t : ℕ) (ht : t < 15) (r : ℕ) (hr : r < 3) (b : Fin 15 → ℕ)
    {W : Waits sig ℕ} {α : Type} {Q : α → sProp 𝕄} {k : PUnit → Prog (TpuEff nD τ sig (Elt F) Λ₀ .tc) α}
    {hsc : (xslot (kOf ⟨t, ht⟩)).view.ref.isScScratch = false}
    {hsrc : (xslot 0).view.WordExact} {hdst : (xslot (kOf ⟨t, ht⟩)).view.WordExact}
    {hsem : DmaTarget.Typed (nD := nD) (τ := τ) (p := .tc) .vmem (.dma (rAg ⟨t, ht⟩)) (.remote (nxt c ⟨t, ht⟩ : Thread nD τ) (xslot (kOf ⟨t, ht⟩)) (.dma (sAg ⟨t, ht⟩)) hsc)} :
    iprop(Invs m K ∗ owes (c : Thread nD τ) (Otot c (cnt t r) b 15) W ∗ sn (F := F) c ⟨t, ht⟩ r ∗ dstX (F := F) c ⟨t, ht⟩ r
        ∗ xPts c 0 (keepSh t) (xfill c 0 (chunkAt m r c)) ∗ (∃ f, rPts (F := F) c (Fin.rev ⟨t, ht⟩) f))
      ⊢ iprop(((owes (c : Thread nD τ) (Otot c (cnt (t + 1) r) b 15) W ∗ snSent (F := F) c ⟨t, ht⟩ r
                ∗ xPts c 0 (keepSh (t + 1)) (xfill c 0 (chunkAt m r c)))
              -∗ wp frame (wpE (defs₀ (F := F)) 𝒱₀ c none) Set.univ (k ⟨⟩) Q)
          -∗ wp frame (wpE (defs₀ (F := F)) 𝒱₀ c none) Set.univ
              (.op (.enqueueDma (xslot 0) (.remote (nxt c ⟨t, ht⟩ : Thread nD τ) (xslot (kOf ⟨t, ht⟩)) (.dma (sAg ⟨t, ht⟩)) hsc) (.dma (rAg ⟨t, ht⟩)) hsrc hdst hsem) k) Q) := by
  have h := step_AS m K c ⟨t, ht⟩ r hr (cnt t r) b (cnt_at t r ht) (W := W) (Q := Q) (k := k) (hsc := hsc) (hsrc := hsrc) (hdst := hdst) (hsem := hsem)
  rw [cnt_step t r ht] at h
  exact h

/-- The piece of copy index t+1 at layer r < 2, the t-th issued. -/
theorem step_RS_t (K : GSem nD τ sig → ℕ) (c : Dev nD) (t : ℕ) (ht : t < 15) (r : ℕ) (hr : r < 2) (a : Fin 15 → ℕ)
    {W : Waits sig ℕ} {α : Type} {Q : α → sProp 𝕄} {k : PUnit → Prog (TpuEff nD τ sig (Elt F) Λ₀ .tc) α}
    {hsc : (rslot (Fin.rev ⟨t, ht⟩)).view.ref.isScScratch = false}
    {hsrc : (pslot (kOf ⟨t, ht⟩)).view.WordExact} {hdst : (rslot (Fin.rev ⟨t, ht⟩)).view.WordExact}
    {hsem : DmaTarget.Typed (nD := nD) (τ := τ) (p := .tc) .vmem (.dma (rRs (Fin.rev ⟨t, ht⟩))) (.remote (prv c ⟨t, ht⟩ : Thread nD τ) (rslot (Fin.rev ⟨t, ht⟩)) (.dma (sRs (Fin.rev ⟨t, ht⟩))) hsc)} :
    iprop(Invs m K ∗ owes (c : Thread nD τ) (Otot c a (cnt t r) 15) W ∗ rcGot (F := F) c ⟨t, ht⟩ r ∗ dstR (F := F) c ⟨t, ht⟩ r
        ∗ pPts c (kOf ⟨t, ht⟩) (pfill c (kOf ⟨t, ht⟩) (pieceAt m r c (t + 1)))
        ∗ (∃ f, xPts (F := F) c (kOf ⟨t, ht⟩) fullShare f))
      ⊢ iprop(((owes (c : Thread nD τ) (Otot c a (cnt (t + 1) r) 15) W ∗ rcSent (F := F) c ⟨t, ht⟩ r)
              -∗ wp frame (wpE (defs₀ (F := F)) 𝒱₀ c none) Set.univ (k ⟨⟩) Q)
          -∗ wp frame (wpE (defs₀ (F := F)) 𝒱₀ c none) Set.univ
              (.op (.enqueueDma (pslot (kOf ⟨t, ht⟩)) (.remote (prv c ⟨t, ht⟩ : Thread nD τ) (rslot (Fin.rev ⟨t, ht⟩)) (.dma (sRs (Fin.rev ⟨t, ht⟩))) hsc) (.dma (rRs (Fin.rev ⟨t, ht⟩))) hsrc hdst hsem) k) Q) := by
  have h := step_RS m K c ⟨t, ht⟩ r hr a (cnt t r) (cnt_at t r ht) (W := W) (Q := Q) (k := k) (hsc := hsc) (hsrc := hsrc) (hdst := hdst) (hsem := hsem)
  rw [cnt_step t r ht] at h
  exact h

/-- The same at the last layer, where no slot of X goes back. -/
theorem step_RS_last_t (K : GSem nD τ sig → ℕ) (c : Dev nD) (t : ℕ) (ht : t < 15) (a : Fin 15 → ℕ)
    {W : Waits sig ℕ} {α : Type} {Q : α → sProp 𝕄} {k : PUnit → Prog (TpuEff nD τ sig (Elt F) Λ₀ .tc) α}
    {hsc : (rslot (Fin.rev ⟨t, ht⟩)).view.ref.isScScratch = false}
    {hsrc : (pslot (kOf ⟨t, ht⟩)).view.WordExact} {hdst : (rslot (Fin.rev ⟨t, ht⟩)).view.WordExact}
    {hsem : DmaTarget.Typed (nD := nD) (τ := τ) (p := .tc) .vmem (.dma (rRs (Fin.rev ⟨t, ht⟩))) (.remote (prv c ⟨t, ht⟩ : Thread nD τ) (rslot (Fin.rev ⟨t, ht⟩)) (.dma (sRs (Fin.rev ⟨t, ht⟩))) hsc)} :
    iprop(Invs m K ∗ owes (c : Thread nD τ) (Otot c a (cnt t 2) 15) W ∗ rcGot (F := F) c ⟨t, ht⟩ 2 ∗ dstR (F := F) c ⟨t, ht⟩ 2
        ∗ pPts c (kOf ⟨t, ht⟩) (pfill c (kOf ⟨t, ht⟩) (pieceAt m 2 c (t + 1))))
      ⊢ iprop(((owes (c : Thread nD τ) (Otot c a (cnt (t + 1) 2) 15) W ∗ rcSent (F := F) c ⟨t, ht⟩ 2)
              -∗ wp frame (wpE (defs₀ (F := F)) 𝒱₀ c none) Set.univ (k ⟨⟩) Q)
          -∗ wp frame (wpE (defs₀ (F := F)) 𝒱₀ c none) Set.univ
              (.op (.enqueueDma (pslot (kOf ⟨t, ht⟩)) (.remote (prv c ⟨t, ht⟩ : Thread nD τ) (rslot (Fin.rev ⟨t, ht⟩)) (.dma (sRs (Fin.rev ⟨t, ht⟩))) hsc) (.dma (rRs (Fin.rev ⟨t, ht⟩))) hsrc hdst hsem) k) Q) := by
  have h := step_RS_last m K c ⟨t, ht⟩ 2 rfl a (cnt t 2) (cnt_at t 2 ht) (W := W) (Q := Q) (k := k) (hsc := hsc) (hsrc := hsrc) (hdst := hdst) (hsem := hsem)
  rw [cnt_step t 2 ht] at h
  exact h

/-! ## The same three steps with the peer written as the program prints it

  The printed program addresses a peer through its own arithmetic on the device's position; these
  forms take the peer as a variable with the equation that identifies it. -/

theorem step_AS_d (K : GSem nD τ sig → ℕ) (c : Dev nD) (t : ℕ) (ht : t < 15) (r : ℕ) (hr : r < 3) (b : Fin 15 → ℕ)
    (d : Dev nD) (hd : d = nxt c ⟨t, ht⟩)
    {W : Waits sig ℕ} {α : Type} {Q : α → sProp 𝕄} {k : PUnit → Prog (TpuEff nD τ sig (Elt F) Λ₀ .tc) α}
    {hsc : (xslot (kOf ⟨t, ht⟩)).view.ref.isScScratch = false}
    {hsrc : (xslot 0).view.WordExact} {hdst : (xslot (kOf ⟨t, ht⟩)).view.WordExact}
    {hsem : DmaTarget.Typed (nD := nD) (τ := τ) (p := .tc) .vmem (.dma (rAg ⟨t, ht⟩)) (.remote (d : Thread nD τ) (xslot (kOf ⟨t, ht⟩)) (.dma (sAg ⟨t, ht⟩)) hsc)} :
    iprop(Invs m K ∗ owes (c : Thread nD τ) (Otot c (cnt t r) b 15) W ∗ sn (F := F) c ⟨t, ht⟩ r ∗ dstX (F := F) c ⟨t, ht⟩ r
        ∗ xPts c 0 (keepSh t) (xfill c 0 (chunkAt m r c)) ∗ (∃ f, rPts (F := F) c (Fin.rev ⟨t, ht⟩) f))
      ⊢ iprop(((owes (c : Thread nD τ) (Otot c (cnt (t + 1) r) b 15) W ∗ snSent (F := F) c ⟨t, ht⟩ r
                ∗ xPts c 0 (keepSh (t + 1)) (xfill c 0 (chunkAt m r c)))
              -∗ wp frame (wpE (defs₀ (F := F)) 𝒱₀ c none) Set.univ (k ⟨⟩) Q)
          -∗ wp frame (wpE (defs₀ (F := F)) 𝒱₀ c none) Set.univ
              (.op (.enqueueDma (xslot 0) (.remote (d : Thread nD τ) (xslot (kOf ⟨t, ht⟩)) (.dma (sAg ⟨t, ht⟩)) hsc) (.dma (rAg ⟨t, ht⟩)) hsrc hdst hsem) k) Q) := by
  subst hd
  exact step_AS_t m K c t ht r hr b

theorem step_RS_d (K : GSem nD τ sig → ℕ) (c : Dev nD) (t : ℕ) (ht : t < 15) (r : ℕ) (hr : r < 2) (a : Fin 15 → ℕ)
    (d : Dev nD) (hd : d = prv c ⟨t, ht⟩)
    {W : Waits sig ℕ} {α : Type} {Q : α → sProp 𝕄} {k : PUnit → Prog (TpuEff nD τ sig (Elt F) Λ₀ .tc) α}
    {hsc : (rslot (Fin.rev ⟨t, ht⟩)).view.ref.isScScratch = false}
    {hsrc : (pslot (kOf ⟨t, ht⟩)).view.WordExact} {hdst : (rslot (Fin.rev ⟨t, ht⟩)).view.WordExact}
    {hsem : DmaTarget.Typed (nD := nD) (τ := τ) (p := .tc) .vmem (.dma (rRs (Fin.rev ⟨t, ht⟩))) (.remote (d : Thread nD τ) (rslot (Fin.rev ⟨t, ht⟩)) (.dma (sRs (Fin.rev ⟨t, ht⟩))) hsc)} :
    iprop(Invs m K ∗ owes (c : Thread nD τ) (Otot c a (cnt t r) 15) W ∗ rcGot (F := F) c ⟨t, ht⟩ r ∗ dstR (F := F) c ⟨t, ht⟩ r
        ∗ pPts c (kOf ⟨t, ht⟩) (pfill c (kOf ⟨t, ht⟩) (pieceAt m r c (t + 1)))
        ∗ (∃ f, xPts (F := F) c (kOf ⟨t, ht⟩) fullShare f))
      ⊢ iprop(((owes (c : Thread nD τ) (Otot c a (cnt (t + 1) r) 15) W ∗ rcSent (F := F) c ⟨t, ht⟩ r)
              -∗ wp frame (wpE (defs₀ (F := F)) 𝒱₀ c none) Set.univ (k ⟨⟩) Q)
          -∗ wp frame (wpE (defs₀ (F := F)) 𝒱₀ c none) Set.univ
              (.op (.enqueueDma (pslot (kOf ⟨t, ht⟩)) (.remote (d : Thread nD τ) (rslot (Fin.rev ⟨t, ht⟩)) (.dma (sRs (Fin.rev ⟨t, ht⟩))) hsc) (.dma (rRs (Fin.rev ⟨t, ht⟩))) hsrc hdst hsem) k) Q) := by
  subst hd
  exact step_RS_t m K c t ht r hr a

theorem step_RS_last_d (K : GSem nD τ sig → ℕ) (c : Dev nD) (t : ℕ) (ht : t < 15) (a : Fin 15 → ℕ)
    (d : Dev nD) (hd : d = prv c ⟨t, ht⟩)
    {W : Waits sig ℕ} {α : Type} {Q : α → sProp 𝕄} {k : PUnit → Prog (TpuEff nD τ sig (Elt F) Λ₀ .tc) α}
    {hsc : (rslot (Fin.rev ⟨t, ht⟩)).view.ref.isScScratch = false}
    {hsrc : (pslot (kOf ⟨t, ht⟩)).view.WordExact} {hdst : (rslot (Fin.rev ⟨t, ht⟩)).view.WordExact}
    {hsem : DmaTarget.Typed (nD := nD) (τ := τ) (p := .tc) .vmem (.dma (rRs (Fin.rev ⟨t, ht⟩))) (.remote (d : Thread nD τ) (rslot (Fin.rev ⟨t, ht⟩)) (.dma (sRs (Fin.rev ⟨t, ht⟩))) hsc)} :
    iprop(Invs m K ∗ owes (c : Thread nD τ) (Otot c a (cnt t 2) 15) W ∗ rcGot (F := F) c ⟨t, ht⟩ 2 ∗ dstR (F := F) c ⟨t, ht⟩ 2
        ∗ pPts c (kOf ⟨t, ht⟩) (pfill c (kOf ⟨t, ht⟩) (pieceAt m 2 c (t + 1))))
      ⊢ iprop(((owes (c : Thread nD τ) (Otot c a (cnt (t + 1) 2) 15) W ∗ rcSent (F := F) c ⟨t, ht⟩ 2)
              -∗ wp frame (wpE (defs₀ (F := F)) 𝒱₀ c none) Set.univ (k ⟨⟩) Q)
          -∗ wp frame (wpE (defs₀ (F := F)) 𝒱₀ c none) Set.univ
              (.op (.enqueueDma (pslot (kOf ⟨t, ht⟩)) (.remote (d : Thread nD τ) (rslot (Fin.rev ⟨t, ht⟩)) (.dma (sRs (Fin.rev ⟨t, ht⟩))) hsc) (.dma (rRs (Fin.rev ⟨t, ht⟩))) hsrc hdst hsem) k) Q) := by
  subst hd
  exact step_RS_last_t m K c t ht a

/-- The owed sum after all fifteen copies of one layer, restated for the next layer's count. -/
theorem owes_next (c : Dev nD) (r : ℕ) (W : Waits sig ℕ) :
    (owes (c : Thread nD τ) (Otot c (cnt 15 r) (cnt 15 r) 15) W : sProp 𝕄) ⊢ owes (c : Thread nD τ) (Otot c (cnt 0 (r + 1)) (cnt 0 (r + 1)) 15) W := by
  rw [cnt_full r]

/-- A return bound to a continuation is the continuation at the returned value. -/
theorem wp_ret_bind {α β : Type} (c : Dev nD) (a : α) (k : α → Prog (TpuEff nD τ sig (Elt F) Λ₀ .tc) β) (Q : β → sProp 𝕄) :
    (wp frame (wpE (defs₀ (F := F)) 𝒱₀ c none) Set.univ (k a) Q : sProp 𝕄)
      ⊢ wp frame (wpE (defs₀ (F := F)) 𝒱₀ c none) Set.univ ((Prog.ret a).bind k) Q := by
  have h : (Prog.ret a).bind k = k a := rfl
  rw [h]

end Cert.Kernel.BodyPre
end
-- ==== Proof.Bits.BodyPost.lean ====
import proofs.«900978_g7700000000000979_dist_mlpseq_tp1d_bs_bs_b256_d256_h512_v7x_i16_bf16_1_alg».proof.Proof.Bits.BodyPre
noncomputable section
namespace Cert.Kernel.BodyPre
open Cert.Kernel Cert.Kernel.Gen Cert.Kernel.Vals Cert.Kernel.Cells Cert.Kernel.Sched Cert.Kernel.State Cert.Kernel.Dats Cert.Kernel.SchedTables Cert.Kernel.RingLaws Cert.Kernel.Phases Cert.Kernel.Steps Cert.Kernel.Ring Cert.Kernel.Open Cert.Kernel.StepsSend Cert.Kernel.StepsWait Cert.Kernel.Slots
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-- What a device's body leaves: its three scratch buffers again with its sixty transfer semaphores closed at zero,
    nothing owed, the seven argument blocks as they were and the result block holding the last layer's sum. -/
def bodyPost (c : Dev nD) : sProp 𝕄 :=
  iprop(Φ₁ (F := F) c ∗ (dats m 0 c).owesAt 0 t₀.succ
    ∗ stg c cc0_stg0_0 ((dats m 0 c).after (0 : Fin 8) t₀)
    ∗ stg c cc0_stg1_0 ((dats m 0 c).after (1 : Fin 8) t₀)
    ∗ stg c cc0_stg2_0 ((dats m 0 c).after (2 : Fin 8) t₀)
    ∗ stg c cc0_stg3_0 ((dats m 0 c).after (3 : Fin 8) t₀)
    ∗ stg c cc0_stg4_0 ((dats m 0 c).after (4 : Fin 8) t₀)
    ∗ stg c cc0_stg5_0 ((dats m 0 c).after (5 : Fin 8) t₀)
    ∗ stg c cc0_stg6_0 ((dats m 0 c).after (6 : Fin 8) t₀)
    ∗ stg c cc0_stg7_0 ((dats m 0 c).after (7 : Fin 8) t₀))

end Cert.Kernel.BodyPre
end
-- ==== Proof.Bits.StepsMem.lean ====
/-
  The body's loads and stores on the three scratch buffers, slot by slot.

  The proof holds X, P and R by their slots: the points-to of a slot's own elements (for slot 0 of X at a
  fraction while its copies are in flight), never a whole buffer. Each lemma here takes one load or store of
  the program through the whole buffer's memref at a slot's rectangle and reads or rewrites the slot held.
-/
import proofs.«900978_g7700000000000979_dist_mlpseq_tp1d_bs_bs_b256_d256_h512_v7x_i16_bf16_1_alg».proof.Proof.Bits.Dats
import proofs.«900978_g7700000000000979_dist_mlpseq_tp1d_bs_bs_b256_d256_h512_v7x_i16_bf16_1_alg».proof.Proof.Bits.SchedTables
import proofs.«900978_g7700000000000979_dist_mlpseq_tp1d_bs_bs_b256_d256_h512_v7x_i16_bf16_1_alg».proof.Proof.Bits.RingLaws
import proofs.«900978_g7700000000000979_dist_mlpseq_tp1d_bs_bs_b256_d256_h512_v7x_i16_bf16_1_alg».proof.Proof.Gen.Kernel.Skeleton
import proofs.«900978_g7700000000000979_dist_mlpseq_tp1d_bs_bs_b256_d256_h512_v7x_i16_bf16_1_alg».proof.Proof.Bits.StateLemmas
noncomputable section
namespace Cert.Kernel.StepsMem
open Cert.Kernel Cert.Kernel.Gen Cert.Kernel.Vals Cert.Kernel.Cells Cert.Kernel.Sched Cert.Kernel.State Cert.Kernel.Dats Cert.Kernel.SchedTables Cert.Kernel.RingLaws
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-- Contents written through a view on every index agree on the view's elements, whatever was there before. -/
theorem write_univ_agree {sig' : RefSig} {κ : Kind} {sp : Space} {s : Shape} {e : EltTy} {Val : EltTy → Type}
    (v : View sig' κ sp s e) (f g : v.ty.Contents Val) (w : s.Idx → Val e) :
    ∀ i ∈ v.set, v.write Val f w Finset.univ i = v.write Val g w Finset.univ i := by
  intro i hi
  obtain ⟨x, -, rfl⟩ := Finset.mem_map.mp hi
  rw [View.write_emb_of_mem _ _ (Finset.mem_univ x), View.write_emb_of_mem _ _ (Finset.mem_univ x)]

/-! ## Stores of a whole slot -/

/-- The store of a chunk into slot k of X. -/
theorem storeX (c : Dev nD) (k : Fin 16) (v : Vec F S256x256 .bf16)
    {hx : (XM.access (Rect.unit (s := S4096x256) ![256 * k.val, 0] S256x256.size (inbRow k))).Stores Finset.univ}
    {hm : (Finset.univ : Finset (Rect.unit (s := S4096x256) ![256 * k.val, 0] S256x256.size (inbRow k)).shape.Idx) = Finset.univ ∨ ∀ a, (Rect.unit (s := S4096x256) ![256 * k.val, 0] S256x256.size (inbRow k)).stride a = 1}
    {α : Type} {Q : α → sProp 𝕄} {kk : PUnit → Prog (TpuEff nD τ sig (Elt F) Λ₀ .tc) α} :
    iprop(∃ f, xPts (F := F) c k fullShare f)
      ⊢ iprop((xPts c k fullShare (xfill c k v) -∗ wp frame (wpE (defs₀ (F := F)) 𝒱₀ c none) Set.univ (kk ⟨⟩) Q)
          -∗ wp frame (wpE (defs₀ (F := F)) 𝒱₀ c none) Set.univ (.op (.store XM (Rect.unit (s := S4096x256) ![256 * k.val, 0] S256x256.size (inbRow k)) v Finset.univ hx hm) kk) Q) := by
  unfold xPts xfill
  iintro ⟨%f, H⟩ Hk
  iapply (wp_store (defs := defs₀ (F := F)) 𝒱₀ (c : Thread nD τ) none Set.univ (m := XM)
      (r := (Rect.unit (s := S4096x256) ![256 * k.val, 0] S256x256.size (inbRow k))) (w := v) (Mk := Finset.univ) (f := f)
      (S := (xslot k).view.set) (Finset.Subset.refl _)) $$ [H]
  · iexact H
  iintro H'
  iapply Hk
  rw [pointsTo_congr (write_univ_agree (xslot k).view _ f v)]
  iexact H'

/-- The store of a piece into slot k of P. -/
theorem storeP (c : Dev nD) (k : Fin 16) (v : Vec F S256x256 .bf16)
    {hx : (PM.access (Rect.unit (s := S4096x256) ![256 * k.val, 0] S256x256.size (inbRow k))).Stores Finset.univ}
    {hm : (Finset.univ : Finset (Rect.unit (s := S4096x256) ![256 * k.val, 0] S256x256.size (inbRow k)).shape.Idx) = Finset.univ ∨ ∀ a, (Rect.unit (s := S4096x256) ![256 * k.val, 0] S256x256.size (inbRow k)).stride a = 1}
    {α : Type} {Q : α → sProp 𝕄} {kk : PUnit → Prog (TpuEff nD τ sig (Elt F) Λ₀ .tc) α} :
    iprop(∃ f, pPts (F := F) c k f)
      ⊢ iprop((pPts c k (pfill c k v) -∗ wp frame (wpE (defs₀ (F := F)) 𝒱₀ c none) Set.univ (kk ⟨⟩) Q)
          -∗ wp frame (wpE (defs₀ (F := F)) 𝒱₀ c none) Set.univ (.op (.store PM (Rect.unit (s := S4096x256) ![256 * k.val, 0] S256x256.size (inbRow k)) v Finset.univ hx hm) kk) Q) := by
  unfold pPts pfill
  iintro ⟨%f, H⟩ Hk
  iapply (wp_store (defs := defs₀ (F := F)) 𝒱₀ (c : Thread nD τ) none Set.univ (m := PM)
      (r := (Rect.unit (s := S4096x256) ![256 * k.val, 0] S256x256.size (inbRow k))) (w := v) (Mk := Finset.univ) (f := f)
      (S := (pslot k).view.set) (Finset.Subset.refl _)) $$ [H]
  · iexact H
  iintro H'
  iapply Hk
  rw [pointsTo_congr (write_univ_agree (pslot k).view _ f v)]
  iexact H'

/-! ## Loads of one slot, whatever it holds -/

theorem loadXany (c : Dev nD) (k : Fin 16) (q : PosShare TreeShare) (f : Buf (Elt F) ((xslot k).view.loc (c : Thread nD τ)))
    {hl : XM.view.LoadsAt (Rect.unit (s := S4096x256) ![256 * k.val, 0] S256x256.size (inbRow k)).toLoadRect}
    {α : Type} {Q : α → sProp 𝕄} {kk : Vec F S256x256 .bf16 → Prog (TpuEff nD τ sig (Elt F) Λ₀ .tc) α} :
    xPts c k q f
      ⊢ iprop((xPts c k q f -∗ wp frame (wpE (defs₀ (F := F)) 𝒱₀ c none) Set.univ (kk ((xslot k).view.read (Elt F) f)) Q)
          -∗ wp frame (wpE (defs₀ (F := F)) 𝒱₀ c none) Set.univ (.op (.load XM (Rect.unit (s := S4096x256) ![256 * k.val, 0] S256x256.size (inbRow k)).toLoadRect hl) kk) Q) := by
  unfold xPts
  exact wp_load_rect (defs := defs₀ (F := F)) 𝒱₀ (c : Thread nD τ) none Set.univ (m := XM) (r := (Rect.unit (s := S4096x256) ![256 * k.val, 0] S256x256.size (inbRow k)))
    (S := (xslot k).view.set) (q := q) (f := f) (Finset.Subset.refl _)

theorem loadPany (c : Dev nD) (k : Fin 16) (f : Buf (Elt F) ((pslot k).view.loc (c : Thread nD τ)))
    {hl : PM.view.LoadsAt (Rect.unit (s := S4096x256) ![256 * k.val, 0] S256x256.size (inbRow k)).toLoadRect}
    {α : Type} {Q : α → sProp 𝕄} {kk : Vec F S256x256 .bf16 → Prog (TpuEff nD τ sig (Elt F) Λ₀ .tc) α} :
    pPts c k f
      ⊢ iprop((pPts c k f -∗ wp frame (wpE (defs₀ (F := F)) 𝒱₀ c none) Set.univ (kk ((pslot k).view.read (Elt F) f)) Q)
          -∗ wp frame (wpE (defs₀ (F := F)) 𝒱₀ c none) Set.univ (.op (.load PM (Rect.unit (s := S4096x256) ![256 * k.val, 0] S256x256.size (inbRow k)).toLoadRect hl) kk) Q) := by
  unfold pPts
  exact wp_load_rect (defs := defs₀ (F := F)) 𝒱₀ (c : Thread nD τ) none Set.univ (m := PM) (r := (Rect.unit (s := S4096x256) ![256 * k.val, 0] S256x256.size (inbRow k)))
    (S := (pslot k).view.set) (q := fullShare) (f := f) (Finset.Subset.refl _)

/-! ## The load of a received piece -/

/-- Slot j of R read through its three-axis window, the slot holding v through its two-axis window. -/
theorem read_rslot3_rfill (c : Dev nD) (j : Fin 15) (v : Vec F S256x256 .bf16) :
    (rslot3 j).view.read (Elt F) (rfill c j v) = Vals.lift3 v := by
  funext i
  obtain ⟨y, rfl⟩ := (Shape.reshapeEquiv (squeezes_S1x256x256_S256x256.numel_eq)).surjective i
  have hy := Shape.reshapeEquiv_cons_one (n := 2) (d := ![256, 256]) squeezes_S1x256x256_S256x256.numel_eq y
  have hl : Vals.lift3 v (Shape.reshapeEquiv (squeezes_S1x256x256_S256x256.numel_eq) y) = v y := by
    unfold Vals.lift3
    rw [hy]
    congr 1
    funext d
    match d with
    | ⟨0, _⟩ => rfl
    | ⟨1, _⟩ => rfl
  rw [hl]
  exact View.read_write_of_mem (v := (rslot j).view) (fun _ => v idx00) v (Finset.mem_univ y)

theorem loadR (c : Dev nD) (j : Fin 15) (v : Vec F S256x256 .bf16)
    {hl : RM.view.LoadsAt (Rect.unit (s := S15x256x256) ![j.val, 0, 0] S1x256x256.size (inbR j)).toLoadRect}
    {α : Type} {Q : α → sProp 𝕄} {kk : Vec F S1x256x256 .bf16 → Prog (TpuEff nD τ sig (Elt F) Λ₀ .tc) α} :
    rPts c j (rfill c j v)
      ⊢ iprop((rPts c j (rfill c j v) -∗ wp frame (wpE (defs₀ (F := F)) 𝒱₀ c none) Set.univ (kk (Vals.lift3 v)) Q)
          -∗ wp frame (wpE (defs₀ (F := F)) 𝒱₀ c none) Set.univ (.op (.load RM (Rect.unit (s := S15x256x256) ![j.val, 0, 0] S1x256x256.size (inbR j)).toLoadRect hl) kk) Q) := by
  unfold rPts
  have hset : (rslot j).view.set = (rslot3 j).view.set := View.set_reshape _ _
  rw [hset, ← read_rslot3_rfill c j v]
  exact wp_load_rect (defs := defs₀ (F := F)) 𝒱₀ (c : Thread nD τ) none Set.univ (m := RM) (r := (Rect.unit (s := S15x256x256) ![j.val, 0, 0] S1x256x256.size (inbR j)))
    (S := (rslot3 j).view.set) (q := fullShare) (f := rfill c j v) (Finset.Subset.refl _)

/-! ## The load of two neighbouring slots of X -/

/-- The two slots a group's load reads. -/
def lo (g : Fin 8) : Fin 16 := ⟨2 * g.val, by omega⟩
def hi (g : Fin 8) : Fin 16 := ⟨2 * g.val + 1, by omega⟩

theorem lo_ne_hi (g : Fin 8) : lo g ≠ hi g := by
  intro h
  have := congrArg Fin.val h
  simp only [lo, hi] at this
  omega

theorem inbRow2 (g : Fin 8) : ∀ a, (![512 * g.val, 0] : Fin 2 → Nat) a + S512x256.size a ≤ S4096x256.size a := by
  revert g; decide

theorem xslot_set (k : Fin 16) : (xslot k).view.set = (Rect.unit (s := S4096x256) ![256 * k.val, 0] S256x256.size (inbRow k)).set.map XM.view.emb := View.set_slice _ _

/-- Different slots of X share no element. -/
theorem xslot_disjoint {k k' : Fin 16} (h : k ≠ k') : Disjoint (xslot k).view.set (xslot k').view.set := by
  have hne : k.val ≠ k'.val := Fin.val_ne_of_ne h
  rw [xslot_set, xslot_set]
  exact (Finset.disjoint_map XM.view.emb).mpr (Rect.unit_disjoint (0 : Fin 2)
    (show 256 * k.val + 256 ≤ 256 * k'.val ∨ 256 * k'.val + 256 ≤ 256 * k.val by omega))

/-- What is left of a full share of elements once the part `keepSh n` is taken: the n lent parts. -/
def lentAll {ℓ : Loc nD τ sig} (I : Finset (Idx ℓ)) (f : Buf (Elt F) ℓ) : ℕ → sProp 𝕄
  | 0 => iprop(emp)
  | n + 1 => iprop((ℓ ↦[I]{lentSh n} f) ∗ lentAll I f n)

theorem lentAll_zero {ℓ : Loc nD τ sig} (I : Finset (Idx ℓ)) (f : Buf (Elt F) ℓ) : lentAll I f 0 = iprop(emp) := rfl
theorem lentAll_succ {ℓ : Loc nD τ sig} (I : Finset (Idx ℓ)) (f : Buf (Elt F) ℓ) (n : ℕ) :
    lentAll I f (n + 1) = iprop((ℓ ↦[I]{lentSh n} f) ∗ lentAll I f n) := rfl

theorem full_to_keep {ℓ : Loc nD τ sig} (I : Finset (Idx ℓ)) (f : Buf (Elt F) ℓ) (n : ℕ) :
    (ℓ ↦[I]{fullShare} f : sProp 𝕄) ⊢ iprop((ℓ ↦[I]{keepSh n} f) ∗ lentAll I f n) := by
  induction n with
  | zero =>
    rw [lentAll_zero]
    iintro H
    isplitl [H]
    · iexact H
    · iempintro
  | succ n ih =>
    rw [lentAll_succ]
    iintro H
    ihave H' := ih $$ H
    icases H' with ⟨Hk, Hl⟩
    ihave Hs := (pointsTo_share (PosShare.mem_left_op_right (keepSh n))).1 $$ Hk
    icases Hs with ⟨Hk1, Hk2⟩
    isplitl [Hk1]
    · iexact Hk1
    isplitl [Hk2]
    · iexact Hk2
    · iexact Hl

theorem keep_to_full {ℓ : Loc nD τ sig} (I : Finset (Idx ℓ)) (f : Buf (Elt F) ℓ) (n : ℕ) :
    iprop((ℓ ↦[I]{keepSh n} f) ∗ lentAll I f n) ⊢ (ℓ ↦[I]{fullShare} f : sProp 𝕄) := by
  induction n with
  | zero =>
    iintro ⟨H, -⟩
    iexact H
  | succ n ih =>
    rw [lentAll_succ]
    iintro ⟨Hk1, Hk2, Hl⟩
    iapply ih
    isplitl [Hk1 Hk2]
    · iapply (pointsTo_share (PosShare.mem_left_op_right (keepSh n))).2
      isplitl [Hk1]
      · iexact Hk1
      · iexact Hk2
    · iexact Hl

/-- The rows a group's load reads are those of its two slots. -/
theorem setOn_two (g : Fin 8) :
    XM.view.setOn (Rect.unit (s := S4096x256) ![512 * g.val, 0] S512x256.size (inbRow2 g)).toLoadRect.set ⊆ (xslot (lo g)).view.set ∪ (xslot (hi g)).view.set := by
  intro i hi'
  obtain ⟨y, hy, rfl⟩ := Finset.mem_map.mp hi'
  have hy' := Rect.mem_set_unit.mp hy
  have h0 : 512 * g.val ≤ (y 0).val ∧ (y 0).val < 512 * g.val + 512 := hy' 0
  rw [xslot_set, xslot_set, ← Finset.map_union]
  refine Finset.mem_map_of_mem _ ?_
  rw [Finset.mem_union, Rect.mem_set_unit, Rect.mem_set_unit]
  by_cases h : (y 0).val < 512 * g.val + 256
  · left
    intro a
    match a with
    | ⟨0, _⟩ =>
      show 256 * (2 * g.val) ≤ (y 0).val ∧ (y 0).val < 256 * (2 * g.val) + 256
      omega
    | ⟨1, h1⟩ => exact hy' ⟨1, h1⟩
  · right
    intro a
    match a with
    | ⟨0, _⟩ =>
      show 256 * (2 * g.val + 1) ≤ (y 0).val ∧ (y 0).val < 256 * (2 * g.val + 1) + 256
      omega
    | ⟨1, h1⟩ => exact hy' ⟨1, h1⟩

/-- An element of a slot holding v, read back. -/
theorem xfill_emb (c : Dev nD) (k : Fin 16) (v : Vec F S256x256 .bf16) (x : S256x256.Idx) :
    (xslot k).view.read (Elt F) (xfill c k v) x = v x :=
  View.read_write_of_mem (v := (xslot k).view) (fun _ => v idx00) v (Finset.mem_univ x)

/-- The group's load off contents that agree with the two slots' reads the two chunks stacked. -/
theorem read_two (c : Dev nD) (g : Fin 8) (v0 v1 : Vec F S256x256 .bf16) (h : Buf (Elt F) (XM.view.loc (c : Thread nD τ)))
    (h0 : ∀ i ∈ (xslot (lo g)).view.set, h i = xfill c (lo g) v0 i)
    (h1 : ∀ i ∈ (xslot (hi g)).view.set, h i = xfill c (hi g) v1 i) :
    XM.view.readAt (Elt F) (Rect.unit (s := S4096x256) ![512 * g.val, 0] S512x256.size (inbRow2 g)).toLoadRect h = Vals.cat v0 v1 := by
  funext i
  by_cases hlt : (i 0).val < 256
  · have he : XM.view.emb ((Rect.unit (s := S4096x256) ![512 * g.val, 0] S512x256.size (inbRow2 g)).toLoadRect.idx i)
        = (xslot (lo g)).view.emb (fun d => match d with | 0 => ⟨(i 0).val, hlt⟩ | 1 => i 1) := by
      refine funext fun a => Fin.ext ?_
      match a with
      | ⟨0, _⟩ =>
        show 512 * g.val + 1 * (i 0).val = 256 * (2 * g.val) + 1 * (i 0).val
        omega
      | ⟨1, _⟩ => rfl
    have e1 : h (XM.view.emb ((Rect.unit (s := S4096x256) ![512 * g.val, 0] S512x256.size (inbRow2 g)).toLoadRect.idx i)) = xfill c (lo g) v0 (XM.view.emb ((Rect.unit (s := S4096x256) ![512 * g.val, 0] S512x256.size (inbRow2 g)).toLoadRect.idx i)) :=
      h0 _ (he ▸ (xslot (lo g)).view.emb_mem_set _)
    refine ((congrArg (_root_.cast _) (e1.trans (congrArg (xfill c (lo g) v0) he))).trans (xfill_emb c (lo g) v0 _)).trans ?_
    unfold Vals.cat
    rw [dif_pos hlt]
    rfl
  · have hlt2 : (i 0).val - 256 < 256 := by have h512 : (i 0).val < 512 := (i 0).isLt; omega
    have he : XM.view.emb ((Rect.unit (s := S4096x256) ![512 * g.val, 0] S512x256.size (inbRow2 g)).toLoadRect.idx i)
        = (xslot (hi g)).view.emb (fun d => match d with | 0 => ⟨(i 0).val - 256, hlt2⟩ | 1 => i 1) := by
      refine funext fun a => Fin.ext ?_
      match a with
      | ⟨0, _⟩ =>
        show 512 * g.val + 1 * (i 0).val = 256 * (2 * g.val + 1) + 1 * ((i 0).val - 256)
        omega
      | ⟨1, _⟩ => rfl
    have e1 : h (XM.view.emb ((Rect.unit (s := S4096x256) ![512 * g.val, 0] S512x256.size (inbRow2 g)).toLoadRect.idx i)) = xfill c (hi g) v1 (XM.view.emb ((Rect.unit (s := S4096x256) ![512 * g.val, 0] S512x256.size (inbRow2 g)).toLoadRect.idx i)) :=
      h1 _ (he ▸ (xslot (hi g)).view.emb_mem_set _)
    refine ((congrArg (_root_.cast _) (e1.trans (congrArg (xfill c (hi g) v1) he))).trans (xfill_emb c (hi g) v1 _)).trans ?_
    unfold Vals.cat
    rw [dif_neg hlt]
    rfl

/-- The two slots' contents as one: the second slot's chunk written over the first slot's contents. -/
def both (c : Dev nD) (g : Fin 8) (v0 v1 : Vec F S256x256 .bf16) : Buf (Elt F) (XM.view.loc (c : Thread nD τ)) :=
  (xslot (hi g)).view.write (Elt F) (xfill c (lo g) v0) v1 Finset.univ

theorem both_lo (c : Dev nD) (g : Fin 8) (v0 v1 : Vec F S256x256 .bf16) :
    ∀ i ∈ (xslot (lo g)).view.set, both c g v0 v1 i = xfill c (lo g) v0 i := fun i hi' =>
  View.write_of_not_mem (v := (xslot (hi g)).view) _ _ _ (Finset.disjoint_left.mp (xslot_disjoint (k := lo g) (k' := hi g) (lo_ne_hi g)) hi')

theorem both_hi (c : Dev nD) (g : Fin 8) (v0 v1 : Vec F S256x256 .bf16) :
    ∀ i ∈ (xslot (hi g)).view.set, both c g v0 v1 i = xfill c (hi g) v1 i :=
  write_univ_agree (xslot (hi g)).view _ _ v1

/-- The load of a group's two slots: the first held at a part `keepSh n` of its share (n copies of it in flight;
    n = 0 is the whole), the second whole. -/
theorem loadX (c : Dev nD) (g : Fin 8) (n : ℕ) (v0 v1 : Vec F S256x256 .bf16)
    {hl : XM.view.LoadsAt (Rect.unit (s := S4096x256) ![512 * g.val, 0] S512x256.size (inbRow2 g)).toLoadRect}
    {α : Type} {Q : α → sProp 𝕄} {kk : Vec F S512x256 .bf16 → Prog (TpuEff nD τ sig (Elt F) Λ₀ .tc) α} :
    iprop(xPts c (lo g) (keepSh n) (xfill c (lo g) v0) ∗ xPts c (hi g) fullShare (xfill c (hi g) v1))
      ⊢ iprop(((xPts c (lo g) (keepSh n) (xfill c (lo g) v0) ∗ xPts c (hi g) fullShare (xfill c (hi g) v1))
            -∗ wp frame (wpE (defs₀ (F := F)) 𝒱₀ c none) Set.univ (kk (Vals.cat v0 v1)) Q)
          -∗ wp frame (wpE (defs₀ (F := F)) 𝒱₀ c none) Set.univ (.op (.load XM (Rect.unit (s := S4096x256) ![512 * g.val, 0] S512x256.size (inbRow2 g)).toLoadRect hl) kk) Q) := by
  unfold xPts
  show iprop((XM.view.loc (c : Thread nD τ) ↦[(xslot (lo g)).view.set]{keepSh n} xfill c (lo g) v0)
        ∗ (XM.view.loc (c : Thread nD τ) ↦[(xslot (hi g)).view.set]{fullShare} xfill c (hi g) v1))
      ⊢ iprop((((XM.view.loc (c : Thread nD τ) ↦[(xslot (lo g)).view.set]{keepSh n} xfill c (lo g) v0)
        ∗ (XM.view.loc (c : Thread nD τ) ↦[(xslot (hi g)).view.set]{fullShare} xfill c (hi g) v1)) -∗ _) -∗ _)
  rw [← pointsTo_congr (ℓ := XM.view.loc (c : Thread nD τ)) (q := keepSh n) (both_lo c g v0 v1),
    ← pointsTo_congr (ℓ := XM.view.loc (c : Thread nD τ)) (q := fullShare) (both_hi c g v0 v1),
    ← read_two c g v0 v1 (both c g v0 v1) (both_lo c g v0 v1) (both_hi c g v0 v1)]
  iintro ⟨H0, H1⟩ Hk
  ihave H1' := (full_to_keep (ℓ := XM.view.loc (c : Thread nD τ)) (xslot (hi g)).view.set (both c g v0 v1) n) $$ H1
  icases H1' with ⟨H1k, H1l⟩
  ihave HJ := (pointsTo_union (ℓ := XM.view.loc (c : Thread nD τ)) (q := keepSh n) (f := both c g v0 v1)
      (xslot_disjoint (lo_ne_hi g))).2 $$ [H0 H1k]
  · isplitl [H0]
    · iexact H0
    · iexact H1k
  iapply (wp_load (defs := defs₀ (F := F)) 𝒱₀ (c : Thread nD τ) none Set.univ (m := XM) (r := (Rect.unit (s := S4096x256) ![512 * g.val, 0] S512x256.size (inbRow2 g)).toLoadRect)
      (setOn_two g)) $$ [HJ]
  · iexact HJ
  iintro HJ
  ihave HS := (pointsTo_union (ℓ := XM.view.loc (c : Thread nD τ)) (q := keepSh n) (f := both c g v0 v1)
      (xslot_disjoint (lo_ne_hi g))).1 $$ HJ
  icases HS with ⟨H0, H1k⟩
  iapply Hk
  isplitl [H0]
  · iexact H0
  · iapply (keep_to_full (ℓ := XM.view.loc (c : Thread nD τ)) (xslot (hi g)).view.set (both c g v0 v1) n)
    isplitl [H1k]
    · iexact H1k
    · iexact H1l

/-- info: 'Cert.Kernel.StepsMem.storeX' depends on axioms: [propext, Classical.choice, Quot.sound] -/
#guard_msgs in #print axioms storeX
/-- info: 'Cert.Kernel.StepsMem.storeP' depends on axioms: [propext, Classical.choice, Quot.sound] -/
#guard_msgs in #print axioms storeP
/-- info: 'Cert.Kernel.StepsMem.loadXany' depends on axioms: [propext, Classical.choice, Quot.sound] -/
#guard_msgs in #print axioms loadXany
/-- info: 'Cert.Kernel.StepsMem.loadPany' depends on axioms: [propext, Classical.choice, Quot.sound] -/
#guard_msgs in #print axioms loadPany
/-- info: 'Cert.Kernel.StepsMem.loadR' depends on axioms: [propext, Classical.choice, Quot.sound] -/
#guard_msgs in #print axioms loadR
/-- info: 'Cert.Kernel.StepsMem.loadX' depends on axioms: [propext, Classical.choice, Quot.sound] -/
#guard_msgs in #print axioms loadX

end Cert.Kernel.StepsMem
end
-- ==== Proof.Bits.PayForms.lean ====
/-
  What each landed payload is, in the terms the next step consumes, and what the staging buffers hold when the body starts.

  A chunk copy's landing hands the receiver the slot with the sender's chunk and the sender's slot of R, which is the
  landing slot of the piece the receiver returns (the sender sits j + 1 places back). A piece copy landing in slot
  Fin.rev j of R is the piece of copy index j + 1, sent by the device j + 1 places on; while another layer follows it
  also hands back that device's slot of X, the landing slot of the next chunk copy of index j + 1. The send side of the
  piece copy on semaphore Fin.rev j returns slot j + 1 of P. The index arithmetic is 15 - (14 - j) = j + 1 and that
  reversing an index twice gives it back.

  The grid has one point, at which every input window is fetched: its staging buffer then holds the window's block of
  its array, and the block is the whole array (all offsets are zero), so the buffer holds the device's argument block.
-/
import proofs.«900978_g7700000000000979_dist_mlpseq_tp1d_bs_bs_b256_d256_h512_v7x_i16_bf16_1_alg».proof.Proof.Bits.Dats
import proofs.«900978_g7700000000000979_dist_mlpseq_tp1d_bs_bs_b256_d256_h512_v7x_i16_bf16_1_alg».proof.Proof.Bits.SchedTables
import proofs.«900978_g7700000000000979_dist_mlpseq_tp1d_bs_bs_b256_d256_h512_v7x_i16_bf16_1_alg».proof.Proof.Bits.RingLaws
import proofs.«900978_g7700000000000979_dist_mlpseq_tp1d_bs_bs_b256_d256_h512_v7x_i16_bf16_1_alg».proof.Proof.Gen.Kernel.Skeleton
import proofs.«900978_g7700000000000979_dist_mlpseq_tp1d_bs_bs_b256_d256_h512_v7x_i16_bf16_1_alg».proof.Proof.Bits.StateLemmas
import proofs.«900978_g7700000000000979_dist_mlpseq_tp1d_bs_bs_b256_d256_h512_v7x_i16_bf16_1_alg».proof.Proof.Bits.Phases
import proofs.«900978_g7700000000000979_dist_mlpseq_tp1d_bs_bs_b256_d256_h512_v7x_i16_bf16_1_alg».proof.Proof.Bits.StepsWait
import proofs.«900978_g7700000000000979_dist_mlpseq_tp1d_bs_bs_b256_d256_h512_v7x_i16_bf16_1_alg».proof.Proof.Bits.BodyPre
noncomputable section
namespace Cert.Kernel.PayForms
open Cert.Kernel Cert.Kernel.Gen Cert.Kernel.Vals Cert.Kernel.Cells Cert.Kernel.Sched Cert.Kernel.State Cert.Kernel.Dats Cert.Kernel.SchedTables Cert.Kernel.RingLaws Cert.Kernel.Phases Cert.Kernel.StepsWait Cert.Kernel.BodyPre
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## Index arithmetic -/

/-- Slot Fin.rev j of R holds the piece of copy index j + 1; reversing twice is the identity. -/
theorem rev_val (j : Fin 15) : 15 - (Fin.rev j).val = j.val + 1 := by
  have := j.isLt; rw [Fin.val_rev]; omega

/-! ## Chunk copies -/

/-- The receive side's payload: the slot holding the sender's chunk, and the landing slot of the piece to return. -/
theorem agRPay_eq (c : Dev nD) (j : Fin 15) (r : ℕ) :
    agRPay m c j r = iprop(xPts c (kOf j) fullShare (xfill c (kOf j) (chunkAt m r (prv c j))) ∗ dstR (F := F) c j r) := rfl
theorem agRPay_open (c : Dev nD) (j : Fin 15) (r : ℕ) :
    agRPay m c j r ⊢ iprop(xPts c (kOf j) fullShare (xfill c (kOf j) (chunkAt m r (prv c j))) ∗ dstR (F := F) c j r) :=
  Entails.of_eq (agRPay_eq m c j r)

/-- The send side's payload: the lent share of slot 0 of X. -/
theorem agSPay_eq (c : Dev nD) (j : Fin 15) (r : ℕ) :
    agSPay m c j r = xPts c 0 (lentSh j.val) (xfill c 0 (chunkAt m r c)) := rfl

/-! ## Piece copies -/

/-- The receive side's payload while another layer follows: the slot holding the piece, and the landing slot of the next chunk copy. -/
theorem rsRPay_eq (c : Dev nD) (j : Fin 15) (r : ℕ) (hr : r < 2) :
    rsRPay m c (Fin.rev j) r = iprop(rPts c (Fin.rev j) (rfill c (Fin.rev j) (pieceAt m r (nxt c j) (j.val + 1))) ∗ dstX (F := F) c j (r + 1)) := by
  unfold rsRPay dstX
  rw [rev_val, Fin.rev_rev, if_pos hr]
theorem rsRPay_open (c : Dev nD) (j : Fin 15) (r : ℕ) (hr : r < 2) :
    rsRPay m c (Fin.rev j) r ⊢ iprop(rPts c (Fin.rev j) (rfill c (Fin.rev j) (pieceAt m r (nxt c j) (j.val + 1))) ∗ dstX (F := F) c j (r + 1)) :=
  Entails.of_eq (rsRPay_eq m c j r hr)
theorem rsRPay_eq_last (c : Dev nD) (j : Fin 15) (r : ℕ) (hr : ¬ r < 2) :
    rsRPay m c (Fin.rev j) r = rPts c (Fin.rev j) (rfill c (Fin.rev j) (pieceAt m r (nxt c j) (j.val + 1))) := by
  unfold rsRPay
  rw [rev_val, if_neg hr]
  exact equiv_iff.mp sep_emp
theorem rsRPay_open_last (c : Dev nD) (j : Fin 15) (r : ℕ) (hr : ¬ r < 2) :
    rsRPay m c (Fin.rev j) r ⊢ rPts c (Fin.rev j) (rfill c (Fin.rev j) (pieceAt m r (nxt c j) (j.val + 1))) :=
  Entails.of_eq (rsRPay_eq_last m c j r hr)

/-- The send side's payload: slot j + 1 of P, holding the piece just sent. -/
theorem rsSPay_eq (c : Dev nD) (j : Fin 15) (r : ℕ) :
    rsSPay m c (Fin.rev j) r = pPts c (kOf j) (pfill c (kOf j) (pieceAt m r c (j.val + 1))) := by
  unfold rsSPay
  rw [rev_val, Fin.rev_rev]
theorem rsSPay_open (c : Dev nD) (j : Fin 15) (r : ℕ) :
    rsSPay m c (Fin.rev j) r ⊢ pPts c (kOf j) (pfill c (kOf j) (pieceAt m r c (j.val + 1))) :=
  Entails.of_eq (rsSPay_eq m c j r)

/-! ## The staging buffers at the one grid point -/

theorem before_0 (c : Dev nD) (d) : (dats m 0 c).before (0 : Fin 8) t₀ d = argX m c := by
  unfold Dat.before; rw [if_pos (show (cfg0.win 0).fetch t₀ = true from rfl)]
  show ((cfg0.win 0).blk t₀).view.read (Elt F) (m ((cfg0.win 0).arr.view.loc (c : Thread nD τ))) = m ((c.tc : Thread nD τ).loc main_arg0)
  exact Memref.read_access_unit_zero (Elt F) main_arg0 (off := fun a => (cfg0.win 0).index t₀ a * (cfg0.win 0).size a)
    (by funext a; revert a; decide) _ (m ((c.tc : Thread nD τ).loc main_arg0))
theorem before_1 (c : Dev nD) (d) : (dats m 0 c).before (1 : Fin 8) t₀ d = argWi m 0 c := by
  unfold Dat.before; rw [if_pos (show (cfg0.win 1).fetch t₀ = true from rfl)]
  show ((cfg0.win 1).blk t₀).view.read (Elt F) (m ((cfg0.win 1).arr.view.loc (c : Thread nD τ))) = m ((c.tc : Thread nD τ).loc main_arg1)
  exact Memref.read_access_unit_zero (Elt F) main_arg1 (off := fun a => (cfg0.win 1).index t₀ a * (cfg0.win 1).size a)
    (by funext a; revert a; decide) _ (m ((c.tc : Thread nD τ).loc main_arg1))
theorem before_2 (c : Dev nD) (d) : (dats m 0 c).before (2 : Fin 8) t₀ d = argWo m 0 c := by
  unfold Dat.before; rw [if_pos (show (cfg0.win 2).fetch t₀ = true from rfl)]
  show ((cfg0.win 2).blk t₀).view.read (Elt F) (m ((cfg0.win 2).arr.view.loc (c : Thread nD τ))) = m ((c.tc : Thread nD τ).loc main_arg2)
  exact Memref.read_access_unit_zero (Elt F) main_arg2 (off := fun a => (cfg0.win 2).index t₀ a * (cfg0.win 2).size a)
    (by funext a; revert a; decide) _ (m ((c.tc : Thread nD τ).loc main_arg2))
theorem before_3 (c : Dev nD) (d) : (dats m 0 c).before (3 : Fin 8) t₀ d = argWi m 1 c := by
  unfold Dat.before; rw [if_pos (show (cfg0.win 3).fetch t₀ = true from rfl)]
  show ((cfg0.win 3).blk t₀).view.read (Elt F) (m ((cfg0.win 3).arr.view.loc (c : Thread nD τ))) = m ((c.tc : Thread nD τ).loc main_arg3)
  exact Memref.read_access_unit_zero (Elt F) main_arg3 (off := fun a => (cfg0.win 3).index t₀ a * (cfg0.win 3).size a)
    (by funext a; revert a; decide) _ (m ((c.tc : Thread nD τ).loc main_arg3))
theorem before_4 (c : Dev nD) (d) : (dats m 0 c).before (4 : Fin 8) t₀ d = argWo m 1 c := by
  unfold Dat.before; rw [if_pos (show (cfg0.win 4).fetch t₀ = true from rfl)]
  show ((cfg0.win 4).blk t₀).view.read (Elt F) (m ((cfg0.win 4).arr.view.loc (c : Thread nD τ))) = m ((c.tc : Thread nD τ).loc main_arg4)
  exact Memref.read_access_unit_zero (Elt F) main_arg4 (off := fun a => (cfg0.win 4).index t₀ a * (cfg0.win 4).size a)
    (by funext a; revert a; decide) _ (m ((c.tc : Thread nD τ).loc main_arg4))
theorem before_5 (c : Dev nD) (d) : (dats m 0 c).before (5 : Fin 8) t₀ d = argWi m 2 c := by
  unfold Dat.before; rw [if_pos (show (cfg0.win 5).fetch t₀ = true from rfl)]
  show ((cfg0.win 5).blk t₀).view.read (Elt F) (m ((cfg0.win 5).arr.view.loc (c : Thread nD τ))) = m ((c.tc : Thread nD τ).loc main_arg5)
  exact Memref.read_access_unit_zero (Elt F) main_arg5 (off := fun a => (cfg0.win 5).index t₀ a * (cfg0.win 5).size a)
    (by funext a; revert a; decide) _ (m ((c.tc : Thread nD τ).loc main_arg5))
theorem before_6 (c : Dev nD) (d) : (dats m 0 c).before (6 : Fin 8) t₀ d = argWo m 2 c := by
  unfold Dat.before; rw [if_pos (show (cfg0.win 6).fetch t₀ = true from rfl)]
  show ((cfg0.win 6).blk t₀).view.read (Elt F) (m ((cfg0.win 6).arr.view.loc (c : Thread nD τ))) = m ((c.tc : Thread nD τ).loc main_arg6)
  exact Memref.read_access_unit_zero (Elt F) main_arg6 (off := fun a => (cfg0.win 6).index t₀ a * (cfg0.win 6).size a)
    (by funext a; revert a; decide) _ (m ((c.tc : Thread nD τ).loc main_arg6))
theorem after_7 (c : Dev nD) : (dats m 0 c).after (7 : Fin 8) t₀ = outAt m c := rfl

end Cert.Kernel.PayForms

/-- info: 'Cert.Kernel.PayForms.agRPay_open' depends on axioms: [propext, Classical.choice, Quot.sound] -/
#guard_msgs in #print axioms Cert.Kernel.PayForms.agRPay_open
/-- info: 'Cert.Kernel.PayForms.rsRPay_open' depends on axioms: [propext, Classical.choice, Quot.sound] -/
#guard_msgs in #print axioms Cert.Kernel.PayForms.rsRPay_open
/-- info: 'Cert.Kernel.PayForms.rsRPay_open_last' depends on axioms: [propext, Classical.choice, Quot.sound] -/
#guard_msgs in #print axioms Cert.Kernel.PayForms.rsRPay_open_last
/-- info: 'Cert.Kernel.PayForms.rsSPay_open' depends on axioms: [propext, Classical.choice, Quot.sound] -/
#guard_msgs in #print axioms Cert.Kernel.PayForms.rsSPay_open
/-- info: 'Cert.Kernel.PayForms.agSPay_eq' depends on axioms: [propext, Classical.choice, Quot.sound] -/
#guard_msgs in #print axioms Cert.Kernel.PayForms.agSPay_eq
/-- info: 'Cert.Kernel.PayForms.before_0' depends on axioms: [propext, Classical.choice, Quot.sound] -/
#guard_msgs in #print axioms Cert.Kernel.PayForms.before_0
/-- info: 'Cert.Kernel.PayForms.before_1' depends on axioms: [propext, Classical.choice, Quot.sound] -/
#guard_msgs in #print axioms Cert.Kernel.PayForms.before_1
/-- info: 'Cert.Kernel.PayForms.before_2' depends on axioms: [propext, Classical.choice, Quot.sound] -/
#guard_msgs in #print axioms Cert.Kernel.PayForms.before_2
/-- info: 'Cert.Kernel.PayForms.before_3' depends on axioms: [propext, Classical.choice, Quot.sound] -/
#guard_msgs in #print axioms Cert.Kernel.PayForms.before_3
/-- info: 'Cert.Kernel.PayForms.before_4' depends on axioms: [propext, Classical.choice, Quot.sound] -/
#guard_msgs in #print axioms Cert.Kernel.PayForms.before_4
/-- info: 'Cert.Kernel.PayForms.before_5' depends on axioms: [propext, Classical.choice, Quot.sound] -/
#guard_msgs in #print axioms Cert.Kernel.PayForms.before_5
/-- info: 'Cert.Kernel.PayForms.before_6' depends on axioms: [propext, Classical.choice, Quot.sound] -/
#guard_msgs in #print axioms Cert.Kernel.PayForms.before_6
/-- info: 'Cert.Kernel.PayForms.after_7' depends on axioms: [propext, Classical.choice, Quot.sound] -/
#guard_msgs in #print axioms Cert.Kernel.PayForms.after_7
end
-- ==== Proof.Bits.Exit.lean ====
/-
  The end of a device's body in one step: the slots of its three scratch buffers joined into the whole
  buffers, and its sixty transfer cells, all rounds consumed, closed with their counters at zero.
-/
import proofs.«900978_g7700000000000979_dist_mlpseq_tp1d_bs_bs_b256_d256_h512_v7x_i16_bf16_1_alg».proof.Proof.Bits.Dats
import proofs.«900978_g7700000000000979_dist_mlpseq_tp1d_bs_bs_b256_d256_h512_v7x_i16_bf16_1_alg».proof.Proof.Bits.SchedTables
import proofs.«900978_g7700000000000979_dist_mlpseq_tp1d_bs_bs_b256_d256_h512_v7x_i16_bf16_1_alg».proof.Proof.Bits.RingLaws
import proofs.«900978_g7700000000000979_dist_mlpseq_tp1d_bs_bs_b256_d256_h512_v7x_i16_bf16_1_alg».proof.Proof.Gen.Kernel.Skeleton
import proofs.«900978_g7700000000000979_dist_mlpseq_tp1d_bs_bs_b256_d256_h512_v7x_i16_bf16_1_alg».proof.Proof.Bits.StateLemmas
import proofs.«900978_g7700000000000979_dist_mlpseq_tp1d_bs_bs_b256_d256_h512_v7x_i16_bf16_1_alg».proof.Proof.Bits.Phases
import proofs.«900978_g7700000000000979_dist_mlpseq_tp1d_bs_bs_b256_d256_h512_v7x_i16_bf16_1_alg».proof.Proof.Bits.Open
import proofs.«900978_g7700000000000979_dist_mlpseq_tp1d_bs_bs_b256_d256_h512_v7x_i16_bf16_1_alg».proof.Proof.Bits.Slots
noncomputable section
namespace Cert.Kernel.Exit
open Cert.Kernel Cert.Kernel.Gen Cert.Kernel.Vals Cert.Kernel.Cells Cert.Kernel.Sched Cert.Kernel.State Cert.Kernel.Dats Cert.Kernel.SchedTables Cert.Kernel.RingLaws Cert.Kernel.Phases Cert.Kernel.Slots
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)
/-! ## The whole exit -/

/-- At the body's end, holding every slot of the three scratch buffers again and every copy index's bundles past the last
    layer: the buffers whole and the sixty transfer semaphores at zero, for the rest of the program. -/
theorem phi1_wp (K : GSem nD τ sig → ℕ) (c : Dev nD) {α : Type} {Q : α → sProp 𝕄} (e : Prog (TpuEff nD τ sig (Elt F) Λ₀ .tc) α) :
    iprop(Invs m K
        ∗ ((∃ f, xPts (F := F) c (0 : Fin 16) fullShare f) ∗ (∃ f, xPts (F := F) c (1 : Fin 16) fullShare f) ∗ (∃ f, xPts (F := F) c (2 : Fin 16) fullShare f) ∗ (∃ f, xPts (F := F) c (3 : Fin 16) fullShare f) ∗ (∃ f, xPts (F := F) c (4 : Fin 16) fullShare f) ∗ (∃ f, xPts (F := F) c (5 : Fin 16) fullShare f) ∗ (∃ f, xPts (F := F) c (6 : Fin 16) fullShare f) ∗ (∃ f, xPts (F := F) c (7 : Fin 16) fullShare f) ∗ (∃ f, xPts (F := F) c (8 : Fin 16) fullShare f) ∗ (∃ f, xPts (F := F) c (9 : Fin 16) fullShare f) ∗ (∃ f, xPts (F := F) c (10 : Fin 16) fullShare f) ∗ (∃ f, xPts (F := F) c (11 : Fin 16) fullShare f) ∗ (∃ f, xPts (F := F) c (12 : Fin 16) fullShare f) ∗ (∃ f, xPts (F := F) c (13 : Fin 16) fullShare f) ∗ (∃ f, xPts (F := F) c (14 : Fin 16) fullShare f) ∗ (∃ f, xPts (F := F) c (15 : Fin 16) fullShare f))
        ∗ ((∃ f, pPts (F := F) c (0 : Fin 16) f) ∗ (∃ f, pPts (F := F) c (1 : Fin 16) f) ∗ (∃ f, pPts (F := F) c (2 : Fin 16) f) ∗ (∃ f, pPts (F := F) c (3 : Fin 16) f) ∗ (∃ f, pPts (F := F) c (4 : Fin 16) f) ∗ (∃ f, pPts (F := F) c (5 : Fin 16) f) ∗ (∃ f, pPts (F := F) c (6 : Fin 16) f) ∗ (∃ f, pPts (F := F) c (7 : Fin 16) f) ∗ (∃ f, pPts (F := F) c (8 : Fin 16) f) ∗ (∃ f, pPts (F := F) c (9 : Fin 16) f) ∗ (∃ f, pPts (F := F) c (10 : Fin 16) f) ∗ (∃ f, pPts (F := F) c (11 : Fin 16) f) ∗ (∃ f, pPts (F := F) c (12 : Fin 16) f) ∗ (∃ f, pPts (F := F) c (13 : Fin 16) f) ∗ (∃ f, pPts (F := F) c (14 : Fin 16) f) ∗ (∃ f, pPts (F := F) c (15 : Fin 16) f))
        ∗ ((∃ f, rPts (F := F) c (0 : Fin 15) f) ∗ (∃ f, rPts (F := F) c (1 : Fin 15) f) ∗ (∃ f, rPts (F := F) c (2 : Fin 15) f) ∗ (∃ f, rPts (F := F) c (3 : Fin 15) f) ∗ (∃ f, rPts (F := F) c (4 : Fin 15) f) ∗ (∃ f, rPts (F := F) c (5 : Fin 15) f) ∗ (∃ f, rPts (F := F) c (6 : Fin 15) f) ∗ (∃ f, rPts (F := F) c (7 : Fin 15) f) ∗ (∃ f, rPts (F := F) c (8 : Fin 15) f) ∗ (∃ f, rPts (F := F) c (9 : Fin 15) f) ∗ (∃ f, rPts (F := F) c (10 : Fin 15) f) ∗ (∃ f, rPts (F := F) c (11 : Fin 15) f) ∗ (∃ f, rPts (F := F) c (12 : Fin 15) f) ∗ (∃ f, rPts (F := F) c (13 : Fin 15) f) ∗ (∃ f, rPts (F := F) c (14 : Fin 15) f))
        ∗ (sn (F := F) c (0 : Fin 15) 3 ∗ sn (F := F) c (1 : Fin 15) 3 ∗ sn (F := F) c (2 : Fin 15) 3 ∗ sn (F := F) c (3 : Fin 15) 3 ∗ sn (F := F) c (4 : Fin 15) 3 ∗ sn (F := F) c (5 : Fin 15) 3 ∗ sn (F := F) c (6 : Fin 15) 3 ∗ sn (F := F) c (7 : Fin 15) 3 ∗ sn (F := F) c (8 : Fin 15) 3 ∗ sn (F := F) c (9 : Fin 15) 3 ∗ sn (F := F) c (10 : Fin 15) 3 ∗ sn (F := F) c (11 : Fin 15) 3 ∗ sn (F := F) c (12 : Fin 15) 3 ∗ sn (F := F) c (13 : Fin 15) 3 ∗ sn (F := F) c (14 : Fin 15) 3)
        ∗ (rc (F := F) c (0 : Fin 15) 3 ∗ rc (F := F) c (1 : Fin 15) 3 ∗ rc (F := F) c (2 : Fin 15) 3 ∗ rc (F := F) c (3 : Fin 15) 3 ∗ rc (F := F) c (4 : Fin 15) 3 ∗ rc (F := F) c (5 : Fin 15) 3 ∗ rc (F := F) c (6 : Fin 15) 3 ∗ rc (F := F) c (7 : Fin 15) 3 ∗ rc (F := F) c (8 : Fin 15) 3 ∗ rc (F := F) c (9 : Fin 15) 3 ∗ rc (F := F) c (10 : Fin 15) 3 ∗ rc (F := F) c (11 : Fin 15) 3 ∗ rc (F := F) c (12 : Fin 15) 3 ∗ rc (F := F) c (13 : Fin 15) 3 ∗ rc (F := F) c (14 : Fin 15) 3))
      ⊢ iprop((Dats.Φ₁ (F := F) c -∗ wp frame (wpE (defs₀ (F := F)) 𝒱₀ c none) Set.univ e Q)
          -∗ wp frame (wpE (defs₀ (F := F)) 𝒱₀ c none) Set.univ e Q) := by
  iintro ⟨#HI, HX, HP, HR, Hs, Hr⟩ Hk
  ihave HX := (x_cut16 (F := F) c).2 $$ HX
  ihave HP := (p_cut16 (F := F) c).2 $$ HP
  ihave HR := (r_cut15 (F := F) c).2 $$ HR
  iapply (own_zero_wp m K c e) $$ [Hs Hr]
  · isplitr; · iexact HI
    isplitl [Hs]
    · rw [Open.bigSep_F15]; iexact Hs
    · rw [Open.bigSep_F15]; iexact Hr
  iintro Hz
  iapply Hk
  unfold Dats.Φ₁
  isplitl [HX]; · iexact HX
  isplitl [HP]; · iexact HP
  isplitl [HR]; · iexact HR
  iexact Hz

/-- Slot 0 of X whole again, the fifteen lent halves back. -/
theorem x_back15 (c : Dev nD) (f : Buf (Elt F) ((xslot 0).view.loc (c : Thread nD τ))) :
    iprop(xPts (F := F) c 0 (keepSh 15) f ∗ (xPts (F := F) c 0 (lentSh 0) f ∗ xPts (F := F) c 0 (lentSh 1) f ∗ xPts (F := F) c 0 (lentSh 2) f ∗ xPts (F := F) c 0 (lentSh 3) f ∗ xPts (F := F) c 0 (lentSh 4) f ∗ xPts (F := F) c 0 (lentSh 5) f ∗ xPts (F := F) c 0 (lentSh 6) f ∗ xPts (F := F) c 0 (lentSh 7) f ∗ xPts (F := F) c 0 (lentSh 8) f ∗ xPts (F := F) c 0 (lentSh 9) f ∗ xPts (F := F) c 0 (lentSh 10) f ∗ xPts (F := F) c 0 (lentSh 11) f ∗ xPts (F := F) c 0 (lentSh 12) f ∗ xPts (F := F) c 0 (lentSh 13) f ∗ xPts (F := F) c 0 (lentSh 14) f))
      ⊢ (xPts (F := F) c 0 fullShare f : sProp 𝕄) := by
  have h := (x_fifteen (F := F) c 0 f).2
  rw [Open.bigSep_F15] at h
  exact h

end Cert.Kernel.Exit

/-- info: 'Cert.Kernel.Exit.phi1_wp' depends on axioms: [propext, Classical.choice, Quot.sound] -/
#guard_msgs in #print axioms Cert.Kernel.Exit.phi1_wp
/-- info: 'Cert.Kernel.Exit.x_back15' depends on axioms: [propext, Classical.choice, Quot.sound] -/
#guard_msgs in #print axioms Cert.Kernel.Exit.x_back15

end
-- ==== Proof.Bits.Wins.lean ====
/-
  What the eight windows hold when the body of the one grid point ends.

  The grid has one point and every window's block is its whole array (all offsets are zero). The body leaves the
  seven argument blocks as it found them, so each input window ends holding the device's argument block, read
  through the whole array's view; the result window ends holding the last layer's sum of the sixteen pieces.
-/
import proofs.«900978_g7700000000000979_dist_mlpseq_tp1d_bs_bs_b256_d256_h512_v7x_i16_bf16_1_alg».proof.Proof.Bits.BodyPre
noncomputable section
namespace Cert.Kernel.Wins
open Cert.Kernel Cert.Kernel.Gen Cert.Kernel.Vals Cert.Kernel.Cells Cert.Kernel.Sched Cert.Kernel.State Cert.Kernel.Dats Cert.Kernel.BodyPre
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## The argument windows: the block is the whole array, untouched -/

theorem after_0 (c : Dev nD) : (dats m 0 c).after (0 : Fin 8) t₀ = argX m c := by
  show ((cfg0.win 0).blk t₀).view.read (Elt F) (m ((cfg0.win 0).arr.view.loc (c : Thread nD τ))) = m ((c.tc : Thread nD τ).loc main_arg0)
  exact Memref.read_access_unit_zero (Elt F) main_arg0 (off := fun a => (cfg0.win 0).index t₀ a * (cfg0.win 0).size a)
    (by funext a; revert a; decide) _ (m ((c.tc : Thread nD τ).loc main_arg0))
theorem after_1 (c : Dev nD) : (dats m 0 c).after (1 : Fin 8) t₀ = argWi m 0 c := by
  show ((cfg0.win 1).blk t₀).view.read (Elt F) (m ((cfg0.win 1).arr.view.loc (c : Thread nD τ))) = m ((c.tc : Thread nD τ).loc main_arg1)
  exact Memref.read_access_unit_zero (Elt F) main_arg1 (off := fun a => (cfg0.win 1).index t₀ a * (cfg0.win 1).size a)
    (by funext a; revert a; decide) _ (m ((c.tc : Thread nD τ).loc main_arg1))
theorem after_2 (c : Dev nD) : (dats m 0 c).after (2 : Fin 8) t₀ = argWo m 0 c := by
  show ((cfg0.win 2).blk t₀).view.read (Elt F) (m ((cfg0.win 2).arr.view.loc (c : Thread nD τ))) = m ((c.tc : Thread nD τ).loc main_arg2)
  exact Memref.read_access_unit_zero (Elt F) main_arg2 (off := fun a => (cfg0.win 2).index t₀ a * (cfg0.win 2).size a)
    (by funext a; revert a; decide) _ (m ((c.tc : Thread nD τ).loc main_arg2))
theorem after_3 (c : Dev nD) : (dats m 0 c).after (3 : Fin 8) t₀ = argWi m 1 c := by
  show ((cfg0.win 3).blk t₀).view.read (Elt F) (m ((cfg0.win 3).arr.view.loc (c : Thread nD τ))) = m ((c.tc : Thread nD τ).loc main_arg3)
  exact Memref.read_access_unit_zero (Elt F) main_arg3 (off := fun a => (cfg0.win 3).index t₀ a * (cfg0.win 3).size a)
    (by funext a; revert a; decide) _ (m ((c.tc : Thread nD τ).loc main_arg3))
theorem after_4 (c : Dev nD) : (dats m 0 c).after (4 : Fin 8) t₀ = argWo m 1 c := by
  show ((cfg0.win 4).blk t₀).view.read (Elt F) (m ((cfg0.win 4).arr.view.loc (c : Thread nD τ))) = m ((c.tc : Thread nD τ).loc main_arg4)
  exact Memref.read_access_unit_zero (Elt F) main_arg4 (off := fun a => (cfg0.win 4).index t₀ a * (cfg0.win 4).size a)
    (by funext a; revert a; decide) _ (m ((c.tc : Thread nD τ).loc main_arg4))
theorem after_5 (c : Dev nD) : (dats m 0 c).after (5 : Fin 8) t₀ = argWi m 2 c := by
  show ((cfg0.win 5).blk t₀).view.read (Elt F) (m ((cfg0.win 5).arr.view.loc (c : Thread nD τ))) = m ((c.tc : Thread nD τ).loc main_arg5)
  exact Memref.read_access_unit_zero (Elt F) main_arg5 (off := fun a => (cfg0.win 5).index t₀ a * (cfg0.win 5).size a)
    (by funext a; revert a; decide) _ (m ((c.tc : Thread nD τ).loc main_arg5))
theorem after_6 (c : Dev nD) : (dats m 0 c).after (6 : Fin 8) t₀ = argWo m 2 c := by
  show ((cfg0.win 6).blk t₀).view.read (Elt F) (m ((cfg0.win 6).arr.view.loc (c : Thread nD τ))) = m ((c.tc : Thread nD τ).loc main_arg6)
  exact Memref.read_access_unit_zero (Elt F) main_arg6 (off := fun a => (cfg0.win 6).index t₀ a * (cfg0.win 6).size a)
    (by funext a; revert a; decide) _ (m ((c.tc : Thread nD τ).loc main_arg6))

/-! ## The result window -/

theorem after_7 (c : Dev nD) : (dats m 0 c).after (7 : Fin 8) t₀ = outAt m c := rfl

/-- info: 'Cert.Kernel.Wins.after_0' depends on axioms: [propext, Classical.choice, Quot.sound] -/
#guard_msgs in #print axioms after_0
/-- info: 'Cert.Kernel.Wins.after_1' depends on axioms: [propext, Classical.choice, Quot.sound] -/
#guard_msgs in #print axioms after_1
/-- info: 'Cert.Kernel.Wins.after_2' depends on axioms: [propext, Classical.choice, Quot.sound] -/
#guard_msgs in #print axioms after_2
/-- info: 'Cert.Kernel.Wins.after_3' depends on axioms: [propext, Classical.choice, Quot.sound] -/
#guard_msgs in #print axioms after_3
/-- info: 'Cert.Kernel.Wins.after_4' depends on axioms: [propext, Classical.choice, Quot.sound] -/
#guard_msgs in #print axioms after_4
/-- info: 'Cert.Kernel.Wins.after_5' depends on axioms: [propext, Classical.choice, Quot.sound] -/
#guard_msgs in #print axioms after_5
/-- info: 'Cert.Kernel.Wins.after_6' depends on axioms: [propext, Classical.choice, Quot.sound] -/
#guard_msgs in #print axioms after_6
/-- info: 'Cert.Kernel.Wins.after_7' depends on axioms: [propext, Classical.choice, Quot.sound] -/
#guard_msgs in #print axioms after_7

end Cert.Kernel.Wins
end
-- ==== Proof.Bits.Pays.lean ====
/-
  The arithmetic between two memory operations of the program, group by group, is one of a few
  functions of the network.

  The program's text fuses the operations between memory operations into 122 payload functions, cut
  differently from group to group: in one group the two matrix products are one payload, in another the
  hidden layer is computed by one and multiplied by the next; a piece is rounded by one payload and its
  (same-shape) shape cast applied by the next. Every payload is named here through the functions of the
  value model: the rounding of a chunk and of the weight blocks, the hidden layer max(X·Wi, 0), the
  partial product of a group, its two halves, and the running sum of received pieces. A payload that is
  only an intermediate of one of these (the hidden layer already rounded, the first product before the
  maximum, a received piece already widened) is named through the payload that consumes it, at the
  argument the program feeds it.
-/
import proofs.«900978_g7700000000000979_dist_mlpseq_tp1d_bs_bs_b256_d256_h512_v7x_i16_bf16_1_alg».proof.Proof.Bits.Vals
import proofs.«900978_g7700000000000979_dist_mlpseq_tp1d_bs_bs_b256_d256_h512_v7x_i16_bf16_1_alg».proof.Proof.Gen.Kernel.Skeleton

noncomputable section

namespace Cert.Kernel.Pays

open Idealize.ShloMosaic Cert.Kernel Cert.Kernel.Gen Cert.Kernel.Vals

variable {F : FTy → Type} [FloatOps F]

/-! ## Rounding of the arguments -/

theorem pay1 (x : Vec F S256x256 .f32) :
    k0_pay1 x = toB x := rfl
theorem pay2 (w : Vec F S256x512 .f32) :
    k0_pay2 w = wiB w := rfl
theorem pay43 (w : Vec F S256x512 .f32) :
    k0_pay43 w = wiB w := rfl
theorem pay82 (w : Vec F S256x512 .f32) :
    k0_pay82 w = wiB w := rfl
theorem pay3 (w : Vec F S512x256 .f32) :
    k0_pay3 w = woB w := rfl
theorem pay44 (w : Vec F S512x256 .f32) :
    k0_pay44 w = woB w := rfl
theorem pay83 (w : Vec F S512x256 .f32) :
    k0_pay83 w = woB w := rfl

/-! ## The hidden layer and the partial product of a group -/

theorem pay7 (wi : FVec F S256x512 .bf16) (xg : Vec F S512x256 .bf16) :
    k0_pay7 wi xg = hid wi xg := rfl
/-- The second product applied to the hidden layer is the group's partial product. -/
theorem pay8_hid (wi : FVec F S256x512 .bf16) (wo : FVec F S512x256 .bf16) (xg : Vec F S512x256 .bf16) :
    k0_pay8 wo (hid wi xg) = pg wi wo xg := rfl
theorem pay4 (wi : Vec F S256x512 .f32) (wo : Vec F S512x256 .f32) (xg : Vec F S512x256 .bf16) :
    k0_pay4 wi wo xg = pg (wiB wi) (woB wo) xg := rfl
theorem pay11 (wi : FVec F S256x512 .bf16) (wo : FVec F S512x256 .bf16) (xg : Vec F S512x256 .bf16) :
    k0_pay11 wi wo xg = pg wi wo xg := rfl
theorem pay14 (wi : FVec F S256x512 .bf16) (wo : FVec F S512x256 .bf16) (xg : Vec F S512x256 .bf16) :
    k0_pay14 wi wo xg = pg wi wo xg := rfl
theorem pay17 (wi : FVec F S256x512 .bf16) (wo : FVec F S512x256 .bf16) (xg : Vec F S512x256 .bf16) :
    k0_pay17 wi wo xg = pg wi wo xg := rfl
theorem pay20 (wi : FVec F S256x512 .bf16) (wo : FVec F S512x256 .bf16) (xg : Vec F S512x256 .bf16) :
    k0_pay20 wi wo xg = pg wi wo xg := rfl
theorem pay24 (wi : FVec F S256x512 .bf16) (wo : FVec F S512x256 .bf16) (xg : Vec F S512x256 .bf16) :
    k0_pay24 wi wo xg = pg wi wo xg := rfl
theorem pay28 (wi : FVec F S256x512 .bf16) (wo : FVec F S512x256 .bf16) (xg : Vec F S512x256 .bf16) :
    k0_pay28 wi wo xg = pg wi wo xg := rfl
theorem pay45 (wi : FVec F S256x512 .bf16) (wo : FVec F S512x256 .bf16) (xg : Vec F S512x256 .bf16) :
    k0_pay45 wi wo xg = pg wi wo xg := rfl
theorem pay48 (wi : FVec F S256x512 .bf16) (wo : FVec F S512x256 .bf16) (xg : Vec F S512x256 .bf16) :
    k0_pay48 wi wo xg = pg wi wo xg := rfl
theorem pay51 (wi : FVec F S256x512 .bf16) (wo : FVec F S512x256 .bf16) (xg : Vec F S512x256 .bf16) :
    k0_pay51 wi wo xg = pg wi wo xg := rfl
theorem pay54 (wi : FVec F S256x512 .bf16) (wo : FVec F S512x256 .bf16) (xg : Vec F S512x256 .bf16) :
    k0_pay54 wi wo xg = pg wi wo xg := rfl
theorem pay57 (wi : FVec F S256x512 .bf16) (wo : FVec F S512x256 .bf16) (xg : Vec F S512x256 .bf16) :
    k0_pay57 wi wo xg = pg wi wo xg := rfl
theorem pay61 (wi : FVec F S256x512 .bf16) (wo : FVec F S512x256 .bf16) (xg : Vec F S512x256 .bf16) :
    k0_pay61 wi wo xg = pg wi wo xg := rfl
theorem pay64 (wi : FVec F S256x512 .bf16) (wo : FVec F S512x256 .bf16) (xg : Vec F S512x256 .bf16) :
    k0_pay64 wi wo xg = pg wi wo xg := rfl
theorem pay67 (wi : FVec F S256x512 .bf16) (wo : FVec F S512x256 .bf16) (xg : Vec F S512x256 .bf16) :
    k0_pay67 wi wo xg = pg wi wo xg := rfl
theorem pay92 (wi : FVec F S256x512 .bf16) (wo : FVec F S512x256 .bf16) (xg : Vec F S512x256 .bf16) :
    k0_pay92 wi wo xg = pg wi wo xg := rfl
theorem pay95 (wi : FVec F S256x512 .bf16) (wo : FVec F S512x256 .bf16) (xg : Vec F S512x256 .bf16) :
    k0_pay95 wi wo xg = pg wi wo xg := rfl
theorem pay98 (wi : FVec F S256x512 .bf16) (wo : FVec F S512x256 .bf16) (xg : Vec F S512x256 .bf16) :
    k0_pay98 wi wo xg = pg wi wo xg := rfl
theorem pay101 (wi : FVec F S256x512 .bf16) (wo : FVec F S512x256 .bf16) (xg : Vec F S512x256 .bf16) :
    k0_pay101 wi wo xg = pg wi wo xg := rfl
theorem pay105 (wi : FVec F S256x512 .bf16) (wo : FVec F S512x256 .bf16) (xg : Vec F S512x256 .bf16) :
    k0_pay105 wi wo xg = pg wi wo xg := rfl
theorem pay108 (wi : FVec F S256x512 .bf16) (wo : FVec F S512x256 .bf16) (xg : Vec F S512x256 .bf16) :
    k0_pay108 wi wo xg = pg wi wo xg := rfl
/-- The hidden layer, rounded by one payload, multiplied by the next. -/
theorem pay85_84 (w : Vec F S256x512 .f32) (wo : FVec F S512x256 .bf16) (xg : Vec F S512x256 .bf16) :
    k0_pay85 wo (k0_pay84 w xg) = pg (wiB w) wo xg := rfl
/-- The first product by one payload; the maximum with zero, the rounding and the second product by the next. -/
theorem pay89_88 (wi : FVec F S256x512 .bf16) (wo : FVec F S512x256 .bf16) (xg : Vec F S512x256 .bf16) :
    k0_pay89 wo (k0_pay88 wi xg) (Scalar.ofBits .f32 0x00000000#32) = pg wi wo xg := rfl

/-! ## The halves of a partial product -/

theorem pay5 (p : FVec F S512x256 .f32) :
    k0_pay5 p = loF p := rfl
theorem pay106 (p : FVec F S512x256 .f32) :
    k0_pay106 p = loB p := rfl
theorem pay6 (p : FVec F S512x256 .f32) :
    k0_pay6 p = hiB p := rfl
theorem pay13 (p : FVec F S512x256 .f32) :
    k0_pay13 p = hiB p := rfl
theorem pay16 (p : FVec F S512x256 .f32) :
    k0_pay16 p = hiB p := rfl
theorem pay19 (p : FVec F S512x256 .f32) :
    k0_pay19 p = hiB p := rfl
theorem pay27 (p : FVec F S512x256 .f32) :
    k0_pay27 p = hiB p := rfl
theorem pay30 (p : FVec F S512x256 .f32) :
    k0_pay30 p = hiB p := rfl
theorem pay50 (p : FVec F S512x256 .f32) :
    k0_pay50 p = hiB p := rfl
theorem pay53 (p : FVec F S512x256 .f32) :
    k0_pay53 p = hiB p := rfl
theorem pay60 (p : FVec F S512x256 .f32) :
    k0_pay60 p = hiB p := rfl
theorem pay63 (p : FVec F S512x256 .f32) :
    k0_pay63 p = hiB p := rfl
theorem pay66 (p : FVec F S512x256 .f32) :
    k0_pay66 p = hiB p := rfl
theorem pay69 (p : FVec F S512x256 .f32) :
    k0_pay69 p = hiB p := rfl
theorem pay94 (p : FVec F S512x256 .f32) :
    k0_pay94 p = hiB p := rfl
theorem pay97 (p : FVec F S512x256 .f32) :
    k0_pay97 p = hiB p := rfl
theorem pay100 (p : FVec F S512x256 .f32) :
    k0_pay100 p = hiB p := rfl
theorem pay107 (p : FVec F S512x256 .f32) :
    k0_pay107 p = hiB p := rfl
theorem pay110 (p : FVec F S512x256 .f32) :
    k0_pay110 p = hiB p := rfl

/-! ## The halves of a group's partial product, in one payload -/

theorem pay46 (wi : FVec F S256x512 .bf16) (wo : FVec F S512x256 .bf16) (xg : Vec F S512x256 .bf16) :
    k0_pay46 wi wo xg = loF (pg wi wo xg) := rfl
theorem pay12 (wi : FVec F S256x512 .bf16) (wo : FVec F S512x256 .bf16) (xg : Vec F S512x256 .bf16) :
    k0_pay12 wi wo xg = loB (pg wi wo xg) := rfl
theorem pay15 (wi : FVec F S256x512 .bf16) (wo : FVec F S512x256 .bf16) (xg : Vec F S512x256 .bf16) :
    k0_pay15 wi wo xg = loB (pg wi wo xg) := rfl
theorem pay18 (wi : FVec F S256x512 .bf16) (wo : FVec F S512x256 .bf16) (xg : Vec F S512x256 .bf16) :
    k0_pay18 wi wo xg = loB (pg wi wo xg) := rfl
theorem pay21 (wi : FVec F S256x512 .bf16) (wo : FVec F S512x256 .bf16) (xg : Vec F S512x256 .bf16) :
    k0_pay21 wi wo xg = loB (pg wi wo xg) := rfl
theorem pay29 (wi : FVec F S256x512 .bf16) (wo : FVec F S512x256 .bf16) (xg : Vec F S512x256 .bf16) :
    k0_pay29 wi wo xg = loB (pg wi wo xg) := rfl
theorem pay49 (wi : FVec F S256x512 .bf16) (wo : FVec F S512x256 .bf16) (xg : Vec F S512x256 .bf16) :
    k0_pay49 wi wo xg = loB (pg wi wo xg) := rfl
theorem pay52 (wi : FVec F S256x512 .bf16) (wo : FVec F S512x256 .bf16) (xg : Vec F S512x256 .bf16) :
    k0_pay52 wi wo xg = loB (pg wi wo xg) := rfl
theorem pay55 (wi : FVec F S256x512 .bf16) (wo : FVec F S512x256 .bf16) (xg : Vec F S512x256 .bf16) :
    k0_pay55 wi wo xg = loB (pg wi wo xg) := rfl
theorem pay62 (wi : FVec F S256x512 .bf16) (wo : FVec F S512x256 .bf16) (xg : Vec F S512x256 .bf16) :
    k0_pay62 wi wo xg = loB (pg wi wo xg) := rfl
theorem pay65 (wi : FVec F S256x512 .bf16) (wo : FVec F S512x256 .bf16) (xg : Vec F S512x256 .bf16) :
    k0_pay65 wi wo xg = loB (pg wi wo xg) := rfl
theorem pay68 (wi : FVec F S256x512 .bf16) (wo : FVec F S512x256 .bf16) (xg : Vec F S512x256 .bf16) :
    k0_pay68 wi wo xg = loB (pg wi wo xg) := rfl
theorem pay93 (wi : FVec F S256x512 .bf16) (wo : FVec F S512x256 .bf16) (xg : Vec F S512x256 .bf16) :
    k0_pay93 wi wo xg = loB (pg wi wo xg) := rfl
theorem pay96 (wi : FVec F S256x512 .bf16) (wo : FVec F S512x256 .bf16) (xg : Vec F S512x256 .bf16) :
    k0_pay96 wi wo xg = loB (pg wi wo xg) := rfl
theorem pay99 (wi : FVec F S256x512 .bf16) (wo : FVec F S512x256 .bf16) (xg : Vec F S512x256 .bf16) :
    k0_pay99 wi wo xg = loB (pg wi wo xg) := rfl
theorem pay102 (wi : FVec F S256x512 .bf16) (wo : FVec F S512x256 .bf16) (xg : Vec F S512x256 .bf16) :
    k0_pay102 wi wo xg = loB (pg wi wo xg) := rfl
theorem pay109 (wi : FVec F S256x512 .bf16) (wo : FVec F S512x256 .bf16) (xg : Vec F S512x256 .bf16) :
    k0_pay109 wi wo xg = loB (pg wi wo xg) := rfl
theorem pay47 (wi : FVec F S256x512 .bf16) (wo : FVec F S512x256 .bf16) (xg : Vec F S512x256 .bf16) :
    k0_pay47 wi wo xg = hiB (pg wi wo xg) := rfl
theorem pay56 (wi : FVec F S256x512 .bf16) (wo : FVec F S512x256 .bf16) (xg : Vec F S512x256 .bf16) :
    k0_pay56 wi wo xg = hiB (pg wi wo xg) := rfl
theorem pay9_hid (wi : FVec F S256x512 .bf16) (wo : FVec F S512x256 .bf16) (xg : Vec F S512x256 .bf16) :
    k0_pay9 wo (hid wi xg) = loB (pg wi wo xg) := rfl
theorem pay10_hid (wi : FVec F S256x512 .bf16) (wo : FVec F S512x256 .bf16) (xg : Vec F S512x256 .bf16) :
    k0_pay10 wo (hid wi xg) = hiB (pg wi wo xg) := rfl
theorem pay86_84 (w : Vec F S256x512 .f32) (wo : FVec F S512x256 .bf16) (xg : Vec F S512x256 .bf16) :
    k0_pay86 wo (k0_pay84 w xg) = loF (pg (wiB w) wo xg) := rfl
theorem pay87_84 (w : Vec F S256x512 .f32) (wo : FVec F S512x256 .bf16) (xg : Vec F S512x256 .bf16) :
    k0_pay87 wo (k0_pay84 w xg) = hiB (pg (wiB w) wo xg) := rfl
theorem pay90_88 (wi : FVec F S256x512 .bf16) (wo : FVec F S512x256 .bf16) (xg : Vec F S512x256 .bf16) :
    k0_pay90 wo (k0_pay88 wi xg) (Scalar.ofBits .f32 0x00000000#32) = loB (pg wi wo xg) := rfl
theorem pay91_88 (wi : FVec F S256x512 .bf16) (wo : FVec F S512x256 .bf16) (xg : Vec F S512x256 .bf16) :
    k0_pay91 wo (k0_pay88 wi xg) (Scalar.ofBits .f32 0x00000000#32) = hiB (pg wi wo xg) := rfl

/-! ## A half rounded by one payload, its same-shape cast applied by the next -/

/-- A shape cast to the same shape is the identity. -/
theorem cast_same (v : FVec F S256x256 .bf16) :
    shapeCast S256x256 v shapeCasts_S256x256_S256x256 = v :=
  funext fun i => congrArg v (Shape.reshapeEquiv_self _ i)
theorem pay23 (v : FVec F S256x256 .bf16) :
    k0_pay23 v = v := cast_same v
theorem pay26 (v : FVec F S256x256 .bf16) :
    k0_pay26 v = v := cast_same v
theorem pay59 (v : FVec F S256x256 .bf16) :
    k0_pay59 v = v := cast_same v
theorem pay104 (v : FVec F S256x256 .bf16) :
    k0_pay104 v = v := cast_same v
theorem pay23_22 (wi : FVec F S256x512 .bf16) (wo : FVec F S512x256 .bf16) (xg : Vec F S512x256 .bf16) :
    k0_pay23 (k0_pay22 wi wo xg) = hiB (pg wi wo xg) := rfl
theorem pay22 (wi : FVec F S256x512 .bf16) (wo : FVec F S512x256 .bf16) (xg : Vec F S512x256 .bf16) :
    k0_pay22 wi wo xg = hiB (pg wi wo xg) := (pay23 _).symm.trans (pay23_22 wi wo xg)
theorem pay104_103 (wi : FVec F S256x512 .bf16) (wo : FVec F S512x256 .bf16) (xg : Vec F S512x256 .bf16) :
    k0_pay104 (k0_pay103 wi wo xg) = hiB (pg wi wo xg) := rfl
theorem pay103 (wi : FVec F S256x512 .bf16) (wo : FVec F S512x256 .bf16) (xg : Vec F S512x256 .bf16) :
    k0_pay103 wi wo xg = hiB (pg wi wo xg) := (pay104 _).symm.trans (pay104_103 wi wo xg)
theorem pay26_25 (wi : FVec F S256x512 .bf16) (wo : FVec F S512x256 .bf16) (xg : Vec F S512x256 .bf16) :
    k0_pay26 (k0_pay25 wi wo xg) = loB (pg wi wo xg) := rfl
theorem pay25 (wi : FVec F S256x512 .bf16) (wo : FVec F S512x256 .bf16) (xg : Vec F S512x256 .bf16) :
    k0_pay25 wi wo xg = loB (pg wi wo xg) := (pay26 _).symm.trans (pay26_25 wi wo xg)
theorem pay59_58 (wi : FVec F S256x512 .bf16) (wo : FVec F S512x256 .bf16) (xg : Vec F S512x256 .bf16) :
    k0_pay59 (k0_pay58 wi wo xg) = loB (pg wi wo xg) := rfl
theorem pay58 (wi : FVec F S256x512 .bf16) (wo : FVec F S512x256 .bf16) (xg : Vec F S512x256 .bf16) :
    k0_pay58 wi wo xg = loB (pg wi wo xg) := (pay59 _).symm.trans (pay59_58 wi wo xg)

/-! ## The running sum of received pieces -/

theorem pay31 (a : FVec F S256x256 .f32) (r : Vec F S1x256x256 .bf16) :
    k0_pay31 a r = accS a r := rfl
theorem pay32 (a : FVec F S256x256 .f32) (r : Vec F S1x256x256 .bf16) :
    k0_pay32 a r = accS a r := rfl
theorem pay33 (a : FVec F S256x256 .f32) (r : Vec F S1x256x256 .bf16) :
    k0_pay33 a r = accS a r := rfl
theorem pay35 (a : FVec F S256x256 .f32) (r : Vec F S1x256x256 .bf16) :
    k0_pay35 a r = accS a r := rfl
theorem pay36 (a : FVec F S256x256 .f32) (r : Vec F S1x256x256 .bf16) :
    k0_pay36 a r = accS a r := rfl
theorem pay38 (a : FVec F S256x256 .f32) (r : Vec F S1x256x256 .bf16) :
    k0_pay38 a r = accS a r := rfl
theorem pay39 (a : FVec F S256x256 .f32) (r : Vec F S1x256x256 .bf16) :
    k0_pay39 a r = accS a r := rfl
theorem pay41 (a : FVec F S256x256 .f32) (r : Vec F S1x256x256 .bf16) :
    k0_pay41 a r = accS a r := rfl
theorem pay70 (a : FVec F S256x256 .f32) (r : Vec F S1x256x256 .bf16) :
    k0_pay70 a r = accS a r := rfl
theorem pay72 (a : FVec F S256x256 .f32) (r : Vec F S1x256x256 .bf16) :
    k0_pay72 a r = accS a r := rfl
theorem pay73 (a : FVec F S256x256 .f32) (r : Vec F S1x256x256 .bf16) :
    k0_pay73 a r = accS a r := rfl
theorem pay75 (a : FVec F S256x256 .f32) (r : Vec F S1x256x256 .bf16) :
    k0_pay75 a r = accS a r := rfl
theorem pay76 (a : FVec F S256x256 .f32) (r : Vec F S1x256x256 .bf16) :
    k0_pay76 a r = accS a r := rfl
theorem pay78 (a : FVec F S256x256 .f32) (r : Vec F S1x256x256 .bf16) :
    k0_pay78 a r = accS a r := rfl
theorem pay79 (a : FVec F S256x256 .f32) (r : Vec F S1x256x256 .bf16) :
    k0_pay79 a r = accS a r := rfl
theorem pay113 (a : FVec F S256x256 .f32) (r : Vec F S1x256x256 .bf16) :
    k0_pay113 a r = accS a r := rfl
theorem pay115 (a : FVec F S256x256 .f32) (r : Vec F S1x256x256 .bf16) :
    k0_pay115 a r = accS a r := rfl
theorem pay116 (a : FVec F S256x256 .f32) (r : Vec F S1x256x256 .bf16) :
    k0_pay116 a r = accS a r := rfl
theorem pay118 (a : FVec F S256x256 .f32) (r : Vec F S1x256x256 .bf16) :
    k0_pay118 a r = accS a r := rfl
theorem pay119 (a : FVec F S256x256 .f32) (r : Vec F S1x256x256 .bf16) :
    k0_pay119 a r = accS a r := rfl
theorem pay121 (a : FVec F S256x256 .f32) (r : Vec F S1x256x256 .bf16) :
    k0_pay121 a r = accS a r := rfl
theorem pay122 (a : FVec F S256x256 .f32) (r : Vec F S1x256x256 .bf16) :
    k0_pay122 a r = accS a r := rfl
theorem pay34 (a : FVec F S256x256 .f32) (r1 : Vec F S1x256x256 .bf16) (r2 : Vec F S1x256x256 .bf16) :
    k0_pay34 a r1 r2 = accS (accS a r1) r2 := rfl
theorem pay37 (a : FVec F S256x256 .f32) (r1 : Vec F S1x256x256 .bf16) (r2 : Vec F S1x256x256 .bf16) :
    k0_pay37 a r1 r2 = accS (accS a r1) r2 := rfl
theorem pay40 (a : FVec F S256x256 .f32) (r1 : Vec F S1x256x256 .bf16) (r2 : Vec F S1x256x256 .bf16) :
    k0_pay40 a r1 r2 = accS (accS a r1) r2 := rfl
theorem pay71 (a : FVec F S256x256 .f32) (r1 : Vec F S1x256x256 .bf16) (r2 : Vec F S1x256x256 .bf16) :
    k0_pay71 a r1 r2 = accS (accS a r1) r2 := rfl
theorem pay74 (a : FVec F S256x256 .f32) (r1 : Vec F S1x256x256 .bf16) (r2 : Vec F S1x256x256 .bf16) :
    k0_pay74 a r1 r2 = accS (accS a r1) r2 := rfl
theorem pay77 (a : FVec F S256x256 .f32) (r1 : Vec F S1x256x256 .bf16) (r2 : Vec F S1x256x256 .bf16) :
    k0_pay77 a r1 r2 = accS (accS a r1) r2 := rfl
theorem pay114 (a : FVec F S256x256 .f32) (r1 : Vec F S1x256x256 .bf16) (r2 : Vec F S1x256x256 .bf16) :
    k0_pay114 a r1 r2 = accS (accS a r1) r2 := rfl
theorem pay117 (a : FVec F S256x256 .f32) (r1 : Vec F S1x256x256 .bf16) (r2 : Vec F S1x256x256 .bf16) :
    k0_pay117 a r1 r2 = accS (accS a r1) r2 := rfl
theorem pay120 (a : FVec F S256x256 .f32) (r1 : Vec F S1x256x256 .bf16) (r2 : Vec F S1x256x256 .bf16) :
    k0_pay120 a r1 r2 = accS (accS a r1) r2 := rfl
theorem pay42 (a : FVec F S256x256 .f32) (r : Vec F S1x256x256 .bf16) :
    k0_pay42 a r = accB a r := rfl
/-- A received piece read as a two-axis vector by one payload, added by the next. -/
theorem pay81_80 (a : FVec F S256x256 .f32) (r1 r2 : Vec F S1x256x256 .bf16) :
    k0_pay81 a (k0_pay80 r1) r2 = accB (accS a r1) r2 := rfl
/-- A received piece widened by one payload, added by the next. -/
theorem pay112_111 (a : FVec F S256x256 .f32) (r1 r2 : Vec F S1x256x256 .bf16) :
    k0_pay112 a (k0_pay111 r1) r2 = accS (accS a r1) r2 := rfl

/-- info: 'Cert.Kernel.Pays.pay4' depends on axioms: [propext, Classical.choice, Quot.sound] -/
#guard_msgs in #print axioms pay4

/-- info: 'Cert.Kernel.Pays.pay22' depends on axioms: [propext, Classical.choice, Quot.sound] -/
#guard_msgs in #print axioms pay22

/-- info: 'Cert.Kernel.Pays.pay81_80' depends on axioms: [propext, Classical.choice, Quot.sound] -/
#guard_msgs in #print axioms pay81_80

/-- info: 'Cert.Kernel.Pays.pay112_111' depends on axioms: [propext, Classical.choice, Quot.sound] -/
#guard_msgs in #print axioms pay112_111

end Cert.Kernel.Pays

end
-- ==== Proof.Bits.ValForms.lean ====
/-
  The value model's recursion in the terms the program's loads and stores produce.

  The chunk a device holds at the start of a layer, the piece it returns for another device's chunk
  and its running sum of received pieces are defined by recursion over the layers. Here the
  recursion is unfolded once, at the places the program reads and writes: the partial product of a
  group is the two matrix products applied to the two stacked chunks of the devices 2g and 2g+1
  places before; a piece is the low or high half of that product, rounded; the running sum starts
  with the device's own low half kept wide and adds one received piece at a time; the next layer's
  chunk is the sum with the last piece, rounded; the result is that sum at the last layer, kept wide.
  Then, store by store, the value the program writes, as it nests its payloads over what its loads
  deliver, is one of these.
-/
import proofs.«900978_g7700000000000979_dist_mlpseq_tp1d_bs_bs_b256_d256_h512_v7x_i16_bf16_1_alg».proof.Proof.Bits.Vals
import proofs.«900978_g7700000000000979_dist_mlpseq_tp1d_bs_bs_b256_d256_h512_v7x_i16_bf16_1_alg».proof.Proof.Bits.Sched
import proofs.«900978_g7700000000000979_dist_mlpseq_tp1d_bs_bs_b256_d256_h512_v7x_i16_bf16_1_alg».proof.Proof.Bits.Dats
import proofs.«900978_g7700000000000979_dist_mlpseq_tp1d_bs_bs_b256_d256_h512_v7x_i16_bf16_1_alg».proof.Proof.Bits.Pays

noncomputable section

namespace Cert.Kernel.ValForms

open Idealize.ShloMosaic Cert.Kernel Cert.Kernel.Gen Cert.Kernel.Vals Cert.Kernel.Sched Cert.Kernel.Dats Cert.Kernel.Pays

variable {F : FTy → Type} [FloatOps F]
variable (m : (ℓ : Loc nD τ sig) → Buf (Elt F) ℓ)

/-! ## The recursion, unfolded once -/

/-- No step back on the ring is the device itself. -/
theorem bwd_zero (c : Dev nD) : bwd c 0 = c :=
  Fin.ext (by show (c.val + (16 - 0 % 16)) % 16 = c.val; have : c.val < 16 := c.isLt; omega)

/-- Device c's running sum at layer r after n received pieces. -/
abbrev accAt (r : ℕ) (c : Dev nD) (n : ℕ) : FVec F S256x256 .f32 := Vals.accTo (argX m) (argWi m) (argWo m) r c n

/-- Device c's partial product at layer r over the chunks of the devices 2g and 2g+1 places before it. -/
abbrev prodAt (r : ℕ) (c : Dev nD) (g : ℕ) : FVec F S512x256 .f32 :=
  Vals.pg (Vals.wiB (Vals.argWi m r c)) (Vals.woB (Vals.argWo m r c)) (Vals.cat (chunkAt m r (bwd c (2 * g))) (chunkAt m r (bwd c (2 * g + 1))))

/-- The partial product is the value model's. -/
theorem prodAt_eq (r : ℕ) (c : Dev nD) (g : ℕ) : prodAt m r c g = Vals.prod (argX m) (argWi m) (argWo m) r c g := rfl

/-- Group 0 stacks the device's own chunk on the chunk of the device one place before. -/
theorem prodAt_zero (r : ℕ) (c : Dev nD) :
    prodAt m r c 0 = Vals.pg (Vals.wiB (Vals.argWi m r c)) (Vals.woB (Vals.argWo m r c)) (Vals.cat (chunkAt m r c) (chunkAt m r (bwd c 1))) := by
  show Vals.pg _ _ (Vals.cat (chunkAt m r (bwd c (2 * 0))) (chunkAt m r (bwd c (2 * 0 + 1)))) = _
  rw [show 2 * 0 = 0 from rfl, bwd_zero]

/-- The first chunk is the device's block of the input, rounded. -/
theorem chunk0 (c : Dev nD) : chunkAt m 0 c = Vals.toB (Vals.argX m c) := rfl

/-- An odd piece is the high half of its group's product. -/
theorem piece_hi (r : ℕ) (c : Dev nD) (g : ℕ) : pieceAt m r c (2 * g + 1) = Vals.hiB (prodAt m r c g) := by
  show Vals.pieceOf (argWi m) (argWo m) (Vals.chunk (argX m) (argWi m) (argWo m) r) r c (2 * g + 1) = _
  unfold Vals.pieceOf
  rw [if_neg (by omega), show (2 * g + 1) / 2 = g by omega]
  rfl

/-- An even piece is the low half of its group's product. -/
theorem piece_lo (r : ℕ) (c : Dev nD) (g : ℕ) : pieceAt m r c (2 * g) = Vals.loB (prodAt m r c g) := by
  show Vals.pieceOf (argWi m) (argWo m) (Vals.chunk (argX m) (argWi m) (argWo m) r) r c (2 * g) = _
  unfold Vals.pieceOf
  rw [if_pos (by omega), show (2 * g) / 2 = g by omega]
  rfl

/-- The running sum starts with the device's own low half, kept wide. -/
theorem acc0 (r : ℕ) (c : Dev nD) : accAt m r c 0 = Vals.loF (prodAt m r c 0) := rfl

/-- One more received piece: after n + 1 pieces the sum holds the piece of the device n + 1 places after. -/
theorem acc_succ (r : ℕ) (c : Dev nD) (n : ℕ) :
    accAt m r c (n + 1) = Vals.accS (accAt m r c n) (Vals.lift3 (pieceAt m r (fwd c (n + 1)) (n + 1))) := rfl

/-- The next layer's chunk: the sum of fourteen pieces with the fifteenth added, rounded. -/
theorem chunk_succ (r : ℕ) (c : Dev nD) :
    chunkAt m (r + 1) c = Vals.accB (accAt m r c 14) (Vals.lift3 (pieceAt m r (fwd c 15) 15)) := rfl

/-- The result: the last layer's sum of fourteen pieces with the fifteenth added, kept wide. -/
theorem out_eq (c : Dev nD) :
    Dats.outAt m c = Vals.accS (accAt m 2 c 14) (Vals.lift3 (pieceAt m 2 (fwd c 15) 15)) := rfl

/-! ## Store by store

  The value each store of the program writes, nested over what the loads before it deliver: a weight block
  as the device's argument block, two stacked chunks of the chunk buffer, a received piece in its three-axis form. -/

/-- The first store into the chunk buffer: the device's block of the input, rounded. -/
theorem store_X_init (c : Dev nD) :
    k0_pay1 (Vals.argX m c) = chunkAt m 0 c := rfl

theorem store_P_0_1 (c : Dev nD) :
    k0_pay6 (k0_pay4 (Vals.argWi m 0 c) (Vals.argWo m 0 c) (Vals.cat (chunkAt m 0 c) (chunkAt m 0 (bwd c 1)))) = pieceAt m 0 c 1 := by
  rw [show pieceAt m 0 c 1 = Vals.hiB (prodAt m 0 c 0) from piece_hi m 0 c 0, prodAt_zero]; rfl

theorem store_P_0_2 (c : Dev nD) :
    k0_pay9 (k0_pay3 (Vals.argWo m 0 c)) (k0_pay7 (k0_pay2 (Vals.argWi m 0 c)) (Vals.cat (chunkAt m 0 (bwd c 2)) (chunkAt m 0 (bwd c 3)))) = pieceAt m 0 c 2 := (piece_lo m 0 c 1).symm

theorem store_P_0_3 (c : Dev nD) :
    k0_pay10 (k0_pay3 (Vals.argWo m 0 c)) (k0_pay7 (k0_pay2 (Vals.argWi m 0 c)) (Vals.cat (chunkAt m 0 (bwd c 2)) (chunkAt m 0 (bwd c 3)))) = pieceAt m 0 c 3 := (piece_hi m 0 c 1).symm

theorem store_P_0_4 (c : Dev nD) :
    k0_pay12 (k0_pay2 (Vals.argWi m 0 c)) (k0_pay3 (Vals.argWo m 0 c)) (Vals.cat (chunkAt m 0 (bwd c 4)) (chunkAt m 0 (bwd c 5))) = pieceAt m 0 c 4 := (piece_lo m 0 c 2).symm

theorem store_P_0_5 (c : Dev nD) :
    k0_pay13 (k0_pay11 (k0_pay2 (Vals.argWi m 0 c)) (k0_pay3 (Vals.argWo m 0 c)) (Vals.cat (chunkAt m 0 (bwd c 4)) (chunkAt m 0 (bwd c 5)))) = pieceAt m 0 c 5 := (piece_hi m 0 c 2).symm

theorem store_P_0_6 (c : Dev nD) :
    k0_pay15 (k0_pay2 (Vals.argWi m 0 c)) (k0_pay3 (Vals.argWo m 0 c)) (Vals.cat (chunkAt m 0 (bwd c 6)) (chunkAt m 0 (bwd c 7))) = pieceAt m 0 c 6 := (piece_lo m 0 c 3).symm

theorem store_P_0_7 (c : Dev nD) :
    k0_pay16 (k0_pay14 (k0_pay2 (Vals.argWi m 0 c)) (k0_pay3 (Vals.argWo m 0 c)) (Vals.cat (chunkAt m 0 (bwd c 6)) (chunkAt m 0 (bwd c 7)))) = pieceAt m 0 c 7 := (piece_hi m 0 c 3).symm

theorem store_P_0_8 (c : Dev nD) :
    k0_pay18 (k0_pay2 (Vals.argWi m 0 c)) (k0_pay3 (Vals.argWo m 0 c)) (Vals.cat (chunkAt m 0 (bwd c 8)) (chunkAt m 0 (bwd c 9))) = pieceAt m 0 c 8 := (piece_lo m 0 c 4).symm

theorem store_P_0_9 (c : Dev nD) :
    k0_pay19 (k0_pay17 (k0_pay2 (Vals.argWi m 0 c)) (k0_pay3 (Vals.argWo m 0 c)) (Vals.cat (chunkAt m 0 (bwd c 8)) (chunkAt m 0 (bwd c 9)))) = pieceAt m 0 c 9 := (piece_hi m 0 c 4).symm

theorem store_P_0_10 (c : Dev nD) :
    k0_pay21 (k0_pay2 (Vals.argWi m 0 c)) (k0_pay3 (Vals.argWo m 0 c)) (Vals.cat (chunkAt m 0 (bwd c 10)) (chunkAt m 0 (bwd c 11))) = pieceAt m 0 c 10 := (piece_lo m 0 c 5).symm

theorem store_P_0_11 (c : Dev nD) :
    k0_pay23 (k0_pay22 (k0_pay2 (Vals.argWi m 0 c)) (k0_pay3 (Vals.argWo m 0 c)) (Vals.cat (chunkAt m 0 (bwd c 10)) (chunkAt m 0 (bwd c 11)))) = pieceAt m 0 c 11 := (piece_hi m 0 c 5).symm

/-- The same store with its last payload, a same-shape cast, written out. -/
theorem store_P_0_11' (c : Dev nD) :
    shapeCast S256x256 (k0_pay22 (k0_pay2 (Vals.argWi m 0 c)) (k0_pay3 (Vals.argWo m 0 c)) (Vals.cat (chunkAt m 0 (bwd c 10)) (chunkAt m 0 (bwd c 11)))) shapeCasts_S256x256_S256x256 = pieceAt m 0 c 11 := store_P_0_11 m c

theorem store_P_0_12 (c : Dev nD) :
    k0_pay26 (k0_pay25 (k0_pay2 (Vals.argWi m 0 c)) (k0_pay3 (Vals.argWo m 0 c)) (Vals.cat (chunkAt m 0 (bwd c 12)) (chunkAt m 0 (bwd c 13)))) = pieceAt m 0 c 12 := (piece_lo m 0 c 6).symm

/-- The same store with its last payload, a same-shape cast, written out. -/
theorem store_P_0_12' (c : Dev nD) :
    shapeCast S256x256 (k0_pay25 (k0_pay2 (Vals.argWi m 0 c)) (k0_pay3 (Vals.argWo m 0 c)) (Vals.cat (chunkAt m 0 (bwd c 12)) (chunkAt m 0 (bwd c 13)))) shapeCasts_S256x256_S256x256 = pieceAt m 0 c 12 := store_P_0_12 m c

theorem store_P_0_13 (c : Dev nD) :
    k0_pay27 (k0_pay24 (k0_pay2 (Vals.argWi m 0 c)) (k0_pay3 (Vals.argWo m 0 c)) (Vals.cat (chunkAt m 0 (bwd c 12)) (chunkAt m 0 (bwd c 13)))) = pieceAt m 0 c 13 := (piece_hi m 0 c 6).symm

theorem store_P_0_14 (c : Dev nD) :
    k0_pay29 (k0_pay2 (Vals.argWi m 0 c)) (k0_pay3 (Vals.argWo m 0 c)) (Vals.cat (chunkAt m 0 (bwd c 14)) (chunkAt m 0 (bwd c 15))) = pieceAt m 0 c 14 := (piece_lo m 0 c 7).symm

theorem store_P_0_15 (c : Dev nD) :
    k0_pay30 (k0_pay28 (k0_pay2 (Vals.argWi m 0 c)) (k0_pay3 (Vals.argWo m 0 c)) (Vals.cat (chunkAt m 0 (bwd c 14)) (chunkAt m 0 (bwd c 15)))) = pieceAt m 0 c 15 := (piece_hi m 0 c 7).symm

/-- The store into the chunk buffer at the end of layer 0: the sum of the sixteen pieces, rounded. -/
theorem store_X_0 (c : Dev nD) :
    k0_pay42 (k0_pay41 (k0_pay40 (k0_pay39 (k0_pay38 (k0_pay37 (k0_pay36 (k0_pay35 (k0_pay34 (k0_pay33 (k0_pay32 (k0_pay31 (k0_pay5 (k0_pay4 (Vals.argWi m 0 c) (Vals.argWo m 0 c) (Vals.cat (chunkAt m 0 c) (chunkAt m 0 (bwd c 1))))) (Vals.lift3 (pieceAt m 0 (fwd c 1) 1))) (Vals.lift3 (pieceAt m 0 (fwd c 2) 2))) (Vals.lift3 (pieceAt m 0 (fwd c 3) 3))) (Vals.lift3 (pieceAt m 0 (fwd c 4) 4)) (Vals.lift3 (pieceAt m 0 (fwd c 5) 5))) (Vals.lift3 (pieceAt m 0 (fwd c 6) 6))) (Vals.lift3 (pieceAt m 0 (fwd c 7) 7))) (Vals.lift3 (pieceAt m 0 (fwd c 8) 8)) (Vals.lift3 (pieceAt m 0 (fwd c 9) 9))) (Vals.lift3 (pieceAt m 0 (fwd c 10) 10))) (Vals.lift3 (pieceAt m 0 (fwd c 11) 11))) (Vals.lift3 (pieceAt m 0 (fwd c 12) 12)) (Vals.lift3 (pieceAt m 0 (fwd c 13) 13))) (Vals.lift3 (pieceAt m 0 (fwd c 14) 14))) (Vals.lift3 (pieceAt m 0 (fwd c 15) 15)) = chunkAt m 1 c :=
  (show _ = (fun a : FVec F S256x256 .f32 => k0_pay42 (k0_pay41 (k0_pay40 (k0_pay39 (k0_pay38 (k0_pay37 (k0_pay36 (k0_pay35 (k0_pay34 (k0_pay33 (k0_pay32 (k0_pay31 a (Vals.lift3 (pieceAt m 0 (fwd c 1) 1))) (Vals.lift3 (pieceAt m 0 (fwd c 2) 2))) (Vals.lift3 (pieceAt m 0 (fwd c 3) 3))) (Vals.lift3 (pieceAt m 0 (fwd c 4) 4)) (Vals.lift3 (pieceAt m 0 (fwd c 5) 5))) (Vals.lift3 (pieceAt m 0 (fwd c 6) 6))) (Vals.lift3 (pieceAt m 0 (fwd c 7) 7))) (Vals.lift3 (pieceAt m 0 (fwd c 8) 8)) (Vals.lift3 (pieceAt m 0 (fwd c 9) 9))) (Vals.lift3 (pieceAt m 0 (fwd c 10) 10))) (Vals.lift3 (pieceAt m 0 (fwd c 11) 11))) (Vals.lift3 (pieceAt m 0 (fwd c 12) 12)) (Vals.lift3 (pieceAt m 0 (fwd c 13) 13))) (Vals.lift3 (pieceAt m 0 (fwd c 14) 14))) (Vals.lift3 (pieceAt m 0 (fwd c 15) 15))) (Vals.loF (Vals.pg (Vals.wiB (Vals.argWi m 0 c)) (Vals.woB (Vals.argWo m 0 c)) (Vals.cat (chunkAt m 0 c) (chunkAt m 0 (bwd c 1))))) from rfl).trans
    ((congrArg (fun a : FVec F S256x256 .f32 => k0_pay42 (k0_pay41 (k0_pay40 (k0_pay39 (k0_pay38 (k0_pay37 (k0_pay36 (k0_pay35 (k0_pay34 (k0_pay33 (k0_pay32 (k0_pay31 a (Vals.lift3 (pieceAt m 0 (fwd c 1) 1))) (Vals.lift3 (pieceAt m 0 (fwd c 2) 2))) (Vals.lift3 (pieceAt m 0 (fwd c 3) 3))) (Vals.lift3 (pieceAt m 0 (fwd c 4) 4)) (Vals.lift3 (pieceAt m 0 (fwd c 5) 5))) (Vals.lift3 (pieceAt m 0 (fwd c 6) 6))) (Vals.lift3 (pieceAt m 0 (fwd c 7) 7))) (Vals.lift3 (pieceAt m 0 (fwd c 8) 8)) (Vals.lift3 (pieceAt m 0 (fwd c 9) 9))) (Vals.lift3 (pieceAt m 0 (fwd c 10) 10))) (Vals.lift3 (pieceAt m 0 (fwd c 11) 11))) (Vals.lift3 (pieceAt m 0 (fwd c 12) 12)) (Vals.lift3 (pieceAt m 0 (fwd c 13) 13))) (Vals.lift3 (pieceAt m 0 (fwd c 14) 14))) (Vals.lift3 (pieceAt m 0 (fwd c 15) 15))) ((acc0 m 0 c).trans (congrArg Vals.loF (prodAt_zero m 0 c)))).symm.trans rfl)

theorem store_P_1_1 (c : Dev nD) :
    k0_pay47 (k0_pay43 (Vals.argWi m 1 c)) (k0_pay44 (Vals.argWo m 1 c)) (Vals.cat (chunkAt m 1 c) (chunkAt m 1 (bwd c 1))) = pieceAt m 1 c 1 := by
  rw [show pieceAt m 1 c 1 = Vals.hiB (prodAt m 1 c 0) from piece_hi m 1 c 0, prodAt_zero]; rfl

theorem store_P_1_2 (c : Dev nD) :
    k0_pay49 (k0_pay43 (Vals.argWi m 1 c)) (k0_pay44 (Vals.argWo m 1 c)) (Vals.cat (chunkAt m 1 (bwd c 2)) (chunkAt m 1 (bwd c 3))) = pieceAt m 1 c 2 := (piece_lo m 1 c 1).symm

theorem store_P_1_3 (c : Dev nD) :
    k0_pay50 (k0_pay48 (k0_pay43 (Vals.argWi m 1 c)) (k0_pay44 (Vals.argWo m 1 c)) (Vals.cat (chunkAt m 1 (bwd c 2)) (chunkAt m 1 (bwd c 3)))) = pieceAt m 1 c 3 := (piece_hi m 1 c 1).symm

theorem store_P_1_4 (c : Dev nD) :
    k0_pay52 (k0_pay43 (Vals.argWi m 1 c)) (k0_pay44 (Vals.argWo m 1 c)) (Vals.cat (chunkAt m 1 (bwd c 4)) (chunkAt m 1 (bwd c 5))) = pieceAt m 1 c 4 := (piece_lo m 1 c 2).symm

theorem store_P_1_5 (c : Dev nD) :
    k0_pay53 (k0_pay51 (k0_pay43 (Vals.argWi m 1 c)) (k0_pay44 (Vals.argWo m 1 c)) (Vals.cat (chunkAt m 1 (bwd c 4)) (chunkAt m 1 (bwd c 5)))) = pieceAt m 1 c 5 := (piece_hi m 1 c 2).symm

theorem store_P_1_6 (c : Dev nD) :
    k0_pay55 (k0_pay43 (Vals.argWi m 1 c)) (k0_pay44 (Vals.argWo m 1 c)) (Vals.cat (chunkAt m 1 (bwd c 6)) (chunkAt m 1 (bwd c 7))) = pieceAt m 1 c 6 := (piece_lo m 1 c 3).symm

theorem store_P_1_7 (c : Dev nD) :
    k0_pay56 (k0_pay43 (Vals.argWi m 1 c)) (k0_pay44 (Vals.argWo m 1 c)) (Vals.cat (chunkAt m 1 (bwd c 6)) (chunkAt m 1 (bwd c 7))) = pieceAt m 1 c 7 := (piece_hi m 1 c 3).symm

theorem store_P_1_8 (c : Dev nD) :
    k0_pay59 (k0_pay58 (k0_pay43 (Vals.argWi m 1 c)) (k0_pay44 (Vals.argWo m 1 c)) (Vals.cat (chunkAt m 1 (bwd c 8)) (chunkAt m 1 (bwd c 9)))) = pieceAt m 1 c 8 := (piece_lo m 1 c 4).symm

/-- The same store with its last payload, a same-shape cast, written out. -/
theorem store_P_1_8' (c : Dev nD) :
    shapeCast S256x256 (k0_pay58 (k0_pay43 (Vals.argWi m 1 c)) (k0_pay44 (Vals.argWo m 1 c)) (Vals.cat (chunkAt m 1 (bwd c 8)) (chunkAt m 1 (bwd c 9)))) shapeCasts_S256x256_S256x256 = pieceAt m 1 c 8 := store_P_1_8 m c

theorem store_P_1_9 (c : Dev nD) :
    k0_pay60 (k0_pay57 (k0_pay43 (Vals.argWi m 1 c)) (k0_pay44 (Vals.argWo m 1 c)) (Vals.cat (chunkAt m 1 (bwd c 8)) (chunkAt m 1 (bwd c 9)))) = pieceAt m 1 c 9 := (piece_hi m 1 c 4).symm

theorem store_P_1_10 (c : Dev nD) :
    k0_pay62 (k0_pay43 (Vals.argWi m 1 c)) (k0_pay44 (Vals.argWo m 1 c)) (Vals.cat (chunkAt m 1 (bwd c 10)) (chunkAt m 1 (bwd c 11))) = pieceAt m 1 c 10 := (piece_lo m 1 c 5).symm

theorem store_P_1_11 (c : Dev nD) :
    k0_pay63 (k0_pay61 (k0_pay43 (Vals.argWi m 1 c)) (k0_pay44 (Vals.argWo m 1 c)) (Vals.cat (chunkAt m 1 (bwd c 10)) (chunkAt m 1 (bwd c 11)))) = pieceAt m 1 c 11 := (piece_hi m 1 c 5).symm

theorem store_P_1_12 (c : Dev nD) :
    k0_pay65 (k0_pay43 (Vals.argWi m 1 c)) (k0_pay44 (Vals.argWo m 1 c)) (Vals.cat (chunkAt m 1 (bwd c 12)) (chunkAt m 1 (bwd c 13))) = pieceAt m 1 c 12 := (piece_lo m 1 c 6).symm

theorem store_P_1_13 (c : Dev nD) :
    k0_pay66 (k0_pay64 (k0_pay43 (Vals.argWi m 1 c)) (k0_pay44 (Vals.argWo m 1 c)) (Vals.cat (chunkAt m 1 (bwd c 12)) (chunkAt m 1 (bwd c 13)))) = pieceAt m 1 c 13 := (piece_hi m 1 c 6).symm

theorem store_P_1_14 (c : Dev nD) :
    k0_pay68 (k0_pay43 (Vals.argWi m 1 c)) (k0_pay44 (Vals.argWo m 1 c)) (Vals.cat (chunkAt m 1 (bwd c 14)) (chunkAt m 1 (bwd c 15))) = pieceAt m 1 c 14 := (piece_lo m 1 c 7).symm

theorem store_P_1_15 (c : Dev nD) :
    k0_pay69 (k0_pay67 (k0_pay43 (Vals.argWi m 1 c)) (k0_pay44 (Vals.argWo m 1 c)) (Vals.cat (chunkAt m 1 (bwd c 14)) (chunkAt m 1 (bwd c 15)))) = pieceAt m 1 c 15 := (piece_hi m 1 c 7).symm

/-- The store into the chunk buffer at the end of layer 1: the sum of the sixteen pieces, rounded. -/
theorem store_X_1 (c : Dev nD) :
    k0_pay81 (k0_pay79 (k0_pay78 (k0_pay77 (k0_pay76 (k0_pay75 (k0_pay74 (k0_pay73 (k0_pay72 (k0_pay71 (k0_pay70 (k0_pay46 (k0_pay43 (Vals.argWi m 1 c)) (k0_pay44 (Vals.argWo m 1 c)) (Vals.cat (chunkAt m 1 c) (chunkAt m 1 (bwd c 1)))) (Vals.lift3 (pieceAt m 1 (fwd c 1) 1))) (Vals.lift3 (pieceAt m 1 (fwd c 2) 2)) (Vals.lift3 (pieceAt m 1 (fwd c 3) 3))) (Vals.lift3 (pieceAt m 1 (fwd c 4) 4))) (Vals.lift3 (pieceAt m 1 (fwd c 5) 5))) (Vals.lift3 (pieceAt m 1 (fwd c 6) 6)) (Vals.lift3 (pieceAt m 1 (fwd c 7) 7))) (Vals.lift3 (pieceAt m 1 (fwd c 8) 8))) (Vals.lift3 (pieceAt m 1 (fwd c 9) 9))) (Vals.lift3 (pieceAt m 1 (fwd c 10) 10)) (Vals.lift3 (pieceAt m 1 (fwd c 11) 11))) (Vals.lift3 (pieceAt m 1 (fwd c 12) 12))) (Vals.lift3 (pieceAt m 1 (fwd c 13) 13))) (k0_pay80 (Vals.lift3 (pieceAt m 1 (fwd c 14) 14))) (Vals.lift3 (pieceAt m 1 (fwd c 15) 15)) = chunkAt m 2 c :=
  (show _ = (fun a : FVec F S256x256 .f32 => k0_pay81 (k0_pay79 (k0_pay78 (k0_pay77 (k0_pay76 (k0_pay75 (k0_pay74 (k0_pay73 (k0_pay72 (k0_pay71 (k0_pay70 a (Vals.lift3 (pieceAt m 1 (fwd c 1) 1))) (Vals.lift3 (pieceAt m 1 (fwd c 2) 2)) (Vals.lift3 (pieceAt m 1 (fwd c 3) 3))) (Vals.lift3 (pieceAt m 1 (fwd c 4) 4))) (Vals.lift3 (pieceAt m 1 (fwd c 5) 5))) (Vals.lift3 (pieceAt m 1 (fwd c 6) 6)) (Vals.lift3 (pieceAt m 1 (fwd c 7) 7))) (Vals.lift3 (pieceAt m 1 (fwd c 8) 8))) (Vals.lift3 (pieceAt m 1 (fwd c 9) 9))) (Vals.lift3 (pieceAt m 1 (fwd c 10) 10)) (Vals.lift3 (pieceAt m 1 (fwd c 11) 11))) (Vals.lift3 (pieceAt m 1 (fwd c 12) 12))) (Vals.lift3 (pieceAt m 1 (fwd c 13) 13))) (k0_pay80 (Vals.lift3 (pieceAt m 1 (fwd c 14) 14))) (Vals.lift3 (pieceAt m 1 (fwd c 15) 15))) (Vals.loF (Vals.pg (Vals.wiB (Vals.argWi m 1 c)) (Vals.woB (Vals.argWo m 1 c)) (Vals.cat (chunkAt m 1 c) (chunkAt m 1 (bwd c 1))))) from rfl).trans
    ((congrArg (fun a : FVec F S256x256 .f32 => k0_pay81 (k0_pay79 (k0_pay78 (k0_pay77 (k0_pay76 (k0_pay75 (k0_pay74 (k0_pay73 (k0_pay72 (k0_pay71 (k0_pay70 a (Vals.lift3 (pieceAt m 1 (fwd c 1) 1))) (Vals.lift3 (pieceAt m 1 (fwd c 2) 2)) (Vals.lift3 (pieceAt m 1 (fwd c 3) 3))) (Vals.lift3 (pieceAt m 1 (fwd c 4) 4))) (Vals.lift3 (pieceAt m 1 (fwd c 5) 5))) (Vals.lift3 (pieceAt m 1 (fwd c 6) 6)) (Vals.lift3 (pieceAt m 1 (fwd c 7) 7))) (Vals.lift3 (pieceAt m 1 (fwd c 8) 8))) (Vals.lift3 (pieceAt m 1 (fwd c 9) 9))) (Vals.lift3 (pieceAt m 1 (fwd c 10) 10)) (Vals.lift3 (pieceAt m 1 (fwd c 11) 11))) (Vals.lift3 (pieceAt m 1 (fwd c 12) 12))) (Vals.lift3 (pieceAt m 1 (fwd c 13) 13))) (k0_pay80 (Vals.lift3 (pieceAt m 1 (fwd c 14) 14))) (Vals.lift3 (pieceAt m 1 (fwd c 15) 15))) ((acc0 m 1 c).trans (congrArg Vals.loF (prodAt_zero m 1 c)))).symm.trans rfl)

theorem store_P_2_1 (c : Dev nD) :
    k0_pay87 (k0_pay83 (Vals.argWo m 2 c)) (k0_pay84 (Vals.argWi m 2 c) (Vals.cat (chunkAt m 2 c) (chunkAt m 2 (bwd c 1)))) = pieceAt m 2 c 1 := by
  rw [show pieceAt m 2 c 1 = Vals.hiB (prodAt m 2 c 0) from piece_hi m 2 c 0, prodAt_zero]; rfl

theorem store_P_2_2 (c : Dev nD) :
    k0_pay90 (k0_pay83 (Vals.argWo m 2 c)) (k0_pay88 (k0_pay82 (Vals.argWi m 2 c)) (Vals.cat (chunkAt m 2 (bwd c 2)) (chunkAt m 2 (bwd c 3)))) (Scalar.ofBits .f32 0x00000000#32) = pieceAt m 2 c 2 := (piece_lo m 2 c 1).symm

theorem store_P_2_3 (c : Dev nD) :
    k0_pay91 (k0_pay83 (Vals.argWo m 2 c)) (k0_pay88 (k0_pay82 (Vals.argWi m 2 c)) (Vals.cat (chunkAt m 2 (bwd c 2)) (chunkAt m 2 (bwd c 3)))) (Scalar.ofBits .f32 0x00000000#32) = pieceAt m 2 c 3 := (piece_hi m 2 c 1).symm

theorem store_P_2_4 (c : Dev nD) :
    k0_pay93 (k0_pay82 (Vals.argWi m 2 c)) (k0_pay83 (Vals.argWo m 2 c)) (Vals.cat (chunkAt m 2 (bwd c 4)) (chunkAt m 2 (bwd c 5))) = pieceAt m 2 c 4 := (piece_lo m 2 c 2).symm

theorem store_P_2_5 (c : Dev nD) :
    k0_pay94 (k0_pay92 (k0_pay82 (Vals.argWi m 2 c)) (k0_pay83 (Vals.argWo m 2 c)) (Vals.cat (chunkAt m 2 (bwd c 4)) (chunkAt m 2 (bwd c 5)))) = pieceAt m 2 c 5 := (piece_hi m 2 c 2).symm

theorem store_P_2_6 (c : Dev nD) :
    k0_pay96 (k0_pay82 (Vals.argWi m 2 c)) (k0_pay83 (Vals.argWo m 2 c)) (Vals.cat (chunkAt m 2 (bwd c 6)) (chunkAt m 2 (bwd c 7))) = pieceAt m 2 c 6 := (piece_lo m 2 c 3).symm

theorem store_P_2_7 (c : Dev nD) :
    k0_pay97 (k0_pay95 (k0_pay82 (Vals.argWi m 2 c)) (k0_pay83 (Vals.argWo m 2 c)) (Vals.cat (chunkAt m 2 (bwd c 6)) (chunkAt m 2 (bwd c 7)))) = pieceAt m 2 c 7 := (piece_hi m 2 c 3).symm

theorem store_P_2_8 (c : Dev nD) :
    k0_pay99 (k0_pay82 (Vals.argWi m 2 c)) (k0_pay83 (Vals.argWo m 2 c)) (Vals.cat (chunkAt m 2 (bwd c 8)) (chunkAt m 2 (bwd c 9))) = pieceAt m 2 c 8 := (piece_lo m 2 c 4).symm

theorem store_P_2_9 (c : Dev nD) :
    k0_pay100 (k0_pay98 (k0_pay82 (Vals.argWi m 2 c)) (k0_pay83 (Vals.argWo m 2 c)) (Vals.cat (chunkAt m 2 (bwd c 8)) (chunkAt m 2 (bwd c 9)))) = pieceAt m 2 c 9 := (piece_hi m 2 c 4).symm

theorem store_P_2_10 (c : Dev nD) :
    k0_pay102 (k0_pay82 (Vals.argWi m 2 c)) (k0_pay83 (Vals.argWo m 2 c)) (Vals.cat (chunkAt m 2 (bwd c 10)) (chunkAt m 2 (bwd c 11))) = pieceAt m 2 c 10 := (piece_lo m 2 c 5).symm

theorem store_P_2_11 (c : Dev nD) :
    k0_pay104 (k0_pay103 (k0_pay82 (Vals.argWi m 2 c)) (k0_pay83 (Vals.argWo m 2 c)) (Vals.cat (chunkAt m 2 (bwd c 10)) (chunkAt m 2 (bwd c 11)))) = pieceAt m 2 c 11 := (piece_hi m 2 c 5).symm

/-- The same store with its last payload, a same-shape cast, written out. -/
theorem store_P_2_11' (c : Dev nD) :
    shapeCast S256x256 (k0_pay103 (k0_pay82 (Vals.argWi m 2 c)) (k0_pay83 (Vals.argWo m 2 c)) (Vals.cat (chunkAt m 2 (bwd c 10)) (chunkAt m 2 (bwd c 11)))) shapeCasts_S256x256_S256x256 = pieceAt m 2 c 11 := store_P_2_11 m c

theorem store_P_2_12 (c : Dev nD) :
    k0_pay106 (k0_pay105 (k0_pay82 (Vals.argWi m 2 c)) (k0_pay83 (Vals.argWo m 2 c)) (Vals.cat (chunkAt m 2 (bwd c 12)) (chunkAt m 2 (bwd c 13)))) = pieceAt m 2 c 12 := (piece_lo m 2 c 6).symm

theorem store_P_2_13 (c : Dev nD) :
    k0_pay107 (k0_pay105 (k0_pay82 (Vals.argWi m 2 c)) (k0_pay83 (Vals.argWo m 2 c)) (Vals.cat (chunkAt m 2 (bwd c 12)) (chunkAt m 2 (bwd c 13)))) = pieceAt m 2 c 13 := (piece_hi m 2 c 6).symm

theorem store_P_2_14 (c : Dev nD) :
    k0_pay109 (k0_pay82 (Vals.argWi m 2 c)) (k0_pay83 (Vals.argWo m 2 c)) (Vals.cat (chunkAt m 2 (bwd c 14)) (chunkAt m 2 (bwd c 15))) = pieceAt m 2 c 14 := (piece_lo m 2 c 7).symm

theorem store_P_2_15 (c : Dev nD) :
    k0_pay110 (k0_pay108 (k0_pay82 (Vals.argWi m 2 c)) (k0_pay83 (Vals.argWo m 2 c)) (Vals.cat (chunkAt m 2 (bwd c 14)) (chunkAt m 2 (bwd c 15)))) = pieceAt m 2 c 15 := (piece_hi m 2 c 7).symm

/-- The store into the result: the last layer's sum of the sixteen pieces, kept wide. -/
theorem store_out (c : Dev nD) :
    k0_pay122 (k0_pay121 (k0_pay120 (k0_pay119 (k0_pay118 (k0_pay117 (k0_pay116 (k0_pay115 (k0_pay114 (k0_pay113 (k0_pay112 (k0_pay86 (k0_pay83 (Vals.argWo m 2 c)) (k0_pay84 (Vals.argWi m 2 c) (Vals.cat (chunkAt m 2 c) (chunkAt m 2 (bwd c 1))))) (k0_pay111 (Vals.lift3 (pieceAt m 2 (fwd c 1) 1))) (Vals.lift3 (pieceAt m 2 (fwd c 2) 2))) (Vals.lift3 (pieceAt m 2 (fwd c 3) 3))) (Vals.lift3 (pieceAt m 2 (fwd c 4) 4)) (Vals.lift3 (pieceAt m 2 (fwd c 5) 5))) (Vals.lift3 (pieceAt m 2 (fwd c 6) 6))) (Vals.lift3 (pieceAt m 2 (fwd c 7) 7))) (Vals.lift3 (pieceAt m 2 (fwd c 8) 8)) (Vals.lift3 (pieceAt m 2 (fwd c 9) 9))) (Vals.lift3 (pieceAt m 2 (fwd c 10) 10))) (Vals.lift3 (pieceAt m 2 (fwd c 11) 11))) (Vals.lift3 (pieceAt m 2 (fwd c 12) 12)) (Vals.lift3 (pieceAt m 2 (fwd c 13) 13))) (Vals.lift3 (pieceAt m 2 (fwd c 14) 14))) (Vals.lift3 (pieceAt m 2 (fwd c 15) 15)) = Dats.outAt m c :=
  (show _ = (fun a : FVec F S256x256 .f32 => k0_pay122 (k0_pay121 (k0_pay120 (k0_pay119 (k0_pay118 (k0_pay117 (k0_pay116 (k0_pay115 (k0_pay114 (k0_pay113 (k0_pay112 a (k0_pay111 (Vals.lift3 (pieceAt m 2 (fwd c 1) 1))) (Vals.lift3 (pieceAt m 2 (fwd c 2) 2))) (Vals.lift3 (pieceAt m 2 (fwd c 3) 3))) (Vals.lift3 (pieceAt m 2 (fwd c 4) 4)) (Vals.lift3 (pieceAt m 2 (fwd c 5) 5))) (Vals.lift3 (pieceAt m 2 (fwd c 6) 6))) (Vals.lift3 (pieceAt m 2 (fwd c 7) 7))) (Vals.lift3 (pieceAt m 2 (fwd c 8) 8)) (Vals.lift3 (pieceAt m 2 (fwd c 9) 9))) (Vals.lift3 (pieceAt m 2 (fwd c 10) 10))) (Vals.lift3 (pieceAt m 2 (fwd c 11) 11))) (Vals.lift3 (pieceAt m 2 (fwd c 12) 12)) (Vals.lift3 (pieceAt m 2 (fwd c 13) 13))) (Vals.lift3 (pieceAt m 2 (fwd c 14) 14))) (Vals.lift3 (pieceAt m 2 (fwd c 15) 15))) (Vals.loF (Vals.pg (Vals.wiB (Vals.argWi m 2 c)) (Vals.woB (Vals.argWo m 2 c)) (Vals.cat (chunkAt m 2 c) (chunkAt m 2 (bwd c 1))))) from rfl).trans
    ((congrArg (fun a : FVec F S256x256 .f32 => k0_pay122 (k0_pay121 (k0_pay120 (k0_pay119 (k0_pay118 (k0_pay117 (k0_pay116 (k0_pay115 (k0_pay114 (k0_pay113 (k0_pay112 a (k0_pay111 (Vals.lift3 (pieceAt m 2 (fwd c 1) 1))) (Vals.lift3 (pieceAt m 2 (fwd c 2) 2))) (Vals.lift3 (pieceAt m 2 (fwd c 3) 3))) (Vals.lift3 (pieceAt m 2 (fwd c 4) 4)) (Vals.lift3 (pieceAt m 2 (fwd c 5) 5))) (Vals.lift3 (pieceAt m 2 (fwd c 6) 6))) (Vals.lift3 (pieceAt m 2 (fwd c 7) 7))) (Vals.lift3 (pieceAt m 2 (fwd c 8) 8)) (Vals.lift3 (pieceAt m 2 (fwd c 9) 9))) (Vals.lift3 (pieceAt m 2 (fwd c 10) 10))) (Vals.lift3 (pieceAt m 2 (fwd c 11) 11))) (Vals.lift3 (pieceAt m 2 (fwd c 12) 12)) (Vals.lift3 (pieceAt m 2 (fwd c 13) 13))) (Vals.lift3 (pieceAt m 2 (fwd c 14) 14))) (Vals.lift3 (pieceAt m 2 (fwd c 15) 15))) ((acc0 m 2 c).trans (congrArg Vals.loF (prodAt_zero m 2 c)))).symm.trans rfl)

/-- info: 'Cert.Kernel.ValForms.store_P_0_1' depends on axioms: [propext, Classical.choice, Quot.sound] -/
#guard_msgs in #print axioms store_P_0_1

/-- info: 'Cert.Kernel.ValForms.store_X_1' depends on axioms: [propext, Classical.choice, Quot.sound] -/
#guard_msgs in #print axioms store_X_1

/-- info: 'Cert.Kernel.ValForms.store_out' depends on axioms: [propext, Classical.choice, Quot.sound] -/
#guard_msgs in #print axioms store_out

end Cert.Kernel.ValForms

end
-- ==== Proof.Bits.ReadWhole.lean ====
/-
  A load of a whole staging buffer reads the buffer's contents.

  Each of the eight staging buffers is loaded once, whole: through the rectangle of the buffer's own sizes at
  zero offsets. What such a load reads off contents f is f itself.
-/
import proofs.«900978_g7700000000000979_dist_mlpseq_tp1d_bs_bs_b256_d256_h512_v7x_i16_bf16_1_alg».proof.Proof.Bits.Cells
noncomputable section
namespace Cert.Kernel.ReadWhole
open Cert.Kernel Cert.Kernel.Gen Cert.Kernel.Vals Cert.Kernel.Cells
open Idealize.ShloMosaic
open Idealize.ShloMosaic.TcCoe
variable {F : FTy → Type} [FloatOps F]

theorem readAt_stg0 (f : (cc0_stg0_0 : Ref sig .tc).ty.Contents (Elt F)) :
    View.readAt (Elt F) (Memref.whole cc0_stg0_0).view (Rect.unit (s := S256x256) ![0, 0] S256x256.size inb_S256x256_S256x256_0_0).toLoadRect f = f :=
  Memref.readAt_unit_zero (Elt F) cc0_stg0_0 (by funext a; revert a; decide) _ f
theorem readAt_stg1 (f : (cc0_stg1_0 : Ref sig .tc).ty.Contents (Elt F)) :
    View.readAt (Elt F) (Memref.whole cc0_stg1_0).view (Rect.unit (s := S256x512) ![0, 0] S256x512.size inb_S256x512_S256x512_0_0).toLoadRect f = f :=
  Memref.readAt_unit_zero (Elt F) cc0_stg1_0 (by funext a; revert a; decide) _ f
theorem readAt_stg2 (f : (cc0_stg2_0 : Ref sig .tc).ty.Contents (Elt F)) :
    View.readAt (Elt F) (Memref.whole cc0_stg2_0).view (Rect.unit (s := S512x256) ![0, 0] S512x256.size inb_S512x256_S512x256_0_0).toLoadRect f = f :=
  Memref.readAt_unit_zero (Elt F) cc0_stg2_0 (by funext a; revert a; decide) _ f
theorem readAt_stg3 (f : (cc0_stg3_0 : Ref sig .tc).ty.Contents (Elt F)) :
    View.readAt (Elt F) (Memref.whole cc0_stg3_0).view (Rect.unit (s := S256x512) ![0, 0] S256x512.size inb_S256x512_S256x512_0_0).toLoadRect f = f :=
  Memref.readAt_unit_zero (Elt F) cc0_stg3_0 (by funext a; revert a; decide) _ f
theorem readAt_stg4 (f : (cc0_stg4_0 : Ref sig .tc).ty.Contents (Elt F)) :
    View.readAt (Elt F) (Memref.whole cc0_stg4_0).view (Rect.unit (s := S512x256) ![0, 0] S512x256.size inb_S512x256_S512x256_0_0).toLoadRect f = f :=
  Memref.readAt_unit_zero (Elt F) cc0_stg4_0 (by funext a; revert a; decide) _ f
theorem readAt_stg5 (f : (cc0_stg5_0 : Ref sig .tc).ty.Contents (Elt F)) :
    View.readAt (Elt F) (Memref.whole cc0_stg5_0).view (Rect.unit (s := S256x512) ![0, 0] S256x512.size inb_S256x512_S256x512_0_0).toLoadRect f = f :=
  Memref.readAt_unit_zero (Elt F) cc0_stg5_0 (by funext a; revert a; decide) _ f
theorem readAt_stg6 (f : (cc0_stg6_0 : Ref sig .tc).ty.Contents (Elt F)) :
    View.readAt (Elt F) (Memref.whole cc0_stg6_0).view (Rect.unit (s := S512x256) ![0, 0] S512x256.size inb_S512x256_S512x256_0_0).toLoadRect f = f :=
  Memref.readAt_unit_zero (Elt F) cc0_stg6_0 (by funext a; revert a; decide) _ f
theorem readAt_stg7 (f : (cc0_stg7_0 : Ref sig .tc).ty.Contents (Elt F)) :
    View.readAt (Elt F) (Memref.whole cc0_stg7_0).view (Rect.unit (s := S256x256) ![0, 0] S256x256.size inb_S256x256_S256x256_0_0).toLoadRect f = f :=
  Memref.readAt_unit_zero (Elt F) cc0_stg7_0 (by funext a; revert a; decide) _ f

/-! The same with the buffer's view and the sizes written out, the form a simplifier leaves the load in. -/

theorem readAt_stg0' (f : (cc0_stg0_0 : Ref sig .tc).ty.Contents (Elt F)) :
    View.readAt (Elt F) (View.whole cc0_stg0_0) (Rect.unit (s := S256x256) ![0, 0] ![256, 256] inb_S256x256_S256x256_0_0).toLoadRect f = f :=
  readAt_stg0 f
theorem readAt_stg1' (f : (cc0_stg1_0 : Ref sig .tc).ty.Contents (Elt F)) :
    View.readAt (Elt F) (View.whole cc0_stg1_0) (Rect.unit (s := S256x512) ![0, 0] ![256, 512] inb_S256x512_S256x512_0_0).toLoadRect f = f :=
  readAt_stg1 f
theorem readAt_stg2' (f : (cc0_stg2_0 : Ref sig .tc).ty.Contents (Elt F)) :
    View.readAt (Elt F) (View.whole cc0_stg2_0) (Rect.unit (s := S512x256) ![0, 0] ![512, 256] inb_S512x256_S512x256_0_0).toLoadRect f = f :=
  readAt_stg2 f
theorem readAt_stg3' (f : (cc0_stg3_0 : Ref sig .tc).ty.Contents (Elt F)) :
    View.readAt (Elt F) (View.whole cc0_stg3_0) (Rect.unit (s := S256x512) ![0, 0] ![256, 512] inb_S256x512_S256x512_0_0).toLoadRect f = f :=
  readAt_stg3 f
theorem readAt_stg4' (f : (cc0_stg4_0 : Ref sig .tc).ty.Contents (Elt F)) :
    View.readAt (Elt F) (View.whole cc0_stg4_0) (Rect.unit (s := S512x256) ![0, 0] ![512, 256] inb_S512x256_S512x256_0_0).toLoadRect f = f :=
  readAt_stg4 f
theorem readAt_stg5' (f : (cc0_stg5_0 : Ref sig .tc).ty.Contents (Elt F)) :
    View.readAt (Elt F) (View.whole cc0_stg5_0) (Rect.unit (s := S256x512) ![0, 0] ![256, 512] inb_S256x512_S256x512_0_0).toLoadRect f = f :=
  readAt_stg5 f
theorem readAt_stg6' (f : (cc0_stg6_0 : Ref sig .tc).ty.Contents (Elt F)) :
    View.readAt (Elt F) (View.whole cc0_stg6_0) (Rect.unit (s := S512x256) ![0, 0] ![512, 256] inb_S512x256_S512x256_0_0).toLoadRect f = f :=
  readAt_stg6 f
theorem readAt_stg7' (f : (cc0_stg7_0 : Ref sig .tc).ty.Contents (Elt F)) :
    View.readAt (Elt F) (View.whole cc0_stg7_0) (Rect.unit (s := S256x256) ![0, 0] ![256, 256] inb_S256x256_S256x256_0_0).toLoadRect f = f :=
  readAt_stg7 f

/-- info: 'Cert.Kernel.ReadWhole.readAt_stg0' depends on axioms: [propext, Classical.choice, Quot.sound] -/
#guard_msgs in #print axioms readAt_stg0
/-- info: 'Cert.Kernel.ReadWhole.readAt_stg1' depends on axioms: [propext, Classical.choice, Quot.sound] -/
#guard_msgs in #print axioms readAt_stg1
/-- info: 'Cert.Kernel.ReadWhole.readAt_stg2' depends on axioms: [propext, Classical.choice, Quot.sound] -/
#guard_msgs in #print axioms readAt_stg2
/-- info: 'Cert.Kernel.ReadWhole.readAt_stg3' depends on axioms: [propext, Classical.choice, Quot.sound] -/
#guard_msgs in #print axioms readAt_stg3
/-- info: 'Cert.Kernel.ReadWhole.readAt_stg4' depends on axioms: [propext, Classical.choice, Quot.sound] -/
#guard_msgs in #print axioms readAt_stg4
/-- info: 'Cert.Kernel.ReadWhole.readAt_stg5' depends on axioms: [propext, Classical.choice, Quot.sound] -/
#guard_msgs in #print axioms readAt_stg5
/-- info: 'Cert.Kernel.ReadWhole.readAt_stg6' depends on axioms: [propext, Classical.choice, Quot.sound] -/
#guard_msgs in #print axioms readAt_stg6
/-- info: 'Cert.Kernel.ReadWhole.readAt_stg7' depends on axioms: [propext, Classical.choice, Quot.sound] -/
#guard_msgs in #print axioms readAt_stg7

end Cert.Kernel.ReadWhole
end
-- ==== Proof.Bits.LoadStg.lean ====
/-
  The loads of the argument staging buffers, delivering the contents held.

  A staging buffer is held whole under a name of its own; a load of it through the rectangle of its own sizes at
  zero offsets continues at the contents themselves.
-/
import proofs.«900978_g7700000000000979_dist_mlpseq_tp1d_bs_bs_b256_d256_h512_v7x_i16_bf16_1_alg».proof.Proof.Bits.ReadWhole
import proofs.«900978_g7700000000000979_dist_mlpseq_tp1d_bs_bs_b256_d256_h512_v7x_i16_bf16_1_alg».proof.Proof.Bits.Dats
noncomputable section
namespace Cert.Kernel.LoadStg
open Cert.Kernel Cert.Kernel.Gen Cert.Kernel.Vals Cert.Kernel.Cells Cert.Kernel.Sched Cert.Kernel.State Cert.Kernel.Dats Cert.Kernel.ReadWhole
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ

/-- A whole buffer of device c held at contents X. -/
def held (c : Dev nD) (b : Ref sig .tc) (X : Buf (Elt F) ((Memref.whole b).view.loc (c : Thread nD τ))) : sProp 𝕄 :=
  ((Memref.whole b).view.loc (c : Thread nD τ) ↦[(Memref.whole b).view.set]{fullShare} X)

theorem held_eq (c : Dev nD) (b : Ref sig .tc) (X : Buf (Elt F) ((Memref.whole b).view.loc (c : Thread nD τ))) :
    held c b X = ((Memref.whole b).view.loc (c : Thread nD τ) ↦[(Memref.whole b).view.set]{fullShare} X : sProp 𝕄) := rfl

theorem loadStg0 (c : Dev nD) (X : Buf (Elt F) ((Memref.whole cc0_stg0_0).view.loc (c : Thread nD τ)))
    {hl : (Memref.whole cc0_stg0_0 : Memref sig .tc _ _ _).view.LoadsAt (Rect.unit (s := S256x256) ![0, 0] S256x256.size inb_S256x256_S256x256_0_0).toLoadRect}
    {α : Type} {Q : α → sProp 𝕄} {kk : Vec F S256x256 .f32 → Prog (TpuEff nD τ sig (Elt F) Λ₀ .tc) α} :
    held c cc0_stg0_0 X
      ⊢ iprop((held c cc0_stg0_0 X -∗ wp frame (wpE (defs₀ (F := F)) 𝒱₀ c none) Set.univ (kk X) Q)
          -∗ wp frame (wpE (defs₀ (F := F)) 𝒱₀ c none) Set.univ (.op (.load (Memref.whole cc0_stg0_0) (Rect.unit (s := S256x256) ![0, 0] S256x256.size inb_S256x256_S256x256_0_0).toLoadRect hl) kk) Q) := by
  unfold held
  have h := wp_load (defs := defs₀ (F := F)) 𝒱₀ (c : Thread nD τ) none (Γ := .empty) Set.univ (m := Memref.whole cc0_stg0_0)
    (r := (Rect.unit (s := S256x256) ![0, 0] S256x256.size inb_S256x256_S256x256_0_0).toLoadRect) (hl := hl) (k := kk) (Q := Q) (S := (Memref.whole cc0_stg0_0).view.set) (q := fullShare) (f := X)
    (View.setOn_subset_set _ _)
  rw [readAt_stg0] at h
  exact h
theorem loadStg1 (c : Dev nD) (X : Buf (Elt F) ((Memref.whole cc0_stg1_0).view.loc (c : Thread nD τ)))
    {hl : (Memref.whole cc0_stg1_0 : Memref sig .tc _ _ _).view.LoadsAt (Rect.unit (s := S256x512) ![0, 0] S256x512.size inb_S256x512_S256x512_0_0).toLoadRect}
    {α : Type} {Q : α → sProp 𝕄} {kk : Vec F S256x512 .f32 → Prog (TpuEff nD τ sig (Elt F) Λ₀ .tc) α} :
    held c cc0_stg1_0 X
      ⊢ iprop((held c cc0_stg1_0 X -∗ wp frame (wpE (defs₀ (F := F)) 𝒱₀ c none) Set.univ (kk X) Q)
          -∗ wp frame (wpE (defs₀ (F := F)) 𝒱₀ c none) Set.univ (.op (.load (Memref.whole cc0_stg1_0) (Rect.unit (s := S256x512) ![0, 0] S256x512.size inb_S256x512_S256x512_0_0).toLoadRect hl) kk) Q) := by
  unfold held
  have h := wp_load (defs := defs₀ (F := F)) 𝒱₀ (c : Thread nD τ) none (Γ := .empty) Set.univ (m := Memref.whole cc0_stg1_0)
    (r := (Rect.unit (s := S256x512) ![0, 0] S256x512.size inb_S256x512_S256x512_0_0).toLoadRect) (hl := hl) (k := kk) (Q := Q) (S := (Memref.whole cc0_stg1_0).view.set) (q := fullShare) (f := X)
    (View.setOn_subset_set _ _)
  rw [readAt_stg1] at h
  exact h
theorem loadStg2 (c : Dev nD) (X : Buf (Elt F) ((Memref.whole cc0_stg2_0).view.loc (c : Thread nD τ)))
    {hl : (Memref.whole cc0_stg2_0 : Memref sig .tc _ _ _).view.LoadsAt (Rect.unit (s := S512x256) ![0, 0] S512x256.size inb_S512x256_S512x256_0_0).toLoadRect}
    {α : Type} {Q : α → sProp 𝕄} {kk : Vec F S512x256 .f32 → Prog (TpuEff nD τ sig (Elt F) Λ₀ .tc) α} :
    held c cc0_stg2_0 X
      ⊢ iprop((held c cc0_stg2_0 X -∗ wp frame (wpE (defs₀ (F := F)) 𝒱₀ c none) Set.univ (kk X) Q)
          -∗ wp frame (wpE (defs₀ (F := F)) 𝒱₀ c none) Set.univ (.op (.load (Memref.whole cc0_stg2_0) (Rect.unit (s := S512x256) ![0, 0] S512x256.size inb_S512x256_S512x256_0_0).toLoadRect hl) kk) Q) := by
  unfold held
  have h := wp_load (defs := defs₀ (F := F)) 𝒱₀ (c : Thread nD τ) none (Γ := .empty) Set.univ (m := Memref.whole cc0_stg2_0)
    (r := (Rect.unit (s := S512x256) ![0, 0] S512x256.size inb_S512x256_S512x256_0_0).toLoadRect) (hl := hl) (k := kk) (Q := Q) (S := (Memref.whole cc0_stg2_0).view.set) (q := fullShare) (f := X)
    (View.setOn_subset_set _ _)
  rw [readAt_stg2] at h
  exact h
theorem loadStg3 (c : Dev nD) (X : Buf (Elt F) ((Memref.whole cc0_stg3_0).view.loc (c : Thread nD τ)))
    {hl : (Memref.whole cc0_stg3_0 : Memref sig .tc _ _ _).view.LoadsAt (Rect.unit (s := S256x512) ![0, 0] S256x512.size inb_S256x512_S256x512_0_0).toLoadRect}
    {α : Type} {Q : α → sProp 𝕄} {kk : Vec F S256x512 .f32 → Prog (TpuEff nD τ sig (Elt F) Λ₀ .tc) α} :
    held c cc0_stg3_0 X
      ⊢ iprop((held c cc0_stg3_0 X -∗ wp frame (wpE (defs₀ (F := F)) 𝒱₀ c none) Set.univ (kk X) Q)
          -∗ wp frame (wpE (defs₀ (F := F)) 𝒱₀ c none) Set.univ (.op (.load (Memref.whole cc0_stg3_0) (Rect.unit (s := S256x512) ![0, 0] S256x512.size inb_S256x512_S256x512_0_0).toLoadRect hl) kk) Q) := by
  unfold held
  have h := wp_load (defs := defs₀ (F := F)) 𝒱₀ (c : Thread nD τ) none (Γ := .empty) Set.univ (m := Memref.whole cc0_stg3_0)
    (r := (Rect.unit (s := S256x512) ![0, 0] S256x512.size inb_S256x512_S256x512_0_0).toLoadRect) (hl := hl) (k := kk) (Q := Q) (S := (Memref.whole cc0_stg3_0).view.set) (q := fullShare) (f := X)
    (View.setOn_subset_set _ _)
  rw [readAt_stg3] at h
  exact h
theorem loadStg4 (c : Dev nD) (X : Buf (Elt F) ((Memref.whole cc0_stg4_0).view.loc (c : Thread nD τ)))
    {hl : (Memref.whole cc0_stg4_0 : Memref sig .tc _ _ _).view.LoadsAt (Rect.unit (s := S512x256) ![0, 0] S512x256.size inb_S512x256_S512x256_0_0).toLoadRect}
    {α : Type} {Q : α → sProp 𝕄} {kk : Vec F S512x256 .f32 → Prog (TpuEff nD τ sig (Elt F) Λ₀ .tc) α} :
    held c cc0_stg4_0 X
      ⊢ iprop((held c cc0_stg4_0 X -∗ wp frame (wpE (defs₀ (F := F)) 𝒱₀ c none) Set.univ (kk X) Q)
          -∗ wp frame (wpE (defs₀ (F := F)) 𝒱₀ c none) Set.univ (.op (.load (Memref.whole cc0_stg4_0) (Rect.unit (s := S512x256) ![0, 0] S512x256.size inb_S512x256_S512x256_0_0).toLoadRect hl) kk) Q) := by
  unfold held
  have h := wp_load (defs := defs₀ (F := F)) 𝒱₀ (c : Thread nD τ) none (Γ := .empty) Set.univ (m := Memref.whole cc0_stg4_0)
    (r := (Rect.unit (s := S512x256) ![0, 0] S512x256.size inb_S512x256_S512x256_0_0).toLoadRect) (hl := hl) (k := kk) (Q := Q) (S := (Memref.whole cc0_stg4_0).view.set) (q := fullShare) (f := X)
    (View.setOn_subset_set _ _)
  rw [readAt_stg4] at h
  exact h
theorem loadStg5 (c : Dev nD) (X : Buf (Elt F) ((Memref.whole cc0_stg5_0).view.loc (c : Thread nD τ)))
    {hl : (Memref.whole cc0_stg5_0 : Memref sig .tc _ _ _).view.LoadsAt (Rect.unit (s := S256x512) ![0, 0] S256x512.size inb_S256x512_S256x512_0_0).toLoadRect}
    {α : Type} {Q : α → sProp 𝕄} {kk : Vec F S256x512 .f32 → Prog (TpuEff nD τ sig (Elt F) Λ₀ .tc) α} :
    held c cc0_stg5_0 X
      ⊢ iprop((held c cc0_stg5_0 X -∗ wp frame (wpE (defs₀ (F := F)) 𝒱₀ c none) Set.univ (kk X) Q)
          -∗ wp frame (wpE (defs₀ (F := F)) 𝒱₀ c none) Set.univ (.op (.load (Memref.whole cc0_stg5_0) (Rect.unit (s := S256x512) ![0, 0] S256x512.size inb_S256x512_S256x512_0_0).toLoadRect hl) kk) Q) := by
  unfold held
  have h := wp_load (defs := defs₀ (F := F)) 𝒱₀ (c : Thread nD τ) none (Γ := .empty) Set.univ (m := Memref.whole cc0_stg5_0)
    (r := (Rect.unit (s := S256x512) ![0, 0] S256x512.size inb_S256x512_S256x512_0_0).toLoadRect) (hl := hl) (k := kk) (Q := Q) (S := (Memref.whole cc0_stg5_0).view.set) (q := fullShare) (f := X)
    (View.setOn_subset_set _ _)
  rw [readAt_stg5] at h
  exact h
theorem loadStg6 (c : Dev nD) (X : Buf (Elt F) ((Memref.whole cc0_stg6_0).view.loc (c : Thread nD τ)))
    {hl : (Memref.whole cc0_stg6_0 : Memref sig .tc _ _ _).view.LoadsAt (Rect.unit (s := S512x256) ![0, 0] S512x256.size inb_S512x256_S512x256_0_0).toLoadRect}
    {α : Type} {Q : α → sProp 𝕄} {kk : Vec F S512x256 .f32 → Prog (TpuEff nD τ sig (Elt F) Λ₀ .tc) α} :
    held c cc0_stg6_0 X
      ⊢ iprop((held c cc0_stg6_0 X -∗ wp frame (wpE (defs₀ (F := F)) 𝒱₀ c none) Set.univ (kk X) Q)
          -∗ wp frame (wpE (defs₀ (F := F)) 𝒱₀ c none) Set.univ (.op (.load (Memref.whole cc0_stg6_0) (Rect.unit (s := S512x256) ![0, 0] S512x256.size inb_S512x256_S512x256_0_0).toLoadRect hl) kk) Q) := by
  unfold held
  have h := wp_load (defs := defs₀ (F := F)) 𝒱₀ (c : Thread nD τ) none (Γ := .empty) Set.univ (m := Memref.whole cc0_stg6_0)
    (r := (Rect.unit (s := S512x256) ![0, 0] S512x256.size inb_S512x256_S512x256_0_0).toLoadRect) (hl := hl) (k := kk) (Q := Q) (S := (Memref.whole cc0_stg6_0).view.set) (q := fullShare) (f := X)
    (View.setOn_subset_set _ _)
  rw [readAt_stg6] at h
  exact h
theorem loadStg7 (c : Dev nD) (X : Buf (Elt F) ((Memref.whole cc0_stg7_0).view.loc (c : Thread nD τ)))
    {hl : (Memref.whole cc0_stg7_0 : Memref sig .tc _ _ _).view.LoadsAt (Rect.unit (s := S256x256) ![0, 0] S256x256.size inb_S256x256_S256x256_0_0).toLoadRect}
    {α : Type} {Q : α → sProp 𝕄} {kk : Vec F S256x256 .f32 → Prog (TpuEff nD τ sig (Elt F) Λ₀ .tc) α} :
    held c cc0_stg7_0 X
      ⊢ iprop((held c cc0_stg7_0 X -∗ wp frame (wpE (defs₀ (F := F)) 𝒱₀ c none) Set.univ (kk X) Q)
          -∗ wp frame (wpE (defs₀ (F := F)) 𝒱₀ c none) Set.univ (.op (.load (Memref.whole cc0_stg7_0) (Rect.unit (s := S256x256) ![0, 0] S256x256.size inb_S256x256_S256x256_0_0).toLoadRect hl) kk) Q) := by
  unfold held
  have h := wp_load (defs := defs₀ (F := F)) 𝒱₀ (c : Thread nD τ) none (Γ := .empty) Set.univ (m := Memref.whole cc0_stg7_0)
    (r := (Rect.unit (s := S256x256) ![0, 0] S256x256.size inb_S256x256_S256x256_0_0).toLoadRect) (hl := hl) (k := kk) (Q := Q) (S := (Memref.whole cc0_stg7_0).view.set) (q := fullShare) (f := X)
    (View.setOn_subset_set _ _)
  rw [readAt_stg7] at h
  exact h

/-- The store of the result into its staging buffer: the buffer then holds the stored value. -/
theorem storeStg7 (c : Dev nD) (X : Buf (Elt F) ((Memref.whole cc0_stg7_0).view.loc (c : Thread nD τ))) (v : Vec F S256x256 .f32)
    {hx : ((Memref.whole cc0_stg7_0 : Memref sig .tc _ _ _).access (Rect.unit (s := S256x256) ![0, 0] S256x256.size inb_S256x256_S256x256_0_0)).Stores Finset.univ}
    {hm : (Finset.univ : Finset (Rect.unit (s := S256x256) ![0, 0] S256x256.size inb_S256x256_S256x256_0_0).shape.Idx) = Finset.univ ∨ ∀ a, (Rect.unit (s := S256x256) ![0, 0] S256x256.size inb_S256x256_S256x256_0_0).stride a = 1}
    {α : Type} {Q : α → sProp 𝕄} {kk : PUnit → Prog (TpuEff nD τ sig (Elt F) Λ₀ .tc) α} :
    held c cc0_stg7_0 X
      ⊢ iprop((held c cc0_stg7_0 v -∗ wp frame (wpE (defs₀ (F := F)) 𝒱₀ c none) Set.univ (kk ⟨⟩) Q)
          -∗ wp frame (wpE (defs₀ (F := F)) 𝒱₀ c none) Set.univ (.op (.store (Memref.whole cc0_stg7_0) (Rect.unit (s := S256x256) ![0, 0] S256x256.size inb_S256x256_S256x256_0_0) v Finset.univ hx hm) kk) Q) := by
  unfold held
  have h := wp_store (defs := defs₀ (F := F)) 𝒱₀ (c : Thread nD τ) none (Γ := .empty) Set.univ (m := Memref.whole cc0_stg7_0)
    (r := (Rect.unit (s := S256x256) ![0, 0] S256x256.size inb_S256x256_S256x256_0_0)) (w := v) (Mk := Finset.univ) (hx := hx) (hm := hm) (k := kk) (Q := Q)
    (S := (Memref.whole cc0_stg7_0).view.set) (f := X) (View.set_slice_subset _ _)
  have e : ((Memref.whole cc0_stg7_0 : Memref sig .tc _ _ _).access (Rect.unit (s := S256x256) ![0, 0] S256x256.size inb_S256x256_S256x256_0_0)).write (Elt F) X v Finset.univ = v :=
    Memref.write_access_unit_zero_univ (Elt F) cc0_stg7_0 (by funext a; revert a; decide) _ X v
  rw [e] at h
  exact h

/-- info: 'Cert.Kernel.LoadStg.loadStg0' depends on axioms: [propext, Classical.choice, Quot.sound] -/
#guard_msgs in #print axioms loadStg0
/-- info: 'Cert.Kernel.LoadStg.loadStg1' depends on axioms: [propext, Classical.choice, Quot.sound] -/
#guard_msgs in #print axioms loadStg1
/-- info: 'Cert.Kernel.LoadStg.loadStg2' depends on axioms: [propext, Classical.choice, Quot.sound] -/
#guard_msgs in #print axioms loadStg2
/-- info: 'Cert.Kernel.LoadStg.loadStg3' depends on axioms: [propext, Classical.choice, Quot.sound] -/
#guard_msgs in #print axioms loadStg3
/-- info: 'Cert.Kernel.LoadStg.loadStg4' depends on axioms: [propext, Classical.choice, Quot.sound] -/
#guard_msgs in #print axioms loadStg4
/-- info: 'Cert.Kernel.LoadStg.loadStg5' depends on axioms: [propext, Classical.choice, Quot.sound] -/
#guard_msgs in #print axioms loadStg5
/-- info: 'Cert.Kernel.LoadStg.loadStg6' depends on axioms: [propext, Classical.choice, Quot.sound] -/
#guard_msgs in #print axioms loadStg6
/-- info: 'Cert.Kernel.LoadStg.loadStg7' depends on axioms: [propext, Classical.choice, Quot.sound] -/
#guard_msgs in #print axioms loadStg7
/-- info: 'Cert.Kernel.LoadStg.storeStg7' depends on axioms: [propext, Classical.choice, Quot.sound] -/
#guard_msgs in #print axioms storeStg7

end Cert.Kernel.LoadStg
end
-- ==== Proof.Bits.Finish.lean ====
import proofs.«900978_g7700000000000979_dist_mlpseq_tp1d_bs_bs_b256_d256_h512_v7x_i16_bf16_1_alg».proof.Proof.Bits.BodyPost
import proofs.«900978_g7700000000000979_dist_mlpseq_tp1d_bs_bs_b256_d256_h512_v7x_i16_bf16_1_alg».proof.Proof.Bits.Exit
import proofs.«900978_g7700000000000979_dist_mlpseq_tp1d_bs_bs_b256_d256_h512_v7x_i16_bf16_1_alg».proof.Proof.Bits.Wins
import proofs.«900978_g7700000000000979_dist_mlpseq_tp1d_bs_bs_b256_d256_h512_v7x_i16_bf16_1_alg».proof.Proof.Bits.StateLemmas
noncomputable section
namespace Cert.Kernel.Finish
open Cert.Kernel Cert.Kernel.Gen Cert.Kernel.Vals Cert.Kernel.Cells Cert.Kernel.Sched Cert.Kernel.State Cert.Kernel.Dats Cert.Kernel.SchedTables Cert.Kernel.RingLaws Cert.Kernel.Phases Cert.Kernel.BodyPre
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## The end of the body

  The proof data record no restriction on the pairs a device may have waited on: every set of pairs lies within
  the bound of every point. After the last wait the device owes nothing; its slots join into the three scratch
  buffers and its sixty transfer cells close at zero; the seven argument blocks are as they were and the result
  block holds the last layer's sum: that is what the body leaves. -/

/-- The bound on a device's recorded pairs is everything, at every point. -/
theorem bound_univ (c : Dev nD) (t : Fin (cfg0.N + 1)) : (dats m 0 c).bound 0 t = Set.univ :=
  Set.eq_univ_of_forall fun _ => Or.inl trivial

/-- So every set of waited pairs lies within it. -/
theorem wend_sub (c : Dev nD) (t : Fin (cfg0.N + 1)) (W' : Waits sig ℕ) : (↑W' : Set (SemLoc sig × ℕ)) ⊆ (dats m 0 c).bound 0 t :=
  fun _ _ => Or.inl trivial

/-- Every copy of every layer issued, nothing is owed. -/
theorem owed_end (c : Dev nD) : Otot c (cnt 15 2) (cnt 15 2) 15 = 0 := by
  rw [cnt_full, cnt_zero]; exact Otot_done c

/-- The body's end: from every slot of the scratch buffers, every copy index's bundles past the last layer, nothing
    owed, and the eight staging buffers holding the argument blocks and the result, to what the body leaves. -/
theorem finish_wp (K : GSem nD τ sig → ℕ) (c : Dev nD) (W' : Waits sig ℕ) {α : Type} {Q : α → sProp 𝕄}
    (e : Prog (TpuEff nD τ sig (Elt F) Λ₀ .tc) α) :
    iprop(Invs m K
        ∗ ((∃ f, xPts (F := F) c (0 : Fin 16) fullShare f) ∗ (∃ f, xPts (F := F) c (1 : Fin 16) fullShare f) ∗ (∃ f, xPts (F := F) c (2 : Fin 16) fullShare f) ∗ (∃ f, xPts (F := F) c (3 : Fin 16) fullShare f) ∗ (∃ f, xPts (F := F) c (4 : Fin 16) fullShare f) ∗ (∃ f, xPts (F := F) c (5 : Fin 16) fullShare f) ∗ (∃ f, xPts (F := F) c (6 : Fin 16) fullShare f) ∗ (∃ f, xPts (F := F) c (7 : Fin 16) fullShare f) ∗ (∃ f, xPts (F := F) c (8 : Fin 16) fullShare f) ∗ (∃ f, xPts (F := F) c (9 : Fin 16) fullShare f) ∗ (∃ f, xPts (F := F) c (10 : Fin 16) fullShare f) ∗ (∃ f, xPts (F := F) c (11 : Fin 16) fullShare f) ∗ (∃ f, xPts (F := F) c (12 : Fin 16) fullShare f) ∗ (∃ f, xPts (F := F) c (13 : Fin 16) fullShare f) ∗ (∃ f, xPts (F := F) c (14 : Fin 16) fullShare f) ∗ (∃ f, xPts (F := F) c (15 : Fin 16) fullShare f))
        ∗ ((∃ f, pPts (F := F) c (0 : Fin 16) f) ∗ (∃ f, pPts (F := F) c (1 : Fin 16) f) ∗ (∃ f, pPts (F := F) c (2 : Fin 16) f) ∗ (∃ f, pPts (F := F) c (3 : Fin 16) f) ∗ (∃ f, pPts (F := F) c (4 : Fin 16) f) ∗ (∃ f, pPts (F := F) c (5 : Fin 16) f) ∗ (∃ f, pPts (F := F) c (6 : Fin 16) f) ∗ (∃ f, pPts (F := F) c (7 : Fin 16) f) ∗ (∃ f, pPts (F := F) c (8 : Fin 16) f) ∗ (∃ f, pPts (F := F) c (9 : Fin 16) f) ∗ (∃ f, pPts (F := F) c (10 : Fin 16) f) ∗ (∃ f, pPts (F := F) c (11 : Fin 16) f) ∗ (∃ f, pPts (F := F) c (12 : Fin 16) f) ∗ (∃ f, pPts (F := F) c (13 : Fin 16) f) ∗ (∃ f, pPts (F := F) c (14 : Fin 16) f) ∗ (∃ f, pPts (F := F) c (15 : Fin 16) f))
        ∗ ((∃ f, rPts (F := F) c (0 : Fin 15) f) ∗ (∃ f, rPts (F := F) c (1 : Fin 15) f) ∗ (∃ f, rPts (F := F) c (2 : Fin 15) f) ∗ (∃ f, rPts (F := F) c (3 : Fin 15) f) ∗ (∃ f, rPts (F := F) c (4 : Fin 15) f) ∗ (∃ f, rPts (F := F) c (5 : Fin 15) f) ∗ (∃ f, rPts (F := F) c (6 : Fin 15) f) ∗ (∃ f, rPts (F := F) c (7 : Fin 15) f) ∗ (∃ f, rPts (F := F) c (8 : Fin 15) f) ∗ (∃ f, rPts (F := F) c (9 : Fin 15) f) ∗ (∃ f, rPts (F := F) c (10 : Fin 15) f) ∗ (∃ f, rPts (F := F) c (11 : Fin 15) f) ∗ (∃ f, rPts (F := F) c (12 : Fin 15) f) ∗ (∃ f, rPts (F := F) c (13 : Fin 15) f) ∗ (∃ f, rPts (F := F) c (14 : Fin 15) f))
        ∗ (sn (F := F) c (0 : Fin 15) 3 ∗ sn (F := F) c (1 : Fin 15) 3 ∗ sn (F := F) c (2 : Fin 15) 3 ∗ sn (F := F) c (3 : Fin 15) 3 ∗ sn (F := F) c (4 : Fin 15) 3 ∗ sn (F := F) c (5 : Fin 15) 3 ∗ sn (F := F) c (6 : Fin 15) 3 ∗ sn (F := F) c (7 : Fin 15) 3 ∗ sn (F := F) c (8 : Fin 15) 3 ∗ sn (F := F) c (9 : Fin 15) 3 ∗ sn (F := F) c (10 : Fin 15) 3 ∗ sn (F := F) c (11 : Fin 15) 3 ∗ sn (F := F) c (12 : Fin 15) 3 ∗ sn (F := F) c (13 : Fin 15) 3 ∗ sn (F := F) c (14 : Fin 15) 3)
        ∗ (rc (F := F) c (0 : Fin 15) 3 ∗ rc (F := F) c (1 : Fin 15) 3 ∗ rc (F := F) c (2 : Fin 15) 3 ∗ rc (F := F) c (3 : Fin 15) 3 ∗ rc (F := F) c (4 : Fin 15) 3 ∗ rc (F := F) c (5 : Fin 15) 3 ∗ rc (F := F) c (6 : Fin 15) 3 ∗ rc (F := F) c (7 : Fin 15) 3 ∗ rc (F := F) c (8 : Fin 15) 3 ∗ rc (F := F) c (9 : Fin 15) 3 ∗ rc (F := F) c (10 : Fin 15) 3 ∗ rc (F := F) c (11 : Fin 15) 3 ∗ rc (F := F) c (12 : Fin 15) 3 ∗ rc (F := F) c (13 : Fin 15) 3 ∗ rc (F := F) c (14 : Fin 15) 3)
        ∗ owes (c : Thread nD τ) (Otot c (cnt 15 2) (cnt 15 2) 15) W'
        ∗ ((Memref.whole cc0_stg0_0).view.loc (c : Thread nD τ) ↦[(Memref.whole cc0_stg0_0).view.set]{fullShare} (argX m c))
        ∗ ((Memref.whole cc0_stg1_0).view.loc (c : Thread nD τ) ↦[(Memref.whole cc0_stg1_0).view.set]{fullShare} (argWi m 0 c))
        ∗ ((Memref.whole cc0_stg2_0).view.loc (c : Thread nD τ) ↦[(Memref.whole cc0_stg2_0).view.set]{fullShare} (argWo m 0 c))
        ∗ ((Memref.whole cc0_stg3_0).view.loc (c : Thread nD τ) ↦[(Memref.whole cc0_stg3_0).view.set]{fullShare} (argWi m 1 c))
        ∗ ((Memref.whole cc0_stg4_0).view.loc (c : Thread nD τ) ↦[(Memref.whole cc0_stg4_0).view.set]{fullShare} (argWo m 1 c))
        ∗ ((Memref.whole cc0_stg5_0).view.loc (c : Thread nD τ) ↦[(Memref.whole cc0_stg5_0).view.set]{fullShare} (argWi m 2 c))
        ∗ ((Memref.whole cc0_stg6_0).view.loc (c : Thread nD τ) ↦[(Memref.whole cc0_stg6_0).view.set]{fullShare} (argWo m 2 c))
        ∗ ((Memref.whole cc0_stg7_0).view.loc (c : Thread nD τ) ↦[(Memref.whole cc0_stg7_0).view.set]{fullShare} (outAt m c)))
      ⊢ iprop((bodyPost m c -∗ wp frame (wpE (defs₀ (F := F)) 𝒱₀ c none) Set.univ e Q)
          -∗ wp frame (wpE (defs₀ (F := F)) 𝒱₀ c none) Set.univ e Q) := by
  rw [owed_end]
  iintro ⟨#HI, HX, HP, HR, Hs, Hr, HO, Hw0, Hw1, Hw2, Hw3, Hw4, Hw5, Hw6, Hw7⟩ Hk
  iapply (Exit.phi1_wp m K c e) $$ [HX HP HR Hs Hr]
  · isplitr; · iexact HI
    isplitl [HX]; · iexact HX
    isplitl [HP]; · iexact HP
    isplitl [HR]; · iexact HR
    isplitl [Hs]; · iexact Hs
    iexact Hr
  iintro HΦ
  iapply Hk
  unfold bodyPost stg owns Dat.owesAt Pipeline.owesWithin
  rw [show (dats m 0 c).owed t₀.succ = 0 from rfl]
  isplitl [HΦ]; · iexact HΦ
  isplitl [HO]
  · iexists W'; isplitr; · (ipureintro; exact wend_sub m c t₀.succ W')
    iexact HO
  isplitl [Hw0]
  · iexists _; isplitr; · (ipureintro; exact (Wins.after_0 m c).symm)
    iexact Hw0
  isplitl [Hw1]
  · iexists _; isplitr; · (ipureintro; exact (Wins.after_1 m c).symm)
    iexact Hw1
  isplitl [Hw2]
  · iexists _; isplitr; · (ipureintro; exact (Wins.after_2 m c).symm)
    iexact Hw2
  isplitl [Hw3]
  · iexists _; isplitr; · (ipureintro; exact (Wins.after_3 m c).symm)
    iexact Hw3
  isplitl [Hw4]
  · iexists _; isplitr; · (ipureintro; exact (Wins.after_4 m c).symm)
    iexact Hw4
  isplitl [Hw5]
  · iexists _; isplitr; · (ipureintro; exact (Wins.after_5 m c).symm)
    iexact Hw5
  isplitl [Hw6]
  · iexists _; isplitr; · (ipureintro; exact (Wins.after_6 m c).symm)
    iexact Hw6
  iexists _; isplitr; · (ipureintro; exact (Wins.after_7 m c).symm)
  iexact Hw7

/-- info: 'Cert.Kernel.Finish.finish_wp' depends on axioms: [propext, Classical.choice, Quot.sound] -/
#guard_msgs in #print axioms finish_wp
/-- info: 'Cert.Kernel.Finish.wend_sub' depends on axioms: [propext, Classical.choice, Quot.sound] -/
#guard_msgs in #print axioms wend_sub

end Cert.Kernel.Finish
end
-- ==== Proof.Bits.Body.lean ====
import proofs.«900978_g7700000000000979_dist_mlpseq_tp1d_bs_bs_b256_d256_h512_v7x_i16_bf16_1_alg».proof.Proof.Bits.Steps
import proofs.«900978_g7700000000000979_dist_mlpseq_tp1d_bs_bs_b256_d256_h512_v7x_i16_bf16_1_alg».proof.Proof.Bits.Phases
import proofs.«900978_g7700000000000979_dist_mlpseq_tp1d_bs_bs_b256_d256_h512_v7x_i16_bf16_1_alg».proof.Proof.Bits.Ring
import proofs.«900978_g7700000000000979_dist_mlpseq_tp1d_bs_bs_b256_d256_h512_v7x_i16_bf16_1_alg».proof.Proof.Bits.Open
import proofs.«900978_g7700000000000979_dist_mlpseq_tp1d_bs_bs_b256_d256_h512_v7x_i16_bf16_1_alg».proof.Proof.Bits.BodyPre
import proofs.«900978_g7700000000000979_dist_mlpseq_tp1d_bs_bs_b256_d256_h512_v7x_i16_bf16_1_alg».proof.Proof.Bits.BodyPost
import proofs.«900978_g7700000000000979_dist_mlpseq_tp1d_bs_bs_b256_d256_h512_v7x_i16_bf16_1_alg».proof.Proof.Bits.StepsMem
import proofs.«900978_g7700000000000979_dist_mlpseq_tp1d_bs_bs_b256_d256_h512_v7x_i16_bf16_1_alg».proof.Proof.Bits.PayForms
import proofs.«900978_g7700000000000979_dist_mlpseq_tp1d_bs_bs_b256_d256_h512_v7x_i16_bf16_1_alg».proof.Proof.Bits.Exit
import proofs.«900978_g7700000000000979_dist_mlpseq_tp1d_bs_bs_b256_d256_h512_v7x_i16_bf16_1_alg».proof.Proof.Bits.Wins
import proofs.«900978_g7700000000000979_dist_mlpseq_tp1d_bs_bs_b256_d256_h512_v7x_i16_bf16_1_alg».proof.Proof.Bits.ValForms
import proofs.«900978_g7700000000000979_dist_mlpseq_tp1d_bs_bs_b256_d256_h512_v7x_i16_bf16_1_alg».proof.Proof.Bits.ReadWhole
import proofs.«900978_g7700000000000979_dist_mlpseq_tp1d_bs_bs_b256_d256_h512_v7x_i16_bf16_1_alg».proof.Proof.Bits.LoadStg
import proofs.«900978_g7700000000000979_dist_mlpseq_tp1d_bs_bs_b256_d256_h512_v7x_i16_bf16_1_alg».proof.Proof.Bits.Finish
noncomputable section
namespace Cert.Kernel.Body
open Cert.Kernel Cert.Kernel.Gen Cert.Kernel.Vals Cert.Kernel.Cells Cert.Kernel.Sched Cert.Kernel.State Cert.Kernel.Dats Cert.Kernel.SchedTables Cert.Kernel.RingLaws Cert.Kernel.Phases Cert.Kernel.Steps Cert.Kernel.Ring Cert.Kernel.Open Cert.Kernel.BodyPre Cert.Kernel.StepsSend Cert.Kernel.StepsWait Cert.Kernel.StepsMem Cert.Kernel.PayForms Cert.Kernel.LoadStg Cert.Kernel.ValForms
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

theorem xsplit16 (c : Dev nD) : scr (F := F) c cc0_scratch0 ⊢ (iprop((∃ f, xPts (F := F) c (0 : Fin 16) fullShare f) ∗ (∃ f, xPts (F := F) c (1 : Fin 16) fullShare f) ∗ (∃ f, xPts (F := F) c (2 : Fin 16) fullShare f) ∗ (∃ f, xPts (F := F) c (3 : Fin 16) fullShare f) ∗ (∃ f, xPts (F := F) c (4 : Fin 16) fullShare f) ∗ (∃ f, xPts (F := F) c (5 : Fin 16) fullShare f) ∗ (∃ f, xPts (F := F) c (6 : Fin 16) fullShare f) ∗ (∃ f, xPts (F := F) c (7 : Fin 16) fullShare f) ∗ (∃ f, xPts (F := F) c (8 : Fin 16) fullShare f) ∗ (∃ f, xPts (F := F) c (9 : Fin 16) fullShare f) ∗ (∃ f, xPts (F := F) c (10 : Fin 16) fullShare f) ∗ (∃ f, xPts (F := F) c (11 : Fin 16) fullShare f) ∗ (∃ f, xPts (F := F) c (12 : Fin 16) fullShare f) ∗ (∃ f, xPts (F := F) c (13 : Fin 16) fullShare f) ∗ (∃ f, xPts (F := F) c (14 : Fin 16) fullShare f) ∗ (∃ f, xPts (F := F) c (15 : Fin 16) fullShare f)) : sProp 𝕄) := by
  rw [← bigSep_F16 (fun k : Fin 16 => iprop(∃ f, xPts (F := F) c k fullShare f))]; exact (Slots.x_cut c).1
theorem psplit16 (c : Dev nD) : scr (F := F) c cc0_scratch1 ⊢ (iprop((∃ f, pPts (F := F) c (0 : Fin 16) f) ∗ (∃ f, pPts (F := F) c (1 : Fin 16) f) ∗ (∃ f, pPts (F := F) c (2 : Fin 16) f) ∗ (∃ f, pPts (F := F) c (3 : Fin 16) f) ∗ (∃ f, pPts (F := F) c (4 : Fin 16) f) ∗ (∃ f, pPts (F := F) c (5 : Fin 16) f) ∗ (∃ f, pPts (F := F) c (6 : Fin 16) f) ∗ (∃ f, pPts (F := F) c (7 : Fin 16) f) ∗ (∃ f, pPts (F := F) c (8 : Fin 16) f) ∗ (∃ f, pPts (F := F) c (9 : Fin 16) f) ∗ (∃ f, pPts (F := F) c (10 : Fin 16) f) ∗ (∃ f, pPts (F := F) c (11 : Fin 16) f) ∗ (∃ f, pPts (F := F) c (12 : Fin 16) f) ∗ (∃ f, pPts (F := F) c (13 : Fin 16) f) ∗ (∃ f, pPts (F := F) c (14 : Fin 16) f) ∗ (∃ f, pPts (F := F) c (15 : Fin 16) f)) : sProp 𝕄) := by
  rw [← bigSep_F16 (fun k : Fin 16 => iprop(∃ f, pPts (F := F) c k f))]; exact (Slots.p_cut c).1
theorem rsplit15 (c : Dev nD) : scr (F := F) c cc0_scratch2 ⊢ (iprop((∃ f, rPts (F := F) c (0 : Fin 15) f) ∗ (∃ f, rPts (F := F) c (1 : Fin 15) f) ∗ (∃ f, rPts (F := F) c (2 : Fin 15) f) ∗ (∃ f, rPts (F := F) c (3 : Fin 15) f) ∗ (∃ f, rPts (F := F) c (4 : Fin 15) f) ∗ (∃ f, rPts (F := F) c (5 : Fin 15) f) ∗ (∃ f, rPts (F := F) c (6 : Fin 15) f) ∗ (∃ f, rPts (F := F) c (7 : Fin 15) f) ∗ (∃ f, rPts (F := F) c (8 : Fin 15) f) ∗ (∃ f, rPts (F := F) c (9 : Fin 15) f) ∗ (∃ f, rPts (F := F) c (10 : Fin 15) f) ∗ (∃ f, rPts (F := F) c (11 : Fin 15) f) ∗ (∃ f, rPts (F := F) c (12 : Fin 15) f) ∗ (∃ f, rPts (F := F) c (13 : Fin 15) f) ∗ (∃ f, rPts (F := F) c (14 : Fin 15) f)) : sProp 𝕄) := by
  rw [← bigSep_F15 (fun j : Fin 15 => iprop(∃ f, rPts (F := F) c j f))]; exact (Slots.r_cut c).1
theorem barPays_dstX15 (c : Dev nD) :
    bigSep (Finset.univ.erase (0 : D)) (fun l => barPay (F := F) c l) ⊢ (iprop(dstX (F := F) c (0 : Fin 15) 0 ∗ dstX (F := F) c (1 : Fin 15) 0 ∗ dstX (F := F) c (2 : Fin 15) 0 ∗ dstX (F := F) c (3 : Fin 15) 0 ∗ dstX (F := F) c (4 : Fin 15) 0 ∗ dstX (F := F) c (5 : Fin 15) 0 ∗ dstX (F := F) c (6 : Fin 15) 0 ∗ dstX (F := F) c (7 : Fin 15) 0 ∗ dstX (F := F) c (8 : Fin 15) 0 ∗ dstX (F := F) c (9 : Fin 15) 0 ∗ dstX (F := F) c (10 : Fin 15) 0 ∗ dstX (F := F) c (11 : Fin 15) 0 ∗ dstX (F := F) c (12 : Fin 15) 0 ∗ dstX (F := F) c (13 : Fin 15) 0 ∗ dstX (F := F) c (14 : Fin 15) 0) : sProp 𝕄) := by
  rw [← bigSep_F15 (fun j : Fin 15 => dstX (F := F) c j 0)]; exact StepsWait.barPays_dstX c

set_option maxHeartbeats 3200000 in
/-- One device's body, stepped from its start to its end: the entry handshake; the own chunk stored and sent to
    the fifteen peers; per layer the chunks awaited two at a time, their products' halves stored and sent back,
    the send sides awaited, the fifteen returned pieces awaited and summed onto the own piece, the sum stored
    as the next chunk (or as the result) and the pieces' send sides awaited; then every slot is home. -/
theorem sound_body (K : GSem nD τ sig → ℕ) (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]; unfold cc0_body_skel
  unfold bodyPre stg owns
  iintro ⟨⟨⟨Hg, HcB, #Hlev, Hs0, Hs1, Hs2⟩, Ho, Hw0, Hw1, Hw2, Hw3, Hw4, Hw5, Hw6, Hw7⟩, Hk⟩
  ihave Hg' := (ghost_open m K c) $$ Hg
  icases Hg' with ⟨#HI, ⟨Hsn0, Hsn1, Hsn2, Hsn3, Hsn4, Hsn5, Hsn6, Hsn7, Hsn8, Hsn9, Hsn10, Hsn11, Hsn12, Hsn13, Hsn14⟩, ⟨⟨Hrc0, #Hra0⟩, ⟨Hrc1, #Hra1⟩, ⟨Hrc2, #Hra2⟩, ⟨Hrc3, #Hra3⟩, ⟨Hrc4, #Hra4⟩, ⟨Hrc5, #Hra5⟩, ⟨Hrc6, #Hra6⟩, ⟨Hrc7, #Hra7⟩, ⟨Hrc8, #Hra8⟩, ⟨Hrc9, #Hra9⟩, ⟨Hrc10, #Hra10⟩, ⟨Hrc11, #Hra11⟩, ⟨Hrc12, #Hra12⟩, ⟨Hrc13, #Hra13⟩, ⟨Hrc14, #Hra14⟩⟩, HatB, ⟨⟨Ht1, #Hb1⟩, ⟨Ht2, #Hb2⟩, ⟨Ht3, #Hb3⟩, ⟨Ht4, #Hb4⟩, ⟨Ht5, #Hb5⟩, ⟨Ht6, #Hb6⟩, ⟨Ht7, #Hb7⟩, ⟨Ht8, #Hb8⟩, ⟨Ht9, #Hb9⟩, ⟨Ht10, #Hb10⟩, ⟨Ht11, #Hb11⟩, ⟨Ht12, #Hb12⟩, ⟨Ht13, #Hb13⟩, ⟨Ht14, #Hb14⟩, ⟨Ht15, #Hb15⟩⟩⟩
  unfold Dat.owesAt Pipeline.owesWithin
  icases Ho with ⟨%W, %hW, HO⟩
  rw [show (dats m 0 c).owed t₀.castSucc = Otot c (cnt 0 0) (cnt 0 0) 0 from by rw [cnt_zero]; rfl]
  ihave Hxs := (xsplit16 c) $$ Hs0
  icases Hxs with ⟨Hx0, Hx1, Hx2, Hx3, Hx4, Hx5, Hx6, Hx7, Hx8, Hx9, Hx10, Hx11, Hx12, Hx13, Hx14, Hx15⟩
  ihave Hps := (psplit16 c) $$ Hs1
  icases Hps with ⟨Hp0, Hp1, Hp2, Hp3, Hp4, Hp5, Hp6, Hp7, Hp8, Hp9, Hp10, Hp11, Hp12, Hp13, Hp14, Hp15⟩
  ihave Hrs := (rsplit15 c) $$ Hs2
  icases Hrs with ⟨Hr0, Hr1, Hr2, Hr3, Hr4, Hr5, Hr6, Hr7, Hr8, Hr9, Hr10, Hr11, Hr12, Hr13, Hr14⟩
  icases Hw0 with ⟨%d0, %f0, %hf0, Hw0⟩
  have e0 : f0 = argX m c := by
    have h := hf0; simp only [Memref.view_whole, View.read_whole] at h; exact h.trans (before_0 m c d0)
  subst e0
  icases Hw1 with ⟨%d1, %f1, %hf1, Hw1⟩
  have e1 : f1 = argWi m 0 c := by
    have h := hf1; simp only [Memref.view_whole, View.read_whole] at h; exact h.trans (before_1 m c d1)
  subst e1
  icases Hw2 with ⟨%d2, %f2, %hf2, Hw2⟩
  have e2 : f2 = argWo m 0 c := by
    have h := hf2; simp only [Memref.view_whole, View.read_whole] at h; exact h.trans (before_2 m c d2)
  subst e2
  icases Hw3 with ⟨%d3, %f3, %hf3, Hw3⟩
  have e3 : f3 = argWi m 1 c := by
    have h := hf3; simp only [Memref.view_whole, View.read_whole] at h; exact h.trans (before_3 m c d3)
  subst e3
  icases Hw4 with ⟨%d4, %f4, %hf4, Hw4⟩
  have e4 : f4 = argWo m 1 c := by
    have h := hf4; simp only [Memref.view_whole, View.read_whole] at h; exact h.trans (before_4 m c d4)
  subst e4
  icases Hw5 with ⟨%d5, %f5, %hf5, Hw5⟩
  have e5 : f5 = argWi m 2 c := by
    have h := hf5; simp only [Memref.view_whole, View.read_whole] at h; exact h.trans (before_5 m c d5)
  subst e5
  icases Hw6 with ⟨%d6, %f6, %hf6, Hw6⟩
  have e6 : f6 = argWo m 2 c := by
    have h := hf6; simp only [Memref.view_whole, View.read_whole] at h; exact h.trans (before_6 m c d6)
  subst e6
  icases Hw7 with ⟨%d7, %f7, %hf7, Hw7⟩
  ihave Hw0' : held (F := F) c cc0_stg0_0 (argX m c) $$ [Hw0]
  · unfold held; iexact Hw0
  ihave Hw1' : held (F := F) c cc0_stg1_0 (argWi m 0 c) $$ [Hw1]
  · unfold held; iexact Hw1
  ihave Hw2' : held (F := F) c cc0_stg2_0 (argWo m 0 c) $$ [Hw2]
  · unfold held; iexact Hw2
  ihave Hw3' : held (F := F) c cc0_stg3_0 (argWi m 1 c) $$ [Hw3]
  · unfold held; iexact Hw3
  ihave Hw4' : held (F := F) c cc0_stg4_0 (argWo m 1 c) $$ [Hw4]
  · unfold held; iexact Hw4
  ihave Hw5' : held (F := F) c cc0_stg5_0 (argWi m 2 c) $$ [Hw5]
  · unfold held; iexact Hw5
  ihave Hw6' : held (F := F) c cc0_stg6_0 (argWo m 2 c) $$ [Hw6]
  · unfold held; iexact Hw6
  ihave Hw7' : held (F := F) c cc0_stg7_0 f7 $$ [Hw7]
  · unfold held; iexact Hw7
  -- signal 1: to the device 1 places after, handing it own slot 15 of X
  sl_exec
  icases Hx15 with ⟨%fx15, Hx15⟩
  iapply (step_sig m K c (1 : D) (by decide) _ _ 0 rfl fx15 (k := Prog.ret)) $$ [HO Ht1 Hx15]
  · isplitr; · iexact HI
    isplitl [HO]; · iexact HO
    isplitl [Ht1]; · iexact Ht1
    isplitl [Hx15]; · iexact Hx15
    isplitr; · iexact Hra14
    iexact Hb1
  iintro HO
  first | iapply (wp_ret_bind c _ _ _) | skip
  -- signal 2: to the device 2 places after, handing it own slot 14 of X
  sl_exec
  icases Hx14 with ⟨%fx14, Hx14⟩
  iapply (step_sig m K c (2 : D) (by decide) _ _ 1 rfl fx14 (k := Prog.ret)) $$ [HO Ht2 Hx14]
  · isplitr; · iexact HI
    isplitl [HO]; · iexact HO
    isplitl [Ht2]; · iexact Ht2
    isplitl [Hx14]; · iexact Hx14
    isplitr; · iexact Hra13
    iexact Hb2
  iintro HO
  first | iapply (wp_ret_bind c _ _ _) | skip
  -- signal 3: to the device 3 places after, handing it own slot 13 of X
  sl_exec
  icases Hx13 with ⟨%fx13, Hx13⟩
  iapply (step_sig m K c (3 : D) (by decide) _ _ 2 rfl fx13 (k := Prog.ret)) $$ [HO Ht3 Hx13]
  · isplitr; · iexact HI
    isplitl [HO]; · iexact HO
    isplitl [Ht3]; · iexact Ht3
    isplitl [Hx13]; · iexact Hx13
    isplitr; · iexact Hra12
    iexact Hb3
  iintro HO
  first | iapply (wp_ret_bind c _ _ _) | skip
  -- signal 4: to the device 4 places after, handing it own slot 12 of X
  sl_exec
  icases Hx12 with ⟨%fx12, Hx12⟩
  iapply (step_sig m K c (4 : D) (by decide) _ _ 3 rfl fx12 (k := Prog.ret)) $$ [HO Ht4 Hx12]
  · isplitr; · iexact HI
    isplitl [HO]; · iexact HO
    isplitl [Ht4]; · iexact Ht4
    isplitl [Hx12]; · iexact Hx12
    isplitr; · iexact Hra11
    iexact Hb4
  iintro HO
  first | iapply (wp_ret_bind c _ _ _) | skip
  -- signal 5: to the device 5 places after, handing it own slot 11 of X
  sl_exec
  icases Hx11 with ⟨%fx11, Hx11⟩
  iapply (step_sig m K c (5 : D) (by decide) _ _ 4 rfl fx11 (k := Prog.ret)) $$ [HO Ht5 Hx11]
  · isplitr; · iexact HI
    isplitl [HO]; · iexact HO
    isplitl [Ht5]; · iexact Ht5
    isplitl [Hx11]; · iexact Hx11
    isplitr; · iexact Hra10
    iexact Hb5
  iintro HO
  first | iapply (wp_ret_bind c _ _ _) | skip
  -- signal 6: to the device 6 places after, handing it own slot 10 of X
  sl_exec
  icases Hx10 with ⟨%fx10, Hx10⟩
  iapply (step_sig m K c (6 : D) (by decide) _ _ 5 rfl fx10 (k := Prog.ret)) $$ [HO Ht6 Hx10]
  · isplitr; · iexact HI
    isplitl [HO]; · iexact HO
    isplitl [Ht6]; · iexact Ht6
    isplitl [Hx10]; · iexact Hx10
    isplitr; · iexact Hra9
    iexact Hb6
  iintro HO
  first | iapply (wp_ret_bind c _ _ _) | skip
  -- signal 7: to the device 7 places after, handing it own slot 9 of X
  sl_exec
  icases Hx9 with ⟨%fx9, Hx9⟩
  iapply (step_sig m K c (7 : D) (by decide) _ _ 6 rfl fx9 (k := Prog.ret)) $$ [HO Ht7 Hx9]
  · isplitr; · iexact HI
    isplitl [HO]; · iexact HO
    isplitl [Ht7]; · iexact Ht7
    isplitl [Hx9]; · iexact Hx9
    isplitr; · iexact Hra8
    iexact Hb7
  iintro HO
  first | iapply (wp_ret_bind c _ _ _) | skip
  -- signal 8: to the device 8 places after, handing it own slot 8 of X
  sl_exec
  icases Hx8 with ⟨%fx8, Hx8⟩
  iapply (step_sig m K c (8 : D) (by decide) _ _ 7 rfl fx8 (k := Prog.ret)) $$ [HO Ht8 Hx8]
  · isplitr; · iexact HI
    isplitl [HO]; · iexact HO
    isplitl [Ht8]; · iexact Ht8
    isplitl [Hx8]; · iexact Hx8
    isplitr; · iexact Hra7
    iexact Hb8
  iintro HO
  first | iapply (wp_ret_bind c _ _ _) | skip
  -- signal 9: to the device 9 places after, handing it own slot 7 of X
  sl_exec
  icases Hx7 with ⟨%fx7, Hx7⟩
  iapply (step_sig m K c (9 : D) (by decide) _ _ 8 rfl fx7 (k := Prog.ret)) $$ [HO Ht9 Hx7]
  · isplitr; · iexact HI
    isplitl [HO]; · iexact HO
    isplitl [Ht9]; · iexact Ht9
    isplitl [Hx7]; · iexact Hx7
    isplitr; · iexact Hra6
    iexact Hb9
  iintro HO
  first | iapply (wp_ret_bind c _ _ _) | skip
  -- signal 10: to the device 10 places after, handing it own slot 6 of X
  sl_exec
  icases Hx6 with ⟨%fx6, Hx6⟩
  iapply (step_sig m K c (10 : D) (by decide) _ _ 9 rfl fx6 (k := Prog.ret)) $$ [HO Ht10 Hx6]
  · isplitr; · iexact HI
    isplitl [HO]; · iexact HO
    isplitl [Ht10]; · iexact Ht10
    isplitl [Hx6]; · iexact Hx6
    isplitr; · iexact Hra5
    iexact Hb10
  iintro HO
  first | iapply (wp_ret_bind c _ _ _) | skip
  -- signal 11: to the device 11 places after, handing it own slot 5 of X
  sl_exec
  icases Hx5 with ⟨%fx5, Hx5⟩
  iapply (step_sig m K c (11 : D) (by decide) _ _ 10 rfl fx5 (k := Prog.ret)) $$ [HO Ht11 Hx5]
  · isplitr; · iexact HI
    isplitl [HO]; · iexact HO
    isplitl [Ht11]; · iexact Ht11
    isplitl [Hx5]; · iexact Hx5
    isplitr; · iexact Hra4
    iexact Hb11
  iintro HO
  first | iapply (wp_ret_bind c _ _ _) | skip
  -- signal 12: to the device 12 places after, handing it own slot 4 of X
  sl_exec
  icases Hx4 with ⟨%fx4, Hx4⟩
  iapply (step_sig m K c (12 : D) (by decide) _ _ 11 rfl fx4 (k := Prog.ret)) $$ [HO Ht12 Hx4]
  · isplitr; · iexact HI
    isplitl [HO]; · iexact HO
    isplitl [Ht12]; · iexact Ht12
    isplitl [Hx4]; · iexact Hx4
    isplitr; · iexact Hra3
    iexact Hb12
  iintro HO
  first | iapply (wp_ret_bind c _ _ _) | skip
  -- signal 13: to the device 13 places after, handing it own slot 3 of X
  sl_exec
  icases Hx3 with ⟨%fx3, Hx3⟩
  iapply (step_sig m K c (13 : D) (by decide) _ _ 12 rfl fx3 (k := Prog.ret)) $$ [HO Ht13 Hx3]
  · isplitr; · iexact HI
    isplitl [HO]; · iexact HO
    isplitl [Ht13]; · iexact Ht13
    isplitl [Hx3]; · iexact Hx3
    isplitr; · iexact Hra2
    iexact Hb13
  iintro HO
  first | iapply (wp_ret_bind c _ _ _) | skip
  -- signal 14: to the device 14 places after, handing it own slot 2 of X
  sl_exec
  icases Hx2 with ⟨%fx2, Hx2⟩
  iapply (step_sig m K c (14 : D) (by decide) _ _ 13 rfl fx2 (k := Prog.ret)) $$ [HO Ht14 Hx2]
  · isplitr; · iexact HI
    isplitl [HO]; · iexact HO
    isplitl [Ht14]; · iexact Ht14
    isplitl [Hx2]; · iexact Hx2
    isplitr; · iexact Hra1
    iexact Hb14
  iintro HO
  first | iapply (wp_ret_bind c _ _ _) | skip
  -- signal 15: to the device 15 places after, handing it own slot 1 of X
  sl_exec
  icases Hx1 with ⟨%fx1, Hx1⟩
  iapply (step_sig m K c (15 : D) (by decide) _ _ 14 rfl fx1 (k := Prog.ret)) $$ [HO Ht15 Hx1]
  · isplitr; · iexact HI
    isplitl [HO]; · iexact HO
    isplitl [Ht15]; · iexact Ht15
    isplitl [Hx1]; · iexact Hx1
    isplitr; · iexact Hra0
    iexact Hb15
  iintro HO
  first | iapply (wp_ret_bind c _ _ _) | skip
  -- the wait for the fifteen units of the device's own barrier cell
  sl_exec
  iapply (step_bar m K c _ _ (k := Prog.ret)) $$ [HcB HO HatB]
  · isplitr; · iexact HI
    isplitl [HcB]; · iexact HcB
    isplitl [HO]; · iexact HO
    isplitr; · iexact Hlev
    iexact HatB
  iintro ⟨HO, HatB, #HrB, Hpays⟩
  first | iapply (wp_ret_bind c _ _ _) | skip
  ihave Hdx := (barPays_dstX15 c) $$ Hpays
  icases Hdx with ⟨Hdx0, Hdx1, Hdx2, Hdx3, Hdx4, Hdx5, Hdx6, Hdx7, Hdx8, Hdx9, Hdx10, Hdx11, Hdx12, Hdx13, Hdx14⟩
  -- the device's own chunk, cast and stored into slot 0 of X
  first | sl_exec | skip
  iapply (loadStg0 c (argX m c)) $$ [Hw0']
  · iexact Hw0'
  iintro Hw0'
  first | iapply (wp_ret_bind c _ _ _) | skip
  first | sl_exec | skip
  icases Hx0 with ⟨%fx0, Hx0⟩
  iapply (loadXany c 0 fullShare fx0) $$ [Hx0]
  · iexact Hx0
  iintro Hx0
  first | iapply (wp_ret_bind c _ _ _) | skip
  first | sl_exec | skip
  iapply (storeX c 0 (chunkAt m 0 c)) $$ [Hx0]
  · iexists fx0; iexact Hx0
  iintro Hx0
  first | iapply (wp_ret_bind c _ _ _) | skip
  -- chunk copy 1 of layer 0
  first | sl_exec | skip
  iapply (step_AS_d m K c 0 (by decide) 0 (by decide) _ _ (dev16_eq c)) $$ [HO Hsn0 Hdx0 Hx0 Hr14]
  · isplitr; · iexact HI
    isplitl [HO]; · iexact HO
    isplitl [Hsn0]; · iexact Hsn0
    isplitl [Hdx0]; · iexact Hdx0
    isplitl [Hx0]; · iexact Hx0
    iexact Hr14
  iintro ⟨HO, Hss0, Hx0⟩
  first | iapply (wp_ret_bind c _ _ _) | skip
  -- chunk copy 2 of layer 0
  first | sl_exec | skip
  iapply (step_AS_d m K c 1 (by decide) 0 (by decide) _ _ (dev17_eq c)) $$ [HO Hsn1 Hdx1 Hx0 Hr13]
  · isplitr; · iexact HI
    isplitl [HO]; · iexact HO
    isplitl [Hsn1]; · iexact Hsn1
    isplitl [Hdx1]; · iexact Hdx1
    isplitl [Hx0]; · iexact Hx0
    iexact Hr13
  iintro ⟨HO, Hss1, Hx0⟩
  first | iapply (wp_ret_bind c _ _ _) | skip
  -- chunk copy 3 of layer 0
  first | sl_exec | skip
  iapply (step_AS_d m K c 2 (by decide) 0 (by decide) _ _ (dev18_eq c)) $$ [HO Hsn2 Hdx2 Hx0 Hr12]
  · isplitr; · iexact HI
    isplitl [HO]; · iexact HO
    isplitl [Hsn2]; · iexact Hsn2
    isplitl [Hdx2]; · iexact Hdx2
    isplitl [Hx0]; · iexact Hx0
    iexact Hr12
  iintro ⟨HO, Hss2, Hx0⟩
  first | iapply (wp_ret_bind c _ _ _) | skip
  -- chunk copy 4 of layer 0
  first | sl_exec | skip
  iapply (step_AS_d m K c 3 (by decide) 0 (by decide) _ _ (dev19_eq c)) $$ [HO Hsn3 Hdx3 Hx0 Hr11]
  · isplitr; · iexact HI
    isplitl [HO]; · iexact HO
    isplitl [Hsn3]; · iexact Hsn3
    isplitl [Hdx3]; · iexact Hdx3
    isplitl [Hx0]; · iexact Hx0
    iexact Hr11
  iintro ⟨HO, Hss3, Hx0⟩
  first | iapply (wp_ret_bind c _ _ _) | skip
  -- chunk copy 5 of layer 0
  first | sl_exec | skip
  iapply (step_AS_d m K c 4 (by decide) 0 (by decide) _ _ (dev20_eq c)) $$ [HO Hsn4 Hdx4 Hx0 Hr10]
  · isplitr; · iexact HI
    isplitl [HO]; · iexact HO
    isplitl [Hsn4]; · iexact Hsn4
    isplitl [Hdx4]; · iexact Hdx4
    isplitl [Hx0]; · iexact Hx0
    iexact Hr10
  iintro ⟨HO, Hss4, Hx0⟩
  first | iapply (wp_ret_bind c _ _ _) | skip
  -- chunk copy 6 of layer 0
  first | sl_exec | skip
  iapply (step_AS_d m K c 5 (by decide) 0 (by decide) _ _ (dev21_eq c)) $$ [HO Hsn5 Hdx5 Hx0 Hr9]
  · isplitr; · iexact HI
    isplitl [HO]; · iexact HO
    isplitl [Hsn5]; · iexact Hsn5
    isplitl [Hdx5]; · iexact Hdx5
    isplitl [Hx0]; · iexact Hx0
    iexact Hr9
  iintro ⟨HO, Hss5, Hx0⟩
  first | iapply (wp_ret_bind c _ _ _) | skip
  -- chunk copy 7 of layer 0
  first | sl_exec | skip
  iapply (step_AS_d m K c 6 (by decide) 0 (by decide) _ _ (dev22_eq c)) $$ [HO Hsn6 Hdx6 Hx0 Hr8]
  · isplitr; · iexact HI
    isplitl [HO]; · iexact HO
    isplitl [Hsn6]; · iexact Hsn6
    isplitl [Hdx6]; · iexact Hdx6
    isplitl [Hx0]; · iexact Hx0
    iexact Hr8
  iintro ⟨HO, Hss6, Hx0⟩
  first | iapply (wp_ret_bind c _ _ _) | skip
  -- chunk copy 8 of layer 0
  first | sl_exec | skip
  iapply (step_AS_d m K c 7 (by decide) 0 (by decide) _ _ (dev23_eq c)) $$ [HO Hsn7 Hdx7 Hx0 Hr7]
  · isplitr; · iexact HI
    isplitl [HO]; · iexact HO
    isplitl [Hsn7]; · iexact Hsn7
    isplitl [Hdx7]; · iexact Hdx7
    isplitl [Hx0]; · iexact Hx0
    iexact Hr7
  iintro ⟨HO, Hss7, Hx0⟩
  first | iapply (wp_ret_bind c _ _ _) | skip
  -- chunk copy 9 of layer 0
  first | sl_exec | skip
  iapply (step_AS_d m K c 8 (by decide) 0 (by decide) _ _ (dev24_eq c)) $$ [HO Hsn8 Hdx8 Hx0 Hr6]
  · isplitr; · iexact HI
    isplitl [HO]; · iexact HO
    isplitl [Hsn8]; · iexact Hsn8
    isplitl [Hdx8]; · iexact Hdx8
    isplitl [Hx0]; · iexact Hx0
    iexact Hr6
  iintro ⟨HO, Hss8, Hx0⟩
  first | iapply (wp_ret_bind c _ _ _) | skip
  -- chunk copy 10 of layer 0
  first | sl_exec | skip
  iapply (step_AS_d m K c 9 (by decide) 0 (by decide) _ _ (dev25_eq c)) $$ [HO Hsn9 Hdx9 Hx0 Hr5]
  · isplitr; · iexact HI
    isplitl [HO]; · iexact HO
    isplitl [Hsn9]; · iexact Hsn9
    isplitl [Hdx9]; · iexact Hdx9
    isplitl [Hx0]; · iexact Hx0
    iexact Hr5
  iintro ⟨HO, Hss9, Hx0⟩
  first | iapply (wp_ret_bind c _ _ _) | skip
  -- chunk copy 11 of layer 0
  first | sl_exec | skip
  iapply (step_AS_d m K c 10 (by decide) 0 (by decide) _ _ (dev26_eq c)) $$ [HO Hsn10 Hdx10 Hx0 Hr4]
  · isplitr; · iexact HI
    isplitl [HO]; · iexact HO
    isplitl [Hsn10]; · iexact Hsn10
    isplitl [Hdx10]; · iexact Hdx10
    isplitl [Hx0]; · iexact Hx0
    iexact Hr4
  iintro ⟨HO, Hss10, Hx0⟩
  first | iapply (wp_ret_bind c _ _ _) | skip
  -- chunk copy 12 of layer 0
  first | sl_exec | skip
  iapply (step_AS_d m K c 11 (by decide) 0 (by decide) _ _ (dev27_eq c)) $$ [HO Hsn11 Hdx11 Hx0 Hr3]
  · isplitr; · iexact HI
    isplitl [HO]; · iexact HO
    isplitl [Hsn11]; · iexact Hsn11
    isplitl [Hdx11]; · iexact Hdx11
    isplitl [Hx0]; · iexact Hx0
    iexact Hr3
  iintro ⟨HO, Hss11, Hx0⟩
  first | iapply (wp_ret_bind c _ _ _) | skip
  -- chunk copy 13 of layer 0
  first | sl_exec | skip
  iapply (step_AS_d m K c 12 (by decide) 0 (by decide) _ _ (dev28_eq c)) $$ [HO Hsn12 Hdx12 Hx0 Hr2]
  · isplitr; · iexact HI
    isplitl [HO]; · iexact HO
    isplitl [Hsn12]; · iexact Hsn12
    isplitl [Hdx12]; · iexact Hdx12
    isplitl [Hx0]; · iexact Hx0
    iexact Hr2
  iintro ⟨HO, Hss12, Hx0⟩
  first | iapply (wp_ret_bind c _ _ _) | skip
  -- chunk copy 14 of layer 0
  first | sl_exec | skip
  iapply (step_AS_d m K c 13 (by decide) 0 (by decide) _ _ (dev29_eq c)) $$ [HO Hsn13 Hdx13 Hx0 Hr1]
  · isplitr; · iexact HI
    isplitl [HO]; · iexact HO
    isplitl [Hsn13]; · iexact Hsn13
    isplitl [Hdx13]; · iexact Hdx13
    isplitl [Hx0]; · iexact Hx0
    iexact Hr1
  iintro ⟨HO, Hss13, Hx0⟩
  first | iapply (wp_ret_bind c _ _ _) | skip
  -- chunk copy 15 of layer 0
  first | sl_exec | skip
  iapply (step_AS_d m K c 14 (by decide) 0 (by decide) _ _ (dev30_eq c)) $$ [HO Hsn14 Hdx14 Hx0 Hr0]
  · isplitr; · iexact HI
    isplitl [HO]; · iexact HO
    isplitl [Hsn14]; · iexact Hsn14
    isplitl [Hdx14]; · iexact Hdx14
    isplitl [Hx0]; · iexact Hx0
    iexact Hr0
  iintro ⟨HO, Hss14, Hx0⟩
  first | iapply (wp_ret_bind c _ _ _) | skip
  -- layer 0: the device's weight blocks
  first | sl_exec | skip
  iapply (loadStg1 c (argWi m 0 c)) $$ [Hw1']
  · iexact Hw1'
  iintro Hw1'
  first | iapply (wp_ret_bind c _ _ _) | skip
  first | sl_exec | skip
  iapply (loadStg2 c (argWo m 0 c)) $$ [Hw2']
  · iexact Hw2'
  iintro Hw2'
  first | iapply (wp_ret_bind c _ _ _) | skip
  -- layer 0: wait for chunk 1 (from the device 1 places before)
  first | sl_exec | skip
  iapply (step_AR m K c (0 : Fin 15) 0 (by decide) (cnt 15 0) (cnt 0 0) (lt_cnt_full 0) (lt_cnt 0 0)) $$ [HO Hrc0]
  · isplitr; · iexact HI
    isplitl [HO]; · iexact HO
    isplitr; · iexact Hlev
    iexact Hrc0
  iintro ⟨HO, Hrg0, Hpay⟩
  first | iapply (wp_ret_bind c _ _ _) | skip
  ihave Hpay' := (agRPay_open m c (0 : Fin 15) 0) $$ Hpay
  icases Hpay' with ⟨Hx1, Hdr0⟩
  -- layer 0, group 0: the two chunks read as one block of 512 rows
  first | sl_exec | skip
  iapply (loadX c (0 : Fin 8) 15 (chunkAt m 0 c) (chunkAt m 0 (bwd c 1))) $$ [Hx0 Hx1]
  · isplitl [Hx0]; · iexact Hx0
    iexact Hx1
  iintro ⟨Hx0, Hx1⟩
  first | iapply (wp_ret_bind c _ _ _) | skip
  -- layer 0: the piece for chunk 1, stored into slot 1 of P and sent back
  first | sl_exec | skip
  icases Hp1 with ⟨%fp1, Hp1⟩
  iapply (loadPany c (1 : Fin 16) fp1) $$ [Hp1]
  · iexact Hp1
  iintro Hp1
  first | iapply (wp_ret_bind c _ _ _) | skip
  first | sl_exec | skip
  iapply (storeP c (1 : Fin 16) _) $$ [Hp1]
  · iexists _; iexact Hp1
  iintro Hq1
  first | iapply (wp_ret_bind c _ _ _) | skip
  ihave Hp1 : pPts (F := F) c (1 : Fin 16) (pfill c (1 : Fin 16) (pieceAt m 0 c 1)) $$ [Hq1]
  · sl_unfold_run_names
    rw [store_P_0_1 m c]
    iexact Hq1
  first | sl_exec | skip
  iapply (step_RS_d m K c 0 (by decide) 0 (by decide) (cnt 15 0) _ (dev31_eq c)) $$ [HO Hrg0 Hdr0 Hp1 Hx1]
  · isplitr; · iexact HI
    isplitl [HO]; · iexact HO
    isplitl [Hrg0]; · iexact Hrg0
    isplitl [Hdr0]; · iexact Hdr0
    isplitl [Hp1]; · iexact Hp1
    (iexists _; iexact Hx1)
  iintro ⟨HO, Hrs0⟩
  first | iapply (wp_ret_bind c _ _ _) | skip
  -- layer 0: wait for chunk 2 (from the device 2 places before)
  first | sl_exec | skip
  iapply (step_AR m K c (1 : Fin 15) 0 (by decide) (cnt 15 0) (cnt 1 0) (lt_cnt_full 0) (lt_cnt 1 0)) $$ [HO Hrc1]
  · isplitr; · iexact HI
    isplitl [HO]; · iexact HO
    isplitr; · iexact Hlev
    iexact Hrc1
  iintro ⟨HO, Hrg1, Hpay⟩
  first | iapply (wp_ret_bind c _ _ _) | skip
  ihave Hpay' := (agRPay_open m c (1 : Fin 15) 0) $$ Hpay
  icases Hpay' with ⟨Hx2, Hdr1⟩
  -- layer 0: wait for chunk 3 (from the device 3 places before)
  first | sl_exec | skip
  iapply (step_AR m K c (2 : Fin 15) 0 (by decide) (cnt 15 0) (cnt 1 0) (lt_cnt_full 0) (lt_cnt 1 0)) $$ [HO Hrc2]
  · isplitr; · iexact HI
    isplitl [HO]; · iexact HO
    isplitr; · iexact Hlev
    iexact Hrc2
  iintro ⟨HO, Hrg2, Hpay⟩
  first | iapply (wp_ret_bind c _ _ _) | skip
  ihave Hpay' := (agRPay_open m c (2 : Fin 15) 0) $$ Hpay
  icases Hpay' with ⟨Hx3, Hdr2⟩
  -- layer 0, group 1: the two chunks read as one block of 512 rows
  first | sl_exec | skip
  iapply (loadX c (1 : Fin 8) 0 (chunkAt m 0 (bwd c 2)) (chunkAt m 0 (bwd c 3))) $$ [Hx2 Hx3]
  · isplitl [Hx2]; · iexact Hx2
    iexact Hx3
  iintro ⟨Hx2, Hx3⟩
  first | iapply (wp_ret_bind c _ _ _) | skip
  -- layer 0: the piece for chunk 2, stored into slot 2 of P and sent back
  first | sl_exec | skip
  icases Hp2 with ⟨%fp2, Hp2⟩
  iapply (loadPany c (2 : Fin 16) fp2) $$ [Hp2]
  · iexact Hp2
  iintro Hp2
  first | iapply (wp_ret_bind c _ _ _) | skip
  first | sl_exec | skip
  iapply (storeP c (2 : Fin 16) _) $$ [Hp2]
  · iexists _; iexact Hp2
  iintro Hq2
  first | iapply (wp_ret_bind c _ _ _) | skip
  ihave Hp2 : pPts (F := F) c (2 : Fin 16) (pfill c (2 : Fin 16) (pieceAt m 0 c 2)) $$ [Hq2]
  · sl_unfold_run_names
    rw [store_P_0_2 m c]
    iexact Hq2
  first | sl_exec | skip
  iapply (step_RS_d m K c 1 (by decide) 0 (by decide) (cnt 15 0) _ (dev32_eq c)) $$ [HO Hrg1 Hdr1 Hp2 Hx2]
  · isplitr; · iexact HI
    isplitl [HO]; · iexact HO
    isplitl [Hrg1]; · iexact Hrg1
    isplitl [Hdr1]; · iexact Hdr1
    isplitl [Hp2]; · iexact Hp2
    (iexists _; iexact Hx2)
  iintro ⟨HO, Hrs1⟩
  first | iapply (wp_ret_bind c _ _ _) | skip
  -- layer 0: the piece for chunk 3, stored into slot 3 of P and sent back
  first | sl_exec | skip
  icases Hp3 with ⟨%fp3, Hp3⟩
  iapply (loadPany c (3 : Fin 16) fp3) $$ [Hp3]
  · iexact Hp3
  iintro Hp3
  first | iapply (wp_ret_bind c _ _ _) | skip
  first | sl_exec | skip
  iapply (storeP c (3 : Fin 16) _) $$ [Hp3]
  · iexists _; iexact Hp3
  iintro Hq3
  first | iapply (wp_ret_bind c _ _ _) | skip
  ihave Hp3 : pPts (F := F) c (3 : Fin 16) (pfill c (3 : Fin 16) (pieceAt m 0 c 3)) $$ [Hq3]
  · sl_unfold_run_names
    rw [store_P_0_3 m c]
    iexact Hq3
  first | sl_exec | skip
  iapply (step_RS_d m K c 2 (by decide) 0 (by decide) (cnt 15 0) _ (dev33_eq c)) $$ [HO Hrg2 Hdr2 Hp3 Hx3]
  · isplitr; · iexact HI
    isplitl [HO]; · iexact HO
    isplitl [Hrg2]; · iexact Hrg2
    isplitl [Hdr2]; · iexact Hdr2
    isplitl [Hp3]; · iexact Hp3
    (iexists _; iexact Hx3)
  iintro ⟨HO, Hrs2⟩
  first | iapply (wp_ret_bind c _ _ _) | skip
  -- layer 0: wait for chunk 4 (from the device 4 places before)
  first | sl_exec | skip
  iapply (step_AR m K c (3 : Fin 15) 0 (by decide) (cnt 15 0) (cnt 3 0) (lt_cnt_full 0) (lt_cnt 3 0)) $$ [HO Hrc3]
  · isplitr; · iexact HI
    isplitl [HO]; · iexact HO
    isplitr; · iexact Hlev
    iexact Hrc3
  iintro ⟨HO, Hrg3, Hpay⟩
  first | iapply (wp_ret_bind c _ _ _) | skip
  ihave Hpay' := (agRPay_open m c (3 : Fin 15) 0) $$ Hpay
  icases Hpay' with ⟨Hx4, Hdr3⟩
  -- layer 0: wait for chunk 5 (from the device 5 places before)
  first | sl_exec | skip
  iapply (step_AR m K c (4 : Fin 15) 0 (by decide) (cnt 15 0) (cnt 3 0) (lt_cnt_full 0) (lt_cnt 3 0)) $$ [HO Hrc4]
  · isplitr; · iexact HI
    isplitl [HO]; · iexact HO
    isplitr; · iexact Hlev
    iexact Hrc4
  iintro ⟨HO, Hrg4, Hpay⟩
  first | iapply (wp_ret_bind c _ _ _) | skip
  ihave Hpay' := (agRPay_open m c (4 : Fin 15) 0) $$ Hpay
  icases Hpay' with ⟨Hx5, Hdr4⟩
  -- layer 0, group 2: the two chunks read as one block of 512 rows
  first | sl_exec | skip
  iapply (loadX c (2 : Fin 8) 0 (chunkAt m 0 (bwd c 4)) (chunkAt m 0 (bwd c 5))) $$ [Hx4 Hx5]
  · isplitl [Hx4]; · iexact Hx4
    iexact Hx5
  iintro ⟨Hx4, Hx5⟩
  first | iapply (wp_ret_bind c _ _ _) | skip
  -- layer 0: the piece for chunk 4, stored into slot 4 of P and sent back
  first | sl_exec | skip
  icases Hp4 with ⟨%fp4, Hp4⟩
  iapply (loadPany c (4 : Fin 16) fp4) $$ [Hp4]
  · iexact Hp4
  iintro Hp4
  first | iapply (wp_ret_bind c _ _ _) | skip
  first | sl_exec | skip
  iapply (storeP c (4 : Fin 16) _) $$ [Hp4]
  · iexists _; iexact Hp4
  iintro Hq4
  first | iapply (wp_ret_bind c _ _ _) | skip
  ihave Hp4 : pPts (F := F) c (4 : Fin 16) (pfill c (4 : Fin 16) (pieceAt m 0 c 4)) $$ [Hq4]
  · sl_unfold_run_names
    rw [store_P_0_4 m c]
    iexact Hq4
  first | sl_exec | skip
  iapply (step_RS_d m K c 3 (by decide) 0 (by decide) (cnt 15 0) _ (dev34_eq c)) $$ [HO Hrg3 Hdr3 Hp4 Hx4]
  · isplitr; · iexact HI
    isplitl [HO]; · iexact HO
    isplitl [Hrg3]; · iexact Hrg3
    isplitl [Hdr3]; · iexact Hdr3
    isplitl [Hp4]; · iexact Hp4
    (iexists _; iexact Hx4)
  iintro ⟨HO, Hrs3⟩
  first | iapply (wp_ret_bind c _ _ _) | skip
  -- layer 0: the piece for chunk 5, stored into slot 5 of P and sent back
  first | sl_exec | skip
  icases Hp5 with ⟨%fp5, Hp5⟩
  iapply (loadPany c (5 : Fin 16) fp5) $$ [Hp5]
  · iexact Hp5
  iintro Hp5
  first | iapply (wp_ret_bind c _ _ _) | skip
  first | sl_exec | skip
  iapply (storeP c (5 : Fin 16) _) $$ [Hp5]
  · iexists _; iexact Hp5
  iintro Hq5
  first | iapply (wp_ret_bind c _ _ _) | skip
  ihave Hp5 : pPts (F := F) c (5 : Fin 16) (pfill c (5 : Fin 16) (pieceAt m 0 c 5)) $$ [Hq5]
  · sl_unfold_run_names
    rw [store_P_0_5 m c]
    iexact Hq5
  first | sl_exec | skip
  iapply (step_RS_d m K c 4 (by decide) 0 (by decide) (cnt 15 0) _ (dev35_eq c)) $$ [HO Hrg4 Hdr4 Hp5 Hx5]
  · isplitr; · iexact HI
    isplitl [HO]; · iexact HO
    isplitl [Hrg4]; · iexact Hrg4
    isplitl [Hdr4]; · iexact Hdr4
    isplitl [Hp5]; · iexact Hp5
    (iexists _; iexact Hx5)
  iintro ⟨HO, Hrs4⟩
  first | iapply (wp_ret_bind c _ _ _) | skip
  -- layer 0: wait for chunk 6 (from the device 6 places before)
  first | sl_exec | skip
  iapply (step_AR m K c (5 : Fin 15) 0 (by decide) (cnt 15 0) (cnt 5 0) (lt_cnt_full 0) (lt_cnt 5 0)) $$ [HO Hrc5]
  · isplitr; · iexact HI
    isplitl [HO]; · iexact HO
    isplitr; · iexact Hlev
    iexact Hrc5
  iintro ⟨HO, Hrg5, Hpay⟩
  first | iapply (wp_ret_bind c _ _ _) | skip
  ihave Hpay' := (agRPay_open m c (5 : Fin 15) 0) $$ Hpay
  icases Hpay' with ⟨Hx6, Hdr5⟩
  -- layer 0: wait for chunk 7 (from the device 7 places before)
  first | sl_exec | skip
  iapply (step_AR m K c (6 : Fin 15) 0 (by decide) (cnt 15 0) (cnt 5 0) (lt_cnt_full 0) (lt_cnt 5 0)) $$ [HO Hrc6]
  · isplitr; · iexact HI
    isplitl [HO]; · iexact HO
    isplitr; · iexact Hlev
    iexact Hrc6
  iintro ⟨HO, Hrg6, Hpay⟩
  first | iapply (wp_ret_bind c _ _ _) | skip
  ihave Hpay' := (agRPay_open m c (6 : Fin 15) 0) $$ Hpay
  icases Hpay' with ⟨Hx7, Hdr6⟩
  -- layer 0, group 3: the two chunks read as one block of 512 rows
  first | sl_exec | skip
  iapply (loadX c (3 : Fin 8) 0 (chunkAt m 0 (bwd c 6)) (chunkAt m 0 (bwd c 7))) $$ [Hx6 Hx7]
  · isplitl [Hx6]; · iexact Hx6
    iexact Hx7
  iintro ⟨Hx6, Hx7⟩
  first | iapply (wp_ret_bind c _ _ _) | skip
  -- layer 0: the piece for chunk 6, stored into slot 6 of P and sent back
  first | sl_exec | skip
  icases Hp6 with ⟨%fp6, Hp6⟩
  iapply (loadPany c (6 : Fin 16) fp6) $$ [Hp6]
  · iexact Hp6
  iintro Hp6
  first | iapply (wp_ret_bind c _ _ _) | skip
  first | sl_exec | skip
  iapply (storeP c (6 : Fin 16) _) $$ [Hp6]
  · iexists _; iexact Hp6
  iintro Hq6
  first | iapply (wp_ret_bind c _ _ _) | skip
  ihave Hp6 : pPts (F := F) c (6 : Fin 16) (pfill c (6 : Fin 16) (pieceAt m 0 c 6)) $$ [Hq6]
  · sl_unfold_run_names
    rw [store_P_0_6 m c]
    iexact Hq6
  first | sl_exec | skip
  iapply (step_RS_d m K c 5 (by decide) 0 (by decide) (cnt 15 0) _ (dev36_eq c)) $$ [HO Hrg5 Hdr5 Hp6 Hx6]
  · isplitr; · iexact HI
    isplitl [HO]; · iexact HO
    isplitl [Hrg5]; · iexact Hrg5
    isplitl [Hdr5]; · iexact Hdr5
    isplitl [Hp6]; · iexact Hp6
    (iexists _; iexact Hx6)
  iintro ⟨HO, Hrs5⟩
  first | iapply (wp_ret_bind c _ _ _) | skip
  -- layer 0: the piece for chunk 7, stored into slot 7 of P and sent back
  first | sl_exec | skip
  icases Hp7 with ⟨%fp7, Hp7⟩
  iapply (loadPany c (7 : Fin 16) fp7) $$ [Hp7]
  · iexact Hp7
  iintro Hp7
  first | iapply (wp_ret_bind c _ _ _) | skip
  first | sl_exec | skip
  iapply (storeP c (7 : Fin 16) _) $$ [Hp7]
  · iexists _; iexact Hp7
  iintro Hq7
  first | iapply (wp_ret_bind c _ _ _) | skip
  ihave Hp7 : pPts (F := F) c (7 : Fin 16) (pfill c (7 : Fin 16) (pieceAt m 0 c 7)) $$ [Hq7]
  · sl_unfold_run_names
    rw [store_P_0_7 m c]
    iexact Hq7
  first | sl_exec | skip
  iapply (step_RS_d m K c 6 (by decide) 0 (by decide) (cnt 15 0) _ (dev37_eq c)) $$ [HO Hrg6 Hdr6 Hp7 Hx7]
  · isplitr; · iexact HI
    isplitl [HO]; · iexact HO
    isplitl [Hrg6]; · iexact Hrg6
    isplitl [Hdr6]; · iexact Hdr6
    isplitl [Hp7]; · iexact Hp7
    (iexists _; iexact Hx7)
  iintro ⟨HO, Hrs6⟩
  first | iapply (wp_ret_bind c _ _ _) | skip
  -- layer 0: wait for chunk 8 (from the device 8 places before)
  first | sl_exec | skip
  iapply (step_AR m K c (7 : Fin 15) 0 (by decide) (cnt 15 0) (cnt 7 0) (lt_cnt_full 0) (lt_cnt 7 0)) $$ [HO Hrc7]
  · isplitr; · iexact HI
    isplitl [HO]; · iexact HO
    isplitr; · iexact Hlev
    iexact Hrc7
  iintro ⟨HO, Hrg7, Hpay⟩
  first | iapply (wp_ret_bind c _ _ _) | skip
  ihave Hpay' := (agRPay_open m c (7 : Fin 15) 0) $$ Hpay
  icases Hpay' with ⟨Hx8, Hdr7⟩
  -- layer 0: wait for chunk 9 (from the device 9 places before)
  first | sl_exec | skip
  iapply (step_AR m K c (8 : Fin 15) 0 (by decide) (cnt 15 0) (cnt 7 0) (lt_cnt_full 0) (lt_cnt 7 0)) $$ [HO Hrc8]
  · isplitr; · iexact HI
    isplitl [HO]; · iexact HO
    isplitr; · iexact Hlev
    iexact Hrc8
  iintro ⟨HO, Hrg8, Hpay⟩
  first | iapply (wp_ret_bind c _ _ _) | skip
  ihave Hpay' := (agRPay_open m c (8 : Fin 15) 0) $$ Hpay
  icases Hpay' with ⟨Hx9, Hdr8⟩
  -- layer 0, group 4: the two chunks read as one block of 512 rows
  first | sl_exec | skip
  iapply (loadX c (4 : Fin 8) 0 (chunkAt m 0 (bwd c 8)) (chunkAt m 0 (bwd c 9))) $$ [Hx8 Hx9]
  · isplitl [Hx8]; · iexact Hx8
    iexact Hx9
  iintro ⟨Hx8, Hx9⟩
  first | iapply (wp_ret_bind c _ _ _) | skip
  -- layer 0: the piece for chunk 8, stored into slot 8 of P and sent back
  first | sl_exec | skip
  icases Hp8 with ⟨%fp8, Hp8⟩
  iapply (loadPany c (8 : Fin 16) fp8) $$ [Hp8]
  · iexact Hp8
  iintro Hp8
  first | iapply (wp_ret_bind c _ _ _) | skip
  first | sl_exec | skip
  iapply (storeP c (8 : Fin 16) _) $$ [Hp8]
  · iexists _; iexact Hp8
  iintro Hq8
  first | iapply (wp_ret_bind c _ _ _) | skip
  ihave Hp8 : pPts (F := F) c (8 : Fin 16) (pfill c (8 : Fin 16) (pieceAt m 0 c 8)) $$ [Hq8]
  · sl_unfold_run_names
    rw [store_P_0_8 m c]
    iexact Hq8
  first | sl_exec | skip
  iapply (step_RS_d m K c 7 (by decide) 0 (by decide) (cnt 15 0) _ (dev38_eq c)) $$ [HO Hrg7 Hdr7 Hp8 Hx8]
  · isplitr; · iexact HI
    isplitl [HO]; · iexact HO
    isplitl [Hrg7]; · iexact Hrg7
    isplitl [Hdr7]; · iexact Hdr7
    isplitl [Hp8]; · iexact Hp8
    (iexists _; iexact Hx8)
  iintro ⟨HO, Hrs7⟩
  first | iapply (wp_ret_bind c _ _ _) | skip
  -- layer 0: the piece for chunk 9, stored into slot 9 of P and sent back
  first | sl_exec | skip
  icases Hp9 with ⟨%fp9, Hp9⟩
  iapply (loadPany c (9 : Fin 16) fp9) $$ [Hp9]
  · iexact Hp9
  iintro Hp9
  first | iapply (wp_ret_bind c _ _ _) | skip
  first | sl_exec | skip
  iapply (storeP c (9 : Fin 16) _) $$ [Hp9]
  · iexists _; iexact Hp9
  iintro Hq9
  first | iapply (wp_ret_bind c _ _ _) | skip
  ihave Hp9 : pPts (F := F) c (9 : Fin 16) (pfill c (9 : Fin 16) (pieceAt m 0 c 9)) $$ [Hq9]
  · sl_unfold_run_names
    rw [store_P_0_9 m c]
    iexact Hq9
  first | sl_exec | skip
  iapply (step_RS_d m K c 8 (by decide) 0 (by decide) (cnt 15 0) _ (dev39_eq c)) $$ [HO Hrg8 Hdr8 Hp9 Hx9]
  · isplitr; · iexact HI
    isplitl [HO]; · iexact HO
    isplitl [Hrg8]; · iexact Hrg8
    isplitl [Hdr8]; · iexact Hdr8
    isplitl [Hp9]; · iexact Hp9
    (iexists _; iexact Hx9)
  iintro ⟨HO, Hrs8⟩
  first | iapply (wp_ret_bind c _ _ _) | skip
  -- layer 0: wait for chunk 10 (from the device 10 places before)
  first | sl_exec | skip
  iapply (step_AR m K c (9 : Fin 15) 0 (by decide) (cnt 15 0) (cnt 9 0) (lt_cnt_full 0) (lt_cnt 9 0)) $$ [HO Hrc9]
  · isplitr; · iexact HI
    isplitl [HO]; · iexact HO
    isplitr; · iexact Hlev
    iexact Hrc9
  iintro ⟨HO, Hrg9, Hpay⟩
  first | iapply (wp_ret_bind c _ _ _) | skip
  ihave Hpay' := (agRPay_open m c (9 : Fin 15) 0) $$ Hpay
  icases Hpay' with ⟨Hx10, Hdr9⟩
  -- layer 0: wait for chunk 11 (from the device 11 places before)
  first | sl_exec | skip
  iapply (step_AR m K c (10 : Fin 15) 0 (by decide) (cnt 15 0) (cnt 9 0) (lt_cnt_full 0) (lt_cnt 9 0)) $$ [HO Hrc10]
  · isplitr; · iexact HI
    isplitl [HO]; · iexact HO
    isplitr; · iexact Hlev
    iexact Hrc10
  iintro ⟨HO, Hrg10, Hpay⟩
  first | iapply (wp_ret_bind c _ _ _) | skip
  ihave Hpay' := (agRPay_open m c (10 : Fin 15) 0) $$ Hpay
  icases Hpay' with ⟨Hx11, Hdr10⟩
  -- layer 0, group 5: the two chunks read as one block of 512 rows
  first | sl_exec | skip
  iapply (loadX c (5 : Fin 8) 0 (chunkAt m 0 (bwd c 10)) (chunkAt m 0 (bwd c 11))) $$ [Hx10 Hx11]
  · isplitl [Hx10]; · iexact Hx10
    iexact Hx11
  iintro ⟨Hx10, Hx11⟩
  first | iapply (wp_ret_bind c _ _ _) | skip
  -- layer 0: the piece for chunk 10, stored into slot 10 of P and sent back
  first | sl_exec | skip
  icases Hp10 with ⟨%fp10, Hp10⟩
  iapply (loadPany c (10 : Fin 16) fp10) $$ [Hp10]
  · iexact Hp10
  iintro Hp10
  first | iapply (wp_ret_bind c _ _ _) | skip
  first | sl_exec | skip
  iapply (storeP c (10 : Fin 16) _) $$ [Hp10]
  · iexists _; iexact Hp10
  iintro Hq10
  first | iapply (wp_ret_bind c _ _ _) | skip
  ihave Hp10 : pPts (F := F) c (10 : Fin 16) (pfill c (10 : Fin 16) (pieceAt m 0 c 10)) $$ [Hq10]
  · sl_unfold_run_names
    rw [store_P_0_10 m c]
    iexact Hq10
  first | sl_exec | skip
  iapply (step_RS_d m K c 9 (by decide) 0 (by decide) (cnt 15 0) _ (dev40_eq c)) $$ [HO Hrg9 Hdr9 Hp10 Hx10]
  · isplitr; · iexact HI
    isplitl [HO]; · iexact HO
    isplitl [Hrg9]; · iexact Hrg9
    isplitl [Hdr9]; · iexact Hdr9
    isplitl [Hp10]; · iexact Hp10
    (iexists _; iexact Hx10)
  iintro ⟨HO, Hrs9⟩
  first | iapply (wp_ret_bind c _ _ _) | skip
  -- layer 0: the piece for chunk 11, stored into slot 11 of P and sent back
  first | sl_exec | skip
  icases Hp11 with ⟨%fp11, Hp11⟩
  iapply (loadPany c (11 : Fin 16) fp11) $$ [Hp11]
  · iexact Hp11
  iintro Hp11
  first | iapply (wp_ret_bind c _ _ _) | skip
  first | sl_exec | skip
  iapply (storeP c (11 : Fin 16) _) $$ [Hp11]
  · iexists _; iexact Hp11
  iintro Hq11
  first | iapply (wp_ret_bind c _ _ _) | skip
  ihave Hp11 : pPts (F := F) c (11 : Fin 16) (pfill c (11 : Fin 16) (pieceAt m 0 c 11)) $$ [Hq11]
  · sl_unfold_run_names
    first | rw [store_P_0_11' m c] | rw [store_P_0_11 m c]
    iexact Hq11
  first | sl_exec | skip
  iapply (step_RS_d m K c 10 (by decide) 0 (by decide) (cnt 15 0) _ (dev41_eq c)) $$ [HO Hrg10 Hdr10 Hp11 Hx11]
  · isplitr; · iexact HI
    isplitl [HO]; · iexact HO
    isplitl [Hrg10]; · iexact Hrg10
    isplitl [Hdr10]; · iexact Hdr10
    isplitl [Hp11]; · iexact Hp11
    (iexists _; iexact Hx11)
  iintro ⟨HO, Hrs10⟩
  first | iapply (wp_ret_bind c _ _ _) | skip
  -- layer 0: wait for chunk 12 (from the device 12 places before)
  first | sl_exec | skip
  iapply (step_AR m K c (11 : Fin 15) 0 (by decide) (cnt 15 0) (cnt 11 0) (lt_cnt_full 0) (lt_cnt 11 0)) $$ [HO Hrc11]
  · isplitr; · iexact HI
    isplitl [HO]; · iexact HO
    isplitr; · iexact Hlev
    iexact Hrc11
  iintro ⟨HO, Hrg11, Hpay⟩
  first | iapply (wp_ret_bind c _ _ _) | skip
  ihave Hpay' := (agRPay_open m c (11 : Fin 15) 0) $$ Hpay
  icases Hpay' with ⟨Hx12, Hdr11⟩
  -- layer 0: wait for chunk 13 (from the device 13 places before)
  first | sl_exec | skip
  iapply (step_AR m K c (12 : Fin 15) 0 (by decide) (cnt 15 0) (cnt 11 0) (lt_cnt_full 0) (lt_cnt 11 0)) $$ [HO Hrc12]
  · isplitr; · iexact HI
    isplitl [HO]; · iexact HO
    isplitr; · iexact Hlev
    iexact Hrc12
  iintro ⟨HO, Hrg12, Hpay⟩
  first | iapply (wp_ret_bind c _ _ _) | skip
  ihave Hpay' := (agRPay_open m c (12 : Fin 15) 0) $$ Hpay
  icases Hpay' with ⟨Hx13, Hdr12⟩
  -- layer 0, group 6: the two chunks read as one block of 512 rows
  first | sl_exec | skip
  iapply (loadX c (6 : Fin 8) 0 (chunkAt m 0 (bwd c 12)) (chunkAt m 0 (bwd c 13))) $$ [Hx12 Hx13]
  · isplitl [Hx12]; · iexact Hx12
    iexact Hx13
  iintro ⟨Hx12, Hx13⟩
  first | iapply (wp_ret_bind c _ _ _) | skip
  -- layer 0: the piece for chunk 12, stored into slot 12 of P and sent back
  first | sl_exec | skip
  icases Hp12 with ⟨%fp12, Hp12⟩
  iapply (loadPany c (12 : Fin 16) fp12) $$ [Hp12]
  · iexact Hp12
  iintro Hp12
  first | iapply (wp_ret_bind c _ _ _) | skip
  first | sl_exec | skip
  iapply (storeP c (12 : Fin 16) _) $$ [Hp12]
  · iexists _; iexact Hp12
  iintro Hq12
  first | iapply (wp_ret_bind c _ _ _) | skip
  ihave Hp12 : pPts (F := F) c (12 : Fin 16) (pfill c (12 : Fin 16) (pieceAt m 0 c 12)) $$ [Hq12]
  · sl_unfold_run_names
    first | rw [store_P_0_12' m c] | rw [store_P_0_12 m c]
    iexact Hq12
  first | sl_exec | skip
  iapply (step_RS_d m K c 11 (by decide) 0 (by decide) (cnt 15 0) _ (dev42_eq c)) $$ [HO Hrg11 Hdr11 Hp12 Hx12]
  · isplitr; · iexact HI
    isplitl [HO]; · iexact HO
    isplitl [Hrg11]; · iexact Hrg11
    isplitl [Hdr11]; · iexact Hdr11
    isplitl [Hp12]; · iexact Hp12
    (iexists _; iexact Hx12)
  iintro ⟨HO, Hrs11⟩
  first | iapply (wp_ret_bind c _ _ _) | skip
  -- layer 0: the piece for chunk 13, stored into slot 13 of P and sent back
  first | sl_exec | skip
  icases Hp13 with ⟨%fp13, Hp13⟩
  iapply (loadPany c (13 : Fin 16) fp13) $$ [Hp13]
  · iexact Hp13
  iintro Hp13
  first | iapply (wp_ret_bind c _ _ _) | skip
  first | sl_exec | skip
  iapply (storeP c (13 : Fin 16) _) $$ [Hp13]
  · iexists _; iexact Hp13
  iintro Hq13
  first | iapply (wp_ret_bind c _ _ _) | skip
  ihave Hp13 : pPts (F := F) c (13 : Fin 16) (pfill c (13 : Fin 16) (pieceAt m 0 c 13)) $$ [Hq13]
  · sl_unfold_run_names
    rw [store_P_0_13 m c]
    iexact Hq13
  first | sl_exec | skip
  iapply (step_RS_d m K c 12 (by decide) 0 (by decide) (cnt 15 0) _ (dev43_eq c)) $$ [HO Hrg12 Hdr12 Hp13 Hx13]
  · isplitr; · iexact HI
    isplitl [HO]; · iexact HO
    isplitl [Hrg12]; · iexact Hrg12
    isplitl [Hdr12]; · iexact Hdr12
    isplitl [Hp13]; · iexact Hp13
    (iexists _; iexact Hx13)
  iintro ⟨HO, Hrs12⟩
  first | iapply (wp_ret_bind c _ _ _) | skip
  -- layer 0: wait for chunk 14 (from the device 14 places before)
  first | sl_exec | skip
  iapply (step_AR m K c (13 : Fin 15) 0 (by decide) (cnt 15 0) (cnt 13 0) (lt_cnt_full 0) (lt_cnt 13 0)) $$ [HO Hrc13]
  · isplitr; · iexact HI
    isplitl [HO]; · iexact HO
    isplitr; · iexact Hlev
    iexact Hrc13
  iintro ⟨HO, Hrg13, Hpay⟩
  first | iapply (wp_ret_bind c _ _ _) | skip
  ihave Hpay' := (agRPay_open m c (13 : Fin 15) 0) $$ Hpay
  icases Hpay' with ⟨Hx14, Hdr13⟩
  -- layer 0: wait for chunk 15 (from the device 15 places before)
  first | sl_exec | skip
  iapply (step_AR m K c (14 : Fin 15) 0 (by decide) (cnt 15 0) (cnt 13 0) (lt_cnt_full 0) (lt_cnt 13 0)) $$ [HO Hrc14]
  · isplitr; · iexact HI
    isplitl [HO]; · iexact HO
    isplitr; · iexact Hlev
    iexact Hrc14
  iintro ⟨HO, Hrg14, Hpay⟩
  first | iapply (wp_ret_bind c _ _ _) | skip
  ihave Hpay' := (agRPay_open m c (14 : Fin 15) 0) $$ Hpay
  icases Hpay' with ⟨Hx15, Hdr14⟩
  -- layer 0, group 7: the two chunks read as one block of 512 rows
  first | sl_exec | skip
  iapply (loadX c (7 : Fin 8) 0 (chunkAt m 0 (bwd c 14)) (chunkAt m 0 (bwd c 15))) $$ [Hx14 Hx15]
  · isplitl [Hx14]; · iexact Hx14
    iexact Hx15
  iintro ⟨Hx14, Hx15⟩
  first | iapply (wp_ret_bind c _ _ _) | skip
  -- layer 0: the piece for chunk 14, stored into slot 14 of P and sent back
  first | sl_exec | skip
  icases Hp14 with ⟨%fp14, Hp14⟩
  iapply (loadPany c (14 : Fin 16) fp14) $$ [Hp14]
  · iexact Hp14
  iintro Hp14
  first | iapply (wp_ret_bind c _ _ _) | skip
  first | sl_exec | skip
  iapply (storeP c (14 : Fin 16) _) $$ [Hp14]
  · iexists _; iexact Hp14
  iintro Hq14
  first | iapply (wp_ret_bind c _ _ _) | skip
  ihave Hp14 : pPts (F := F) c (14 : Fin 16) (pfill c (14 : Fin 16) (pieceAt m 0 c 14)) $$ [Hq14]
  · sl_unfold_run_names
    rw [store_P_0_14 m c]
    iexact Hq14
  first | sl_exec | skip
  iapply (step_RS_d m K c 13 (by decide) 0 (by decide) (cnt 15 0) _ (dev44_eq c)) $$ [HO Hrg13 Hdr13 Hp14 Hx14]
  · isplitr; · iexact HI
    isplitl [HO]; · iexact HO
    isplitl [Hrg13]; · iexact Hrg13
    isplitl [Hdr13]; · iexact Hdr13
    isplitl [Hp14]; · iexact Hp14
    (iexists _; iexact Hx14)
  iintro ⟨HO, Hrs13⟩
  first | iapply (wp_ret_bind c _ _ _) | skip
  -- layer 0: the piece for chunk 15, stored into slot 15 of P and sent back
  first | sl_exec | skip
  icases Hp15 with ⟨%fp15, Hp15⟩
  iapply (loadPany c (15 : Fin 16) fp15) $$ [Hp15]
  · iexact Hp15
  iintro Hp15
  first | iapply (wp_ret_bind c _ _ _) | skip
  first | sl_exec | skip
  iapply (storeP c (15 : Fin 16) _) $$ [Hp15]
  · iexists _; iexact Hp15
  iintro Hq15
  first | iapply (wp_ret_bind c _ _ _) | skip
  ihave Hp15 : pPts (F := F) c (15 : Fin 16) (pfill c (15 : Fin 16) (pieceAt m 0 c 15)) $$ [Hq15]
  · sl_unfold_run_names
    rw [store_P_0_15 m c]
    iexact Hq15
  first | sl_exec | skip
  iapply (step_RS_d m K c 14 (by decide) 0 (by decide) (cnt 15 0) _ (dev45_eq c)) $$ [HO Hrg14 Hdr14 Hp15 Hx15]
  · isplitr; · iexact HI
    isplitl [HO]; · iexact HO
    isplitl [Hrg14]; · iexact Hrg14
    isplitl [Hdr14]; · iexact Hdr14
    isplitl [Hp15]; · iexact Hp15
    (iexists _; iexact Hx15)
  iintro ⟨HO, Hrs14⟩
  first | iapply (wp_ret_bind c _ _ _) | skip
  -- layer 0: the send side of chunk copy 1
  first | sl_exec | skip
  iapply (step_AW m K c (0 : Fin 15) 0 (by decide) (cnt 15 0) (cnt 15 0) (lt_cnt_full 0) (fun i => (lt_cnt_full 0 i).le)) $$ [HO Hss0]
  · isplitr; · iexact HI
    isplitl [HO]; · iexact HO
    isplitr; · iexact Hlev
    iexact Hss0
  iintro ⟨HO, Hsw0, Hl0⟩
  first | iapply (wp_ret_bind c _ _ _) | skip
  -- layer 0: the send side of chunk copy 2
  first | sl_exec | skip
  iapply (step_AW m K c (1 : Fin 15) 0 (by decide) (cnt 15 0) (cnt 15 0) (lt_cnt_full 0) (fun i => (lt_cnt_full 0 i).le)) $$ [HO Hss1]
  · isplitr; · iexact HI
    isplitl [HO]; · iexact HO
    isplitr; · iexact Hlev
    iexact Hss1
  iintro ⟨HO, Hsw1, Hl1⟩
  first | iapply (wp_ret_bind c _ _ _) | skip
  -- layer 0: the send side of chunk copy 3
  first | sl_exec | skip
  iapply (step_AW m K c (2 : Fin 15) 0 (by decide) (cnt 15 0) (cnt 15 0) (lt_cnt_full 0) (fun i => (lt_cnt_full 0 i).le)) $$ [HO Hss2]
  · isplitr; · iexact HI
    isplitl [HO]; · iexact HO
    isplitr; · iexact Hlev
    iexact Hss2
  iintro ⟨HO, Hsw2, Hl2⟩
  first | iapply (wp_ret_bind c _ _ _) | skip
  -- layer 0: the send side of chunk copy 4
  first | sl_exec | skip
  iapply (step_AW m K c (3 : Fin 15) 0 (by decide) (cnt 15 0) (cnt 15 0) (lt_cnt_full 0) (fun i => (lt_cnt_full 0 i).le)) $$ [HO Hss3]
  · isplitr; · iexact HI
    isplitl [HO]; · iexact HO
    isplitr; · iexact Hlev
    iexact Hss3
  iintro ⟨HO, Hsw3, Hl3⟩
  first | iapply (wp_ret_bind c _ _ _) | skip
  -- layer 0: the send side of chunk copy 5
  first | sl_exec | skip
  iapply (step_AW m K c (4 : Fin 15) 0 (by decide) (cnt 15 0) (cnt 15 0) (lt_cnt_full 0) (fun i => (lt_cnt_full 0 i).le)) $$ [HO Hss4]
  · isplitr; · iexact HI
    isplitl [HO]; · iexact HO
    isplitr; · iexact Hlev
    iexact Hss4
  iintro ⟨HO, Hsw4, Hl4⟩
  first | iapply (wp_ret_bind c _ _ _) | skip
  -- layer 0: the send side of chunk copy 6
  first | sl_exec | skip
  iapply (step_AW m K c (5 : Fin 15) 0 (by decide) (cnt 15 0) (cnt 15 0) (lt_cnt_full 0) (fun i => (lt_cnt_full 0 i).le)) $$ [HO Hss5]
  · isplitr; · iexact HI
    isplitl [HO]; · iexact HO
    isplitr; · iexact Hlev
    iexact Hss5
  iintro ⟨HO, Hsw5, Hl5⟩
  first | iapply (wp_ret_bind c _ _ _) | skip
  -- layer 0: the send side of chunk copy 7
  first | sl_exec | skip
  iapply (step_AW m K c (6 : Fin 15) 0 (by decide) (cnt 15 0) (cnt 15 0) (lt_cnt_full 0) (fun i => (lt_cnt_full 0 i).le)) $$ [HO Hss6]
  · isplitr; · iexact HI
    isplitl [HO]; · iexact HO
    isplitr; · iexact Hlev
    iexact Hss6
  iintro ⟨HO, Hsw6, Hl6⟩
  first | iapply (wp_ret_bind c _ _ _) | skip
  -- layer 0: the send side of chunk copy 8
  first | sl_exec | skip
  iapply (step_AW m K c (7 : Fin 15) 0 (by decide) (cnt 15 0) (cnt 15 0) (lt_cnt_full 0) (fun i => (lt_cnt_full 0 i).le)) $$ [HO Hss7]
  · isplitr; · iexact HI
    isplitl [HO]; · iexact HO
    isplitr; · iexact Hlev
    iexact Hss7
  iintro ⟨HO, Hsw7, Hl7⟩
  first | iapply (wp_ret_bind c _ _ _) | skip
  -- layer 0: the send side of chunk copy 9
  first | sl_exec | skip
  iapply (step_AW m K c (8 : Fin 15) 0 (by decide) (cnt 15 0) (cnt 15 0) (lt_cnt_full 0) (fun i => (lt_cnt_full 0 i).le)) $$ [HO Hss8]
  · isplitr; · iexact HI
    isplitl [HO]; · iexact HO
    isplitr; · iexact Hlev
    iexact Hss8
  iintro ⟨HO, Hsw8, Hl8⟩
  first | iapply (wp_ret_bind c _ _ _) | skip
  -- layer 0: the send side of chunk copy 10
  first | sl_exec | skip
  iapply (step_AW m K c (9 : Fin 15) 0 (by decide) (cnt 15 0) (cnt 15 0) (lt_cnt_full 0) (fun i => (lt_cnt_full 0 i).le)) $$ [HO Hss9]
  · isplitr; · iexact HI
    isplitl [HO]; · iexact HO
    isplitr; · iexact Hlev
    iexact Hss9
  iintro ⟨HO, Hsw9, Hl9⟩
  first | iapply (wp_ret_bind c _ _ _) | skip
  -- layer 0: the send side of chunk copy 11
  first | sl_exec | skip
  iapply (step_AW m K c (10 : Fin 15) 0 (by decide) (cnt 15 0) (cnt 15 0) (lt_cnt_full 0) (fun i => (lt_cnt_full 0 i).le)) $$ [HO Hss10]
  · isplitr; · iexact HI
    isplitl [HO]; · iexact HO
    isplitr; · iexact Hlev
    iexact Hss10
  iintro ⟨HO, Hsw10, Hl10⟩
  first | iapply (wp_ret_bind c _ _ _) | skip
  -- layer 0: the send side of chunk copy 12
  first | sl_exec | skip
  iapply (step_AW m K c (11 : Fin 15) 0 (by decide) (cnt 15 0) (cnt 15 0) (lt_cnt_full 0) (fun i => (lt_cnt_full 0 i).le)) $$ [HO Hss11]
  · isplitr; · iexact HI
    isplitl [HO]; · iexact HO
    isplitr; · iexact Hlev
    iexact Hss11
  iintro ⟨HO, Hsw11, Hl11⟩
  first | iapply (wp_ret_bind c _ _ _) | skip
  -- layer 0: the send side of chunk copy 13
  first | sl_exec | skip
  iapply (step_AW m K c (12 : Fin 15) 0 (by decide) (cnt 15 0) (cnt 15 0) (lt_cnt_full 0) (fun i => (lt_cnt_full 0 i).le)) $$ [HO Hss12]
  · isplitr; · iexact HI
    isplitl [HO]; · iexact HO
    isplitr; · iexact Hlev
    iexact Hss12
  iintro ⟨HO, Hsw12, Hl12⟩
  first | iapply (wp_ret_bind c _ _ _) | skip
  -- layer 0: the send side of chunk copy 14
  first | sl_exec | skip
  iapply (step_AW m K c (13 : Fin 15) 0 (by decide) (cnt 15 0) (cnt 15 0) (lt_cnt_full 0) (fun i => (lt_cnt_full 0 i).le)) $$ [HO Hss13]
  · isplitr; · iexact HI
    isplitl [HO]; · iexact HO
    isplitr; · iexact Hlev
    iexact Hss13
  iintro ⟨HO, Hsw13, Hl13⟩
  first | iapply (wp_ret_bind c _ _ _) | skip
  -- layer 0: the send side of chunk copy 15
  first | sl_exec | skip
  iapply (step_AW m K c (14 : Fin 15) 0 (by decide) (cnt 15 0) (cnt 15 0) (lt_cnt_full 0) (fun i => (lt_cnt_full 0 i).le)) $$ [HO Hss14]
  · isplitr; · iexact HI
    isplitl [HO]; · iexact HO
    isplitr; · iexact Hlev
    iexact Hss14
  iintro ⟨HO, Hsw14, Hl14⟩
  first | iapply (wp_ret_bind c _ _ _) | skip
  -- layer 0: wait for the piece of copy index 1 and read it
  first | sl_exec | skip
  iapply (step_RR m K c (0 : Fin 15) 0 (by decide) (cnt 15 0) (cnt 15 0) (lt_cnt_full 0) (lt_cnt_full 0)) $$ [HO Hsw0]
  · isplitr; · iexact HI
    isplitl [HO]; · iexact HO
    isplitr; · iexact Hlev
    iexact Hsw0
  iintro ⟨HO, Hsn0, Hpay⟩
  first | iapply (wp_ret_bind c _ _ _) | skip
  ihave Hpay' := (rsRPay_open m c (0 : Fin 15) 0 (by decide)) $$ Hpay
  icases Hpay' with ⟨Hr14, Hdx0⟩
  first | sl_exec | skip
  iapply (loadR c (14 : Fin 15) (pieceAt m 0 (fwd c 1) 1)) $$ [Hr14]
  · iexact Hr14
  iintro Hr14
  first | iapply (wp_ret_bind c _ _ _) | skip
  -- layer 0: wait for the piece of copy index 2 and read it
  first | sl_exec | skip
  iapply (step_RR m K c (1 : Fin 15) 0 (by decide) (cnt 15 0) (cnt 15 0) (lt_cnt_full 0) (lt_cnt_full 0)) $$ [HO Hsw1]
  · isplitr; · iexact HI
    isplitl [HO]; · iexact HO
    isplitr; · iexact Hlev
    iexact Hsw1
  iintro ⟨HO, Hsn1, Hpay⟩
  first | iapply (wp_ret_bind c _ _ _) | skip
  ihave Hpay' := (rsRPay_open m c (1 : Fin 15) 0 (by decide)) $$ Hpay
  icases Hpay' with ⟨Hr13, Hdx1⟩
  first | sl_exec | skip
  iapply (loadR c (13 : Fin 15) (pieceAt m 0 (fwd c 2) 2)) $$ [Hr13]
  · iexact Hr13
  iintro Hr13
  first | iapply (wp_ret_bind c _ _ _) | skip
  -- layer 0: wait for the piece of copy index 3 and read it
  first | sl_exec | skip
  iapply (step_RR m K c (2 : Fin 15) 0 (by decide) (cnt 15 0) (cnt 15 0) (lt_cnt_full 0) (lt_cnt_full 0)) $$ [HO Hsw2]
  · isplitr; · iexact HI
    isplitl [HO]; · iexact HO
    isplitr; · iexact Hlev
    iexact Hsw2
  iintro ⟨HO, Hsn2, Hpay⟩
  first | iapply (wp_ret_bind c _ _ _) | skip
  ihave Hpay' := (rsRPay_open m c (2 : Fin 15) 0 (by decide)) $$ Hpay
  icases Hpay' with ⟨Hr12, Hdx2⟩
  first | sl_exec | skip
  iapply (loadR c (12 : Fin 15) (pieceAt m 0 (fwd c 3) 3)) $$ [Hr12]
  · iexact Hr12
  iintro Hr12
  first | iapply (wp_ret_bind c _ _ _) | skip
  -- layer 0: wait for the piece of copy index 4 and read it
  first | sl_exec | skip
  iapply (step_RR m K c (3 : Fin 15) 0 (by decide) (cnt 15 0) (cnt 15 0) (lt_cnt_full 0) (lt_cnt_full 0)) $$ [HO Hsw3]
  · isplitr; · iexact HI
    isplitl [HO]; · iexact HO
    isplitr; · iexact Hlev
    iexact Hsw3
  iintro ⟨HO, Hsn3, Hpay⟩
  first | iapply (wp_ret_bind c _ _ _) | skip
  ihave Hpay' := (rsRPay_open m c (3 : Fin 15) 0 (by decide)) $$ Hpay
  icases Hpay' with ⟨Hr11, Hdx3⟩
  first | sl_exec | skip
  iapply (loadR c (11 : Fin 15) (pieceAt m 0 (fwd c 4) 4)) $$ [Hr11]
  · iexact Hr11
  iintro Hr11
  first | iapply (wp_ret_bind c _ _ _) | skip
  -- layer 0: wait for the piece of copy index 5 and read it
  first | sl_exec | skip
  iapply (step_RR m K c (4 : Fin 15) 0 (by decide) (cnt 15 0) (cnt 15 0) (lt_cnt_full 0) (lt_cnt_full 0)) $$ [HO Hsw4]
  · isplitr; · iexact HI
    isplitl [HO]; · iexact HO
    isplitr; · iexact Hlev
    iexact Hsw4
  iintro ⟨HO, Hsn4, Hpay⟩
  first | iapply (wp_ret_bind c _ _ _) | skip
  ihave Hpay' := (rsRPay_open m c (4 : Fin 15) 0 (by decide)) $$ Hpay
  icases Hpay' with ⟨Hr10, Hdx4⟩
  first | sl_exec | skip
  iapply (loadR c (10 : Fin 15) (pieceAt m 0 (fwd c 5) 5)) $$ [Hr10]
  · iexact Hr10
  iintro Hr10
  first | iapply (wp_ret_bind c _ _ _) | skip
  -- layer 0: wait for the piece of copy index 6 and read it
  first | sl_exec | skip
  iapply (step_RR m K c (5 : Fin 15) 0 (by decide) (cnt 15 0) (cnt 15 0) (lt_cnt_full 0) (lt_cnt_full 0)) $$ [HO Hsw5]
  · isplitr; · iexact HI
    isplitl [HO]; · iexact HO
    isplitr; · iexact Hlev
    iexact Hsw5
  iintro ⟨HO, Hsn5, Hpay⟩
  first | iapply (wp_ret_bind c _ _ _) | skip
  ihave Hpay' := (rsRPay_open m c (5 : Fin 15) 0 (by decide)) $$ Hpay
  icases Hpay' with ⟨Hr9, Hdx5⟩
  first | sl_exec | skip
  iapply (loadR c (9 : Fin 15) (pieceAt m 0 (fwd c 6) 6)) $$ [Hr9]
  · iexact Hr9
  iintro Hr9
  first | iapply (wp_ret_bind c _ _ _) | skip
  -- layer 0: wait for the piece of copy index 7 and read it
  first | sl_exec | skip
  iapply (step_RR m K c (6 : Fin 15) 0 (by decide) (cnt 15 0) (cnt 15 0) (lt_cnt_full 0) (lt_cnt_full 0)) $$ [HO Hsw6]
  · isplitr; · iexact HI
    isplitl [HO]; · iexact HO
    isplitr; · iexact Hlev
    iexact Hsw6
  iintro ⟨HO, Hsn6, Hpay⟩
  first | iapply (wp_ret_bind c _ _ _) | skip
  ihave Hpay' := (rsRPay_open m c (6 : Fin 15) 0 (by decide)) $$ Hpay
  icases Hpay' with ⟨Hr8, Hdx6⟩
  first | sl_exec | skip
  iapply (loadR c (8 : Fin 15) (pieceAt m 0 (fwd c 7) 7)) $$ [Hr8]
  · iexact Hr8
  iintro Hr8
  first | iapply (wp_ret_bind c _ _ _) | skip
  -- layer 0: wait for the piece of copy index 8 and read it
  first | sl_exec | skip
  iapply (step_RR m K c (7 : Fin 15) 0 (by decide) (cnt 15 0) (cnt 15 0) (lt_cnt_full 0) (lt_cnt_full 0)) $$ [HO Hsw7]
  · isplitr; · iexact HI
    isplitl [HO]; · iexact HO
    isplitr; · iexact Hlev
    iexact Hsw7
  iintro ⟨HO, Hsn7, Hpay⟩
  first | iapply (wp_ret_bind c _ _ _) | skip
  ihave Hpay' := (rsRPay_open m c (7 : Fin 15) 0 (by decide)) $$ Hpay
  icases Hpay' with ⟨Hr7, Hdx7⟩
  first | sl_exec | skip
  iapply (loadR c (7 : Fin 15) (pieceAt m 0 (fwd c 8) 8)) $$ [Hr7]
  · iexact Hr7
  iintro Hr7
  first | iapply (wp_ret_bind c _ _ _) | skip
  -- layer 0: wait for the piece of copy index 9 and read it
  first | sl_exec | skip
  iapply (step_RR m K c (8 : Fin 15) 0 (by decide) (cnt 15 0) (cnt 15 0) (lt_cnt_full 0) (lt_cnt_full 0)) $$ [HO Hsw8]
  · isplitr; · iexact HI
    isplitl [HO]; · iexact HO
    isplitr; · iexact Hlev
    iexact Hsw8
  iintro ⟨HO, Hsn8, Hpay⟩
  first | iapply (wp_ret_bind c _ _ _) | skip
  ihave Hpay' := (rsRPay_open m c (8 : Fin 15) 0 (by decide)) $$ Hpay
  icases Hpay' with ⟨Hr6, Hdx8⟩
  first | sl_exec | skip
  iapply (loadR c (6 : Fin 15) (pieceAt m 0 (fwd c 9) 9)) $$ [Hr6]
  · iexact Hr6
  iintro Hr6
  first | iapply (wp_ret_bind c _ _ _) | skip
  -- layer 0: wait for the piece of copy index 10 and read it
  first | sl_exec | skip
  iapply (step_RR m K c (9 : Fin 15) 0 (by decide) (cnt 15 0) (cnt 15 0) (lt_cnt_full 0) (lt_cnt_full 0)) $$ [HO Hsw9]
  · isplitr; · iexact HI
    isplitl [HO]; · iexact HO
    isplitr; · iexact Hlev
    iexact Hsw9
  iintro ⟨HO, Hsn9, Hpay⟩
  first | iapply (wp_ret_bind c _ _ _) | skip
  ihave Hpay' := (rsRPay_open m c (9 : Fin 15) 0 (by decide)) $$ Hpay
  icases Hpay' with ⟨Hr5, Hdx9⟩
  first | sl_exec | skip
  iapply (loadR c (5 : Fin 15) (pieceAt m 0 (fwd c 10) 10)) $$ [Hr5]
  · iexact Hr5
  iintro Hr5
  first | iapply (wp_ret_bind c _ _ _) | skip
  -- layer 0: wait for the piece of copy index 11 and read it
  first | sl_exec | skip
  iapply (step_RR m K c (10 : Fin 15) 0 (by decide) (cnt 15 0) (cnt 15 0) (lt_cnt_full 0) (lt_cnt_full 0)) $$ [HO Hsw10]
  · isplitr; · iexact HI
    isplitl [HO]; · iexact HO
    isplitr; · iexact Hlev
    iexact Hsw10
  iintro ⟨HO, Hsn10, Hpay⟩
  first | iapply (wp_ret_bind c _ _ _) | skip
  ihave Hpay' := (rsRPay_open m c (10 : Fin 15) 0 (by decide)) $$ Hpay
  icases Hpay' with ⟨Hr4, Hdx10⟩
  first | sl_exec | skip
  iapply (loadR c (4 : Fin 15) (pieceAt m 0 (fwd c 11) 11)) $$ [Hr4]
  · iexact Hr4
  iintro Hr4
  first | iapply (wp_ret_bind c _ _ _) | skip
  -- layer 0: wait for the piece of copy index 12 and read it
  first | sl_exec | skip
  iapply (step_RR m K c (11 : Fin 15) 0 (by decide) (cnt 15 0) (cnt 15 0) (lt_cnt_full 0) (lt_cnt_full 0)) $$ [HO Hsw11]
  · isplitr; · iexact HI
    isplitl [HO]; · iexact HO
    isplitr; · iexact Hlev
    iexact Hsw11
  iintro ⟨HO, Hsn11, Hpay⟩
  first | iapply (wp_ret_bind c _ _ _) | skip
  ihave Hpay' := (rsRPay_open m c (11 : Fin 15) 0 (by decide)) $$ Hpay
  icases Hpay' with ⟨Hr3, Hdx11⟩
  first | sl_exec | skip
  iapply (loadR c (3 : Fin 15) (pieceAt m 0 (fwd c 12) 12)) $$ [Hr3]
  · iexact Hr3
  iintro Hr3
  first | iapply (wp_ret_bind c _ _ _) | skip
  -- layer 0: wait for the piece of copy index 13 and read it
  first | sl_exec | skip
  iapply (step_RR m K c (12 : Fin 15) 0 (by decide) (cnt 15 0) (cnt 15 0) (lt_cnt_full 0) (lt_cnt_full 0)) $$ [HO Hsw12]
  · isplitr; · iexact HI
    isplitl [HO]; · iexact HO
    isplitr; · iexact Hlev
    iexact Hsw12
  iintro ⟨HO, Hsn12, Hpay⟩
  first | iapply (wp_ret_bind c _ _ _) | skip
  ihave Hpay' := (rsRPay_open m c (12 : Fin 15) 0 (by decide)) $$ Hpay
  icases Hpay' with ⟨Hr2, Hdx12⟩
  first | sl_exec | skip
  iapply (loadR c (2 : Fin 15) (pieceAt m 0 (fwd c 13) 13)) $$ [Hr2]
  · iexact Hr2
  iintro Hr2
  first | iapply (wp_ret_bind c _ _ _) | skip
  -- layer 0: wait for the piece of copy index 14 and read it
  first | sl_exec | skip
  iapply (step_RR m K c (13 : Fin 15) 0 (by decide) (cnt 15 0) (cnt 15 0) (lt_cnt_full 0) (lt_cnt_full 0)) $$ [HO Hsw13]
  · isplitr; · iexact HI
    isplitl [HO]; · iexact HO
    isplitr; · iexact Hlev
    iexact Hsw13
  iintro ⟨HO, Hsn13, Hpay⟩
  first | iapply (wp_ret_bind c _ _ _) | skip
  ihave Hpay' := (rsRPay_open m c (13 : Fin 15) 0 (by decide)) $$ Hpay
  icases Hpay' with ⟨Hr1, Hdx13⟩
  first | sl_exec | skip
  iapply (loadR c (1 : Fin 15) (pieceAt m 0 (fwd c 14) 14)) $$ [Hr1]
  · iexact Hr1
  iintro Hr1
  first | iapply (wp_ret_bind c _ _ _) | skip
  -- layer 0: wait for the piece of copy index 15 and read it
  first | sl_exec | skip
  iapply (step_RR m K c (14 : Fin 15) 0 (by decide) (cnt 15 0) (cnt 15 0) (lt_cnt_full 0) (lt_cnt_full 0)) $$ [HO Hsw14]
  · isplitr; · iexact HI
    isplitl [HO]; · iexact HO
    isplitr; · iexact Hlev
    iexact Hsw14
  iintro ⟨HO, Hsn14, Hpay⟩
  first | iapply (wp_ret_bind c _ _ _) | skip
  ihave Hpay' := (rsRPay_open m c (14 : Fin 15) 0 (by decide)) $$ Hpay
  icases Hpay' with ⟨Hr0, Hdx14⟩
  first | sl_exec | skip
  iapply (loadR c (0 : Fin 15) (pieceAt m 0 (fwd c 15) 15)) $$ [Hr0]
  · iexact Hr0
  iintro Hr0
  first | iapply (wp_ret_bind c _ _ _) | skip
  -- layer 0: the fifteen lent shares of slot 0 are back
  ihave Hx0' : xPts (F := F) c 0 fullShare (xfill c 0 (chunkAt m 0 c)) $$ [Hx0 Hl0 Hl1 Hl2 Hl3 Hl4 Hl5 Hl6 Hl7 Hl8 Hl9 Hl10 Hl11 Hl12 Hl13 Hl14]
  · unfold agSPay
    iapply (Exit.x_back15 c _)
    isplitl [Hx0]; · iexact Hx0
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    isplitl [Hl9]; · iexact Hl9
    isplitl [Hl10]; · iexact Hl10
    isplitl [Hl11]; · iexact Hl11
    isplitl [Hl12]; · iexact Hl12
    isplitl [Hl13]; · iexact Hl13
    iexact Hl14
  -- layer 0: the sum, cast, becomes the device's chunk of layer 1
  first | sl_exec | skip
  iapply (loadXany c 0 fullShare (xfill c 0 (chunkAt m 0 c))) $$ [Hx0']
  · iexact Hx0'
  iintro Hx0
  first | iapply (wp_ret_bind c _ _ _) | skip
  first | sl_exec | skip
  iapply (storeX c 0 _) $$ [Hx0]
  · iexists _; iexact Hx0
  iintro Hy0
  first | iapply (wp_ret_bind c _ _ _) | skip
  ihave Hx0 : xPts (F := F) c 0 fullShare (xfill c 0 (chunkAt m 1 c)) $$ [Hy0]
  · sl_unfold_run_names
    rw [store_X_0 m c]
    iexact Hy0
  ihave HO := (owes_next c 0 _) $$ HO
  -- chunk copy 1 of layer 1
  first | sl_exec | skip
  iapply (step_AS_d m K c 0 (by decide) 1 (by decide) _ _ (dev46_eq c)) $$ [HO Hsn0 Hdx0 Hx0 Hr14]
  · isplitr; · iexact HI
    isplitl [HO]; · iexact HO
    isplitl [Hsn0]; · iexact Hsn0
    isplitl [Hdx0]; · iexact Hdx0
    isplitl [Hx0]; · iexact Hx0
    (iexists _; iexact Hr14)
  iintro ⟨HO, Hss0, Hx0⟩
  first | iapply (wp_ret_bind c _ _ _) | skip
  -- chunk copy 2 of layer 1
  first | sl_exec | skip
  iapply (step_AS_d m K c 1 (by decide) 1 (by decide) _ _ (dev47_eq c)) $$ [HO Hsn1 Hdx1 Hx0 Hr13]
  · isplitr; · iexact HI
    isplitl [HO]; · iexact HO
    isplitl [Hsn1]; · iexact Hsn1
    isplitl [Hdx1]; · iexact Hdx1
    isplitl [Hx0]; · iexact Hx0
    (iexists _; iexact Hr13)
  iintro ⟨HO, Hss1, Hx0⟩
  first | iapply (wp_ret_bind c _ _ _) | skip
  -- chunk copy 3 of layer 1
  first | sl_exec | skip
  iapply (step_AS_d m K c 2 (by decide) 1 (by decide) _ _ (dev48_eq c)) $$ [HO Hsn2 Hdx2 Hx0 Hr12]
  · isplitr; · iexact HI
    isplitl [HO]; · iexact HO
    isplitl [Hsn2]; · iexact Hsn2
    isplitl [Hdx2]; · iexact Hdx2
    isplitl [Hx0]; · iexact Hx0
    (iexists _; iexact Hr12)
  iintro ⟨HO, Hss2, Hx0⟩
  first | iapply (wp_ret_bind c _ _ _) | skip
  -- chunk copy 4 of layer 1
  first | sl_exec | skip
  iapply (step_AS_d m K c 3 (by decide) 1 (by decide) _ _ (dev49_eq c)) $$ [HO Hsn3 Hdx3 Hx0 Hr11]
  · isplitr; · iexact HI
    isplitl [HO]; · iexact HO
    isplitl [Hsn3]; · iexact Hsn3
    isplitl [Hdx3]; · iexact Hdx3
    isplitl [Hx0]; · iexact Hx0
    (iexists _; iexact Hr11)
  iintro ⟨HO, Hss3, Hx0⟩
  first | iapply (wp_ret_bind c _ _ _) | skip
  -- chunk copy 5 of layer 1
  first | sl_exec | skip
  iapply (step_AS_d m K c 4 (by decide) 1 (by decide) _ _ (dev50_eq c)) $$ [HO Hsn4 Hdx4 Hx0 Hr10]
  · isplitr; · iexact HI
    isplitl [HO]; · iexact HO
    isplitl [Hsn4]; · iexact Hsn4
    isplitl [Hdx4]; · iexact Hdx4
    isplitl [Hx0]; · iexact Hx0
    (iexists _; iexact Hr10)
  iintro ⟨HO, Hss4, Hx0⟩
  first | iapply (wp_ret_bind c _ _ _) | skip
  -- chunk copy 6 of layer 1
  first | sl_exec | skip
  iapply (step_AS_d m K c 5 (by decide) 1 (by decide) _ _ (dev51_eq c)) $$ [HO Hsn5 Hdx5 Hx0 Hr9]
  · isplitr; · iexact HI
    isplitl [HO]; · iexact HO
    isplitl [Hsn5]; · iexact Hsn5
    isplitl [Hdx5]; · iexact Hdx5
    isplitl [Hx0]; · iexact Hx0
    (iexists _; iexact Hr9)
  iintro ⟨HO, Hss5, Hx0⟩
  first | iapply (wp_ret_bind c _ _ _) | skip
  -- chunk copy 7 of layer 1
  first | sl_exec | skip
  iapply (step_AS_d m K c 6 (by decide) 1 (by decide) _ _ (dev52_eq c)) $$ [HO Hsn6 Hdx6 Hx0 Hr8]
  · isplitr; · iexact HI
    isplitl [HO]; · iexact HO
    isplitl [Hsn6]; · iexact Hsn6
    isplitl [Hdx6]; · iexact Hdx6
    isplitl [Hx0]; · iexact Hx0
    (iexists _; iexact Hr8)
  iintro ⟨HO, Hss6, Hx0⟩
  first | iapply (wp_ret_bind c _ _ _) | skip
  -- chunk copy 8 of layer 1
  first | sl_exec | skip
  iapply (step_AS_d m K c 7 (by decide) 1 (by decide) _ _ (dev53_eq c)) $$ [HO Hsn7 Hdx7 Hx0 Hr7]
  · isplitr; · iexact HI
    isplitl [HO]; · iexact HO
    isplitl [Hsn7]; · iexact Hsn7
    isplitl [Hdx7]; · iexact Hdx7
    isplitl [Hx0]; · iexact Hx0
    (iexists _; iexact Hr7)
  iintro ⟨HO, Hss7, Hx0⟩
  first | iapply (wp_ret_bind c _ _ _) | skip
  -- chunk copy 9 of layer 1
  first | sl_exec | skip
  iapply (step_AS_d m K c 8 (by decide) 1 (by decide) _ _ (dev54_eq c)) $$ [HO Hsn8 Hdx8 Hx0 Hr6]
  · isplitr; · iexact HI
    isplitl [HO]; · iexact HO
    isplitl [Hsn8]; · iexact Hsn8
    isplitl [Hdx8]; · iexact Hdx8
    isplitl [Hx0]; · iexact Hx0
    (iexists _; iexact Hr6)
  iintro ⟨HO, Hss8, Hx0⟩
  first | iapply (wp_ret_bind c _ _ _) | skip
  -- chunk copy 10 of layer 1
  first | sl_exec | skip
  iapply (step_AS_d m K c 9 (by decide) 1 (by decide) _ _ (dev55_eq c)) $$ [HO Hsn9 Hdx9 Hx0 Hr5]
  · isplitr; · iexact HI
    isplitl [HO]; · iexact HO
    isplitl [Hsn9]; · iexact Hsn9
    isplitl [Hdx9]; · iexact Hdx9
    isplitl [Hx0]; · iexact Hx0
    (iexists _; iexact Hr5)
  iintro ⟨HO, Hss9, Hx0⟩
  first | iapply (wp_ret_bind c _ _ _) | skip
  -- chunk copy 11 of layer 1
  first | sl_exec | skip
  iapply (step_AS_d m K c 10 (by decide) 1 (by decide) _ _ (dev56_eq c)) $$ [HO Hsn10 Hdx10 Hx0 Hr4]
  · isplitr; · iexact HI
    isplitl [HO]; · iexact HO
    isplitl [Hsn10]; · iexact Hsn10
    isplitl [Hdx10]; · iexact Hdx10
    isplitl [Hx0]; · iexact Hx0
    (iexists _; iexact Hr4)
  iintro ⟨HO, Hss10, Hx0⟩
  first | iapply (wp_ret_bind c _ _ _) | skip
  -- chunk copy 12 of layer 1
  first | sl_exec | skip
  iapply (step_AS_d m K c 11 (by decide) 1 (by decide) _ _ (dev57_eq c)) $$ [HO Hsn11 Hdx11 Hx0 Hr3]
  · isplitr; · iexact HI
    isplitl [HO]; · iexact HO
    isplitl [Hsn11]; · iexact Hsn11
    isplitl [Hdx11]; · iexact Hdx11
    isplitl [Hx0]; · iexact Hx0
    (iexists _; iexact Hr3)
  iintro ⟨HO, Hss11, Hx0⟩
  first | iapply (wp_ret_bind c _ _ _) | skip
  -- chunk copy 13 of layer 1
  first | sl_exec | skip
  iapply (step_AS_d m K c 12 (by decide) 1 (by decide) _ _ (dev58_eq c)) $$ [HO Hsn12 Hdx12 Hx0 Hr2]
  · isplitr; · iexact HI
    isplitl [HO]; · iexact HO
    isplitl [Hsn12]; · iexact Hsn12
    isplitl [Hdx12]; · iexact Hdx12
    isplitl [Hx0]; · iexact Hx0
    (iexists _; iexact Hr2)
  iintro ⟨HO, Hss12, Hx0⟩
  first | iapply (wp_ret_bind c _ _ _) | skip
  -- chunk copy 14 of layer 1
  first | sl_exec | skip
  iapply (step_AS_d m K c 13 (by decide) 1 (by decide) _ _ (dev59_eq c)) $$ [HO Hsn13 Hdx13 Hx0 Hr1]
  · isplitr; · iexact HI
    isplitl [HO]; · iexact HO
    isplitl [Hsn13]; · iexact Hsn13
    isplitl [Hdx13]; · iexact Hdx13
    isplitl [Hx0]; · iexact Hx0
    (iexists _; iexact Hr1)
  iintro ⟨HO, Hss13, Hx0⟩
  first | iapply (wp_ret_bind c _ _ _) | skip
  -- chunk copy 15 of layer 1
  first | sl_exec | skip
  iapply (step_AS_d m K c 14 (by decide) 1 (by decide) _ _ (dev60_eq c)) $$ [HO Hsn14 Hdx14 Hx0 Hr0]
  · isplitr; · iexact HI
    isplitl [HO]; · iexact HO
    isplitl [Hsn14]; · iexact Hsn14
    isplitl [Hdx14]; · iexact Hdx14
    isplitl [Hx0]; · iexact Hx0
    (iexists _; iexact Hr0)
  iintro ⟨HO, Hss14, Hx0⟩
  first | iapply (wp_ret_bind c _ _ _) | skip
  -- layer 0: the send side of the piece copy for chunk 1
  first | sl_exec | skip
  iapply (step_RW m K c (0 : Fin 15) 0 (by decide) (cnt 15 1) (cnt 0 1) (fun i => Nat.lt_of_lt_of_le (Nat.lt_succ_self 0) (lt_cnt 15 1 i)) (lt_cnt_next 0 0)) $$ [HO Hrs0]
  · isplitr; · iexact HI
    isplitl [HO]; · iexact HO
    isplitr; · iexact Hlev
    iexact Hrs0
  iintro ⟨HO, Hrc0, Hpay⟩
  first | iapply (wp_ret_bind c _ _ _) | skip
  ihave Hp1 := (rsSPay_open m c (0 : Fin 15) 0) $$ Hpay
  -- layer 0: the send side of the piece copy for chunk 2
  first | sl_exec | skip
  iapply (step_RW m K c (1 : Fin 15) 0 (by decide) (cnt 15 1) (cnt 0 1) (fun i => Nat.lt_of_lt_of_le (Nat.lt_succ_self 0) (lt_cnt 15 1 i)) (lt_cnt_next 0 0)) $$ [HO Hrs1]
  · isplitr; · iexact HI
    isplitl [HO]; · iexact HO
    isplitr; · iexact Hlev
    iexact Hrs1
  iintro ⟨HO, Hrc1, Hpay⟩
  first | iapply (wp_ret_bind c _ _ _) | skip
  ihave Hp2 := (rsSPay_open m c (1 : Fin 15) 0) $$ Hpay
  -- layer 0: the send side of the piece copy for chunk 3
  first | sl_exec | skip
  iapply (step_RW m K c (2 : Fin 15) 0 (by decide) (cnt 15 1) (cnt 0 1) (fun i => Nat.lt_of_lt_of_le (Nat.lt_succ_self 0) (lt_cnt 15 1 i)) (lt_cnt_next 0 0)) $$ [HO Hrs2]
  · isplitr; · iexact HI
    isplitl [HO]; · iexact HO
    isplitr; · iexact Hlev
    iexact Hrs2
  iintro ⟨HO, Hrc2, Hpay⟩
  first | iapply (wp_ret_bind c _ _ _) | skip
  ihave Hp3 := (rsSPay_open m c (2 : Fin 15) 0) $$ Hpay
  -- layer 0: the send side of the piece copy for chunk 4
  first | sl_exec | skip
  iapply (step_RW m K c (3 : Fin 15) 0 (by decide) (cnt 15 1) (cnt 0 1) (fun i => Nat.lt_of_lt_of_le (Nat.lt_succ_self 0) (lt_cnt 15 1 i)) (lt_cnt_next 0 0)) $$ [HO Hrs3]
  · isplitr; · iexact HI
    isplitl [HO]; · iexact HO
    isplitr; · iexact Hlev
    iexact Hrs3
  iintro ⟨HO, Hrc3, Hpay⟩
  first | iapply (wp_ret_bind c _ _ _) | skip
  ihave Hp4 := (rsSPay_open m c (3 : Fin 15) 0) $$ Hpay
  -- layer 0: the send side of the piece copy for chunk 5
  first | sl_exec | skip
  iapply (step_RW m K c (4 : Fin 15) 0 (by decide) (cnt 15 1) (cnt 0 1) (fun i => Nat.lt_of_lt_of_le (Nat.lt_succ_self 0) (lt_cnt 15 1 i)) (lt_cnt_next 0 0)) $$ [HO Hrs4]
  · isplitr; · iexact HI
    isplitl [HO]; · iexact HO
    isplitr; · iexact Hlev
    iexact Hrs4
  iintro ⟨HO, Hrc4, Hpay⟩
  first | iapply (wp_ret_bind c _ _ _) | skip
  ihave Hp5 := (rsSPay_open m c (4 : Fin 15) 0) $$ Hpay
  -- layer 0: the send side of the piece copy for chunk 6
  first | sl_exec | skip
  iapply (step_RW m K c (5 : Fin 15) 0 (by decide) (cnt 15 1) (cnt 0 1) (fun i => Nat.lt_of_lt_of_le (Nat.lt_succ_self 0) (lt_cnt 15 1 i)) (lt_cnt_next 0 0)) $$ [HO Hrs5]
  · isplitr; · iexact HI
    isplitl [HO]; · iexact HO
    isplitr; · iexact Hlev
    iexact Hrs5
  iintro ⟨HO, Hrc5, Hpay⟩
  first | iapply (wp_ret_bind c _ _ _) | skip
  ihave Hp6 := (rsSPay_open m c (5 : Fin 15) 0) $$ Hpay
  -- layer 0: the send side of the piece copy for chunk 7
  first | sl_exec | skip
  iapply (step_RW m K c (6 : Fin 15) 0 (by decide) (cnt 15 1) (cnt 0 1) (fun i => Nat.lt_of_lt_of_le (Nat.lt_succ_self 0) (lt_cnt 15 1 i)) (lt_cnt_next 0 0)) $$ [HO Hrs6]
  · isplitr; · iexact HI
    isplitl [HO]; · iexact HO
    isplitr; · iexact Hlev
    iexact Hrs6
  iintro ⟨HO, Hrc6, Hpay⟩
  first | iapply (wp_ret_bind c _ _ _) | skip
  ihave Hp7 := (rsSPay_open m c (6 : Fin 15) 0) $$ Hpay
  -- layer 0: the send side of the piece copy for chunk 8
  first | sl_exec | skip
  iapply (step_RW m K c (7 : Fin 15) 0 (by decide) (cnt 15 1) (cnt 0 1) (fun i => Nat.lt_of_lt_of_le (Nat.lt_succ_self 0) (lt_cnt 15 1 i)) (lt_cnt_next 0 0)) $$ [HO Hrs7]
  · isplitr; · iexact HI
    isplitl [HO]; · iexact HO
    isplitr; · iexact Hlev
    iexact Hrs7
  iintro ⟨HO, Hrc7, Hpay⟩
  first | iapply (wp_ret_bind c _ _ _) | skip
  ihave Hp8 := (rsSPay_open m c (7 : Fin 15) 0) $$ Hpay
  -- layer 0: the send side of the piece copy for chunk 9
  first | sl_exec | skip
  iapply (step_RW m K c (8 : Fin 15) 0 (by decide) (cnt 15 1) (cnt 0 1) (fun i => Nat.lt_of_lt_of_le (Nat.lt_succ_self 0) (lt_cnt 15 1 i)) (lt_cnt_next 0 0)) $$ [HO Hrs8]
  · isplitr; · iexact HI
    isplitl [HO]; · iexact HO
    isplitr; · iexact Hlev
    iexact Hrs8
  iintro ⟨HO, Hrc8, Hpay⟩
  first | iapply (wp_ret_bind c _ _ _) | skip
  ihave Hp9 := (rsSPay_open m c (8 : Fin 15) 0) $$ Hpay
  -- layer 0: the send side of the piece copy for chunk 10
  first | sl_exec | skip
  iapply (step_RW m K c (9 : Fin 15) 0 (by decide) (cnt 15 1) (cnt 0 1) (fun i => Nat.lt_of_lt_of_le (Nat.lt_succ_self 0) (lt_cnt 15 1 i)) (lt_cnt_next 0 0)) $$ [HO Hrs9]
  · isplitr; · iexact HI
    isplitl [HO]; · iexact HO
    isplitr; · iexact Hlev
    iexact Hrs9
  iintro ⟨HO, Hrc9, Hpay⟩
  first | iapply (wp_ret_bind c _ _ _) | skip
  ihave Hp10 := (rsSPay_open m c (9 : Fin 15) 0) $$ Hpay
  -- layer 0: the send side of the piece copy for chunk 11
  first | sl_exec | skip
  iapply (step_RW m K c (10 : Fin 15) 0 (by decide) (cnt 15 1) (cnt 0 1) (fun i => Nat.lt_of_lt_of_le (Nat.lt_succ_self 0) (lt_cnt 15 1 i)) (lt_cnt_next 0 0)) $$ [HO Hrs10]
  · isplitr; · iexact HI
    isplitl [HO]; · iexact HO
    isplitr; · iexact Hlev
    iexact Hrs10
  iintro ⟨HO, Hrc10, Hpay⟩
  first | iapply (wp_ret_bind c _ _ _) | skip
  ihave Hp11 := (rsSPay_open m c (10 : Fin 15) 0) $$ Hpay
  -- layer 0: the send side of the piece copy for chunk 12
  first | sl_exec | skip
  iapply (step_RW m K c (11 : Fin 15) 0 (by decide) (cnt 15 1) (cnt 0 1) (fun i => Nat.lt_of_lt_of_le (Nat.lt_succ_self 0) (lt_cnt 15 1 i)) (lt_cnt_next 0 0)) $$ [HO Hrs11]
  · isplitr; · iexact HI
    isplitl [HO]; · iexact HO
    isplitr; · iexact Hlev
    iexact Hrs11
  iintro ⟨HO, Hrc11, Hpay⟩
  first | iapply (wp_ret_bind c _ _ _) | skip
  ihave Hp12 := (rsSPay_open m c (11 : Fin 15) 0) $$ Hpay
  -- layer 0: the send side of the piece copy for chunk 13
  first | sl_exec | skip
  iapply (step_RW m K c (12 : Fin 15) 0 (by decide) (cnt 15 1) (cnt 0 1) (fun i => Nat.lt_of_lt_of_le (Nat.lt_succ_self 0) (lt_cnt 15 1 i)) (lt_cnt_next 0 0)) $$ [HO Hrs12]
  · isplitr; · iexact HI
    isplitl [HO]; · iexact HO
    isplitr; · iexact Hlev
    iexact Hrs12
  iintro ⟨HO, Hrc12, Hpay⟩
  first | iapply (wp_ret_bind c _ _ _) | skip
  ihave Hp13 := (rsSPay_open m c (12 : Fin 15) 0) $$ Hpay
  -- layer 0: the send side of the piece copy for chunk 14
  first | sl_exec | skip
  iapply (step_RW m K c (13 : Fin 15) 0 (by decide) (cnt 15 1) (cnt 0 1) (fun i => Nat.lt_of_lt_of_le (Nat.lt_succ_self 0) (lt_cnt 15 1 i)) (lt_cnt_next 0 0)) $$ [HO Hrs13]
  · isplitr; · iexact HI
    isplitl [HO]; · iexact HO
    isplitr; · iexact Hlev
    iexact Hrs13
  iintro ⟨HO, Hrc13, Hpay⟩
  first | iapply (wp_ret_bind c _ _ _) | skip
  ihave Hp14 := (rsSPay_open m c (13 : Fin 15) 0) $$ Hpay
  -- layer 0: the send side of the piece copy for chunk 15
  first | sl_exec | skip
  iapply (step_RW m K c (14 : Fin 15) 0 (by decide) (cnt 15 1) (cnt 0 1) (fun i => Nat.lt_of_lt_of_le (Nat.lt_succ_self 0) (lt_cnt 15 1 i)) (lt_cnt_next 0 0)) $$ [HO Hrs14]
  · isplitr; · iexact HI
    isplitl [HO]; · iexact HO
    isplitr; · iexact Hlev
    iexact Hrs14
  iintro ⟨HO, Hrc14, Hpay⟩
  first | iapply (wp_ret_bind c _ _ _) | skip
  ihave Hp15 := (rsSPay_open m c (14 : Fin 15) 0) $$ Hpay
  -- layer 1: the device's weight blocks
  first | sl_exec | skip
  iapply (loadStg3 c (argWi m 1 c)) $$ [Hw3']
  · iexact Hw3'
  iintro Hw3'
  first | iapply (wp_ret_bind c _ _ _) | skip
  first | sl_exec | skip
  iapply (loadStg4 c (argWo m 1 c)) $$ [Hw4']
  · iexact Hw4'
  iintro Hw4'
  first | iapply (wp_ret_bind c _ _ _) | skip
  -- layer 1: wait for chunk 1 (from the device 1 places before)
  first | sl_exec | skip
  iapply (step_AR m K c (0 : Fin 15) 1 (by decide) (cnt 15 1) (cnt 0 1) (lt_cnt_full 1) (lt_cnt 0 1)) $$ [HO Hrc0]
  · isplitr; · iexact HI
    isplitl [HO]; · iexact HO
    isplitr; · iexact Hlev
    iexact Hrc0
  iintro ⟨HO, Hrg0, Hpay⟩
  first | iapply (wp_ret_bind c _ _ _) | skip
  ihave Hpay' := (agRPay_open m c (0 : Fin 15) 1) $$ Hpay
  icases Hpay' with ⟨Hx1, Hdr0⟩
  -- layer 1, group 0: the two chunks read as one block of 512 rows
  first | sl_exec | skip
  iapply (loadX c (0 : Fin 8) 15 (chunkAt m 1 c) (chunkAt m 1 (bwd c 1))) $$ [Hx0 Hx1]
  · isplitl [Hx0]; · iexact Hx0
    iexact Hx1
  iintro ⟨Hx0, Hx1⟩
  first | iapply (wp_ret_bind c _ _ _) | skip
  -- layer 1: the piece for chunk 1, stored into slot 1 of P and sent back
  first | sl_exec | skip
  iapply (loadPany c (1 : Fin 16) (pfill c (1 : Fin 16) (pieceAt m 0 c 1))) $$ [Hp1]
  · iexact Hp1
  iintro Hp1
  first | iapply (wp_ret_bind c _ _ _) | skip
  first | sl_exec | skip
  iapply (storeP c (1 : Fin 16) _) $$ [Hp1]
  · iexists _; iexact Hp1
  iintro Hq1
  first | iapply (wp_ret_bind c _ _ _) | skip
  ihave Hp1 : pPts (F := F) c (1 : Fin 16) (pfill c (1 : Fin 16) (pieceAt m 1 c 1)) $$ [Hq1]
  · sl_unfold_run_names
    rw [store_P_1_1 m c]
    iexact Hq1
  first | sl_exec | skip
  iapply (step_RS_d m K c 0 (by decide) 1 (by decide) (cnt 15 1) _ (dev61_eq c)) $$ [HO Hrg0 Hdr0 Hp1 Hx1]
  · isplitr; · iexact HI
    isplitl [HO]; · iexact HO
    isplitl [Hrg0]; · iexact Hrg0
    isplitl [Hdr0]; · iexact Hdr0
    isplitl [Hp1]; · iexact Hp1
    (iexists _; iexact Hx1)
  iintro ⟨HO, Hrs0⟩
  first | iapply (wp_ret_bind c _ _ _) | skip
  -- layer 1: wait for chunk 2 (from the device 2 places before)
  first | sl_exec | skip
  iapply (step_AR m K c (1 : Fin 15) 1 (by decide) (cnt 15 1) (cnt 1 1) (lt_cnt_full 1) (lt_cnt 1 1)) $$ [HO Hrc1]
  · isplitr; · iexact HI
    isplitl [HO]; · iexact HO
    isplitr; · iexact Hlev
    iexact Hrc1
  iintro ⟨HO, Hrg1, Hpay⟩
  first | iapply (wp_ret_bind c _ _ _) | skip
  ihave Hpay' := (agRPay_open m c (1 : Fin 15) 1) $$ Hpay
  icases Hpay' with ⟨Hx2, Hdr1⟩
  -- layer 1: wait for chunk 3 (from the device 3 places before)
  first | sl_exec | skip
  iapply (step_AR m K c (2 : Fin 15) 1 (by decide) (cnt 15 1) (cnt 1 1) (lt_cnt_full 1) (lt_cnt 1 1)) $$ [HO Hrc2]
  · isplitr; · iexact HI
    isplitl [HO]; · iexact HO
    isplitr; · iexact Hlev
    iexact Hrc2
  iintro ⟨HO, Hrg2, Hpay⟩
  first | iapply (wp_ret_bind c _ _ _) | skip
  ihave Hpay' := (agRPay_open m c (2 : Fin 15) 1) $$ Hpay
  icases Hpay' with ⟨Hx3, Hdr2⟩
  -- layer 1, group 1: the two chunks read as one block of 512 rows
  first | sl_exec | skip
  iapply (loadX c (1 : Fin 8) 0 (chunkAt m 1 (bwd c 2)) (chunkAt m 1 (bwd c 3))) $$ [Hx2 Hx3]
  · isplitl [Hx2]; · iexact Hx2
    iexact Hx3
  iintro ⟨Hx2, Hx3⟩
  first | iapply (wp_ret_bind c _ _ _) | skip
  -- layer 1: the piece for chunk 2, stored into slot 2 of P and sent back
  first | sl_exec | skip
  iapply (loadPany c (2 : Fin 16) (pfill c (2 : Fin 16) (pieceAt m 0 c 2))) $$ [Hp2]
  · iexact Hp2
  iintro Hp2
  first | iapply (wp_ret_bind c _ _ _) | skip
  first | sl_exec | skip
  iapply (storeP c (2 : Fin 16) _) $$ [Hp2]
  · iexists _; iexact Hp2
  iintro Hq2
  first | iapply (wp_ret_bind c _ _ _) | skip
  ihave Hp2 : pPts (F := F) c (2 : Fin 16) (pfill c (2 : Fin 16) (pieceAt m 1 c 2)) $$ [Hq2]
  · sl_unfold_run_names
    rw [store_P_1_2 m c]
    iexact Hq2
  first | sl_exec | skip
  iapply (step_RS_d m K c 1 (by decide) 1 (by decide) (cnt 15 1) _ (dev62_eq c)) $$ [HO Hrg1 Hdr1 Hp2 Hx2]
  · isplitr; · iexact HI
    isplitl [HO]; · iexact HO
    isplitl [Hrg1]; · iexact Hrg1
    isplitl [Hdr1]; · iexact Hdr1
    isplitl [Hp2]; · iexact Hp2
    (iexists _; iexact Hx2)
  iintro ⟨HO, Hrs1⟩
  first | iapply (wp_ret_bind c _ _ _) | skip
  -- layer 1: the piece for chunk 3, stored into slot 3 of P and sent back
  first | sl_exec | skip
  iapply (loadPany c (3 : Fin 16) (pfill c (3 : Fin 16) (pieceAt m 0 c 3))) $$ [Hp3]
  · iexact Hp3
  iintro Hp3
  first | iapply (wp_ret_bind c _ _ _) | skip
  first | sl_exec | skip
  iapply (storeP c (3 : Fin 16) _) $$ [Hp3]
  · iexists _; iexact Hp3
  iintro Hq3
  first | iapply (wp_ret_bind c _ _ _) | skip
  ihave Hp3 : pPts (F := F) c (3 : Fin 16) (pfill c (3 : Fin 16) (pieceAt m 1 c 3)) $$ [Hq3]
  · sl_unfold_run_names
    rw [store_P_1_3 m c]
    iexact Hq3
  first | sl_exec | skip
  iapply (step_RS_d m K c 2 (by decide) 1 (by decide) (cnt 15 1) _ (dev63_eq c)) $$ [HO Hrg2 Hdr2 Hp3 Hx3]
  · isplitr; · iexact HI
    isplitl [HO]; · iexact HO
    isplitl [Hrg2]; · iexact Hrg2
    isplitl [Hdr2]; · iexact Hdr2
    isplitl [Hp3]; · iexact Hp3
    (iexists _; iexact Hx3)
  iintro ⟨HO, Hrs2⟩
  first | iapply (wp_ret_bind c _ _ _) | skip
  -- layer 1: wait for chunk 4 (from the device 4 places before)
  first | sl_exec | skip
  iapply (step_AR m K c (3 : Fin 15) 1 (by decide) (cnt 15 1) (cnt 3 1) (lt_cnt_full 1) (lt_cnt 3 1)) $$ [HO Hrc3]
  · isplitr; · iexact HI
    isplitl [HO]; · iexact HO
    isplitr; · iexact Hlev
    iexact Hrc3
  iintro ⟨HO, Hrg3, Hpay⟩
  first | iapply (wp_ret_bind c _ _ _) | skip
  ihave Hpay' := (agRPay_open m c (3 : Fin 15) 1) $$ Hpay
  icases Hpay' with ⟨Hx4, Hdr3⟩
  -- layer 1: wait for chunk 5 (from the device 5 places before)
  first | sl_exec | skip
  iapply (step_AR m K c (4 : Fin 15) 1 (by decide) (cnt 15 1) (cnt 3 1) (lt_cnt_full 1) (lt_cnt 3 1)) $$ [HO Hrc4]
  · isplitr; · iexact HI
    isplitl [HO]; · iexact HO
    isplitr; · iexact Hlev
    iexact Hrc4
  iintro ⟨HO, Hrg4, Hpay⟩
  first | iapply (wp_ret_bind c _ _ _) | skip
  ihave Hpay' := (agRPay_open m c (4 : Fin 15) 1) $$ Hpay
  icases Hpay' with ⟨Hx5, Hdr4⟩
  -- layer 1, group 2: the two chunks read as one block of 512 rows
  first | sl_exec | skip
  iapply (loadX c (2 : Fin 8) 0 (chunkAt m 1 (bwd c 4)) (chunkAt m 1 (bwd c 5))) $$ [Hx4 Hx5]
  · isplitl [Hx4]; · iexact Hx4
    iexact Hx5
  iintro ⟨Hx4, Hx5⟩
  first | iapply (wp_ret_bind c _ _ _) | skip
  -- layer 1: the piece for chunk 4, stored into slot 4 of P and sent back
  first | sl_exec | skip
  iapply (loadPany c (4 : Fin 16) (pfill c (4 : Fin 16) (pieceAt m 0 c 4))) $$ [Hp4]
  · iexact Hp4
  iintro Hp4
  first | iapply (wp_ret_bind c _ _ _) | skip
  first | sl_exec | skip
  iapply (storeP c (4 : Fin 16) _) $$ [Hp4]
  · iexists _; iexact Hp4
  iintro Hq4
  first | iapply (wp_ret_bind c _ _ _) | skip
  ihave Hp4 : pPts (F := F) c (4 : Fin 16) (pfill c (4 : Fin 16) (pieceAt m 1 c 4)) $$ [Hq4]
  · sl_unfold_run_names
    rw [store_P_1_4 m c]
    iexact Hq4
  first | sl_exec | skip
  iapply (step_RS_d m K c 3 (by decide) 1 (by decide) (cnt 15 1) _ (dev64_eq c)) $$ [HO Hrg3 Hdr3 Hp4 Hx4]
  · isplitr; · iexact HI
    isplitl [HO]; · iexact HO
    isplitl [Hrg3]; · iexact Hrg3
    isplitl [Hdr3]; · iexact Hdr3
    isplitl [Hp4]; · iexact Hp4
    (iexists _; iexact Hx4)
  iintro ⟨HO, Hrs3⟩
  first | iapply (wp_ret_bind c _ _ _) | skip
  -- layer 1: the piece for chunk 5, stored into slot 5 of P and sent back
  first | sl_exec | skip
  iapply (loadPany c (5 : Fin 16) (pfill c (5 : Fin 16) (pieceAt m 0 c 5))) $$ [Hp5]
  · iexact Hp5
  iintro Hp5
  first | iapply (wp_ret_bind c _ _ _) | skip
  first | sl_exec | skip
  iapply (storeP c (5 : Fin 16) _) $$ [Hp5]
  · iexists _; iexact Hp5
  iintro Hq5
  first | iapply (wp_ret_bind c _ _ _) | skip
  ihave Hp5 : pPts (F := F) c (5 : Fin 16) (pfill c (5 : Fin 16) (pieceAt m 1 c 5)) $$ [Hq5]
  · sl_unfold_run_names
    rw [store_P_1_5 m c]
    iexact Hq5
  first | sl_exec | skip
  iapply (step_RS_d m K c 4 (by decide) 1 (by decide) (cnt 15 1) _ (dev65_eq c)) $$ [HO Hrg4 Hdr4 Hp5 Hx5]
  · isplitr; · iexact HI
    isplitl [HO]; · iexact HO
    isplitl [Hrg4]; · iexact Hrg4
    isplitl [Hdr4]; · iexact Hdr4
    isplitl [Hp5]; · iexact Hp5
    (iexists _; iexact Hx5)
  iintro ⟨HO, Hrs4⟩
  first | iapply (wp_ret_bind c _ _ _) | skip
  -- layer 1: wait for chunk 6 (from the device 6 places before)
  first | sl_exec | skip
  iapply (step_AR m K c (5 : Fin 15) 1 (by decide) (cnt 15 1) (cnt 5 1) (lt_cnt_full 1) (lt_cnt 5 1)) $$ [HO Hrc5]
  · isplitr; · iexact HI
    isplitl [HO]; · iexact HO
    isplitr; · iexact Hlev
    iexact Hrc5
  iintro ⟨HO, Hrg5, Hpay⟩
  first | iapply (wp_ret_bind c _ _ _) | skip
  ihave Hpay' := (agRPay_open m c (5 : Fin 15) 1) $$ Hpay
  icases Hpay' with ⟨Hx6, Hdr5⟩
  -- layer 1: wait for chunk 7 (from the device 7 places before)
  first | sl_exec | skip
  iapply (step_AR m K c (6 : Fin 15) 1 (by decide) (cnt 15 1) (cnt 5 1) (lt_cnt_full 1) (lt_cnt 5 1)) $$ [HO Hrc6]
  · isplitr; · iexact HI
    isplitl [HO]; · iexact HO
    isplitr; · iexact Hlev
    iexact Hrc6
  iintro ⟨HO, Hrg6, Hpay⟩
  first | iapply (wp_ret_bind c _ _ _) | skip
  ihave Hpay' := (agRPay_open m c (6 : Fin 15) 1) $$ Hpay
  icases Hpay' with ⟨Hx7, Hdr6⟩
  -- layer 1, group 3: the two chunks read as one block of 512 rows
  first | sl_exec | skip
  iapply (loadX c (3 : Fin 8) 0 (chunkAt m 1 (bwd c 6)) (chunkAt m 1 (bwd c 7))) $$ [Hx6 Hx7]
  · isplitl [Hx6]; · iexact Hx6
    iexact Hx7
  iintro ⟨Hx6, Hx7⟩
  first | iapply (wp_ret_bind c _ _ _) | skip
  -- layer 1: the piece for chunk 6, stored into slot 6 of P and sent back
  first | sl_exec | skip
  iapply (loadPany c (6 : Fin 16) (pfill c (6 : Fin 16) (pieceAt m 0 c 6))) $$ [Hp6]
  · iexact Hp6
  iintro Hp6
  first | iapply (wp_ret_bind c _ _ _) | skip
  first | sl_exec | skip
  iapply (storeP c (6 : Fin 16) _) $$ [Hp6]
  · iexists _; iexact Hp6
  iintro Hq6
  first | iapply (wp_ret_bind c _ _ _) | skip
  ihave Hp6 : pPts (F := F) c (6 : Fin 16) (pfill c (6 : Fin 16) (pieceAt m 1 c 6)) $$ [Hq6]
  · sl_unfold_run_names
    rw [store_P_1_6 m c]
    iexact Hq6
  first | sl_exec | skip
  iapply (step_RS_d m K c 5 (by decide) 1 (by decide) (cnt 15 1) _ (dev66_eq c)) $$ [HO Hrg5 Hdr5 Hp6 Hx6]
  · isplitr; · iexact HI
    isplitl [HO]; · iexact HO
    isplitl [Hrg5]; · iexact Hrg5
    isplitl [Hdr5]; · iexact Hdr5
    isplitl [Hp6]; · iexact Hp6
    (iexists _; iexact Hx6)
  iintro ⟨HO, Hrs5⟩
  first | iapply (wp_ret_bind c _ _ _) | skip
  -- layer 1: the piece for chunk 7, stored into slot 7 of P and sent back
  first | sl_exec | skip
  iapply (loadPany c (7 : Fin 16) (pfill c (7 : Fin 16) (pieceAt m 0 c 7))) $$ [Hp7]
  · iexact Hp7
  iintro Hp7
  first | iapply (wp_ret_bind c _ _ _) | skip
  first | sl_exec | skip
  iapply (storeP c (7 : Fin 16) _) $$ [Hp7]
  · iexists _; iexact Hp7
  iintro Hq7
  first | iapply (wp_ret_bind c _ _ _) | skip
  ihave Hp7 : pPts (F := F) c (7 : Fin 16) (pfill c (7 : Fin 16) (pieceAt m 1 c 7)) $$ [Hq7]
  · sl_unfold_run_names
    rw [store_P_1_7 m c]
    iexact Hq7
  first | sl_exec | skip
  iapply (step_RS_d m K c 6 (by decide) 1 (by decide) (cnt 15 1) _ (dev67_eq c)) $$ [HO Hrg6 Hdr6 Hp7 Hx7]
  · isplitr; · iexact HI
    isplitl [HO]; · iexact HO
    isplitl [Hrg6]; · iexact Hrg6
    isplitl [Hdr6]; · iexact Hdr6
    isplitl [Hp7]; · iexact Hp7
    (iexists _; iexact Hx7)
  iintro ⟨HO, Hrs6⟩
  first | iapply (wp_ret_bind c _ _ _) | skip
  -- layer 1: wait for chunk 8 (from the device 8 places before)
  first | sl_exec | skip
  iapply (step_AR m K c (7 : Fin 15) 1 (by decide) (cnt 15 1) (cnt 7 1) (lt_cnt_full 1) (lt_cnt 7 1)) $$ [HO Hrc7]
  · isplitr; · iexact HI
    isplitl [HO]; · iexact HO
    isplitr; · iexact Hlev
    iexact Hrc7
  iintro ⟨HO, Hrg7, Hpay⟩
  first | iapply (wp_ret_bind c _ _ _) | skip
  ihave Hpay' := (agRPay_open m c (7 : Fin 15) 1) $$ Hpay
  icases Hpay' with ⟨Hx8, Hdr7⟩
  -- layer 1: wait for chunk 9 (from the device 9 places before)
  first | sl_exec | skip
  iapply (step_AR m K c (8 : Fin 15) 1 (by decide) (cnt 15 1) (cnt 7 1) (lt_cnt_full 1) (lt_cnt 7 1)) $$ [HO Hrc8]
  · isplitr; · iexact HI
    isplitl [HO]; · iexact HO
    isplitr; · iexact Hlev
    iexact Hrc8
  iintro ⟨HO, Hrg8, Hpay⟩
  first | iapply (wp_ret_bind c _ _ _) | skip
  ihave Hpay' := (agRPay_open m c (8 : Fin 15) 1) $$ Hpay
  icases Hpay' with ⟨Hx9, Hdr8⟩
  -- layer 1, group 4: the two chunks read as one block of 512 rows
  first | sl_exec | skip
  iapply (loadX c (4 : Fin 8) 0 (chunkAt m 1 (bwd c 8)) (chunkAt m 1 (bwd c 9))) $$ [Hx8 Hx9]
  · isplitl [Hx8]; · iexact Hx8
    iexact Hx9
  iintro ⟨Hx8, Hx9⟩
  first | iapply (wp_ret_bind c _ _ _) | skip
  -- layer 1: the piece for chunk 8, stored into slot 8 of P and sent back
  first | sl_exec | skip
  iapply (loadPany c (8 : Fin 16) (pfill c (8 : Fin 16) (pieceAt m 0 c 8))) $$ [Hp8]
  · iexact Hp8
  iintro Hp8
  first | iapply (wp_ret_bind c _ _ _) | skip
  first | sl_exec | skip
  iapply (storeP c (8 : Fin 16) _) $$ [Hp8]
  · iexists _; iexact Hp8
  iintro Hq8
  first | iapply (wp_ret_bind c _ _ _) | skip
  ihave Hp8 : pPts (F := F) c (8 : Fin 16) (pfill c (8 : Fin 16) (pieceAt m 1 c 8)) $$ [Hq8]
  · sl_unfold_run_names
    first | rw [store_P_1_8' m c] | rw [store_P_1_8 m c]
    iexact Hq8
  first | sl_exec | skip
  iapply (step_RS_d m K c 7 (by decide) 1 (by decide) (cnt 15 1) _ (dev68_eq c)) $$ [HO Hrg7 Hdr7 Hp8 Hx8]
  · isplitr; · iexact HI
    isplitl [HO]; · iexact HO
    isplitl [Hrg7]; · iexact Hrg7
    isplitl [Hdr7]; · iexact Hdr7
    isplitl [Hp8]; · iexact Hp8
    (iexists _; iexact Hx8)
  iintro ⟨HO, Hrs7⟩
  first | iapply (wp_ret_bind c _ _ _) | skip
  -- layer 1: the piece for chunk 9, stored into slot 9 of P and sent back
  first | sl_exec | skip
  iapply (loadPany c (9 : Fin 16) (pfill c (9 : Fin 16) (pieceAt m 0 c 9))) $$ [Hp9]
  · iexact Hp9
  iintro Hp9
  first | iapply (wp_ret_bind c _ _ _) | skip
  first | sl_exec | skip
  iapply (storeP c (9 : Fin 16) _) $$ [Hp9]
  · iexists _; iexact Hp9
  iintro Hq9
  first | iapply (wp_ret_bind c _ _ _) | skip
  ihave Hp9 : pPts (F := F) c (9 : Fin 16) (pfill c (9 : Fin 16) (pieceAt m 1 c 9)) $$ [Hq9]
  · sl_unfold_run_names
    rw [store_P_1_9 m c]
    iexact Hq9
  first | sl_exec | skip
  iapply (step_RS_d m K c 8 (by decide) 1 (by decide) (cnt 15 1) _ (dev69_eq c)) $$ [HO Hrg8 Hdr8 Hp9 Hx9]
  · isplitr; · iexact HI
    isplitl [HO]; · iexact HO
    isplitl [Hrg8]; · iexact Hrg8
    isplitl [Hdr8]; · iexact Hdr8
    isplitl [Hp9]; · iexact Hp9
    (iexists _; iexact Hx9)
  iintro ⟨HO, Hrs8⟩
  first | iapply (wp_ret_bind c _ _ _) | skip
  -- layer 1: wait for chunk 10 (from the device 10 places before)
  first | sl_exec | skip
  iapply (step_AR m K c (9 : Fin 15) 1 (by decide) (cnt 15 1) (cnt 9 1) (lt_cnt_full 1) (lt_cnt 9 1)) $$ [HO Hrc9]
  · isplitr; · iexact HI
    isplitl [HO]; · iexact HO
    isplitr; · iexact Hlev
    iexact Hrc9
  iintro ⟨HO, Hrg9, Hpay⟩
  first | iapply (wp_ret_bind c _ _ _) | skip
  ihave Hpay' := (agRPay_open m c (9 : Fin 15) 1) $$ Hpay
  icases Hpay' with ⟨Hx10, Hdr9⟩
  -- layer 1: wait for chunk 11 (from the device 11 places before)
  first | sl_exec | skip
  iapply (step_AR m K c (10 : Fin 15) 1 (by decide) (cnt 15 1) (cnt 9 1) (lt_cnt_full 1) (lt_cnt 9 1)) $$ [HO Hrc10]
  · isplitr; · iexact HI
    isplitl [HO]; · iexact HO
    isplitr; · iexact Hlev
    iexact Hrc10
  iintro ⟨HO, Hrg10, Hpay⟩
  first | iapply (wp_ret_bind c _ _ _) | skip
  ihave Hpay' := (agRPay_open m c (10 : Fin 15) 1) $$ Hpay
  icases Hpay' with ⟨Hx11, Hdr10⟩
  -- layer 1, group 5: the two chunks read as one block of 512 rows
  first | sl_exec | skip
  iapply (loadX c (5 : Fin 8) 0 (chunkAt m 1 (bwd c 10)) (chunkAt m 1 (bwd c 11))) $$ [Hx10 Hx11]
  · isplitl [Hx10]; · iexact Hx10
    iexact Hx11
  iintro ⟨Hx10, Hx11⟩
  first | iapply (wp_ret_bind c _ _ _) | skip
  -- layer 1: the piece for chunk 10, stored into slot 10 of P and sent back
  first | sl_exec | skip
  iapply (loadPany c (10 : Fin 16) (pfill c (10 : Fin 16) (pieceAt m 0 c 10))) $$ [Hp10]
  · iexact Hp10
  iintro Hp10
  first | iapply (wp_ret_bind c _ _ _) | skip
  first | sl_exec | skip
  iapply (storeP c (10 : Fin 16) _) $$ [Hp10]
  · iexists _; iexact Hp10
  iintro Hq10
  first | iapply (wp_ret_bind c _ _ _) | skip
  ihave Hp10 : pPts (F := F) c (10 : Fin 16) (pfill c (10 : Fin 16) (pieceAt m 1 c 10)) $$ [Hq10]
  · sl_unfold_run_names
    rw [store_P_1_10 m c]
    iexact Hq10
  first | sl_exec | skip
  iapply (step_RS_d m K c 9 (by decide) 1 (by decide) (cnt 15 1) _ (dev70_eq c)) $$ [HO Hrg9 Hdr9 Hp10 Hx10]
  · isplitr; · iexact HI
    isplitl [HO]; · iexact HO
    isplitl [Hrg9]; · iexact Hrg9
    isplitl [Hdr9]; · iexact Hdr9
    isplitl [Hp10]; · iexact Hp10
    (iexists _; iexact Hx10)
  iintro ⟨HO, Hrs9⟩
  first | iapply (wp_ret_bind c _ _ _) | skip
  -- layer 1: the piece for chunk 11, stored into slot 11 of P and sent back
  first | sl_exec | skip
  iapply (loadPany c (11 : Fin 16) (pfill c (11 : Fin 16) (pieceAt m 0 c 11))) $$ [Hp11]
  · iexact Hp11
  iintro Hp11
  first | iapply (wp_ret_bind c _ _ _) | skip
  first | sl_exec | skip
  iapply (storeP c (11 : Fin 16) _) $$ [Hp11]
  · iexists _; iexact Hp11
  iintro Hq11
  first | iapply (wp_ret_bind c _ _ _) | skip
  ihave Hp11 : pPts (F := F) c (11 : Fin 16) (pfill c (11 : Fin 16) (pieceAt m 1 c 11)) $$ [Hq11]
  · sl_unfold_run_names
    rw [store_P_1_11 m c]
    iexact Hq11
  first | sl_exec | skip
  iapply (step_RS_d m K c 10 (by decide) 1 (by decide) (cnt 15 1) _ (dev71_eq c)) $$ [HO Hrg10 Hdr10 Hp11 Hx11]
  · isplitr; · iexact HI
    isplitl [HO]; · iexact HO
    isplitl [Hrg10]; · iexact Hrg10
    isplitl [Hdr10]; · iexact Hdr10
    isplitl [Hp11]; · iexact Hp11
    (iexists _; iexact Hx11)
  iintro ⟨HO, Hrs10⟩
  first | iapply (wp_ret_bind c _ _ _) | skip
  -- layer 1: wait for chunk 12 (from the device 12 places before)
  first | sl_exec | skip
  iapply (step_AR m K c (11 : Fin 15) 1 (by decide) (cnt 15 1) (cnt 11 1) (lt_cnt_full 1) (lt_cnt 11 1)) $$ [HO Hrc11]
  · isplitr; · iexact HI
    isplitl [HO]; · iexact HO
    isplitr; · iexact Hlev
    iexact Hrc11
  iintro ⟨HO, Hrg11, Hpay⟩
  first | iapply (wp_ret_bind c _ _ _) | skip
  ihave Hpay' := (agRPay_open m c (11 : Fin 15) 1) $$ Hpay
  icases Hpay' with ⟨Hx12, Hdr11⟩
  -- layer 1: wait for chunk 13 (from the device 13 places before)
  first | sl_exec | skip
  iapply (step_AR m K c (12 : Fin 15) 1 (by decide) (cnt 15 1) (cnt 11 1) (lt_cnt_full 1) (lt_cnt 11 1)) $$ [HO Hrc12]
  · isplitr; · iexact HI
    isplitl [HO]; · iexact HO
    isplitr; · iexact Hlev
    iexact Hrc12
  iintro ⟨HO, Hrg12, Hpay⟩
  first | iapply (wp_ret_bind c _ _ _) | skip
  ihave Hpay' := (agRPay_open m c (12 : Fin 15) 1) $$ Hpay
  icases Hpay' with ⟨Hx13, Hdr12⟩
  -- layer 1, group 6: the two chunks read as one block of 512 rows
  first | sl_exec | skip
  iapply (loadX c (6 : Fin 8) 0 (chunkAt m 1 (bwd c 12)) (chunkAt m 1 (bwd c 13))) $$ [Hx12 Hx13]
  · isplitl [Hx12]; · iexact Hx12
    iexact Hx13
  iintro ⟨Hx12, Hx13⟩
  first | iapply (wp_ret_bind c _ _ _) | skip
  -- layer 1: the piece for chunk 12, stored into slot 12 of P and sent back
  first | sl_exec | skip
  iapply (loadPany c (12 : Fin 16) (pfill c (12 : Fin 16) (pieceAt m 0 c 12))) $$ [Hp12]
  · iexact Hp12
  iintro Hp12
  first | iapply (wp_ret_bind c _ _ _) | skip
  first | sl_exec | skip
  iapply (storeP c (12 : Fin 16) _) $$ [Hp12]
  · iexists _; iexact Hp12
  iintro Hq12
  first | iapply (wp_ret_bind c _ _ _) | skip
  ihave Hp12 : pPts (F := F) c (12 : Fin 16) (pfill c (12 : Fin 16) (pieceAt m 1 c 12)) $$ [Hq12]
  · sl_unfold_run_names
    rw [store_P_1_12 m c]
    iexact Hq12
  first | sl_exec | skip
  iapply (step_RS_d m K c 11 (by decide) 1 (by decide) (cnt 15 1) _ (dev72_eq c)) $$ [HO Hrg11 Hdr11 Hp12 Hx12]
  · isplitr; · iexact HI
    isplitl [HO]; · iexact HO
    isplitl [Hrg11]; · iexact Hrg11
    isplitl [Hdr11]; · iexact Hdr11
    isplitl [Hp12]; · iexact Hp12
    (iexists _; iexact Hx12)
  iintro ⟨HO, Hrs11⟩
  first | iapply (wp_ret_bind c _ _ _) | skip
  -- layer 1: the piece for chunk 13, stored into slot 13 of P and sent back
  first | sl_exec | skip
  iapply (loadPany c (13 : Fin 16) (pfill c (13 : Fin 16) (pieceAt m 0 c 13))) $$ [Hp13]
  · iexact Hp13
  iintro Hp13
  first | iapply (wp_ret_bind c _ _ _) | skip
  first | sl_exec | skip
  iapply (storeP c (13 : Fin 16) _) $$ [Hp13]
  · iexists _; iexact Hp13
  iintro Hq13
  first | iapply (wp_ret_bind c _ _ _) | skip
  ihave Hp13 : pPts (F := F) c (13 : Fin 16) (pfill c (13 : Fin 16) (pieceAt m 1 c 13)) $$ [Hq13]
  · sl_unfold_run_names
    rw [store_P_1_13 m c]
    iexact Hq13
  first | sl_exec | skip
  iapply (step_RS_d m K c 12 (by decide) 1 (by decide) (cnt 15 1) _ (dev73_eq c)) $$ [HO Hrg12 Hdr12 Hp13 Hx13]
  · isplitr; · iexact HI
    isplitl [HO]; · iexact HO
    isplitl [Hrg12]; · iexact Hrg12
    isplitl [Hdr12]; · iexact Hdr12
    isplitl [Hp13]; · iexact Hp13
    (iexists _; iexact Hx13)
  iintro ⟨HO, Hrs12⟩
  first | iapply (wp_ret_bind c _ _ _) | skip
  -- layer 1: wait for chunk 14 (from the device 14 places before)
  first | sl_exec | skip
  iapply (step_AR m K c (13 : Fin 15) 1 (by decide) (cnt 15 1) (cnt 13 1) (lt_cnt_full 1) (lt_cnt 13 1)) $$ [HO Hrc13]
  · isplitr; · iexact HI
    isplitl [HO]; · iexact HO
    isplitr; · iexact Hlev
    iexact Hrc13
  iintro ⟨HO, Hrg13, Hpay⟩
  first | iapply (wp_ret_bind c _ _ _) | skip
  ihave Hpay' := (agRPay_open m c (13 : Fin 15) 1) $$ Hpay
  icases Hpay' with ⟨Hx14, Hdr13⟩
  -- layer 1: wait for chunk 15 (from the device 15 places before)
  first | sl_exec | skip
  iapply (step_AR m K c (14 : Fin 15) 1 (by decide) (cnt 15 1) (cnt 13 1) (lt_cnt_full 1) (lt_cnt 13 1)) $$ [HO Hrc14]
  · isplitr; · iexact HI
    isplitl [HO]; · iexact HO
    isplitr; · iexact Hlev
    iexact Hrc14
  iintro ⟨HO, Hrg14, Hpay⟩
  first | iapply (wp_ret_bind c _ _ _) | skip
  ihave Hpay' := (agRPay_open m c (14 : Fin 15) 1) $$ Hpay
  icases Hpay' with ⟨Hx15, Hdr14⟩
  -- layer 1, group 7: the two chunks read as one block of 512 rows
  first | sl_exec | skip
  iapply (loadX c (7 : Fin 8) 0 (chunkAt m 1 (bwd c 14)) (chunkAt m 1 (bwd c 15))) $$ [Hx14 Hx15]
  · isplitl [Hx14]; · iexact Hx14
    iexact Hx15
  iintro ⟨Hx14, Hx15⟩
  first | iapply (wp_ret_bind c _ _ _) | skip
  -- layer 1: the piece for chunk 14, stored into slot 14 of P and sent back
  first | sl_exec | skip
  iapply (loadPany c (14 : Fin 16) (pfill c (14 : Fin 16) (pieceAt m 0 c 14))) $$ [Hp14]
  · iexact Hp14
  iintro Hp14
  first | iapply (wp_ret_bind c _ _ _) | skip
  first | sl_exec | skip
  iapply (storeP c (14 : Fin 16) _) $$ [Hp14]
  · iexists _; iexact Hp14
  iintro Hq14
  first | iapply (wp_ret_bind c _ _ _) | skip
  ihave Hp14 : pPts (F := F) c (14 : Fin 16) (pfill c (14 : Fin 16) (pieceAt m 1 c 14)) $$ [Hq14]
  · sl_unfold_run_names
    rw [store_P_1_14 m c]
    iexact Hq14
  first | sl_exec | skip
  iapply (step_RS_d m K c 13 (by decide) 1 (by decide) (cnt 15 1) _ (dev74_eq c)) $$ [HO Hrg13 Hdr13 Hp14 Hx14]
  · isplitr; · iexact HI
    isplitl [HO]; · iexact HO
    isplitl [Hrg13]; · iexact Hrg13
    isplitl [Hdr13]; · iexact Hdr13
    isplitl [Hp14]; · iexact Hp14
    (iexists _; iexact Hx14)
  iintro ⟨HO, Hrs13⟩
  first | iapply (wp_ret_bind c _ _ _) | skip
  -- layer 1: the piece for chunk 15, stored into slot 15 of P and sent back
  first | sl_exec | skip
  iapply (loadPany c (15 : Fin 16) (pfill c (15 : Fin 16) (pieceAt m 0 c 15))) $$ [Hp15]
  · iexact Hp15
  iintro Hp15
  first | iapply (wp_ret_bind c _ _ _) | skip
  first | sl_exec | skip
  iapply (storeP c (15 : Fin 16) _) $$ [Hp15]
  · iexists _; iexact Hp15
  iintro Hq15
  first | iapply (wp_ret_bind c _ _ _) | skip
  ihave Hp15 : pPts (F := F) c (15 : Fin 16) (pfill c (15 : Fin 16) (pieceAt m 1 c 15)) $$ [Hq15]
  · sl_unfold_run_names
    rw [store_P_1_15 m c]
    iexact Hq15
  first | sl_exec | skip
  iapply (step_RS_d m K c 14 (by decide) 1 (by decide) (cnt 15 1) _ (dev75_eq c)) $$ [HO Hrg14 Hdr14 Hp15 Hx15]
  · isplitr; · iexact HI
    isplitl [HO]; · iexact HO
    isplitl [Hrg14]; · iexact Hrg14
    isplitl [Hdr14]; · iexact Hdr14
    isplitl [Hp15]; · iexact Hp15
    (iexists _; iexact Hx15)
  iintro ⟨HO, Hrs14⟩
  first | iapply (wp_ret_bind c _ _ _) | skip
  -- layer 1: the send side of chunk copy 1
  first | sl_exec | skip
  iapply (step_AW m K c (0 : Fin 15) 1 (by decide) (cnt 15 1) (cnt 15 1) (lt_cnt_full 1) (fun i => (lt_cnt_full 1 i).le)) $$ [HO Hss0]
  · isplitr; · iexact HI
    isplitl [HO]; · iexact HO
    isplitr; · iexact Hlev
    iexact Hss0
  iintro ⟨HO, Hsw0, Hl0⟩
  first | iapply (wp_ret_bind c _ _ _) | skip
  -- layer 1: the send side of chunk copy 2
  first | sl_exec | skip
  iapply (step_AW m K c (1 : Fin 15) 1 (by decide) (cnt 15 1) (cnt 15 1) (lt_cnt_full 1) (fun i => (lt_cnt_full 1 i).le)) $$ [HO Hss1]
  · isplitr; · iexact HI
    isplitl [HO]; · iexact HO
    isplitr; · iexact Hlev
    iexact Hss1
  iintro ⟨HO, Hsw1, Hl1⟩
  first | iapply (wp_ret_bind c _ _ _) | skip
  -- layer 1: the send side of chunk copy 3
  first | sl_exec | skip
  iapply (step_AW m K c (2 : Fin 15) 1 (by decide) (cnt 15 1) (cnt 15 1) (lt_cnt_full 1) (fun i => (lt_cnt_full 1 i).le)) $$ [HO Hss2]
  · isplitr; · iexact HI
    isplitl [HO]; · iexact HO
    isplitr; · iexact Hlev
    iexact Hss2
  iintro ⟨HO, Hsw2, Hl2⟩
  first | iapply (wp_ret_bind c _ _ _) | skip
  -- layer 1: the send side of chunk copy 4
  first | sl_exec | skip
  iapply (step_AW m K c (3 : Fin 15) 1 (by decide) (cnt 15 1) (cnt 15 1) (lt_cnt_full 1) (fun i => (lt_cnt_full 1 i).le)) $$ [HO Hss3]
  · isplitr; · iexact HI
    isplitl [HO]; · iexact HO
    isplitr; · iexact Hlev
    iexact Hss3
  iintro ⟨HO, Hsw3, Hl3⟩
  first | iapply (wp_ret_bind c _ _ _) | skip
  -- layer 1: the send side of chunk copy 5
  first | sl_exec | skip
  iapply (step_AW m K c (4 : Fin 15) 1 (by decide) (cnt 15 1) (cnt 15 1) (lt_cnt_full 1) (fun i => (lt_cnt_full 1 i).le)) $$ [HO Hss4]
  · isplitr; · iexact HI
    isplitl [HO]; · iexact HO
    isplitr; · iexact Hlev
    iexact Hss4
  iintro ⟨HO, Hsw4, Hl4⟩
  first | iapply (wp_ret_bind c _ _ _) | skip
  -- layer 1: the send side of chunk copy 6
  first | sl_exec | skip
  iapply (step_AW m K c (5 : Fin 15) 1 (by decide) (cnt 15 1) (cnt 15 1) (lt_cnt_full 1) (fun i => (lt_cnt_full 1 i).le)) $$ [HO Hss5]
  · isplitr; · iexact HI
    isplitl [HO]; · iexact HO
    isplitr; · iexact Hlev
    iexact Hss5
  iintro ⟨HO, Hsw5, Hl5⟩
  first | iapply (wp_ret_bind c _ _ _) | skip
  -- layer 1: the send side of chunk copy 7
  first | sl_exec | skip
  iapply (step_AW m K c (6 : Fin 15) 1 (by decide) (cnt 15 1) (cnt 15 1) (lt_cnt_full 1) (fun i => (lt_cnt_full 1 i).le)) $$ [HO Hss6]
  · isplitr; · iexact HI
    isplitl [HO]; · iexact HO
    isplitr; · iexact Hlev
    iexact Hss6
  iintro ⟨HO, Hsw6, Hl6⟩
  first | iapply (wp_ret_bind c _ _ _) | skip
  -- layer 1: the send side of chunk copy 8
  first | sl_exec | skip
  iapply (step_AW m K c (7 : Fin 15) 1 (by decide) (cnt 15 1) (cnt 15 1) (lt_cnt_full 1) (fun i => (lt_cnt_full 1 i).le)) $$ [HO Hss7]
  · isplitr; · iexact HI
    isplitl [HO]; · iexact HO
    isplitr; · iexact Hlev
    iexact Hss7
  iintro ⟨HO, Hsw7, Hl7⟩
  first | iapply (wp_ret_bind c _ _ _) | skip
  -- layer 1: the send side of chunk copy 9
  first | sl_exec | skip
  iapply (step_AW m K c (8 : Fin 15) 1 (by decide) (cnt 15 1) (cnt 15 1) (lt_cnt_full 1) (fun i => (lt_cnt_full 1 i).le)) $$ [HO Hss8]
  · isplitr; · iexact HI
    isplitl [HO]; · iexact HO
    isplitr; · iexact Hlev
    iexact Hss8
  iintro ⟨HO, Hsw8, Hl8⟩
  first | iapply (wp_ret_bind c _ _ _) | skip
  -- layer 1: the send side of chunk copy 10
  first | sl_exec | skip
  iapply (step_AW m K c (9 : Fin 15) 1 (by decide) (cnt 15 1) (cnt 15 1) (lt_cnt_full 1) (fun i => (lt_cnt_full 1 i).le)) $$ [HO Hss9]
  · isplitr; · iexact HI
    isplitl [HO]; · iexact HO
    isplitr; · iexact Hlev
    iexact Hss9
  iintro ⟨HO, Hsw9, Hl9⟩
  first | iapply (wp_ret_bind c _ _ _) | skip
  -- layer 1: the send side of chunk copy 11
  first | sl_exec | skip
  iapply (step_AW m K c (10 : Fin 15) 1 (by decide) (cnt 15 1) (cnt 15 1) (lt_cnt_full 1) (fun i => (lt_cnt_full 1 i).le)) $$ [HO Hss10]
  · isplitr; · iexact HI
    isplitl [HO]; · iexact HO
    isplitr; · iexact Hlev
    iexact Hss10
  iintro ⟨HO, Hsw10, Hl10⟩
  first | iapply (wp_ret_bind c _ _ _) | skip
  -- layer 1: the send side of chunk copy 12
  first | sl_exec | skip
  iapply (step_AW m K c (11 : Fin 15) 1 (by decide) (cnt 15 1) (cnt 15 1) (lt_cnt_full 1) (fun i => (lt_cnt_full 1 i).le)) $$ [HO Hss11]
  · isplitr; · iexact HI
    isplitl [HO]; · iexact HO
    isplitr; · iexact Hlev
    iexact Hss11
  iintro ⟨HO, Hsw11, Hl11⟩
  first | iapply (wp_ret_bind c _ _ _) | skip
  -- layer 1: the send side of chunk copy 13
  first | sl_exec | skip
  iapply (step_AW m K c (12 : Fin 15) 1 (by decide) (cnt 15 1) (cnt 15 1) (lt_cnt_full 1) (fun i => (lt_cnt_full 1 i).le)) $$ [HO Hss12]
  · isplitr; · iexact HI
    isplitl [HO]; · iexact HO
    isplitr; · iexact Hlev
    iexact Hss12
  iintro ⟨HO, Hsw12, Hl12⟩
  first | iapply (wp_ret_bind c _ _ _) | skip
  -- layer 1: the send side of chunk copy 14
  first | sl_exec | skip
  iapply (step_AW m K c (13 : Fin 15) 1 (by decide) (cnt 15 1) (cnt 15 1) (lt_cnt_full 1) (fun i => (lt_cnt_full 1 i).le)) $$ [HO Hss13]
  · isplitr; · iexact HI
    isplitl [HO]; · iexact HO
    isplitr; · iexact Hlev
    iexact Hss13
  iintro ⟨HO, Hsw13, Hl13⟩
  first | iapply (wp_ret_bind c _ _ _) | skip
  -- layer 1: the send side of chunk copy 15
  first | sl_exec | skip
  iapply (step_AW m K c (14 : Fin 15) 1 (by decide) (cnt 15 1) (cnt 15 1) (lt_cnt_full 1) (fun i => (lt_cnt_full 1 i).le)) $$ [HO Hss14]
  · isplitr; · iexact HI
    isplitl [HO]; · iexact HO
    isplitr; · iexact Hlev
    iexact Hss14
  iintro ⟨HO, Hsw14, Hl14⟩
  first | iapply (wp_ret_bind c _ _ _) | skip
  -- layer 1: wait for the piece of copy index 1 and read it
  first | sl_exec | skip
  iapply (step_RR m K c (0 : Fin 15) 1 (by decide) (cnt 15 1) (cnt 15 1) (lt_cnt_full 1) (lt_cnt_full 1)) $$ [HO Hsw0]
  · isplitr; · iexact HI
    isplitl [HO]; · iexact HO
    isplitr; · iexact Hlev
    iexact Hsw0
  iintro ⟨HO, Hsn0, Hpay⟩
  first | iapply (wp_ret_bind c _ _ _) | skip
  ihave Hpay' := (rsRPay_open m c (0 : Fin 15) 1 (by decide)) $$ Hpay
  icases Hpay' with ⟨Hr14, Hdx0⟩
  first | sl_exec | skip
  iapply (loadR c (14 : Fin 15) (pieceAt m 1 (fwd c 1) 1)) $$ [Hr14]
  · iexact Hr14
  iintro Hr14
  first | iapply (wp_ret_bind c _ _ _) | skip
  -- layer 1: wait for the piece of copy index 2 and read it
  first | sl_exec | skip
  iapply (step_RR m K c (1 : Fin 15) 1 (by decide) (cnt 15 1) (cnt 15 1) (lt_cnt_full 1) (lt_cnt_full 1)) $$ [HO Hsw1]
  · isplitr; · iexact HI
    isplitl [HO]; · iexact HO
    isplitr; · iexact Hlev
    iexact Hsw1
  iintro ⟨HO, Hsn1, Hpay⟩
  first | iapply (wp_ret_bind c _ _ _) | skip
  ihave Hpay' := (rsRPay_open m c (1 : Fin 15) 1 (by decide)) $$ Hpay
  icases Hpay' with ⟨Hr13, Hdx1⟩
  first | sl_exec | skip
  iapply (loadR c (13 : Fin 15) (pieceAt m 1 (fwd c 2) 2)) $$ [Hr13]
  · iexact Hr13
  iintro Hr13
  first | iapply (wp_ret_bind c _ _ _) | skip
  -- layer 1: wait for the piece of copy index 3 and read it
  first | sl_exec | skip
  iapply (step_RR m K c (2 : Fin 15) 1 (by decide) (cnt 15 1) (cnt 15 1) (lt_cnt_full 1) (lt_cnt_full 1)) $$ [HO Hsw2]
  · isplitr; · iexact HI
    isplitl [HO]; · iexact HO
    isplitr; · iexact Hlev
    iexact Hsw2
  iintro ⟨HO, Hsn2, Hpay⟩
  first | iapply (wp_ret_bind c _ _ _) | skip
  ihave Hpay' := (rsRPay_open m c (2 : Fin 15) 1 (by decide)) $$ Hpay
  icases Hpay' with ⟨Hr12, Hdx2⟩
  first | sl_exec | skip
  iapply (loadR c (12 : Fin 15) (pieceAt m 1 (fwd c 3) 3)) $$ [Hr12]
  · iexact Hr12
  iintro Hr12
  first | iapply (wp_ret_bind c _ _ _) | skip
  -- layer 1: wait for the piece of copy index 4 and read it
  first | sl_exec | skip
  iapply (step_RR m K c (3 : Fin 15) 1 (by decide) (cnt 15 1) (cnt 15 1) (lt_cnt_full 1) (lt_cnt_full 1)) $$ [HO Hsw3]
  · isplitr; · iexact HI
    isplitl [HO]; · iexact HO
    isplitr; · iexact Hlev
    iexact Hsw3
  iintro ⟨HO, Hsn3, Hpay⟩
  first | iapply (wp_ret_bind c _ _ _) | skip
  ihave Hpay' := (rsRPay_open m c (3 : Fin 15) 1 (by decide)) $$ Hpay
  icases Hpay' with ⟨Hr11, Hdx3⟩
  first | sl_exec | skip
  iapply (loadR c (11 : Fin 15) (pieceAt m 1 (fwd c 4) 4)) $$ [Hr11]
  · iexact Hr11
  iintro Hr11
  first | iapply (wp_ret_bind c _ _ _) | skip
  -- layer 1: wait for the piece of copy index 5 and read it
  first | sl_exec | skip
  iapply (step_RR m K c (4 : Fin 15) 1 (by decide) (cnt 15 1) (cnt 15 1) (lt_cnt_full 1) (lt_cnt_full 1)) $$ [HO Hsw4]
  · isplitr; · iexact HI
    isplitl [HO]; · iexact HO
    isplitr; · iexact Hlev
    iexact Hsw4
  iintro ⟨HO, Hsn4, Hpay⟩
  first | iapply (wp_ret_bind c _ _ _) | skip
  ihave Hpay' := (rsRPay_open m c (4 : Fin 15) 1 (by decide)) $$ Hpay
  icases Hpay' with ⟨Hr10, Hdx4⟩
  first | sl_exec | skip
  iapply (loadR c (10 : Fin 15) (pieceAt m 1 (fwd c 5) 5)) $$ [Hr10]
  · iexact Hr10
  iintro Hr10
  first | iapply (wp_ret_bind c _ _ _) | skip
  -- layer 1: wait for the piece of copy index 6 and read it
  first | sl_exec | skip
  iapply (step_RR m K c (5 : Fin 15) 1 (by decide) (cnt 15 1) (cnt 15 1) (lt_cnt_full 1) (lt_cnt_full 1)) $$ [HO Hsw5]
  · isplitr; · iexact HI
    isplitl [HO]; · iexact HO
    isplitr; · iexact Hlev
    iexact Hsw5
  iintro ⟨HO, Hsn5, Hpay⟩
  first | iapply (wp_ret_bind c _ _ _) | skip
  ihave Hpay' := (rsRPay_open m c (5 : Fin 15) 1 (by decide)) $$ Hpay
  icases Hpay' with ⟨Hr9, Hdx5⟩
  first | sl_exec | skip
  iapply (loadR c (9 : Fin 15) (pieceAt m 1 (fwd c 6) 6)) $$ [Hr9]
  · iexact Hr9
  iintro Hr9
  first | iapply (wp_ret_bind c _ _ _) | skip
  -- layer 1: wait for the piece of copy index 7 and read it
  first | sl_exec | skip
  iapply (step_RR m K c (6 : Fin 15) 1 (by decide) (cnt 15 1) (cnt 15 1) (lt_cnt_full 1) (lt_cnt_full 1)) $$ [HO Hsw6]
  · isplitr; · iexact HI
    isplitl [HO]; · iexact HO
    isplitr; · iexact Hlev
    iexact Hsw6
  iintro ⟨HO, Hsn6, Hpay⟩
  first | iapply (wp_ret_bind c _ _ _) | skip
  ihave Hpay' := (rsRPay_open m c (6 : Fin 15) 1 (by decide)) $$ Hpay
  icases Hpay' with ⟨Hr8, Hdx6⟩
  first | sl_exec | skip
  iapply (loadR c (8 : Fin 15) (pieceAt m 1 (fwd c 7) 7)) $$ [Hr8]
  · iexact Hr8
  iintro Hr8
  first | iapply (wp_ret_bind c _ _ _) | skip
  -- layer 1: wait for the piece of copy index 8 and read it
  first | sl_exec | skip
  iapply (step_RR m K c (7 : Fin 15) 1 (by decide) (cnt 15 1) (cnt 15 1) (lt_cnt_full 1) (lt_cnt_full 1)) $$ [HO Hsw7]
  · isplitr; · iexact HI
    isplitl [HO]; · iexact HO
    isplitr; · iexact Hlev
    iexact Hsw7
  iintro ⟨HO, Hsn7, Hpay⟩
  first | iapply (wp_ret_bind c _ _ _) | skip
  ihave Hpay' := (rsRPay_open m c (7 : Fin 15) 1 (by decide)) $$ Hpay
  icases Hpay' with ⟨Hr7, Hdx7⟩
  first | sl_exec | skip
  iapply (loadR c (7 : Fin 15) (pieceAt m 1 (fwd c 8) 8)) $$ [Hr7]
  · iexact Hr7
  iintro Hr7
  first | iapply (wp_ret_bind c _ _ _) | skip
  -- layer 1: wait for the piece of copy index 9 and read it
  first | sl_exec | skip
  iapply (step_RR m K c (8 : Fin 15) 1 (by decide) (cnt 15 1) (cnt 15 1) (lt_cnt_full 1) (lt_cnt_full 1)) $$ [HO Hsw8]
  · isplitr; · iexact HI
    isplitl [HO]; · iexact HO
    isplitr; · iexact Hlev
    iexact Hsw8
  iintro ⟨HO, Hsn8, Hpay⟩
  first | iapply (wp_ret_bind c _ _ _) | skip
  ihave Hpay' := (rsRPay_open m c (8 : Fin 15) 1 (by decide)) $$ Hpay
  icases Hpay' with ⟨Hr6, Hdx8⟩
  first | sl_exec | skip
  iapply (loadR c (6 : Fin 15) (pieceAt m 1 (fwd c 9) 9)) $$ [Hr6]
  · iexact Hr6
  iintro Hr6
  first | iapply (wp_ret_bind c _ _ _) | skip
  -- layer 1: wait for the piece of copy index 10 and read it
  first | sl_exec | skip
  iapply (step_RR m K c (9 : Fin 15) 1 (by decide) (cnt 15 1) (cnt 15 1) (lt_cnt_full 1) (lt_cnt_full 1)) $$ [HO Hsw9]
  · isplitr; · iexact HI
    isplitl [HO]; · iexact HO
    isplitr; · iexact Hlev
    iexact Hsw9
  iintro ⟨HO, Hsn9, Hpay⟩
  first | iapply (wp_ret_bind c _ _ _) | skip
  ihave Hpay' := (rsRPay_open m c (9 : Fin 15) 1 (by decide)) $$ Hpay
  icases Hpay' with ⟨Hr5, Hdx9⟩
  first | sl_exec | skip
  iapply (loadR c (5 : Fin 15) (pieceAt m 1 (fwd c 10) 10)) $$ [Hr5]
  · iexact Hr5
  iintro Hr5
  first | iapply (wp_ret_bind c _ _ _) | skip
  -- layer 1: wait for the piece of copy index 11 and read it
  first | sl_exec | skip
  iapply (step_RR m K c (10 : Fin 15) 1 (by decide) (cnt 15 1) (cnt 15 1) (lt_cnt_full 1) (lt_cnt_full 1)) $$ [HO Hsw10]
  · isplitr; · iexact HI
    isplitl [HO]; · iexact HO
    isplitr; · iexact Hlev
    iexact Hsw10
  iintro ⟨HO, Hsn10, Hpay⟩
  first | iapply (wp_ret_bind c _ _ _) | skip
  ihave Hpay' := (rsRPay_open m c (10 : Fin 15) 1 (by decide)) $$ Hpay
  icases Hpay' with ⟨Hr4, Hdx10⟩
  first | sl_exec | skip
  iapply (loadR c (4 : Fin 15) (pieceAt m 1 (fwd c 11) 11)) $$ [Hr4]
  · iexact Hr4
  iintro Hr4
  first | iapply (wp_ret_bind c _ _ _) | skip
  -- layer 1: wait for the piece of copy index 12 and read it
  first | sl_exec | skip
  iapply (step_RR m K c (11 : Fin 15) 1 (by decide) (cnt 15 1) (cnt 15 1) (lt_cnt_full 1) (lt_cnt_full 1)) $$ [HO Hsw11]
  · isplitr; · iexact HI
    isplitl [HO]; · iexact HO
    isplitr; · iexact Hlev
    iexact Hsw11
  iintro ⟨HO, Hsn11, Hpay⟩
  first | iapply (wp_ret_bind c _ _ _) | skip
  ihave Hpay' := (rsRPay_open m c (11 : Fin 15) 1 (by decide)) $$ Hpay
  icases Hpay' with ⟨Hr3, Hdx11⟩
  first | sl_exec | skip
  iapply (loadR c (3 : Fin 15) (pieceAt m 1 (fwd c 12) 12)) $$ [Hr3]
  · iexact Hr3
  iintro Hr3
  first | iapply (wp_ret_bind c _ _ _) | skip
  -- layer 1: wait for the piece of copy index 13 and read it
  first | sl_exec | skip
  iapply (step_RR m K c (12 : Fin 15) 1 (by decide) (cnt 15 1) (cnt 15 1) (lt_cnt_full 1) (lt_cnt_full 1)) $$ [HO Hsw12]
  · isplitr; · iexact HI
    isplitl [HO]; · iexact HO
    isplitr; · iexact Hlev
    iexact Hsw12
  iintro ⟨HO, Hsn12, Hpay⟩
  first | iapply (wp_ret_bind c _ _ _) | skip
  ihave Hpay' := (rsRPay_open m c (12 : Fin 15) 1 (by decide)) $$ Hpay
  icases Hpay' with ⟨Hr2, Hdx12⟩
  first | sl_exec | skip
  iapply (loadR c (2 : Fin 15) (pieceAt m 1 (fwd c 13) 13)) $$ [Hr2]
  · iexact Hr2
  iintro Hr2
  first | iapply (wp_ret_bind c _ _ _) | skip
  -- layer 1: wait for the piece of copy index 14 and read it
  first | sl_exec | skip
  iapply (step_RR m K c (13 : Fin 15) 1 (by decide) (cnt 15 1) (cnt 15 1) (lt_cnt_full 1) (lt_cnt_full 1)) $$ [HO Hsw13]
  · isplitr; · iexact HI
    isplitl [HO]; · iexact HO
    isplitr; · iexact Hlev
    iexact Hsw13
  iintro ⟨HO, Hsn13, Hpay⟩
  first | iapply (wp_ret_bind c _ _ _) | skip
  ihave Hpay' := (rsRPay_open m c (13 : Fin 15) 1 (by decide)) $$ Hpay
  icases Hpay' with ⟨Hr1, Hdx13⟩
  first | sl_exec | skip
  iapply (loadR c (1 : Fin 15) (pieceAt m 1 (fwd c 14) 14)) $$ [Hr1]
  · iexact Hr1
  iintro Hr1
  first | iapply (wp_ret_bind c _ _ _) | skip
  -- layer 1: wait for the piece of copy index 15 and read it
  first | sl_exec | skip
  iapply (step_RR m K c (14 : Fin 15) 1 (by decide) (cnt 15 1) (cnt 15 1) (lt_cnt_full 1) (lt_cnt_full 1)) $$ [HO Hsw14]
  · isplitr; · iexact HI
    isplitl [HO]; · iexact HO
    isplitr; · iexact Hlev
    iexact Hsw14
  iintro ⟨HO, Hsn14, Hpay⟩
  first | iapply (wp_ret_bind c _ _ _) | skip
  ihave Hpay' := (rsRPay_open m c (14 : Fin 15) 1 (by decide)) $$ Hpay
  icases Hpay' with ⟨Hr0, Hdx14⟩
  first | sl_exec | skip
  iapply (loadR c (0 : Fin 15) (pieceAt m 1 (fwd c 15) 15)) $$ [Hr0]
  · iexact Hr0
  iintro Hr0
  first | iapply (wp_ret_bind c _ _ _) | skip
  -- layer 1: the fifteen lent shares of slot 0 are back
  ihave Hx0' : xPts (F := F) c 0 fullShare (xfill c 0 (chunkAt m 1 c)) $$ [Hx0 Hl0 Hl1 Hl2 Hl3 Hl4 Hl5 Hl6 Hl7 Hl8 Hl9 Hl10 Hl11 Hl12 Hl13 Hl14]
  · unfold agSPay
    iapply (Exit.x_back15 c _)
    isplitl [Hx0]; · iexact Hx0
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    isplitl [Hl9]; · iexact Hl9
    isplitl [Hl10]; · iexact Hl10
    isplitl [Hl11]; · iexact Hl11
    isplitl [Hl12]; · iexact Hl12
    isplitl [Hl13]; · iexact Hl13
    iexact Hl14
  -- layer 1: the sum, cast, becomes the device's chunk of layer 2
  first | sl_exec | skip
  iapply (loadXany c 0 fullShare (xfill c 0 (chunkAt m 1 c))) $$ [Hx0']
  · iexact Hx0'
  iintro Hx0
  first | iapply (wp_ret_bind c _ _ _) | skip
  first | sl_exec | skip
  iapply (storeX c 0 _) $$ [Hx0]
  · iexists _; iexact Hx0
  iintro Hy0
  first | iapply (wp_ret_bind c _ _ _) | skip
  ihave Hx0 : xPts (F := F) c 0 fullShare (xfill c 0 (chunkAt m 2 c)) $$ [Hy0]
  · sl_unfold_run_names
    rw [store_X_1 m c]
    iexact Hy0
  ihave HO := (owes_next c 1 _) $$ HO
  -- chunk copy 1 of layer 2
  first | sl_exec | skip
  iapply (step_AS_d m K c 0 (by decide) 2 (by decide) _ _ (dev76_eq c)) $$ [HO Hsn0 Hdx0 Hx0 Hr14]
  · isplitr; · iexact HI
    isplitl [HO]; · iexact HO
    isplitl [Hsn0]; · iexact Hsn0
    isplitl [Hdx0]; · iexact Hdx0
    isplitl [Hx0]; · iexact Hx0
    (iexists _; iexact Hr14)
  iintro ⟨HO, Hss0, Hx0⟩
  first | iapply (wp_ret_bind c _ _ _) | skip
  -- chunk copy 2 of layer 2
  first | sl_exec | skip
  iapply (step_AS_d m K c 1 (by decide) 2 (by decide) _ _ (dev77_eq c)) $$ [HO Hsn1 Hdx1 Hx0 Hr13]
  · isplitr; · iexact HI
    isplitl [HO]; · iexact HO
    isplitl [Hsn1]; · iexact Hsn1
    isplitl [Hdx1]; · iexact Hdx1
    isplitl [Hx0]; · iexact Hx0
    (iexists _; iexact Hr13)
  iintro ⟨HO, Hss1, Hx0⟩
  first | iapply (wp_ret_bind c _ _ _) | skip
  -- chunk copy 3 of layer 2
  first | sl_exec | skip
  iapply (step_AS_d m K c 2 (by decide) 2 (by decide) _ _ (dev78_eq c)) $$ [HO Hsn2 Hdx2 Hx0 Hr12]
  · isplitr; · iexact HI
    isplitl [HO]; · iexact HO
    isplitl [Hsn2]; · iexact Hsn2
    isplitl [Hdx2]; · iexact Hdx2
    isplitl [Hx0]; · iexact Hx0
    (iexists _; iexact Hr12)
  iintro ⟨HO, Hss2, Hx0⟩
  first | iapply (wp_ret_bind c _ _ _) | skip
  -- chunk copy 4 of layer 2
  first | sl_exec | skip
  iapply (step_AS_d m K c 3 (by decide) 2 (by decide) _ _ (dev79_eq c)) $$ [HO Hsn3 Hdx3 Hx0 Hr11]
  · isplitr; · iexact HI
    isplitl [HO]; · iexact HO
    isplitl [Hsn3]; · iexact Hsn3
    isplitl [Hdx3]; · iexact Hdx3
    isplitl [Hx0]; · iexact Hx0
    (iexists _; iexact Hr11)
  iintro ⟨HO, Hss3, Hx0⟩
  first | iapply (wp_ret_bind c _ _ _) | skip
  -- chunk copy 5 of layer 2
  first | sl_exec | skip
  iapply (step_AS_d m K c 4 (by decide) 2 (by decide) _ _ (dev80_eq c)) $$ [HO Hsn4 Hdx4 Hx0 Hr10]
  · isplitr; · iexact HI
    isplitl [HO]; · iexact HO
    isplitl [Hsn4]; · iexact Hsn4
    isplitl [Hdx4]; · iexact Hdx4
    isplitl [Hx0]; · iexact Hx0
    (iexists _; iexact Hr10)
  iintro ⟨HO, Hss4, Hx0⟩
  first | iapply (wp_ret_bind c _ _ _) | skip
  -- chunk copy 6 of layer 2
  first | sl_exec | skip
  iapply (step_AS_d m K c 5 (by decide) 2 (by decide) _ _ (dev81_eq c)) $$ [HO Hsn5 Hdx5 Hx0 Hr9]
  · isplitr; · iexact HI
    isplitl [HO]; · iexact HO
    isplitl [Hsn5]; · iexact Hsn5
    isplitl [Hdx5]; · iexact Hdx5
    isplitl [Hx0]; · iexact Hx0
    (iexists _; iexact Hr9)
  iintro ⟨HO, Hss5, Hx0⟩
  first | iapply (wp_ret_bind c _ _ _) | skip
  -- chunk copy 7 of layer 2
  first | sl_exec | skip
  iapply (step_AS_d m K c 6 (by decide) 2 (by decide) _ _ (dev82_eq c)) $$ [HO Hsn6 Hdx6 Hx0 Hr8]
  · isplitr; · iexact HI
    isplitl [HO]; · iexact HO
    isplitl [Hsn6]; · iexact Hsn6
    isplitl [Hdx6]; · iexact Hdx6
    isplitl [Hx0]; · iexact Hx0
    (iexists _; iexact Hr8)
  iintro ⟨HO, Hss6, Hx0⟩
  first | iapply (wp_ret_bind c _ _ _) | skip
  -- chunk copy 8 of layer 2
  first | sl_exec | skip
  iapply (step_AS_d m K c 7 (by decide) 2 (by decide) _ _ (dev83_eq c)) $$ [HO Hsn7 Hdx7 Hx0 Hr7]
  · isplitr; · iexact HI
    isplitl [HO]; · iexact HO
    isplitl [Hsn7]; · iexact Hsn7
    isplitl [Hdx7]; · iexact Hdx7
    isplitl [Hx0]; · iexact Hx0
    (iexists _; iexact Hr7)
  iintro ⟨HO, Hss7, Hx0⟩
  first | iapply (wp_ret_bind c _ _ _) | skip
  -- chunk copy 9 of layer 2
  first | sl_exec | skip
  iapply (step_AS_d m K c 8 (by decide) 2 (by decide) _ _ (dev84_eq c)) $$ [HO Hsn8 Hdx8 Hx0 Hr6]
  · isplitr; · iexact HI
    isplitl [HO]; · iexact HO
    isplitl [Hsn8]; · iexact Hsn8
    isplitl [Hdx8]; · iexact Hdx8
    isplitl [Hx0]; · iexact Hx0
    (iexists _; iexact Hr6)
  iintro ⟨HO, Hss8, Hx0⟩
  first | iapply (wp_ret_bind c _ _ _) | skip
  -- chunk copy 10 of layer 2
  first | sl_exec | skip
  iapply (step_AS_d m K c 9 (by decide) 2 (by decide) _ _ (dev85_eq c)) $$ [HO Hsn9 Hdx9 Hx0 Hr5]
  · isplitr; · iexact HI
    isplitl [HO]; · iexact HO
    isplitl [Hsn9]; · iexact Hsn9
    isplitl [Hdx9]; · iexact Hdx9
    isplitl [Hx0]; · iexact Hx0
    (iexists _; iexact Hr5)
  iintro ⟨HO, Hss9, Hx0⟩
  first | iapply (wp_ret_bind c _ _ _) | skip
  -- chunk copy 11 of layer 2
  first | sl_exec | skip
  iapply (step_AS_d m K c 10 (by decide) 2 (by decide) _ _ (dev86_eq c)) $$ [HO Hsn10 Hdx10 Hx0 Hr4]
  · isplitr; · iexact HI
    isplitl [HO]; · iexact HO
    isplitl [Hsn10]; · iexact Hsn10
    isplitl [Hdx10]; · iexact Hdx10
    isplitl [Hx0]; · iexact Hx0
    (iexists _; iexact Hr4)
  iintro ⟨HO, Hss10, Hx0⟩
  first | iapply (wp_ret_bind c _ _ _) | skip
  -- chunk copy 12 of layer 2
  first | sl_exec | skip
  iapply (step_AS_d m K c 11 (by decide) 2 (by decide) _ _ (dev87_eq c)) $$ [HO Hsn11 Hdx11 Hx0 Hr3]
  · isplitr; · iexact HI
    isplitl [HO]; · iexact HO
    isplitl [Hsn11]; · iexact Hsn11
    isplitl [Hdx11]; · iexact Hdx11
    isplitl [Hx0]; · iexact Hx0
    (iexists _; iexact Hr3)
  iintro ⟨HO, Hss11, Hx0⟩
  first | iapply (wp_ret_bind c _ _ _) | skip
  -- chunk copy 13 of layer 2
  first | sl_exec | skip
  iapply (step_AS_d m K c 12 (by decide) 2 (by decide) _ _ (dev88_eq c)) $$ [HO Hsn12 Hdx12 Hx0 Hr2]
  · isplitr; · iexact HI
    isplitl [HO]; · iexact HO
    isplitl [Hsn12]; · iexact Hsn12
    isplitl [Hdx12]; · iexact Hdx12
    isplitl [Hx0]; · iexact Hx0
    (iexists _; iexact Hr2)
  iintro ⟨HO, Hss12, Hx0⟩
  first | iapply (wp_ret_bind c _ _ _) | skip
  -- chunk copy 14 of layer 2
  first | sl_exec | skip
  iapply (step_AS_d m K c 13 (by decide) 2 (by decide) _ _ (dev89_eq c)) $$ [HO Hsn13 Hdx13 Hx0 Hr1]
  · isplitr; · iexact HI
    isplitl [HO]; · iexact HO
    isplitl [Hsn13]; · iexact Hsn13
    isplitl [Hdx13]; · iexact Hdx13
    isplitl [Hx0]; · iexact Hx0
    (iexists _; iexact Hr1)
  iintro ⟨HO, Hss13, Hx0⟩
  first | iapply (wp_ret_bind c _ _ _) | skip
  -- chunk copy 15 of layer 2
  first | sl_exec | skip
  iapply (step_AS_d m K c 14 (by decide) 2 (by decide) _ _ (dev90_eq c)) $$ [HO Hsn14 Hdx14 Hx0 Hr0]
  · isplitr; · iexact HI
    isplitl [HO]; · iexact HO
    isplitl [Hsn14]; · iexact Hsn14
    isplitl [Hdx14]; · iexact Hdx14
    isplitl [Hx0]; · iexact Hx0
    (iexists _; iexact Hr0)
  iintro ⟨HO, Hss14, Hx0⟩
  first | iapply (wp_ret_bind c _ _ _) | skip
  -- layer 1: the send side of the piece copy for chunk 1
  first | sl_exec | skip
  iapply (step_RW m K c (0 : Fin 15) 1 (by decide) (cnt 15 2) (cnt 0 2) (fun i => Nat.lt_of_lt_of_le (Nat.lt_succ_self 1) (lt_cnt 15 2 i)) (lt_cnt_next 0 1)) $$ [HO Hrs0]
  · isplitr; · iexact HI
    isplitl [HO]; · iexact HO
    isplitr; · iexact Hlev
    iexact Hrs0
  iintro ⟨HO, Hrc0, Hpay⟩
  first | iapply (wp_ret_bind c _ _ _) | skip
  ihave Hp1 := (rsSPay_open m c (0 : Fin 15) 1) $$ Hpay
  -- layer 1: the send side of the piece copy for chunk 2
  first | sl_exec | skip
  iapply (step_RW m K c (1 : Fin 15) 1 (by decide) (cnt 15 2) (cnt 0 2) (fun i => Nat.lt_of_lt_of_le (Nat.lt_succ_self 1) (lt_cnt 15 2 i)) (lt_cnt_next 0 1)) $$ [HO Hrs1]
  · isplitr; · iexact HI
    isplitl [HO]; · iexact HO
    isplitr; · iexact Hlev
    iexact Hrs1
  iintro ⟨HO, Hrc1, Hpay⟩
  first | iapply (wp_ret_bind c _ _ _) | skip
  ihave Hp2 := (rsSPay_open m c (1 : Fin 15) 1) $$ Hpay
  -- layer 1: the send side of the piece copy for chunk 3
  first | sl_exec | skip
  iapply (step_RW m K c (2 : Fin 15) 1 (by decide) (cnt 15 2) (cnt 0 2) (fun i => Nat.lt_of_lt_of_le (Nat.lt_succ_self 1) (lt_cnt 15 2 i)) (lt_cnt_next 0 1)) $$ [HO Hrs2]
  · isplitr; · iexact HI
    isplitl [HO]; · iexact HO
    isplitr; · iexact Hlev
    iexact Hrs2
  iintro ⟨HO, Hrc2, Hpay⟩
  first | iapply (wp_ret_bind c _ _ _) | skip
  ihave Hp3 := (rsSPay_open m c (2 : Fin 15) 1) $$ Hpay
  -- layer 1: the send side of the piece copy for chunk 4
  first | sl_exec | skip
  iapply (step_RW m K c (3 : Fin 15) 1 (by decide) (cnt 15 2) (cnt 0 2) (fun i => Nat.lt_of_lt_of_le (Nat.lt_succ_self 1) (lt_cnt 15 2 i)) (lt_cnt_next 0 1)) $$ [HO Hrs3]
  · isplitr; · iexact HI
    isplitl [HO]; · iexact HO
    isplitr; · iexact Hlev
    iexact Hrs3
  iintro ⟨HO, Hrc3, Hpay⟩
  first | iapply (wp_ret_bind c _ _ _) | skip
  ihave Hp4 := (rsSPay_open m c (3 : Fin 15) 1) $$ Hpay
  -- layer 1: the send side of the piece copy for chunk 5
  first | sl_exec | skip
  iapply (step_RW m K c (4 : Fin 15) 1 (by decide) (cnt 15 2) (cnt 0 2) (fun i => Nat.lt_of_lt_of_le (Nat.lt_succ_self 1) (lt_cnt 15 2 i)) (lt_cnt_next 0 1)) $$ [HO Hrs4]
  · isplitr; · iexact HI
    isplitl [HO]; · iexact HO
    isplitr; · iexact Hlev
    iexact Hrs4
  iintro ⟨HO, Hrc4, Hpay⟩
  first | iapply (wp_ret_bind c _ _ _) | skip
  ihave Hp5 := (rsSPay_open m c (4 : Fin 15) 1) $$ Hpay
  -- layer 1: the send side of the piece copy for chunk 6
  first | sl_exec | skip
  iapply (step_RW m K c (5 : Fin 15) 1 (by decide) (cnt 15 2) (cnt 0 2) (fun i => Nat.lt_of_lt_of_le (Nat.lt_succ_self 1) (lt_cnt 15 2 i)) (lt_cnt_next 0 1)) $$ [HO Hrs5]
  · isplitr; · iexact HI
    isplitl [HO]; · iexact HO
    isplitr; · iexact Hlev
    iexact Hrs5
  iintro ⟨HO, Hrc5, Hpay⟩
  first | iapply (wp_ret_bind c _ _ _) | skip
  ihave Hp6 := (rsSPay_open m c (5 : Fin 15) 1) $$ Hpay
  -- layer 1: the send side of the piece copy for chunk 7
  first | sl_exec | skip
  iapply (step_RW m K c (6 : Fin 15) 1 (by decide) (cnt 15 2) (cnt 0 2) (fun i => Nat.lt_of_lt_of_le (Nat.lt_succ_self 1) (lt_cnt 15 2 i)) (lt_cnt_next 0 1)) $$ [HO Hrs6]
  · isplitr; · iexact HI
    isplitl [HO]; · iexact HO
    isplitr; · iexact Hlev
    iexact Hrs6
  iintro ⟨HO, Hrc6, Hpay⟩
  first | iapply (wp_ret_bind c _ _ _) | skip
  ihave Hp7 := (rsSPay_open m c (6 : Fin 15) 1) $$ Hpay
  -- layer 1: the send side of the piece copy for chunk 8
  first | sl_exec | skip
  iapply (step_RW m K c (7 : Fin 15) 1 (by decide) (cnt 15 2) (cnt 0 2) (fun i => Nat.lt_of_lt_of_le (Nat.lt_succ_self 1) (lt_cnt 15 2 i)) (lt_cnt_next 0 1)) $$ [HO Hrs7]
  · isplitr; · iexact HI
    isplitl [HO]; · iexact HO
    isplitr; · iexact Hlev
    iexact Hrs7
  iintro ⟨HO, Hrc7, Hpay⟩
  first | iapply (wp_ret_bind c _ _ _) | skip
  ihave Hp8 := (rsSPay_open m c (7 : Fin 15) 1) $$ Hpay
  -- layer 1: the send side of the piece copy for chunk 9
  first | sl_exec | skip
  iapply (step_RW m K c (8 : Fin 15) 1 (by decide) (cnt 15 2) (cnt 0 2) (fun i => Nat.lt_of_lt_of_le (Nat.lt_succ_self 1) (lt_cnt 15 2 i)) (lt_cnt_next 0 1)) $$ [HO Hrs8]
  · isplitr; · iexact HI
    isplitl [HO]; · iexact HO
    isplitr; · iexact Hlev
    iexact Hrs8
  iintro ⟨HO, Hrc8, Hpay⟩
  first | iapply (wp_ret_bind c _ _ _) | skip
  ihave Hp9 := (rsSPay_open m c (8 : Fin 15) 1) $$ Hpay
  -- layer 1: the send side of the piece copy for chunk 10
  first | sl_exec | skip
  iapply (step_RW m K c (9 : Fin 15) 1 (by decide) (cnt 15 2) (cnt 0 2) (fun i => Nat.lt_of_lt_of_le (Nat.lt_succ_self 1) (lt_cnt 15 2 i)) (lt_cnt_next 0 1)) $$ [HO Hrs9]
  · isplitr; · iexact HI
    isplitl [HO]; · iexact HO
    isplitr; · iexact Hlev
    iexact Hrs9
  iintro ⟨HO, Hrc9, Hpay⟩
  first | iapply (wp_ret_bind c _ _ _) | skip
  ihave Hp10 := (rsSPay_open m c (9 : Fin 15) 1) $$ Hpay
  -- layer 1: the send side of the piece copy for chunk 11
  first | sl_exec | skip
  iapply (step_RW m K c (10 : Fin 15) 1 (by decide) (cnt 15 2) (cnt 0 2) (fun i => Nat.lt_of_lt_of_le (Nat.lt_succ_self 1) (lt_cnt 15 2 i)) (lt_cnt_next 0 1)) $$ [HO Hrs10]
  · isplitr; · iexact HI
    isplitl [HO]; · iexact HO
    isplitr; · iexact Hlev
    iexact Hrs10
  iintro ⟨HO, Hrc10, Hpay⟩
  first | iapply (wp_ret_bind c _ _ _) | skip
  ihave Hp11 := (rsSPay_open m c (10 : Fin 15) 1) $$ Hpay
  -- layer 1: the send side of the piece copy for chunk 12
  first | sl_exec | skip
  iapply (step_RW m K c (11 : Fin 15) 1 (by decide) (cnt 15 2) (cnt 0 2) (fun i => Nat.lt_of_lt_of_le (Nat.lt_succ_self 1) (lt_cnt 15 2 i)) (lt_cnt_next 0 1)) $$ [HO Hrs11]
  · isplitr; · iexact HI
    isplitl [HO]; · iexact HO
    isplitr; · iexact Hlev
    iexact Hrs11
  iintro ⟨HO, Hrc11, Hpay⟩
  first | iapply (wp_ret_bind c _ _ _) | skip
  ihave Hp12 := (rsSPay_open m c (11 : Fin 15) 1) $$ Hpay
  -- layer 1: the send side of the piece copy for chunk 13
  first | sl_exec | skip
  iapply (step_RW m K c (12 : Fin 15) 1 (by decide) (cnt 15 2) (cnt 0 2) (fun i => Nat.lt_of_lt_of_le (Nat.lt_succ_self 1) (lt_cnt 15 2 i)) (lt_cnt_next 0 1)) $$ [HO Hrs12]
  · isplitr; · iexact HI
    isplitl [HO]; · iexact HO
    isplitr; · iexact Hlev
    iexact Hrs12
  iintro ⟨HO, Hrc12, Hpay⟩
  first | iapply (wp_ret_bind c _ _ _) | skip
  ihave Hp13 := (rsSPay_open m c (12 : Fin 15) 1) $$ Hpay
  -- layer 1: the send side of the piece copy for chunk 14
  first | sl_exec | skip
  iapply (step_RW m K c (13 : Fin 15) 1 (by decide) (cnt 15 2) (cnt 0 2) (fun i => Nat.lt_of_lt_of_le (Nat.lt_succ_self 1) (lt_cnt 15 2 i)) (lt_cnt_next 0 1)) $$ [HO Hrs13]
  · isplitr; · iexact HI
    isplitl [HO]; · iexact HO
    isplitr; · iexact Hlev
    iexact Hrs13
  iintro ⟨HO, Hrc13, Hpay⟩
  first | iapply (wp_ret_bind c _ _ _) | skip
  ihave Hp14 := (rsSPay_open m c (13 : Fin 15) 1) $$ Hpay
  -- layer 1: the send side of the piece copy for chunk 15
  first | sl_exec | skip
  iapply (step_RW m K c (14 : Fin 15) 1 (by decide) (cnt 15 2) (cnt 0 2) (fun i => Nat.lt_of_lt_of_le (Nat.lt_succ_self 1) (lt_cnt 15 2 i)) (lt_cnt_next 0 1)) $$ [HO Hrs14]
  · isplitr; · iexact HI
    isplitl [HO]; · iexact HO
    isplitr; · iexact Hlev
    iexact Hrs14
  iintro ⟨HO, Hrc14, Hpay⟩
  first | iapply (wp_ret_bind c _ _ _) | skip
  ihave Hp15 := (rsSPay_open m c (14 : Fin 15) 1) $$ Hpay
  -- layer 2: the device's weight blocks
  first | sl_exec | skip
  iapply (loadStg5 c (argWi m 2 c)) $$ [Hw5']
  · iexact Hw5'
  iintro Hw5'
  first | iapply (wp_ret_bind c _ _ _) | skip
  first | sl_exec | skip
  iapply (loadStg6 c (argWo m 2 c)) $$ [Hw6']
  · iexact Hw6'
  iintro Hw6'
  first | iapply (wp_ret_bind c _ _ _) | skip
  -- layer 2: wait for chunk 1 (from the device 1 places before)
  first | sl_exec | skip
  iapply (step_AR m K c (0 : Fin 15) 2 (by decide) (cnt 15 2) (cnt 0 2) (lt_cnt_full 2) (lt_cnt 0 2)) $$ [HO Hrc0]
  · isplitr; · iexact HI
    isplitl [HO]; · iexact HO
    isplitr; · iexact Hlev
    iexact Hrc0
  iintro ⟨HO, Hrg0, Hpay⟩
  first | iapply (wp_ret_bind c _ _ _) | skip
  ihave Hpay' := (agRPay_open m c (0 : Fin 15) 2) $$ Hpay
  icases Hpay' with ⟨Hx1, Hdr0⟩
  -- layer 2, group 0: the two chunks read as one block of 512 rows
  first | sl_exec | skip
  iapply (loadX c (0 : Fin 8) 15 (chunkAt m 2 c) (chunkAt m 2 (bwd c 1))) $$ [Hx0 Hx1]
  · isplitl [Hx0]; · iexact Hx0
    iexact Hx1
  iintro ⟨Hx0, Hx1⟩
  first | iapply (wp_ret_bind c _ _ _) | skip
  -- layer 2: the piece for chunk 1, stored into slot 1 of P and sent back
  first | sl_exec | skip
  iapply (loadPany c (1 : Fin 16) (pfill c (1 : Fin 16) (pieceAt m 1 c 1))) $$ [Hp1]
  · iexact Hp1
  iintro Hp1
  first | iapply (wp_ret_bind c _ _ _) | skip
  first | sl_exec | skip
  iapply (storeP c (1 : Fin 16) _) $$ [Hp1]
  · iexists _; iexact Hp1
  iintro Hq1
  first | iapply (wp_ret_bind c _ _ _) | skip
  ihave Hp1 : pPts (F := F) c (1 : Fin 16) (pfill c (1 : Fin 16) (pieceAt m 2 c 1)) $$ [Hq1]
  · sl_unfold_run_names
    rw [store_P_2_1 m c]
    iexact Hq1
  first | sl_exec | skip
  iapply (step_RS_last_d m K c 0 (by decide) (cnt 15 2) _ (dev91_eq c)) $$ [HO Hrg0 Hdr0 Hp1]
  · isplitr; · iexact HI
    isplitl [HO]; · iexact HO
    isplitl [Hrg0]; · iexact Hrg0
    isplitl [Hdr0]; · iexact Hdr0
    iexact Hp1
  iintro ⟨HO, Hrs0⟩
  first | iapply (wp_ret_bind c _ _ _) | skip
  -- layer 2: wait for chunk 2 (from the device 2 places before)
  first | sl_exec | skip
  iapply (step_AR m K c (1 : Fin 15) 2 (by decide) (cnt 15 2) (cnt 1 2) (lt_cnt_full 2) (lt_cnt 1 2)) $$ [HO Hrc1]
  · isplitr; · iexact HI
    isplitl [HO]; · iexact HO
    isplitr; · iexact Hlev
    iexact Hrc1
  iintro ⟨HO, Hrg1, Hpay⟩
  first | iapply (wp_ret_bind c _ _ _) | skip
  ihave Hpay' := (agRPay_open m c (1 : Fin 15) 2) $$ Hpay
  icases Hpay' with ⟨Hx2, Hdr1⟩
  -- layer 2: wait for chunk 3 (from the device 3 places before)
  first | sl_exec | skip
  iapply (step_AR m K c (2 : Fin 15) 2 (by decide) (cnt 15 2) (cnt 1 2) (lt_cnt_full 2) (lt_cnt 1 2)) $$ [HO Hrc2]
  · isplitr; · iexact HI
    isplitl [HO]; · iexact HO
    isplitr; · iexact Hlev
    iexact Hrc2
  iintro ⟨HO, Hrg2, Hpay⟩
  first | iapply (wp_ret_bind c _ _ _) | skip
  ihave Hpay' := (agRPay_open m c (2 : Fin 15) 2) $$ Hpay
  icases Hpay' with ⟨Hx3, Hdr2⟩
  -- layer 2, group 1: the two chunks read as one block of 512 rows
  first | sl_exec | skip
  iapply (loadX c (1 : Fin 8) 0 (chunkAt m 2 (bwd c 2)) (chunkAt m 2 (bwd c 3))) $$ [Hx2 Hx3]
  · isplitl [Hx2]; · iexact Hx2
    iexact Hx3
  iintro ⟨Hx2, Hx3⟩
  first | iapply (wp_ret_bind c _ _ _) | skip
  -- layer 2: the piece for chunk 2, stored into slot 2 of P and sent back
  first | sl_exec | skip
  iapply (loadPany c (2 : Fin 16) (pfill c (2 : Fin 16) (pieceAt m 1 c 2))) $$ [Hp2]
  · iexact Hp2
  iintro Hp2
  first | iapply (wp_ret_bind c _ _ _) | skip
  first | sl_exec | skip
  iapply (storeP c (2 : Fin 16) _) $$ [Hp2]
  · iexists _; iexact Hp2
  iintro Hq2
  first | iapply (wp_ret_bind c _ _ _) | skip
  ihave Hp2 : pPts (F := F) c (2 : Fin 16) (pfill c (2 : Fin 16) (pieceAt m 2 c 2)) $$ [Hq2]
  · sl_unfold_run_names
    rw [store_P_2_2 m c]
    iexact Hq2
  first | sl_exec | skip
  iapply (step_RS_last_d m K c 1 (by decide) (cnt 15 2) _ (dev92_eq c)) $$ [HO Hrg1 Hdr1 Hp2]
  · isplitr; · iexact HI
    isplitl [HO]; · iexact HO
    isplitl [Hrg1]; · iexact Hrg1
    isplitl [Hdr1]; · iexact Hdr1
    iexact Hp2
  iintro ⟨HO, Hrs1⟩
  first | iapply (wp_ret_bind c _ _ _) | skip
  -- layer 2: the piece for chunk 3, stored into slot 3 of P and sent back
  first | sl_exec | skip
  iapply (loadPany c (3 : Fin 16) (pfill c (3 : Fin 16) (pieceAt m 1 c 3))) $$ [Hp3]
  · iexact Hp3
  iintro Hp3
  first | iapply (wp_ret_bind c _ _ _) | skip
  first | sl_exec | skip
  iapply (storeP c (3 : Fin 16) _) $$ [Hp3]
  · iexists _; iexact Hp3
  iintro Hq3
  first | iapply (wp_ret_bind c _ _ _) | skip
  ihave Hp3 : pPts (F := F) c (3 : Fin 16) (pfill c (3 : Fin 16) (pieceAt m 2 c 3)) $$ [Hq3]
  · sl_unfold_run_names
    rw [store_P_2_3 m c]
    iexact Hq3
  first | sl_exec | skip
  iapply (step_RS_last_d m K c 2 (by decide) (cnt 15 2) _ (dev93_eq c)) $$ [HO Hrg2 Hdr2 Hp3]
  · isplitr; · iexact HI
    isplitl [HO]; · iexact HO
    isplitl [Hrg2]; · iexact Hrg2
    isplitl [Hdr2]; · iexact Hdr2
    iexact Hp3
  iintro ⟨HO, Hrs2⟩
  first | iapply (wp_ret_bind c _ _ _) | skip
  -- layer 2: wait for chunk 4 (from the device 4 places before)
  first | sl_exec | skip
  iapply (step_AR m K c (3 : Fin 15) 2 (by decide) (cnt 15 2) (cnt 3 2) (lt_cnt_full 2) (lt_cnt 3 2)) $$ [HO Hrc3]
  · isplitr; · iexact HI
    isplitl [HO]; · iexact HO
    isplitr; · iexact Hlev
    iexact Hrc3
  iintro ⟨HO, Hrg3, Hpay⟩
  first | iapply (wp_ret_bind c _ _ _) | skip
  ihave Hpay' := (agRPay_open m c (3 : Fin 15) 2) $$ Hpay
  icases Hpay' with ⟨Hx4, Hdr3⟩
  -- layer 2: wait for chunk 5 (from the device 5 places before)
  first | sl_exec | skip
  iapply (step_AR m K c (4 : Fin 15) 2 (by decide) (cnt 15 2) (cnt 3 2) (lt_cnt_full 2) (lt_cnt 3 2)) $$ [HO Hrc4]
  · isplitr; · iexact HI
    isplitl [HO]; · iexact HO
    isplitr; · iexact Hlev
    iexact Hrc4
  iintro ⟨HO, Hrg4, Hpay⟩
  first | iapply (wp_ret_bind c _ _ _) | skip
  ihave Hpay' := (agRPay_open m c (4 : Fin 15) 2) $$ Hpay
  icases Hpay' with ⟨Hx5, Hdr4⟩
  -- layer 2, group 2: the two chunks read as one block of 512 rows
  first | sl_exec | skip
  iapply (loadX c (2 : Fin 8) 0 (chunkAt m 2 (bwd c 4)) (chunkAt m 2 (bwd c 5))) $$ [Hx4 Hx5]
  · isplitl [Hx4]; · iexact Hx4
    iexact Hx5
  iintro ⟨Hx4, Hx5⟩
  first | iapply (wp_ret_bind c _ _ _) | skip
  -- layer 2: the piece for chunk 4, stored into slot 4 of P and sent back
  first | sl_exec | skip
  iapply (loadPany c (4 : Fin 16) (pfill c (4 : Fin 16) (pieceAt m 1 c 4))) $$ [Hp4]
  · iexact Hp4
  iintro Hp4
  first | iapply (wp_ret_bind c _ _ _) | skip
  first | sl_exec | skip
  iapply (storeP c (4 : Fin 16) _) $$ [Hp4]
  · iexists _; iexact Hp4
  iintro Hq4
  first | iapply (wp_ret_bind c _ _ _) | skip
  ihave Hp4 : pPts (F := F) c (4 : Fin 16) (pfill c (4 : Fin 16) (pieceAt m 2 c 4)) $$ [Hq4]
  · sl_unfold_run_names
    rw [store_P_2_4 m c]
    iexact Hq4
  first | sl_exec | skip
  iapply (step_RS_last_d m K c 3 (by decide) (cnt 15 2) _ (dev94_eq c)) $$ [HO Hrg3 Hdr3 Hp4]
  · isplitr; · iexact HI
    isplitl [HO]; · iexact HO
    isplitl [Hrg3]; · iexact Hrg3
    isplitl [Hdr3]; · iexact Hdr3
    iexact Hp4
  iintro ⟨HO, Hrs3⟩
  first | iapply (wp_ret_bind c _ _ _) | skip
  -- layer 2: the piece for chunk 5, stored into slot 5 of P and sent back
  first | sl_exec | skip
  iapply (loadPany c (5 : Fin 16) (pfill c (5 : Fin 16) (pieceAt m 1 c 5))) $$ [Hp5]
  · iexact Hp5
  iintro Hp5
  first | iapply (wp_ret_bind c _ _ _) | skip
  first | sl_exec | skip
  iapply (storeP c (5 : Fin 16) _) $$ [Hp5]
  · iexists _; iexact Hp5
  iintro Hq5
  first | iapply (wp_ret_bind c _ _ _) | skip
  ihave Hp5 : pPts (F := F) c (5 : Fin 16) (pfill c (5 : Fin 16) (pieceAt m 2 c 5)) $$ [Hq5]
  · sl_unfold_run_names
    rw [store_P_2_5 m c]
    iexact Hq5
  first | sl_exec | skip
  iapply (step_RS_last_d m K c 4 (by decide) (cnt 15 2) _ (dev95_eq c)) $$ [HO Hrg4 Hdr4 Hp5]
  · isplitr; · iexact HI
    isplitl [HO]; · iexact HO
    isplitl [Hrg4]; · iexact Hrg4
    isplitl [Hdr4]; · iexact Hdr4
    iexact Hp5
  iintro ⟨HO, Hrs4⟩
  first | iapply (wp_ret_bind c _ _ _) | skip
  -- layer 2: wait for chunk 6 (from the device 6 places before)
  first | sl_exec | skip
  iapply (step_AR m K c (5 : Fin 15) 2 (by decide) (cnt 15 2) (cnt 5 2) (lt_cnt_full 2) (lt_cnt 5 2)) $$ [HO Hrc5]
  · isplitr; · iexact HI
    isplitl [HO]; · iexact HO
    isplitr; · iexact Hlev
    iexact Hrc5
  iintro ⟨HO, Hrg5, Hpay⟩
  first | iapply (wp_ret_bind c _ _ _) | skip
  ihave Hpay' := (agRPay_open m c (5 : Fin 15) 2) $$ Hpay
  icases Hpay' with ⟨Hx6, Hdr5⟩
  -- layer 2: wait for chunk 7 (from the device 7 places before)
  first | sl_exec | skip
  iapply (step_AR m K c (6 : Fin 15) 2 (by decide) (cnt 15 2) (cnt 5 2) (lt_cnt_full 2) (lt_cnt 5 2)) $$ [HO Hrc6]
  · isplitr; · iexact HI
    isplitl [HO]; · iexact HO
    isplitr; · iexact Hlev
    iexact Hrc6
  iintro ⟨HO, Hrg6, Hpay⟩
  first | iapply (wp_ret_bind c _ _ _) | skip
  ihave Hpay' := (agRPay_open m c (6 : Fin 15) 2) $$ Hpay
  icases Hpay' with ⟨Hx7, Hdr6⟩
  -- layer 2, group 3: the two chunks read as one block of 512 rows
  first | sl_exec | skip
  iapply (loadX c (3 : Fin 8) 0 (chunkAt m 2 (bwd c 6)) (chunkAt m 2 (bwd c 7))) $$ [Hx6 Hx7]
  · isplitl [Hx6]; · iexact Hx6
    iexact Hx7
  iintro ⟨Hx6, Hx7⟩
  first | iapply (wp_ret_bind c _ _ _) | skip
  -- layer 2: the piece for chunk 6, stored into slot 6 of P and sent back
  first | sl_exec | skip
  iapply (loadPany c (6 : Fin 16) (pfill c (6 : Fin 16) (pieceAt m 1 c 6))) $$ [Hp6]
  · iexact Hp6
  iintro Hp6
  first | iapply (wp_ret_bind c _ _ _) | skip
  first | sl_exec | skip
  iapply (storeP c (6 : Fin 16) _) $$ [Hp6]
  · iexists _; iexact Hp6
  iintro Hq6
  first | iapply (wp_ret_bind c _ _ _) | skip
  ihave Hp6 : pPts (F := F) c (6 : Fin 16) (pfill c (6 : Fin 16) (pieceAt m 2 c 6)) $$ [Hq6]
  · sl_unfold_run_names
    rw [store_P_2_6 m c]
    iexact Hq6
  first | sl_exec | skip
  iapply (step_RS_last_d m K c 5 (by decide) (cnt 15 2) _ (dev96_eq c)) $$ [HO Hrg5 Hdr5 Hp6]
  · isplitr; · iexact HI
    isplitl [HO]; · iexact HO
    isplitl [Hrg5]; · iexact Hrg5
    isplitl [Hdr5]; · iexact Hdr5
    iexact Hp6
  iintro ⟨HO, Hrs5⟩
  first | iapply (wp_ret_bind c _ _ _) | skip
  -- layer 2: the piece for chunk 7, stored into slot 7 of P and sent back
  first | sl_exec | skip
  iapply (loadPany c (7 : Fin 16) (pfill c (7 : Fin 16) (pieceAt m 1 c 7))) $$ [Hp7]
  · iexact Hp7
  iintro Hp7
  first | iapply (wp_ret_bind c _ _ _) | skip
  first | sl_exec | skip
  iapply (storeP c (7 : Fin 16) _) $$ [Hp7]
  · iexists _; iexact Hp7
  iintro Hq7
  first | iapply (wp_ret_bind c _ _ _) | skip
  ihave Hp7 : pPts (F := F) c (7 : Fin 16) (pfill c (7 : Fin 16) (pieceAt m 2 c 7)) $$ [Hq7]
  · sl_unfold_run_names
    rw [store_P_2_7 m c]
    iexact Hq7
  first | sl_exec | skip
  iapply (step_RS_last_d m K c 6 (by decide) (cnt 15 2) _ (dev97_eq c)) $$ [HO Hrg6 Hdr6 Hp7]
  · isplitr; · iexact HI
    isplitl [HO]; · iexact HO
    isplitl [Hrg6]; · iexact Hrg6
    isplitl [Hdr6]; · iexact Hdr6
    iexact Hp7
  iintro ⟨HO, Hrs6⟩
  first | iapply (wp_ret_bind c _ _ _) | skip
  -- layer 2: wait for chunk 8 (from the device 8 places before)
  first | sl_exec | skip
  iapply (step_AR m K c (7 : Fin 15) 2 (by decide) (cnt 15 2) (cnt 7 2) (lt_cnt_full 2) (lt_cnt 7 2)) $$ [HO Hrc7]
  · isplitr; · iexact HI
    isplitl [HO]; · iexact HO
    isplitr; · iexact Hlev
    iexact Hrc7
  iintro ⟨HO, Hrg7, Hpay⟩
  first | iapply (wp_ret_bind c _ _ _) | skip
  ihave Hpay' := (agRPay_open m c (7 : Fin 15) 2) $$ Hpay
  icases Hpay' with ⟨Hx8, Hdr7⟩
  -- layer 2: wait for chunk 9 (from the device 9 places before)
  first | sl_exec | skip
  iapply (step_AR m K c (8 : Fin 15) 2 (by decide) (cnt 15 2) (cnt 7 2) (lt_cnt_full 2) (lt_cnt 7 2)) $$ [HO Hrc8]
  · isplitr; · iexact HI
    isplitl [HO]; · iexact HO
    isplitr; · iexact Hlev
    iexact Hrc8
  iintro ⟨HO, Hrg8, Hpay⟩
  first | iapply (wp_ret_bind c _ _ _) | skip
  ihave Hpay' := (agRPay_open m c (8 : Fin 15) 2) $$ Hpay
  icases Hpay' with ⟨Hx9, Hdr8⟩
  -- layer 2, group 4: the two chunks read as one block of 512 rows
  first | sl_exec | skip
  iapply (loadX c (4 : Fin 8) 0 (chunkAt m 2 (bwd c 8)) (chunkAt m 2 (bwd c 9))) $$ [Hx8 Hx9]
  · isplitl [Hx8]; · iexact Hx8
    iexact Hx9
  iintro ⟨Hx8, Hx9⟩
  first | iapply (wp_ret_bind c _ _ _) | skip
  -- layer 2: the piece for chunk 8, stored into slot 8 of P and sent back
  first | sl_exec | skip
  iapply (loadPany c (8 : Fin 16) (pfill c (8 : Fin 16) (pieceAt m 1 c 8))) $$ [Hp8]
  · iexact Hp8
  iintro Hp8
  first | iapply (wp_ret_bind c _ _ _) | skip
  first | sl_exec | skip
  iapply (storeP c (8 : Fin 16) _) $$ [Hp8]
  · iexists _; iexact Hp8
  iintro Hq8
  first | iapply (wp_ret_bind c _ _ _) | skip
  ihave Hp8 : pPts (F := F) c (8 : Fin 16) (pfill c (8 : Fin 16) (pieceAt m 2 c 8)) $$ [Hq8]
  · sl_unfold_run_names
    rw [store_P_2_8 m c]
    iexact Hq8
  first | sl_exec | skip
  iapply (step_RS_last_d m K c 7 (by decide) (cnt 15 2) _ (dev98_eq c)) $$ [HO Hrg7 Hdr7 Hp8]
  · isplitr; · iexact HI
    isplitl [HO]; · iexact HO
    isplitl [Hrg7]; · iexact Hrg7
    isplitl [Hdr7]; · iexact Hdr7
    iexact Hp8
  iintro ⟨HO, Hrs7⟩
  first | iapply (wp_ret_bind c _ _ _) | skip
  -- layer 2: the piece for chunk 9, stored into slot 9 of P and sent back
  first | sl_exec | skip
  iapply (loadPany c (9 : Fin 16) (pfill c (9 : Fin 16) (pieceAt m 1 c 9))) $$ [Hp9]
  · iexact Hp9
  iintro Hp9
  first | iapply (wp_ret_bind c _ _ _) | skip
  first | sl_exec | skip
  iapply (storeP c (9 : Fin 16) _) $$ [Hp9]
  · iexists _; iexact Hp9
  iintro Hq9
  first | iapply (wp_ret_bind c _ _ _) | skip
  ihave Hp9 : pPts (F := F) c (9 : Fin 16) (pfill c (9 : Fin 16) (pieceAt m 2 c 9)) $$ [Hq9]
  · sl_unfold_run_names
    rw [store_P_2_9 m c]
    iexact Hq9
  first | sl_exec | skip
  iapply (step_RS_last_d m K c 8 (by decide) (cnt 15 2) _ (dev99_eq c)) $$ [HO Hrg8 Hdr8 Hp9]
  · isplitr; · iexact HI
    isplitl [HO]; · iexact HO
    isplitl [Hrg8]; · iexact Hrg8
    isplitl [Hdr8]; · iexact Hdr8
    iexact Hp9
  iintro ⟨HO, Hrs8⟩
  first | iapply (wp_ret_bind c _ _ _) | skip
  -- layer 2: wait for chunk 10 (from the device 10 places before)
  first | sl_exec | skip
  iapply (step_AR m K c (9 : Fin 15) 2 (by decide) (cnt 15 2) (cnt 9 2) (lt_cnt_full 2) (lt_cnt 9 2)) $$ [HO Hrc9]
  · isplitr; · iexact HI
    isplitl [HO]; · iexact HO
    isplitr; · iexact Hlev
    iexact Hrc9
  iintro ⟨HO, Hrg9, Hpay⟩
  first | iapply (wp_ret_bind c _ _ _) | skip
  ihave Hpay' := (agRPay_open m c (9 : Fin 15) 2) $$ Hpay
  icases Hpay' with ⟨Hx10, Hdr9⟩
  -- layer 2: wait for chunk 11 (from the device 11 places before)
  first | sl_exec | skip
  iapply (step_AR m K c (10 : Fin 15) 2 (by decide) (cnt 15 2) (cnt 9 2) (lt_cnt_full 2) (lt_cnt 9 2)) $$ [HO Hrc10]
  · isplitr; · iexact HI
    isplitl [HO]; · iexact HO
    isplitr; · iexact Hlev
    iexact Hrc10
  iintro ⟨HO, Hrg10, Hpay⟩
  first | iapply (wp_ret_bind c _ _ _) | skip
  ihave Hpay' := (agRPay_open m c (10 : Fin 15) 2) $$ Hpay
  icases Hpay' with ⟨Hx11, Hdr10⟩
  -- layer 2, group 5: the two chunks read as one block of 512 rows
  first | sl_exec | skip
  iapply (loadX c (5 : Fin 8) 0 (chunkAt m 2 (bwd c 10)) (chunkAt m 2 (bwd c 11))) $$ [Hx10 Hx11]
  · isplitl [Hx10]; · iexact Hx10
    iexact Hx11
  iintro ⟨Hx10, Hx11⟩
  first | iapply (wp_ret_bind c _ _ _) | skip
  -- layer 2: the piece for chunk 10, stored into slot 10 of P and sent back
  first | sl_exec | skip
  iapply (loadPany c (10 : Fin 16) (pfill c (10 : Fin 16) (pieceAt m 1 c 10))) $$ [Hp10]
  · iexact Hp10
  iintro Hp10
  first | iapply (wp_ret_bind c _ _ _) | skip
  first | sl_exec | skip
  iapply (storeP c (10 : Fin 16) _) $$ [Hp10]
  · iexists _; iexact Hp10
  iintro Hq10
  first | iapply (wp_ret_bind c _ _ _) | skip
  ihave Hp10 : pPts (F := F) c (10 : Fin 16) (pfill c (10 : Fin 16) (pieceAt m 2 c 10)) $$ [Hq10]
  · sl_unfold_run_names
    rw [store_P_2_10 m c]
    iexact Hq10
  first | sl_exec | skip
  iapply (step_RS_last_d m K c 9 (by decide) (cnt 15 2) _ (dev100_eq c)) $$ [HO Hrg9 Hdr9 Hp10]
  · isplitr; · iexact HI
    isplitl [HO]; · iexact HO
    isplitl [Hrg9]; · iexact Hrg9
    isplitl [Hdr9]; · iexact Hdr9
    iexact Hp10
  iintro ⟨HO, Hrs9⟩
  first | iapply (wp_ret_bind c _ _ _) | skip
  -- layer 2: the piece for chunk 11, stored into slot 11 of P and sent back
  first | sl_exec | skip
  iapply (loadPany c (11 : Fin 16) (pfill c (11 : Fin 16) (pieceAt m 1 c 11))) $$ [Hp11]
  · iexact Hp11
  iintro Hp11
  first | iapply (wp_ret_bind c _ _ _) | skip
  first | sl_exec | skip
  iapply (storeP c (11 : Fin 16) _) $$ [Hp11]
  · iexists _; iexact Hp11
  iintro Hq11
  first | iapply (wp_ret_bind c _ _ _) | skip
  ihave Hp11 : pPts (F := F) c (11 : Fin 16) (pfill c (11 : Fin 16) (pieceAt m 2 c 11)) $$ [Hq11]
  · sl_unfold_run_names
    first | rw [store_P_2_11' m c] | rw [store_P_2_11 m c]
    iexact Hq11
  first | sl_exec | skip
  iapply (step_RS_last_d m K c 10 (by decide) (cnt 15 2) _ (dev101_eq c)) $$ [HO Hrg10 Hdr10 Hp11]
  · isplitr; · iexact HI
    isplitl [HO]; · iexact HO
    isplitl [Hrg10]; · iexact Hrg10
    isplitl [Hdr10]; · iexact Hdr10
    iexact Hp11
  iintro ⟨HO, Hrs10⟩
  first | iapply (wp_ret_bind c _ _ _) | skip
  -- layer 2: wait for chunk 12 (from the device 12 places before)
  first | sl_exec | skip
  iapply (step_AR m K c (11 : Fin 15) 2 (by decide) (cnt 15 2) (cnt 11 2) (lt_cnt_full 2) (lt_cnt 11 2)) $$ [HO Hrc11]
  · isplitr; · iexact HI
    isplitl [HO]; · iexact HO
    isplitr; · iexact Hlev
    iexact Hrc11
  iintro ⟨HO, Hrg11, Hpay⟩
  first | iapply (wp_ret_bind c _ _ _) | skip
  ihave Hpay' := (agRPay_open m c (11 : Fin 15) 2) $$ Hpay
  icases Hpay' with ⟨Hx12, Hdr11⟩
  -- layer 2: wait for chunk 13 (from the device 13 places before)
  first | sl_exec | skip
  iapply (step_AR m K c (12 : Fin 15) 2 (by decide) (cnt 15 2) (cnt 11 2) (lt_cnt_full 2) (lt_cnt 11 2)) $$ [HO Hrc12]
  · isplitr; · iexact HI
    isplitl [HO]; · iexact HO
    isplitr; · iexact Hlev
    iexact Hrc12
  iintro ⟨HO, Hrg12, Hpay⟩
  first | iapply (wp_ret_bind c _ _ _) | skip
  ihave Hpay' := (agRPay_open m c (12 : Fin 15) 2) $$ Hpay
  icases Hpay' with ⟨Hx13, Hdr12⟩
  -- layer 2, group 6: the two chunks read as one block of 512 rows
  first | sl_exec | skip
  iapply (loadX c (6 : Fin 8) 0 (chunkAt m 2 (bwd c 12)) (chunkAt m 2 (bwd c 13))) $$ [Hx12 Hx13]
  · isplitl [Hx12]; · iexact Hx12
    iexact Hx13
  iintro ⟨Hx12, Hx13⟩
  first | iapply (wp_ret_bind c _ _ _) | skip
  -- layer 2: the piece for chunk 12, stored into slot 12 of P and sent back
  first | sl_exec | skip
  iapply (loadPany c (12 : Fin 16) (pfill c (12 : Fin 16) (pieceAt m 1 c 12))) $$ [Hp12]
  · iexact Hp12
  iintro Hp12
  first | iapply (wp_ret_bind c _ _ _) | skip
  first | sl_exec | skip
  iapply (storeP c (12 : Fin 16) _) $$ [Hp12]
  · iexists _; iexact Hp12
  iintro Hq12
  first | iapply (wp_ret_bind c _ _ _) | skip
  ihave Hp12 : pPts (F := F) c (12 : Fin 16) (pfill c (12 : Fin 16) (pieceAt m 2 c 12)) $$ [Hq12]
  · sl_unfold_run_names
    rw [store_P_2_12 m c]
    iexact Hq12
  first | sl_exec | skip
  iapply (step_RS_last_d m K c 11 (by decide) (cnt 15 2) _ (dev102_eq c)) $$ [HO Hrg11 Hdr11 Hp12]
  · isplitr; · iexact HI
    isplitl [HO]; · iexact HO
    isplitl [Hrg11]; · iexact Hrg11
    isplitl [Hdr11]; · iexact Hdr11
    iexact Hp12
  iintro ⟨HO, Hrs11⟩
  first | iapply (wp_ret_bind c _ _ _) | skip
  -- layer 2: the piece for chunk 13, stored into slot 13 of P and sent back
  first | sl_exec | skip
  iapply (loadPany c (13 : Fin 16) (pfill c (13 : Fin 16) (pieceAt m 1 c 13))) $$ [Hp13]
  · iexact Hp13
  iintro Hp13
  first | iapply (wp_ret_bind c _ _ _) | skip
  first | sl_exec | skip
  iapply (storeP c (13 : Fin 16) _) $$ [Hp13]
  · iexists _; iexact Hp13
  iintro Hq13
  first | iapply (wp_ret_bind c _ _ _) | skip
  ihave Hp13 : pPts (F := F) c (13 : Fin 16) (pfill c (13 : Fin 16) (pieceAt m 2 c 13)) $$ [Hq13]
  · sl_unfold_run_names
    rw [store_P_2_13 m c]
    iexact Hq13
  first | sl_exec | skip
  iapply (step_RS_last_d m K c 12 (by decide) (cnt 15 2) _ (dev103_eq c)) $$ [HO Hrg12 Hdr12 Hp13]
  · isplitr; · iexact HI
    isplitl [HO]; · iexact HO
    isplitl [Hrg12]; · iexact Hrg12
    isplitl [Hdr12]; · iexact Hdr12
    iexact Hp13
  iintro ⟨HO, Hrs12⟩
  first | iapply (wp_ret_bind c _ _ _) | skip
  -- layer 2: wait for chunk 14 (from the device 14 places before)
  first | sl_exec | skip
  iapply (step_AR m K c (13 : Fin 15) 2 (by decide) (cnt 15 2) (cnt 13 2) (lt_cnt_full 2) (lt_cnt 13 2)) $$ [HO Hrc13]
  · isplitr; · iexact HI
    isplitl [HO]; · iexact HO
    isplitr; · iexact Hlev
    iexact Hrc13
  iintro ⟨HO, Hrg13, Hpay⟩
  first | iapply (wp_ret_bind c _ _ _) | skip
  ihave Hpay' := (agRPay_open m c (13 : Fin 15) 2) $$ Hpay
  icases Hpay' with ⟨Hx14, Hdr13⟩
  -- layer 2: wait for chunk 15 (from the device 15 places before)
  first | sl_exec | skip
  iapply (step_AR m K c (14 : Fin 15) 2 (by decide) (cnt 15 2) (cnt 13 2) (lt_cnt_full 2) (lt_cnt 13 2)) $$ [HO Hrc14]
  · isplitr; · iexact HI
    isplitl [HO]; · iexact HO
    isplitr; · iexact Hlev
    iexact Hrc14
  iintro ⟨HO, Hrg14, Hpay⟩
  first | iapply (wp_ret_bind c _ _ _) | skip
  ihave Hpay' := (agRPay_open m c (14 : Fin 15) 2) $$ Hpay
  icases Hpay' with ⟨Hx15, Hdr14⟩
  -- layer 2, group 7: the two chunks read as one block of 512 rows
  first | sl_exec | skip
  iapply (loadX c (7 : Fin 8) 0 (chunkAt m 2 (bwd c 14)) (chunkAt m 2 (bwd c 15))) $$ [Hx14 Hx15]
  · isplitl [Hx14]; · iexact Hx14
    iexact Hx15
  iintro ⟨Hx14, Hx15⟩
  first | iapply (wp_ret_bind c _ _ _) | skip
  -- layer 2: the piece for chunk 14, stored into slot 14 of P and sent back
  first | sl_exec | skip
  iapply (loadPany c (14 : Fin 16) (pfill c (14 : Fin 16) (pieceAt m 1 c 14))) $$ [Hp14]
  · iexact Hp14
  iintro Hp14
  first | iapply (wp_ret_bind c _ _ _) | skip
  first | sl_exec | skip
  iapply (storeP c (14 : Fin 16) _) $$ [Hp14]
  · iexists _; iexact Hp14
  iintro Hq14
  first | iapply (wp_ret_bind c _ _ _) | skip
  ihave Hp14 : pPts (F := F) c (14 : Fin 16) (pfill c (14 : Fin 16) (pieceAt m 2 c 14)) $$ [Hq14]
  · sl_unfold_run_names
    rw [store_P_2_14 m c]
    iexact Hq14
  first | sl_exec | skip
  iapply (step_RS_last_d m K c 13 (by decide) (cnt 15 2) _ (dev104_eq c)) $$ [HO Hrg13 Hdr13 Hp14]
  · isplitr; · iexact HI
    isplitl [HO]; · iexact HO
    isplitl [Hrg13]; · iexact Hrg13
    isplitl [Hdr13]; · iexact Hdr13
    iexact Hp14
  iintro ⟨HO, Hrs13⟩
  first | iapply (wp_ret_bind c _ _ _) | skip
  -- layer 2: the piece for chunk 15, stored into slot 15 of P and sent back
  first | sl_exec | skip
  iapply (loadPany c (15 : Fin 16) (pfill c (15 : Fin 16) (pieceAt m 1 c 15))) $$ [Hp15]
  · iexact Hp15
  iintro Hp15
  first | iapply (wp_ret_bind c _ _ _) | skip
  first | sl_exec | skip
  iapply (storeP c (15 : Fin 16) _) $$ [Hp15]
  · iexists _; iexact Hp15
  iintro Hq15
  first | iapply (wp_ret_bind c _ _ _) | skip
  ihave Hp15 : pPts (F := F) c (15 : Fin 16) (pfill c (15 : Fin 16) (pieceAt m 2 c 15)) $$ [Hq15]
  · sl_unfold_run_names
    rw [store_P_2_15 m c]
    iexact Hq15
  first | sl_exec | skip
  iapply (step_RS_last_d m K c 14 (by decide) (cnt 15 2) _ (dev105_eq c)) $$ [HO Hrg14 Hdr14 Hp15]
  · isplitr; · iexact HI
    isplitl [HO]; · iexact HO
    isplitl [Hrg14]; · iexact Hrg14
    isplitl [Hdr14]; · iexact Hdr14
    iexact Hp15
  iintro ⟨HO, Hrs14⟩
  first | iapply (wp_ret_bind c _ _ _) | skip
  -- layer 2: the send side of chunk copy 1
  first | sl_exec | skip
  iapply (step_AW m K c (0 : Fin 15) 2 (by decide) (cnt 15 2) (cnt 15 2) (lt_cnt_full 2) (fun i => (lt_cnt_full 2 i).le)) $$ [HO Hss0]
  · isplitr; · iexact HI
    isplitl [HO]; · iexact HO
    isplitr; · iexact Hlev
    iexact Hss0
  iintro ⟨HO, Hsw0, Hl0⟩
  first | iapply (wp_ret_bind c _ _ _) | skip
  -- layer 2: the send side of chunk copy 2
  first | sl_exec | skip
  iapply (step_AW m K c (1 : Fin 15) 2 (by decide) (cnt 15 2) (cnt 15 2) (lt_cnt_full 2) (fun i => (lt_cnt_full 2 i).le)) $$ [HO Hss1]
  · isplitr; · iexact HI
    isplitl [HO]; · iexact HO
    isplitr; · iexact Hlev
    iexact Hss1
  iintro ⟨HO, Hsw1, Hl1⟩
  first | iapply (wp_ret_bind c _ _ _) | skip
  -- layer 2: the send side of chunk copy 3
  first | sl_exec | skip
  iapply (step_AW m K c (2 : Fin 15) 2 (by decide) (cnt 15 2) (cnt 15 2) (lt_cnt_full 2) (fun i => (lt_cnt_full 2 i).le)) $$ [HO Hss2]
  · isplitr; · iexact HI
    isplitl [HO]; · iexact HO
    isplitr; · iexact Hlev
    iexact Hss2
  iintro ⟨HO, Hsw2, Hl2⟩
  first | iapply (wp_ret_bind c _ _ _) | skip
  -- layer 2: the send side of chunk copy 4
  first | sl_exec | skip
  iapply (step_AW m K c (3 : Fin 15) 2 (by decide) (cnt 15 2) (cnt 15 2) (lt_cnt_full 2) (fun i => (lt_cnt_full 2 i).le)) $$ [HO Hss3]
  · isplitr; · iexact HI
    isplitl [HO]; · iexact HO
    isplitr; · iexact Hlev
    iexact Hss3
  iintro ⟨HO, Hsw3, Hl3⟩
  first | iapply (wp_ret_bind c _ _ _) | skip
  -- layer 2: the send side of chunk copy 5
  first | sl_exec | skip
  iapply (step_AW m K c (4 : Fin 15) 2 (by decide) (cnt 15 2) (cnt 15 2) (lt_cnt_full 2) (fun i => (lt_cnt_full 2 i).le)) $$ [HO Hss4]
  · isplitr; · iexact HI
    isplitl [HO]; · iexact HO
    isplitr; · iexact Hlev
    iexact Hss4
  iintro ⟨HO, Hsw4, Hl4⟩
  first | iapply (wp_ret_bind c _ _ _) | skip
  -- layer 2: the send side of chunk copy 6
  first | sl_exec | skip
  iapply (step_AW m K c (5 : Fin 15) 2 (by decide) (cnt 15 2) (cnt 15 2) (lt_cnt_full 2) (fun i => (lt_cnt_full 2 i).le)) $$ [HO Hss5]
  · isplitr; · iexact HI
    isplitl [HO]; · iexact HO
    isplitr; · iexact Hlev
    iexact Hss5
  iintro ⟨HO, Hsw5, Hl5⟩
  first | iapply (wp_ret_bind c _ _ _) | skip
  -- layer 2: the send side of chunk copy 7
  first | sl_exec | skip
  iapply (step_AW m K c (6 : Fin 15) 2 (by decide) (cnt 15 2) (cnt 15 2) (lt_cnt_full 2) (fun i => (lt_cnt_full 2 i).le)) $$ [HO Hss6]
  · isplitr; · iexact HI
    isplitl [HO]; · iexact HO
    isplitr; · iexact Hlev
    iexact Hss6
  iintro ⟨HO, Hsw6, Hl6⟩
  first | iapply (wp_ret_bind c _ _ _) | skip
  -- layer 2: the send side of chunk copy 8
  first | sl_exec | skip
  iapply (step_AW m K c (7 : Fin 15) 2 (by decide) (cnt 15 2) (cnt 15 2) (lt_cnt_full 2) (fun i => (lt_cnt_full 2 i).le)) $$ [HO Hss7]
  · isplitr; · iexact HI
    isplitl [HO]; · iexact HO
    isplitr; · iexact Hlev
    iexact Hss7
  iintro ⟨HO, Hsw7, Hl7⟩
  first | iapply (wp_ret_bind c _ _ _) | skip
  -- layer 2: the send side of chunk copy 9
  first | sl_exec | skip
  iapply (step_AW m K c (8 : Fin 15) 2 (by decide) (cnt 15 2) (cnt 15 2) (lt_cnt_full 2) (fun i => (lt_cnt_full 2 i).le)) $$ [HO Hss8]
  · isplitr; · iexact HI
    isplitl [HO]; · iexact HO
    isplitr; · iexact Hlev
    iexact Hss8
  iintro ⟨HO, Hsw8, Hl8⟩
  first | iapply (wp_ret_bind c _ _ _) | skip
  -- layer 2: the send side of chunk copy 10
  first | sl_exec | skip
  iapply (step_AW m K c (9 : Fin 15) 2 (by decide) (cnt 15 2) (cnt 15 2) (lt_cnt_full 2) (fun i => (lt_cnt_full 2 i).le)) $$ [HO Hss9]
  · isplitr; · iexact HI
    isplitl [HO]; · iexact HO
    isplitr; · iexact Hlev
    iexact Hss9
  iintro ⟨HO, Hsw9, Hl9⟩
  first | iapply (wp_ret_bind c _ _ _) | skip
  -- layer 2: the send side of chunk copy 11
  first | sl_exec | skip
  iapply (step_AW m K c (10 : Fin 15) 2 (by decide) (cnt 15 2) (cnt 15 2) (lt_cnt_full 2) (fun i => (lt_cnt_full 2 i).le)) $$ [HO Hss10]
  · isplitr; · iexact HI
    isplitl [HO]; · iexact HO
    isplitr; · iexact Hlev
    iexact Hss10
  iintro ⟨HO, Hsw10, Hl10⟩
  first | iapply (wp_ret_bind c _ _ _) | skip
  -- layer 2: the send side of chunk copy 12
  first | sl_exec | skip
  iapply (step_AW m K c (11 : Fin 15) 2 (by decide) (cnt 15 2) (cnt 15 2) (lt_cnt_full 2) (fun i => (lt_cnt_full 2 i).le)) $$ [HO Hss11]
  · isplitr; · iexact HI
    isplitl [HO]; · iexact HO
    isplitr; · iexact Hlev
    iexact Hss11
  iintro ⟨HO, Hsw11, Hl11⟩
  first | iapply (wp_ret_bind c _ _ _) | skip
  -- layer 2: the send side of chunk copy 13
  first | sl_exec | skip
  iapply (step_AW m K c (12 : Fin 15) 2 (by decide) (cnt 15 2) (cnt 15 2) (lt_cnt_full 2) (fun i => (lt_cnt_full 2 i).le)) $$ [HO Hss12]
  · isplitr; · iexact HI
    isplitl [HO]; · iexact HO
    isplitr; · iexact Hlev
    iexact Hss12
  iintro ⟨HO, Hsw12, Hl12⟩
  first | iapply (wp_ret_bind c _ _ _) | skip
  -- layer 2: the send side of chunk copy 14
  first | sl_exec | skip
  iapply (step_AW m K c (13 : Fin 15) 2 (by decide) (cnt 15 2) (cnt 15 2) (lt_cnt_full 2) (fun i => (lt_cnt_full 2 i).le)) $$ [HO Hss13]
  · isplitr; · iexact HI
    isplitl [HO]; · iexact HO
    isplitr; · iexact Hlev
    iexact Hss13
  iintro ⟨HO, Hsw13, Hl13⟩
  first | iapply (wp_ret_bind c _ _ _) | skip
  -- layer 2: the send side of chunk copy 15
  first | sl_exec | skip
  iapply (step_AW m K c (14 : Fin 15) 2 (by decide) (cnt 15 2) (cnt 15 2) (lt_cnt_full 2) (fun i => (lt_cnt_full 2 i).le)) $$ [HO Hss14]
  · isplitr; · iexact HI
    isplitl [HO]; · iexact HO
    isplitr; · iexact Hlev
    iexact Hss14
  iintro ⟨HO, Hsw14, Hl14⟩
  first | iapply (wp_ret_bind c _ _ _) | skip
  -- layer 2: wait for the piece of copy index 1 and read it
  first | sl_exec | skip
  iapply (step_RR m K c (0 : Fin 15) 2 (by decide) (cnt 15 2) (cnt 15 2) (lt_cnt_full 2) (lt_cnt_full 2)) $$ [HO Hsw0]
  · isplitr; · iexact HI
    isplitl [HO]; · iexact HO
    isplitr; · iexact Hlev
    iexact Hsw0
  iintro ⟨HO, Hsn0, Hpay⟩
  first | iapply (wp_ret_bind c _ _ _) | skip
  ihave Hr14 := (rsRPay_open_last m c (0 : Fin 15) 2 (by decide)) $$ Hpay
  first | sl_exec | skip
  iapply (loadR c (14 : Fin 15) (pieceAt m 2 (fwd c 1) 1)) $$ [Hr14]
  · iexact Hr14
  iintro Hr14
  first | iapply (wp_ret_bind c _ _ _) | skip
  -- layer 2: wait for the piece of copy index 2 and read it
  first | sl_exec | skip
  iapply (step_RR m K c (1 : Fin 15) 2 (by decide) (cnt 15 2) (cnt 15 2) (lt_cnt_full 2) (lt_cnt_full 2)) $$ [HO Hsw1]
  · isplitr; · iexact HI
    isplitl [HO]; · iexact HO
    isplitr; · iexact Hlev
    iexact Hsw1
  iintro ⟨HO, Hsn1, Hpay⟩
  first | iapply (wp_ret_bind c _ _ _) | skip
  ihave Hr13 := (rsRPay_open_last m c (1 : Fin 15) 2 (by decide)) $$ Hpay
  first | sl_exec | skip
  iapply (loadR c (13 : Fin 15) (pieceAt m 2 (fwd c 2) 2)) $$ [Hr13]
  · iexact Hr13
  iintro Hr13
  first | iapply (wp_ret_bind c _ _ _) | skip
  -- layer 2: wait for the piece of copy index 3 and read it
  first | sl_exec | skip
  iapply (step_RR m K c (2 : Fin 15) 2 (by decide) (cnt 15 2) (cnt 15 2) (lt_cnt_full 2) (lt_cnt_full 2)) $$ [HO Hsw2]
  · isplitr; · iexact HI
    isplitl [HO]; · iexact HO
    isplitr; · iexact Hlev
    iexact Hsw2
  iintro ⟨HO, Hsn2, Hpay⟩
  first | iapply (wp_ret_bind c _ _ _) | skip
  ihave Hr12 := (rsRPay_open_last m c (2 : Fin 15) 2 (by decide)) $$ Hpay
  first | sl_exec | skip
  iapply (loadR c (12 : Fin 15) (pieceAt m 2 (fwd c 3) 3)) $$ [Hr12]
  · iexact Hr12
  iintro Hr12
  first | iapply (wp_ret_bind c _ _ _) | skip
  -- layer 2: wait for the piece of copy index 4 and read it
  first | sl_exec | skip
  iapply (step_RR m K c (3 : Fin 15) 2 (by decide) (cnt 15 2) (cnt 15 2) (lt_cnt_full 2) (lt_cnt_full 2)) $$ [HO Hsw3]
  · isplitr; · iexact HI
    isplitl [HO]; · iexact HO
    isplitr; · iexact Hlev
    iexact Hsw3
  iintro ⟨HO, Hsn3, Hpay⟩
  first | iapply (wp_ret_bind c _ _ _) | skip
  ihave Hr11 := (rsRPay_open_last m c (3 : Fin 15) 2 (by decide)) $$ Hpay
  first | sl_exec | skip
  iapply (loadR c (11 : Fin 15) (pieceAt m 2 (fwd c 4) 4)) $$ [Hr11]
  · iexact Hr11
  iintro Hr11
  first | iapply (wp_ret_bind c _ _ _) | skip
  -- layer 2: wait for the piece of copy index 5 and read it
  first | sl_exec | skip
  iapply (step_RR m K c (4 : Fin 15) 2 (by decide) (cnt 15 2) (cnt 15 2) (lt_cnt_full 2) (lt_cnt_full 2)) $$ [HO Hsw4]
  · isplitr; · iexact HI
    isplitl [HO]; · iexact HO
    isplitr; · iexact Hlev
    iexact Hsw4
  iintro ⟨HO, Hsn4, Hpay⟩
  first | iapply (wp_ret_bind c _ _ _) | skip
  ihave Hr10 := (rsRPay_open_last m c (4 : Fin 15) 2 (by decide)) $$ Hpay
  first | sl_exec | skip
  iapply (loadR c (10 : Fin 15) (pieceAt m 2 (fwd c 5) 5)) $$ [Hr10]
  · iexact Hr10
  iintro Hr10
  first | iapply (wp_ret_bind c _ _ _) | skip
  -- layer 2: wait for the piece of copy index 6 and read it
  first | sl_exec | skip
  iapply (step_RR m K c (5 : Fin 15) 2 (by decide) (cnt 15 2) (cnt 15 2) (lt_cnt_full 2) (lt_cnt_full 2)) $$ [HO Hsw5]
  · isplitr; · iexact HI
    isplitl [HO]; · iexact HO
    isplitr; · iexact Hlev
    iexact Hsw5
  iintro ⟨HO, Hsn5, Hpay⟩
  first | iapply (wp_ret_bind c _ _ _) | skip
  ihave Hr9 := (rsRPay_open_last m c (5 : Fin 15) 2 (by decide)) $$ Hpay
  first | sl_exec | skip
  iapply (loadR c (9 : Fin 15) (pieceAt m 2 (fwd c 6) 6)) $$ [Hr9]
  · iexact Hr9
  iintro Hr9
  first | iapply (wp_ret_bind c _ _ _) | skip
  -- layer 2: wait for the piece of copy index 7 and read it
  first | sl_exec | skip
  iapply (step_RR m K c (6 : Fin 15) 2 (by decide) (cnt 15 2) (cnt 15 2) (lt_cnt_full 2) (lt_cnt_full 2)) $$ [HO Hsw6]
  · isplitr; · iexact HI
    isplitl [HO]; · iexact HO
    isplitr; · iexact Hlev
    iexact Hsw6
  iintro ⟨HO, Hsn6, Hpay⟩
  first | iapply (wp_ret_bind c _ _ _) | skip
  ihave Hr8 := (rsRPay_open_last m c (6 : Fin 15) 2 (by decide)) $$ Hpay
  first | sl_exec | skip
  iapply (loadR c (8 : Fin 15) (pieceAt m 2 (fwd c 7) 7)) $$ [Hr8]
  · iexact Hr8
  iintro Hr8
  first | iapply (wp_ret_bind c _ _ _) | skip
  -- layer 2: wait for the piece of copy index 8 and read it
  first | sl_exec | skip
  iapply (step_RR m K c (7 : Fin 15) 2 (by decide) (cnt 15 2) (cnt 15 2) (lt_cnt_full 2) (lt_cnt_full 2)) $$ [HO Hsw7]
  · isplitr; · iexact HI
    isplitl [HO]; · iexact HO
    isplitr; · iexact Hlev
    iexact Hsw7
  iintro ⟨HO, Hsn7, Hpay⟩
  first | iapply (wp_ret_bind c _ _ _) | skip
  ihave Hr7 := (rsRPay_open_last m c (7 : Fin 15) 2 (by decide)) $$ Hpay
  first | sl_exec | skip
  iapply (loadR c (7 : Fin 15) (pieceAt m 2 (fwd c 8) 8)) $$ [Hr7]
  · iexact Hr7
  iintro Hr7
  first | iapply (wp_ret_bind c _ _ _) | skip
  -- layer 2: wait for the piece of copy index 9 and read it
  first | sl_exec | skip
  iapply (step_RR m K c (8 : Fin 15) 2 (by decide) (cnt 15 2) (cnt 15 2) (lt_cnt_full 2) (lt_cnt_full 2)) $$ [HO Hsw8]
  · isplitr; · iexact HI
    isplitl [HO]; · iexact HO
    isplitr; · iexact Hlev
    iexact Hsw8
  iintro ⟨HO, Hsn8, Hpay⟩
  first | iapply (wp_ret_bind c _ _ _) | skip
  ihave Hr6 := (rsRPay_open_last m c (8 : Fin 15) 2 (by decide)) $$ Hpay
  first | sl_exec | skip
  iapply (loadR c (6 : Fin 15) (pieceAt m 2 (fwd c 9) 9)) $$ [Hr6]
  · iexact Hr6
  iintro Hr6
  first | iapply (wp_ret_bind c _ _ _) | skip
  -- layer 2: wait for the piece of copy index 10 and read it
  first | sl_exec | skip
  iapply (step_RR m K c (9 : Fin 15) 2 (by decide) (cnt 15 2) (cnt 15 2) (lt_cnt_full 2) (lt_cnt_full 2)) $$ [HO Hsw9]
  · isplitr; · iexact HI
    isplitl [HO]; · iexact HO
    isplitr; · iexact Hlev
    iexact Hsw9
  iintro ⟨HO, Hsn9, Hpay⟩
  first | iapply (wp_ret_bind c _ _ _) | skip
  ihave Hr5 := (rsRPay_open_last m c (9 : Fin 15) 2 (by decide)) $$ Hpay
  first | sl_exec | skip
  iapply (loadR c (5 : Fin 15) (pieceAt m 2 (fwd c 10) 10)) $$ [Hr5]
  · iexact Hr5
  iintro Hr5
  first | iapply (wp_ret_bind c _ _ _) | skip
  -- layer 2: wait for the piece of copy index 11 and read it
  first | sl_exec | skip
  iapply (step_RR m K c (10 : Fin 15) 2 (by decide) (cnt 15 2) (cnt 15 2) (lt_cnt_full 2) (lt_cnt_full 2)) $$ [HO Hsw10]
  · isplitr; · iexact HI
    isplitl [HO]; · iexact HO
    isplitr; · iexact Hlev
    iexact Hsw10
  iintro ⟨HO, Hsn10, Hpay⟩
  first | iapply (wp_ret_bind c _ _ _) | skip
  ihave Hr4 := (rsRPay_open_last m c (10 : Fin 15) 2 (by decide)) $$ Hpay
  first | sl_exec | skip
  iapply (loadR c (4 : Fin 15) (pieceAt m 2 (fwd c 11) 11)) $$ [Hr4]
  · iexact Hr4
  iintro Hr4
  first | iapply (wp_ret_bind c _ _ _) | skip
  -- layer 2: wait for the piece of copy index 12 and read it
  first | sl_exec | skip
  iapply (step_RR m K c (11 : Fin 15) 2 (by decide) (cnt 15 2) (cnt 15 2) (lt_cnt_full 2) (lt_cnt_full 2)) $$ [HO Hsw11]
  · isplitr; · iexact HI
    isplitl [HO]; · iexact HO
    isplitr; · iexact Hlev
    iexact Hsw11
  iintro ⟨HO, Hsn11, Hpay⟩
  first | iapply (wp_ret_bind c _ _ _) | skip
  ihave Hr3 := (rsRPay_open_last m c (11 : Fin 15) 2 (by decide)) $$ Hpay
  first | sl_exec | skip
  iapply (loadR c (3 : Fin 15) (pieceAt m 2 (fwd c 12) 12)) $$ [Hr3]
  · iexact Hr3
  iintro Hr3
  first | iapply (wp_ret_bind c _ _ _) | skip
  -- layer 2: wait for the piece of copy index 13 and read it
  first | sl_exec | skip
  iapply (step_RR m K c (12 : Fin 15) 2 (by decide) (cnt 15 2) (cnt 15 2) (lt_cnt_full 2) (lt_cnt_full 2)) $$ [HO Hsw12]
  · isplitr; · iexact HI
    isplitl [HO]; · iexact HO
    isplitr; · iexact Hlev
    iexact Hsw12
  iintro ⟨HO, Hsn12, Hpay⟩
  first | iapply (wp_ret_bind c _ _ _) | skip
  ihave Hr2 := (rsRPay_open_last m c (12 : Fin 15) 2 (by decide)) $$ Hpay
  first | sl_exec | skip
  iapply (loadR c (2 : Fin 15) (pieceAt m 2 (fwd c 13) 13)) $$ [Hr2]
  · iexact Hr2
  iintro Hr2
  first | iapply (wp_ret_bind c _ _ _) | skip
  -- layer 2: wait for the piece of copy index 14 and read it
  first | sl_exec | skip
  iapply (step_RR m K c (13 : Fin 15) 2 (by decide) (cnt 15 2) (cnt 15 2) (lt_cnt_full 2) (lt_cnt_full 2)) $$ [HO Hsw13]
  · isplitr; · iexact HI
    isplitl [HO]; · iexact HO
    isplitr; · iexact Hlev
    iexact Hsw13
  iintro ⟨HO, Hsn13, Hpay⟩
  first | iapply (wp_ret_bind c _ _ _) | skip
  ihave Hr1 := (rsRPay_open_last m c (13 : Fin 15) 2 (by decide)) $$ Hpay
  first | sl_exec | skip
  iapply (loadR c (1 : Fin 15) (pieceAt m 2 (fwd c 14) 14)) $$ [Hr1]
  · iexact Hr1
  iintro Hr1
  first | iapply (wp_ret_bind c _ _ _) | skip
  -- layer 2: wait for the piece of copy index 15 and read it
  first | sl_exec | skip
  iapply (step_RR m K c (14 : Fin 15) 2 (by decide) (cnt 15 2) (cnt 15 2) (lt_cnt_full 2) (lt_cnt_full 2)) $$ [HO Hsw14]
  · isplitr; · iexact HI
    isplitl [HO]; · iexact HO
    isplitr; · iexact Hlev
    iexact Hsw14
  iintro ⟨HO, Hsn14, Hpay⟩
  first | iapply (wp_ret_bind c _ _ _) | skip
  ihave Hr0 := (rsRPay_open_last m c (14 : Fin 15) 2 (by decide)) $$ Hpay
  first | sl_exec | skip
  iapply (loadR c (0 : Fin 15) (pieceAt m 2 (fwd c 15) 15)) $$ [Hr0]
  · iexact Hr0
  iintro Hr0
  first | iapply (wp_ret_bind c _ _ _) | skip
  -- layer 2: the fifteen lent shares of slot 0 are back
  ihave Hx0' : xPts (F := F) c 0 fullShare (xfill c 0 (chunkAt m 2 c)) $$ [Hx0 Hl0 Hl1 Hl2 Hl3 Hl4 Hl5 Hl6 Hl7 Hl8 Hl9 Hl10 Hl11 Hl12 Hl13 Hl14]
  · unfold agSPay
    iapply (Exit.x_back15 c _)
    isplitl [Hx0]; · iexact Hx0
    isplitl [Hl0]; · iexact Hl0
    isplitl [Hl1]; · iexact Hl1
    isplitl [Hl2]; · iexact Hl2
    isplitl [Hl3]; · iexact Hl3
    isplitl [Hl4]; · iexact Hl4
    isplitl [Hl5]; · iexact Hl5
    isplitl [Hl6]; · iexact Hl6
    isplitl [Hl7]; · iexact Hl7
    isplitl [Hl8]; · iexact Hl8
    isplitl [Hl9]; · iexact Hl9
    isplitl [Hl10]; · iexact Hl10
    isplitl [Hl11]; · iexact Hl11
    isplitl [Hl12]; · iexact Hl12
    isplitl [Hl13]; · iexact Hl13
    iexact Hl14
  -- the last layer's sum is the result
  first | sl_exec | skip
  iapply (loadStg7 c f7) $$ [Hw7']
  · iexact Hw7'
  iintro Hw7'
  first | iapply (wp_ret_bind c _ _ _) | skip
  first | sl_exec | skip
  iapply (storeStg7 c f7 _) $$ [Hw7']
  · iexact Hw7'
  iintro Hv7
  first | iapply (wp_ret_bind c _ _ _) | skip
  ihave Hw7' : held (F := F) c cc0_stg7_0 (outAt m c) $$ [Hv7]
  · sl_unfold_run_names
    rw [store_out m c]
    iexact Hv7
  -- layer 2: the send side of the piece copy for chunk 1
  first | sl_exec | skip
  iapply (step_RW m K c (0 : Fin 15) 2 (by decide) (cnt 15 2) (cnt 15 2) (lt_cnt_full 2) (lt_cnt_full 2)) $$ [HO Hrs0]
  · isplitr; · iexact HI
    isplitl [HO]; · iexact HO
    isplitr; · iexact Hlev
    iexact Hrs0
  iintro ⟨HO, Hrc0, Hpay⟩
  first | iapply (wp_ret_bind c _ _ _) | skip
  ihave Hp1 := (rsSPay_open m c (0 : Fin 15) 2) $$ Hpay
  -- layer 2: the send side of the piece copy for chunk 2
  first | sl_exec | skip
  iapply (step_RW m K c (1 : Fin 15) 2 (by decide) (cnt 15 2) (cnt 15 2) (lt_cnt_full 2) (lt_cnt_full 2)) $$ [HO Hrs1]
  · isplitr; · iexact HI
    isplitl [HO]; · iexact HO
    isplitr; · iexact Hlev
    iexact Hrs1
  iintro ⟨HO, Hrc1, Hpay⟩
  first | iapply (wp_ret_bind c _ _ _) | skip
  ihave Hp2 := (rsSPay_open m c (1 : Fin 15) 2) $$ Hpay
  -- layer 2: the send side of the piece copy for chunk 3
  first | sl_exec | skip
  iapply (step_RW m K c (2 : Fin 15) 2 (by decide) (cnt 15 2) (cnt 15 2) (lt_cnt_full 2) (lt_cnt_full 2)) $$ [HO Hrs2]
  · isplitr; · iexact HI
    isplitl [HO]; · iexact HO
    isplitr; · iexact Hlev
    iexact Hrs2
  iintro ⟨HO, Hrc2, Hpay⟩
  first | iapply (wp_ret_bind c _ _ _) | skip
  ihave Hp3 := (rsSPay_open m c (2 : Fin 15) 2) $$ Hpay
  -- layer 2: the send side of the piece copy for chunk 4
  first | sl_exec | skip
  iapply (step_RW m K c (3 : Fin 15) 2 (by decide) (cnt 15 2) (cnt 15 2) (lt_cnt_full 2) (lt_cnt_full 2)) $$ [HO Hrs3]
  · isplitr; · iexact HI
    isplitl [HO]; · iexact HO
    isplitr; · iexact Hlev
    iexact Hrs3
  iintro ⟨HO, Hrc3, Hpay⟩
  first | iapply (wp_ret_bind c _ _ _) | skip
  ihave Hp4 := (rsSPay_open m c (3 : Fin 15) 2) $$ Hpay
  -- layer 2: the send side of the piece copy for chunk 5
  first | sl_exec | skip
  iapply (step_RW m K c (4 : Fin 15) 2 (by decide) (cnt 15 2) (cnt 15 2) (lt_cnt_full 2) (lt_cnt_full 2)) $$ [HO Hrs4]
  · isplitr; · iexact HI
    isplitl [HO]; · iexact HO
    isplitr; · iexact Hlev
    iexact Hrs4
  iintro ⟨HO, Hrc4, Hpay⟩
  first | iapply (wp_ret_bind c _ _ _) | skip
  ihave Hp5 := (rsSPay_open m c (4 : Fin 15) 2) $$ Hpay
  -- layer 2: the send side of the piece copy for chunk 6
  first | sl_exec | skip
  iapply (step_RW m K c (5 : Fin 15) 2 (by decide) (cnt 15 2) (cnt 15 2) (lt_cnt_full 2) (lt_cnt_full 2)) $$ [HO Hrs5]
  · isplitr; · iexact HI
    isplitl [HO]; · iexact HO
    isplitr; · iexact Hlev
    iexact Hrs5
  iintro ⟨HO, Hrc5, Hpay⟩
  first | iapply (wp_ret_bind c _ _ _) | skip
  ihave Hp6 := (rsSPay_open m c (5 : Fin 15) 2) $$ Hpay
  -- layer 2: the send side of the piece copy for chunk 7
  first | sl_exec | skip
  iapply (step_RW m K c (6 : Fin 15) 2 (by decide) (cnt 15 2) (cnt 15 2) (lt_cnt_full 2) (lt_cnt_full 2)) $$ [HO Hrs6]
  · isplitr; · iexact HI
    isplitl [HO]; · iexact HO
    isplitr; · iexact Hlev
    iexact Hrs6
  iintro ⟨HO, Hrc6, Hpay⟩
  first | iapply (wp_ret_bind c _ _ _) | skip
  ihave Hp7 := (rsSPay_open m c (6 : Fin 15) 2) $$ Hpay
  -- layer 2: the send side of the piece copy for chunk 8
  first | sl_exec | skip
  iapply (step_RW m K c (7 : Fin 15) 2 (by decide) (cnt 15 2) (cnt 15 2) (lt_cnt_full 2) (lt_cnt_full 2)) $$ [HO Hrs7]
  · isplitr; · iexact HI
    isplitl [HO]; · iexact HO
    isplitr; · iexact Hlev
    iexact Hrs7
  iintro ⟨HO, Hrc7, Hpay⟩
  first | iapply (wp_ret_bind c _ _ _) | skip
  ihave Hp8 := (rsSPay_open m c (7 : Fin 15) 2) $$ Hpay
  -- layer 2: the send side of the piece copy for chunk 9
  first | sl_exec | skip
  iapply (step_RW m K c (8 : Fin 15) 2 (by decide) (cnt 15 2) (cnt 15 2) (lt_cnt_full 2) (lt_cnt_full 2)) $$ [HO Hrs8]
  · isplitr; · iexact HI
    isplitl [HO]; · iexact HO
    isplitr; · iexact Hlev
    iexact Hrs8
  iintro ⟨HO, Hrc8, Hpay⟩
  first | iapply (wp_ret_bind c _ _ _) | skip
  ihave Hp9 := (rsSPay_open m c (8 : Fin 15) 2) $$ Hpay
  -- layer 2: the send side of the piece copy for chunk 10
  first | sl_exec | skip
  iapply (step_RW m K c (9 : Fin 15) 2 (by decide) (cnt 15 2) (cnt 15 2) (lt_cnt_full 2) (lt_cnt_full 2)) $$ [HO Hrs9]
  · isplitr; · iexact HI
    isplitl [HO]; · iexact HO
    isplitr; · iexact Hlev
    iexact Hrs9
  iintro ⟨HO, Hrc9, Hpay⟩
  first | iapply (wp_ret_bind c _ _ _) | skip
  ihave Hp10 := (rsSPay_open m c (9 : Fin 15) 2) $$ Hpay
  -- layer 2: the send side of the piece copy for chunk 11
  first | sl_exec | skip
  iapply (step_RW m K c (10 : Fin 15) 2 (by decide) (cnt 15 2) (cnt 15 2) (lt_cnt_full 2) (lt_cnt_full 2)) $$ [HO Hrs10]
  · isplitr; · iexact HI
    isplitl [HO]; · iexact HO
    isplitr; · iexact Hlev
    iexact Hrs10
  iintro ⟨HO, Hrc10, Hpay⟩
  first | iapply (wp_ret_bind c _ _ _) | skip
  ihave Hp11 := (rsSPay_open m c (10 : Fin 15) 2) $$ Hpay
  -- layer 2: the send side of the piece copy for chunk 12
  first | sl_exec | skip
  iapply (step_RW m K c (11 : Fin 15) 2 (by decide) (cnt 15 2) (cnt 15 2) (lt_cnt_full 2) (lt_cnt_full 2)) $$ [HO Hrs11]
  · isplitr; · iexact HI
    isplitl [HO]; · iexact HO
    isplitr; · iexact Hlev
    iexact Hrs11
  iintro ⟨HO, Hrc11, Hpay⟩
  first | iapply (wp_ret_bind c _ _ _) | skip
  ihave Hp12 := (rsSPay_open m c (11 : Fin 15) 2) $$ Hpay
  -- layer 2: the send side of the piece copy for chunk 13
  first | sl_exec | skip
  iapply (step_RW m K c (12 : Fin 15) 2 (by decide) (cnt 15 2) (cnt 15 2) (lt_cnt_full 2) (lt_cnt_full 2)) $$ [HO Hrs12]
  · isplitr; · iexact HI
    isplitl [HO]; · iexact HO
    isplitr; · iexact Hlev
    iexact Hrs12
  iintro ⟨HO, Hrc12, Hpay⟩
  first | iapply (wp_ret_bind c _ _ _) | skip
  ihave Hp13 := (rsSPay_open m c (12 : Fin 15) 2) $$ Hpay
  -- layer 2: the send side of the piece copy for chunk 14
  first | sl_exec | skip
  iapply (step_RW m K c (13 : Fin 15) 2 (by decide) (cnt 15 2) (cnt 15 2) (lt_cnt_full 2) (lt_cnt_full 2)) $$ [HO Hrs13]
  · isplitr; · iexact HI
    isplitl [HO]; · iexact HO
    isplitr; · iexact Hlev
    iexact Hrs13
  iintro ⟨HO, Hrc13, Hpay⟩
  first | iapply (wp_ret_bind c _ _ _) | skip
  ihave Hp14 := (rsSPay_open m c (13 : Fin 15) 2) $$ Hpay
  -- layer 2: the send side of the piece copy for chunk 15
  first | sl_exec | skip
  iapply (step_RW m K c (14 : Fin 15) 2 (by decide) (cnt 15 2) (cnt 15 2) (lt_cnt_full 2) (lt_cnt_full 2)) $$ [HO Hrs14]
  · isplitr; · iexact HI
    isplitl [HO]; · iexact HO
    isplitr; · iexact Hlev
    iexact Hrs14
  iintro ⟨HO, Hrc14, Hpay⟩
  first | iapply (wp_ret_bind c _ _ _) | skip
  ihave Hp15 := (rsSPay_open m c (14 : Fin 15) 2) $$ Hpay
  -- the exit: every slot is home, every cell consumed, nothing owed
  iapply (Finish.finish_wp m K c _ _) $$ [Hx0' Hx1 Hx2 Hx3 Hx4 Hx5 Hx6 Hx7 Hx8 Hx9 Hx10 Hx11 Hx12 Hx13 Hx14 Hx15 Hp0 Hp1 Hp2 Hp3 Hp4 Hp5 Hp6 Hp7 Hp8 Hp9 Hp10 Hp11 Hp12 Hp13 Hp14 Hp15 Hr0 Hr1 Hr2 Hr3 Hr4 Hr5 Hr6 Hr7 Hr8 Hr9 Hr10 Hr11 Hr12 Hr13 Hr14 Hsn0 Hsn1 Hsn2 Hsn3 Hsn4 Hsn5 Hsn6 Hsn7 Hsn8 Hsn9 Hsn10 Hsn11 Hsn12 Hsn13 Hsn14 Hrc0 Hrc1 Hrc2 Hrc3 Hrc4 Hrc5 Hrc6 Hrc7 Hrc8 Hrc9 Hrc10 Hrc11 Hrc12 Hrc13 Hrc14 HO Hw0' Hw1' Hw2' Hw3' Hw4' Hw5' Hw6' Hw7']
  · unfold held
    isplitr; · iexact HI
    isplitl [Hx0' Hx1 Hx2 Hx3 Hx4 Hx5 Hx6 Hx7 Hx8 Hx9 Hx10 Hx11 Hx12 Hx13 Hx14 Hx15]
    · isplitl [Hx0']; · (iexists _; iexact Hx0')
      isplitl [Hx1]; · (iexists _; iexact Hx1)
      isplitl [Hx2]; · (iexists _; iexact Hx2)
      isplitl [Hx3]; · (iexists _; iexact Hx3)
      isplitl [Hx4]; · (iexists _; iexact Hx4)
      isplitl [Hx5]; · (iexists _; iexact Hx5)
      isplitl [Hx6]; · (iexists _; iexact Hx6)
      isplitl [Hx7]; · (iexists _; iexact Hx7)
      isplitl [Hx8]; · (iexists _; iexact Hx8)
      isplitl [Hx9]; · (iexists _; iexact Hx9)
      isplitl [Hx10]; · (iexists _; iexact Hx10)
      isplitl [Hx11]; · (iexists _; iexact Hx11)
      isplitl [Hx12]; · (iexists _; iexact Hx12)
      isplitl [Hx13]; · (iexists _; iexact Hx13)
      isplitl [Hx14]; · (iexists _; iexact Hx14)
      (iexists _; iexact Hx15)
    isplitl [Hp0 Hp1 Hp2 Hp3 Hp4 Hp5 Hp6 Hp7 Hp8 Hp9 Hp10 Hp11 Hp12 Hp13 Hp14 Hp15]
    · isplitl [Hp0]; · iexact Hp0
      isplitl [Hp1]; · (iexists _; iexact Hp1)
      isplitl [Hp2]; · (iexists _; iexact Hp2)
      isplitl [Hp3]; · (iexists _; iexact Hp3)
      isplitl [Hp4]; · (iexists _; iexact Hp4)
      isplitl [Hp5]; · (iexists _; iexact Hp5)
      isplitl [Hp6]; · (iexists _; iexact Hp6)
      isplitl [Hp7]; · (iexists _; iexact Hp7)
      isplitl [Hp8]; · (iexists _; iexact Hp8)
      isplitl [Hp9]; · (iexists _; iexact Hp9)
      isplitl [Hp10]; · (iexists _; iexact Hp10)
      isplitl [Hp11]; · (iexists _; iexact Hp11)
      isplitl [Hp12]; · (iexists _; iexact Hp12)
      isplitl [Hp13]; · (iexists _; iexact Hp13)
      isplitl [Hp14]; · (iexists _; iexact Hp14)
      (iexists _; iexact Hp15)
    isplitl [Hr0 Hr1 Hr2 Hr3 Hr4 Hr5 Hr6 Hr7 Hr8 Hr9 Hr10 Hr11 Hr12 Hr13 Hr14]
    · isplitl [Hr0]; · (iexists _; iexact Hr0)
      isplitl [Hr1]; · (iexists _; iexact Hr1)
      isplitl [Hr2]; · (iexists _; iexact Hr2)
      isplitl [Hr3]; · (iexists _; iexact Hr3)
      isplitl [Hr4]; · (iexists _; iexact Hr4)
      isplitl [Hr5]; · (iexists _; iexact Hr5)
      isplitl [Hr6]; · (iexists _; iexact Hr6)
      isplitl [Hr7]; · (iexists _; iexact Hr7)
      isplitl [Hr8]; · (iexists _; iexact Hr8)
      isplitl [Hr9]; · (iexists _; iexact Hr9)
      isplitl [Hr10]; · (iexists _; iexact Hr10)
      isplitl [Hr11]; · (iexists _; iexact Hr11)
      isplitl [Hr12]; · (iexists _; iexact Hr12)
      isplitl [Hr13]; · (iexists _; iexact Hr13)
      (iexists _; iexact Hr14)
    isplitl [Hsn0 Hsn1 Hsn2 Hsn3 Hsn4 Hsn5 Hsn6 Hsn7 Hsn8 Hsn9 Hsn10 Hsn11 Hsn12 Hsn13 Hsn14]
    · isplitl [Hsn0]; · iexact Hsn0
      isplitl [Hsn1]; · iexact Hsn1
      isplitl [Hsn2]; · iexact Hsn2
      isplitl [Hsn3]; · iexact Hsn3
      isplitl [Hsn4]; · iexact Hsn4
      isplitl [Hsn5]; · iexact Hsn5
      isplitl [Hsn6]; · iexact Hsn6
      isplitl [Hsn7]; · iexact Hsn7
      isplitl [Hsn8]; · iexact Hsn8
      isplitl [Hsn9]; · iexact Hsn9
      isplitl [Hsn10]; · iexact Hsn10
      isplitl [Hsn11]; · iexact Hsn11
      isplitl [Hsn12]; · iexact Hsn12
      isplitl [Hsn13]; · iexact Hsn13
      iexact Hsn14
    isplitl [Hrc0 Hrc1 Hrc2 Hrc3 Hrc4 Hrc5 Hrc6 Hrc7 Hrc8 Hrc9 Hrc10 Hrc11 Hrc12 Hrc13 Hrc14]
    · isplitl [Hrc0]; · iexact Hrc0
      isplitl [Hrc1]; · iexact Hrc1
      isplitl [Hrc2]; · iexact Hrc2
      isplitl [Hrc3]; · iexact Hrc3
      isplitl [Hrc4]; · iexact Hrc4
      isplitl [Hrc5]; · iexact Hrc5
      isplitl [Hrc6]; · iexact Hrc6
      isplitl [Hrc7]; · iexact Hrc7
      isplitl [Hrc8]; · iexact Hrc8
      isplitl [Hrc9]; · iexact Hrc9
      isplitl [Hrc10]; · iexact Hrc10
      isplitl [Hrc11]; · iexact Hrc11
      isplitl [Hrc12]; · iexact Hrc12
      isplitl [Hrc13]; · iexact Hrc13
      iexact Hrc14
    isplitl [HO]; · iexact HO
    isplitl [Hw0']; · iexact Hw0'
    isplitl [Hw1']; · iexact Hw1'
    isplitl [Hw2']; · iexact Hw2'
    isplitl [Hw3']; · iexact Hw3'
    isplitl [Hw4']; · iexact Hw4'
    isplitl [Hw5']; · iexact Hw5'
    isplitl [Hw6']; · iexact Hw6'
    iexact Hw7'
  iintro Hpost
  first | sl_step | sl_exec | skip
  first | (iapply Hk; iexact Hpost) | (sl_step; iapply Hk; iexact Hpost) | (trace_state; fail)

end Cert.Kernel.Body
end
-- ==== Proof.Bits.BodyOb.lean ====
import proofs.«900978_g7700000000000979_dist_mlpseq_tp1d_bs_bs_b256_d256_h512_v7x_i16_bf16_1_alg».proof.Proof.Bits.BodyPost
import proofs.«900978_g7700000000000979_dist_mlpseq_tp1d_bs_bs_b256_d256_h512_v7x_i16_bf16_1_alg».proof.Proof.Bits.Body
noncomputable section
namespace Cert.Kernel.Body
open Cert.Kernel Cert.Kernel.Gen Cert.Kernel.Vals Cert.Kernel.Cells Cert.Kernel.Sched Cert.Kernel.State Cert.Kernel.Dats Cert.Kernel.SchedTables Cert.Kernel.RingLaws Cert.Kernel.Phases Cert.Kernel.Steps Cert.Kernel.BodyPre
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig ℕ (Elt F) ℕ UU ℕ
variable (m : (ℓ : Loc nD τ sig) → Buf (Elt F) ℓ)

/-! ## The body's lemma as the launch asks for it

  The launch hands a device's body, at the grid's one point, what the device starts from with the names of the
  cells' invariants hidden, what it owes, and each of the eight staging buffers owned whole at what it then
  holds; it takes back the same at the next point: this is the body's lemma once the names are opened. -/

/-- Every point of the one-point grid is its only point. -/
theorem point_eq (t : Fin cfg0.N) : t = t₀ := by
  obtain ⟨t, ht⟩ := t; have := cfg0_N; exact Fin.ext (by simp only [t₀]; omega)

/-- What the launch hands the body at the grid's one point, the names of the cells' invariants still hidden. -/
def launchPre (c : Dev nD) : sProp 𝕄 :=
  iprop(Φ₀ m c ∗ (dats m 0 c).owesAt 0 t₀.castSucc
    ∗ (∃ d, stg c cc0_stg0_0 ((dats m 0 c).before (0 : Fin 8) t₀ d))
    ∗ (∃ d, stg c cc0_stg1_0 ((dats m 0 c).before (1 : Fin 8) t₀ d))
    ∗ (∃ d, stg c cc0_stg2_0 ((dats m 0 c).before (2 : Fin 8) t₀ d))
    ∗ (∃ d, stg c cc0_stg3_0 ((dats m 0 c).before (3 : Fin 8) t₀ d))
    ∗ (∃ d, stg c cc0_stg4_0 ((dats m 0 c).before (4 : Fin 8) t₀ d))
    ∗ (∃ d, stg c cc0_stg5_0 ((dats m 0 c).before (5 : Fin 8) t₀ d))
    ∗ (∃ d, stg c cc0_stg6_0 ((dats m 0 c).before (6 : Fin 8) t₀ d))
    ∗ (∃ d, stg c cc0_stg7_0 ((dats m 0 c).before (7 : Fin 8) t₀ d)))

set_option maxRecDepth 65536 in
/-- The body obligation of device c: the body's lemma, under the launch's own spelling of what it hands over and takes back. -/
theorem body_obligation (c : Dev nD) : BodyObligation (dats (F := F) m 0 c) (defs₀ (F := F)) 𝒱₀ 0 Set.univ := fun t => by
  rw [point_eq t]
  rw [Gen.bigSep_W0, Gen.bigSep_W0]
  show launchPre m c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_stg6_0) (Memref.isWhole_whole _) (Memref.whole cc0_stg7_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) (fun _ => bodyPost m c)
  unfold launchPre Φ₀ start
  iintro ⟨⟨⟨⟨%K, Hg⟩, Hc, Hlev⟩, Hs0, Hs1, Hs2⟩, Ho, Hw0, Hw1, Hw2, Hw3, Hw4, Hw5, Hw6, Hw7⟩
  iapply (sound_body m K c fun _ => bodyPost m c)
  unfold bodyPre
  isplitr []
  · isplitl [Hg Hc Hlev Hs0 Hs1 Hs2]
    · isplitl [Hg]; · iexact Hg
      isplitl [Hc]; · iexact Hc
      isplitl [Hlev]; · iexact Hlev
      isplitl [Hs0]; · iexact Hs0
      isplitl [Hs1]; · iexact Hs1
      iexact Hs2
    isplitl [Ho]; · iexact Ho
    isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  · iintro H; iexact H

/-- info: 'Cert.Kernel.Body.body_obligation' depends on axioms: [propext, Classical.choice, Quot.sound] -/
#guard_msgs in #print axioms body_obligation

end Cert.Kernel.Body
end
-- ==== Proof.RefFrame.lean ====
/-
  The reference program runs on one device over the whole arrays: three layers of
  x ↦ max(x · Win, 0) · Wout. Its run ends, faults nowhere and leaves its seven argument arrays as
  they were; this is its generated run with the result's value dropped.
-/
import proofs.«900978_g7700000000000979_dist_mlpseq_tp1d_bs_bs_b256_d256_h512_v7x_i16_bf16_1_alg».proof.Defs
import proofs.«900978_g7700000000000979_dist_mlpseq_tp1d_bs_bs_b256_d256_h512_v7x_i16_bf16_1_alg».proof.Proof.Gen.ReferenceIdeal
import proofs.«900978_g7700000000000979_dist_mlpseq_tp1d_bs_bs_b256_d256_h512_v7x_i16_bf16_1_alg».proof.Proof.Gen.ReferenceIdeal.Run
import proofs.«900978_g7700000000000979_dist_mlpseq_tp1d_bs_bs_b256_d256_h512_v7x_i16_bf16_1_alg».proof.Proof.Gen.ReferenceIdeal.Read
import proofs.«900978_g7700000000000979_dist_mlpseq_tp1d_bs_bs_b256_d256_h512_v7x_i16_bf16_1_alg».proof.Proof.Gen.Pre_finite_inputs_ReferenceIdeal

noncomputable section

namespace Cert.Proof.RefFrame

open Idealize.ShloMosaic Idealize.SL.Sem

/-- The reference terminates without a fault and keeps its arguments, from any memory. -/
theorem frame_ri [hReferenceIdeal : Cert.ReferenceIdeal.Facts] [hPre : Cert.Pre_finite_inputs_ReferenceIdeal.Facts] :
    Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.Spec.lean ====
/-
  The network over the whole arrays, on the extended reals: three layers of
  `X ↦ max(X · Win, 0) · Wout`, each entry a plain finite sum. Both programs are compared with this
  one function: the reference computes it directly; the sixteen devices compute it block by block,
  the sum over the 8192 hidden units split into sixteen runs of 512.
-/
import Idealize.ShloMosaic.PureOps.Ideal
import Idealize.ShloMosaic.Lib.ValueIdx

noncomputable section

open scoped BigOperators

namespace Cert.Spec

open Idealize.ShloMosaic Idealize.ShloMosaic.ValueIdx

abbrev TX : Shape := ⟨2, ![4096, 256]⟩
abbrev TWi : Shape := ⟨2, ![256, 8192]⟩
abbrev TWo : Shape := ⟨2, ![8192, 256]⟩

/-- One layer: entry (i, j) of max(X · Wi, 0) · Wo. -/
def layer (X : TX.Idx → EReal) (Wi : TWi.Idx → EReal) (Wo : TWo.Idx → EReal) : TX.Idx → EReal :=
  fun i => ∑ h : Fin 8192, max (∑ d : Fin 256, X (ix2 (i 0) d) * Wi (ix2 d h)) 0 * Wo (ix2 h (i 1))

/-- The three layers in sequence. -/
def net (X : TX.Idx → EReal) (Wi0 : TWi.Idx → EReal) (Wo0 : TWo.Idx → EReal) (Wi1 : TWi.Idx → EReal) (Wo1 : TWo.Idx → EReal)
    (Wi2 : TWi.Idx → EReal) (Wo2 : TWo.Idx → EReal) : TX.Idx → EReal :=
  layer (layer (layer X Wi0 Wo0) Wi1 Wo1) Wi2 Wo2

end Cert.Spec

end
-- ==== Proof.RefValue.lean ====
/-
  The reference program computes the network of the specification: each of its three layers is a
  product over the 256 input features, the maximum with zero entry by entry, and a product over the
  8192 hidden units, and on the extended reals each product entry is a plain finite sum. So the
  array the run ends with is `Spec.net` of the seven argument arrays, and these end unchanged.
-/
import proofs.«900978_g7700000000000979_dist_mlpseq_tp1d_bs_bs_b256_d256_h512_v7x_i16_bf16_1_alg».proof.Proof.Gen.ReferenceIdeal
import proofs.«900978_g7700000000000979_dist_mlpseq_tp1d_bs_bs_b256_d256_h512_v7x_i16_bf16_1_alg».proof.Proof.Gen.ReferenceIdeal.Run
import proofs.«900978_g7700000000000979_dist_mlpseq_tp1d_bs_bs_b256_d256_h512_v7x_i16_bf16_1_alg».proof.Proof.Gen.ReferenceIdeal.Read
import proofs.«900978_g7700000000000979_dist_mlpseq_tp1d_bs_bs_b256_d256_h512_v7x_i16_bf16_1_alg».proof.Proof.Spec
import Idealize.ShloMosaic.Lib.ValueIdx
import Idealize.ShloMosaic.PureOps.Ideal.Laws
import Idealize.ShloMosaic.Lib.StableHlo.Run

noncomputable section

open scoped BigOperators

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

/-! ## Indices of the two products, by coordinates -/

/-- Row a of the left factor at column k: the first product's left index. -/
theorem lidxA (a : Fin 4096) (h : Fin 8192) (k : Fin 256) : lidx_main_v0 (ix2 a h) k = ix2 a k := by
  funext d; match d with | ⟨0, _⟩ => rfl | ⟨1, _⟩ => rfl
/-- Row k of the right factor at column h: the first product's right index. -/
theorem ridxA (a : Fin 4096) (h : Fin 8192) (k : Fin 256) : ridx_main_v0 (ix2 a h) k = ix2 k h := by
  funext d; match d with | ⟨0, _⟩ => rfl | ⟨1, _⟩ => rfl
/-- The second product's left index. -/
theorem lidxB (a : Fin 4096) (b : Fin 256) (k : Fin 8192) : lidx_main_v3 (ix2 a b) k = ix2 a k := by
  funext d; match d with | ⟨0, _⟩ => rfl | ⟨1, _⟩ => rfl
/-- The second product's right index. -/
theorem ridxB (a : Fin 4096) (b : Fin 256) (k : Fin 8192) : ridx_main_v3 (ix2 a b) k = ix2 k b := by
  funext d; match d with | ⟨0, _⟩ => rfl | ⟨1, _⟩ => rfl

/-! ## One layer -/

/-- The hidden layer at (a, h): the maximum of the sum over the input features with zero. -/
theorem hidden_apply (X : (⟨S4096x256, .f32⟩ : BufTy).Contents (Elt Ideal)) (Wi : (⟨S256x8192, .f32⟩ : BufTy).Contents (Elt Ideal))
    (a : Fin 4096) (h : Fin 8192) :
    val_main_v2 (F := Ideal) X Wi (ix2 a h) = max (∑ d : Fin 256, X (ix2 a d) * Wi (ix2 d h)) 0 := by
  rw [val_main_v2_apply, val_main_v0_apply, val_main_v1_apply, val_main_cst_apply, Ideal.maximumf_def,
    Ideal.ofBits_def, Ideal.ofBits_zero_f32]
  refine congrArg (fun s => max s (0 : EReal)) (Finset.sum_congr rfl fun d _ => ?_)
  rw [lidxA, ridxA]

/-- One layer of the reference is one layer of the specification. -/
theorem layer_eq (X : (⟨S4096x256, .f32⟩ : BufTy).Contents (Elt Ideal)) (Wi : (⟨S256x8192, .f32⟩ : BufTy).Contents (Elt Ideal))
    (Wo : (⟨S8192x256, .f32⟩ : BufTy).Contents (Elt Ideal)) :
    val_main_v3 (F := Ideal) X Wi Wo = Cert.Spec.layer X Wi Wo := by
  funext i
  obtain ⟨a, b, rfl⟩ : ∃ (a : Fin 4096) (b : Fin 256), i = ix2 a b := ⟨i 0, i 1, eq_ix2 i⟩
  rw [val_main_v3_apply]
  show _ = ∑ h : Fin 8192, max (∑ d : Fin 256, X (ix2 a d) * Wi (ix2 d h)) 0 * Wo (ix2 h b)
  refine Finset.sum_congr rfl fun h _ => ?_
  rw [lidxB, ridxB, hidden_apply]

/-! ## The three layers -/

/-- The reference's result is the first layer's function applied three times. -/
theorem val_main_v11_layers (x0 : (⟨S4096x256, .f32⟩ : BufTy).Contents (Elt Ideal)) (x1 : (⟨S256x8192, .f32⟩ : BufTy).Contents (Elt Ideal))
    (x2 : (⟨S8192x256, .f32⟩ : BufTy).Contents (Elt Ideal)) (x3 : (⟨S256x8192, .f32⟩ : BufTy).Contents (Elt Ideal))
    (x4 : (⟨S8192x256, .f32⟩ : BufTy).Contents (Elt Ideal)) (x5 : (⟨S256x8192, .f32⟩ : BufTy).Contents (Elt Ideal))
    (x6 : (⟨S8192x256, .f32⟩ : BufTy).Contents (Elt Ideal)) :
    val_main_v11 (F := Ideal) x0 x1 x2 x3 x4 x5 x6
      = val_main_v3 (F := Ideal) (val_main_v3 (F := Ideal) (val_main_v3 (F := Ideal) x0 x1 x2) x3 x4) x5 x6 := rfl

/-- The reference's result is the network of the specification. -/
theorem net_eq (x0 : (⟨S4096x256, .f32⟩ : BufTy).Contents (Elt Ideal)) (x1 : (⟨S256x8192, .f32⟩ : BufTy).Contents (Elt Ideal))
    (x2 : (⟨S8192x256, .f32⟩ : BufTy).Contents (Elt Ideal)) (x3 : (⟨S256x8192, .f32⟩ : BufTy).Contents (Elt Ideal))
    (x4 : (⟨S8192x256, .f32⟩ : BufTy).Contents (Elt Ideal)) (x5 : (⟨S256x8192, .f32⟩ : BufTy).Contents (Elt Ideal))
    (x6 : (⟨S8192x256, .f32⟩ : BufTy).Contents (Elt Ideal)) :
    val_main_v11 (F := Ideal) x0 x1 x2 x3 x4 x5 x6 = Cert.Spec.net x0 x1 x2 x3 x4 x5 x6 := by
  rw [val_main_v11_layers, layer_eq, layer_eq, layer_eq]
  rfl

end Cert.ReferenceIdeal.RefValue

/-! ## The run -/

open Idealize.ShloMosaic Idealize.SL.Sem in
/-- Every execution of the reference ends with its result array at the network of its arguments, and the arguments
    as they were. -/
theorem Cert.ReferenceIdeal.RefValue.run_net [hReferenceIdeal : Cert.ReferenceIdeal.Facts]
    (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v11)
        = Cert.Spec.net (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
      ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
      ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
      ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
      ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
      ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
      ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)) :=
  (θ_run (Cert.ReferenceIdeal.defs (F := Ideal)) _ _).mono
    (fun _ h => ⟨(h 0).1.trans ((Cert.ReferenceIdeal.Read.val_main_v11_eq (F := Ideal) _ _ _ _ _ _ _).trans
        (Cert.ReferenceIdeal.RefValue.net_eq _ _ _ _ _ _ _)), (h 0).2⟩)
    (Cert.ReferenceIdeal.Value.run (F := Ideal) m' g')

/-- info: 'Cert.ReferenceIdeal.RefValue.run_net' depends on axioms: [propext, Classical.choice, Quot.sound] -/
#guard_msgs in #print axioms Cert.ReferenceIdeal.RefValue.run_net

end
-- ==== Proof.KernelValueOps.lean ====
/-
  Each device's arithmetic read one entry at a time, over the extended reals.

  The two matrix products into a zero accumulator are plain finite sums over the contracted axis; the
  changes of float format and the reshapes to the same shape are the identity; a slice of rows reads
  the row shifted by the slice's offset; a maximum with the zero splat is the maximum with zero. So
  entry (p, q) of a device's partial product of two stacked chunks is
  Σ_h max(Σ_d x(p, d) · wi(d, h), 0) · wo(h, q), and it reads only the row p of the stack: rows below
  256 see the first chunk alone, the others the second chunk alone.
-/
import proofs.«900978_g7700000000000979_dist_mlpseq_tp1d_bs_bs_b256_d256_h512_v7x_i16_bf16_1_alg».proof.Proof.Vals
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KernelValue

open Idealize.ShloMosaic Idealize.ShloMosaic.ValueIdx Cert.KernelIdeal Cert.KernelIdeal.Gen Cert.KernelIdeal.Vals

/-! ## The two matrix products at an entry -/

theorem lhs_in_0 (i : S512x512.Idx) (q : dot_S512x256_S256x512_S512x512_1_0_0_1_n_n.contr.Idx) :
    (dot_S512x256_S256x512_S512x512_1_0_0_1_n_n.lhsIdx i q 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem lhs_in_1 (i : S512x512.Idx) (q : dot_S512x256_S256x512_S512x512_1_0_0_1_n_n.contr.Idx) :
    (dot_S512x256_S256x512_S512x512_1_0_0_1_n_n.lhsIdx i q 1).val = (q ⟨0, by decide⟩).val :=
  dot_S512x256_S256x512_S512x512_1_0_0_1_n_n.lhsIdx_val_of_single rfl i q
theorem rhs_in_0 (i : S512x512.Idx) (q : dot_S512x256_S256x512_S512x512_1_0_0_1_n_n.contr.Idx) :
    (dot_S512x256_S256x512_S512x512_1_0_0_1_n_n.rhsIdx i q 0).val = (q ⟨0, by decide⟩).val :=
  dot_S512x256_S256x512_S512x512_1_0_0_1_n_n.rhsIdx_val_of_single rfl i q
theorem rhs_in_1 (i : S512x512.Idx) (q : dot_S512x256_S256x512_S512x512_1_0_0_1_n_n.contr.Idx) :
    (dot_S512x256_S256x512_S512x512_1_0_0_1_n_n.rhsIdx i q 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- Activations times the first weight block: entry (p, q) is Σ_k x(p, k) · w(k, q). -/
theorem matmul_in_apply (x : FVec Ideal S512x256 .bf16) (w : FVec Ideal S256x512 .bf16) (p : Fin 512) (q : Fin 512) :
    FloatOps.matmul dot_S512x256_S256x512_S512x512_1_0_0_1_n_n none x w (constant S512x512 .f32 0x00000000#32) (ix2 p q)
      = ∑ k : Fin 256, x (ix2 p k) * w (ix2 k q) := by
  rw [Ideal.matmul_constant_zero_apply, ← Equiv.sum_comp (ValueIdx.contrEquiv1 dot_S512x256_S256x512_S512x512_1_0_0_1_n_n 256 rfl rfl).symm]
  refine Finset.sum_congr rfl fun k _ => ?_
  have hk := ValueIdx.contrEquiv1_symm_val dot_S512x256_S256x512_S512x512_1_0_0_1_n_n 256 rfl rfl k
  have el : dot_S512x256_S256x512_S512x512_1_0_0_1_n_n.lhsIdx (ix2 p q) ((ValueIdx.contrEquiv1 dot_S512x256_S256x512_S512x512_1_0_0_1_n_n 256 rfl rfl).symm k) = ix2 p k := funext fun a => Fin.ext (by
    match a with
    | ⟨0, _⟩ => exact lhs_in_0 _ _
    | ⟨1, _⟩ => exact (lhs_in_1 _ _).trans hk)
  have er : dot_S512x256_S256x512_S512x512_1_0_0_1_n_n.rhsIdx (ix2 p q) ((ValueIdx.contrEquiv1 dot_S512x256_S256x512_S512x512_1_0_0_1_n_n 256 rfl rfl).symm k) = ix2 k q := funext fun a => Fin.ext (by
    match a with
    | ⟨0, _⟩ => exact (rhs_in_0 _ _).trans hk
    | ⟨1, _⟩ => exact rhs_in_1 _ _)
  rw [el, er]

theorem lhs_out_0 (i : S512x256.Idx) (q : dot_S512x512_S512x256_S512x256_1_0_0_1_n_n.contr.Idx) :
    (dot_S512x512_S512x256_S512x256_1_0_0_1_n_n.lhsIdx i q 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem lhs_out_1 (i : S512x256.Idx) (q : dot_S512x512_S512x256_S512x256_1_0_0_1_n_n.contr.Idx) :
    (dot_S512x512_S512x256_S512x256_1_0_0_1_n_n.lhsIdx i q 1).val = (q ⟨0, by decide⟩).val :=
  dot_S512x512_S512x256_S512x256_1_0_0_1_n_n.lhsIdx_val_of_single rfl i q
theorem rhs_out_0 (i : S512x256.Idx) (q : dot_S512x512_S512x256_S512x256_1_0_0_1_n_n.contr.Idx) :
    (dot_S512x512_S512x256_S512x256_1_0_0_1_n_n.rhsIdx i q 0).val = (q ⟨0, by decide⟩).val :=
  dot_S512x512_S512x256_S512x256_1_0_0_1_n_n.rhsIdx_val_of_single rfl i q
theorem rhs_out_1 (i : S512x256.Idx) (q : dot_S512x512_S512x256_S512x256_1_0_0_1_n_n.contr.Idx) :
    (dot_S512x512_S512x256_S512x256_1_0_0_1_n_n.rhsIdx i q 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- Hidden units times the second weight block: entry (p, q) is Σ_k x(p, k) · w(k, q). -/
theorem matmul_out_apply (x : FVec Ideal S512x512 .bf16) (w : FVec Ideal S512x256 .bf16) (p : Fin 512) (q : Fin 256) :
    FloatOps.matmul dot_S512x512_S512x256_S512x256_1_0_0_1_n_n none x w (constant S512x256 .f32 0x00000000#32) (ix2 p q)
      = ∑ k : Fin 512, x (ix2 p k) * w (ix2 k q) := by
  rw [Ideal.matmul_constant_zero_apply, ← Equiv.sum_comp (ValueIdx.contrEquiv1 dot_S512x512_S512x256_S512x256_1_0_0_1_n_n 512 rfl rfl).symm]
  refine Finset.sum_congr rfl fun k _ => ?_
  have hk := ValueIdx.contrEquiv1_symm_val dot_S512x512_S512x256_S512x256_1_0_0_1_n_n 512 rfl rfl k
  have el : dot_S512x512_S512x256_S512x256_1_0_0_1_n_n.lhsIdx (ix2 p q) ((ValueIdx.contrEquiv1 dot_S512x512_S512x256_S512x256_1_0_0_1_n_n 512 rfl rfl).symm k) = ix2 p k := funext fun a => Fin.ext (by
    match a with
    | ⟨0, _⟩ => exact lhs_out_0 _ _
    | ⟨1, _⟩ => exact (lhs_out_1 _ _).trans hk)
  have er : dot_S512x512_S512x256_S512x256_1_0_0_1_n_n.rhsIdx (ix2 p q) ((ValueIdx.contrEquiv1 dot_S512x512_S512x256_S512x256_1_0_0_1_n_n 512 rfl rfl).symm k) = ix2 k q := funext fun a => Fin.ext (by
    match a with
    | ⟨0, _⟩ => exact (rhs_out_0 _ _).trans hk
    | ⟨1, _⟩ => exact rhs_out_1 _ _)
  rw [el, er]

/-! ## One device's functions at an entry -/

/-- Rounding a chunk to the narrow format changes no entry. -/
theorem toB_eq (x : Vec Ideal S256x256 .f32) : toB (F := Ideal) x = x := by
  unfold toB k0_pay1
  simp only [shapeCast_self]
  rfl

/-- Nor does rounding the weight blocks. -/
theorem wiB_eq (w : Vec Ideal S256x512 .f32) : wiB (F := Ideal) w = w := by
  unfold wiB k0_pay2
  simp only [shapeCast_self]
  rfl

theorem woB_eq (w : Vec Ideal S512x256 .f32) : woB (F := Ideal) w = w := by
  unfold woB k0_pay3
  simp only [shapeCast_self]
  rfl

/-- The hidden layer at (p, h): max(Σ_d x(p, d) · wi(d, h), 0). -/
theorem hid_apply (wi : FVec Ideal S256x512 .bf16) (xg : Vec Ideal S512x256 .bf16) (p : Fin 512) (h : Fin 512) :
    hid (F := Ideal) wi xg (ix2 p h) = max (∑ d : Fin 256, xg (ix2 p d) * wi (ix2 d h)) 0 := by
  unfold hid k0_pay7
  simp only [matmul]
  rw [maximumf_apply, broadcast_apply, matmul_in_apply]
  show max _ (Ideal.ofBits .f32 0x00000000#32) = _
  rw [Ideal.ofBits_zero_f32]

/-- The partial product at (p, q): Σ_h max(Σ_d x(p, d) · wi(d, h), 0) · wo(h, q). -/
theorem pg_apply (wi : FVec Ideal S256x512 .bf16) (wo : FVec Ideal S512x256 .bf16) (xg : Vec Ideal S512x256 .bf16) (p : Fin 512) (q : Fin 256) :
    pg (F := Ideal) wi wo xg (ix2 p q)
      = ∑ h : Fin 512, max (∑ d : Fin 256, xg (ix2 p d) * wi (ix2 d h)) 0 * wo (ix2 h q) := by
  unfold pg k0_pay8
  simp only [matmul]
  rw [matmul_out_apply]
  refine Finset.sum_congr rfl fun h _ => ?_
  rw [truncf_apply, hid_apply]

/-! ## Slices, stacking and the running sum at an entry -/

/-- The first 256 rows of a product, kept wide: row r is row r. -/
theorem loF_apply (x : FVec Ideal S512x256 .f32) (r q : Fin 256) :
    loF (F := Ideal) x (ix2 r q) = x (ix2 (⟨r.val, by omega⟩ : Fin 512) q) := by
  unfold loF k0_pay5
  exact extractStridedSlice_apply _ x _ _ _ (fun a => match a with
    | ⟨0, _⟩ => by show r.val = 0 + r.val; omega
    | ⟨1, _⟩ => by show q.val = 0 + q.val; omega)

/-- The first 256 rows of a product, narrow: row r is row r. -/
theorem loB_apply (x : FVec Ideal S512x256 .f32) (r q : Fin 256) :
    loB (F := Ideal) x (ix2 r q) = x (ix2 (⟨r.val, by omega⟩ : Fin 512) q) := by
  unfold loB
  simp only [shapeCast_self]
  rw [truncf_apply]
  exact extractStridedSlice_apply _ x _ _ _ (fun a => match a with
    | ⟨0, _⟩ => by show r.val = 0 + r.val; omega
    | ⟨1, _⟩ => by show q.val = 0 + q.val; omega)

/-- The last 256 rows of a product, narrow: row r is row 256 + r. -/
theorem hiB_apply (x : FVec Ideal S512x256 .f32) (r q : Fin 256) :
    hiB (F := Ideal) x (ix2 r q) = x (ix2 (⟨256 + r.val, by omega⟩ : Fin 512) q) := by
  unfold hiB k0_pay13
  simp only [shapeCast_self]
  rw [truncf_apply]
  exact extractStridedSlice_apply _ x _ _ _ (fun a => match a with
    | ⟨0, _⟩ => by show 256 + r.val = 256 + r.val; rfl
    | ⟨1, _⟩ => by show q.val = 0 + q.val; omega)

/-- A received piece added to the running sum. -/
theorem accS_apply (a : FVec Ideal S256x256 .f32) (r : Vec Ideal S1x256x256 .bf16) (p q : Fin 256) :
    accS (F := Ideal) a r (ix2 p q) = (a (ix2 p q) : EReal) + (r (ix3 (0 : Fin 1) p q) : EReal) := by
  unfold accS k0_pay31
  rw [addf_apply, extf_apply, shapeCast_1ab_ab_apply]

/-- The last piece added, the sum rounded (no change over the reals). -/
theorem accB_apply (a : FVec Ideal S256x256 .f32) (r : Vec Ideal S1x256x256 .bf16) (p q : Fin 256) :
    accB (F := Ideal) a r (ix2 p q) = (a (ix2 p q) : EReal) + (r (ix3 (0 : Fin 1) p q) : EReal) := by
  unfold accB k0_pay42
  simp only [shapeCast_self]
  rw [truncf_apply, addf_apply, extf_apply, shapeCast_1ab_ab_apply]

/-- A stack's first 256 rows are its first chunk's. -/
theorem cat_lo (a b : Vec Ideal S256x256 .bf16) (r d : Fin 256) :
    cat (F := Ideal) a b (ix2 (⟨r.val, by omega⟩ : Fin 512) d) = a (ix2 r d) := by
  unfold cat
  split
  · exact congrArg a (funext fun e => match e with | ⟨0, _⟩ => rfl | ⟨1, _⟩ => rfl)
  · rename_i h; exact absurd r.isLt h

/-- A stack's last 256 rows are its second chunk's. -/
theorem cat_hi (a b : Vec Ideal S256x256 .bf16) (r d : Fin 256) :
    cat (F := Ideal) a b (ix2 (⟨256 + r.val, by omega⟩ : Fin 512) d) = b (ix2 r d) := by
  unfold cat
  split
  · rename_i h; exact absurd h (by show ¬ (256 + r.val < 256); omega)
  · exact congrArg b (funext fun e => match e with
      | ⟨0, _⟩ => Fin.ext (by show 256 + r.val - 256 = r.val; omega)
      | ⟨1, _⟩ => rfl)

/-- A piece read as the program loads it. -/
theorem lift3_apply (x : Vec Ideal S256x256 .bf16) (u : Fin 1) (p q : Fin 256) :
    lift3 (F := Ideal) x (ix3 u p q) = x (ix2 p q) := by
  unfold lift3
  exact congrArg x (funext fun e => match e with | ⟨0, _⟩ => rfl | ⟨1, _⟩ => rfl)

/-! ## A chunk's share over one device's hidden units -/

/-- The share of a chunk x over the 512 hidden units of a device holding the weight blocks wi and wo:
    entry (p, q) is Σ_h max(Σ_d x(p, d) · wi(d, h), 0) · wo(h, q). -/
def part (x : S256x256.Idx → EReal) (wi : S256x512.Idx → EReal) (wo : S512x256.Idx → EReal) : S256x256.Idx → EReal :=
  fun i => ∑ h : Fin 512, max (∑ d : Fin 256, x (ix2 (i 0) d) * wi (ix2 d h)) 0 * wo (ix2 h (i 1))

theorem part_apply (x : S256x256.Idx → EReal) (wi : S256x512.Idx → EReal) (wo : S512x256.Idx → EReal) (p q : Fin 256) :
    part x wi wo (ix2 p q) = ∑ h : Fin 512, max (∑ d : Fin 256, x (ix2 p d) * wi (ix2 d h)) 0 * wo (ix2 h q) := rfl

/-- The first 256 rows of the partial product of a stack are the first chunk's share, -/
theorem loF_pg_cat (wi : FVec Ideal S256x512 .bf16) (wo : FVec Ideal S512x256 .bf16) (a b : Vec Ideal S256x256 .bf16) :
    loF (F := Ideal) (pg (F := Ideal) wi wo (cat (F := Ideal) a b)) = part a wi wo := by
  funext i
  obtain ⟨r, q, rfl⟩ : ∃ (r : Fin 256) (q : Fin 256), i = ix2 r q := ⟨i 0, i 1, eq_ix2 i⟩
  rw [loF_apply, pg_apply, part_apply]
  simp only [cat_lo]

/-- also when sent narrow; -/
theorem loB_pg_cat (wi : FVec Ideal S256x512 .bf16) (wo : FVec Ideal S512x256 .bf16) (a b : Vec Ideal S256x256 .bf16) :
    loB (F := Ideal) (pg (F := Ideal) wi wo (cat (F := Ideal) a b)) = part a wi wo := by
  funext i
  obtain ⟨r, q, rfl⟩ : ∃ (r : Fin 256) (q : Fin 256), i = ix2 r q := ⟨i 0, i 1, eq_ix2 i⟩
  rw [loB_apply, pg_apply, part_apply]
  simp only [cat_lo]

/-- the last 256 rows are the second chunk's share. -/
theorem hiB_pg_cat (wi : FVec Ideal S256x512 .bf16) (wo : FVec Ideal S512x256 .bf16) (a b : Vec Ideal S256x256 .bf16) :
    hiB (F := Ideal) (pg (F := Ideal) wi wo (cat (F := Ideal) a b)) = part b wi wo := by
  funext i
  obtain ⟨r, q, rfl⟩ : ∃ (r : Fin 256) (q : Fin 256), i = ix2 r q := ⟨i 0, i 1, eq_ix2 i⟩
  rw [hiB_apply, pg_apply, part_apply]
  simp only [cat_hi]

/-- info: 'Cert.KernelIdeal.KernelValue.loF_pg_cat' depends on axioms: [propext, Classical.choice, Quot.sound] -/
#guard_msgs in #print axioms loF_pg_cat
/-- info: 'Cert.KernelIdeal.KernelValue.loB_pg_cat' depends on axioms: [propext, Classical.choice, Quot.sound] -/
#guard_msgs in #print axioms loB_pg_cat
/-- info: 'Cert.KernelIdeal.KernelValue.hiB_pg_cat' depends on axioms: [propext, Classical.choice, Quot.sound] -/
#guard_msgs in #print axioms hiB_pg_cat
/-- info: 'Cert.KernelIdeal.KernelValue.accB_apply' depends on axioms: [propext, Classical.choice, Quot.sound] -/
#guard_msgs in #print axioms accB_apply

end Cert.KernelIdeal.KernelValue

end
-- ==== Proof.KernelValueSum.lean ====
/-
  The additions that join the sixteen devices' shares into one layer of the network.

  A sum over the 8192 hidden units is the sum over sixteen runs of 512; the sixteen devices met
  going round the ring from any device are all sixteen devices; so the sixteen shares of a chunk,
  each over one device's 512 hidden units and added in ring order, are the chunk's rows of the whole
  layer. Only commutativity and associativity of addition are used: nothing is distributed, so no
  entry needs to be finite.
-/
import proofs.«900978_g7700000000000979_dist_mlpseq_tp1d_bs_bs_b256_d256_h512_v7x_i16_bf16_1_alg».proof.Proof.Spec
import Idealize.ShloMosaic.Lib.Layout
import Idealize.ShloMosaic.Lib.ValueIdx
import Mathlib.Algebra.BigOperators.Fin
import Mathlib.Algebra.Group.Fin.Basic
import Mathlib.Logic.Equiv.Fin.Basic
import Mathlib.Data.Fintype.BigOperators

noncomputable section

open scoped BigOperators

namespace Cert.KernelIdeal.KernelValue

open Idealize.ShloMosaic Idealize.ShloMosaic.ValueIdx Cert.Spec

/-! ## Two re-indexings of a finite sum -/

/-- A sum over 8192 hidden units is the sum over sixteen runs of 512. -/
theorem sum_runs {M : Type*} [AddCommMonoid M] (f : Fin 8192 → M) :
    ∑ h : Fin 8192, f h = ∑ e : Fin 16, ∑ h : Fin 512, f ⟨e.val * 512 + h.val, by omega⟩ := by
  refine ((Equiv.sum_comp (finProdFinEquiv : Fin 16 × Fin 512 ≃ Fin (16 * 512)) f).symm).trans ?_
  rw [Fintype.sum_prod_type]
  refine Finset.sum_congr rfl fun e _ => Finset.sum_congr rfl fun h _ => congrArg f (Fin.ext ?_)
  show h.val + 512 * e.val = e.val * 512 + h.val
  omega

/-- Going round the ring of sixteen from device c, step by step, meets every device once. -/
theorem sum_ring {M : Type*} [AddCommMonoid M] (c : Fin 16) (g : ℕ → Fin 16) (hg : ∀ k, (g k).val = (c.val + k) % 16)
    (f : Fin 16 → M) : ∑ k ∈ Finset.range 16, f (g k) = ∑ e : Fin 16, f e := by
  rw [Finset.sum_range (fun k => f (g k))]
  refine (Finset.sum_congr rfl fun k _ => ?_).trans (Equiv.sum_comp (Equiv.addLeft c) f)
  refine congrArg f (Fin.ext ?_)
  exact (hg k.val).trans (Fin.val_add c k).symm

/-! ## Where a block's entry lies in the whole array -/

/-- Row p of block c of the activations is row 256 c + p. -/
theorem idx_rows256 (h : Layout.Tiles ⟨2, ![256, 256]⟩ ⟨2, ![4096, 256]⟩ 0 16) (c : Fin 16) (p q : Fin 256) :
    h.idx c (ix2 p q) = ix2 (⟨c.val * 256 + p.val, by omega⟩ : Fin 4096) q :=
  funext fun a => Fin.ext (match a with | ⟨0, _⟩ => rfl | ⟨1, _⟩ => rfl)

/-- Column h of block e of a first weight matrix is column 512 e + h. -/
theorem idx_cols512 (t : Layout.Tiles ⟨2, ![256, 512]⟩ ⟨2, ![256, 8192]⟩ 1 16) (e : Fin 16) (d : Fin 256) (h : Fin 512) :
    t.idx e (ix2 d h) = ix2 d (⟨e.val * 512 + h.val, by omega⟩ : Fin 8192) :=
  funext fun a => Fin.ext (match a with | ⟨0, _⟩ => rfl | ⟨1, _⟩ => rfl)

/-- Row h of block e of a second weight matrix is row 512 e + h. -/
theorem idx_rows512 (t : Layout.Tiles ⟨2, ![512, 256]⟩ ⟨2, ![8192, 256]⟩ 0 16) (e : Fin 16) (h : Fin 512) (q : Fin 256) :
    t.idx e (ix2 h q) = ix2 (⟨e.val * 512 + h.val, by omega⟩ : Fin 8192) q :=
  funext fun a => Fin.ext (match a with | ⟨0, _⟩ => rfl | ⟨1, _⟩ => rfl)

/-! ## One layer, block by block -/

/-- The sixteen devices' shares of chunk c, each over its own 512 hidden units, add up to chunk c of the
    layer over all 8192. -/
theorem layer_block (X : TX.Idx → EReal) (Wi : TWi.Idx → EReal) (Wo : TWo.Idx → EReal)
    (hX : Layout.Tiles ⟨2, ![256, 256]⟩ ⟨2, ![4096, 256]⟩ 0 16) (hWi : Layout.Tiles ⟨2, ![256, 512]⟩ ⟨2, ![256, 8192]⟩ 1 16)
    (hWo : Layout.Tiles ⟨2, ![512, 256]⟩ ⟨2, ![8192, 256]⟩ 0 16) (c : Fin 16) (p q : Fin 256) :
    ∑ e : Fin 16, ∑ h : Fin 512,
        max (∑ d : Fin 256, Layout.block ⟨2, ![256, 256]⟩ ⟨2, ![4096, 256]⟩ 0 16 c X hX (ix2 p d)
              * Layout.block ⟨2, ![256, 512]⟩ ⟨2, ![256, 8192]⟩ 1 16 e Wi hWi (ix2 d h)) 0
          * Layout.block ⟨2, ![512, 256]⟩ ⟨2, ![8192, 256]⟩ 0 16 e Wo hWo (ix2 h q)
      = Layout.block ⟨2, ![256, 256]⟩ ⟨2, ![4096, 256]⟩ 0 16 c (layer X Wi Wo) hX (ix2 p q) := by
  simp only [Layout.block_apply, idx_rows256, idx_cols512, idx_rows512]
  unfold layer
  rw [sum_runs]

/-- info: 'Cert.KernelIdeal.KernelValue.layer_block' depends on axioms: [propext, Classical.choice, Quot.sound] -/
#guard_msgs in #print axioms layer_block
/-- info: 'Cert.KernelIdeal.KernelValue.sum_ring' depends on axioms: [propext, Classical.choice, Quot.sound] -/
#guard_msgs in #print axioms sum_ring

end Cert.KernelIdeal.KernelValue

end
-- ==== Proof.KernelValue.lean ====
/-
  The sixteen devices together compute the network, block by block.

  The piece a device returns for a chunk is that chunk's share over the device's own 512 hidden
  units: the partial product of two stacked chunks reads, row by row, one chunk only. A device's
  running sum therefore collects the shares of ITS chunk over the devices 0, 1, …, 15 places after it
  on the ring, which are all sixteen devices; and sixteen runs of 512 hidden units are all 8192. So
  if every device starts with its block of the whole arrays, then after each layer every device
  holds its block of that layer of the network over the whole arrays, and at the end its block of
  the three layers' result.
-/
import proofs.«900978_g7700000000000979_dist_mlpseq_tp1d_bs_bs_b256_d256_h512_v7x_i16_bf16_1_alg».proof.Defs
import proofs.«900978_g7700000000000979_dist_mlpseq_tp1d_bs_bs_b256_d256_h512_v7x_i16_bf16_1_alg».proof.Proof.Vals
import proofs.«900978_g7700000000000979_dist_mlpseq_tp1d_bs_bs_b256_d256_h512_v7x_i16_bf16_1_alg».proof.Proof.Spec
import proofs.«900978_g7700000000000979_dist_mlpseq_tp1d_bs_bs_b256_d256_h512_v7x_i16_bf16_1_alg».proof.Proof.KernelValueOps
import proofs.«900978_g7700000000000979_dist_mlpseq_tp1d_bs_bs_b256_d256_h512_v7x_i16_bf16_1_alg».proof.Proof.KernelValueSum

noncomputable section

open scoped BigOperators

namespace Cert.KernelIdeal.KernelValue

open Idealize.ShloMosaic Idealize.ShloMosaic.ValueIdx Idealize.SL.Sem Cert.KernelIdeal Cert.KernelIdeal.Vals Cert.Spec

/-! ## The ring -/

/-- No step forward is the device itself. -/
theorem fwd_zero (c : Dev nD) : fwd c 0 = c :=
  Fin.ext (by show (c.val + 0) % 16 = c.val; have : c.val < 16 := c.isLt; omega)

/-- No step back is the device itself. -/
theorem bwd_zero (c : Dev nD) : bwd c 0 = c :=
  Fin.ext (by show (c.val + (16 - 0 % 16)) % 16 = c.val; have : c.val < 16 := c.isLt; omega)

/-- k steps forward, then k steps back. -/
theorem bwd_fwd (c : Dev nD) (k : ℕ) : bwd (fwd c k) k = c :=
  Fin.ext (by show ((c.val + k) % 16 + (16 - k % 16)) % 16 = c.val; have : c.val < 16 := c.isLt; omega)

/-! ## Pieces and running sums as shares -/

section Shares

variable (wi : ℕ → Dev nD → Vec Ideal S256x512 .f32) (wo : ℕ → Dev nD → Vec Ideal S512x256 .f32)

/-- The piece device e returns to the device k places before it is that device's chunk's share over e's
    hidden units. -/
theorem pieceOf_eq (X : Dev nD → Vec Ideal S256x256 .bf16) (r : ℕ) (e : Dev nD) (k : ℕ) :
    Vals.pieceOf (F := Ideal) wi wo X r e k = part (X (bwd e k)) (wi r e) (wo r e) := by
  unfold Vals.pieceOf prodOf
  rw [wiB_eq, woB_eq]
  split
  · rename_i h
    rw [loB_pg_cat, show 2 * (k / 2) = k by omega]
  · rename_i h
    rw [hiB_pg_cat, show 2 * (k / 2) + 1 = k by omega]

/-- The piece a device keeps for itself is its own chunk's share over its own hidden units. -/
theorem own_eq (X : Dev nD → Vec Ideal S256x256 .bf16) (r : ℕ) (c : Dev nD) :
    loF (F := Ideal) (prodOf (F := Ideal) wi wo X r c 0) = part (X c) (wi r c) (wo r c) := by
  unfold prodOf
  rw [wiB_eq, woB_eq, loF_pg_cat, show 2 * 0 = 0 from rfl, bwd_zero]

/-- After n received pieces the running sum holds the chunk's shares over the devices 0..n places after
    its owner. -/
theorem accOf_apply (X : Dev nD → Vec Ideal S256x256 .bf16) (r : ℕ) (c : Dev nD) (n : ℕ) (p q : Fin 256) :
    accOf (F := Ideal) wi wo X r c n (ix2 p q)
      = ∑ k ∈ Finset.range (n + 1), part (X c) (wi r (fwd c k)) (wo r (fwd c k)) (ix2 p q) := by
  induction n with
  | zero =>
    show loF (F := Ideal) (prodOf (F := Ideal) wi wo X r c 0) (ix2 p q) = _
    rw [own_eq, Finset.sum_range_one, fwd_zero]
  | succ n ih =>
    show accS (F := Ideal) (accOf (F := Ideal) wi wo X r c n) (lift3 (F := Ideal) (Vals.pieceOf (F := Ideal) wi wo X r (fwd c (n + 1)) (n + 1))) (ix2 p q) = _
    rw [accS_apply, lift3_apply, pieceOf_eq, bwd_fwd, ih, Finset.sum_range_succ _ (n + 1)]

/-- The next layer's chunk: the sixteen shares of the chunk, in ring order. -/
theorem chunk_succ_apply (xin : Dev nD → Vec Ideal S256x256 .f32) (r : ℕ) (c : Dev nD) (p q : Fin 256) :
    chunk (F := Ideal) xin wi wo (r + 1) c (ix2 p q)
      = ∑ k ∈ Finset.range 16, part (chunk (F := Ideal) xin wi wo r c) (wi r (fwd c k)) (wo r (fwd c k)) (ix2 p q) := by
  show accB (F := Ideal) (accOf (F := Ideal) wi wo (chunk (F := Ideal) xin wi wo r) r c 14)
      (lift3 (F := Ideal) (Vals.pieceOf (F := Ideal) wi wo (chunk (F := Ideal) xin wi wo r) r (fwd c 15) 15)) (ix2 p q) = _
  rw [accB_apply, lift3_apply, pieceOf_eq, bwd_fwd, accOf_apply, Finset.sum_range_succ _ 15]

/-- The result: the sixteen shares of the last layer's chunk, in ring order. -/
theorem result_apply (xin : Dev nD → Vec Ideal S256x256 .f32) (c : Dev nD) (p q : Fin 256) :
    result (F := Ideal) xin wi wo c (ix2 p q)
      = ∑ k ∈ Finset.range 16, part (chunk (F := Ideal) xin wi wo 2 c) (wi 2 (fwd c k)) (wo 2 (fwd c k)) (ix2 p q) := by
  unfold result accTo Vals.piece
  rw [accS_apply, lift3_apply, pieceOf_eq, bwd_fwd, accOf_apply, Finset.sum_range_succ _ 15]

end Shares

/-! ## The whole arrays, layer by layer -/

section Whole

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The whole activations the reference starts from. -/
def refX : TX.Idx → EReal := (m' (((0 : Dev Cert.ReferenceIdeal.nD).tc : Thread Cert.ReferenceIdeal.nD Cert.ReferenceIdeal.τ).loc Cert.ReferenceIdeal.main_arg0))
/-- Layer r's whole first weight matrix. -/
def refWi (r : ℕ) : TWi.Idx → EReal :=
  match r with
  | 0 => (m' (((0 : Dev Cert.ReferenceIdeal.nD).tc : Thread Cert.ReferenceIdeal.nD Cert.ReferenceIdeal.τ).loc Cert.ReferenceIdeal.main_arg1))
  | 1 => (m' (((0 : Dev Cert.ReferenceIdeal.nD).tc : Thread Cert.ReferenceIdeal.nD Cert.ReferenceIdeal.τ).loc Cert.ReferenceIdeal.main_arg3))
  | _ => (m' (((0 : Dev Cert.ReferenceIdeal.nD).tc : Thread Cert.ReferenceIdeal.nD Cert.ReferenceIdeal.τ).loc Cert.ReferenceIdeal.main_arg5))
/-- Layer r's whole second weight matrix. -/
def refWo (r : ℕ) : TWo.Idx → EReal :=
  match r with
  | 0 => (m' (((0 : Dev Cert.ReferenceIdeal.nD).tc : Thread Cert.ReferenceIdeal.nD Cert.ReferenceIdeal.τ).loc Cert.ReferenceIdeal.main_arg2))
  | 1 => (m' (((0 : Dev Cert.ReferenceIdeal.nD).tc : Thread Cert.ReferenceIdeal.nD Cert.ReferenceIdeal.τ).loc Cert.ReferenceIdeal.main_arg4))
  | _ => (m' (((0 : Dev Cert.ReferenceIdeal.nD).tc : Thread Cert.ReferenceIdeal.nD Cert.ReferenceIdeal.τ).loc Cert.ReferenceIdeal.main_arg6))

/-- The whole activations after r layers. -/
def upTo : ℕ → TX.Idx → EReal
  | 0 => refX m'
  | r + 1 => layer (upTo r) (refWi m' r) (refWo m' r)

/-- Three layers are the network. -/
theorem upTo_three : upTo m' 3 = net (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)) := rfl

variable (hagree : ∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6)))
include hagree

/-- Device e's first weight block of layer r is block e of the whole matrix, -/
theorem argWi_block (r : ℕ) (e : Dev nD) : argWi (F := Ideal) m r e = Layout.block ⟨2, ![256, 512]⟩ ⟨2, ![256, 8192]⟩ 1 16 e (refWi m' r) :=
  match r with
  | 0 => (hagree e).2.1
  | 1 => (hagree e).2.2.2.1
  | _ + 2 => (hagree e).2.2.2.2.2.1

/-- and its second weight block likewise. -/
theorem argWo_block (r : ℕ) (e : Dev nD) : argWo (F := Ideal) m r e = Layout.block ⟨2, ![512, 256]⟩ ⟨2, ![8192, 256]⟩ 0 16 e (refWo m' r) :=
  match r with
  | 0 => (hagree e).2.2.1
  | 1 => (hagree e).2.2.2.2.1
  | _ + 2 => (hagree e).2.2.2.2.2.2

/-- The sixteen shares of block c of whole activations A, in ring order, are block c of the layer of A. -/
theorem shares_block (A : TX.Idx → EReal) (r : ℕ) (c : Dev nD) (p q : Fin 256) :
    ∑ k ∈ Finset.range 16, part (Layout.block ⟨2, ![256, 256]⟩ ⟨2, ![4096, 256]⟩ 0 16 c A) (argWi (F := Ideal) m r (fwd c k)) (argWo (F := Ideal) m r (fwd c k)) (ix2 p q)
      = (Layout.block ⟨2, ![256, 256]⟩ ⟨2, ![4096, 256]⟩ 0 16 c (layer A (refWi m' r) (refWo m' r))) (ix2 p q) := by
  refine (sum_ring c (fwd c) (fun _ => rfl)
    (fun e => part (Layout.block ⟨2, ![256, 256]⟩ ⟨2, ![4096, 256]⟩ 0 16 c A) (argWi (F := Ideal) m r e) (argWo (F := Ideal) m r e) (ix2 p q))).trans ?_
  simp only [part_apply, argWi_block m m' hagree, argWo_block m m' hagree]
  exact layer_block A (refWi m' r) (refWo m' r) _ _ _ c p q

/-- At the start of layer r every device holds its block of the whole activations after r layers. -/
theorem chunk_block (r : ℕ) (c : Dev nD) :
    chunk (F := Ideal) (argX m) (argWi m) (argWo m) r c = Layout.block ⟨2, ![256, 256]⟩ ⟨2, ![4096, 256]⟩ 0 16 c (upTo m' r) := by
  induction r generalizing c with
  | zero =>
    show toB (F := Ideal) (argX m c) = _
    rw [toB_eq]
    exact (hagree c).1
  | succ r ih =>
    funext i
    obtain ⟨p, q, rfl⟩ : ∃ (p : Fin 256) (q : Fin 256), i = ix2 p q := ⟨i 0, i 1, eq_ix2 i⟩
    rw [chunk_succ_apply, ih c]
    exact shares_block m m' hagree (upTo m' r) r c p q

end Whole

/-! ## The result -/

open Idealize.ShloMosaic Idealize.SL.Sem in
/-- Every device ends holding its block of the network's result over the whole arrays. -/
theorem result_block
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.block ⟨2, ![256, 256]⟩ ⟨2, ![4096, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg6)))
    (c : Dev Cert.KernelIdeal.nD) :
    Cert.KernelIdeal.Vals.result (F := Ideal) (Cert.KernelIdeal.Vals.argX m) (Cert.KernelIdeal.Vals.argWi m) (Cert.KernelIdeal.Vals.argWo m) c
      = Layout.block ⟨2, ![256, 256]⟩ ⟨2, ![4096, 256]⟩ 0 16 c
          (Cert.Spec.net (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6))) := by
  funext i
  obtain ⟨p, q, rfl⟩ : ∃ (p : Fin 256) (q : Fin 256), i = ix2 p q := ⟨i 0, i 1, eq_ix2 i⟩
  rw [result_apply, chunk_block m m' hagree 2 c, ← upTo_three m']
  exact shares_block m m' hagree (upTo m' 2) 2 c p q

/-- info: 'Cert.KernelIdeal.KernelValue.result_block' depends on axioms: [propext, Classical.choice, Quot.sound] -/
#guard_msgs in #print axioms result_block

end Cert.KernelIdeal.KernelValue

end
-- ==== Proof.lean ====
/-
  Sixteen devices on a ring compute three layers of x ↦ max(x · Win, 0) · Wout, each holding a block of
  the activations and of the weights. Each device program's run ends with every device's result block
  at the value model's result of the argument blocks, the argument blocks unchanged: the two frames
  are that run with the value dropped. On the extended reals that result is the device's block of the
  network over the whole arrays, which the reference's run ends with: the algebraic conjunct.
-/
import proofs.«900978_g7700000000000979_dist_mlpseq_tp1d_bs_bs_b256_d256_h512_v7x_i16_bf16_1_alg».proof.Defs
import proofs.«900978_g7700000000000979_dist_mlpseq_tp1d_bs_bs_b256_d256_h512_v7x_i16_bf16_1_alg».proof.Proof.Gen.Kernel
import proofs.«900978_g7700000000000979_dist_mlpseq_tp1d_bs_bs_b256_d256_h512_v7x_i16_bf16_1_alg».proof.Proof.Gen.Kernel.Skeleton
import proofs.«900978_g7700000000000979_dist_mlpseq_tp1d_bs_bs_b256_d256_h512_v7x_i16_bf16_1_alg».proof.Proof.Gen.Kernel.Launch
import proofs.«900978_g7700000000000979_dist_mlpseq_tp1d_bs_bs_b256_d256_h512_v7x_i16_bf16_1_alg».proof.Proof.Gen.Kernel.Points
import proofs.«900978_g7700000000000979_dist_mlpseq_tp1d_bs_bs_b256_d256_h512_v7x_i16_bf16_1_alg».proof.Proof.Gen.Kernel.Frame
import proofs.«900978_g7700000000000979_dist_mlpseq_tp1d_bs_bs_b256_d256_h512_v7x_i16_bf16_1_alg».proof.Proof.Gen.KernelIdeal
import proofs.«900978_g7700000000000979_dist_mlpseq_tp1d_bs_bs_b256_d256_h512_v7x_i16_bf16_1_alg».proof.Proof.Gen.KernelIdeal.Skeleton
import proofs.«900978_g7700000000000979_dist_mlpseq_tp1d_bs_bs_b256_d256_h512_v7x_i16_bf16_1_alg».proof.Proof.Gen.KernelIdeal.Launch
import proofs.«900978_g7700000000000979_dist_mlpseq_tp1d_bs_bs_b256_d256_h512_v7x_i16_bf16_1_alg».proof.Proof.Gen.KernelIdeal.Points
import proofs.«900978_g7700000000000979_dist_mlpseq_tp1d_bs_bs_b256_d256_h512_v7x_i16_bf16_1_alg».proof.Proof.Gen.KernelIdeal.Frame
import proofs.«900978_g7700000000000979_dist_mlpseq_tp1d_bs_bs_b256_d256_h512_v7x_i16_bf16_1_alg».proof.Proof.Gen.ReferenceIdeal
import proofs.«900978_g7700000000000979_dist_mlpseq_tp1d_bs_bs_b256_d256_h512_v7x_i16_bf16_1_alg».proof.Proof.Gen.Pre_finite_inputs_Kernel
import proofs.«900978_g7700000000000979_dist_mlpseq_tp1d_bs_bs_b256_d256_h512_v7x_i16_bf16_1_alg».proof.Proof.Gen.Pre_finite_inputs_ReferenceIdeal
import proofs.«900978_g7700000000000979_dist_mlpseq_tp1d_bs_bs_b256_d256_h512_v7x_i16_bf16_1_alg».proof.Proof.Launch
import proofs.«900978_g7700000000000979_dist_mlpseq_tp1d_bs_bs_b256_d256_h512_v7x_i16_bf16_1_alg».proof.Proof.Bits.Launch
import proofs.«900978_g7700000000000979_dist_mlpseq_tp1d_bs_bs_b256_d256_h512_v7x_i16_bf16_1_alg».proof.Proof.Body
import proofs.«900978_g7700000000000979_dist_mlpseq_tp1d_bs_bs_b256_d256_h512_v7x_i16_bf16_1_alg».proof.Proof.BodyOb
import proofs.«900978_g7700000000000979_dist_mlpseq_tp1d_bs_bs_b256_d256_h512_v7x_i16_bf16_1_alg».proof.Proof.Bits.Body
import proofs.«900978_g7700000000000979_dist_mlpseq_tp1d_bs_bs_b256_d256_h512_v7x_i16_bf16_1_alg».proof.Proof.Bits.BodyOb
import proofs.«900978_g7700000000000979_dist_mlpseq_tp1d_bs_bs_b256_d256_h512_v7x_i16_bf16_1_alg».proof.Proof.RefFrame
import proofs.«900978_g7700000000000979_dist_mlpseq_tp1d_bs_bs_b256_d256_h512_v7x_i16_bf16_1_alg».proof.Proof.RefValue
import proofs.«900978_g7700000000000979_dist_mlpseq_tp1d_bs_bs_b256_d256_h512_v7x_i16_bf16_1_alg».proof.Proof.KernelValue
import Idealize.ShloMosaic.Adequacy
import Idealize.ShloMosaic.Init

noncomputable section

namespace Cert.Proof

open Idealize.ShloMosaic Idealize.SL.Sem Cert.Kernel

/-- The five conjuncts from the two device programs' runs, each ending with every result block at the value
    model's result and the argument blocks unchanged. -/
theorem conjuncts [hKernel : Cert.Kernel.Facts] [hKernelIdeal : Cert.KernelIdeal.Facts] [hReferenceIdeal : Cert.ReferenceIdeal.Facts]
    [hPre_finite_inputs_Kernel : Cert.Pre_finite_inputs_Kernel.Facts] [hPre_finite_inputs_ReferenceIdeal : Cert.Pre_finite_inputs_ReferenceIdeal.Facts]
    (hrunB : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩
      (fun r => ∀ c : Dev Cert.Kernel.nD,
        r.2.mem ((c.tc : Thread Cert.Kernel.nD Cert.Kernel.τ).loc Cert.Kernel.main_v1) = Cert.Kernel.Dats.outAt m c
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5)
        ∧ r.2.mem ((c.tc : Thread Cert.Kernel.nD Cert.Kernel.τ).loc Cert.Kernel.main_arg6) = m ((c.tc : Thread Cert.Kernel.nD Cert.Kernel.τ).loc Cert.Kernel.main_arg6)))
    (hrunI : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1) = Cert.KernelIdeal.Dats.outAt m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))) :
    Cert.frame_Kernel ∧ Cert.frame_KernelIdeal ∧ Cert.frame_ReferenceIdeal ∧ Cert.preserves_Kernel_KernelIdeal
      ∧ Cert.algebraic_KernelIdeal_ReferenceIdeal := by
  refine ⟨?_, ?_, Cert.Proof.RefFrame.frame_ri, trivial, ?_⟩
  · exact fun m g _ => (θ_run (Cert.Kernel.defs (F := Bits)) _ _).mono (fun _ h c => (h c).2) (hrunB m g)
  · exact fun m g _ => (θ_run (Cert.KernelIdeal.defs (F := Ideal)) _ _).mono (fun _ h c => (h c).2) (hrunI m g)
  · intro m g m' g' _ hagree
    refine ⟨Cert.Spec.net (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)) (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)) (m' (((0 : Dev Cert.ReferenceIdeal.nD).tc : Thread Cert.ReferenceIdeal.nD Cert.ReferenceIdeal.τ).loc Cert.ReferenceIdeal.main_arg4)) (m' (((0 : Dev Cert.ReferenceIdeal.nD).tc : Thread Cert.ReferenceIdeal.nD Cert.ReferenceIdeal.τ).loc Cert.ReferenceIdeal.main_arg5)) (m' (((0 : Dev Cert.ReferenceIdeal.nD).tc : Thread Cert.ReferenceIdeal.nD Cert.ReferenceIdeal.τ).loc Cert.ReferenceIdeal.main_arg6)), ?_, Cert.ReferenceIdeal.RefValue.run_net m' g'⟩
    exact (θ_run (Cert.KernelIdeal.defs (F := Ideal)) _ _).mono
      (fun _ h c => ⟨(h c).1.trans (Cert.KernelIdeal.KernelValue.result_block m m' hagree c), (h c).2⟩) (hrunI m g)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  conjuncts
    (fun m ρ => Cert.Kernel.Launch.run_main (F := Bits) m ρ (Cert.Kernel.Body.body_obligation m))
    (fun m ρ => Cert.KernelIdeal.Launch.run_main (F := Ideal) m ρ (Cert.KernelIdeal.Body.body_obligation m))⟩

end Cert.Proof

end
